-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v208)) (v1 : (c : Dev Cert.KernelIdeal.nD) → Buf (Elt Ideal) ((c.tc : Thread Cert.KernelIdeal.nD Cert.KernelIdeal.τ).loc Cert.KernelIdeal.main_v249)) (v2 : (c : Dev Cert.KernelIdeal.nD) → Buf (Elt Ideal) ((c.tc : Thread Cert.KernelIdeal.nD Cert.KernelIdeal.τ).loc Cert.KernelIdeal.main_v54_0)) (v3 : (c : Dev Cert.KernelIdeal.nD) → Buf (Elt Ideal) ((c.tc : Thread Cert.KernelIdeal.nD Cert.KernelIdeal.τ).loc Cert.KernelIdeal.main_v131_0)) (v4 : (c : Dev Cert.KernelIdeal.nD) → Buf (Elt Ideal) ((c.tc : Thread Cert.KernelIdeal.nD Cert.KernelIdeal.τ).loc Cert.KernelIdeal.main_v204_0)) (v5 : (c : Dev Cert.KernelIdeal.nD) → Buf (Elt Ideal) ((c.tc : Thread Cert.KernelIdeal.nD Cert.KernelIdeal.τ).loc Cert.KernelIdeal.main_v73)) (v6 : (c : Dev Cert.KernelIdeal.nD) → Buf (Elt Ideal) ((c.tc : Thread Cert.KernelIdeal.nD Cert.KernelIdeal.τ).loc Cert.KernelIdeal.main_v146)) (v7 : (c : Dev Cert.KernelIdeal.nD) → Buf (Elt Ideal) ((c.tc : Thread Cert.KernelIdeal.nD Cert.KernelIdeal.τ).loc Cert.KernelIdeal.main_v218)) (v8 : (c : Dev Cert.KernelIdeal.nD) → Buf (Elt Ideal) ((c.tc : Thread Cert.KernelIdeal.nD Cert.KernelIdeal.τ).loc Cert.KernelIdeal.main_v87)) (v9 : (c : Dev Cert.KernelIdeal.nD) → Buf (Elt Ideal) ((c.tc : Thread Cert.KernelIdeal.nD Cert.KernelIdeal.τ).loc Cert.KernelIdeal.main_v160)) (v10 : (c : Dev Cert.KernelIdeal.nD) → Buf (Elt Ideal) ((c.tc : Thread Cert.KernelIdeal.nD Cert.KernelIdeal.τ).loc Cert.KernelIdeal.main_v232)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v208) = v0 c
          ∧ r.2.mem ((c.tc : Thread Cert.KernelIdeal.nD Cert.KernelIdeal.τ).loc Cert.KernelIdeal.main_v249) = v1 c
          ∧ r.2.mem ((c.tc : Thread Cert.KernelIdeal.nD Cert.KernelIdeal.τ).loc Cert.KernelIdeal.main_v54_0) = v2 c
          ∧ r.2.mem ((c.tc : Thread Cert.KernelIdeal.nD Cert.KernelIdeal.τ).loc Cert.KernelIdeal.main_v131_0) = v3 c
          ∧ r.2.mem ((c.tc : Thread Cert.KernelIdeal.nD Cert.KernelIdeal.τ).loc Cert.KernelIdeal.main_v204_0) = v4 c
          ∧ r.2.mem ((c.tc : Thread Cert.KernelIdeal.nD Cert.KernelIdeal.τ).loc Cert.KernelIdeal.main_v73) = v5 c
          ∧ r.2.mem ((c.tc : Thread Cert.KernelIdeal.nD Cert.KernelIdeal.τ).loc Cert.KernelIdeal.main_v146) = v6 c
          ∧ r.2.mem ((c.tc : Thread Cert.KernelIdeal.nD Cert.KernelIdeal.τ).loc Cert.KernelIdeal.main_v218) = v7 c
          ∧ r.2.mem ((c.tc : Thread Cert.KernelIdeal.nD Cert.KernelIdeal.τ).loc Cert.KernelIdeal.main_v87) = v8 c
          ∧ r.2.mem ((c.tc : Thread Cert.KernelIdeal.nD Cert.KernelIdeal.τ).loc Cert.KernelIdeal.main_v160) = v9 c
          ∧ r.2.mem ((c.tc : Thread Cert.KernelIdeal.nD Cert.KernelIdeal.τ).loc Cert.KernelIdeal.main_v232) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_v306) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v251) = v4 c
          ∧ r.2.mem ((c.tc : Thread Cert.ReferenceIdeal.nD Cert.ReferenceIdeal.τ).loc Cert.ReferenceIdeal.main_v98) = v5 c
          ∧ r.2.mem ((c.tc : Thread Cert.ReferenceIdeal.nD Cert.ReferenceIdeal.τ).loc Cert.ReferenceIdeal.main_v187) = v6 c
          ∧ r.2.mem ((c.tc : Thread Cert.ReferenceIdeal.nD Cert.ReferenceIdeal.τ).loc Cert.ReferenceIdeal.main_v273) = v7 c
          ∧ r.2.mem ((c.tc : Thread Cert.ReferenceIdeal.nD Cert.ReferenceIdeal.τ).loc Cert.ReferenceIdeal.main_v114) = v8 c
          ∧ r.2.mem ((c.tc : Thread Cert.ReferenceIdeal.nD Cert.ReferenceIdeal.τ).loc Cert.ReferenceIdeal.main_v203) = v9 c
          ∧ r.2.mem ((c.tc : Thread Cert.ReferenceIdeal.nD Cert.ReferenceIdeal.τ).loc Cert.ReferenceIdeal.main_v289) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S320000 : Shape := ⟨1, ![320000]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S512x128 : Shape := ⟨2, ![512, 128]⟩
abbrev S128 : Shape := ⟨1, ![128]⟩
abbrev S512x1 : Shape := ⟨2, ![512, 1]⟩
abbrev S1 : Shape := ⟨1, ![1]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S320000 : S_.BroadcastsInDim S320000 (![] : Fin 0 → Fin S320000.rank)
  reducesTo_S320000_S_d0 : S320000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S2x320000 : S_.BroadcastsInDim S2x320000 (![] : Fin 0 → Fin S2x320000.rank)
  reducesTo_S2x320000_S_d0_1 : S2x320000.ReducesTo [0, 1] S_

variable [Facts]

def fn_part4 {F : FTy → Type} [FloatOps F] (main_arg1 : IVec S2x320000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x320000 32 := broadcastInDim S2x320000 ![] bcast_S_S2x320000 main_c_26
  let main_v70 : IVec S2x320000 1 := cmpi .sge main_arg1 main_v69
  let main_c_27 : IVec S_ 1 := constantI S_ 1 1#1
  let main_v71 : IVec S_ 1 := (fun x v => Host.reduce IntOp.andi x v reducesTo_S2x320000_S_d0_1 h_S_) main_v70 main_c_27
  let main_v72 : IVec S_ 1 := andi main_v68 main_v71
  let main_c_28 : IVec S_ 32 := constantI S_ 32 10000#32
  let main_v73 : IVec S2x320000 32 := broadcastInDim S2x320000 ![] bcast_S_S2x320000 main_c_28
  let main_v74 : IVec S2x320000 1 := cmpi .slt main_arg1 main_v73
  let main_c_29 : IVec S_ 1 := constantI S_ 1 1#1
  let main_v75 : IVec S_ 1 := (fun x v => Host.reduce IntOp.andi x v reducesTo_S2x320000_S_d0_1 h_S_) main_v74 main_c_29
  let main_v76 : IVec S_ 1 := andi main_v72 main_v75
  main_v76

def fn_part3 {F : FTy → Type} [FloatOps F] (main_arg1 : IVec S2x320000 32) (main_arg12 : FVec F S512 .f32) (main_arg13 : FVec F S512x1 .f32) (main_arg14 : FVec F S1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1 .f32 := Host.absf main_arg13
  let main_cst_22 : FVec F S_ .f32 := constant S_ .f32 0x7F800000#32
  let main_v60 : FVec F S512x1 .f32 := broadcastInDim S512x1 ![] bcast_S_S512x1 main_cst_22
  let main_v61 : IVec S512x1 1 := cmpf .olt main_v59 main_v60
  let main_c_23 : IVec S_ 1 := constantI S_ 1 1#1
  let main_v62 : IVec S_ 1 := (fun x v => Host.reduce IntOp.andi x v reducesTo_S512x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg1 main_v63 main_v67

def fn_part2 {F : FTy → Type} [FloatOps F] (main_arg1 : IVec S2x320000 32) (main_arg8 : FVec F S512 .f32) (main_arg9 : FVec F S512x128 .f32) (main_arg10 : FVec F S128 .f32) (main_arg11 : FVec F S512x512 .f32) (main_arg12 : FVec F S512 .f32) (main_arg13 : FVec F S512x1 .f32) (main_arg14 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x128 .f32 := Host.absf main_arg9
  let main_cst_14 : FVec F S_ .f32 := constant S_ .f32 0x7F800000#32
  let main_v40 : FVec F S512x128 .f32 := broadcastInDim S512x128 ![] bcast_S_S512x128 main_cst_14
  let main_v41 : IVec S512x128 1 := cmpf .olt main_v39 main_v40
  let main_c_15 : IVec S_ 1 := constantI S_ 1 1#1
  let main_v42 : IVec S_ 1 := (fun x v => Host.reduce IntOp.andi x v reducesTo_S512x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S512x512 .f32 := Host.absf main_arg11
  let main_cst_18 : FVec F S_ .f32 := constant S_ .f32 0x7F800000#32
  let main_v50 : FVec F S512x512 .f32 := broadcastInDim S512x512 ![] bcast_S_S512x512 main_cst_18
  fn_part3 (F := F) main_arg1 main_arg12 main_arg13 main_arg14 main_v48 main_v49 main_v50

def fn_part1 {F : FTy → Type} [FloatOps F] (main_arg1 : IVec S2x320000 32) (main_arg5 : FVec F S512x1024 .f32) (main_arg6 : FVec F S1024 .f32) (main_arg7 : FVec F S512x512 .f32) (main_arg8 : FVec F S512 .f32) (main_arg9 : FVec F S512x128 .f32) (main_arg10 : FVec F S128 .f32) (main_arg11 : FVec F S512x512 .f32) (main_arg12 : FVec F S512 .f32) (main_arg13 : FVec F S512x1 .f32) (main_arg14 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1024 .f32 := Host.absf main_arg5
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S10000x512 .f32) (main_arg1 : IVec S2x320000 32) (main_arg2 : FVec F S320000 .f32) (main_arg3 : FVec F S512x512 .f32) (main_arg4 : FVec F S512 .f32) (main_arg5 : FVec F S512x1024 .f32) (main_arg6 : FVec F S1024 .f32) (main_arg7 : FVec F S512x512 .f32) (main_arg8 : FVec F S512 .f32) (main_arg9 : FVec F S512x128 .f32) (main_arg10 : FVec F S128 .f32) (main_arg11 : FVec F S512x512 .f32) (main_arg12 : FVec F S512 .f32) (main_arg13 : FVec F S512x1 .f32) (main_arg14 : FVec F S1 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S10000x512 : Shape := ⟨2, ![10000, 512]⟩
abbrev S2x320000 : Shape := ⟨2, ![2, 320000]⟩
abbrev S320000 : Shape := ⟨1, ![320000]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S512x128 : Shape := ⟨2, ![512, 128]⟩
abbrev S128 : Shape := ⟨1, ![128]⟩
abbrev S512x1 : Shape := ⟨2, ![512, 1]⟩
abbrev S1 : Shape := ⟨1, ![1]⟩
abbrev S_ : Shape := ⟨0, ![]⟩
abbrev S10240x10240 : Shape := ⟨2, ![10240, 10240]⟩
abbrev S1x320000 : Shape := ⟨2, ![1, 320000]⟩
abbrev S320000x1 : Shape := ⟨2, ![320000, 1]⟩
abbrev S320000x2 : Shape := ⟨2, ![320000, 2]⟩
abbrev S1x512 : Shape := ⟨2, ![1, 512]⟩
abbrev S1000x512 : Shape := ⟨2, ![1000, 512]⟩
abbrev S10000 : Shape := ⟨1, ![10000]⟩
abbrev S330000 : Shape := ⟨1, ![330000]⟩
abbrev S330000x1 : Shape := ⟨2, ![330000, 1]⟩
abbrev S10000x1 : Shape := ⟨2, ![10000, 1]⟩
abbrev S10240x512 : Shape := ⟨2, ![10240, 512]⟩
abbrev S1024x1024 : Shape := ⟨2, ![1024, 1024]⟩
abbrev S1024x256 : Shape := ⟨2, ![1024, 256]⟩
abbrev S1x1024 : Shape := ⟨2, ![1, 1024]⟩
abbrev S10000x1024 : Shape := ⟨2, ![10000, 1024]⟩
abbrev S1000x1024 : Shape := ⟨2, ![1000, 1024]⟩
abbrev S1000 : Shape := ⟨1, ![1000]⟩
abbrev S1000x1 : Shape := ⟨2, ![1000, 1]⟩
abbrev S10240x1024 : Shape := ⟨2, ![10240, 1024]⟩
abbrev S10240x128 : Shape := ⟨2, ![10240, 128]⟩
abbrev S1024x128 : Shape := ⟨2, ![1024, 128]⟩
abbrev S1024x1 : Shape := ⟨2, ![1024, 1]⟩
abbrev S1024x512 : Shape := ⟨2, ![1024, 512]⟩
abbrev S1x128 : Shape := ⟨2, ![1, 128]⟩
abbrev S128x512 : Shape := ⟨2, ![128, 512]⟩
abbrev S128x256 : Shape := ⟨2, ![128, 256]⟩
abbrev S128x128 : Shape := ⟨2, ![128, 128]⟩
abbrev S128x1 : Shape := ⟨2, ![128, 1]⟩
abbrev S1x1 : Shape := ⟨2, ![1, 1]⟩
abbrev S1x256 : Shape := ⟨2, ![1, 256]⟩

abbrev nBuf : Space → Nat
  | .hbm => 377
  | .vmem => 125
  | .smem => 0
  | _ => 0

abbrev hbmTy0_0 (i : Nat) : BufTy := match i % 128 with
  | 0 => ⟨S10000x512, .f32⟩
  | 1 => ⟨S2x320000, .i32⟩
  | 2 => ⟨S320000, .f32⟩
  | 3 => ⟨S512x512, .f32⟩
  | 4 => ⟨S512, .f32⟩
  | 5 => ⟨S512x1024, .f32⟩
  | 6 => ⟨S1024, .f32⟩
  | 7 => ⟨S512x512, .f32⟩
  | 8 => ⟨S512, .f32⟩
  | 9 => ⟨S512x128, .f32⟩
  | 10 => ⟨S128, .f32⟩
  | 11 => ⟨S512x512, .f32⟩
  | 12 => ⟨S512, .f32⟩
  | 13 => ⟨S512x1, .f32⟩
  | 14 => ⟨S1, .f32⟩
  | 15 => ⟨S_, .f32⟩
  | 16 => ⟨S10240x10240, .f32⟩
  | 17 => ⟨S1x320000, .i32⟩
  | 18 => ⟨S320000, .i32⟩
  | 19 => ⟨S1x320000, .i32⟩
  | 20 => ⟨S320000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x1, .i32⟩
  | 37 => ⟨S320000x2, .i32⟩
  | 38 => ⟨S10240x10240, .f32⟩
  | 39 => ⟨S_, .f32⟩
  | 40 => ⟨S512, .f32⟩
  | 41 => ⟨S1x512, .f32⟩
  | 42 => ⟨S10000x512, .f32⟩
  | 43 => ⟨S10000, .i32⟩
  | 44 => ⟨S1x320000, .i32⟩
  | 45 => ⟨S320000, .i32⟩
  | 46 => ⟨S330000, .i32⟩
  | 47 => ⟨S_, .f32⟩
  | 48 => ⟨S10000, .f32⟩
  | 49 => ⟨S330000, .f32⟩
  | 50 => ⟨S_, .f32⟩
  | 51 => ⟨S10000, .f32⟩
  | 52 => ⟨S330000x1, .i32⟩
  | 53 => ⟨S10000, .f32⟩
  | 54 => ⟨S_, .f32⟩
  | 55 => ⟨S10000, .f32⟩
  | 56 => ⟨S10000, .i1⟩
  | 57 => ⟨S10000, .f32⟩
  | 58 => ⟨S_, .f32⟩
  | 59 => ⟨S_, .f32⟩
  | 60 => ⟨S10000, .f32⟩
  | 61 => ⟨S10000, .f32⟩
  | 62 => ⟨S10000x1, .f32⟩
  | 63 => ⟨S10000x512, .f32⟩
  | 64 => ⟨S10000x512, .f32⟩
  | 65 => ⟨S_, .i32⟩
  | 66 => ⟨S_, .f32⟩
  | 67 => ⟨S10240x512, .f32⟩
  | 68 => ⟨S10240x512, .f32⟩
  | 69 => ⟨S10000x1, .f32⟩
  | 70 => ⟨S10000x512, .f32⟩
  | 71 => ⟨S10000x512, .f32⟩
  | 72 => ⟨S10000x512, .f32⟩
  | 73 => ⟨S10000, .f32⟩
  | 74 => ⟨S10000x1, .f32⟩
  | 75 => ⟨S10000x512, .f32⟩
  | 76 => ⟨S10000x512, .f32⟩
  | 77 => ⟨S10000x512, .f32⟩
  | 78 => ⟨S1x512, .f32⟩
  | 79 => ⟨S10000x512, .f32⟩
  | 80 => ⟨S10000x512, .f32⟩
  | 81 => ⟨S_, .f32⟩
  | 82 => ⟨S10000x512, .f32⟩
  | 83 => ⟨S10000x512, .f32⟩
  | 84 => ⟨S1x1024, .f32⟩
  | 85 => ⟨S10000x1024, .f32⟩
  | 86 => ⟨S10000x1024, .bf16⟩
  | 87 => ⟨S_, .i32⟩
  | 88 => ⟨S_, .bf16⟩
  | 89 => ⟨S10240x1024, .bf16⟩
  | 90 => ⟨S_, .i32⟩
  | 91 => ⟨S_, .f32⟩
  | 92 => ⟨S10240x512, .f32⟩
  | 93 => ⟨S_, .f32⟩
  | 94 => ⟨S1x1024, .f32⟩
  | 95 => ⟨S10240x1024, .bf16⟩
  | 96 => ⟨S10240x128, .f32⟩
  | 97 => ⟨S10000x1, .f32⟩
  | 98 => ⟨S10000, .f32⟩
  | 99 => ⟨S1024x512, .f32⟩
  | 100 => ⟨S1024x1024, .f32⟩
  | 101 => ⟨S1024x1024, .f32⟩
  | 102 => ⟨S1024x1024, .i32⟩
  | 103 => ⟨S1024x1024, .i32⟩
  | 104 => ⟨S_, .i32⟩
  | 105 => ⟨S1024x1024, .i32⟩
  | 106 => ⟨S1024x1024, .i32⟩
  | 107 => ⟨S1024x1024, .i1⟩
  | 108 => ⟨S_, .f32⟩
  | 109 => ⟨S1024x1024, .f32⟩
  | 110 => ⟨S1024x1024, .f32⟩
  | 111 => ⟨S_, .f32⟩
  | 112 => ⟨S_, .f32⟩
  | 113 => ⟨S10000x1, .f32⟩
  | 114 => ⟨S10000x1024, .f32⟩
  | 115 => ⟨S10000x1024, .f32⟩
  | 116 => ⟨S10000x1024, .f32⟩
  | 117 => ⟨S10000x1024, .f32⟩
  | 118 => ⟨S10000x1024, .f32⟩
  | 119 => ⟨S_, .f32⟩
  | 120 => ⟨S_, .f32⟩
  | 121 => ⟨S_, .f32⟩
  | 122 => ⟨S_, .f32⟩
  | 123 => ⟨S1024x1024, .f32⟩
  | 124 => ⟨S_, .f32⟩
  | 125 => ⟨S_, .f32⟩
  | 126 => ⟨S_, .f32⟩
  | 127 => ⟨S1024x1024, .f32⟩
  | _ => ⟨S10000x512, .f32⟩

abbrev hbmTy0_1 (i : Nat) : BufTy := match i % 128 with
  | 0 => ⟨S1024x1024, .f32⟩
  | 1 => ⟨S1024x1024, .i32⟩
  | 2 => ⟨S1024x1024, .i32⟩
  | 3 => ⟨S_, .i32⟩
  | 4 => ⟨S1024x1024, .i32⟩
  | 5 => ⟨S1024x1024, .i32⟩
  | 6 => ⟨S1024x1024, .i1⟩
  | 7 => ⟨S1024x1024, .f32⟩
  | 8 => ⟨S_, .f32⟩
  | 9 => ⟨S_, .f32⟩
  | 10 => ⟨S1024x1024, .f32⟩
  | 11 => ⟨S1024x1024, .f32⟩
  | 12 => ⟨S1024x1024, .f32⟩
  | 13 => ⟨S1024x1024, .f32⟩
  | 14 => ⟨S_, .f32⟩
  | 15 => ⟨S_, .f32⟩
  | 16 => ⟨S_, .f32⟩
  | 17 => ⟨S1024x1024, .i32⟩
  | 18 => ⟨S1024x1024, .i32⟩
  | 19 => ⟨S_, .i32⟩
  | 20 => ⟨S1024x1024, .i32⟩
  | 21 => ⟨S1024x1024, .i32⟩
  | 22 => ⟨S1024x1024, .i1⟩
  | 23 => ⟨S1024x1024, .f32⟩
  | 24 => ⟨S_, .f32⟩
  | 25 => ⟨S1024x1024, .f32⟩
  | 26 => ⟨S1024x1024, .f32⟩
  | 27 => ⟨S1024x1024, .f32⟩
  | 28 => ⟨S_, .f32⟩
  | 29 => ⟨S1024, .f32⟩
  | 30 => ⟨S1024, .f32⟩
  | 31 => ⟨S1024x1, .f32⟩
  | 32 => ⟨S_, .f32⟩
  | 33 => ⟨S1024x1, .f32⟩
  | 34 => ⟨S1024x1, .f32⟩
  | 35 => ⟨S1024x1024, .f32⟩
  | 36 => ⟨S1024x1024, .f32⟩
  | 37 => ⟨S1x1024, .f32⟩
  | 38 => ⟨S1024x1024, .f32⟩
  | 39 => ⟨S1024x1024, .f32⟩
  | 40 => ⟨S1024x1024, .i32⟩
  | 41 => ⟨S1024x1024, .i32⟩
  | 42 => ⟨S_, .i32⟩
  | 43 => ⟨S1024x1024, .i32⟩
  | 44 => ⟨S1024x1024, .i32⟩
  | 45 => ⟨S1024x1024, .i1⟩
  | 46 => ⟨S1024x1024, .f32⟩
  | 47 => ⟨S1024x1024, .f32⟩
  | 48 => ⟨S_, .f32⟩
  | 49 => ⟨S1024, .f32⟩
  | 50 => ⟨S_, .f32⟩
  | 51 => ⟨S1024, .f32⟩
  | 52 => ⟨S1024, .i1⟩
  | 53 => ⟨S1024, .f32⟩
  | 54 => ⟨S_, .f32⟩
  | 55 => ⟨S_, .f32⟩
  | 56 => ⟨S1024, .f32⟩
  | 57 => ⟨S1024, .f32⟩
  | 58 => ⟨S1024x1, .f32⟩
  | 59 => ⟨S1024x1024, .f32⟩
  | 60 => ⟨S1024x1024, .f32⟩
  | 61 => ⟨S1x1024, .f32⟩
  | 62 => ⟨S1024x1024, .f32⟩
  | 63 => ⟨S1024x1024, .f32⟩
  | 64 => ⟨S_, .f32⟩
  | 65 => ⟨S512, .f32⟩
  | 66 => ⟨S1x512, .f32⟩
  | 67 => ⟨S1024x512, .f32⟩
  | 68 => ⟨S1x512, .f32⟩
  | 69 => ⟨S1024x512, .f32⟩
  | 70 => ⟨S1x128, .f32⟩
  | 71 => ⟨S1024x128, .f32⟩
  | 72 => ⟨S1024x128, .f32⟩
  | 73 => ⟨S_, .f32⟩
  | 74 => ⟨S128, .f32⟩
  | 75 => ⟨S1x128, .f32⟩
  | 76 => ⟨S1024x128, .f32⟩
  | 77 => ⟨S128x512, .f32⟩
  | 78 => ⟨S128x128, .f32⟩
  | 79 => ⟨S128x128, .f32⟩
  | 80 => ⟨S128x128, .i32⟩
  | 81 => ⟨S128x128, .i32⟩
  | 82 => ⟨S_, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S_, .f32⟩
  | 90 => ⟨S_, .f32⟩
  | 91 => ⟨S_, .f32⟩
  | 92 => ⟨S1024, .f32⟩
  | 93 => ⟨S1024x1, .f32⟩
  | 94 => ⟨S1024x128, .f32⟩
  | 95 => ⟨S1024x128, .f32⟩
  | 96 => ⟨S1024x128, .f32⟩
  | 97 => ⟨S_, .f32⟩
  | 98 => ⟨S_, .f32⟩
  | 99 => ⟨S_, .f32⟩
  | 100 => ⟨S_, .f32⟩
  | 101 => ⟨S128x128, .f32⟩
  | 102 => ⟨S_, .f32⟩
  | 103 => ⟨S_, .f32⟩
  | 104 => ⟨S_, .f32⟩
  | 105 => ⟨S128x128, .f32⟩
  | 106 => ⟨S128x128, .f32⟩
  | 107 => ⟨S128x128, .i32⟩
  | 108 => ⟨S128x128, .i32⟩
  | 109 => ⟨S_, .i32⟩
  | 110 => ⟨S128x128, .i32⟩
  | 111 => ⟨S128x128, .i32⟩
  | 112 => ⟨S128x128, .i1⟩
  | 113 => ⟨S128x128, .f32⟩
  | 114 => ⟨S_, .f32⟩
  | 115 => ⟨S_, .f32⟩
  | 116 => ⟨S128x128, .f32⟩
  | 117 => ⟨S128x128, .f32⟩
  | 118 => ⟨S128x128, .f32⟩
  | 119 => ⟨S128x128, .f32⟩
  | 120 => ⟨S_, .f32⟩
  | 121 => ⟨S_, .f32⟩
  | 122 => ⟨S_, .f32⟩
  | 123 => ⟨S128x128, .i32⟩
  | 124 => ⟨S128x128, .i32⟩
  | 125 => ⟨S_, .i32⟩
  | 126 => ⟨S128x128, .i32⟩
  | 127 => ⟨S128x128, .i32⟩
  | _ => ⟨S10000x512, .f32⟩

abbrev hbmTy0_2 (i : Nat) : BufTy := match i % 128 with
  | 0 => ⟨S128x128, .i1⟩
  | 1 => ⟨S128x128, .f32⟩
  | 2 => ⟨S_, .f32⟩
  | 3 => ⟨S128x128, .f32⟩
  | 4 => ⟨S128x128, .f32⟩
  | 5 => ⟨S128x128, .f32⟩
  | 6 => ⟨S_, .f32⟩
  | 7 => ⟨S128, .f32⟩
  | 8 => ⟨S128, .f32⟩
  | 9 => ⟨S128x1, .f32⟩
  | 10 => ⟨S_, .f32⟩
  | 11 => ⟨S128x1, .f32⟩
  | 12 => ⟨S128x1, .f32⟩
  | 13 => ⟨S128x128, .f32⟩
  | 14 => ⟨S128x128, .f32⟩
  | 15 => ⟨S1x128, .f32⟩
  | 16 => ⟨S128x128, .f32⟩
  | 17 => ⟨S128x128, .f32⟩
  | 18 => ⟨S128x128, .i32⟩
  | 19 => ⟨S128x128, .i32⟩
  | 20 => ⟨S_, .i32⟩
  | 21 => ⟨S128x128, .i32⟩
  | 22 => ⟨S128x128, .i32⟩
  | 23 => ⟨S128x128, .i1⟩
  | 24 => ⟨S128x128, .f32⟩
  | 25 => ⟨S128x128, .f32⟩
  | 26 => ⟨S_, .f32⟩
  | 27 => ⟨S128, .f32⟩
  | 28 => ⟨S_, .f32⟩
  | 29 => ⟨S128, .f32⟩
  | 30 => ⟨S128, .i1⟩
  | 31 => ⟨S128, .f32⟩
  | 32 => ⟨S_, .f32⟩
  | 33 => ⟨S_, .f32⟩
  | 34 => ⟨S128, .f32⟩
  | 35 => ⟨S128, .f32⟩
  | 36 => ⟨S128x1, .f32⟩
  | 37 => ⟨S128x128, .f32⟩
  | 38 => ⟨S128x128, .f32⟩
  | 39 => ⟨S1x128, .f32⟩
  | 40 => ⟨S128x128, .f32⟩
  | 41 => ⟨S128x128, .f32⟩
  | 42 => ⟨S_, .f32⟩
  | 43 => ⟨S512, .f32⟩
  | 44 => ⟨S1x512, .f32⟩
  | 45 => ⟨S128x512, .f32⟩
  | 46 => ⟨S1x512, .f32⟩
  | 47 => ⟨S128x512, .f32⟩
  | 48 => ⟨S1x1, .f32⟩
  | 49 => ⟨S128x1, .f32⟩
  | 50 => ⟨S128x1, .f32⟩
  | 51 => ⟨S_, .f32⟩
  | 52 => ⟨S1, .f32⟩
  | 53 => ⟨S1x1, .f32⟩
  | 54 => ⟨S128x1, .f32⟩
  | 55 => ⟨S1x512, .f32⟩
  | 56 => ⟨S1x1, .f32⟩
  | 57 => ⟨S1x1, .f32⟩
  | 58 => ⟨S1x1, .i32⟩
  | 59 => ⟨S1x1, .i32⟩
  | 60 => ⟨S_, .i32⟩
  | 61 => ⟨S1x1, .i32⟩
  | 62 => ⟨S1x1, .i32⟩
  | 63 => ⟨S1x1, .i1⟩
  | 64 => ⟨S_, .f32⟩
  | 65 => ⟨S1x1, .f32⟩
  | 66 => ⟨S1x1, .f32⟩
  | 67 => ⟨S_, .f32⟩
  | 68 => ⟨S_, .f32⟩
  | 69 => ⟨S_, .f32⟩
  | 70 => ⟨S128, .f32⟩
  | 71 => ⟨S128x1, .f32⟩
  | 72 => ⟨S128x1, .f32⟩
  | 73 => ⟨S128x1, .f32⟩
  | 74 => ⟨S_, .f32⟩
  | 75 => ⟨S_, .f32⟩
  | 76 => ⟨S_, .f32⟩
  | 77 => ⟨S_, .f32⟩
  | 78 => ⟨S1x1, .f32⟩
  | 79 => ⟨S_, .f32⟩
  | 80 => ⟨S_, .f32⟩
  | 81 => ⟨S_, .f32⟩
  | 82 => ⟨S1x1, .f32⟩
  | 83 => ⟨S1x1, .f32⟩
  | 84 => ⟨S1x1, .i32⟩
  | 85 => ⟨S1x1, .i32⟩
  | 86 => ⟨S_, .i32⟩
  | 87 => ⟨S1x1, .i32⟩
  | 88 => ⟨S1x1, .i32⟩
  | 89 => ⟨S1x1, .i1⟩
  | 90 => ⟨S1x1, .f32⟩
  | 91 => ⟨S_, .f32⟩
  | 92 => ⟨S_, .f32⟩
  | 93 => ⟨S1x1, .f32⟩
  | 94 => ⟨S1x1, .f32⟩
  | 95 => ⟨S1x1, .f32⟩
  | 96 => ⟨S1x1, .f32⟩
  | 97 => ⟨S_, .f32⟩
  | 98 => ⟨S_, .f32⟩
  | 99 => ⟨S_, .f32⟩
  | 100 => ⟨S1x1, .i32⟩
  | 101 => ⟨S1x1, .i32⟩
  | 102 => ⟨S_, .i32⟩
  | 103 => ⟨S1x1, .i32⟩
  | 104 => ⟨S1x1, .i32⟩
  | 105 => ⟨S1x1, .i1⟩
  | 106 => ⟨S1x1, .f32⟩
  | 107 => ⟨S_, .f32⟩
  | 108 => ⟨S1x1, .f32⟩
  | 109 => ⟨S1x1, .f32⟩
  | 110 => ⟨S1x1, .f32⟩
  | 111 => ⟨S_, .f32⟩
  | 112 => ⟨S1, .f32⟩
  | 113 => ⟨S1, .f32⟩
  | 114 => ⟨S1x1, .f32⟩
  | 115 => ⟨S_, .f32⟩
  | 116 => ⟨S1x1, .f32⟩
  | 117 => ⟨S1x1, .f32⟩
  | 118 => ⟨S1x1, .f32⟩
  | 119 => ⟨S1x1, .f32⟩
  | 120 => ⟨S1x1, .f32⟩
  | _ => ⟨S10000x512, .f32⟩

abbrev hbmTy (i : Nat) : BufTy := match i / 128 with
  | 0 => hbmTy0_0 i
  | 1 => hbmTy0_1 i
  | 2 => hbmTy0_2 i
  | _ => ⟨S10000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1024x1024, .f32⟩
  | .local _ .vmem, ⟨8, _⟩ => ⟨S1024x1024, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1000x512, .f32⟩
  | .local _ .vmem, ⟨15, _⟩ => ⟨S1000x512, .f32⟩
  | .local _ .vmem, ⟨16, _⟩ => ⟨S512x1024, .f32⟩
  | .local _ .vmem, ⟨17, _⟩ => ⟨S1x1024, .f32⟩
  | .local _ .vmem, ⟨18, _⟩ => ⟨S1000x1024, .f32⟩
  | .local _ .vmem, ⟨19, _⟩ => ⟨S1000x1024, .f32⟩
  | .local _ .vmem, ⟨20, _⟩ => ⟨S1000x1024, .bf16⟩
  | .local _ .vmem, ⟨21, _⟩ => ⟨S1000x1024, .bf16⟩
  | .local _ .vmem, ⟨22, _⟩ => ⟨S1000x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S1024x1024, .bf16⟩
  | .local _ .vmem, ⟨29, _⟩ => ⟨S1024x1024, .bf16⟩
  | .local _ .vmem, ⟨30, _⟩ => ⟨S1024x128, .f32⟩
  | .local _ .vmem, ⟨31, _⟩ => ⟨S1024x128, .f32⟩
  | .local _ .vmem, ⟨32, _⟩ => ⟨S1024x1024, .f32⟩
  | .local _ .vmem, ⟨33, _⟩ => ⟨S1024x128, .f32⟩
  | .local _ .vmem, ⟨34, _⟩ => ⟨S1024x1024, .bf16⟩
  | .local _ .vmem, ⟨35, _⟩ => ⟨S1024x1024, .bf16⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | .local _ .vmem, ⟨41, _⟩ => ⟨S1024x1024, .bf16⟩
  | .local _ .vmem, ⟨42, _⟩ => ⟨S1024x1024, .bf16⟩
  | .local _ .vmem, ⟨43, _⟩ => ⟨S1024x512, .bf16⟩
  | .local _ .vmem, ⟨44, _⟩ => ⟨S1024x512, .bf16⟩
  | .local _ .vmem, ⟨45, _⟩ => ⟨S1024x512, .f32⟩
  | .local _ .vmem, ⟨46, _⟩ => ⟨S1024x512, .f32⟩
  | .local _ .vmem, ⟨47, _⟩ => ⟨S1024x512, .f32⟩
  | .local _ .vmem, ⟨48, _⟩ => ⟨S1024x1024, .bf16⟩
  | .local _ .vmem, ⟨49, _⟩ => ⟨S1024x1024, .bf16⟩
  | .local _ .vmem, ⟨50, _⟩ => ⟨S1024x512, .bf16⟩
  | .local _ .vmem, ⟨51, _⟩ => ⟨S1024x512, .bf16⟩
  | .local _ .vmem, ⟨52, _⟩ => ⟨S1024x512, .f32⟩
  | .local _ .vmem, ⟨53, _⟩ => ⟨S1024x512, .f32⟩
  | .local _ .vmem, ⟨54, _⟩ => ⟨S1024x512, .f32⟩
  | .local _ .vmem, ⟨55, _⟩ => ⟨S1024x512, .f32⟩
  | .local _ .vmem, ⟨56, _⟩ => ⟨S512x512, .f32⟩
  | .local _ .vmem, ⟨57, _⟩ => ⟨S1x512, .f32⟩
  | .local _ .vmem, ⟨58, _⟩ => ⟨S1024x512, .f32⟩
  | .local _ .vmem, ⟨59, _⟩ => ⟨S1024x512, .f32⟩
  | .local _ .vmem, ⟨60, _⟩ => ⟨S1024x1024, .f32⟩
  | .local _ .vmem, ⟨61, _⟩ => ⟨S1024x512, .f32⟩
  | .local _ .vmem, ⟨62, _⟩ => ⟨S1x512, .f32⟩
  | .local _ .vmem, ⟨63, _⟩ => ⟨S1024x512, .f32⟩
  | .local _ .vmem, ⟨64, _⟩ => ⟨S1024x512, .f32⟩
  | .local _ .vmem, ⟨65, _⟩ => ⟨S1024x512, .f32⟩
  | .local _ .vmem, ⟨66, _⟩ => ⟨S512x128, .f32⟩
  | .local _ .vmem, ⟨67, _⟩ => ⟨S1x128, .f32⟩
  | .local _ .vmem, ⟨68, _⟩ => ⟨S1024x128, .f32⟩
  | .local _ .vmem, ⟨69, _⟩ => ⟨S1024x128, .f32⟩
  | .local _ .vmem, ⟨70, _⟩ => ⟨S1024x128, .f32⟩
  | .local _ .vmem, ⟨71, _⟩ => ⟨S1024x1024, .f32⟩
  | .local _ .vmem, ⟨72, _⟩ => ⟨S1024x128, .f32⟩
  | .local _ .vmem, ⟨73, _⟩ => ⟨S1x128, .f32⟩
  | .local _ .vmem, ⟨74, _⟩ => ⟨S1024x128, .f32⟩
  | .local _ .vmem, ⟨75, _⟩ => ⟨S1024x128, .f32⟩
  | .local _ .vmem, ⟨76, _⟩ => ⟨S1024x128, .f32⟩
  | .local _ .vmem, ⟨77, _⟩ => ⟨S1024x256, .f32⟩
  | .local _ .vmem, ⟨78, _⟩ => ⟨S1024x256, .f32⟩
  | .local _ .vmem, ⟨79, _⟩ => ⟨S128x256, .f32⟩
  | .local _ .vmem, ⟨80, _⟩ => ⟨S128x256, .f32⟩
  | .local _ .vmem, ⟨81, _⟩ => ⟨S128x256, .f32⟩
  | .local _ .vmem, ⟨82, _⟩ => ⟨S1024x128, .f32⟩
  | .local _ .vmem, ⟨83, _⟩ => ⟨S1024x128, .f32⟩
  | .local _ .vmem, ⟨84, _⟩ => ⟨S128x128, .f32⟩
  | .local _ .vmem, ⟨85, _⟩ => ⟨S128x128, .f32⟩
  | .local _ .vmem, ⟨86, _⟩ => ⟨S1024x128, .f32⟩
  | .local _ .vmem, ⟨87, _⟩ => ⟨S1024x128, .f32⟩
  | .local _ .vmem, ⟨88, _⟩ => ⟨S128x128, .f32⟩
  | .local _ .vmem, ⟨89, _⟩ => ⟨S128x128, .f32⟩
  | .local _ .vmem, ⟨90, _⟩ => ⟨S128x512, .f32⟩
  | .local _ .vmem, ⟨91, _⟩ => ⟨S512x512, .f32⟩
  | .local _ .vmem, ⟨92, _⟩ => ⟨S1x512, .f32⟩
  | .local _ .vmem, ⟨93, _⟩ => ⟨S128x512, .f32⟩
  | .local _ .vmem, ⟨94, _⟩ => ⟨S128x512, .f32⟩
  | .local _ .vmem, ⟨95, _⟩ => ⟨S128x128, .f32⟩
  | .local _ .vmem, ⟨96, _⟩ => ⟨S128x512, .f32⟩
  | .local _ .vmem, ⟨97, _⟩ => ⟨S1x512, .f32⟩
  | .local _ .vmem, ⟨98, _⟩ => ⟨S128x512, .f32⟩
  | .local _ .vmem, ⟨99, _⟩ => ⟨S128x512, .f32⟩
  | .local _ .vmem, ⟨100, _⟩ => ⟨S128x512, .f32⟩
  | .local _ .vmem, ⟨101, _⟩ => ⟨S512x1, .f32⟩
  | .local _ .vmem, ⟨102, _⟩ => ⟨S1x1, .f32⟩
  | .local _ .vmem, ⟨103, _⟩ => ⟨S128x1, .f32⟩
  | .local _ .vmem, ⟨104, _⟩ => ⟨S128x1, .f32⟩
  | .local _ .vmem, ⟨105, _⟩ => ⟨S128x1, .f32⟩
  | .local _ .vmem, ⟨106, _⟩ => ⟨S128x128, .f32⟩
  | .local _ .vmem, ⟨107, _⟩ => ⟨S128x1, .f32⟩
  | .local _ .vmem, ⟨108, _⟩ => ⟨S1x1, .f32⟩
  | .local _ .vmem, ⟨109, _⟩ => ⟨S128x1, .f32⟩
  | .local _ .vmem, ⟨110, _⟩ => ⟨S128x1, .f32⟩
  | .local _ .vmem, ⟨111, _⟩ => ⟨S128x1, .f32⟩
  | .local _ .vmem, ⟨112, _⟩ => ⟨S128x256, .f32⟩
  | .local _ .vmem, ⟨113, _⟩ => ⟨S128x256, .f32⟩
  | .local _ .vmem, ⟨114, _⟩ => ⟨S1x256, .f32⟩
  | .local _ .vmem, ⟨115, _⟩ => ⟨S1x256, .f32⟩
  | .local _ .vmem, ⟨116, _⟩ => ⟨S1x256, .f32⟩
  | .local _ .vmem, ⟨117, _⟩ => ⟨S128x1, .f32⟩
  | .local _ .vmem, ⟨118, _⟩ => ⟨S128x1, .f32⟩
  | .local _ .vmem, ⟨119, _⟩ => ⟨S1x1, .f32⟩
  | .local _ .vmem, ⟨120, _⟩ => ⟨S1x1, .f32⟩
  | .local _ .vmem, ⟨121, _⟩ => ⟨S128x1, .f32⟩
  | .local _ .vmem, ⟨122, _⟩ => ⟨S128x1, .f32⟩
  | .local _ .vmem, ⟨123, _⟩ => ⟨S1x1, .f32⟩
  | .local _ .vmem, ⟨124, _⟩ => ⟨S1x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | _, _ => false

abbrev semScoped : Fin 0 → Bool
  | ⟨_, h⟩ => absurd h (Nat.not_lt_zero _)

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTc nBuf bufTy 0 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_call0_v0 : Ref sig .tc := ⟨.hbm, 59, rfl⟩
abbrev main_call0_v1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_call1_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call2_cst : Ref sig .tc := ⟨.hbm, 81, rfl⟩
abbrev main_call2_v0 : Ref sig .tc := ⟨.hbm, 82, rfl⟩
abbrev main_v52 : Ref sig .tc := ⟨.hbm, 83, rfl⟩
abbrev main_v53 : Ref sig .tc := ⟨.hbm, 84, rfl⟩
abbrev main_v54_0 : Ref sig .tc := ⟨.hbm, 85, rfl⟩
abbrev main_v54_1 : Ref sig .tc := ⟨.hbm, 86, rfl⟩
abbrev main_c_9 : Ref sig .tc := ⟨.hbm, 87, rfl⟩
abbrev main_call3_v0 : Ref sig .tc := ⟨.hbm, 88, rfl⟩
abbrev main_v55 : Ref sig .tc := ⟨.hbm, 89, rfl⟩
abbrev main_c_10 : Ref sig .tc := ⟨.hbm, 90, rfl⟩
abbrev main_call4_v0 : Ref sig .tc := ⟨.hbm, 91, rfl⟩
abbrev main_v56 : Ref sig .tc := ⟨.hbm, 92, rfl⟩
abbrev main_cst_11 : Ref sig .tc := ⟨.hbm, 93, rfl⟩
abbrev main_v57 : Ref sig .tc := ⟨.hbm, 94, rfl⟩
abbrev main_v58_0 : Ref sig .tc := ⟨.hbm, 95, rfl⟩
abbrev main_v58_1 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call5_v0 : Ref sig .tc := ⟨.hbm, 102, rfl⟩
abbrev main_call5_v1 : Ref sig .tc := ⟨.hbm, 103, rfl⟩
abbrev main_call5_c : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_cst : Ref sig .tc := ⟨.hbm, 108, rfl⟩
abbrev main_call5_v5 : Ref sig .tc := ⟨.hbm, 109, rfl⟩
abbrev main_call5_v6 : Ref sig .tc := ⟨.hbm, 110, rfl⟩
abbrev main_call5_cst_0 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_12 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_call6_v0 : Ref sig .tc := ⟨.hbm, 123, rfl⟩
abbrev main_call6_cst : Ref sig .tc := ⟨.hbm, 124, rfl⟩
abbrev main_call6_v1 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_13 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_14 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_call7_v0 : Ref sig .tc := ⟨.hbm, 141, rfl⟩
abbrev main_call7_cst : Ref sig .tc := ⟨.hbm, 142, rfl⟩
abbrev main_call7_v1 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_c_15 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_16 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_17 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_18 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_c_19 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_cst_20 : Ref sig .tc := ⟨.hbm, 176, rfl⟩
abbrev main_v114 : Ref sig .tc := ⟨.hbm, 177, rfl⟩
abbrev main_cst_21 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_cst_22 : Ref sig .tc := ⟨.hbm, 182, rfl⟩
abbrev main_call8_v0 : Ref sig .tc := ⟨.hbm, 183, rfl⟩
abbrev main_call8_v1 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_cst_23 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131_0 : Ref sig .tc := ⟨.hbm, 199, rfl⟩
abbrev main_v131_1 : Ref sig .tc := ⟨.hbm, 200, rfl⟩
abbrev main_cst_24 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_call9_v0 : Ref sig .tc := ⟨.hbm, 208, rfl⟩
abbrev main_call9_v1 : Ref sig .tc := ⟨.hbm, 209, rfl⟩
abbrev main_call9_c : Ref sig .tc := ⟨.hbm, 210, rfl⟩
abbrev main_call9_v2 : Ref sig .tc := ⟨.hbm, 211, rfl⟩
abbrev main_call9_v3 : Ref sig .tc := ⟨.hbm, 212, rfl⟩
abbrev main_call9_v4 : Ref sig .tc := ⟨.hbm, 213, rfl⟩
abbrev main_call9_cst : Ref sig .tc := ⟨.hbm, 214, rfl⟩
abbrev main_call9_v5 : Ref sig .tc := ⟨.hbm, 215, rfl⟩
abbrev main_call9_v6 : Ref sig .tc := ⟨.hbm, 216, rfl⟩
abbrev main_call9_cst_0 : Ref sig .tc := ⟨.hbm, 217, rfl⟩
abbrev main_v138 : Ref sig .tc := ⟨.hbm, 218, rfl⟩
abbrev main_cst_25 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_cst_26 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_call10_v0 : Ref sig .tc := ⟨.hbm, 229, rfl⟩
abbrev main_call10_cst : Ref sig .tc := ⟨.hbm, 230, rfl⟩
abbrev main_call10_v1 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_c_27 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_cst_28 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_call11_v0 : Ref sig .tc := ⟨.hbm, 247, rfl⟩
abbrev main_call11_cst : Ref sig .tc := ⟨.hbm, 248, rfl⟩
abbrev main_call11_v1 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_c_29 : Ref sig .tc := ⟨.hbm, 253, rfl⟩
abbrev main_v163 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_cst_30 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_cst_31 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_cst_32 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_c_33 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_cst_34 : Ref sig .tc := ⟨.hbm, 282, rfl⟩
abbrev main_v187 : Ref sig .tc := ⟨.hbm, 283, rfl⟩
abbrev main_cst_35 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_cst_36 : Ref sig .tc := ⟨.hbm, 288, rfl⟩
abbrev main_call12_v0 : Ref sig .tc := ⟨.hbm, 289, rfl⟩
abbrev main_call12_v1 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_cst_37 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204_0 : Ref sig .tc := ⟨.hbm, 305, rfl⟩
abbrev main_v204_1 : Ref sig .tc := ⟨.hbm, 306, rfl⟩
abbrev main_cst_38 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_call13_v0 : Ref sig .tc := ⟨.hbm, 314, rfl⟩
abbrev main_call13_v1 : Ref sig .tc := ⟨.hbm, 315, rfl⟩
abbrev main_call13_c : Ref sig .tc := ⟨.hbm, 316, rfl⟩
abbrev main_call13_v2 : Ref sig .tc := ⟨.hbm, 317, rfl⟩
abbrev main_call13_v3 : Ref sig .tc := ⟨.hbm, 318, rfl⟩
abbrev main_call13_v4 : Ref sig .tc := ⟨.hbm, 319, rfl⟩
abbrev main_call13_cst : Ref sig .tc := ⟨.hbm, 320, rfl⟩
abbrev main_call13_v5 : Ref sig .tc := ⟨.hbm, 321, rfl⟩
abbrev main_call13_v6 : Ref sig .tc := ⟨.hbm, 322, rfl⟩
abbrev main_call13_cst_0 : Ref sig .tc := ⟨.hbm, 323, rfl⟩
abbrev main_v211 : Ref sig .tc := ⟨.hbm, 324, rfl⟩
abbrev main_cst_39 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_v215 : Ref sig .tc := ⟨.hbm, 329, rfl⟩
abbrev main_cst_40 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_call14_v0 : Ref sig .tc := ⟨.hbm, 334, rfl⟩
abbrev main_call14_cst : Ref sig .tc := ⟨.hbm, 335, rfl⟩
abbrev main_call14_v1 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_c_41 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_cst_42 : Ref sig .tc := ⟨.hbm, 347, rfl⟩
abbrev main_v228 : Ref sig .tc := ⟨.hbm, 348, rfl⟩
abbrev main_v229 : Ref sig .tc := ⟨.hbm, 349, rfl⟩
abbrev main_v230 : Ref sig .tc := ⟨.hbm, 350, rfl⟩
abbrev main_v231 : Ref sig .tc := ⟨.hbm, 351, rfl⟩
abbrev main_call15_v0 : Ref sig .tc := ⟨.hbm, 352, rfl⟩
abbrev main_call15_cst : Ref sig .tc := ⟨.hbm, 353, rfl⟩
abbrev main_call15_v1 : Ref sig .tc := ⟨.hbm, 354, rfl⟩
abbrev main_v232 : Ref sig .tc := ⟨.hbm, 355, rfl⟩
abbrev main_v233 : Ref sig .tc := ⟨.hbm, 356, rfl⟩
abbrev main_v234 : Ref sig .tc := ⟨.hbm, 357, rfl⟩
abbrev main_c_43 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_cst_44 : Ref sig .tc := ⟨.hbm, 363, rfl⟩
abbrev main_v239 : Ref sig .tc := ⟨.hbm, 364, rfl⟩
abbrev main_v240 : Ref sig .tc := ⟨.hbm, 365, rfl⟩
abbrev main_v241 : Ref sig .tc := ⟨.hbm, 366, rfl⟩
abbrev main_cst_45 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_cst_46 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_scratch0 : Ref sig .tc := ⟨.vmem, 32, rfl⟩
abbrev cc3_scratch1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_scratch0 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_scratch0 : Ref sig .tc := ⟨.vmem, 54, rfl⟩
abbrev cc7_stg0_0 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_scratch0 : Ref sig .tc := ⟨.vmem, 59, rfl⟩
abbrev cc8_stg0_0 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg3_0 : Ref sig .tc := ⟨.vmem, 63, rfl⟩
abbrev cc8_scratch0 : Ref sig .tc := ⟨.vmem, 64, rfl⟩
abbrev cc9_stg0_0 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg4_0 : Ref sig .tc := ⟨.vmem, 69, rfl⟩
abbrev cc9_scratch0 : Ref sig .tc := ⟨.vmem, 70, rfl⟩
abbrev cc10_stg0_0 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg3_0 : Ref sig .tc := ⟨.vmem, 74, rfl⟩
abbrev cc10_scratch0 : Ref sig .tc := ⟨.vmem, 75, rfl⟩
abbrev cc11_stg0_0 : Ref sig .tc := ⟨.vmem, 76, rfl⟩
abbrev cc11_stg1_0 : Ref sig .tc := ⟨.vmem, 77, rfl⟩
abbrev cc11_stg1_1 : Ref sig .tc := ⟨.vmem, 78, rfl⟩
abbrev cc11_stg2_0 : Ref sig .tc := ⟨.vmem, 79, rfl⟩
abbrev cc11_stg2_1 : Ref sig .tc := ⟨.vmem, 80, rfl⟩
abbrev cc11_scratch0 : Ref sig .tc := ⟨.vmem, 81, rfl⟩
abbrev cc12_stg0_0 : Ref sig .tc := ⟨.vmem, 82, rfl⟩
abbrev cc12_stg1_0 : Ref sig .tc := ⟨.vmem, 83, rfl⟩
abbrev cc12_stg2_0 : Ref sig .tc := ⟨.vmem, 84, rfl⟩
abbrev cc12_scratch0 : Ref sig .tc := ⟨.vmem, 85, rfl⟩
abbrev cc13_stg0_0 : Ref sig .tc := ⟨.vmem, 86, rfl⟩
abbrev cc13_stg1_0 : Ref sig .tc := ⟨.vmem, 87, rfl⟩
abbrev cc13_stg2_0 : Ref sig .tc := ⟨.vmem, 88, rfl⟩
abbrev cc13_scratch0 : Ref sig .tc := ⟨.vmem, 89, rfl⟩
abbrev cc14_stg0_0 : Ref sig .tc := ⟨.vmem, 90, rfl⟩
abbrev cc14_stg1_0 : Ref sig .tc := ⟨.vmem, 91, rfl⟩
abbrev cc14_stg2_0 : Ref sig .tc := ⟨.vmem, 92, rfl⟩
abbrev cc14_stg3_0 : Ref sig .tc := ⟨.vmem, 93, rfl⟩
abbrev cc14_scratch0 : Ref sig .tc := ⟨.vmem, 94, rfl⟩
abbrev cc15_stg0_0 : Ref sig .tc := ⟨.vmem, 95, rfl⟩
abbrev cc15_stg1_0 : Ref sig .tc := ⟨.vmem, 96, rfl⟩
abbrev cc15_stg2_0 : Ref sig .tc := ⟨.vmem, 97, rfl⟩
abbrev cc15_stg3_0 : Ref sig .tc := ⟨.vmem, 98, rfl⟩
abbrev cc15_scratch0 : Ref sig .tc := ⟨.vmem, 99, rfl⟩
abbrev cc16_stg0_0 : Ref sig .tc := ⟨.vmem, 100, rfl⟩
abbrev cc16_stg1_0 : Ref sig .tc := ⟨.vmem, 101, rfl⟩
abbrev cc16_stg2_0 : Ref sig .tc := ⟨.vmem, 102, rfl⟩
abbrev cc16_stg3_0 : Ref sig .tc := ⟨.vmem, 103, rfl⟩
abbrev cc16_stg4_0 : Ref sig .tc := ⟨.vmem, 104, rfl⟩
abbrev cc16_scratch0 : Ref sig .tc := ⟨.vmem, 105, rfl⟩
abbrev cc17_stg0_0 : Ref sig .tc := ⟨.vmem, 106, rfl⟩
abbrev cc17_stg1_0 : Ref sig .tc := ⟨.vmem, 107, rfl⟩
abbrev cc17_stg2_0 : Ref sig .tc := ⟨.vmem, 108, rfl⟩
abbrev cc17_stg3_0 : Ref sig .tc := ⟨.vmem, 109, rfl⟩
abbrev cc17_scratch0 : Ref sig .tc := ⟨.vmem, 110, rfl⟩
abbrev cc18_stg0_0 : Ref sig .tc := ⟨.vmem, 111, rfl⟩
abbrev cc18_stg1_0 : Ref sig .tc := ⟨.vmem, 112, rfl⟩
abbrev cc18_stg1_1 : Ref sig .tc := ⟨.vmem, 113, rfl⟩
abbrev cc18_stg2_0 : Ref sig .tc := ⟨.vmem, 114, rfl⟩
abbrev cc18_stg2_1 : Ref sig .tc := ⟨.vmem, 115, rfl⟩
abbrev cc18_scratch0 : Ref sig .tc := ⟨.vmem, 116, rfl⟩
abbrev cc19_stg0_0 : Ref sig .tc := ⟨.vmem, 117, rfl⟩
abbrev cc19_stg1_0 : Ref sig .tc := ⟨.vmem, 118, rfl⟩
abbrev cc19_stg2_0 : Ref sig .tc := ⟨.vmem, 119, rfl⟩
abbrev cc19_scratch0 : Ref sig .tc := ⟨.vmem, 120, rfl⟩
abbrev cc20_stg0_0 : Ref sig .tc := ⟨.vmem, 121, rfl⟩
abbrev cc20_stg1_0 : Ref sig .tc := ⟨.vmem, 122, rfl⟩
abbrev cc20_stg2_0 : Ref sig .tc := ⟨.vmem, 123, rfl⟩
abbrev cc20_scratch0 : Ref sig .tc := ⟨.vmem, 124, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc7_sem0_0 : DmaSem sig := 47
abbrev cc7_sem1_0 : DmaSem sig := 48
abbrev cc7_sem2_0 : DmaSem sig := 49
abbrev cc7_sem3_0 : DmaSem sig := 50
abbrev cc8_sem0_0 : DmaSem sig := 51
abbrev cc8_sem1_0 : DmaSem sig := 52
abbrev cc8_sem2_0 : DmaSem sig := 53
abbrev cc8_sem3_0 : DmaSem sig := 54
abbrev cc9_sem0_0 : DmaSem sig := 55
abbrev cc9_sem1_0 : DmaSem sig := 56
abbrev cc9_sem2_0 : DmaSem sig := 57
abbrev cc9_sem3_0 : DmaSem sig := 58
abbrev cc9_sem4_0 : DmaSem sig := 59
abbrev cc10_sem0_0 : DmaSem sig := 60
abbrev cc10_sem1_0 : DmaSem sig := 61
abbrev cc10_sem2_0 : DmaSem sig := 62
abbrev cc10_sem3_0 : DmaSem sig := 63
abbrev cc11_sem0_0 : DmaSem sig := 64
abbrev cc11_sem1_0 : DmaSem sig := 65
abbrev cc11_sem1_1 : DmaSem sig := 66
abbrev cc11_sem2_0 : DmaSem sig := 67
abbrev cc11_sem2_1 : DmaSem sig := 68
abbrev cc12_sem0_0 : DmaSem sig := 69
abbrev cc12_sem1_0 : DmaSem sig := 70
abbrev cc12_sem2_0 : DmaSem sig := 71
abbrev cc13_sem0_0 : DmaSem sig := 72
abbrev cc13_sem1_0 : DmaSem sig := 73
abbrev cc13_sem2_0 : DmaSem sig := 74
abbrev cc14_sem0_0 : DmaSem sig := 75
abbrev cc14_sem1_0 : DmaSem sig := 76
abbrev cc14_sem2_0 : DmaSem sig := 77
abbrev cc14_sem3_0 : DmaSem sig := 78
abbrev cc15_sem0_0 : DmaSem sig := 79
abbrev cc15_sem1_0 : DmaSem sig := 80
abbrev cc15_sem2_0 : DmaSem sig := 81
abbrev cc15_sem3_0 : DmaSem sig := 82
abbrev cc16_sem0_0 : DmaSem sig := 83
abbrev cc16_sem1_0 : DmaSem sig := 84
abbrev cc16_sem2_0 : DmaSem sig := 85
abbrev cc16_sem3_0 : DmaSem sig := 86
abbrev cc16_sem4_0 : DmaSem sig := 87
abbrev cc17_sem0_0 : DmaSem sig := 88
abbrev cc17_sem1_0 : DmaSem sig := 89
abbrev cc17_sem2_0 : DmaSem sig := 90
abbrev cc17_sem3_0 : DmaSem sig := 91
abbrev cc18_sem0_0 : DmaSem sig := 92
abbrev cc18_sem1_0 : DmaSem sig := 93
abbrev cc18_sem1_1 : DmaSem sig := 94
abbrev cc18_sem2_0 : DmaSem sig := 95
abbrev cc18_sem2_1 : DmaSem sig := 96
abbrev cc19_sem0_0 : DmaSem sig := 97
abbrev cc19_sem1_0 : DmaSem sig := 98
abbrev cc19_sem2_0 : DmaSem sig := 99
abbrev cc20_sem0_0 : DmaSem sig := 100
abbrev cc20_sem1_0 : DmaSem sig := 101
abbrev cc20_sem2_0 : DmaSem sig := 102

abbrev nD : Nat := 1
abbrev τ : Topo := Topo.v7x

variable {F : FTy → Type} [FloatOps F]

abbrev grid0 : Pipeline.Grid := ⟨2, ![10, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨3, ![10, 2, 10], ![false, false, false]⟩

def k1_cond2 (i : grid1.Coords) : BitVec 1 :=
  let arg2 : BitVec 32 := BitVec.ofNat 32 (i 2).val
  let c9_i32 : BitVec 32 := 9#32
  let v15 : BitVec 1 := Scalar.cmpi .eq arg2 c9_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![10, 1], ![false, false]⟩

def k2_cond2 (i : grid2.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S512x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1000x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1000x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![10, 10], ![false, false]⟩

def k3_cond2 (i : grid3.Coords) : BitVec 1 :=
  let arg1 : BitVec 32 := BitVec.ofNat 32 (i 1).val
  let c9_i32 : BitVec 32 := 9#32
  let v23 : BitVec 1 := Scalar.cmpi .eq arg1 c9_i32
  let v24 : BitVec 32 := Scalar.extui v23
  let c0_i32_13 : BitVec 32 := 0#32
  let v25 : BitVec 1 := Scalar.cmpi .ne v24 c0_i32_13
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨3, ![1, 2, 10], ![false, false, false]⟩

def k4_cond2 (i : grid4.Coords) : BitVec 1 :=
  let arg2 : BitVec 32 := BitVec.ofNat 32 (i 2).val
  let c9_i32 : BitVec 32 := 9#32
  let v14 : BitVec 1 := Scalar.cmpi .eq arg2 c9_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 2, 10], ![false, false, false]⟩

def k5_cond2 (i : grid5.Coords) : BitVec 1 :=
  let arg2 : BitVec 32 := BitVec.ofNat 32 (i 2).val
  let c9_i32 : BitVec 32 := 9#32
  let v13 : BitVec 1 := Scalar.cmpi .eq arg2 c9_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 10], ![false, false, false]⟩

def k6_cond2 (i : grid6.Coords) : BitVec 1 :=
  let arg2 : BitVec 32 := BitVec.ofNat 32 (i 2).val
  let c9_i32 : BitVec 32 := 9#32
  let v13 : BitVec 1 := Scalar.cmpi .eq arg2 c9_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨2, ![1, 1], ![false, false]⟩

def k7_cond2 (i : grid7.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 1 → Memref sig .tc .vmem S1024x512 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, true]

abbrev stage7_1 : Fin 1 → Memref sig .tc .vmem S512x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, false]

abbrev stage7_3 : Fin 1 → Memref sig .tc .vmem S1024x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true, false]

abbrev grid8 : Pipeline.Grid := ⟨2, ![1, 1], ![false, false]⟩

def k8_cond2 (i : grid8.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 1 → Memref sig .tc .vmem S1024x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, true]

abbrev stage8_1 : Fin 1 → Memref sig .tc .vmem S1024x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S1024x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true, false]

abbrev grid9 : Pipeline.Grid := ⟨2, ![1, 1], ![false, false]⟩

def k9_cond2 (i : grid9.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 1 → Memref sig .tc .vmem S1024x512 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, true]

abbrev stage9_1 : Fin 1 → Memref sig .tc .vmem S512x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 1 → Memref sig .tc .vmem S1024x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true, false]

abbrev stage9_4 : Fin 1 → Memref sig .tc .vmem S1024x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true, false]

abbrev grid10 : Pipeline.Grid := ⟨2, ![1, 1], ![false, false]⟩

def k10_cond2 (i : grid10.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 1 → Memref sig .tc .vmem S1024x1024 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, true]

abbrev stage10_1 : Fin 1 → Memref sig .tc .vmem S1024x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false, true]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false, false]

abbrev stage10_3 : Fin 1 → Memref sig .tc .vmem S1024x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true, false]

abbrev grid11 : Pipeline.Grid := ⟨3, ![1, 2, 1], ![false, false, false]⟩

def k11_cond2 (i : grid11.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 1 → Memref sig .tc .vmem S1024x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false, true]

abbrev stage11_1 : Fin 2 → Memref sig .tc .vmem S1024x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S128x256 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![1, 1, 1], ![false, false, false]⟩

def k12_cond2 (i : grid12.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 1 → Memref sig .tc .vmem S1024x128 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false, true]

abbrev stage12_1 : Fin 1 → Memref sig .tc .vmem S1024x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false, true, true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true, true, false]

abbrev grid13 : Pipeline.Grid := ⟨3, ![1, 1, 1], ![false, false, false]⟩

def k13_cond2 (i : grid13.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 1 → Memref sig .tc .vmem S1024x128 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false, true]

abbrev stage13_1 : Fin 1 → Memref sig .tc .vmem S1024x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false, true, true]

abbrev stage13_2 : Fin 1 → Memref sig .tc .vmem S128x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![true, true, false]

abbrev grid14 : Pipeline.Grid := ⟨2, ![1, 1], ![false, false]⟩

def k14_cond2 (i : grid14.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 1 → Memref sig .tc .vmem S128x512 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true, true]

abbrev stage14_1 : Fin 1 → Memref sig .tc .vmem S512x512 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false, true]

abbrev stage14_2 : Fin 1 → Memref sig .tc .vmem S1x512 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false, false]

abbrev stage14_3 : Fin 1 → Memref sig .tc .vmem S128x512 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![true, false]

abbrev grid15 : Pipeline.Grid := ⟨2, ![1, 1], ![false, false]⟩

def k15_cond2 (i : grid15.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage15_0 : Fin 1 → Memref sig .tc .vmem S128x128 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true, true]

abbrev stage15_1 : Fin 1 → Memref sig .tc .vmem S128x512 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false, true]

abbrev stage15_2 : Fin 1 → Memref sig .tc .vmem S1x512 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false, false]

abbrev stage15_3 : Fin 1 → Memref sig .tc .vmem S128x512 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![true, false]

abbrev grid16 : Pipeline.Grid := ⟨2, ![1, 1], ![false, false]⟩

def k16_cond2 (i : grid16.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage16_0 : Fin 1 → Memref sig .tc .vmem S128x512 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true, true]

abbrev stage16_1 : Fin 1 → Memref sig .tc .vmem S512x1 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false, true]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false, false]

abbrev stage16_3 : Fin 1 → Memref sig .tc .vmem S128x1 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![true, false]

abbrev stage16_4 : Fin 1 → Memref sig .tc .vmem S128x1 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![true, false]

abbrev grid17 : Pipeline.Grid := ⟨2, ![1, 1], ![false, false]⟩

def k17_cond2 (i : grid17.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc17_transform_0 (i : grid17.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc17_transform_2 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage17_0 : Fin 1 → Memref sig .tc .vmem S128x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true, true]

abbrev stage17_1 : Fin 1 → Memref sig .tc .vmem S128x1 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false, true]

abbrev stage17_2 : Fin 1 → Memref sig .tc .vmem S1x1 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false, false]

abbrev stage17_3 : Fin 1 → Memref sig .tc .vmem S128x1 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![true, false]

abbrev grid18 : Pipeline.Grid := ⟨3, ![1, 2, 1], ![false, false, false]⟩

def k18_cond2 (i : grid18.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc18_transform_0 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc18_transform_1 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc18_transform_2 (i : grid18.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage18_0 : Fin 1 → Memref sig .tc .vmem S128x1 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))
abbrev reads18_0 : Fin grid18.rank → Bool := ![true, false, true]

abbrev stage18_1 : Fin 2 → Memref sig .tc .vmem S128x256 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true, true]

abbrev stage18_2 : Fin 2 → Memref sig .tc .vmem S1x256 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, true, false]

abbrev grid19 : Pipeline.Grid := ⟨3, ![1, 1, 1], ![false, false, false]⟩

def k19_cond2 (i : grid19.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc19_transform_0 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc19_transform_1 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc19_transform_2 (i : grid19.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage19_0 : Fin 1 → Memref sig .tc .vmem S128x1 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![true, false, true]

abbrev stage19_1 : Fin 1 → Memref sig .tc .vmem S128x1 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false, true, true]

abbrev stage19_2 : Fin 1 → Memref sig .tc .vmem S1x1 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![true, true, false]

abbrev grid20 : Pipeline.Grid := ⟨3, ![1, 1, 1], ![false, false, false]⟩

def k20_cond2 (i : grid20.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc20_transform_0 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc20_transform_1 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc20_transform_2 (i : grid20.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage20_0 : Fin 1 → Memref sig .tc .vmem S128x1 .f32 := fun | 0 => Memref.whole cc20_stg0_0 | ⟨_ + 1, h⟩ => absurd h (Nat.not_lt.2 (Nat.le_add_left _ _))
abbrev sem20_0 : Fin 1 → DmaSem sig := fun | 0 => cc20_sem0_0 | ⟨_ + 1, h⟩ => absurd h (Nat.not_lt.2 (Nat.le_add_left _ _))
abbrev reads20_0 : Fin grid20.rank → Bool := ![true, false, true]

abbrev stage20_1 : Fin 1 → Memref sig .tc .vmem S128x1 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false, true, true]

abbrev stage20_2 : Fin 1 → Memref sig .tc .vmem S1x1 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![true, true, false]

class Facts₀ : Prop where
  bcast_S_S10240x10240 : S_.BroadcastsInDim S10240x10240 (![] : Fin 0 → Fin S10240x10240.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bcast_S_S512 : S_.BroadcastsInDim S512 (![] : Fin 0 → Fin S512.rank)
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  pads_S10000x512_S10240x512_02400_000 : S10000x512.Pads (![0, 0] : Fin 2 → Nat) ![240, 0] ![0, 0] S10240x512
  h_S_ : 0 < S_.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S10240x512_S10000x512_0_0 : S10240x512.Slices ![0, 0] S10000x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  shapeCasts_S1024_S1x1024 : S1024.ShapeCasts S1x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  reduces_S1000x1024_S1000 : S1000x1024.Reduces [1] S1000
  shapeCasts_S1000_S1000x1 : S1000.ShapeCasts S1000x1
  broadcasts_S1000x1_S1000x1024 : S1000x1.Broadcasts S1000x1024
  packedbf16_S1000x1024_S1000x1024_0_0 : (Rect.unit (s := S1000x1024) ![0, 0] S1000x1024.size inb_S1000x1024_S1000x1024_0_0).PackedRows (EltTy.packing .bf16)
  pads_S10000x1024_S10240x1024_02400_000 : S10000x1024.Pads (![0, 0] : Fin 2 → Nat) ![240, 0] ![0, 0] S10240x1024
  bcast_S_S1x1024 : S_.BroadcastsInDim S1x1024 (![] : Fin 0 → Fin S1x1024.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x1024_S1024 : S1024x1024.Reduces [1] S1024
  shapeCasts_S1024_S1024x1 : S1024.ShapeCasts S1024x1
  shapeCasts_S1024x1_S1024x1 : S1024x1.ShapeCasts S1024x1
  broadcasts_S1024x1_S1024x128 : S1024x1.Broadcasts S1024x128
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  slices_S10240x128_S10000x1_0_0 : S10240x128.Slices ![0, 0] S10000x1
  shapeCasts_S10000x1_S10000 : S10000x1.ShapeCasts S10000
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bcast_S_S1024x1024 : S_.BroadcastsInDim S1024x1024 (![] : Fin 0 → Fin S1024x1024.rank)
  reducesTo_S1024x1024_S_d0_1 : S1024x1024.ReducesTo [0, 1] S_
  bcast_S10000x1_S10000x1024_0_1 : S10000x1.BroadcastsInDim S10000x1024 (![0, 1] : Fin 2 → Fin S10000x1024.rank)
  reducesTo_S10000x1024_S_d0_1 : S10000x1024.ReducesTo [0, 1] S_
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  transposes_S1024x1_S1x1024_1_0 : S1024x1.Transposes [1, 0] S1x1024
  bcast_S1x1024_S1024x1024_0_1 : S1x1024.BroadcastsInDim S1024x1024 (![0, 1] : Fin 2 → Fin S1024x1024.rank)
  bcast_S_S1024 : S_.BroadcastsInDim S1024 (![] : Fin 0 → Fin S1024.rank)
  bcast_S1024_S1x1024_1 : S1024.BroadcastsInDim S1x1024 (![1] : Fin 1 → Fin S1x1024.rank)
  broadcasts_S1x512_S1024x512 : S1x512.Broadcasts S1024x512
  shapeCasts_S128_S1x128 : S128.ShapeCasts S1x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  bcast_S_S128 : S_.BroadcastsInDim S128 (![] : Fin 0 → Fin S128.rank)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S128x128 : S_.BroadcastsInDim S128x128 (![] : Fin 0 → Fin S128x128.rank)
  reducesTo_S128x128_S_d0_1 : S128x128.ReducesTo [0, 1] S_
  bcast_S1024x1_S1024x128_0_1 : S1024x1.BroadcastsInDim S1024x128 (![0, 1] : Fin 2 → Fin S1024x128.rank)
  reducesTo_S1024x128_S_d0_1 : S1024x128.ReducesTo [0, 1] S_
  reducesTo_S128x128_S128_d1 : S128x128.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  transposes_S128x1_S1x128_1_0 : S128x1.Transposes [1, 0] S1x128
  bcast_S1x128_S128x128_0_1 : S1x128.BroadcastsInDim S128x128 (![0, 1] : Fin 2 → Fin S128x128.rank)
  bcast_S128_S1x128_1 : S128.BroadcastsInDim S1x128 (![1] : Fin 1 → Fin S1x128.rank)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  broadcasts_S1x512_S128x512 : S1x512.Broadcasts S128x512
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  reduces_S128x1_S128 : S128x1.Reduces [1] S128
  shapeCasts_S128_S128x1 : S128.ShapeCasts S128x1
  bcast_S_S1 : S_.BroadcastsInDim S1 (![] : Fin 0 → Fin S1.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bcast_S_S1x1 : S_.BroadcastsInDim S1x1 (![] : Fin 0 → Fin S1x1.rank)
  reducesTo_S1x1_S_d0_1 : S1x1.ReducesTo [0, 1] S_
  reducesTo_S128x1_S_d0_1 : S128x1.ReducesTo [0, 1] S_
  reducesTo_S1x1_S1_d1 : S1x1.ReducesTo [1] S1
  bcast_S1_S1x1_0 : S1.BroadcastsInDim S1x1 (![0] : Fin 1 → Fin S1x1.rank)
  transposes_S1x1_S1x1_1_0 : S1x1.Transposes [1, 0] S1x1
  scatter_S10240x10240_S320000x2_S320000_n_01_01_1_wf : ScatterDims.WF S10240x10240 S320000x2 S320000 [] [0, 1] [0, 1] 1
  dot_S1000x512_S512x512_S1000x512_1_0_0_1_n_n_wf : DotDims.WF S1000x512 S512x512 S1000x512 [1] [0] [0] [1] [] []
  scatter_S10000_S330000x1_S330000_n_0_0_1_wf : ScatterDims.WF S10000 S330000x1 S330000 [] [0] [0] 1
  dot_S1024x1024_S1024x256_S1024x256_0_0_1_1_n_n_wf : DotDims.WF S1024x1024 S1024x256 S1024x256 [0] [0] [1] [1] [] []
  dot_S1000x512_S512x1024_S1000x1024_1_0_0_1_n_n_wf : DotDims.WF S1000x512 S512x1024 S1000x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_0_0_1_1_n_n_wf : DotDims.WF S1024x1024 S1024x512 S1024x512 [0] [0] [1] [1] [] []
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x128_S1024x256_S128x256_0_0_1_1_n_n_wf : DotDims.WF S1024x128 S1024x256 S128x256 [0] [0] [1] [1] [] []
  dot_S1024x128_S1024x128_S128x128_0_0_1_1_n_n_wf : DotDims.WF S1024x128 S1024x128 S128x128 [0] [0] [1] [1] [] []
  dot_S128x512_S512x512_S128x512_1_0_0_1_n_n_wf : DotDims.WF S128x512 S512x512 S128x512 [1] [0] [0] [1] [] []
  dot_S128x128_S128x512_S128x512_1_0_0_1_n_n_wf : DotDims.WF S128x128 S128x512 S128x512 [1] [0] [0] [1] [] []
  dot_S128x512_S512x1_S128x1_1_0_0_1_n_n_wf : DotDims.WF S128x512 S512x1 S128x1 [1] [0] [0] [1] [] []
  dot_S128x128_S128x1_S128x1_1_0_0_1_n_n_wf : DotDims.WF S128x128 S128x1 S128x1 [1] [0] [0] [1] [] []
  dot_S128x1_S128x256_S1x256_0_0_1_1_n_n_wf : DotDims.WF S128x1 S128x256 S1x256 [0] [0] [1] [1] [] []
  dot_S128x1_S128x1_S1x1_0_0_1_1_n_n_wf : DotDims.WF S128x1 S128x1 S1x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .f32 = 32 ∨ (Rect.block (s := S10000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S10240x10240.size a
  hwx1_0 : ∀ i : grid1.Coords, EltTy.bits .f32 = 32 ∨ (Rect.block (s := S10240x10240) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S10240x512.size a
  hwx1_1 : ∀ i : grid1.Coords, EltTy.bits .f32 = 32 ∨ (Rect.block (s := S10240x512) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S10240x512.size a
  hwx1_2 : ∀ i : grid1.Coords, EltTy.bits .f32 = 32 ∨ (Rect.block (s := S10240x512) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S10000x512.size a
  hwx2_0 : ∀ i : grid2.Coords, EltTy.bits .f32 = 32 ∨ (Rect.block (s := S10000x512) S1000x512.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .f32 = 32 ∨ (Rect.block (s := S512x1024) S512x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1024.size a ≤ S10000x1024.size a
  hwx2_3 : ∀ i : grid2.Coords, EltTy.bits .f32 = 32 ∨ (Rect.block (s := S10000x1024) S1000x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x1024.size a ≤ S10000x1024.size a
  hwx2_4 : ∀ i : grid2.Coords, EltTy.bits .bf16 = 32 ∨ (Rect.block (s := S10000x1024) S1000x1024.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S10240x10240.size a
  hwx3_0 : ∀ i : grid3.Coords, EltTy.bits .f32 = 32 ∨ (Rect.block (s := S10240x10240) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S10240x1024.size a
  hwx3_1 : ∀ i : grid3.Coords, EltTy.bits .bf16 = 32 ∨ (Rect.block (s := S10240x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S10240x1024.size a
  hwx3_3 : ∀ i : grid3.Coords, EltTy.bits .bf16 = 32 ∨ (Rect.block (s := S10240x1024) S1024x1024.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x128.size a ≤ S10240x128.size a
  hwx3_4 : ∀ i : grid3.Coords, EltTy.bits .f32 = 32 ∨ (Rect.block (s := S10240x128) S1024x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S10240x1024.size a
  hwx4_0 : ∀ i : grid4.Coords, EltTy.bits .bf16 = 32 ∨ (Rect.block (s := S10240x1024) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S10240x512.size a
  hwx4_1 : ∀ i : grid4.Coords, EltTy.bits .f32 = 32 ∨ (Rect.block (s := S10240x512) S1024x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S1024x512.size a
  hwx4_2 : ∀ i : grid4.Coords, EltTy.bits .f32 = 32 ∨ (Rect.block (s := S1024x512) S1024x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S10240x1024.size a
  hwx5_0 : ∀ i : grid5.Coords, EltTy.bits .bf16 = 32 ∨ (Rect.block (s := S10240x1024) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x512.size a ≤ S10240x1024.size a
  hwx5_1 : ∀ i : grid5.Coords, EltTy.bits .bf16 = 32 ∨ (Rect.block (s := S10240x1024) S1024x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x512.size a ≤ S1024x1024.size a
  hwx5_2 : ∀ i : grid5.Coords, EltTy.bits .f32 = 32 ∨ (Rect.block (s := S1024x1024) S1024x512.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S10240x1024.size a
  hwx6_0 : ∀ i : grid6.Coords, EltTy.bits .bf16 = 32 ∨ (Rect.block (s := S10240x1024) S1024x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x512.size a ≤ S10240x1024.size a
  hwx6_1 : ∀ i : grid6.Coords, EltTy.bits .bf16 = 32 ∨ (Rect.block (s := S10240x1024) S1024x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S1024x1024.size a
  hwx6_2 : ∀ i : grid6.Coords, EltTy.bits .f32 = 32 ∨ (Rect.block (s := S1024x1024) S1024x512.size (cc6_transform_2 i) (hinb6_2 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S1024x512.size a ≤ S1024x512.size a
  hwx7_0 : ∀ i : grid7.Coords, EltTy.bits .f32 = 32 ∨ (Rect.block (s := S1024x512) S1024x512.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S512x512.size a
  hwx7_1 : ∀ i : grid7.Coords, EltTy.bits .f32 = 32 ∨ (Rect.block (s := S512x512) S512x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S1024x512.size a ≤ S1024x512.size a
  hwx7_3 : ∀ i : grid7.Coords, EltTy.bits .f32 = 32 ∨ (Rect.block (s := S1024x512) S1024x512.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S1024x1024.size a
  hwx8_0 : ∀ i : grid8.Coords, EltTy.bits .f32 = 32 ∨ (Rect.block (s := S1024x1024) S1024x1024.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S1024x512.size a ≤ S1024x512.size a
  hwx8_1 : ∀ i : grid8.Coords, EltTy.bits .f32 = 32 ∨ (Rect.block (s := S1024x512) S1024x512.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S1024x512.size a ≤ S1024x512.size a
  hwx8_3 : ∀ i : grid8.Coords, EltTy.bits .f32 = 32 ∨ (Rect.block (s := S1024x512) S1024x512.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S1024x512.size a ≤ S1024x512.size a
  hwx9_0 : ∀ i : grid9.Coords, EltTy.bits .f32 = 32 ∨ (Rect.block (s := S1024x512) S1024x512.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S512x128.size a ≤ S512x128.size a
  hwx9_1 : ∀ i : grid9.Coords, EltTy.bits .f32 = 32 ∨ (Rect.block (s := S512x128) S512x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S1024x128.size a ≤ S1024x128.size a
  hwx9_3 : ∀ i : grid9.Coords, EltTy.bits .f32 = 32 ∨ (Rect.block (s := S1024x128) S1024x128.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S1024x128.size a ≤ S1024x128.size a
  hwx9_4 : ∀ i : grid9.Coords, EltTy.bits .f32 = 32 ∨ (Rect.block (s := S1024x128) S1024x128.size (cc9_transform_4 i) (hinb9_4 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S1024x1024.size a ≤ S1024x1024.size a
  hwx10_0 : ∀ i : grid10.Coords, EltTy.bits .f32 = 32 ∨ (Rect.block (s := S1024x1024) S1024x1024.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S1024x128.size a ≤ S1024x128.size a
  hwx10_1 : ∀ i : grid10.Coords, EltTy.bits .f32 = 32 ∨ (Rect.block (s := S1024x128) S1024x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S1024x128.size a ≤ S1024x128.size a
  hwx10_3 : ∀ i : grid10.Coords, EltTy.bits .f32 = 32 ∨ (Rect.block (s := S1024x128) S1024x128.size (cc10_transform_3 i) (hinb10_3 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S1024x128.size a ≤ S1024x128.size a
  hwx11_0 : ∀ i : grid11.Coords, EltTy.bits .f32 = 32 ∨ (Rect.block (s := S1024x128) S1024x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x256.size a ≤ S1024x512.size a
  hwx11_1 : ∀ i : grid11.Coords, EltTy.bits .f32 = 32 ∨ (Rect.block (s := S1024x512) S1024x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S128x256.size a ≤ S128x512.size a
  hwx11_2 : ∀ i : grid11.Coords, EltTy.bits .f32 = 32 ∨ (Rect.block (s := S128x512) S128x256.size (cc11_transform_2 i) (hinb11_2 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S1024x128.size a ≤ S1024x128.size a
  hwx12_0 : ∀ i : grid12.Coords, EltTy.bits .f32 = 32 ∨ (Rect.block (s := S1024x128) S1024x128.size (cc12_transform_0 i) (hinb12_0 i)).WholeWords (EltTy.packing .f32)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S1024x128.size a ≤ S1024x128.size a
  hwx12_1 : ∀ i : grid12.Coords, EltTy.bits .f32 = 32 ∨ (Rect.block (s := S1024x128) S1024x128.size (cc12_transform_1 i) (hinb12_1 i)).WholeWords (EltTy.packing .f32)
  hstage12_2 : ∀ j, (stage12_2 j).IsWhole
  nbuf12_2 : grid12.bufCount reads12_2 false = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hrank13 : 0 < grid13.rank
  hstage13_0 : ∀ j, (stage13_0 j).IsWhole
  nbuf13_0 : grid13.bufCount reads13_0 false = 1
  hreads13_0 : ∀ i i' : grid13.Coords, (∀ a, reads13_0 a = true → i a = i' a) → cc13_transform_0 i = cc13_transform_0 i'
  hinb13_0 : ∀ (i : grid13.Coords) a, (cc13_transform_0 i a + 1) * S1024x128.size a ≤ S1024x128.size a
  hwx13_0 : ∀ i : grid13.Coords, EltTy.bits .f32 = 32 ∨ (Rect.block (s := S1024x128) S1024x128.size (cc13_transform_0 i) (hinb13_0 i)).WholeWords (EltTy.packing .f32)
  hstage13_1 : ∀ j, (stage13_1 j).IsWhole
  nbuf13_1 : grid13.bufCount reads13_1 false = 1
  hreads13_1 : ∀ i i' : grid13.Coords, (∀ a, reads13_1 a = true → i a = i' a) → cc13_transform_1 i = cc13_transform_1 i'
  hinb13_1 : ∀ (i : grid13.Coords) a, (cc13_transform_1 i a + 1) * S1024x128.size a ≤ S1024x128.size a
  hwx13_1 : ∀ i : grid13.Coords, EltTy.bits .f32 = 32 ∨ (Rect.block (s := S1024x128) S1024x128.size (cc13_transform_1 i) (hinb13_1 i)).WholeWords (EltTy.packing .f32)
  hstage13_2 : ∀ j, (stage13_2 j).IsWhole
  nbuf13_2 : grid13.bufCount reads13_2 false = 1
  hreads13_2 : ∀ i i' : grid13.Coords, (∀ a, reads13_2 a = true → i a = i' a) → cc13_transform_2 i = cc13_transform_2 i'
  hinb13_2 : ∀ (i : grid13.Coords) a, (cc13_transform_2 i a + 1) * S128x128.size a ≤ S128x128.size a
  hwx13_2 : ∀ i : grid13.Coords, EltTy.bits .f32 = 32 ∨ (Rect.block (s := S128x128) S128x128.size (cc13_transform_2 i) (hinb13_2 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S128x512.size a ≤ S128x512.size a
  hwx14_0 : ∀ i : grid14.Coords, EltTy.bits .f32 = 32 ∨ (Rect.block (s := S128x512) S128x512.size (cc14_transform_0 i) (hinb14_0 i)).WholeWords (EltTy.packing .f32)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S512x512.size a ≤ S512x512.size a
  hwx14_1 : ∀ i : grid14.Coords, EltTy.bits .f32 = 32 ∨ (Rect.block (s := S512x512) S512x512.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x512.size a ≤ S1x512.size a
  hwx14_2 : ∀ i : grid14.Coords, EltTy.bits .f32 = 32 ∨ (Rect.block (s := S1x512) S1x512.size (cc14_transform_2 i) (hinb14_2 i)).WholeWords (EltTy.packing .f32)
  hstage14_3 : ∀ j, (stage14_3 j).IsWhole
  nbuf14_3 : grid14.bufCount reads14_3 false = 1
  hreads14_3 : ∀ i i' : grid14.Coords, (∀ a, reads14_3 a = true → i a = i' a) → cc14_transform_3 i = cc14_transform_3 i'
  hinb14_3 : ∀ (i : grid14.Coords) a, (cc14_transform_3 i a + 1) * S128x512.size a ≤ S128x512.size a
  hwx14_3 : ∀ i : grid14.Coords, EltTy.bits .f32 = 32 ∨ (Rect.block (s := S128x512) S128x512.size (cc14_transform_3 i) (hinb14_3 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S128x128.size a ≤ S128x128.size a
  hwx15_0 : ∀ i : grid15.Coords, EltTy.bits .f32 = 32 ∨ (Rect.block (s := S128x128) S128x128.size (cc15_transform_0 i) (hinb15_0 i)).WholeWords (EltTy.packing .f32)
  hstage15_1 : ∀ j, (stage15_1 j).IsWhole
  nbuf15_1 : grid15.bufCount reads15_1 false = 1
  hreads15_1 : ∀ i i' : grid15.Coords, (∀ a, reads15_1 a = true → i a = i' a) → cc15_transform_1 i = cc15_transform_1 i'
  hinb15_1 : ∀ (i : grid15.Coords) a, (cc15_transform_1 i a + 1) * S128x512.size a ≤ S128x512.size a
  hwx15_1 : ∀ i : grid15.Coords, EltTy.bits .f32 = 32 ∨ (Rect.block (s := S128x512) S128x512.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x512.size a ≤ S1x512.size a
  hwx15_2 : ∀ i : grid15.Coords, EltTy.bits .f32 = 32 ∨ (Rect.block (s := S1x512) S1x512.size (cc15_transform_2 i) (hinb15_2 i)).WholeWords (EltTy.packing .f32)
  hstage15_3 : ∀ j, (stage15_3 j).IsWhole
  nbuf15_3 : grid15.bufCount reads15_3 false = 1
  hreads15_3 : ∀ i i' : grid15.Coords, (∀ a, reads15_3 a = true → i a = i' a) → cc15_transform_3 i = cc15_transform_3 i'
  hinb15_3 : ∀ (i : grid15.Coords) a, (cc15_transform_3 i a + 1) * S128x512.size a ≤ S128x512.size a
  hwx15_3 : ∀ i : grid15.Coords, EltTy.bits .f32 = 32 ∨ (Rect.block (s := S128x512) S128x512.size (cc15_transform_3 i) (hinb15_3 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S128x512.size a ≤ S128x512.size a
  hwx16_0 : ∀ i : grid16.Coords, EltTy.bits .f32 = 32 ∨ (Rect.block (s := S128x512) S128x512.size (cc16_transform_0 i) (hinb16_0 i)).WholeWords (EltTy.packing .f32)
  hstage16_1 : ∀ j, (stage16_1 j).IsWhole
  nbuf16_1 : grid16.bufCount reads16_1 false = 1
  hreads16_1 : ∀ i i' : grid16.Coords, (∀ a, reads16_1 a = true → i a = i' a) → cc16_transform_1 i = cc16_transform_1 i'
  hinb16_1 : ∀ (i : grid16.Coords) a, (cc16_transform_1 i a + 1) * S512x1.size a ≤ S512x1.size a
  hwx16_1 : ∀ i : grid16.Coords, EltTy.bits .f32 = 32 ∨ (Rect.block (s := S512x1) S512x1.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1.size a ≤ S1x1.size a
  hwx16_2 : ∀ i : grid16.Coords, EltTy.bits .f32 = 32 ∨ (Rect.block (s := S1x1) S1x1.size (cc16_transform_2 i) (hinb16_2 i)).WholeWords (EltTy.packing .f32)
  hstage16_3 : ∀ j, (stage16_3 j).IsWhole
  nbuf16_3 : grid16.bufCount reads16_3 false = 1
  hreads16_3 : ∀ i i' : grid16.Coords, (∀ a, reads16_3 a = true → i a = i' a) → cc16_transform_3 i = cc16_transform_3 i'
  hinb16_3 : ∀ (i : grid16.Coords) a, (cc16_transform_3 i a + 1) * S128x1.size a ≤ S128x1.size a
  hwx16_3 : ∀ i : grid16.Coords, EltTy.bits .f32 = 32 ∨ (Rect.block (s := S128x1) S128x1.size (cc16_transform_3 i) (hinb16_3 i)).WholeWords (EltTy.packing .f32)
  hstage16_4 : ∀ j, (stage16_4 j).IsWhole
  nbuf16_4 : grid16.bufCount reads16_4 false = 1
  hreads16_4 : ∀ i i' : grid16.Coords, (∀ a, reads16_4 a = true → i a = i' a) → cc16_transform_4 i = cc16_transform_4 i'
  hinb16_4 : ∀ (i : grid16.Coords) a, (cc16_transform_4 i a + 1) * S128x1.size a ≤ S128x1.size a
  hwx16_4 : ∀ i : grid16.Coords, EltTy.bits .f32 = 32 ∨ (Rect.block (s := S128x1) S128x1.size (cc16_transform_4 i) (hinb16_4 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S128x128.size a ≤ S128x128.size a
  hwx17_0 : ∀ i : grid17.Coords, EltTy.bits .f32 = 32 ∨ (Rect.block (s := S128x128) S128x128.size (cc17_transform_0 i) (hinb17_0 i)).WholeWords (EltTy.packing .f32)
  hstage17_1 : ∀ j, (stage17_1 j).IsWhole
  nbuf17_1 : grid17.bufCount reads17_1 false = 1
  hreads17_1 : ∀ i i' : grid17.Coords, (∀ a, reads17_1 a = true → i a = i' a) → cc17_transform_1 i = cc17_transform_1 i'
  hinb17_1 : ∀ (i : grid17.Coords) a, (cc17_transform_1 i a + 1) * S128x1.size a ≤ S128x1.size a
  hwx17_1 : ∀ i : grid17.Coords, EltTy.bits .f32 = 32 ∨ (Rect.block (s := S128x1) S128x1.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x1.size a ≤ S1x1.size a
  hwx17_2 : ∀ i : grid17.Coords, EltTy.bits .f32 = 32 ∨ (Rect.block (s := S1x1) S1x1.size (cc17_transform_2 i) (hinb17_2 i)).WholeWords (EltTy.packing .f32)
  hstage17_3 : ∀ j, (stage17_3 j).IsWhole
  nbuf17_3 : grid17.bufCount reads17_3 false = 1
  hreads17_3 : ∀ i i' : grid17.Coords, (∀ a, reads17_3 a = true → i a = i' a) → cc17_transform_3 i = cc17_transform_3 i'
  hinb17_3 : ∀ (i : grid17.Coords) a, (cc17_transform_3 i a + 1) * S128x1.size a ≤ S128x1.size a
  hwx17_3 : ∀ i : grid17.Coords, EltTy.bits .f32 = 32 ∨ (Rect.block (s := S128x1) S128x1.size (cc17_transform_3 i) (hinb17_3 i)).WholeWords (EltTy.packing .f32)
  hrank18 : 0 < grid18.rank
  hstage18_0 : ∀ j, (stage18_0 j).IsWhole
  nbuf18_0 : grid18.bufCount reads18_0 false = 1
  hreads18_0 : ∀ i i' : grid18.Coords, (∀ a, reads18_0 a = true → i a = i' a) → cc18_transform_0 i = cc18_transform_0 i'
  hinb18_0 : ∀ (i : grid18.Coords) a, (cc18_transform_0 i a + 1) * S128x1.size a ≤ S128x1.size a
  hwx18_0 : ∀ i : grid18.Coords, EltTy.bits .f32 = 32 ∨ (Rect.block (s := S128x1) S128x1.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S128x256.size a ≤ S128x512.size a
  hwx18_1 : ∀ i : grid18.Coords, EltTy.bits .f32 = 32 ∨ (Rect.block (s := S128x512) S128x256.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1x256.size a ≤ S1x512.size a
  hwx18_2 : ∀ i : grid18.Coords, EltTy.bits .f32 = 32 ∨ (Rect.block (s := S1x512) S1x256.size (cc18_transform_2 i) (hinb18_2 i)).WholeWords (EltTy.packing .f32)
  hrank19 : 0 < grid19.rank
  hstage19_0 : ∀ j, (stage19_0 j).IsWhole
  nbuf19_0 : grid19.bufCount reads19_0 false = 1
  hreads19_0 : ∀ i i' : grid19.Coords, (∀ a, reads19_0 a = true → i a = i' a) → cc19_transform_0 i = cc19_transform_0 i'
  hinb19_0 : ∀ (i : grid19.Coords) a, (cc19_transform_0 i a + 1) * S128x1.size a ≤ S128x1.size a
  hwx19_0 : ∀ i : grid19.Coords, EltTy.bits .f32 = 32 ∨ (Rect.block (s := S128x1) S128x1.size (cc19_transform_0 i) (hinb19_0 i)).WholeWords (EltTy.packing .f32)
  hstage19_1 : ∀ j, (stage19_1 j).IsWhole
  nbuf19_1 : grid19.bufCount reads19_1 false = 1
  hreads19_1 : ∀ i i' : grid19.Coords, (∀ a, reads19_1 a = true → i a = i' a) → cc19_transform_1 i = cc19_transform_1 i'
  hinb19_1 : ∀ (i : grid19.Coords) a, (cc19_transform_1 i a + 1) * S128x1.size a ≤ S128x1.size a
  hwx19_1 : ∀ i : grid19.Coords, EltTy.bits .f32 = 32 ∨ (Rect.block (s := S128x1) S128x1.size (cc19_transform_1 i) (hinb19_1 i)).WholeWords (EltTy.packing .f32)
  hstage19_2 : ∀ j, (stage19_2 j).IsWhole
  nbuf19_2 : grid19.bufCount reads19_2 false = 1
  hreads19_2 : ∀ i i' : grid19.Coords, (∀ a, reads19_2 a = true → i a = i' a) → cc19_transform_2 i = cc19_transform_2 i'
  hinb19_2 : ∀ (i : grid19.Coords) a, (cc19_transform_2 i a + 1) * S1x1.size a ≤ S1x1.size a
  hwx19_2 : ∀ i : grid19.Coords, EltTy.bits .f32 = 32 ∨ (Rect.block (s := S1x1) S1x1.size (cc19_transform_2 i) (hinb19_2 i)).WholeWords (EltTy.packing .f32)
  hrank20 : 0 < grid20.rank
  hstage20_0 : ∀ j, (stage20_0 j).IsWhole
  nbuf20_0 : grid20.bufCount reads20_0 false = 1
  hreads20_0 : ∀ i i' : grid20.Coords, (∀ a, reads20_0 a = true → i a = i' a) → cc20_transform_0 i = cc20_transform_0 i'
  hinb20_0 : ∀ (i : grid20.Coords) a, (cc20_transform_0 i a + 1) * S128x1.size a ≤ S128x1.size a
  hwx20_0 : ∀ i : grid20.Coords, EltTy.bits .f32 = 32 ∨ (Rect.block (s := S128x1) S128x1.size (cc20_transform_0 i) (hinb20_0 i)).WholeWords (EltTy.packing .f32)
  hstage20_1 : ∀ j, (stage20_1 j).IsWhole
  nbuf20_1 : grid20.bufCount reads20_1 false = 1
  hreads20_1 : ∀ i i' : grid20.Coords, (∀ a, reads20_1 a = true → i a = i' a) → cc20_transform_1 i = cc20_transform_1 i'
  hinb20_1 : ∀ (i : grid20.Coords) a, (cc20_transform_1 i a + 1) * S128x1.size a ≤ S128x1.size a
  hwx20_1 : ∀ i : grid20.Coords, EltTy.bits .f32 = 32 ∨ (Rect.block (s := S128x1) S128x1.size (cc20_transform_1 i) (hinb20_1 i)).WholeWords (EltTy.packing .f32)
  hstage20_2 : ∀ j, (stage20_2 j).IsWhole
  nbuf20_2 : grid20.bufCount reads20_2 false = 1
  hreads20_2 : ∀ i i' : grid20.Coords, (∀ a, reads20_2 a = true → i a = i' a) → cc20_transform_2 i = cc20_transform_2 i'
  hinb20_2 : ∀ (i : grid20.Coords) a, (cc20_transform_2 i a + 1) * S1x1.size a ≤ S1x1.size a
  hwx20_2 : ∀ i : grid20.Coords, EltTy.bits .f32 = 32 ∨ (Rect.block (s := S1x1) S1x1.size (cc20_transform_2 i) (hinb20_2 i)).WholeWords (EltTy.packing .f32)

variable [Facts₀]

def scatter_S10240x10240_S320000x2_S320000_n_01_01_1 : ScatterDims S10240x10240 S320000x2 S320000 where
  updateWindowDims := []
  insertedWindowDims := [0, 1]
  scatterDimsToOperandDims := [0, 1]
  indexVectorDim := 1
  wf := scatter_S10240x10240_S320000x2_S320000_n_01_01_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S1000x512_S512x1024_S1000x1024_1_0_0_1_n_n : DotDims S1000x512 S512x1024 S1000x1024 where
  lhsContracting := [1]
  rhsContracting := [0]
  lhsNonContracting := [0]
  rhsNonContracting := [1]
  lhsBatch := []
  rhsBatch := []
  wf := dot_S1000x512_S512x1024_S1000x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x256_S128x256_0_0_1_1_n_n : DotDims S1024x128 S1024x256 S128x256 where
  lhsContracting := [0]
  rhsContracting := [0]
  lhsNonContracting := [1]
  rhsNonContracting := [1]
  lhsBatch := []
  rhsBatch := []
  wf := dot_S1024x128_S1024x256_S128x256_0_0_1_1_n_n_wf
def dot_S1024x128_S1024x128_S128x128_0_0_1_1_n_n : DotDims S1024x128 S1024x128 S128x128 where
  lhsContracting := [0]
  rhsContracting := [0]
  lhsNonContracting := [1]
  rhsNonContracting := [1]
  lhsBatch := []
  rhsBatch := []
  wf := dot_S1024x128_S1024x128_S128x128_0_0_1_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S128x1_S128x256_S1x256_0_0_1_1_n_n : DotDims S128x1 S128x256 S1x256 where
  lhsContracting := [0]
  rhsContracting := [0]
  lhsNonContracting := [1]
  rhsNonContracting := [1]
  lhsBatch := []
  rhsBatch := []
  wf := dot_S128x1_S128x256_S1x256_0_0_1_1_n_n_wf
def dot_S128x1_S128x1_S1x1_0_0_1_1_n_n : DotDims S128x1 S128x1 S1x1 where
  lhsContracting := [0]
  rhsContracting := [0]
  lhsNonContracting := [1]
  rhsNonContracting := [1]
  lhsBatch := []
  rhsBatch := []
  wf := dot_S128x1_S128x1_S1x1_0_0_1_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v18) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v52) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54_0) S1000x1024.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v54_1) S1000x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v18) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58_0) S1024x1024.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v58_1) S1024x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v55) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1024x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v55) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58_0) S1024x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v62) S1024x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v55) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55) S1024x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v63) S1024x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v61) S1024x512.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg7) S512x512.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v126) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v127) S1024x512.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v124) S1024x1024.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v127) S1024x512.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v128) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v129) S1024x512.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v129) S1024x512.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg9) S512x128.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v130) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v131_0) S1024x128.size cc9_transform_3 reads9_3 true false 1 stage9_3 sem9_3
    hrank9 hreads9_3 hinb9_3 nbuf9_3 (Memref.isWhole_whole _) hwx9_3 hstage9_3

abbrev win9_4 : Pipeline.Window sig grid9 :=
  Pipeline.Window.ofSpec (Memref.whole main_v131_1) S1024x128.size cc9_transform_4 reads9_4 true false 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev idle9 : Fin 5 → grid9.Coords → Bool := fun | 0 => fun _ => false | 1 => fun _ => false | 2 => fun _ => false | 3 => fun i => !(k9_cond2 i == 1#1) | 4 => fun i => !(k9_cond2 i == 1#1) | ⟨_ + 5, h⟩ => absurd h (Nat.not_lt.2 (Nat.le_add_left _ _))

abbrev win10_0 : Pipeline.Window sig grid10 :=
  Pipeline.Window.ofSpec (Memref.whole main_v106) S1024x1024.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v131_1) S1024x128.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v133) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v134) S1024x128.size cc10_transform_3 reads10_3 true false 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v131_1) S1024x128.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v129) S1024x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v135) S128x256.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev idle11 : Fin 3 → grid11.Coords → Bool := fun | 0 => fun _ => false | 1 => fun _ => false | 2 => fun i => !(k11_cond2 i == 1#1) | ⟨_ + 3, h⟩ => absurd h (Nat.not_lt.2 (Nat.le_add_left _ _))

abbrev win12_0 : Pipeline.Window sig grid12 :=
  Pipeline.Window.ofSpec (Memref.whole main_v131_1) S1024x128.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v134) S1024x128.size cc12_transform_1 reads12_1 false false 1 stage12_1 sem12_1
    hrank12 hreads12_1 hinb12_1 nbuf12_1 (Memref.isWhole_whole _) hwx12_1 hstage12_1

abbrev win12_2 : Pipeline.Window sig grid12 :=
  Pipeline.Window.ofSpec (Memref.whole main_v136) S128x128.size cc12_transform_2 reads12_2 true false 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

abbrev win13_0 : Pipeline.Window sig grid13 :=
  Pipeline.Window.ofSpec (Memref.whole main_v131_1) S1024x128.size cc13_transform_0 reads13_0 false false 1 stage13_0 sem13_0
    hrank13 hreads13_0 hinb13_0 nbuf13_0 (Memref.isWhole_whole _) hwx13_0 hstage13_0

abbrev win13_1 : Pipeline.Window sig grid13 :=
  Pipeline.Window.ofSpec (Memref.whole main_v131_1) S1024x128.size cc13_transform_1 reads13_1 false false 1 stage13_1 sem13_1
    hrank13 hreads13_1 hinb13_1 nbuf13_1 (Memref.isWhole_whole _) hwx13_1 hstage13_1

abbrev win13_2 : Pipeline.Window sig grid13 :=
  Pipeline.Window.ofSpec (Memref.whole main_v137) S128x128.size cc13_transform_2 reads13_2 true false 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v135) S128x512.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_arg11) S512x512.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v199) S1x512.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v200) S128x512.size cc14_transform_3 reads14_3 true false 1 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev idle14 : Fin 4 → grid14.Coords → Bool := fun | 0 => fun _ => false | 1 => fun _ => false | 2 => fun _ => false | 3 => fun i => !(k14_cond2 i == 1#1) | ⟨_ + 4, h⟩ => absurd h (Nat.not_lt.2 (Nat.le_add_left _ _))

abbrev win15_0 : Pipeline.Window sig grid15 :=
  Pipeline.Window.ofSpec (Memref.whole main_v197) S128x128.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_v200) S128x512.size cc15_transform_1 reads15_1 false false 1 stage15_1 sem15_1
    hrank15 hreads15_1 hinb15_1 nbuf15_1 (Memref.isWhole_whole _) hwx15_1 hstage15_1

abbrev win15_2 : Pipeline.Window sig grid15 :=
  Pipeline.Window.ofSpec (Memref.whole main_v201) S1x512.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v202) S128x512.size cc15_transform_3 reads15_3 true false 1 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev idle15 : Fin 4 → grid15.Coords → Bool := fun | 0 => fun _ => false | 1 => fun _ => false | 2 => fun _ => false | 3 => fun i => !(k15_cond2 i == 1#1) | ⟨_ + 4, h⟩ => absurd h (Nat.not_lt.2 (Nat.le_add_left _ _))

abbrev win16_0 : Pipeline.Window sig grid16 :=
  Pipeline.Window.ofSpec (Memref.whole main_v202) S128x512.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_arg13) S512x1.size cc16_transform_1 reads16_1 false false 1 stage16_1 sem16_1
    hrank16 hreads16_1 hinb16_1 nbuf16_1 (Memref.isWhole_whole _) hwx16_1 hstage16_1

abbrev win16_2 : Pipeline.Window sig grid16 :=
  Pipeline.Window.ofSpec (Memref.whole main_v203) S1x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v204_0) S128x1.size cc16_transform_3 reads16_3 true false 1 stage16_3 sem16_3
    hrank16 hreads16_3 hinb16_3 nbuf16_3 (Memref.isWhole_whole _) hwx16_3 hstage16_3

abbrev win16_4 : Pipeline.Window sig grid16 :=
  Pipeline.Window.ofSpec (Memref.whole main_v204_1) S128x1.size cc16_transform_4 reads16_4 true false 1 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev idle16 : Fin 5 → grid16.Coords → Bool := fun | 0 => fun _ => false | 1 => fun _ => false | 2 => fun _ => false | 3 => fun i => !(k16_cond2 i == 1#1) | 4 => fun i => !(k16_cond2 i == 1#1) | ⟨_ + 5, h⟩ => absurd h (Nat.not_lt.2 (Nat.le_add_left _ _))

abbrev win17_0 : Pipeline.Window sig grid17 :=
  Pipeline.Window.ofSpec (Memref.whole main_v179) S128x128.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_v204_1) S128x1.size cc17_transform_1 reads17_1 false false 1 stage17_1 sem17_1
    hrank17 hreads17_1 hinb17_1 nbuf17_1 (Memref.isWhole_whole _) hwx17_1 hstage17_1

abbrev win17_2 : Pipeline.Window sig grid17 :=
  Pipeline.Window.ofSpec (Memref.whole main_v206) S1x1.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v207) S128x1.size cc17_transform_3 reads17_3 true false 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev idle17 : Fin 4 → grid17.Coords → Bool := fun | 0 => fun _ => false | 1 => fun _ => false | 2 => fun _ => false | 3 => fun i => !(k17_cond2 i == 1#1) | ⟨_ + 4, h⟩ => absurd h (Nat.not_lt.2 (Nat.le_add_left _ _))

abbrev win18_0 : Pipeline.Window sig grid18 :=
  Pipeline.Window.ofSpec (Memref.whole main_v204_1) S128x1.size cc18_transform_0 reads18_0 false false 1 stage18_0 sem18_0
    hrank18 hreads18_0 hinb18_0 nbuf18_0 (Memref.isWhole_whole _) hwx18_0 hstage18_0

abbrev win18_1 : Pipeline.Window sig grid18 :=
  Pipeline.Window.ofSpec (Memref.whole main_v202) S128x256.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v208) S1x256.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev idle18 : Fin 3 → grid18.Coords → Bool := fun | 0 => fun _ => false | 1 => fun _ => false | 2 => fun i => !(k18_cond2 i == 1#1) | ⟨_ + 3, h⟩ => absurd h (Nat.not_lt.2 (Nat.le_add_left _ _))

abbrev win19_0 : Pipeline.Window sig grid19 :=
  Pipeline.Window.ofSpec (Memref.whole main_v204_1) S128x1.size cc19_transform_0 reads19_0 false false 1 stage19_0 sem19_0
    hrank19 hreads19_0 hinb19_0 nbuf19_0 (Memref.isWhole_whole _) hwx19_0 hstage19_0

abbrev win19_1 : Pipeline.Window sig grid19 :=
  Pipeline.Window.ofSpec (Memref.whole main_v207) S128x1.size cc19_transform_1 reads19_1 false false 1 stage19_1 sem19_1
    hrank19 hreads19_1 hinb19_1 nbuf19_1 (Memref.isWhole_whole _) hwx19_1 hstage19_1

abbrev win19_2 : Pipeline.Window sig grid19 :=
  Pipeline.Window.ofSpec (Memref.whole main_v209) S1x1.size cc19_transform_2 reads19_2 true false 1 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev idle19 : Fin 3 → grid19.Coords → Bool := fun | 0 => fun _ => false | 1 => fun _ => false | 2 => fun i => !(k19_cond2 i == 1#1) | ⟨_ + 3, h⟩ => absurd h (Nat.not_lt.2 (Nat.le_add_left _ _))

abbrev win20_0 : Pipeline.Window sig grid20 :=
  Pipeline.Window.ofSpec (Memref.whole main_v204_1) S128x1.size cc20_transform_0 reads20_0 false false 1 stage20_0 sem20_0
    hrank20 hreads20_0 hinb20_0 nbuf20_0 (Memref.isWhole_whole _) hwx20_0 hstage20_0

abbrev win20_1 : Pipeline.Window sig grid20 :=
  Pipeline.Window.ofSpec (Memref.whole main_v204_1) S128x1.size cc20_transform_1 reads20_1 false false 1 stage20_1 sem20_1
    hrank20 hreads20_1 hinb20_1 nbuf20_1 (Memref.isWhole_whole _) hwx20_1 hstage20_1

abbrev win20_2 : Pipeline.Window sig grid20 :=
  Pipeline.Window.ofSpec (Memref.whole main_v210) S1x1.size cc20_transform_2 reads20_2 true false 1 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev idle20 : Fin 3 → grid20.Coords → Bool := fun | 0 => fun _ => false | 1 => fun _ => false | 2 => fun i => !(k20_cond2 i == 1#1) | ⟨_ + 3, h⟩ => absurd h (Nat.not_lt.2 (Nat.le_add_left _ _))

class Facts : Prop extends Facts₀ where

variable [Facts]
-- ==== ReferenceIdeal.lean ====
abbrev S10000x512 : Shape := ⟨2, ![10000, 512]⟩
abbrev S2x320000 : Shape := ⟨2, ![2, 320000]⟩
abbrev S320000 : Shape := ⟨1, ![320000]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S512x128 : Shape := ⟨2, ![512, 128]⟩
abbrev S128 : Shape := ⟨1, ![128]⟩
abbrev S512x1 : Shape := ⟨2, ![512, 1]⟩
abbrev S1 : Shape := ⟨1, ![1]⟩
abbrev S_ : Shape := ⟨0, ![]⟩
abbrev S10000x10000 : Shape := ⟨2, ![10000, 10000]⟩
abbrev S1x320000 : Shape := ⟨2, ![1, 320000]⟩
abbrev S320000x1 : Shape := ⟨2, ![320000, 1]⟩
abbrev S320000x2 : Shape := ⟨2, ![320000, 2]⟩
abbrev S10000 : Shape := ⟨1, ![10000]⟩
abbrev S330000 : Shape := ⟨1, ![330000]⟩
abbrev S330000x1 : Shape := ⟨2, ![330000, 1]⟩
abbrev S330000x512 : Shape := ⟨2, ![330000, 512]⟩
abbrev S1x512 : Shape := ⟨2, ![1, 512]⟩
abbrev S10000x1024 : Shape := ⟨2, ![10000, 1024]⟩
abbrev S1x1024 : Shape := ⟨2, ![1, 1024]⟩
abbrev S10000x1 : Shape := ⟨2, ![10000, 1]⟩
abbrev S1024x10000 : Shape := ⟨2, ![1024, 10000]⟩
abbrev S1024x512 : Shape := ⟨2, ![1024, 512]⟩
abbrev S1024x1024 : Shape := ⟨2, ![1024, 1024]⟩
abbrev S1024x1 : Shape := ⟨2, ![1024, 1]⟩
abbrev S1024x128 : Shape := ⟨2, ![1024, 128]⟩
abbrev S1x128 : Shape := ⟨2, ![1, 128]⟩
abbrev S128x1024 : Shape := ⟨2, ![128, 1024]⟩
abbrev S128x512 : Shape := ⟨2, ![128, 512]⟩
abbrev S128x128 : Shape := ⟨2, ![128, 128]⟩
abbrev S128x1 : Shape := ⟨2, ![128, 1]⟩
abbrev S1x1 : Shape := ⟨2, ![1, 1]⟩

abbrev nBuf : Space → Nat
  | .hbm => 445
  | .vmem => 0
  | .smem => 0
  | _ => 0

abbrev hbmTy0_0 (i : Nat) : BufTy := match i % 128 with
  | 0 => ⟨S10000x512, .f32⟩
  | 1 => ⟨S2x320000, .i32⟩
  | 2 => ⟨S320000, .f32⟩
  | 3 => ⟨S512x512, .f32⟩
  | 4 => ⟨S512, .f32⟩
  | 5 => ⟨S512x1024, .f32⟩
  | 6 => ⟨S1024, .f32⟩
  | 7 => ⟨S512x512, .f32⟩
  | 8 => ⟨S512, .f32⟩
  | 9 => ⟨S512x128, .f32⟩
  | 10 => ⟨S128, .f32⟩
  | 11 => ⟨S512x512, .f32⟩
  | 12 => ⟨S512, .f32⟩
  | 13 => ⟨S512x1, .f32⟩
  | 14 => ⟨S1, .f32⟩
  | 15 => ⟨S_, .f32⟩
  | 16 => ⟨S10000x10000, .f32⟩
  | 17 => ⟨S1x320000, .i32⟩
  | 18 => ⟨S320000, .i32⟩
  | 19 => ⟨S1x320000, .i32⟩
  | 20 => ⟨S320000, .i32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x1, .i32⟩
  | 37 => ⟨S320000x2, .i32⟩
  | 38 => ⟨S10000x10000, .f32⟩
  | 39 => ⟨S10000, .i32⟩
  | 40 => ⟨S1x320000, .i32⟩
  | 41 => ⟨S320000, .i32⟩
  | 42 => ⟨S330000, .i32⟩
  | 43 => ⟨S1x320000, .i32⟩
  | 44 => ⟨S320000, .i32⟩
  | 45 => ⟨S330000, .i32⟩
  | 46 => ⟨S_, .f32⟩
  | 47 => ⟨S10000, .f32⟩
  | 48 => ⟨S330000, .f32⟩
  | 49 => ⟨S_, .f32⟩
  | 50 => ⟨S10000, .f32⟩
  | 51 => ⟨S330000x1, .i32⟩
  | 52 => ⟨S10000, .f32⟩
  | 53 => ⟨S_, .f32⟩
  | 54 => ⟨S10000, .f32⟩
  | 55 => ⟨S10000, .i1⟩
  | 56 => ⟨S10000, .f32⟩
  | 57 => ⟨S_, .f32⟩
  | 58 => ⟨S_, .f32⟩
  | 59 => ⟨S10000, .f32⟩
  | 60 => ⟨S10000, .f32⟩
  | 61 => ⟨S_, .i32⟩
  | 62 => ⟨S330000, .i32⟩
  | 63 => ⟨S330000, .i1⟩
  | 64 => ⟨S_, .i32⟩
  | 65 => ⟨S330000, .i32⟩
  | 66 => ⟨S330000, .i32⟩
  | 67 => ⟨S330000, .i32⟩
  | 68 => ⟨S330000x1, .i32⟩
  | 69 => ⟨S330000, .f32⟩
  | 70 => ⟨S330000, .f32⟩
  | 71 => ⟨S_, .i32⟩
  | 72 => ⟨S330000, .i32⟩
  | 73 => ⟨S330000, .i1⟩
  | 74 => ⟨S_, .i32⟩
  | 75 => ⟨S330000, .i32⟩
  | 76 => ⟨S330000, .i32⟩
  | 77 => ⟨S330000, .i32⟩
  | 78 => ⟨S330000x1, .i32⟩
  | 79 => ⟨S330000, .f32⟩
  | 80 => ⟨S330000, .f32⟩
  | 81 => ⟨S10000x512, .f32⟩
  | 82 => ⟨S330000x1, .f32⟩
  | 83 => ⟨S_, .i32⟩
  | 84 => ⟨S330000, .i32⟩
  | 85 => ⟨S330000, .i1⟩
  | 86 => ⟨S_, .i32⟩
  | 87 => ⟨S330000, .i32⟩
  | 88 => ⟨S330000, .i32⟩
  | 89 => ⟨S330000, .i32⟩
  | 90 => ⟨S330000x1, .i32⟩
  | 91 => ⟨S330000x512, .f32⟩
  | 92 => ⟨S330000x512, .f32⟩
  | 93 => ⟨S330000x512, .f32⟩
  | 94 => ⟨S_, .f32⟩
  | 95 => ⟨S10000x512, .f32⟩
  | 96 => ⟨S330000x1, .i32⟩
  | 97 => ⟨S10000x512, .f32⟩
  | 98 => ⟨S1x512, .f32⟩
  | 99 => ⟨S10000x512, .f32⟩
  | 100 => ⟨S10000x512, .f32⟩
  | 101 => ⟨S_, .f32⟩
  | 102 => ⟨S10000x512, .f32⟩
  | 103 => ⟨S10000x512, .f32⟩
  | 104 => ⟨S10000x1024, .f32⟩
  | 105 => ⟨S1x1024, .f32⟩
  | 106 => ⟨S10000x1024, .f32⟩
  | 107 => ⟨S10000x1024, .f32⟩
  | 108 => ⟨S_, .f32⟩
  | 109 => ⟨S10000x1024, .f32⟩
  | 110 => ⟨S10000x1024, .f32⟩
  | 111 => ⟨S_, .f32⟩
  | 112 => ⟨S10000, .f32⟩
  | 113 => ⟨S_, .f32⟩
  | 114 => ⟨S10000, .f32⟩
  | 115 => ⟨S10000, .f32⟩
  | 116 => ⟨S10000x1, .f32⟩
  | 117 => ⟨S10000x1024, .f32⟩
  | 118 => ⟨S10000x1024, .f32⟩
  | 119 => ⟨S10000x1024, .f32⟩
  | 120 => ⟨S_, .f32⟩
  | 121 => ⟨S10000, .f32⟩
  | 122 => ⟨S10000x1, .f32⟩
  | 123 => ⟨S10000x1024, .f32⟩
  | 124 => ⟨S10000x1024, .f32⟩
  | 125 => ⟨S1024x10000, .f32⟩
  | 126 => ⟨S1024x512, .f32⟩
  | 127 => ⟨S1024x10000, .f32⟩
  | _ => ⟨S10000x512, .f32⟩

abbrev hbmTy0_1 (i : Nat) : BufTy := match i % 128 with
  | 0 => ⟨S10000x1024, .f32⟩
  | 1 => ⟨S1024x1024, .f32⟩
  | 2 => ⟨S1024x1024, .i32⟩
  | 3 => ⟨S1024x1024, .i32⟩
  | 4 => ⟨S_, .i32⟩
  | 5 => ⟨S1024x1024, .i32⟩
  | 6 => ⟨S1024x1024, .i32⟩
  | 7 => ⟨S1024x1024, .i1⟩
  | 8 => ⟨S_, .f32⟩
  | 9 => ⟨S1024x1024, .f32⟩
  | 10 => ⟨S1024x1024, .f32⟩
  | 11 => ⟨S_, .f32⟩
  | 12 => ⟨S_, .f32⟩
  | 13 => ⟨S_, .f32⟩
  | 14 => ⟨S10000, .f32⟩
  | 15 => ⟨S10000x1, .f32⟩
  | 16 => ⟨S10000x1024, .f32⟩
  | 17 => ⟨S10000x1024, .f32⟩
  | 18 => ⟨S10000x1024, .f32⟩
  | 19 => ⟨S_, .f32⟩
  | 20 => ⟨S_, .f32⟩
  | 21 => ⟨S_, .f32⟩
  | 22 => ⟨S_, .f32⟩
  | 23 => ⟨S1024x10000, .f32⟩
  | 24 => ⟨S1024x1024, .f32⟩
  | 25 => ⟨S1024x1024, .f32⟩
  | 26 => ⟨S_, .f32⟩
  | 27 => ⟨S_, .f32⟩
  | 28 => ⟨S_, .f32⟩
  | 29 => ⟨S1024x1024, .f32⟩
  | 30 => ⟨S1024x1024, .f32⟩
  | 31 => ⟨S1024x1024, .i32⟩
  | 32 => ⟨S1024x1024, .i32⟩
  | 33 => ⟨S_, .i32⟩
  | 34 => ⟨S1024x1024, .i32⟩
  | 35 => ⟨S1024x1024, .i32⟩
  | 36 => ⟨S1024x1024, .i1⟩
  | 37 => ⟨S1024x1024, .f32⟩
  | 38 => ⟨S_, .f32⟩
  | 39 => ⟨S_, .f32⟩
  | 40 => ⟨S1024x1024, .f32⟩
  | 41 => ⟨S1024x1024, .f32⟩
  | 42 => ⟨S1024x1024, .f32⟩
  | 43 => ⟨S1024x1024, .f32⟩
  | 44 => ⟨S_, .f32⟩
  | 45 => ⟨S_, .f32⟩
  | 46 => ⟨S_, .f32⟩
  | 47 => ⟨S1024x1024, .i32⟩
  | 48 => ⟨S1024x1024, .i32⟩
  | 49 => ⟨S_, .i32⟩
  | 50 => ⟨S1024x1024, .i32⟩
  | 51 => ⟨S1024x1024, .i32⟩
  | 52 => ⟨S1024x1024, .i1⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024, .f32⟩
  | 60 => ⟨S1024, .f32⟩
  | 61 => ⟨S1024x1, .f32⟩
  | 62 => ⟨S_, .f32⟩
  | 63 => ⟨S1024x1, .f32⟩
  | 64 => ⟨S1024x1, .f32⟩
  | 65 => ⟨S1024x1024, .f32⟩
  | 66 => ⟨S1024x1024, .f32⟩
  | 67 => ⟨S1x1024, .f32⟩
  | 68 => ⟨S1024x1024, .f32⟩
  | 69 => ⟨S1024x1024, .f32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S1024x1024, .i1⟩
  | 76 => ⟨S1024x1024, .f32⟩
  | 77 => ⟨S1024x1024, .f32⟩
  | 78 => ⟨S_, .f32⟩
  | 79 => ⟨S1024, .f32⟩
  | 80 => ⟨S_, .f32⟩
  | 81 => ⟨S1024, .f32⟩
  | 82 => ⟨S1024, .i1⟩
  | 83 => ⟨S1024, .f32⟩
  | 84 => ⟨S_, .f32⟩
  | 85 => ⟨S_, .f32⟩
  | 86 => ⟨S1024, .f32⟩
  | 87 => ⟨S1024, .f32⟩
  | 88 => ⟨S1024x1, .f32⟩
  | 89 => ⟨S1024x1024, .f32⟩
  | 90 => ⟨S1024x1024, .f32⟩
  | 91 => ⟨S1x1024, .f32⟩
  | 92 => ⟨S1024x1024, .f32⟩
  | 93 => ⟨S1024x1024, .f32⟩
  | 94 => ⟨S1024x512, .f32⟩
  | 95 => ⟨S1024x512, .f32⟩
  | 96 => ⟨S1x512, .f32⟩
  | 97 => ⟨S1024x512, .f32⟩
  | 98 => ⟨S1024x512, .f32⟩
  | 99 => ⟨S_, .f32⟩
  | 100 => ⟨S1024x512, .f32⟩
  | 101 => ⟨S1024x512, .f32⟩
  | 102 => ⟨S1024x128, .f32⟩
  | 103 => ⟨S1x128, .f32⟩
  | 104 => ⟨S1024x128, .f32⟩
  | 105 => ⟨S1024x128, .f32⟩
  | 106 => ⟨S_, .f32⟩
  | 107 => ⟨S1024x128, .f32⟩
  | 108 => ⟨S1024x128, .f32⟩
  | 109 => ⟨S_, .f32⟩
  | 110 => ⟨S1024, .f32⟩
  | 111 => ⟨S_, .f32⟩
  | 112 => ⟨S1024, .f32⟩
  | 113 => ⟨S1024, .f32⟩
  | 114 => ⟨S1024x1, .f32⟩
  | 115 => ⟨S1024x128, .f32⟩
  | 116 => ⟨S1024x128, .f32⟩
  | 117 => ⟨S1024x128, .f32⟩
  | 118 => ⟨S_, .f32⟩
  | 119 => ⟨S1024, .f32⟩
  | 120 => ⟨S1024x1, .f32⟩
  | 121 => ⟨S1024x128, .f32⟩
  | 122 => ⟨S1024x128, .f32⟩
  | 123 => ⟨S128x1024, .f32⟩
  | 124 => ⟨S128x512, .f32⟩
  | 125 => ⟨S128x1024, .f32⟩
  | 126 => ⟨S1024x128, .f32⟩
  | 127 => ⟨S128x128, .f32⟩
  | _ => ⟨S10000x512, .f32⟩

abbrev hbmTy0_2 (i : Nat) : BufTy := match i % 128 with
  | 0 => ⟨S128x128, .i32⟩
  | 1 => ⟨S128x128, .i32⟩
  | 2 => ⟨S_, .i32⟩
  | 3 => ⟨S128x128, .i32⟩
  | 4 => ⟨S128x128, .i32⟩
  | 5 => ⟨S128x128, .i1⟩
  | 6 => ⟨S_, .f32⟩
  | 7 => ⟨S128x128, .f32⟩
  | 8 => ⟨S128x128, .f32⟩
  | 9 => ⟨S_, .f32⟩
  | 10 => ⟨S_, .f32⟩
  | 11 => ⟨S_, .f32⟩
  | 12 => ⟨S1024, .f32⟩
  | 13 => ⟨S1024x1, .f32⟩
  | 14 => ⟨S1024x128, .f32⟩
  | 15 => ⟨S1024x128, .f32⟩
  | 16 => ⟨S1024x128, .f32⟩
  | 17 => ⟨S_, .f32⟩
  | 18 => ⟨S_, .f32⟩
  | 19 => ⟨S_, .f32⟩
  | 20 => ⟨S_, .f32⟩
  | 21 => ⟨S128x1024, .f32⟩
  | 22 => ⟨S128x128, .f32⟩
  | 23 => ⟨S128x128, .f32⟩
  | 24 => ⟨S_, .f32⟩
  | 25 => ⟨S_, .f32⟩
  | 26 => ⟨S_, .f32⟩
  | 27 => ⟨S128x128, .f32⟩
  | 28 => ⟨S128x128, .f32⟩
  | 29 => ⟨S128x128, .i32⟩
  | 30 => ⟨S128x128, .i32⟩
  | 31 => ⟨S_, .i32⟩
  | 32 => ⟨S128x128, .i32⟩
  | 33 => ⟨S128x128, .i32⟩
  | 34 => ⟨S128x128, .i1⟩
  | 35 => ⟨S128x128, .f32⟩
  | 36 => ⟨S_, .f32⟩
  | 37 => ⟨S_, .f32⟩
  | 38 => ⟨S128x128, .f32⟩
  | 39 => ⟨S128x128, .f32⟩
  | 40 => ⟨S128x128, .f32⟩
  | 41 => ⟨S128x128, .f32⟩
  | 42 => ⟨S_, .f32⟩
  | 43 => ⟨S_, .f32⟩
  | 44 => ⟨S_, .f32⟩
  | 45 => ⟨S128x128, .i32⟩
  | 46 => ⟨S128x128, .i32⟩
  | 47 => ⟨S_, .i32⟩
  | 48 => ⟨S128x128, .i32⟩
  | 49 => ⟨S128x128, .i32⟩
  | 50 => ⟨S128x128, .i1⟩
  | 51 => ⟨S128x128, .f32⟩
  | 52 => ⟨S_, .f32⟩
  | 53 => ⟨S128x128, .f32⟩
  | 54 => ⟨S128x128, .f32⟩
  | 55 => ⟨S128x128, .f32⟩
  | 56 => ⟨S_, .f32⟩
  | 57 => ⟨S128, .f32⟩
  | 58 => ⟨S128, .f32⟩
  | 59 => ⟨S128x1, .f32⟩
  | 60 => ⟨S_, .f32⟩
  | 61 => ⟨S128x1, .f32⟩
  | 62 => ⟨S128x1, .f32⟩
  | 63 => ⟨S128x128, .f32⟩
  | 64 => ⟨S128x128, .f32⟩
  | 65 => ⟨S1x128, .f32⟩
  | 66 => ⟨S128x128, .f32⟩
  | 67 => ⟨S128x128, .f32⟩
  | 68 => ⟨S128x128, .i32⟩
  | 69 => ⟨S128x128, .i32⟩
  | 70 => ⟨S_, .i32⟩
  | 71 => ⟨S128x128, .i32⟩
  | 72 => ⟨S128x128, .i32⟩
  | 73 => ⟨S128x128, .i1⟩
  | 74 => ⟨S128x128, .f32⟩
  | 75 => ⟨S128x128, .f32⟩
  | 76 => ⟨S_, .f32⟩
  | 77 => ⟨S128, .f32⟩
  | 78 => ⟨S_, .f32⟩
  | 79 => ⟨S128, .f32⟩
  | 80 => ⟨S128, .i1⟩
  | 81 => ⟨S128, .f32⟩
  | 82 => ⟨S_, .f32⟩
  | 83 => ⟨S_, .f32⟩
  | 84 => ⟨S128, .f32⟩
  | 85 => ⟨S128, .f32⟩
  | 86 => ⟨S128x1, .f32⟩
  | 87 => ⟨S128x128, .f32⟩
  | 88 => ⟨S128x128, .f32⟩
  | 89 => ⟨S1x128, .f32⟩
  | 90 => ⟨S128x128, .f32⟩
  | 91 => ⟨S128x128, .f32⟩
  | 92 => ⟨S128x512, .f32⟩
  | 93 => ⟨S128x512, .f32⟩
  | 94 => ⟨S1x512, .f32⟩
  | 95 => ⟨S128x512, .f32⟩
  | 96 => ⟨S128x512, .f32⟩
  | 97 => ⟨S_, .f32⟩
  | 98 => ⟨S128x512, .f32⟩
  | 99 => ⟨S128x512, .f32⟩
  | 100 => ⟨S128x1, .f32⟩
  | 101 => ⟨S1x1, .f32⟩
  | 102 => ⟨S128x1, .f32⟩
  | 103 => ⟨S128x1, .f32⟩
  | 104 => ⟨S_, .f32⟩
  | 105 => ⟨S128x1, .f32⟩
  | 106 => ⟨S128x1, .f32⟩
  | 107 => ⟨S_, .f32⟩
  | 108 => ⟨S128, .f32⟩
  | 109 => ⟨S_, .f32⟩
  | 110 => ⟨S128, .f32⟩
  | 111 => ⟨S128, .f32⟩
  | 112 => ⟨S128x1, .f32⟩
  | 113 => ⟨S128x1, .f32⟩
  | 114 => ⟨S128x1, .f32⟩
  | 115 => ⟨S_, .f32⟩
  | 116 => ⟨S128, .f32⟩
  | 117 => ⟨S128x1, .f32⟩
  | 118 => ⟨S128x1, .f32⟩
  | 119 => ⟨S1x128, .f32⟩
  | 120 => ⟨S1x512, .f32⟩
  | 121 => ⟨S1x128, .f32⟩
  | 122 => ⟨S128x1, .f32⟩
  | 123 => ⟨S1x1, .f32⟩
  | 124 => ⟨S1x1, .i32⟩
  | 125 => ⟨S1x1, .i32⟩
  | 126 => ⟨S_, .i32⟩
  | 127 => ⟨S1x1, .i32⟩
  | _ => ⟨S10000x512, .f32⟩

abbrev hbmTy0_3 (i : Nat) : BufTy := match i % 128 with
  | 0 => ⟨S1x1, .i32⟩
  | 1 => ⟨S1x1, .i1⟩
  | 2 => ⟨S_, .f32⟩
  | 3 => ⟨S1x1, .f32⟩
  | 4 => ⟨S1x1, .f32⟩
  | 5 => ⟨S_, .f32⟩
  | 6 => ⟨S_, .f32⟩
  | 7 => ⟨S_, .f32⟩
  | 8 => ⟨S128, .f32⟩
  | 9 => ⟨S128x1, .f32⟩
  | 10 => ⟨S128x1, .f32⟩
  | 11 => ⟨S128x1, .f32⟩
  | 12 => ⟨S_, .f32⟩
  | 13 => ⟨S_, .f32⟩
  | 14 => ⟨S_, .f32⟩
  | 15 => ⟨S_, .f32⟩
  | 16 => ⟨S1x128, .f32⟩
  | 17 => ⟨S1x1, .f32⟩
  | 18 => ⟨S1x1, .f32⟩
  | 19 => ⟨S_, .f32⟩
  | 20 => ⟨S_, .f32⟩
  | 21 => ⟨S_, .f32⟩
  | 22 => ⟨S1x1, .f32⟩
  | 23 => ⟨S1x1, .f32⟩
  | 24 => ⟨S1x1, .i32⟩
  | 25 => ⟨S1x1, .i32⟩
  | 26 => ⟨S_, .i32⟩
  | 27 => ⟨S1x1, .i32⟩
  | 28 => ⟨S1x1, .i32⟩
  | 29 => ⟨S1x1, .i1⟩
  | 30 => ⟨S1x1, .f32⟩
  | 31 => ⟨S_, .f32⟩
  | 32 => ⟨S_, .f32⟩
  | 33 => ⟨S1x1, .f32⟩
  | 34 => ⟨S1x1, .f32⟩
  | 35 => ⟨S1x1, .f32⟩
  | 36 => ⟨S1x1, .f32⟩
  | 37 => ⟨S_, .f32⟩
  | 38 => ⟨S_, .f32⟩
  | 39 => ⟨S_, .f32⟩
  | 40 => ⟨S1x1, .i32⟩
  | 41 => ⟨S1x1, .i32⟩
  | 42 => ⟨S_, .i32⟩
  | 43 => ⟨S1x1, .i32⟩
  | 44 => ⟨S1x1, .i32⟩
  | 45 => ⟨S1x1, .i1⟩
  | 46 => ⟨S1x1, .f32⟩
  | 47 => ⟨S_, .f32⟩
  | 48 => ⟨S1x1, .f32⟩
  | 49 => ⟨S1x1, .f32⟩
  | 50 => ⟨S1x1, .f32⟩
  | 51 => ⟨S_, .f32⟩
  | 52 => ⟨S1, .f32⟩
  | 53 => ⟨S1, .f32⟩
  | 54 => ⟨S1x1, .f32⟩
  | 55 => ⟨S_, .f32⟩
  | 56 => ⟨S1x1, .f32⟩
  | 57 => ⟨S1x1, .f32⟩
  | 58 => ⟨S1x1, .f32⟩
  | 59 => ⟨S1x1, .f32⟩
  | 60 => ⟨S1x1, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_c_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call1_cst : Ref sig .tc := ⟨.hbm, 101, rfl⟩
abbrev main_call1_v0 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call2_cst : Ref sig .tc := ⟨.hbm, 108, rfl⟩
abbrev main_call2_v0 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_cst_15 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call3_v0 : Ref sig .tc := ⟨.hbm, 130, rfl⟩
abbrev main_call3_v1 : Ref sig .tc := ⟨.hbm, 131, rfl⟩
abbrev main_call3_c : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_cst : Ref sig .tc := ⟨.hbm, 136, rfl⟩
abbrev main_call3_v5 : Ref sig .tc := ⟨.hbm, 137, rfl⟩
abbrev main_call3_v6 : Ref sig .tc := ⟨.hbm, 138, rfl⟩
abbrev main_call3_cst_0 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_18 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_call4_v0 : Ref sig .tc := ⟨.hbm, 153, rfl⟩
abbrev main_call4_cst : Ref sig .tc := ⟨.hbm, 154, rfl⟩
abbrev main_call4_v1 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_c_19 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_20 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_call5_v0 : Ref sig .tc := ⟨.hbm, 171, rfl⟩
abbrev main_call5_cst : Ref sig .tc := ⟨.hbm, 172, rfl⟩
abbrev main_call5_v1 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_c_21 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_22 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_cst_23 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_24 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_c_25 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_cst_26 : Ref sig .tc := ⟨.hbm, 206, rfl⟩
abbrev main_v141 : Ref sig .tc := ⟨.hbm, 207, rfl⟩
abbrev main_cst_27 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_28 : Ref sig .tc := ⟨.hbm, 212, rfl⟩
abbrev main_call6_v0 : Ref sig .tc := ⟨.hbm, 213, rfl⟩
abbrev main_call6_v1 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_call7_cst : Ref sig .tc := ⟨.hbm, 227, rfl⟩
abbrev main_call7_v0 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_call8_cst : Ref sig .tc := ⟨.hbm, 234, rfl⟩
abbrev main_call8_v0 : Ref sig .tc := ⟨.hbm, 235, rfl⟩
abbrev main_v162 : Ref sig .tc := ⟨.hbm, 236, rfl⟩
abbrev main_cst_29 : Ref sig .tc := ⟨.hbm, 237, rfl⟩
abbrev main_v163 : Ref sig .tc := ⟨.hbm, 238, rfl⟩
abbrev main_cst_30 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_cst_31 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_call9_v0 : Ref sig .tc := ⟨.hbm, 256, rfl⟩
abbrev main_call9_v1 : Ref sig .tc := ⟨.hbm, 257, rfl⟩
abbrev main_call9_c : Ref sig .tc := ⟨.hbm, 258, rfl⟩
abbrev main_call9_v2 : Ref sig .tc := ⟨.hbm, 259, rfl⟩
abbrev main_call9_v3 : Ref sig .tc := ⟨.hbm, 260, rfl⟩
abbrev main_call9_v4 : Ref sig .tc := ⟨.hbm, 261, rfl⟩
abbrev main_call9_cst : Ref sig .tc := ⟨.hbm, 262, rfl⟩
abbrev main_call9_v5 : Ref sig .tc := ⟨.hbm, 263, rfl⟩
abbrev main_call9_v6 : Ref sig .tc := ⟨.hbm, 264, rfl⟩
abbrev main_call9_cst_0 : Ref sig .tc := ⟨.hbm, 265, rfl⟩
abbrev main_v179 : Ref sig .tc := ⟨.hbm, 266, rfl⟩
abbrev main_cst_32 : Ref sig .tc := ⟨.hbm, 267, rfl⟩
abbrev main_v180 : Ref sig .tc := ⟨.hbm, 268, rfl⟩
abbrev main_v181 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_cst_33 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_call10_v0 : Ref sig .tc := ⟨.hbm, 279, rfl⟩
abbrev main_call10_cst : Ref sig .tc := ⟨.hbm, 280, rfl⟩
abbrev main_call10_v1 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_c_34 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_cst_35 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_call11_v0 : Ref sig .tc := ⟨.hbm, 297, rfl⟩
abbrev main_call11_cst : Ref sig .tc := ⟨.hbm, 298, rfl⟩
abbrev main_call11_v1 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_c_36 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_cst_37 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_cst_38 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_cst_39 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_c_40 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_cst_41 : Ref sig .tc := ⟨.hbm, 332, rfl⟩
abbrev main_v230 : Ref sig .tc := ⟨.hbm, 333, rfl⟩
abbrev main_cst_42 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_cst_43 : Ref sig .tc := ⟨.hbm, 338, rfl⟩
abbrev main_call12_v0 : Ref sig .tc := ⟨.hbm, 339, rfl⟩
abbrev main_call12_v1 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_v245 : Ref sig .tc := ⟨.hbm, 352, rfl⟩
abbrev main_call13_cst : Ref sig .tc := ⟨.hbm, 353, rfl⟩
abbrev main_call13_v0 : Ref sig .tc := ⟨.hbm, 354, rfl⟩
abbrev main_v246 : Ref sig .tc := ⟨.hbm, 355, rfl⟩
abbrev main_v247 : Ref sig .tc := ⟨.hbm, 356, rfl⟩
abbrev main_v248 : Ref sig .tc := ⟨.hbm, 357, rfl⟩
abbrev main_v249 : Ref sig .tc := ⟨.hbm, 358, rfl⟩
abbrev main_v250 : Ref sig .tc := ⟨.hbm, 359, rfl⟩
abbrev main_call14_cst : Ref sig .tc := ⟨.hbm, 360, rfl⟩
abbrev main_call14_v0 : Ref sig .tc := ⟨.hbm, 361, rfl⟩
abbrev main_v251 : Ref sig .tc := ⟨.hbm, 362, rfl⟩
abbrev main_cst_44 : Ref sig .tc := ⟨.hbm, 363, rfl⟩
abbrev main_v252 : Ref sig .tc := ⟨.hbm, 364, rfl⟩
abbrev main_cst_45 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_v256 : Ref sig .tc := ⟨.hbm, 369, rfl⟩
abbrev main_v257 : Ref sig .tc := ⟨.hbm, 370, rfl⟩
abbrev main_cst_46 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_call15_v0 : Ref sig .tc := ⟨.hbm, 380, rfl⟩
abbrev main_call15_v1 : Ref sig .tc := ⟨.hbm, 381, rfl⟩
abbrev main_call15_c : Ref sig .tc := ⟨.hbm, 382, rfl⟩
abbrev main_call15_v2 : Ref sig .tc := ⟨.hbm, 383, rfl⟩
abbrev main_call15_v3 : Ref sig .tc := ⟨.hbm, 384, rfl⟩
abbrev main_call15_v4 : Ref sig .tc := ⟨.hbm, 385, rfl⟩
abbrev main_call15_cst : Ref sig .tc := ⟨.hbm, 386, rfl⟩
abbrev main_call15_v5 : Ref sig .tc := ⟨.hbm, 387, rfl⟩
abbrev main_call15_v6 : Ref sig .tc := ⟨.hbm, 388, rfl⟩
abbrev main_call15_cst_0 : Ref sig .tc := ⟨.hbm, 389, rfl⟩
abbrev main_v266 : Ref sig .tc := ⟨.hbm, 390, rfl⟩
abbrev main_cst_47 : Ref sig .tc := ⟨.hbm, 391, rfl⟩
abbrev main_v267 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_cst_48 : Ref sig .tc := ⟨.hbm, 396, rfl⟩
abbrev main_v271 : Ref sig .tc := ⟨.hbm, 397, rfl⟩
abbrev main_v272 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_call16_v0 : Ref sig .tc := ⟨.hbm, 402, rfl⟩
abbrev main_call16_cst : Ref sig .tc := ⟨.hbm, 403, rfl⟩
abbrev main_call16_v1 : Ref sig .tc := ⟨.hbm, 404, rfl⟩
abbrev main_v276 : Ref sig .tc := ⟨.hbm, 405, rfl⟩
abbrev main_v277 : Ref sig .tc := ⟨.hbm, 406, rfl⟩
abbrev main_v278 : Ref sig .tc := ⟨.hbm, 407, rfl⟩
abbrev main_v279 : Ref sig .tc := ⟨.hbm, 408, rfl⟩
abbrev main_v280 : Ref sig .tc := ⟨.hbm, 409, rfl⟩
abbrev main_c_49 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_v284 : Ref sig .tc := ⟨.hbm, 414, rfl⟩
abbrev main_cst_50 : Ref sig .tc := ⟨.hbm, 415, rfl⟩
abbrev main_v285 : Ref sig .tc := ⟨.hbm, 416, rfl⟩
abbrev main_v286 : Ref sig .tc := ⟨.hbm, 417, rfl⟩
abbrev main_v287 : Ref sig .tc := ⟨.hbm, 418, rfl⟩
abbrev main_v288 : Ref sig .tc := ⟨.hbm, 419, rfl⟩
abbrev main_call17_v0 : Ref sig .tc := ⟨.hbm, 420, rfl⟩
abbrev main_call17_cst : Ref sig .tc := ⟨.hbm, 421, rfl⟩
abbrev main_call17_v1 : Ref sig .tc := ⟨.hbm, 422, rfl⟩
abbrev main_v289 : Ref sig .tc := ⟨.hbm, 423, rfl⟩
abbrev main_v290 : Ref sig .tc := ⟨.hbm, 424, rfl⟩
abbrev main_v291 : Ref sig .tc := ⟨.hbm, 425, rfl⟩
abbrev main_c_51 : Ref sig .tc := ⟨.hbm, 426, rfl⟩
abbrev main_v292 : Ref sig .tc := ⟨.hbm, 427, rfl⟩
abbrev main_v293 : Ref sig .tc := ⟨.hbm, 428, rfl⟩
abbrev main_v294 : Ref sig .tc := ⟨.hbm, 429, rfl⟩
abbrev main_v295 : Ref sig .tc := ⟨.hbm, 430, rfl⟩
abbrev main_cst_52 : Ref sig .tc := ⟨.hbm, 431, rfl⟩
abbrev main_v296 : Ref sig .tc := ⟨.hbm, 432, rfl⟩
abbrev main_v297 : Ref sig .tc := ⟨.hbm, 433, rfl⟩
abbrev main_v298 : Ref sig .tc := ⟨.hbm, 434, rfl⟩
abbrev main_cst_53 : Ref sig .tc := ⟨.hbm, 435, rfl⟩
abbrev main_v299 : Ref sig .tc := ⟨.hbm, 436, rfl⟩
abbrev main_v300 : Ref sig .tc := ⟨.hbm, 437, rfl⟩
abbrev main_v301 : Ref sig .tc := ⟨.hbm, 438, rfl⟩
abbrev main_cst_54 : Ref sig .tc := ⟨.hbm, 439, rfl⟩
abbrev main_v302 : Ref sig .tc := ⟨.hbm, 440, rfl⟩
abbrev main_v303 : Ref sig .tc := ⟨.hbm, 441, rfl⟩
abbrev main_v304 : Ref sig .tc := ⟨.hbm, 442, rfl⟩
abbrev main_v305 : Ref sig .tc := ⟨.hbm, 443, rfl⟩
abbrev main_v306 : Ref sig .tc := ⟨.hbm, 444, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  concatenates_S320000_S10000_S330000_d0 : Shape.Concatenates [S320000, S10000] S330000 0
  bcast_S_S10000 : S_.BroadcastsInDim S10000 (![] : Fin 0 → Fin S10000.rank)
  bcast_S330000_S330000x1_0 : S330000.BroadcastsInDim S330000x1 (![0] : Fin 1 → Fin S330000x1.rank)
  bcast_S_S330000 : S_.BroadcastsInDim S330000 (![] : Fin 0 → Fin S330000.rank)
  bcast_S330000x1_S330000x512_0_1 : S330000x1.BroadcastsInDim S330000x512 (![0, 1] : Fin 2 → Fin S330000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S10000x1024_S1024x10000_1_0 : S10000x1024.Transposes [1, 0] S1024x10000
  bcast_S_S1024x1024 : S_.BroadcastsInDim S1024x1024 (![] : Fin 0 → Fin S1024x1024.rank)
  reducesTo_S1024x1024_S_d0_1 : S1024x1024.ReducesTo [0, 1] S_
  reducesTo_S10000x10000_S10000_d1 : S10000x10000.ReducesTo [1] S10000
  reducesTo_S10000x1024_S_d0_1 : S10000x1024.ReducesTo [0, 1] S_
  reducesTo_S1024x1024_S1024_d1 : S1024x1024.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  transposes_S1024x1_S1x1024_1_0 : S1024x1.Transposes [1, 0] S1x1024
  bcast_S1x1024_S1024x1024_0_1 : S1x1024.BroadcastsInDim S1024x1024 (![0, 1] : Fin 2 → Fin S1024x1024.rank)
  bcast_S_S1024 : S_.BroadcastsInDim S1024 (![] : Fin 0 → Fin S1024.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  reducesTo_S1024x128_S1024_d1 : S1024x128.ReducesTo [1] S1024
  bcast_S1024x1_S1024x128_0_1 : S1024x1.BroadcastsInDim S1024x128 (![0, 1] : Fin 2 → Fin S1024x128.rank)
  transposes_S1024x128_S128x1024_1_0 : S1024x128.Transposes [1, 0] S128x1024
  bcast_S_S128x128 : S_.BroadcastsInDim S128x128 (![] : Fin 0 → Fin S128x128.rank)
  reducesTo_S128x128_S_d0_1 : S128x128.ReducesTo [0, 1] S_
  reducesTo_S1024x128_S_d0_1 : S1024x128.ReducesTo [0, 1] S_
  reducesTo_S128x128_S128_d1 : S128x128.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  transposes_S128x1_S1x128_1_0 : S128x1.Transposes [1, 0] S1x128
  bcast_S1x128_S128x128_0_1 : S1x128.BroadcastsInDim S128x128 (![0, 1] : Fin 2 → Fin S128x128.rank)
  bcast_S_S128 : S_.BroadcastsInDim S128 (![] : Fin 0 → Fin S128.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  bcast_S_S1x1 : S_.BroadcastsInDim S1x1 (![] : Fin 0 → Fin S1x1.rank)
  reducesTo_S1x1_S_d0_1 : S1x1.ReducesTo [0, 1] S_
  reducesTo_S128x1_S_d0_1 : S128x1.ReducesTo [0, 1] S_
  reducesTo_S1x1_S1_d1 : S1x1.ReducesTo [1] S1
  bcast_S1_S1x1_0 : S1.BroadcastsInDim S1x1 (![0] : Fin 1 → Fin S1x1.rank)
  transposes_S1x1_S1x1_1_0 : S1x1.Transposes [1, 0] S1x1
  scatter_S10000x10000_S320000x2_S320000_n_01_01_1_wf : ScatterDims.WF S10000x10000 S320000x2 S320000 [] [0, 1] [0, 1] 1
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x512_S512x512_S10000x512_1_0_0_1_n_n_wf : DotDims.WF S10000x512 S512x512 S10000x512 [1] [0] [0] [1] [] []
  gather_S10000x512_S330000x1_S330000x512_1_0_n_n_0_1_1512_wf : GatherDims.WF S10000x512 S330000x1 S330000x512 [1] [0] [] [0] [] 1 ![1, 512]
  scatter_S10000x512_S330000x1_S330000x512_1_0_0_1_wf : ScatterDims.WF S10000x512 S330000x1 S330000x512 [1] [0] [0] 1
  dot_S10000x512_S512x1024_S10000x1024_1_0_0_1_n_n_wf : DotDims.WF S10000x512 S512x1024 S10000x1024 [1] [0] [0] [1] [] []
  dot_S1024x10000_S10000x512_S1024x512_1_0_0_1_n_n_wf : DotDims.WF S1024x10000 S10000x512 S1024x512 [1] [0] [0] [1] [] []
  dot_S10000x10000_S10000x1024_S10000x1024_1_0_0_1_n_n_wf : DotDims.WF S10000x10000 S10000x1024 S10000x1024 [1] [0] [0] [1] [] []
  dot_S1024x10000_S10000x1024_S1024x1024_1_0_0_1_n_n_wf : DotDims.WF S1024x10000 S10000x1024 S1024x1024 [1] [0] [0] [1] [] []
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S128x1024_S1024x512_S128x512_1_0_0_1_n_n_wf : DotDims.WF S128x1024 S1024x512 S128x512 [1] [0] [0] [1] [] []
  dot_S1024x1024_S1024x128_S1024x128_1_0_0_1_n_n_wf : DotDims.WF S1024x1024 S1024x128 S1024x128 [1] [0] [0] [1] [] []
  dot_S128x1024_S1024x128_S128x128_1_0_0_1_n_n_wf : DotDims.WF S128x1024 S1024x128 S128x128 [1] [0] [0] [1] [] []
  dot_S128x512_S512x512_S128x512_1_0_0_1_n_n_wf : DotDims.WF S128x512 S512x512 S128x512 [1] [0] [0] [1] [] []
  dot_S128x128_S128x512_S128x512_1_0_0_1_n_n_wf : DotDims.WF S128x128 S128x512 S128x512 [1] [0] [0] [1] [] []
  dot_S128x512_S512x1_S128x1_1_0_0_1_n_n_wf : DotDims.WF S128x512 S512x1 S128x1 [1] [0] [0] [1] [] []
  dot_S1x128_S128x512_S1x512_1_0_0_1_n_n_wf : DotDims.WF S1x128 S128x512 S1x512 [1] [0] [0] [1] [] []
  dot_S128x128_S128x1_S128x1_1_0_0_1_n_n_wf : DotDims.WF S128x128 S128x1 S128x1 [1] [0] [0] [1] [] []
  dot_S1x128_S128x1_S1x1_1_0_0_1_n_n_wf : DotDims.WF S1x128 S128x1 S1x1 [1] [0] [0] [1] [] []

variable [Facts₀]

def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S330000x1_S330000x512_1_0_n_n_0_1_1512 : GatherDims S10000x512 S330000x1 S330000x512 where
  offsetDims := [1]
  collapsedSliceDims := [0]
  operandBatchingDims := []
  startIndicesBatchingDims := []
  startIndexMap := [0]
  indexVectorDim := 1
  sliceSizes := ![1, 512]
  wf := gather_S10000x512_S330000x1_S330000x512_1_0_n_n_0_1_1512_wf
def scatter_S10000x512_S330000x1_S330000x512_1_0_0_1 : ScatterDims S10000x512 S330000x1 S330000x512 where
  updateWindowDims := [1]
  insertedWindowDims := [0]
  scatterDimsToOperandDims := [0]
  indexVectorDim := 1
  wf := scatter_S10000x512_S330000x1_S330000x512_1_0_0_1_wf
def dot_S10000x512_S512x1024_S10000x1024_1_0_0_1_n_n : DotDims S10000x512 S512x1024 S10000x1024 where
  lhsContracting := [1]
  rhsContracting := [0]
  lhsNonContracting := [0]
  rhsNonContracting := [1]
  lhsBatch := []
  rhsBatch := []
  wf := dot_S10000x512_S512x1024_S10000x1024_1_0_0_1_n_n_wf
def dot_S1024x10000_S10000x512_S1024x512_1_0_0_1_n_n : DotDims S1024x10000 S10000x512 S1024x512 where
  lhsContracting := [1]
  rhsContracting := [0]
  lhsNonContracting := [0]
  rhsNonContracting := [1]
  lhsBatch := []
  rhsBatch := []
  wf := dot_S1024x10000_S10000x512_S1024x512_1_0_0_1_n_n_wf
def dot_S10000x10000_S10000x1024_S10000x1024_1_0_0_1_n_n : DotDims S10000x10000 S10000x1024 S10000x1024 where
  lhsContracting := [1]
  rhsContracting := [0]
  lhsNonContracting := [0]
  rhsNonContracting := [1]
  lhsBatch := []
  rhsBatch := []
  wf := dot_S10000x10000_S10000x1024_S10000x1024_1_0_0_1_n_n_wf
def dot_S1024x10000_S10000x1024_S1024x1024_1_0_0_1_n_n : DotDims S1024x10000 S10000x1024 S1024x1024 where
  lhsContracting := [1]
  rhsContracting := [0]
  lhsNonContracting := [0]
  rhsNonContracting := [1]
  lhsBatch := []
  rhsBatch := []
  wf := dot_S1024x10000_S10000x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x512_S512x1_S128x1_1_0_0_1_n_n : DotDims S128x512 S512x1 S128x1 where
  lhsContracting := [1]
  rhsContracting := [0]
  lhsNonContracting := [0]
  rhsNonContracting := [1]
  lhsBatch := []
  rhsBatch := []
  wf := dot_S128x512_S512x1_S128x1_1_0_0_1_n_n_wf
def dot_S1x128_S128x512_S1x512_1_0_0_1_n_n : DotDims S1x128 S128x512 S1x512 where
  lhsContracting := [1]
  rhsContracting := [0]
  lhsNonContracting := [0]
  rhsNonContracting := [1]
  lhsBatch := []
  rhsBatch := []
  wf := dot_S1x128_S128x512_S1x512_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.KI.R0.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 0 of @main, at the entry contents V: h1 = x · W1 + b in ten blocks of 1000 rows, the factors rounded to bf16 on the way into the product

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's row block is in its buffer at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor is in its buffer at every point: fetched at the first, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- "This is the first block of the contraction axis" (the accumulator is zeroed), from the grid coordinates. -/
abbrev cond0_0 (i : grid0.Coords) : Prop := (Scalar.cmpi .ne (Scalar.extui (Scalar.cmpi .eq (BitVec.ofNat 32 (i 1).val) 0#32)) 0#32) = 1#1
/-- The contraction axis has one block: it holds at every point. -/
theorem hcond0_0 : ∀ t : Fin cfg0.N, cond0_0 (grid0.coords t) :=
  (by decide +kernel : ∀ t : Fin grid0.N, cond0_0 (grid0.coords t))

/-- "This is the last block of the contraction axis" (the output block is stored). -/
abbrev cond0_1 (i : grid0.Coords) : Prop := k0_cond2 i = 1#1
/-- It too holds at every point. -/
theorem hcond0_1 : ∀ t : Fin cfg0.N, cond0_1 (grid0.coords t) :=
  (by decide +kernel : ∀ t : Fin grid0.N, cond0_1 (grid0.coords t))

/-- The output block is stored at every point: no point is idle for it. -/
theorem liveAt0_3 : ∀ t : Fin cfg0.N, cfg0.idle 3 (grid0.coords t) = false := by decide +kernel

/-! ## The memrefs the body is called with -/

abbrev ms0_0 (t : Fin cfg0.N) : Memref sig .tc .vmem S1000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x512 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1000x512 .f32 := Memref.whole cc0_scratch0
/-- One buffer of the output window, through which its contents are stated (the choice does not matter). -/
abbrev VO0_3 : View sig .tc .vmem S1000x512 .f32 := (Memref.whole cc0_stg3_0 : Memref sig .tc .vmem S1000x512 .f32).view

/-- The region invariant with the accumulator set apart, owned at some contents. -/
theorem PhiA0_eq (c : Dev nD) :
    (Pipeline.ΦA spec0 c : sProp 𝕄)
      = iprop(iprop(iprop((∃ d, owns (c : Thread nD τ) scM0_0 fullShare d))
            ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun0 (c : Dev nD) (i : grid0.Coords)
    (arg2 : Memref sig .tc .vmem S1000x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1000x512 .f32) (harg5 : arg5.IsWhole)
    (arg6 : Memref sig .tc .vmem S1000x512 .f32) (harg6 : arg6.IsWhole) (hc0 : cond0_0 i) (hc1 : cond0_1 i)
    (x0 : Vec F S1000x512 .f32) (x1 : Vec F S512x512 .f32) (x2 : Vec F S1x512 .f32) :
    { L3 : List (View.Piece (Elt F) S1000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc0__matmul_kernel i arg2 harg2 arg3 harg3 arg4 harg4 arg5 harg5 arg6 harg6) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover0_3 (c : Dev nD) (i : grid0.Coords)
    (arg2 : Memref sig .tc .vmem S1000x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1000x512 .f32) (harg5 : arg5.IsWhole)
    (arg6 : Memref sig .tc .vmem S1000x512 .f32) (harg6 : arg6.IsWhole) (hc0 : cond0_0 i) (hc1 : cond0_1 i)
    (x0 : Vec F S1000x512 .f32) (x1 : Vec F S512x512 .f32) (x2 : Vec F S1x512 .f32) (y : S1000x512.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S1000x512.size (by sl_kernel_rfl) y

/-- What the body leaves in the output buffer: its pieces read back. -/
def out0_3 (c : Dev nD) (i : grid0.Coords)
    (arg2 : Memref sig .tc .vmem S1000x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1000x512 .f32) (harg5 : arg5.IsWhole)
    (arg6 : Memref sig .tc .vmem S1000x512 .f32) (harg6 : arg6.IsWhole) (hc0 : cond0_0 i) (hc1 : cond0_1 i)
    (x0 : Vec F S1000x512 .f32) (x1 : Vec F S512x512 .f32) (x2 : Vec F S1x512 .f32) : Vec F S1000x512 .f32 :=
  VO0_3.read (Elt F) (VO0_3.writes (Elt F) VO0_3.junk (kernelRun0 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _)
        (hcond0_0 t) (hcond0_1 t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_first0 (c : Dev nD) : (dat0 V c).Φ 0 = Pipeline.ΦA spec0 c := by
  dsimp only [dat0]

theorem Phi_last0 (c : Dev nD) : (dat0 V c).Φ (Fin.last cfg0.N) ⊢ Pipeline.ΦA spec0 c := by
  rw [show (dat0 V c).Φ (Fin.last cfg0.N) = Pipeline.ΦA spec0 c from by dsimp only [dat0]]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t
    = out0_3 c (grid0.coords t) (ms0_0 t) (hs0_0 t) (ms0_1 t) (hs0_1 t) (ms0_2 t) (hs0_2 t) (ms0_3 t) (hs0_3 t) scM0_0 (Memref.isWhole_whole _)
        (hcond0_0 t) (hcond0_1 t) (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks, both conditions hold, so the run applies; the
    invariant lends the accumulator at some contents and takes it back at some contents; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Pipeline.ΦA spec0 c from by dsimp only [dat0],
    show (dat0 V c).Φ t.castSucc = Pipeline.ΦA spec0 c from by dsimp only [dat0], PhiA0_eq]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [show (dat0 V c).leavesExact 2 t = owns (c : Thread nD τ) (ms0_2 t) fullShare ((dat0 V c).after 2 t) from rfl, after0_2]
  rw [show (dat0 V c).leavesExact 3 t = owns (c : Thread nD τ) (ms0_3 t) fullShare ((dat0 V c).after 3 t) from by
      unfold Dat.leavesExact; rw [liveAt0_3 t], after0_3]
  unfold out0_3; (try dsimp only)
  iintro ⟨⟨⟨HS, HR⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the transposed-lhs matmul accumulated over the contraction blocks

The grid is (i, j, k) with k last: for each output block (i, j) the ten k points add one product block into a
VMEM accumulator, which is zeroed at k = 0 and copied to the output block at k = 9. Everything is stated at the
buffer contents the region is entered with. -/

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (k = 0), from the grid coordinates. -/
abbrev cond1_0 (i : grid1.Coords) : Prop := (Scalar.cmpi .ne (Scalar.extui (Scalar.cmpi .eq (BitVec.ofNat 32 (i 2).val) 0#32)) 0#32) = 1#1
/-- It holds exactly at the points whose last coordinate is 0. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's condition (k = 9). -/
abbrev cond1_1 (i : grid1.Coords) : Prop := k1_cond2 i = 1#1
/-- It holds exactly at the points whose last coordinate is 9. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional is not taken the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it is taken the output window is live. -/
theorem liveAt1_2 : ∀ t : Fin cfg1.N, cond1_1 (grid1.coords t) → cfg1.idle 2 (grid1.coords t) = false := by decide +kernel

/-! ## The staging memrefs and the accumulator -/

/-- One staging buffer of the output window, through which its contents are stated. -/
abbrev VO1_2 : View sig .tc .vmem S1024x256 .f32 := (Memref.whole cc1_stg2_0 : Memref sig .tc .vmem S1024x256 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
/-- The accumulator: a whole scoped buffer of the kernel's own, carried between points. -/
abbrev scM1_0 : Memref sig .tc .vmem S1024x256 .f32 := Memref.whole cc1_scratch0
abbrev VS1_0 : View sig .tc .vmem S1024x256 .f32 := scM1_0.view

/-- The region's invariant with the accumulator as a memref owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

/-! ## The kernel body on any staging memrefs, case by case -/

set_option maxHeartbeats 1000000 in
/-- CASE A (k = 0): the accumulator at anything is zeroed and the product block added; the output's buffer is
    handed back untouched. The pieces the accumulator ends with are the witness the run finds. -/
noncomputable def kernelRun1_A (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmulT_kernel i arg3 harg3 arg4 harg4 arg5 harg5 arg6 harg6) K } := by
  refine ⟨[], ?_, fun xi2 E K => ?run⟩
  case run =>
    simp only [cc1__matmulT_kernel_eq_skeleton]; unfold cc1__matmulT_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B (0 < k < 9): the product block is added to the accumulator at what the point before left; the
    output's buffer is handed back untouched. -/
noncomputable def kernelRun1_B (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmulT_kernel i arg3 harg3 arg4 harg4 arg5 harg5 arg6 harg6) K } := by
  refine ⟨[], ?_, fun xi2 E K => ?run⟩
  case run =>
    simp only [cc1__matmulT_kernel_eq_skeleton]; unfold cc1__matmulT_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 9): the product block is added to the accumulator at what the point before left, and the
    accumulator is copied into the output's buffer, whatever that held. -/
noncomputable def kernelRun1_C (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmulT_kernel i arg3 harg3 arg4 harg4 arg5 harg5 arg6 harg6) K } := by
  refine ⟨?_, ?_, fun E K => ?run⟩
  case run =>
    simp only [cc1__matmulT_kernel_eq_skeleton]; unfold cc1__matmulT_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- Case A stores nothing into the output (idle there): a placeholder nothing consults. -/
def out1_A_2 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) : Vec F S1024x256 .f32 :=
  VO1_2.read (Elt F) (VO1_2.writes (Elt F) VO1_2.junk (kernelRun1_A c i arg3 harg3 arg4 harg4 arg5 harg5 arg6 harg6 hc0 hc1 x0 x1).1)

/-- Case A's pieces for the accumulator cover it. -/
theorem scover1_A_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) (y : S1024x256.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x256.size (by sl_kernel_rfl) y

/-- What case A leaves in the accumulator. -/
def sout1_A_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) : Vec F S1024x256 .f32 :=
  VS1_0.read (Elt F) (VS1_0.writes (Elt F) VS1_0.junk (kernelRun1_A c i arg3 harg3 arg4 harg4 arg5 harg5 arg6 harg6 hc0 hc1 x0 x1).2.1)

/-- Case B stores nothing into the output (idle there): a placeholder nothing consults. -/
def out1_B_2 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) : Vec F S1024x256 .f32 :=
  VO1_2.read (Elt F) (VO1_2.writes (Elt F) VO1_2.junk (kernelRun1_B c i arg3 harg3 arg4 harg4 arg5 harg5 arg6 harg6 hc0 hc1 x0 x1 xs0).1)

/-- Case B's pieces for the accumulator cover it. -/
theorem scover1_B_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) (y : S1024x256.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x256.size (by sl_kernel_rfl) y

/-- What case B leaves in the accumulator. -/
def sout1_B_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) : Vec F S1024x256 .f32 :=
  VS1_0.read (Elt F) (VS1_0.writes (Elt F) VS1_0.junk (kernelRun1_B c i arg3 harg3 arg4 harg4 arg5 harg5 arg6 harg6 hc0 hc1 x0 x1 xs0).2.1)

/-- Case C's store into the output covers its block. -/
theorem cover1_C_2 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) (y : S1024x256.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x256.size (by sl_kernel_rfl) y

/-- What case C leaves in the output's staging buffer. -/
def out1_C_2 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) : Vec F S1024x256 .f32 :=
  VO1_2.read (Elt F) (VO1_2.writes (Elt F) VO1_2.junk (kernelRun1_C c i arg3 harg3 arg4 harg4 arg5 harg5 arg6 harg6 hc0 hc1 x0 x1 xs0).1)

/-- Case C's pieces for the accumulator cover it. -/
theorem scover1_C_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) (y : S1024x256.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x256.size (by sl_kernel_rfl) y

/-- What case C leaves in the accumulator. -/
def sout1_C_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) : Vec F S1024x256 .f32 :=
  VS1_0.read (Elt F) (VS1_0.writes (Elt F) VS1_0.junk (kernelRun1_C c i arg3 harg3 arg4 harg4 arg5 harg5 arg6 harg6 hc0 hc1 x0 x1 xs0).2.1)

/-! ## What the output's buffer and the accumulator hold after each point -/

/-- The accumulation: after the body at position n, the output's staging buffer and the accumulator, by the case
    the closed forms select at n, run at the point's memrefs and input blocks, the accumulator taken at what the
    point before left where the case reads it. -/
def outsAt1 (c : Dev nD) : (n : ℕ) → n < cfg1.N → Vec F S1024x256 .f32 × Vec F S1024x256 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 10 = 0 then
      if h1 : (n + 1) % 10 = 9 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 10 = 9 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point of case A. -/
theorem outsAt1_A (c : Dev nD) (t : Fin cfg1.N) (h0 : t.val % 10 = 0) (h1 : ¬t.val % 10 = 9) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point of case B: over what the point before left. -/
theorem outsAt1_B (c : Dev nD) (t : Fin cfg1.N) (h0 : ¬t.val % 10 = 0) (h1 : ¬t.val % 10 = 9) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt1_C (c : Dev nD) (t : Fin cfg1.N) (h0 : ¬t.val % 10 = 0) (h1 : t.val % 10 = 9) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards
    the accumulator at what the point before left, the other scoped buffers unopened, the generator register at some
    state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut spec1 c [cc1_scratch0]) ∗ (∃ r, prngReg c r)) := by
  cases n with
  | zero => exact absurd rfl hz
  | succ n => rfl

/-! ## The pipeline's proof data -/

/-- The proof data of the region on core c: the arrays as the region finds them; after the body at point t each
    input's buffer at its block and the output's at the accumulation's first component; the invariant carrying the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the launch hands the region is the invariant before the first point. -/
theorem Phi_first1 (c : Dev nD) : (dat1 V c).Φ 0 = Pipeline.ΦA spec1 c := by
  rw [show (dat1 V c).Φ 0 = PhiS1 V c 0 (Nat.zero_le _) from rfl, PhiS1_zero V c 0 _ rfl]

/-- After any point but the first the invariant gives the launch's form back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem Phi_last1 (c : Dev nD) : (dat1 V c).Φ (Fin.last cfg1.N) ⊢ Pipeline.ΦA spec1 c :=
  Phi_out1 V c _ (by rw [Fin.val_last]; have : cfg1.N = 200 := N_1; omega)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 200 := lt_of_lt_of_eq t.isLt (show cfg1.N = 200 from N_1)
  by_cases h0 : t.val % 10 = 0
  · by_cases h1 : t.val % 10 = 9
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun e => h0 (by omega)
    by_cases h1 : t.val % 10 = 9
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 2 of @main (the projection with a row softmax), at the contents `V` the region is entered with

The per-region half of the frame certificate: the windows' blocks read off the arrays as the region finds them, the
body's triple (one control case: the grid's second axis has one point, so the accumulator is zeroed, updated and
read out at every point), the proof data, and the body obligation. The accumulator is rewritten whole before it is
read at every point, so the invariant carries no contents for it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved;
    the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved;
    the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved;
    the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions: both hold at every point -/

/-- The condition of the body's first conditional (the accumulator's reset), from the grid coordinates. -/
abbrev cond2_0 (i : grid2.Coords) : Prop := (Scalar.cmpi .ne (Scalar.extui (Scalar.cmpi .eq (BitVec.ofNat 32 (i 1).val) 0#32)) 0#32) = 1#1
/-- It holds at every point: the second axis has the one coordinate 0. -/
theorem hcond2_0 : ∀ t : Fin cfg2.N, cond2_0 (grid2.coords t) :=
  (by decide +kernel : ∀ t : Fin grid2.N, cond2_0 (grid2.coords t))

/-- The condition of the body's second conditional (the read-out), from the grid coordinates. -/
abbrev cond2_1 (i : grid2.Coords) : Prop := k2_cond2 i = 1#1
/-- It holds at every point, for the same reason. -/
theorem hcond2_1 : ∀ t : Fin cfg2.N, cond2_1 (grid2.coords t) :=
  (by decide +kernel : ∀ t : Fin grid2.N, cond2_1 (grid2.coords t))

/-! ## No window is idle at any point -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-! ## The memrefs the body is called with -/

/-- One staging buffer of each output window, through which its contents are stated (the choice does not matter:
    a covering list of writes reads the same through any view). -/
abbrev VO2_3 : View sig .tc .vmem S1000x1024 .f32 := (Memref.whole cc2_stg3_0 : Memref sig .tc .vmem S1000x1024 .f32).view
abbrev VO2_4 : View sig .tc .vmem S1000x1024 .bf16 := (Memref.whole cc2_stg4_0 : Memref sig .tc .vmem S1000x1024 .bf16).view
/-- Each window's current staging memref at point `t`, spelled as the pipeline passes it, and its wholeness. -/
abbrev ms2_0 (t : Fin cfg2.N) : Memref sig .tc .vmem S1000x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1000x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1000x1024 .bf16 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S1000x1024 .f32 := Memref.whole cc2_scratch0

/-- The class's invariant with the accumulator as a memref owned at some contents, the other scoped buffers
    unopened, and the generator register at some state: what the body obligation hands the run and takes back. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body's triple -/

set_option maxHeartbeats 4000000 in
/-- What the body's stores leave in each output's staging memref and in the accumulator, as pieces (last first), with
    the proof that on whole memrefs — the inputs' at their contents, the outputs' and the accumulator at anything — the
    body runs to the continuation holding the inputs' as they were and each of the other three with its pieces
    written. Both conditionals are decided by the hypotheses; the pieces are the witness the run finds. -/
noncomputable def kernelRun2 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) :
    Σ' (L3 : List (View.Piece (Elt F) S1000x1024 .f32)) (L4 : List (View.Piece (Elt F) S1000x1024 .bf16)), { LS0 : List (View.Piece (Elt F) S1000x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc2__proj_softmax_kernel i arg2 harg2 arg3 harg3 arg4 harg4 arg5 harg5 arg6 harg6 arg7 harg7) K } := by
  refine ⟨?_, ?_, ?_, fun E K => ?run⟩
  case run =>
    simp only [cc2__proj_softmax_kernel_eq_skeleton]; unfold cc2__proj_softmax_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- The pieces for output window 3 tile its block (one store of the whole block), so they cover it. -/
theorem cover2_3 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) (y : S1000x1024.Idx) :
    ∃ pc ∈ (kernelRun2 c i arg2 harg2 arg3 harg3 arg4 harg4 arg5 harg5 arg6 harg6 arg7 harg7 hc0 hc1 x0 x1 x2).1, y ∈ pc.1.set :=
  View.cover_of_tiledL (kernelRun2 c i arg2 harg2 arg3 harg3 arg4 harg4 arg5 harg5 arg6 harg6 arg7 harg7 hc0 hc1 x0 x1 x2).1 S1000x1024.size (by sl_kernel_rfl) y

/-- What the body leaves in output window 3's staging buffer: its pieces read back over junk. -/
def out2_3 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) : Vec F S1000x1024 .f32 :=
  VO2_3.read (Elt F) (VO2_3.writes (Elt F) VO2_3.junk (kernelRun2 c i arg2 harg2 arg3 harg3 arg4 harg4 arg5 harg5 arg6 harg6 arg7 harg7 hc0 hc1 x0 x1 x2).1)

/-- The pieces for output window 4 tile its block (one store of the whole block), so they cover it. -/
theorem cover2_4 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) (y : S1000x1024.Idx) :
    ∃ pc ∈ (kernelRun2 c i arg2 harg2 arg3 harg3 arg4 harg4 arg5 harg5 arg6 harg6 arg7 harg7 hc0 hc1 x0 x1 x2).2.1, y ∈ pc.1.set :=
  View.cover_of_tiledL (kernelRun2 c i arg2 harg2 arg3 harg3 arg4 harg4 arg5 harg5 arg6 harg6 arg7 harg7 hc0 hc1 x0 x1 x2).2.1 S1000x1024.size (by sl_kernel_rfl) y

/-- What the body leaves in output window 4's staging buffer: its pieces read back over junk. -/
def out2_4 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) : Vec F S1000x1024 .bf16 :=
  VO2_4.read (Elt F) (VO2_4.writes (Elt F) VO2_4.junk (kernelRun2 c i arg2 harg2 arg3 harg3 arg4 harg4 arg5 harg5 arg6 harg6 arg7 harg7 hc0 hc1 x0 x1 x2).2.1)

/-! ## The pipeline's proof data -/

/-- The proof data of pipeline 2 on core `c`: the arrays as the region finds them (`V`); after the body at point
    `t` each input's buffer at its block and each output's at what the run leaves from the input blocks; the
    invariant the class's (the scoped rest and the generator register, at anything); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 c (grid2.coords t) (ms2_0 t) (hs2_0 t) (ms2_1 t) (hs2_1 t) (ms2_2 t) (hs2_2 t) (ms2_3 t) (hs2_3 t) (ms2_4 t) (hs2_4 t) scM2_0 (Memref.isWhole_whole _) (hcond2_0 t) (hcond2_1 t) (iblk2 V c 0 t) (iblk2 V c 1 t) (iblk2 V c 2 t)
    | ⟨4, _⟩ => out2_4 c (grid2.coords t) (ms2_0 t) (hs2_0 t) (ms2_1 t) (hs2_1 t) (ms2_2 t) (hs2_2 t) (ms2_3 t) (hs2_3 t) (ms2_4 t) (hs2_4 t) scM2_0 (Memref.isWhole_whole _) (hcond2_0 t) (hcond2_1 t) (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant before the first point is the class's, -/
theorem Phi_first2 (c : Dev nD) : (dat2 V c).Φ 0 = Pipeline.ΦA spec2 c := by
  dsimp only [dat2]

/-- and after the last point it gives the class's back. -/
theorem Phi_last2 (c : Dev nD) : (dat2 V c).Φ (Fin.last cfg2.N) ⊢ Pipeline.ΦA spec2 c := by
  dsimp only [dat2]; exact Idealize.SL.BI.Entails.refl _

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 c (grid2.coords t) (ms2_0 t) (hs2_0 t) (ms2_1 t) (hs2_1 t) (ms2_2 t) (hs2_2 t) (ms2_3 t) (hs2_3 t) (ms2_4 t) (hs2_4 t) scM2_0 (Memref.isWhole_whole _) (hcond2_0 t) (hcond2_1 t) (iblk2 V c 0 t) (iblk2 V c 1 t) (iblk2 V c 2 t) := by dsimp only [dat2]
theorem after2_4 (c : Dev nD) (t : Fin cfg2.N) : (dat2 V c).after 4 t = out2_4 c (grid2.coords t) (ms2_0 t) (hs2_0 t) (ms2_1 t) (hs2_1 t) (ms2_2 t) (hs2_2 t) (ms2_3 t) (hs2_3 t) (ms2_4 t) (hs2_4 t) scM2_0 (Memref.isWhole_whole _) (hcond2_0 t) (hcond2_1 t) (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: the inputs' memrefs hold their blocks; the invariant hands the body the accumulator at some
    contents (the other scoped buffers and the generator register pass through unread) and takes it back at some
    contents; each output's buffer ends at its pieces written, which cover it; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  unfold out2_3 out2_4; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((kernelRun2 c (grid2.coords t) _ _ _ _ _ _ _ _ _ _ _ _ (hcond2_0 t) (hcond2_1 t) (iblk2 V c 0 t) (iblk2 V c 1 t) (iblk2 V c 2 t)).2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover2_3 c _ _ _ _ _ _ _ _ _ _ _ _ _ _ _ _ _ _)
  unfold owns; iexists _; isplitr
  swap; · iexact H4
  ipureintro; exact View.read_writes_of_cover _ _ _ _ _ (cover2_4 c _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! Region 3 of the main function (the adjacency-times-assignment product with a fused row sum), as the per-region
half of a frame certificate at the buffer contents V the region is entered with. The grid is 10 row blocks by 10
column blocks, the column block last; two accumulators live in scratch memory across the ten column blocks of a row
block: they are reset at the first column block, added to at every one, and copied to the two outputs at the last. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- The first conditional's test (the column block is the first), from the grid coordinates. -/
abbrev cond3_0 (i : grid3.Coords) : Prop := (Scalar.cmpi .ne (Scalar.extui (Scalar.cmpi .eq (BitVec.ofNat 32 (i 1).val) 0#32)) 0#32) = 1#1
/-- It holds exactly at the points whose position is a multiple of ten. -/
theorem hcond3_0 : ∀ t : Fin cfg3.N, cond3_0 (grid3.coords t) ↔ t.val % 10 = 0 :=
  (by decide +kernel : ∀ t : Fin grid3.N, cond3_0 (grid3.coords t) ↔ t.val % 10 = 0)

/-- The second conditional's test (the column block is the last). -/
abbrev cond3_1 (i : grid3.Coords) : Prop := k3_cond2 i = 1#1
/-- It holds exactly at the points whose position is nine modulo ten. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Away from the last column block both outputs are idle, -/
theorem idleAt3_3 : ∀ t : Fin cfg3.N, ¬t.val % 10 = 9 → cfg3.idle 3 (grid3.coords t) = true :=
  (by decide +kernel : ∀ t : Fin grid3.N, ¬t.val % 10 = 9 → idle3 3 (grid3.coords t) = true)
theorem idleAt3_4 : ∀ t : Fin cfg3.N, ¬t.val % 10 = 9 → cfg3.idle 4 (grid3.coords t) = true :=
  (by decide +kernel : ∀ t : Fin grid3.N, ¬t.val % 10 = 9 → idle3 4 (grid3.coords t) = true)
/-- and at the last column block they are live. -/
theorem liveAt3_3 : ∀ t : Fin cfg3.N, t.val % 10 = 9 → cfg3.idle 3 (grid3.coords t) = false :=
  (by decide +kernel : ∀ t : Fin grid3.N, t.val % 10 = 9 → idle3 3 (grid3.coords t) = false)
theorem liveAt3_4 : ∀ t : Fin cfg3.N, t.val % 10 = 9 → cfg3.idle 4 (grid3.coords t) = false :=
  (by decide +kernel : ∀ t : Fin grid3.N, t.val % 10 = 9 → idle3 4 (grid3.coords t) = false)
/-- Away from the last column block neither output is written back. -/
theorem noFlush3_3 (t : Fin cfg3.N) (h : ¬t.val % 10 = 9) : (cfg3.win 3).flush t = false := by
  cases hf : (cfg3.win 3).flush t with
  | false => rfl
  | true => exact absurd ((flush3_3 t).mp hf) h
theorem noFlush3_4 (t : Fin cfg3.N) (h : ¬t.val % 10 = 9) : (cfg3.win 4).flush t = false := by
  cases hf : (cfg3.win 4).flush t with
  | false => rfl
  | true => exact absurd ((flush3_4 t).mp hf) h

/-! ## The staging and scratch memrefs -/

abbrev VO3_3 : View sig .tc .vmem S1024x1024 .bf16 := (Memref.whole cc3_stg3_0 : Memref sig .tc .vmem S1024x1024 .bf16).view
abbrev VO3_4 : View sig .tc .vmem S1024x128 .f32 := (Memref.whole cc3_stg4_0 : Memref sig .tc .vmem S1024x128 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)
/-- The two accumulators: whole scoped buffers of the kernel's own. -/
abbrev scM3_0 : Memref sig .tc .vmem S1024x1024 .f32 := Memref.whole cc3_scratch0
abbrev scM3_1 : Memref sig .tc .vmem S1024x128 .f32 := Memref.whole cc3_scratch1
abbrev VS3_0 : View sig .tc .vmem S1024x1024 .f32 := scM3_0.view
abbrev VS3_1 : View sig .tc .vmem S1024x128 .f32 := scM3_1.view

/-- Every other scoped buffer of the core, unopened. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The region invariant with the two accumulators as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 c) ∗ (∃ r, prngReg c r)) := by
  unfold Pipeline.ΦA; rw [scopedRest3_split]; simp only [scM3_0, scM3_1, owns_whole]; try rfl

/-! ## The kernel body on any whole staging memrefs, one run per control case -/

set_option maxHeartbeats 1000000 in
/-- FIRST COLUMN BLOCK (first conditional taken, second not): on whole memrefs, the inputs at their contents, the two
    outputs at contents handed back untouched, the accumulators at anything, the body runs to the continuation
    holding the inputs and outputs as they were and each accumulator with the pieces written that the run found. -/
noncomputable def kernelRun3_A (c : Dev nD) (i : grid3.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1024 .f32) (harg7 : arg7.IsWhole) (arg8 : Memref sig .tc .vmem S1024x128 .f32) (harg8 : arg8.IsWhole) (hc0 : cond3_0 i) (hc1 : ¬cond3_1 i)
    (x0 : Vec F S1024x1024 .f32) (x1 : Vec F S1024x1024 .bf16) (x2 : Vec F S1x1024 .f32) :
    Σ' (LS0 : List (View.Piece (Elt F) S1024x1024 .f32)), { LS1 : List (View.Piece (Elt F) S1024x128 .f32) //
      ∀ (xi3 : Vec F S1024x1024 .bf16) (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__matmul_rowsum_kernel i arg2 harg2 arg3 harg3 arg4 harg4 arg5 harg5 arg6 harg6 arg7 harg7 arg8 harg8) K } := by
  refine ⟨?_, ?_, fun xi3 xi4 E K => ?run⟩
  case run =>
    simp only [cc3__matmul_rowsum_kernel_eq_skeleton]; unfold cc3__matmul_rowsum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in
/-- A MIDDLE COLUMN BLOCK (neither conditional taken): as above, with the accumulators at the contents the point
    before left. -/
noncomputable def kernelRun3_B (c : Dev nD) (i : grid3.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1024 .f32) (harg7 : arg7.IsWhole) (arg8 : Memref sig .tc .vmem S1024x128 .f32) (harg8 : arg8.IsWhole) (hc0 : ¬cond3_0 i) (hc1 : ¬cond3_1 i)
    (x0 : Vec F S1024x1024 .f32) (x1 : Vec F S1024x1024 .bf16) (x2 : Vec F S1x1024 .f32) (xs0 : Vec F S1024x1024 .f32) (xs1 : Vec F S1024x128 .f32) :
    Σ' (LS0 : List (View.Piece (Elt F) S1024x1024 .f32)), { LS1 : List (View.Piece (Elt F) S1024x128 .f32) //
      ∀ (xi3 : Vec F S1024x1024 .bf16) (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__matmul_rowsum_kernel i arg2 harg2 arg3 harg3 arg4 harg4 arg5 harg5 arg6 harg6 arg7 harg7 arg8 harg8) K } := by
  refine ⟨?_, ?_, fun xi3 xi4 E K => ?run⟩
  case run =>
    simp only [cc3__matmul_rowsum_kernel_eq_skeleton]; unfold cc3__matmul_rowsum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in
/-- THE LAST COLUMN BLOCK (first conditional not taken, second taken): the accumulators at the contents the point
    before left, the outputs at anything; each output's buffer ends with the pieces written that the run found. -/
noncomputable def kernelRun3_C (c : Dev nD) (i : grid3.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1024 .f32) (harg7 : arg7.IsWhole) (arg8 : Memref sig .tc .vmem S1024x128 .f32) (harg8 : arg8.IsWhole) (hc0 : ¬cond3_0 i) (hc1 : cond3_1 i)
    (x0 : Vec F S1024x1024 .f32) (x1 : Vec F S1024x1024 .bf16) (x2 : Vec F S1x1024 .f32) (xs0 : Vec F S1024x1024 .f32) (xs1 : Vec F S1024x128 .f32) :
    Σ' (L3 : List (View.Piece (Elt F) S1024x1024 .bf16)) (L4 : List (View.Piece (Elt F) S1024x128 .f32)) (LS0 : List (View.Piece (Elt F) S1024x1024 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__matmul_rowsum_kernel i arg2 harg2 arg3 harg3 arg4 harg4 arg5 harg5 arg6 harg6 arg7 harg7 arg8 harg8) K } := by
  refine ⟨?_, ?_, ?_, ?_, fun E K => ?run⟩
  case run =>
    simp only [cc3__matmul_rowsum_kernel_eq_skeleton]; unfold cc3__matmul_rowsum_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

/-! ## The three cases at a grid point, and what each leaves -/

theorem not9_of_0 {n : ℕ} (h : n % 10 = 0) : ¬n % 10 = 9 := by omega
theorem not0_of_9 {n : ℕ} (h : n % 10 = 9) : ¬n % 10 = 0 := by omega

/-- The run of the first column block at point t, on the point's staging memrefs and input blocks. -/
abbrev runA3 (c : Dev nD) (t : Fin cfg3.N) (h0 : t.val % 10 = 0) :=
  kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => not9_of_0 h0 ((hcond3_1 t).mp h)) (iblk3 V c 0 t) (iblk3 V c 1 t) (iblk3 V c 2 t)
/-- The run of a middle column block at point t, over the accumulators' contents xs0, xs1. -/
abbrev runB3 (c : Dev nD) (t : Fin cfg3.N) (h0 : ¬t.val % 10 = 0) (h9 : ¬t.val % 10 = 9) (xs0 : Vec F S1024x1024 .f32) (xs1 : Vec F S1024x128 .f32) :=
  kernelRun3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h9 ((hcond3_1 t).mp h)) (iblk3 V c 0 t) (iblk3 V c 1 t) (iblk3 V c 2 t) xs0 xs1
/-- The run of the last column block at point t, over the accumulators' contents xs0, xs1. -/
abbrev runC3 (c : Dev nD) (t : Fin cfg3.N) (h9 : t.val % 10 = 9) (xs0 : Vec F S1024x1024 .f32) (xs1 : Vec F S1024x128 .f32) :=
  kernelRun3_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => not0_of_9 h9 ((hcond3_0 t).mp h)) ((hcond3_1 t).mpr h9) (iblk3 V c 0 t) (iblk3 V c 1 t) (iblk3 V c 2 t) xs0 xs1

/-- Each case's pieces for an accumulator or an output tile it (whole-buffer stores), so they cover it. -/
theorem scover3_A_0 (c : Dev nD) (t : Fin cfg3.N) (h0 : t.val % 10 = 0) (y : S1024x1024.Idx) :
    ∃ pc ∈ (runA3 V c t h0).1, y ∈ pc.1.set :=
  View.cover_of_tiledL (runA3 V c t h0).1 S1024x1024.size (by sl_kernel_rfl) y
theorem scover3_A_1 (c : Dev nD) (t : Fin cfg3.N) (h0 : t.val % 10 = 0) (y : S1024x128.Idx) :
    ∃ pc ∈ (runA3 V c t h0).2.1, y ∈ pc.1.set :=
  View.cover_of_tiledL (runA3 V c t h0).2.1 S1024x128.size (by sl_kernel_rfl) y
theorem scover3_B_0 (c : Dev nD) (t : Fin cfg3.N) (h0 : ¬t.val % 10 = 0) (h9 : ¬t.val % 10 = 9) (xs0 : Vec F S1024x1024 .f32) (xs1 : Vec F S1024x128 .f32) (y : S1024x1024.Idx) :
    ∃ pc ∈ (runB3 V c t h0 h9 xs0 xs1).1, y ∈ pc.1.set :=
  View.cover_of_tiledL (runB3 V c t h0 h9 xs0 xs1).1 S1024x1024.size (by sl_kernel_rfl) y
theorem scover3_B_1 (c : Dev nD) (t : Fin cfg3.N) (h0 : ¬t.val % 10 = 0) (h9 : ¬t.val % 10 = 9) (xs0 : Vec F S1024x1024 .f32) (xs1 : Vec F S1024x128 .f32) (y : S1024x128.Idx) :
    ∃ pc ∈ (runB3 V c t h0 h9 xs0 xs1).2.1, y ∈ pc.1.set :=
  View.cover_of_tiledL (runB3 V c t h0 h9 xs0 xs1).2.1 S1024x128.size (by sl_kernel_rfl) y
theorem cover3_C_3 (c : Dev nD) (t : Fin cfg3.N) (h9 : t.val % 10 = 9) (xs0 : Vec F S1024x1024 .f32) (xs1 : Vec F S1024x128 .f32) (y : S1024x1024.Idx) :
    ∃ pc ∈ (runC3 V c t h9 xs0 xs1).1, y ∈ pc.1.set :=
  View.cover_of_tiledL (runC3 V c t h9 xs0 xs1).1 S1024x1024.size (by sl_kernel_rfl) y
theorem cover3_C_4 (c : Dev nD) (t : Fin cfg3.N) (h9 : t.val % 10 = 9) (xs0 : Vec F S1024x1024 .f32) (xs1 : Vec F S1024x128 .f32) (y : S1024x128.Idx) :
    ∃ pc ∈ (runC3 V c t h9 xs0 xs1).2.1, y ∈ pc.1.set :=
  View.cover_of_tiledL (runC3 V c t h9 xs0 xs1).2.1 S1024x128.size (by sl_kernel_rfl) y
theorem scover3_C_0 (c : Dev nD) (t : Fin cfg3.N) (h9 : t.val % 10 = 9) (xs0 : Vec F S1024x1024 .f32) (xs1 : Vec F S1024x128 .f32) (y : S1024x1024.Idx) :
    ∃ pc ∈ (runC3 V c t h9 xs0 xs1).2.2.1, y ∈ pc.1.set :=
  View.cover_of_tiledL (runC3 V c t h9 xs0 xs1).2.2.1 S1024x1024.size (by sl_kernel_rfl) y
theorem scover3_C_1 (c : Dev nD) (t : Fin cfg3.N) (h9 : t.val % 10 = 9) (xs0 : Vec F S1024x1024 .f32) (xs1 : Vec F S1024x128 .f32) (y : S1024x128.Idx) :
    ∃ pc ∈ (runC3 V c t h9 xs0 xs1).2.2.2.1, y ∈ pc.1.set :=
  View.cover_of_tiledL (runC3 V c t h9 xs0 xs1).2.2.2.1 S1024x128.size (by sl_kernel_rfl) y

/-- What each case leaves in each accumulator and (the last column block) in each output: its pieces read back. -/
def sA3_0 (c : Dev nD) (t : Fin cfg3.N) (h0 : t.val % 10 = 0) : Vec F S1024x1024 .f32 :=
  VS3_0.read (Elt F) (VS3_0.writes (Elt F) VS3_0.junk (runA3 V c t h0).1)
def sA3_1 (c : Dev nD) (t : Fin cfg3.N) (h0 : t.val % 10 = 0) : Vec F S1024x128 .f32 :=
  VS3_1.read (Elt F) (VS3_1.writes (Elt F) VS3_1.junk (runA3 V c t h0).2.1)
def sB3_0 (c : Dev nD) (t : Fin cfg3.N) (h0 : ¬t.val % 10 = 0) (h9 : ¬t.val % 10 = 9) (xs0 : Vec F S1024x1024 .f32) (xs1 : Vec F S1024x128 .f32) : Vec F S1024x1024 .f32 :=
  VS3_0.read (Elt F) (VS3_0.writes (Elt F) VS3_0.junk (runB3 V c t h0 h9 xs0 xs1).1)
def sB3_1 (c : Dev nD) (t : Fin cfg3.N) (h0 : ¬t.val % 10 = 0) (h9 : ¬t.val % 10 = 9) (xs0 : Vec F S1024x1024 .f32) (xs1 : Vec F S1024x128 .f32) : Vec F S1024x128 .f32 :=
  VS3_1.read (Elt F) (VS3_1.writes (Elt F) VS3_1.junk (runB3 V c t h0 h9 xs0 xs1).2.1)
def o3C (c : Dev nD) (t : Fin cfg3.N) (h9 : t.val % 10 = 9) (xs0 : Vec F S1024x1024 .f32) (xs1 : Vec F S1024x128 .f32) : Vec F S1024x1024 .bf16 :=
  VO3_3.read (Elt F) (VO3_3.writes (Elt F) VO3_3.junk (runC3 V c t h9 xs0 xs1).1)
def o4C (c : Dev nD) (t : Fin cfg3.N) (h9 : t.val % 10 = 9) (xs0 : Vec F S1024x1024 .f32) (xs1 : Vec F S1024x128 .f32) : Vec F S1024x128 .f32 :=
  VO3_4.read (Elt F) (VO3_4.writes (Elt F) VO3_4.junk (runC3 V c t h9 xs0 xs1).2.1)
def sC3_0 (c : Dev nD) (t : Fin cfg3.N) (h9 : t.val % 10 = 9) (xs0 : Vec F S1024x1024 .f32) (xs1 : Vec F S1024x128 .f32) : Vec F S1024x1024 .f32 :=
  VS3_0.read (Elt F) (VS3_0.writes (Elt F) VS3_0.junk (runC3 V c t h9 xs0 xs1).2.2.1)
def sC3_1 (c : Dev nD) (t : Fin cfg3.N) (h9 : t.val % 10 = 9) (xs0 : Vec F S1024x1024 .f32) (xs1 : Vec F S1024x128 .f32) : Vec F S1024x128 .f32 :=
  VS3_1.read (Elt F) (VS3_1.writes (Elt F) VS3_1.junk (runC3 V c t h9 xs0 xs1).2.2.2.1)

/-! ## What the accumulators hold after each point -/

/-- THE ACCUMULATION: the two accumulators after the body at position n — the case the position selects, run at the
    point's memrefs and input blocks, over what this leaves at position n - 1. -/
def scAt3 (c : Dev nD) : (n : ℕ) → n < cfg3.N → Vec F S1024x1024 .f32 × Vec F S1024x128 .f32
  | 0, hn => (sA3_0 V c ⟨0, hn⟩ (Nat.zero_mod _), sA3_1 V c ⟨0, hn⟩ (Nat.zero_mod _))
  | n + 1, hn =>
    if h0 : (n + 1) % 10 = 0 then
      (sA3_0 V c ⟨n + 1, hn⟩ h0, sA3_1 V c ⟨n + 1, hn⟩ h0)
    else
      if h9 : (n + 1) % 10 = 9 then
        (sC3_0 V c ⟨n + 1, hn⟩ h9 (scAt3 c n (Nat.lt_of_succ_lt hn)).1 (scAt3 c n (Nat.lt_of_succ_lt hn)).2, sC3_1 V c ⟨n + 1, hn⟩ h9 (scAt3 c n (Nat.lt_of_succ_lt hn)).1 (scAt3 c n (Nat.lt_of_succ_lt hn)).2)
      else
        (sB3_0 V c ⟨n + 1, hn⟩ h0 h9 (scAt3 c n (Nat.lt_of_succ_lt hn)).1 (scAt3 c n (Nat.lt_of_succ_lt hn)).2, sB3_1 V c ⟨n + 1, hn⟩ h0 h9 (scAt3 c n (Nat.lt_of_succ_lt hn)).1 (scAt3 c n (Nat.lt_of_succ_lt hn)).2)

theorem scAt3_A (c : Dev nD) (t : Fin cfg3.N) (h0 : t.val % 10 = 0) :
    scAt3 V c t.val t.isLt = (sA3_0 V c t h0, sA3_1 V c t h0) := by
  obtain ⟨n, hn⟩ := t
  cases n with
  | zero => exact rfl
  | succ n => exact dif_pos h0

theorem scAt3_B (c : Dev nD) (t : Fin cfg3.N) (h0 : ¬t.val % 10 = 0) (h9 : ¬t.val % 10 = 9) :
    scAt3 V c t.val t.isLt = (sB3_0 V c t h0 h9 (scAt3 V c (t.val - 1) (Nat.lt_of_le_of_lt (Nat.sub_le _ _) t.isLt)).1 (scAt3 V c (t.val - 1) (Nat.lt_of_le_of_lt (Nat.sub_le _ _) t.isLt)).2, sB3_1 V c t h0 h9 (scAt3 V c (t.val - 1) (Nat.lt_of_le_of_lt (Nat.sub_le _ _) t.isLt)).1 (scAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h9).trans rfl)

theorem scAt3_C (c : Dev nD) (t : Fin cfg3.N) (h9 : t.val % 10 = 9) :
    scAt3 V c t.val t.isLt = (sC3_0 V c t h9 (scAt3 V c (t.val - 1) (Nat.lt_of_le_of_lt (Nat.sub_le _ _) t.isLt)).1 (scAt3 V c (t.val - 1) (Nat.lt_of_le_of_lt (Nat.sub_le _ _) t.isLt)).2, sC3_1 V c t h9 (scAt3 V c (t.val - 1) (Nat.lt_of_le_of_lt (Nat.sub_le _ _) t.isLt)).1 (scAt3 V c (t.val - 1) (Nat.lt_of_le_of_lt (Nat.sub_le _ _) t.isLt)).2) := by
  obtain ⟨n, hn⟩ := t
  cases n with
  | zero => exact absurd ((Nat.zero_mod 10).symm.trans h9) (by decide)
  | succ n => exact (dif_neg (not0_of_9 h9)).trans ((dif_pos h9).trans rfl)

/-- What the two outputs' staging buffers hold after the body at point t: at a last column block the run's pieces
    read back, over the accumulators the point before left; elsewhere the body stores nothing there and the
    value is a placeholder nothing consults (the window is idle and not written back). -/
def o3At (c : Dev nD) (t : Fin cfg3.N) : Vec F S1024x1024 .bf16 :=
  if h9 : t.val % 10 = 9 then o3C V c t h9 (scAt3 V c (t.val - 1) (Nat.lt_of_le_of_lt (Nat.sub_le _ _) t.isLt)).1 (scAt3 V c (t.val - 1) (Nat.lt_of_le_of_lt (Nat.sub_le _ _) t.isLt)).2
  else VO3_3.read (Elt F) VO3_3.junk
def o4At (c : Dev nD) (t : Fin cfg3.N) : Vec F S1024x128 .f32 :=
  if h9 : t.val % 10 = 9 then o4C V c t h9 (scAt3 V c (t.val - 1) (Nat.lt_of_le_of_lt (Nat.sub_le _ _) t.isLt)).1 (scAt3 V c (t.val - 1) (Nat.lt_of_le_of_lt (Nat.sub_le _ _) t.isLt)).2
  else VO3_4.read (Elt F) VO3_4.junk

theorem o3At_C (c : Dev nD) (t : Fin cfg3.N) (h9 : t.val % 10 = 9) :
    o3At V c t = o3C V c t h9 (scAt3 V c (t.val - 1) (Nat.lt_of_le_of_lt (Nat.sub_le _ _) t.isLt)).1 (scAt3 V c (t.val - 1) (Nat.lt_of_le_of_lt (Nat.sub_le _ _) t.isLt)).2 := dif_pos h9
theorem o4At_C (c : Dev nD) (t : Fin cfg3.N) (h9 : t.val % 10 = 9) :
    o4At V c t = o4C V c t h9 (scAt3 V c (t.val - 1) (Nat.lt_of_le_of_lt (Nat.sub_le _ _) t.isLt)).1 (scAt3 V c (t.val - 1) (Nat.lt_of_le_of_lt (Nat.sub_le _ _) t.isLt)).2 := dif_pos h9

/-- The region invariant before position n: before the first point the class's; afterwards the scoped rest with
    each accumulator at what the point before left in it, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((scAt3 V c n hn).1) ∗ owns (c : Thread nD τ) scM3_1 fullShare ((scAt3 V c n hn).2)) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((scAt3 V c n hn).1) ∗ owns (c : Thread nD τ) scM3_1 fullShare ((scAt3 V c n hn).2)) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((scAt3 V c (n - 1) (by omega)).1) ∗ owns (c : Thread nD τ) scM3_1 fullShare ((scAt3 V c (n - 1) (by omega)).2)) ∗ rest3 c) ∗ (∃ r, prngReg c r)) := by
  cases n with
  | zero => exact absurd rfl hz
  | succ n => rfl

/-! ## The pipeline's proof data -/

/-- The proof data of pipeline 3 on core c: the arrays as the region finds them; after the body at point t each
    input's buffer at its block and the outputs' at o3At, o4At; the invariant PhiS3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => o3At V c t
    | ⟨4, _⟩ => o4At V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = o3At V c t := by dsimp only [dat3]
theorem after3_4 (c : Dev nD) (t : Fin cfg3.N) : (dat3 V c).after 4 t = o4At V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The invariant before the first point is the class's. -/
theorem Phi_first3 (c : Dev nD) : (dat3 V c).Φ 0 = Pipeline.ΦA spec3 c := rfl

/-- After any point but the first the invariant gives the class's back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_last3 (c : Dev nD) : (dat3 V c).Φ (Fin.last cfg3.N) ⊢ Pipeline.ΦA spec3 c :=
  Phi_out3 V c _ (by rw [Fin.val_last]; have : cfg3.N = 100 := N_3; omega)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem leaves3_0 (c : Dev nD) (t : Fin cfg3.N) :
    (dat3 V c).leavesExact 0 t = owns (c : Thread nD τ) (ms3_0 t) fullShare (iblk3 V c 0 t) := by
  rw [← after3_0 V c t]
theorem leaves3_1 (c : Dev nD) (t : Fin cfg3.N) :
    (dat3 V c).leavesExact 1 t = owns (c : Thread nD τ) (ms3_1 t) fullShare (iblk3 V c 1 t) := by
  rw [← after3_1 V c t]
theorem leaves3_2 (c : Dev nD) (t : Fin cfg3.N) :
    (dat3 V c).leavesExact 2 t = owns (c : Thread nD τ) (ms3_2 t) fullShare (iblk3 V c 2 t) := by
  rw [← after3_2 V c t]
theorem leaves3_3_C (c : Dev nD) (t : Fin cfg3.N) (h9 : t.val % 10 = 9) :
    (dat3 V c).leavesExact 3 t = owns (c : Thread nD τ) (ms3_3 t) fullShare (o3At V c t) := by
  rw [← after3_3 V c t]; unfold Dat.leavesExact; rw [liveAt3_3 t h9]
theorem leaves3_4_C (c : Dev nD) (t : Fin cfg3.N) (h9 : t.val % 10 = 9) :
    (dat3 V c).leavesExact 4 t = owns (c : Thread nD τ) (ms3_4 t) fullShare (o4At V c t) := by
  rw [← after3_4 V c t]; unfold Dat.leavesExact; rw [liveAt3_4 t h9]

set_option maxHeartbeats 4800000 in
/-- The body at any point: the inputs' memrefs hold their blocks; the position modulo ten says which case the point
    is in; the invariant hands the body the accumulators at what the point before left (at anything at the very first
    point) and takes them back at this point's contents; away from the last column block the outputs' buffers pass
    through untouched; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 100 := lt_of_lt_of_eq t.isLt (show cfg3.N = 100 from N_3)
  by_cases h0 : t.val % 10 = 0
  · have h9 : ¬t.val % 10 = 9 := not9_of_0 h0
    rw [Dat.leavesExact_idle (dat3 V c) 3 t (idleAt3_3 t h9) (noFlush3_3 t h9),
      Dat.leavesExact_idle (dat3 V c) 4 t (idleAt3_4 t h9) (noFlush3_4 t h9)]
    rw [scAt3_A V c t h0]
    unfold sA3_0 sA3_1; (try dsimp only)
    by_cases hz : t.val = 0
    · rw [PhiS3_castSucc V c t, PhiS3_zero V c _ _ hz, PhiA3_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runA3 V c t h0).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_A_0 V c t h0)
            unfold owns; iexists _; isplitr
            swap; · iexact HS1
            ipureintro; exact View.read_writes_of_cover _ _ _ _ _ (scover3_A_1 V c t h0)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runA3 V c t h0).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_A_0 V c t h0)
            unfold owns; iexists _; isplitr
            swap; · iexact HS1
            ipureintro; exact View.read_writes_of_cover _ _ _ _ _ (scover3_A_1 V c t h0)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h9 : t.val % 10 = 9
    · rw [leaves3_3_C V c t h9, leaves3_4_C V c t h9, o3At_C V c t h9, o4At_C V c t h9]
      rw [scAt3_C V c t h9]
      unfold o3C o4C sC3_0 sC3_1; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runC3 V c t h9 _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 V c t h9 _ _)
            unfold owns; iexists _; isplitr
            swap; · iexact HS1
            ipureintro; exact View.read_writes_of_cover _ _ _ _ _ (scover3_C_1 V c t h9 _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C_3 V c t h9 _ _)
      unfold owns; iexists _; isplitr
      swap; · iexact H4
      ipureintro; exact View.read_writes_of_cover _ _ _ _ _ (cover3_C_4 V c t h9 _ _)
    · rw [Dat.leavesExact_idle (dat3 V c) 3 t (idleAt3_3 t h9) (noFlush3_3 t h9),
        Dat.leavesExact_idle (dat3 V c) 4 t (idleAt3_4 t h9) (noFlush3_4 t h9)]
      rw [scAt3_B V c t h0 h9]
      unfold sB3_0 sB3_1; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runB3 V c t h0 h9 _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 V c t h0 h9 _ _)
            unfold owns; iexists _; isplitr
            swap; · iexact HS1
            ipureintro; exact View.read_writes_of_cover _ _ _ _ _ (scover3_B_1 V c t h0 h9 _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

example (c : Dev nD) (w : Fin cfg3.W) : (dat3 V c).q w = fullShare := rfl
example (c : Dev nD) (t : Fin (cfg3.N + 1)) : (dat3 V c).owed t = 0 := rfl

end Cert.KernelIdeal.Hand

end
-- ==== Proof.KI.R4.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the transposed-lhs matmul accumulated over the contraction blocks

The grid is (i, j, k) with k last: for each output block (i, j) the ten k points add one product block into a
VMEM accumulator, which is zeroed at k = 0 and copied to the output block at k = 9. Everything is stated at the
buffer contents the region is entered with. -/

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional's condition (k = 0), from the grid coordinates. -/
abbrev cond4_0 (i : grid4.Coords) : Prop := (Scalar.cmpi .ne (Scalar.extui (Scalar.cmpi .eq (BitVec.ofNat 32 (i 2).val) 0#32)) 0#32) = 1#1
/-- It holds exactly at the points whose last coordinate is 0. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's condition (k = 9). -/
abbrev cond4_1 (i : grid4.Coords) : Prop := k4_cond2 i = 1#1
/-- It holds exactly at the points whose last coordinate is 9. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Where the second conditional is not taken the output window is idle and not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where it is taken the output window is live. -/
theorem liveAt4_2 : ∀ t : Fin cfg4.N, cond4_1 (grid4.coords t) → cfg4.idle 2 (grid4.coords t) = false := by decide +kernel

/-! ## The staging memrefs and the accumulator -/

/-- One staging buffer of the output window, through which its contents are stated. -/
abbrev VO4_2 : View sig .tc .vmem S1024x256 .f32 := (Memref.whole cc4_stg2_0 : Memref sig .tc .vmem S1024x256 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x256 .f32 := win4_2.stage (cfg4.slots t 2)
abbrev hs4_2 (t : Fin cfg4.N) : (ms4_2 t).IsWhole := hstage4_2 ((cfg4.slots t 2).cast nbuf4_2)
/-- The accumulator: a whole scoped buffer of the kernel's own, carried between points. -/
abbrev scM4_0 : Memref sig .tc .vmem S1024x256 .f32 := Memref.whole cc4_scratch0
abbrev VS4_0 : View sig .tc .vmem S1024x256 .f32 := scM4_0.view

/-- The region's invariant with the accumulator as a memref owned at some contents, the other scoped buffers
    unopened, and the generator register at some state. -/
theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

/-! ## The kernel body on any staging memrefs, case by case -/

set_option maxHeartbeats 1000000 in
/-- CASE A (k = 0): the accumulator at anything is zeroed and the product block added; the output's buffer is
    handed back untouched. The pieces the accumulator ends with are the witness the run finds. -/
noncomputable def kernelRun4_A (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmulT_kernel i arg3 harg3 arg4 harg4 arg5 harg5 arg6 harg6) K } := by
  refine ⟨[], ?_, fun xi2 E K => ?run⟩
  case run =>
    simp only [cc4__matmulT_kernel_eq_skeleton]; unfold cc4__matmulT_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B (0 < k < 9): the product block is added to the accumulator at what the point before left; the
    output's buffer is handed back untouched. -/
noncomputable def kernelRun4_B (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmulT_kernel i arg3 harg3 arg4 harg4 arg5 harg5 arg6 harg6) K } := by
  refine ⟨[], ?_, fun xi2 E K => ?run⟩
  case run =>
    simp only [cc4__matmulT_kernel_eq_skeleton]; unfold cc4__matmulT_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 9): the product block is added to the accumulator at what the point before left, and the
    accumulator is copied into the output's buffer, whatever that held. -/
noncomputable def kernelRun4_C (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__matmulT_kernel i arg3 harg3 arg4 harg4 arg5 harg5 arg6 harg6) K } := by
  refine ⟨?_, ?_, fun E K => ?run⟩
  case run =>
    simp only [cc4__matmulT_kernel_eq_skeleton]; unfold cc4__matmulT_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- Case A stores nothing into the output (idle there): a placeholder nothing consults. -/
def out4_A_2 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) : Vec F S1024x256 .f32 :=
  VO4_2.read (Elt F) (VO4_2.writes (Elt F) VO4_2.junk (kernelRun4_A c i arg3 harg3 arg4 harg4 arg5 harg5 arg6 harg6 hc0 hc1 x0 x1).1)

/-- Case A's pieces for the accumulator cover it. -/
theorem scover4_A_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) (y : S1024x256.Idx) :
    ∃ pc ∈ (kernelRun4_A c i arg3 harg3 arg4 harg4 arg5 harg5 arg6 harg6 hc0 hc1 x0 x1).2.1, y ∈ pc.1.set :=
  View.cover_of_tiledL (kernelRun4_A c i arg3 harg3 arg4 harg4 arg5 harg5 arg6 harg6 hc0 hc1 x0 x1).2.1 S1024x256.size (by sl_kernel_rfl) y

/-- What case A leaves in the accumulator. -/
def sout4_A_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) : Vec F S1024x256 .f32 :=
  VS4_0.read (Elt F) (VS4_0.writes (Elt F) VS4_0.junk (kernelRun4_A c i arg3 harg3 arg4 harg4 arg5 harg5 arg6 harg6 hc0 hc1 x0 x1).2.1)

/-- Case B stores nothing into the output (idle there): a placeholder nothing consults. -/
def out4_B_2 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) : Vec F S1024x256 .f32 :=
  VO4_2.read (Elt F) (VO4_2.writes (Elt F) VO4_2.junk (kernelRun4_B c i arg3 harg3 arg4 harg4 arg5 harg5 arg6 harg6 hc0 hc1 x0 x1 xs0).1)

/-- Case B's pieces for the accumulator cover it. -/
theorem scover4_B_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) (y : S1024x256.Idx) :
    ∃ pc ∈ (kernelRun4_B c i arg3 harg3 arg4 harg4 arg5 harg5 arg6 harg6 hc0 hc1 x0 x1 xs0).2.1, y ∈ pc.1.set :=
  View.cover_of_tiledL (kernelRun4_B c i arg3 harg3 arg4 harg4 arg5 harg5 arg6 harg6 hc0 hc1 x0 x1 xs0).2.1 S1024x256.size (by sl_kernel_rfl) y

/-- What case B leaves in the accumulator. -/
def sout4_B_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) : Vec F S1024x256 .f32 :=
  VS4_0.read (Elt F) (VS4_0.writes (Elt F) VS4_0.junk (kernelRun4_B c i arg3 harg3 arg4 harg4 arg5 harg5 arg6 harg6 hc0 hc1 x0 x1 xs0).2.1)

/-- Case C's store into the output covers its block. -/
theorem cover4_C_2 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) (y : S1024x256.Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S1024x256.size (by sl_kernel_rfl) y

/-- What case C leaves in the output's staging buffer. -/
def out4_C_2 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) : Vec F S1024x256 .f32 :=
  VO4_2.read (Elt F) (VO4_2.writes (Elt F) VO4_2.junk (kernelRun4_C c i arg3 harg3 arg4 harg4 arg5 harg5 arg6 harg6 hc0 hc1 x0 x1 xs0).1)

/-- Case C's pieces for the accumulator cover it. -/
theorem scover4_C_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) (y : S1024x256.Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S1024x256.size (by sl_kernel_rfl) y

/-- What case C leaves in the accumulator. -/
def sout4_C_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) : Vec F S1024x256 .f32 :=
  VS4_0.read (Elt F) (VS4_0.writes (Elt F) VS4_0.junk (kernelRun4_C c i arg3 harg3 arg4 harg4 arg5 harg5 arg6 harg6 hc0 hc1 x0 x1 xs0).2.1)

/-! ## What the output's buffer and the accumulator hold after each point -/

/-- The accumulation: after the body at position n, the output's staging buffer and the accumulator, by the case
    the closed forms select at n, run at the point's memrefs and input blocks, the accumulator taken at what the
    point before left where the case reads it. -/
def outsAt4 (c : Dev nD) : (n : ℕ) → n < cfg4.N → Vec F S1024x256 .f32 × Vec F S1024x256 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 10 = 0 then
      if h1 : (n + 1) % 10 = 9 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 10 = 9 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- At a point of case A. -/
theorem outsAt4_A (c : Dev nD) (t : Fin cfg4.N) (h0 : t.val % 10 = 0) (h1 : ¬t.val % 10 = 9) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- At a point of case B: over what the point before left. -/
theorem outsAt4_B (c : Dev nD) (t : Fin cfg4.N) (h0 : ¬t.val % 10 = 0) (h1 : ¬t.val % 10 = 9) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt4_C (c : Dev nD) (t : Fin cfg4.N) (h0 : ¬t.val % 10 = 0) (h1 : t.val % 10 = 9) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards
    the accumulator at what the point before left, the other scoped buffers unopened, the generator register at some
    state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The pipeline's proof data -/

/-- The proof data of the region on core c: the arrays as the region finds them; after the body at point t each
    input's buffer at its block and the output's at the accumulation's first component; the invariant carrying the
    accumulator; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the launch hands the region is the invariant before the first point. -/
theorem Phi_first4 (c : Dev nD) : (dat4 V c).Φ 0 = Pipeline.ΦA spec4 c := by
  rw [show (dat4 V c).Φ 0 = PhiS4 V c 0 (Nat.zero_le _) from rfl, PhiS4_zero V c 0 _ rfl]

/-- After any point but the first the invariant gives the launch's form back: the accumulator's named contents are
    forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem Phi_last4 (c : Dev nD) : (dat4 V c).Φ (Fin.last cfg4.N) ⊢ Pipeline.ΦA spec4 c :=
  Phi_out4 V c _ (by rw [Fin.val_last]; have : cfg4.N = 20 := N_4; omega)

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 10 = 0
  · by_cases h1 : t.val % 10 = 9
    · exfalso; omega
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [Dat.leavesExact_idle (dat4 V c) 2 t (idleAt4_2 t (fun h => h1 ((hcond4_1 t).mp h))) (noFlush4_2 t (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun e => h0 (by omega)
    by_cases h1 : t.val % 10 = 9
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [show (dat4 V c).leavesExact 2 t = owns (c : Thread nD τ) (ms4_2 t) fullShare ((dat4 V c).after 2 t) from by
          unfold Dat.leavesExact; rw [liveAt4_2 t ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [Dat.leavesExact_idle (dat4 V c) 2 t (idleAt4_2 t (fun h => h1 ((hcond4_1 t).mp h))) (noFlush4_2 t (fun h => h1 ((hcond4_1 t).mp h)))]
      rw [outsAt4_B V c t h0 h1]
      unfold sout4_B_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the transposed-lhs matmul accumulated over the contraction blocks

The grid is (i, j, k) with k last: for each output block (i, j) the ten k points add one product block into a
VMEM accumulator, which is zeroed at k = 0 and copied to the output block at k = 9. Everything is stated at the
buffer contents the region is entered with. -/

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The first conditional's condition (k = 0), from the grid coordinates. -/
abbrev cond5_0 (i : grid5.Coords) : Prop := (Scalar.cmpi .ne (Scalar.extui (Scalar.cmpi .eq (BitVec.ofNat 32 (i 2).val) 0#32)) 0#32) = 1#1
/-- It holds exactly at the points whose last coordinate is 0. -/
theorem hcond5_0 : ∀ t : Fin cfg5.N, cond5_0 (grid5.coords t) ↔ t.val % 10 = 0 :=
  (by decide +kernel : ∀ t : Fin grid5.N, cond5_0 (grid5.coords t) ↔ t.val % 10 = 0)

/-- The second conditional's condition (k = 9). -/
abbrev cond5_1 (i : grid5.Coords) : Prop := k5_cond2 i = 1#1
/-- It holds exactly at the points whose last coordinate is 9. -/
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
/-- Where the second conditional is not taken the output window is idle and not written back. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
/-- Where it is taken the output window is live. -/
theorem liveAt5_2 : ∀ t : Fin cfg5.N, cond5_1 (grid5.coords t) → cfg5.idle 2 (grid5.coords t) = false := by decide +kernel

/-! ## The staging memrefs and the accumulator -/

/-- One staging buffer of the output window, through which its contents are stated. -/
abbrev VO5_2 : View sig .tc .vmem S1024x512 .f32 := (Memref.whole cc5_stg2_0 : Memref sig .tc .vmem S1024x512 .f32).view
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .f32 := win5_2.stage (cfg5.slots t 2)
abbrev hs5_2 (t : Fin cfg5.N) : (ms5_2 t).IsWhole := hstage5_2 ((cfg5.slots t 2).cast nbuf5_2)
/-- The accumulator: a whole scoped buffer of the kernel's own, carried between points. -/
abbrev scM5_0 : Memref sig .tc .vmem S1024x512 .f32 := Memref.whole cc5_scratch0
abbrev VS5_0 : View sig .tc .vmem S1024x512 .f32 := scM5_0.view

/-- The region's invariant with the accumulator as a memref owned at some contents, the other scoped buffers
    unopened, and the generator register at some state. -/
theorem PhiA5_eq (c : Dev nD) :
    (Pipeline.ΦA spec5 c : sProp 𝕄)
      = iprop(iprop(iprop((∃ d, owns (c : Thread nD τ) scM5_0 fullShare d)) ∗ Pipeline.scopedRestBut spec5 c [cc5_scratch0]) ∗ (∃ r, prngReg c r)) := by
  unfold Pipeline.ΦA; rw [scopedRest5_split]; simp only [scM5_0, owns_whole]; try rfl

/-! ## The kernel body on any staging memrefs, case by case -/

set_option maxHeartbeats 1000000 in
/-- CASE A (k = 0): the accumulator at anything is zeroed and the product block added; the output's buffer is
    handed back untouched. The pieces the accumulator ends with are the witness the run finds. -/
noncomputable def kernelRun5_A (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc5__matmulT_kernel i arg3 harg3 arg4 harg4 arg5 harg5 arg6 harg6) K } := by
  refine ⟨[], ?_, fun xi2 E K => ?run⟩
  case run =>
    simp only [cc5__matmulT_kernel_eq_skeleton]; unfold cc5__matmulT_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B (0 < k < 9): the product block is added to the accumulator at what the point before left; the
    output's buffer is handed back untouched. -/
noncomputable def kernelRun5_B (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc5__matmulT_kernel i arg3 harg3 arg4 harg4 arg5 harg5 arg6 harg6) K } := by
  refine ⟨[], ?_, fun xi2 E K => ?run⟩
  case run =>
    simp only [cc5__matmulT_kernel_eq_skeleton]; unfold cc5__matmulT_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 9): the product block is added to the accumulator at what the point before left, and the
    accumulator is copied into the output's buffer, whatever that held. -/
noncomputable def kernelRun5_C (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc5__matmulT_kernel i arg3 harg3 arg4 harg4 arg5 harg5 arg6 harg6) K } := by
  refine ⟨?_, ?_, fun E K => ?run⟩
  case run =>
    simp only [cc5__matmulT_kernel_eq_skeleton]; unfold cc5__matmulT_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- Case A stores nothing into the output (idle there): a placeholder nothing consults. -/
def out5_A_2 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) : Vec F S1024x512 .f32 :=
  VO5_2.read (Elt F) (VO5_2.writes (Elt F) VO5_2.junk (kernelRun5_A c i arg3 harg3 arg4 harg4 arg5 harg5 arg6 harg6 hc0 hc1 x0 x1).1)

/-- Case A's pieces for the accumulator cover it. -/
theorem scover5_A_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) (y : S1024x512.Idx) :
    ∃ pc ∈ (kernelRun5_A c i arg3 harg3 arg4 harg4 arg5 harg5 arg6 harg6 hc0 hc1 x0 x1).2.1, y ∈ pc.1.set :=
  View.cover_of_tiledL (kernelRun5_A c i arg3 harg3 arg4 harg4 arg5 harg5 arg6 harg6 hc0 hc1 x0 x1).2.1 S1024x512.size (by sl_kernel_rfl) y

/-- What case A leaves in the accumulator. -/
def sout5_A_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) : Vec F S1024x512 .f32 :=
  VS5_0.read (Elt F) (VS5_0.writes (Elt F) VS5_0.junk (kernelRun5_A c i arg3 harg3 arg4 harg4 arg5 harg5 arg6 harg6 hc0 hc1 x0 x1).2.1)

/-- Case B stores nothing into the output (idle there): a placeholder nothing consults. -/
def out5_B_2 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) : Vec F S1024x512 .f32 :=
  VO5_2.read (Elt F) (VO5_2.writes (Elt F) VO5_2.junk (kernelRun5_B c i arg3 harg3 arg4 harg4 arg5 harg5 arg6 harg6 hc0 hc1 x0 x1 xs0).1)

/-- Case B's pieces for the accumulator cover it. -/
theorem scover5_B_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) (y : S1024x512.Idx) :
    ∃ pc ∈ (kernelRun5_B c i arg3 harg3 arg4 harg4 arg5 harg5 arg6 harg6 hc0 hc1 x0 x1 xs0).2.1, y ∈ pc.1.set :=
  View.cover_of_tiledL (kernelRun5_B c i arg3 harg3 arg4 harg4 arg5 harg5 arg6 harg6 hc0 hc1 x0 x1 xs0).2.1 S1024x512.size (by sl_kernel_rfl) y

/-- What case B leaves in the accumulator. -/
def sout5_B_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) : Vec F S1024x512 .f32 :=
  VS5_0.read (Elt F) (VS5_0.writes (Elt F) VS5_0.junk (kernelRun5_B c i arg3 harg3 arg4 harg4 arg5 harg5 arg6 harg6 hc0 hc1 x0 x1 xs0).2.1)

/-- Case C's store into the output covers its block. -/
theorem cover5_C_2 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) (y : S1024x512.Idx) :
    ∃ pc ∈ (kernelRun5_C c i arg3 harg3 arg4 harg4 arg5 harg5 arg6 harg6 hc0 hc1 x0 x1 xs0).1, y ∈ pc.1.set :=
  View.cover_of_tiledL (kernelRun5_C c i arg3 harg3 arg4 harg4 arg5 harg5 arg6 harg6 hc0 hc1 x0 x1 xs0).1 S1024x512.size (by sl_kernel_rfl) y

/-- What case C leaves in the output's staging buffer. -/
def out5_C_2 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) : Vec F S1024x512 .f32 :=
  VO5_2.read (Elt F) (VO5_2.writes (Elt F) VO5_2.junk (kernelRun5_C c i arg3 harg3 arg4 harg4 arg5 harg5 arg6 harg6 hc0 hc1 x0 x1 xs0).1)

/-- Case C's pieces for the accumulator cover it. -/
theorem scover5_C_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) (y : S1024x512.Idx) :
    ∃ pc ∈ (kernelRun5_C c i arg3 harg3 arg4 harg4 arg5 harg5 arg6 harg6 hc0 hc1 x0 x1 xs0).2.1, y ∈ pc.1.set :=
  View.cover_of_tiledL (kernelRun5_C c i arg3 harg3 arg4 harg4 arg5 harg5 arg6 harg6 hc0 hc1 x0 x1 xs0).2.1 S1024x512.size (by sl_kernel_rfl) y

/-- What case C leaves in the accumulator. -/
def sout5_C_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) : Vec F S1024x512 .f32 :=
  VS5_0.read (Elt F) (VS5_0.writes (Elt F) VS5_0.junk (kernelRun5_C c i arg3 harg3 arg4 harg4 arg5 harg5 arg6 harg6 hc0 hc1 x0 x1 xs0).2.1)

/-! ## What the output's buffer and the accumulator hold after each point -/

/-- The accumulation: after the body at position n, the output's staging buffer and the accumulator, by the case
    the closed forms select at n, run at the point's memrefs and input blocks, the accumulator taken at what the
    point before left where the case reads it. -/
def outsAt5 (c : Dev nD) : (n : ℕ) → n < cfg5.N → Vec F S1024x512 .f32 × Vec F S1024x512 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 10 = 0 then
      if h1 : (n + 1) % 10 = 9 then
        False.elim (by omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 10 = 9 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2)

/-- At a point of case A. -/
theorem outsAt5_A (c : Dev nD) (t : Fin cfg5.N) (h0 : t.val % 10 = 0) (h1 : ¬t.val % 10 = 9) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

/-- At a point of case B: over what the point before left. -/
theorem outsAt5_B (c : Dev nD) (t : Fin cfg5.N) (h0 : ¬t.val % 10 = 0) (h1 : ¬t.val % 10 = 9) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt5_C (c : Dev nD) (t : Fin cfg5.N) (h0 : ¬t.val % 10 = 0) (h1 : t.val % 10 = 9) :
    outsAt5 V c t.val t.isLt = (out5_C_2 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards
    the accumulator at what the point before left, the other scoped buffers unopened, the generator register at some
    state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut spec5 c [cc5_scratch0]) ∗ (∃ r, prngReg c r)) := by
  cases n with
  | zero => exact absurd rfl hz
  | succ n => rfl

/-! ## The pipeline's proof data -/

/-- The proof data of the region on core c: the arrays as the region finds them; after the body at point t each
    input's buffer at its block and the output's at the accumulation's first component; the invariant carrying the
    accumulator; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the launch hands the region is the invariant before the first point. -/
theorem Phi_first5 (c : Dev nD) : (dat5 V c).Φ 0 = Pipeline.ΦA spec5 c := by
  rw [show (dat5 V c).Φ 0 = PhiS5 V c 0 (Nat.zero_le _) from rfl, PhiS5_zero V c 0 _ rfl]

/-- After any point but the first the invariant gives the launch's form back: the accumulator's named contents are
    forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

theorem Phi_last5 (c : Dev nD) : (dat5 V c).Φ (Fin.last cfg5.N) ⊢ Pipeline.ΦA spec5 c :=
  Phi_out5 V c _ (by rw [Fin.val_last]; have : cfg5.N = 20 := N_5; omega)

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  by_cases h0 : t.val % 10 = 0
  · by_cases h1 : t.val % 10 = 9
    · exfalso; omega
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [Dat.leavesExact_idle (dat5 V c) 2 t (idleAt5_2 t (fun h => h1 ((hcond5_1 t).mp h))) (noFlush5_2 t (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hr⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_A_0 c _ _ _ _ _ _ _ _ _ _ _ _ _)
            iexact Hr
          iexact Hg
        isplitl [Ho]; · iexact Ho
        isplitl [H0]; · iexact H0
        isplitl [H1]; · iexact H1
        iexists _; iexact H2
      · rw [PhiS5_castSucc V c t, PhiS5_pos V c _ _ hz]
        iintro ⟨⟨⟨HS0, Hr⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun e => h0 (by omega)
    by_cases h1 : t.val % 10 = 9
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [show (dat5 V c).leavesExact 2 t = owns (c : Thread nD τ) (ms5_2 t) fullShare ((dat5 V c).after 2 t) from by
          unfold Dat.leavesExact; rw [liveAt5_2 t ((hcond5_1 t).mpr h1)], after5_2]
      rw [outsAt5_C V c t h0 h1]
      unfold out5_C_2 sout5_C_0; (try dsimp only)
      rw [PhiS5_castSucc V c t, PhiS5_pos V c _ _ hz]
      iintro ⟨⟨⟨HS0, Hr⟩, Hg⟩, Ho, ⟨%d0, H0⟩, ⟨%d1, H1⟩, ⟨%d2, H2⟩⟩
      iapply ((kernelRun5_C c (grid5.coords t) _ _ _ _ _ _ _ _ (fun h => h0 ((hcond5_0 t).mp h)) ((hcond5_1 t).mpr h1) (iblk5 V c 0 t) (iblk5 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_C_2 c _ _ _ _ _ _ _ _ _ _ _ _ _ _)
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [Dat.leavesExact_idle (dat5 V c) 2 t (idleAt5_2 t (fun h => h1 ((hcond5_1 t).mp h))) (noFlush5_2 t (fun h => h1 ((hcond5_1 t).mp h)))]
      rw [outsAt5_B V c t h0 h1]
      unfold sout5_B_0; (try dsimp only)
      rw [PhiS5_castSucc V c t, PhiS5_pos V c _ _ hz]
      iintro ⟨⟨⟨HS0, Hr⟩, Hg⟩, Ho, ⟨%d0, H0⟩, ⟨%d1, H1⟩, ⟨%d2, H2⟩⟩
      iapply ((kernelRun5_B c (grid5.coords t) _ _ _ _ _ _ _ _ (fun h => h0 ((hcond5_0 t).mp h)) (fun h => h1 ((hcond5_1 t).mp h)) (iblk5 V c 0 t) (iblk5 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the transposed-lhs matmul accumulated over the contraction blocks

The grid is (i, j, k) with k last: for each output block (i, j) the ten k points add one product block into a
VMEM accumulator, which is zeroed at k = 0 and copied to the output block at k = 9. Everything is stated at the
buffer contents the region is entered with. -/

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch conditions -/

/-- The first conditional's condition (k = 0), from the grid coordinates. -/
abbrev cond6_0 (i : grid6.Coords) : Prop := (Scalar.cmpi .ne (Scalar.extui (Scalar.cmpi .eq (BitVec.ofNat 32 (i 2).val) 0#32)) 0#32) = 1#1
/-- It holds exactly at the points whose last coordinate is 0. -/
theorem hcond6_0 : ∀ t : Fin cfg6.N, cond6_0 (grid6.coords t) ↔ t.val % 10 = 0 :=
  (by decide +kernel : ∀ t : Fin grid6.N, cond6_0 (grid6.coords t) ↔ t.val % 10 = 0)

/-- The second conditional's condition (k = 9). -/
abbrev cond6_1 (i : grid6.Coords) : Prop := k6_cond2 i = 1#1
/-- It holds exactly at the points whose last coordinate is 9. -/
theorem hcond6_1 : ∀ t : Fin cfg6.N, cond6_1 (grid6.coords t) ↔ t.val % 10 = 9 :=
  (by decide +kernel : ∀ t : Fin grid6.N, cond6_1 (grid6.coords t) ↔ t.val % 10 = 9)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
/-- Where the second conditional is not taken the output window is idle and not written back. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
/-- Where it is taken the output window is live. -/
theorem liveAt6_2 : ∀ t : Fin cfg6.N, cond6_1 (grid6.coords t) → cfg6.idle 2 (grid6.coords t) = false := by decide +kernel

/-! ## The staging memrefs and the accumulator -/

/-- One staging buffer of the output window, through which its contents are stated. -/
abbrev VO6_2 : View sig .tc .vmem S1024x512 .f32 := (Memref.whole cc6_stg2_0 : Memref sig .tc .vmem S1024x512 .f32).view
abbrev ms6_0 (t : Fin cfg6.N) : Memref sig .tc .vmem S1024x1024 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x512 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x512 .f32 := win6_2.stage (cfg6.slots t 2)
abbrev hs6_2 (t : Fin cfg6.N) : (ms6_2 t).IsWhole := hstage6_2 ((cfg6.slots t 2).cast nbuf6_2)
/-- The accumulator: a whole scoped buffer of the kernel's own, carried between points. -/
abbrev scM6_0 : Memref sig .tc .vmem S1024x512 .f32 := Memref.whole cc6_scratch0
abbrev VS6_0 : View sig .tc .vmem S1024x512 .f32 := scM6_0.view

/-- The region's invariant with the accumulator as a memref owned at some contents, the other scoped buffers
    unopened, and the generator register at some state. -/
theorem PhiA6_eq (c : Dev nD) :
    (Pipeline.ΦA spec6 c : sProp 𝕄)
      = iprop(iprop(iprop((∃ d, owns (c : Thread nD τ) scM6_0 fullShare d)) ∗ Pipeline.scopedRestBut spec6 c [cc6_scratch0]) ∗ (∃ r, prngReg c r)) := by
  unfold Pipeline.ΦA; rw [scopedRest6_split]; simp only [scM6_0, owns_whole]; try rfl

/-! ## The kernel body on any staging memrefs, case by case -/

set_option maxHeartbeats 1000000 in
/-- CASE A (k = 0): the accumulator at anything is zeroed and the product block added; the output's buffer is
    handed back untouched. The pieces the accumulator ends with are the witness the run finds. -/
noncomputable def kernelRun6_A (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc6__matmulT_kernel i arg3 harg3 arg4 harg4 arg5 harg5 arg6 harg6) K } := by
  refine ⟨[], ?_, fun xi2 E K => ?run⟩
  case run =>
    simp only [cc6__matmulT_kernel_eq_skeleton]; unfold cc6__matmulT_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B (0 < k < 9): the product block is added to the accumulator at what the point before left; the
    output's buffer is handed back untouched. -/
noncomputable def kernelRun6_B (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc6__matmulT_kernel i arg3 harg3 arg4 harg4 arg5 harg5 arg6 harg6) K } := by
  refine ⟨[], ?_, fun xi2 E K => ?run⟩
  case run =>
    simp only [cc6__matmulT_kernel_eq_skeleton]; unfold cc6__matmulT_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 9): the product block is added to the accumulator at what the point before left, and the
    accumulator is copied into the output's buffer, whatever that held. -/
noncomputable def kernelRun6_C (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc6__matmulT_kernel i arg3 harg3 arg4 harg4 arg5 harg5 arg6 harg6) K } := by
  refine ⟨?_, ?_, fun E K => ?run⟩
  case run =>
    simp only [cc6__matmulT_kernel_eq_skeleton]; unfold cc6__matmulT_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- Case A stores nothing into the output (idle there): a placeholder nothing consults. -/
def out6_A_2 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) : Vec F S1024x512 .f32 :=
  VO6_2.read (Elt F) (VO6_2.writes (Elt F) VO6_2.junk (kernelRun6_A c i arg3 harg3 arg4 harg4 arg5 harg5 arg6 harg6 hc0 hc1 x0 x1).1)

/-- Case A's pieces for the accumulator cover it. -/
theorem scover6_A_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) (y : S1024x512.Idx) :
    ∃ pc ∈ (kernelRun6_A c i arg3 harg3 arg4 harg4 arg5 harg5 arg6 harg6 hc0 hc1 x0 x1).2.1, y ∈ pc.1.set :=
  View.cover_of_tiledL (kernelRun6_A c i arg3 harg3 arg4 harg4 arg5 harg5 arg6 harg6 hc0 hc1 x0 x1).2.1 S1024x512.size (by sl_kernel_rfl) y

/-- What case A leaves in the accumulator. -/
def sout6_A_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) : Vec F S1024x512 .f32 :=
  VS6_0.read (Elt F) (VS6_0.writes (Elt F) VS6_0.junk (kernelRun6_A c i arg3 harg3 arg4 harg4 arg5 harg5 arg6 harg6 hc0 hc1 x0 x1).2.1)

/-- Case B stores nothing into the output (idle there): a placeholder nothing consults. -/
def out6_B_2 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) : Vec F S1024x512 .f32 :=
  VO6_2.read (Elt F) (VO6_2.writes (Elt F) VO6_2.junk (kernelRun6_B c i arg3 harg3 arg4 harg4 arg5 harg5 arg6 harg6 hc0 hc1 x0 x1 xs0).1)

/-- Case B's pieces for the accumulator cover it. -/
theorem scover6_B_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) (y : S1024x512.Idx) :
    ∃ pc ∈ (kernelRun6_B c i arg3 harg3 arg4 harg4 arg5 harg5 arg6 harg6 hc0 hc1 x0 x1 xs0).2.1, y ∈ pc.1.set :=
  View.cover_of_tiledL (kernelRun6_B c i arg3 harg3 arg4 harg4 arg5 harg5 arg6 harg6 hc0 hc1 x0 x1 xs0).2.1 S1024x512.size (by sl_kernel_rfl) y

/-- What case B leaves in the accumulator. -/
def sout6_B_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) : Vec F S1024x512 .f32 :=
  VS6_0.read (Elt F) (VS6_0.writes (Elt F) VS6_0.junk (kernelRun6_B c i arg3 harg3 arg4 harg4 arg5 harg5 arg6 harg6 hc0 hc1 x0 x1 xs0).2.1)

/-- Case C's store into the output covers its block. -/
theorem cover6_C_2 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) (y : S1024x512.Idx) :
    ∃ pc ∈ (kernelRun6_C c i arg3 harg3 arg4 harg4 arg5 harg5 arg6 harg6 hc0 hc1 x0 x1 xs0).1, y ∈ pc.1.set :=
  View.cover_of_tiledL (kernelRun6_C c i arg3 harg3 arg4 harg4 arg5 harg5 arg6 harg6 hc0 hc1 x0 x1 xs0).1 S1024x512.size (by sl_kernel_rfl) y

/-- What case C leaves in the output's staging buffer. -/
def out6_C_2 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) : Vec F S1024x512 .f32 :=
  VO6_2.read (Elt F) (VO6_2.writes (Elt F) VO6_2.junk (kernelRun6_C c i arg3 harg3 arg4 harg4 arg5 harg5 arg6 harg6 hc0 hc1 x0 x1 xs0).1)

/-- Case C's pieces for the accumulator cover it. -/
theorem scover6_C_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) (y : S1024x512.Idx) :
    ∃ pc ∈ (kernelRun6_C c i arg3 harg3 arg4 harg4 arg5 harg5 arg6 harg6 hc0 hc1 x0 x1 xs0).2.1, y ∈ pc.1.set :=
  View.cover_of_tiledL (kernelRun6_C c i arg3 harg3 arg4 harg4 arg5 harg5 arg6 harg6 hc0 hc1 x0 x1 xs0).2.1 S1024x512.size (by sl_kernel_rfl) y

/-- What case C leaves in the accumulator. -/
def sout6_C_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) : Vec F S1024x512 .f32 :=
  VS6_0.read (Elt F) (VS6_0.writes (Elt F) VS6_0.junk (kernelRun6_C c i arg3 harg3 arg4 harg4 arg5 harg5 arg6 harg6 hc0 hc1 x0 x1 xs0).2.1)

/-! ## What the output's buffer and the accumulator hold after each point -/

/-- The accumulation: after the body at position n, the output's staging buffer and the accumulator, by the case
    the closed forms select at n, run at the point's memrefs and input blocks, the accumulator taken at what the
    point before left where the case reads it. -/
def outsAt6 (c : Dev nD) : (n : ℕ) → n < cfg6.N → Vec F S1024x512 .f32 × Vec F S1024x512 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 10 = 0 then
      if h1 : (n + 1) % 10 = 9 then
        False.elim (by omega)
      else
        (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩))
    else
      if h1 : (n + 1) % 10 = 9 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2)
      else
        (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2)

/-- At a point of case A. -/
theorem outsAt6_A (c : Dev nD) (t : Fin cfg6.N) (h0 : t.val % 10 = 0) (h1 : ¬t.val % 10 = 9) :
    outsAt6 V c t.val t.isLt = (out6_A_2 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t), sout6_A_0 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (dif_pos h0).trans ((dif_neg h1).trans rfl)

/-- At a point of case B: over what the point before left. -/
theorem outsAt6_B (c : Dev nD) (t : Fin cfg6.N) (h0 : ¬t.val % 10 = 0) (h1 : ¬t.val % 10 = 9) :
    outsAt6 V c t.val t.isLt = (out6_B_2 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt6_C (c : Dev nD) (t : Fin cfg6.N) (h0 : ¬t.val % 10 = 0) (h1 : t.val % 10 = 9) :
    outsAt6 V c t.val t.isLt = (out6_C_2 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards
    the accumulator at what the point before left, the other scoped buffers unopened, the generator register at some
    state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2) ∗ Pipeline.scopedRestBut spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ Pipeline.scopedRestBut spec6 c [cc6_scratch0]) ∗ (∃ r, prngReg c r)) := by
  cases n with
  | zero => exact absurd rfl hz
  | succ n => rfl

/-! ## The pipeline's proof data -/

/-- The proof data of the region on core c: the arrays as the region finds them; after the body at point t each
    input's buffer at its block and the output's at the accumulation's first component; the invariant carrying the
    accumulator; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q := fun w => match w with | ⟨0, _⟩ => fullShare.left | ⟨1, _⟩ => fullShare.right | ⟨2, _⟩ => fullShare
  owed _ := 0

/-- The proof data's arrays are the region-entry contents. -/
theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the launch hands the region is the invariant before the first point. -/
theorem Phi_first6 (c : Dev nD) : (dat6 V c).Φ 0 = Pipeline.ΦA spec6 c := by
  rw [show (dat6 V c).Φ 0 = PhiS6 V c 0 (Nat.zero_le _) from rfl, PhiS6_zero V c 0 _ rfl]

/-- After any point but the first the invariant gives the launch's form back: the accumulator's named contents are
    forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

theorem Phi_last6 (c : Dev nD) : (dat6 V c).Φ (Fin.last cfg6.N) ⊢ Pipeline.ΦA spec6 c :=
  Phi_out6 V c _ (by rw [Fin.val_last]; have : cfg6.N = 20 := N_6; omega)

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 20 := lt_of_lt_of_eq t.isLt (show cfg6.N = 20 from N_6)
  by_cases h0 : t.val % 10 = 0
  · by_cases h1 : t.val % 10 = 9
    · exfalso; omega
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [Dat.leavesExact_idle (dat6 V c) 2 t (idleAt6_2 t (fun h => h1 ((hcond6_1 t).mp h))) (noFlush6_2 t (fun h => h1 ((hcond6_1 t).mp h)))]
      rw [outsAt6_A V c t h0 h1]
      unfold sout6_A_0; (try dsimp only)
      by_cases hz : t.val = 0
      · rw [PhiS6_castSucc V c t, PhiS6_zero V c _ _ hz, PhiA6_eq]
        iintro ⟨⟨⟨HS0, Hr⟩, Hg⟩, Ho, ⟨%d0, H0⟩, ⟨%d1, H1⟩, ⟨%d2, H2⟩⟩
        iapply ((kernelRun6_A c (grid6.coords t) _ _ _ _ _ _ _ _ ((hcond6_0 t).mpr h0) (fun h => h1 ((hcond6_1 t).mp h)) (iblk6 V c 0 t) (iblk6 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover6_A_0 c _ _ _ _ _ _ _ _ _ _ _ _ _)
            iexact Hr
          iexact Hg
        isplitl [Ho]; · iexact Ho
        isplitl [H0]; · iexact H0
        isplitl [H1]; · iexact H1
        iexists _; iexact H2
      · rw [PhiS6_castSucc V c t, PhiS6_pos V c _ _ hz]
        iintro ⟨⟨⟨HS0, Hr⟩, Hg⟩, Ho, ⟨%d0, H0⟩, ⟨%d1, H1⟩, ⟨%d2, H2⟩⟩
        iapply ((kernelRun6_A c (grid6.coords t) _ _ _ _ _ _ _ _ ((hcond6_0 t).mpr h0) (fun h => h1 ((hcond6_1 t).mp h)) (iblk6 V c 0 t) (iblk6 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover6_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun e => h0 (by omega)
    by_cases h1 : t.val % 10 = 9
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [show (dat6 V c).leavesExact 2 t = owns (c : Thread nD τ) (ms6_2 t) fullShare ((dat6 V c).after 2 t) from by
          unfold Dat.leavesExact; rw [liveAt6_2 t ((hcond6_1 t).mpr h1)], after6_2]
      rw [outsAt6_C V c t h0 h1]
      unfold out6_C_2 sout6_C_0; (try dsimp only)
      rw [PhiS6_castSucc V c t, PhiS6_pos V c _ _ hz]
      iintro ⟨⟨⟨HS0, Hr⟩, Hg⟩, Ho, ⟨%d0, H0⟩, ⟨%d1, H1⟩, ⟨%d2, H2⟩⟩
      iapply ((kernelRun6_C c (grid6.coords t) _ _ _ _ _ _ _ _ (fun h => h0 ((hcond6_0 t).mp h)) ((hcond6_1 t).mpr h1) (iblk6 V c 0 t) (iblk6 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_C_2 c _ _ _ _ _ _ _ _ _ _ _ _ _ _)
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [Dat.leavesExact_idle (dat6 V c) 2 t (idleAt6_2 t (fun h => h1 ((hcond6_1 t).mp h))) (noFlush6_2 t (fun h => h1 ((hcond6_1 t).mp h)))]
      rw [outsAt6_B V c t h0 h1]
      unfold sout6_B_0; (try dsimp only)
      rw [PhiS6_castSucc V c t, PhiS6_pos V c _ _ hz]
      iintro ⟨⟨⟨HS0, Hr⟩, Hg⟩, Ho, ⟨%d0, H0⟩, ⟨%d1, H1⟩, ⟨%d2, H2⟩⟩
      iapply ((kernelRun6_B c (grid6.coords t) _ _ _ _ _ _ _ _ (fun h => h0 ((hcond6_0 t).mp h)) (fun h => h1 ((hcond6_1 t).mp h)) (iblk6 V c 0 t) (iblk6 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 7 of @main, at the entry contents V: a 1024 × 512 block times a 512 × 512 factor at f32, one grid point, the bias row added

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The left factor's row block is in its buffer at every point: it is fetched at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The right factor is in its buffer at every point: fetched at the first, its block index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias row likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- "This is the first block of the contraction axis" (the accumulator is zeroed), from the grid coordinates. -/
abbrev cond7_0 (i : grid7.Coords) : Prop := (Scalar.cmpi .ne (Scalar.extui (Scalar.cmpi .eq (BitVec.ofNat 32 (i 1).val) 0#32)) 0#32) = 1#1
/-- The contraction axis has one block: it holds at every point. -/
theorem hcond7_0 : ∀ t : Fin cfg7.N, cond7_0 (grid7.coords t) :=
  (by decide +kernel : ∀ t : Fin grid7.N, cond7_0 (grid7.coords t))

/-- "This is the last block of the contraction axis" (the output block is stored). -/
abbrev cond7_1 (i : grid7.Coords) : Prop := k7_cond2 i = 1#1
/-- It too holds at every point. -/
theorem hcond7_1 : ∀ t : Fin cfg7.N, cond7_1 (grid7.coords t) :=
  (by decide +kernel : ∀ t : Fin grid7.N, cond7_1 (grid7.coords t))

/-- The output block is stored at every point: no point is idle for it. -/
theorem liveAt7_3 : ∀ t : Fin cfg7.N, cfg7.idle 3 (grid7.coords t) = false := by decide +kernel

/-! ## The memrefs the body is called with -/

abbrev ms7_0 (t : Fin cfg7.N) : Memref sig .tc .vmem S1024x512 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S512x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x512 .f32 := win7_3.stage (cfg7.slots t 3)
abbrev hs7_3 (t : Fin cfg7.N) : (ms7_3 t).IsWhole := hstage7_3 ((cfg7.slots t 3).cast nbuf7_3)
/-- The accumulator: a whole scoped buffer of the kernel's own, passed beside the windows. -/
abbrev scM7_0 : Memref sig .tc .vmem S1024x512 .f32 := Memref.whole cc7_scratch0
/-- One buffer of the output window, through which its contents are stated (the choice does not matter). -/
abbrev VO7_3 : View sig .tc .vmem S1024x512 .f32 := (Memref.whole cc7_stg3_0 : Memref sig .tc .vmem S1024x512 .f32).view

/-- The region invariant with the accumulator set apart, owned at some contents. -/
theorem PhiA7_eq (c : Dev nD) :
    (Pipeline.ΦA spec7 c : sProp 𝕄)
      = iprop(iprop(iprop((∃ d, owns (c : Thread nD τ) scM7_0 fullShare d))
            ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [scM7_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun7 (c : Dev nD) (i : grid7.Coords)
    (arg2 : Memref sig .tc .vmem S1024x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond7_0 i) (hc1 : cond7_1 i)
    (x0 : Vec F S1024x512 .f32) (x1 : Vec F S512x512 .f32) (x2 : Vec F S1x512 .f32) :
    { L3 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc7__matmul_kernel i arg2 harg2 arg3 harg3 arg4 harg4 arg5 harg5 arg6 harg6) K } := by
  refine ⟨?_, fun E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover7_3 (c : Dev nD) (i : grid7.Coords)
    (arg2 : Memref sig .tc .vmem S1024x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond7_0 i) (hc1 : cond7_1 i)
    (x0 : Vec F S1024x512 .f32) (x1 : Vec F S512x512 .f32) (x2 : Vec F S1x512 .f32) (y : S1024x512.Idx) :
    ∃ pc ∈ (kernelRun7 c i arg2 harg2 arg3 harg3 arg4 harg4 arg5 harg5 arg6 harg6 hc0 hc1 x0 x1 x2).1, y ∈ pc.1.set :=
  View.cover_of_tiledL (kernelRun7 c i arg2 harg2 arg3 harg3 arg4 harg4 arg5 harg5 arg6 harg6 hc0 hc1 x0 x1 x2).1 S1024x512.size (by sl_kernel_rfl) y

/-- What the body leaves in the output buffer: its pieces read back. -/
def out7_3 (c : Dev nD) (i : grid7.Coords)
    (arg2 : Memref sig .tc .vmem S1024x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond7_0 i) (hc1 : cond7_1 i)
    (x0 : Vec F S1024x512 .f32) (x1 : Vec F S512x512 .f32) (x2 : Vec F S1x512 .f32) : Vec F S1024x512 .f32 :=
  VO7_3.read (Elt F) (VO7_3.writes (Elt F) VO7_3.junk (kernelRun7 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 c (grid7.coords t) (ms7_0 t) (hs7_0 t) (ms7_1 t) (hs7_1 t) (ms7_2 t) (hs7_2 t) (ms7_3 t) (hs7_3 t) scM7_0 (Memref.isWhole_whole _)
        (hcond7_0 t) (hcond7_1 t) (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem Phi_first7 (c : Dev nD) : (dat7 V c).Φ 0 = Pipeline.ΦA spec7 c := by
  dsimp only [dat7]

theorem Phi_last7 (c : Dev nD) : (dat7 V c).Φ (Fin.last cfg7.N) ⊢ Pipeline.ΦA spec7 c := by
  rw [show (dat7 V c).Φ (Fin.last cfg7.N) = Pipeline.ΦA spec7 c from by dsimp only [dat7]]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t
    = out7_3 c (grid7.coords t) (ms7_0 t) (hs7_0 t) (ms7_1 t) (hs7_1 t) (ms7_2 t) (hs7_2 t) (ms7_3 t) (hs7_3 t) scM7_0 (Memref.isWhole_whole _)
        (hcond7_0 t) (hcond7_1 t) (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' memrefs hold their blocks, both conditions hold, so the run applies; the
    invariant lends the accumulator at some contents and takes it back at some contents; the core owes nothing. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = Pipeline.ΦA spec7 c from by dsimp only [dat7],
    show (dat7 V c).Φ t.castSucc = Pipeline.ΦA spec7 c from by dsimp only [dat7], PhiA7_eq]
  rw [show (dat7 V c).leavesExact 0 t = owns (c : Thread nD τ) (ms7_0 t) fullShare ((dat7 V c).after 0 t) from rfl, after7_0]
  rw [show (dat7 V c).leavesExact 1 t = owns (c : Thread nD τ) (ms7_1 t) fullShare ((dat7 V c).after 1 t) from rfl, after7_1]
  rw [show (dat7 V c).leavesExact 2 t = owns (c : Thread nD τ) (ms7_2 t) fullShare ((dat7 V c).after 2 t) from rfl, after7_2]
  rw [show (dat7 V c).leavesExact 3 t = owns (c : Thread nD τ) (ms7_3 t) fullShare ((dat7 V c).after 3 t) from by
      unfold Dat.leavesExact; rw [liveAt7_3 t], after7_3]
  unfold out7_3; (try dsimp only)
  iintro ⟨⟨⟨HS, HR⟩, Hg⟩, Ho, ⟨%d0, H0⟩, ⟨%d1, H1⟩, ⟨%d2, H2⟩, ⟨%d3, H3⟩⟩
  iapply ((kernelRun7 c (grid7.coords t) _ _ _ _ _ _ _ _ _ _ (hcond7_0 t) (hcond7_1 t) (iblk7 V c 0 t) (iblk7 V c 1 t) (iblk7 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover7_3 c _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.R8.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 8 of @main, at the entry contents V: a 1024 × 1024 block times a 1024 × 512 factor at f32, one grid point, the bias row added and the sum clamped below at zero

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The left factor's row block is in its buffer at every point: it is fetched at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The right factor is in its buffer at every point: fetched at the first, its block index never moves. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The bias row likewise. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch conditions -/

/-- "This is the first block of the contraction axis" (the accumulator is zeroed), from the grid coordinates. -/
abbrev cond8_0 (i : grid8.Coords) : Prop := (Scalar.cmpi .ne (Scalar.extui (Scalar.cmpi .eq (BitVec.ofNat 32 (i 1).val) 0#32)) 0#32) = 1#1
/-- The contraction axis has one block: it holds at every point. -/
theorem hcond8_0 : ∀ t : Fin cfg8.N, cond8_0 (grid8.coords t) :=
  (by decide +kernel : ∀ t : Fin grid8.N, cond8_0 (grid8.coords t))

/-- "This is the last block of the contraction axis" (the output block is stored). -/
abbrev cond8_1 (i : grid8.Coords) : Prop := k8_cond2 i = 1#1
/-- It too holds at every point. -/
theorem hcond8_1 : ∀ t : Fin cfg8.N, cond8_1 (grid8.coords t) :=
  (by decide +kernel : ∀ t : Fin grid8.N, cond8_1 (grid8.coords t))

/-- The output block is stored at every point: no point is idle for it. -/
theorem liveAt8_3 : ∀ t : Fin cfg8.N, cfg8.idle 3 (grid8.coords t) = false := by decide +kernel

/-! ## The memrefs the body is called with -/

abbrev ms8_0 (t : Fin cfg8.N) : Memref sig .tc .vmem S1024x1024 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1024x512 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x512 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x512 .f32 := win8_3.stage (cfg8.slots t 3)
abbrev hs8_3 (t : Fin cfg8.N) : (ms8_3 t).IsWhole := hstage8_3 ((cfg8.slots t 3).cast nbuf8_3)
/-- The accumulator: a whole scoped buffer of the kernel's own, passed beside the windows. -/
abbrev scM8_0 : Memref sig .tc .vmem S1024x512 .f32 := Memref.whole cc8_scratch0
/-- One buffer of the output window, through which its contents are stated (the choice does not matter). -/
abbrev VO8_3 : View sig .tc .vmem S1024x512 .f32 := (Memref.whole cc8_stg3_0 : Memref sig .tc .vmem S1024x512 .f32).view

/-- The region invariant with the accumulator set apart, owned at some contents. -/
theorem PhiA8_eq (c : Dev nD) :
    (Pipeline.ΦA spec8 c : sProp 𝕄)
      = iprop(iprop(iprop((∃ d, owns (c : Thread nD τ) scM8_0 fullShare d))
            ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun8 (c : Dev nD) (i : grid8.Coords)
    (arg2 : Memref sig .tc .vmem S1024x1024 .f32) (harg2 : arg2.IsWhole) (arg3 : Memref sig .tc .vmem S1024x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond8_0 i) (hc1 : cond8_1 i)
    (x0 : Vec F S1024x1024 .f32) (x1 : Vec F S1024x512 .f32) (x2 : Vec F S1x512 .f32) :
    { L3 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc8__matmul_kernel i arg2 harg2 arg3 harg3 arg4 harg4 arg5 harg5 arg6 harg6) K } := by
  refine ⟨?_, fun E K => ?run⟩
  case run =>
    simp only [cc8__matmul_kernel_eq_skeleton]; unfold cc8__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover8_3 (c : Dev nD) (i : grid8.Coords)
    (arg2 : Memref sig .tc .vmem S1024x1024 .f32) (harg2 : arg2.IsWhole) (arg3 : Memref sig .tc .vmem S1024x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond8_0 i) (hc1 : cond8_1 i)
    (x0 : Vec F S1024x1024 .f32) (x1 : Vec F S1024x512 .f32) (x2 : Vec F S1x512 .f32) (y : S1024x512.Idx) :
    ∃ pc ∈ (kernelRun8 c i arg2 harg2 arg3 harg3 arg4 harg4 arg5 harg5 arg6 harg6 hc0 hc1 x0 x1 x2).1, y ∈ pc.1.set :=
  View.cover_of_tiledL (kernelRun8 c i arg2 harg2 arg3 harg3 arg4 harg4 arg5 harg5 arg6 harg6 hc0 hc1 x0 x1 x2).1 S1024x512.size (by sl_kernel_rfl) y

/-- What the body leaves in the output buffer: its pieces read back. -/
def out8_3 (c : Dev nD) (i : grid8.Coords)
    (arg2 : Memref sig .tc .vmem S1024x1024 .f32) (harg2 : arg2.IsWhole) (arg3 : Memref sig .tc .vmem S1024x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond8_0 i) (hc1 : cond8_1 i)
    (x0 : Vec F S1024x1024 .f32) (x1 : Vec F S1024x512 .f32) (x2 : Vec F S1x512 .f32) : Vec F S1024x512 .f32 :=
  VO8_3.read (Elt F) (VO8_3.writes (Elt F) VO8_3.junk (kernelRun8 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 c (grid8.coords t) (ms8_0 t) (hs8_0 t) (ms8_1 t) (hs8_1 t) (ms8_2 t) (hs8_2 t) (ms8_3 t) (hs8_3 t) scM8_0 (Memref.isWhole_whole _)
        (hcond8_0 t) (hcond8_1 t) (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem Phi_first8 (c : Dev nD) : (dat8 V c).Φ 0 = Pipeline.ΦA spec8 c := by
  dsimp only [dat8]

theorem Phi_last8 (c : Dev nD) : (dat8 V c).Φ (Fin.last cfg8.N) ⊢ Pipeline.ΦA spec8 c := by
  rw [show (dat8 V c).Φ (Fin.last cfg8.N) = Pipeline.ΦA spec8 c from by dsimp only [dat8]]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t
    = out8_3 c (grid8.coords t) (ms8_0 t) (hs8_0 t) (ms8_1 t) (hs8_1 t) (ms8_2 t) (hs8_2 t) (ms8_3 t) (hs8_3 t) scM8_0 (Memref.isWhole_whole _)
        (hcond8_0 t) (hcond8_1 t) (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in
/-- The body at any point: the inputs' memrefs hold their blocks, both conditions hold, so the run applies; the
    invariant lends the accumulator at some contents and takes it back at some contents; the core owes nothing. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = Pipeline.ΦA spec8 c from by dsimp only [dat8],
    show (dat8 V c).Φ t.castSucc = Pipeline.ΦA spec8 c from by dsimp only [dat8], PhiA8_eq]
  rw [show (dat8 V c).leavesExact 0 t = owns (c : Thread nD τ) (ms8_0 t) fullShare ((dat8 V c).after 0 t) from rfl, after8_0]
  rw [show (dat8 V c).leavesExact 1 t = owns (c : Thread nD τ) (ms8_1 t) fullShare ((dat8 V c).after 1 t) from rfl, after8_1]
  rw [show (dat8 V c).leavesExact 2 t = owns (c : Thread nD τ) (ms8_2 t) fullShare ((dat8 V c).after 2 t) from rfl, after8_2]
  rw [show (dat8 V c).leavesExact 3 t = owns (c : Thread nD τ) (ms8_3 t) fullShare ((dat8 V c).after 3 t) from by
      unfold Dat.leavesExact; rw [liveAt8_3 t], after8_3]
  unfold out8_3; (try dsimp only)
  iintro ⟨⟨⟨HS, HR⟩, Hg⟩, Ho, ⟨%d0, H0⟩, ⟨%d1, H1⟩, ⟨%d2, H2⟩, ⟨%d3, H3⟩⟩
  iapply ((kernelRun8 c (grid8.coords t) _ _ _ _ _ _ _ _ _ _ (hcond8_0 t) (hcond8_1 t) (iblk8 V c 0 t) (iblk8 V c 1 t) (iblk8 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover8_3 c _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 9 of @main (the projection with a row softmax), at the contents `V` the region is entered with

The per-region half of the frame certificate: the windows' blocks read off the arrays as the region finds them, the
body's triple (one control case: the grid's second axis has one point, so the accumulator is zeroed, updated and
read out at every point), the proof data, and the body obligation. The accumulator is rewritten whole before it is
read at every point, so the invariant carries no contents for it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place: unfetched, the block index has not moved;
    the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s and whose body leaves the block in place: unfetched, the block index has not moved;
    the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s and whose body leaves the block in place: unfetched, the block index has not moved;
    the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch conditions: both hold at every point -/

/-- The condition of the body's first conditional (the accumulator's reset), from the grid coordinates. -/
abbrev cond9_0 (i : grid9.Coords) : Prop := (Scalar.cmpi .ne (Scalar.extui (Scalar.cmpi .eq (BitVec.ofNat 32 (i 1).val) 0#32)) 0#32) = 1#1
/-- It holds at every point: the second axis has the one coordinate 0. -/
theorem hcond9_0 : ∀ t : Fin cfg9.N, cond9_0 (grid9.coords t) :=
  (by decide +kernel : ∀ t : Fin grid9.N, cond9_0 (grid9.coords t))

/-- The condition of the body's second conditional (the read-out), from the grid coordinates. -/
abbrev cond9_1 (i : grid9.Coords) : Prop := k9_cond2 i = 1#1
/-- It holds at every point, for the same reason. -/
theorem hcond9_1 : ∀ t : Fin cfg9.N, cond9_1 (grid9.coords t) :=
  (by decide +kernel : ∀ t : Fin grid9.N, cond9_1 (grid9.coords t))

/-! ## No window is idle at any point -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
theorem liveAt9_4 : ∀ t : Fin cfg9.N, cfg9.idle 4 (grid9.coords t) = false := by decide +kernel

/-! ## The memrefs the body is called with -/

/-- One staging buffer of each output window, through which its contents are stated (the choice does not matter:
    a covering list of writes reads the same through any view). -/
abbrev VO9_3 : View sig .tc .vmem S1024x128 .f32 := (Memref.whole cc9_stg3_0 : Memref sig .tc .vmem S1024x128 .f32).view
abbrev VO9_4 : View sig .tc .vmem S1024x128 .f32 := (Memref.whole cc9_stg4_0 : Memref sig .tc .vmem S1024x128 .f32).view
/-- Each window's current staging memref at point `t`, spelled as the pipeline passes it, and its wholeness. -/
abbrev ms9_0 (t : Fin cfg9.N) : Memref sig .tc .vmem S1024x512 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S512x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1024x128 .f32 := win9_4.stage (cfg9.slots t 4)
abbrev hs9_4 (t : Fin cfg9.N) : (ms9_4 t).IsWhole := hstage9_4 ((cfg9.slots t 4).cast nbuf9_4)
/-- The accumulator: a whole scoped buffer of the kernel's own, passed beside the windows. -/
abbrev scM9_0 : Memref sig .tc .vmem S1024x128 .f32 := Memref.whole cc9_scratch0

/-- The class's invariant with the accumulator as a memref owned at some contents, the other scoped buffers
    unopened, and the generator register at some state: what the body obligation hands the run and takes back. -/
theorem PhiA9_eq (c : Dev nD) :
    (Pipeline.ΦA spec9 c : sProp 𝕄)
      = iprop(iprop(iprop((∃ d, owns (c : Thread nD τ) scM9_0 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

/-! ## The body's triple -/

set_option maxHeartbeats 4000000 in
/-- What the body's stores leave in each output's staging memref and in the accumulator, as pieces (last first), with
    the proof that on whole memrefs — the inputs' at their contents, the outputs' and the accumulator at anything — the
    body runs to the continuation holding the inputs' as they were and each of the other three with its pieces
    written. Both conditionals are decided by the hypotheses; the pieces are the witness the run finds. -/
noncomputable def kernelRun9 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) :
    Σ' (L3 : List (View.Piece (Elt F) S1024x128 .f32)) (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc9__proj_softmax_kernel i arg2 harg2 arg3 harg3 arg4 harg4 arg5 harg5 arg6 harg6 arg7 harg7) K } := by
  refine ⟨?_, ?_, ?_, fun E K => ?run⟩
  case run =>
    simp only [cc9__proj_softmax_kernel_eq_skeleton]; unfold cc9__proj_softmax_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- The pieces for output window 3 tile its block (one store of the whole block), so they cover it. -/
theorem cover9_3 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) (y : S1024x128.Idx) :
    ∃ pc ∈ (kernelRun9 c i arg2 harg2 arg3 harg3 arg4 harg4 arg5 harg5 arg6 harg6 arg7 harg7 hc0 hc1 x0 x1 x2).1, y ∈ pc.1.set :=
  View.cover_of_tiledL (kernelRun9 c i arg2 harg2 arg3 harg3 arg4 harg4 arg5 harg5 arg6 harg6 arg7 harg7 hc0 hc1 x0 x1 x2).1 S1024x128.size (by sl_kernel_rfl) y

/-- What the body leaves in output window 3's staging buffer: its pieces read back over junk. -/
def out9_3 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) : Vec F S1024x128 .f32 :=
  VO9_3.read (Elt F) (VO9_3.writes (Elt F) VO9_3.junk (kernelRun9 c i arg2 harg2 arg3 harg3 arg4 harg4 arg5 harg5 arg6 harg6 arg7 harg7 hc0 hc1 x0 x1 x2).1)

/-- The pieces for output window 4 tile its block (one store of the whole block), so they cover it. -/
theorem cover9_4 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) (y : S1024x128.Idx) :
    ∃ pc ∈ (kernelRun9 c i arg2 harg2 arg3 harg3 arg4 harg4 arg5 harg5 arg6 harg6 arg7 harg7 hc0 hc1 x0 x1 x2).2.1, y ∈ pc.1.set :=
  View.cover_of_tiledL (kernelRun9 c i arg2 harg2 arg3 harg3 arg4 harg4 arg5 harg5 arg6 harg6 arg7 harg7 hc0 hc1 x0 x1 x2).2.1 S1024x128.size (by sl_kernel_rfl) y

/-- What the body leaves in output window 4's staging buffer: its pieces read back over junk. -/
def out9_4 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) : Vec F S1024x128 .f32 :=
  VO9_4.read (Elt F) (VO9_4.writes (Elt F) VO9_4.junk (kernelRun9 c i arg2 harg2 arg3 harg3 arg4 harg4 arg5 harg5 arg6 harg6 arg7 harg7 hc0 hc1 x0 x1 x2).2.1)

/-! ## The pipeline's proof data -/

/-- The proof data of pipeline 9 on core `c`: the arrays as the region finds them (`V`); after the body at point
    `t` each input's buffer at its block and each output's at what the run leaves from the input blocks; the
    invariant the class's (the scoped rest and the generator register, at anything); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 c (grid9.coords t) (ms9_0 t) (hs9_0 t) (ms9_1 t) (hs9_1 t) (ms9_2 t) (hs9_2 t) (ms9_3 t) (hs9_3 t) (ms9_4 t) (hs9_4 t) scM9_0 (Memref.isWhole_whole _) (hcond9_0 t) (hcond9_1 t) (iblk9 V c 0 t) (iblk9 V c 1 t) (iblk9 V c 2 t)
    | ⟨4, _⟩ => out9_4 c (grid9.coords t) (ms9_0 t) (hs9_0 t) (ms9_1 t) (hs9_1 t) (ms9_2 t) (hs9_2 t) (ms9_3 t) (hs9_3 t) (ms9_4 t) (hs9_4 t) scM9_0 (Memref.isWhole_whole _) (hcond9_0 t) (hcond9_1 t) (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant before the first point is the class's, -/
theorem Phi_first9 (c : Dev nD) : (dat9 V c).Φ 0 = Pipeline.ΦA spec9 c := by
  dsimp only [dat9]

/-- and after the last point it gives the class's back. -/
theorem Phi_last9 (c : Dev nD) : (dat9 V c).Φ (Fin.last cfg9.N) ⊢ Pipeline.ΦA spec9 c := by
  dsimp only [dat9]; exact Idealize.SL.BI.Entails.refl _

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 c (grid9.coords t) (ms9_0 t) (hs9_0 t) (ms9_1 t) (hs9_1 t) (ms9_2 t) (hs9_2 t) (ms9_3 t) (hs9_3 t) (ms9_4 t) (hs9_4 t) scM9_0 (Memref.isWhole_whole _) (hcond9_0 t) (hcond9_1 t) (iblk9 V c 0 t) (iblk9 V c 1 t) (iblk9 V c 2 t) := by dsimp only [dat9]
theorem after9_4 (c : Dev nD) (t : Fin cfg9.N) : (dat9 V c).after 4 t = out9_4 c (grid9.coords t) (ms9_0 t) (hs9_0 t) (ms9_1 t) (hs9_1 t) (ms9_2 t) (hs9_2 t) (ms9_3 t) (hs9_3 t) (ms9_4 t) (hs9_4 t) scM9_0 (Memref.isWhole_whole _) (hcond9_0 t) (hcond9_1 t) (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t)

set_option maxHeartbeats 4000000 in
/-- The body at any point: the inputs' memrefs hold their blocks; the invariant hands the body the accumulator at some
    contents (the other scoped buffers and the generator register pass through unread) and takes it back at some
    contents; each output's buffer ends at its pieces written, which cover it; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = Pipeline.ΦA spec9 c from rfl, show (dat9 V c).Φ t.castSucc = Pipeline.ΦA spec9 c from rfl, PhiA9_eq]
  rw [show (dat9 V c).leavesExact 0 t = owns (c : Thread nD τ) (ms9_0 t) fullShare ((dat9 V c).after 0 t) from by
      unfold Dat.leavesExact; rw [liveAt9_0 t], after9_0]
  rw [show (dat9 V c).leavesExact 1 t = owns (c : Thread nD τ) (ms9_1 t) fullShare ((dat9 V c).after 1 t) from by
      unfold Dat.leavesExact; rw [liveAt9_1 t], after9_1]
  rw [show (dat9 V c).leavesExact 2 t = owns (c : Thread nD τ) (ms9_2 t) fullShare ((dat9 V c).after 2 t) from by
      unfold Dat.leavesExact; rw [liveAt9_2 t], after9_2]
  rw [show (dat9 V c).leavesExact 3 t = owns (c : Thread nD τ) (ms9_3 t) fullShare ((dat9 V c).after 3 t) from by
      unfold Dat.leavesExact; rw [liveAt9_3 t], after9_3]
  rw [show (dat9 V c).leavesExact 4 t = owns (c : Thread nD τ) (ms9_4 t) fullShare ((dat9 V c).after 4 t) from by
      unfold Dat.leavesExact; rw [liveAt9_4 t], after9_4]
  unfold out9_3 out9_4; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((kernelRun9 c (grid9.coords t) _ _ _ _ _ _ _ _ _ _ _ _ (hcond9_0 t) (hcond9_1 t) (iblk9 V c 0 t) (iblk9 V c 1 t) (iblk9 V c 2 t)).2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover9_3 c _ _ _ _ _ _ _ _ _ _ _ _ _ _ _ _ _ _)
  unfold owns; iexists _; isplitr
  swap; · iexact H4
  ipureintro; exact View.read_writes_of_cover _ _ _ _ _ (cover9_4 c _ _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.R10.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 10 of @main, at the entry contents V: a 1024 × 1024 block times a 1024 × 128 factor at f32, one grid point, the bias row added

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The left factor's row block is in its buffer at every point: it is fetched at every point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The right factor is in its buffer at every point: fetched at the first, its block index never moves. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The bias row likewise. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch conditions -/

/-- "This is the first block of the contraction axis" (the accumulator is zeroed), from the grid coordinates. -/
abbrev cond10_0 (i : grid10.Coords) : Prop := (Scalar.cmpi .ne (Scalar.extui (Scalar.cmpi .eq (BitVec.ofNat 32 (i 1).val) 0#32)) 0#32) = 1#1
/-- The contraction axis has one block: it holds at every point. -/
theorem hcond10_0 : ∀ t : Fin cfg10.N, cond10_0 (grid10.coords t) :=
  (by decide +kernel : ∀ t : Fin grid10.N, cond10_0 (grid10.coords t))

/-- "This is the last block of the contraction axis" (the output block is stored). -/
abbrev cond10_1 (i : grid10.Coords) : Prop := k10_cond2 i = 1#1
/-- It too holds at every point. -/
theorem hcond10_1 : ∀ t : Fin cfg10.N, cond10_1 (grid10.coords t) :=
  (by decide +kernel : ∀ t : Fin grid10.N, cond10_1 (grid10.coords t))

/-- The output block is stored at every point: no point is idle for it. -/
theorem liveAt10_3 : ∀ t : Fin cfg10.N, cfg10.idle 3 (grid10.coords t) = false := by decide +kernel

/-! ## The memrefs the body is called with -/

abbrev ms10_0 (t : Fin cfg10.N) : Memref sig .tc .vmem S1024x1024 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1024x128 .f32 := win10_3.stage (cfg10.slots t 3)
abbrev hs10_3 (t : Fin cfg10.N) : (ms10_3 t).IsWhole := hstage10_3 ((cfg10.slots t 3).cast nbuf10_3)
/-- The accumulator: a whole scoped buffer of the kernel's own, passed beside the windows. -/
abbrev scM10_0 : Memref sig .tc .vmem S1024x128 .f32 := Memref.whole cc10_scratch0
/-- One buffer of the output window, through which its contents are stated (the choice does not matter). -/
abbrev VO10_3 : View sig .tc .vmem S1024x128 .f32 := (Memref.whole cc10_stg3_0 : Memref sig .tc .vmem S1024x128 .f32).view

/-- The region invariant with the accumulator set apart, owned at some contents. -/
theorem PhiA10_eq (c : Dev nD) :
    (Pipeline.ΦA spec10 c : sProp 𝕄)
      = iprop(iprop(iprop((∃ d, owns (c : Thread nD τ) scM10_0 fullShare d))
            ∗ Pipeline.scopedRestBut (Ix := Unit) (Name := ℕ) (U := UR sig nD τ) (Lvl := ℕ) (Val := Elt F) spec10 c [cc10_scratch0])
          ∗ (∃ r, prngReg c r)) := by
  unfold Pipeline.ΦA; rw [scopedRest10_split]; simp only [scM10_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun10 (c : Dev nD) (i : grid10.Coords)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hc0 : cond10_0 i) (hc1 : cond10_1 i)
    (x0 : Vec F S1024x1024 .f32) (x1 : Vec F S1024x128 .f32) (x2 : Vec F S1x128 .f32) :
    { L3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc10__matmul_kernel i arg2 harg2 arg3 harg3 arg4 harg4 arg5 harg5 arg6 harg6) K } := by
  refine ⟨?_, fun E K => ?run⟩
  case run =>
    simp only [cc10__matmul_kernel_eq_skeleton]; unfold cc10__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover10_3 (c : Dev nD) (i : grid10.Coords)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hc0 : cond10_0 i) (hc1 : cond10_1 i)
    (x0 : Vec F S1024x1024 .f32) (x1 : Vec F S1024x128 .f32) (x2 : Vec F S1x128 .f32) (y : S1024x128.Idx) :
    ∃ pc ∈ (kernelRun10 c i arg2 harg2 arg3 harg3 arg4 harg4 arg5 harg5 arg6 harg6 hc0 hc1 x0 x1 x2).1, y ∈ pc.1.set :=
  View.cover_of_tiledL (kernelRun10 c i arg2 harg2 arg3 harg3 arg4 harg4 arg5 harg5 arg6 harg6 hc0 hc1 x0 x1 x2).1 S1024x128.size (by sl_kernel_rfl) y

/-- What the body leaves in the output buffer: its pieces read back. -/
def out10_3 (c : Dev nD) (i : grid10.Coords)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hc0 : cond10_0 i) (hc1 : cond10_1 i)
    (x0 : Vec F S1024x1024 .f32) (x1 : Vec F S1024x128 .f32) (x2 : Vec F S1x128 .f32) : Vec F S1024x128 .f32 :=
  VO10_3.read (Elt F) (VO10_3.writes (Elt F) VO10_3.junk (kernelRun10 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 c (grid10.coords t) (ms10_0 t) (hs10_0 t) (ms10_1 t) (hs10_1 t) (ms10_2 t) (hs10_2 t) (ms10_3 t) (hs10_3 t) scM10_0 (Memref.isWhole_whole _)
        (hcond10_0 t) (hcond10_1 t) (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem Phi_first10 (c : Dev nD) : (dat10 V c).Φ 0 = Pipeline.ΦA spec10 c := by
  dsimp only [dat10]

theorem Phi_last10 (c : Dev nD) : (dat10 V c).Φ (Fin.last cfg10.N) ⊢ Pipeline.ΦA spec10 c := by
  rw [show (dat10 V c).Φ (Fin.last cfg10.N) = Pipeline.ΦA spec10 c from by dsimp only [dat10]]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t
    = out10_3 c (grid10.coords t) (ms10_0 t) (hs10_0 t) (ms10_1 t) (hs10_1 t) (ms10_2 t) (hs10_2 t) (ms10_3 t) (hs10_3 t) scM10_0 (Memref.isWhole_whole _)
        (hcond10_0 t) (hcond10_1 t) (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in
/-- The body at any point: the inputs' memrefs hold their blocks, both conditions hold, so the run applies; the
    invariant lends the accumulator at some contents and takes it back at some contents; the core owes nothing. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = Pipeline.ΦA spec10 c from by dsimp only [dat10],
    show (dat10 V c).Φ t.castSucc = Pipeline.ΦA spec10 c from by dsimp only [dat10], PhiA10_eq]
  rw [show (dat10 V c).leavesExact 0 t = owns (c : Thread nD τ) (ms10_0 t) fullShare ((dat10 V c).after 0 t) from rfl, after10_0]
  rw [show (dat10 V c).leavesExact 1 t = owns (c : Thread nD τ) (ms10_1 t) fullShare ((dat10 V c).after 1 t) from rfl, after10_1]
  rw [show (dat10 V c).leavesExact 2 t = owns (c : Thread nD τ) (ms10_2 t) fullShare ((dat10 V c).after 2 t) from rfl, after10_2]
  rw [show (dat10 V c).leavesExact 3 t = owns (c : Thread nD τ) (ms10_3 t) fullShare ((dat10 V c).after 3 t) from by
      unfold Dat.leavesExact; rw [liveAt10_3 t], after10_3]
  unfold out10_3; (try dsimp only)
  iintro ⟨⟨⟨HS, HR⟩, Hg⟩, Ho, ⟨%d0, H0⟩, ⟨%d1, H1⟩, ⟨%d2, H2⟩, ⟨%d3, H3⟩⟩
  iapply ((kernelRun10 c (grid10.coords t) _ _ _ _ _ _ _ _ _ _ (hcond10_0 t) (hcond10_1 t) (iblk10 V c 0 t) (iblk10 V c 1 t) (iblk10 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover10_3 c _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.R11.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not, for any proof
    data whose array is the entry contents and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch conditions: both hold at every point -/

/-- The first conditional's condition (k = 0), from the grid coordinates. -/
abbrev cond11_0 (i : grid11.Coords) : Prop := (Scalar.cmpi .ne (Scalar.extui (Scalar.cmpi .eq (BitVec.ofNat 32 (i 2).val) 0#32)) 0#32) = 1#1
theorem hcond11_0 : ∀ t : Fin cfg11.N, cond11_0 (grid11.coords t) :=
  (by decide +kernel : ∀ t : Fin grid11.N, cond11_0 (grid11.coords t))

/-- The second conditional's condition (k is the last block, which is block 0). -/
abbrev cond11_1 (i : grid11.Coords) : Prop := k11_cond2 i = 1#1
theorem hcond11_1 : ∀ t : Fin cfg11.N, cond11_1 (grid11.coords t) :=
  (by decide +kernel : ∀ t : Fin grid11.N, cond11_1 (grid11.coords t))

/-! ## No window is ever idle -/

theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel

/-! ## The staging memrefs and the accumulator -/

/-- One staging buffer of the output window, through which its contents are stated. -/
abbrev VO11_2 : View sig .tc .vmem S128x256 .f32 := (Memref.whole cc11_stg2_0 : Memref sig .tc .vmem S128x256 .f32).view
abbrev ms11_0 (t : Fin cfg11.N) : Memref sig .tc .vmem S1024x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x256 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S128x256 .f32 := win11_2.stage (cfg11.slots t 2)
abbrev hs11_2 (t : Fin cfg11.N) : (ms11_2 t).IsWhole := hstage11_2 ((cfg11.slots t 2).cast nbuf11_2)
/-- The accumulator: a whole scoped buffer of the kernel's own. -/
abbrev scM11_0 : Memref sig .tc .vmem S128x256 .f32 := Memref.whole cc11_scratch0

/-- The region's invariant with the accumulator as a memref owned at some contents, the other scoped buffers
    unopened, and the generator register at some state. -/
theorem PhiA11_eq (c : Dev nD) :
    (Pipeline.ΦA spec11 c : sProp 𝕄)
      = iprop(iprop(iprop((∃ d, owns (c : Thread nD τ) scM11_0 fullShare d)) ∗ Pipeline.scopedRestBut spec11 c [cc11_scratch0]) ∗ (∃ r, prngReg c r)) := by
  unfold Pipeline.ΦA; rw [scopedRest11_split]; simp only [scM11_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun11 (c : Dev nD) (i : grid11.Coords) (arg3 : Memref sig .tc .vmem S1024x128 .f32) (harg3 : arg3.IsWhole) (arg4 : Memref sig .tc .vmem S1024x256 .f32) (harg4 : arg4.IsWhole) (arg5 : Memref sig .tc .vmem S128x256 .f32) (harg5 : arg5.IsWhole) (arg6 : Memref sig .tc .vmem S128x256 .f32) (harg6 : arg6.IsWhole) (hc0 : cond11_0 i) (hc1 : cond11_1 i)
    (x0 : Vec F S1024x128 .f32) (x1 : Vec F S1024x256 .f32) :
    Σ' (L2 : List (View.Piece (Elt F) S128x256 .f32)), { LS0 : List (View.Piece (Elt F) S128x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc11__matmulT_kernel i arg3 harg3 arg4 harg4 arg5 harg5 arg6 harg6) K } := by
  refine ⟨?_, ?_, fun E K => ?run⟩
  case run =>
    simp only [cc11__matmulT_kernel_eq_skeleton]; unfold cc11__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover11_2 (c : Dev nD) (i : grid11.Coords) (arg3 : Memref sig .tc .vmem S1024x128 .f32) (harg3 : arg3.IsWhole) (arg4 : Memref sig .tc .vmem S1024x256 .f32) (harg4 : arg4.IsWhole) (arg5 : Memref sig .tc .vmem S128x256 .f32) (harg5 : arg5.IsWhole) (arg6 : Memref sig .tc .vmem S128x256 .f32) (harg6 : arg6.IsWhole) (hc0 : cond11_0 i) (hc1 : cond11_1 i)
    (x0 : Vec F S1024x128 .f32) (x1 : Vec F S1024x256 .f32) (y : S128x256.Idx) :
    ∃ pc ∈ (kernelRun11 c i arg3 harg3 arg4 harg4 arg5 harg5 arg6 harg6 hc0 hc1 x0 x1).1, y ∈ pc.1.set :=
  View.cover_of_tiledL (kernelRun11 c i arg3 harg3 arg4 harg4 arg5 harg5 arg6 harg6 hc0 hc1 x0 x1).1 S128x256.size (by sl_kernel_rfl) y

/-- What the body leaves in the output's staging buffer. -/
def out11_2 (c : Dev nD) (i : grid11.Coords) (arg3 : Memref sig .tc .vmem S1024x128 .f32) (harg3 : arg3.IsWhole) (arg4 : Memref sig .tc .vmem S1024x256 .f32) (harg4 : arg4.IsWhole) (arg5 : Memref sig .tc .vmem S128x256 .f32) (harg5 : arg5.IsWhole) (arg6 : Memref sig .tc .vmem S128x256 .f32) (harg6 : arg6.IsWhole) (hc0 : cond11_0 i) (hc1 : cond11_1 i)
    (x0 : Vec F S1024x128 .f32) (x1 : Vec F S1024x256 .f32) : Vec F S128x256 .f32 :=
  VO11_2.read (Elt F) (VO11_2.writes (Elt F) VO11_2.junk (kernelRun11 c i arg3 harg3 arg4 harg4 arg5 harg5 arg6 harg6 hc0 hc1 x0 x1).1)

/-- The output's staging buffer after the body at point t. -/
def outAt11 (c : Dev nD) (t : Fin cfg11.N) : Vec F S128x256 .f32 :=
  out11_2 c (grid11.coords t) (ms11_0 t) (hs11_0 t) (ms11_1 t) (hs11_1 t) (ms11_2 t) (hs11_2 t) scM11_0 (Memref.isWhole_whole _) (hcond11_0 t) (hcond11_1 t) (iblk11 V c 0 t) (iblk11 V c 1 t)

/-! ## The pipeline's proof data -/

/-- The proof data of the region on core c: the arrays as the region finds them; after the body at point t each
    input's buffer at its block and the output's at what the one case leaves; the invariant the scoped rest and the
    generator register, untouched between points; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => outAt11 V c t
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = outAt11 V c t := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the launch hands the region is the invariant before the first point, -/
theorem Phi_first11 (c : Dev nD) : (dat11 V c).Φ 0 = Pipeline.ΦA spec11 c := rfl

/-- and the invariant after the last point gives it back. -/
theorem Phi_last11 (c : Dev nD) : (dat11 V c).Φ (Fin.last cfg11.N) ⊢ Pipeline.ΦA spec11 c :=
  Idealize.SL.BI.Entails.refl _

/-! ## The body obligation, at a generic point -/

/-- What the body is called with at point t, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point: the inputs' memrefs hold their blocks; the invariant hands the body the accumulator at
    anything and takes it back at anything; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = Pipeline.ΦA spec11 c from rfl, show (dat11 V c).Φ t.castSucc = Pipeline.ΦA spec11 c from rfl, PhiA11_eq]
  rw [show (dat11 V c).leavesExact 0 t = owns (c : Thread nD τ) (ms11_0 t) fullShare ((dat11 V c).after 0 t) from by
      unfold Dat.leavesExact; rw [liveAt11_0 t], after11_0]
  rw [show (dat11 V c).leavesExact 1 t = owns (c : Thread nD τ) (ms11_1 t) fullShare ((dat11 V c).after 1 t) from by
      unfold Dat.leavesExact; rw [liveAt11_1 t], after11_1]
  rw [show (dat11 V c).leavesExact 2 t = owns (c : Thread nD τ) (ms11_2 t) fullShare ((dat11 V c).after 2 t) from by
      unfold Dat.leavesExact; rw [liveAt11_2 t], after11_2]
  unfold outAt11 out11_2; (try dsimp only)
  iintro ⟨⟨⟨HS0, Hr⟩, Hg⟩, Ho, ⟨%d0, H0⟩, ⟨%d1, H1⟩, ⟨%d2, H2⟩⟩
  iapply ((kernelRun11 c (grid11.coords t) _ _ _ _ _ _ _ _ (hcond11_0 t) (hcond11_1 t) (iblk11 V c 0 t) (iblk11 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover11_2 c _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.R12.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 12: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not, for any proof
    data whose array is the entry contents and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's branch conditions: both hold at every point -/

/-- The first conditional's condition (k = 0), from the grid coordinates. -/
abbrev cond12_0 (i : grid12.Coords) : Prop := (Scalar.cmpi .ne (Scalar.extui (Scalar.cmpi .eq (BitVec.ofNat 32 (i 2).val) 0#32)) 0#32) = 1#1
theorem hcond12_0 : ∀ t : Fin cfg12.N, cond12_0 (grid12.coords t) :=
  (by decide +kernel : ∀ t : Fin grid12.N, cond12_0 (grid12.coords t))

/-- The second conditional's condition (k is the last block, which is block 0). -/
abbrev cond12_1 (i : grid12.Coords) : Prop := k12_cond2 i = 1#1
theorem hcond12_1 : ∀ t : Fin cfg12.N, cond12_1 (grid12.coords t) :=
  (by decide +kernel : ∀ t : Fin grid12.N, cond12_1 (grid12.coords t))

/-! ## No window is ever idle -/

theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel

/-! ## The staging memrefs and the accumulator -/

/-- One staging buffer of the output window, through which its contents are stated. -/
abbrev VO12_2 : View sig .tc .vmem S128x128 .f32 := (Memref.whole cc12_stg2_0 : Memref sig .tc .vmem S128x128 .f32).view
abbrev ms12_0 (t : Fin cfg12.N) : Memref sig .tc .vmem S1024x128 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S1024x128 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S128x128 .f32 := win12_2.stage (cfg12.slots t 2)
abbrev hs12_2 (t : Fin cfg12.N) : (ms12_2 t).IsWhole := hstage12_2 ((cfg12.slots t 2).cast nbuf12_2)
/-- The accumulator: a whole scoped buffer of the kernel's own. -/
abbrev scM12_0 : Memref sig .tc .vmem S128x128 .f32 := Memref.whole cc12_scratch0

/-- The region's invariant with the accumulator as a memref owned at some contents, the other scoped buffers
    unopened, and the generator register at some state. -/
theorem PhiA12_eq (c : Dev nD) :
    (Pipeline.ΦA spec12 c : sProp 𝕄)
      = iprop(iprop(iprop((∃ d, owns (c : Thread nD τ) scM12_0 fullShare d)) ∗ Pipeline.scopedRestBut spec12 c [cc12_scratch0]) ∗ (∃ r, prngReg c r)) := by
  unfold Pipeline.ΦA; rw [scopedRest12_split]; simp only [scM12_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun12 (c : Dev nD) (i : grid12.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond12_0 i) (hc1 : cond12_1 i)
    (x0 : Vec F S1024x128 .f32) (x1 : Vec F S1024x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc12__matmulT_kernel i arg3 harg3 arg4 harg4 arg5 harg5 arg6 harg6) K } := by
  refine ⟨?_, ?_, fun E K => ?run⟩
  case run =>
    simp only [cc12__matmulT_kernel_eq_skeleton]; unfold cc12__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover12_2 (c : Dev nD) (i : grid12.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond12_0 i) (hc1 : cond12_1 i)
    (x0 : Vec F S1024x128 .f32) (x1 : Vec F S1024x128 .f32) (y : S128x128.Idx) :
    ∃ pc ∈ (kernelRun12 c i arg3 harg3 arg4 harg4 arg5 harg5 arg6 harg6 hc0 hc1 x0 x1).1, y ∈ pc.1.set :=
  View.cover_of_tiledL (kernelRun12 c i arg3 harg3 arg4 harg4 arg5 harg5 arg6 harg6 hc0 hc1 x0 x1).1 S128x128.size (by sl_kernel_rfl) y

/-- What the body leaves in the output's staging buffer. -/
def out12_2 (c : Dev nD) (i : grid12.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond12_0 i) (hc1 : cond12_1 i)
    (x0 : Vec F S1024x128 .f32) (x1 : Vec F S1024x128 .f32) : Vec F S128x128 .f32 :=
  VO12_2.read (Elt F) (VO12_2.writes (Elt F) VO12_2.junk (kernelRun12 c i arg3 harg3 arg4 harg4 arg5 harg5 arg6 harg6 hc0 hc1 x0 x1).1)

/-- The output's staging buffer after the body at point t. -/
def outAt12 (c : Dev nD) (t : Fin cfg12.N) : Vec F S128x128 .f32 :=
  out12_2 c (grid12.coords t) (ms12_0 t) (hs12_0 t) (ms12_1 t) (hs12_1 t) (ms12_2 t) (hs12_2 t) scM12_0 (Memref.isWhole_whole _) (hcond12_0 t) (hcond12_1 t) (iblk12 V c 0 t) (iblk12 V c 1 t)

/-! ## The pipeline's proof data -/

/-- The proof data of the region on core c: the arrays as the region finds them; after the body at point t each
    input's buffer at its block and the output's at what the one case leaves; the invariant the scoped rest and the
    generator register, untouched between points; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => outAt12 V c t
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = outAt12 V c t := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the launch hands the region is the invariant before the first point, -/
theorem Phi_first12 (c : Dev nD) : (dat12 V c).Φ 0 = Pipeline.ΦA spec12 c := rfl

/-- and the invariant after the last point gives it back. -/
theorem Phi_last12 (c : Dev nD) : (dat12 V c).Φ (Fin.last cfg12.N) ⊢ Pipeline.ΦA spec12 c :=
  Idealize.SL.BI.Entails.refl _

/-! ## The body obligation, at a generic point -/

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point: the inputs' memrefs hold their blocks; the invariant hands the body the accumulator at
    anything and takes it back at anything; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = Pipeline.ΦA spec12 c from rfl, show (dat12 V c).Φ t.castSucc = Pipeline.ΦA spec12 c from rfl, PhiA12_eq]
  rw [show (dat12 V c).leavesExact 0 t = owns (c : Thread nD τ) (ms12_0 t) fullShare ((dat12 V c).after 0 t) from by
      unfold Dat.leavesExact; rw [liveAt12_0 t], after12_0]
  rw [show (dat12 V c).leavesExact 1 t = owns (c : Thread nD τ) (ms12_1 t) fullShare ((dat12 V c).after 1 t) from by
      unfold Dat.leavesExact; rw [liveAt12_1 t], after12_1]
  rw [show (dat12 V c).leavesExact 2 t = owns (c : Thread nD τ) (ms12_2 t) fullShare ((dat12 V c).after 2 t) from by
      unfold Dat.leavesExact; rw [liveAt12_2 t], after12_2]
  unfold outAt12 out12_2; (try dsimp only)
  iintro ⟨⟨⟨HS0, Hr⟩, Hg⟩, Ho, ⟨%d0, H0⟩, ⟨%d1, H1⟩, ⟨%d2, H2⟩⟩
  iapply ((kernelRun12 c (grid12.coords t) _ _ _ _ _ _ _ _ (hcond12_0 t) (hcond12_1 t) (iblk12 V c 0 t) (iblk12 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover12_2 c _ _ _ _ _ _ _ _ _ _ _ _ _)

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.R13.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 13: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not, for any proof
    data whose array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's branch conditions: both hold at every point -/

/-- The first conditional's condition (k = 0), from the grid coordinates. -/
abbrev cond13_0 (i : grid13.Coords) : Prop := (Scalar.cmpi .ne (Scalar.extui (Scalar.cmpi .eq (BitVec.ofNat 32 (i 2).val) 0#32)) 0#32) = 1#1
theorem hcond13_0 : ∀ t : Fin cfg13.N, cond13_0 (grid13.coords t) :=
  (by decide +kernel : ∀ t : Fin grid13.N, cond13_0 (grid13.coords t))

/-- The second conditional's condition (k is the last block, which is block 0). -/
abbrev cond13_1 (i : grid13.Coords) : Prop := k13_cond2 i = 1#1
theorem hcond13_1 : ∀ t : Fin cfg13.N, cond13_1 (grid13.coords t) :=
  (by decide +kernel : ∀ t : Fin grid13.N, cond13_1 (grid13.coords t))

/-! ## No window is ever idle -/

theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel

/-! ## The staging memrefs and the accumulator -/

/-- One staging buffer of the output window, through which its contents are stated. -/
abbrev VO13_2 : View sig .tc .vmem S128x128 .f32 := (Memref.whole cc13_stg2_0 : Memref sig .tc .vmem S128x128 .f32).view
abbrev ms13_0 (t : Fin cfg13.N) : Memref sig .tc .vmem S1024x128 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1024x128 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S128x128 .f32 := win13_2.stage (cfg13.slots t 2)
abbrev hs13_2 (t : Fin cfg13.N) : (ms13_2 t).IsWhole := hstage13_2 ((cfg13.slots t 2).cast nbuf13_2)
/-- The accumulator: a whole scoped buffer of the kernel's own. -/
abbrev scM13_0 : Memref sig .tc .vmem S128x128 .f32 := Memref.whole cc13_scratch0

/-- The region's invariant with the accumulator as a memref owned at some contents, the other scoped buffers
    unopened, and the generator register at some state. -/
theorem PhiA13_eq (c : Dev nD) :
    (Pipeline.ΦA spec13 c : sProp 𝕄)
      = iprop(iprop(iprop((∃ d, owns (c : Thread nD τ) scM13_0 fullShare d)) ∗ Pipeline.scopedRestBut spec13 c [cc13_scratch0]) ∗ (∃ r, prngReg c r)) := by
  unfold Pipeline.ΦA; rw [scopedRest13_split]; simp only [scM13_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun13 (c : Dev nD) (i : grid13.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond13_0 i) (hc1 : cond13_1 i)
    (x0 : Vec F S1024x128 .f32) (x1 : Vec F S1024x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc13__matmulT_kernel i arg3 harg3 arg4 harg4 arg5 harg5 arg6 harg6) K } := by
  refine ⟨?_, ?_, fun E K => ?run⟩
  case run =>
    simp only [cc13__matmulT_kernel_eq_skeleton]; unfold cc13__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover13_2 (c : Dev nD) (i : grid13.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond13_0 i) (hc1 : cond13_1 i)
    (x0 : Vec F S1024x128 .f32) (x1 : Vec F S1024x128 .f32) (y : S128x128.Idx) :
    ∃ pc ∈ (kernelRun13 c i arg3 harg3 arg4 harg4 arg5 harg5 arg6 harg6 hc0 hc1 x0 x1).1, y ∈ pc.1.set :=
  View.cover_of_tiledL (kernelRun13 c i arg3 harg3 arg4 harg4 arg5 harg5 arg6 harg6 hc0 hc1 x0 x1).1 S128x128.size (by sl_kernel_rfl) y

/-- What the body leaves in the output's staging buffer. -/
def out13_2 (c : Dev nD) (i : grid13.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond13_0 i) (hc1 : cond13_1 i)
    (x0 : Vec F S1024x128 .f32) (x1 : Vec F S1024x128 .f32) : Vec F S128x128 .f32 :=
  VO13_2.read (Elt F) (VO13_2.writes (Elt F) VO13_2.junk (kernelRun13 c i arg3 harg3 arg4 harg4 arg5 harg5 arg6 harg6 hc0 hc1 x0 x1).1)

/-- The output's staging buffer after the body at point t. -/
def outAt13 (c : Dev nD) (t : Fin cfg13.N) : Vec F S128x128 .f32 :=
  out13_2 c (grid13.coords t) (ms13_0 t) (hs13_0 t) (ms13_1 t) (hs13_1 t) (ms13_2 t) (hs13_2 t) scM13_0 (Memref.isWhole_whole _) (hcond13_0 t) (hcond13_1 t) (iblk13 V c 0 t) (iblk13 V c 1 t)

/-! ## The pipeline's proof data -/

/-- The proof data of the region on core c: the arrays as the region finds them; after the body at point t each
    input's buffer at its block and the output's at what the one case leaves; the invariant the scoped rest and the
    generator register, untouched between points; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => outAt13 V c t
  Φ _ := Pipeline.ΦA spec13 c
  q := fun w => match w with | ⟨0, _⟩ => fullShare.left | ⟨1, _⟩ => fullShare.right | ⟨2, _⟩ => fullShare
  owed _ := 0

/-- The proof data's arrays are the region-entry contents. -/
theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = outAt13 V c t := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the launch hands the region is the invariant before the first point, -/
theorem Phi_first13 (c : Dev nD) : (dat13 V c).Φ 0 = Pipeline.ΦA spec13 c := rfl

/-- and the invariant after the last point gives it back. -/
theorem Phi_last13 (c : Dev nD) : (dat13 V c).Φ (Fin.last cfg13.N) ⊢ Pipeline.ΦA spec13 c :=
  Idealize.SL.BI.Entails.refl _

/-! ## The body obligation, at a generic point -/

/-- What the body is called with at point t, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4800000 in
/-- The body at any point: the inputs' memrefs hold their blocks; the invariant hands the body the accumulator at
    anything and takes it back at anything; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = Pipeline.ΦA spec13 c from rfl, show (dat13 V c).Φ t.castSucc = Pipeline.ΦA spec13 c from rfl, PhiA13_eq]
  rw [show (dat13 V c).leavesExact 0 t = owns (c : Thread nD τ) (ms13_0 t) fullShare ((dat13 V c).after 0 t) from by
      unfold Dat.leavesExact; rw [liveAt13_0 t], after13_0]
  rw [show (dat13 V c).leavesExact 1 t = owns (c : Thread nD τ) (ms13_1 t) fullShare ((dat13 V c).after 1 t) from by
      unfold Dat.leavesExact; rw [liveAt13_1 t], after13_1]
  rw [show (dat13 V c).leavesExact 2 t = owns (c : Thread nD τ) (ms13_2 t) fullShare ((dat13 V c).after 2 t) from by
      unfold Dat.leavesExact; rw [liveAt13_2 t], after13_2]
  unfold outAt13 out13_2; (try dsimp only)
  iintro ⟨⟨⟨HS0, Hr⟩, Hg⟩, Ho, ⟨%d0, H0⟩, ⟨%d1, H1⟩, ⟨%d2, H2⟩⟩
  iapply ((kernelRun13 c (grid13.coords t) _ _ _ _ _ _ _ _ (hcond13_0 t) (hcond13_1 t) (iblk13 V c 0 t) (iblk13 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover13_2 c _ _ _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.R14.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 14 of @main, at the entry contents V: a 128 × 512 block times a 512 × 512 factor at f32, one grid point, the bias row added

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The left factor's row block is in its buffer at every point: it is fetched at every point. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The right factor is in its buffer at every point: fetched at the first, its block index never moves. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The bias row likewise. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's branch conditions -/

/-- "This is the first block of the contraction axis" (the accumulator is zeroed), from the grid coordinates. -/
abbrev cond14_0 (i : grid14.Coords) : Prop := (Scalar.cmpi .ne (Scalar.extui (Scalar.cmpi .eq (BitVec.ofNat 32 (i 1).val) 0#32)) 0#32) = 1#1
/-- The contraction axis has one block: it holds at every point. -/
theorem hcond14_0 : ∀ t : Fin cfg14.N, cond14_0 (grid14.coords t) :=
  (by decide +kernel : ∀ t : Fin grid14.N, cond14_0 (grid14.coords t))

/-- "This is the last block of the contraction axis" (the output block is stored). -/
abbrev cond14_1 (i : grid14.Coords) : Prop := k14_cond2 i = 1#1
/-- It too holds at every point. -/
theorem hcond14_1 : ∀ t : Fin cfg14.N, cond14_1 (grid14.coords t) :=
  (by decide +kernel : ∀ t : Fin grid14.N, cond14_1 (grid14.coords t))

/-- The output block is stored at every point: no point is idle for it. -/
theorem liveAt14_3 : ∀ t : Fin cfg14.N, cfg14.idle 3 (grid14.coords t) = false := by decide +kernel

/-! ## The memrefs the body is called with -/

abbrev ms14_0 (t : Fin cfg14.N) : Memref sig .tc .vmem S128x512 .f32 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S512x512 .f32 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1x512 .f32 := win14_2.stage (cfg14.slots t 2)
abbrev hs14_2 (t : Fin cfg14.N) : (ms14_2 t).IsWhole := hstage14_2 ((cfg14.slots t 2).cast nbuf14_2)
abbrev ms14_3 (t : Fin cfg14.N) : Memref sig .tc .vmem S128x512 .f32 := win14_3.stage (cfg14.slots t 3)
abbrev hs14_3 (t : Fin cfg14.N) : (ms14_3 t).IsWhole := hstage14_3 ((cfg14.slots t 3).cast nbuf14_3)
/-- The accumulator: a whole scoped buffer of the kernel's own, passed beside the windows. -/
abbrev scM14_0 : Memref sig .tc .vmem S128x512 .f32 := Memref.whole cc14_scratch0
/-- One buffer of the output window, through which its contents are stated (the choice does not matter). -/
abbrev VO14_3 : View sig .tc .vmem S128x512 .f32 := (Memref.whole cc14_stg3_0 : Memref sig .tc .vmem S128x512 .f32).view

/-- The region invariant with the accumulator set apart, owned at some contents. -/
theorem PhiA14_eq (c : Dev nD) :
    (Pipeline.ΦA spec14 c : sProp 𝕄)
      = iprop(iprop(iprop((∃ d, owns (c : Thread nD τ) scM14_0 fullShare d))
            ∗ Pipeline.scopedRestBut (Ix := Unit) (Name := ℕ) (U := UR sig nD τ) (Lvl := ℕ) (Val := Elt F) spec14 c [cc14_scratch0])
          ∗ (∃ r, prngReg c r)) := by
  unfold Pipeline.ΦA; rw [scopedRest14_split]; simp only [scM14_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun14 (c : Dev nD) (i : grid14.Coords)
    (arg2 : Memref sig .tc .vmem S128x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond14_0 i) (hc1 : cond14_1 i)
    (x0 : Vec F S128x512 .f32) (x1 : Vec F S512x512 .f32) (x2 : Vec F S1x512 .f32) :
    { L3 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc14__matmul_kernel i arg2 harg2 arg3 harg3 arg4 harg4 arg5 harg5 arg6 harg6) K } := by
  refine ⟨?_, fun E K => ?run⟩
  case run =>
    simp only [cc14__matmul_kernel_eq_skeleton]; unfold cc14__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover14_3 (c : Dev nD) (i : grid14.Coords)
    (arg2 : Memref sig .tc .vmem S128x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond14_0 i) (hc1 : cond14_1 i)
    (x0 : Vec F S128x512 .f32) (x1 : Vec F S512x512 .f32) (x2 : Vec F S1x512 .f32) (y : S128x512.Idx) :
    ∃ pc ∈ (kernelRun14 c i arg2 harg2 arg3 harg3 arg4 harg4 arg5 harg5 arg6 harg6 hc0 hc1 x0 x1 x2).1, y ∈ pc.1.set :=
  View.cover_of_tiledL (kernelRun14 c i arg2 harg2 arg3 harg3 arg4 harg4 arg5 harg5 arg6 harg6 hc0 hc1 x0 x1 x2).1 S128x512.size (by sl_kernel_rfl) y

/-- What the body leaves in the output buffer: its pieces read back. -/
def out14_3 (c : Dev nD) (i : grid14.Coords)
    (arg2 : Memref sig .tc .vmem S128x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond14_0 i) (hc1 : cond14_1 i)
    (x0 : Vec F S128x512 .f32) (x1 : Vec F S512x512 .f32) (x2 : Vec F S1x512 .f32) : Vec F S128x512 .f32 :=
  VO14_3.read (Elt F) (VO14_3.writes (Elt F) VO14_3.junk (kernelRun14 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 c (grid14.coords t) (ms14_0 t) (hs14_0 t) (ms14_1 t) (hs14_1 t) (ms14_2 t) (hs14_2 t) (ms14_3 t) (hs14_3 t) scM14_0 (Memref.isWhole_whole _)
        (hcond14_0 t) (hcond14_1 t) (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem Phi_first14 (c : Dev nD) : (dat14 V c).Φ 0 = Pipeline.ΦA spec14 c := by
  dsimp only [dat14]

theorem Phi_last14 (c : Dev nD) : (dat14 V c).Φ (Fin.last cfg14.N) ⊢ Pipeline.ΦA spec14 c := by
  rw [show (dat14 V c).Φ (Fin.last cfg14.N) = Pipeline.ΦA spec14 c from by dsimp only [dat14]]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t
    = out14_3 c (grid14.coords t) (ms14_0 t) (hs14_0 t) (ms14_1 t) (hs14_1 t) (ms14_2 t) (hs14_2 t) (ms14_3 t) (hs14_3 t) scM14_0 (Memref.isWhole_whole _)
        (hcond14_0 t) (hcond14_1 t) (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point t, the windows one by one, -/
def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d))
    ∗ (∃ d, owns (c : Thread nD τ) (ms14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t
    ∗ (dat14 V c).leavesExact 3 t)

set_option maxHeartbeats 4800000 in
/-- The body at any point: the inputs' memrefs hold their blocks, both conditions hold, so the run applies; the
    invariant lends the accumulator at some contents and takes it back at some contents; the core owes nothing. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).owesAt () t.succ = (dat14 V c).owesAt () t.castSucc from rfl]
  rw [show (dat14 V c).Φ t.succ = Pipeline.ΦA spec14 c from by dsimp only [dat14],
    show (dat14 V c).Φ t.castSucc = Pipeline.ΦA spec14 c from by dsimp only [dat14], PhiA14_eq]
  rw [show (dat14 V c).leavesExact 0 t = owns (c : Thread nD τ) (ms14_0 t) fullShare ((dat14 V c).after 0 t) from rfl, after14_0]
  rw [show (dat14 V c).leavesExact 1 t = owns (c : Thread nD τ) (ms14_1 t) fullShare ((dat14 V c).after 1 t) from rfl, after14_1]
  rw [show (dat14 V c).leavesExact 2 t = owns (c : Thread nD τ) (ms14_2 t) fullShare ((dat14 V c).after 2 t) from rfl, after14_2]
  rw [show (dat14 V c).leavesExact 3 t = owns (c : Thread nD τ) (ms14_3 t) fullShare ((dat14 V c).after 3 t) from by
      unfold Dat.leavesExact; rw [liveAt14_3 t], after14_3]
  unfold out14_3; (try dsimp only)
  iintro ⟨⟨⟨HS, HR⟩, Hg⟩, Ho, ⟨%d0, H0⟩, ⟨%d1, H1⟩, ⟨%d2, H2⟩, ⟨%d3, H3⟩⟩
  iapply ((kernelRun14 c (grid14.coords t) _ _ _ _ _ _ _ _ _ _ (hcond14_0 t) (hcond14_1 t) (iblk14 V c 0 t) (iblk14 V c 1 t) (iblk14 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover14_3 c _ _ _ _ _ _ _ _ _ _ _ _ _ _ _ _)

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.R15.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 15 of @main, at the entry contents V: a 128 × 128 block times a 128 × 512 factor at f32, one grid point, the bias row added and the sum clamped below at zero

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The left factor's row block is in its buffer at every point: it is fetched at every point. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The right factor is in its buffer at every point: fetched at the first, its block index never moves. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- The bias row likewise. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's branch conditions -/

/-- "This is the first block of the contraction axis" (the accumulator is zeroed), from the grid coordinates. -/
abbrev cond15_0 (i : grid15.Coords) : Prop := (Scalar.cmpi .ne (Scalar.extui (Scalar.cmpi .eq (BitVec.ofNat 32 (i 1).val) 0#32)) 0#32) = 1#1
/-- The contraction axis has one block: it holds at every point. -/
theorem hcond15_0 : ∀ t : Fin cfg15.N, cond15_0 (grid15.coords t) :=
  (by decide +kernel : ∀ t : Fin grid15.N, cond15_0 (grid15.coords t))

/-- "This is the last block of the contraction axis" (the output block is stored). -/
abbrev cond15_1 (i : grid15.Coords) : Prop := k15_cond2 i = 1#1
/-- It too holds at every point. -/
theorem hcond15_1 : ∀ t : Fin cfg15.N, cond15_1 (grid15.coords t) :=
  (by decide +kernel : ∀ t : Fin grid15.N, cond15_1 (grid15.coords t))

/-- The output block is stored at every point: no point is idle for it. -/
theorem liveAt15_3 : ∀ t : Fin cfg15.N, cfg15.idle 3 (grid15.coords t) = false := by decide +kernel

/-! ## The memrefs the body is called with -/

abbrev ms15_0 (t : Fin cfg15.N) : Memref sig .tc .vmem S128x128 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S128x512 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1x512 .f32 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S128x512 .f32 := win15_3.stage (cfg15.slots t 3)
abbrev hs15_3 (t : Fin cfg15.N) : (ms15_3 t).IsWhole := hstage15_3 ((cfg15.slots t 3).cast nbuf15_3)
/-- The accumulator: a whole scoped buffer of the kernel's own, passed beside the windows. -/
abbrev scM15_0 : Memref sig .tc .vmem S128x512 .f32 := Memref.whole cc15_scratch0
/-- One buffer of the output window, through which its contents are stated (the choice does not matter). -/
abbrev VO15_3 : View sig .tc .vmem S128x512 .f32 := (Memref.whole cc15_stg3_0 : Memref sig .tc .vmem S128x512 .f32).view

/-- The region invariant with the accumulator set apart, owned at some contents. -/
theorem PhiA15_eq (c : Dev nD) :
    (Pipeline.ΦA spec15 c : sProp 𝕄)
      = iprop(iprop(iprop((∃ d, owns (c : Thread nD τ) scM15_0 fullShare d))
            ∗ Pipeline.scopedRestBut (Ix := Unit) (Name := ℕ) (U := UR sig nD τ) (Lvl := ℕ) (Val := Elt F) spec15 c [cc15_scratch0])
          ∗ (∃ r, prngReg c r)) := by
  unfold Pipeline.ΦA; rw [scopedRest15_split]; simp only [scM15_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun15 (c : Dev nD) (i : grid15.Coords)
    (arg2 : Memref sig .tc .vmem S128x128 .f32) (harg2 : arg2.IsWhole) (arg3 : Memref sig .tc .vmem S128x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond15_0 i) (hc1 : cond15_1 i)
    (x0 : Vec F S128x128 .f32) (x1 : Vec F S128x512 .f32) (x2 : Vec F S1x512 .f32) :
    { L3 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc15__matmul_kernel i arg2 harg2 arg3 harg3 arg4 harg4 arg5 harg5 arg6 harg6) K } := by
  refine ⟨?_, fun E K => ?run⟩
  case run =>
    simp only [cc15__matmul_kernel_eq_skeleton]; unfold cc15__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover15_3 (c : Dev nD) (i : grid15.Coords)
    (arg2 : Memref sig .tc .vmem S128x128 .f32) (harg2 : arg2.IsWhole) (arg3 : Memref sig .tc .vmem S128x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond15_0 i) (hc1 : cond15_1 i)
    (x0 : Vec F S128x128 .f32) (x1 : Vec F S128x512 .f32) (x2 : Vec F S1x512 .f32) (y : S128x512.Idx) :
    ∃ pc ∈ (kernelRun15 c i arg2 harg2 arg3 harg3 arg4 harg4 arg5 harg5 arg6 harg6 hc0 hc1 x0 x1 x2).1, y ∈ pc.1.set :=
  View.cover_of_tiledL (kernelRun15 c i arg2 harg2 arg3 harg3 arg4 harg4 arg5 harg5 arg6 harg6 hc0 hc1 x0 x1 x2).1 S128x512.size (by sl_kernel_rfl) y

/-- What the body leaves in the output buffer: its pieces read back. -/
def out15_3 (c : Dev nD) (i : grid15.Coords)
    (arg2 : Memref sig .tc .vmem S128x128 .f32) (harg2 : arg2.IsWhole) (arg3 : Memref sig .tc .vmem S128x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond15_0 i) (hc1 : cond15_1 i)
    (x0 : Vec F S128x128 .f32) (x1 : Vec F S128x512 .f32) (x2 : Vec F S1x512 .f32) : Vec F S128x512 .f32 :=
  VO15_3.read (Elt F) (VO15_3.writes (Elt F) VO15_3.junk (kernelRun15 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 c (grid15.coords t) (ms15_0 t) (hs15_0 t) (ms15_1 t) (hs15_1 t) (ms15_2 t) (hs15_2 t) (ms15_3 t) (hs15_3 t) scM15_0 (Memref.isWhole_whole _)
        (hcond15_0 t) (hcond15_1 t) (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem Phi_first15 (c : Dev nD) : (dat15 V c).Φ 0 = Pipeline.ΦA spec15 c := by
  dsimp only [dat15]

theorem Phi_last15 (c : Dev nD) : (dat15 V c).Φ (Fin.last cfg15.N) ⊢ Pipeline.ΦA spec15 c := by
  rw [show (dat15 V c).Φ (Fin.last cfg15.N) = Pipeline.ΦA spec15 c from by dsimp only [dat15]]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t
    = out15_3 c (grid15.coords t) (ms15_0 t) (hs15_0 t) (ms15_1 t) (hs15_1 t) (ms15_2 t) (hs15_2 t) (ms15_3 t) (hs15_3 t) scM15_0 (Memref.isWhole_whole _)
        (hcond15_0 t) (hcond15_1 t) (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t
    ∗ (dat15 V c).leavesExact 3 t)

set_option maxHeartbeats 4800000 in
/-- The body at any point: the inputs' memrefs hold their blocks, both conditions hold, so the run applies; the
    invariant lends the accumulator at some contents and takes it back at some contents; the core owes nothing. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).owesAt () t.succ = (dat15 V c).owesAt () t.castSucc from rfl]
  rw [show (dat15 V c).Φ t.succ = Pipeline.ΦA spec15 c from by dsimp only [dat15],
    show (dat15 V c).Φ t.castSucc = Pipeline.ΦA spec15 c from by dsimp only [dat15], PhiA15_eq]
  rw [show (dat15 V c).leavesExact 0 t = owns (c : Thread nD τ) (ms15_0 t) fullShare ((dat15 V c).after 0 t) from rfl, after15_0]
  rw [show (dat15 V c).leavesExact 1 t = owns (c : Thread nD τ) (ms15_1 t) fullShare ((dat15 V c).after 1 t) from rfl, after15_1]
  rw [show (dat15 V c).leavesExact 2 t = owns (c : Thread nD τ) (ms15_2 t) fullShare ((dat15 V c).after 2 t) from rfl, after15_2]
  rw [show (dat15 V c).leavesExact 3 t = owns (c : Thread nD τ) (ms15_3 t) fullShare ((dat15 V c).after 3 t) from by
      unfold Dat.leavesExact; rw [liveAt15_3 t], after15_3]
  unfold out15_3; (try dsimp only)
  iintro ⟨⟨⟨HS, HR⟩, Hg⟩, Ho, ⟨%d0, H0⟩, ⟨%d1, H1⟩, ⟨%d2, H2⟩, ⟨%d3, H3⟩⟩
  iapply ((kernelRun15 c (grid15.coords t) _ _ _ _ _ _ _ _ _ _ (hcond15_0 t) (hcond15_1 t) (iblk15 V c 0 t) (iblk15 V c 1 t) (iblk15 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover15_3 c _ _ _ _ _ _ _ _ _ _ _ _ _ _ _ _)

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Hand

end
-- ==== Proof.KI.R16.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 16 of @main (the projection with a row softmax), at the contents `V` the region is entered with

The per-region half of the frame certificate: the windows' blocks read off the arrays as the region finds them, the
body's triple (one control case: the grid's second axis has one point, so the accumulator is zeroed, updated and
read out at every point), the proof data, and the body obligation. The accumulator is rewritten whole before it is
read at every point, so the invariant carries no contents for it. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for any proof
    data whose array is `V`'s and whose body leaves the block in place: unfetched, the block index has not moved;
    the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's current staging buffer holds its block at every point, fetched there or not, for any proof
    data whose array is `V`'s and whose body leaves the block in place: unfetched, the block index has not moved;
    the window is uncut and never idle. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's current staging buffer holds its block at every point, fetched there or not, for any proof
    data whose array is `V`'s and whose body leaves the block in place: unfetched, the block index has not moved;
    the window is uncut and never idle. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-! ## The body's branch conditions: both hold at every point -/

/-- The condition of the body's first conditional (the accumulator's reset), from the grid coordinates. -/
abbrev cond16_0 (i : grid16.Coords) : Prop := (Scalar.cmpi .ne (Scalar.extui (Scalar.cmpi .eq (BitVec.ofNat 32 (i 1).val) 0#32)) 0#32) = 1#1
/-- It holds at every point: the second axis has the one coordinate 0. -/
theorem hcond16_0 : ∀ t : Fin cfg16.N, cond16_0 (grid16.coords t) :=
  (by decide +kernel : ∀ t : Fin grid16.N, cond16_0 (grid16.coords t))

/-- The condition of the body's second conditional (the read-out), from the grid coordinates. -/
abbrev cond16_1 (i : grid16.Coords) : Prop := k16_cond2 i = 1#1
/-- It holds at every point, for the same reason. -/
theorem hcond16_1 : ∀ t : Fin cfg16.N, cond16_1 (grid16.coords t) :=
  (by decide +kernel : ∀ t : Fin grid16.N, cond16_1 (grid16.coords t))

/-! ## No window is idle at any point -/

theorem liveAt16_0 : ∀ t : Fin cfg16.N, cfg16.idle 0 (grid16.coords t) = false := by decide +kernel
theorem liveAt16_1 : ∀ t : Fin cfg16.N, cfg16.idle 1 (grid16.coords t) = false := by decide +kernel
theorem liveAt16_2 : ∀ t : Fin cfg16.N, cfg16.idle 2 (grid16.coords t) = false := by decide +kernel
theorem liveAt16_3 : ∀ t : Fin cfg16.N, cfg16.idle 3 (grid16.coords t) = false := by decide +kernel
theorem liveAt16_4 : ∀ t : Fin cfg16.N, cfg16.idle 4 (grid16.coords t) = false := by decide +kernel

/-! ## The memrefs the body is called with -/

/-- One staging buffer of each output window, through which its contents are stated (the choice does not matter:
    a covering list of writes reads the same through any view). -/
abbrev VO16_3 : View sig .tc .vmem S128x1 .f32 := (Memref.whole cc16_stg3_0 : Memref sig .tc .vmem S128x1 .f32).view
abbrev VO16_4 : View sig .tc .vmem S128x1 .f32 := (Memref.whole cc16_stg4_0 : Memref sig .tc .vmem S128x1 .f32).view
/-- Each window's current staging memref at point `t`, spelled as the pipeline passes it, and its wholeness. -/
abbrev ms16_0 (t : Fin cfg16.N) : Memref sig .tc .vmem S128x512 .f32 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S512x1 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x1 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S128x1 .f32 := win16_3.stage (cfg16.slots t 3)
abbrev hs16_3 (t : Fin cfg16.N) : (ms16_3 t).IsWhole := hstage16_3 ((cfg16.slots t 3).cast nbuf16_3)
abbrev ms16_4 (t : Fin cfg16.N) : Memref sig .tc .vmem S128x1 .f32 := win16_4.stage (cfg16.slots t 4)
abbrev hs16_4 (t : Fin cfg16.N) : (ms16_4 t).IsWhole := hstage16_4 ((cfg16.slots t 4).cast nbuf16_4)
/-- The accumulator: a whole scoped buffer of the kernel's own, passed beside the windows. -/
abbrev scM16_0 : Memref sig .tc .vmem S128x1 .f32 := Memref.whole cc16_scratch0

/-- The class's invariant with the accumulator as a memref owned at some contents, the other scoped buffers
    unopened, and the generator register at some state: what the body obligation hands the run and takes back. -/
theorem PhiA16_eq (c : Dev nD) :
    (Pipeline.ΦA spec16 c : sProp 𝕄)
      = iprop(iprop(iprop((∃ d, owns (c : Thread nD τ) scM16_0 fullShare d))
          ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16_0, owns_whole]; try rfl

/-! ## The body's triple -/

set_option maxHeartbeats 4000000 in
/-- What the body's stores leave in each output's staging memref and in the accumulator, as pieces (last first), with
    the proof that on whole memrefs — the inputs' at their contents, the outputs' and the accumulator at anything — the
    body runs to the continuation holding the inputs' as they were and each of the other three with its pieces
    written. Both conditionals are decided by the hypotheses; the pieces are the witness the run finds. -/
noncomputable def kernelRun16 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) :
    Σ' (L3 : List (View.Piece (Elt F) S128x1 .f32)) (L4 : List (View.Piece (Elt F) S128x1 .f32)), { LS0 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc16__proj_softmax_kernel i arg2 harg2 arg3 harg3 arg4 harg4 arg5 harg5 arg6 harg6 arg7 harg7) K } := by
  refine ⟨?_, ?_, ?_, fun E K => ?run⟩
  case run =>
    simp only [cc16__proj_softmax_kernel_eq_skeleton]; unfold cc16__proj_softmax_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- The pieces for output window 3 tile its block (one store of the whole block), so they cover it. -/
theorem cover16_3 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) (y : S128x1.Idx) :
    ∃ pc ∈ (kernelRun16 c i arg2 harg2 arg3 harg3 arg4 harg4 arg5 harg5 arg6 harg6 arg7 harg7 hc0 hc1 x0 x1 x2).1, y ∈ pc.1.set :=
  View.cover_of_tiledL (kernelRun16 c i arg2 harg2 arg3 harg3 arg4 harg4 arg5 harg5 arg6 harg6 arg7 harg7 hc0 hc1 x0 x1 x2).1 S128x1.size (by sl_kernel_rfl) y

/-- What the body leaves in output window 3's staging buffer: its pieces read back over junk. -/
def out16_3 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) : Vec F S128x1 .f32 :=
  VO16_3.read (Elt F) (VO16_3.writes (Elt F) VO16_3.junk (kernelRun16 c i arg2 harg2 arg3 harg3 arg4 harg4 arg5 harg5 arg6 harg6 arg7 harg7 hc0 hc1 x0 x1 x2).1)

/-- The pieces for output window 4 tile its block (one store of the whole block), so they cover it. -/
theorem cover16_4 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) (y : S128x1.Idx) :
    ∃ pc ∈ (kernelRun16 c i arg2 harg2 arg3 harg3 arg4 harg4 arg5 harg5 arg6 harg6 arg7 harg7 hc0 hc1 x0 x1 x2).2.1, y ∈ pc.1.set :=
  View.cover_of_tiledL (kernelRun16 c i arg2 harg2 arg3 harg3 arg4 harg4 arg5 harg5 arg6 harg6 arg7 harg7 hc0 hc1 x0 x1 x2).2.1 S128x1.size (by sl_kernel_rfl) y

/-- What the body leaves in output window 4's staging buffer: its pieces read back over junk. -/
def out16_4 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) : Vec F S128x1 .f32 :=
  VO16_4.read (Elt F) (VO16_4.writes (Elt F) VO16_4.junk (kernelRun16 c i arg2 harg2 arg3 harg3 arg4 harg4 arg5 harg5 arg6 harg6 arg7 harg7 hc0 hc1 x0 x1 x2).2.1)

/-! ## The pipeline's proof data -/

/-- The proof data of pipeline 16 on core `c`: the arrays as the region finds them (`V`); after the body at point
    `t` each input's buffer at its block and each output's at what the run leaves from the input blocks; the
    invariant the class's (the scoped rest and the generator register, at anything); nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 c (grid16.coords t) (ms16_0 t) (hs16_0 t) (ms16_1 t) (hs16_1 t) (ms16_2 t) (hs16_2 t) (ms16_3 t) (hs16_3 t) (ms16_4 t) (hs16_4 t) scM16_0 (Memref.isWhole_whole _) (hcond16_0 t) (hcond16_1 t) (iblk16 V c 0 t) (iblk16 V c 1 t) (iblk16 V c 2 t)
    | ⟨4, _⟩ => out16_4 c (grid16.coords t) (ms16_0 t) (hs16_0 t) (ms16_1 t) (hs16_1 t) (ms16_2 t) (hs16_2 t) (ms16_3 t) (hs16_3 t) (ms16_4 t) (hs16_4 t) scM16_0 (Memref.isWhole_whole _) (hcond16_0 t) (hcond16_1 t) (iblk16 V c 0 t) (iblk16 V c 1 t) (iblk16 V c 2 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- The invariant before the first point is the class's, -/
theorem Phi_first16 (c : Dev nD) : (dat16 V c).Φ 0 = Pipeline.ΦA spec16 c := by
  dsimp only [dat16]

/-- and after the last point it gives the class's back. -/
theorem Phi_last16 (c : Dev nD) : (dat16 V c).Φ (Fin.last cfg16.N) ⊢ Pipeline.ΦA spec16 c := by
  dsimp only [dat16]; exact Idealize.SL.BI.Entails.refl _

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = out16_3 c (grid16.coords t) (ms16_0 t) (hs16_0 t) (ms16_1 t) (hs16_1 t) (ms16_2 t) (hs16_2 t) (ms16_3 t) (hs16_3 t) (ms16_4 t) (hs16_4 t) scM16_0 (Memref.isWhole_whole _) (hcond16_0 t) (hcond16_1 t) (iblk16 V c 0 t) (iblk16 V c 1 t) (iblk16 V c 2 t) := by dsimp only [dat16]
theorem after16_4 (c : Dev nD) (t : Fin cfg16.N) : (dat16 V c).after 4 t = out16_4 c (grid16.coords t) (ms16_0 t) (hs16_0 t) (ms16_1 t) (hs16_1 t) (ms16_2 t) (hs16_2 t) (ms16_3 t) (hs16_3 t) (ms16_4 t) (hs16_4 t) scM16_0 (Memref.isWhole_whole _) (hcond16_0 t) (hcond16_1 t) (iblk16 V c 0 t) (iblk16 V c 1 t) (iblk16 V c 2 t) := by dsimp only [dat16]

/-- Each input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-! ## The body obligation, at a generic point -/

/-- What the body is called with at point `t` (the obligation's precondition, the windows one by one), -/
def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d))
    ∗ (∃ d, owns (c : Thread nD τ) (ms16_4 t) fullShare ((dat16 V c).before 4 t d)))

/-- and what it returns. -/
def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t
    ∗ (dat16 V c).leavesExact 3 t
    ∗ (dat16 V c).leavesExact 4 t)

set_option maxHeartbeats 4000000 in
/-- The body at any point: the inputs' memrefs hold their blocks; the invariant hands the body the accumulator at some
    contents (the other scoped buffers and the generator register pass through unread) and takes it back at some
    contents; each output's buffer ends at its pieces written, which cover it; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).owesAt () t.succ = (dat16 V c).owesAt () t.castSucc from rfl]
  rw [show (dat16 V c).Φ t.succ = Pipeline.ΦA spec16 c from rfl, show (dat16 V c).Φ t.castSucc = Pipeline.ΦA spec16 c from rfl, PhiA16_eq]
  rw [show (dat16 V c).leavesExact 0 t = owns (c : Thread nD τ) (ms16_0 t) fullShare ((dat16 V c).after 0 t) from by
      unfold Dat.leavesExact; rw [liveAt16_0 t], after16_0]
  rw [show (dat16 V c).leavesExact 1 t = owns (c : Thread nD τ) (ms16_1 t) fullShare ((dat16 V c).after 1 t) from by
      unfold Dat.leavesExact; rw [liveAt16_1 t], after16_1]
  rw [show (dat16 V c).leavesExact 2 t = owns (c : Thread nD τ) (ms16_2 t) fullShare ((dat16 V c).after 2 t) from by
      unfold Dat.leavesExact; rw [liveAt16_2 t], after16_2]
  rw [show (dat16 V c).leavesExact 3 t = owns (c : Thread nD τ) (ms16_3 t) fullShare ((dat16 V c).after 3 t) from by
      unfold Dat.leavesExact; rw [liveAt16_3 t], after16_3]
  rw [show (dat16 V c).leavesExact 4 t = owns (c : Thread nD τ) (ms16_4 t) fullShare ((dat16 V c).after 4 t) from by
      unfold Dat.leavesExact; rw [liveAt16_4 t], after16_4]
  unfold out16_3 out16_4; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((kernelRun16 c (grid16.coords t) _ _ _ _ _ _ _ _ _ _ _ _ (hcond16_0 t) (hcond16_1 t) (iblk16 V c 0 t) (iblk16 V c 1 t) (iblk16 V c 2 t)).2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover16_3 c _ _ _ _ _ _ _ _ _ _ _ _ _ _ _ _ _ _)
  unfold owns; iexists _; isplitr
  swap; · iexact H4
  ipureintro; exact View.read_writes_of_cover _ _ _ _ _ (cover16_4 c _ _ _ _ _ _ _ _ _ _ _ _ _ _ _ _ _ _)

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Hand

end
-- ==== Proof.KI.R17.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

/-! # Region 17 of @main, at the entry contents V: a 128 × 128 block times a 128 × 1 factor at f32, one grid point, the bias row added

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The left factor's row block is in its buffer at every point: it is fetched at every point. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The right factor is in its buffer at every point: fetched at the first, its block index never moves. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The bias row likewise. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The body's branch conditions -/

/-- "This is the first block of the contraction axis" (the accumulator is zeroed), from the grid coordinates. -/
abbrev cond17_0 (i : grid17.Coords) : Prop := (Scalar.cmpi .ne (Scalar.extui (Scalar.cmpi .eq (BitVec.ofNat 32 (i 1).val) 0#32)) 0#32) = 1#1
/-- The contraction axis has one block: it holds at every point. -/
theorem hcond17_0 : ∀ t : Fin cfg17.N, cond17_0 (grid17.coords t) :=
  (by decide +kernel : ∀ t : Fin grid17.N, cond17_0 (grid17.coords t))

/-- "This is the last block of the contraction axis" (the output block is stored). -/
abbrev cond17_1 (i : grid17.Coords) : Prop := k17_cond2 i = 1#1
/-- It too holds at every point. -/
theorem hcond17_1 : ∀ t : Fin cfg17.N, cond17_1 (grid17.coords t) :=
  (by decide +kernel : ∀ t : Fin grid17.N, cond17_1 (grid17.coords t))

/-- The output block is stored at every point: no point is idle for it. -/
theorem liveAt17_3 : ∀ t : Fin cfg17.N, cfg17.idle 3 (grid17.coords t) = false := by decide +kernel

/-! ## The memrefs the body is called with -/

abbrev ms17_0 (t : Fin cfg17.N) : Memref sig .tc .vmem S128x128 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S128x1 .f32 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S1x1 .f32 := win17_2.stage (cfg17.slots t 2)
abbrev hs17_2 (t : Fin cfg17.N) : (ms17_2 t).IsWhole := hstage17_2 ((cfg17.slots t 2).cast nbuf17_2)
abbrev ms17_3 (t : Fin cfg17.N) : Memref sig .tc .vmem S128x1 .f32 := win17_3.stage (cfg17.slots t 3)
abbrev hs17_3 (t : Fin cfg17.N) : (ms17_3 t).IsWhole := hstage17_3 ((cfg17.slots t 3).cast nbuf17_3)
/-- The accumulator: a whole scoped buffer of the kernel's own, passed beside the windows. -/
abbrev scM17_0 : Memref sig .tc .vmem S128x1 .f32 := Memref.whole cc17_scratch0
/-- One buffer of the output window, through which its contents are stated (the choice does not matter). -/
abbrev VO17_3 : View sig .tc .vmem S128x1 .f32 := (Memref.whole cc17_stg3_0 : Memref sig .tc .vmem S128x1 .f32).view

/-- The region invariant with the accumulator set apart, owned at some contents. -/
theorem PhiA17_eq (c : Dev nD) :
    (Pipeline.ΦA spec17 c : sProp 𝕄)
      = iprop(iprop(iprop((∃ d, owns (c : Thread nD τ) scM17_0 fullShare d))
            ∗ Pipeline.scopedRestBut (Ix := Unit) (Name := ℕ) (U := UR sig nD τ) (Lvl := ℕ) (Val := Elt F) spec17 c [cc17_scratch0])
          ∗ (∃ r, prngReg c r)) := by
  unfold Pipeline.ΦA; rw [scopedRest17_split]; simp only [scM17_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun17 (c : Dev nD) (i : grid17.Coords)
    (arg2 : Memref sig .tc .vmem S128x128 .f32) (harg2 : arg2.IsWhole) (arg3 : Memref sig .tc .vmem S128x1 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole) (hc0 : cond17_0 i) (hc1 : cond17_1 i)
    (x0 : Vec F S128x128 .f32) (x1 : Vec F S128x1 .f32) (x2 : Vec F S1x1 .f32) :
    { L3 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc17__matmul_kernel i arg2 harg2 arg3 harg3 arg4 harg4 arg5 harg5 arg6 harg6) K } := by
  refine ⟨?_, fun E K => ?run⟩
  case run =>
    simp only [cc17__matmul_kernel_eq_skeleton]; unfold cc17__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover17_3 (c : Dev nD) (i : grid17.Coords)
    (arg2 : Memref sig .tc .vmem S128x128 .f32) (harg2 : arg2.IsWhole) (arg3 : Memref sig .tc .vmem S128x1 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole) (hc0 : cond17_0 i) (hc1 : cond17_1 i)
    (x0 : Vec F S128x128 .f32) (x1 : Vec F S128x1 .f32) (x2 : Vec F S1x1 .f32) (y : S128x1.Idx) :
    ∃ pc ∈ (kernelRun17 c i arg2 harg2 arg3 harg3 arg4 harg4 arg5 harg5 arg6 harg6 hc0 hc1 x0 x1 x2).1, y ∈ pc.1.set :=
  View.cover_of_tiledL (kernelRun17 c i arg2 harg2 arg3 harg3 arg4 harg4 arg5 harg5 arg6 harg6 hc0 hc1 x0 x1 x2).1 S128x1.size (by sl_kernel_rfl) y

/-- What the body leaves in the output buffer: its pieces read back. -/
def out17_3 (c : Dev nD) (i : grid17.Coords)
    (arg2 : Memref sig .tc .vmem S128x128 .f32) (harg2 : arg2.IsWhole) (arg3 : Memref sig .tc .vmem S128x1 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole) (hc0 : cond17_0 i) (hc1 : cond17_1 i)
    (x0 : Vec F S128x128 .f32) (x1 : Vec F S128x1 .f32) (x2 : Vec F S1x1 .f32) : Vec F S128x1 .f32 :=
  VO17_3.read (Elt F) (VO17_3.writes (Elt F) VO17_3.junk (kernelRun17 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 c (grid17.coords t) (ms17_0 t) (hs17_0 t) (ms17_1 t) (hs17_1 t) (ms17_2 t) (hs17_2 t) (ms17_3 t) (hs17_3 t) scM17_0 (Memref.isWhole_whole _)
        (hcond17_0 t) (hcond17_1 t) (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem Phi_first17 (c : Dev nD) : (dat17 V c).Φ 0 = Pipeline.ΦA spec17 c := by
  dsimp only [dat17]

theorem Phi_last17 (c : Dev nD) : (dat17 V c).Φ (Fin.last cfg17.N) ⊢ Pipeline.ΦA spec17 c := by
  rw [show (dat17 V c).Φ (Fin.last cfg17.N) = Pipeline.ΦA spec17 c from by dsimp only [dat17]]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t
    = out17_3 c (grid17.coords t) (ms17_0 t) (hs17_0 t) (ms17_1 t) (hs17_1 t) (ms17_2 t) (hs17_2 t) (ms17_3 t) (hs17_3 t) scM17_0 (Memref.isWhole_whole _)
        (hcond17_0 t) (hcond17_1 t) (iblk17 V c 0 t) (iblk17 V c 1 t) (iblk17 V c 2 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation, at a generic point -/

/-- What the body is called with at point t, the windows one by one, -/
def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d))
    ∗ (∃ d, owns (c : Thread nD τ) (ms17_3 t) fullShare ((dat17 V c).before 3 t d)))

/-- and what it returns. -/
def bodyPost17 (c : Dev nD) (t : Fin cfg17.N) : sProp 𝕄 :=
  iprop((dat17 V c).Φ t.succ ∗ (dat17 V c).owesAt () t.succ
    ∗ (dat17 V c).leavesExact 0 t
    ∗ (dat17 V c).leavesExact 1 t
    ∗ (dat17 V c).leavesExact 2 t
    ∗ (dat17 V c).leavesExact 3 t)

set_option maxHeartbeats 4800000 in
/-- The body at any point: the inputs' memrefs hold their blocks, both conditions hold, so the run applies; the
    invariant lends the accumulator at some contents and takes it back at some contents; the core owes nothing. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).owesAt () t.succ = (dat17 V c).owesAt () t.castSucc from rfl]
  rw [show (dat17 V c).Φ t.succ = Pipeline.ΦA spec17 c from by dsimp only [dat17],
    show (dat17 V c).Φ t.castSucc = Pipeline.ΦA spec17 c from by dsimp only [dat17], PhiA17_eq]
  rw [show (dat17 V c).leavesExact 0 t = owns (c : Thread nD τ) (ms17_0 t) fullShare ((dat17 V c).after 0 t) from rfl, after17_0]
  rw [show (dat17 V c).leavesExact 1 t = owns (c : Thread nD τ) (ms17_1 t) fullShare ((dat17 V c).after 1 t) from rfl, after17_1]
  rw [show (dat17 V c).leavesExact 2 t = owns (c : Thread nD τ) (ms17_2 t) fullShare ((dat17 V c).after 2 t) from rfl, after17_2]
  rw [show (dat17 V c).leavesExact 3 t = owns (c : Thread nD τ) (ms17_3 t) fullShare ((dat17 V c).after 3 t) from by
      unfold Dat.leavesExact; rw [liveAt17_3 t], after17_3]
  unfold out17_3; (try dsimp only)
  iintro ⟨⟨⟨HS, HR⟩, Hg⟩, Ho, ⟨%d0, H0⟩, ⟨%d1, H1⟩, ⟨%d2, H2⟩, ⟨%d3, H3⟩⟩
  iapply ((kernelRun17 c (grid17.coords t) _ _ _ _ _ _ _ _ _ _ (hcond17_0 t) (hcond17_1 t) (iblk17 V c 0 t) (iblk17 V c 1 t) (iblk17 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover17_3 c _ _ _ _ _ _ _ _ _ _ _ _ _ _ _ _)

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.KernelIdeal.Hand

end
-- ==== Proof.KI.R18.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 18: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds its block at every point, fetched there or not, for any proof
    data whose array is the entry contents and whose body leaves the block in place. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-! ## The body's branch conditions: both hold at every point -/

/-- The first conditional's condition (k = 0), from the grid coordinates. -/
abbrev cond18_0 (i : grid18.Coords) : Prop := (Scalar.cmpi .ne (Scalar.extui (Scalar.cmpi .eq (BitVec.ofNat 32 (i 2).val) 0#32)) 0#32) = 1#1
theorem hcond18_0 : ∀ t : Fin cfg18.N, cond18_0 (grid18.coords t) :=
  (by decide +kernel : ∀ t : Fin grid18.N, cond18_0 (grid18.coords t))

/-- The second conditional's condition (k is the last block, which is block 0). -/
abbrev cond18_1 (i : grid18.Coords) : Prop := k18_cond2 i = 1#1
theorem hcond18_1 : ∀ t : Fin cfg18.N, cond18_1 (grid18.coords t) :=
  (by decide +kernel : ∀ t : Fin grid18.N, cond18_1 (grid18.coords t))

/-! ## No window is ever idle -/

theorem liveAt18_0 : ∀ t : Fin cfg18.N, cfg18.idle 0 (grid18.coords t) = false := by decide +kernel
theorem liveAt18_1 : ∀ t : Fin cfg18.N, cfg18.idle 1 (grid18.coords t) = false := by decide +kernel
theorem liveAt18_2 : ∀ t : Fin cfg18.N, cfg18.idle 2 (grid18.coords t) = false := by decide +kernel

/-! ## The staging memrefs and the accumulator -/

/-- One staging buffer of the output window, through which its contents are stated. -/
abbrev VO18_2 : View sig .tc .vmem S1x256 .f32 := (Memref.whole cc18_stg2_0 : Memref sig .tc .vmem S1x256 .f32).view
abbrev ms18_0 (t : Fin cfg18.N) : Memref sig .tc .vmem S128x1 .f32 := win18_0.stage (cfg18.slots t 0)
abbrev hs18_0 (t : Fin cfg18.N) : (ms18_0 t).IsWhole := hstage18_0 ((cfg18.slots t 0).cast nbuf18_0)
abbrev ms18_1 (t : Fin cfg18.N) : Memref sig .tc .vmem S128x256 .f32 := win18_1.stage (cfg18.slots t 1)
abbrev hs18_1 (t : Fin cfg18.N) : (ms18_1 t).IsWhole := hstage18_1 ((cfg18.slots t 1).cast nbuf18_1)
abbrev ms18_2 (t : Fin cfg18.N) : Memref sig .tc .vmem S1x256 .f32 := win18_2.stage (cfg18.slots t 2)
abbrev hs18_2 (t : Fin cfg18.N) : (ms18_2 t).IsWhole := hstage18_2 ((cfg18.slots t 2).cast nbuf18_2)
/-- The accumulator: a whole scoped buffer of the kernel's own. -/
abbrev scM18_0 : Memref sig .tc .vmem S1x256 .f32 := Memref.whole cc18_scratch0

/-- The region's invariant with the accumulator as a memref owned at some contents, the other scoped buffers
    unopened, and the generator register at some state. -/
theorem PhiA18_eq (c : Dev nD) :
    (Pipeline.ΦA spec18 c : sProp 𝕄)
      = iprop(iprop(iprop((∃ d, owns (c : Thread nD τ) scM18_0 fullShare d)) ∗ Pipeline.scopedRestBut spec18 c [cc18_scratch0]) ∗ (∃ r, prngReg c r)) := by
  unfold Pipeline.ΦA; rw [scopedRest18_split]; simp only [scM18_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun18 (c : Dev nD) (i : grid18.Coords) (arg3 : Memref sig .tc .vmem S128x1 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (hc0 : cond18_0 i) (hc1 : cond18_1 i)
    (x0 : Vec F S128x1 .f32) (x1 : Vec F S128x256 .f32) :
    Σ' (L2 : List (View.Piece (Elt F) S1x256 .f32)), { LS0 : List (View.Piece (Elt F) S1x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc18__matmulT_kernel i arg3 harg3 arg4 harg4 arg5 harg5 arg6 harg6) K } := by
  refine ⟨?_, ?_, fun E K => ?run⟩
  case run =>
    simp only [cc18__matmulT_kernel_eq_skeleton]; unfold cc18__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover18_2 (c : Dev nD) (i : grid18.Coords) (arg3 : Memref sig .tc .vmem S128x1 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (hc0 : cond18_0 i) (hc1 : cond18_1 i)
    (x0 : Vec F S128x1 .f32) (x1 : Vec F S128x256 .f32) (y : S1x256.Idx) :
    ∃ pc ∈ (kernelRun18 c i arg3 harg3 arg4 harg4 arg5 harg5 arg6 harg6 hc0 hc1 x0 x1).1, y ∈ pc.1.set :=
  View.cover_of_tiledL (kernelRun18 c i arg3 harg3 arg4 harg4 arg5 harg5 arg6 harg6 hc0 hc1 x0 x1).1 S1x256.size (by sl_kernel_rfl) y

/-- What the body leaves in the output's staging buffer. -/
def out18_2 (c : Dev nD) (i : grid18.Coords) (arg3 : Memref sig .tc .vmem S128x1 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (hc0 : cond18_0 i) (hc1 : cond18_1 i)
    (x0 : Vec F S128x1 .f32) (x1 : Vec F S128x256 .f32) : Vec F S1x256 .f32 :=
  VO18_2.read (Elt F) (VO18_2.writes (Elt F) VO18_2.junk (kernelRun18 c i arg3 harg3 arg4 harg4 arg5 harg5 arg6 harg6 hc0 hc1 x0 x1).1)

/-- The output's staging buffer after the body at point t. -/
def outAt18 (c : Dev nD) (t : Fin cfg18.N) : Vec F S1x256 .f32 :=
  out18_2 c (grid18.coords t) (ms18_0 t) (hs18_0 t) (ms18_1 t) (hs18_1 t) (ms18_2 t) (hs18_2 t) scM18_0 (Memref.isWhole_whole _) (hcond18_0 t) (hcond18_1 t) (iblk18 V c 0 t) (iblk18 V c 1 t)

/-! ## The pipeline's proof data -/

/-- The proof data of the region on core c: the arrays as the region finds them; after the body at point t each
    input's buffer at its block and the output's at what the one case leaves; the invariant the scoped rest and the
    generator register, untouched between points; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => outAt18 V c t
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = outAt18 V c t := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-- What the launch hands the region is the invariant before the first point, -/
theorem Phi_first18 (c : Dev nD) : (dat18 V c).Φ 0 = Pipeline.ΦA spec18 c := rfl

/-- and the invariant after the last point gives it back. -/
theorem Phi_last18 (c : Dev nD) : (dat18 V c).Φ (Fin.last cfg18.N) ⊢ Pipeline.ΦA spec18 c :=
  Idealize.SL.BI.Entails.refl _

/-! ## The body obligation, at a generic point -/

/-- What the body is called with at point t, the windows one by one, -/
def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d)))

/-- and what it returns. -/
def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t)

set_option maxHeartbeats 4800000 in
/-- The body at any point: the inputs' memrefs hold their blocks; the invariant hands the body the accumulator at
    anything and takes it back at anything; the core owes nothing throughout. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = Pipeline.ΦA spec18 c from rfl, show (dat18 V c).Φ t.castSucc = Pipeline.ΦA spec18 c from rfl, PhiA18_eq]
  rw [show (dat18 V c).leavesExact 0 t = owns (c : Thread nD τ) (ms18_0 t) fullShare ((dat18 V c).after 0 t) from by
      unfold Dat.leavesExact; rw [liveAt18_0 t], after18_0]
  rw [show (dat18 V c).leavesExact 1 t = owns (c : Thread nD τ) (ms18_1 t) fullShare ((dat18 V c).after 1 t) from by
      unfold Dat.leavesExact; rw [liveAt18_1 t], after18_1]
  rw [show (dat18 V c).leavesExact 2 t = owns (c : Thread nD τ) (ms18_2 t) fullShare ((dat18 V c).after 2 t) from by
      unfold Dat.leavesExact; rw [liveAt18_2 t], after18_2]
  unfold outAt18 out18_2; (try dsimp only)
  iintro ⟨⟨⟨HS0, Hr⟩, Hg⟩, Ho, ⟨%d0, H0⟩, ⟨%d1, H1⟩, ⟨%d2, H2⟩⟩
  iapply ((kernelRun18 c (grid18.coords t) _ _ _ _ _ _ _ _ (hcond18_0 t) (hcond18_1 t) (iblk18 V c 0 t) (iblk18 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover18_2 c _ _ _ _ _ _ _ _ _ _ _ _ _)

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.KernelIdeal.Hand

end
-- ==== Proof.KI.R19.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 19: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- An input window's current staging buffer holds its block at every point, fetched there or not, for any proof
    data whose array is the entry contents and whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## The body's branch conditions: both hold at every point -/

/-- The first conditional's condition (k = 0), from the grid coordinates. -/
abbrev cond19_0 (i : grid19.Coords) : Prop := (Scalar.cmpi .ne (Scalar.extui (Scalar.cmpi .eq (BitVec.ofNat 32 (i 2).val) 0#32)) 0#32) = 1#1
theorem hcond19_0 : ∀ t : Fin cfg19.N, cond19_0 (grid19.coords t) :=
  (by decide +kernel : ∀ t : Fin grid19.N, cond19_0 (grid19.coords t))

/-- The second conditional's condition (k is the last block, which is block 0). -/
abbrev cond19_1 (i : grid19.Coords) : Prop := k19_cond2 i = 1#1
theorem hcond19_1 : ∀ t : Fin cfg19.N, cond19_1 (grid19.coords t) :=
  (by decide +kernel : ∀ t : Fin grid19.N, cond19_1 (grid19.coords t))

/-! ## No window is ever idle -/

theorem liveAt19_0 : ∀ t : Fin cfg19.N, cfg19.idle 0 (grid19.coords t) = false := by decide +kernel
theorem liveAt19_1 : ∀ t : Fin cfg19.N, cfg19.idle 1 (grid19.coords t) = false := by decide +kernel
theorem liveAt19_2 : ∀ t : Fin cfg19.N, cfg19.idle 2 (grid19.coords t) = false := by decide +kernel

/-! ## The staging memrefs and the accumulator -/

/-- One staging buffer of the output window, through which its contents are stated. -/
abbrev VO19_2 : View sig .tc .vmem S1x1 .f32 := (Memref.whole cc19_stg2_0 : Memref sig .tc .vmem S1x1 .f32).view
abbrev ms19_0 (t : Fin cfg19.N) : Memref sig .tc .vmem S128x1 .f32 := win19_0.stage (cfg19.slots t 0)
abbrev hs19_0 (t : Fin cfg19.N) : (ms19_0 t).IsWhole := hstage19_0 ((cfg19.slots t 0).cast nbuf19_0)
abbrev ms19_1 (t : Fin cfg19.N) : Memref sig .tc .vmem S128x1 .f32 := win19_1.stage (cfg19.slots t 1)
abbrev hs19_1 (t : Fin cfg19.N) : (ms19_1 t).IsWhole := hstage19_1 ((cfg19.slots t 1).cast nbuf19_1)
abbrev ms19_2 (t : Fin cfg19.N) : Memref sig .tc .vmem S1x1 .f32 := win19_2.stage (cfg19.slots t 2)
abbrev hs19_2 (t : Fin cfg19.N) : (ms19_2 t).IsWhole := hstage19_2 ((cfg19.slots t 2).cast nbuf19_2)
/-- The accumulator: a whole scoped buffer of the kernel's own. -/
abbrev scM19_0 : Memref sig .tc .vmem S1x1 .f32 := Memref.whole cc19_scratch0

/-- The region's invariant with the accumulator as a memref owned at some contents, the other scoped buffers
    unopened, and the generator register at some state. -/
theorem PhiA19_eq (c : Dev nD) :
    (Pipeline.ΦA spec19 c : sProp 𝕄)
      = iprop(iprop(iprop((∃ d, owns (c : Thread nD τ) scM19_0 fullShare d)) ∗ Pipeline.scopedRestBut spec19 c [cc19_scratch0]) ∗ (∃ r, prngReg c r)) := by
  unfold Pipeline.ΦA; rw [scopedRest19_split]; simp only [scM19_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun19 (c : Dev nD) (i : grid19.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond19_0 i) (hc1 : cond19_1 i)
    (x0 : Vec F S128x1 .f32) (x1 : Vec F S128x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc19__matmulT_kernel i arg3 harg3 arg4 harg4 arg5 harg5 arg6 harg6) K } := by
  refine ⟨?_, ?_, fun E K => ?run⟩
  case run =>
    simp only [cc19__matmulT_kernel_eq_skeleton]; unfold cc19__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover19_2 (c : Dev nD) (i : grid19.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond19_0 i) (hc1 : cond19_1 i)
    (x0 : Vec F S128x1 .f32) (x1 : Vec F S128x1 .f32) (y : S1x1.Idx) :
    ∃ pc ∈ (kernelRun19 c i arg3 harg3 arg4 harg4 arg5 harg5 arg6 harg6 hc0 hc1 x0 x1).1, y ∈ pc.1.set :=
  View.cover_of_tiledL (kernelRun19 c i arg3 harg3 arg4 harg4 arg5 harg5 arg6 harg6 hc0 hc1 x0 x1).1 S1x1.size (by sl_kernel_rfl) y

/-- What the body leaves in the output's staging buffer. -/
def out19_2 (c : Dev nD) (i : grid19.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond19_0 i) (hc1 : cond19_1 i)
    (x0 : Vec F S128x1 .f32) (x1 : Vec F S128x1 .f32) : Vec F S1x1 .f32 :=
  VO19_2.read (Elt F) (VO19_2.writes (Elt F) VO19_2.junk (kernelRun19 c i arg3 harg3 arg4 harg4 arg5 harg5 arg6 harg6 hc0 hc1 x0 x1).1)

/-- The output's staging buffer after the body at point t. -/
def outAt19 (c : Dev nD) (t : Fin cfg19.N) : Vec F S1x1 .f32 :=
  out19_2 c (grid19.coords t) (ms19_0 t) (hs19_0 t) (ms19_1 t) (hs19_1 t) (ms19_2 t) (hs19_2 t) scM19_0 (Memref.isWhole_whole _) (hcond19_0 t) (hcond19_1 t) (iblk19 V c 0 t) (iblk19 V c 1 t)

/-! ## The pipeline's proof data -/

/-- The proof data of the region on core c: the arrays as the region finds them; after the body at point t each
    input's buffer at its block and the output's at what the one case leaves; the invariant the scoped rest and the
    generator register, untouched between points; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => outAt19 V c t
  Φ _ := Pipeline.ΦA spec19 c
  q _ := fullShare
  owed _ := 0

/-- The proof data's arrays are the region-entry contents. -/
theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = outAt19 V c t := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-- What the launch hands the region is the invariant before the first point, -/
theorem Phi_first19 (c : Dev nD) : (dat19 V c).Φ 0 = Pipeline.ΦA spec19 c := rfl

/-- and the invariant after the last point gives it back. -/
theorem Phi_last19 (c : Dev nD) : (dat19 V c).Φ (Fin.last cfg19.N) ⊢ Pipeline.ΦA spec19 c :=
  Idealize.SL.BI.Entails.refl _

/-! ## The body obligation, at a generic point -/

/-- What the body is called with at point t, the windows one by one, -/
def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4800000 in
/-- The body at any point: the inputs' memrefs hold their blocks; the invariant hands the body the accumulator at
    anything and takes it back at anything; the core owes nothing throughout. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).owesAt () t.succ = (dat19 V c).owesAt () t.castSucc from rfl]
  rw [show (dat19 V c).Φ t.succ = Pipeline.ΦA spec19 c from rfl, show (dat19 V c).Φ t.castSucc = Pipeline.ΦA spec19 c from rfl, PhiA19_eq]
  rw [show (dat19 V c).leavesExact 0 t = owns (c : Thread nD τ) (ms19_0 t) fullShare ((dat19 V c).after 0 t) from by
      unfold Dat.leavesExact; rw [liveAt19_0 t], after19_0]
  rw [show (dat19 V c).leavesExact 1 t = owns (c : Thread nD τ) (ms19_1 t) fullShare ((dat19 V c).after 1 t) from by
      unfold Dat.leavesExact; rw [liveAt19_1 t], after19_1]
  rw [show (dat19 V c).leavesExact 2 t = owns (c : Thread nD τ) (ms19_2 t) fullShare ((dat19 V c).after 2 t) from by
      unfold Dat.leavesExact; rw [liveAt19_2 t], after19_2]
  unfold outAt19 out19_2; (try dsimp only)
  iintro ⟨⟨⟨HS0, Hr⟩, Hg⟩, Ho, ⟨%d0, H0⟩, ⟨%d1, H1⟩, ⟨%d2, H2⟩⟩
  iapply ((kernelRun19 c (grid19.coords t) _ _ _ _ _ _ _ _ (hcond19_0 t) (hcond19_1 t) (iblk19 V c 0 t) (iblk19 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover19_2 c _ _ _ _ _ _ _ _ _ _ _ _ _)

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.KernelIdeal.Hand

end
-- ==== Proof.KI.R20.lean ====
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 20: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- An input window's current staging buffer holds its block at every point, fetched there or not, for any proof
    data whose array is the entry contents and whose body leaves the block in place. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-! ## The body's branch conditions: both hold at every point -/

/-- The first conditional's condition (k = 0), from the grid coordinates. -/
abbrev cond20_0 (i : grid20.Coords) : Prop := (Scalar.cmpi .ne (Scalar.extui (Scalar.cmpi .eq (BitVec.ofNat 32 (i 2).val) 0#32)) 0#32) = 1#1
theorem hcond20_0 : ∀ t : Fin cfg20.N, cond20_0 (grid20.coords t) :=
  (by decide +kernel : ∀ t : Fin grid20.N, cond20_0 (grid20.coords t))

/-- The second conditional's condition (k is the last block, which is block 0). -/
abbrev cond20_1 (i : grid20.Coords) : Prop := k20_cond2 i = 1#1
theorem hcond20_1 : ∀ t : Fin cfg20.N, cond20_1 (grid20.coords t) :=
  (by decide +kernel : ∀ t : Fin grid20.N, cond20_1 (grid20.coords t))

/-! ## No window is ever idle -/

theorem liveAt20_0 : ∀ t : Fin cfg20.N, cfg20.idle 0 (grid20.coords t) = false := by decide +kernel
theorem liveAt20_1 : ∀ t : Fin cfg20.N, cfg20.idle 1 (grid20.coords t) = false := by decide +kernel
theorem liveAt20_2 : ∀ t : Fin cfg20.N, cfg20.idle 2 (grid20.coords t) = false := by decide +kernel

/-! ## The staging memrefs and the accumulator -/

/-- One staging buffer of the output window, through which its contents are stated. -/
abbrev VO20_2 : View sig .tc .vmem S1x1 .f32 := (Memref.whole cc20_stg2_0 : Memref sig .tc .vmem S1x1 .f32).view
abbrev ms20_0 (t : Fin cfg20.N) : Memref sig .tc .vmem S128x1 .f32 := win20_0.stage (cfg20.slots t 0)
abbrev hs20_0 (t : Fin cfg20.N) : (ms20_0 t).IsWhole := hstage20_0 ((cfg20.slots t 0).cast nbuf20_0)
abbrev ms20_1 (t : Fin cfg20.N) : Memref sig .tc .vmem S128x1 .f32 := win20_1.stage (cfg20.slots t 1)
abbrev hs20_1 (t : Fin cfg20.N) : (ms20_1 t).IsWhole := hstage20_1 ((cfg20.slots t 1).cast nbuf20_1)
abbrev ms20_2 (t : Fin cfg20.N) : Memref sig .tc .vmem S1x1 .f32 := win20_2.stage (cfg20.slots t 2)
abbrev hs20_2 (t : Fin cfg20.N) : (ms20_2 t).IsWhole := hstage20_2 ((cfg20.slots t 2).cast nbuf20_2)
/-- The accumulator: a whole scoped buffer of the kernel's own. -/
abbrev scM20_0 : Memref sig .tc .vmem S1x1 .f32 := Memref.whole cc20_scratch0

/-- The region's invariant with the accumulator as a memref owned at some contents, the other scoped buffers
    unopened, and the generator register at some state. -/
theorem PhiA20_eq (c : Dev nD) :
    (Pipeline.ΦA spec20 c : sProp 𝕄)
      = iprop(iprop(iprop((∃ d, owns (c : Thread nD τ) scM20_0 fullShare d)) ∗ Pipeline.scopedRestBut spec20 c [cc20_scratch0]) ∗ (∃ r, prngReg c r)) := by
  unfold Pipeline.ΦA; rw [scopedRest20_split]; simp only [scM20_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun20 (c : Dev nD) (i : grid20.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond20_0 i) (hc1 : cond20_1 i)
    (x0 : Vec F S128x1 .f32) (x1 : Vec F S128x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc20__matmulT_kernel i arg3 harg3 arg4 harg4 arg5 harg5 arg6 harg6) K } := by
  refine ⟨?_, ?_, fun E K => ?run⟩
  case run =>
    simp only [cc20__matmulT_kernel_eq_skeleton]; unfold cc20__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover20_2 (c : Dev nD) (i : grid20.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond20_0 i) (hc1 : cond20_1 i)
    (x0 : Vec F S128x1 .f32) (x1 : Vec F S128x1 .f32) (y : S1x1.Idx) :
    ∃ pc ∈ (kernelRun20 c i arg3 harg3 arg4 harg4 arg5 harg5 arg6 harg6 hc0 hc1 x0 x1).1, y ∈ pc.1.set :=
  View.cover_of_tiledL (kernelRun20 c i arg3 harg3 arg4 harg4 arg5 harg5 arg6 harg6 hc0 hc1 x0 x1).1 S1x1.size (by sl_kernel_rfl) y

/-- What the body leaves in the output's staging buffer. -/
def out20_2 (c : Dev nD) (i : grid20.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond20_0 i) (hc1 : cond20_1 i)
    (x0 : Vec F S128x1 .f32) (x1 : Vec F S128x1 .f32) : Vec F S1x1 .f32 :=
  VO20_2.read (Elt F) (VO20_2.writes (Elt F) VO20_2.junk (kernelRun20 c i arg3 harg3 arg4 harg4 arg5 harg5 arg6 harg6 hc0 hc1 x0 x1).1)

/-- The output's staging buffer after the body at point t. -/
def outAt20 (c : Dev nD) (t : Fin cfg20.N) : Vec F S1x1 .f32 :=
  out20_2 c (grid20.coords t) (ms20_0 t) (hs20_0 t) (ms20_1 t) (hs20_1 t) (ms20_2 t) (hs20_2 t) scM20_0 (Memref.isWhole_whole _) (hcond20_0 t) (hcond20_1 t) (iblk20 V c 0 t) (iblk20 V c 1 t)

/-! ## The pipeline's proof data -/

/-- The proof data of the region on core c: the arrays as the region finds them; after the body at point t each
    input's buffer at its block and the output's at what the one case leaves; the invariant the scoped rest and the
    generator register, untouched between points; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => outAt20 V c t
  Φ _ := Pipeline.ΦA spec20 c
  q := fun w => match w with | ⟨0, _⟩ => fullShare.left | ⟨1, _⟩ => fullShare.right | ⟨2, _⟩ => fullShare
  owed _ := 0

/-- The proof data's arrays are the region-entry contents. -/
theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = outAt20 V c t := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

/-- What the launch hands the region is the invariant before the first point, -/
theorem Phi_first20 (c : Dev nD) : (dat20 V c).Φ 0 = Pipeline.ΦA spec20 c := rfl

/-- and the invariant after the last point gives it back. -/
theorem Phi_last20 (c : Dev nD) : (dat20 V c).Φ (Fin.last cfg20.N) ⊢ Pipeline.ΦA spec20 c :=
  Idealize.SL.BI.Entails.refl _

/-! ## The body obligation, at a generic point -/

/-- What the body is called with at point t, the windows one by one, -/
def bodyPre20 (c : Dev nD) (t : Fin cfg20.N) : sProp 𝕄 :=
  iprop((dat20 V c).Φ t.castSucc ∗ (dat20 V c).owesAt () t.castSucc
    ∗ (∃ d, owns (c : Thread nD τ) (ms20_0 t) fullShare ((dat20 V c).before 0 t d))
    ∗ (∃ d, owns (c : Thread nD τ) (ms20_1 t) fullShare ((dat20 V c).before 1 t d))
    ∗ (∃ d, owns (c : Thread nD τ) (ms20_2 t) fullShare ((dat20 V c).before 2 t d)))

/-- and what it returns. -/
def bodyPost20 (c : Dev nD) (t : Fin cfg20.N) : sProp 𝕄 :=
  iprop((dat20 V c).Φ t.succ ∗ (dat20 V c).owesAt () t.succ
    ∗ (dat20 V c).leavesExact 0 t
    ∗ (dat20 V c).leavesExact 1 t
    ∗ (dat20 V c).leavesExact 2 t)

set_option maxHeartbeats 4800000 in
/-- The body at any point: the inputs' memrefs hold their blocks; the invariant hands the body the accumulator at
    anything and takes it back at anything; the core owes nothing throughout. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl]
  rw [show (dat20 V c).Φ t.succ = Pipeline.ΦA spec20 c from rfl, show (dat20 V c).Φ t.castSucc = Pipeline.ΦA spec20 c from rfl, PhiA20_eq]
  rw [show (dat20 V c).leavesExact 0 t = owns (c : Thread nD τ) (ms20_0 t) fullShare ((dat20 V c).after 0 t) from by
      unfold Dat.leavesExact; rw [liveAt20_0 t], after20_0]
  rw [show (dat20 V c).leavesExact 1 t = owns (c : Thread nD τ) (ms20_1 t) fullShare ((dat20 V c).after 1 t) from by
      unfold Dat.leavesExact; rw [liveAt20_1 t], after20_1]
  rw [show (dat20 V c).leavesExact 2 t = owns (c : Thread nD τ) (ms20_2 t) fullShare ((dat20 V c).after 2 t) from by
      unfold Dat.leavesExact; rw [liveAt20_2 t], after20_2]
  unfold outAt20 out20_2; (try dsimp only)
  iintro ⟨⟨⟨HS0, Hr⟩, Hg⟩, Ho, ⟨%d0, H0⟩, ⟨%d1, H1⟩, ⟨%d2, H2⟩⟩
  iapply ((kernelRun20 c (grid20.coords t) _ _ _ _ _ _ _ _ (hcond20_0 t) (hcond20_1 t) (iblk20 V c 0 t) (iblk20 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover20_2 c _ _ _ _ _ _ _ _ _ _ _ _ _)

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.KernelIdeal.Hand

end
-- ==== Proof.KI.Fold.lean ====
/- The contents of KernelIdeal's TensorCore buffers at each of the 64 boundaries of @main (43 host stretches, 21 kernel
   regions): a host stretch applies its operations, a region leaves its output arrays at what its write-backs fold to;
   every region's proof data at its entry contents; the thread state that rides through the segments. -/
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import proofs.«405323_j90718299226206_3_alg».proof.Proof.KI.R0
import proofs.«405323_j90718299226206_3_alg».proof.Proof.KI.R1
import proofs.«405323_j90718299226206_3_alg».proof.Proof.KI.R2
import proofs.«405323_j90718299226206_3_alg».proof.Proof.KI.R3
import proofs.«405323_j90718299226206_3_alg».proof.Proof.KI.R4
import proofs.«405323_j90718299226206_3_alg».proof.Proof.KI.R5
import proofs.«405323_j90718299226206_3_alg».proof.Proof.KI.R6
import proofs.«405323_j90718299226206_3_alg».proof.Proof.KI.R7
import proofs.«405323_j90718299226206_3_alg».proof.Proof.KI.R8
import proofs.«405323_j90718299226206_3_alg».proof.Proof.KI.R9
import proofs.«405323_j90718299226206_3_alg».proof.Proof.KI.R10
import proofs.«405323_j90718299226206_3_alg».proof.Proof.KI.R11
import proofs.«405323_j90718299226206_3_alg».proof.Proof.KI.R12
import proofs.«405323_j90718299226206_3_alg».proof.Proof.KI.R13
import proofs.«405323_j90718299226206_3_alg».proof.Proof.KI.R14
import proofs.«405323_j90718299226206_3_alg».proof.Proof.KI.R15
import proofs.«405323_j90718299226206_3_alg».proof.Proof.KI.R16
import proofs.«405323_j90718299226206_3_alg».proof.Proof.KI.R17
import proofs.«405323_j90718299226206_3_alg».proof.Proof.KI.R18
import proofs.«405323_j90718299226206_3_alg».proof.Proof.KI.R19
import proofs.«405323_j90718299226206_3_alg».proof.Proof.KI.R20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary -/
abbrev W0 : Dev nD → Valuation τ sig (Elt F) := fun c b => m (c, b)
abbrev W1 : Dev nD → Valuation τ sig (Elt F) := fun c => StableHlo.after hostOps0 (W0 m c)
/-- Region 0: entered at `W1`, left at `W2` (its output arrays at what its write-backs fold to, everything else as entered). -/
abbrev Vt1 : (c : Dev nD) → (b : Ref sig .tc) → Buf (Elt F) ((c : Thread nD τ).loc b) := fun c b => W1 m c b
def W2 (c : Dev nD) : Valuation τ sig (Elt F) :=
  Function.update (W1 m c) (Proc.devRef .tc main_v21) ((dat0 (Vt1 m) c).arrAt 3 cfg0.N)
abbrev Vt2 : (c : Dev nD) → (b : Ref sig .tc) → Buf (Elt F) ((c : Thread nD τ).loc b) := fun c b => W2 m c b
theorem W2_of_ne (c : Dev nD) (b : Ref sig .tc) (hb : b ≠ main_v21) :
    W2 m c (Proc.devRef .tc b) = W1 m c (Proc.devRef .tc b) := by
  unfold W2; exact Function.update_of_ne (StableHlo.devRef_ne_of_ne hb) _ _
theorem W2_out3 (c : Dev nD) : Vt2 m c main_v21 = (dat0 (Vt1 m) c).arrAt 3 cfg0.N := by
  show W2 m c (Proc.devRef .tc main_v21) = _
  unfold W2; exact Function.update_self _ _ _
set_option maxHeartbeats 4000000 in
theorem hF0 (c : Dev nD) (w : Fin cfg0.W) : (dat0 (Vt1 m) c).arrAt w cfg0.N = Vt2 m c (Pipeline.arrRef spec0 w) :=
  match w with
    | ⟨0, _⟩ => show (dat0 (Vt1 m) c).arrAt (0 : Fin cfg0.W) cfg0.N = W2 m c (Proc.devRef .tc main_arg0) from
        (((dat0 (Vt1 m) c).arrAt_in (0 : Fin cfg0.W) rfl cfg0.N).trans
          (show (dat0 (Vt1 m) c).A (0 : Fin cfg0.W) = W1 m c (Proc.devRef .tc main_arg0) from A_eq0 (Vt1 m) c (0 : Fin cfg0.W))).trans (W2_of_ne m c main_arg0 (by decide)).symm
    | ⟨1, _⟩ => show (dat0 (Vt1 m) c).arrAt (1 : Fin cfg0.W) cfg0.N = W2 m c (Proc.devRef .tc main_arg3) from
        (((dat0 (Vt1 m) c).arrAt_in (1 : Fin cfg0.W) rfl cfg0.N).trans
          (show (dat0 (Vt1 m) c).A (1 : Fin cfg0.W) = W1 m c (Proc.devRef .tc main_arg3) from A_eq0 (Vt1 m) c (1 : Fin cfg0.W))).trans (W2_of_ne m c main_arg3 (by decide)).symm
    | ⟨2, _⟩ => show (dat0 (Vt1 m) c).arrAt (2 : Fin cfg0.W) cfg0.N = W2 m c (Proc.devRef .tc main_v20) from
        (((dat0 (Vt1 m) c).arrAt_in (2 : Fin cfg0.W) rfl cfg0.N).trans
          (show (dat0 (Vt1 m) c).A (2 : Fin cfg0.W) = W1 m c (Proc.devRef .tc main_v20) from A_eq0 (Vt1 m) c (2 : Fin cfg0.W))).trans (W2_of_ne m c main_v20 (by decide)).symm
    | ⟨3, _⟩ => show (dat0 (Vt1 m) c).arrAt (3 : Fin cfg0.W) cfg0.N = W2 m c (Proc.devRef .tc main_v21) from (W2_out3 m c).symm
    | ⟨_ + 4, h⟩ => absurd h (Nat.not_lt.2 (Nat.le_add_left _ _))
theorem hrest0 (c : Dev nD) : ∀ b, b ∉ Finset.univ.image (Pipeline.arrRef spec0) → Vt2 m c b = Vt1 m c b :=
  fun b hb => W2_of_ne m c b (fun e => hb (Finset.mem_image.mpr ⟨(3 : Fin cfg0.W), Finset.mem_univ _, (show Pipeline.arrRef spec0 (3 : Fin cfg0.W) = b from e.symm)⟩))
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
/-- Region 1: entered at `W6`, left at `W7` (its output arrays at what its write-backs fold to, everything else as entered). -/
abbrev Vt6 : (c : Dev nD) → (b : Ref sig .tc) → Buf (Elt F) ((c : Thread nD τ).loc b) := fun c b => W6 m c b
def W7 (c : Dev nD) : Valuation τ sig (Elt F) :=
  Function.update (W6 m c) (Proc.devRef .tc main_v39) ((dat1 (Vt6 m) c).arrAt 2 cfg1.N)
abbrev Vt7 : (c : Dev nD) → (b : Ref sig .tc) → Buf (Elt F) ((c : Thread nD τ).loc b) := fun c b => W7 m c b
theorem W7_of_ne (c : Dev nD) (b : Ref sig .tc) (hb : b ≠ main_v39) :
    W7 m c (Proc.devRef .tc b) = W6 m c (Proc.devRef .tc b) := by
  unfold W7; exact Function.update_of_ne (StableHlo.devRef_ne_of_ne hb) _ _
theorem W7_out2 (c : Dev nD) : Vt7 m c main_v39 = (dat1 (Vt6 m) c).arrAt 2 cfg1.N := by
  show W7 m c (Proc.devRef .tc main_v39) = _
  unfold W7; exact Function.update_self _ _ _
set_option maxHeartbeats 4000000 in
theorem hF1 (c : Dev nD) (w : Fin cfg1.W) : (dat1 (Vt6 m) c).arrAt w cfg1.N = Vt7 m c (Pipeline.arrRef spec1 w) :=
  match w with
    | ⟨0, _⟩ => show (dat1 (Vt6 m) c).arrAt (0 : Fin cfg1.W) cfg1.N = W7 m c (Proc.devRef .tc main_v18) from
        (((dat1 (Vt6 m) c).arrAt_in (0 : Fin cfg1.W) rfl cfg1.N).trans
          (show (dat1 (Vt6 m) c).A (0 : Fin cfg1.W) = W6 m c (Proc.devRef .tc main_v18) from A_eq1 (Vt6 m) c (0 : Fin cfg1.W))).trans (W7_of_ne m c main_v18 (by decide)).symm
    | ⟨1, _⟩ => show (dat1 (Vt6 m) c).arrAt (1 : Fin cfg1.W) cfg1.N = W7 m c (Proc.devRef .tc main_v38) from
        (((dat1 (Vt6 m) c).arrAt_in (1 : Fin cfg1.W) rfl cfg1.N).trans
          (show (dat1 (Vt6 m) c).A (1 : Fin cfg1.W) = W6 m c (Proc.devRef .tc main_v38) from A_eq1 (Vt6 m) c (1 : Fin cfg1.W))).trans (W7_of_ne m c main_v38 (by decide)).symm
    | ⟨2, _⟩ => show (dat1 (Vt6 m) c).arrAt (2 : Fin cfg1.W) cfg1.N = W7 m c (Proc.devRef .tc main_v39) from (W7_out2 m c).symm
    | ⟨_ + 3, h⟩ => absurd h (Nat.not_lt.2 (Nat.le_add_left _ _))
theorem hrest1 (c : Dev nD) : ∀ b, b ∉ Finset.univ.image (Pipeline.arrRef spec1) → Vt7 m c b = Vt6 m c b :=
  fun b hb => W7_of_ne m c b (fun e => hb (Finset.mem_image.mpr ⟨(2 : Fin cfg1.W), Finset.mem_univ _, (show Pipeline.arrRef spec1 (2 : Fin cfg1.W) = b from e.symm)⟩))
abbrev W8 : Dev nD → Valuation τ sig (Elt F) := fun c => StableHlo.after hostOps2 (W7 m c)
abbrev W9 : Dev nD → Valuation τ sig (Elt F) := fun c => StableHlo.after hostOps2_1 (W8 m c)
abbrev W10 : Dev nD → Valuation τ sig (Elt F) := fun c => StableHlo.after hostOps2_2 (W9 m c)
/-- Region 2: entered at `W10`, left at `W11` (its output arrays at what its write-backs fold to, everything else as entered). -/
abbrev Vt10 : (c : Dev nD) → (b : Ref sig .tc) → Buf (Elt F) ((c : Thread nD τ).loc b) := fun c b => W10 m c b
def W11 (c : Dev nD) : Valuation τ sig (Elt F) :=
  Function.update (Function.update (W10 m c) (Proc.devRef .tc main_v54_0) ((dat2 (Vt10 m) c).arrAt 3 cfg2.N)) (Proc.devRef .tc main_v54_1) ((dat2 (Vt10 m) c).arrAt 4 cfg2.N)
abbrev Vt11 : (c : Dev nD) → (b : Ref sig .tc) → Buf (Elt F) ((c : Thread nD τ).loc b) := fun c b => W11 m c b
theorem W11_of_ne (c : Dev nD) (b : Ref sig .tc) (hb0 : b ≠ main_v54_0) (hb1 : b ≠ main_v54_1) :
    W11 m c (Proc.devRef .tc b) = W10 m c (Proc.devRef .tc b) := by
  unfold W11; exact (Function.update_of_ne (StableHlo.devRef_ne_of_ne hb1) _ _).trans (Function.update_of_ne (StableHlo.devRef_ne_of_ne hb0) _ _)
theorem W11_out4 (c : Dev nD) : Vt11 m c main_v54_1 = (dat2 (Vt10 m) c).arrAt 4 cfg2.N := by
  show W11 m c (Proc.devRef .tc main_v54_1) = _
  unfold W11; exact Function.update_self _ _ _
theorem W11_out3 (c : Dev nD) : Vt11 m c main_v54_0 = (dat2 (Vt10 m) c).arrAt 3 cfg2.N := by
  show W11 m c (Proc.devRef .tc main_v54_0) = _
  unfold W11; exact (Function.update_of_ne (StableHlo.devRef_ne_of_ne (by decide : main_v54_0 ≠ main_v54_1)) _ _).trans (Function.update_self _ _ _)
set_option maxHeartbeats 4000000 in
theorem hF2 (c : Dev nD) (w : Fin cfg2.W) : (dat2 (Vt10 m) c).arrAt w cfg2.N = Vt11 m c (Pipeline.arrRef spec2 w) :=
  match w with
    | ⟨0, _⟩ => show (dat2 (Vt10 m) c).arrAt (0 : Fin cfg2.W) cfg2.N = W11 m c (Proc.devRef .tc main_v52) from
        (((dat2 (Vt10 m) c).arrAt_in (0 : Fin cfg2.W) rfl cfg2.N).trans
          (show (dat2 (Vt10 m) c).A (0 : Fin cfg2.W) = W10 m c (Proc.devRef .tc main_v52) from A_eq2 (Vt10 m) c (0 : Fin cfg2.W))).trans (W11_of_ne m c main_v52 (by decide) (by decide)).symm
    | ⟨1, _⟩ => show (dat2 (Vt10 m) c).arrAt (1 : Fin cfg2.W) cfg2.N = W11 m c (Proc.devRef .tc main_arg5) from
        (((dat2 (Vt10 m) c).arrAt_in (1 : Fin cfg2.W) rfl cfg2.N).trans
          (show (dat2 (Vt10 m) c).A (1 : Fin cfg2.W) = W10 m c (Proc.devRef .tc main_arg5) from A_eq2 (Vt10 m) c (1 : Fin cfg2.W))).trans (W11_of_ne m c main_arg5 (by decide) (by decide)).symm
    | ⟨2, _⟩ => show (dat2 (Vt10 m) c).arrAt (2 : Fin cfg2.W) cfg2.N = W11 m c (Proc.devRef .tc main_v53) from
        (((dat2 (Vt10 m) c).arrAt_in (2 : Fin cfg2.W) rfl cfg2.N).trans
          (show (dat2 (Vt10 m) c).A (2 : Fin cfg2.W) = W10 m c (Proc.devRef .tc main_v53) from A_eq2 (Vt10 m) c (2 : Fin cfg2.W))).trans (W11_of_ne m c main_v53 (by decide) (by decide)).symm
    | ⟨3, _⟩ => show (dat2 (Vt10 m) c).arrAt (3 : Fin cfg2.W) cfg2.N = W11 m c (Proc.devRef .tc main_v54_0) from (W11_out3 m c).symm
    | ⟨4, _⟩ => show (dat2 (Vt10 m) c).arrAt (4 : Fin cfg2.W) cfg2.N = W11 m c (Proc.devRef .tc main_v54_1) from (W11_out4 m c).symm
    | ⟨_ + 5, h⟩ => absurd h (Nat.not_lt.2 (Nat.le_add_left _ _))
theorem hrest2 (c : Dev nD) : ∀ b, b ∉ Finset.univ.image (Pipeline.arrRef spec2) → Vt11 m c b = Vt10 m c b :=
  fun b hb => W11_of_ne m c b (fun e => hb (Finset.mem_image.mpr ⟨(3 : Fin cfg2.W), Finset.mem_univ _, (show Pipeline.arrRef spec2 (3 : Fin cfg2.W) = b from e.symm)⟩)) (fun e => hb (Finset.mem_image.mpr ⟨(4 : Fin cfg2.W), Finset.mem_univ _, (show Pipeline.arrRef spec2 (4 : Fin cfg2.W) = b from e.symm)⟩))
abbrev W12 : Dev nD → Valuation τ sig (Elt F) := fun c => StableHlo.after hostOps3 (W11 m c)
abbrev W13 : Dev nD → Valuation τ sig (Elt F) := fun c => StableHlo.after hostOps3_1 (W12 m c)
abbrev W14 : Dev nD → Valuation τ sig (Elt F) := fun c => StableHlo.after hostOps3_2 (W13 m c)
abbrev W15 : Dev nD → Valuation τ sig (Elt F) := fun c => StableHlo.after hostOps3_3 (W14 m c)
abbrev W16 : Dev nD → Valuation τ sig (Elt F) := fun c => StableHlo.after hostOps3_4 (W15 m c)
/-- Region 3: entered at `W16`, left at `W17` (its output arrays at what its write-backs fold to, everything else as entered). -/
abbrev Vt16 : (c : Dev nD) → (b : Ref sig .tc) → Buf (Elt F) ((c : Thread nD τ).loc b) := fun c b => W16 m c b
def W17 (c : Dev nD) : Valuation τ sig (Elt F) :=
  Function.update (Function.update (W16 m c) (Proc.devRef .tc main_v58_0) ((dat3 (Vt16 m) c).arrAt 3 cfg3.N)) (Proc.devRef .tc main_v58_1) ((dat3 (Vt16 m) c).arrAt 4 cfg3.N)
abbrev Vt17 : (c : Dev nD) → (b : Ref sig .tc) → Buf (Elt F) ((c : Thread nD τ).loc b) := fun c b => W17 m c b
theorem W17_of_ne (c : Dev nD) (b : Ref sig .tc) (hb0 : b ≠ main_v58_0) (hb1 : b ≠ main_v58_1) :
    W17 m c (Proc.devRef .tc b) = W16 m c (Proc.devRef .tc b) := by
  unfold W17; exact (Function.update_of_ne (StableHlo.devRef_ne_of_ne hb1) _ _).trans (Function.update_of_ne (StableHlo.devRef_ne_of_ne hb0) _ _)
theorem W17_out4 (c : Dev nD) : Vt17 m c main_v58_1 = (dat3 (Vt16 m) c).arrAt 4 cfg3.N := by
  show W17 m c (Proc.devRef .tc main_v58_1) = _
  unfold W17; exact Function.update_self _ _ _
theorem W17_out3 (c : Dev nD) : Vt17 m c main_v58_0 = (dat3 (Vt16 m) c).arrAt 3 cfg3.N := by
  show W17 m c (Proc.devRef .tc main_v58_0) = _
  unfold W17; exact (Function.update_of_ne (StableHlo.devRef_ne_of_ne (by decide : main_v58_0 ≠ main_v58_1)) _ _).trans (Function.update_self _ _ _)
set_option maxHeartbeats 4000000 in
theorem hF3 (c : Dev nD) (w : Fin cfg3.W) : (dat3 (Vt16 m) c).arrAt w cfg3.N = Vt17 m c (Pipeline.arrRef spec3 w) :=
  match w with
    | ⟨0, _⟩ => show (dat3 (Vt16 m) c).arrAt (0 : Fin cfg3.W) cfg3.N = W17 m c (Proc.devRef .tc main_v18) from
        (((dat3 (Vt16 m) c).arrAt_in (0 : Fin cfg3.W) rfl cfg3.N).trans
          (show (dat3 (Vt16 m) c).A (0 : Fin cfg3.W) = W16 m c (Proc.devRef .tc main_v18) from A_eq3 (Vt16 m) c (0 : Fin cfg3.W))).trans (W17_of_ne m c main_v18 (by decide) (by decide)).symm
    | ⟨1, _⟩ => show (dat3 (Vt16 m) c).arrAt (1 : Fin cfg3.W) cfg3.N = W17 m c (Proc.devRef .tc main_v55) from
        (((dat3 (Vt16 m) c).arrAt_in (1 : Fin cfg3.W) rfl cfg3.N).trans
          (show (dat3 (Vt16 m) c).A (1 : Fin cfg3.W) = W16 m c (Proc.devRef .tc main_v55) from A_eq3 (Vt16 m) c (1 : Fin cfg3.W))).trans (W17_of_ne m c main_v55 (by decide) (by decide)).symm
    | ⟨2, _⟩ => show (dat3 (Vt16 m) c).arrAt (2 : Fin cfg3.W) cfg3.N = W17 m c (Proc.devRef .tc main_v57) from
        (((dat3 (Vt16 m) c).arrAt_in (2 : Fin cfg3.W) rfl cfg3.N).trans
          (show (dat3 (Vt16 m) c).A (2 : Fin cfg3.W) = W16 m c (Proc.devRef .tc main_v57) from A_eq3 (Vt16 m) c (2 : Fin cfg3.W))).trans (W17_of_ne m c main_v57 (by decide) (by decide)).symm
    | ⟨3, _⟩ => show (dat3 (Vt16 m) c).arrAt (3 : Fin cfg3.W) cfg3.N = W17 m c (Proc.devRef .tc main_v58_0) from (W17_out3 m c).symm
    | ⟨4, _⟩ => show (dat3 (Vt16 m) c).arrAt (4 : Fin cfg3.W) cfg3.N = W17 m c (Proc.devRef .tc main_v58_1) from (W17_out4 m c).symm
    | ⟨_ + 5, h⟩ => absurd h (Nat.not_lt.2 (Nat.le_add_left _ _))
theorem hrest3 (c : Dev nD) : ∀ b, b ∉ Finset.univ.image (Pipeline.arrRef spec3) → Vt17 m c b = Vt16 m c b :=
  fun b hb => W17_of_ne m c b (fun e => hb (Finset.mem_image.mpr ⟨(3 : Fin cfg3.W), Finset.mem_univ _, (show Pipeline.arrRef spec3 (3 : Fin cfg3.W) = b from e.symm)⟩)) (fun e => hb (Finset.mem_image.mpr ⟨(4 : Fin cfg3.W), Finset.mem_univ _, (show Pipeline.arrRef spec3 (4 : Fin cfg3.W) = b from e.symm)⟩))
abbrev W18 : Dev nD → Valuation τ sig (Elt F) := fun c => StableHlo.after hostOps4 (W17 m c)
/-- Region 4: entered at `W18`, left at `W19` (its output arrays at what its write-backs fold to, everything else as entered). -/
abbrev Vt18 : (c : Dev nD) → (b : Ref sig .tc) → Buf (Elt F) ((c : Thread nD τ).loc b) := fun c b => W18 m c b
def W19 (c : Dev nD) : Valuation τ sig (Elt F) :=
  Function.update (W18 m c) (Proc.devRef .tc main_v61) ((dat4 (Vt18 m) c).arrAt 2 cfg4.N)
abbrev Vt19 : (c : Dev nD) → (b : Ref sig .tc) → Buf (Elt F) ((c : Thread nD τ).loc b) := fun c b => W19 m c b
theorem W19_of_ne (c : Dev nD) (b : Ref sig .tc) (hb : b ≠ main_v61) :
    W19 m c (Proc.devRef .tc b) = W18 m c (Proc.devRef .tc b) := by
  unfold W19; exact Function.update_of_ne (StableHlo.devRef_ne_of_ne hb) _ _
theorem W19_out2 (c : Dev nD) : Vt19 m c main_v61 = (dat4 (Vt18 m) c).arrAt 2 cfg4.N := by
  show W19 m c (Proc.devRef .tc main_v61) = _
  unfold W19; exact Function.update_self _ _ _
set_option maxHeartbeats 4000000 in
theorem hF4 (c : Dev nD) (w : Fin cfg4.W) : (dat4 (Vt18 m) c).arrAt w cfg4.N = Vt19 m c (Pipeline.arrRef spec4 w) :=
  match w with
    | ⟨0, _⟩ => show (dat4 (Vt18 m) c).arrAt (0 : Fin cfg4.W) cfg4.N = W19 m c (Proc.devRef .tc main_v55) from
        (((dat4 (Vt18 m) c).arrAt_in (0 : Fin cfg4.W) rfl cfg4.N).trans
          (show (dat4 (Vt18 m) c).A (0 : Fin cfg4.W) = W18 m c (Proc.devRef .tc main_v55) from A_eq4 (Vt18 m) c (0 : Fin cfg4.W))).trans (W19_of_ne m c main_v55 (by decide)).symm
    | ⟨1, _⟩ => show (dat4 (Vt18 m) c).arrAt (1 : Fin cfg4.W) cfg4.N = W19 m c (Proc.devRef .tc main_v56) from
        (((dat4 (Vt18 m) c).arrAt_in (1 : Fin cfg4.W) rfl cfg4.N).trans
          (show (dat4 (Vt18 m) c).A (1 : Fin cfg4.W) = W18 m c (Proc.devRef .tc main_v56) from A_eq4 (Vt18 m) c (1 : Fin cfg4.W))).trans (W19_of_ne m c main_v56 (by decide)).symm
    | ⟨2, _⟩ => show (dat4 (Vt18 m) c).arrAt (2 : Fin cfg4.W) cfg4.N = W19 m c (Proc.devRef .tc main_v61) from (W19_out2 m c).symm
    | ⟨_ + 3, h⟩ => absurd h (Nat.not_lt.2 (Nat.le_add_left _ _))
theorem hrest4 (c : Dev nD) : ∀ b, b ∉ Finset.univ.image (Pipeline.arrRef spec4) → Vt19 m c b = Vt18 m c b :=
  fun b hb => W19_of_ne m c b (fun e => hb (Finset.mem_image.mpr ⟨(2 : Fin cfg4.W), Finset.mem_univ _, (show Pipeline.arrRef spec4 (2 : Fin cfg4.W) = b from e.symm)⟩))
/-- Region 5: entered at `W19`, left at `W20` (its output arrays at what its write-backs fold to, everything else as entered). -/
def W20 (c : Dev nD) : Valuation τ sig (Elt F) :=
  Function.update (W19 m c) (Proc.devRef .tc main_v62) ((dat5 (Vt19 m) c).arrAt 2 cfg5.N)
abbrev Vt20 : (c : Dev nD) → (b : Ref sig .tc) → Buf (Elt F) ((c : Thread nD τ).loc b) := fun c b => W20 m c b
theorem W20_of_ne (c : Dev nD) (b : Ref sig .tc) (hb : b ≠ main_v62) :
    W20 m c (Proc.devRef .tc b) = W19 m c (Proc.devRef .tc b) := by
  unfold W20; exact Function.update_of_ne (StableHlo.devRef_ne_of_ne hb) _ _
theorem W20_out2 (c : Dev nD) : Vt20 m c main_v62 = (dat5 (Vt19 m) c).arrAt 2 cfg5.N := by
  show W20 m c (Proc.devRef .tc main_v62) = _
  unfold W20; exact Function.update_self _ _ _
set_option maxHeartbeats 4000000 in
theorem hF5 (c : Dev nD) (w : Fin cfg5.W) : (dat5 (Vt19 m) c).arrAt w cfg5.N = Vt20 m c (Pipeline.arrRef spec5 w) :=
  match w with
    | ⟨0, _⟩ => show (dat5 (Vt19 m) c).arrAt (0 : Fin cfg5.W) cfg5.N = W20 m c (Proc.devRef .tc main_v55) from
        (((dat5 (Vt19 m) c).arrAt_in (0 : Fin cfg5.W) rfl cfg5.N).trans
          (show (dat5 (Vt19 m) c).A (0 : Fin cfg5.W) = W19 m c (Proc.devRef .tc main_v55) from A_eq5 (Vt19 m) c (0 : Fin cfg5.W))).trans (W20_of_ne m c main_v55 (by decide)).symm
    | ⟨1, _⟩ => show (dat5 (Vt19 m) c).arrAt (1 : Fin cfg5.W) cfg5.N = W20 m c (Proc.devRef .tc main_v58_0) from
        (((dat5 (Vt19 m) c).arrAt_in (1 : Fin cfg5.W) rfl cfg5.N).trans
          (show (dat5 (Vt19 m) c).A (1 : Fin cfg5.W) = W19 m c (Proc.devRef .tc main_v58_0) from A_eq5 (Vt19 m) c (1 : Fin cfg5.W))).trans (W20_of_ne m c main_v58_0 (by decide)).symm
    | ⟨2, _⟩ => show (dat5 (Vt19 m) c).arrAt (2 : Fin cfg5.W) cfg5.N = W20 m c (Proc.devRef .tc main_v62) from (W20_out2 m c).symm
    | ⟨_ + 3, h⟩ => absurd h (Nat.not_lt.2 (Nat.le_add_left _ _))
theorem hrest5 (c : Dev nD) : ∀ b, b ∉ Finset.univ.image (Pipeline.arrRef spec5) → Vt20 m c b = Vt19 m c b :=
  fun b hb => W20_of_ne m c b (fun e => hb (Finset.mem_image.mpr ⟨(2 : Fin cfg5.W), Finset.mem_univ _, (show Pipeline.arrRef spec5 (2 : Fin cfg5.W) = b from e.symm)⟩))
/-- Region 6: entered at `W20`, left at `W21` (its output arrays at what its write-backs fold to, everything else as entered). -/
def W21 (c : Dev nD) : Valuation τ sig (Elt F) :=
  Function.update (W20 m c) (Proc.devRef .tc main_v63) ((dat6 (Vt20 m) c).arrAt 2 cfg6.N)
abbrev Vt21 : (c : Dev nD) → (b : Ref sig .tc) → Buf (Elt F) ((c : Thread nD τ).loc b) := fun c b => W21 m c b
theorem W21_of_ne (c : Dev nD) (b : Ref sig .tc) (hb : b ≠ main_v63) :
    W21 m c (Proc.devRef .tc b) = W20 m c (Proc.devRef .tc b) := by
  unfold W21; exact Function.update_of_ne (StableHlo.devRef_ne_of_ne hb) _ _
theorem W21_out2 (c : Dev nD) : Vt21 m c main_v63 = (dat6 (Vt20 m) c).arrAt 2 cfg6.N := by
  show W21 m c (Proc.devRef .tc main_v63) = _
  unfold W21; exact Function.update_self _ _ _
abbrev W22 : Dev nD → Valuation τ sig (Elt F) := fun c => StableHlo.after hostOps7 (W21 m c)
abbrev W23 : Dev nD → Valuation τ sig (Elt F) := fun c => StableHlo.after hostOps7_1 (W22 m c)
abbrev W24 : Dev nD → Valuation τ sig (Elt F) := fun c => StableHlo.after hostOps7_2 (W23 m c)
abbrev W25 : Dev nD → Valuation τ sig (Elt F) := fun c => StableHlo.after hostOps7_3 (W24 m c)
abbrev W26 : Dev nD → Valuation τ sig (Elt F) := fun c => StableHlo.after hostOps7_4 (W25 m c)
abbrev W27 : Dev nD → Valuation τ sig (Elt F) := fun c => StableHlo.after hostOps7_5 (W26 m c)
abbrev W28 : Dev nD → Valuation τ sig (Elt F) := fun c => StableHlo.after hostOps7_6 (W27 m c)
abbrev W29 : Dev nD → Valuation τ sig (Elt F) := fun c => StableHlo.after hostOps7_7 (W28 m c)
/-- Region 7: entered at `W29`, left at `W30` (its output arrays at what its write-backs fold to, everything else as entered). -/
abbrev Vt29 : (c : Dev nD) → (b : Ref sig .tc) → Buf (Elt F) ((c : Thread nD τ).loc b) := fun c b => W29 m c b
def W30 (c : Dev nD) : Valuation τ sig (Elt F) :=
  Function.update (W29 m c) (Proc.devRef .tc main_v127) ((dat7 (Vt29 m) c).arrAt 3 cfg7.N)
abbrev Vt30 : (c : Dev nD) → (b : Ref sig .tc) → Buf (Elt F) ((c : Thread nD τ).loc b) := fun c b => W30 m c b
theorem W30_of_ne (c : Dev nD) (b : Ref sig .tc) (hb : b ≠ main_v127) :
    W30 m c (Proc.devRef .tc b) = W29 m c (Proc.devRef .tc b) := by
  unfold W30; exact Function.update_of_ne (StableHlo.devRef_ne_of_ne hb) _ _
theorem W30_out3 (c : Dev nD) : Vt30 m c main_v127 = (dat7 (Vt29 m) c).arrAt 3 cfg7.N := by
  show W30 m c (Proc.devRef .tc main_v127) = _
  unfold W30; exact Function.update_self _ _ _
set_option maxHeartbeats 4000000 in
theorem hF7 (c : Dev nD) (w : Fin cfg7.W) : (dat7 (Vt29 m) c).arrAt w cfg7.N = Vt30 m c (Pipeline.arrRef spec7 w) :=
  match w with
    | ⟨0, _⟩ => show (dat7 (Vt29 m) c).arrAt (0 : Fin cfg7.W) cfg7.N = W30 m c (Proc.devRef .tc main_v61) from
        (((dat7 (Vt29 m) c).arrAt_in (0 : Fin cfg7.W) rfl cfg7.N).trans
          (show (dat7 (Vt29 m) c).A (0 : Fin cfg7.W) = W29 m c (Proc.devRef .tc main_v61) from A_eq7 (Vt29 m) c (0 : Fin cfg7.W))).trans (W30_of_ne m c main_v61 (by decide)).symm
    | ⟨1, _⟩ => show (dat7 (Vt29 m) c).arrAt (1 : Fin cfg7.W) cfg7.N = W30 m c (Proc.devRef .tc main_arg7) from
        (((dat7 (Vt29 m) c).arrAt_in (1 : Fin cfg7.W) rfl cfg7.N).trans
          (show (dat7 (Vt29 m) c).A (1 : Fin cfg7.W) = W29 m c (Proc.devRef .tc main_arg7) from A_eq7 (Vt29 m) c (1 : Fin cfg7.W))).trans (W30_of_ne m c main_arg7 (by decide)).symm
    | ⟨2, _⟩ => show (dat7 (Vt29 m) c).arrAt (2 : Fin cfg7.W) cfg7.N = W30 m c (Proc.devRef .tc main_v126) from
        (((dat7 (Vt29 m) c).arrAt_in (2 : Fin cfg7.W) rfl cfg7.N).trans
          (show (dat7 (Vt29 m) c).A (2 : Fin cfg7.W) = W29 m c (Proc.devRef .tc main_v126) from A_eq7 (Vt29 m) c (2 : Fin cfg7.W))).trans (W30_of_ne m c main_v126 (by decide)).symm
    | ⟨3, _⟩ => show (dat7 (Vt29 m) c).arrAt (3 : Fin cfg7.W) cfg7.N = W30 m c (Proc.devRef .tc main_v127) from (W30_out3 m c).symm
    | ⟨_ + 4, h⟩ => absurd h (Nat.not_lt.2 (Nat.le_add_left _ _))
theorem hrest7 (c : Dev nD) : ∀ b, b ∉ Finset.univ.image (Pipeline.arrRef spec7) → Vt30 m c b = Vt29 m c b :=
  fun b hb => W30_of_ne m c b (fun e => hb (Finset.mem_image.mpr ⟨(3 : Fin cfg7.W), Finset.mem_univ _, (show Pipeline.arrRef spec7 (3 : Fin cfg7.W) = b from e.symm)⟩))
abbrev W31 : Dev nD → Valuation τ sig (Elt F) := fun c => StableHlo.after hostOps8 (W30 m c)
/-- Region 8: entered at `W31`, left at `W32` (its output arrays at what its write-backs fold to, everything else as entered). -/
abbrev Vt31 : (c : Dev nD) → (b : Ref sig .tc) → Buf (Elt F) ((c : Thread nD τ).loc b) := fun c b => W31 m c b
def W32 (c : Dev nD) : Valuation τ sig (Elt F) :=
  Function.update (W31 m c) (Proc.devRef .tc main_v129) ((dat8 (Vt31 m) c).arrAt 3 cfg8.N)
abbrev Vt32 : (c : Dev nD) → (b : Ref sig .tc) → Buf (Elt F) ((c : Thread nD τ).loc b) := fun c b => W32 m c b
theorem W32_of_ne (c : Dev nD) (b : Ref sig .tc) (hb : b ≠ main_v129) :
    W32 m c (Proc.devRef .tc b) = W31 m c (Proc.devRef .tc b) := by
  unfold W32; exact Function.update_of_ne (StableHlo.devRef_ne_of_ne hb) _ _
theorem W32_out3 (c : Dev nD) : Vt32 m c main_v129 = (dat8 (Vt31 m) c).arrAt 3 cfg8.N := by
  show W32 m c (Proc.devRef .tc main_v129) = _
  unfold W32; exact Function.update_self _ _ _
set_option maxHeartbeats 4000000 in
theorem hF8 (c : Dev nD) (w : Fin cfg8.W) : (dat8 (Vt31 m) c).arrAt w cfg8.N = Vt32 m c (Pipeline.arrRef spec8 w) :=
  match w with
    | ⟨0, _⟩ => show (dat8 (Vt31 m) c).arrAt (0 : Fin cfg8.W) cfg8.N = W32 m c (Proc.devRef .tc main_v124) from
        (((dat8 (Vt31 m) c).arrAt_in (0 : Fin cfg8.W) rfl cfg8.N).trans
          (show (dat8 (Vt31 m) c).A (0 : Fin cfg8.W) = W31 m c (Proc.devRef .tc main_v124) from A_eq8 (Vt31 m) c (0 : Fin cfg8.W))).trans (W32_of_ne m c main_v124 (by decide)).symm
    | ⟨1, _⟩ => show (dat8 (Vt31 m) c).arrAt (1 : Fin cfg8.W) cfg8.N = W32 m c (Proc.devRef .tc main_v127) from
        (((dat8 (Vt31 m) c).arrAt_in (1 : Fin cfg8.W) rfl cfg8.N).trans
          (show (dat8 (Vt31 m) c).A (1 : Fin cfg8.W) = W31 m c (Proc.devRef .tc main_v127) from A_eq8 (Vt31 m) c (1 : Fin cfg8.W))).trans (W32_of_ne m c main_v127 (by decide)).symm
    | ⟨2, _⟩ => show (dat8 (Vt31 m) c).arrAt (2 : Fin cfg8.W) cfg8.N = W32 m c (Proc.devRef .tc main_v128) from
        (((dat8 (Vt31 m) c).arrAt_in (2 : Fin cfg8.W) rfl cfg8.N).trans
          (show (dat8 (Vt31 m) c).A (2 : Fin cfg8.W) = W31 m c (Proc.devRef .tc main_v128) from A_eq8 (Vt31 m) c (2 : Fin cfg8.W))).trans (W32_of_ne m c main_v128 (by decide)).symm
    | ⟨3, _⟩ => show (dat8 (Vt31 m) c).arrAt (3 : Fin cfg8.W) cfg8.N = W32 m c (Proc.devRef .tc main_v129) from (W32_out3 m c).symm
    | ⟨_ + 4, h⟩ => absurd h (Nat.not_lt.2 (Nat.le_add_left _ _))
theorem hrest8 (c : Dev nD) : ∀ b, b ∉ Finset.univ.image (Pipeline.arrRef spec8) → Vt32 m c b = Vt31 m c b :=
  fun b hb => W32_of_ne m c b (fun e => hb (Finset.mem_image.mpr ⟨(3 : Fin cfg8.W), Finset.mem_univ _, (show Pipeline.arrRef spec8 (3 : Fin cfg8.W) = b from e.symm)⟩))
abbrev W33 : Dev nD → Valuation τ sig (Elt F) := fun c => StableHlo.after hostOps9 (W32 m c)
/-- Region 9: entered at `W33`, left at `W34` (its output arrays at what its write-backs fold to, everything else as entered). -/
abbrev Vt33 : (c : Dev nD) → (b : Ref sig .tc) → Buf (Elt F) ((c : Thread nD τ).loc b) := fun c b => W33 m c b
def W34 (c : Dev nD) : Valuation τ sig (Elt F) :=
  Function.update (Function.update (W33 m c) (Proc.devRef .tc main_v131_0) ((dat9 (Vt33 m) c).arrAt 3 cfg9.N)) (Proc.devRef .tc main_v131_1) ((dat9 (Vt33 m) c).arrAt 4 cfg9.N)
abbrev Vt34 : (c : Dev nD) → (b : Ref sig .tc) → Buf (Elt F) ((c : Thread nD τ).loc b) := fun c b => W34 m c b
theorem W34_of_ne (c : Dev nD) (b : Ref sig .tc) (hb0 : b ≠ main_v131_0) (hb1 : b ≠ main_v131_1) :
    W34 m c (Proc.devRef .tc b) = W33 m c (Proc.devRef .tc b) := by
  unfold W34; exact (Function.update_of_ne (StableHlo.devRef_ne_of_ne hb1) _ _).trans (Function.update_of_ne (StableHlo.devRef_ne_of_ne hb0) _ _)
theorem W34_out4 (c : Dev nD) : Vt34 m c main_v131_1 = (dat9 (Vt33 m) c).arrAt 4 cfg9.N := by
  show W34 m c (Proc.devRef .tc main_v131_1) = _
  unfold W34; exact Function.update_self _ _ _
theorem W34_out3 (c : Dev nD) : Vt34 m c main_v131_0 = (dat9 (Vt33 m) c).arrAt 3 cfg9.N := by
  show W34 m c (Proc.devRef .tc main_v131_0) = _
  unfold W34; exact (Function.update_of_ne (StableHlo.devRef_ne_of_ne (by decide : main_v131_0 ≠ main_v131_1)) _ _).trans (Function.update_self _ _ _)
set_option maxHeartbeats 4000000 in
theorem hF9 (c : Dev nD) (w : Fin cfg9.W) : (dat9 (Vt33 m) c).arrAt w cfg9.N = Vt34 m c (Pipeline.arrRef spec9 w) :=
  match w with
    | ⟨0, _⟩ => show (dat9 (Vt33 m) c).arrAt (0 : Fin cfg9.W) cfg9.N = W34 m c (Proc.devRef .tc main_v129) from
        (((dat9 (Vt33 m) c).arrAt_in (0 : Fin cfg9.W) rfl cfg9.N).trans
          (show (dat9 (Vt33 m) c).A (0 : Fin cfg9.W) = W33 m c (Proc.devRef .tc main_v129) from A_eq9 (Vt33 m) c (0 : Fin cfg9.W))).trans (W34_of_ne m c main_v129 (by decide) (by decide)).symm
    | ⟨1, _⟩ => show (dat9 (Vt33 m) c).arrAt (1 : Fin cfg9.W) cfg9.N = W34 m c (Proc.devRef .tc main_arg9) from
        (((dat9 (Vt33 m) c).arrAt_in (1 : Fin cfg9.W) rfl cfg9.N).trans
          (show (dat9 (Vt33 m) c).A (1 : Fin cfg9.W) = W33 m c (Proc.devRef .tc main_arg9) from A_eq9 (Vt33 m) c (1 : Fin cfg9.W))).trans (W34_of_ne m c main_arg9 (by decide) (by decide)).symm
    | ⟨2, _⟩ => show (dat9 (Vt33 m) c).arrAt (2 : Fin cfg9.W) cfg9.N = W34 m c (Proc.devRef .tc main_v130) from
        (((dat9 (Vt33 m) c).arrAt_in (2 : Fin cfg9.W) rfl cfg9.N).trans
          (show (dat9 (Vt33 m) c).A (2 : Fin cfg9.W) = W33 m c (Proc.devRef .tc main_v130) from A_eq9 (Vt33 m) c (2 : Fin cfg9.W))).trans (W34_of_ne m c main_v130 (by decide) (by decide)).symm
    | ⟨3, _⟩ => show (dat9 (Vt33 m) c).arrAt (3 : Fin cfg9.W) cfg9.N = W34 m c (Proc.devRef .tc main_v131_0) from (W34_out3 m c).symm
    | ⟨4, _⟩ => show (dat9 (Vt33 m) c).arrAt (4 : Fin cfg9.W) cfg9.N = W34 m c (Proc.devRef .tc main_v131_1) from (W34_out4 m c).symm
    | ⟨_ + 5, h⟩ => absurd h (Nat.not_lt.2 (Nat.le_add_left _ _))
theorem hrest9 (c : Dev nD) : ∀ b, b ∉ Finset.univ.image (Pipeline.arrRef spec9) → Vt34 m c b = Vt33 m c b :=
  fun b hb => W34_of_ne m c b (fun e => hb (Finset.mem_image.mpr ⟨(3 : Fin cfg9.W), Finset.mem_univ _, (show Pipeline.arrRef spec9 (3 : Fin cfg9.W) = b from e.symm)⟩)) (fun e => hb (Finset.mem_image.mpr ⟨(4 : Fin cfg9.W), Finset.mem_univ _, (show Pipeline.arrRef spec9 (4 : Fin cfg9.W) = b from e.symm)⟩))
abbrev W35 : Dev nD → Valuation τ sig (Elt F) := fun c => StableHlo.after hostOps10 (W34 m c)
/-- Region 10: entered at `W35`, left at `W36` (its output arrays at what its write-backs fold to, everything else as entered). -/
abbrev Vt35 : (c : Dev nD) → (b : Ref sig .tc) → Buf (Elt F) ((c : Thread nD τ).loc b) := fun c b => W35 m c b
def W36 (c : Dev nD) : Valuation τ sig (Elt F) :=
  Function.update (W35 m c) (Proc.devRef .tc main_v134) ((dat10 (Vt35 m) c).arrAt 3 cfg10.N)
abbrev Vt36 : (c : Dev nD) → (b : Ref sig .tc) → Buf (Elt F) ((c : Thread nD τ).loc b) := fun c b => W36 m c b
theorem W36_of_ne (c : Dev nD) (b : Ref sig .tc) (hb : b ≠ main_v134) :
    W36 m c (Proc.devRef .tc b) = W35 m c (Proc.devRef .tc b) := by
  unfold W36; exact Function.update_of_ne (StableHlo.devRef_ne_of_ne hb) _ _
theorem W36_out3 (c : Dev nD) : Vt36 m c main_v134 = (dat10 (Vt35 m) c).arrAt 3 cfg10.N := by
  show W36 m c (Proc.devRef .tc main_v134) = _
  unfold W36; exact Function.update_self _ _ _
set_option maxHeartbeats 4000000 in
theorem hF10 (c : Dev nD) (w : Fin cfg10.W) : (dat10 (Vt35 m) c).arrAt w cfg10.N = Vt36 m c (Pipeline.arrRef spec10 w) :=
  match w with
    | ⟨0, _⟩ => show (dat10 (Vt35 m) c).arrAt (0 : Fin cfg10.W) cfg10.N = W36 m c (Proc.devRef .tc main_v106) from
        (((dat10 (Vt35 m) c).arrAt_in (0 : Fin cfg10.W) rfl cfg10.N).trans
          (show (dat10 (Vt35 m) c).A (0 : Fin cfg10.W) = W35 m c (Proc.devRef .tc main_v106) from A_eq10 (Vt35 m) c (0 : Fin cfg10.W))).trans (W36_of_ne m c main_v106 (by decide)).symm
    | ⟨1, _⟩ => show (dat10 (Vt35 m) c).arrAt (1 : Fin cfg10.W) cfg10.N = W36 m c (Proc.devRef .tc main_v131_1) from
        (((dat10 (Vt35 m) c).arrAt_in (1 : Fin cfg10.W) rfl cfg10.N).trans
          (show (dat10 (Vt35 m) c).A (1 : Fin cfg10.W) = W35 m c (Proc.devRef .tc main_v131_1) from A_eq10 (Vt35 m) c (1 : Fin cfg10.W))).trans (W36_of_ne m c main_v131_1 (by decide)).symm
    | ⟨2, _⟩ => show (dat10 (Vt35 m) c).arrAt (2 : Fin cfg10.W) cfg10.N = W36 m c (Proc.devRef .tc main_v133) from
        (((dat10 (Vt35 m) c).arrAt_in (2 : Fin cfg10.W) rfl cfg10.N).trans
          (show (dat10 (Vt35 m) c).A (2 : Fin cfg10.W) = W35 m c (Proc.devRef .tc main_v133) from A_eq10 (Vt35 m) c (2 : Fin cfg10.W))).trans (W36_of_ne m c main_v133 (by decide)).symm
    | ⟨3, _⟩ => show (dat10 (Vt35 m) c).arrAt (3 : Fin cfg10.W) cfg10.N = W36 m c (Proc.devRef .tc main_v134) from (W36_out3 m c).symm
    | ⟨_ + 4, h⟩ => absurd h (Nat.not_lt.2 (Nat.le_add_left _ _))
theorem hrest10 (c : Dev nD) : ∀ b, b ∉ Finset.univ.image (Pipeline.arrRef spec10) → Vt36 m c b = Vt35 m c b :=
  fun b hb => W36_of_ne m c b (fun e => hb (Finset.mem_image.mpr ⟨(3 : Fin cfg10.W), Finset.mem_univ _, (show Pipeline.arrRef spec10 (3 : Fin cfg10.W) = b from e.symm)⟩))
/-- Region 11: entered at `W36`, left at `W37` (its output arrays at what its write-backs fold to, everything else as entered). -/
def W37 (c : Dev nD) : Valuation τ sig (Elt F) :=
  Function.update (W36 m c) (Proc.devRef .tc main_v135) ((dat11 (Vt36 m) c).arrAt 2 cfg11.N)
abbrev Vt37 : (c : Dev nD) → (b : Ref sig .tc) → Buf (Elt F) ((c : Thread nD τ).loc b) := fun c b => W37 m c b
theorem W37_of_ne (c : Dev nD) (b : Ref sig .tc) (hb : b ≠ main_v135) :
    W37 m c (Proc.devRef .tc b) = W36 m c (Proc.devRef .tc b) := by
  unfold W37; exact Function.update_of_ne (StableHlo.devRef_ne_of_ne hb) _ _
theorem W37_out2 (c : Dev nD) : Vt37 m c main_v135 = (dat11 (Vt36 m) c).arrAt 2 cfg11.N := by
  show W37 m c (Proc.devRef .tc main_v135) = _
  unfold W37; exact Function.update_self _ _ _
set_option maxHeartbeats 4000000 in
theorem hF11 (c : Dev nD) (w : Fin cfg11.W) : (dat11 (Vt36 m) c).arrAt w cfg11.N = Vt37 m c (Pipeline.arrRef spec11 w) :=
  match w with
    | ⟨0, _⟩ => show (dat11 (Vt36 m) c).arrAt (0 : Fin cfg11.W) cfg11.N = W37 m c (Proc.devRef .tc main_v131_1) from
        (((dat11 (Vt36 m) c).arrAt_in (0 : Fin cfg11.W) rfl cfg11.N).trans
          (show (dat11 (Vt36 m) c).A (0 : Fin cfg11.W) = W36 m c (Proc.devRef .tc main_v131_1) from A_eq11 (Vt36 m) c (0 : Fin cfg11.W))).trans (W37_of_ne m c main_v131_1 (by decide)).symm
    | ⟨1, _⟩ => show (dat11 (Vt36 m) c).arrAt (1 : Fin cfg11.W) cfg11.N = W37 m c (Proc.devRef .tc main_v129) from
        (((dat11 (Vt36 m) c).arrAt_in (1 : Fin cfg11.W) rfl cfg11.N).trans
          (show (dat11 (Vt36 m) c).A (1 : Fin cfg11.W) = W36 m c (Proc.devRef .tc main_v129) from A_eq11 (Vt36 m) c (1 : Fin cfg11.W))).trans (W37_of_ne m c main_v129 (by decide)).symm
    | ⟨2, _⟩ => show (dat11 (Vt36 m) c).arrAt (2 : Fin cfg11.W) cfg11.N = W37 m c (Proc.devRef .tc main_v135) from (W37_out2 m c).symm
    | ⟨_ + 3, h⟩ => absurd h (Nat.not_lt.2 (Nat.le_add_left _ _))
theorem hrest11 (c : Dev nD) : ∀ b, b ∉ Finset.univ.image (Pipeline.arrRef spec11) → Vt37 m c b = Vt36 m c b :=
  fun b hb => W37_of_ne m c b (fun e => hb (Finset.mem_image.mpr ⟨(2 : Fin cfg11.W), Finset.mem_univ _, (show Pipeline.arrRef spec11 (2 : Fin cfg11.W) = b from e.symm)⟩))
/-- Region 12: entered at `W37`, left at `W38` (its output arrays at what its write-backs fold to, everything else as entered). -/
def W38 (c : Dev nD) : Valuation τ sig (Elt F) :=
  Function.update (W37 m c) (Proc.devRef .tc main_v136) ((dat12 (Vt37 m) c).arrAt 2 cfg12.N)
abbrev Vt38 : (c : Dev nD) → (b : Ref sig .tc) → Buf (Elt F) ((c : Thread nD τ).loc b) := fun c b => W38 m c b
theorem W38_of_ne (c : Dev nD) (b : Ref sig .tc) (hb : b ≠ main_v136) :
    W38 m c (Proc.devRef .tc b) = W37 m c (Proc.devRef .tc b) := by
  unfold W38; exact Function.update_of_ne (StableHlo.devRef_ne_of_ne hb) _ _
theorem W38_out2 (c : Dev nD) : Vt38 m c main_v136 = (dat12 (Vt37 m) c).arrAt 2 cfg12.N := by
  show W38 m c (Proc.devRef .tc main_v136) = _
  unfold W38; exact Function.update_self _ _ _
set_option maxHeartbeats 4000000 in
theorem hF12 (c : Dev nD) (w : Fin cfg12.W) : (dat12 (Vt37 m) c).arrAt w cfg12.N = Vt38 m c (Pipeline.arrRef spec12 w) :=
  match w with
    | ⟨0, _⟩ => show (dat12 (Vt37 m) c).arrAt (0 : Fin cfg12.W) cfg12.N = W38 m c (Proc.devRef .tc main_v131_1) from
        (((dat12 (Vt37 m) c).arrAt_in (0 : Fin cfg12.W) rfl cfg12.N).trans
          (show (dat12 (Vt37 m) c).A (0 : Fin cfg12.W) = W37 m c (Proc.devRef .tc main_v131_1) from A_eq12 (Vt37 m) c (0 : Fin cfg12.W))).trans (W38_of_ne m c main_v131_1 (by decide)).symm
    | ⟨1, _⟩ => show (dat12 (Vt37 m) c).arrAt (1 : Fin cfg12.W) cfg12.N = W38 m c (Proc.devRef .tc main_v134) from
        (((dat12 (Vt37 m) c).arrAt_in (1 : Fin cfg12.W) rfl cfg12.N).trans
          (show (dat12 (Vt37 m) c).A (1 : Fin cfg12.W) = W37 m c (Proc.devRef .tc main_v134) from A_eq12 (Vt37 m) c (1 : Fin cfg12.W))).trans (W38_of_ne m c main_v134 (by decide)).symm
    | ⟨2, _⟩ => show (dat12 (Vt37 m) c).arrAt (2 : Fin cfg12.W) cfg12.N = W38 m c (Proc.devRef .tc main_v136) from (W38_out2 m c).symm
    | ⟨_ + 3, h⟩ => absurd h (Nat.not_lt.2 (Nat.le_add_left _ _))
theorem hrest12 (c : Dev nD) : ∀ b, b ∉ Finset.univ.image (Pipeline.arrRef spec12) → Vt38 m c b = Vt37 m c b :=
  fun b hb => W38_of_ne m c b (fun e => hb (Finset.mem_image.mpr ⟨(2 : Fin cfg12.W), Finset.mem_univ _, (show Pipeline.arrRef spec12 (2 : Fin cfg12.W) = b from e.symm)⟩))
/-- Region 13: entered at `W38`, left at `W39` (its output arrays at what its write-backs fold to, everything else as entered). -/
def W39 (c : Dev nD) : Valuation τ sig (Elt F) :=
  Function.update (W38 m c) (Proc.devRef .tc main_v137) ((dat13 (Vt38 m) c).arrAt 2 cfg13.N)
abbrev Vt39 : (c : Dev nD) → (b : Ref sig .tc) → Buf (Elt F) ((c : Thread nD τ).loc b) := fun c b => W39 m c b
theorem W39_of_ne (c : Dev nD) (b : Ref sig .tc) (hb : b ≠ main_v137) :
    W39 m c (Proc.devRef .tc b) = W38 m c (Proc.devRef .tc b) := by
  unfold W39; exact Function.update_of_ne (StableHlo.devRef_ne_of_ne hb) _ _
theorem W39_out2 (c : Dev nD) : Vt39 m c main_v137 = (dat13 (Vt38 m) c).arrAt 2 cfg13.N := by
  show W39 m c (Proc.devRef .tc main_v137) = _
  unfold W39; exact Function.update_self _ _ _
abbrev W40 : Dev nD → Valuation τ sig (Elt F) := fun c => StableHlo.after hostOps14 (W39 m c)
abbrev W41 : Dev nD → Valuation τ sig (Elt F) := fun c => StableHlo.after hostOps14_1 (W40 m c)
abbrev W42 : Dev nD → Valuation τ sig (Elt F) := fun c => StableHlo.after hostOps14_2 (W41 m c)
abbrev W43 : Dev nD → Valuation τ sig (Elt F) := fun c => StableHlo.after hostOps14_3 (W42 m c)
abbrev W44 : Dev nD → Valuation τ sig (Elt F) := fun c => StableHlo.after hostOps14_4 (W43 m c)
abbrev W45 : Dev nD → Valuation τ sig (Elt F) := fun c => StableHlo.after hostOps14_5 (W44 m c)
abbrev W46 : Dev nD → Valuation τ sig (Elt F) := fun c => StableHlo.after hostOps14_6 (W45 m c)
abbrev W47 : Dev nD → Valuation τ sig (Elt F) := fun c => StableHlo.after hostOps14_7 (W46 m c)
/-- Region 14: entered at `W47`, left at `W48` (its output arrays at what its write-backs fold to, everything else as entered). -/
abbrev Vt47 : (c : Dev nD) → (b : Ref sig .tc) → Buf (Elt F) ((c : Thread nD τ).loc b) := fun c b => W47 m c b
def W48 (c : Dev nD) : Valuation τ sig (Elt F) :=
  Function.update (W47 m c) (Proc.devRef .tc main_v200) ((dat14 (Vt47 m) c).arrAt 3 cfg14.N)
abbrev Vt48 : (c : Dev nD) → (b : Ref sig .tc) → Buf (Elt F) ((c : Thread nD τ).loc b) := fun c b => W48 m c b
theorem W48_of_ne (c : Dev nD) (b : Ref sig .tc) (hb : b ≠ main_v200) :
    W48 m c (Proc.devRef .tc b) = W47 m c (Proc.devRef .tc b) := by
  unfold W48; exact Function.update_of_ne (StableHlo.devRef_ne_of_ne hb) _ _
theorem W48_out3 (c : Dev nD) : Vt48 m c main_v200 = (dat14 (Vt47 m) c).arrAt 3 cfg14.N := by
  show W48 m c (Proc.devRef .tc main_v200) = _
  unfold W48; exact Function.update_self _ _ _
set_option maxHeartbeats 4000000 in
theorem hF14 (c : Dev nD) (w : Fin cfg14.W) : (dat14 (Vt47 m) c).arrAt w cfg14.N = Vt48 m c (Pipeline.arrRef spec14 w) :=
  match w with
    | ⟨0, _⟩ => show (dat14 (Vt47 m) c).arrAt (0 : Fin cfg14.W) cfg14.N = W48 m c (Proc.devRef .tc main_v135) from
        (((dat14 (Vt47 m) c).arrAt_in (0 : Fin cfg14.W) rfl cfg14.N).trans
          (show (dat14 (Vt47 m) c).A (0 : Fin cfg14.W) = W47 m c (Proc.devRef .tc main_v135) from A_eq14 (Vt47 m) c (0 : Fin cfg14.W))).trans (W48_of_ne m c main_v135 (by decide)).symm
    | ⟨1, _⟩ => show (dat14 (Vt47 m) c).arrAt (1 : Fin cfg14.W) cfg14.N = W48 m c (Proc.devRef .tc main_arg11) from
        (((dat14 (Vt47 m) c).arrAt_in (1 : Fin cfg14.W) rfl cfg14.N).trans
          (show (dat14 (Vt47 m) c).A (1 : Fin cfg14.W) = W47 m c (Proc.devRef .tc main_arg11) from A_eq14 (Vt47 m) c (1 : Fin cfg14.W))).trans (W48_of_ne m c main_arg11 (by decide)).symm
    | ⟨2, _⟩ => show (dat14 (Vt47 m) c).arrAt (2 : Fin cfg14.W) cfg14.N = W48 m c (Proc.devRef .tc main_v199) from
        (((dat14 (Vt47 m) c).arrAt_in (2 : Fin cfg14.W) rfl cfg14.N).trans
          (show (dat14 (Vt47 m) c).A (2 : Fin cfg14.W) = W47 m c (Proc.devRef .tc main_v199) from A_eq14 (Vt47 m) c (2 : Fin cfg14.W))).trans (W48_of_ne m c main_v199 (by decide)).symm
    | ⟨3, _⟩ => show (dat14 (Vt47 m) c).arrAt (3 : Fin cfg14.W) cfg14.N = W48 m c (Proc.devRef .tc main_v200) from (W48_out3 m c).symm
    | ⟨_ + 4, h⟩ => absurd h (Nat.not_lt.2 (Nat.le_add_left _ _))
theorem hrest14 (c : Dev nD) : ∀ b, b ∉ Finset.univ.image (Pipeline.arrRef spec14) → Vt48 m c b = Vt47 m c b :=
  fun b hb => W48_of_ne m c b (fun e => hb (Finset.mem_image.mpr ⟨(3 : Fin cfg14.W), Finset.mem_univ _, (show Pipeline.arrRef spec14 (3 : Fin cfg14.W) = b from e.symm)⟩))
abbrev W49 : Dev nD → Valuation τ sig (Elt F) := fun c => StableHlo.after hostOps15 (W48 m c)
/-- Region 15: entered at `W49`, left at `W50` (its output arrays at what its write-backs fold to, everything else as entered). -/
abbrev Vt49 : (c : Dev nD) → (b : Ref sig .tc) → Buf (Elt F) ((c : Thread nD τ).loc b) := fun c b => W49 m c b
def W50 (c : Dev nD) : Valuation τ sig (Elt F) :=
  Function.update (W49 m c) (Proc.devRef .tc main_v202) ((dat15 (Vt49 m) c).arrAt 3 cfg15.N)
abbrev Vt50 : (c : Dev nD) → (b : Ref sig .tc) → Buf (Elt F) ((c : Thread nD τ).loc b) := fun c b => W50 m c b
theorem W50_of_ne (c : Dev nD) (b : Ref sig .tc) (hb : b ≠ main_v202) :
    W50 m c (Proc.devRef .tc b) = W49 m c (Proc.devRef .tc b) := by
  unfold W50; exact Function.update_of_ne (StableHlo.devRef_ne_of_ne hb) _ _
theorem W50_out3 (c : Dev nD) : Vt50 m c main_v202 = (dat15 (Vt49 m) c).arrAt 3 cfg15.N := by
  show W50 m c (Proc.devRef .tc main_v202) = _
  unfold W50; exact Function.update_self _ _ _
set_option maxHeartbeats 4000000 in
theorem hF15 (c : Dev nD) (w : Fin cfg15.W) : (dat15 (Vt49 m) c).arrAt w cfg15.N = Vt50 m c (Pipeline.arrRef spec15 w) :=
  match w with
    | ⟨0, _⟩ => show (dat15 (Vt49 m) c).arrAt (0 : Fin cfg15.W) cfg15.N = W50 m c (Proc.devRef .tc main_v197) from
        (((dat15 (Vt49 m) c).arrAt_in (0 : Fin cfg15.W) rfl cfg15.N).trans
          (show (dat15 (Vt49 m) c).A (0 : Fin cfg15.W) = W49 m c (Proc.devRef .tc main_v197) from A_eq15 (Vt49 m) c (0 : Fin cfg15.W))).trans (W50_of_ne m c main_v197 (by decide)).symm
    | ⟨1, _⟩ => show (dat15 (Vt49 m) c).arrAt (1 : Fin cfg15.W) cfg15.N = W50 m c (Proc.devRef .tc main_v200) from
        (((dat15 (Vt49 m) c).arrAt_in (1 : Fin cfg15.W) rfl cfg15.N).trans
          (show (dat15 (Vt49 m) c).A (1 : Fin cfg15.W) = W49 m c (Proc.devRef .tc main_v200) from A_eq15 (Vt49 m) c (1 : Fin cfg15.W))).trans (W50_of_ne m c main_v200 (by decide)).symm
    | ⟨2, _⟩ => show (dat15 (Vt49 m) c).arrAt (2 : Fin cfg15.W) cfg15.N = W50 m c (Proc.devRef .tc main_v201) from
        (((dat15 (Vt49 m) c).arrAt_in (2 : Fin cfg15.W) rfl cfg15.N).trans
          (show (dat15 (Vt49 m) c).A (2 : Fin cfg15.W) = W49 m c (Proc.devRef .tc main_v201) from A_eq15 (Vt49 m) c (2 : Fin cfg15.W))).trans (W50_of_ne m c main_v201 (by decide)).symm
    | ⟨3, _⟩ => show (dat15 (Vt49 m) c).arrAt (3 : Fin cfg15.W) cfg15.N = W50 m c (Proc.devRef .tc main_v202) from (W50_out3 m c).symm
    | ⟨_ + 4, h⟩ => absurd h (Nat.not_lt.2 (Nat.le_add_left _ _))
theorem hrest15 (c : Dev nD) : ∀ b, b ∉ Finset.univ.image (Pipeline.arrRef spec15) → Vt50 m c b = Vt49 m c b :=
  fun b hb => W50_of_ne m c b (fun e => hb (Finset.mem_image.mpr ⟨(3 : Fin cfg15.W), Finset.mem_univ _, (show Pipeline.arrRef spec15 (3 : Fin cfg15.W) = b from e.symm)⟩))
abbrev W51 : Dev nD → Valuation τ sig (Elt F) := fun c => StableHlo.after hostOps16 (W50 m c)
/-- Region 16: entered at `W51`, left at `W52` (its output arrays at what its write-backs fold to, everything else as entered). -/
abbrev Vt51 : (c : Dev nD) → (b : Ref sig .tc) → Buf (Elt F) ((c : Thread nD τ).loc b) := fun c b => W51 m c b
def W52 (c : Dev nD) : Valuation τ sig (Elt F) :=
  Function.update (Function.update (W51 m c) (Proc.devRef .tc main_v204_0) ((dat16 (Vt51 m) c).arrAt 3 cfg16.N)) (Proc.devRef .tc main_v204_1) ((dat16 (Vt51 m) c).arrAt 4 cfg16.N)
abbrev Vt52 : (c : Dev nD) → (b : Ref sig .tc) → Buf (Elt F) ((c : Thread nD τ).loc b) := fun c b => W52 m c b
theorem W52_of_ne (c : Dev nD) (b : Ref sig .tc) (hb0 : b ≠ main_v204_0) (hb1 : b ≠ main_v204_1) :
    W52 m c (Proc.devRef .tc b) = W51 m c (Proc.devRef .tc b) := by
  unfold W52; exact (Function.update_of_ne (StableHlo.devRef_ne_of_ne hb1) _ _).trans (Function.update_of_ne (StableHlo.devRef_ne_of_ne hb0) _ _)
theorem W52_out4 (c : Dev nD) : Vt52 m c main_v204_1 = (dat16 (Vt51 m) c).arrAt 4 cfg16.N := by
  show W52 m c (Proc.devRef .tc main_v204_1) = _
  unfold W52; exact Function.update_self _ _ _
theorem W52_out3 (c : Dev nD) : Vt52 m c main_v204_0 = (dat16 (Vt51 m) c).arrAt 3 cfg16.N := by
  show W52 m c (Proc.devRef .tc main_v204_0) = _
  unfold W52; exact (Function.update_of_ne (StableHlo.devRef_ne_of_ne (by decide : main_v204_0 ≠ main_v204_1)) _ _).trans (Function.update_self _ _ _)
set_option maxHeartbeats 4000000 in
theorem hF16 (c : Dev nD) (w : Fin cfg16.W) : (dat16 (Vt51 m) c).arrAt w cfg16.N = Vt52 m c (Pipeline.arrRef spec16 w) :=
  match w with
    | ⟨0, _⟩ => show (dat16 (Vt51 m) c).arrAt (0 : Fin cfg16.W) cfg16.N = W52 m c (Proc.devRef .tc main_v202) from
        (((dat16 (Vt51 m) c).arrAt_in (0 : Fin cfg16.W) rfl cfg16.N).trans
          (show (dat16 (Vt51 m) c).A (0 : Fin cfg16.W) = W51 m c (Proc.devRef .tc main_v202) from A_eq16 (Vt51 m) c (0 : Fin cfg16.W))).trans (W52_of_ne m c main_v202 (by decide) (by decide)).symm
    | ⟨1, _⟩ => show (dat16 (Vt51 m) c).arrAt (1 : Fin cfg16.W) cfg16.N = W52 m c (Proc.devRef .tc main_arg13) from
        (((dat16 (Vt51 m) c).arrAt_in (1 : Fin cfg16.W) rfl cfg16.N).trans
          (show (dat16 (Vt51 m) c).A (1 : Fin cfg16.W) = W51 m c (Proc.devRef .tc main_arg13) from A_eq16 (Vt51 m) c (1 : Fin cfg16.W))).trans (W52_of_ne m c main_arg13 (by decide) (by decide)).symm
    | ⟨2, _⟩ => show (dat16 (Vt51 m) c).arrAt (2 : Fin cfg16.W) cfg16.N = W52 m c (Proc.devRef .tc main_v203) from
        (((dat16 (Vt51 m) c).arrAt_in (2 : Fin cfg16.W) rfl cfg16.N).trans
          (show (dat16 (Vt51 m) c).A (2 : Fin cfg16.W) = W51 m c (Proc.devRef .tc main_v203) from A_eq16 (Vt51 m) c (2 : Fin cfg16.W))).trans (W52_of_ne m c main_v203 (by decide) (by decide)).symm
    | ⟨3, _⟩ => show (dat16 (Vt51 m) c).arrAt (3 : Fin cfg16.W) cfg16.N = W52 m c (Proc.devRef .tc main_v204_0) from (W52_out3 m c).symm
    | ⟨4, _⟩ => show (dat16 (Vt51 m) c).arrAt (4 : Fin cfg16.W) cfg16.N = W52 m c (Proc.devRef .tc main_v204_1) from (W52_out4 m c).symm
    | ⟨_ + 5, h⟩ => absurd h (Nat.not_lt.2 (Nat.le_add_left _ _))
theorem hrest16 (c : Dev nD) : ∀ b, b ∉ Finset.univ.image (Pipeline.arrRef spec16) → Vt52 m c b = Vt51 m c b :=
  fun b hb => W52_of_ne m c b (fun e => hb (Finset.mem_image.mpr ⟨(3 : Fin cfg16.W), Finset.mem_univ _, (show Pipeline.arrRef spec16 (3 : Fin cfg16.W) = b from e.symm)⟩)) (fun e => hb (Finset.mem_image.mpr ⟨(4 : Fin cfg16.W), Finset.mem_univ _, (show Pipeline.arrRef spec16 (4 : Fin cfg16.W) = b from e.symm)⟩))
abbrev W53 : Dev nD → Valuation τ sig (Elt F) := fun c => StableHlo.after hostOps17 (W52 m c)
/-- Region 17: entered at `W53`, left at `W54` (its output arrays at what its write-backs fold to, everything else as entered). -/
abbrev Vt53 : (c : Dev nD) → (b : Ref sig .tc) → Buf (Elt F) ((c : Thread nD τ).loc b) := fun c b => W53 m c b
def W54 (c : Dev nD) : Valuation τ sig (Elt F) :=
  Function.update (W53 m c) (Proc.devRef .tc main_v207) ((dat17 (Vt53 m) c).arrAt 3 cfg17.N)
abbrev Vt54 : (c : Dev nD) → (b : Ref sig .tc) → Buf (Elt F) ((c : Thread nD τ).loc b) := fun c b => W54 m c b
theorem W54_of_ne (c : Dev nD) (b : Ref sig .tc) (hb : b ≠ main_v207) :
    W54 m c (Proc.devRef .tc b) = W53 m c (Proc.devRef .tc b) := by
  unfold W54; exact Function.update_of_ne (StableHlo.devRef_ne_of_ne hb) _ _
theorem W54_out3 (c : Dev nD) : Vt54 m c main_v207 = (dat17 (Vt53 m) c).arrAt 3 cfg17.N := by
  show W54 m c (Proc.devRef .tc main_v207) = _
  unfold W54; exact Function.update_self _ _ _
set_option maxHeartbeats 4000000 in
theorem hF17 (c : Dev nD) (w : Fin cfg17.W) : (dat17 (Vt53 m) c).arrAt w cfg17.N = Vt54 m c (Pipeline.arrRef spec17 w) :=
  match w with
    | ⟨0, _⟩ => show (dat17 (Vt53 m) c).arrAt (0 : Fin cfg17.W) cfg17.N = W54 m c (Proc.devRef .tc main_v179) from
        (((dat17 (Vt53 m) c).arrAt_in (0 : Fin cfg17.W) rfl cfg17.N).trans
          (show (dat17 (Vt53 m) c).A (0 : Fin cfg17.W) = W53 m c (Proc.devRef .tc main_v179) from A_eq17 (Vt53 m) c (0 : Fin cfg17.W))).trans (W54_of_ne m c main_v179 (by decide)).symm
    | ⟨1, _⟩ => show (dat17 (Vt53 m) c).arrAt (1 : Fin cfg17.W) cfg17.N = W54 m c (Proc.devRef .tc main_v204_1) from
        (((dat17 (Vt53 m) c).arrAt_in (1 : Fin cfg17.W) rfl cfg17.N).trans
          (show (dat17 (Vt53 m) c).A (1 : Fin cfg17.W) = W53 m c (Proc.devRef .tc main_v204_1) from A_eq17 (Vt53 m) c (1 : Fin cfg17.W))).trans (W54_of_ne m c main_v204_1 (by decide)).symm
    | ⟨2, _⟩ => show (dat17 (Vt53 m) c).arrAt (2 : Fin cfg17.W) cfg17.N = W54 m c (Proc.devRef .tc main_v206) from
        (((dat17 (Vt53 m) c).arrAt_in (2 : Fin cfg17.W) rfl cfg17.N).trans
          (show (dat17 (Vt53 m) c).A (2 : Fin cfg17.W) = W53 m c (Proc.devRef .tc main_v206) from A_eq17 (Vt53 m) c (2 : Fin cfg17.W))).trans (W54_of_ne m c main_v206 (by decide)).symm
    | ⟨3, _⟩ => show (dat17 (Vt53 m) c).arrAt (3 : Fin cfg17.W) cfg17.N = W54 m c (Proc.devRef .tc main_v207) from (W54_out3 m c).symm
    | ⟨_ + 4, h⟩ => absurd h (Nat.not_lt.2 (Nat.le_add_left _ _))
theorem hrest17 (c : Dev nD) : ∀ b, b ∉ Finset.univ.image (Pipeline.arrRef spec17) → Vt54 m c b = Vt53 m c b :=
  fun b hb => W54_of_ne m c b (fun e => hb (Finset.mem_image.mpr ⟨(3 : Fin cfg17.W), Finset.mem_univ _, (show Pipeline.arrRef spec17 (3 : Fin cfg17.W) = b from e.symm)⟩))
/-- Region 18: entered at `W54`, left at `W55` (its output arrays at what its write-backs fold to, everything else as entered). -/
def W55 (c : Dev nD) : Valuation τ sig (Elt F) :=
  Function.update (W54 m c) (Proc.devRef .tc main_v208) ((dat18 (Vt54 m) c).arrAt 2 cfg18.N)
abbrev Vt55 : (c : Dev nD) → (b : Ref sig .tc) → Buf (Elt F) ((c : Thread nD τ).loc b) := fun c b => W55 m c b
theorem W55_of_ne (c : Dev nD) (b : Ref sig .tc) (hb : b ≠ main_v208) :
    W55 m c (Proc.devRef .tc b) = W54 m c (Proc.devRef .tc b) := by
  unfold W55; exact Function.update_of_ne (StableHlo.devRef_ne_of_ne hb) _ _
theorem W55_out2 (c : Dev nD) : Vt55 m c main_v208 = (dat18 (Vt54 m) c).arrAt 2 cfg18.N := by
  show W55 m c (Proc.devRef .tc main_v208) = _
  unfold W55; exact Function.update_self _ _ _
set_option maxHeartbeats 4000000 in
theorem hF18 (c : Dev nD) (w : Fin cfg18.W) : (dat18 (Vt54 m) c).arrAt w cfg18.N = Vt55 m c (Pipeline.arrRef spec18 w) :=
  match w with
    | ⟨0, _⟩ => show (dat18 (Vt54 m) c).arrAt (0 : Fin cfg18.W) cfg18.N = W55 m c (Proc.devRef .tc main_v204_1) from
        (((dat18 (Vt54 m) c).arrAt_in (0 : Fin cfg18.W) rfl cfg18.N).trans
          (show (dat18 (Vt54 m) c).A (0 : Fin cfg18.W) = W54 m c (Proc.devRef .tc main_v204_1) from A_eq18 (Vt54 m) c (0 : Fin cfg18.W))).trans (W55_of_ne m c main_v204_1 (by decide)).symm
    | ⟨1, _⟩ => show (dat18 (Vt54 m) c).arrAt (1 : Fin cfg18.W) cfg18.N = W55 m c (Proc.devRef .tc main_v202) from
        (((dat18 (Vt54 m) c).arrAt_in (1 : Fin cfg18.W) rfl cfg18.N).trans
          (show (dat18 (Vt54 m) c).A (1 : Fin cfg18.W) = W54 m c (Proc.devRef .tc main_v202) from A_eq18 (Vt54 m) c (1 : Fin cfg18.W))).trans (W55_of_ne m c main_v202 (by decide)).symm
    | ⟨2, _⟩ => show (dat18 (Vt54 m) c).arrAt (2 : Fin cfg18.W) cfg18.N = W55 m c (Proc.devRef .tc main_v208) from (W55_out2 m c).symm
    | ⟨_ + 3, h⟩ => absurd h (Nat.not_lt.2 (Nat.le_add_left _ _))
theorem hrest18 (c : Dev nD) : ∀ b, b ∉ Finset.univ.image (Pipeline.arrRef spec18) → Vt55 m c b = Vt54 m c b :=
  fun b hb => W55_of_ne m c b (fun e => hb (Finset.mem_image.mpr ⟨(2 : Fin cfg18.W), Finset.mem_univ _, (show Pipeline.arrRef spec18 (2 : Fin cfg18.W) = b from e.symm)⟩))
/-- Region 19: entered at `W55`, left at `W56` (its output arrays at what its write-backs fold to, everything else as entered). -/
def W56 (c : Dev nD) : Valuation τ sig (Elt F) :=
  Function.update (W55 m c) (Proc.devRef .tc main_v209) ((dat19 (Vt55 m) c).arrAt 2 cfg19.N)
abbrev Vt56 : (c : Dev nD) → (b : Ref sig .tc) → Buf (Elt F) ((c : Thread nD τ).loc b) := fun c b => W56 m c b
theorem W56_of_ne (c : Dev nD) (b : Ref sig .tc) (hb : b ≠ main_v209) :
    W56 m c (Proc.devRef .tc b) = W55 m c (Proc.devRef .tc b) := by
  unfold W56; exact Function.update_of_ne (StableHlo.devRef_ne_of_ne hb) _ _
theorem W56_out2 (c : Dev nD) : Vt56 m c main_v209 = (dat19 (Vt55 m) c).arrAt 2 cfg19.N := by
  show W56 m c (Proc.devRef .tc main_v209) = _
  unfold W56; exact Function.update_self _ _ _
set_option maxHeartbeats 4000000 in
theorem hF19 (c : Dev nD) (w : Fin cfg19.W) : (dat19 (Vt55 m) c).arrAt w cfg19.N = Vt56 m c (Pipeline.arrRef spec19 w) :=
  match w with
    | ⟨0, _⟩ => show (dat19 (Vt55 m) c).arrAt (0 : Fin cfg19.W) cfg19.N = W56 m c (Proc.devRef .tc main_v204_1) from
        (((dat19 (Vt55 m) c).arrAt_in (0 : Fin cfg19.W) rfl cfg19.N).trans
          (show (dat19 (Vt55 m) c).A (0 : Fin cfg19.W) = W55 m c (Proc.devRef .tc main_v204_1) from A_eq19 (Vt55 m) c (0 : Fin cfg19.W))).trans (W56_of_ne m c main_v204_1 (by decide)).symm
    | ⟨1, _⟩ => show (dat19 (Vt55 m) c).arrAt (1 : Fin cfg19.W) cfg19.N = W56 m c (Proc.devRef .tc main_v207) from
        (((dat19 (Vt55 m) c).arrAt_in (1 : Fin cfg19.W) rfl cfg19.N).trans
          (show (dat19 (Vt55 m) c).A (1 : Fin cfg19.W) = W55 m c (Proc.devRef .tc main_v207) from A_eq19 (Vt55 m) c (1 : Fin cfg19.W))).trans (W56_of_ne m c main_v207 (by decide)).symm
    | ⟨2, _⟩ => show (dat19 (Vt55 m) c).arrAt (2 : Fin cfg19.W) cfg19.N = W56 m c (Proc.devRef .tc main_v209) from (W56_out2 m c).symm
    | ⟨_ + 3, h⟩ => absurd h (Nat.not_lt.2 (Nat.le_add_left _ _))
theorem hrest19 (c : Dev nD) : ∀ b, b ∉ Finset.univ.image (Pipeline.arrRef spec19) → Vt56 m c b = Vt55 m c b :=
  fun b hb => W56_of_ne m c b (fun e => hb (Finset.mem_image.mpr ⟨(2 : Fin cfg19.W), Finset.mem_univ _, (show Pipeline.arrRef spec19 (2 : Fin cfg19.W) = b from e.symm)⟩))
/-- Region 20: entered at `W56`, left at `W57` (its output arrays at what its write-backs fold to, everything else as entered). -/
def W57 (c : Dev nD) : Valuation τ sig (Elt F) :=
  Function.update (W56 m c) (Proc.devRef .tc main_v210) ((dat20 (Vt56 m) c).arrAt 2 cfg20.N)
abbrev Vt57 : (c : Dev nD) → (b : Ref sig .tc) → Buf (Elt F) ((c : Thread nD τ).loc b) := fun c b => W57 m c b
theorem W57_of_ne (c : Dev nD) (b : Ref sig .tc) (hb : b ≠ main_v210) :
    W57 m c (Proc.devRef .tc b) = W56 m c (Proc.devRef .tc b) := by
  unfold W57; exact Function.update_of_ne (StableHlo.devRef_ne_of_ne hb) _ _
theorem W57_out2 (c : Dev nD) : Vt57 m c main_v210 = (dat20 (Vt56 m) c).arrAt 2 cfg20.N := by
  show W57 m c (Proc.devRef .tc main_v210) = _
  unfold W57; exact Function.update_self _ _ _
abbrev W58 : Dev nD → Valuation τ sig (Elt F) := fun c => StableHlo.after hostOps21 (W57 m c)
abbrev W59 : Dev nD → Valuation τ sig (Elt F) := fun c => StableHlo.after hostOps21_1 (W58 m c)
abbrev W60 : Dev nD → Valuation τ sig (Elt F) := fun c => StableHlo.after hostOps21_2 (W59 m c)
abbrev W61 : Dev nD → Valuation τ sig (Elt F) := fun c => StableHlo.after hostOps21_3 (W60 m c)
abbrev W62 : Dev nD → Valuation τ sig (Elt F) := fun c => StableHlo.after hostOps21_4 (W61 m c)
abbrev W63 : Dev nD → Valuation τ sig (Elt F) := fun c => StableHlo.after hostOps21_5 (W62 m c)

/-! ## The proof data family and the thread state -/
abbrev adm : (p : Fin 21) → (pcfgs (F := F) p).Adm := fun p => (cfgs p).toPCfg_adm
def pdats : (p : Fin 21) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt6 m) c
  | ⟨2, _⟩ => fun c => dat2 (Vt10 m) c
  | ⟨3, _⟩ => fun c => dat3 (Vt16 m) c
  | ⟨4, _⟩ => fun c => dat4 (Vt18 m) c
  | ⟨5, _⟩ => fun c => dat5 (Vt19 m) c
  | ⟨6, _⟩ => fun c => dat6 (Vt20 m) c
  | ⟨7, _⟩ => fun c => dat7 (Vt29 m) c
  | ⟨8, _⟩ => fun c => dat8 (Vt31 m) c
  | ⟨9, _⟩ => fun c => dat9 (Vt33 m) c
  | ⟨10, _⟩ => fun c => dat10 (Vt35 m) c
  | ⟨11, _⟩ => fun c => dat11 (Vt36 m) c
  | ⟨12, _⟩ => fun c => dat12 (Vt37 m) c
  | ⟨13, _⟩ => fun c => dat13 (Vt38 m) c
  | ⟨14, _⟩ => fun c => dat14 (Vt47 m) c
  | ⟨15, _⟩ => fun c => dat15 (Vt49 m) c
  | ⟨16, _⟩ => fun c => dat16 (Vt51 m) c
  | ⟨17, _⟩ => fun c => dat17 (Vt53 m) c
  | ⟨18, _⟩ => fun c => dat18 (Vt54 m) c
  | ⟨19, _⟩ => fun c => dat19 (Vt55 m) c
  | ⟨20, _⟩ => fun c => dat20 (Vt56 m) c
  | ⟨_ + 21, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem hostOps3_2_fresh : (hostOps3_2 : List (HloOp τ sig (Elt F))).Forall fun op => op.fresh = ∅ := by
  simp only [List.Forall]; repeat' constructor
theorem hostOps3_3_fresh : (hostOps3_3 : List (HloOp τ sig (Elt F))).Forall fun op => op.fresh = ∅ := by
  simp only [List.Forall]; repeat' constructor
theorem hostOps3_4_fresh : (hostOps3_4 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps7_1_fresh : (hostOps7_1 : List (HloOp τ sig (Elt F))).Forall fun op => op.fresh = ∅ := by
  simp only [List.Forall]; repeat' constructor
theorem hostOps7_2_fresh : (hostOps7_2 : List (HloOp τ sig (Elt F))).Forall fun op => op.fresh = ∅ := by
  simp only [List.Forall]; repeat' constructor
theorem hostOps7_3_fresh : (hostOps7_3 : List (HloOp τ sig (Elt F))).Forall fun op => op.fresh = ∅ := by
  simp only [List.Forall]; repeat' constructor
theorem hostOps7_4_fresh : (hostOps7_4 : List (HloOp τ sig (Elt F))).Forall fun op => op.fresh = ∅ := by
  simp only [List.Forall]; repeat' constructor
theorem hostOps7_5_fresh : (hostOps7_5 : List (HloOp τ sig (Elt F))).Forall fun op => op.fresh = ∅ := by
  simp only [List.Forall]; repeat' constructor
theorem hostOps7_6_fresh : (hostOps7_6 : List (HloOp τ sig (Elt F))).Forall fun op => op.fresh = ∅ := by
  simp only [List.Forall]; repeat' constructor
theorem hostOps7_7_fresh : (hostOps7_7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps14_1_fresh : (hostOps14_1 : List (HloOp τ sig (Elt F))).Forall fun op => op.fresh = ∅ := by
  simp only [List.Forall]; repeat' constructor
theorem hostOps14_2_fresh : (hostOps14_2 : List (HloOp τ sig (Elt F))).Forall fun op => op.fresh = ∅ := by
  simp only [List.Forall]; repeat' constructor
theorem hostOps14_3_fresh : (hostOps14_3 : List (HloOp τ sig (Elt F))).Forall fun op => op.fresh = ∅ := by
  simp only [List.Forall]; repeat' constructor
theorem hostOps14_4_fresh : (hostOps14_4 : List (HloOp τ sig (Elt F))).Forall fun op => op.fresh = ∅ := by
  simp only [List.Forall]; repeat' constructor
theorem hostOps14_5_fresh : (hostOps14_5 : List (HloOp τ sig (Elt F))).Forall fun op => op.fresh = ∅ := by
  simp only [List.Forall]; repeat' constructor
theorem hostOps14_6_fresh : (hostOps14_6 : List (HloOp τ sig (Elt F))).Forall fun op => op.fresh = ∅ := by
  simp only [List.Forall]; repeat' constructor
theorem hostOps14_7_fresh : (hostOps14_7 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor
theorem hostOps16_fresh : (hostOps16 : List (HloOp τ sig (Elt F))).Forall fun op => op.fresh = ∅ := by
  simp only [List.Forall]; repeat' constructor
theorem hostOps17_fresh : (hostOps17 : List (HloOp τ sig (Elt F))).Forall fun op => op.fresh = ∅ := by
  simp only [List.Forall]; repeat' constructor
theorem hostOps21_fresh : (hostOps21 : List (HloOp τ sig (Elt F))).Forall fun op => op.fresh = ∅ := by
  simp only [List.Forall]; repeat' constructor
theorem hostOps21_1_fresh : (hostOps21_1 : List (HloOp τ sig (Elt F))).Forall fun op => op.fresh = ∅ := by
  simp only [List.Forall]; repeat' constructor
theorem hostOps21_2_fresh : (hostOps21_2 : List (HloOp τ sig (Elt F))).Forall fun op => op.fresh = ∅ := by
  simp only [List.Forall]; repeat' constructor
theorem hostOps21_3_fresh : (hostOps21_3 : List (HloOp τ sig (Elt F))).Forall fun op => op.fresh = ∅ := by
  simp only [List.Forall]; repeat' constructor
theorem hostOps21_4_fresh : (hostOps21_4 : List (HloOp τ sig (Elt F))).Forall fun op => op.fresh = ∅ := by
  simp only [List.Forall]; repeat' constructor
theorem hostOps21_5_fresh : (hostOps21_5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W63 m c) ∗ ∃ r, prngReg c r)

end Cert.KernelIdeal.Hand

end
-- ==== Proof.KI.Regs.lean ====
/- Each kernel region of KernelIdeal's @main as a segment over the thread state "every unscoped buffer at the boundary's
   contents, the generator register at some state, nothing owed": its arrays split out of the unscoped buffers at entry and
   put back at the exit contents. -/
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import proofs.«405323_j90718299226206_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/
set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi_first0 (Vt1 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (Vt1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vt6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_first1 (Vt6 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (Vt6 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt6 m c) (Vt7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W10`, left at `W11`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt10 m) c).loose
  hwaits := Pipeline.hwaits_of_owed_zero _ _ _ _ L lv 2 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec2 c (Vt10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi_first2 (Vt10 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi_last2 (Vt10 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt10 m c) (Vt11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W16`, left at `W17`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt16 m) c).loose
  hwaits := Pipeline.hwaits_of_owed_zero _ _ _ _ L lv 3 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec3 c (Vt16 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vt16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi_first3 (Vt16 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Phi_last3 (Vt16 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vt16 m c) (Vt17 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W18`, left at `W19`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt18 m) c).loose
  hwaits := Pipeline.hwaits_of_owed_zero _ _ _ _ L lv 4 fun _ _ => rfl
  pre c := iprop(StableHlo.held (c : Thread nD τ) (Pipeline.ucRefs τ sig) (W18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := UR sig nD τ) (Lvl := ℕ) spec4 c (Vt18 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vt18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Phi_first4 (Vt18 m) c]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from Phi_last4 (Vt18 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vt18 m c) (Vt19 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W19`, left at `W20`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt19 m) c).loose
  hwaits := Pipeline.hwaits_of_owed_zero _ _ _ _ L lv 5 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec5 c (Vt19 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vt19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi_first5 (Vt19 m) c]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from Phi_last5 (Vt19 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vt19 m c) (Vt20 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W29`, left at `W30`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vt29 m) c).loose
  hwaits := Pipeline.hwaits_of_owed_zero _ _ _ _ L lv 7 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec7 c (Vt29 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vt29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi_first7 (Vt29 m) c]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from Phi_last7 (Vt29 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vt29 m c) (Vt30 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W31`, left at `W32`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vt31 m) c).loose
  hwaits := Pipeline.hwaits_of_owed_zero _ _ _ _ L lv 8 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec8 c (Vt31 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vt31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Phi_first8 (Vt31 m) c]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from Phi_last8 (Vt31 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vt31 m c) (Vt32 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W33`, left at `W34`. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vt33 m) c).loose
  hwaits := Pipeline.hwaits_of_owed_zero _ _ _ _ L lv 9 fun _ _ => rfl
  pre c := iprop(StableHlo.held (c : Thread nD τ) (Pipeline.ucRefs τ sig) (W33 m c) ∗ R c)
  post c := iprop(StableHlo.held (c : Thread nD τ) (Pipeline.ucRefs τ sig) (W34 m c) ∗ R c)
  X c := iprop(∃ r, prngReg c r)
  Y c := iprop(∃ r, prngReg c r)
  Z c := Pipeline.unscopedRest (Ix := Unit) (Name := ℕ) (U := UR sig nD τ) (Lvl := ℕ) spec9 c (Vt33 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vt33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Phi_first9 (Vt33 m) c]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from Phi_last9 (Vt33 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vt33 m c) (Vt34 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered from every unscoped buffer at `W35`, left at `W36`. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vt35 m) c).loose
  hwaits := Pipeline.hwaits_of_owed_zero _ _ _ _ L lv 10 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec10 c (Vt35 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vt35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from Phi_first10 (Vt35 m) c]; unfold Pipeline.ΦA
    iintro ⟨Hp, -, Hr⟩
    isplitl [Hr]; · iexact Hr
    iexact Hp
  hout c := by
    rw [Pipeline.ownSems0_none]
    refine (show (pdats m 10 c).Φ (Fin.last _) ⊢ Pipeline.ΦA spec10 c from Phi_last10 (Vt35 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vt35 m c) (Vt36 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 11 over the thread state: entered from every unscoped buffer at `W36`, left at `W37`. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vt36 m) c).loose
  hwaits := Pipeline.hwaits_of_owed_zero _ _ _ _ L lv 11 fun _ _ => rfl
  pre c := iprop(StableHlo.held (c : Thread nD τ) (Pipeline.ucRefs τ sig) (W36 m c) ∗ R c)
  post c := iprop(StableHlo.held (c : Thread nD τ) (Pipeline.ucRefs τ sig) (W37 m c) ∗ R c)
  X c := iprop(∃ r, prngReg c r)
  Y c := iprop(∃ r, prngReg c r)
  Z c := Pipeline.unscopedRest (Ix := Unit) (Name := ℕ) (U := UR sig nD τ) (Lvl := ℕ) spec11 c (Vt36 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vt36 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from Phi_first11 (Vt36 m) c]; unfold Pipeline.ΦA
    iintro ⟨Hp, -, Hr⟩
    isplitl [Hr]; · iexact Hr
    iexact Hp
  hout c := by
    rw [Pipeline.ownSems0_none]
    refine (show (pdats m 11 c).Φ (Fin.last _) ⊢ Pipeline.ΦA spec11 c from Phi_last11 (Vt36 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vt36 m c) (Vt37 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 12 over the thread state: entered from every unscoped buffer at `W37`, left at `W38`. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vt37 m) c).loose
  hwaits := Pipeline.hwaits_of_owed_zero _ _ _ _ L lv 12 fun _ _ => rfl
  pre c := iprop(StableHlo.held (c : Thread nD τ) (Pipeline.ucRefs τ sig) (W37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec12 c (Vt37 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vt37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from Phi_first12 (Vt37 m) c]; unfold Pipeline.ΦA
    iintro ⟨Hp, -, Hr⟩
    isplitl [Hr]; · iexact Hr
    iexact Hp
  hout c := by
    rw [Pipeline.ownSems0_none]
    refine (show (pdats m 12 c).Φ (Fin.last _) ⊢ Pipeline.ΦA spec12 c from Phi_last12 (Vt37 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vt37 m c) (Vt38 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 14 over the thread state: entered from every unscoped buffer at `W47`, left at `W48`. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (Vt47 m) c).loose
  hwaits := Pipeline.hwaits_of_owed_zero _ _ _ _ L lv 14 fun _ _ => rfl
  pre c := iprop(StableHlo.held (c : Thread nD τ) (Pipeline.ucRefs τ sig) (W47 m c) ∗ R c)
  post c := iprop(StableHlo.held (c : Thread nD τ) (Pipeline.ucRefs τ sig) (W48 m c) ∗ R c)
  X c := iprop(∃ r, prngReg c r)
  Y c := iprop(∃ r, prngReg c r)
  Z c := Pipeline.unscopedRest (Ix := Unit) (Name := ℕ) (U := UR sig nD τ) (Lvl := ℕ) spec14 c (Vt47 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (Vt47 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from Phi_first14 (Vt47 m) c]; unfold Pipeline.ΦA
    iintro ⟨Hp, -, Hr⟩
    isplitl [Hr]; · iexact Hr
    iexact Hp
  hout c := by
    rw [Pipeline.ownSems0_none]
    refine (show (pdats m 14 c).Φ (Fin.last _) ⊢ Pipeline.ΦA spec14 c from Phi_last14 (Vt47 m) c).trans ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (Vt47 m c) (Vt48 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 15 over the thread state: entered from every unscoped buffer at `W49`, left at `W50`. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (Vt49 m) c).loose
  hwaits := Pipeline.hwaits_of_owed_zero _ _ _ _ L lv 15 fun _ _ => rfl
  pre c := iprop(StableHlo.held (c : Thread nD τ) (Pipeline.ucRefs τ sig) (W49 m c) ∗ R c)
  post c := iprop(StableHlo.held (c : Thread nD τ) (Pipeline.ucRefs τ sig) (W50 m c) ∗ R c)
  X c := iprop(∃ r, prngReg c r)
  Y c := iprop(∃ r, prngReg c r)
  Z c := Pipeline.unscopedRest (Ix := Unit) (Name := ℕ) (U := UR sig nD τ) (Lvl := ℕ) spec15 c (Vt49 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (Vt49 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from Phi_first15 (Vt49 m) c]; unfold Pipeline.ΦA
    iintro ⟨Hp, -, Hr⟩
    isplitl [Hr]; · iexact Hr
    iexact Hp
  hout c := by
    rw [Pipeline.ownSems0_none]
    refine (show (pdats m 15 c).Φ (Fin.last _) ⊢ Pipeline.ΦA spec15 c from Phi_last15 (Vt49 m) c).trans ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (Vt49 m c) (Vt50 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 16 over the thread state: entered from every unscoped buffer at `W51`, left at `W52`. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (Vt51 m) c).loose
  hwaits := Pipeline.hwaits_of_owed_zero _ _ _ _ L lv 16 fun _ _ => rfl
  pre c := iprop(StableHlo.held (c : Thread nD τ) (Pipeline.ucRefs τ sig) (W51 m c) ∗ R c)
  post c := iprop(StableHlo.held (c : Thread nD τ) (Pipeline.ucRefs τ sig) (W52 m c) ∗ R c)
  X c := iprop(∃ r, prngReg c r)
  Y c := iprop(∃ r, prngReg c r)
  Z c := Pipeline.unscopedRest (Ix := Unit) (Name := ℕ) (U := UR sig nD τ) (Lvl := ℕ) spec16 c (Vt51 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (Vt51 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from Phi_first16 (Vt51 m) c]; unfold Pipeline.ΦA
    iintro ⟨Hp, -, Hr⟩
    isplitl [Hr]; · iexact Hr
    iexact Hp
  hout c := by
    rw [Pipeline.ownSems0_none]
    refine (show (pdats m 16 c).Φ (Fin.last _) ⊢ Pipeline.ΦA spec16 c from Phi_last16 (Vt51 m) c).trans ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (Vt51 m c) (Vt52 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 17 over the thread state: entered from every unscoped buffer at `W53`, left at `W54`. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (Vt53 m) c).loose
  hwaits := Pipeline.hwaits_of_owed_zero _ _ _ _ L lv 17 fun _ _ => rfl
  pre c := iprop(StableHlo.held (c : Thread nD τ) (Pipeline.ucRefs τ sig) (W53 m c) ∗ R c)
  post c := iprop(StableHlo.held (c : Thread nD τ) (Pipeline.ucRefs τ sig) (W54 m c) ∗ R c)
  X c := iprop(∃ r, prngReg c r)
  Y c := iprop(∃ r, prngReg c r)
  Z c := Pipeline.unscopedRest (Ix := Unit) (Name := ℕ) (U := UR sig nD τ) (Lvl := ℕ) spec17 c (Vt53 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (Vt53 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from Phi_first17 (Vt53 m) c]; unfold Pipeline.ΦA
    iintro ⟨Hp, -, Hr⟩
    isplitl [Hr]; · iexact Hr
    iexact Hp
  hout c := by
    rw [Pipeline.ownSems0_none]
    refine (show (pdats m 17 c).Φ (Fin.last _) ⊢ Pipeline.ΦA spec17 c from Phi_last17 (Vt53 m) c).trans ?_
    unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (Vt53 m c) (Vt54 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 18 over the thread state: entered from every unscoped buffer at `W54`, left at `W55`. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (Vt54 m) c).loose
  hwaits := Pipeline.hwaits_of_owed_zero _ _ _ _ L lv 18 fun _ _ => rfl
  pre c := iprop(StableHlo.held (c : Thread nD τ) (Pipeline.ucRefs τ sig) (W54 m c) ∗ R c)
  post c := iprop(StableHlo.held (c : Thread nD τ) (Pipeline.ucRefs τ sig) (W55 m c) ∗ R c)
  X c := iprop(∃ r, prngReg c r)
  Y c := iprop(∃ r, prngReg c r)
  Z c := Pipeline.unscopedRest (Ix := Unit) (Name := ℕ) (U := UR sig nD τ) (Lvl := ℕ) spec18 c (Vt54 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (Vt54 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from Phi_first18 (Vt54 m) c]; unfold Pipeline.ΦA
    iintro ⟨Hp, -, Hr⟩
    isplitl [Hr]; · iexact Hr
    iexact Hp
  hout c := by
    rw [Pipeline.ownSems0_none]
    refine (show (pdats m 18 c).Φ (Fin.last _) ⊢ Pipeline.ΦA spec18 c from Phi_last18 (Vt54 m) c).trans ?_
    unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (Vt54 m c) (Vt55 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 19 over the thread state: entered from every unscoped buffer at `W55`, left at `W56`. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (Vt55 m) c).loose
  hwaits := Pipeline.hwaits_of_owed_zero _ _ _ _ L lv 19 fun _ _ => rfl
  pre c := iprop(StableHlo.held (c : Thread nD τ) (Pipeline.ucRefs τ sig) (W55 m c) ∗ R c)
  post c := iprop(StableHlo.held (c : Thread nD τ) (Pipeline.ucRefs τ sig) (W56 m c) ∗ R c)
  X c := iprop(∃ r, prngReg c r)
  Y c := iprop(∃ r, prngReg c r)
  Z c := Pipeline.unscopedRest (Ix := Unit) (Name := ℕ) (U := UR sig nD τ) (Lvl := ℕ) spec19 c (Vt55 m c)
  hentry c := by
    rw [Pipeline.ownSems0_none]
    have hsplit := Pipeline.arrays_of_unscopedBufs (p := 19) (pcfgs (F := F)) adm (pdats m) launch19.win launch19.arr_whole c
      ((pdats m 19 c).share_full fun _ => rfl) (Vt55 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from Phi_first19 (Vt55 m) c]; unfold Pipeline.ΦA
    iintro ⟨Hp, -, Hr⟩
    isplitl [Hr]; · iexact Hr
    iexact Hp
  hout c := by
    rw [Pipeline.ownSems0_none]
    refine (show (pdats m 19 c).Φ (Fin.last _) ⊢ Pipeline.ΦA spec19 c from Phi_last19 (Vt55 m) c).trans ?_
    unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (Vt55 m c) (Vt56 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Shared.lean ====
/-
  REGIONS WHOSE TWO INPUT WINDOWS READ ONE ARRAY. A kernel region with three windows — inputs w0 and w1 on the SAME buffer,
  output w2 on another — holds that common buffer once, whole, among the core's unscoped buffers, while the pipeline's
  `arrays` asks for one points-to per window. The full share of the common buffer is the composite of its left and right
  halves; window w0 takes the left half, window w1 the right half, and at the exit the two halves (the inputs are never
  written, so both still hold the entry contents) recombine into the full share. The output window's buffer is held whole
  throughout. These are the entry and exit entailments of such a region, in the shape of the ones for distinct arrays.
-/
import proofs.«405323_j90718299226206_3_alg».proof.Proof.Gen.KernelIdeal.Launch
import proofs.«405323_j90718299226206_3_alg».proof.Proof.Gen.KernelIdeal.Points
import Idealize.ShloMosaic.Lib.Pipeline.RegionsLoop
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Shared

variable {cfg : Pipeline.Cfg sig Λ₀} (c : Dev nD) (dat : Dat τ (Elt F) Unit ℕ (UR sig nD τ) ℕ cfg c)
  (w0 w1 w2 : Fin cfg.W)

/-- The window pattern: exactly three windows; w0 and w1 are inputs on one buffer, w2 an output on another; every
    array a whole buffer; the proof data splits the common buffer's full share into its left half (w0) and right half (w1). -/
structure Pattern : Prop where
  all : ∀ w : Fin cfg.W, w = w0 ∨ w = w1 ∨ w = w2
  ne01 : w0 ≠ w1
  ne02 : w0 ≠ w2
  ne12 : w1 ≠ w2
  same : Pipeline.arrRef cfg.spec w1 = Pipeline.arrRef cfg.spec w0
  other : Pipeline.arrRef cfg.spec w2 ≠ Pipeline.arrRef cfg.spec w0
  in0 : (cfg.win w0).isOut = false
  in1 : (cfg.win w1).isOut = false
  out2 : (cfg.win w2).isOut = true
  q0 : dat.q w0 = fullShare.left
  q1 : dat.q w1 = fullShare.right
  whole : ∀ w, (cfg.spec w).arr.IsWhole

variable {c dat w0 w1 w2}

theorem Pattern.share0 (h : Pattern c dat w0 w1 w2) : dat.share w0 = fullShare.left := by
  unfold Dat.share; rw [h.in0]; exact h.q0
theorem Pattern.share1 (h : Pattern c dat w0 w1 w2) : dat.share w1 = fullShare.right := by
  unfold Dat.share; rw [h.in1]; exact h.q1
theorem Pattern.share2 (h : Pattern c dat w0 w1 w2) : dat.share w2 = fullShare := by
  unfold Dat.share; rw [h.out2]; rfl

/-- The distinct buffers behind the three windows are the common one and the output's. -/
theorem Pattern.image (h : Pattern c dat w0 w1 w2) :
    Finset.univ.image (Pipeline.arrRef cfg.spec) = {Pipeline.arrRef cfg.spec w0, Pipeline.arrRef cfg.spec w2} := by
  classical
  ext b
  simp only [Finset.mem_image, Finset.mem_univ, true_and, Finset.mem_insert, Finset.mem_singleton]
  constructor
  · rintro ⟨w, rfl⟩
    rcases h.all w with rfl | rfl | rfl
    · exact Or.inl rfl
    · exact Or.inl h.same
    · exact Or.inr rfl
  · rintro (rfl | rfl)
    · exact ⟨w0, rfl⟩
    · exact ⟨w2, rfl⟩

theorem Pattern.univ (h : Pattern c dat w0 w1 w2) : (Finset.univ : Finset (Fin cfg.W)) = {w0, w1, w2} := by
  ext w; simp only [Finset.mem_univ, Finset.mem_insert, Finset.mem_singleton, true_iff]; exact h.all w

/-- A points-to of one buffer under another name of the same buffer. -/
theorem pt_congr (c : Dev nD) (V : (b : Ref sig .tc) → Buf (Elt F) ((c : Thread nD τ).loc b)) (q : PosShare TreeShare)
    {b b' : Ref sig .tc} (e : b' = b) :
    ((((c : Thread nD τ).loc b') ↦{q} V b' : sProp 𝕄)) = (((c : Thread nD τ).loc b) ↦{q} V b) := by subst e; rfl

/-- The two buffers, each whole at the full share at contents `V`, ARE the three windows' arrays at contents read off
    `V`: the common buffer's full share is its left half (window w0) beside its right half (window w1). -/
theorem arrBufs_eq_arrays (h : Pattern c dat w0 w1 w2) (V : (b : Ref sig .tc) → Buf (Elt F) ((c : Thread nD τ).loc b))
    (G : (w : Fin cfg.W) → Buf (Elt F) ((cfg.win w).arr.view.loc (c : Thread nD τ)))
    (hG : ∀ w, G w = V (Pipeline.arrRef cfg.spec w)) :
    (Pipeline.arrBufs (Ix := Unit) (Name := ℕ) (U := UR sig nD τ) (Lvl := ℕ) cfg.spec c V : sProp 𝕄) = dat.arrays G := by
  classical
  unfold Pipeline.arrBufs Dat.arrays
  rw [h.image, h.univ, bigSep_insert (by simpa using h.other.symm), bigSep_singleton,
    bigSep_insert (by simp [h.ne01, h.ne02]), bigSep_insert (by simpa using h.ne12), bigSep_singleton,
    (h.whole w0).set_eq_univ, (h.whole w1).set_eq_univ, (h.whole w2).set_eq_univ, h.share0, h.share1, h.share2,
    hG w0, hG w1, hG w2]
  have e1 : ((((cfg.win w1).arr.view.loc (c : Thread nD τ)) ↦[Finset.univ]{fullShare.right} V (Pipeline.arrRef cfg.spec w1) : sProp 𝕄))
      = (((c : Thread nD τ).loc (Pipeline.arrRef cfg.spec w0)) ↦{fullShare.right} V (Pipeline.arrRef cfg.spec w0)) :=
    pt_congr c V _ h.same
  have hsh : ((((c : Thread nD τ).loc (Pipeline.arrRef cfg.spec w0)) ↦{fullShare} V (Pipeline.arrRef cfg.spec w0) : sProp 𝕄))
      = iprop((((c : Thread nD τ).loc (Pipeline.arrRef cfg.spec w0)) ↦{fullShare.left} V (Pipeline.arrRef cfg.spec w0))
          ∗ (((c : Thread nD τ).loc (Pipeline.arrRef cfg.spec w0)) ↦{fullShare.right} V (Pipeline.arrRef cfg.spec w0))) :=
    equiv_iff.mp ⟨(pointsTo_share (PosShare.mem_left_op_right fullShare)).1, (pointsTo_share (PosShare.mem_left_op_right fullShare)).2⟩
  rw [e1, hsh]
  exact equiv_iff.mp ⟨sep_assoc, sep_assoc'⟩

/-- ENTRY, the arrays' part: the core's unscoped buffers at contents `V` are the region's arrays at the proof data's
    entry contents — read off `V` (`hA`) — and the unscoped rest. -/
theorem arrays_of_unscopedBufs (h : Pattern c dat w0 w1 w2) (hw : Pipeline.WinFacts₀ cfg.spec)
    (V : (b : Ref sig .tc) → Buf (Elt F) ((c : Thread nD τ).loc b))
    (hA : ∀ w, dat.A w = V (Pipeline.arrRef cfg.spec w)) :
    (unscopedBufs (Ix := Unit) (Name := ℕ) (U := UR sig nD τ) (Lvl := ℕ) c V : sProp 𝕄)
      ⊢ iprop(dat.arrays (dat.arrAt · 0) ∗ Pipeline.unscopedRest cfg.spec c V) := by
  rw [Pipeline.unscopedBufs_split₀ (fun _ : Unit => cfg) () hw.arr_unscoped c V,
    arrBufs_eq_arrays h V (dat.arrAt · 0) fun w => by rw [show dat.arrAt w 0 = dat.A w from rfl, hA]]

/-- EXIT, the arrays' part: the region's arrays at contents `G` and the unscoped rest at `V` are the core's unscoped
    buffers at any valuation `V'` that has the arrays at `G` and agrees with `V` off them. -/
theorem unscopedBufs_of_arrays (h : Pattern c dat w0 w1 w2) (hw : Pipeline.WinFacts₀ cfg.spec)
    (V V' : (b : Ref sig .tc) → Buf (Elt F) ((c : Thread nD τ).loc b))
    (G : (w : Fin cfg.W) → Buf (Elt F) ((cfg.win w).arr.view.loc (c : Thread nD τ)))
    (hG : ∀ w, G w = V' (Pipeline.arrRef cfg.spec w))
    (hrest : ∀ b, b ∉ Finset.univ.image (Pipeline.arrRef cfg.spec) → V' b = V b) :
    iprop(dat.arrays G ∗ Pipeline.unscopedRest cfg.spec c V)
      ⊢ (unscopedBufs (Ix := Unit) (Name := ℕ) (U := UR sig nD τ) (Lvl := ℕ) c V' : sProp 𝕄) := by
  rw [Pipeline.unscopedBufs_split₀ (fun _ : Unit => cfg) () hw.arr_unscoped c V', arrBufs_eq_arrays h V' G hG]
  refine sep_mono .rfl (Entails.of_eq ?_)
  unfold Pipeline.unscopedRest
  exact bigSep_congr fun b hb => by rw [hrest b (Finset.mem_sdiff.mp hb).2]

/-- EXIT at the last point: the valuation `V'` is `V` with the output's buffer at what the write-backs leave; the inputs,
    never written, still hold their entry contents, which `V` and `V'` agree on. -/
theorem unscopedBufs_of_arrays_last (h : Pattern c dat w0 w1 w2) (hw : Pipeline.WinFacts₀ cfg.spec)
    (V V' : (b : Ref sig .tc) → Buf (Elt F) ((c : Thread nD τ).loc b))
    (hA : ∀ w, dat.A w = V (Pipeline.arrRef cfg.spec w))
    (hout : V' (Pipeline.arrRef cfg.spec w2) = dat.arrAt w2 cfg.N)
    (hne : ∀ b, b ≠ Pipeline.arrRef cfg.spec w2 → V' b = V b) :
    iprop(dat.arrays (dat.arrAt · cfg.N) ∗ Pipeline.unscopedRest cfg.spec c V)
      ⊢ (unscopedBufs (Ix := Unit) (Name := ℕ) (U := UR sig nD τ) (Lvl := ℕ) c V' : sProp 𝕄) := by
  refine unscopedBufs_of_arrays h hw V V' (dat.arrAt · cfg.N) (fun w => ?_) (fun b hb => hne b fun e => hb ?_)
  · rcases h.all w with rfl | rfl | rfl
    · show dat.arrAt w cfg.N = _
      rw [Pipeline.Dat.arrAt_in dat w h.in0 cfg.N, hA, hne _ h.other.symm]
    · show dat.arrAt w cfg.N = _
      rw [Pipeline.Dat.arrAt_in dat w h.in1 cfg.N, hA, hne _ (fun e => h.other (e.symm.trans h.same))]
    · exact hout.symm
  · rw [e]; exact Finset.mem_image.mpr ⟨w2, Finset.mem_univ _, rfl⟩

end Shared

end Cert.KernelIdeal.Hand

end
-- ==== Proof.KI.RegsShared.lean ====
/- The three kernel regions of KernelIdeal's @main whose two input windows read ONE array (custom_calls 6, 13, 20: sᵀ·s), as segments:
   the common array's full share is split between the two windows at entry and put together again at exit. -/
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import proofs.«405323_j90718299226206_3_alg».proof.Proof.KI.Fold
import proofs.«405323_j90718299226206_3_alg».proof.Proof.KI.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions whose input windows share an array -/

/-- Region 6's two input windows read one array, each at half of the full share; window 2 is its output. -/
theorem pat6 (c : Dev nD) : Shared.Pattern c (dat6 (Vt20 m) c) (0 : Fin 3) (1 : Fin 3) (2 : Fin 3) where
  all := by decide
  ne01 := by decide
  ne02 := by decide
  ne12 := by decide
  same := rfl
  other := by decide
  in0 := rfl
  in1 := rfl
  out2 := rfl
  q0 := rfl
  q1 := rfl
  whole := arr_whole6

set_option backward.isDefEq.respectTransparency.types false in
/-- REGION 6 over the thread state: entered from every unscoped buffer at `W20`, left at `W21`; the array its two
    input windows share is split between them at entry and put together again at exit. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (Vt20 m) c).loose
  hwaits := Pipeline.hwaits_of_owed_zero _ _ _ _ L lv 6 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec6 c (Vt20 m c)
  hentry c := by
    rw [Pipeline.ownSems0_none]
    have hsplit := Shared.arrays_of_unscopedBufs (pat6 m c) winFacts₀6 (Vt20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Phi_first6 (Vt20 m) c]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from Phi_last6 (Vt20 m) c).trans ?_
    unfold Pipeline.ΦA
    iintro ⟨Hr, Hp⟩
    isplitl [Hp]; · iexact Hp
    isplitr; · iempintro
    iexact Hr
  hexit c := by
    have hjoin := Shared.unscopedBufs_of_arrays_last (pat6 m c) winFacts₀6 (Vt20 m c) (Vt21 m c) (fun _ => rfl)
      (W21_out2 m c) (fun b hb => W21_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- Region 13's two input windows read one array, each at half of the full share; window 2 is its output. -/
theorem pat13 (c : Dev nD) : Shared.Pattern c (dat13 (Vt38 m) c) (0 : Fin 3) (1 : Fin 3) (2 : Fin 3) where
  all := by decide
  ne01 := by decide
  ne02 := by decide
  ne12 := by decide
  same := rfl
  other := by decide
  in0 := rfl
  in1 := rfl
  out2 := rfl
  q0 := rfl
  q1 := rfl
  whole := arr_whole13

set_option backward.isDefEq.respectTransparency.types false in
/-- REGION 13 over the thread state: entered from every unscoped buffer at `W38`, left at `W39`; the array its two
    input windows share is split between them at entry and put together again at exit. -/
def reg13 : Pipeline.RegionSeg (pcfgs (F := F)) adm (pdats m) () defs₀ 𝒱₀ L lv 13 where
  win := winFacts₀13
  block_pos := block_pos13
  stage_whole := stage_whole13
  K := PEmpty
  osem k := k.elim
  ho := Pipeline.OwnSemFacts.none _
  hbody c := (body_obligation13 (Vt38 m) c).loose
  hwaits := Pipeline.hwaits_of_owed_zero _ _ _ _ L lv 13 fun _ _ => rfl
  pre c := iprop(StableHlo.held (c : Thread nD τ) (Pipeline.ucRefs τ sig) (W38 m c) ∗ R c)
  post c := iprop(StableHlo.held (c : Thread nD τ) (Pipeline.ucRefs τ sig) (W39 m c) ∗ R c)
  X c := iprop(∃ r, prngReg c r)
  Y c := iprop(∃ r, prngReg c r)
  Z c := Pipeline.unscopedRest (Ix := Unit) (Name := ℕ) (U := UR sig nD τ) (Lvl := ℕ) spec13 c (Vt38 m c)
  hentry c := by
    rw [Pipeline.ownSems0_none]
    have hsplit := Shared.arrays_of_unscopedBufs (pat13 m c) winFacts₀13 (Vt38 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from Phi_first13 (Vt38 m) c]; unfold Pipeline.ΦA
    iintro ⟨Hp, -, Hr⟩
    isplitl [Hr]; · iexact Hr
    iexact Hp
  hout c := by
    rw [Pipeline.ownSems0_none]
    refine (show (pdats m 13 c).Φ (Fin.last _) ⊢ Pipeline.ΦA spec13 c from Phi_last13 (Vt38 m) c).trans ?_
    unfold Pipeline.ΦA
    iintro ⟨Hr, Hp⟩
    isplitl [Hp]; · iexact Hp
    isplitr; · iempintro
    iexact Hr
  hexit c := by
    have hjoin := Shared.unscopedBufs_of_arrays_last (pat13 m c) winFacts₀13 (Vt38 m c) (Vt39 m c) (fun _ => rfl)
      (W39_out2 m c) (fun b hb => W39_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- Region 20's two input windows read one array, each at half of the full share; window 2 is its output. -/
theorem pat20 (c : Dev nD) : Shared.Pattern c (dat20 (Vt56 m) c) (0 : Fin 3) (1 : Fin 3) (2 : Fin 3) where
  all := by decide
  ne01 := by decide
  ne02 := by decide
  ne12 := by decide
  same := rfl
  other := by decide
  in0 := rfl
  in1 := rfl
  out2 := rfl
  q0 := rfl
  q1 := rfl
  whole := arr_whole20

set_option backward.isDefEq.respectTransparency.types false in
/-- REGION 20 over the thread state: entered from every unscoped buffer at `W56`, left at `W57`; the array its two
    input windows share is split between them at entry and put together again at exit. -/
def reg20 : Pipeline.RegionSeg (pcfgs (F := F)) adm (pdats m) () defs₀ 𝒱₀ L lv 20 where
  win := winFacts₀20
  block_pos := block_pos20
  stage_whole := stage_whole20
  K := PEmpty
  osem k := k.elim
  ho := Pipeline.OwnSemFacts.none _
  hbody c := (body_obligation20 (Vt56 m) c).loose
  hwaits := Pipeline.hwaits_of_owed_zero _ _ _ _ L lv 20 fun _ _ => rfl
  pre c := iprop(StableHlo.held (c : Thread nD τ) (Pipeline.ucRefs τ sig) (W56 m c) ∗ R c)
  post c := iprop(StableHlo.held (c : Thread nD τ) (Pipeline.ucRefs τ sig) (W57 m c) ∗ R c)
  X c := iprop(∃ r, prngReg c r)
  Y c := iprop(∃ r, prngReg c r)
  Z c := Pipeline.unscopedRest (Ix := Unit) (Name := ℕ) (U := UR sig nD τ) (Lvl := ℕ) spec20 c (Vt56 m c)
  hentry c := by
    rw [Pipeline.ownSems0_none]
    have hsplit := Shared.arrays_of_unscopedBufs (pat20 m c) winFacts₀20 (Vt56 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from Phi_first20 (Vt56 m) c]; unfold Pipeline.ΦA
    iintro ⟨Hp, -, Hr⟩
    isplitl [Hr]; · iexact Hr
    iexact Hp
  hout c := by
    rw [Pipeline.ownSems0_none]
    refine (show (pdats m 20 c).Φ (Fin.last _) ⊢ Pipeline.ΦA spec20 c from Phi_last20 (Vt56 m) c).trans ?_
    unfold Pipeline.ΦA
    iintro ⟨Hr, Hp⟩
    isplitl [Hp]; · iexact Hp
    isplitr; · iempintro
    iexact Hr
  hexit c := by
    have hjoin := Shared.unscopedBufs_of_arrays_last (pat20 m c) winFacts₀20 (Vt56 m c) (Vt57 m c) (fun _ => rfl)
      (W57_out2 m c) (fun b hb => W57_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
/- KernelIdeal's @main as the list of its 64 segments, and the launch: every weakly fair execution terminates with every
   unscoped buffer at the last boundary's contents. -/
import proofs.«405323_j90718299226206_3_alg».proof.Proof.Gen.KernelIdeal.Launch
import proofs.«405323_j90718299226206_3_alg».proof.Proof.Gen.KernelIdeal.Skeleton
import proofs.«405323_j90718299226206_3_alg».proof.Proof.Gen.KernelIdeal.Points
import proofs.«405323_j90718299226206_3_alg».proof.Proof.KI.Regs
import proofs.«405323_j90718299226206_3_alg».proof.Proof.KI.RegsShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .region (reg2 m),
    .host (hseg hostOps3 hostOps3_sub hostOps3_fresh (W11 m)),
    .host (hseg hostOps3_1 hostOps3_1_sub hostOps3_1_fresh (W12 m)),
    .host (hseg hostOps3_2 hostOps3_2_sub hostOps3_2_fresh (W13 m)),
    .host (hseg hostOps3_3 hostOps3_3_sub hostOps3_3_fresh (W14 m)),
    .host (hseg hostOps3_4 hostOps3_4_sub hostOps3_4_fresh (W15 m)),
    .region (reg3 m),
    .host (hseg hostOps4 hostOps4_sub hostOps4_fresh (W17 m)),
    .region (reg4 m),
    .region (reg5 m),
    .region (reg6 m),
    .host (hseg hostOps7 hostOps7_sub hostOps7_fresh (W21 m)),
    .host (hseg hostOps7_1 hostOps7_1_sub hostOps7_1_fresh (W22 m)),
    .host (hseg hostOps7_2 hostOps7_2_sub hostOps7_2_fresh (W23 m)),
    .host (hseg hostOps7_3 hostOps7_3_sub hostOps7_3_fresh (W24 m)),
    .host (hseg hostOps7_4 hostOps7_4_sub hostOps7_4_fresh (W25 m)),
    .host (hseg hostOps7_5 hostOps7_5_sub hostOps7_5_fresh (W26 m)),
    .host (hseg hostOps7_6 hostOps7_6_sub hostOps7_6_fresh (W27 m)),
    .host (hseg hostOps7_7 hostOps7_7_sub hostOps7_7_fresh (W28 m)),
    .region (reg7 m),
    .host (hseg hostOps8 hostOps8_sub hostOps8_fresh (W30 m)),
    .region (reg8 m),
    .host (hseg hostOps9 hostOps9_sub hostOps9_fresh (W32 m)),
    .region (reg9 m),
    .host (hseg hostOps10 hostOps10_sub hostOps10_fresh (W34 m)),
    .region (reg10 m),
    .region (reg11 m),
    .region (reg12 m),
    .region (reg13 m),
    .host (hseg hostOps14 hostOps14_sub hostOps14_fresh (W39 m)),
    .host (hseg hostOps14_1 hostOps14_1_sub hostOps14_1_fresh (W40 m)),
    .host (hseg hostOps14_2 hostOps14_2_sub hostOps14_2_fresh (W41 m)),
    .host (hseg hostOps14_3 hostOps14_3_sub hostOps14_3_fresh (W42 m)),
    .host (hseg hostOps14_4 hostOps14_4_sub hostOps14_4_fresh (W43 m)),
    .host (hseg hostOps14_5 hostOps14_5_sub hostOps14_5_fresh (W44 m)),
    .host (hseg hostOps14_6 hostOps14_6_sub hostOps14_6_fresh (W45 m)),
    .host (hseg hostOps14_7 hostOps14_7_sub hostOps14_7_fresh (W46 m)),
    .region (reg14 m),
    .host (hseg hostOps15 hostOps15_sub hostOps15_fresh (W48 m)),
    .region (reg15 m),
    .host (hseg hostOps16 hostOps16_sub hostOps16_fresh (W50 m)),
    .region (reg16 m),
    .host (hseg hostOps17 hostOps17_sub hostOps17_fresh (W52 m)),
    .region (reg17 m),
    .region (reg18 m),
    .region (reg19 m),
    .region (reg20 m),
    .host (hseg hostOps21 hostOps21_sub hostOps21_fresh (W57 m)),
    .host (hseg hostOps21_1 hostOps21_1_sub hostOps21_1_fresh (W58 m)),
    .host (hseg hostOps21_2 hostOps21_2_sub hostOps21_2_fresh (W59 m)),
    .host (hseg hostOps21_3 hostOps21_3_sub hostOps21_3_fresh (W60 m)),
    .host (hseg hostOps21_4 hostOps21_4_sub hostOps21_4_fresh (W61 m)),
    .host (hseg hostOps21_5 hostOps21_5_sub hostOps21_5_fresh (W62 m)) ]

set_option maxHeartbeats 4000000 in
theorem main_run (c : Dev nD) : main (F := F) c = Pipeline.Seg.run (segs m) := (main_chain c).trans (by chain_rfl)

set_option maxHeartbeats 4000000 in
set_option backward.isDefEq.respectTransparency.types false in
/-- THE RUN: from any memory with zero counters every weakly fair execution of @main on the TensorCores terminates, nothing
    faulting, and every unscoped buffer ends at the last boundary's contents `W63`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W63 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W63 m c) ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W63 m c b)
    (hfin := fun c s' => by
      iintro ⟨⟨Hh, -⟩, HSI⟩
      unfold StableHlo.held
      imodintro
      iapply (pointsTo_read_all (Pipeline.ucRefs τ sig) (fun b => (((c : Thread nD τ)).1, b)) (W63 m c) s')
      isplitl [Hh] <;> iassumption)
    (hQ := fun s h c => h c)

end Cert.KernelIdeal.Hand

end
-- ==== Proof.KI.Frames.lean ====
/- Which boundary's contents a buffer keeps to the end: no later host stretch or region writes it. -/
import proofs.«405323_j90718299226206_3_alg».proof.Proof.KI.Fold
import proofs.«405323_j90718299226206_3_alg».proof.Proof.KernelIdealRegions

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (c : Dev nD)

abbrev writes1 : List (Ref sig .tc) := GenP.hostOps0_W
theorem step1 (r : Ref sig .tc) (h : r ∉ writes1) : W1 m c (Proc.devRef .tc r) = W0 m c (Proc.devRef .tc r) :=
  StableHlo.after_of_writes_sub hostOps0 _ GenP.hostOps0_writes h
abbrev writes2 : List (Ref sig .tc) := [main_v21]
theorem step2 (r : Ref sig .tc) (h : r ∉ writes2) : W2 m c (Proc.devRef .tc r) = W1 m c (Proc.devRef .tc r) :=
  W2_of_ne m c r (List.ne_of_not_mem_cons h)
abbrev writes3 : List (Ref sig .tc) := GenP.hostOps1_W
theorem step3 (r : Ref sig .tc) (h : r ∉ writes3) : W3 m c (Proc.devRef .tc r) = W2 m c (Proc.devRef .tc r) :=
  StableHlo.after_of_writes_sub hostOps1 _ GenP.hostOps1_writes h
abbrev writes4 : List (Ref sig .tc) := GenP.hostOps1_1_W
theorem step4 (r : Ref sig .tc) (h : r ∉ writes4) : W4 m c (Proc.devRef .tc r) = W3 m c (Proc.devRef .tc r) :=
  StableHlo.after_of_writes_sub hostOps1_1 _ GenP.hostOps1_1_writes h
abbrev writes5 : List (Ref sig .tc) := GenP.hostOps1_2_W
theorem step5 (r : Ref sig .tc) (h : r ∉ writes5) : W5 m c (Proc.devRef .tc r) = W4 m c (Proc.devRef .tc r) :=
  StableHlo.after_of_writes_sub hostOps1_2 _ GenP.hostOps1_2_writes h
abbrev writes6 : List (Ref sig .tc) := GenP.hostOps1_3_W
theorem step6 (r : Ref sig .tc) (h : r ∉ writes6) : W6 m c (Proc.devRef .tc r) = W5 m c (Proc.devRef .tc r) :=
  StableHlo.after_of_writes_sub hostOps1_3 _ GenP.hostOps1_3_writes h
abbrev writes7 : List (Ref sig .tc) := [main_v39]
theorem step7 (r : Ref sig .tc) (h : r ∉ writes7) : W7 m c (Proc.devRef .tc r) = W6 m c (Proc.devRef .tc r) :=
  W7_of_ne m c r (List.ne_of_not_mem_cons h)
abbrev writes8 : List (Ref sig .tc) := GenP.hostOps2_W
theorem step8 (r : Ref sig .tc) (h : r ∉ writes8) : W8 m c (Proc.devRef .tc r) = W7 m c (Proc.devRef .tc r) :=
  StableHlo.after_of_writes_sub hostOps2 _ GenP.hostOps2_writes h
abbrev writes9 : List (Ref sig .tc) := GenP.hostOps2_1_W
theorem step9 (r : Ref sig .tc) (h : r ∉ writes9) : W9 m c (Proc.devRef .tc r) = W8 m c (Proc.devRef .tc r) :=
  StableHlo.after_of_writes_sub hostOps2_1 _ GenP.hostOps2_1_writes h
abbrev writes10 : List (Ref sig .tc) := GenP.hostOps2_2_W
theorem step10 (r : Ref sig .tc) (h : r ∉ writes10) : W10 m c (Proc.devRef .tc r) = W9 m c (Proc.devRef .tc r) :=
  StableHlo.after_of_writes_sub hostOps2_2 _ GenP.hostOps2_2_writes h
abbrev writes11 : List (Ref sig .tc) := [main_v54_0, main_v54_1]
theorem step11 (r : Ref sig .tc) (h : r ∉ writes11) : W11 m c (Proc.devRef .tc r) = W10 m c (Proc.devRef .tc r) :=
  W11_of_ne m c r (List.ne_of_not_mem_cons h) (List.ne_of_not_mem_cons (List.not_mem_of_not_mem_cons h))
abbrev writes12 : List (Ref sig .tc) := GenP.hostOps3_W
theorem step12 (r : Ref sig .tc) (h : r ∉ writes12) : W12 m c (Proc.devRef .tc r) = W11 m c (Proc.devRef .tc r) :=
  StableHlo.after_of_writes_sub hostOps3 _ GenP.hostOps3_writes h
abbrev writes13 : List (Ref sig .tc) := GenP.hostOps3_1_W
theorem step13 (r : Ref sig .tc) (h : r ∉ writes13) : W13 m c (Proc.devRef .tc r) = W12 m c (Proc.devRef .tc r) :=
  StableHlo.after_of_writes_sub hostOps3_1 _ GenP.hostOps3_1_writes h
abbrev writes14 : List (Ref sig .tc) := GenP.hostOps3_2_W
theorem step14 (r : Ref sig .tc) (h : r ∉ writes14) : W14 m c (Proc.devRef .tc r) = W13 m c (Proc.devRef .tc r) :=
  StableHlo.after_of_writes_sub hostOps3_2 _ GenP.hostOps3_2_writes h
abbrev writes15 : List (Ref sig .tc) := GenP.hostOps3_3_W
theorem step15 (r : Ref sig .tc) (h : r ∉ writes15) : W15 m c (Proc.devRef .tc r) = W14 m c (Proc.devRef .tc r) :=
  StableHlo.after_of_writes_sub hostOps3_3 _ GenP.hostOps3_3_writes h
abbrev writes16 : List (Ref sig .tc) := GenP.hostOps3_4_W
theorem step16 (r : Ref sig .tc) (h : r ∉ writes16) : W16 m c (Proc.devRef .tc r) = W15 m c (Proc.devRef .tc r) :=
  StableHlo.after_of_writes_sub hostOps3_4 _ GenP.hostOps3_4_writes h
abbrev writes17 : List (Ref sig .tc) := [main_v58_0, main_v58_1]
theorem step17 (r : Ref sig .tc) (h : r ∉ writes17) : W17 m c (Proc.devRef .tc r) = W16 m c (Proc.devRef .tc r) :=
  W17_of_ne m c r (List.ne_of_not_mem_cons h) (List.ne_of_not_mem_cons (List.not_mem_of_not_mem_cons h))
abbrev writes18 : List (Ref sig .tc) := GenP.hostOps4_W
theorem step18 (r : Ref sig .tc) (h : r ∉ writes18) : W18 m c (Proc.devRef .tc r) = W17 m c (Proc.devRef .tc r) :=
  StableHlo.after_of_writes_sub hostOps4 _ GenP.hostOps4_writes h
abbrev writes19 : List (Ref sig .tc) := [main_v61]
theorem step19 (r : Ref sig .tc) (h : r ∉ writes19) : W19 m c (Proc.devRef .tc r) = W18 m c (Proc.devRef .tc r) :=
  W19_of_ne m c r (List.ne_of_not_mem_cons h)
abbrev writes20 : List (Ref sig .tc) := [main_v62]
theorem step20 (r : Ref sig .tc) (h : r ∉ writes20) : W20 m c (Proc.devRef .tc r) = W19 m c (Proc.devRef .tc r) :=
  W20_of_ne m c r (List.ne_of_not_mem_cons h)
abbrev writes21 : List (Ref sig .tc) := [main_v63]
theorem step21 (r : Ref sig .tc) (h : r ∉ writes21) : W21 m c (Proc.devRef .tc r) = W20 m c (Proc.devRef .tc r) :=
  W21_of_ne m c r (List.ne_of_not_mem_cons h)
abbrev writes22 : List (Ref sig .tc) := GenP.hostOps7_W
theorem step22 (r : Ref sig .tc) (h : r ∉ writes22) : W22 m c (Proc.devRef .tc r) = W21 m c (Proc.devRef .tc r) :=
  StableHlo.after_of_writes_sub hostOps7 _ GenP.hostOps7_writes h
abbrev writes23 : List (Ref sig .tc) := GenP.hostOps7_1_W
theorem step23 (r : Ref sig .tc) (h : r ∉ writes23) : W23 m c (Proc.devRef .tc r) = W22 m c (Proc.devRef .tc r) :=
  StableHlo.after_of_writes_sub hostOps7_1 _ GenP.hostOps7_1_writes h
abbrev writes24 : List (Ref sig .tc) := GenP.hostOps7_2_W
theorem step24 (r : Ref sig .tc) (h : r ∉ writes24) : W24 m c (Proc.devRef .tc r) = W23 m c (Proc.devRef .tc r) :=
  StableHlo.after_of_writes_sub hostOps7_2 _ GenP.hostOps7_2_writes h
abbrev writes25 : List (Ref sig .tc) := GenP.hostOps7_3_W
theorem step25 (r : Ref sig .tc) (h : r ∉ writes25) : W25 m c (Proc.devRef .tc r) = W24 m c (Proc.devRef .tc r) :=
  StableHlo.after_of_writes_sub hostOps7_3 _ GenP.hostOps7_3_writes h
abbrev writes26 : List (Ref sig .tc) := GenP.hostOps7_4_W
theorem step26 (r : Ref sig .tc) (h : r ∉ writes26) : W26 m c (Proc.devRef .tc r) = W25 m c (Proc.devRef .tc r) :=
  StableHlo.after_of_writes_sub hostOps7_4 _ GenP.hostOps7_4_writes h
abbrev writes27 : List (Ref sig .tc) := GenP.hostOps7_5_W
theorem step27 (r : Ref sig .tc) (h : r ∉ writes27) : W27 m c (Proc.devRef .tc r) = W26 m c (Proc.devRef .tc r) :=
  StableHlo.after_of_writes_sub hostOps7_5 _ GenP.hostOps7_5_writes h
abbrev writes28 : List (Ref sig .tc) := GenP.hostOps7_6_W
theorem step28 (r : Ref sig .tc) (h : r ∉ writes28) : W28 m c (Proc.devRef .tc r) = W27 m c (Proc.devRef .tc r) :=
  StableHlo.after_of_writes_sub hostOps7_6 _ GenP.hostOps7_6_writes h
abbrev writes29 : List (Ref sig .tc) := GenP.hostOps7_7_W
theorem step29 (r : Ref sig .tc) (h : r ∉ writes29) : W29 m c (Proc.devRef .tc r) = W28 m c (Proc.devRef .tc r) :=
  StableHlo.after_of_writes_sub hostOps7_7 _ GenP.hostOps7_7_writes h
abbrev writes30 : List (Ref sig .tc) := [main_v127]
theorem step30 (r : Ref sig .tc) (h : r ∉ writes30) : W30 m c (Proc.devRef .tc r) = W29 m c (Proc.devRef .tc r) :=
  W30_of_ne m c r (List.ne_of_not_mem_cons h)
abbrev writes31 : List (Ref sig .tc) := GenP.hostOps8_W
theorem step31 (r : Ref sig .tc) (h : r ∉ writes31) : W31 m c (Proc.devRef .tc r) = W30 m c (Proc.devRef .tc r) :=
  StableHlo.after_of_writes_sub hostOps8 _ GenP.hostOps8_writes h
abbrev writes32 : List (Ref sig .tc) := [main_v129]
theorem step32 (r : Ref sig .tc) (h : r ∉ writes32) : W32 m c (Proc.devRef .tc r) = W31 m c (Proc.devRef .tc r) :=
  W32_of_ne m c r (List.ne_of_not_mem_cons h)
abbrev writes33 : List (Ref sig .tc) := GenP.hostOps9_W
theorem step33 (r : Ref sig .tc) (h : r ∉ writes33) : W33 m c (Proc.devRef .tc r) = W32 m c (Proc.devRef .tc r) :=
  StableHlo.after_of_writes_sub hostOps9 _ GenP.hostOps9_writes h
abbrev writes34 : List (Ref sig .tc) := [main_v131_0, main_v131_1]
theorem step34 (r : Ref sig .tc) (h : r ∉ writes34) : W34 m c (Proc.devRef .tc r) = W33 m c (Proc.devRef .tc r) :=
  W34_of_ne m c r (List.ne_of_not_mem_cons h) (List.ne_of_not_mem_cons (List.not_mem_of_not_mem_cons h))
abbrev writes35 : List (Ref sig .tc) := GenP.hostOps10_W
theorem step35 (r : Ref sig .tc) (h : r ∉ writes35) : W35 m c (Proc.devRef .tc r) = W34 m c (Proc.devRef .tc r) :=
  StableHlo.after_of_writes_sub hostOps10 _ GenP.hostOps10_writes h
abbrev writes36 : List (Ref sig .tc) := [main_v134]
theorem step36 (r : Ref sig .tc) (h : r ∉ writes36) : W36 m c (Proc.devRef .tc r) = W35 m c (Proc.devRef .tc r) :=
  W36_of_ne m c r (List.ne_of_not_mem_cons h)
abbrev writes37 : List (Ref sig .tc) := [main_v135]
theorem step37 (r : Ref sig .tc) (h : r ∉ writes37) : W37 m c (Proc.devRef .tc r) = W36 m c (Proc.devRef .tc r) :=
  W37_of_ne m c r (List.ne_of_not_mem_cons h)
abbrev writes38 : List (Ref sig .tc) := [main_v136]
theorem step38 (r : Ref sig .tc) (h : r ∉ writes38) : W38 m c (Proc.devRef .tc r) = W37 m c (Proc.devRef .tc r) :=
  W38_of_ne m c r (List.ne_of_not_mem_cons h)
abbrev writes39 : List (Ref sig .tc) := [main_v137]
theorem step39 (r : Ref sig .tc) (h : r ∉ writes39) : W39 m c (Proc.devRef .tc r) = W38 m c (Proc.devRef .tc r) :=
  W39_of_ne m c r (List.ne_of_not_mem_cons h)
abbrev writes40 : List (Ref sig .tc) := GenP.hostOps14_W
theorem step40 (r : Ref sig .tc) (h : r ∉ writes40) : W40 m c (Proc.devRef .tc r) = W39 m c (Proc.devRef .tc r) :=
  StableHlo.after_of_writes_sub hostOps14 _ GenP.hostOps14_writes h
abbrev writes41 : List (Ref sig .tc) := GenP.hostOps14_1_W
theorem step41 (r : Ref sig .tc) (h : r ∉ writes41) : W41 m c (Proc.devRef .tc r) = W40 m c (Proc.devRef .tc r) :=
  StableHlo.after_of_writes_sub hostOps14_1 _ GenP.hostOps14_1_writes h
abbrev writes42 : List (Ref sig .tc) := GenP.hostOps14_2_W
theorem step42 (r : Ref sig .tc) (h : r ∉ writes42) : W42 m c (Proc.devRef .tc r) = W41 m c (Proc.devRef .tc r) :=
  StableHlo.after_of_writes_sub hostOps14_2 _ GenP.hostOps14_2_writes h
abbrev writes43 : List (Ref sig .tc) := GenP.hostOps14_3_W
theorem step43 (r : Ref sig .tc) (h : r ∉ writes43) : W43 m c (Proc.devRef .tc r) = W42 m c (Proc.devRef .tc r) :=
  StableHlo.after_of_writes_sub hostOps14_3 _ GenP.hostOps14_3_writes h
abbrev writes44 : List (Ref sig .tc) := GenP.hostOps14_4_W
theorem step44 (r : Ref sig .tc) (h : r ∉ writes44) : W44 m c (Proc.devRef .tc r) = W43 m c (Proc.devRef .tc r) :=
  StableHlo.after_of_writes_sub hostOps14_4 _ GenP.hostOps14_4_writes h
abbrev writes45 : List (Ref sig .tc) := GenP.hostOps14_5_W
theorem step45 (r : Ref sig .tc) (h : r ∉ writes45) : W45 m c (Proc.devRef .tc r) = W44 m c (Proc.devRef .tc r) :=
  StableHlo.after_of_writes_sub hostOps14_5 _ GenP.hostOps14_5_writes h
abbrev writes46 : List (Ref sig .tc) := GenP.hostOps14_6_W
theorem step46 (r : Ref sig .tc) (h : r ∉ writes46) : W46 m c (Proc.devRef .tc r) = W45 m c (Proc.devRef .tc r) :=
  StableHlo.after_of_writes_sub hostOps14_6 _ GenP.hostOps14_6_writes h
abbrev writes47 : List (Ref sig .tc) := GenP.hostOps14_7_W
theorem step47 (r : Ref sig .tc) (h : r ∉ writes47) : W47 m c (Proc.devRef .tc r) = W46 m c (Proc.devRef .tc r) :=
  StableHlo.after_of_writes_sub hostOps14_7 _ GenP.hostOps14_7_writes h
abbrev writes48 : List (Ref sig .tc) := [main_v200]
theorem step48 (r : Ref sig .tc) (h : r ∉ writes48) : W48 m c (Proc.devRef .tc r) = W47 m c (Proc.devRef .tc r) :=
  W48_of_ne m c r (List.ne_of_not_mem_cons h)
abbrev writes49 : List (Ref sig .tc) := GenP.hostOps15_W
theorem step49 (r : Ref sig .tc) (h : r ∉ writes49) : W49 m c (Proc.devRef .tc r) = W48 m c (Proc.devRef .tc r) :=
  StableHlo.after_of_writes_sub hostOps15 _ GenP.hostOps15_writes h
abbrev writes50 : List (Ref sig .tc) := [main_v202]
theorem step50 (r : Ref sig .tc) (h : r ∉ writes50) : W50 m c (Proc.devRef .tc r) = W49 m c (Proc.devRef .tc r) :=
  W50_of_ne m c r (List.ne_of_not_mem_cons h)
abbrev writes51 : List (Ref sig .tc) := GenP.hostOps16_W
theorem step51 (r : Ref sig .tc) (h : r ∉ writes51) : W51 m c (Proc.devRef .tc r) = W50 m c (Proc.devRef .tc r) :=
  StableHlo.after_of_writes_sub hostOps16 _ GenP.hostOps16_writes h
abbrev writes52 : List (Ref sig .tc) := [main_v204_0, main_v204_1]
theorem step52 (r : Ref sig .tc) (h : r ∉ writes52) : W52 m c (Proc.devRef .tc r) = W51 m c (Proc.devRef .tc r) :=
  W52_of_ne m c r (List.ne_of_not_mem_cons h) (List.ne_of_not_mem_cons (List.not_mem_of_not_mem_cons h))
abbrev writes53 : List (Ref sig .tc) := GenP.hostOps17_W
theorem step53 (r : Ref sig .tc) (h : r ∉ writes53) : W53 m c (Proc.devRef .tc r) = W52 m c (Proc.devRef .tc r) :=
  StableHlo.after_of_writes_sub hostOps17 _ GenP.hostOps17_writes h
abbrev writes54 : List (Ref sig .tc) := [main_v207]
theorem step54 (r : Ref sig .tc) (h : r ∉ writes54) : W54 m c (Proc.devRef .tc r) = W53 m c (Proc.devRef .tc r) :=
  W54_of_ne m c r (List.ne_of_not_mem_cons h)
abbrev writes55 : List (Ref sig .tc) := [main_v208]
theorem step55 (r : Ref sig .tc) (h : r ∉ writes55) : W55 m c (Proc.devRef .tc r) = W54 m c (Proc.devRef .tc r) :=
  W55_of_ne m c r (List.ne_of_not_mem_cons h)
abbrev writes56 : List (Ref sig .tc) := [main_v209]
theorem step56 (r : Ref sig .tc) (h : r ∉ writes56) : W56 m c (Proc.devRef .tc r) = W55 m c (Proc.devRef .tc r) :=
  W56_of_ne m c r (List.ne_of_not_mem_cons h)
abbrev writes57 : List (Ref sig .tc) := [main_v210]
theorem step57 (r : Ref sig .tc) (h : r ∉ writes57) : W57 m c (Proc.devRef .tc r) = W56 m c (Proc.devRef .tc r) :=
  W57_of_ne m c r (List.ne_of_not_mem_cons h)
abbrev writes58 : List (Ref sig .tc) := GenP.hostOps21_W
theorem step58 (r : Ref sig .tc) (h : r ∉ writes58) : W58 m c (Proc.devRef .tc r) = W57 m c (Proc.devRef .tc r) :=
  StableHlo.after_of_writes_sub hostOps21 _ GenP.hostOps21_writes h
abbrev writes59 : List (Ref sig .tc) := GenP.hostOps21_1_W
theorem step59 (r : Ref sig .tc) (h : r ∉ writes59) : W59 m c (Proc.devRef .tc r) = W58 m c (Proc.devRef .tc r) :=
  StableHlo.after_of_writes_sub hostOps21_1 _ GenP.hostOps21_1_writes h
abbrev writes60 : List (Ref sig .tc) := GenP.hostOps21_2_W
theorem step60 (r : Ref sig .tc) (h : r ∉ writes60) : W60 m c (Proc.devRef .tc r) = W59 m c (Proc.devRef .tc r) :=
  StableHlo.after_of_writes_sub hostOps21_2 _ GenP.hostOps21_2_writes h
abbrev writes61 : List (Ref sig .tc) := GenP.hostOps21_3_W
theorem step61 (r : Ref sig .tc) (h : r ∉ writes61) : W61 m c (Proc.devRef .tc r) = W60 m c (Proc.devRef .tc r) :=
  StableHlo.after_of_writes_sub hostOps21_3 _ GenP.hostOps21_3_writes h
abbrev writes62 : List (Ref sig .tc) := GenP.hostOps21_4_W
theorem step62 (r : Ref sig .tc) (h : r ∉ writes62) : W62 m c (Proc.devRef .tc r) = W61 m c (Proc.devRef .tc r) :=
  StableHlo.after_of_writes_sub hostOps21_4 _ GenP.hostOps21_4_writes h
abbrev writes63 : List (Ref sig .tc) := GenP.hostOps21_5_W
theorem step63 (r : Ref sig .tc) (h : r ∉ writes63) : W63 m c (Proc.devRef .tc r) = W62 m c (Proc.devRef .tc r) :=
  StableHlo.after_of_writes_sub hostOps21_5 _ GenP.hostOps21_5_writes h
abbrev later63 : List (Ref sig .tc) := []
theorem frame63 (r : Ref sig .tc) (h : r ∉ later63) : W63 m c (Proc.devRef .tc r) = W63 m c (Proc.devRef .tc r) := rfl
abbrev later62 : List (Ref sig .tc) := writes63 ++ later63
theorem frame62 (r : Ref sig .tc) (h : r ∉ later62) : W63 m c (Proc.devRef .tc r) = W62 m c (Proc.devRef .tc r) :=
  (frame63 m c r fun hm => h (List.mem_append_right _ hm)).trans (step63 m c r fun hm => h (List.mem_append_left _ hm))
abbrev later61 : List (Ref sig .tc) := writes62 ++ later62
theorem frame61 (r : Ref sig .tc) (h : r ∉ later61) : W63 m c (Proc.devRef .tc r) = W61 m c (Proc.devRef .tc r) :=
  (frame62 m c r fun hm => h (List.mem_append_right _ hm)).trans (step62 m c r fun hm => h (List.mem_append_left _ hm))
abbrev later60 : List (Ref sig .tc) := writes61 ++ later61
theorem frame60 (r : Ref sig .tc) (h : r ∉ later60) : W63 m c (Proc.devRef .tc r) = W60 m c (Proc.devRef .tc r) :=
  (frame61 m c r fun hm => h (List.mem_append_right _ hm)).trans (step61 m c r fun hm => h (List.mem_append_left _ hm))
abbrev later59 : List (Ref sig .tc) := writes60 ++ later60
theorem frame59 (r : Ref sig .tc) (h : r ∉ later59) : W63 m c (Proc.devRef .tc r) = W59 m c (Proc.devRef .tc r) :=
  (frame60 m c r fun hm => h (List.mem_append_right _ hm)).trans (step60 m c r fun hm => h (List.mem_append_left _ hm))
abbrev later58 : List (Ref sig .tc) := writes59 ++ later59
theorem frame58 (r : Ref sig .tc) (h : r ∉ later58) : W63 m c (Proc.devRef .tc r) = W58 m c (Proc.devRef .tc r) :=
  (frame59 m c r fun hm => h (List.mem_append_right _ hm)).trans (step59 m c r fun hm => h (List.mem_append_left _ hm))
abbrev later57 : List (Ref sig .tc) := writes58 ++ later58
theorem frame57 (r : Ref sig .tc) (h : r ∉ later57) : W63 m c (Proc.devRef .tc r) = W57 m c (Proc.devRef .tc r) :=
  (frame58 m c r fun hm => h (List.mem_append_right _ hm)).trans (step58 m c r fun hm => h (List.mem_append_left _ hm))
abbrev later56 : List (Ref sig .tc) := writes57 ++ later57
theorem frame56 (r : Ref sig .tc) (h : r ∉ later56) : W63 m c (Proc.devRef .tc r) = W56 m c (Proc.devRef .tc r) :=
  (frame57 m c r fun hm => h (List.mem_append_right _ hm)).trans (step57 m c r fun hm => h (List.mem_append_left _ hm))
abbrev later55 : List (Ref sig .tc) := writes56 ++ later56
theorem frame55 (r : Ref sig .tc) (h : r ∉ later55) : W63 m c (Proc.devRef .tc r) = W55 m c (Proc.devRef .tc r) :=
  (frame56 m c r fun hm => h (List.mem_append_right _ hm)).trans (step56 m c r fun hm => h (List.mem_append_left _ hm))
abbrev later54 : List (Ref sig .tc) := writes55 ++ later55
theorem frame54 (r : Ref sig .tc) (h : r ∉ later54) : W63 m c (Proc.devRef .tc r) = W54 m c (Proc.devRef .tc r) :=
  (frame55 m c r fun hm => h (List.mem_append_right _ hm)).trans (step55 m c r fun hm => h (List.mem_append_left _ hm))
abbrev later53 : List (Ref sig .tc) := writes54 ++ later54
theorem frame53 (r : Ref sig .tc) (h : r ∉ later53) : W63 m c (Proc.devRef .tc r) = W53 m c (Proc.devRef .tc r) :=
  (frame54 m c r fun hm => h (List.mem_append_right _ hm)).trans (step54 m c r fun hm => h (List.mem_append_left _ hm))
abbrev later52 : List (Ref sig .tc) := writes53 ++ later53
theorem frame52 (r : Ref sig .tc) (h : r ∉ later52) : W63 m c (Proc.devRef .tc r) = W52 m c (Proc.devRef .tc r) :=
  (frame53 m c r fun hm => h (List.mem_append_right _ hm)).trans (step53 m c r fun hm => h (List.mem_append_left _ hm))
abbrev later51 : List (Ref sig .tc) := writes52 ++ later52
theorem frame51 (r : Ref sig .tc) (h : r ∉ later51) : W63 m c (Proc.devRef .tc r) = W51 m c (Proc.devRef .tc r) :=
  (frame52 m c r fun hm => h (List.mem_append_right _ hm)).trans (step52 m c r fun hm => h (List.mem_append_left _ hm))
abbrev later50 : List (Ref sig .tc) := writes51 ++ later51
theorem frame50 (r : Ref sig .tc) (h : r ∉ later50) : W63 m c (Proc.devRef .tc r) = W50 m c (Proc.devRef .tc r) :=
  (frame51 m c r fun hm => h (List.mem_append_right _ hm)).trans (step51 m c r fun hm => h (List.mem_append_left _ hm))
abbrev later49 : List (Ref sig .tc) := writes50 ++ later50
theorem frame49 (r : Ref sig .tc) (h : r ∉ later49) : W63 m c (Proc.devRef .tc r) = W49 m c (Proc.devRef .tc r) :=
  (frame50 m c r fun hm => h (List.mem_append_right _ hm)).trans (step50 m c r fun hm => h (List.mem_append_left _ hm))
abbrev later48 : List (Ref sig .tc) := writes49 ++ later49
theorem frame48 (r : Ref sig .tc) (h : r ∉ later48) : W63 m c (Proc.devRef .tc r) = W48 m c (Proc.devRef .tc r) :=
  (frame49 m c r fun hm => h (List.mem_append_right _ hm)).trans (step49 m c r fun hm => h (List.mem_append_left _ hm))
abbrev later47 : List (Ref sig .tc) := writes48 ++ later48
theorem frame47 (r : Ref sig .tc) (h : r ∉ later47) : W63 m c (Proc.devRef .tc r) = W47 m c (Proc.devRef .tc r) :=
  (frame48 m c r fun hm => h (List.mem_append_right _ hm)).trans (step48 m c r fun hm => h (List.mem_append_left _ hm))
abbrev later46 : List (Ref sig .tc) := writes47 ++ later47
theorem frame46 (r : Ref sig .tc) (h : r ∉ later46) : W63 m c (Proc.devRef .tc r) = W46 m c (Proc.devRef .tc r) :=
  (frame47 m c r fun hm => h (List.mem_append_right _ hm)).trans (step47 m c r fun hm => h (List.mem_append_left _ hm))
abbrev later45 : List (Ref sig .tc) := writes46 ++ later46
theorem frame45 (r : Ref sig .tc) (h : r ∉ later45) : W63 m c (Proc.devRef .tc r) = W45 m c (Proc.devRef .tc r) :=
  (frame46 m c r fun hm => h (List.mem_append_right _ hm)).trans (step46 m c r fun hm => h (List.mem_append_left _ hm))
abbrev later44 : List (Ref sig .tc) := writes45 ++ later45
theorem frame44 (r : Ref sig .tc) (h : r ∉ later44) : W63 m c (Proc.devRef .tc r) = W44 m c (Proc.devRef .tc r) :=
  (frame45 m c r fun hm => h (List.mem_append_right _ hm)).trans (step45 m c r fun hm => h (List.mem_append_left _ hm))
abbrev later43 : List (Ref sig .tc) := writes44 ++ later44
theorem frame43 (r : Ref sig .tc) (h : r ∉ later43) : W63 m c (Proc.devRef .tc r) = W43 m c (Proc.devRef .tc r) :=
  (frame44 m c r fun hm => h (List.mem_append_right _ hm)).trans (step44 m c r fun hm => h (List.mem_append_left _ hm))
abbrev later42 : List (Ref sig .tc) := writes43 ++ later43
theorem frame42 (r : Ref sig .tc) (h : r ∉ later42) : W63 m c (Proc.devRef .tc r) = W42 m c (Proc.devRef .tc r) :=
  (frame43 m c r fun hm => h (List.mem_append_right _ hm)).trans (step43 m c r fun hm => h (List.mem_append_left _ hm))
abbrev later41 : List (Ref sig .tc) := writes42 ++ later42
theorem frame41 (r : Ref sig .tc) (h : r ∉ later41) : W63 m c (Proc.devRef .tc r) = W41 m c (Proc.devRef .tc r) :=
  (frame42 m c r fun hm => h (List.mem_append_right _ hm)).trans (step42 m c r fun hm => h (List.mem_append_left _ hm))
abbrev later40 : List (Ref sig .tc) := writes41 ++ later41
theorem frame40 (r : Ref sig .tc) (h : r ∉ later40) : W63 m c (Proc.devRef .tc r) = W40 m c (Proc.devRef .tc r) :=
  (frame41 m c r fun hm => h (List.mem_append_right _ hm)).trans (step41 m c r fun hm => h (List.mem_append_left _ hm))
abbrev later39 : List (Ref sig .tc) := writes40 ++ later40
theorem frame39 (r : Ref sig .tc) (h : r ∉ later39) : W63 m c (Proc.devRef .tc r) = W39 m c (Proc.devRef .tc r) :=
  (frame40 m c r fun hm => h (List.mem_append_right _ hm)).trans (step40 m c r fun hm => h (List.mem_append_left _ hm))
abbrev later38 : List (Ref sig .tc) := writes39 ++ later39
theorem frame38 (r : Ref sig .tc) (h : r ∉ later38) : W63 m c (Proc.devRef .tc r) = W38 m c (Proc.devRef .tc r) :=
  (frame39 m c r fun hm => h (List.mem_append_right _ hm)).trans (step39 m c r fun hm => h (List.mem_append_left _ hm))
abbrev later37 : List (Ref sig .tc) := writes38 ++ later38
theorem frame37 (r : Ref sig .tc) (h : r ∉ later37) : W63 m c (Proc.devRef .tc r) = W37 m c (Proc.devRef .tc r) :=
  (frame38 m c r fun hm => h (List.mem_append_right _ hm)).trans (step38 m c r fun hm => h (List.mem_append_left _ hm))
abbrev later36 : List (Ref sig .tc) := writes37 ++ later37
theorem frame36 (r : Ref sig .tc) (h : r ∉ later36) : W63 m c (Proc.devRef .tc r) = W36 m c (Proc.devRef .tc r) :=
  (frame37 m c r fun hm => h (List.mem_append_right _ hm)).trans (step37 m c r fun hm => h (List.mem_append_left _ hm))
abbrev later35 : List (Ref sig .tc) := writes36 ++ later36
theorem frame35 (r : Ref sig .tc) (h : r ∉ later35) : W63 m c (Proc.devRef .tc r) = W35 m c (Proc.devRef .tc r) :=
  (frame36 m c r fun hm => h (List.mem_append_right _ hm)).trans (step36 m c r fun hm => h (List.mem_append_left _ hm))
abbrev later34 : List (Ref sig .tc) := writes35 ++ later35
theorem frame34 (r : Ref sig .tc) (h : r ∉ later34) : W63 m c (Proc.devRef .tc r) = W34 m c (Proc.devRef .tc r) :=
  (frame35 m c r fun hm => h (List.mem_append_right _ hm)).trans (step35 m c r fun hm => h (List.mem_append_left _ hm))
abbrev later33 : List (Ref sig .tc) := writes34 ++ later34
theorem frame33 (r : Ref sig .tc) (h : r ∉ later33) : W63 m c (Proc.devRef .tc r) = W33 m c (Proc.devRef .tc r) :=
  (frame34 m c r fun hm => h (List.mem_append_right _ hm)).trans (step34 m c r fun hm => h (List.mem_append_left _ hm))
abbrev later32 : List (Ref sig .tc) := writes33 ++ later33
theorem frame32 (r : Ref sig .tc) (h : r ∉ later32) : W63 m c (Proc.devRef .tc r) = W32 m c (Proc.devRef .tc r) :=
  (frame33 m c r fun hm => h (List.mem_append_right _ hm)).trans (step33 m c r fun hm => h (List.mem_append_left _ hm))
abbrev later31 : List (Ref sig .tc) := writes32 ++ later32
theorem frame31 (r : Ref sig .tc) (h : r ∉ later31) : W63 m c (Proc.devRef .tc r) = W31 m c (Proc.devRef .tc r) :=
  (frame32 m c r fun hm => h (List.mem_append_right _ hm)).trans (step32 m c r fun hm => h (List.mem_append_left _ hm))
abbrev later30 : List (Ref sig .tc) := writes31 ++ later31
theorem frame30 (r : Ref sig .tc) (h : r ∉ later30) : W63 m c (Proc.devRef .tc r) = W30 m c (Proc.devRef .tc r) :=
  (frame31 m c r fun hm => h (List.mem_append_right _ hm)).trans (step31 m c r fun hm => h (List.mem_append_left _ hm))
abbrev later29 : List (Ref sig .tc) := writes30 ++ later30
theorem frame29 (r : Ref sig .tc) (h : r ∉ later29) : W63 m c (Proc.devRef .tc r) = W29 m c (Proc.devRef .tc r) :=
  (frame30 m c r fun hm => h (List.mem_append_right _ hm)).trans (step30 m c r fun hm => h (List.mem_append_left _ hm))
abbrev later28 : List (Ref sig .tc) := writes29 ++ later29
theorem frame28 (r : Ref sig .tc) (h : r ∉ later28) : W63 m c (Proc.devRef .tc r) = W28 m c (Proc.devRef .tc r) :=
  (frame29 m c r fun hm => h (List.mem_append_right _ hm)).trans (step29 m c r fun hm => h (List.mem_append_left _ hm))
abbrev later27 : List (Ref sig .tc) := writes28 ++ later28
theorem frame27 (r : Ref sig .tc) (h : r ∉ later27) : W63 m c (Proc.devRef .tc r) = W27 m c (Proc.devRef .tc r) :=
  (frame28 m c r fun hm => h (List.mem_append_right _ hm)).trans (step28 m c r fun hm => h (List.mem_append_left _ hm))
abbrev later26 : List (Ref sig .tc) := writes27 ++ later27
theorem frame26 (r : Ref sig .tc) (h : r ∉ later26) : W63 m c (Proc.devRef .tc r) = W26 m c (Proc.devRef .tc r) :=
  (frame27 m c r fun hm => h (List.mem_append_right _ hm)).trans (step27 m c r fun hm => h (List.mem_append_left _ hm))
abbrev later25 : List (Ref sig .tc) := writes26 ++ later26
theorem frame25 (r : Ref sig .tc) (h : r ∉ later25) : W63 m c (Proc.devRef .tc r) = W25 m c (Proc.devRef .tc r) :=
  (frame26 m c r fun hm => h (List.mem_append_right _ hm)).trans (step26 m c r fun hm => h (List.mem_append_left _ hm))
abbrev later24 : List (Ref sig .tc) := writes25 ++ later25
theorem frame24 (r : Ref sig .tc) (h : r ∉ later24) : W63 m c (Proc.devRef .tc r) = W24 m c (Proc.devRef .tc r) :=
  (frame25 m c r fun hm => h (List.mem_append_right _ hm)).trans (step25 m c r fun hm => h (List.mem_append_left _ hm))
abbrev later23 : List (Ref sig .tc) := writes24 ++ later24
theorem frame23 (r : Ref sig .tc) (h : r ∉ later23) : W63 m c (Proc.devRef .tc r) = W23 m c (Proc.devRef .tc r) :=
  (frame24 m c r fun hm => h (List.mem_append_right _ hm)).trans (step24 m c r fun hm => h (List.mem_append_left _ hm))
abbrev later22 : List (Ref sig .tc) := writes23 ++ later23
theorem frame22 (r : Ref sig .tc) (h : r ∉ later22) : W63 m c (Proc.devRef .tc r) = W22 m c (Proc.devRef .tc r) :=
  (frame23 m c r fun hm => h (List.mem_append_right _ hm)).trans (step23 m c r fun hm => h (List.mem_append_left _ hm))
abbrev later21 : List (Ref sig .tc) := writes22 ++ later22
theorem frame21 (r : Ref sig .tc) (h : r ∉ later21) : W63 m c (Proc.devRef .tc r) = W21 m c (Proc.devRef .tc r) :=
  (frame22 m c r fun hm => h (List.mem_append_right _ hm)).trans (step22 m c r fun hm => h (List.mem_append_left _ hm))
abbrev later20 : List (Ref sig .tc) := writes21 ++ later21
theorem frame20 (r : Ref sig .tc) (h : r ∉ later20) : W63 m c (Proc.devRef .tc r) = W20 m c (Proc.devRef .tc r) :=
  (frame21 m c r fun hm => h (List.mem_append_right _ hm)).trans (step21 m c r fun hm => h (List.mem_append_left _ hm))
abbrev later19 : List (Ref sig .tc) := writes20 ++ later20
theorem frame19 (r : Ref sig .tc) (h : r ∉ later19) : W63 m c (Proc.devRef .tc r) = W19 m c (Proc.devRef .tc r) :=
  (frame20 m c r fun hm => h (List.mem_append_right _ hm)).trans (step20 m c r fun hm => h (List.mem_append_left _ hm))
abbrev later18 : List (Ref sig .tc) := writes19 ++ later19
theorem frame18 (r : Ref sig .tc) (h : r ∉ later18) : W63 m c (Proc.devRef .tc r) = W18 m c (Proc.devRef .tc r) :=
  (frame19 m c r fun hm => h (List.mem_append_right _ hm)).trans (step19 m c r fun hm => h (List.mem_append_left _ hm))
abbrev later17 : List (Ref sig .tc) := writes18 ++ later18
theorem frame17 (r : Ref sig .tc) (h : r ∉ later17) : W63 m c (Proc.devRef .tc r) = W17 m c (Proc.devRef .tc r) :=
  (frame18 m c r fun hm => h (List.mem_append_right _ hm)).trans (step18 m c r fun hm => h (List.mem_append_left _ hm))
abbrev later16 : List (Ref sig .tc) := writes17 ++ later17
theorem frame16 (r : Ref sig .tc) (h : r ∉ later16) : W63 m c (Proc.devRef .tc r) = W16 m c (Proc.devRef .tc r) :=
  (frame17 m c r fun hm => h (List.mem_append_right _ hm)).trans (step17 m c r fun hm => h (List.mem_append_left _ hm))
abbrev later15 : List (Ref sig .tc) := writes16 ++ later16
theorem frame15 (r : Ref sig .tc) (h : r ∉ later15) : W63 m c (Proc.devRef .tc r) = W15 m c (Proc.devRef .tc r) :=
  (frame16 m c r fun hm => h (List.mem_append_right _ hm)).trans (step16 m c r fun hm => h (List.mem_append_left _ hm))
abbrev later14 : List (Ref sig .tc) := writes15 ++ later15
theorem frame14 (r : Ref sig .tc) (h : r ∉ later14) : W63 m c (Proc.devRef .tc r) = W14 m c (Proc.devRef .tc r) :=
  (frame15 m c r fun hm => h (List.mem_append_right _ hm)).trans (step15 m c r fun hm => h (List.mem_append_left _ hm))
abbrev later13 : List (Ref sig .tc) := writes14 ++ later14
theorem frame13 (r : Ref sig .tc) (h : r ∉ later13) : W63 m c (Proc.devRef .tc r) = W13 m c (Proc.devRef .tc r) :=
  (frame14 m c r fun hm => h (List.mem_append_right _ hm)).trans (step14 m c r fun hm => h (List.mem_append_left _ hm))
abbrev later12 : List (Ref sig .tc) := writes13 ++ later13
theorem frame12 (r : Ref sig .tc) (h : r ∉ later12) : W63 m c (Proc.devRef .tc r) = W12 m c (Proc.devRef .tc r) :=
  (frame13 m c r fun hm => h (List.mem_append_right _ hm)).trans (step13 m c r fun hm => h (List.mem_append_left _ hm))
abbrev later11 : List (Ref sig .tc) := writes12 ++ later12
theorem frame11 (r : Ref sig .tc) (h : r ∉ later11) : W63 m c (Proc.devRef .tc r) = W11 m c (Proc.devRef .tc r) :=
  (frame12 m c r fun hm => h (List.mem_append_right _ hm)).trans (step12 m c r fun hm => h (List.mem_append_left _ hm))
abbrev later10 : List (Ref sig .tc) := writes11 ++ later11
theorem frame10 (r : Ref sig .tc) (h : r ∉ later10) : W63 m c (Proc.devRef .tc r) = W10 m c (Proc.devRef .tc r) :=
  (frame11 m c r fun hm => h (List.mem_append_right _ hm)).trans (step11 m c r fun hm => h (List.mem_append_left _ hm))
abbrev later9 : List (Ref sig .tc) := writes10 ++ later10
theorem frame9 (r : Ref sig .tc) (h : r ∉ later9) : W63 m c (Proc.devRef .tc r) = W9 m c (Proc.devRef .tc r) :=
  (frame10 m c r fun hm => h (List.mem_append_right _ hm)).trans (step10 m c r fun hm => h (List.mem_append_left _ hm))
abbrev later8 : List (Ref sig .tc) := writes9 ++ later9
theorem frame8 (r : Ref sig .tc) (h : r ∉ later8) : W63 m c (Proc.devRef .tc r) = W8 m c (Proc.devRef .tc r) :=
  (frame9 m c r fun hm => h (List.mem_append_right _ hm)).trans (step9 m c r fun hm => h (List.mem_append_left _ hm))
abbrev later7 : List (Ref sig .tc) := writes8 ++ later8
theorem frame7 (r : Ref sig .tc) (h : r ∉ later7) : W63 m c (Proc.devRef .tc r) = W7 m c (Proc.devRef .tc r) :=
  (frame8 m c r fun hm => h (List.mem_append_right _ hm)).trans (step8 m c r fun hm => h (List.mem_append_left _ hm))
abbrev later6 : List (Ref sig .tc) := writes7 ++ later7
theorem frame6 (r : Ref sig .tc) (h : r ∉ later6) : W63 m c (Proc.devRef .tc r) = W6 m c (Proc.devRef .tc r) :=
  (frame7 m c r fun hm => h (List.mem_append_right _ hm)).trans (step7 m c r fun hm => h (List.mem_append_left _ hm))
abbrev later5 : List (Ref sig .tc) := writes6 ++ later6
theorem frame5 (r : Ref sig .tc) (h : r ∉ later5) : W63 m c (Proc.devRef .tc r) = W5 m c (Proc.devRef .tc r) :=
  (frame6 m c r fun hm => h (List.mem_append_right _ hm)).trans (step6 m c r fun hm => h (List.mem_append_left _ hm))
abbrev later4 : List (Ref sig .tc) := writes5 ++ later5
theorem frame4 (r : Ref sig .tc) (h : r ∉ later4) : W63 m c (Proc.devRef .tc r) = W4 m c (Proc.devRef .tc r) :=
  (frame5 m c r fun hm => h (List.mem_append_right _ hm)).trans (step5 m c r fun hm => h (List.mem_append_left _ hm))
abbrev later3 : List (Ref sig .tc) := writes4 ++ later4
theorem frame3 (r : Ref sig .tc) (h : r ∉ later3) : W63 m c (Proc.devRef .tc r) = W3 m c (Proc.devRef .tc r) :=
  (frame4 m c r fun hm => h (List.mem_append_right _ hm)).trans (step4 m c r fun hm => h (List.mem_append_left _ hm))
abbrev later2 : List (Ref sig .tc) := writes3 ++ later3
theorem frame2 (r : Ref sig .tc) (h : r ∉ later2) : W63 m c (Proc.devRef .tc r) = W2 m c (Proc.devRef .tc r) :=
  (frame3 m c r fun hm => h (List.mem_append_right _ hm)).trans (step3 m c r fun hm => h (List.mem_append_left _ hm))
abbrev later1 : List (Ref sig .tc) := writes2 ++ later2
theorem frame1 (r : Ref sig .tc) (h : r ∉ later1) : W63 m c (Proc.devRef .tc r) = W1 m c (Proc.devRef .tc r) :=
  (frame2 m c r fun hm => h (List.mem_append_right _ hm)).trans (step2 m c r fun hm => h (List.mem_append_left _ hm))
abbrev later0 : List (Ref sig .tc) := writes1 ++ later1
theorem frame0 (r : Ref sig .tc) (h : r ∉ later0) : W63 m c (Proc.devRef .tc r) = W0 m c (Proc.devRef .tc r) :=
  (frame1 m c r fun hm => h (List.mem_append_right _ hm)).trans (step1 m c r fun hm => h (List.mem_append_left _ hm))

end Cert.KernelIdeal.Hand

end
-- ==== Proof.K.R0.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 0 of @main, at the entry contents V: h1 = x · W1 + b in ten blocks of 1000 rows, the factors rounded to bf16 on the way into the product

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's row block is in its buffer at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor is in its buffer at every point: fetched at the first, its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- "This is the first block of the contraction axis" (the accumulator is zeroed), from the grid coordinates. -/
abbrev cond0_0 (i : grid0.Coords) : Prop := (Scalar.cmpi .ne (Scalar.extui (Scalar.cmpi .eq (BitVec.ofNat 32 (i 1).val) 0#32)) 0#32) = 1#1
/-- The contraction axis has one block: it holds at every point. -/
theorem hcond0_0 : ∀ t : Fin cfg0.N, cond0_0 (grid0.coords t) :=
  (by decide +kernel : ∀ t : Fin grid0.N, cond0_0 (grid0.coords t))

/-- "This is the last block of the contraction axis" (the output block is stored). -/
abbrev cond0_1 (i : grid0.Coords) : Prop := k0_cond2 i = 1#1
/-- It too holds at every point. -/
theorem hcond0_1 : ∀ t : Fin cfg0.N, cond0_1 (grid0.coords t) :=
  (by decide +kernel : ∀ t : Fin grid0.N, cond0_1 (grid0.coords t))

/-- The output block is stored at every point: no point is idle for it. -/
theorem liveAt0_3 : ∀ t : Fin cfg0.N, cfg0.idle 3 (grid0.coords t) = false := by decide +kernel

/-! ## The memrefs the body is called with -/

abbrev ms0_0 (t : Fin cfg0.N) : Memref sig .tc .vmem S1000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1000x512 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1000x512 .f32 := Memref.whole cc0_scratch0
/-- One buffer of the output window, through which its contents are stated (the choice does not matter). -/
abbrev VO0_3 : View sig .tc .vmem S1000x512 .f32 := (Memref.whole cc0_stg3_0 : Memref sig .tc .vmem S1000x512 .f32).view

/-- The region invariant with the accumulator set apart, owned at some contents. -/
theorem PhiA0_eq (c : Dev nD) :
    (Pipeline.ΦA spec0 c : sProp 𝕄)
      = iprop(iprop(iprop((∃ d, owns (c : Thread nD τ) scM0_0 fullShare d))
            ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun0 (c : Dev nD) (i : grid0.Coords)
    (arg2 : Memref sig .tc .vmem S1000x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1000x512 .f32) (harg5 : arg5.IsWhole)
    (arg6 : Memref sig .tc .vmem S1000x512 .f32) (harg6 : arg6.IsWhole) (hc0 : cond0_0 i) (hc1 : cond0_1 i)
    (x0 : Vec F S1000x512 .f32) (x1 : Vec F S512x512 .f32) (x2 : Vec F S1x512 .f32) :
    { L3 : List (View.Piece (Elt F) S1000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc0__matmul_kernel i arg2 harg2 arg3 harg3 arg4 harg4 arg5 harg5 arg6 harg6) K } := by
  refine ⟨?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover0_3 (c : Dev nD) (i : grid0.Coords)
    (arg2 : Memref sig .tc .vmem S1000x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1000x512 .f32) (harg5 : arg5.IsWhole)
    (arg6 : Memref sig .tc .vmem S1000x512 .f32) (harg6 : arg6.IsWhole) (hc0 : cond0_0 i) (hc1 : cond0_1 i)
    (x0 : Vec F S1000x512 .f32) (x1 : Vec F S512x512 .f32) (x2 : Vec F S1x512 .f32) (y : S1000x512.Idx) :
    ∃ pc ∈ (kernelRun0 c i arg2 harg2 arg3 harg3 arg4 harg4 arg5 harg5 arg6 harg6 hc0 hc1 x0 x1 x2).1, y ∈ pc.1.set :=
  View.cover_of_tiledL (kernelRun0 c i arg2 harg2 arg3 harg3 arg4 harg4 arg5 harg5 arg6 harg6 hc0 hc1 x0 x1 x2).1 S1000x512.size (by sl_kernel_rfl) y

/-- What the body leaves in the output buffer: its pieces read back. -/
def out0_3 (c : Dev nD) (i : grid0.Coords)
    (arg2 : Memref sig .tc .vmem S1000x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1000x512 .f32) (harg5 : arg5.IsWhole)
    (arg6 : Memref sig .tc .vmem S1000x512 .f32) (harg6 : arg6.IsWhole) (hc0 : cond0_0 i) (hc1 : cond0_1 i)
    (x0 : Vec F S1000x512 .f32) (x1 : Vec F S512x512 .f32) (x2 : Vec F S1x512 .f32) : Vec F S1000x512 .f32 :=
  VO0_3.read (Elt F) (VO0_3.writes (Elt F) VO0_3.junk (kernelRun0 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _)
        (hcond0_0 t) (hcond0_1 t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Phi_first0 (c : Dev nD) : (dat0 V c).Φ 0 = Pipeline.ΦA spec0 c := by
  dsimp only [dat0]

theorem Phi_last0 (c : Dev nD) : (dat0 V c).Φ (Fin.last cfg0.N) ⊢ Pipeline.ΦA spec0 c := by
  rw [show (dat0 V c).Φ (Fin.last cfg0.N) = Pipeline.ΦA spec0 c from by dsimp only [dat0]]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t
    = out0_3 c (grid0.coords t) (ms0_0 t) (hs0_0 t) (ms0_1 t) (hs0_1 t) (ms0_2 t) (hs0_2 t) (ms0_3 t) (hs0_3 t) scM0_0 (Memref.isWhole_whole _)
        (hcond0_0 t) (hcond0_1 t) (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks, both conditions hold, so the run applies; the
    invariant lends the accumulator at some contents and takes it back at some contents; the core owes nothing. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Pipeline.ΦA spec0 c from by dsimp only [dat0],
    show (dat0 V c).Φ t.castSucc = Pipeline.ΦA spec0 c from by dsimp only [dat0], PhiA0_eq]
  rw [show (dat0 V c).leavesExact 0 t = owns (c : Thread nD τ) (ms0_0 t) fullShare ((dat0 V c).after 0 t) from rfl, after0_0]
  rw [show (dat0 V c).leavesExact 1 t = owns (c : Thread nD τ) (ms0_1 t) fullShare ((dat0 V c).after 1 t) from rfl, after0_1]
  rw [show (dat0 V c).leavesExact 2 t = owns (c : Thread nD τ) (ms0_2 t) fullShare ((dat0 V c).after 2 t) from rfl, after0_2]
  rw [show (dat0 V c).leavesExact 3 t = owns (c : Thread nD τ) (ms0_3 t) fullShare ((dat0 V c).after 3 t) from by
      unfold Dat.leavesExact; rw [liveAt0_3 t], after0_3]
  unfold out0_3; (try dsimp only)
  iintro ⟨⟨⟨HS, HR⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the transposed-lhs matmul accumulated over the contraction blocks

The grid is (i, j, k) with k last: for each output block (i, j) the ten k points add one product block into a
VMEM accumulator, which is zeroed at k = 0 and copied to the output block at k = 9. Everything is stated at the
buffer contents the region is entered with. -/

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (k = 0), from the grid coordinates. -/
abbrev cond1_0 (i : grid1.Coords) : Prop := (Scalar.cmpi .ne (Scalar.extui (Scalar.cmpi .eq (BitVec.ofNat 32 (i 2).val) 0#32)) 0#32) = 1#1
/-- It holds exactly at the points whose last coordinate is 0. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's condition (k = 9). -/
abbrev cond1_1 (i : grid1.Coords) : Prop := k1_cond2 i = 1#1
/-- It holds exactly at the points whose last coordinate is 9. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional is not taken the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it is taken the output window is live. -/
theorem liveAt1_2 : ∀ t : Fin cfg1.N, cond1_1 (grid1.coords t) → cfg1.idle 2 (grid1.coords t) = false := by decide +kernel

/-! ## The staging memrefs and the accumulator -/

/-- One staging buffer of the output window, through which its contents are stated. -/
abbrev VO1_2 : View sig .tc .vmem S1024x256 .f32 := (Memref.whole cc1_stg2_0 : Memref sig .tc .vmem S1024x256 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
/-- The accumulator: a whole scoped buffer of the kernel's own, carried between points. -/
abbrev scM1_0 : Memref sig .tc .vmem S1024x256 .f32 := Memref.whole cc1_scratch0
abbrev VS1_0 : View sig .tc .vmem S1024x256 .f32 := scM1_0.view

/-- The region's invariant with the accumulator as a memref owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d)) ∗ Pipeline.scopedRestBut spec1 c [cc1_scratch0]) ∗ (∃ r, prngReg c r)) := by
  unfold Pipeline.ΦA; rw [scopedRest1_split]; simp only [scM1_0, owns_whole]; try rfl

/-! ## The kernel body on any staging memrefs, case by case -/

set_option maxHeartbeats 1000000 in
/-- CASE A (k = 0): the accumulator at anything is zeroed and the product block added; the output's buffer is
    handed back untouched. The pieces the accumulator ends with are the witness the run finds. -/
noncomputable def kernelRun1_A (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmulT_kernel i arg3 harg3 arg4 harg4 arg5 harg5 arg6 harg6) K } := by
  refine ⟨[], ?_, fun xi2 E K => ?run⟩
  case run =>
    simp only [cc1__matmulT_kernel_eq_skeleton]; unfold cc1__matmulT_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B (0 < k < 9): the product block is added to the accumulator at what the point before left; the
    output's buffer is handed back untouched. -/
noncomputable def kernelRun1_B (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__matmulT_kernel i arg3 harg3 arg4 harg4 arg5 harg5 arg6 harg6) K } := by
  refine ⟨[], ?_, fun xi2 E K => ?run⟩
  case run =>
    simp only [cc1__matmulT_kernel_eq_skeleton]; unfold cc1__matmulT_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 9): the product block is added to the accumulator at what the point before left, and the
    accumulator is copied into the output's buffer, whatever that held. -/
noncomputable def kernelRun1_C (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__matmulT_kernel i arg3 harg3 arg4 harg4 arg5 harg5 arg6 harg6) K } := by
  refine ⟨?_, ?_, fun E K => ?run⟩
  case run =>
    simp only [cc1__matmulT_kernel_eq_skeleton]; unfold cc1__matmulT_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- Case A stores nothing into the output (idle there): a placeholder nothing consults. -/
def out1_A_2 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) : Vec F S1024x256 .f32 :=
  VO1_2.read (Elt F) (VO1_2.writes (Elt F) VO1_2.junk (kernelRun1_A c i arg3 harg3 arg4 harg4 arg5 harg5 arg6 harg6 hc0 hc1 x0 x1).1)

/-- Case A's pieces for the accumulator cover it. -/
theorem scover1_A_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) (y : S1024x256.Idx) :
    ∃ pc ∈ (kernelRun1_A c i arg3 harg3 arg4 harg4 arg5 harg5 arg6 harg6 hc0 hc1 x0 x1).2.1, y ∈ pc.1.set :=
  View.cover_of_tiledL (kernelRun1_A c i arg3 harg3 arg4 harg4 arg5 harg5 arg6 harg6 hc0 hc1 x0 x1).2.1 S1024x256.size (by sl_kernel_rfl) y

/-- What case A leaves in the accumulator. -/
def sout1_A_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) : Vec F S1024x256 .f32 :=
  VS1_0.read (Elt F) (VS1_0.writes (Elt F) VS1_0.junk (kernelRun1_A c i arg3 harg3 arg4 harg4 arg5 harg5 arg6 harg6 hc0 hc1 x0 x1).2.1)

/-- Case B stores nothing into the output (idle there): a placeholder nothing consults. -/
def out1_B_2 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) : Vec F S1024x256 .f32 :=
  VO1_2.read (Elt F) (VO1_2.writes (Elt F) VO1_2.junk (kernelRun1_B c i arg3 harg3 arg4 harg4 arg5 harg5 arg6 harg6 hc0 hc1 x0 x1 xs0).1)

/-- Case B's pieces for the accumulator cover it. -/
theorem scover1_B_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) (y : S1024x256.Idx) :
    ∃ pc ∈ (kernelRun1_B c i arg3 harg3 arg4 harg4 arg5 harg5 arg6 harg6 hc0 hc1 x0 x1 xs0).2.1, y ∈ pc.1.set :=
  View.cover_of_tiledL (kernelRun1_B c i arg3 harg3 arg4 harg4 arg5 harg5 arg6 harg6 hc0 hc1 x0 x1 xs0).2.1 S1024x256.size (by sl_kernel_rfl) y

/-- What case B leaves in the accumulator. -/
def sout1_B_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) : Vec F S1024x256 .f32 :=
  VS1_0.read (Elt F) (VS1_0.writes (Elt F) VS1_0.junk (kernelRun1_B c i arg3 harg3 arg4 harg4 arg5 harg5 arg6 harg6 hc0 hc1 x0 x1 xs0).2.1)

/-- Case C's store into the output covers its block. -/
theorem cover1_C_2 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) (y : S1024x256.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S1024x256.size (by sl_kernel_rfl) y

/-- What case C leaves in the output's staging buffer. -/
def out1_C_2 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) : Vec F S1024x256 .f32 :=
  VO1_2.read (Elt F) (VO1_2.writes (Elt F) VO1_2.junk (kernelRun1_C c i arg3 harg3 arg4 harg4 arg5 harg5 arg6 harg6 hc0 hc1 x0 x1 xs0).1)

/-- Case C's pieces for the accumulator cover it. -/
theorem scover1_C_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) (y : S1024x256.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S1024x256.size (by sl_kernel_rfl) y

/-- What case C leaves in the accumulator. -/
def sout1_C_0 (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) : Vec F S1024x256 .f32 :=
  VS1_0.read (Elt F) (VS1_0.writes (Elt F) VS1_0.junk (kernelRun1_C c i arg3 harg3 arg4 harg4 arg5 harg5 arg6 harg6 hc0 hc1 x0 x1 xs0).2.1)

/-! ## What the output's buffer and the accumulator hold after each point -/

/-- The accumulation: after the body at position n, the output's staging buffer and the accumulator, by the case
    the closed forms select at n, run at the point's memrefs and input blocks, the accumulator taken at what the
    point before left where the case reads it. -/
def outsAt1 (c : Dev nD) : (n : ℕ) → n < cfg1.N → Vec F S1024x256 .f32 × Vec F S1024x256 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 10 = 0 then
      if h1 : (n + 1) % 10 = 9 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 10 = 9 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point of case A. -/
theorem outsAt1_A (c : Dev nD) (t : Fin cfg1.N) (h0 : t.val % 10 = 0) (h1 : ¬t.val % 10 = 9) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point of case B: over what the point before left. -/
theorem outsAt1_B (c : Dev nD) (t : Fin cfg1.N) (h0 : ¬t.val % 10 = 0) (h1 : ¬t.val % 10 = 9) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt1_C (c : Dev nD) (t : Fin cfg1.N) (h0 : ¬t.val % 10 = 0) (h1 : t.val % 10 = 9) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards
    the accumulator at what the point before left, the other scoped buffers unopened, the generator register at some
    state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Pipeline.scopedRestBut spec1 c [cc1_scratch0]) ∗ (∃ r, prngReg c r)) := by
  cases n with
  | zero => exact absurd rfl hz
  | succ n => rfl

/-! ## The pipeline's proof data -/

/-- The proof data of the region on core c: the arrays as the region finds them; after the body at point t each
    input's buffer at its block and the output's at the accumulation's first component; the invariant carrying the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the launch hands the region is the invariant before the first point. -/
theorem Phi_first1 (c : Dev nD) : (dat1 V c).Φ 0 = Pipeline.ΦA spec1 c := by
  rw [show (dat1 V c).Φ 0 = PhiS1 V c 0 (Nat.zero_le _) from rfl, PhiS1_zero V c 0 _ rfl]

/-- After any point but the first the invariant gives the launch's form back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

theorem Phi_last1 (c : Dev nD) : (dat1 V c).Φ (Fin.last cfg1.N) ⊢ Pipeline.ΦA spec1 c :=
  Phi_out1 V c _ (by rw [Fin.val_last]; have : cfg1.N = 200 := N_1; omega)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 200 := lt_of_lt_of_eq t.isLt (show cfg1.N = 200 from N_1)
  by_cases h0 : t.val % 10 = 0
  · by_cases h1 : t.val % 10 = 9
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun e => h0 (by omega)
    by_cases h1 : t.val % 10 = 9
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t ((hcond1_1 t).mpr h1)], after1_2]
      rw [outsAt1_C V c t h0 h1]
      unfold out1_C_2 sout1_C_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B_0; (try dsimp only)
      rw [PhiS1_castSucc V c t, PhiS1_pos V c _ _ hz]
      iintro ⟨⟨⟨HS0, Hr⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 2 of @main (the projection with a row softmax), at the contents `V` the region is entered with

The per-region half of the frame certificate: the windows' blocks read off the arrays as the region finds them, the
body's triple (one control case: the grid's second axis has one point, so the accumulator is zeroed, updated and
read out at every point), the proof data, and the body obligation. The accumulator is rewritten whole before it is
read at every point, so the invariant carries no contents for it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved;
    the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: unfetched, the block index has not moved;
    the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: unfetched, the block index has not moved;
    the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions: both hold at every point -/

/-- The condition of the body's first conditional (the accumulator's reset), from the grid coordinates. -/
abbrev cond2_0 (i : grid2.Coords) : Prop := (Scalar.cmpi .ne (Scalar.extui (Scalar.cmpi .eq (BitVec.ofNat 32 (i 1).val) 0#32)) 0#32) = 1#1
/-- It holds at every point: the second axis has the one coordinate 0. -/
theorem hcond2_0 : ∀ t : Fin cfg2.N, cond2_0 (grid2.coords t) :=
  (by decide +kernel : ∀ t : Fin grid2.N, cond2_0 (grid2.coords t))

/-- The condition of the body's second conditional (the read-out), from the grid coordinates. -/
abbrev cond2_1 (i : grid2.Coords) : Prop := k2_cond2 i = 1#1
/-- It holds at every point, for the same reason. -/
theorem hcond2_1 : ∀ t : Fin cfg2.N, cond2_1 (grid2.coords t) :=
  (by decide +kernel : ∀ t : Fin grid2.N, cond2_1 (grid2.coords t))

/-! ## No window is idle at any point -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel

/-! ## The memrefs the body is called with -/

/-- One staging buffer of each output window, through which its contents are stated (the choice does not matter:
    a covering list of writes reads the same through any view). -/
abbrev VO2_3 : View sig .tc .vmem S1000x1024 .f32 := (Memref.whole cc2_stg3_0 : Memref sig .tc .vmem S1000x1024 .f32).view
abbrev VO2_4 : View sig .tc .vmem S1000x1024 .bf16 := (Memref.whole cc2_stg4_0 : Memref sig .tc .vmem S1000x1024 .bf16).view
/-- Each window's current staging memref at point `t`, spelled as the pipeline passes it, and its wholeness. -/
abbrev ms2_0 (t : Fin cfg2.N) : Memref sig .tc .vmem S1000x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1000x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1000x1024 .bf16 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S1000x1024 .f32 := Memref.whole cc2_scratch0

/-- The class's invariant with the accumulator as a memref owned at some contents, the other scoped buffers
    unopened, and the generator register at some state: what the body obligation hands the run and takes back. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body's triple -/

set_option maxHeartbeats 4000000 in
/-- What the body's stores leave in each output's staging memref and in the accumulator, as pieces (last first), with
    the proof that on whole memrefs — the inputs' at their contents, the outputs' and the accumulator at anything — the
    body runs to the continuation holding the inputs' as they were and each of the other three with its pieces
    written. Both conditionals are decided by the hypotheses; the pieces are the witness the run finds. -/
noncomputable def kernelRun2 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) :
    Σ' (L3 : List (View.Piece (Elt F) S1000x1024 .f32)) (L4 : List (View.Piece (Elt F) S1000x1024 .bf16)), { LS0 : List (View.Piece (Elt F) S1000x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc2__proj_softmax_kernel i arg2 harg2 arg3 harg3 arg4 harg4 arg5 harg5 arg6 harg6 arg7 harg7) K } := by
  refine ⟨?_, ?_, ?_, fun E K => ?run⟩
  case run =>
    simp only [cc2__proj_softmax_kernel_eq_skeleton]; unfold cc2__proj_softmax_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- The pieces for output window 3 tile its block (one store of the whole block), so they cover it. -/
theorem cover2_3 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) (y : S1000x1024.Idx) :
    ∃ pc ∈ (kernelRun2 c i arg2 harg2 arg3 harg3 arg4 harg4 arg5 harg5 arg6 harg6 arg7 harg7 hc0 hc1 x0 x1 x2).1, y ∈ pc.1.set :=
  View.cover_of_tiledL (kernelRun2 c i arg2 harg2 arg3 harg3 arg4 harg4 arg5 harg5 arg6 harg6 arg7 harg7 hc0 hc1 x0 x1 x2).1 S1000x1024.size (by sl_kernel_rfl) y

/-- What the body leaves in output window 3's staging buffer: its pieces read back over junk. -/
def out2_3 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) : Vec F S1000x1024 .f32 :=
  VO2_3.read (Elt F) (VO2_3.writes (Elt F) VO2_3.junk (kernelRun2 c i arg2 harg2 arg3 harg3 arg4 harg4 arg5 harg5 arg6 harg6 arg7 harg7 hc0 hc1 x0 x1 x2).1)

/-- The pieces for output window 4 tile its block (one store of the whole block), so they cover it. -/
theorem cover2_4 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) (y : S1000x1024.Idx) :
    ∃ pc ∈ (kernelRun2 c i arg2 harg2 arg3 harg3 arg4 harg4 arg5 harg5 arg6 harg6 arg7 harg7 hc0 hc1 x0 x1 x2).2.1, y ∈ pc.1.set :=
  View.cover_of_tiledL (kernelRun2 c i arg2 harg2 arg3 harg3 arg4 harg4 arg5 harg5 arg6 harg6 arg7 harg7 hc0 hc1 x0 x1 x2).2.1 S1000x1024.size (by sl_kernel_rfl) y

/-- What the body leaves in output window 4's staging buffer: its pieces read back over junk. -/
def out2_4 (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) : Vec F S1000x1024 .bf16 :=
  VO2_4.read (Elt F) (VO2_4.writes (Elt F) VO2_4.junk (kernelRun2 c i arg2 harg2 arg3 harg3 arg4 harg4 arg5 harg5 arg6 harg6 arg7 harg7 hc0 hc1 x0 x1 x2).2.1)

/-! ## The pipeline's proof data -/

/-- The proof data of pipeline 2 on core `c`: the arrays as the region finds them (`V`); after the body at point
    `t` each input's buffer at its block and each output's at what the run leaves from the input blocks; the
    invariant the class's (the scoped rest and the generator register, at anything); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 c (grid2.coords t) (ms2_0 t) (hs2_0 t) (ms2_1 t) (hs2_1 t) (ms2_2 t) (hs2_2 t) (ms2_3 t) (hs2_3 t) (ms2_4 t) (hs2_4 t) scM2_0 (Memref.isWhole_whole _) (hcond2_0 t) (hcond2_1 t) (iblk2 V c 0 t) (iblk2 V c 1 t) (iblk2 V c 2 t)
    | ⟨4, _⟩ => out2_4 c (grid2.coords t) (ms2_0 t) (hs2_0 t) (ms2_1 t) (hs2_1 t) (ms2_2 t) (hs2_2 t) (ms2_3 t) (hs2_3 t) (ms2_4 t) (hs2_4 t) scM2_0 (Memref.isWhole_whole _) (hcond2_0 t) (hcond2_1 t) (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant before the first point is the class's, -/
theorem Phi_first2 (c : Dev nD) : (dat2 V c).Φ 0 = Pipeline.ΦA spec2 c := by
  dsimp only [dat2]

/-- and after the last point it gives the class's back. -/
theorem Phi_last2 (c : Dev nD) : (dat2 V c).Φ (Fin.last cfg2.N) ⊢ Pipeline.ΦA spec2 c := by
  dsimp only [dat2]; exact Idealize.SL.BI.Entails.refl _

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 c (grid2.coords t) (ms2_0 t) (hs2_0 t) (ms2_1 t) (hs2_1 t) (ms2_2 t) (hs2_2 t) (ms2_3 t) (hs2_3 t) (ms2_4 t) (hs2_4 t) scM2_0 (Memref.isWhole_whole _) (hcond2_0 t) (hcond2_1 t) (iblk2 V c 0 t) (iblk2 V c 1 t) (iblk2 V c 2 t) := by dsimp only [dat2]
theorem after2_4 (c : Dev nD) (t : Fin cfg2.N) : (dat2 V c).after 4 t = out2_4 c (grid2.coords t) (ms2_0 t) (hs2_0 t) (ms2_1 t) (hs2_1 t) (ms2_2 t) (hs2_2 t) (ms2_3 t) (hs2_3 t) (ms2_4 t) (hs2_4 t) scM2_0 (Memref.isWhole_whole _) (hcond2_0 t) (hcond2_1 t) (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
/-- The body at any point: the inputs' memrefs hold their blocks; the invariant hands the body the accumulator at some
    contents (the other scoped buffers and the generator register pass through unread) and takes it back at some
    contents; each output's buffer ends at its pieces written, which cover it; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  unfold out2_3 out2_4; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((kernelRun2 c (grid2.coords t) _ _ _ _ _ _ _ _ _ _ _ _ (hcond2_0 t) (hcond2_1 t) (iblk2 V c 0 t) (iblk2 V c 1 t) (iblk2 V c 2 t)).2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover2_3 c _ _ _ _ _ _ _ _ _ _ _ _ _ _ _ _ _ _)
  unfold owns; iexists _; isplitr
  swap; · iexact H4
  ipureintro; exact View.read_writes_of_cover _ _ _ _ _ (cover2_4 c _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! Region 3 of the main function (the adjacency-times-assignment product with a fused row sum), as the per-region
half of a frame certificate at the buffer contents V the region is entered with. The grid is 10 row blocks by 10
column blocks, the column block last; two accumulators live in scratch memory across the ten column blocks of a row
block: they are reset at the first column block, added to at every one, and copied to the two outputs at the last. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- The first conditional's test (the column block is the first), from the grid coordinates. -/
abbrev cond3_0 (i : grid3.Coords) : Prop := (Scalar.cmpi .ne (Scalar.extui (Scalar.cmpi .eq (BitVec.ofNat 32 (i 1).val) 0#32)) 0#32) = 1#1
/-- It holds exactly at the points whose position is a multiple of ten. -/
theorem hcond3_0 : ∀ t : Fin cfg3.N, cond3_0 (grid3.coords t) ↔ t.val % 10 = 0 :=
  (by decide +kernel : ∀ t : Fin grid3.N, cond3_0 (grid3.coords t) ↔ t.val % 10 = 0)

/-- The second conditional's test (the column block is the last). -/
abbrev cond3_1 (i : grid3.Coords) : Prop := k3_cond2 i = 1#1
/-- It holds exactly at the points whose position is nine modulo ten. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Away from the last column block both outputs are idle, -/
theorem idleAt3_3 : ∀ t : Fin cfg3.N, ¬t.val % 10 = 9 → cfg3.idle 3 (grid3.coords t) = true :=
  (by decide +kernel : ∀ t : Fin grid3.N, ¬t.val % 10 = 9 → idle3 3 (grid3.coords t) = true)
theorem idleAt3_4 : ∀ t : Fin cfg3.N, ¬t.val % 10 = 9 → cfg3.idle 4 (grid3.coords t) = true :=
  (by decide +kernel : ∀ t : Fin grid3.N, ¬t.val % 10 = 9 → idle3 4 (grid3.coords t) = true)
/-- and at the last column block they are live. -/
theorem liveAt3_3 : ∀ t : Fin cfg3.N, t.val % 10 = 9 → cfg3.idle 3 (grid3.coords t) = false :=
  (by decide +kernel : ∀ t : Fin grid3.N, t.val % 10 = 9 → idle3 3 (grid3.coords t) = false)
theorem liveAt3_4 : ∀ t : Fin cfg3.N, t.val % 10 = 9 → cfg3.idle 4 (grid3.coords t) = false :=
  (by decide +kernel : ∀ t : Fin grid3.N, t.val % 10 = 9 → idle3 4 (grid3.coords t) = false)
/-- Away from the last column block neither output is written back. -/
theorem noFlush3_3 (t : Fin cfg3.N) (h : ¬t.val % 10 = 9) : (cfg3.win 3).flush t = false := by
  cases hf : (cfg3.win 3).flush t with
  | false => rfl
  | true => exact absurd ((flush3_3 t).mp hf) h
theorem noFlush3_4 (t : Fin cfg3.N) (h : ¬t.val % 10 = 9) : (cfg3.win 4).flush t = false := by
  cases hf : (cfg3.win 4).flush t with
  | false => rfl
  | true => exact absurd ((flush3_4 t).mp hf) h

/-! ## The staging and scratch memrefs -/

abbrev VO3_3 : View sig .tc .vmem S1024x1024 .bf16 := (Memref.whole cc3_stg3_0 : Memref sig .tc .vmem S1024x1024 .bf16).view
abbrev VO3_4 : View sig .tc .vmem S1024x128 .f32 := (Memref.whole cc3_stg4_0 : Memref sig .tc .vmem S1024x128 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x128 .f32 := win3_4.stage (cfg3.slots t 4)
abbrev hs3_4 (t : Fin cfg3.N) : (ms3_4 t).IsWhole := hstage3_4 ((cfg3.slots t 4).cast nbuf3_4)
/-- The two accumulators: whole scoped buffers of the kernel's own. -/
abbrev scM3_0 : Memref sig .tc .vmem S1024x1024 .f32 := Memref.whole cc3_scratch0
abbrev scM3_1 : Memref sig .tc .vmem S1024x128 .f32 := Memref.whole cc3_scratch1
abbrev VS3_0 : View sig .tc .vmem S1024x1024 .f32 := scM3_0.view
abbrev VS3_1 : View sig .tc .vmem S1024x128 .f32 := scM3_1.view

/-- Every other scoped buffer of the core, unopened. -/
abbrev rest3 (c : Dev nD) : sProp 𝕄 :=
  Pipeline.scopedRestBut (Ix := Unit) (Name := ℕ) (U := UR sig nD τ) (Lvl := ℕ) (Val := Elt F) spec3 c [cc3_scratch0, cc3_scratch1]

/-- The region invariant with the two accumulators as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d)) ∗ rest3 c) ∗ (∃ r, prngReg c r)) := by
  unfold Pipeline.ΦA; rw [scopedRest3_split]; simp only [scM3_0, scM3_1, owns_whole]; try rfl

/-! ## The kernel body on any whole staging memrefs, one run per control case -/

set_option maxHeartbeats 1000000 in
/-- FIRST COLUMN BLOCK (first conditional taken, second not): on whole memrefs, the inputs at their contents, the two
    outputs at contents handed back untouched, the accumulators at anything, the body runs to the continuation
    holding the inputs and outputs as they were and each accumulator with the pieces written that the run found. -/
noncomputable def kernelRun3_A (c : Dev nD) (i : grid3.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1024 .f32) (harg7 : arg7.IsWhole) (arg8 : Memref sig .tc .vmem S1024x128 .f32) (harg8 : arg8.IsWhole) (hc0 : cond3_0 i) (hc1 : ¬cond3_1 i)
    (x0 : Vec F S1024x1024 .f32) (x1 : Vec F S1024x1024 .bf16) (x2 : Vec F S1x1024 .f32) :
    Σ' (LS0 : List (View.Piece (Elt F) S1024x1024 .f32)), { LS1 : List (View.Piece (Elt F) S1024x128 .f32) //
      ∀ (xi3 : Vec F S1024x1024 .bf16) (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__matmul_rowsum_kernel i arg2 harg2 arg3 harg3 arg4 harg4 arg5 harg5 arg6 harg6 arg7 harg7 arg8 harg8) K } := by
  refine ⟨?_, ?_, fun xi3 xi4 E K => ?run⟩
  case run =>
    simp only [cc3__matmul_rowsum_kernel_eq_skeleton]; unfold cc3__matmul_rowsum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in
/-- A MIDDLE COLUMN BLOCK (neither conditional taken): as above, with the accumulators at the contents the point
    before left. -/
noncomputable def kernelRun3_B (c : Dev nD) (i : grid3.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1024 .f32) (harg7 : arg7.IsWhole) (arg8 : Memref sig .tc .vmem S1024x128 .f32) (harg8 : arg8.IsWhole) (hc0 : ¬cond3_0 i) (hc1 : ¬cond3_1 i)
    (x0 : Vec F S1024x1024 .f32) (x1 : Vec F S1024x1024 .bf16) (x2 : Vec F S1x1024 .f32) (xs0 : Vec F S1024x1024 .f32) (xs1 : Vec F S1024x128 .f32) :
    Σ' (LS0 : List (View.Piece (Elt F) S1024x1024 .f32)), { LS1 : List (View.Piece (Elt F) S1024x128 .f32) //
      ∀ (xi3 : Vec F S1024x1024 .bf16) (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__matmul_rowsum_kernel i arg2 harg2 arg3 harg3 arg4 harg4 arg5 harg5 arg6 harg6 arg7 harg7 arg8 harg8) K } := by
  refine ⟨?_, ?_, fun xi3 xi4 E K => ?run⟩
  case run =>
    simp only [cc3__matmul_rowsum_kernel_eq_skeleton]; unfold cc3__matmul_rowsum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

set_option maxHeartbeats 1000000 in
/-- THE LAST COLUMN BLOCK (first conditional not taken, second taken): the accumulators at the contents the point
    before left, the outputs at anything; each output's buffer ends with the pieces written that the run found. -/
noncomputable def kernelRun3_C (c : Dev nD) (i : grid3.Coords) (arg2 : Memref sig .tc .vmem S1024x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x128 .f32) (harg6 : arg6.IsWhole) (arg7 : Memref sig .tc .vmem S1024x1024 .f32) (harg7 : arg7.IsWhole) (arg8 : Memref sig .tc .vmem S1024x128 .f32) (harg8 : arg8.IsWhole) (hc0 : ¬cond3_0 i) (hc1 : cond3_1 i)
    (x0 : Vec F S1024x1024 .f32) (x1 : Vec F S1024x1024 .bf16) (x2 : Vec F S1x1024 .f32) (xs0 : Vec F S1024x1024 .f32) (xs1 : Vec F S1024x128 .f32) :
    Σ' (L3 : List (View.Piece (Elt F) S1024x1024 .bf16)) (L4 : List (View.Piece (Elt F) S1024x128 .f32)) (LS0 : List (View.Piece (Elt F) S1024x1024 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc3__matmul_rowsum_kernel i arg2 harg2 arg3 harg3 arg4 harg4 arg5 harg5 arg6 harg6 arg7 harg7 arg8 harg8) K } := by
  refine ⟨?_, ?_, ?_, ?_, fun E K => ?run⟩
  case run =>
    simp only [cc3__matmul_rowsum_kernel_eq_skeleton]; unfold cc3__matmul_rowsum_kernel_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

/-! ## The three cases at a grid point, and what each leaves -/

theorem not9_of_0 {n : ℕ} (h : n % 10 = 0) : ¬n % 10 = 9 := by omega
theorem not0_of_9 {n : ℕ} (h : n % 10 = 9) : ¬n % 10 = 0 := by omega

/-- The run of the first column block at point t, on the point's staging memrefs and input blocks. -/
abbrev runA3 (c : Dev nD) (t : Fin cfg3.N) (h0 : t.val % 10 = 0) :=
  kernelRun3_A c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) ((hcond3_0 t).mpr h0) (fun h => not9_of_0 h0 ((hcond3_1 t).mp h)) (iblk3 V c 0 t) (iblk3 V c 1 t) (iblk3 V c 2 t)
/-- The run of a middle column block at point t, over the accumulators' contents xs0, xs1. -/
abbrev runB3 (c : Dev nD) (t : Fin cfg3.N) (h0 : ¬t.val % 10 = 0) (h9 : ¬t.val % 10 = 9) (xs0 : Vec F S1024x1024 .f32) (xs1 : Vec F S1024x128 .f32) :=
  kernelRun3_B c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => h0 ((hcond3_0 t).mp h)) (fun h => h9 ((hcond3_1 t).mp h)) (iblk3 V c 0 t) (iblk3 V c 1 t) (iblk3 V c 2 t) xs0 xs1
/-- The run of the last column block at point t, over the accumulators' contents xs0, xs1. -/
abbrev runC3 (c : Dev nD) (t : Fin cfg3.N) (h9 : t.val % 10 = 9) (xs0 : Vec F S1024x1024 .f32) (xs1 : Vec F S1024x128 .f32) :=
  kernelRun3_C c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) (fun h => not0_of_9 h9 ((hcond3_0 t).mp h)) ((hcond3_1 t).mpr h9) (iblk3 V c 0 t) (iblk3 V c 1 t) (iblk3 V c 2 t) xs0 xs1

/-- Each case's pieces for an accumulator or an output tile it (whole-buffer stores), so they cover it. -/
theorem scover3_A_0 (c : Dev nD) (t : Fin cfg3.N) (h0 : t.val % 10 = 0) (y : S1024x1024.Idx) :
    ∃ pc ∈ (runA3 V c t h0).1, y ∈ pc.1.set :=
  View.cover_of_tiledL (runA3 V c t h0).1 S1024x1024.size (by sl_kernel_rfl) y
theorem scover3_A_1 (c : Dev nD) (t : Fin cfg3.N) (h0 : t.val % 10 = 0) (y : S1024x128.Idx) :
    ∃ pc ∈ (runA3 V c t h0).2.1, y ∈ pc.1.set :=
  View.cover_of_tiledL (runA3 V c t h0).2.1 S1024x128.size (by sl_kernel_rfl) y
theorem scover3_B_0 (c : Dev nD) (t : Fin cfg3.N) (h0 : ¬t.val % 10 = 0) (h9 : ¬t.val % 10 = 9) (xs0 : Vec F S1024x1024 .f32) (xs1 : Vec F S1024x128 .f32) (y : S1024x1024.Idx) :
    ∃ pc ∈ (runB3 V c t h0 h9 xs0 xs1).1, y ∈ pc.1.set :=
  View.cover_of_tiledL (runB3 V c t h0 h9 xs0 xs1).1 S1024x1024.size (by sl_kernel_rfl) y
theorem scover3_B_1 (c : Dev nD) (t : Fin cfg3.N) (h0 : ¬t.val % 10 = 0) (h9 : ¬t.val % 10 = 9) (xs0 : Vec F S1024x1024 .f32) (xs1 : Vec F S1024x128 .f32) (y : S1024x128.Idx) :
    ∃ pc ∈ (runB3 V c t h0 h9 xs0 xs1).2.1, y ∈ pc.1.set :=
  View.cover_of_tiledL (runB3 V c t h0 h9 xs0 xs1).2.1 S1024x128.size (by sl_kernel_rfl) y
theorem cover3_C_3 (c : Dev nD) (t : Fin cfg3.N) (h9 : t.val % 10 = 9) (xs0 : Vec F S1024x1024 .f32) (xs1 : Vec F S1024x128 .f32) (y : S1024x1024.Idx) :
    ∃ pc ∈ (runC3 V c t h9 xs0 xs1).1, y ∈ pc.1.set :=
  View.cover_of_tiledL (runC3 V c t h9 xs0 xs1).1 S1024x1024.size (by sl_kernel_rfl) y
theorem cover3_C_4 (c : Dev nD) (t : Fin cfg3.N) (h9 : t.val % 10 = 9) (xs0 : Vec F S1024x1024 .f32) (xs1 : Vec F S1024x128 .f32) (y : S1024x128.Idx) :
    ∃ pc ∈ (runC3 V c t h9 xs0 xs1).2.1, y ∈ pc.1.set :=
  View.cover_of_tiledL (runC3 V c t h9 xs0 xs1).2.1 S1024x128.size (by sl_kernel_rfl) y
theorem scover3_C_0 (c : Dev nD) (t : Fin cfg3.N) (h9 : t.val % 10 = 9) (xs0 : Vec F S1024x1024 .f32) (xs1 : Vec F S1024x128 .f32) (y : S1024x1024.Idx) :
    ∃ pc ∈ (runC3 V c t h9 xs0 xs1).2.2.1, y ∈ pc.1.set :=
  View.cover_of_tiledL (runC3 V c t h9 xs0 xs1).2.2.1 S1024x1024.size (by sl_kernel_rfl) y
theorem scover3_C_1 (c : Dev nD) (t : Fin cfg3.N) (h9 : t.val % 10 = 9) (xs0 : Vec F S1024x1024 .f32) (xs1 : Vec F S1024x128 .f32) (y : S1024x128.Idx) :
    ∃ pc ∈ (runC3 V c t h9 xs0 xs1).2.2.2.1, y ∈ pc.1.set :=
  View.cover_of_tiledL (runC3 V c t h9 xs0 xs1).2.2.2.1 S1024x128.size (by sl_kernel_rfl) y

/-- What each case leaves in each accumulator and (the last column block) in each output: its pieces read back. -/
def sA3_0 (c : Dev nD) (t : Fin cfg3.N) (h0 : t.val % 10 = 0) : Vec F S1024x1024 .f32 :=
  VS3_0.read (Elt F) (VS3_0.writes (Elt F) VS3_0.junk (runA3 V c t h0).1)
def sA3_1 (c : Dev nD) (t : Fin cfg3.N) (h0 : t.val % 10 = 0) : Vec F S1024x128 .f32 :=
  VS3_1.read (Elt F) (VS3_1.writes (Elt F) VS3_1.junk (runA3 V c t h0).2.1)
def sB3_0 (c : Dev nD) (t : Fin cfg3.N) (h0 : ¬t.val % 10 = 0) (h9 : ¬t.val % 10 = 9) (xs0 : Vec F S1024x1024 .f32) (xs1 : Vec F S1024x128 .f32) : Vec F S1024x1024 .f32 :=
  VS3_0.read (Elt F) (VS3_0.writes (Elt F) VS3_0.junk (runB3 V c t h0 h9 xs0 xs1).1)
def sB3_1 (c : Dev nD) (t : Fin cfg3.N) (h0 : ¬t.val % 10 = 0) (h9 : ¬t.val % 10 = 9) (xs0 : Vec F S1024x1024 .f32) (xs1 : Vec F S1024x128 .f32) : Vec F S1024x128 .f32 :=
  VS3_1.read (Elt F) (VS3_1.writes (Elt F) VS3_1.junk (runB3 V c t h0 h9 xs0 xs1).2.1)
def o3C (c : Dev nD) (t : Fin cfg3.N) (h9 : t.val % 10 = 9) (xs0 : Vec F S1024x1024 .f32) (xs1 : Vec F S1024x128 .f32) : Vec F S1024x1024 .bf16 :=
  VO3_3.read (Elt F) (VO3_3.writes (Elt F) VO3_3.junk (runC3 V c t h9 xs0 xs1).1)
def o4C (c : Dev nD) (t : Fin cfg3.N) (h9 : t.val % 10 = 9) (xs0 : Vec F S1024x1024 .f32) (xs1 : Vec F S1024x128 .f32) : Vec F S1024x128 .f32 :=
  VO3_4.read (Elt F) (VO3_4.writes (Elt F) VO3_4.junk (runC3 V c t h9 xs0 xs1).2.1)
def sC3_0 (c : Dev nD) (t : Fin cfg3.N) (h9 : t.val % 10 = 9) (xs0 : Vec F S1024x1024 .f32) (xs1 : Vec F S1024x128 .f32) : Vec F S1024x1024 .f32 :=
  VS3_0.read (Elt F) (VS3_0.writes (Elt F) VS3_0.junk (runC3 V c t h9 xs0 xs1).2.2.1)
def sC3_1 (c : Dev nD) (t : Fin cfg3.N) (h9 : t.val % 10 = 9) (xs0 : Vec F S1024x1024 .f32) (xs1 : Vec F S1024x128 .f32) : Vec F S1024x128 .f32 :=
  VS3_1.read (Elt F) (VS3_1.writes (Elt F) VS3_1.junk (runC3 V c t h9 xs0 xs1).2.2.2.1)

/-! ## What the accumulators hold after each point -/

/-- THE ACCUMULATION: the two accumulators after the body at position n — the case the position selects, run at the
    point's memrefs and input blocks, over what this leaves at position n - 1. -/
def scAt3 (c : Dev nD) : (n : ℕ) → n < cfg3.N → Vec F S1024x1024 .f32 × Vec F S1024x128 .f32
  | 0, hn => (sA3_0 V c ⟨0, hn⟩ (Nat.zero_mod _), sA3_1 V c ⟨0, hn⟩ (Nat.zero_mod _))
  | n + 1, hn =>
    if h0 : (n + 1) % 10 = 0 then
      (sA3_0 V c ⟨n + 1, hn⟩ h0, sA3_1 V c ⟨n + 1, hn⟩ h0)
    else
      if h9 : (n + 1) % 10 = 9 then
        (sC3_0 V c ⟨n + 1, hn⟩ h9 (scAt3 c n (Nat.lt_of_succ_lt hn)).1 (scAt3 c n (Nat.lt_of_succ_lt hn)).2, sC3_1 V c ⟨n + 1, hn⟩ h9 (scAt3 c n (Nat.lt_of_succ_lt hn)).1 (scAt3 c n (Nat.lt_of_succ_lt hn)).2)
      else
        (sB3_0 V c ⟨n + 1, hn⟩ h0 h9 (scAt3 c n (Nat.lt_of_succ_lt hn)).1 (scAt3 c n (Nat.lt_of_succ_lt hn)).2, sB3_1 V c ⟨n + 1, hn⟩ h0 h9 (scAt3 c n (Nat.lt_of_succ_lt hn)).1 (scAt3 c n (Nat.lt_of_succ_lt hn)).2)

theorem scAt3_A (c : Dev nD) (t : Fin cfg3.N) (h0 : t.val % 10 = 0) :
    scAt3 V c t.val t.isLt = (sA3_0 V c t h0, sA3_1 V c t h0) := by
  obtain ⟨n, hn⟩ := t
  cases n with
  | zero => exact rfl
  | succ n => exact dif_pos h0

theorem scAt3_B (c : Dev nD) (t : Fin cfg3.N) (h0 : ¬t.val % 10 = 0) (h9 : ¬t.val % 10 = 9) :
    scAt3 V c t.val t.isLt = (sB3_0 V c t h0 h9 (scAt3 V c (t.val - 1) (Nat.lt_of_le_of_lt (Nat.sub_le _ _) t.isLt)).1 (scAt3 V c (t.val - 1) (Nat.lt_of_le_of_lt (Nat.sub_le _ _) t.isLt)).2, sB3_1 V c t h0 h9 (scAt3 V c (t.val - 1) (Nat.lt_of_le_of_lt (Nat.sub_le _ _) t.isLt)).1 (scAt3 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h9).trans rfl)

theorem scAt3_C (c : Dev nD) (t : Fin cfg3.N) (h9 : t.val % 10 = 9) :
    scAt3 V c t.val t.isLt = (sC3_0 V c t h9 (scAt3 V c (t.val - 1) (Nat.lt_of_le_of_lt (Nat.sub_le _ _) t.isLt)).1 (scAt3 V c (t.val - 1) (Nat.lt_of_le_of_lt (Nat.sub_le _ _) t.isLt)).2, sC3_1 V c t h9 (scAt3 V c (t.val - 1) (Nat.lt_of_le_of_lt (Nat.sub_le _ _) t.isLt)).1 (scAt3 V c (t.val - 1) (Nat.lt_of_le_of_lt (Nat.sub_le _ _) t.isLt)).2) := by
  obtain ⟨n, hn⟩ := t
  cases n with
  | zero => exact absurd ((Nat.zero_mod 10).symm.trans h9) (by decide)
  | succ n => exact (dif_neg (not0_of_9 h9)).trans ((dif_pos h9).trans rfl)

/-- What the two outputs' staging buffers hold after the body at point t: at a last column block the run's pieces
    read back, over the accumulators the point before left; elsewhere the body stores nothing there and the
    value is a placeholder nothing consults (the window is idle and not written back). -/
def o3At (c : Dev nD) (t : Fin cfg3.N) : Vec F S1024x1024 .bf16 :=
  if h9 : t.val % 10 = 9 then o3C V c t h9 (scAt3 V c (t.val - 1) (Nat.lt_of_le_of_lt (Nat.sub_le _ _) t.isLt)).1 (scAt3 V c (t.val - 1) (Nat.lt_of_le_of_lt (Nat.sub_le _ _) t.isLt)).2
  else VO3_3.read (Elt F) VO3_3.junk
def o4At (c : Dev nD) (t : Fin cfg3.N) : Vec F S1024x128 .f32 :=
  if h9 : t.val % 10 = 9 then o4C V c t h9 (scAt3 V c (t.val - 1) (Nat.lt_of_le_of_lt (Nat.sub_le _ _) t.isLt)).1 (scAt3 V c (t.val - 1) (Nat.lt_of_le_of_lt (Nat.sub_le _ _) t.isLt)).2
  else VO3_4.read (Elt F) VO3_4.junk

theorem o3At_C (c : Dev nD) (t : Fin cfg3.N) (h9 : t.val % 10 = 9) :
    o3At V c t = o3C V c t h9 (scAt3 V c (t.val - 1) (Nat.lt_of_le_of_lt (Nat.sub_le _ _) t.isLt)).1 (scAt3 V c (t.val - 1) (Nat.lt_of_le_of_lt (Nat.sub_le _ _) t.isLt)).2 := dif_pos h9
theorem o4At_C (c : Dev nD) (t : Fin cfg3.N) (h9 : t.val % 10 = 9) :
    o4At V c t = o4C V c t h9 (scAt3 V c (t.val - 1) (Nat.lt_of_le_of_lt (Nat.sub_le _ _) t.isLt)).1 (scAt3 V c (t.val - 1) (Nat.lt_of_le_of_lt (Nat.sub_le _ _) t.isLt)).2 := dif_pos h9

/-- The region invariant before position n: before the first point the class's; afterwards the scoped rest with
    each accumulator at what the point before left in it, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((scAt3 V c n hn).1) ∗ owns (c : Thread nD τ) scM3_1 fullShare ((scAt3 V c n hn).2)) ∗ rest3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((scAt3 V c n hn).1) ∗ owns (c : Thread nD τ) scM3_1 fullShare ((scAt3 V c n hn).2)) ∗ rest3 c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((scAt3 V c (n - 1) (by omega)).1) ∗ owns (c : Thread nD τ) scM3_1 fullShare ((scAt3 V c (n - 1) (by omega)).2)) ∗ rest3 c) ∗ (∃ r, prngReg c r)) := by
  cases n with
  | zero => exact absurd rfl hz
  | succ n => rfl

/-! ## The pipeline's proof data -/

/-- The proof data of pipeline 3 on core c: the arrays as the region finds them; after the body at point t each
    input's buffer at its block and the outputs' at o3At, o4At; the invariant PhiS3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => o3At V c t
    | ⟨4, _⟩ => o4At V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = o3At V c t := by dsimp only [dat3]
theorem after3_4 (c : Dev nD) (t : Fin cfg3.N) : (dat3 V c).after 4 t = o4At V c t := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The invariant before the first point is the class's. -/
theorem Phi_first3 (c : Dev nD) : (dat3 V c).Φ 0 = Pipeline.ΦA spec3 c := rfl

/-- After any point but the first the invariant gives the class's back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem Phi_last3 (c : Dev nD) : (dat3 V c).Φ (Fin.last cfg3.N) ⊢ Pipeline.ΦA spec3 c :=
  Phi_out3 V c _ (by rw [Fin.val_last]; have : cfg3.N = 100 := N_3; omega)

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem leaves3_0 (c : Dev nD) (t : Fin cfg3.N) :
    (dat3 V c).leavesExact 0 t = owns (c : Thread nD τ) (ms3_0 t) fullShare (iblk3 V c 0 t) := by
  rw [← after3_0 V c t]
theorem leaves3_1 (c : Dev nD) (t : Fin cfg3.N) :
    (dat3 V c).leavesExact 1 t = owns (c : Thread nD τ) (ms3_1 t) fullShare (iblk3 V c 1 t) := by
  rw [← after3_1 V c t]
theorem leaves3_2 (c : Dev nD) (t : Fin cfg3.N) :
    (dat3 V c).leavesExact 2 t = owns (c : Thread nD τ) (ms3_2 t) fullShare (iblk3 V c 2 t) := by
  rw [← after3_2 V c t]
theorem leaves3_3_C (c : Dev nD) (t : Fin cfg3.N) (h9 : t.val % 10 = 9) :
    (dat3 V c).leavesExact 3 t = owns (c : Thread nD τ) (ms3_3 t) fullShare (o3At V c t) := by
  rw [← after3_3 V c t]; unfold Dat.leavesExact; rw [liveAt3_3 t h9]
theorem leaves3_4_C (c : Dev nD) (t : Fin cfg3.N) (h9 : t.val % 10 = 9) :
    (dat3 V c).leavesExact 4 t = owns (c : Thread nD τ) (ms3_4 t) fullShare (o4At V c t) := by
  rw [← after3_4 V c t]; unfold Dat.leavesExact; rw [liveAt3_4 t h9]

set_option maxHeartbeats 4800000 in
/-- The body at any point: the inputs' memrefs hold their blocks; the position modulo ten says which case the point
    is in; the invariant hands the body the accumulators at what the point before left (at anything at the very first
    point) and takes them back at this point's contents; away from the last column block the outputs' buffers pass
    through untouched; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 100 := lt_of_lt_of_eq t.isLt (show cfg3.N = 100 from N_3)
  by_cases h0 : t.val % 10 = 0
  · have h9 : ¬t.val % 10 = 9 := not9_of_0 h0
    rw [Dat.leavesExact_idle (dat3 V c) 3 t (idleAt3_3 t h9) (noFlush3_3 t h9),
      Dat.leavesExact_idle (dat3 V c) 4 t (idleAt3_4 t h9) (noFlush3_4 t h9)]
    rw [scAt3_A V c t h0]
    unfold sA3_0 sA3_1; (try dsimp only)
    by_cases hz : t.val = 0
    · rw [PhiS3_castSucc V c t, PhiS3_zero V c _ _ hz, PhiA3_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runA3 V c t h0).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_A_0 V c t h0)
            unfold owns; iexists _; isplitr
            swap; · iexact HS1
            ipureintro; exact View.read_writes_of_cover _ _ _ _ _ (scover3_A_1 V c t h0)
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runA3 V c t h0).2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_A_0 V c t h0)
            unfold owns; iexists _; isplitr
            swap; · iexact HS1
            ipureintro; exact View.read_writes_of_cover _ _ _ _ _ (scover3_A_1 V c t h0)
          iexact HR
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun e => h0 (by rw [e])
    by_cases h9 : t.val % 10 = 9
    · rw [leaves3_3_C V c t h9, leaves3_4_C V c t h9, o3At_C V c t h9, o4At_C V c t h9]
      rw [scAt3_C V c t h9]
      unfold o3C o4C sC3_0 sC3_1; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runC3 V c t h9 _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 V c t h9 _ _)
            unfold owns; iexists _; isplitr
            swap; · iexact HS1
            ipureintro; exact View.read_writes_of_cover _ _ _ _ _ (scover3_C_1 V c t h9 _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3_C_3 V c t h9 _ _)
      unfold owns; iexists _; isplitr
      swap; · iexact H4
      ipureintro; exact View.read_writes_of_cover _ _ _ _ _ (cover3_C_4 V c t h9 _ _)
    · rw [Dat.leavesExact_idle (dat3 V c) 3 t (idleAt3_3 t h9) (noFlush3_3 t h9),
        Dat.leavesExact_idle (dat3 V c) 4 t (idleAt3_4 t h9) (noFlush3_4 t h9)]
      rw [scAt3_B V c t h0 h9]
      unfold sB3_0 sB3_1; (try dsimp only)
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply ((runB3 V c t h0 h9 _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 V c t h0 h9 _ _)
            unfold owns; iexists _; isplitr
            swap; · iexact HS1
            ipureintro; exact View.read_writes_of_cover _ _ _ _ _ (scover3_B_1 V c t h0 h9 _ _)
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

example (c : Dev nD) (w : Fin cfg3.W) : (dat3 V c).q w = fullShare := rfl
example (c : Dev nD) (t : Fin (cfg3.N + 1)) : (dat3 V c).owed t = 0 := rfl

end Cert.Kernel.Hand

end
-- ==== Proof.K.R4.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: the transposed-lhs matmul accumulated over the contraction blocks

The grid is (i, j, k) with k last: for each output block (i, j) the ten k points add one product block into a
VMEM accumulator, which is zeroed at k = 0 and copied to the output block at k = 9. Everything is stated at the
buffer contents the region is entered with. -/

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not, for any proof
    data whose array is the entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional's condition (k = 0), from the grid coordinates. -/
abbrev cond4_0 (i : grid4.Coords) : Prop := (Scalar.cmpi .ne (Scalar.extui (Scalar.cmpi .eq (BitVec.ofNat 32 (i 2).val) 0#32)) 0#32) = 1#1
/-- It holds exactly at the points whose last coordinate is 0. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's condition (k = 9). -/
abbrev cond4_1 (i : grid4.Coords) : Prop := k4_cond2 i = 1#1
/-- It holds exactly at the points whose last coordinate is 9. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Where the second conditional is not taken the output window is idle and not written back. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- Where it is taken the output window is live. -/
theorem liveAt4_2 : ∀ t : Fin cfg4.N, cond4_1 (grid4.coords t) → cfg4.idle 2 (grid4.coords t) = false := by decide +kernel

/-! ## The staging memrefs and the accumulator -/

/-- One staging buffer of the output window, through which its contents are stated. -/
abbrev VO4_2 : View sig .tc .vmem S1024x256 .f32 := (Memref.whole cc4_stg2_0 : Memref sig .tc .vmem S1024x256 .f32).view
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x256 .f32 := win4_2.stage (cfg4.slots t 2)
abbrev hs4_2 (t : Fin cfg4.N) : (ms4_2 t).IsWhole := hstage4_2 ((cfg4.slots t 2).cast nbuf4_2)
/-- The accumulator: a whole scoped buffer of the kernel's own, carried between points. -/
abbrev scM4_0 : Memref sig .tc .vmem S1024x256 .f32 := Memref.whole cc4_scratch0
abbrev VS4_0 : View sig .tc .vmem S1024x256 .f32 := scM4_0.view

/-- The region's invariant with the accumulator as a memref owned at some contents, the other scoped buffers
    unopened, and the generator register at some state. -/
theorem PhiA4_eq (c : Dev nD) :
    (Pipeline.ΦA spec4 c : sProp 𝕄)
      = iprop(iprop(iprop((∃ d, owns (c : Thread nD τ) scM4_0 fullShare d)) ∗ Pipeline.scopedRestBut spec4 c [cc4_scratch0]) ∗ (∃ r, prngReg c r)) := by
  unfold Pipeline.ΦA; rw [scopedRest4_split]; simp only [scM4_0, owns_whole]; try rfl

/-! ## The kernel body on any staging memrefs, case by case -/

set_option maxHeartbeats 1000000 in
/-- CASE A (k = 0): the accumulator at anything is zeroed and the product block added; the output's buffer is
    handed back untouched. The pieces the accumulator ends with are the witness the run finds. -/
noncomputable def kernelRun4_A (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmulT_kernel i arg3 harg3 arg4 harg4 arg5 harg5 arg6 harg6) K } := by
  refine ⟨[], ?_, fun xi2 E K => ?run⟩
  case run =>
    simp only [cc4__matmulT_kernel_eq_skeleton]; unfold cc4__matmulT_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B (0 < k < 9): the product block is added to the accumulator at what the point before left; the
    output's buffer is handed back untouched. -/
noncomputable def kernelRun4_B (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__matmulT_kernel i arg3 harg3 arg4 harg4 arg5 harg5 arg6 harg6) K } := by
  refine ⟨[], ?_, fun xi2 E K => ?run⟩
  case run =>
    simp only [cc4__matmulT_kernel_eq_skeleton]; unfold cc4__matmulT_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 9): the product block is added to the accumulator at what the point before left, and the
    accumulator is copied into the output's buffer, whatever that held. -/
noncomputable def kernelRun4_C (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__matmulT_kernel i arg3 harg3 arg4 harg4 arg5 harg5 arg6 harg6) K } := by
  refine ⟨?_, ?_, fun E K => ?run⟩
  case run =>
    simp only [cc4__matmulT_kernel_eq_skeleton]; unfold cc4__matmulT_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- Case A stores nothing into the output (idle there): a placeholder nothing consults. -/
def out4_A_2 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) : Vec F S1024x256 .f32 :=
  VO4_2.read (Elt F) (VO4_2.writes (Elt F) VO4_2.junk (kernelRun4_A c i arg3 harg3 arg4 harg4 arg5 harg5 arg6 harg6 hc0 hc1 x0 x1).1)

/-- Case A's pieces for the accumulator cover it. -/
theorem scover4_A_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) (y : S1024x256.Idx) :
    ∃ pc ∈ (kernelRun4_A c i arg3 harg3 arg4 harg4 arg5 harg5 arg6 harg6 hc0 hc1 x0 x1).2.1, y ∈ pc.1.set :=
  View.cover_of_tiledL (kernelRun4_A c i arg3 harg3 arg4 harg4 arg5 harg5 arg6 harg6 hc0 hc1 x0 x1).2.1 S1024x256.size (by sl_kernel_rfl) y

/-- What case A leaves in the accumulator. -/
def sout4_A_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) : Vec F S1024x256 .f32 :=
  VS4_0.read (Elt F) (VS4_0.writes (Elt F) VS4_0.junk (kernelRun4_A c i arg3 harg3 arg4 harg4 arg5 harg5 arg6 harg6 hc0 hc1 x0 x1).2.1)

/-- Case B stores nothing into the output (idle there): a placeholder nothing consults. -/
def out4_B_2 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) : Vec F S1024x256 .f32 :=
  VO4_2.read (Elt F) (VO4_2.writes (Elt F) VO4_2.junk (kernelRun4_B c i arg3 harg3 arg4 harg4 arg5 harg5 arg6 harg6 hc0 hc1 x0 x1 xs0).1)

/-- Case B's pieces for the accumulator cover it. -/
theorem scover4_B_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) (y : S1024x256.Idx) :
    ∃ pc ∈ (kernelRun4_B c i arg3 harg3 arg4 harg4 arg5 harg5 arg6 harg6 hc0 hc1 x0 x1 xs0).2.1, y ∈ pc.1.set :=
  View.cover_of_tiledL (kernelRun4_B c i arg3 harg3 arg4 harg4 arg5 harg5 arg6 harg6 hc0 hc1 x0 x1 xs0).2.1 S1024x256.size (by sl_kernel_rfl) y

/-- What case B leaves in the accumulator. -/
def sout4_B_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) : Vec F S1024x256 .f32 :=
  VS4_0.read (Elt F) (VS4_0.writes (Elt F) VS4_0.junk (kernelRun4_B c i arg3 harg3 arg4 harg4 arg5 harg5 arg6 harg6 hc0 hc1 x0 x1 xs0).2.1)

/-- Case C's store into the output covers its block. -/
theorem cover4_C_2 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) (y : S1024x256.Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 S1024x256.size (by sl_kernel_rfl) y

/-- What case C leaves in the output's staging buffer. -/
def out4_C_2 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) : Vec F S1024x256 .f32 :=
  VO4_2.read (Elt F) (VO4_2.writes (Elt F) VO4_2.junk (kernelRun4_C c i arg3 harg3 arg4 harg4 arg5 harg5 arg6 harg6 hc0 hc1 x0 x1 xs0).1)

/-- Case C's pieces for the accumulator cover it. -/
theorem scover4_C_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) (y : S1024x256.Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 S1024x256.size (by sl_kernel_rfl) y

/-- What case C leaves in the accumulator. -/
def sout4_C_0 (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) : Vec F S1024x256 .f32 :=
  VS4_0.read (Elt F) (VS4_0.writes (Elt F) VS4_0.junk (kernelRun4_C c i arg3 harg3 arg4 harg4 arg5 harg5 arg6 harg6 hc0 hc1 x0 x1 xs0).2.1)

/-! ## What the output's buffer and the accumulator hold after each point -/

/-- The accumulation: after the body at position n, the output's staging buffer and the accumulator, by the case
    the closed forms select at n, run at the point's memrefs and input blocks, the accumulator taken at what the
    point before left where the case reads it. -/
def outsAt4 (c : Dev nD) : (n : ℕ) → n < cfg4.N → Vec F S1024x256 .f32 × Vec F S1024x256 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 10 = 0 then
      if h1 : (n + 1) % 10 = 9 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 10 = 9 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- At a point of case A. -/
theorem outsAt4_A (c : Dev nD) (t : Fin cfg4.N) (h0 : t.val % 10 = 0) (h1 : ¬t.val % 10 = 9) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- At a point of case B: over what the point before left. -/
theorem outsAt4_B (c : Dev nD) (t : Fin cfg4.N) (h0 : ¬t.val % 10 = 0) (h1 : ¬t.val % 10 = 9) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt4_C (c : Dev nD) (t : Fin cfg4.N) (h0 : ¬t.val % 10 = 0) (h1 : t.val % 10 = 9) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards
    the accumulator at what the point before left, the other scoped buffers unopened, the generator register at some
    state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ Pipeline.scopedRestBut spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ Pipeline.scopedRestBut spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ Pipeline.scopedRestBut spec4 c [cc4_scratch0]) ∗ (∃ r, prngReg c r)) := by
  cases n with
  | zero => exact absurd rfl hz
  | succ n => rfl

/-! ## The pipeline's proof data -/

/-- The proof data of the region on core c: the arrays as the region finds them; after the body at point t each
    input's buffer at its block and the output's at the accumulation's first component; the invariant carrying the
    accumulator; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the launch hands the region is the invariant before the first point. -/
theorem Phi_first4 (c : Dev nD) : (dat4 V c).Φ 0 = Pipeline.ΦA spec4 c := by
  rw [show (dat4 V c).Φ 0 = PhiS4 V c 0 (Nat.zero_le _) from rfl, PhiS4_zero V c 0 _ rfl]

/-- After any point but the first the invariant gives the launch's form back: the accumulator's named contents are
    forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem Phi_last4 (c : Dev nD) : (dat4 V c).Φ (Fin.last cfg4.N) ⊢ Pipeline.ΦA spec4 c :=
  Phi_out4 V c _ (by rw [Fin.val_last]; have : cfg4.N = 20 := N_4; omega)

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  by_cases h0 : t.val % 10 = 0
  · by_cases h1 : t.val % 10 = 9
    · exfalso; omega
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [Dat.leavesExact_idle (dat4 V c) 2 t (idleAt4_2 t (fun h => h1 ((hcond4_1 t).mp h))) (noFlush4_2 t (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun e => h0 (by omega)
    by_cases h1 : t.val % 10 = 9
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [show (dat4 V c).leavesExact 2 t = owns (c : Thread nD τ) (ms4_2 t) fullShare ((dat4 V c).after 2 t) from by
          unfold Dat.leavesExact; rw [liveAt4_2 t ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [Dat.leavesExact_idle (dat4 V c) 2 t (idleAt4_2 t (fun h => h1 ((hcond4_1 t).mp h))) (noFlush4_2 t (fun h => h1 ((hcond4_1 t).mp h)))]
      rw [outsAt4_B V c t h0 h1]
      unfold sout4_B_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the transposed-lhs matmul accumulated over the contraction blocks

The grid is (i, j, k) with k last: for each output block (i, j) the ten k points add one product block into a
VMEM accumulator, which is zeroed at k = 0 and copied to the output block at k = 9. Everything is stated at the
buffer contents the region is entered with. -/

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not, for any proof
    data whose array is the entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The first conditional's condition (k = 0), from the grid coordinates. -/
abbrev cond5_0 (i : grid5.Coords) : Prop := (Scalar.cmpi .ne (Scalar.extui (Scalar.cmpi .eq (BitVec.ofNat 32 (i 2).val) 0#32)) 0#32) = 1#1
/-- It holds exactly at the points whose last coordinate is 0. -/
theorem hcond5_0 : ∀ t : Fin cfg5.N, cond5_0 (grid5.coords t) ↔ t.val % 10 = 0 :=
  (by decide +kernel : ∀ t : Fin grid5.N, cond5_0 (grid5.coords t) ↔ t.val % 10 = 0)

/-- The second conditional's condition (k = 9). -/
abbrev cond5_1 (i : grid5.Coords) : Prop := k5_cond2 i = 1#1
/-- It holds exactly at the points whose last coordinate is 9. -/
theorem hcond5_1 : ∀ t : Fin cfg5.N, cond5_1 (grid5.coords t) ↔ t.val % 10 = 9 :=
  (by decide +kernel : ∀ t : Fin grid5.N, cond5_1 (grid5.coords t) ↔ t.val % 10 = 9)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
/-- Where the second conditional is not taken the output window is idle and not written back. -/
theorem idleAt5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel
/-- Where it is taken the output window is live. -/
theorem liveAt5_2 : ∀ t : Fin cfg5.N, cond5_1 (grid5.coords t) → cfg5.idle 2 (grid5.coords t) = false := by decide +kernel

/-! ## The staging memrefs and the accumulator -/

/-- One staging buffer of the output window, through which its contents are stated. -/
abbrev VO5_2 : View sig .tc .vmem S1024x512 .f32 := (Memref.whole cc5_stg2_0 : Memref sig .tc .vmem S1024x512 .f32).view
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .f32 := win5_2.stage (cfg5.slots t 2)
abbrev hs5_2 (t : Fin cfg5.N) : (ms5_2 t).IsWhole := hstage5_2 ((cfg5.slots t 2).cast nbuf5_2)
/-- The accumulator: a whole scoped buffer of the kernel's own, carried between points. -/
abbrev scM5_0 : Memref sig .tc .vmem S1024x512 .f32 := Memref.whole cc5_scratch0
abbrev VS5_0 : View sig .tc .vmem S1024x512 .f32 := scM5_0.view

/-- The region's invariant with the accumulator as a memref owned at some contents, the other scoped buffers
    unopened, and the generator register at some state. -/
theorem PhiA5_eq (c : Dev nD) :
    (Pipeline.ΦA spec5 c : sProp 𝕄)
      = iprop(iprop(iprop((∃ d, owns (c : Thread nD τ) scM5_0 fullShare d)) ∗ Pipeline.scopedRestBut spec5 c [cc5_scratch0]) ∗ (∃ r, prngReg c r)) := by
  unfold Pipeline.ΦA; rw [scopedRest5_split]; simp only [scM5_0, owns_whole]; try rfl

/-! ## The kernel body on any staging memrefs, case by case -/

set_option maxHeartbeats 1000000 in
/-- CASE A (k = 0): the accumulator at anything is zeroed and the product block added; the output's buffer is
    handed back untouched. The pieces the accumulator ends with are the witness the run finds. -/
noncomputable def kernelRun5_A (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc5__matmulT_kernel i arg3 harg3 arg4 harg4 arg5 harg5 arg6 harg6) K } := by
  refine ⟨[], ?_, fun xi2 E K => ?run⟩
  case run =>
    simp only [cc5__matmulT_kernel_eq_skeleton]; unfold cc5__matmulT_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B (0 < k < 9): the product block is added to the accumulator at what the point before left; the
    output's buffer is handed back untouched. -/
noncomputable def kernelRun5_B (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc5__matmulT_kernel i arg3 harg3 arg4 harg4 arg5 harg5 arg6 harg6) K } := by
  refine ⟨[], ?_, fun xi2 E K => ?run⟩
  case run =>
    simp only [cc5__matmulT_kernel_eq_skeleton]; unfold cc5__matmulT_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 9): the product block is added to the accumulator at what the point before left, and the
    accumulator is copied into the output's buffer, whatever that held. -/
noncomputable def kernelRun5_C (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc5__matmulT_kernel i arg3 harg3 arg4 harg4 arg5 harg5 arg6 harg6) K } := by
  refine ⟨?_, ?_, fun E K => ?run⟩
  case run =>
    simp only [cc5__matmulT_kernel_eq_skeleton]; unfold cc5__matmulT_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- Case A stores nothing into the output (idle there): a placeholder nothing consults. -/
def out5_A_2 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) : Vec F S1024x512 .f32 :=
  VO5_2.read (Elt F) (VO5_2.writes (Elt F) VO5_2.junk (kernelRun5_A c i arg3 harg3 arg4 harg4 arg5 harg5 arg6 harg6 hc0 hc1 x0 x1).1)

/-- Case A's pieces for the accumulator cover it. -/
theorem scover5_A_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) (y : S1024x512.Idx) :
    ∃ pc ∈ (kernelRun5_A c i arg3 harg3 arg4 harg4 arg5 harg5 arg6 harg6 hc0 hc1 x0 x1).2.1, y ∈ pc.1.set :=
  View.cover_of_tiledL (kernelRun5_A c i arg3 harg3 arg4 harg4 arg5 harg5 arg6 harg6 hc0 hc1 x0 x1).2.1 S1024x512.size (by sl_kernel_rfl) y

/-- What case A leaves in the accumulator. -/
def sout5_A_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) : Vec F S1024x512 .f32 :=
  VS5_0.read (Elt F) (VS5_0.writes (Elt F) VS5_0.junk (kernelRun5_A c i arg3 harg3 arg4 harg4 arg5 harg5 arg6 harg6 hc0 hc1 x0 x1).2.1)

/-- Case B stores nothing into the output (idle there): a placeholder nothing consults. -/
def out5_B_2 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) : Vec F S1024x512 .f32 :=
  VO5_2.read (Elt F) (VO5_2.writes (Elt F) VO5_2.junk (kernelRun5_B c i arg3 harg3 arg4 harg4 arg5 harg5 arg6 harg6 hc0 hc1 x0 x1 xs0).1)

/-- Case B's pieces for the accumulator cover it. -/
theorem scover5_B_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) (y : S1024x512.Idx) :
    ∃ pc ∈ (kernelRun5_B c i arg3 harg3 arg4 harg4 arg5 harg5 arg6 harg6 hc0 hc1 x0 x1 xs0).2.1, y ∈ pc.1.set :=
  View.cover_of_tiledL (kernelRun5_B c i arg3 harg3 arg4 harg4 arg5 harg5 arg6 harg6 hc0 hc1 x0 x1 xs0).2.1 S1024x512.size (by sl_kernel_rfl) y

/-- What case B leaves in the accumulator. -/
def sout5_B_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) : Vec F S1024x512 .f32 :=
  VS5_0.read (Elt F) (VS5_0.writes (Elt F) VS5_0.junk (kernelRun5_B c i arg3 harg3 arg4 harg4 arg5 harg5 arg6 harg6 hc0 hc1 x0 x1 xs0).2.1)

/-- Case C's store into the output covers its block. -/
theorem cover5_C_2 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) (y : S1024x512.Idx) :
    ∃ pc ∈ (kernelRun5_C c i arg3 harg3 arg4 harg4 arg5 harg5 arg6 harg6 hc0 hc1 x0 x1 xs0).1, y ∈ pc.1.set :=
  View.cover_of_tiledL (kernelRun5_C c i arg3 harg3 arg4 harg4 arg5 harg5 arg6 harg6 hc0 hc1 x0 x1 xs0).1 S1024x512.size (by sl_kernel_rfl) y

/-- What case C leaves in the output's staging buffer. -/
def out5_C_2 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) : Vec F S1024x512 .f32 :=
  VO5_2.read (Elt F) (VO5_2.writes (Elt F) VO5_2.junk (kernelRun5_C c i arg3 harg3 arg4 harg4 arg5 harg5 arg6 harg6 hc0 hc1 x0 x1 xs0).1)

/-- Case C's pieces for the accumulator cover it. -/
theorem scover5_C_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) (y : S1024x512.Idx) :
    ∃ pc ∈ (kernelRun5_C c i arg3 harg3 arg4 harg4 arg5 harg5 arg6 harg6 hc0 hc1 x0 x1 xs0).2.1, y ∈ pc.1.set :=
  View.cover_of_tiledL (kernelRun5_C c i arg3 harg3 arg4 harg4 arg5 harg5 arg6 harg6 hc0 hc1 x0 x1 xs0).2.1 S1024x512.size (by sl_kernel_rfl) y

/-- What case C leaves in the accumulator. -/
def sout5_C_0 (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) : Vec F S1024x512 .f32 :=
  VS5_0.read (Elt F) (VS5_0.writes (Elt F) VS5_0.junk (kernelRun5_C c i arg3 harg3 arg4 harg4 arg5 harg5 arg6 harg6 hc0 hc1 x0 x1 xs0).2.1)

/-! ## What the output's buffer and the accumulator hold after each point -/

/-- The accumulation: after the body at position n, the output's staging buffer and the accumulator, by the case
    the closed forms select at n, run at the point's memrefs and input blocks, the accumulator taken at what the
    point before left where the case reads it. -/
def outsAt5 (c : Dev nD) : (n : ℕ) → n < cfg5.N → Vec F S1024x512 .f32 × Vec F S1024x512 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩))
  | n + 1, hn =>
    if h0 : (n + 1) % 10 = 0 then
      if h1 : (n + 1) % 10 = 9 then
        False.elim (by omega)
      else
        (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩))
    else
      if h1 : (n + 1) % 10 = 9 then
        (out5_C_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (outsAt5 c n (Nat.lt_of_succ_lt hn)).2)
      else
        (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (outsAt5 c n (Nat.lt_of_succ_lt hn)).2)

/-- At a point of case A. -/
theorem outsAt5_A (c : Dev nD) (t : Fin cfg5.N) (h0 : t.val % 10 = 0) (h1 : ¬t.val % 10 = 9) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t), sout5_A_0 c (grid5.coords t) (ms5_0 t) (hs5_0 t) (ms5_1 t) (hs5_1 t) (ms5_2 t) (hs5_2 t) scM5_0 (Memref.isWhole_whole _) ((hcond5_0 t).mpr h0) (fun h => h1 ((hcond5_1 t).mp h)) (iblk5 V c 0 t) (iblk5 V c 1 t)) := by
  obtain ⟨n, hn⟩ := t
  cases n with
  | zero => exact rfl
  | succ n => exact (dif_pos h0).trans ((dif_neg h1).trans rfl)

/-- At a point of case B: over what the point before left. -/
theorem outsAt5_B (c : Dev nD) (t : Fin cfg5.N) (h0 : ¬t.val % 10 = 0) (h1 : ¬t.val % 10 = 9) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) scM5_0 (Memref.isWhole_whole _) (fun h => h0 ((hcond5_0 t).mp h)) (fun h => h1 ((hcond5_1 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt5_C (c : Dev nD) (t : Fin cfg5.N) (h0 : ¬t.val % 10 = 0) (h1 : t.val % 10 = 9) :
    outsAt5 V c t.val t.isLt = (out5_C_2 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) scM5_0 (Memref.isWhole_whole _) (fun h => h0 ((hcond5_0 t).mp h)) ((hcond5_1 t).mpr h1) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards
    the accumulator at what the point before left, the other scoped buffers unopened, the generator register at some
    state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut spec5 c [cc5_scratch0]) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ Pipeline.scopedRestBut spec5 c [cc5_scratch0]) ∗ (∃ r, prngReg c r)) := by
  cases n with
  | zero => exact absurd rfl hz
  | succ n => rfl

/-! ## The pipeline's proof data -/

/-- The proof data of the region on core c: the arrays as the region finds them; after the body at point t each
    input's buffer at its block and the output's at the accumulation's first component; the invariant carrying the
    accumulator; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the launch hands the region is the invariant before the first point. -/
theorem Phi_first5 (c : Dev nD) : (dat5 V c).Φ 0 = Pipeline.ΦA spec5 c := by
  rw [show (dat5 V c).Φ 0 = PhiS5 V c 0 (Nat.zero_le _) from rfl, PhiS5_zero V c 0 _ rfl]

/-- After any point but the first the invariant gives the launch's form back: the accumulator's named contents are
    forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

theorem Phi_last5 (c : Dev nD) : (dat5 V c).Φ (Fin.last cfg5.N) ⊢ Pipeline.ΦA spec5 c :=
  Phi_out5 V c _ (by rw [Fin.val_last]; have : cfg5.N = 20 := N_5; omega)

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  by_cases h0 : t.val % 10 = 0
  · by_cases h1 : t.val % 10 = 9
    · exfalso; omega
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [Dat.leavesExact_idle (dat5 V c) 2 t (idleAt5_2 t (fun h => h1 ((hcond5_1 t).mp h))) (noFlush5_2 t (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hr⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_A_0 c _ _ _ _ _ _ _ _ _ _ _ _ _)
            iexact Hr
          iexact Hg
        isplitl [Ho]; · iexact Ho
        isplitl [H0]; · iexact H0
        isplitl [H1]; · iexact H1
        iexists _; iexact H2
      · rw [PhiS5_castSucc V c t, PhiS5_pos V c _ _ hz]
        iintro ⟨⟨⟨HS0, Hr⟩, Hg⟩, Ho, ⟨%d0, H0⟩, ⟨%d1, H1⟩, ⟨%d2, H2⟩⟩
        iapply ((kernelRun5_A c (grid5.coords t) _ _ _ _ _ _ _ _ ((hcond5_0 t).mpr h0) (fun h => h1 ((hcond5_1 t).mp h)) (iblk5 V c 0 t) (iblk5 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun e => h0 (by omega)
    by_cases h1 : t.val % 10 = 9
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [show (dat5 V c).leavesExact 2 t = owns (c : Thread nD τ) (ms5_2 t) fullShare ((dat5 V c).after 2 t) from by
          unfold Dat.leavesExact; rw [liveAt5_2 t ((hcond5_1 t).mpr h1)], after5_2]
      rw [outsAt5_C V c t h0 h1]
      unfold out5_C_2 sout5_C_0; (try dsimp only)
      rw [PhiS5_castSucc V c t, PhiS5_pos V c _ _ hz]
      iintro ⟨⟨⟨HS0, Hr⟩, Hg⟩, Ho, ⟨%d0, H0⟩, ⟨%d1, H1⟩, ⟨%d2, H2⟩⟩
      iapply ((kernelRun5_C c (grid5.coords t) _ _ _ _ _ _ _ _ (fun h => h0 ((hcond5_0 t).mp h)) ((hcond5_1 t).mpr h1) (iblk5 V c 0 t) (iblk5 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_C_2 c _ _ _ _ _ _ _ _ _ _ _ _ _ _)
    · rw [show (dat5 V c).leavesExact 0 t = owns (c : Thread nD τ) (ms5_0 t) fullShare ((dat5 V c).after 0 t) from by
          unfold Dat.leavesExact; rw [liveAt5_0 t], after5_0]
      rw [show (dat5 V c).leavesExact 1 t = owns (c : Thread nD τ) (ms5_1 t) fullShare ((dat5 V c).after 1 t) from by
          unfold Dat.leavesExact; rw [liveAt5_1 t], after5_1]
      rw [Dat.leavesExact_idle (dat5 V c) 2 t (idleAt5_2 t (fun h => h1 ((hcond5_1 t).mp h))) (noFlush5_2 t (fun h => h1 ((hcond5_1 t).mp h)))]
      rw [outsAt5_B V c t h0 h1]
      unfold sout5_B_0; (try dsimp only)
      rw [PhiS5_castSucc V c t, PhiS5_pos V c _ _ hz]
      iintro ⟨⟨⟨HS0, Hr⟩, Hg⟩, Ho, ⟨%d0, H0⟩, ⟨%d1, H1⟩, ⟨%d2, H2⟩⟩
      iapply ((kernelRun5_B c (grid5.coords t) _ _ _ _ _ _ _ _ (fun h => h0 ((hcond5_0 t).mp h)) (fun h => h1 ((hcond5_1 t).mp h)) (iblk5 V c 0 t) (iblk5 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover5_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 6: the transposed-lhs matmul accumulated over the contraction blocks

The grid is (i, j, k) with k last: for each output block (i, j) the ten k points add one product block into a
VMEM accumulator, which is zeroed at k = 0 and copied to the output block at k = 9. Everything is stated at the
buffer contents the region is entered with. -/

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not, for any proof
    data whose array is the entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch conditions -/

/-- The first conditional's condition (k = 0), from the grid coordinates. -/
abbrev cond6_0 (i : grid6.Coords) : Prop := (Scalar.cmpi .ne (Scalar.extui (Scalar.cmpi .eq (BitVec.ofNat 32 (i 2).val) 0#32)) 0#32) = 1#1
/-- It holds exactly at the points whose last coordinate is 0. -/
theorem hcond6_0 : ∀ t : Fin cfg6.N, cond6_0 (grid6.coords t) ↔ t.val % 10 = 0 :=
  (by decide +kernel : ∀ t : Fin grid6.N, cond6_0 (grid6.coords t) ↔ t.val % 10 = 0)

/-- The second conditional's condition (k = 9). -/
abbrev cond6_1 (i : grid6.Coords) : Prop := k6_cond2 i = 1#1
/-- It holds exactly at the points whose last coordinate is 9. -/
theorem hcond6_1 : ∀ t : Fin cfg6.N, cond6_1 (grid6.coords t) ↔ t.val % 10 = 9 :=
  (by decide +kernel : ∀ t : Fin grid6.N, cond6_1 (grid6.coords t) ↔ t.val % 10 = 9)

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
/-- Where the second conditional is not taken the output window is idle and not written back. -/
theorem idleAt6_2 : ∀ t : Fin cfg6.N, ¬cond6_1 (grid6.coords t) → cfg6.idle 2 (grid6.coords t) = true := by decide +kernel
theorem noFlush6_2 : ∀ t : Fin cfg6.N, ¬cond6_1 (grid6.coords t) → (cfg6.win 2).flush t = false := by decide +kernel
/-- Where it is taken the output window is live. -/
theorem liveAt6_2 : ∀ t : Fin cfg6.N, cond6_1 (grid6.coords t) → cfg6.idle 2 (grid6.coords t) = false := by decide +kernel

/-! ## The staging memrefs and the accumulator -/

/-- One staging buffer of the output window, through which its contents are stated. -/
abbrev VO6_2 : View sig .tc .vmem S1024x512 .f32 := (Memref.whole cc6_stg2_0 : Memref sig .tc .vmem S1024x512 .f32).view
abbrev ms6_0 (t : Fin cfg6.N) : Memref sig .tc .vmem S1024x1024 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x512 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x512 .f32 := win6_2.stage (cfg6.slots t 2)
abbrev hs6_2 (t : Fin cfg6.N) : (ms6_2 t).IsWhole := hstage6_2 ((cfg6.slots t 2).cast nbuf6_2)
/-- The accumulator: a whole scoped buffer of the kernel's own, carried between points. -/
abbrev scM6_0 : Memref sig .tc .vmem S1024x512 .f32 := Memref.whole cc6_scratch0
abbrev VS6_0 : View sig .tc .vmem S1024x512 .f32 := scM6_0.view

/-- The region's invariant with the accumulator as a memref owned at some contents, the other scoped buffers
    unopened, and the generator register at some state. -/
theorem PhiA6_eq (c : Dev nD) :
    (Pipeline.ΦA spec6 c : sProp 𝕄)
      = iprop(iprop(iprop((∃ d, owns (c : Thread nD τ) scM6_0 fullShare d)) ∗ Pipeline.scopedRestBut spec6 c [cc6_scratch0]) ∗ (∃ r, prngReg c r)) := by
  unfold Pipeline.ΦA; rw [scopedRest6_split]; simp only [scM6_0, owns_whole]; try rfl

/-! ## The kernel body on any staging memrefs, case by case -/

set_option maxHeartbeats 1000000 in
/-- CASE A (k = 0): the accumulator at anything is zeroed and the product block added; the output's buffer is
    handed back untouched. The pieces the accumulator ends with are the witness the run finds. -/
noncomputable def kernelRun6_A (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc6__matmulT_kernel i arg3 harg3 arg4 harg4 arg5 harg5 arg6 harg6) K } := by
  refine ⟨[], ?_, fun xi2 E K => ?run⟩
  case run =>
    simp only [cc6__matmulT_kernel_eq_skeleton]; unfold cc6__matmulT_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE B (0 < k < 9): the product block is added to the accumulator at what the point before left; the
    output's buffer is handed back untouched. -/
noncomputable def kernelRun6_B (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (xi2 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc6__matmulT_kernel i arg3 harg3 arg4 harg4 arg5 harg5 arg6 harg6) K } := by
  refine ⟨[], ?_, fun xi2 E K => ?run⟩
  case run =>
    simp only [cc6__matmulT_kernel_eq_skeleton]; unfold cc6__matmulT_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 9): the product block is added to the accumulator at what the point before left, and the
    accumulator is copied into the output's buffer, whatever that held. -/
noncomputable def kernelRun6_C (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) :
    Σ' (L2 : List (View.Piece (Elt F) S1024x512 .f32)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc6__matmulT_kernel i arg3 harg3 arg4 harg4 arg5 harg5 arg6 harg6) K } := by
  refine ⟨?_, ?_, fun E K => ?run⟩
  case run =>
    simp only [cc6__matmulT_kernel_eq_skeleton]; unfold cc6__matmulT_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves -/

/-- Case A stores nothing into the output (idle there): a placeholder nothing consults. -/
def out6_A_2 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) : Vec F S1024x512 .f32 :=
  VO6_2.read (Elt F) (VO6_2.writes (Elt F) VO6_2.junk (kernelRun6_A c i arg3 harg3 arg4 harg4 arg5 harg5 arg6 harg6 hc0 hc1 x0 x1).1)

/-- Case A's pieces for the accumulator cover it. -/
theorem scover6_A_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) (y : S1024x512.Idx) :
    ∃ pc ∈ (kernelRun6_A c i arg3 harg3 arg4 harg4 arg5 harg5 arg6 harg6 hc0 hc1 x0 x1).2.1, y ∈ pc.1.set :=
  View.cover_of_tiledL (kernelRun6_A c i arg3 harg3 arg4 harg4 arg5 harg5 arg6 harg6 hc0 hc1 x0 x1).2.1 S1024x512.size (by sl_kernel_rfl) y

/-- What case A leaves in the accumulator. -/
def sout6_A_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) : Vec F S1024x512 .f32 :=
  VS6_0.read (Elt F) (VS6_0.writes (Elt F) VS6_0.junk (kernelRun6_A c i arg3 harg3 arg4 harg4 arg5 harg5 arg6 harg6 hc0 hc1 x0 x1).2.1)

/-- Case B stores nothing into the output (idle there): a placeholder nothing consults. -/
def out6_B_2 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) : Vec F S1024x512 .f32 :=
  VO6_2.read (Elt F) (VO6_2.writes (Elt F) VO6_2.junk (kernelRun6_B c i arg3 harg3 arg4 harg4 arg5 harg5 arg6 harg6 hc0 hc1 x0 x1 xs0).1)

/-- Case B's pieces for the accumulator cover it. -/
theorem scover6_B_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) (y : S1024x512.Idx) :
    ∃ pc ∈ (kernelRun6_B c i arg3 harg3 arg4 harg4 arg5 harg5 arg6 harg6 hc0 hc1 x0 x1 xs0).2.1, y ∈ pc.1.set :=
  View.cover_of_tiledL (kernelRun6_B c i arg3 harg3 arg4 harg4 arg5 harg5 arg6 harg6 hc0 hc1 x0 x1 xs0).2.1 S1024x512.size (by sl_kernel_rfl) y

/-- What case B leaves in the accumulator. -/
def sout6_B_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) : Vec F S1024x512 .f32 :=
  VS6_0.read (Elt F) (VS6_0.writes (Elt F) VS6_0.junk (kernelRun6_B c i arg3 harg3 arg4 harg4 arg5 harg5 arg6 harg6 hc0 hc1 x0 x1 xs0).2.1)

/-- Case C's store into the output covers its block. -/
theorem cover6_C_2 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) (y : S1024x512.Idx) :
    ∃ pc ∈ (kernelRun6_C c i arg3 harg3 arg4 harg4 arg5 harg5 arg6 harg6 hc0 hc1 x0 x1 xs0).1, y ∈ pc.1.set :=
  View.cover_of_tiledL (kernelRun6_C c i arg3 harg3 arg4 harg4 arg5 harg5 arg6 harg6 hc0 hc1 x0 x1 xs0).1 S1024x512.size (by sl_kernel_rfl) y

/-- What case C leaves in the output's staging buffer. -/
def out6_C_2 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) : Vec F S1024x512 .f32 :=
  VO6_2.read (Elt F) (VO6_2.writes (Elt F) VO6_2.junk (kernelRun6_C c i arg3 harg3 arg4 harg4 arg5 harg5 arg6 harg6 hc0 hc1 x0 x1 xs0).1)

/-- Case C's pieces for the accumulator cover it. -/
theorem scover6_C_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) (y : S1024x512.Idx) :
    ∃ pc ∈ (kernelRun6_C c i arg3 harg3 arg4 harg4 arg5 harg5 arg6 harg6 hc0 hc1 x0 x1 xs0).2.1, y ∈ pc.1.set :=
  View.cover_of_tiledL (kernelRun6_C c i arg3 harg3 arg4 harg4 arg5 harg5 arg6 harg6 hc0 hc1 x0 x1 xs0).2.1 S1024x512.size (by sl_kernel_rfl) y

/-- What case C leaves in the accumulator. -/
def sout6_C_0 (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) : Vec F S1024x512 .f32 :=
  VS6_0.read (Elt F) (VS6_0.writes (Elt F) VS6_0.junk (kernelRun6_C c i arg3 harg3 arg4 harg4 arg5 harg5 arg6 harg6 hc0 hc1 x0 x1 xs0).2.1)

/-! ## What the output's buffer and the accumulator hold after each point -/

/-- The accumulation: after the body at position n, the output's staging buffer and the accumulator, by the case
    the closed forms select at n, run at the point's memrefs and input blocks, the accumulator taken at what the
    point before left where the case reads it. -/
def outsAt6 (c : Dev nD) : (n : ℕ) → n < cfg6.N → Vec F S1024x512 .f32 × Vec F S1024x512 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩))
  | n + 1, hn =>
    if h0 : (n + 1) % 10 = 0 then
      if h1 : (n + 1) % 10 = 9 then
        False.elim (by omega)
      else
        (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩))
    else
      if h1 : (n + 1) % 10 = 9 then
        (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (outsAt6 c n (Nat.lt_of_succ_lt hn)).2)
      else
        (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2, sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (outsAt6 c n (Nat.lt_of_succ_lt hn)).2)

/-- At a point of case A. -/
theorem outsAt6_A (c : Dev nD) (t : Fin cfg6.N) (h0 : t.val % 10 = 0) (h1 : ¬t.val % 10 = 9) :
    outsAt6 V c t.val t.isLt = (out6_A_2 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t), sout6_A_0 c (grid6.coords t) (ms6_0 t) (hs6_0 t) (ms6_1 t) (hs6_1 t) (ms6_2 t) (hs6_2 t) scM6_0 (Memref.isWhole_whole _) ((hcond6_0 t).mpr h0) (fun h => h1 ((hcond6_1 t).mp h)) (iblk6 V c 0 t) (iblk6 V c 1 t)) := by
  obtain ⟨n, hn⟩ := t
  cases n with
  | zero => exact rfl
  | succ n => exact (dif_pos h0).trans ((dif_neg h1).trans rfl)

/-- At a point of case B: over what the point before left. -/
theorem outsAt6_B (c : Dev nD) (t : Fin cfg6.N) (h0 : ¬t.val % 10 = 0) (h1 : ¬t.val % 10 = 9) :
    outsAt6 V c t.val t.isLt = (out6_B_2 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2, sout6_B_0 c (grid6.coords t) (ms6_0 t) (hs6_0 t) (ms6_1 t) (hs6_1 t) (ms6_2 t) (hs6_2 t) scM6_0 (Memref.isWhole_whole _) (fun h => h0 ((hcond6_0 t).mp h)) (fun h => h1 ((hcond6_1 t).mp h)) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt6_C (c : Dev nD) (t : Fin cfg6.N) (h0 : ¬t.val % 10 = 0) (h1 : t.val % 10 = 9) :
    outsAt6 V c t.val t.isLt = (out6_C_2 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) scM6_0 (Memref.isWhole_whole _) (fun h => h0 ((hcond6_0 t).mp h)) ((hcond6_1 t).mpr h1) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the launch hands the region; afterwards
    the accumulator at what the point before left, the other scoped buffers unopened, the generator register at some
    state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ Pipeline.scopedRestBut spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2) ∗ Pipeline.scopedRestBut spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ Pipeline.scopedRestBut spec6 c [cc6_scratch0]) ∗ (∃ r, prngReg c r)) := by
  cases n with
  | zero => exact absurd rfl hz
  | succ n => rfl

/-! ## The pipeline's proof data -/

/-- The proof data of the region on core c: the arrays as the region finds them; after the body at point t each
    input's buffer at its block and the output's at the accumulation's first component; the invariant carrying the
    accumulator; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q := fun w => match w with | ⟨0, _⟩ => fullShare.left | ⟨1, _⟩ => fullShare.right | ⟨2, _⟩ => fullShare
  owed _ := 0

/-- The proof data's arrays are the region-entry contents. -/
theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the launch hands the region is the invariant before the first point. -/
theorem Phi_first6 (c : Dev nD) : (dat6 V c).Φ 0 = Pipeline.ΦA spec6 c := by
  rw [show (dat6 V c).Φ 0 = PhiS6 V c 0 (Nat.zero_le _) from rfl, PhiS6_zero V c 0 _ rfl]

/-- After any point but the first the invariant gives the launch's form back: the accumulator's named contents are
    forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

theorem Phi_last6 (c : Dev nD) : (dat6 V c).Φ (Fin.last cfg6.N) ⊢ Pipeline.ΦA spec6 c :=
  Phi_out6 V c _ (by rw [Fin.val_last]; have : cfg6.N = 20 := N_6; omega)

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the inputs' memrefs hold their blocks; the closed forms say which case the point is in;
    the invariant hands the body the accumulator at what the point before left (at anything at the first point) and
    takes it back at this point's contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  have hN : t.val < 20 := lt_of_lt_of_eq t.isLt (show cfg6.N = 20 from N_6)
  by_cases h0 : t.val % 10 = 0
  · by_cases h1 : t.val % 10 = 9
    · exfalso; omega
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [Dat.leavesExact_idle (dat6 V c) 2 t (idleAt6_2 t (fun h => h1 ((hcond6_1 t).mp h))) (noFlush6_2 t (fun h => h1 ((hcond6_1 t).mp h)))]
      rw [outsAt6_A V c t h0 h1]
      unfold sout6_A_0; (try dsimp only)
      by_cases hz : t.val = 0
      · rw [PhiS6_castSucc V c t, PhiS6_zero V c _ _ hz, PhiA6_eq]
        iintro ⟨⟨⟨HS0, Hr⟩, Hg⟩, Ho, ⟨%d0, H0⟩, ⟨%d1, H1⟩, ⟨%d2, H2⟩⟩
        iapply ((kernelRun6_A c (grid6.coords t) _ _ _ _ _ _ _ _ ((hcond6_0 t).mpr h0) (fun h => h1 ((hcond6_1 t).mp h)) (iblk6 V c 0 t) (iblk6 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover6_A_0 c _ _ _ _ _ _ _ _ _ _ _ _ _)
            iexact Hr
          iexact Hg
        isplitl [Ho]; · iexact Ho
        isplitl [H0]; · iexact H0
        isplitl [H1]; · iexact H1
        iexists _; iexact H2
      · rw [PhiS6_castSucc V c t, PhiS6_pos V c _ _ hz]
        iintro ⟨⟨⟨HS0, Hr⟩, Hg⟩, Ho, ⟨%d0, H0⟩, ⟨%d1, H1⟩, ⟨%d2, H2⟩⟩
        iapply ((kernelRun6_A c (grid6.coords t) _ _ _ _ _ _ _ _ ((hcond6_0 t).mpr h0) (fun h => h1 ((hcond6_1 t).mp h)) (iblk6 V c 0 t) (iblk6 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover6_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun e => h0 (by omega)
    by_cases h1 : t.val % 10 = 9
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [show (dat6 V c).leavesExact 2 t = owns (c : Thread nD τ) (ms6_2 t) fullShare ((dat6 V c).after 2 t) from by
          unfold Dat.leavesExact; rw [liveAt6_2 t ((hcond6_1 t).mpr h1)], after6_2]
      rw [outsAt6_C V c t h0 h1]
      unfold out6_C_2 sout6_C_0; (try dsimp only)
      rw [PhiS6_castSucc V c t, PhiS6_pos V c _ _ hz]
      iintro ⟨⟨⟨HS0, Hr⟩, Hg⟩, Ho, ⟨%d0, H0⟩, ⟨%d1, H1⟩, ⟨%d2, H2⟩⟩
      iapply ((kernelRun6_C c (grid6.coords t) _ _ _ _ _ _ _ _ (fun h => h0 ((hcond6_0 t).mp h)) ((hcond6_1 t).mpr h1) (iblk6 V c 0 t) (iblk6 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_C_2 c _ _ _ _ _ _ _ _ _ _ _ _ _ _)
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [Dat.leavesExact_idle (dat6 V c) 2 t (idleAt6_2 t (fun h => h1 ((hcond6_1 t).mp h))) (noFlush6_2 t (fun h => h1 ((hcond6_1 t).mp h)))]
      rw [outsAt6_B V c t h0 h1]
      unfold sout6_B_0; (try dsimp only)
      rw [PhiS6_castSucc V c t, PhiS6_pos V c _ _ hz]
      iintro ⟨⟨⟨HS0, Hr⟩, Hg⟩, Ho, ⟨%d0, H0⟩, ⟨%d1, H1⟩, ⟨%d2, H2⟩⟩
      iapply ((kernelRun6_B c (grid6.coords t) _ _ _ _ _ _ _ _ (fun h => h0 ((hcond6_0 t).mp h)) (fun h => h1 ((hcond6_1 t).mp h)) (iblk6 V c 0 t) (iblk6 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 7 of @main, at the entry contents V: a 1024 × 512 block times a 512 × 512 factor at f32, one grid point, the bias row added

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The left factor's row block is in its buffer at every point: it is fetched at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The right factor is in its buffer at every point: fetched at the first, its block index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The bias row likewise. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- "This is the first block of the contraction axis" (the accumulator is zeroed), from the grid coordinates. -/
abbrev cond7_0 (i : grid7.Coords) : Prop := (Scalar.cmpi .ne (Scalar.extui (Scalar.cmpi .eq (BitVec.ofNat 32 (i 1).val) 0#32)) 0#32) = 1#1
/-- The contraction axis has one block: it holds at every point. -/
theorem hcond7_0 : ∀ t : Fin cfg7.N, cond7_0 (grid7.coords t) :=
  (by decide +kernel : ∀ t : Fin grid7.N, cond7_0 (grid7.coords t))

/-- "This is the last block of the contraction axis" (the output block is stored). -/
abbrev cond7_1 (i : grid7.Coords) : Prop := k7_cond2 i = 1#1
/-- It too holds at every point. -/
theorem hcond7_1 : ∀ t : Fin cfg7.N, cond7_1 (grid7.coords t) :=
  (by decide +kernel : ∀ t : Fin grid7.N, cond7_1 (grid7.coords t))

/-- The output block is stored at every point: no point is idle for it. -/
theorem liveAt7_3 : ∀ t : Fin cfg7.N, cfg7.idle 3 (grid7.coords t) = false := by decide +kernel

/-! ## The memrefs the body is called with -/

abbrev ms7_0 (t : Fin cfg7.N) : Memref sig .tc .vmem S1024x512 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S512x512 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x512 .f32 := win7_3.stage (cfg7.slots t 3)
abbrev hs7_3 (t : Fin cfg7.N) : (ms7_3 t).IsWhole := hstage7_3 ((cfg7.slots t 3).cast nbuf7_3)
/-- The accumulator: a whole scoped buffer of the kernel's own, passed beside the windows. -/
abbrev scM7_0 : Memref sig .tc .vmem S1024x512 .f32 := Memref.whole cc7_scratch0
/-- One buffer of the output window, through which its contents are stated (the choice does not matter). -/
abbrev VO7_3 : View sig .tc .vmem S1024x512 .f32 := (Memref.whole cc7_stg3_0 : Memref sig .tc .vmem S1024x512 .f32).view

/-- The region invariant with the accumulator set apart, owned at some contents. -/
theorem PhiA7_eq (c : Dev nD) :
    (Pipeline.ΦA spec7 c : sProp 𝕄)
      = iprop(iprop(iprop((∃ d, owns (c : Thread nD τ) scM7_0 fullShare d))
            ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [scM7_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun7 (c : Dev nD) (i : grid7.Coords)
    (arg2 : Memref sig .tc .vmem S1024x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond7_0 i) (hc1 : cond7_1 i)
    (x0 : Vec F S1024x512 .f32) (x1 : Vec F S512x512 .f32) (x2 : Vec F S1x512 .f32) :
    { L3 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc7__matmul_kernel i arg2 harg2 arg3 harg3 arg4 harg4 arg5 harg5 arg6 harg6) K } := by
  refine ⟨?_, fun E K => ?run⟩
  case run =>
    simp only [cc7__matmul_kernel_eq_skeleton]; unfold cc7__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover7_3 (c : Dev nD) (i : grid7.Coords)
    (arg2 : Memref sig .tc .vmem S1024x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond7_0 i) (hc1 : cond7_1 i)
    (x0 : Vec F S1024x512 .f32) (x1 : Vec F S512x512 .f32) (x2 : Vec F S1x512 .f32) (y : S1024x512.Idx) :
    ∃ pc ∈ (kernelRun7 c i arg2 harg2 arg3 harg3 arg4 harg4 arg5 harg5 arg6 harg6 hc0 hc1 x0 x1 x2).1, y ∈ pc.1.set :=
  View.cover_of_tiledL (kernelRun7 c i arg2 harg2 arg3 harg3 arg4 harg4 arg5 harg5 arg6 harg6 hc0 hc1 x0 x1 x2).1 S1024x512.size (by sl_kernel_rfl) y

/-- What the body leaves in the output buffer: its pieces read back. -/
def out7_3 (c : Dev nD) (i : grid7.Coords)
    (arg2 : Memref sig .tc .vmem S1024x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond7_0 i) (hc1 : cond7_1 i)
    (x0 : Vec F S1024x512 .f32) (x1 : Vec F S512x512 .f32) (x2 : Vec F S1x512 .f32) : Vec F S1024x512 .f32 :=
  VO7_3.read (Elt F) (VO7_3.writes (Elt F) VO7_3.junk (kernelRun7 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 c (grid7.coords t) (ms7_0 t) (hs7_0 t) (ms7_1 t) (hs7_1 t) (ms7_2 t) (hs7_2 t) (ms7_3 t) (hs7_3 t) scM7_0 (Memref.isWhole_whole _)
        (hcond7_0 t) (hcond7_1 t) (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem Phi_first7 (c : Dev nD) : (dat7 V c).Φ 0 = Pipeline.ΦA spec7 c := by
  dsimp only [dat7]

theorem Phi_last7 (c : Dev nD) : (dat7 V c).Φ (Fin.last cfg7.N) ⊢ Pipeline.ΦA spec7 c := by
  rw [show (dat7 V c).Φ (Fin.last cfg7.N) = Pipeline.ΦA spec7 c from by dsimp only [dat7]]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t
    = out7_3 c (grid7.coords t) (ms7_0 t) (hs7_0 t) (ms7_1 t) (hs7_1 t) (ms7_2 t) (hs7_2 t) (ms7_3 t) (hs7_3 t) scM7_0 (Memref.isWhole_whole _)
        (hcond7_0 t) (hcond7_1 t) (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point: the inputs' memrefs hold their blocks, both conditions hold, so the run applies; the
    invariant lends the accumulator at some contents and takes it back at some contents; the core owes nothing. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = Pipeline.ΦA spec7 c from by dsimp only [dat7],
    show (dat7 V c).Φ t.castSucc = Pipeline.ΦA spec7 c from by dsimp only [dat7], PhiA7_eq]
  rw [show (dat7 V c).leavesExact 0 t = owns (c : Thread nD τ) (ms7_0 t) fullShare ((dat7 V c).after 0 t) from rfl, after7_0]
  rw [show (dat7 V c).leavesExact 1 t = owns (c : Thread nD τ) (ms7_1 t) fullShare ((dat7 V c).after 1 t) from rfl, after7_1]
  rw [show (dat7 V c).leavesExact 2 t = owns (c : Thread nD τ) (ms7_2 t) fullShare ((dat7 V c).after 2 t) from rfl, after7_2]
  rw [show (dat7 V c).leavesExact 3 t = owns (c : Thread nD τ) (ms7_3 t) fullShare ((dat7 V c).after 3 t) from by
      unfold Dat.leavesExact; rw [liveAt7_3 t], after7_3]
  unfold out7_3; (try dsimp only)
  iintro ⟨⟨⟨HS, HR⟩, Hg⟩, Ho, ⟨%d0, H0⟩, ⟨%d1, H1⟩, ⟨%d2, H2⟩, ⟨%d3, H3⟩⟩
  iapply ((kernelRun7 c (grid7.coords t) _ _ _ _ _ _ _ _ _ _ (hcond7_0 t) (hcond7_1 t) (iblk7 V c 0 t) (iblk7 V c 1 t) (iblk7 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover7_3 c _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.R8.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 8 of @main, at the entry contents V: a 1024 × 1024 block times a 1024 × 512 factor at f32, one grid point, the bias row added and the sum clamped below at zero

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The left factor's row block is in its buffer at every point: it is fetched at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The right factor is in its buffer at every point: fetched at the first, its block index never moves. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The bias row likewise. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch conditions -/

/-- "This is the first block of the contraction axis" (the accumulator is zeroed), from the grid coordinates. -/
abbrev cond8_0 (i : grid8.Coords) : Prop := (Scalar.cmpi .ne (Scalar.extui (Scalar.cmpi .eq (BitVec.ofNat 32 (i 1).val) 0#32)) 0#32) = 1#1
/-- The contraction axis has one block: it holds at every point. -/
theorem hcond8_0 : ∀ t : Fin cfg8.N, cond8_0 (grid8.coords t) :=
  (by decide +kernel : ∀ t : Fin grid8.N, cond8_0 (grid8.coords t))

/-- "This is the last block of the contraction axis" (the output block is stored). -/
abbrev cond8_1 (i : grid8.Coords) : Prop := k8_cond2 i = 1#1
/-- It too holds at every point. -/
theorem hcond8_1 : ∀ t : Fin cfg8.N, cond8_1 (grid8.coords t) :=
  (by decide +kernel : ∀ t : Fin grid8.N, cond8_1 (grid8.coords t))

/-- The output block is stored at every point: no point is idle for it. -/
theorem liveAt8_3 : ∀ t : Fin cfg8.N, cfg8.idle 3 (grid8.coords t) = false := by decide +kernel

/-! ## The memrefs the body is called with -/

abbrev ms8_0 (t : Fin cfg8.N) : Memref sig .tc .vmem S1024x1024 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1024x512 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x512 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x512 .f32 := win8_3.stage (cfg8.slots t 3)
abbrev hs8_3 (t : Fin cfg8.N) : (ms8_3 t).IsWhole := hstage8_3 ((cfg8.slots t 3).cast nbuf8_3)
/-- The accumulator: a whole scoped buffer of the kernel's own, passed beside the windows. -/
abbrev scM8_0 : Memref sig .tc .vmem S1024x512 .f32 := Memref.whole cc8_scratch0
/-- One buffer of the output window, through which its contents are stated (the choice does not matter). -/
abbrev VO8_3 : View sig .tc .vmem S1024x512 .f32 := (Memref.whole cc8_stg3_0 : Memref sig .tc .vmem S1024x512 .f32).view

/-- The region invariant with the accumulator set apart, owned at some contents. -/
theorem PhiA8_eq (c : Dev nD) :
    (Pipeline.ΦA spec8 c : sProp 𝕄)
      = iprop(iprop(iprop((∃ d, owns (c : Thread nD τ) scM8_0 fullShare d))
            ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun8 (c : Dev nD) (i : grid8.Coords)
    (arg2 : Memref sig .tc .vmem S1024x1024 .f32) (harg2 : arg2.IsWhole) (arg3 : Memref sig .tc .vmem S1024x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond8_0 i) (hc1 : cond8_1 i)
    (x0 : Vec F S1024x1024 .f32) (x1 : Vec F S1024x512 .f32) (x2 : Vec F S1x512 .f32) :
    { L3 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc8__matmul_kernel i arg2 harg2 arg3 harg3 arg4 harg4 arg5 harg5 arg6 harg6) K } := by
  refine ⟨?_, fun E K => ?run⟩
  case run =>
    simp only [cc8__matmul_kernel_eq_skeleton]; unfold cc8__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover8_3 (c : Dev nD) (i : grid8.Coords)
    (arg2 : Memref sig .tc .vmem S1024x1024 .f32) (harg2 : arg2.IsWhole) (arg3 : Memref sig .tc .vmem S1024x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond8_0 i) (hc1 : cond8_1 i)
    (x0 : Vec F S1024x1024 .f32) (x1 : Vec F S1024x512 .f32) (x2 : Vec F S1x512 .f32) (y : S1024x512.Idx) :
    ∃ pc ∈ (kernelRun8 c i arg2 harg2 arg3 harg3 arg4 harg4 arg5 harg5 arg6 harg6 hc0 hc1 x0 x1 x2).1, y ∈ pc.1.set :=
  View.cover_of_tiledL (kernelRun8 c i arg2 harg2 arg3 harg3 arg4 harg4 arg5 harg5 arg6 harg6 hc0 hc1 x0 x1 x2).1 S1024x512.size (by sl_kernel_rfl) y

/-- What the body leaves in the output buffer: its pieces read back. -/
def out8_3 (c : Dev nD) (i : grid8.Coords)
    (arg2 : Memref sig .tc .vmem S1024x1024 .f32) (harg2 : arg2.IsWhole) (arg3 : Memref sig .tc .vmem S1024x512 .f32) (harg3 : arg3.IsWhole)
    (arg4 : Memref sig .tc .vmem S1x512 .f32) (harg4 : arg4.IsWhole) (arg5 : Memref sig .tc .vmem S1024x512 .f32) (harg5 : arg5.IsWhole)
    (arg6 : Memref sig .tc .vmem S1024x512 .f32) (harg6 : arg6.IsWhole) (hc0 : cond8_0 i) (hc1 : cond8_1 i)
    (x0 : Vec F S1024x1024 .f32) (x1 : Vec F S1024x512 .f32) (x2 : Vec F S1x512 .f32) : Vec F S1024x512 .f32 :=
  VO8_3.read (Elt F) (VO8_3.writes (Elt F) VO8_3.junk (kernelRun8 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 c (grid8.coords t) (ms8_0 t) (hs8_0 t) (ms8_1 t) (hs8_1 t) (ms8_2 t) (hs8_2 t) (ms8_3 t) (hs8_3 t) scM8_0 (Memref.isWhole_whole _)
        (hcond8_0 t) (hcond8_1 t) (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem Phi_first8 (c : Dev nD) : (dat8 V c).Φ 0 = Pipeline.ΦA spec8 c := by
  dsimp only [dat8]

theorem Phi_last8 (c : Dev nD) : (dat8 V c).Φ (Fin.last cfg8.N) ⊢ Pipeline.ΦA spec8 c := by
  rw [show (dat8 V c).Φ (Fin.last cfg8.N) = Pipeline.ΦA spec8 c from by dsimp only [dat8]]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t
    = out8_3 c (grid8.coords t) (ms8_0 t) (hs8_0 t) (ms8_1 t) (hs8_1 t) (ms8_2 t) (hs8_2 t) (ms8_3 t) (hs8_3 t) scM8_0 (Memref.isWhole_whole _)
        (hcond8_0 t) (hcond8_1 t) (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in
/-- The body at any point: the inputs' memrefs hold their blocks, both conditions hold, so the run applies; the
    invariant lends the accumulator at some contents and takes it back at some contents; the core owes nothing. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = Pipeline.ΦA spec8 c from by dsimp only [dat8],
    show (dat8 V c).Φ t.castSucc = Pipeline.ΦA spec8 c from by dsimp only [dat8], PhiA8_eq]
  rw [show (dat8 V c).leavesExact 0 t = owns (c : Thread nD τ) (ms8_0 t) fullShare ((dat8 V c).after 0 t) from rfl, after8_0]
  rw [show (dat8 V c).leavesExact 1 t = owns (c : Thread nD τ) (ms8_1 t) fullShare ((dat8 V c).after 1 t) from rfl, after8_1]
  rw [show (dat8 V c).leavesExact 2 t = owns (c : Thread nD τ) (ms8_2 t) fullShare ((dat8 V c).after 2 t) from rfl, after8_2]
  rw [show (dat8 V c).leavesExact 3 t = owns (c : Thread nD τ) (ms8_3 t) fullShare ((dat8 V c).after 3 t) from by
      unfold Dat.leavesExact; rw [liveAt8_3 t], after8_3]
  unfold out8_3; (try dsimp only)
  iintro ⟨⟨⟨HS, HR⟩, Hg⟩, Ho, ⟨%d0, H0⟩, ⟨%d1, H1⟩, ⟨%d2, H2⟩, ⟨%d3, H3⟩⟩
  iapply ((kernelRun8 c (grid8.coords t) _ _ _ _ _ _ _ _ _ _ (hcond8_0 t) (hcond8_1 t) (iblk8 V c 0 t) (iblk8 V c 1 t) (iblk8 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover8_3 c _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 9 of @main (the projection with a row softmax), at the contents `V` the region is entered with

The per-region half of the frame certificate: the windows' blocks read off the arrays as the region finds them, the
body's triple (one control case: the grid's second axis has one point, so the accumulator is zeroed, updated and
read out at every point), the proof data, and the body obligation. The accumulator is rewritten whole before it is
read at every point, so the invariant carries no contents for it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not, for any proof
    data whose array is `V`'s and whose body leaves the block in place: unfetched, the block index has not moved;
    the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof
    data whose array is `V`'s and whose body leaves the block in place: unfetched, the block index has not moved;
    the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof
    data whose array is `V`'s and whose body leaves the block in place: unfetched, the block index has not moved;
    the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's branch conditions: both hold at every point -/

/-- The condition of the body's first conditional (the accumulator's reset), from the grid coordinates. -/
abbrev cond9_0 (i : grid9.Coords) : Prop := (Scalar.cmpi .ne (Scalar.extui (Scalar.cmpi .eq (BitVec.ofNat 32 (i 1).val) 0#32)) 0#32) = 1#1
/-- It holds at every point: the second axis has the one coordinate 0. -/
theorem hcond9_0 : ∀ t : Fin cfg9.N, cond9_0 (grid9.coords t) :=
  (by decide +kernel : ∀ t : Fin grid9.N, cond9_0 (grid9.coords t))

/-- The condition of the body's second conditional (the read-out), from the grid coordinates. -/
abbrev cond9_1 (i : grid9.Coords) : Prop := k9_cond2 i = 1#1
/-- It holds at every point, for the same reason. -/
theorem hcond9_1 : ∀ t : Fin cfg9.N, cond9_1 (grid9.coords t) :=
  (by decide +kernel : ∀ t : Fin grid9.N, cond9_1 (grid9.coords t))

/-! ## No window is idle at any point -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
theorem liveAt9_4 : ∀ t : Fin cfg9.N, cfg9.idle 4 (grid9.coords t) = false := by decide +kernel

/-! ## The memrefs the body is called with -/

/-- One staging buffer of each output window, through which its contents are stated (the choice does not matter:
    a covering list of writes reads the same through any view). -/
abbrev VO9_3 : View sig .tc .vmem S1024x128 .f32 := (Memref.whole cc9_stg3_0 : Memref sig .tc .vmem S1024x128 .f32).view
abbrev VO9_4 : View sig .tc .vmem S1024x128 .f32 := (Memref.whole cc9_stg4_0 : Memref sig .tc .vmem S1024x128 .f32).view
/-- Each window's current staging memref at point `t`, spelled as the pipeline passes it, and its wholeness. -/
abbrev ms9_0 (t : Fin cfg9.N) : Memref sig .tc .vmem S1024x512 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S512x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S1x128 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1024x128 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S1024x128 .f32 := win9_4.stage (cfg9.slots t 4)
abbrev hs9_4 (t : Fin cfg9.N) : (ms9_4 t).IsWhole := hstage9_4 ((cfg9.slots t 4).cast nbuf9_4)
/-- The accumulator: a whole scoped buffer of the kernel's own, passed beside the windows. -/
abbrev scM9_0 : Memref sig .tc .vmem S1024x128 .f32 := Memref.whole cc9_scratch0

/-- The class's invariant with the accumulator as a memref owned at some contents, the other scoped buffers
    unopened, and the generator register at some state: what the body obligation hands the run and takes back. -/
theorem PhiA9_eq (c : Dev nD) :
    (Pipeline.ΦA spec9 c : sProp 𝕄)
      = iprop(iprop(iprop((∃ d, owns (c : Thread nD τ) scM9_0 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

/-! ## The body's triple -/

set_option maxHeartbeats 4000000 in
/-- What the body's stores leave in each output's staging memref and in the accumulator, as pieces (last first), with
    the proof that on whole memrefs — the inputs' at their contents, the outputs' and the accumulator at anything — the
    body runs to the continuation holding the inputs' as they were and each of the other three with its pieces
    written. Both conditionals are decided by the hypotheses; the pieces are the witness the run finds. -/
noncomputable def kernelRun9 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) :
    Σ' (L3 : List (View.Piece (Elt F) S1024x128 .f32)) (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc9__proj_softmax_kernel i arg2 harg2 arg3 harg3 arg4 harg4 arg5 harg5 arg6 harg6 arg7 harg7) K } := by
  refine ⟨?_, ?_, ?_, fun E K => ?run⟩
  case run =>
    simp only [cc9__proj_softmax_kernel_eq_skeleton]; unfold cc9__proj_softmax_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- The pieces for output window 3 tile its block (one store of the whole block), so they cover it. -/
theorem cover9_3 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) (y : S1024x128.Idx) :
    ∃ pc ∈ (kernelRun9 c i arg2 harg2 arg3 harg3 arg4 harg4 arg5 harg5 arg6 harg6 arg7 harg7 hc0 hc1 x0 x1 x2).1, y ∈ pc.1.set :=
  View.cover_of_tiledL (kernelRun9 c i arg2 harg2 arg3 harg3 arg4 harg4 arg5 harg5 arg6 harg6 arg7 harg7 hc0 hc1 x0 x1 x2).1 S1024x128.size (by sl_kernel_rfl) y

/-- What the body leaves in output window 3's staging buffer: its pieces read back over junk. -/
def out9_3 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) : Vec F S1024x128 .f32 :=
  VO9_3.read (Elt F) (VO9_3.writes (Elt F) VO9_3.junk (kernelRun9 c i arg2 harg2 arg3 harg3 arg4 harg4 arg5 harg5 arg6 harg6 arg7 harg7 hc0 hc1 x0 x1 x2).1)

/-- The pieces for output window 4 tile its block (one store of the whole block), so they cover it. -/
theorem cover9_4 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) (y : S1024x128.Idx) :
    ∃ pc ∈ (kernelRun9 c i arg2 harg2 arg3 harg3 arg4 harg4 arg5 harg5 arg6 harg6 arg7 harg7 hc0 hc1 x0 x1 x2).2.1, y ∈ pc.1.set :=
  View.cover_of_tiledL (kernelRun9 c i arg2 harg2 arg3 harg3 arg4 harg4 arg5 harg5 arg6 harg6 arg7 harg7 hc0 hc1 x0 x1 x2).2.1 S1024x128.size (by sl_kernel_rfl) y

/-- What the body leaves in output window 4's staging buffer: its pieces read back over junk. -/
def out9_4 (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) : Vec F S1024x128 .f32 :=
  VO9_4.read (Elt F) (VO9_4.writes (Elt F) VO9_4.junk (kernelRun9 c i arg2 harg2 arg3 harg3 arg4 harg4 arg5 harg5 arg6 harg6 arg7 harg7 hc0 hc1 x0 x1 x2).2.1)

/-! ## The pipeline's proof data -/

/-- The proof data of pipeline 9 on core `c`: the arrays as the region finds them (`V`); after the body at point
    `t` each input's buffer at its block and each output's at what the run leaves from the input blocks; the
    invariant the class's (the scoped rest and the generator register, at anything); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 c (grid9.coords t) (ms9_0 t) (hs9_0 t) (ms9_1 t) (hs9_1 t) (ms9_2 t) (hs9_2 t) (ms9_3 t) (hs9_3 t) (ms9_4 t) (hs9_4 t) scM9_0 (Memref.isWhole_whole _) (hcond9_0 t) (hcond9_1 t) (iblk9 V c 0 t) (iblk9 V c 1 t) (iblk9 V c 2 t)
    | ⟨4, _⟩ => out9_4 c (grid9.coords t) (ms9_0 t) (hs9_0 t) (ms9_1 t) (hs9_1 t) (ms9_2 t) (hs9_2 t) (ms9_3 t) (hs9_3 t) (ms9_4 t) (hs9_4 t) scM9_0 (Memref.isWhole_whole _) (hcond9_0 t) (hcond9_1 t) (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- The invariant before the first point is the class's, -/
theorem Phi_first9 (c : Dev nD) : (dat9 V c).Φ 0 = Pipeline.ΦA spec9 c := by
  dsimp only [dat9]

/-- and after the last point it gives the class's back. -/
theorem Phi_last9 (c : Dev nD) : (dat9 V c).Φ (Fin.last cfg9.N) ⊢ Pipeline.ΦA spec9 c := by
  dsimp only [dat9]; exact Idealize.SL.BI.Entails.refl _

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 c (grid9.coords t) (ms9_0 t) (hs9_0 t) (ms9_1 t) (hs9_1 t) (ms9_2 t) (hs9_2 t) (ms9_3 t) (hs9_3 t) (ms9_4 t) (hs9_4 t) scM9_0 (Memref.isWhole_whole _) (hcond9_0 t) (hcond9_1 t) (iblk9 V c 0 t) (iblk9 V c 1 t) (iblk9 V c 2 t) := by dsimp only [dat9]
theorem after9_4 (c : Dev nD) (t : Fin cfg9.N) : (dat9 V c).after 4 t = out9_4 c (grid9.coords t) (ms9_0 t) (hs9_0 t) (ms9_1 t) (hs9_1 t) (ms9_2 t) (hs9_2 t) (ms9_3 t) (hs9_3 t) (ms9_4 t) (hs9_4 t) scM9_0 (Memref.isWhole_whole _) (hcond9_0 t) (hcond9_1 t) (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t` (the obligation's precondition, the windows one by one), -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t)

set_option maxHeartbeats 4000000 in
/-- The body at any point: the inputs' memrefs hold their blocks; the invariant hands the body the accumulator at some
    contents (the other scoped buffers and the generator register pass through unread) and takes it back at some
    contents; each output's buffer ends at its pieces written, which cover it; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = Pipeline.ΦA spec9 c from rfl, show (dat9 V c).Φ t.castSucc = Pipeline.ΦA spec9 c from rfl, PhiA9_eq]
  rw [show (dat9 V c).leavesExact 0 t = owns (c : Thread nD τ) (ms9_0 t) fullShare ((dat9 V c).after 0 t) from by
      unfold Dat.leavesExact; rw [liveAt9_0 t], after9_0]
  rw [show (dat9 V c).leavesExact 1 t = owns (c : Thread nD τ) (ms9_1 t) fullShare ((dat9 V c).after 1 t) from by
      unfold Dat.leavesExact; rw [liveAt9_1 t], after9_1]
  rw [show (dat9 V c).leavesExact 2 t = owns (c : Thread nD τ) (ms9_2 t) fullShare ((dat9 V c).after 2 t) from by
      unfold Dat.leavesExact; rw [liveAt9_2 t], after9_2]
  rw [show (dat9 V c).leavesExact 3 t = owns (c : Thread nD τ) (ms9_3 t) fullShare ((dat9 V c).after 3 t) from by
      unfold Dat.leavesExact; rw [liveAt9_3 t], after9_3]
  rw [show (dat9 V c).leavesExact 4 t = owns (c : Thread nD τ) (ms9_4 t) fullShare ((dat9 V c).after 4 t) from by
      unfold Dat.leavesExact; rw [liveAt9_4 t], after9_4]
  unfold out9_3 out9_4; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((kernelRun9 c (grid9.coords t) _ _ _ _ _ _ _ _ _ _ _ _ (hcond9_0 t) (hcond9_1 t) (iblk9 V c 0 t) (iblk9 V c 1 t) (iblk9 V c 2 t)).2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover9_3 c _ _ _ _ _ _ _ _ _ _ _ _ _ _ _ _ _ _)
  unfold owns; iexists _; isplitr
  swap; · iexact H4
  ipureintro; exact View.read_writes_of_cover _ _ _ _ _ (cover9_4 c _ _ _ _ _ _ _ _ _ _ _ _ _ _ _ _ _ _)

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.R10.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 10 of @main, at the entry contents V: a 1024 × 1024 block times a 1024 × 128 factor at f32, one grid point, the bias row added

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The left factor's row block is in its buffer at every point: it is fetched at every point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The right factor is in its buffer at every point: fetched at the first, its block index never moves. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The bias row likewise. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch conditions -/

/-- "This is the first block of the contraction axis" (the accumulator is zeroed), from the grid coordinates. -/
abbrev cond10_0 (i : grid10.Coords) : Prop := (Scalar.cmpi .ne (Scalar.extui (Scalar.cmpi .eq (BitVec.ofNat 32 (i 1).val) 0#32)) 0#32) = 1#1
/-- The contraction axis has one block: it holds at every point. -/
theorem hcond10_0 : ∀ t : Fin cfg10.N, cond10_0 (grid10.coords t) :=
  (by decide +kernel : ∀ t : Fin grid10.N, cond10_0 (grid10.coords t))

/-- "This is the last block of the contraction axis" (the output block is stored). -/
abbrev cond10_1 (i : grid10.Coords) : Prop := k10_cond2 i = 1#1
/-- It too holds at every point. -/
theorem hcond10_1 : ∀ t : Fin cfg10.N, cond10_1 (grid10.coords t) :=
  (by decide +kernel : ∀ t : Fin grid10.N, cond10_1 (grid10.coords t))

/-- The output block is stored at every point: no point is idle for it. -/
theorem liveAt10_3 : ∀ t : Fin cfg10.N, cfg10.idle 3 (grid10.coords t) = false := by decide +kernel

/-! ## The memrefs the body is called with -/

abbrev ms10_0 (t : Fin cfg10.N) : Memref sig .tc .vmem S1024x1024 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1024x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x128 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1024x128 .f32 := win10_3.stage (cfg10.slots t 3)
abbrev hs10_3 (t : Fin cfg10.N) : (ms10_3 t).IsWhole := hstage10_3 ((cfg10.slots t 3).cast nbuf10_3)
/-- The accumulator: a whole scoped buffer of the kernel's own, passed beside the windows. -/
abbrev scM10_0 : Memref sig .tc .vmem S1024x128 .f32 := Memref.whole cc10_scratch0
/-- One buffer of the output window, through which its contents are stated (the choice does not matter). -/
abbrev VO10_3 : View sig .tc .vmem S1024x128 .f32 := (Memref.whole cc10_stg3_0 : Memref sig .tc .vmem S1024x128 .f32).view

/-- The region invariant with the accumulator set apart, owned at some contents. -/
theorem PhiA10_eq (c : Dev nD) :
    (Pipeline.ΦA spec10 c : sProp 𝕄)
      = iprop(iprop(iprop((∃ d, owns (c : Thread nD τ) scM10_0 fullShare d))
            ∗ Pipeline.scopedRestBut (Ix := Unit) (Name := ℕ) (U := UR sig nD τ) (Lvl := ℕ) (Val := Elt F) spec10 c [cc10_scratch0])
          ∗ (∃ r, prngReg c r)) := by
  unfold Pipeline.ΦA; rw [scopedRest10_split]; simp only [scM10_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun10 (c : Dev nD) (i : grid10.Coords)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hc0 : cond10_0 i) (hc1 : cond10_1 i)
    (x0 : Vec F S1024x1024 .f32) (x1 : Vec F S1024x128 .f32) (x2 : Vec F S1x128 .f32) :
    { L3 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc10__matmul_kernel i arg2 harg2 arg3 harg3 arg4 harg4 arg5 harg5 arg6 harg6) K } := by
  refine ⟨?_, fun E K => ?run⟩
  case run =>
    simp only [cc10__matmul_kernel_eq_skeleton]; unfold cc10__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover10_3 (c : Dev nD) (i : grid10.Coords)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hc0 : cond10_0 i) (hc1 : cond10_1 i)
    (x0 : Vec F S1024x1024 .f32) (x1 : Vec F S1024x128 .f32) (x2 : Vec F S1x128 .f32) (y : S1024x128.Idx) :
    ∃ pc ∈ (kernelRun10 c i arg2 harg2 arg3 harg3 arg4 harg4 arg5 harg5 arg6 harg6 hc0 hc1 x0 x1 x2).1, y ∈ pc.1.set :=
  View.cover_of_tiledL (kernelRun10 c i arg2 harg2 arg3 harg3 arg4 harg4 arg5 harg5 arg6 harg6 hc0 hc1 x0 x1 x2).1 S1024x128.size (by sl_kernel_rfl) y

/-- What the body leaves in the output buffer: its pieces read back. -/
def out10_3 (c : Dev nD) (i : grid10.Coords)
    (arg2 : Memref sig .tc .vmem S1024x1024 .f32) (harg2 : arg2.IsWhole) (arg3 : Memref sig .tc .vmem S1024x128 .f32) (harg3 : arg3.IsWhole)
    (arg4 : Memref sig .tc .vmem S1x128 .f32) (harg4 : arg4.IsWhole) (arg5 : Memref sig .tc .vmem S1024x128 .f32) (harg5 : arg5.IsWhole)
    (arg6 : Memref sig .tc .vmem S1024x128 .f32) (harg6 : arg6.IsWhole) (hc0 : cond10_0 i) (hc1 : cond10_1 i)
    (x0 : Vec F S1024x1024 .f32) (x1 : Vec F S1024x128 .f32) (x2 : Vec F S1x128 .f32) : Vec F S1024x128 .f32 :=
  VO10_3.read (Elt F) (VO10_3.writes (Elt F) VO10_3.junk (kernelRun10 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 c (grid10.coords t) (ms10_0 t) (hs10_0 t) (ms10_1 t) (hs10_1 t) (ms10_2 t) (hs10_2 t) (ms10_3 t) (hs10_3 t) scM10_0 (Memref.isWhole_whole _)
        (hcond10_0 t) (hcond10_1 t) (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem Phi_first10 (c : Dev nD) : (dat10 V c).Φ 0 = Pipeline.ΦA spec10 c := by
  dsimp only [dat10]

theorem Phi_last10 (c : Dev nD) : (dat10 V c).Φ (Fin.last cfg10.N) ⊢ Pipeline.ΦA spec10 c := by
  rw [show (dat10 V c).Φ (Fin.last cfg10.N) = Pipeline.ΦA spec10 c from by dsimp only [dat10]]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t
    = out10_3 c (grid10.coords t) (ms10_0 t) (hs10_0 t) (ms10_1 t) (hs10_1 t) (ms10_2 t) (hs10_2 t) (ms10_3 t) (hs10_3 t) scM10_0 (Memref.isWhole_whole _)
        (hcond10_0 t) (hcond10_1 t) (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation, at a generic point -/

/-- What the body is called with at point t, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

set_option maxHeartbeats 4800000 in
/-- The body at any point: the inputs' memrefs hold their blocks, both conditions hold, so the run applies; the
    invariant lends the accumulator at some contents and takes it back at some contents; the core owes nothing. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = Pipeline.ΦA spec10 c from by dsimp only [dat10],
    show (dat10 V c).Φ t.castSucc = Pipeline.ΦA spec10 c from by dsimp only [dat10], PhiA10_eq]
  rw [show (dat10 V c).leavesExact 0 t = owns (c : Thread nD τ) (ms10_0 t) fullShare ((dat10 V c).after 0 t) from rfl, after10_0]
  rw [show (dat10 V c).leavesExact 1 t = owns (c : Thread nD τ) (ms10_1 t) fullShare ((dat10 V c).after 1 t) from rfl, after10_1]
  rw [show (dat10 V c).leavesExact 2 t = owns (c : Thread nD τ) (ms10_2 t) fullShare ((dat10 V c).after 2 t) from rfl, after10_2]
  rw [show (dat10 V c).leavesExact 3 t = owns (c : Thread nD τ) (ms10_3 t) fullShare ((dat10 V c).after 3 t) from by
      unfold Dat.leavesExact; rw [liveAt10_3 t], after10_3]
  unfold out10_3; (try dsimp only)
  iintro ⟨⟨⟨HS, HR⟩, Hg⟩, Ho, ⟨%d0, H0⟩, ⟨%d1, H1⟩, ⟨%d2, H2⟩, ⟨%d3, H3⟩⟩
  iapply ((kernelRun10 c (grid10.coords t) _ _ _ _ _ _ _ _ _ _ (hcond10_0 t) (hcond10_1 t) (iblk10 V c 0 t) (iblk10 V c 1 t) (iblk10 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover10_3 c _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.R11.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not, for any proof
    data whose array is the entry contents and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's branch conditions: both hold at every point -/

/-- The first conditional's condition (k = 0), from the grid coordinates. -/
abbrev cond11_0 (i : grid11.Coords) : Prop := (Scalar.cmpi .ne (Scalar.extui (Scalar.cmpi .eq (BitVec.ofNat 32 (i 2).val) 0#32)) 0#32) = 1#1
theorem hcond11_0 : ∀ t : Fin cfg11.N, cond11_0 (grid11.coords t) :=
  (by decide +kernel : ∀ t : Fin grid11.N, cond11_0 (grid11.coords t))

/-- The second conditional's condition (k is the last block, which is block 0). -/
abbrev cond11_1 (i : grid11.Coords) : Prop := k11_cond2 i = 1#1
theorem hcond11_1 : ∀ t : Fin cfg11.N, cond11_1 (grid11.coords t) :=
  (by decide +kernel : ∀ t : Fin grid11.N, cond11_1 (grid11.coords t))

/-! ## No window is ever idle -/

theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel

/-! ## The staging memrefs and the accumulator -/

/-- One staging buffer of the output window, through which its contents are stated. -/
abbrev VO11_2 : View sig .tc .vmem S128x256 .f32 := (Memref.whole cc11_stg2_0 : Memref sig .tc .vmem S128x256 .f32).view
abbrev ms11_0 (t : Fin cfg11.N) : Memref sig .tc .vmem S1024x128 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S1024x256 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S128x256 .f32 := win11_2.stage (cfg11.slots t 2)
abbrev hs11_2 (t : Fin cfg11.N) : (ms11_2 t).IsWhole := hstage11_2 ((cfg11.slots t 2).cast nbuf11_2)
/-- The accumulator: a whole scoped buffer of the kernel's own. -/
abbrev scM11_0 : Memref sig .tc .vmem S128x256 .f32 := Memref.whole cc11_scratch0

/-- The region's invariant with the accumulator as a memref owned at some contents, the other scoped buffers
    unopened, and the generator register at some state. -/
theorem PhiA11_eq (c : Dev nD) :
    (Pipeline.ΦA spec11 c : sProp 𝕄)
      = iprop(iprop(iprop((∃ d, owns (c : Thread nD τ) scM11_0 fullShare d)) ∗ Pipeline.scopedRestBut spec11 c [cc11_scratch0]) ∗ (∃ r, prngReg c r)) := by
  unfold Pipeline.ΦA; rw [scopedRest11_split]; simp only [scM11_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun11 (c : Dev nD) (i : grid11.Coords) (arg3 : Memref sig .tc .vmem S1024x128 .f32) (harg3 : arg3.IsWhole) (arg4 : Memref sig .tc .vmem S1024x256 .f32) (harg4 : arg4.IsWhole) (arg5 : Memref sig .tc .vmem S128x256 .f32) (harg5 : arg5.IsWhole) (arg6 : Memref sig .tc .vmem S128x256 .f32) (harg6 : arg6.IsWhole) (hc0 : cond11_0 i) (hc1 : cond11_1 i)
    (x0 : Vec F S1024x128 .f32) (x1 : Vec F S1024x256 .f32) :
    Σ' (L2 : List (View.Piece (Elt F) S128x256 .f32)), { LS0 : List (View.Piece (Elt F) S128x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc11__matmulT_kernel i arg3 harg3 arg4 harg4 arg5 harg5 arg6 harg6) K } := by
  refine ⟨?_, ?_, fun E K => ?run⟩
  case run =>
    simp only [cc11__matmulT_kernel_eq_skeleton]; unfold cc11__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover11_2 (c : Dev nD) (i : grid11.Coords) (arg3 : Memref sig .tc .vmem S1024x128 .f32) (harg3 : arg3.IsWhole) (arg4 : Memref sig .tc .vmem S1024x256 .f32) (harg4 : arg4.IsWhole) (arg5 : Memref sig .tc .vmem S128x256 .f32) (harg5 : arg5.IsWhole) (arg6 : Memref sig .tc .vmem S128x256 .f32) (harg6 : arg6.IsWhole) (hc0 : cond11_0 i) (hc1 : cond11_1 i)
    (x0 : Vec F S1024x128 .f32) (x1 : Vec F S1024x256 .f32) (y : S128x256.Idx) :
    ∃ pc ∈ (kernelRun11 c i arg3 harg3 arg4 harg4 arg5 harg5 arg6 harg6 hc0 hc1 x0 x1).1, y ∈ pc.1.set :=
  View.cover_of_tiledL (kernelRun11 c i arg3 harg3 arg4 harg4 arg5 harg5 arg6 harg6 hc0 hc1 x0 x1).1 S128x256.size (by sl_kernel_rfl) y

/-- What the body leaves in the output's staging buffer. -/
def out11_2 (c : Dev nD) (i : grid11.Coords) (arg3 : Memref sig .tc .vmem S1024x128 .f32) (harg3 : arg3.IsWhole) (arg4 : Memref sig .tc .vmem S1024x256 .f32) (harg4 : arg4.IsWhole) (arg5 : Memref sig .tc .vmem S128x256 .f32) (harg5 : arg5.IsWhole) (arg6 : Memref sig .tc .vmem S128x256 .f32) (harg6 : arg6.IsWhole) (hc0 : cond11_0 i) (hc1 : cond11_1 i)
    (x0 : Vec F S1024x128 .f32) (x1 : Vec F S1024x256 .f32) : Vec F S128x256 .f32 :=
  VO11_2.read (Elt F) (VO11_2.writes (Elt F) VO11_2.junk (kernelRun11 c i arg3 harg3 arg4 harg4 arg5 harg5 arg6 harg6 hc0 hc1 x0 x1).1)

/-- The output's staging buffer after the body at point t. -/
def outAt11 (c : Dev nD) (t : Fin cfg11.N) : Vec F S128x256 .f32 :=
  out11_2 c (grid11.coords t) (ms11_0 t) (hs11_0 t) (ms11_1 t) (hs11_1 t) (ms11_2 t) (hs11_2 t) scM11_0 (Memref.isWhole_whole _) (hcond11_0 t) (hcond11_1 t) (iblk11 V c 0 t) (iblk11 V c 1 t)

/-! ## The pipeline's proof data -/

/-- The proof data of the region on core c: the arrays as the region finds them; after the body at point t each
    input's buffer at its block and the output's at what the one case leaves; the invariant the scoped rest and the
    generator register, untouched between points; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => outAt11 V c t
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = outAt11 V c t := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the launch hands the region is the invariant before the first point, -/
theorem Phi_first11 (c : Dev nD) : (dat11 V c).Φ 0 = Pipeline.ΦA spec11 c := rfl

/-- and the invariant after the last point gives it back. -/
theorem Phi_last11 (c : Dev nD) : (dat11 V c).Φ (Fin.last cfg11.N) ⊢ Pipeline.ΦA spec11 c :=
  Idealize.SL.BI.Entails.refl _

/-! ## The body obligation, at a generic point -/

/-- What the body is called with at point t, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t)

set_option maxHeartbeats 4800000 in
/-- The body at any point: the inputs' memrefs hold their blocks; the invariant hands the body the accumulator at
    anything and takes it back at anything; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).owesAt () t.succ = (dat11 V c).owesAt () t.castSucc from rfl]
  rw [show (dat11 V c).Φ t.succ = Pipeline.ΦA spec11 c from rfl, show (dat11 V c).Φ t.castSucc = Pipeline.ΦA spec11 c from rfl, PhiA11_eq]
  rw [show (dat11 V c).leavesExact 0 t = owns (c : Thread nD τ) (ms11_0 t) fullShare ((dat11 V c).after 0 t) from by
      unfold Dat.leavesExact; rw [liveAt11_0 t], after11_0]
  rw [show (dat11 V c).leavesExact 1 t = owns (c : Thread nD τ) (ms11_1 t) fullShare ((dat11 V c).after 1 t) from by
      unfold Dat.leavesExact; rw [liveAt11_1 t], after11_1]
  rw [show (dat11 V c).leavesExact 2 t = owns (c : Thread nD τ) (ms11_2 t) fullShare ((dat11 V c).after 2 t) from by
      unfold Dat.leavesExact; rw [liveAt11_2 t], after11_2]
  unfold outAt11 out11_2; (try dsimp only)
  iintro ⟨⟨⟨HS0, Hr⟩, Hg⟩, Ho, ⟨%d0, H0⟩, ⟨%d1, H1⟩, ⟨%d2, H2⟩⟩
  iapply ((kernelRun11 c (grid11.coords t) _ _ _ _ _ _ _ _ (hcond11_0 t) (hcond11_1 t) (iblk11 V c 0 t) (iblk11 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover11_2 c _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.R12.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 12: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not, for any proof
    data whose array is the entry contents and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's branch conditions: both hold at every point -/

/-- The first conditional's condition (k = 0), from the grid coordinates. -/
abbrev cond12_0 (i : grid12.Coords) : Prop := (Scalar.cmpi .ne (Scalar.extui (Scalar.cmpi .eq (BitVec.ofNat 32 (i 2).val) 0#32)) 0#32) = 1#1
theorem hcond12_0 : ∀ t : Fin cfg12.N, cond12_0 (grid12.coords t) :=
  (by decide +kernel : ∀ t : Fin grid12.N, cond12_0 (grid12.coords t))

/-- The second conditional's condition (k is the last block, which is block 0). -/
abbrev cond12_1 (i : grid12.Coords) : Prop := k12_cond2 i = 1#1
theorem hcond12_1 : ∀ t : Fin cfg12.N, cond12_1 (grid12.coords t) :=
  (by decide +kernel : ∀ t : Fin grid12.N, cond12_1 (grid12.coords t))

/-! ## No window is ever idle -/

theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel

/-! ## The staging memrefs and the accumulator -/

/-- One staging buffer of the output window, through which its contents are stated. -/
abbrev VO12_2 : View sig .tc .vmem S128x128 .f32 := (Memref.whole cc12_stg2_0 : Memref sig .tc .vmem S128x128 .f32).view
abbrev ms12_0 (t : Fin cfg12.N) : Memref sig .tc .vmem S1024x128 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S1024x128 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S128x128 .f32 := win12_2.stage (cfg12.slots t 2)
abbrev hs12_2 (t : Fin cfg12.N) : (ms12_2 t).IsWhole := hstage12_2 ((cfg12.slots t 2).cast nbuf12_2)
/-- The accumulator: a whole scoped buffer of the kernel's own. -/
abbrev scM12_0 : Memref sig .tc .vmem S128x128 .f32 := Memref.whole cc12_scratch0

/-- The region's invariant with the accumulator as a memref owned at some contents, the other scoped buffers
    unopened, and the generator register at some state. -/
theorem PhiA12_eq (c : Dev nD) :
    (Pipeline.ΦA spec12 c : sProp 𝕄)
      = iprop(iprop(iprop((∃ d, owns (c : Thread nD τ) scM12_0 fullShare d)) ∗ Pipeline.scopedRestBut spec12 c [cc12_scratch0]) ∗ (∃ r, prngReg c r)) := by
  unfold Pipeline.ΦA; rw [scopedRest12_split]; simp only [scM12_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun12 (c : Dev nD) (i : grid12.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond12_0 i) (hc1 : cond12_1 i)
    (x0 : Vec F S1024x128 .f32) (x1 : Vec F S1024x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc12__matmulT_kernel i arg3 harg3 arg4 harg4 arg5 harg5 arg6 harg6) K } := by
  refine ⟨?_, ?_, fun E K => ?run⟩
  case run =>
    simp only [cc12__matmulT_kernel_eq_skeleton]; unfold cc12__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover12_2 (c : Dev nD) (i : grid12.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond12_0 i) (hc1 : cond12_1 i)
    (x0 : Vec F S1024x128 .f32) (x1 : Vec F S1024x128 .f32) (y : S128x128.Idx) :
    ∃ pc ∈ (kernelRun12 c i arg3 harg3 arg4 harg4 arg5 harg5 arg6 harg6 hc0 hc1 x0 x1).1, y ∈ pc.1.set :=
  View.cover_of_tiledL (kernelRun12 c i arg3 harg3 arg4 harg4 arg5 harg5 arg6 harg6 hc0 hc1 x0 x1).1 S128x128.size (by sl_kernel_rfl) y

/-- What the body leaves in the output's staging buffer. -/
def out12_2 (c : Dev nD) (i : grid12.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond12_0 i) (hc1 : cond12_1 i)
    (x0 : Vec F S1024x128 .f32) (x1 : Vec F S1024x128 .f32) : Vec F S128x128 .f32 :=
  VO12_2.read (Elt F) (VO12_2.writes (Elt F) VO12_2.junk (kernelRun12 c i arg3 harg3 arg4 harg4 arg5 harg5 arg6 harg6 hc0 hc1 x0 x1).1)

/-- The output's staging buffer after the body at point t. -/
def outAt12 (c : Dev nD) (t : Fin cfg12.N) : Vec F S128x128 .f32 :=
  out12_2 c (grid12.coords t) (ms12_0 t) (hs12_0 t) (ms12_1 t) (hs12_1 t) (ms12_2 t) (hs12_2 t) scM12_0 (Memref.isWhole_whole _) (hcond12_0 t) (hcond12_1 t) (iblk12 V c 0 t) (iblk12 V c 1 t)

/-! ## The pipeline's proof data -/

/-- The proof data of the region on core c: the arrays as the region finds them; after the body at point t each
    input's buffer at its block and the output's at what the one case leaves; the invariant the scoped rest and the
    generator register, untouched between points; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => outAt12 V c t
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = outAt12 V c t := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the launch hands the region is the invariant before the first point, -/
theorem Phi_first12 (c : Dev nD) : (dat12 V c).Φ 0 = Pipeline.ΦA spec12 c := rfl

/-- and the invariant after the last point gives it back. -/
theorem Phi_last12 (c : Dev nD) : (dat12 V c).Φ (Fin.last cfg12.N) ⊢ Pipeline.ΦA spec12 c :=
  Idealize.SL.BI.Entails.refl _

/-! ## The body obligation, at a generic point -/

/-- What the body is called with at point t, the windows one by one, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4800000 in
/-- The body at any point: the inputs' memrefs hold their blocks; the invariant hands the body the accumulator at
    anything and takes it back at anything; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = Pipeline.ΦA spec12 c from rfl, show (dat12 V c).Φ t.castSucc = Pipeline.ΦA spec12 c from rfl, PhiA12_eq]
  rw [show (dat12 V c).leavesExact 0 t = owns (c : Thread nD τ) (ms12_0 t) fullShare ((dat12 V c).after 0 t) from by
      unfold Dat.leavesExact; rw [liveAt12_0 t], after12_0]
  rw [show (dat12 V c).leavesExact 1 t = owns (c : Thread nD τ) (ms12_1 t) fullShare ((dat12 V c).after 1 t) from by
      unfold Dat.leavesExact; rw [liveAt12_1 t], after12_1]
  rw [show (dat12 V c).leavesExact 2 t = owns (c : Thread nD τ) (ms12_2 t) fullShare ((dat12 V c).after 2 t) from by
      unfold Dat.leavesExact; rw [liveAt12_2 t], after12_2]
  unfold outAt12 out12_2; (try dsimp only)
  iintro ⟨⟨⟨HS0, Hr⟩, Hg⟩, Ho, ⟨%d0, H0⟩, ⟨%d1, H1⟩, ⟨%d2, H2⟩⟩
  iapply ((kernelRun12 c (grid12.coords t) _ _ _ _ _ _ _ _ (hcond12_0 t) (hcond12_1 t) (iblk12 V c 0 t) (iblk12 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover12_2 c _ _ _ _ _ _ _ _ _ _ _ _ _)

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.R13.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 13: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not, for any proof
    data whose array is the entry contents and whose body leaves the block in place. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's branch conditions: both hold at every point -/

/-- The first conditional's condition (k = 0), from the grid coordinates. -/
abbrev cond13_0 (i : grid13.Coords) : Prop := (Scalar.cmpi .ne (Scalar.extui (Scalar.cmpi .eq (BitVec.ofNat 32 (i 2).val) 0#32)) 0#32) = 1#1
theorem hcond13_0 : ∀ t : Fin cfg13.N, cond13_0 (grid13.coords t) :=
  (by decide +kernel : ∀ t : Fin grid13.N, cond13_0 (grid13.coords t))

/-- The second conditional's condition (k is the last block, which is block 0). -/
abbrev cond13_1 (i : grid13.Coords) : Prop := k13_cond2 i = 1#1
theorem hcond13_1 : ∀ t : Fin cfg13.N, cond13_1 (grid13.coords t) :=
  (by decide +kernel : ∀ t : Fin grid13.N, cond13_1 (grid13.coords t))

/-! ## No window is ever idle -/

theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel

/-! ## The staging memrefs and the accumulator -/

/-- One staging buffer of the output window, through which its contents are stated. -/
abbrev VO13_2 : View sig .tc .vmem S128x128 .f32 := (Memref.whole cc13_stg2_0 : Memref sig .tc .vmem S128x128 .f32).view
abbrev ms13_0 (t : Fin cfg13.N) : Memref sig .tc .vmem S1024x128 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S1024x128 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S128x128 .f32 := win13_2.stage (cfg13.slots t 2)
abbrev hs13_2 (t : Fin cfg13.N) : (ms13_2 t).IsWhole := hstage13_2 ((cfg13.slots t 2).cast nbuf13_2)
/-- The accumulator: a whole scoped buffer of the kernel's own. -/
abbrev scM13_0 : Memref sig .tc .vmem S128x128 .f32 := Memref.whole cc13_scratch0

/-- The region's invariant with the accumulator as a memref owned at some contents, the other scoped buffers
    unopened, and the generator register at some state. -/
theorem PhiA13_eq (c : Dev nD) :
    (Pipeline.ΦA spec13 c : sProp 𝕄)
      = iprop(iprop(iprop((∃ d, owns (c : Thread nD τ) scM13_0 fullShare d)) ∗ Pipeline.scopedRestBut spec13 c [cc13_scratch0]) ∗ (∃ r, prngReg c r)) := by
  unfold Pipeline.ΦA; rw [scopedRest13_split]; simp only [scM13_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun13 (c : Dev nD) (i : grid13.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond13_0 i) (hc1 : cond13_1 i)
    (x0 : Vec F S1024x128 .f32) (x1 : Vec F S1024x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc13__matmulT_kernel i arg3 harg3 arg4 harg4 arg5 harg5 arg6 harg6) K } := by
  refine ⟨?_, ?_, fun E K => ?run⟩
  case run =>
    simp only [cc13__matmulT_kernel_eq_skeleton]; unfold cc13__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover13_2 (c : Dev nD) (i : grid13.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond13_0 i) (hc1 : cond13_1 i)
    (x0 : Vec F S1024x128 .f32) (x1 : Vec F S1024x128 .f32) (y : S128x128.Idx) :
    ∃ pc ∈ (kernelRun13 c i arg3 harg3 arg4 harg4 arg5 harg5 arg6 harg6 hc0 hc1 x0 x1).1, y ∈ pc.1.set :=
  View.cover_of_tiledL (kernelRun13 c i arg3 harg3 arg4 harg4 arg5 harg5 arg6 harg6 hc0 hc1 x0 x1).1 S128x128.size (by sl_kernel_rfl) y

/-- What the body leaves in the output's staging buffer. -/
def out13_2 (c : Dev nD) (i : grid13.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond13_0 i) (hc1 : cond13_1 i)
    (x0 : Vec F S1024x128 .f32) (x1 : Vec F S1024x128 .f32) : Vec F S128x128 .f32 :=
  VO13_2.read (Elt F) (VO13_2.writes (Elt F) VO13_2.junk (kernelRun13 c i arg3 harg3 arg4 harg4 arg5 harg5 arg6 harg6 hc0 hc1 x0 x1).1)

/-- The output's staging buffer after the body at point t. -/
def outAt13 (c : Dev nD) (t : Fin cfg13.N) : Vec F S128x128 .f32 :=
  out13_2 c (grid13.coords t) (ms13_0 t) (hs13_0 t) (ms13_1 t) (hs13_1 t) (ms13_2 t) (hs13_2 t) scM13_0 (Memref.isWhole_whole _) (hcond13_0 t) (hcond13_1 t) (iblk13 V c 0 t) (iblk13 V c 1 t)

/-! ## The pipeline's proof data -/

/-- The proof data of the region on core c: the arrays as the region finds them; after the body at point t each
    input's buffer at its block and the output's at what the one case leaves; the invariant the scoped rest and the
    generator register, untouched between points; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => outAt13 V c t
  Φ _ := Pipeline.ΦA spec13 c
  q := fun w => match w with | ⟨0, _⟩ => fullShare.left | ⟨1, _⟩ => fullShare.right | ⟨2, _⟩ => fullShare
  owed _ := 0

/-- The proof data's arrays are the region-entry contents. -/
theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = outAt13 V c t := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the launch hands the region is the invariant before the first point, -/
theorem Phi_first13 (c : Dev nD) : (dat13 V c).Φ 0 = Pipeline.ΦA spec13 c := rfl

/-- and the invariant after the last point gives it back. -/
theorem Phi_last13 (c : Dev nD) : (dat13 V c).Φ (Fin.last cfg13.N) ⊢ Pipeline.ΦA spec13 c :=
  Idealize.SL.BI.Entails.refl _

/-! ## The body obligation, at a generic point -/

/-- What the body is called with at point t, the windows one by one, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4800000 in
/-- The body at any point: the inputs' memrefs hold their blocks; the invariant hands the body the accumulator at
    anything and takes it back at anything; the core owes nothing throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = Pipeline.ΦA spec13 c from rfl, show (dat13 V c).Φ t.castSucc = Pipeline.ΦA spec13 c from rfl, PhiA13_eq]
  rw [show (dat13 V c).leavesExact 0 t = owns (c : Thread nD τ) (ms13_0 t) fullShare ((dat13 V c).after 0 t) from by
      unfold Dat.leavesExact; rw [liveAt13_0 t], after13_0]
  rw [show (dat13 V c).leavesExact 1 t = owns (c : Thread nD τ) (ms13_1 t) fullShare ((dat13 V c).after 1 t) from by
      unfold Dat.leavesExact; rw [liveAt13_1 t], after13_1]
  rw [show (dat13 V c).leavesExact 2 t = owns (c : Thread nD τ) (ms13_2 t) fullShare ((dat13 V c).after 2 t) from by
      unfold Dat.leavesExact; rw [liveAt13_2 t], after13_2]
  unfold outAt13 out13_2; (try dsimp only)
  iintro ⟨⟨⟨HS0, Hr⟩, Hg⟩, Ho, ⟨%d0, H0⟩, ⟨%d1, H1⟩, ⟨%d2, H2⟩⟩
  iapply ((kernelRun13 c (grid13.coords t) _ _ _ _ _ _ _ _ (hcond13_0 t) (hcond13_1 t) (iblk13 V c 0 t) (iblk13 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover13_2 c _ _ _ _ _ _ _ _ _ _ _ _ _)

/-- The library's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.R14.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 14 of @main, at the entry contents V: a 128 × 512 block times a 512 × 512 factor at f32, one grid point, the bias row added

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The left factor's row block is in its buffer at every point: it is fetched at every point. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- The right factor is in its buffer at every point: fetched at the first, its block index never moves. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The bias row likewise. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-! ## The body's branch conditions -/

/-- "This is the first block of the contraction axis" (the accumulator is zeroed), from the grid coordinates. -/
abbrev cond14_0 (i : grid14.Coords) : Prop := (Scalar.cmpi .ne (Scalar.extui (Scalar.cmpi .eq (BitVec.ofNat 32 (i 1).val) 0#32)) 0#32) = 1#1
/-- The contraction axis has one block: it holds at every point. -/
theorem hcond14_0 : ∀ t : Fin cfg14.N, cond14_0 (grid14.coords t) :=
  (by decide +kernel : ∀ t : Fin grid14.N, cond14_0 (grid14.coords t))

/-- "This is the last block of the contraction axis" (the output block is stored). -/
abbrev cond14_1 (i : grid14.Coords) : Prop := k14_cond2 i = 1#1
/-- It too holds at every point. -/
theorem hcond14_1 : ∀ t : Fin cfg14.N, cond14_1 (grid14.coords t) :=
  (by decide +kernel : ∀ t : Fin grid14.N, cond14_1 (grid14.coords t))

/-- The output block is stored at every point: no point is idle for it. -/
theorem liveAt14_3 : ∀ t : Fin cfg14.N, cfg14.idle 3 (grid14.coords t) = false := by decide +kernel

/-! ## The memrefs the body is called with -/

abbrev ms14_0 (t : Fin cfg14.N) : Memref sig .tc .vmem S128x512 .f32 := win14_0.stage (cfg14.slots t 0)
abbrev hs14_0 (t : Fin cfg14.N) : (ms14_0 t).IsWhole := hstage14_0 ((cfg14.slots t 0).cast nbuf14_0)
abbrev ms14_1 (t : Fin cfg14.N) : Memref sig .tc .vmem S512x512 .f32 := win14_1.stage (cfg14.slots t 1)
abbrev hs14_1 (t : Fin cfg14.N) : (ms14_1 t).IsWhole := hstage14_1 ((cfg14.slots t 1).cast nbuf14_1)
abbrev ms14_2 (t : Fin cfg14.N) : Memref sig .tc .vmem S1x512 .f32 := win14_2.stage (cfg14.slots t 2)
abbrev hs14_2 (t : Fin cfg14.N) : (ms14_2 t).IsWhole := hstage14_2 ((cfg14.slots t 2).cast nbuf14_2)
abbrev ms14_3 (t : Fin cfg14.N) : Memref sig .tc .vmem S128x512 .f32 := win14_3.stage (cfg14.slots t 3)
abbrev hs14_3 (t : Fin cfg14.N) : (ms14_3 t).IsWhole := hstage14_3 ((cfg14.slots t 3).cast nbuf14_3)
/-- The accumulator: a whole scoped buffer of the kernel's own, passed beside the windows. -/
abbrev scM14_0 : Memref sig .tc .vmem S128x512 .f32 := Memref.whole cc14_scratch0
/-- One buffer of the output window, through which its contents are stated (the choice does not matter). -/
abbrev VO14_3 : View sig .tc .vmem S128x512 .f32 := (Memref.whole cc14_stg3_0 : Memref sig .tc .vmem S128x512 .f32).view

/-- The region invariant with the accumulator set apart, owned at some contents. -/
theorem PhiA14_eq (c : Dev nD) :
    (Pipeline.ΦA spec14 c : sProp 𝕄)
      = iprop(iprop(iprop((∃ d, owns (c : Thread nD τ) scM14_0 fullShare d))
            ∗ Pipeline.scopedRestBut (Ix := Unit) (Name := ℕ) (U := UR sig nD τ) (Lvl := ℕ) (Val := Elt F) spec14 c [cc14_scratch0])
          ∗ (∃ r, prngReg c r)) := by
  unfold Pipeline.ΦA; rw [scopedRest14_split]; simp only [scM14_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun14 (c : Dev nD) (i : grid14.Coords)
    (arg2 : Memref sig .tc .vmem S128x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond14_0 i) (hc1 : cond14_1 i)
    (x0 : Vec F S128x512 .f32) (x1 : Vec F S512x512 .f32) (x2 : Vec F S1x512 .f32) :
    { L3 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc14__matmul_kernel i arg2 harg2 arg3 harg3 arg4 harg4 arg5 harg5 arg6 harg6) K } := by
  refine ⟨?_, fun E K => ?run⟩
  case run =>
    simp only [cc14__matmul_kernel_eq_skeleton]; unfold cc14__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover14_3 (c : Dev nD) (i : grid14.Coords)
    (arg2 : Memref sig .tc .vmem S128x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond14_0 i) (hc1 : cond14_1 i)
    (x0 : Vec F S128x512 .f32) (x1 : Vec F S512x512 .f32) (x2 : Vec F S1x512 .f32) (y : S128x512.Idx) :
    ∃ pc ∈ (kernelRun14 c i arg2 harg2 arg3 harg3 arg4 harg4 arg5 harg5 arg6 harg6 hc0 hc1 x0 x1 x2).1, y ∈ pc.1.set :=
  View.cover_of_tiledL (kernelRun14 c i arg2 harg2 arg3 harg3 arg4 harg4 arg5 harg5 arg6 harg6 hc0 hc1 x0 x1 x2).1 S128x512.size (by sl_kernel_rfl) y

/-- What the body leaves in the output buffer: its pieces read back. -/
def out14_3 (c : Dev nD) (i : grid14.Coords)
    (arg2 : Memref sig .tc .vmem S128x512 .f32) (harg2 : arg2.IsWhole) (arg3 : Memref sig .tc .vmem S512x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond14_0 i) (hc1 : cond14_1 i)
    (x0 : Vec F S128x512 .f32) (x1 : Vec F S512x512 .f32) (x2 : Vec F S1x512 .f32) : Vec F S128x512 .f32 :=
  VO14_3.read (Elt F) (VO14_3.writes (Elt F) VO14_3.junk (kernelRun14 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => out14_3 c (grid14.coords t) (ms14_0 t) (hs14_0 t) (ms14_1 t) (hs14_1 t) (ms14_2 t) (hs14_2 t) (ms14_3 t) (hs14_3 t) scM14_0 (Memref.isWhole_whole _)
        (hcond14_0 t) (hcond14_1 t) (iblk14 V c 0 t) (iblk14 V c 1 t) (iblk14 V c 2 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem Phi_first14 (c : Dev nD) : (dat14 V c).Φ 0 = Pipeline.ΦA spec14 c := by
  dsimp only [dat14]

theorem Phi_last14 (c : Dev nD) : (dat14 V c).Φ (Fin.last cfg14.N) ⊢ Pipeline.ΦA spec14 c := by
  rw [show (dat14 V c).Φ (Fin.last cfg14.N) = Pipeline.ΦA spec14 c from by dsimp only [dat14]]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t
    = out14_3 c (grid14.coords t) (ms14_0 t) (hs14_0 t) (ms14_1 t) (hs14_1 t) (ms14_2 t) (hs14_2 t) (ms14_3 t) (hs14_3 t) scM14_0 (Memref.isWhole_whole _)
        (hcond14_0 t) (hcond14_1 t) (iblk14 V c 0 t) (iblk14 V c 1 t) (iblk14 V c 2 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d

/-! ## The body obligation, at a generic point -/

/-- What the body is called with at point t, the windows one by one, -/
def bodyPre14 (c : Dev nD) (t : Fin cfg14.N) : sProp 𝕄 :=
  iprop((dat14 V c).Φ t.castSucc ∗ (dat14 V c).owesAt () t.castSucc
    ∗ (∃ d, owns (c : Thread nD τ) (ms14_0 t) fullShare ((dat14 V c).before 0 t d))
    ∗ (∃ d, owns (c : Thread nD τ) (ms14_1 t) fullShare ((dat14 V c).before 1 t d))
    ∗ (∃ d, owns (c : Thread nD τ) (ms14_2 t) fullShare ((dat14 V c).before 2 t d))
    ∗ (∃ d, owns (c : Thread nD τ) (ms14_3 t) fullShare ((dat14 V c).before 3 t d)))

/-- and what it returns. -/
def bodyPost14 (c : Dev nD) (t : Fin cfg14.N) : sProp 𝕄 :=
  iprop((dat14 V c).Φ t.succ ∗ (dat14 V c).owesAt () t.succ
    ∗ (dat14 V c).leavesExact 0 t
    ∗ (dat14 V c).leavesExact 1 t
    ∗ (dat14 V c).leavesExact 2 t
    ∗ (dat14 V c).leavesExact 3 t)

set_option maxHeartbeats 4800000 in
/-- The body at any point: the inputs' memrefs hold their blocks, both conditions hold, so the run applies; the
    invariant lends the accumulator at some contents and takes it back at some contents; the core owes nothing. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2]
  rw [show (dat14 V c).owesAt () t.succ = (dat14 V c).owesAt () t.castSucc from rfl]
  rw [show (dat14 V c).Φ t.succ = Pipeline.ΦA spec14 c from by dsimp only [dat14],
    show (dat14 V c).Φ t.castSucc = Pipeline.ΦA spec14 c from by dsimp only [dat14], PhiA14_eq]
  rw [show (dat14 V c).leavesExact 0 t = owns (c : Thread nD τ) (ms14_0 t) fullShare ((dat14 V c).after 0 t) from rfl, after14_0]
  rw [show (dat14 V c).leavesExact 1 t = owns (c : Thread nD τ) (ms14_1 t) fullShare ((dat14 V c).after 1 t) from rfl, after14_1]
  rw [show (dat14 V c).leavesExact 2 t = owns (c : Thread nD τ) (ms14_2 t) fullShare ((dat14 V c).after 2 t) from rfl, after14_2]
  rw [show (dat14 V c).leavesExact 3 t = owns (c : Thread nD τ) (ms14_3 t) fullShare ((dat14 V c).after 3 t) from by
      unfold Dat.leavesExact; rw [liveAt14_3 t], after14_3]
  unfold out14_3; (try dsimp only)
  iintro ⟨⟨⟨HS, HR⟩, Hg⟩, Ho, ⟨%d0, H0⟩, ⟨%d1, H1⟩, ⟨%d2, H2⟩, ⟨%d3, H3⟩⟩
  iapply ((kernelRun14 c (grid14.coords t) _ _ _ _ _ _ _ _ _ _ (hcond14_0 t) (hcond14_1 t) (iblk14 V c 0 t) (iblk14 V c 1 t) (iblk14 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover14_3 c _ _ _ _ _ _ _ _ _ _ _ _ _ _ _ _)

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.R15.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 15 of @main, at the entry contents V: a 128 × 128 block times a 128 × 512 factor at f32, one grid point, the bias row added and the sum clamped below at zero

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The left factor's row block is in its buffer at every point: it is fetched at every point. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

/-- The right factor is in its buffer at every point: fetched at the first, its block index never moves. -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- The bias row likewise. -/
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-! ## The body's branch conditions -/

/-- "This is the first block of the contraction axis" (the accumulator is zeroed), from the grid coordinates. -/
abbrev cond15_0 (i : grid15.Coords) : Prop := (Scalar.cmpi .ne (Scalar.extui (Scalar.cmpi .eq (BitVec.ofNat 32 (i 1).val) 0#32)) 0#32) = 1#1
/-- The contraction axis has one block: it holds at every point. -/
theorem hcond15_0 : ∀ t : Fin cfg15.N, cond15_0 (grid15.coords t) :=
  (by decide +kernel : ∀ t : Fin grid15.N, cond15_0 (grid15.coords t))

/-- "This is the last block of the contraction axis" (the output block is stored). -/
abbrev cond15_1 (i : grid15.Coords) : Prop := k15_cond2 i = 1#1
/-- It too holds at every point. -/
theorem hcond15_1 : ∀ t : Fin cfg15.N, cond15_1 (grid15.coords t) :=
  (by decide +kernel : ∀ t : Fin grid15.N, cond15_1 (grid15.coords t))

/-- The output block is stored at every point: no point is idle for it. -/
theorem liveAt15_3 : ∀ t : Fin cfg15.N, cfg15.idle 3 (grid15.coords t) = false := by decide +kernel

/-! ## The memrefs the body is called with -/

abbrev ms15_0 (t : Fin cfg15.N) : Memref sig .tc .vmem S128x128 .f32 := win15_0.stage (cfg15.slots t 0)
abbrev hs15_0 (t : Fin cfg15.N) : (ms15_0 t).IsWhole := hstage15_0 ((cfg15.slots t 0).cast nbuf15_0)
abbrev ms15_1 (t : Fin cfg15.N) : Memref sig .tc .vmem S128x512 .f32 := win15_1.stage (cfg15.slots t 1)
abbrev hs15_1 (t : Fin cfg15.N) : (ms15_1 t).IsWhole := hstage15_1 ((cfg15.slots t 1).cast nbuf15_1)
abbrev ms15_2 (t : Fin cfg15.N) : Memref sig .tc .vmem S1x512 .f32 := win15_2.stage (cfg15.slots t 2)
abbrev hs15_2 (t : Fin cfg15.N) : (ms15_2 t).IsWhole := hstage15_2 ((cfg15.slots t 2).cast nbuf15_2)
abbrev ms15_3 (t : Fin cfg15.N) : Memref sig .tc .vmem S128x512 .f32 := win15_3.stage (cfg15.slots t 3)
abbrev hs15_3 (t : Fin cfg15.N) : (ms15_3 t).IsWhole := hstage15_3 ((cfg15.slots t 3).cast nbuf15_3)
/-- The accumulator: a whole scoped buffer of the kernel's own, passed beside the windows. -/
abbrev scM15_0 : Memref sig .tc .vmem S128x512 .f32 := Memref.whole cc15_scratch0
/-- One buffer of the output window, through which its contents are stated (the choice does not matter). -/
abbrev VO15_3 : View sig .tc .vmem S128x512 .f32 := (Memref.whole cc15_stg3_0 : Memref sig .tc .vmem S128x512 .f32).view

/-- The region invariant with the accumulator set apart, owned at some contents. -/
theorem PhiA15_eq (c : Dev nD) :
    (Pipeline.ΦA spec15 c : sProp 𝕄)
      = iprop(iprop(iprop((∃ d, owns (c : Thread nD τ) scM15_0 fullShare d))
            ∗ Pipeline.scopedRestBut (Ix := Unit) (Name := ℕ) (U := UR sig nD τ) (Lvl := ℕ) (Val := Elt F) spec15 c [cc15_scratch0])
          ∗ (∃ r, prngReg c r)) := by
  unfold Pipeline.ΦA; rw [scopedRest15_split]; simp only [scM15_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun15 (c : Dev nD) (i : grid15.Coords)
    (arg2 : Memref sig .tc .vmem S128x128 .f32) (harg2 : arg2.IsWhole) (arg3 : Memref sig .tc .vmem S128x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond15_0 i) (hc1 : cond15_1 i)
    (x0 : Vec F S128x128 .f32) (x1 : Vec F S128x512 .f32) (x2 : Vec F S1x512 .f32) :
    { L3 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc15__matmul_kernel i arg2 harg2 arg3 harg3 arg4 harg4 arg5 harg5 arg6 harg6) K } := by
  refine ⟨?_, fun E K => ?run⟩
  case run =>
    simp only [cc15__matmul_kernel_eq_skeleton]; unfold cc15__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover15_3 (c : Dev nD) (i : grid15.Coords)
    (arg2 : Memref sig .tc .vmem S128x128 .f32) (harg2 : arg2.IsWhole) (arg3 : Memref sig .tc .vmem S128x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond15_0 i) (hc1 : cond15_1 i)
    (x0 : Vec F S128x128 .f32) (x1 : Vec F S128x512 .f32) (x2 : Vec F S1x512 .f32) (y : S128x512.Idx) :
    ∃ pc ∈ (kernelRun15 c i arg2 harg2 arg3 harg3 arg4 harg4 arg5 harg5 arg6 harg6 hc0 hc1 x0 x1 x2).1, y ∈ pc.1.set :=
  View.cover_of_tiledL (kernelRun15 c i arg2 harg2 arg3 harg3 arg4 harg4 arg5 harg5 arg6 harg6 hc0 hc1 x0 x1 x2).1 S128x512.size (by sl_kernel_rfl) y

/-- What the body leaves in the output buffer: its pieces read back. -/
def out15_3 (c : Dev nD) (i : grid15.Coords)
    (arg2 : Memref sig .tc .vmem S128x128 .f32) (harg2 : arg2.IsWhole) (arg3 : Memref sig .tc .vmem S128x512 .f32) (harg3 : arg3.IsWhole)
    (arg4 : Memref sig .tc .vmem S1x512 .f32) (harg4 : arg4.IsWhole) (arg5 : Memref sig .tc .vmem S128x512 .f32) (harg5 : arg5.IsWhole)
    (arg6 : Memref sig .tc .vmem S128x512 .f32) (harg6 : arg6.IsWhole) (hc0 : cond15_0 i) (hc1 : cond15_1 i)
    (x0 : Vec F S128x128 .f32) (x1 : Vec F S128x512 .f32) (x2 : Vec F S1x512 .f32) : Vec F S128x512 .f32 :=
  VO15_3.read (Elt F) (VO15_3.writes (Elt F) VO15_3.junk (kernelRun15 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 c (grid15.coords t) (ms15_0 t) (hs15_0 t) (ms15_1 t) (hs15_1 t) (ms15_2 t) (hs15_2 t) (ms15_3 t) (hs15_3 t) scM15_0 (Memref.isWhole_whole _)
        (hcond15_0 t) (hcond15_1 t) (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem Phi_first15 (c : Dev nD) : (dat15 V c).Φ 0 = Pipeline.ΦA spec15 c := by
  dsimp only [dat15]

theorem Phi_last15 (c : Dev nD) : (dat15 V c).Φ (Fin.last cfg15.N) ⊢ Pipeline.ΦA spec15 c := by
  rw [show (dat15 V c).Φ (Fin.last cfg15.N) = Pipeline.ΦA spec15 c from by dsimp only [dat15]]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t
    = out15_3 c (grid15.coords t) (ms15_0 t) (hs15_0 t) (ms15_1 t) (hs15_1 t) (ms15_2 t) (hs15_2 t) (ms15_3 t) (hs15_3 t) scM15_0 (Memref.isWhole_whole _)
        (hcond15_0 t) (hcond15_1 t) (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-! ## The body obligation, at a generic point -/

/-- What the body is called with at point t, the windows one by one, -/
def bodyPre15 (c : Dev nD) (t : Fin cfg15.N) : sProp 𝕄 :=
  iprop((dat15 V c).Φ t.castSucc ∗ (dat15 V c).owesAt () t.castSucc
    ∗ (∃ d, owns (c : Thread nD τ) (ms15_0 t) fullShare ((dat15 V c).before 0 t d))
    ∗ (∃ d, owns (c : Thread nD τ) (ms15_1 t) fullShare ((dat15 V c).before 1 t d))
    ∗ (∃ d, owns (c : Thread nD τ) (ms15_2 t) fullShare ((dat15 V c).before 2 t d))
    ∗ (∃ d, owns (c : Thread nD τ) (ms15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t
    ∗ (dat15 V c).leavesExact 3 t)

set_option maxHeartbeats 4800000 in
/-- The body at any point: the inputs' memrefs hold their blocks, both conditions hold, so the run applies; the
    invariant lends the accumulator at some contents and takes it back at some contents; the core owes nothing. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).owesAt () t.succ = (dat15 V c).owesAt () t.castSucc from rfl]
  rw [show (dat15 V c).Φ t.succ = Pipeline.ΦA spec15 c from by dsimp only [dat15],
    show (dat15 V c).Φ t.castSucc = Pipeline.ΦA spec15 c from by dsimp only [dat15], PhiA15_eq]
  rw [show (dat15 V c).leavesExact 0 t = owns (c : Thread nD τ) (ms15_0 t) fullShare ((dat15 V c).after 0 t) from rfl, after15_0]
  rw [show (dat15 V c).leavesExact 1 t = owns (c : Thread nD τ) (ms15_1 t) fullShare ((dat15 V c).after 1 t) from rfl, after15_1]
  rw [show (dat15 V c).leavesExact 2 t = owns (c : Thread nD τ) (ms15_2 t) fullShare ((dat15 V c).after 2 t) from rfl, after15_2]
  rw [show (dat15 V c).leavesExact 3 t = owns (c : Thread nD τ) (ms15_3 t) fullShare ((dat15 V c).after 3 t) from by
      unfold Dat.leavesExact; rw [liveAt15_3 t], after15_3]
  unfold out15_3; (try dsimp only)
  iintro ⟨⟨⟨HS, HR⟩, Hg⟩, Ho, ⟨%d0, H0⟩, ⟨%d1, H1⟩, ⟨%d2, H2⟩, ⟨%d3, H3⟩⟩
  iapply ((kernelRun15 c (grid15.coords t) _ _ _ _ _ _ _ _ _ _ (hcond15_0 t) (hcond15_1 t) (iblk15 V c 0 t) (iblk15 V c 1 t) (iblk15 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover15_3 c _ _ _ _ _ _ _ _ _ _ _ _ _ _ _ _)

/-- The library's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Hand

end
-- ==== Proof.K.R16.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 16 of @main (the projection with a row softmax), at the contents `V` the region is entered with

The per-region half of the frame certificate: the windows' blocks read off the arrays as the region finds them, the
body's triple (one control case: the grid's second axis has one point, so the accumulator is zeroed, updated and
read out at every point), the proof data, and the body obligation. The accumulator is rewritten whole before it is
read at every point, so the invariant carries no contents for it. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- Input window 0's current staging buffer holds its block at every point, fetched there or not, for any proof
    data whose array is `V`'s and whose body leaves the block in place: unfetched, the block index has not moved;
    the window is uncut and never idle. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

/-- Input window 1's current staging buffer holds its block at every point, fetched there or not, for any proof
    data whose array is `V`'s and whose body leaves the block in place: unfetched, the block index has not moved;
    the window is uncut and never idle. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- Input window 2's current staging buffer holds its block at every point, fetched there or not, for any proof
    data whose array is `V`'s and whose body leaves the block in place: unfetched, the block index has not moved;
    the window is uncut and never idle. -/
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-! ## The body's branch conditions: both hold at every point -/

/-- The condition of the body's first conditional (the accumulator's reset), from the grid coordinates. -/
abbrev cond16_0 (i : grid16.Coords) : Prop := (Scalar.cmpi .ne (Scalar.extui (Scalar.cmpi .eq (BitVec.ofNat 32 (i 1).val) 0#32)) 0#32) = 1#1
/-- It holds at every point: the second axis has the one coordinate 0. -/
theorem hcond16_0 : ∀ t : Fin cfg16.N, cond16_0 (grid16.coords t) :=
  (by decide +kernel : ∀ t : Fin grid16.N, cond16_0 (grid16.coords t))

/-- The condition of the body's second conditional (the read-out), from the grid coordinates. -/
abbrev cond16_1 (i : grid16.Coords) : Prop := k16_cond2 i = 1#1
/-- It holds at every point, for the same reason. -/
theorem hcond16_1 : ∀ t : Fin cfg16.N, cond16_1 (grid16.coords t) :=
  (by decide +kernel : ∀ t : Fin grid16.N, cond16_1 (grid16.coords t))

/-! ## No window is idle at any point -/

theorem liveAt16_0 : ∀ t : Fin cfg16.N, cfg16.idle 0 (grid16.coords t) = false := by decide +kernel
theorem liveAt16_1 : ∀ t : Fin cfg16.N, cfg16.idle 1 (grid16.coords t) = false := by decide +kernel
theorem liveAt16_2 : ∀ t : Fin cfg16.N, cfg16.idle 2 (grid16.coords t) = false := by decide +kernel
theorem liveAt16_3 : ∀ t : Fin cfg16.N, cfg16.idle 3 (grid16.coords t) = false := by decide +kernel
theorem liveAt16_4 : ∀ t : Fin cfg16.N, cfg16.idle 4 (grid16.coords t) = false := by decide +kernel

/-! ## The memrefs the body is called with -/

/-- One staging buffer of each output window, through which its contents are stated (the choice does not matter:
    a covering list of writes reads the same through any view). -/
abbrev VO16_3 : View sig .tc .vmem S128x1 .f32 := (Memref.whole cc16_stg3_0 : Memref sig .tc .vmem S128x1 .f32).view
abbrev VO16_4 : View sig .tc .vmem S128x1 .f32 := (Memref.whole cc16_stg4_0 : Memref sig .tc .vmem S128x1 .f32).view
/-- Each window's current staging memref at point `t`, spelled as the pipeline passes it, and its wholeness. -/
abbrev ms16_0 (t : Fin cfg16.N) : Memref sig .tc .vmem S128x512 .f32 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S512x1 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x1 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S128x1 .f32 := win16_3.stage (cfg16.slots t 3)
abbrev hs16_3 (t : Fin cfg16.N) : (ms16_3 t).IsWhole := hstage16_3 ((cfg16.slots t 3).cast nbuf16_3)
abbrev ms16_4 (t : Fin cfg16.N) : Memref sig .tc .vmem S128x1 .f32 := win16_4.stage (cfg16.slots t 4)
abbrev hs16_4 (t : Fin cfg16.N) : (ms16_4 t).IsWhole := hstage16_4 ((cfg16.slots t 4).cast nbuf16_4)
/-- The accumulator: a whole scoped buffer of the kernel's own, passed beside the windows. -/
abbrev scM16_0 : Memref sig .tc .vmem S128x1 .f32 := Memref.whole cc16_scratch0

/-- The class's invariant with the accumulator as a memref owned at some contents, the other scoped buffers
    unopened, and the generator register at some state: what the body obligation hands the run and takes back. -/
theorem PhiA16_eq (c : Dev nD) :
    (Pipeline.ΦA spec16 c : sProp 𝕄)
      = iprop(iprop(iprop((∃ d, owns (c : Thread nD τ) scM16_0 fullShare d))
          ∗ Pipeline.scopedRestBut (Ix := Unit) (Name := ℕ) (U := UR sig nD τ) (Lvl := ℕ) (Val := Elt F) spec16 c [cc16_scratch0]) ∗ (∃ r, prngReg c r)) := by
  unfold Pipeline.ΦA; rw [scopedRest16_split]; simp only [scM16_0, owns_whole]; try rfl

/-! ## The body's triple -/

set_option maxHeartbeats 4000000 in
/-- What the body's stores leave in each output's staging memref and in the accumulator, as pieces (last first), with
    the proof that on whole memrefs — the inputs' at their contents, the outputs' and the accumulator at anything — the
    body runs to the continuation holding the inputs' as they were and each of the other three with its pieces
    written. Both conditionals are decided by the hypotheses; the pieces are the witness the run finds. -/
noncomputable def kernelRun16 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) :
    Σ' (L3 : List (View.Piece (Elt F) S128x1 .f32)) (L4 : List (View.Piece (Elt F) S128x1 .f32)), { LS0 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0)) -∗ K ⟨⟩))
          ⊢ wp frame (wpE (defs₀ (F := F)) Variants.none c none) E (cc16__proj_softmax_kernel i arg2 harg2 arg3 harg3 arg4 harg4 arg5 harg5 arg6 harg6 arg7 harg7) K } := by
  refine ⟨?_, ?_, ?_, fun E K => ?run⟩
  case run =>
    simp only [cc16__proj_softmax_kernel_eq_skeleton]; unfold cc16__proj_softmax_kernel_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- The pieces for output window 3 tile its block (one store of the whole block), so they cover it. -/
theorem cover16_3 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) (y : S128x1.Idx) :
    ∃ pc ∈ (kernelRun16 c i arg2 harg2 arg3 harg3 arg4 harg4 arg5 harg5 arg6 harg6 arg7 harg7 hc0 hc1 x0 x1 x2).1, y ∈ pc.1.set :=
  View.cover_of_tiledL (kernelRun16 c i arg2 harg2 arg3 harg3 arg4 harg4 arg5 harg5 arg6 harg6 arg7 harg7 hc0 hc1 x0 x1 x2).1 S128x1.size (by sl_kernel_rfl) y

/-- What the body leaves in output window 3's staging buffer: its pieces read back over junk. -/
def out16_3 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) : Vec F S128x1 .f32 :=
  VO16_3.read (Elt F) (VO16_3.writes (Elt F) VO16_3.junk (kernelRun16 c i arg2 harg2 arg3 harg3 arg4 harg4 arg5 harg5 arg6 harg6 arg7 harg7 hc0 hc1 x0 x1 x2).1)

/-- The pieces for output window 4 tile its block (one store of the whole block), so they cover it. -/
theorem cover16_4 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) (y : S128x1.Idx) :
    ∃ pc ∈ (kernelRun16 c i arg2 harg2 arg3 harg3 arg4 harg4 arg5 harg5 arg6 harg6 arg7 harg7 hc0 hc1 x0 x1 x2).2.1, y ∈ pc.1.set :=
  View.cover_of_tiledL (kernelRun16 c i arg2 harg2 arg3 harg3 arg4 harg4 arg5 harg5 arg6 harg6 arg7 harg7 hc0 hc1 x0 x1 x2).2.1 S128x1.size (by sl_kernel_rfl) y

/-- What the body leaves in output window 4's staging buffer: its pieces read back over junk. -/
def out16_4 (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) : Vec F S128x1 .f32 :=
  VO16_4.read (Elt F) (VO16_4.writes (Elt F) VO16_4.junk (kernelRun16 c i arg2 harg2 arg3 harg3 arg4 harg4 arg5 harg5 arg6 harg6 arg7 harg7 hc0 hc1 x0 x1 x2).2.1)

/-! ## The pipeline's proof data -/

/-- The proof data of pipeline 16 on core `c`: the arrays as the region finds them (`V`); after the body at point
    `t` each input's buffer at its block and each output's at what the run leaves from the input blocks; the
    invariant the class's (the scoped rest and the generator register, at anything); nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => out16_3 c (grid16.coords t) (ms16_0 t) (hs16_0 t) (ms16_1 t) (hs16_1 t) (ms16_2 t) (hs16_2 t) (ms16_3 t) (hs16_3 t) (ms16_4 t) (hs16_4 t) scM16_0 (Memref.isWhole_whole _) (hcond16_0 t) (hcond16_1 t) (iblk16 V c 0 t) (iblk16 V c 1 t) (iblk16 V c 2 t)
    | ⟨4, _⟩ => out16_4 c (grid16.coords t) (ms16_0 t) (hs16_0 t) (ms16_1 t) (hs16_1 t) (ms16_2 t) (hs16_2 t) (ms16_3 t) (hs16_3 t) (ms16_4 t) (hs16_4 t) scM16_0 (Memref.isWhole_whole _) (hcond16_0 t) (hcond16_1 t) (iblk16 V c 0 t) (iblk16 V c 1 t) (iblk16 V c 2 t)
  Φ _ := Pipeline.ΦA spec16 c
  q _ := fullShare
  owed _ := 0

/-- The proof data's arrays are the region-entry contents. -/
theorem A_eq16 (c : Dev nD) (w : Fin cfg16.W) : (dat16 V c).A w = V c (Pipeline.arrRef spec16 w) := by
  dsimp only [dat16]

/-- The invariant before the first point is the class's, -/
theorem Phi_first16 (c : Dev nD) : (dat16 V c).Φ 0 = Pipeline.ΦA spec16 c := by
  dsimp only [dat16]

/-- and after the last point it gives the class's back. -/
theorem Phi_last16 (c : Dev nD) : (dat16 V c).Φ (Fin.last cfg16.N) ⊢ Pipeline.ΦA spec16 c := by
  dsimp only [dat16]; exact Idealize.SL.BI.Entails.refl _

/-- What the body leaves, window by window. -/
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = out16_3 c (grid16.coords t) (ms16_0 t) (hs16_0 t) (ms16_1 t) (hs16_1 t) (ms16_2 t) (hs16_2 t) (ms16_3 t) (hs16_3 t) (ms16_4 t) (hs16_4 t) scM16_0 (Memref.isWhole_whole _) (hcond16_0 t) (hcond16_1 t) (iblk16 V c 0 t) (iblk16 V c 1 t) (iblk16 V c 2 t) := by dsimp only [dat16]
theorem after16_4 (c : Dev nD) (t : Fin cfg16.N) : (dat16 V c).after 4 t = out16_4 c (grid16.coords t) (ms16_0 t) (hs16_0 t) (ms16_1 t) (hs16_1 t) (ms16_2 t) (hs16_2 t) (ms16_3 t) (hs16_3 t) (ms16_4 t) (hs16_4 t) scM16_0 (Memref.isWhole_whole _) (hcond16_0 t) (hcond16_1 t) (iblk16 V c 0 t) (iblk16 V c 1 t) (iblk16 V c 2 t) := by dsimp only [dat16]

/-- Each input's current staging buffer holds its block at every point, fetched there or not. -/
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-! ## The body obligation, at a generic point -/

/-- What the body is called with at point `t` (the obligation's precondition, the windows one by one), -/
def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d))
    ∗ (∃ d, owns (c : Thread nD τ) (ms16_4 t) fullShare ((dat16 V c).before 4 t d)))

/-- and what it returns. -/
def bodyPost16 (c : Dev nD) (t : Fin cfg16.N) : sProp 𝕄 :=
  iprop((dat16 V c).Φ t.succ ∗ (dat16 V c).owesAt () t.succ
    ∗ (dat16 V c).leavesExact 0 t
    ∗ (dat16 V c).leavesExact 1 t
    ∗ (dat16 V c).leavesExact 2 t
    ∗ (dat16 V c).leavesExact 3 t
    ∗ (dat16 V c).leavesExact 4 t)

set_option maxHeartbeats 4000000 in
/-- The body at any point: the inputs' memrefs hold their blocks; the invariant hands the body the accumulator at some
    contents (the other scoped buffers and the generator register pass through unread) and takes it back at some
    contents; each output's buffer ends at its pieces written, which cover it; the core owes nothing throughout. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).owesAt () t.succ = (dat16 V c).owesAt () t.castSucc from rfl]
  rw [show (dat16 V c).Φ t.succ = Pipeline.ΦA spec16 c from rfl, show (dat16 V c).Φ t.castSucc = Pipeline.ΦA spec16 c from rfl, PhiA16_eq]
  rw [show (dat16 V c).leavesExact 0 t = owns (c : Thread nD τ) (ms16_0 t) fullShare ((dat16 V c).after 0 t) from by
      unfold Dat.leavesExact; rw [liveAt16_0 t], after16_0]
  rw [show (dat16 V c).leavesExact 1 t = owns (c : Thread nD τ) (ms16_1 t) fullShare ((dat16 V c).after 1 t) from by
      unfold Dat.leavesExact; rw [liveAt16_1 t], after16_1]
  rw [show (dat16 V c).leavesExact 2 t = owns (c : Thread nD τ) (ms16_2 t) fullShare ((dat16 V c).after 2 t) from by
      unfold Dat.leavesExact; rw [liveAt16_2 t], after16_2]
  rw [show (dat16 V c).leavesExact 3 t = owns (c : Thread nD τ) (ms16_3 t) fullShare ((dat16 V c).after 3 t) from by
      unfold Dat.leavesExact; rw [liveAt16_3 t], after16_3]
  rw [show (dat16 V c).leavesExact 4 t = owns (c : Thread nD τ) (ms16_4 t) fullShare ((dat16 V c).after 4 t) from by
      unfold Dat.leavesExact; rw [liveAt16_4 t], after16_4]
  unfold out16_3 out16_4; (try dsimp only)
  iintro ⟨⟨⟨HS0, Hrest⟩, Hg⟩, Ho, ⟨%d0, H0⟩, ⟨%d1, H1⟩, ⟨%d2, H2⟩, ⟨%d3, H3⟩, ⟨%d4, H4⟩⟩
  iapply ((kernelRun16 c (grid16.coords t) _ _ _ _ _ _ _ _ _ _ _ _ (hcond16_0 t) (hcond16_1 t) (iblk16 V c 0 t) (iblk16 V c 1 t) (iblk16 V c 2 t)).2.2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, ⟨%e3, H3⟩, ⟨%e4, H4⟩, ⟨%es0, HS0⟩⟩
  isplitl [HS0 Hrest Hg]
  · isplitl [HS0 Hrest]
    · isplitl [HS0]
      · unfold owns; iexists _; iexists _; isplitr
        swap; · iexact HS0
        ipureintro; rfl
      iexact Hrest
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover16_3 c _ _ _ _ _ _ _ _ _ _ _ _ _ _ _ _ _ _)
  unfold owns; iexists _; isplitr
  swap; · iexact H4
  ipureintro; exact View.read_writes_of_cover _ _ _ _ _ (cover16_4 c _ _ _ _ _ _ _ _ _ _ _ _ _ _ _ _ _ _)

/-- The library's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Hand

end
-- ==== Proof.K.R17.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

/-! # Region 17 of @main, at the entry contents V: a 128 × 128 block times a 128 × 1 factor at f32, one grid point, the bias row added

A row block of the left factor times the whole right factor, accumulated in a buffer of the kernel's own over
the blocks of the contraction axis and read out through the region's last payload, which adds the bias row.
The contraction axis is a single block, so at every grid point the accumulator is zeroed, receives the block's
product and is read out: both branch conditions hold at every point, one control case. The accumulator is
rewritten before it is read at each point, so the region invariant need not name its contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The left factor's row block is in its buffer at every point: it is fetched at every point. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)

/-- The right factor is in its buffer at every point: fetched at the first, its block index never moves. -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The bias row likewise. -/
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)

/-! ## The body's branch conditions -/

/-- "This is the first block of the contraction axis" (the accumulator is zeroed), from the grid coordinates. -/
abbrev cond17_0 (i : grid17.Coords) : Prop := (Scalar.cmpi .ne (Scalar.extui (Scalar.cmpi .eq (BitVec.ofNat 32 (i 1).val) 0#32)) 0#32) = 1#1
/-- The contraction axis has one block: it holds at every point. -/
theorem hcond17_0 : ∀ t : Fin cfg17.N, cond17_0 (grid17.coords t) :=
  (by decide +kernel : ∀ t : Fin grid17.N, cond17_0 (grid17.coords t))

/-- "This is the last block of the contraction axis" (the output block is stored). -/
abbrev cond17_1 (i : grid17.Coords) : Prop := k17_cond2 i = 1#1
/-- It too holds at every point. -/
theorem hcond17_1 : ∀ t : Fin cfg17.N, cond17_1 (grid17.coords t) :=
  (by decide +kernel : ∀ t : Fin grid17.N, cond17_1 (grid17.coords t))

/-- The output block is stored at every point: no point is idle for it. -/
theorem liveAt17_3 : ∀ t : Fin cfg17.N, cfg17.idle 3 (grid17.coords t) = false := by decide +kernel

/-! ## The memrefs the body is called with -/

abbrev ms17_0 (t : Fin cfg17.N) : Memref sig .tc .vmem S128x128 .f32 := win17_0.stage (cfg17.slots t 0)
abbrev hs17_0 (t : Fin cfg17.N) : (ms17_0 t).IsWhole := hstage17_0 ((cfg17.slots t 0).cast nbuf17_0)
abbrev ms17_1 (t : Fin cfg17.N) : Memref sig .tc .vmem S128x1 .f32 := win17_1.stage (cfg17.slots t 1)
abbrev hs17_1 (t : Fin cfg17.N) : (ms17_1 t).IsWhole := hstage17_1 ((cfg17.slots t 1).cast nbuf17_1)
abbrev ms17_2 (t : Fin cfg17.N) : Memref sig .tc .vmem S1x1 .f32 := win17_2.stage (cfg17.slots t 2)
abbrev hs17_2 (t : Fin cfg17.N) : (ms17_2 t).IsWhole := hstage17_2 ((cfg17.slots t 2).cast nbuf17_2)
abbrev ms17_3 (t : Fin cfg17.N) : Memref sig .tc .vmem S128x1 .f32 := win17_3.stage (cfg17.slots t 3)
abbrev hs17_3 (t : Fin cfg17.N) : (ms17_3 t).IsWhole := hstage17_3 ((cfg17.slots t 3).cast nbuf17_3)
/-- The accumulator: a whole scoped buffer of the kernel's own, passed beside the windows. -/
abbrev scM17_0 : Memref sig .tc .vmem S128x1 .f32 := Memref.whole cc17_scratch0
/-- One buffer of the output window, through which its contents are stated (the choice does not matter). -/
abbrev VO17_3 : View sig .tc .vmem S128x1 .f32 := (Memref.whole cc17_stg3_0 : Memref sig .tc .vmem S128x1 .f32).view

/-- The region invariant with the accumulator set apart, owned at some contents. -/
theorem PhiA17_eq (c : Dev nD) :
    (Pipeline.ΦA spec17 c : sProp 𝕄)
      = iprop(iprop(iprop((∃ d, owns (c : Thread nD τ) scM17_0 fullShare d))
            ∗ Pipeline.scopedRestBut (Ix := Unit) (Name := ℕ) (U := UR sig nD τ) (Lvl := ℕ) (Val := Elt F) spec17 c [cc17_scratch0])
          ∗ (∃ r, prngReg c r)) := by
  unfold Pipeline.ΦA; rw [scopedRest17_split]; simp only [scM17_0, owns_whole]; try rfl

/-! ## The body on any memrefs -/

set_option maxHeartbeats 1000000 in
/-- The pieces the body's stores leave in the output buffer (last first), WITH the proof that on whole memrefs —
    the three inputs at their contents, the output and the accumulator at anything — the body runs to the
    continuation holding the inputs as they were, the output with its pieces written and the accumulator at some
    contents. Both branches are taken. -/
noncomputable def kernelRun17 (c : Dev nD) (i : grid17.Coords)
    (arg2 : Memref sig .tc .vmem S128x128 .f32) (harg2 : arg2.IsWhole) (arg3 : Memref sig .tc .vmem S128x1 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole) (hc0 : cond17_0 i) (hc1 : cond17_1 i)
    (x0 : Vec F S128x128 .f32) (x1 : Vec F S128x1 .f32) (x2 : Vec F S1x1 .f32) :
    { L3 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d)) -∗ K ⟨⟩))
          ⊢ wp frame (wpE (defs₀ (F := F)) Variants.none c none) E (cc17__matmul_kernel i arg2 harg2 arg3 harg3 arg4 harg4 arg5 harg5 arg6 harg6) K } := by
  refine ⟨?_, fun E K => ?run⟩
  case run =>
    simp only [cc17__matmul_kernel_eq_skeleton]; unfold cc17__matmul_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _, _; isplitr
    swap; · iexact HS
    ipureintro; rfl

/-- The output's pieces tile its block (one store of the whole block), so they cover it. -/
theorem cover17_3 (c : Dev nD) (i : grid17.Coords)
    (arg2 : Memref sig .tc .vmem S128x128 .f32) (harg2 : arg2.IsWhole) (arg3 : Memref sig .tc .vmem S128x1 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole) (hc0 : cond17_0 i) (hc1 : cond17_1 i)
    (x0 : Vec F S128x128 .f32) (x1 : Vec F S128x1 .f32) (x2 : Vec F S1x1 .f32) (y : S128x1.Idx) :
    ∃ pc ∈ (kernelRun17 c i arg2 harg2 arg3 harg3 arg4 harg4 arg5 harg5 arg6 harg6 hc0 hc1 x0 x1 x2).1, y ∈ pc.1.set :=
  View.cover_of_tiledL (kernelRun17 c i arg2 harg2 arg3 harg3 arg4 harg4 arg5 harg5 arg6 harg6 hc0 hc1 x0 x1 x2).1 S128x1.size (by sl_kernel_rfl) y

/-- What the body leaves in the output buffer: its pieces read back. -/
def out17_3 (c : Dev nD) (i : grid17.Coords)
    (arg2 : Memref sig .tc .vmem S128x128 .f32) (harg2 : arg2.IsWhole) (arg3 : Memref sig .tc .vmem S128x1 .f32) (harg3 : arg3.IsWhole)
    (arg4 : Memref sig .tc .vmem S1x1 .f32) (harg4 : arg4.IsWhole) (arg5 : Memref sig .tc .vmem S128x1 .f32) (harg5 : arg5.IsWhole)
    (arg6 : Memref sig .tc .vmem S128x1 .f32) (harg6 : arg6.IsWhole) (hc0 : cond17_0 i) (hc1 : cond17_1 i)
    (x0 : Vec F S128x128 .f32) (x1 : Vec F S128x1 .f32) (x2 : Vec F S1x1 .f32) : Vec F S128x1 .f32 :=
  VO17_3.read (Elt F) (VO17_3.writes (Elt F) VO17_3.junk (kernelRun17 c i arg2 harg2 arg3 harg3 arg4 harg4 arg5 harg5 arg6 harg6 hc0 hc1 x0 x1 x2).1)

/-! ## The pipeline's proof data -/

/-- The proof data of the region on core c: the arrays as the region finds them; after the body at point t each
    input's buffer at its block and the output's at what the body leaves of the three input blocks; the invariant
    the scoped rest and the generator register, untouched; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => out17_3 c (grid17.coords t) (ms17_0 t) (hs17_0 t) (ms17_1 t) (hs17_1 t) (ms17_2 t) (hs17_2 t) (ms17_3 t) (hs17_3 t) scM17_0 (Memref.isWhole_whole _)
        (hcond17_0 t) (hcond17_1 t) (iblk17 V c 0 t) (iblk17 V c 1 t) (iblk17 V c 2 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem Phi_first17 (c : Dev nD) : (dat17 V c).Φ 0 = Pipeline.ΦA spec17 c := by
  dsimp only [dat17]

theorem Phi_last17 (c : Dev nD) : (dat17 V c).Φ (Fin.last cfg17.N) ⊢ Pipeline.ΦA spec17 c := by
  rw [show (dat17 V c).Φ (Fin.last cfg17.N) = Pipeline.ΦA spec17 c from by dsimp only [dat17]]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t
    = out17_3 c (grid17.coords t) (ms17_0 t) (hs17_0 t) (ms17_1 t) (hs17_1 t) (ms17_2 t) (hs17_2 t) (ms17_3 t) (hs17_3 t) scM17_0 (Memref.isWhole_whole _)
        (hcond17_0 t) (hcond17_1 t) (iblk17 V c 0 t) (iblk17 V c 1 t) (iblk17 V c 2 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d

/-! ## The body obligation, at a generic point -/

/-- What the body is called with at point t, the windows one by one, -/
def bodyPre17 (c : Dev nD) (t : Fin cfg17.N) : sProp 𝕄 :=
  iprop((dat17 V c).Φ t.castSucc ∗ (dat17 V c).owesAt () t.castSucc
    ∗ (∃ d, owns (c : Thread nD τ) (ms17_0 t) fullShare ((dat17 V c).before 0 t d))
    ∗ (∃ d, owns (c : Thread nD τ) (ms17_1 t) fullShare ((dat17 V c).before 1 t d))
    ∗ (∃ d, owns (c : Thread nD τ) (ms17_2 t) fullShare ((dat17 V c).before 2 t d))
    ∗ (∃ d, owns (c : Thread nD τ) (ms17_3 t) fullShare ((dat17 V c).before 3 t d)))

/-- and what it returns. -/
def bodyPost17 (c : Dev nD) (t : Fin cfg17.N) : sProp 𝕄 :=
  iprop((dat17 V c).Φ t.succ ∗ (dat17 V c).owesAt () t.succ
    ∗ (dat17 V c).leavesExact 0 t
    ∗ (dat17 V c).leavesExact 1 t
    ∗ (dat17 V c).leavesExact 2 t
    ∗ (dat17 V c).leavesExact 3 t)

set_option maxHeartbeats 4800000 in
/-- The body at any point: the inputs' memrefs hold their blocks, both conditions hold, so the run applies; the
    invariant lends the accumulator at some contents and takes it back at some contents; the core owes nothing. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2]
  rw [show (dat17 V c).owesAt () t.succ = (dat17 V c).owesAt () t.castSucc from rfl]
  rw [show (dat17 V c).Φ t.succ = Pipeline.ΦA spec17 c from by dsimp only [dat17],
    show (dat17 V c).Φ t.castSucc = Pipeline.ΦA spec17 c from by dsimp only [dat17], PhiA17_eq]
  rw [show (dat17 V c).leavesExact 0 t = owns (c : Thread nD τ) (ms17_0 t) fullShare ((dat17 V c).after 0 t) from rfl, after17_0]
  rw [show (dat17 V c).leavesExact 1 t = owns (c : Thread nD τ) (ms17_1 t) fullShare ((dat17 V c).after 1 t) from rfl, after17_1]
  rw [show (dat17 V c).leavesExact 2 t = owns (c : Thread nD τ) (ms17_2 t) fullShare ((dat17 V c).after 2 t) from rfl, after17_2]
  rw [show (dat17 V c).leavesExact 3 t = owns (c : Thread nD τ) (ms17_3 t) fullShare ((dat17 V c).after 3 t) from by
      unfold Dat.leavesExact; rw [liveAt17_3 t], after17_3]
  unfold out17_3; (try dsimp only)
  iintro ⟨⟨⟨HS, HR⟩, Hg⟩, Ho, ⟨%d0, H0⟩, ⟨%d1, H1⟩, ⟨%d2, H2⟩, ⟨%d3, H3⟩⟩
  iapply ((kernelRun17 c (grid17.coords t) _ _ _ _ _ _ _ _ _ _ (hcond17_0 t) (hcond17_1 t) (iblk17 V c 0 t) (iblk17 V c 1 t) (iblk17 V c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover17_3 c _ _ _ _ _ _ _ _ _ _ _ _ _ _ _ _)

/-- The library's body obligation, at every point. -/
theorem body_obligation17 (c : Dev nD) : BodyObligation (dat17 (F := F) V c) (defs₀ (F := F)) Variants.none () Set.univ := fun t => by
  rw [bigSep_W17, bigSep_W17]
  exact sound_body17 V c t

end Cert.Kernel.Hand

end
-- ==== Proof.K.R18.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 18: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- An input window's current staging buffer holds its block at every point, fetched there or not, for any proof
    data whose array is the entry contents and whose body leaves the block in place. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)

theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-! ## The body's branch conditions: both hold at every point -/

/-- The first conditional's condition (k = 0), from the grid coordinates. -/
abbrev cond18_0 (i : grid18.Coords) : Prop := (Scalar.cmpi .ne (Scalar.extui (Scalar.cmpi .eq (BitVec.ofNat 32 (i 2).val) 0#32)) 0#32) = 1#1
theorem hcond18_0 : ∀ t : Fin cfg18.N, cond18_0 (grid18.coords t) :=
  (by decide +kernel : ∀ t : Fin grid18.N, cond18_0 (grid18.coords t))

/-- The second conditional's condition (k is the last block, which is block 0). -/
abbrev cond18_1 (i : grid18.Coords) : Prop := k18_cond2 i = 1#1
theorem hcond18_1 : ∀ t : Fin cfg18.N, cond18_1 (grid18.coords t) :=
  (by decide +kernel : ∀ t : Fin grid18.N, cond18_1 (grid18.coords t))

/-! ## No window is ever idle -/

theorem liveAt18_0 : ∀ t : Fin cfg18.N, cfg18.idle 0 (grid18.coords t) = false := by decide +kernel
theorem liveAt18_1 : ∀ t : Fin cfg18.N, cfg18.idle 1 (grid18.coords t) = false := by decide +kernel
theorem liveAt18_2 : ∀ t : Fin cfg18.N, cfg18.idle 2 (grid18.coords t) = false := by decide +kernel

/-! ## The staging memrefs and the accumulator -/

/-- One staging buffer of the output window, through which its contents are stated. -/
abbrev VO18_2 : View sig .tc .vmem S1x256 .f32 := (Memref.whole cc18_stg2_0 : Memref sig .tc .vmem S1x256 .f32).view
abbrev ms18_0 (t : Fin cfg18.N) : Memref sig .tc .vmem S128x1 .f32 := win18_0.stage (cfg18.slots t 0)
abbrev hs18_0 (t : Fin cfg18.N) : (ms18_0 t).IsWhole := hstage18_0 ((cfg18.slots t 0).cast nbuf18_0)
abbrev ms18_1 (t : Fin cfg18.N) : Memref sig .tc .vmem S128x256 .f32 := win18_1.stage (cfg18.slots t 1)
abbrev hs18_1 (t : Fin cfg18.N) : (ms18_1 t).IsWhole := hstage18_1 ((cfg18.slots t 1).cast nbuf18_1)
abbrev ms18_2 (t : Fin cfg18.N) : Memref sig .tc .vmem S1x256 .f32 := win18_2.stage (cfg18.slots t 2)
abbrev hs18_2 (t : Fin cfg18.N) : (ms18_2 t).IsWhole := hstage18_2 ((cfg18.slots t 2).cast nbuf18_2)
/-- The accumulator: a whole scoped buffer of the kernel's own. -/
abbrev scM18_0 : Memref sig .tc .vmem S1x256 .f32 := Memref.whole cc18_scratch0

/-- The region's invariant with the accumulator as a memref owned at some contents, the other scoped buffers
    unopened, and the generator register at some state. -/
theorem PhiA18_eq (c : Dev nD) :
    (Pipeline.ΦA spec18 c : sProp 𝕄)
      = iprop(iprop(iprop((∃ d, owns (c : Thread nD τ) scM18_0 fullShare d)) ∗ Pipeline.scopedRestBut spec18 c [cc18_scratch0]) ∗ (∃ r, prngReg c r)) := by
  unfold Pipeline.ΦA; rw [scopedRest18_split]; simp only [scM18_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun18 (c : Dev nD) (i : grid18.Coords) (arg3 : Memref sig .tc .vmem S128x1 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (hc0 : cond18_0 i) (hc1 : cond18_1 i)
    (x0 : Vec F S128x1 .f32) (x1 : Vec F S128x256 .f32) :
    Σ' (L2 : List (View.Piece (Elt F) S1x256 .f32)), { LS0 : List (View.Piece (Elt F) S1x256 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc18__matmulT_kernel i arg3 harg3 arg4 harg4 arg5 harg5 arg6 harg6) K } := by
  refine ⟨?_, ?_, fun E K => ?run⟩
  case run =>
    simp only [cc18__matmulT_kernel_eq_skeleton]; unfold cc18__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover18_2 (c : Dev nD) (i : grid18.Coords) (arg3 : Memref sig .tc .vmem S128x1 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (hc0 : cond18_0 i) (hc1 : cond18_1 i)
    (x0 : Vec F S128x1 .f32) (x1 : Vec F S128x256 .f32) (y : S1x256.Idx) :
    ∃ pc ∈ (kernelRun18 c i arg3 harg3 arg4 harg4 arg5 harg5 arg6 harg6 hc0 hc1 x0 x1).1, y ∈ pc.1.set :=
  View.cover_of_tiledL (kernelRun18 c i arg3 harg3 arg4 harg4 arg5 harg5 arg6 harg6 hc0 hc1 x0 x1).1 S1x256.size (by sl_kernel_rfl) y

/-- What the body leaves in the output's staging buffer. -/
def out18_2 (c : Dev nD) (i : grid18.Coords) (arg3 : Memref sig .tc .vmem S128x1 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (hc0 : cond18_0 i) (hc1 : cond18_1 i)
    (x0 : Vec F S128x1 .f32) (x1 : Vec F S128x256 .f32) : Vec F S1x256 .f32 :=
  VO18_2.read (Elt F) (VO18_2.writes (Elt F) VO18_2.junk (kernelRun18 c i arg3 harg3 arg4 harg4 arg5 harg5 arg6 harg6 hc0 hc1 x0 x1).1)

/-- The output's staging buffer after the body at point t. -/
def outAt18 (c : Dev nD) (t : Fin cfg18.N) : Vec F S1x256 .f32 :=
  out18_2 c (grid18.coords t) (ms18_0 t) (hs18_0 t) (ms18_1 t) (hs18_1 t) (ms18_2 t) (hs18_2 t) scM18_0 (Memref.isWhole_whole _) (hcond18_0 t) (hcond18_1 t) (iblk18 V c 0 t) (iblk18 V c 1 t)

/-! ## The pipeline's proof data -/

/-- The proof data of the region on core c: the arrays as the region finds them; after the body at point t each
    input's buffer at its block and the output's at what the one case leaves; the invariant the scoped rest and the
    generator register, untouched between points; nothing owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => outAt18 V c t
  Φ _ := Pipeline.ΦA spec18 c
  q _ := fullShare
  owed _ := 0

/-- The proof data's arrays are the region-entry contents. -/
theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = outAt18 V c t := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-- What the launch hands the region is the invariant before the first point, -/
theorem Phi_first18 (c : Dev nD) : (dat18 V c).Φ 0 = Pipeline.ΦA spec18 c := rfl

/-- and the invariant after the last point gives it back. -/
theorem Phi_last18 (c : Dev nD) : (dat18 V c).Φ (Fin.last cfg18.N) ⊢ Pipeline.ΦA spec18 c :=
  Idealize.SL.BI.Entails.refl _

/-! ## The body obligation, at a generic point -/

/-- What the body is called with at point t, the windows one by one, -/
def bodyPre18 (c : Dev nD) (t : Fin cfg18.N) : sProp 𝕄 :=
  iprop((dat18 V c).Φ t.castSucc ∗ (dat18 V c).owesAt () t.castSucc
    ∗ (∃ d, owns (c : Thread nD τ) (ms18_0 t) fullShare ((dat18 V c).before 0 t d))
    ∗ (∃ d, owns (c : Thread nD τ) (ms18_1 t) fullShare ((dat18 V c).before 1 t d))
    ∗ (∃ d, owns (c : Thread nD τ) (ms18_2 t) fullShare ((dat18 V c).before 2 t d)))

/-- and what it returns. -/
def bodyPost18 (c : Dev nD) (t : Fin cfg18.N) : sProp 𝕄 :=
  iprop((dat18 V c).Φ t.succ ∗ (dat18 V c).owesAt () t.succ
    ∗ (dat18 V c).leavesExact 0 t
    ∗ (dat18 V c).leavesExact 1 t
    ∗ (dat18 V c).leavesExact 2 t)

set_option maxHeartbeats 4800000 in
/-- The body at any point: the inputs' memrefs hold their blocks; the invariant hands the body the accumulator at
    anything and takes it back at anything; the core owes nothing throughout. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).owesAt () t.succ = (dat18 V c).owesAt () t.castSucc from rfl]
  rw [show (dat18 V c).Φ t.succ = Pipeline.ΦA spec18 c from rfl, show (dat18 V c).Φ t.castSucc = Pipeline.ΦA spec18 c from rfl, PhiA18_eq]
  rw [show (dat18 V c).leavesExact 0 t = owns (c : Thread nD τ) (ms18_0 t) fullShare ((dat18 V c).after 0 t) from by
      unfold Dat.leavesExact; rw [liveAt18_0 t], after18_0]
  rw [show (dat18 V c).leavesExact 1 t = owns (c : Thread nD τ) (ms18_1 t) fullShare ((dat18 V c).after 1 t) from by
      unfold Dat.leavesExact; rw [liveAt18_1 t], after18_1]
  rw [show (dat18 V c).leavesExact 2 t = owns (c : Thread nD τ) (ms18_2 t) fullShare ((dat18 V c).after 2 t) from by
      unfold Dat.leavesExact; rw [liveAt18_2 t], after18_2]
  unfold outAt18 out18_2; (try dsimp only)
  iintro ⟨⟨⟨HS0, Hr⟩, Hg⟩, Ho, ⟨%d0, H0⟩, ⟨%d1, H1⟩, ⟨%d2, H2⟩⟩
  iapply ((kernelRun18 c (grid18.coords t) _ _ _ _ _ _ _ _ (hcond18_0 t) (hcond18_1 t) (iblk18 V c 0 t) (iblk18 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover18_2 c _ _ _ _ _ _ _ _ _ _ _ _ _)

/-- The library's body obligation, at every point. -/
theorem body_obligation18 (c : Dev nD) : BodyObligation (dat18 (F := F) V c) (defs₀ (F := F)) Variants.none () Set.univ := fun t => by
  rw [bigSep_W18, bigSep_W18]
  exact sound_body18 V c t

end Cert.Kernel.Hand

end
-- ==== Proof.K.R19.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 19: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- An input window's current staging buffer holds its block at every point, fetched there or not, for any proof
    data whose array is the entry contents and whose body leaves the block in place. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)

theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-! ## The body's branch conditions: both hold at every point -/

/-- The first conditional's condition (k = 0), from the grid coordinates. -/
abbrev cond19_0 (i : grid19.Coords) : Prop := (Scalar.cmpi .ne (Scalar.extui (Scalar.cmpi .eq (BitVec.ofNat 32 (i 2).val) 0#32)) 0#32) = 1#1
theorem hcond19_0 : ∀ t : Fin cfg19.N, cond19_0 (grid19.coords t) :=
  (by decide +kernel : ∀ t : Fin grid19.N, cond19_0 (grid19.coords t))

/-- The second conditional's condition (k is the last block, which is block 0). -/
abbrev cond19_1 (i : grid19.Coords) : Prop := k19_cond2 i = 1#1
theorem hcond19_1 : ∀ t : Fin cfg19.N, cond19_1 (grid19.coords t) :=
  (by decide +kernel : ∀ t : Fin grid19.N, cond19_1 (grid19.coords t))

/-! ## No window is ever idle -/

theorem liveAt19_0 : ∀ t : Fin cfg19.N, cfg19.idle 0 (grid19.coords t) = false := by decide +kernel
theorem liveAt19_1 : ∀ t : Fin cfg19.N, cfg19.idle 1 (grid19.coords t) = false := by decide +kernel
theorem liveAt19_2 : ∀ t : Fin cfg19.N, cfg19.idle 2 (grid19.coords t) = false := by decide +kernel

/-! ## The staging memrefs and the accumulator -/

/-- One staging buffer of the output window, through which its contents are stated. -/
abbrev VO19_2 : View sig .tc .vmem S1x1 .f32 := (Memref.whole cc19_stg2_0 : Memref sig .tc .vmem S1x1 .f32).view
abbrev ms19_0 (t : Fin cfg19.N) : Memref sig .tc .vmem S128x1 .f32 := win19_0.stage (cfg19.slots t 0)
abbrev hs19_0 (t : Fin cfg19.N) : (ms19_0 t).IsWhole := hstage19_0 ((cfg19.slots t 0).cast nbuf19_0)
abbrev ms19_1 (t : Fin cfg19.N) : Memref sig .tc .vmem S128x1 .f32 := win19_1.stage (cfg19.slots t 1)
abbrev hs19_1 (t : Fin cfg19.N) : (ms19_1 t).IsWhole := hstage19_1 ((cfg19.slots t 1).cast nbuf19_1)
abbrev ms19_2 (t : Fin cfg19.N) : Memref sig .tc .vmem S1x1 .f32 := win19_2.stage (cfg19.slots t 2)
abbrev hs19_2 (t : Fin cfg19.N) : (ms19_2 t).IsWhole := hstage19_2 ((cfg19.slots t 2).cast nbuf19_2)
/-- The accumulator: a whole scoped buffer of the kernel's own. -/
abbrev scM19_0 : Memref sig .tc .vmem S1x1 .f32 := Memref.whole cc19_scratch0

/-- The region's invariant with the accumulator as a memref owned at some contents, the other scoped buffers
    unopened, and the generator register at some state. -/
theorem PhiA19_eq (c : Dev nD) :
    (Pipeline.ΦA spec19 c : sProp 𝕄)
      = iprop(iprop(iprop((∃ d, owns (c : Thread nD τ) scM19_0 fullShare d)) ∗ Pipeline.scopedRestBut spec19 c [cc19_scratch0]) ∗ (∃ r, prngReg c r)) := by
  unfold Pipeline.ΦA; rw [scopedRest19_split]; simp only [scM19_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun19 (c : Dev nD) (i : grid19.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond19_0 i) (hc1 : cond19_1 i)
    (x0 : Vec F S128x1 .f32) (x1 : Vec F S128x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc19__matmulT_kernel i arg3 harg3 arg4 harg4 arg5 harg5 arg6 harg6) K } := by
  refine ⟨?_, ?_, fun E K => ?run⟩
  case run =>
    simp only [cc19__matmulT_kernel_eq_skeleton]; unfold cc19__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover19_2 (c : Dev nD) (i : grid19.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond19_0 i) (hc1 : cond19_1 i)
    (x0 : Vec F S128x1 .f32) (x1 : Vec F S128x1 .f32) (y : S1x1.Idx) :
    ∃ pc ∈ (kernelRun19 c i arg3 harg3 arg4 harg4 arg5 harg5 arg6 harg6 hc0 hc1 x0 x1).1, y ∈ pc.1.set :=
  View.cover_of_tiledL (kernelRun19 c i arg3 harg3 arg4 harg4 arg5 harg5 arg6 harg6 hc0 hc1 x0 x1).1 S1x1.size (by sl_kernel_rfl) y

/-- What the body leaves in the output's staging buffer. -/
def out19_2 (c : Dev nD) (i : grid19.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond19_0 i) (hc1 : cond19_1 i)
    (x0 : Vec F S128x1 .f32) (x1 : Vec F S128x1 .f32) : Vec F S1x1 .f32 :=
  VO19_2.read (Elt F) (VO19_2.writes (Elt F) VO19_2.junk (kernelRun19 c i arg3 harg3 arg4 harg4 arg5 harg5 arg6 harg6 hc0 hc1 x0 x1).1)

/-- The output's staging buffer after the body at point t. -/
def outAt19 (c : Dev nD) (t : Fin cfg19.N) : Vec F S1x1 .f32 :=
  out19_2 c (grid19.coords t) (ms19_0 t) (hs19_0 t) (ms19_1 t) (hs19_1 t) (ms19_2 t) (hs19_2 t) scM19_0 (Memref.isWhole_whole _) (hcond19_0 t) (hcond19_1 t) (iblk19 V c 0 t) (iblk19 V c 1 t)

/-! ## The pipeline's proof data -/

/-- The proof data of the region on core c: the arrays as the region finds them; after the body at point t each
    input's buffer at its block and the output's at what the one case leaves; the invariant the scoped rest and the
    generator register, untouched between points; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => outAt19 V c t
  Φ _ := Pipeline.ΦA spec19 c
  q _ := fullShare
  owed _ := 0

/-- The proof data's arrays are the region-entry contents. -/
theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = outAt19 V c t := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-- What the launch hands the region is the invariant before the first point, -/
theorem Phi_first19 (c : Dev nD) : (dat19 V c).Φ 0 = Pipeline.ΦA spec19 c := rfl

/-- and the invariant after the last point gives it back. -/
theorem Phi_last19 (c : Dev nD) : (dat19 V c).Φ (Fin.last cfg19.N) ⊢ Pipeline.ΦA spec19 c :=
  Idealize.SL.BI.Entails.refl _

/-! ## The body obligation, at a generic point -/

/-- What the body is called with at point t, the windows one by one, -/
def bodyPre19 (c : Dev nD) (t : Fin cfg19.N) : sProp 𝕄 :=
  iprop((dat19 V c).Φ t.castSucc ∗ (dat19 V c).owesAt () t.castSucc
    ∗ (∃ d, owns (c : Thread nD τ) (ms19_0 t) fullShare ((dat19 V c).before 0 t d))
    ∗ (∃ d, owns (c : Thread nD τ) (ms19_1 t) fullShare ((dat19 V c).before 1 t d))
    ∗ (∃ d, owns (c : Thread nD τ) (ms19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ (dat19 V c).leavesExact 0 t
    ∗ (dat19 V c).leavesExact 1 t
    ∗ (dat19 V c).leavesExact 2 t)

set_option maxHeartbeats 4800000 in
/-- The body at any point: the inputs' memrefs hold their blocks; the invariant hands the body the accumulator at
    anything and takes it back at anything; the core owes nothing throughout. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).owesAt () t.succ = (dat19 V c).owesAt () t.castSucc from rfl]
  rw [show (dat19 V c).Φ t.succ = Pipeline.ΦA spec19 c from rfl, show (dat19 V c).Φ t.castSucc = Pipeline.ΦA spec19 c from rfl, PhiA19_eq]
  rw [show (dat19 V c).leavesExact 0 t = owns (c : Thread nD τ) (ms19_0 t) fullShare ((dat19 V c).after 0 t) from by
      unfold Dat.leavesExact; rw [liveAt19_0 t], after19_0]
  rw [show (dat19 V c).leavesExact 1 t = owns (c : Thread nD τ) (ms19_1 t) fullShare ((dat19 V c).after 1 t) from by
      unfold Dat.leavesExact; rw [liveAt19_1 t], after19_1]
  rw [show (dat19 V c).leavesExact 2 t = owns (c : Thread nD τ) (ms19_2 t) fullShare ((dat19 V c).after 2 t) from by
      unfold Dat.leavesExact; rw [liveAt19_2 t], after19_2]
  unfold outAt19 out19_2; (try dsimp only)
  iintro ⟨⟨⟨HS0, Hr⟩, Hg⟩, Ho, ⟨%d0, H0⟩, ⟨%d1, H1⟩, ⟨%d2, H2⟩⟩
  iapply ((kernelRun19 c (grid19.coords t) _ _ _ _ _ _ _ _ (hcond19_0 t) (hcond19_1 t) (iblk19 V c 0 t) (iblk19 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover19_2 c _ _ _ _ _ _ _ _ _ _ _ _ _)

/-- The library's body obligation, at every point. -/
theorem body_obligation19 (c : Dev nD) : BodyObligation (dat19 (F := F) V c) (defs₀ (F := F)) Variants.none () Set.univ := fun t => by
  rw [bigSep_W19, bigSep_W19]
  exact sound_body19 V c t

end Cert.Kernel.Hand

end
-- ==== Proof.K.R20.lean ====
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 20: the transposed-lhs matmul with one contraction block

The grid's last axis has one point, so at every point the body zeroes its VMEM accumulator, adds the one product
block and copies the accumulator to the output block: one control case. Everything is stated at the buffer contents
the region is entered with. -/

/-! ## The windows' blocks -/

/-- Window w's block at point t, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- An input window's current staging buffer holds its block at every point, fetched there or not, for any proof
    data whose array is the entry contents and whose body leaves the block in place. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)

theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-! ## The body's branch conditions: both hold at every point -/

/-- The first conditional's condition (k = 0), from the grid coordinates. -/
abbrev cond20_0 (i : grid20.Coords) : Prop := (Scalar.cmpi .ne (Scalar.extui (Scalar.cmpi .eq (BitVec.ofNat 32 (i 2).val) 0#32)) 0#32) = 1#1
theorem hcond20_0 : ∀ t : Fin cfg20.N, cond20_0 (grid20.coords t) :=
  (by decide +kernel : ∀ t : Fin grid20.N, cond20_0 (grid20.coords t))

/-- The second conditional's condition (k is the last block, which is block 0). -/
abbrev cond20_1 (i : grid20.Coords) : Prop := k20_cond2 i = 1#1
theorem hcond20_1 : ∀ t : Fin cfg20.N, cond20_1 (grid20.coords t) :=
  (by decide +kernel : ∀ t : Fin grid20.N, cond20_1 (grid20.coords t))

/-! ## No window is ever idle -/

theorem liveAt20_0 : ∀ t : Fin cfg20.N, cfg20.idle 0 (grid20.coords t) = false := by decide +kernel
theorem liveAt20_1 : ∀ t : Fin cfg20.N, cfg20.idle 1 (grid20.coords t) = false := by decide +kernel
theorem liveAt20_2 : ∀ t : Fin cfg20.N, cfg20.idle 2 (grid20.coords t) = false := by decide +kernel

/-! ## The staging memrefs and the accumulator -/

/-- One staging buffer of the output window, through which its contents are stated. -/
abbrev VO20_2 : View sig .tc .vmem S1x1 .f32 := (Memref.whole cc20_stg2_0 : Memref sig .tc .vmem S1x1 .f32).view
abbrev ms20_0 (t : Fin cfg20.N) : Memref sig .tc .vmem S128x1 .f32 := win20_0.stage (cfg20.slots t 0)
abbrev hs20_0 (t : Fin cfg20.N) : (ms20_0 t).IsWhole := hstage20_0 ((cfg20.slots t 0).cast nbuf20_0)
abbrev ms20_1 (t : Fin cfg20.N) : Memref sig .tc .vmem S128x1 .f32 := win20_1.stage (cfg20.slots t 1)
abbrev hs20_1 (t : Fin cfg20.N) : (ms20_1 t).IsWhole := hstage20_1 ((cfg20.slots t 1).cast nbuf20_1)
abbrev ms20_2 (t : Fin cfg20.N) : Memref sig .tc .vmem S1x1 .f32 := win20_2.stage (cfg20.slots t 2)
abbrev hs20_2 (t : Fin cfg20.N) : (ms20_2 t).IsWhole := hstage20_2 ((cfg20.slots t 2).cast nbuf20_2)
/-- The accumulator: a whole scoped buffer of the kernel's own. -/
abbrev scM20_0 : Memref sig .tc .vmem S1x1 .f32 := Memref.whole cc20_scratch0

/-- The region's invariant with the accumulator as a memref owned at some contents, the other scoped buffers
    unopened, and the generator register at some state. -/
theorem PhiA20_eq (c : Dev nD) :
    (Pipeline.ΦA spec20 c : sProp 𝕄)
      = iprop(iprop(iprop((∃ d, owns (c : Thread nD τ) scM20_0 fullShare d)) ∗ Pipeline.scopedRestBut spec20 c [cc20_scratch0]) ∗ (∃ r, prngReg c r)) := by
  unfold Pipeline.ΦA; rw [scopedRest20_split]; simp only [scM20_0, owns_whole]; try rfl

/-! ## The kernel body on any staging memrefs -/

set_option maxHeartbeats 1000000 in
/-- The one case: the accumulator at anything is zeroed, the product block added, and the accumulator copied into
    the output's buffer, whatever that held. The pieces each buffer ends with are the witness the run finds. -/
noncomputable def kernelRun20 (c : Dev nD) (i : grid20.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond20_0 i) (hc1 : cond20_1 i)
    (x0 : Vec F S128x1 .f32) (x1 : Vec F S128x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc20__matmulT_kernel i arg3 harg3 arg4 harg4 arg5 harg5 arg6 harg6) K } := by
  refine ⟨?_, ?_, fun E K => ?run⟩
  case run =>
    simp only [cc20__matmulT_kernel_eq_skeleton]; unfold cc20__matmulT_kernel_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What the body leaves -/

/-- The store into the output covers its block. -/
theorem cover20_2 (c : Dev nD) (i : grid20.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond20_0 i) (hc1 : cond20_1 i)
    (x0 : Vec F S128x1 .f32) (x1 : Vec F S128x1 .f32) (y : S1x1.Idx) :
    ∃ pc ∈ (kernelRun20 c i arg3 harg3 arg4 harg4 arg5 harg5 arg6 harg6 hc0 hc1 x0 x1).1, y ∈ pc.1.set :=
  View.cover_of_tiledL (kernelRun20 c i arg3 harg3 arg4 harg4 arg5 harg5 arg6 harg6 hc0 hc1 x0 x1).1 S1x1.size (by sl_kernel_rfl) y

/-- What the body leaves in the output's staging buffer. -/
def out20_2 (c : Dev nD) (i : grid20.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond20_0 i) (hc1 : cond20_1 i)
    (x0 : Vec F S128x1 .f32) (x1 : Vec F S128x1 .f32) : Vec F S1x1 .f32 :=
  VO20_2.read (Elt F) (VO20_2.writes (Elt F) VO20_2.junk (kernelRun20 c i arg3 harg3 arg4 harg4 arg5 harg5 arg6 harg6 hc0 hc1 x0 x1).1)

/-- The output's staging buffer after the body at point t. -/
def outAt20 (c : Dev nD) (t : Fin cfg20.N) : Vec F S1x1 .f32 :=
  out20_2 c (grid20.coords t) (ms20_0 t) (hs20_0 t) (ms20_1 t) (hs20_1 t) (ms20_2 t) (hs20_2 t) scM20_0 (Memref.isWhole_whole _) (hcond20_0 t) (hcond20_1 t) (iblk20 V c 0 t) (iblk20 V c 1 t)

/-! ## The pipeline's proof data -/

/-- The proof data of the region on core c: the arrays as the region finds them; after the body at point t each
    input's buffer at its block and the output's at what the one case leaves; the invariant the scoped rest and the
    generator register, untouched between points; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => outAt20 V c t
  Φ _ := Pipeline.ΦA spec20 c
  q := fun w => match w with | ⟨0, _⟩ => fullShare.left | ⟨1, _⟩ => fullShare.right | ⟨2, _⟩ => fullShare
  owed _ := 0

/-- The proof data's arrays are the region-entry contents. -/
theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = outAt20 V c t := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

/-- What the launch hands the region is the invariant before the first point, -/
theorem Phi_first20 (c : Dev nD) : (dat20 V c).Φ 0 = Pipeline.ΦA spec20 c := rfl

/-- and the invariant after the last point gives it back. -/
theorem Phi_last20 (c : Dev nD) : (dat20 V c).Φ (Fin.last cfg20.N) ⊢ Pipeline.ΦA spec20 c :=
  Idealize.SL.BI.Entails.refl _

/-! ## The body obligation, at a generic point -/

/-- What the body is called with at point t, the windows one by one, -/
def bodyPre20 (c : Dev nD) (t : Fin cfg20.N) : sProp 𝕄 :=
  iprop((dat20 V c).Φ t.castSucc ∗ (dat20 V c).owesAt () t.castSucc
    ∗ (∃ d, owns (c : Thread nD τ) (ms20_0 t) fullShare ((dat20 V c).before 0 t d))
    ∗ (∃ d, owns (c : Thread nD τ) (ms20_1 t) fullShare ((dat20 V c).before 1 t d))
    ∗ (∃ d, owns (c : Thread nD τ) (ms20_2 t) fullShare ((dat20 V c).before 2 t d)))

/-- and what it returns. -/
def bodyPost20 (c : Dev nD) (t : Fin cfg20.N) : sProp 𝕄 :=
  iprop((dat20 V c).Φ t.succ ∗ (dat20 V c).owesAt () t.succ
    ∗ (dat20 V c).leavesExact 0 t
    ∗ (dat20 V c).leavesExact 1 t
    ∗ (dat20 V c).leavesExact 2 t)

set_option maxHeartbeats 4800000 in
/-- The body at any point: the inputs' memrefs hold their blocks; the invariant hands the body the accumulator at
    anything and takes it back at anything; the core owes nothing throughout. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).owesAt () t.succ = (dat20 V c).owesAt () t.castSucc from rfl]
  rw [show (dat20 V c).Φ t.succ = Pipeline.ΦA spec20 c from rfl, show (dat20 V c).Φ t.castSucc = Pipeline.ΦA spec20 c from rfl, PhiA20_eq]
  rw [show (dat20 V c).leavesExact 0 t = owns (c : Thread nD τ) (ms20_0 t) fullShare ((dat20 V c).after 0 t) from by
      unfold Dat.leavesExact; rw [liveAt20_0 t], after20_0]
  rw [show (dat20 V c).leavesExact 1 t = owns (c : Thread nD τ) (ms20_1 t) fullShare ((dat20 V c).after 1 t) from by
      unfold Dat.leavesExact; rw [liveAt20_1 t], after20_1]
  rw [show (dat20 V c).leavesExact 2 t = owns (c : Thread nD τ) (ms20_2 t) fullShare ((dat20 V c).after 2 t) from by
      unfold Dat.leavesExact; rw [liveAt20_2 t], after20_2]
  unfold outAt20 out20_2; (try dsimp only)
  iintro ⟨⟨⟨HS0, Hr⟩, Hg⟩, Ho, ⟨%d0, H0⟩, ⟨%d1, H1⟩, ⟨%d2, H2⟩⟩
  iapply ((kernelRun20 c (grid20.coords t) _ _ _ _ _ _ _ _ (hcond20_0 t) (hcond20_1 t) (iblk20 V c 0 t) (iblk20 V c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hr Hg]
  · isplitl [HS0 Hr]
    · isplitl [HS0]
      · unfold owns; iexists _; iexists _; isplitr
        swap; · iexact HS0
        ipureintro; rfl
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover20_2 c _ _ _ _ _ _ _ _ _ _ _ _ _)

/-- The library's body obligation, at every point. -/
theorem body_obligation20 (c : Dev nD) : BodyObligation (dat20 (F := F) V c) (defs₀ (F := F)) Variants.none () Set.univ := fun t => by
  rw [bigSep_W20, bigSep_W20]
  exact sound_body20 V c t

end Cert.Kernel.Hand

end
-- ==== Proof.K.Fold.lean ====
/- The contents of Kernel's TensorCore buffers at each of the 64 boundaries of @main (43 host stretches, 21 kernel
   regions): a host stretch applies its operations, a region leaves its output arrays at what its write-backs fold to;
   every region's proof data at its entry contents; the thread state that rides through the segments. -/
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import proofs.«405323_j90718299226206_3_alg».proof.Proof.K.R0
import proofs.«405323_j90718299226206_3_alg».proof.Proof.K.R1
import proofs.«405323_j90718299226206_3_alg».proof.Proof.K.R2
import proofs.«405323_j90718299226206_3_alg».proof.Proof.K.R3
import proofs.«405323_j90718299226206_3_alg».proof.Proof.K.R4
import proofs.«405323_j90718299226206_3_alg».proof.Proof.K.R5
import proofs.«405323_j90718299226206_3_alg».proof.Proof.K.R6
import proofs.«405323_j90718299226206_3_alg».proof.Proof.K.R7
import proofs.«405323_j90718299226206_3_alg».proof.Proof.K.R8
import proofs.«405323_j90718299226206_3_alg».proof.Proof.K.R9
import proofs.«405323_j90718299226206_3_alg».proof.Proof.K.R10
import proofs.«405323_j90718299226206_3_alg».proof.Proof.K.R11
import proofs.«405323_j90718299226206_3_alg».proof.Proof.K.R12
import proofs.«405323_j90718299226206_3_alg».proof.Proof.K.R13
import proofs.«405323_j90718299226206_3_alg».proof.Proof.K.R14
import proofs.«405323_j90718299226206_3_alg».proof.Proof.K.R15
import proofs.«405323_j90718299226206_3_alg».proof.Proof.K.R16
import proofs.«405323_j90718299226206_3_alg».proof.Proof.K.R17
import proofs.«405323_j90718299226206_3_alg».proof.Proof.K.R18
import proofs.«405323_j90718299226206_3_alg».proof.Proof.K.R19
import proofs.«405323_j90718299226206_3_alg».proof.Proof.K.R20
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary -/
abbrev W0 : Dev nD → Valuation τ sig (Elt F) := fun c b => m (c, b)
abbrev W1 : Dev nD → Valuation τ sig (Elt F) := fun c => StableHlo.after hostOps0 (W0 m c)
/-- Region 0: entered at `W1`, left at `W2` (its output arrays at what its write-backs fold to, everything else as entered). -/
abbrev Vt1 : (c : Dev nD) → (b : Ref sig .tc) → Buf (Elt F) ((c : Thread nD τ).loc b) := fun c b => W1 m c b
def W2 (c : Dev nD) : Valuation τ sig (Elt F) :=
  Function.update (W1 m c) (Proc.devRef .tc main_v21) ((dat0 (Vt1 m) c).arrAt 3 cfg0.N)
abbrev Vt2 : (c : Dev nD) → (b : Ref sig .tc) → Buf (Elt F) ((c : Thread nD τ).loc b) := fun c b => W2 m c b
theorem W2_of_ne (c : Dev nD) (b : Ref sig .tc) (hb : b ≠ main_v21) :
    W2 m c (Proc.devRef .tc b) = W1 m c (Proc.devRef .tc b) := by
  unfold W2; exact Function.update_of_ne (StableHlo.devRef_ne_of_ne hb) _ _
theorem W2_out3 (c : Dev nD) : Vt2 m c main_v21 = (dat0 (Vt1 m) c).arrAt 3 cfg0.N := by
  show W2 m c (Proc.devRef .tc main_v21) = _
  unfold W2; exact Function.update_self _ _ _
set_option maxHeartbeats 4000000 in
theorem hF0 (c : Dev nD) (w : Fin cfg0.W) : (dat0 (Vt1 m) c).arrAt w cfg0.N = Vt2 m c (Pipeline.arrRef spec0 w) :=
  match w with
    | ⟨0, _⟩ => show (dat0 (Vt1 m) c).arrAt (0 : Fin cfg0.W) cfg0.N = W2 m c (Proc.devRef .tc main_arg0) from
        (((dat0 (Vt1 m) c).arrAt_in (0 : Fin cfg0.W) rfl cfg0.N).trans
          (show (dat0 (Vt1 m) c).A (0 : Fin cfg0.W) = W1 m c (Proc.devRef .tc main_arg0) from A_eq0 (Vt1 m) c (0 : Fin cfg0.W))).trans (W2_of_ne m c main_arg0 (by decide)).symm
    | ⟨1, _⟩ => show (dat0 (Vt1 m) c).arrAt (1 : Fin cfg0.W) cfg0.N = W2 m c (Proc.devRef .tc main_arg3) from
        (((dat0 (Vt1 m) c).arrAt_in (1 : Fin cfg0.W) rfl cfg0.N).trans
          (show (dat0 (Vt1 m) c).A (1 : Fin cfg0.W) = W1 m c (Proc.devRef .tc main_arg3) from A_eq0 (Vt1 m) c (1 : Fin cfg0.W))).trans (W2_of_ne m c main_arg3 (by decide)).symm
    | ⟨2, _⟩ => show (dat0 (Vt1 m) c).arrAt (2 : Fin cfg0.W) cfg0.N = W2 m c (Proc.devRef .tc main_v20) from
        (((dat0 (Vt1 m) c).arrAt_in (2 : Fin cfg0.W) rfl cfg0.N).trans
          (show (dat0 (Vt1 m) c).A (2 : Fin cfg0.W) = W1 m c (Proc.devRef .tc main_v20) from A_eq0 (Vt1 m) c (2 : Fin cfg0.W))).trans (W2_of_ne m c main_v20 (by decide)).symm
    | ⟨3, _⟩ => show (dat0 (Vt1 m) c).arrAt (3 : Fin cfg0.W) cfg0.N = W2 m c (Proc.devRef .tc main_v21) from (W2_out3 m c).symm
    | ⟨_ + 4, h⟩ => absurd h (Nat.not_lt.2 (Nat.le_add_left _ _))
theorem hrest0 (c : Dev nD) : ∀ b, b ∉ Finset.univ.image (Pipeline.arrRef spec0) → Vt2 m c b = Vt1 m c b :=
  fun b hb => W2_of_ne m c b (fun e => hb (Finset.mem_image.mpr ⟨(3 : Fin cfg0.W), Finset.mem_univ _, (show Pipeline.arrRef spec0 (3 : Fin cfg0.W) = b from e.symm)⟩))
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
/-- Region 1: entered at `W6`, left at `W7` (its output arrays at what its write-backs fold to, everything else as entered). -/
abbrev Vt6 : (c : Dev nD) → (b : Ref sig .tc) → Buf (Elt F) ((c : Thread nD τ).loc b) := fun c b => W6 m c b
def W7 (c : Dev nD) : Valuation τ sig (Elt F) :=
  Function.update (W6 m c) (Proc.devRef .tc main_v39) ((dat1 (Vt6 m) c).arrAt 2 cfg1.N)
abbrev Vt7 : (c : Dev nD) → (b : Ref sig .tc) → Buf (Elt F) ((c : Thread nD τ).loc b) := fun c b => W7 m c b
theorem W7_of_ne (c : Dev nD) (b : Ref sig .tc) (hb : b ≠ main_v39) :
    W7 m c (Proc.devRef .tc b) = W6 m c (Proc.devRef .tc b) := by
  unfold W7; exact Function.update_of_ne (StableHlo.devRef_ne_of_ne hb) _ _
theorem W7_out2 (c : Dev nD) : Vt7 m c main_v39 = (dat1 (Vt6 m) c).arrAt 2 cfg1.N := by
  show W7 m c (Proc.devRef .tc main_v39) = _
  unfold W7; exact Function.update_self _ _ _
set_option maxHeartbeats 4000000 in
theorem hF1 (c : Dev nD) (w : Fin cfg1.W) : (dat1 (Vt6 m) c).arrAt w cfg1.N = Vt7 m c (Pipeline.arrRef spec1 w) :=
  match w with
    | ⟨0, _⟩ => show (dat1 (Vt6 m) c).arrAt (0 : Fin cfg1.W) cfg1.N = W7 m c (Proc.devRef .tc main_v18) from
        (((dat1 (Vt6 m) c).arrAt_in (0 : Fin cfg1.W) rfl cfg1.N).trans
          (show (dat1 (Vt6 m) c).A (0 : Fin cfg1.W) = W6 m c (Proc.devRef .tc main_v18) from A_eq1 (Vt6 m) c (0 : Fin cfg1.W))).trans (W7_of_ne m c main_v18 (by decide)).symm
    | ⟨1, _⟩ => show (dat1 (Vt6 m) c).arrAt (1 : Fin cfg1.W) cfg1.N = W7 m c (Proc.devRef .tc main_v38) from
        (((dat1 (Vt6 m) c).arrAt_in (1 : Fin cfg1.W) rfl cfg1.N).trans
          (show (dat1 (Vt6 m) c).A (1 : Fin cfg1.W) = W6 m c (Proc.devRef .tc main_v38) from A_eq1 (Vt6 m) c (1 : Fin cfg1.W))).trans (W7_of_ne m c main_v38 (by decide)).symm
    | ⟨2, _⟩ => show (dat1 (Vt6 m) c).arrAt (2 : Fin cfg1.W) cfg1.N = W7 m c (Proc.devRef .tc main_v39) from (W7_out2 m c).symm
    | ⟨_ + 3, h⟩ => absurd h (Nat.not_lt.2 (Nat.le_add_left _ _))
theorem hrest1 (c : Dev nD) : ∀ b, b ∉ Finset.univ.image (Pipeline.arrRef spec1) → Vt7 m c b = Vt6 m c b :=
  fun b hb => W7_of_ne m c b (fun e => hb (Finset.mem_image.mpr ⟨(2 : Fin cfg1.W), Finset.mem_univ _, (show Pipeline.arrRef spec1 (2 : Fin cfg1.W) = b from e.symm)⟩))
abbrev W8 : Dev nD → Valuation τ sig (Elt F) := fun c => StableHlo.after hostOps2 (W7 m c)
abbrev W9 : Dev nD → Valuation τ sig (Elt F) := fun c => StableHlo.after hostOps2_1 (W8 m c)
abbrev W10 : Dev nD → Valuation τ sig (Elt F) := fun c => StableHlo.after hostOps2_2 (W9 m c)
/-- Region 2: entered at `W10`, left at `W11` (its output arrays at what its write-backs fold to, everything else as entered). -/
abbrev Vt10 : (c : Dev nD) → (b : Ref sig .tc) → Buf (Elt F) ((c : Thread nD τ).loc b) := fun c b => W10 m c b
def W11 (c : Dev nD) : Valuation τ sig (Elt F) :=
  Function.update (Function.update (W10 m c) (Proc.devRef .tc main_v54_0) ((dat2 (Vt10 m) c).arrAt 3 cfg2.N)) (Proc.devRef .tc main_v54_1) ((dat2 (Vt10 m) c).arrAt 4 cfg2.N)
abbrev Vt11 : (c : Dev nD) → (b : Ref sig .tc) → Buf (Elt F) ((c : Thread nD τ).loc b) := fun c b => W11 m c b
theorem W11_of_ne (c : Dev nD) (b : Ref sig .tc) (hb0 : b ≠ main_v54_0) (hb1 : b ≠ main_v54_1) :
    W11 m c (Proc.devRef .tc b) = W10 m c (Proc.devRef .tc b) := by
  unfold W11; exact (Function.update_of_ne (StableHlo.devRef_ne_of_ne hb1) _ _).trans (Function.update_of_ne (StableHlo.devRef_ne_of_ne hb0) _ _)
theorem W11_out4 (c : Dev nD) : Vt11 m c main_v54_1 = (dat2 (Vt10 m) c).arrAt 4 cfg2.N := by
  show W11 m c (Proc.devRef .tc main_v54_1) = _
  unfold W11; exact Function.update_self _ _ _
theorem W11_out3 (c : Dev nD) : Vt11 m c main_v54_0 = (dat2 (Vt10 m) c).arrAt 3 cfg2.N := by
  show W11 m c (Proc.devRef .tc main_v54_0) = _
  unfold W11; exact (Function.update_of_ne (StableHlo.devRef_ne_of_ne (by decide : main_v54_0 ≠ main_v54_1)) _ _).trans (Function.update_self _ _ _)
set_option maxHeartbeats 4000000 in
theorem hF2 (c : Dev nD) (w : Fin cfg2.W) : (dat2 (Vt10 m) c).arrAt w cfg2.N = Vt11 m c (Pipeline.arrRef spec2 w) :=
  match w with
    | ⟨0, _⟩ => show (dat2 (Vt10 m) c).arrAt (0 : Fin cfg2.W) cfg2.N = W11 m c (Proc.devRef .tc main_v52) from
        (((dat2 (Vt10 m) c).arrAt_in (0 : Fin cfg2.W) rfl cfg2.N).trans
          (show (dat2 (Vt10 m) c).A (0 : Fin cfg2.W) = W10 m c (Proc.devRef .tc main_v52) from A_eq2 (Vt10 m) c (0 : Fin cfg2.W))).trans (W11_of_ne m c main_v52 (by decide) (by decide)).symm
    | ⟨1, _⟩ => show (dat2 (Vt10 m) c).arrAt (1 : Fin cfg2.W) cfg2.N = W11 m c (Proc.devRef .tc main_arg5) from
        (((dat2 (Vt10 m) c).arrAt_in (1 : Fin cfg2.W) rfl cfg2.N).trans
          (show (dat2 (Vt10 m) c).A (1 : Fin cfg2.W) = W10 m c (Proc.devRef .tc main_arg5) from A_eq2 (Vt10 m) c (1 : Fin cfg2.W))).trans (W11_of_ne m c main_arg5 (by decide) (by decide)).symm
    | ⟨2, _⟩ => show (dat2 (Vt10 m) c).arrAt (2 : Fin cfg2.W) cfg2.N = W11 m c (Proc.devRef .tc main_v53) from
        (((dat2 (Vt10 m) c).arrAt_in (2 : Fin cfg2.W) rfl cfg2.N).trans
          (show (dat2 (Vt10 m) c).A (2 : Fin cfg2.W) = W10 m c (Proc.devRef .tc main_v53) from A_eq2 (Vt10 m) c (2 : Fin cfg2.W))).trans (W11_of_ne m c main_v53 (by decide) (by decide)).symm
    | ⟨3, _⟩ => show (dat2 (Vt10 m) c).arrAt (3 : Fin cfg2.W) cfg2.N = W11 m c (Proc.devRef .tc main_v54_0) from (W11_out3 m c).symm
    | ⟨4, _⟩ => show (dat2 (Vt10 m) c).arrAt (4 : Fin cfg2.W) cfg2.N = W11 m c (Proc.devRef .tc main_v54_1) from (W11_out4 m c).symm
    | ⟨_ + 5, h⟩ => absurd h (Nat.not_lt.2 (Nat.le_add_left _ _))
theorem hrest2 (c : Dev nD) : ∀ b, b ∉ Finset.univ.image (Pipeline.arrRef spec2) → Vt11 m c b = Vt10 m c b :=
  fun b hb => W11_of_ne m c b (fun e => hb (Finset.mem_image.mpr ⟨(3 : Fin cfg2.W), Finset.mem_univ _, (show Pipeline.arrRef spec2 (3 : Fin cfg2.W) = b from e.symm)⟩)) (fun e => hb (Finset.mem_image.mpr ⟨(4 : Fin cfg2.W), Finset.mem_univ _, (show Pipeline.arrRef spec2 (4 : Fin cfg2.W) = b from e.symm)⟩))
abbrev W12 : Dev nD → Valuation τ sig (Elt F) := fun c => StableHlo.after hostOps3 (W11 m c)
abbrev W13 : Dev nD → Valuation τ sig (Elt F) := fun c => StableHlo.after hostOps3_1 (W12 m c)
abbrev W14 : Dev nD → Valuation τ sig (Elt F) := fun c => StableHlo.after hostOps3_2 (W13 m c)
abbrev W15 : Dev nD → Valuation τ sig (Elt F) := fun c => StableHlo.after hostOps3_3 (W14 m c)
abbrev W16 : Dev nD → Valuation τ sig (Elt F) := fun c => StableHlo.after hostOps3_4 (W15 m c)
/-- Region 3: entered at `W16`, left at `W17` (its output arrays at what its write-backs fold to, everything else as entered). -/
abbrev Vt16 : (c : Dev nD) → (b : Ref sig .tc) → Buf (Elt F) ((c : Thread nD τ).loc b) := fun c b => W16 m c b
def W17 (c : Dev nD) : Valuation τ sig (Elt F) :=
  Function.update (Function.update (W16 m c) (Proc.devRef .tc main_v58_0) ((dat3 (Vt16 m) c).arrAt 3 cfg3.N)) (Proc.devRef .tc main_v58_1) ((dat3 (Vt16 m) c).arrAt 4 cfg3.N)
abbrev Vt17 : (c : Dev nD) → (b : Ref sig .tc) → Buf (Elt F) ((c : Thread nD τ).loc b) := fun c b => W17 m c b
theorem W17_of_ne (c : Dev nD) (b : Ref sig .tc) (hb0 : b ≠ main_v58_0) (hb1 : b ≠ main_v58_1) :
    W17 m c (Proc.devRef .tc b) = W16 m c (Proc.devRef .tc b) := by
  unfold W17; exact (Function.update_of_ne (StableHlo.devRef_ne_of_ne hb1) _ _).trans (Function.update_of_ne (StableHlo.devRef_ne_of_ne hb0) _ _)
theorem W17_out4 (c : Dev nD) : Vt17 m c main_v58_1 = (dat3 (Vt16 m) c).arrAt 4 cfg3.N := by
  show W17 m c (Proc.devRef .tc main_v58_1) = _
  unfold W17; exact Function.update_self _ _ _
theorem W17_out3 (c : Dev nD) : Vt17 m c main_v58_0 = (dat3 (Vt16 m) c).arrAt 3 cfg3.N := by
  show W17 m c (Proc.devRef .tc main_v58_0) = _
  unfold W17; exact (Function.update_of_ne (StableHlo.devRef_ne_of_ne (by decide : main_v58_0 ≠ main_v58_1)) _ _).trans (Function.update_self _ _ _)
set_option maxHeartbeats 4000000 in
theorem hF3 (c : Dev nD) (w : Fin cfg3.W) : (dat3 (Vt16 m) c).arrAt w cfg3.N = Vt17 m c (Pipeline.arrRef spec3 w) :=
  match w with
    | ⟨0, _⟩ => show (dat3 (Vt16 m) c).arrAt (0 : Fin cfg3.W) cfg3.N = W17 m c (Proc.devRef .tc main_v18) from
        (((dat3 (Vt16 m) c).arrAt_in (0 : Fin cfg3.W) rfl cfg3.N).trans
          (show (dat3 (Vt16 m) c).A (0 : Fin cfg3.W) = W16 m c (Proc.devRef .tc main_v18) from A_eq3 (Vt16 m) c (0 : Fin cfg3.W))).trans (W17_of_ne m c main_v18 (by decide) (by decide)).symm
    | ⟨1, _⟩ => show (dat3 (Vt16 m) c).arrAt (1 : Fin cfg3.W) cfg3.N = W17 m c (Proc.devRef .tc main_v55) from
        (((dat3 (Vt16 m) c).arrAt_in (1 : Fin cfg3.W) rfl cfg3.N).trans
          (show (dat3 (Vt16 m) c).A (1 : Fin cfg3.W) = W16 m c (Proc.devRef .tc main_v55) from A_eq3 (Vt16 m) c (1 : Fin cfg3.W))).trans (W17_of_ne m c main_v55 (by decide) (by decide)).symm
    | ⟨2, _⟩ => show (dat3 (Vt16 m) c).arrAt (2 : Fin cfg3.W) cfg3.N = W17 m c (Proc.devRef .tc main_v57) from
        (((dat3 (Vt16 m) c).arrAt_in (2 : Fin cfg3.W) rfl cfg3.N).trans
          (show (dat3 (Vt16 m) c).A (2 : Fin cfg3.W) = W16 m c (Proc.devRef .tc main_v57) from A_eq3 (Vt16 m) c (2 : Fin cfg3.W))).trans (W17_of_ne m c main_v57 (by decide) (by decide)).symm
    | ⟨3, _⟩ => show (dat3 (Vt16 m) c).arrAt (3 : Fin cfg3.W) cfg3.N = W17 m c (Proc.devRef .tc main_v58_0) from (W17_out3 m c).symm
    | ⟨4, _⟩ => show (dat3 (Vt16 m) c).arrAt (4 : Fin cfg3.W) cfg3.N = W17 m c (Proc.devRef .tc main_v58_1) from (W17_out4 m c).symm
    | ⟨_ + 5, h⟩ => absurd h (Nat.not_lt.2 (Nat.le_add_left _ _))
theorem hrest3 (c : Dev nD) : ∀ b, b ∉ Finset.univ.image (Pipeline.arrRef spec3) → Vt17 m c b = Vt16 m c b :=
  fun b hb => W17_of_ne m c b (fun e => hb (Finset.mem_image.mpr ⟨(3 : Fin cfg3.W), Finset.mem_univ _, (show Pipeline.arrRef spec3 (3 : Fin cfg3.W) = b from e.symm)⟩)) (fun e => hb (Finset.mem_image.mpr ⟨(4 : Fin cfg3.W), Finset.mem_univ _, (show Pipeline.arrRef spec3 (4 : Fin cfg3.W) = b from e.symm)⟩))
abbrev W18 : Dev nD → Valuation τ sig (Elt F) := fun c => StableHlo.after hostOps4 (W17 m c)
/-- Region 4: entered at `W18`, left at `W19` (its output arrays at what its write-backs fold to, everything else as entered). -/
abbrev Vt18 : (c : Dev nD) → (b : Ref sig .tc) → Buf (Elt F) ((c : Thread nD τ).loc b) := fun c b => W18 m c b
def W19 (c : Dev nD) : Valuation τ sig (Elt F) :=
  Function.update (W18 m c) (Proc.devRef .tc main_v61) ((dat4 (Vt18 m) c).arrAt 2 cfg4.N)
abbrev Vt19 : (c : Dev nD) → (b : Ref sig .tc) → Buf (Elt F) ((c : Thread nD τ).loc b) := fun c b => W19 m c b
theorem W19_of_ne (c : Dev nD) (b : Ref sig .tc) (hb : b ≠ main_v61) :
    W19 m c (Proc.devRef .tc b) = W18 m c (Proc.devRef .tc b) := by
  unfold W19; exact Function.update_of_ne (StableHlo.devRef_ne_of_ne hb) _ _
theorem W19_out2 (c : Dev nD) : Vt19 m c main_v61 = (dat4 (Vt18 m) c).arrAt 2 cfg4.N := by
  show W19 m c (Proc.devRef .tc main_v61) = _
  unfold W19; exact Function.update_self _ _ _
set_option maxHeartbeats 4000000 in
theorem hF4 (c : Dev nD) (w : Fin cfg4.W) : (dat4 (Vt18 m) c).arrAt w cfg4.N = Vt19 m c (Pipeline.arrRef spec4 w) :=
  match w with
    | ⟨0, _⟩ => show (dat4 (Vt18 m) c).arrAt (0 : Fin cfg4.W) cfg4.N = W19 m c (Proc.devRef .tc main_v55) from
        (((dat4 (Vt18 m) c).arrAt_in (0 : Fin cfg4.W) rfl cfg4.N).trans
          (show (dat4 (Vt18 m) c).A (0 : Fin cfg4.W) = W18 m c (Proc.devRef .tc main_v55) from A_eq4 (Vt18 m) c (0 : Fin cfg4.W))).trans (W19_of_ne m c main_v55 (by decide)).symm
    | ⟨1, _⟩ => show (dat4 (Vt18 m) c).arrAt (1 : Fin cfg4.W) cfg4.N = W19 m c (Proc.devRef .tc main_v56) from
        (((dat4 (Vt18 m) c).arrAt_in (1 : Fin cfg4.W) rfl cfg4.N).trans
          (show (dat4 (Vt18 m) c).A (1 : Fin cfg4.W) = W18 m c (Proc.devRef .tc main_v56) from A_eq4 (Vt18 m) c (1 : Fin cfg4.W))).trans (W19_of_ne m c main_v56 (by decide)).symm
    | ⟨2, _⟩ => show (dat4 (Vt18 m) c).arrAt (2 : Fin cfg4.W) cfg4.N = W19 m c (Proc.devRef .tc main_v61) from (W19_out2 m c).symm
    | ⟨_ + 3, h⟩ => absurd h (Nat.not_lt.2 (Nat.le_add_left _ _))
theorem hrest4 (c : Dev nD) : ∀ b, b ∉ Finset.univ.image (Pipeline.arrRef spec4) → Vt19 m c b = Vt18 m c b :=
  fun b hb => W19_of_ne m c b (fun e => hb (Finset.mem_image.mpr ⟨(2 : Fin cfg4.W), Finset.mem_univ _, (show Pipeline.arrRef spec4 (2 : Fin cfg4.W) = b from e.symm)⟩))
/-- Region 5: entered at `W19`, left at `W20` (its output arrays at what its write-backs fold to, everything else as entered). -/
def W20 (c : Dev nD) : Valuation τ sig (Elt F) :=
  Function.update (W19 m c) (Proc.devRef .tc main_v62) ((dat5 (Vt19 m) c).arrAt 2 cfg5.N)
abbrev Vt20 : (c : Dev nD) → (b : Ref sig .tc) → Buf (Elt F) ((c : Thread nD τ).loc b) := fun c b => W20 m c b
theorem W20_of_ne (c : Dev nD) (b : Ref sig .tc) (hb : b ≠ main_v62) :
    W20 m c (Proc.devRef .tc b) = W19 m c (Proc.devRef .tc b) := by
  unfold W20; exact Function.update_of_ne (StableHlo.devRef_ne_of_ne hb) _ _
theorem W20_out2 (c : Dev nD) : Vt20 m c main_v62 = (dat5 (Vt19 m) c).arrAt 2 cfg5.N := by
  show W20 m c (Proc.devRef .tc main_v62) = _
  unfold W20; exact Function.update_self _ _ _
set_option maxHeartbeats 4000000 in
theorem hF5 (c : Dev nD) (w : Fin cfg5.W) : (dat5 (Vt19 m) c).arrAt w cfg5.N = Vt20 m c (Pipeline.arrRef spec5 w) :=
  match w with
    | ⟨0, _⟩ => show (dat5 (Vt19 m) c).arrAt (0 : Fin cfg5.W) cfg5.N = W20 m c (Proc.devRef .tc main_v55) from
        (((dat5 (Vt19 m) c).arrAt_in (0 : Fin cfg5.W) rfl cfg5.N).trans
          (show (dat5 (Vt19 m) c).A (0 : Fin cfg5.W) = W19 m c (Proc.devRef .tc main_v55) from A_eq5 (Vt19 m) c (0 : Fin cfg5.W))).trans (W20_of_ne m c main_v55 (by decide)).symm
    | ⟨1, _⟩ => show (dat5 (Vt19 m) c).arrAt (1 : Fin cfg5.W) cfg5.N = W20 m c (Proc.devRef .tc main_v58_0) from
        (((dat5 (Vt19 m) c).arrAt_in (1 : Fin cfg5.W) rfl cfg5.N).trans
          (show (dat5 (Vt19 m) c).A (1 : Fin cfg5.W) = W19 m c (Proc.devRef .tc main_v58_0) from A_eq5 (Vt19 m) c (1 : Fin cfg5.W))).trans (W20_of_ne m c main_v58_0 (by decide)).symm
    | ⟨2, _⟩ => show (dat5 (Vt19 m) c).arrAt (2 : Fin cfg5.W) cfg5.N = W20 m c (Proc.devRef .tc main_v62) from (W20_out2 m c).symm
    | ⟨_ + 3, h⟩ => absurd h (Nat.not_lt.2 (Nat.le_add_left _ _))
theorem hrest5 (c : Dev nD) : ∀ b, b ∉ Finset.univ.image (Pipeline.arrRef spec5) → Vt20 m c b = Vt19 m c b :=
  fun b hb => W20_of_ne m c b (fun e => hb (Finset.mem_image.mpr ⟨(2 : Fin cfg5.W), Finset.mem_univ _, (show Pipeline.arrRef spec5 (2 : Fin cfg5.W) = b from e.symm)⟩))
/-- Region 6: entered at `W20`, left at `W21` (its output arrays at what its write-backs fold to, everything else as entered). -/
def W21 (c : Dev nD) : Valuation τ sig (Elt F) :=
  Function.update (W20 m c) (Proc.devRef .tc main_v63) ((dat6 (Vt20 m) c).arrAt 2 cfg6.N)
abbrev Vt21 : (c : Dev nD) → (b : Ref sig .tc) → Buf (Elt F) ((c : Thread nD τ).loc b) := fun c b => W21 m c b
theorem W21_of_ne (c : Dev nD) (b : Ref sig .tc) (hb : b ≠ main_v63) :
    W21 m c (Proc.devRef .tc b) = W20 m c (Proc.devRef .tc b) := by
  unfold W21; exact Function.update_of_ne (StableHlo.devRef_ne_of_ne hb) _ _
theorem W21_out2 (c : Dev nD) : Vt21 m c main_v63 = (dat6 (Vt20 m) c).arrAt 2 cfg6.N := by
  show W21 m c (Proc.devRef .tc main_v63) = _
  unfold W21; exact Function.update_self _ _ _
abbrev W22 : Dev nD → Valuation τ sig (Elt F) := fun c => StableHlo.after hostOps7 (W21 m c)
abbrev W23 : Dev nD → Valuation τ sig (Elt F) := fun c => StableHlo.after hostOps7_1 (W22 m c)
abbrev W24 : Dev nD → Valuation τ sig (Elt F) := fun c => StableHlo.after hostOps7_2 (W23 m c)
abbrev W25 : Dev nD → Valuation τ sig (Elt F) := fun c => StableHlo.after hostOps7_3 (W24 m c)
abbrev W26 : Dev nD → Valuation τ sig (Elt F) := fun c => StableHlo.after hostOps7_4 (W25 m c)
abbrev W27 : Dev nD → Valuation τ sig (Elt F) := fun c => StableHlo.after hostOps7_5 (W26 m c)
abbrev W28 : Dev nD → Valuation τ sig (Elt F) := fun c => StableHlo.after hostOps7_6 (W27 m c)
abbrev W29 : Dev nD → Valuation τ sig (Elt F) := fun c => StableHlo.after hostOps7_7 (W28 m c)
/-- Region 7: entered at `W29`, left at `W30` (its output arrays at what its write-backs fold to, everything else as entered). -/
abbrev Vt29 : (c : Dev nD) → (b : Ref sig .tc) → Buf (Elt F) ((c : Thread nD τ).loc b) := fun c b => W29 m c b
def W30 (c : Dev nD) : Valuation τ sig (Elt F) :=
  Function.update (W29 m c) (Proc.devRef .tc main_v127) ((dat7 (Vt29 m) c).arrAt 3 cfg7.N)
abbrev Vt30 : (c : Dev nD) → (b : Ref sig .tc) → Buf (Elt F) ((c : Thread nD τ).loc b) := fun c b => W30 m c b
theorem W30_of_ne (c : Dev nD) (b : Ref sig .tc) (hb : b ≠ main_v127) :
    W30 m c (Proc.devRef .tc b) = W29 m c (Proc.devRef .tc b) := by
  unfold W30; exact Function.update_of_ne (StableHlo.devRef_ne_of_ne hb) _ _
theorem W30_out3 (c : Dev nD) : Vt30 m c main_v127 = (dat7 (Vt29 m) c).arrAt 3 cfg7.N := by
  show W30 m c (Proc.devRef .tc main_v127) = _
  unfold W30; exact Function.update_self _ _ _
set_option maxHeartbeats 4000000 in
theorem hF7 (c : Dev nD) (w : Fin cfg7.W) : (dat7 (Vt29 m) c).arrAt w cfg7.N = Vt30 m c (Pipeline.arrRef spec7 w) :=
  match w with
    | ⟨0, _⟩ => show (dat7 (Vt29 m) c).arrAt (0 : Fin cfg7.W) cfg7.N = W30 m c (Proc.devRef .tc main_v61) from
        (((dat7 (Vt29 m) c).arrAt_in (0 : Fin cfg7.W) rfl cfg7.N).trans
          (show (dat7 (Vt29 m) c).A (0 : Fin cfg7.W) = W29 m c (Proc.devRef .tc main_v61) from A_eq7 (Vt29 m) c (0 : Fin cfg7.W))).trans (W30_of_ne m c main_v61 (by decide)).symm
    | ⟨1, _⟩ => show (dat7 (Vt29 m) c).arrAt (1 : Fin cfg7.W) cfg7.N = W30 m c (Proc.devRef .tc main_arg7) from
        (((dat7 (Vt29 m) c).arrAt_in (1 : Fin cfg7.W) rfl cfg7.N).trans
          (show (dat7 (Vt29 m) c).A (1 : Fin cfg7.W) = W29 m c (Proc.devRef .tc main_arg7) from A_eq7 (Vt29 m) c (1 : Fin cfg7.W))).trans (W30_of_ne m c main_arg7 (by decide)).symm
    | ⟨2, _⟩ => show (dat7 (Vt29 m) c).arrAt (2 : Fin cfg7.W) cfg7.N = W30 m c (Proc.devRef .tc main_v126) from
        (((dat7 (Vt29 m) c).arrAt_in (2 : Fin cfg7.W) rfl cfg7.N).trans
          (show (dat7 (Vt29 m) c).A (2 : Fin cfg7.W) = W29 m c (Proc.devRef .tc main_v126) from A_eq7 (Vt29 m) c (2 : Fin cfg7.W))).trans (W30_of_ne m c main_v126 (by decide)).symm
    | ⟨3, _⟩ => show (dat7 (Vt29 m) c).arrAt (3 : Fin cfg7.W) cfg7.N = W30 m c (Proc.devRef .tc main_v127) from (W30_out3 m c).symm
    | ⟨_ + 4, h⟩ => absurd h (Nat.not_lt.2 (Nat.le_add_left _ _))
theorem hrest7 (c : Dev nD) : ∀ b, b ∉ Finset.univ.image (Pipeline.arrRef spec7) → Vt30 m c b = Vt29 m c b :=
  fun b hb => W30_of_ne m c b (fun e => hb (Finset.mem_image.mpr ⟨(3 : Fin cfg7.W), Finset.mem_univ _, (show Pipeline.arrRef spec7 (3 : Fin cfg7.W) = b from e.symm)⟩))
abbrev W31 : Dev nD → Valuation τ sig (Elt F) := fun c => StableHlo.after hostOps8 (W30 m c)
/-- Region 8: entered at `W31`, left at `W32` (its output arrays at what its write-backs fold to, everything else as entered). -/
abbrev Vt31 : (c : Dev nD) → (b : Ref sig .tc) → Buf (Elt F) ((c : Thread nD τ).loc b) := fun c b => W31 m c b
def W32 (c : Dev nD) : Valuation τ sig (Elt F) :=
  Function.update (W31 m c) (Proc.devRef .tc main_v129) ((dat8 (Vt31 m) c).arrAt 3 cfg8.N)
abbrev Vt32 : (c : Dev nD) → (b : Ref sig .tc) → Buf (Elt F) ((c : Thread nD τ).loc b) := fun c b => W32 m c b
theorem W32_of_ne (c : Dev nD) (b : Ref sig .tc) (hb : b ≠ main_v129) :
    W32 m c (Proc.devRef .tc b) = W31 m c (Proc.devRef .tc b) := by
  unfold W32; exact Function.update_of_ne (StableHlo.devRef_ne_of_ne hb) _ _
theorem W32_out3 (c : Dev nD) : Vt32 m c main_v129 = (dat8 (Vt31 m) c).arrAt 3 cfg8.N := by
  show W32 m c (Proc.devRef .tc main_v129) = _
  unfold W32; exact Function.update_self _ _ _
set_option maxHeartbeats 4000000 in
theorem hF8 (c : Dev nD) (w : Fin cfg8.W) : (dat8 (Vt31 m) c).arrAt w cfg8.N = Vt32 m c (Pipeline.arrRef spec8 w) :=
  match w with
    | ⟨0, _⟩ => show (dat8 (Vt31 m) c).arrAt (0 : Fin cfg8.W) cfg8.N = W32 m c (Proc.devRef .tc main_v124) from
        (((dat8 (Vt31 m) c).arrAt_in (0 : Fin cfg8.W) rfl cfg8.N).trans
          (show (dat8 (Vt31 m) c).A (0 : Fin cfg8.W) = W31 m c (Proc.devRef .tc main_v124) from A_eq8 (Vt31 m) c (0 : Fin cfg8.W))).trans (W32_of_ne m c main_v124 (by decide)).symm
    | ⟨1, _⟩ => show (dat8 (Vt31 m) c).arrAt (1 : Fin cfg8.W) cfg8.N = W32 m c (Proc.devRef .tc main_v127) from
        (((dat8 (Vt31 m) c).arrAt_in (1 : Fin cfg8.W) rfl cfg8.N).trans
          (show (dat8 (Vt31 m) c).A (1 : Fin cfg8.W) = W31 m c (Proc.devRef .tc main_v127) from A_eq8 (Vt31 m) c (1 : Fin cfg8.W))).trans (W32_of_ne m c main_v127 (by decide)).symm
    | ⟨2, _⟩ => show (dat8 (Vt31 m) c).arrAt (2 : Fin cfg8.W) cfg8.N = W32 m c (Proc.devRef .tc main_v128) from
        (((dat8 (Vt31 m) c).arrAt_in (2 : Fin cfg8.W) rfl cfg8.N).trans
          (show (dat8 (Vt31 m) c).A (2 : Fin cfg8.W) = W31 m c (Proc.devRef .tc main_v128) from A_eq8 (Vt31 m) c (2 : Fin cfg8.W))).trans (W32_of_ne m c main_v128 (by decide)).symm
    | ⟨3, _⟩ => show (dat8 (Vt31 m) c).arrAt (3 : Fin cfg8.W) cfg8.N = W32 m c (Proc.devRef .tc main_v129) from (W32_out3 m c).symm
    | ⟨_ + 4, h⟩ => absurd h (Nat.not_lt.2 (Nat.le_add_left _ _))
theorem hrest8 (c : Dev nD) : ∀ b, b ∉ Finset.univ.image (Pipeline.arrRef spec8) → Vt32 m c b = Vt31 m c b :=
  fun b hb => W32_of_ne m c b (fun e => hb (Finset.mem_image.mpr ⟨(3 : Fin cfg8.W), Finset.mem_univ _, (show Pipeline.arrRef spec8 (3 : Fin cfg8.W) = b from e.symm)⟩))
abbrev W33 : Dev nD → Valuation τ sig (Elt F) := fun c => StableHlo.after hostOps9 (W32 m c)
/-- Region 9: entered at `W33`, left at `W34` (its output arrays at what its write-backs fold to, everything else as entered). -/
abbrev Vt33 : (c : Dev nD) → (b : Ref sig .tc) → Buf (Elt F) ((c : Thread nD τ).loc b) := fun c b => W33 m c b
def W34 (c : Dev nD) : Valuation τ sig (Elt F) :=
  Function.update (Function.update (W33 m c) (Proc.devRef .tc main_v131_0) ((dat9 (Vt33 m) c).arrAt 3 cfg9.N)) (Proc.devRef .tc main_v131_1) ((dat9 (Vt33 m) c).arrAt 4 cfg9.N)
abbrev Vt34 : (c : Dev nD) → (b : Ref sig .tc) → Buf (Elt F) ((c : Thread nD τ).loc b) := fun c b => W34 m c b
theorem W34_of_ne (c : Dev nD) (b : Ref sig .tc) (hb0 : b ≠ main_v131_0) (hb1 : b ≠ main_v131_1) :
    W34 m c (Proc.devRef .tc b) = W33 m c (Proc.devRef .tc b) := by
  unfold W34; exact (Function.update_of_ne (StableHlo.devRef_ne_of_ne hb1) _ _).trans (Function.update_of_ne (StableHlo.devRef_ne_of_ne hb0) _ _)
theorem W34_out4 (c : Dev nD) : Vt34 m c main_v131_1 = (dat9 (Vt33 m) c).arrAt 4 cfg9.N := by
  show W34 m c (Proc.devRef .tc main_v131_1) = _
  unfold W34; exact Function.update_self _ _ _
theorem W34_out3 (c : Dev nD) : Vt34 m c main_v131_0 = (dat9 (Vt33 m) c).arrAt 3 cfg9.N := by
  show W34 m c (Proc.devRef .tc main_v131_0) = _
  unfold W34; exact (Function.update_of_ne (StableHlo.devRef_ne_of_ne (by decide : main_v131_0 ≠ main_v131_1)) _ _).trans (Function.update_self _ _ _)
set_option maxHeartbeats 4000000 in
theorem hF9 (c : Dev nD) (w : Fin cfg9.W) : (dat9 (Vt33 m) c).arrAt w cfg9.N = Vt34 m c (Pipeline.arrRef spec9 w) :=
  match w with
    | ⟨0, _⟩ => show (dat9 (Vt33 m) c).arrAt (0 : Fin cfg9.W) cfg9.N = W34 m c (Proc.devRef .tc main_v129) from
        (((dat9 (Vt33 m) c).arrAt_in (0 : Fin cfg9.W) rfl cfg9.N).trans
          (show (dat9 (Vt33 m) c).A (0 : Fin cfg9.W) = W33 m c (Proc.devRef .tc main_v129) from A_eq9 (Vt33 m) c (0 : Fin cfg9.W))).trans (W34_of_ne m c main_v129 (by decide) (by decide)).symm
    | ⟨1, _⟩ => show (dat9 (Vt33 m) c).arrAt (1 : Fin cfg9.W) cfg9.N = W34 m c (Proc.devRef .tc main_arg9) from
        (((dat9 (Vt33 m) c).arrAt_in (1 : Fin cfg9.W) rfl cfg9.N).trans
          (show (dat9 (Vt33 m) c).A (1 : Fin cfg9.W) = W33 m c (Proc.devRef .tc main_arg9) from A_eq9 (Vt33 m) c (1 : Fin cfg9.W))).trans (W34_of_ne m c main_arg9 (by decide) (by decide)).symm
    | ⟨2, _⟩ => show (dat9 (Vt33 m) c).arrAt (2 : Fin cfg9.W) cfg9.N = W34 m c (Proc.devRef .tc main_v130) from
        (((dat9 (Vt33 m) c).arrAt_in (2 : Fin cfg9.W) rfl cfg9.N).trans
          (show (dat9 (Vt33 m) c).A (2 : Fin cfg9.W) = W33 m c (Proc.devRef .tc main_v130) from A_eq9 (Vt33 m) c (2 : Fin cfg9.W))).trans (W34_of_ne m c main_v130 (by decide) (by decide)).symm
    | ⟨3, _⟩ => show (dat9 (Vt33 m) c).arrAt (3 : Fin cfg9.W) cfg9.N = W34 m c (Proc.devRef .tc main_v131_0) from (W34_out3 m c).symm
    | ⟨4, _⟩ => show (dat9 (Vt33 m) c).arrAt (4 : Fin cfg9.W) cfg9.N = W34 m c (Proc.devRef .tc main_v131_1) from (W34_out4 m c).symm
    | ⟨_ + 5, h⟩ => absurd h (Nat.not_lt.2 (Nat.le_add_left _ _))
theorem hrest9 (c : Dev nD) : ∀ b, b ∉ Finset.univ.image (Pipeline.arrRef spec9) → Vt34 m c b = Vt33 m c b :=
  fun b hb => W34_of_ne m c b (fun e => hb (Finset.mem_image.mpr ⟨(3 : Fin cfg9.W), Finset.mem_univ _, (show Pipeline.arrRef spec9 (3 : Fin cfg9.W) = b from e.symm)⟩)) (fun e => hb (Finset.mem_image.mpr ⟨(4 : Fin cfg9.W), Finset.mem_univ _, (show Pipeline.arrRef spec9 (4 : Fin cfg9.W) = b from e.symm)⟩))
abbrev W35 : Dev nD → Valuation τ sig (Elt F) := fun c => StableHlo.after hostOps10 (W34 m c)
/-- Region 10: entered at `W35`, left at `W36` (its output arrays at what its write-backs fold to, everything else as entered). -/
abbrev Vt35 : (c : Dev nD) → (b : Ref sig .tc) → Buf (Elt F) ((c : Thread nD τ).loc b) := fun c b => W35 m c b
def W36 (c : Dev nD) : Valuation τ sig (Elt F) :=
  Function.update (W35 m c) (Proc.devRef .tc main_v134) ((dat10 (Vt35 m) c).arrAt 3 cfg10.N)
abbrev Vt36 : (c : Dev nD) → (b : Ref sig .tc) → Buf (Elt F) ((c : Thread nD τ).loc b) := fun c b => W36 m c b
theorem W36_of_ne (c : Dev nD) (b : Ref sig .tc) (hb : b ≠ main_v134) :
    W36 m c (Proc.devRef .tc b) = W35 m c (Proc.devRef .tc b) := by
  unfold W36; exact Function.update_of_ne (StableHlo.devRef_ne_of_ne hb) _ _
theorem W36_out3 (c : Dev nD) : Vt36 m c main_v134 = (dat10 (Vt35 m) c).arrAt 3 cfg10.N := by
  show W36 m c (Proc.devRef .tc main_v134) = _
  unfold W36; exact Function.update_self _ _ _
set_option maxHeartbeats 4000000 in
theorem hF10 (c : Dev nD) (w : Fin cfg10.W) : (dat10 (Vt35 m) c).arrAt w cfg10.N = Vt36 m c (Pipeline.arrRef spec10 w) :=
  match w with
    | ⟨0, _⟩ => show (dat10 (Vt35 m) c).arrAt (0 : Fin cfg10.W) cfg10.N = W36 m c (Proc.devRef .tc main_v106) from
        (((dat10 (Vt35 m) c).arrAt_in (0 : Fin cfg10.W) rfl cfg10.N).trans
          (show (dat10 (Vt35 m) c).A (0 : Fin cfg10.W) = W35 m c (Proc.devRef .tc main_v106) from A_eq10 (Vt35 m) c (0 : Fin cfg10.W))).trans (W36_of_ne m c main_v106 (by decide)).symm
    | ⟨1, _⟩ => show (dat10 (Vt35 m) c).arrAt (1 : Fin cfg10.W) cfg10.N = W36 m c (Proc.devRef .tc main_v131_1) from
        (((dat10 (Vt35 m) c).arrAt_in (1 : Fin cfg10.W) rfl cfg10.N).trans
          (show (dat10 (Vt35 m) c).A (1 : Fin cfg10.W) = W35 m c (Proc.devRef .tc main_v131_1) from A_eq10 (Vt35 m) c (1 : Fin cfg10.W))).trans (W36_of_ne m c main_v131_1 (by decide)).symm
    | ⟨2, _⟩ => show (dat10 (Vt35 m) c).arrAt (2 : Fin cfg10.W) cfg10.N = W36 m c (Proc.devRef .tc main_v133) from
        (((dat10 (Vt35 m) c).arrAt_in (2 : Fin cfg10.W) rfl cfg10.N).trans
          (show (dat10 (Vt35 m) c).A (2 : Fin cfg10.W) = W35 m c (Proc.devRef .tc main_v133) from A_eq10 (Vt35 m) c (2 : Fin cfg10.W))).trans (W36_of_ne m c main_v133 (by decide)).symm
    | ⟨3, _⟩ => show (dat10 (Vt35 m) c).arrAt (3 : Fin cfg10.W) cfg10.N = W36 m c (Proc.devRef .tc main_v134) from (W36_out3 m c).symm
    | ⟨_ + 4, h⟩ => absurd h (Nat.not_lt.2 (Nat.le_add_left _ _))
theorem hrest10 (c : Dev nD) : ∀ b, b ∉ Finset.univ.image (Pipeline.arrRef spec10) → Vt36 m c b = Vt35 m c b :=
  fun b hb => W36_of_ne m c b (fun e => hb (Finset.mem_image.mpr ⟨(3 : Fin cfg10.W), Finset.mem_univ _, (show Pipeline.arrRef spec10 (3 : Fin cfg10.W) = b from e.symm)⟩))
/-- Region 11: entered at `W36`, left at `W37` (its output arrays at what its write-backs fold to, everything else as entered). -/
def W37 (c : Dev nD) : Valuation τ sig (Elt F) :=
  Function.update (W36 m c) (Proc.devRef .tc main_v135) ((dat11 (Vt36 m) c).arrAt 2 cfg11.N)
abbrev Vt37 : (c : Dev nD) → (b : Ref sig .tc) → Buf (Elt F) ((c : Thread nD τ).loc b) := fun c b => W37 m c b
theorem W37_of_ne (c : Dev nD) (b : Ref sig .tc) (hb : b ≠ main_v135) :
    W37 m c (Proc.devRef .tc b) = W36 m c (Proc.devRef .tc b) := by
  unfold W37; exact Function.update_of_ne (StableHlo.devRef_ne_of_ne hb) _ _
theorem W37_out2 (c : Dev nD) : Vt37 m c main_v135 = (dat11 (Vt36 m) c).arrAt 2 cfg11.N := by
  show W37 m c (Proc.devRef .tc main_v135) = _
  unfold W37; exact Function.update_self _ _ _
set_option maxHeartbeats 4000000 in
theorem hF11 (c : Dev nD) (w : Fin cfg11.W) : (dat11 (Vt36 m) c).arrAt w cfg11.N = Vt37 m c (Pipeline.arrRef spec11 w) :=
  match w with
    | ⟨0, _⟩ => show (dat11 (Vt36 m) c).arrAt (0 : Fin cfg11.W) cfg11.N = W37 m c (Proc.devRef .tc main_v131_1) from
        (((dat11 (Vt36 m) c).arrAt_in (0 : Fin cfg11.W) rfl cfg11.N).trans
          (show (dat11 (Vt36 m) c).A (0 : Fin cfg11.W) = W36 m c (Proc.devRef .tc main_v131_1) from A_eq11 (Vt36 m) c (0 : Fin cfg11.W))).trans (W37_of_ne m c main_v131_1 (by decide)).symm
    | ⟨1, _⟩ => show (dat11 (Vt36 m) c).arrAt (1 : Fin cfg11.W) cfg11.N = W37 m c (Proc.devRef .tc main_v129) from
        (((dat11 (Vt36 m) c).arrAt_in (1 : Fin cfg11.W) rfl cfg11.N).trans
          (show (dat11 (Vt36 m) c).A (1 : Fin cfg11.W) = W36 m c (Proc.devRef .tc main_v129) from A_eq11 (Vt36 m) c (1 : Fin cfg11.W))).trans (W37_of_ne m c main_v129 (by decide)).symm
    | ⟨2, _⟩ => show (dat11 (Vt36 m) c).arrAt (2 : Fin cfg11.W) cfg11.N = W37 m c (Proc.devRef .tc main_v135) from (W37_out2 m c).symm
    | ⟨_ + 3, h⟩ => absurd h (Nat.not_lt.2 (Nat.le_add_left _ _))
theorem hrest11 (c : Dev nD) : ∀ b, b ∉ Finset.univ.image (Pipeline.arrRef spec11) → Vt37 m c b = Vt36 m c b :=
  fun b hb => W37_of_ne m c b (fun e => hb (Finset.mem_image.mpr ⟨(2 : Fin cfg11.W), Finset.mem_univ _, (show Pipeline.arrRef spec11 (2 : Fin cfg11.W) = b from e.symm)⟩))
/-- Region 12: entered at `W37`, left at `W38` (its output arrays at what its write-backs fold to, everything else as entered). -/
def W38 (c : Dev nD) : Valuation τ sig (Elt F) :=
  Function.update (W37 m c) (Proc.devRef .tc main_v136) ((dat12 (Vt37 m) c).arrAt 2 cfg12.N)
abbrev Vt38 : (c : Dev nD) → (b : Ref sig .tc) → Buf (Elt F) ((c : Thread nD τ).loc b) := fun c b => W38 m c b
theorem W38_of_ne (c : Dev nD) (b : Ref sig .tc) (hb : b ≠ main_v136) :
    W38 m c (Proc.devRef .tc b) = W37 m c (Proc.devRef .tc b) := by
  unfold W38; exact Function.update_of_ne (StableHlo.devRef_ne_of_ne hb) _ _
theorem W38_out2 (c : Dev nD) : Vt38 m c main_v136 = (dat12 (Vt37 m) c).arrAt 2 cfg12.N := by
  show W38 m c (Proc.devRef .tc main_v136) = _
  unfold W38; exact Function.update_self _ _ _
set_option maxHeartbeats 4000000 in
theorem hF12 (c : Dev nD) (w : Fin cfg12.W) : (dat12 (Vt37 m) c).arrAt w cfg12.N = Vt38 m c (Pipeline.arrRef spec12 w) :=
  match w with
    | ⟨0, _⟩ => show (dat12 (Vt37 m) c).arrAt (0 : Fin cfg12.W) cfg12.N = W38 m c (Proc.devRef .tc main_v131_1) from
        (((dat12 (Vt37 m) c).arrAt_in (0 : Fin cfg12.W) rfl cfg12.N).trans
          (show (dat12 (Vt37 m) c).A (0 : Fin cfg12.W) = W37 m c (Proc.devRef .tc main_v131_1) from A_eq12 (Vt37 m) c (0 : Fin cfg12.W))).trans (W38_of_ne m c main_v131_1 (by decide)).symm
    | ⟨1, _⟩ => show (dat12 (Vt37 m) c).arrAt (1 : Fin cfg12.W) cfg12.N = W38 m c (Proc.devRef .tc main_v134) from
        (((dat12 (Vt37 m) c).arrAt_in (1 : Fin cfg12.W) rfl cfg12.N).trans
          (show (dat12 (Vt37 m) c).A (1 : Fin cfg12.W) = W37 m c (Proc.devRef .tc main_v134) from A_eq12 (Vt37 m) c (1 : Fin cfg12.W))).trans (W38_of_ne m c main_v134 (by decide)).symm
    | ⟨2, _⟩ => show (dat12 (Vt37 m) c).arrAt (2 : Fin cfg12.W) cfg12.N = W38 m c (Proc.devRef .tc main_v136) from (W38_out2 m c).symm
    | ⟨_ + 3, h⟩ => absurd h (Nat.not_lt.2 (Nat.le_add_left _ _))
theorem hrest12 (c : Dev nD) : ∀ b, b ∉ Finset.univ.image (Pipeline.arrRef spec12) → Vt38 m c b = Vt37 m c b :=
  fun b hb => W38_of_ne m c b (fun e => hb (Finset.mem_image.mpr ⟨(2 : Fin cfg12.W), Finset.mem_univ _, (show Pipeline.arrRef spec12 (2 : Fin cfg12.W) = b from e.symm)⟩))
/-- Region 13: entered at `W38`, left at `W39` (its output arrays at what its write-backs fold to, everything else as entered). -/
def W39 (c : Dev nD) : Valuation τ sig (Elt F) :=
  Function.update (W38 m c) (Proc.devRef .tc main_v137) ((dat13 (Vt38 m) c).arrAt 2 cfg13.N)
abbrev Vt39 : (c : Dev nD) → (b : Ref sig .tc) → Buf (Elt F) ((c : Thread nD τ).loc b) := fun c b => W39 m c b
theorem W39_of_ne (c : Dev nD) (b : Ref sig .tc) (hb : b ≠ main_v137) :
    W39 m c (Proc.devRef .tc b) = W38 m c (Proc.devRef .tc b) := by
  unfold W39; exact Function.update_of_ne (StableHlo.devRef_ne_of_ne hb) _ _
theorem W39_out2 (c : Dev nD) : Vt39 m c main_v137 = (dat13 (Vt38 m) c).arrAt 2 cfg13.N := by
  show W39 m c (Proc.devRef .tc main_v137) = _
  unfold W39; exact Function.update_self _ _ _
abbrev W40 : Dev nD → Valuation τ sig (Elt F) := fun c => StableHlo.after hostOps14 (W39 m c)
abbrev W41 : Dev nD → Valuation τ sig (Elt F) := fun c => StableHlo.after hostOps14_1 (W40 m c)
abbrev W42 : Dev nD → Valuation τ sig (Elt F) := fun c => StableHlo.after hostOps14_2 (W41 m c)
abbrev W43 : Dev nD → Valuation τ sig (Elt F) := fun c => StableHlo.after hostOps14_3 (W42 m c)
abbrev W44 : Dev nD → Valuation τ sig (Elt F) := fun c => StableHlo.after hostOps14_4 (W43 m c)
abbrev W45 : Dev nD → Valuation τ sig (Elt F) := fun c => StableHlo.after hostOps14_5 (W44 m c)
abbrev W46 : Dev nD → Valuation τ sig (Elt F) := fun c => StableHlo.after hostOps14_6 (W45 m c)
abbrev W47 : Dev nD → Valuation τ sig (Elt F) := fun c => StableHlo.after hostOps14_7 (W46 m c)
/-- Region 14: entered at `W47`, left at `W48` (its output arrays at what its write-backs fold to, everything else as entered). -/
abbrev Vt47 : (c : Dev nD) → (b : Ref sig .tc) → Buf (Elt F) ((c : Thread nD τ).loc b) := fun c b => W47 m c b
def W48 (c : Dev nD) : Valuation τ sig (Elt F) :=
  Function.update (W47 m c) (Proc.devRef .tc main_v200) ((dat14 (Vt47 m) c).arrAt 3 cfg14.N)
abbrev Vt48 : (c : Dev nD) → (b : Ref sig .tc) → Buf (Elt F) ((c : Thread nD τ).loc b) := fun c b => W48 m c b
theorem W48_of_ne (c : Dev nD) (b : Ref sig .tc) (hb : b ≠ main_v200) :
    W48 m c (Proc.devRef .tc b) = W47 m c (Proc.devRef .tc b) := by
  unfold W48; exact Function.update_of_ne (StableHlo.devRef_ne_of_ne hb) _ _
theorem W48_out3 (c : Dev nD) : Vt48 m c main_v200 = (dat14 (Vt47 m) c).arrAt 3 cfg14.N := by
  show W48 m c (Proc.devRef .tc main_v200) = _
  unfold W48; exact Function.update_self _ _ _
set_option maxHeartbeats 4000000 in
theorem hF14 (c : Dev nD) (w : Fin cfg14.W) : (dat14 (Vt47 m) c).arrAt w cfg14.N = Vt48 m c (Pipeline.arrRef spec14 w) :=
  match w with
    | ⟨0, _⟩ => show (dat14 (Vt47 m) c).arrAt (0 : Fin cfg14.W) cfg14.N = W48 m c (Proc.devRef .tc main_v135) from
        (((dat14 (Vt47 m) c).arrAt_in (0 : Fin cfg14.W) rfl cfg14.N).trans
          (show (dat14 (Vt47 m) c).A (0 : Fin cfg14.W) = W47 m c (Proc.devRef .tc main_v135) from A_eq14 (Vt47 m) c (0 : Fin cfg14.W))).trans (W48_of_ne m c main_v135 (by decide)).symm
    | ⟨1, _⟩ => show (dat14 (Vt47 m) c).arrAt (1 : Fin cfg14.W) cfg14.N = W48 m c (Proc.devRef .tc main_arg11) from
        (((dat14 (Vt47 m) c).arrAt_in (1 : Fin cfg14.W) rfl cfg14.N).trans
          (show (dat14 (Vt47 m) c).A (1 : Fin cfg14.W) = W47 m c (Proc.devRef .tc main_arg11) from A_eq14 (Vt47 m) c (1 : Fin cfg14.W))).trans (W48_of_ne m c main_arg11 (by decide)).symm
    | ⟨2, _⟩ => show (dat14 (Vt47 m) c).arrAt (2 : Fin cfg14.W) cfg14.N = W48 m c (Proc.devRef .tc main_v199) from
        (((dat14 (Vt47 m) c).arrAt_in (2 : Fin cfg14.W) rfl cfg14.N).trans
          (show (dat14 (Vt47 m) c).A (2 : Fin cfg14.W) = W47 m c (Proc.devRef .tc main_v199) from A_eq14 (Vt47 m) c (2 : Fin cfg14.W))).trans (W48_of_ne m c main_v199 (by decide)).symm
    | ⟨3, _⟩ => show (dat14 (Vt47 m) c).arrAt (3 : Fin cfg14.W) cfg14.N = W48 m c (Proc.devRef .tc main_v200) from (W48_out3 m c).symm
    | ⟨_ + 4, h⟩ => absurd h (Nat.not_lt.2 (Nat.le_add_left _ _))
theorem hrest14 (c : Dev nD) : ∀ b, b ∉ Finset.univ.image (Pipeline.arrRef spec14) → Vt48 m c b = Vt47 m c b :=
  fun b hb => W48_of_ne m c b (fun e => hb (Finset.mem_image.mpr ⟨(3 : Fin cfg14.W), Finset.mem_univ _, (show Pipeline.arrRef spec14 (3 : Fin cfg14.W) = b from e.symm)⟩))
abbrev W49 : Dev nD → Valuation τ sig (Elt F) := fun c => StableHlo.after hostOps15 (W48 m c)
/-- Region 15: entered at `W49`, left at `W50` (its output arrays at what its write-backs fold to, everything else as entered). -/
abbrev Vt49 : (c : Dev nD) → (b : Ref sig .tc) → Buf (Elt F) ((c : Thread nD τ).loc b) := fun c b => W49 m c b
def W50 (c : Dev nD) : Valuation τ sig (Elt F) :=
  Function.update (W49 m c) (Proc.devRef .tc main_v202) ((dat15 (Vt49 m) c).arrAt 3 cfg15.N)
abbrev Vt50 : (c : Dev nD) → (b : Ref sig .tc) → Buf (Elt F) ((c : Thread nD τ).loc b) := fun c b => W50 m c b
theorem W50_of_ne (c : Dev nD) (b : Ref sig .tc) (hb : b ≠ main_v202) :
    W50 m c (Proc.devRef .tc b) = W49 m c (Proc.devRef .tc b) := by
  unfold W50; exact Function.update_of_ne (StableHlo.devRef_ne_of_ne hb) _ _
theorem W50_out3 (c : Dev nD) : Vt50 m c main_v202 = (dat15 (Vt49 m) c).arrAt 3 cfg15.N := by
  show W50 m c (Proc.devRef .tc main_v202) = _
  unfold W50; exact Function.update_self _ _ _
set_option maxHeartbeats 4000000 in
theorem hF15 (c : Dev nD) (w : Fin cfg15.W) : (dat15 (Vt49 m) c).arrAt w cfg15.N = Vt50 m c (Pipeline.arrRef spec15 w) :=
  match w with
    | ⟨0, _⟩ => show (dat15 (Vt49 m) c).arrAt (0 : Fin cfg15.W) cfg15.N = W50 m c (Proc.devRef .tc main_v197) from
        (((dat15 (Vt49 m) c).arrAt_in (0 : Fin cfg15.W) rfl cfg15.N).trans
          (show (dat15 (Vt49 m) c).A (0 : Fin cfg15.W) = W49 m c (Proc.devRef .tc main_v197) from A_eq15 (Vt49 m) c (0 : Fin cfg15.W))).trans (W50_of_ne m c main_v197 (by decide)).symm
    | ⟨1, _⟩ => show (dat15 (Vt49 m) c).arrAt (1 : Fin cfg15.W) cfg15.N = W50 m c (Proc.devRef .tc main_v200) from
        (((dat15 (Vt49 m) c).arrAt_in (1 : Fin cfg15.W) rfl cfg15.N).trans
          (show (dat15 (Vt49 m) c).A (1 : Fin cfg15.W) = W49 m c (Proc.devRef .tc main_v200) from A_eq15 (Vt49 m) c (1 : Fin cfg15.W))).trans (W50_of_ne m c main_v200 (by decide)).symm
    | ⟨2, _⟩ => show (dat15 (Vt49 m) c).arrAt (2 : Fin cfg15.W) cfg15.N = W50 m c (Proc.devRef .tc main_v201) from
        (((dat15 (Vt49 m) c).arrAt_in (2 : Fin cfg15.W) rfl cfg15.N).trans
          (show (dat15 (Vt49 m) c).A (2 : Fin cfg15.W) = W49 m c (Proc.devRef .tc main_v201) from A_eq15 (Vt49 m) c (2 : Fin cfg15.W))).trans (W50_of_ne m c main_v201 (by decide)).symm
    | ⟨3, _⟩ => show (dat15 (Vt49 m) c).arrAt (3 : Fin cfg15.W) cfg15.N = W50 m c (Proc.devRef .tc main_v202) from (W50_out3 m c).symm
    | ⟨_ + 4, h⟩ => absurd h (Nat.not_lt.2 (Nat.le_add_left _ _))
theorem hrest15 (c : Dev nD) : ∀ b, b ∉ Finset.univ.image (Pipeline.arrRef spec15) → Vt50 m c b = Vt49 m c b :=
  fun b hb => W50_of_ne m c b (fun e => hb (Finset.mem_image.mpr ⟨(3 : Fin cfg15.W), Finset.mem_univ _, (show Pipeline.arrRef spec15 (3 : Fin cfg15.W) = b from e.symm)⟩))
abbrev W51 : Dev nD → Valuation τ sig (Elt F) := fun c => StableHlo.after hostOps16 (W50 m c)
/-- Region 16: entered at `W51`, left at `W52` (its output arrays at what its write-backs fold to, everything else as entered). -/
abbrev Vt51 : (c : Dev nD) → (b : Ref sig .tc) → Buf (Elt F) ((c : Thread nD τ).loc b) := fun c b => W51 m c b
def W52 (c : Dev nD) : Valuation τ sig (Elt F) :=
  Function.update (Function.update (W51 m c) (Proc.devRef .tc main_v204_0) ((dat16 (Vt51 m) c).arrAt 3 cfg16.N)) (Proc.devRef .tc main_v204_1) ((dat16 (Vt51 m) c).arrAt 4 cfg16.N)
abbrev Vt52 : (c : Dev nD) → (b : Ref sig .tc) → Buf (Elt F) ((c : Thread nD τ).loc b) := fun c b => W52 m c b
theorem W52_of_ne (c : Dev nD) (b : Ref sig .tc) (hb0 : b ≠ main_v204_0) (hb1 : b ≠ main_v204_1) :
    W52 m c (Proc.devRef .tc b) = W51 m c (Proc.devRef .tc b) := by
  unfold W52; exact (Function.update_of_ne (StableHlo.devRef_ne_of_ne hb1) _ _).trans (Function.update_of_ne (StableHlo.devRef_ne_of_ne hb0) _ _)
theorem W52_out4 (c : Dev nD) : Vt52 m c main_v204_1 = (dat16 (Vt51 m) c).arrAt 4 cfg16.N := by
  show W52 m c (Proc.devRef .tc main_v204_1) = _
  unfold W52; exact Function.update_self _ _ _
theorem W52_out3 (c : Dev nD) : Vt52 m c main_v204_0 = (dat16 (Vt51 m) c).arrAt 3 cfg16.N := by
  show W52 m c (Proc.devRef .tc main_v204_0) = _
  unfold W52; exact (Function.update_of_ne (StableHlo.devRef_ne_of_ne (by decide : main_v204_0 ≠ main_v204_1)) _ _).trans (Function.update_self _ _ _)
set_option maxHeartbeats 4000000 in
theorem hF16 (c : Dev nD) (w : Fin cfg16.W) : (dat16 (Vt51 m) c).arrAt w cfg16.N = Vt52 m c (Pipeline.arrRef spec16 w) :=
  match w with
    | ⟨0, _⟩ => show (dat16 (Vt51 m) c).arrAt (0 : Fin cfg16.W) cfg16.N = W52 m c (Proc.devRef .tc main_v202) from
        (((dat16 (Vt51 m) c).arrAt_in (0 : Fin cfg16.W) rfl cfg16.N).trans
          (show (dat16 (Vt51 m) c).A (0 : Fin cfg16.W) = W51 m c (Proc.devRef .tc main_v202) from A_eq16 (Vt51 m) c (0 : Fin cfg16.W))).trans (W52_of_ne m c main_v202 (by decide) (by decide)).symm
    | ⟨1, _⟩ => show (dat16 (Vt51 m) c).arrAt (1 : Fin cfg16.W) cfg16.N = W52 m c (Proc.devRef .tc main_arg13) from
        (((dat16 (Vt51 m) c).arrAt_in (1 : Fin cfg16.W) rfl cfg16.N).trans
          (show (dat16 (Vt51 m) c).A (1 : Fin cfg16.W) = W51 m c (Proc.devRef .tc main_arg13) from A_eq16 (Vt51 m) c (1 : Fin cfg16.W))).trans (W52_of_ne m c main_arg13 (by decide) (by decide)).symm
    | ⟨2, _⟩ => show (dat16 (Vt51 m) c).arrAt (2 : Fin cfg16.W) cfg16.N = W52 m c (Proc.devRef .tc main_v203) from
        (((dat16 (Vt51 m) c).arrAt_in (2 : Fin cfg16.W) rfl cfg16.N).trans
          (show (dat16 (Vt51 m) c).A (2 : Fin cfg16.W) = W51 m c (Proc.devRef .tc main_v203) from A_eq16 (Vt51 m) c (2 : Fin cfg16.W))).trans (W52_of_ne m c main_v203 (by decide) (by decide)).symm
    | ⟨3, _⟩ => show (dat16 (Vt51 m) c).arrAt (3 : Fin cfg16.W) cfg16.N = W52 m c (Proc.devRef .tc main_v204_0) from (W52_out3 m c).symm
    | ⟨4, _⟩ => show (dat16 (Vt51 m) c).arrAt (4 : Fin cfg16.W) cfg16.N = W52 m c (Proc.devRef .tc main_v204_1) from (W52_out4 m c).symm
    | ⟨_ + 5, h⟩ => absurd h (Nat.not_lt.2 (Nat.le_add_left _ _))
theorem hrest16 (c : Dev nD) : ∀ b, b ∉ Finset.univ.image (Pipeline.arrRef spec16) → Vt52 m c b = Vt51 m c b :=
  fun b hb => W52_of_ne m c b (fun e => hb (Finset.mem_image.mpr ⟨(3 : Fin cfg16.W), Finset.mem_univ _, (show Pipeline.arrRef spec16 (3 : Fin cfg16.W) = b from e.symm)⟩)) (fun e => hb (Finset.mem_image.mpr ⟨(4 : Fin cfg16.W), Finset.mem_univ _, (show Pipeline.arrRef spec16 (4 : Fin cfg16.W) = b from e.symm)⟩))
abbrev W53 : Dev nD → Valuation τ sig (Elt F) := fun c => StableHlo.after hostOps17 (W52 m c)
/-- Region 17: entered at `W53`, left at `W54` (its output arrays at what its write-backs fold to, everything else as entered). -/
abbrev Vt53 : (c : Dev nD) → (b : Ref sig .tc) → Buf (Elt F) ((c : Thread nD τ).loc b) := fun c b => W53 m c b
def W54 (c : Dev nD) : Valuation τ sig (Elt F) :=
  Function.update (W53 m c) (Proc.devRef .tc main_v207) ((dat17 (Vt53 m) c).arrAt 3 cfg17.N)
abbrev Vt54 : (c : Dev nD) → (b : Ref sig .tc) → Buf (Elt F) ((c : Thread nD τ).loc b) := fun c b => W54 m c b
theorem W54_of_ne (c : Dev nD) (b : Ref sig .tc) (hb : b ≠ main_v207) :
    W54 m c (Proc.devRef .tc b) = W53 m c (Proc.devRef .tc b) := by
  unfold W54; exact Function.update_of_ne (StableHlo.devRef_ne_of_ne hb) _ _
theorem W54_out3 (c : Dev nD) : Vt54 m c main_v207 = (dat17 (Vt53 m) c).arrAt 3 cfg17.N := by
  show W54 m c (Proc.devRef .tc main_v207) = _
  unfold W54; exact Function.update_self _ _ _
set_option maxHeartbeats 4000000 in
theorem hF17 (c : Dev nD) (w : Fin cfg17.W) : (dat17 (Vt53 m) c).arrAt w cfg17.N = Vt54 m c (Pipeline.arrRef spec17 w) :=
  match w with
    | ⟨0, _⟩ => show (dat17 (Vt53 m) c).arrAt (0 : Fin cfg17.W) cfg17.N = W54 m c (Proc.devRef .tc main_v179) from
        (((dat17 (Vt53 m) c).arrAt_in (0 : Fin cfg17.W) rfl cfg17.N).trans
          (show (dat17 (Vt53 m) c).A (0 : Fin cfg17.W) = W53 m c (Proc.devRef .tc main_v179) from A_eq17 (Vt53 m) c (0 : Fin cfg17.W))).trans (W54_of_ne m c main_v179 (by decide)).symm
    | ⟨1, _⟩ => show (dat17 (Vt53 m) c).arrAt (1 : Fin cfg17.W) cfg17.N = W54 m c (Proc.devRef .tc main_v204_1) from
        (((dat17 (Vt53 m) c).arrAt_in (1 : Fin cfg17.W) rfl cfg17.N).trans
          (show (dat17 (Vt53 m) c).A (1 : Fin cfg17.W) = W53 m c (Proc.devRef .tc main_v204_1) from A_eq17 (Vt53 m) c (1 : Fin cfg17.W))).trans (W54_of_ne m c main_v204_1 (by decide)).symm
    | ⟨2, _⟩ => show (dat17 (Vt53 m) c).arrAt (2 : Fin cfg17.W) cfg17.N = W54 m c (Proc.devRef .tc main_v206) from
        (((dat17 (Vt53 m) c).arrAt_in (2 : Fin cfg17.W) rfl cfg17.N).trans
          (show (dat17 (Vt53 m) c).A (2 : Fin cfg17.W) = W53 m c (Proc.devRef .tc main_v206) from A_eq17 (Vt53 m) c (2 : Fin cfg17.W))).trans (W54_of_ne m c main_v206 (by decide)).symm
    | ⟨3, _⟩ => show (dat17 (Vt53 m) c).arrAt (3 : Fin cfg17.W) cfg17.N = W54 m c (Proc.devRef .tc main_v207) from (W54_out3 m c).symm
    | ⟨_ + 4, h⟩ => absurd h (Nat.not_lt.2 (Nat.le_add_left _ _))
theorem hrest17 (c : Dev nD) : ∀ b, b ∉ Finset.univ.image (Pipeline.arrRef spec17) → Vt54 m c b = Vt53 m c b :=
  fun b hb => W54_of_ne m c b (fun e => hb (Finset.mem_image.mpr ⟨(3 : Fin cfg17.W), Finset.mem_univ _, (show Pipeline.arrRef spec17 (3 : Fin cfg17.W) = b from e.symm)⟩))
/-- Region 18: entered at `W54`, left at `W55` (its output arrays at what its write-backs fold to, everything else as entered). -/
def W55 (c : Dev nD) : Valuation τ sig (Elt F) :=
  Function.update (W54 m c) (Proc.devRef .tc main_v208) ((dat18 (Vt54 m) c).arrAt 2 cfg18.N)
abbrev Vt55 : (c : Dev nD) → (b : Ref sig .tc) → Buf (Elt F) ((c : Thread nD τ).loc b) := fun c b => W55 m c b
theorem W55_of_ne (c : Dev nD) (b : Ref sig .tc) (hb : b ≠ main_v208) :
    W55 m c (Proc.devRef .tc b) = W54 m c (Proc.devRef .tc b) := by
  unfold W55; exact Function.update_of_ne (StableHlo.devRef_ne_of_ne hb) _ _
theorem W55_out2 (c : Dev nD) : Vt55 m c main_v208 = (dat18 (Vt54 m) c).arrAt 2 cfg18.N := by
  show W55 m c (Proc.devRef .tc main_v208) = _
  unfold W55; exact Function.update_self _ _ _
set_option maxHeartbeats 4000000 in
theorem hF18 (c : Dev nD) (w : Fin cfg18.W) : (dat18 (Vt54 m) c).arrAt w cfg18.N = Vt55 m c (Pipeline.arrRef spec18 w) :=
  match w with
    | ⟨0, _⟩ => show (dat18 (Vt54 m) c).arrAt (0 : Fin cfg18.W) cfg18.N = W55 m c (Proc.devRef .tc main_v204_1) from
        (((dat18 (Vt54 m) c).arrAt_in (0 : Fin cfg18.W) rfl cfg18.N).trans
          (show (dat18 (Vt54 m) c).A (0 : Fin cfg18.W) = W54 m c (Proc.devRef .tc main_v204_1) from A_eq18 (Vt54 m) c (0 : Fin cfg18.W))).trans (W55_of_ne m c main_v204_1 (by decide)).symm
    | ⟨1, _⟩ => show (dat18 (Vt54 m) c).arrAt (1 : Fin cfg18.W) cfg18.N = W55 m c (Proc.devRef .tc main_v202) from
        (((dat18 (Vt54 m) c).arrAt_in (1 : Fin cfg18.W) rfl cfg18.N).trans
          (show (dat18 (Vt54 m) c).A (1 : Fin cfg18.W) = W54 m c (Proc.devRef .tc main_v202) from A_eq18 (Vt54 m) c (1 : Fin cfg18.W))).trans (W55_of_ne m c main_v202 (by decide)).symm
    | ⟨2, _⟩ => show (dat18 (Vt54 m) c).arrAt (2 : Fin cfg18.W) cfg18.N = W55 m c (Proc.devRef .tc main_v208) from (W55_out2 m c).symm
    | ⟨_ + 3, h⟩ => absurd h (Nat.not_lt.2 (Nat.le_add_left _ _))
theorem hrest18 (c : Dev nD) : ∀ b, b ∉ Finset.univ.image (Pipeline.arrRef spec18) → Vt55 m c b = Vt54 m c b :=
  fun b hb => W55_of_ne m c b (fun e => hb (Finset.mem_image.mpr ⟨(2 : Fin cfg18.W), Finset.mem_univ _, (show Pipeline.arrRef spec18 (2 : Fin cfg18.W) = b from e.symm)⟩))
/-- Region 19: entered at `W55`, left at `W56` (its output arrays at what its write-backs fold to, everything else as entered). -/
def W56 (c : Dev nD) : Valuation τ sig (Elt F) :=
  Function.update (W55 m c) (Proc.devRef .tc main_v209) ((dat19 (Vt55 m) c).arrAt 2 cfg19.N)
abbrev Vt56 : (c : Dev nD) → (b : Ref sig .tc) → Buf (Elt F) ((c : Thread nD τ).loc b) := fun c b => W56 m c b
theorem W56_of_ne (c : Dev nD) (b : Ref sig .tc) (hb : b ≠ main_v209) :
    W56 m c (Proc.devRef .tc b) = W55 m c (Proc.devRef .tc b) := by
  unfold W56; exact Function.update_of_ne (StableHlo.devRef_ne_of_ne hb) _ _
theorem W56_out2 (c : Dev nD) : Vt56 m c main_v209 = (dat19 (Vt55 m) c).arrAt 2 cfg19.N := by
  show W56 m c (Proc.devRef .tc main_v209) = _
  unfold W56; exact Function.update_self _ _ _
set_option maxHeartbeats 4000000 in
theorem hF19 (c : Dev nD) (w : Fin cfg19.W) : (dat19 (Vt55 m) c).arrAt w cfg19.N = Vt56 m c (Pipeline.arrRef spec19 w) :=
  match w with
    | ⟨0, _⟩ => show (dat19 (Vt55 m) c).arrAt (0 : Fin cfg19.W) cfg19.N = W56 m c (Proc.devRef .tc main_v204_1) from
        (((dat19 (Vt55 m) c).arrAt_in (0 : Fin cfg19.W) rfl cfg19.N).trans
          (show (dat19 (Vt55 m) c).A (0 : Fin cfg19.W) = W55 m c (Proc.devRef .tc main_v204_1) from A_eq19 (Vt55 m) c (0 : Fin cfg19.W))).trans (W56_of_ne m c main_v204_1 (by decide)).symm
    | ⟨1, _⟩ => show (dat19 (Vt55 m) c).arrAt (1 : Fin cfg19.W) cfg19.N = W56 m c (Proc.devRef .tc main_v207) from
        (((dat19 (Vt55 m) c).arrAt_in (1 : Fin cfg19.W) rfl cfg19.N).trans
          (show (dat19 (Vt55 m) c).A (1 : Fin cfg19.W) = W55 m c (Proc.devRef .tc main_v207) from A_eq19 (Vt55 m) c (1 : Fin cfg19.W))).trans (W56_of_ne m c main_v207 (by decide)).symm
    | ⟨2, _⟩ => show (dat19 (Vt55 m) c).arrAt (2 : Fin cfg19.W) cfg19.N = W56 m c (Proc.devRef .tc main_v209) from (W56_out2 m c).symm
    | ⟨_ + 3, h⟩ => absurd h (Nat.not_lt.2 (Nat.le_add_left _ _))
theorem hrest19 (c : Dev nD) : ∀ b, b ∉ Finset.univ.image (Pipeline.arrRef spec19) → Vt56 m c b = Vt55 m c b :=
  fun b hb => W56_of_ne m c b (fun e => hb (Finset.mem_image.mpr ⟨(2 : Fin cfg19.W), Finset.mem_univ _, (show Pipeline.arrRef spec19 (2 : Fin cfg19.W) = b from e.symm)⟩))
/-- Region 20: entered at `W56`, left at `W57` (its output arrays at what its write-backs fold to, everything else as entered). -/
def W57 (c : Dev nD) : Valuation τ sig (Elt F) :=
  Function.update (W56 m c) (Proc.devRef .tc main_v210) ((dat20 (Vt56 m) c).arrAt 2 cfg20.N)
abbrev Vt57 : (c : Dev nD) → (b : Ref sig .tc) → Buf (Elt F) ((c : Thread nD τ).loc b) := fun c b => W57 m c b
theorem W57_of_ne (c : Dev nD) (b : Ref sig .tc) (hb : b ≠ main_v210) :
    W57 m c (Proc.devRef .tc b) = W56 m c (Proc.devRef .tc b) := by
  unfold W57; exact Function.update_of_ne (StableHlo.devRef_ne_of_ne hb) _ _
theorem W57_out2 (c : Dev nD) : Vt57 m c main_v210 = (dat20 (Vt56 m) c).arrAt 2 cfg20.N := by
  show W57 m c (Proc.devRef .tc main_v210) = _
  unfold W57; exact Function.update_self _ _ _
abbrev W58 : Dev nD → Valuation τ sig (Elt F) := fun c => StableHlo.after hostOps21 (W57 m c)
abbrev W59 : Dev nD → Valuation τ sig (Elt F) := fun c => StableHlo.after hostOps21_1 (W58 m c)
abbrev W60 : Dev nD → Valuation τ sig (Elt F) := fun c => StableHlo.after hostOps21_2 (W59 m c)
abbrev W61 : Dev nD → Valuation τ sig (Elt F) := fun c => StableHlo.after hostOps21_3 (W60 m c)
abbrev W62 : Dev nD → Valuation τ sig (Elt F) := fun c => StableHlo.after hostOps21_4 (W61 m c)
abbrev W63 : Dev nD → Valuation τ sig (Elt F) := fun c => StableHlo.after hostOps21_5 (W62 m c)

/-! ## The proof data family and the thread state -/
abbrev adm : (p : Fin 21) → (pcfgs (F := F) p).Adm := fun p => (cfgs p).toPCfg_adm
def pdats : (p : Fin 21) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt6 m) c
  | ⟨2, _⟩ => fun c => dat2 (Vt10 m) c
  | ⟨3, _⟩ => fun c => dat3 (Vt16 m) c
  | ⟨4, _⟩ => fun c => dat4 (Vt18 m) c
  | ⟨5, _⟩ => fun c => dat5 (Vt19 m) c
  | ⟨6, _⟩ => fun c => dat6 (Vt20 m) c
  | ⟨7, _⟩ => fun c => dat7 (Vt29 m) c
  | ⟨8, _⟩ => fun c => dat8 (Vt31 m) c
  | ⟨9, _⟩ => fun c => dat9 (Vt33 m) c
  | ⟨10, _⟩ => fun c => dat10 (Vt35 m) c
  | ⟨11, _⟩ => fun c => dat11 (Vt36 m) c
  | ⟨12, _⟩ => fun c => dat12 (Vt37 m) c
  | ⟨13, _⟩ => fun c => dat13 (Vt38 m) c
  | ⟨14, _⟩ => fun c => dat14 (Vt47 m) c
  | ⟨15, _⟩ => fun c => dat15 (Vt49 m) c
  | ⟨16, _⟩ => fun c => dat16 (Vt51 m) c
  | ⟨17, _⟩ => fun c => dat17 (Vt53 m) c
  | ⟨18, _⟩ => fun c => dat18 (Vt54 m) c
  | ⟨19, _⟩ => fun c => dat19 (Vt55 m) c
  | ⟨20, _⟩ => fun c => dat20 (Vt56 m) c
  | ⟨_ + 21, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps3_1_fresh : (hostOps3_1 : List (HloOp τ sig (Elt F))).Forall fun op => op.fresh = ∅ := by
  simp only [List.Forall]; repeat' constructor
theorem hostOps3_2_fresh : (hostOps3_2 : List (HloOp τ sig (Elt F))).Forall fun op => op.fresh = ∅ := by
  simp only [List.Forall]; repeat' constructor
theorem hostOps3_3_fresh : (hostOps3_3 : List (HloOp τ sig (Elt F))).Forall fun op => op.fresh = ∅ := by
  simp only [List.Forall]; repeat' constructor
theorem hostOps3_4_fresh : (hostOps3_4 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem hostOps7_fresh : (hostOps7 : List (HloOp τ sig (Elt F))).Forall fun op => op.fresh = ∅ := by
  simp only [List.Forall]; repeat' constructor
theorem hostOps7_1_fresh : (hostOps7_1 : List (HloOp τ sig (Elt F))).Forall fun op => op.fresh = ∅ := by
  simp only [List.Forall]; repeat' constructor
theorem hostOps7_2_fresh : (hostOps7_2 : List (HloOp τ sig (Elt F))).Forall fun op => op.fresh = ∅ := by
  simp only [List.Forall]; repeat' constructor
theorem hostOps7_3_fresh : (hostOps7_3 : List (HloOp τ sig (Elt F))).Forall fun op => op.fresh = ∅ := by
  simp only [List.Forall]; repeat' constructor
theorem hostOps7_4_fresh : (hostOps7_4 : List (HloOp τ sig (Elt F))).Forall fun op => op.fresh = ∅ := by
  simp only [List.Forall]; repeat' constructor
theorem hostOps7_5_fresh : (hostOps7_5 : List (HloOp τ sig (Elt F))).Forall fun op => op.fresh = ∅ := by
  simp only [List.Forall]; repeat' constructor
theorem hostOps7_6_fresh : (hostOps7_6 : List (HloOp τ sig (Elt F))).Forall fun op => op.fresh = ∅ := by
  simp only [List.Forall]; repeat' constructor
theorem hostOps7_7_fresh : (hostOps7_7 : List (HloOp τ sig (Elt F))).Forall fun op => op.fresh = ∅ := by
  simp only [List.Forall]; repeat' constructor
theorem hostOps8_fresh : (hostOps8 : List (HloOp τ sig (Elt F))).Forall fun op => op.fresh = ∅ := by
  simp only [List.Forall]; repeat' constructor
theorem hostOps9_fresh : (hostOps9 : List (HloOp τ sig (Elt F))).Forall fun op => op.fresh = ∅ := by
  simp only [List.Forall]; repeat' constructor
theorem hostOps10_fresh : (hostOps10 : List (HloOp τ sig (Elt F))).Forall fun op => op.fresh = ∅ := by
  simp only [List.Forall]; repeat' constructor
theorem hostOps14_fresh : (hostOps14 : List (HloOp τ sig (Elt F))).Forall fun op => op.fresh = ∅ := by
  simp only [List.Forall]; repeat' constructor
theorem hostOps14_1_fresh : (hostOps14_1 : List (HloOp τ sig (Elt F))).Forall fun op => op.fresh = ∅ := by
  simp only [List.Forall]; repeat' constructor
theorem hostOps14_2_fresh : (hostOps14_2 : List (HloOp τ sig (Elt F))).Forall fun op => op.fresh = ∅ := by
  simp only [List.Forall]; repeat' constructor
theorem hostOps14_3_fresh : (hostOps14_3 : List (HloOp τ sig (Elt F))).Forall fun op => op.fresh = ∅ := by
  simp only [List.Forall]; repeat' constructor
theorem hostOps14_4_fresh : (hostOps14_4 : List (HloOp τ sig (Elt F))).Forall fun op => op.fresh = ∅ := by
  simp only [List.Forall]; repeat' constructor
theorem hostOps14_5_fresh : (hostOps14_5 : List (HloOp τ sig (Elt F))).Forall fun op => op.fresh = ∅ := by
  simp only [List.Forall]; repeat' constructor
theorem hostOps14_6_fresh : (hostOps14_6 : List (HloOp τ sig (Elt F))).Forall fun op => op.fresh = ∅ := by
  simp only [List.Forall]; repeat' constructor
theorem hostOps14_7_fresh : (hostOps14_7 : List (HloOp τ sig (Elt F))).Forall fun op => op.fresh = ∅ := by
  simp only [List.Forall]; repeat' constructor
theorem hostOps15_fresh : (hostOps15 : List (HloOp τ sig (Elt F))).Forall fun op => op.fresh = ∅ := by
  simp only [List.Forall]; repeat' constructor
theorem hostOps16_fresh : (hostOps16 : List (HloOp τ sig (Elt F))).Forall fun op => op.fresh = ∅ := by
  simp only [List.Forall]; repeat' constructor
theorem hostOps17_fresh : (hostOps17 : List (HloOp τ sig (Elt F))).Forall fun op => op.fresh = ∅ := by
  simp only [List.Forall]; repeat' constructor
theorem hostOps21_fresh : (hostOps21 : List (HloOp τ sig (Elt F))).Forall fun op => op.fresh = ∅ := by
  simp only [List.Forall]; repeat' constructor
theorem hostOps21_1_fresh : (hostOps21_1 : List (HloOp τ sig (Elt F))).Forall fun op => op.fresh = ∅ := by
  simp only [List.Forall]; repeat' constructor
theorem hostOps21_2_fresh : (hostOps21_2 : List (HloOp τ sig (Elt F))).Forall fun op => op.fresh = ∅ := by
  simp only [List.Forall]; repeat' constructor
theorem hostOps21_3_fresh : (hostOps21_3 : List (HloOp τ sig (Elt F))).Forall fun op => op.fresh = ∅ := by
  simp only [List.Forall]; repeat' constructor
theorem hostOps21_4_fresh : (hostOps21_4 : List (HloOp τ sig (Elt F))).Forall fun op => op.fresh = ∅ := by
  simp only [List.Forall]; repeat' constructor
theorem hostOps21_5_fresh : (hostOps21_5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W63 m c) ∗ ∃ r, prngReg c r)

end Cert.Kernel.Hand

end
-- ==== Proof.K.Regs.lean ====
/- Each kernel region of Kernel's @main as a segment over the thread state "every unscoped buffer at the boundary's
   contents, the generator register at some state, nothing owed": its arrays split out of the unscoped buffers at entry and
   put back at the exit contents. -/
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import proofs.«405323_j90718299226206_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/
set_option backward.isDefEq.respectTransparency.types false in
/-- REGION 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi_first0 (Vt1 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (Vt1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W6`, left at `W7`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vt6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vt6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi_first1 (Vt6 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (Vt6 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt6 m c) (Vt7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W10`, left at `W11`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vt10 m) c).loose
  hwaits := Pipeline.hwaits_of_owed_zero _ _ _ _ L lv 2 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec2 c (Vt10 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from Phi_first2 (Vt10 m) c]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi_last2 (Vt10 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt10 m c) (Vt11 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W16`, left at `W17`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vt16 m) c).loose
  hwaits := Pipeline.hwaits_of_owed_zero _ _ _ _ L lv 3 fun _ _ => rfl
  pre c := iprop(StableHlo.held (c : Thread nD τ) (Pipeline.ucRefs τ sig) (W16 m c) ∗ R c)
  post c := iprop(StableHlo.held (c : Thread nD τ) (Pipeline.ucRefs τ sig) (W17 m c) ∗ R c)
  X c := iprop(∃ r, prngReg c r)
  Y c := iprop(∃ r, prngReg c r)
  Z c := Pipeline.unscopedRest (Ix := Unit) (Name := ℕ) (U := UR sig nD τ) (Lvl := ℕ) spec3 c (Vt16 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vt16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from Phi_first3 (Vt16 m) c]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from Phi_last3 (Vt16 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vt16 m c) (Vt17 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W18`, left at `W19`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vt18 m) c).loose
  hwaits := Pipeline.hwaits_of_owed_zero _ _ _ _ L lv 4 fun _ _ => rfl
  pre c := iprop(StableHlo.held (c : Thread nD τ) (Pipeline.ucRefs τ sig) (W18 m c) ∗ R c)
  post c := iprop(StableHlo.held (c : Thread nD τ) (Pipeline.ucRefs τ sig) (W19 m c) ∗ R c)
  X c := iprop(∃ r, prngReg c r)
  Y c := iprop(∃ r, prngReg c r)
  Z c := Pipeline.unscopedRest (Ix := Unit) (Name := ℕ) (U := UR sig nD τ) (Lvl := ℕ) spec4 c (Vt18 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vt18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from Phi_first4 (Vt18 m) c]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from Phi_last4 (Vt18 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vt18 m c) (Vt19 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W19`, left at `W20`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vt19 m) c).loose
  hwaits := Pipeline.hwaits_of_owed_zero _ _ _ _ L lv 5 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec5 c (Vt19 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vt19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from Phi_first5 (Vt19 m) c]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from Phi_last5 (Vt19 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vt19 m c) (Vt20 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W29`, left at `W30`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vt29 m) c).loose
  hwaits := Pipeline.hwaits_of_owed_zero _ _ _ _ L lv 7 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec7 c (Vt29 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vt29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from Phi_first7 (Vt29 m) c]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from Phi_last7 (Vt29 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vt29 m c) (Vt30 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W31`, left at `W32`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vt31 m) c).loose
  hwaits := Pipeline.hwaits_of_owed_zero _ _ _ _ L lv 8 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec8 c (Vt31 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vt31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from Phi_first8 (Vt31 m) c]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from Phi_last8 (Vt31 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vt31 m c) (Vt32 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W33`, left at `W34`. -/
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vt33 m) c).loose
  hwaits := Pipeline.hwaits_of_owed_zero _ _ _ _ L lv 9 fun _ _ => rfl
  pre c := iprop(StableHlo.held (c : Thread nD τ) (Pipeline.ucRefs τ sig) (W33 m c) ∗ R c)
  post c := iprop(StableHlo.held (c : Thread nD τ) (Pipeline.ucRefs τ sig) (W34 m c) ∗ R c)
  X c := iprop(∃ r, prngReg c r)
  Y c := iprop(∃ r, prngReg c r)
  Z c := Pipeline.unscopedRest (Ix := Unit) (Name := ℕ) (U := UR sig nD τ) (Lvl := ℕ) spec9 c (Vt33 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vt33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from Phi_first9 (Vt33 m) c]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from Phi_last9 (Vt33 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vt33 m c) (Vt34 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered from every unscoped buffer at `W35`, left at `W36`. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vt35 m) c).loose
  hwaits := Pipeline.hwaits_of_owed_zero _ _ _ _ L lv 10 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec10 c (Vt35 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vt35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from Phi_first10 (Vt35 m) c]; unfold Pipeline.ΦA
    iintro ⟨Hp, -, Hr⟩
    isplitl [Hr]; · iexact Hr
    iexact Hp
  hout c := by
    rw [Pipeline.ownSems0_none]
    refine (show (pdats m 10 c).Φ (Fin.last _) ⊢ Pipeline.ΦA spec10 c from Phi_last10 (Vt35 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vt35 m c) (Vt36 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 11 over the thread state: entered from every unscoped buffer at `W36`, left at `W37`. -/
def reg11 : Pipeline.RegionSeg (pcfgs (F := F)) adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vt36 m) c).loose
  hwaits := Pipeline.hwaits_of_owed_zero _ _ _ _ L lv 11 fun _ _ => rfl
  pre c := iprop(StableHlo.held (c : Thread nD τ) (Pipeline.ucRefs τ sig) (W36 m c) ∗ R c)
  post c := iprop(StableHlo.held (c : Thread nD τ) (Pipeline.ucRefs τ sig) (W37 m c) ∗ R c)
  X c := iprop(∃ r, prngReg c r)
  Y c := iprop(∃ r, prngReg c r)
  Z c := Pipeline.unscopedRest (Ix := Unit) (Name := ℕ) (U := UR sig nD τ) (Lvl := ℕ) spec11 c (Vt36 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vt36 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from Phi_first11 (Vt36 m) c]; unfold Pipeline.ΦA
    iintro ⟨Hp, -, Hr⟩
    isplitl [Hr]; · iexact Hr
    iexact Hp
  hout c := by
    rw [Pipeline.ownSems0_none]
    refine (show (pdats m 11 c).Φ (Fin.last _) ⊢ Pipeline.ΦA spec11 c from Phi_last11 (Vt36 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vt36 m c) (Vt37 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 12 over the thread state: entered from every unscoped buffer at `W37`, left at `W38`. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vt37 m) c).loose
  hwaits := Pipeline.hwaits_of_owed_zero _ _ _ _ L lv 12 fun _ _ => rfl
  pre c := iprop(StableHlo.held (c : Thread nD τ) (Pipeline.ucRefs τ sig) (W37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec12 c (Vt37 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vt37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from Phi_first12 (Vt37 m) c]; unfold Pipeline.ΦA
    iintro ⟨Hp, -, Hr⟩
    isplitl [Hr]; · iexact Hr
    iexact Hp
  hout c := by
    rw [Pipeline.ownSems0_none]
    refine (show (pdats m 12 c).Φ (Fin.last _) ⊢ Pipeline.ΦA spec12 c from Phi_last12 (Vt37 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vt37 m c) (Vt38 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 14 over the thread state: entered from every unscoped buffer at `W47`, left at `W48`. -/
def reg14 : Pipeline.RegionSeg (pcfgs (F := F)) adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (Vt47 m) c).loose
  hwaits := Pipeline.hwaits_of_owed_zero _ _ _ _ L lv 14 fun _ _ => rfl
  pre c := iprop(StableHlo.held (c : Thread nD τ) (Pipeline.ucRefs τ sig) (W47 m c) ∗ R c)
  post c := iprop(StableHlo.held (c : Thread nD τ) (Pipeline.ucRefs τ sig) (W48 m c) ∗ R c)
  X c := iprop(∃ r, prngReg c r)
  Y c := iprop(∃ r, prngReg c r)
  Z c := Pipeline.unscopedRest (Ix := Unit) (Name := ℕ) (U := UR sig nD τ) (Lvl := ℕ) spec14 c (Vt47 m c)
  hentry c := by
    rw [Pipeline.ownSems0_none]
    have hsplit := Pipeline.arrays_of_unscopedBufs (p := 14) (pcfgs (F := F)) adm (pdats m) launch14.win launch14.arr_whole c
      ((pdats m 14 c).share_full fun _ => rfl) (Vt47 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from Phi_first14 (Vt47 m) c]; unfold Pipeline.ΦA
    iintro ⟨Hp, -, Hr⟩
    isplitl [Hr]; · iexact Hr
    iexact Hp
  hout c := by
    rw [Pipeline.ownSems0_none]
    refine (show (pdats m 14 c).Φ (Fin.last _) ⊢ Pipeline.ΦA spec14 c from Phi_last14 (Vt47 m) c).trans ?_
    unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m) ((pdats m 14 c).share_full fun _ => rfl)
      (Vt47 m c) (Vt48 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 15 over the thread state: entered from every unscoped buffer at `W49`, left at `W50`. -/
def reg15 : Pipeline.RegionSeg (pcfgs (F := F)) adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (Vt49 m) c).loose
  hwaits := Pipeline.hwaits_of_owed_zero _ _ _ _ L lv 15 fun _ _ => rfl
  pre c := iprop(StableHlo.held (c : Thread nD τ) (Pipeline.ucRefs τ sig) (W49 m c) ∗ R c)
  post c := iprop(StableHlo.held (c : Thread nD τ) (Pipeline.ucRefs τ sig) (W50 m c) ∗ R c)
  X c := iprop(∃ r, prngReg c r)
  Y c := iprop(∃ r, prngReg c r)
  Z c := Pipeline.unscopedRest (Ix := Unit) (Name := ℕ) (U := UR sig nD τ) (Lvl := ℕ) spec15 c (Vt49 m c)
  hentry c := by
    rw [Pipeline.ownSems0_none]
    have hsplit := Pipeline.arrays_of_unscopedBufs (p := 15) (pcfgs (F := F)) adm (pdats m) launch15.win launch15.arr_whole c
      ((pdats m 15 c).share_full fun _ => rfl) (Vt49 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from Phi_first15 (Vt49 m) c]; unfold Pipeline.ΦA
    iintro ⟨Hp, -, Hr⟩
    isplitl [Hr]; · iexact Hr
    iexact Hp
  hout c := by
    rw [Pipeline.ownSems0_none]
    refine (show (pdats m 15 c).Φ (Fin.last _) ⊢ Pipeline.ΦA spec15 c from Phi_last15 (Vt49 m) c).trans ?_
    unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m) ((pdats m 15 c).share_full fun _ => rfl)
      (Vt49 m c) (Vt50 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 16 over the thread state: entered from every unscoped buffer at `W51`, left at `W52`. -/
def reg16 : Pipeline.RegionSeg (pcfgs (F := F)) adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (Vt51 m) c).loose
  hwaits := Pipeline.hwaits_of_owed_zero _ _ _ _ L lv 16 fun _ _ => rfl
  pre c := iprop(StableHlo.held (c : Thread nD τ) (Pipeline.ucRefs τ sig) (W51 m c) ∗ R c)
  post c := iprop(StableHlo.held (c : Thread nD τ) (Pipeline.ucRefs τ sig) (W52 m c) ∗ R c)
  X c := iprop(∃ r, prngReg c r)
  Y c := iprop(∃ r, prngReg c r)
  Z c := Pipeline.unscopedRest (Ix := Unit) (Name := ℕ) (U := UR sig nD τ) (Lvl := ℕ) spec16 c (Vt51 m c)
  hentry c := by
    rw [Pipeline.ownSems0_none]
    have hsplit := Pipeline.arrays_of_unscopedBufs (p := 16) (pcfgs (F := F)) adm (pdats m) launch16.win launch16.arr_whole c
      ((pdats m 16 c).share_full fun _ => rfl) (Vt51 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from Phi_first16 (Vt51 m) c]; unfold Pipeline.ΦA
    iintro ⟨Hp, -, Hr⟩
    isplitl [Hr]; · iexact Hr
    iexact Hp
  hout c := by
    rw [Pipeline.ownSems0_none]
    refine (show (pdats m 16 c).Φ (Fin.last _) ⊢ Pipeline.ΦA spec16 c from Phi_last16 (Vt51 m) c).trans ?_
    unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m) ((pdats m 16 c).share_full fun _ => rfl)
      (Vt51 m c) (Vt52 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 17 over the thread state: entered from every unscoped buffer at `W53`, left at `W54`. -/
def reg17 : Pipeline.RegionSeg (pcfgs (F := F)) adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (Vt53 m) c).loose
  hwaits := Pipeline.hwaits_of_owed_zero _ _ _ _ L lv 17 fun _ _ => rfl
  pre c := iprop(StableHlo.held (c : Thread nD τ) (Pipeline.ucRefs τ sig) (W53 m c) ∗ R c)
  post c := iprop(StableHlo.held (c : Thread nD τ) (Pipeline.ucRefs τ sig) (W54 m c) ∗ R c)
  X c := iprop(∃ r, prngReg c r)
  Y c := iprop(∃ r, prngReg c r)
  Z c := Pipeline.unscopedRest (Ix := Unit) (Name := ℕ) (U := UR sig nD τ) (Lvl := ℕ) spec17 c (Vt53 m c)
  hentry c := by
    rw [Pipeline.ownSems0_none]
    have hsplit := Pipeline.arrays_of_unscopedBufs (p := 17) (pcfgs (F := F)) adm (pdats m) launch17.win launch17.arr_whole c
      ((pdats m 17 c).share_full fun _ => rfl) (Vt53 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from Phi_first17 (Vt53 m) c]; unfold Pipeline.ΦA
    iintro ⟨Hp, -, Hr⟩
    isplitl [Hr]; · iexact Hr
    iexact Hp
  hout c := by
    rw [Pipeline.ownSems0_none]
    refine (show (pdats m 17 c).Φ (Fin.last _) ⊢ Pipeline.ΦA spec17 c from Phi_last17 (Vt53 m) c).trans ?_
    unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m) ((pdats m 17 c).share_full fun _ => rfl)
      (Vt53 m c) (Vt54 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 18 over the thread state: entered from every unscoped buffer at `W54`, left at `W55`. -/
def reg18 : Pipeline.RegionSeg (pcfgs (F := F)) adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (Vt54 m) c).loose
  hwaits := Pipeline.hwaits_of_owed_zero _ _ _ _ L lv 18 fun _ _ => rfl
  pre c := iprop(StableHlo.held (c : Thread nD τ) (Pipeline.ucRefs τ sig) (W54 m c) ∗ R c)
  post c := iprop(StableHlo.held (c : Thread nD τ) (Pipeline.ucRefs τ sig) (W55 m c) ∗ R c)
  X c := iprop(∃ r, prngReg c r)
  Y c := iprop(∃ r, prngReg c r)
  Z c := Pipeline.unscopedRest (Ix := Unit) (Name := ℕ) (U := UR sig nD τ) (Lvl := ℕ) spec18 c (Vt54 m c)
  hentry c := by
    rw [Pipeline.ownSems0_none]
    have hsplit := Pipeline.arrays_of_unscopedBufs (p := 18) (pcfgs (F := F)) adm (pdats m) launch18.win launch18.arr_whole c
      ((pdats m 18 c).share_full fun _ => rfl) (Vt54 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from Phi_first18 (Vt54 m) c]; unfold Pipeline.ΦA
    iintro ⟨Hp, -, Hr⟩
    isplitl [Hr]; · iexact Hr
    iexact Hp
  hout c := by
    rw [Pipeline.ownSems0_none]
    refine (show (pdats m 18 c).Φ (Fin.last _) ⊢ Pipeline.ΦA spec18 c from Phi_last18 (Vt54 m) c).trans ?_
    unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m) ((pdats m 18 c).share_full fun _ => rfl)
      (Vt54 m c) (Vt55 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 19 over the thread state: entered from every unscoped buffer at `W55`, left at `W56`. -/
def reg19 : Pipeline.RegionSeg (pcfgs (F := F)) adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (Vt55 m) c).loose
  hwaits := Pipeline.hwaits_of_owed_zero _ _ _ _ L lv 19 fun _ _ => rfl
  pre c := iprop(StableHlo.held (c : Thread nD τ) (Pipeline.ucRefs τ sig) (W55 m c) ∗ R c)
  post c := iprop(StableHlo.held (c : Thread nD τ) (Pipeline.ucRefs τ sig) (W56 m c) ∗ R c)
  X c := iprop(∃ r, prngReg c r)
  Y c := iprop(∃ r, prngReg c r)
  Z c := Pipeline.unscopedRest (Ix := Unit) (Name := ℕ) (U := UR sig nD τ) (Lvl := ℕ) spec19 c (Vt55 m c)
  hentry c := by
    rw [Pipeline.ownSems0_none]
    have hsplit := Pipeline.arrays_of_unscopedBufs (p := 19) (pcfgs (F := F)) adm (pdats m) launch19.win launch19.arr_whole c
      ((pdats m 19 c).share_full fun _ => rfl) (Vt55 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from Phi_first19 (Vt55 m) c]; unfold Pipeline.ΦA
    iintro ⟨Hp, -, Hr⟩
    isplitl [Hr]; · iexact Hr
    iexact Hp
  hout c := by
    rw [Pipeline.ownSems0_none]
    refine (show (pdats m 19 c).Φ (Fin.last _) ⊢ Pipeline.ΦA spec19 c from Phi_last19 (Vt55 m) c).trans ?_
    unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m) ((pdats m 19 c).share_full fun _ => rfl)
      (Vt55 m c) (Vt56 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Shared.lean ====
/-
  REGIONS WHOSE TWO INPUT WINDOWS READ ONE ARRAY. A kernel region with three windows — inputs w0 and w1 on the SAME buffer,
  output w2 on another — holds that common buffer once, whole, among the core's unscoped buffers, while the pipeline's
  `arrays` asks for one points-to per window. The full share of the common buffer is the composite of its left and right
  halves; window w0 takes the left half, window w1 the right half, and at the exit the two halves (the inputs are never
  written, so both still hold the entry contents) recombine into the full share. The output window's buffer is held whole
  throughout. These are the entry and exit entailments of such a region, in the shape of the ones for distinct arrays.
-/
import proofs.«405323_j90718299226206_3_alg».proof.Proof.Gen.Kernel.Launch
import proofs.«405323_j90718299226206_3_alg».proof.Proof.Gen.Kernel.Points
import Idealize.ShloMosaic.Lib.Pipeline.RegionsLoop
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Shared

variable {cfg : Pipeline.Cfg sig Λ₀} (c : Dev nD) (dat : Dat τ (Elt F) Unit ℕ (UR sig nD τ) ℕ cfg c)
  (w0 w1 w2 : Fin cfg.W)

/-- The window pattern: exactly three windows; w0 and w1 are inputs on one buffer, w2 an output on another; every
    array a whole buffer; the proof data splits the common buffer's full share into its left half (w0) and right half (w1). -/
structure Pattern : Prop where
  all : ∀ w : Fin cfg.W, w = w0 ∨ w = w1 ∨ w = w2
  ne01 : w0 ≠ w1
  ne02 : w0 ≠ w2
  ne12 : w1 ≠ w2
  same : Pipeline.arrRef cfg.spec w1 = Pipeline.arrRef cfg.spec w0
  other : Pipeline.arrRef cfg.spec w2 ≠ Pipeline.arrRef cfg.spec w0
  in0 : (cfg.win w0).isOut = false
  in1 : (cfg.win w1).isOut = false
  out2 : (cfg.win w2).isOut = true
  q0 : dat.q w0 = fullShare.left
  q1 : dat.q w1 = fullShare.right
  whole : ∀ w, (cfg.spec w).arr.IsWhole

variable {c dat w0 w1 w2}

theorem Pattern.share0 (h : Pattern c dat w0 w1 w2) : dat.share w0 = fullShare.left := by
  unfold Dat.share; rw [h.in0]; exact h.q0
theorem Pattern.share1 (h : Pattern c dat w0 w1 w2) : dat.share w1 = fullShare.right := by
  unfold Dat.share; rw [h.in1]; exact h.q1
theorem Pattern.share2 (h : Pattern c dat w0 w1 w2) : dat.share w2 = fullShare := by
  unfold Dat.share; rw [h.out2]; rfl

/-- The distinct buffers behind the three windows are the common one and the output's. -/
theorem Pattern.image (h : Pattern c dat w0 w1 w2) :
    Finset.univ.image (Pipeline.arrRef cfg.spec) = {Pipeline.arrRef cfg.spec w0, Pipeline.arrRef cfg.spec w2} := by
  classical
  ext b
  simp only [Finset.mem_image, Finset.mem_univ, true_and, Finset.mem_insert, Finset.mem_singleton]
  constructor
  · rintro ⟨w, rfl⟩
    rcases h.all w with rfl | rfl | rfl
    · exact Or.inl rfl
    · exact Or.inl h.same
    · exact Or.inr rfl
  · rintro (rfl | rfl)
    · exact ⟨w0, rfl⟩
    · exact ⟨w2, rfl⟩

theorem Pattern.univ (h : Pattern c dat w0 w1 w2) : (Finset.univ : Finset (Fin cfg.W)) = {w0, w1, w2} := by
  ext w; simp only [Finset.mem_univ, Finset.mem_insert, Finset.mem_singleton, true_iff]; exact h.all w

/-- A points-to of one buffer under another name of the same buffer. -/
theorem pt_congr (c : Dev nD) (V : (b : Ref sig .tc) → Buf (Elt F) ((c : Thread nD τ).loc b)) (q : PosShare TreeShare)
    {b b' : Ref sig .tc} (e : b' = b) :
    ((((c : Thread nD τ).loc b') ↦{q} V b' : sProp 𝕄)) = (((c : Thread nD τ).loc b) ↦{q} V b) := by subst e; rfl

/-- The two buffers, each whole at the full share at contents `V`, ARE the three windows' arrays at contents read off
    `V`: the common buffer's full share is its left half (window w0) beside its right half (window w1). -/
theorem arrBufs_eq_arrays (h : Pattern c dat w0 w1 w2) (V : (b : Ref sig .tc) → Buf (Elt F) ((c : Thread nD τ).loc b))
    (G : (w : Fin cfg.W) → Buf (Elt F) ((cfg.win w).arr.view.loc (c : Thread nD τ)))
    (hG : ∀ w, G w = V (Pipeline.arrRef cfg.spec w)) :
    (Pipeline.arrBufs (Ix := Unit) (Name := ℕ) (U := UR sig nD τ) (Lvl := ℕ) cfg.spec c V : sProp 𝕄) = dat.arrays G := by
  classical
  unfold Pipeline.arrBufs Dat.arrays
  rw [h.image, h.univ, bigSep_insert (by simpa using h.other.symm), bigSep_singleton,
    bigSep_insert (by simp [h.ne01, h.ne02]), bigSep_insert (by simpa using h.ne12), bigSep_singleton,
    (h.whole w0).set_eq_univ, (h.whole w1).set_eq_univ, (h.whole w2).set_eq_univ, h.share0, h.share1, h.share2,
    hG w0, hG w1, hG w2]
  have e1 : ((((cfg.win w1).arr.view.loc (c : Thread nD τ)) ↦[Finset.univ]{fullShare.right} V (Pipeline.arrRef cfg.spec w1) : sProp 𝕄))
      = (((c : Thread nD τ).loc (Pipeline.arrRef cfg.spec w0)) ↦{fullShare.right} V (Pipeline.arrRef cfg.spec w0)) :=
    pt_congr c V _ h.same
  have hsh : ((((c : Thread nD τ).loc (Pipeline.arrRef cfg.spec w0)) ↦{fullShare} V (Pipeline.arrRef cfg.spec w0) : sProp 𝕄))
      = iprop((((c : Thread nD τ).loc (Pipeline.arrRef cfg.spec w0)) ↦{fullShare.left} V (Pipeline.arrRef cfg.spec w0))
          ∗ (((c : Thread nD τ).loc (Pipeline.arrRef cfg.spec w0)) ↦{fullShare.right} V (Pipeline.arrRef cfg.spec w0))) :=
    equiv_iff.mp ⟨(pointsTo_share (PosShare.mem_left_op_right fullShare)).1, (pointsTo_share (PosShare.mem_left_op_right fullShare)).2⟩
  rw [e1, hsh]
  exact equiv_iff.mp ⟨sep_assoc, sep_assoc'⟩

/-- ENTRY, the arrays' part: the core's unscoped buffers at contents `V` are the region's arrays at the proof data's
    entry contents — read off `V` (`hA`) — and the unscoped rest. -/
theorem arrays_of_unscopedBufs (h : Pattern c dat w0 w1 w2) (hw : Pipeline.WinFacts₀ cfg.spec)
    (V : (b : Ref sig .tc) → Buf (Elt F) ((c : Thread nD τ).loc b))
    (hA : ∀ w, dat.A w = V (Pipeline.arrRef cfg.spec w)) :
    (unscopedBufs (Ix := Unit) (Name := ℕ) (U := UR sig nD τ) (Lvl := ℕ) c V : sProp 𝕄)
      ⊢ iprop(dat.arrays (dat.arrAt · 0) ∗ Pipeline.unscopedRest cfg.spec c V) := by
  rw [Pipeline.unscopedBufs_split₀ (fun _ : Unit => cfg) () hw.arr_unscoped c V,
    arrBufs_eq_arrays h V (dat.arrAt · 0) fun w => by rw [show dat.arrAt w 0 = dat.A w from rfl, hA]]

/-- EXIT, the arrays' part: the region's arrays at contents `G` and the unscoped rest at `V` are the core's unscoped
    buffers at any valuation `V'` that has the arrays at `G` and agrees with `V` off them. -/
theorem unscopedBufs_of_arrays (h : Pattern c dat w0 w1 w2) (hw : Pipeline.WinFacts₀ cfg.spec)
    (V V' : (b : Ref sig .tc) → Buf (Elt F) ((c : Thread nD τ).loc b))
    (G : (w : Fin cfg.W) → Buf (Elt F) ((cfg.win w).arr.view.loc (c : Thread nD τ)))
    (hG : ∀ w, G w = V' (Pipeline.arrRef cfg.spec w))
    (hrest : ∀ b, b ∉ Finset.univ.image (Pipeline.arrRef cfg.spec) → V' b = V b) :
    iprop(dat.arrays G ∗ Pipeline.unscopedRest cfg.spec c V)
      ⊢ (unscopedBufs (Ix := Unit) (Name := ℕ) (U := UR sig nD τ) (Lvl := ℕ) c V' : sProp 𝕄) := by
  rw [Pipeline.unscopedBufs_split₀ (fun _ : Unit => cfg) () hw.arr_unscoped c V', arrBufs_eq_arrays h V' G hG]
  refine sep_mono .rfl (Entails.of_eq ?_)
  unfold Pipeline.unscopedRest
  exact bigSep_congr fun b hb => by rw [hrest b (Finset.mem_sdiff.mp hb).2]

/-- EXIT at the last point: the valuation `V'` is `V` with the output's buffer at what the write-backs leave; the inputs,
    never written, still hold their entry contents, which `V` and `V'` agree on. -/
theorem unscopedBufs_of_arrays_last (h : Pattern c dat w0 w1 w2) (hw : Pipeline.WinFacts₀ cfg.spec)
    (V V' : (b : Ref sig .tc) → Buf (Elt F) ((c : Thread nD τ).loc b))
    (hA : ∀ w, dat.A w = V (Pipeline.arrRef cfg.spec w))
    (hout : V' (Pipeline.arrRef cfg.spec w2) = dat.arrAt w2 cfg.N)
    (hne : ∀ b, b ≠ Pipeline.arrRef cfg.spec w2 → V' b = V b) :
    iprop(dat.arrays (dat.arrAt · cfg.N) ∗ Pipeline.unscopedRest cfg.spec c V)
      ⊢ (unscopedBufs (Ix := Unit) (Name := ℕ) (U := UR sig nD τ) (Lvl := ℕ) c V' : sProp 𝕄) := by
  refine unscopedBufs_of_arrays h hw V V' (dat.arrAt · cfg.N) (fun w => ?_) (fun b hb => hne b fun e => hb ?_)
  · rcases h.all w with rfl | rfl | rfl
    · show dat.arrAt w cfg.N = _
      rw [Pipeline.Dat.arrAt_in dat w h.in0 cfg.N, hA, hne _ h.other.symm]
    · show dat.arrAt w cfg.N = _
      rw [Pipeline.Dat.arrAt_in dat w h.in1 cfg.N, hA, hne _ (fun e => h.other (e.symm.trans h.same))]
    · exact hout.symm
  · rw [e]; exact Finset.mem_image.mpr ⟨w2, Finset.mem_univ _, rfl⟩

end Shared

end Cert.Kernel.Hand

end
-- ==== Proof.K.RegsShared.lean ====
/- The three kernel regions of Kernel's @main whose two input windows read ONE array (custom_calls 6, 13, 20: sᵀ·s), as segments:
   the common array's full share is split between the two windows at entry and put together again at exit. -/
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import proofs.«405323_j90718299226206_3_alg».proof.Proof.K.Fold
import proofs.«405323_j90718299226206_3_alg».proof.Proof.K.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions whose input windows share an array -/

/-- Region 6's two input windows read one array, each at half of the full share; window 2 is its output. -/
theorem pat6 (c : Dev nD) : Shared.Pattern c (dat6 (Vt20 m) c) (0 : Fin 3) (1 : Fin 3) (2 : Fin 3) where
  all := by decide
  ne01 := by decide
  ne02 := by decide
  ne12 := by decide
  same := rfl
  other := by decide
  in0 := rfl
  in1 := rfl
  out2 := rfl
  q0 := rfl
  q1 := rfl
  whole := arr_whole6

set_option backward.isDefEq.respectTransparency.types false in
/-- REGION 6 over the thread state: entered from every unscoped buffer at `W20`, left at `W21`; the array its two
    input windows share is split between them at entry and put together again at exit. -/
def reg6 : Pipeline.RegionSeg (pcfgs (F := F)) adm (pdats m) () defs₀ 𝒱₀ L lv 6 where
  win := winFacts₀6
  block_pos := block_pos6
  stage_whole := stage_whole6
  K := PEmpty
  osem k := k.elim
  ho := Pipeline.OwnSemFacts.none _
  hbody c := (body_obligation6 (Vt20 m) c).loose
  hwaits := Pipeline.hwaits_of_owed_zero _ _ _ _ L lv 6 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec6 c (Vt20 m c)
  hentry c := by
    rw [Pipeline.ownSems0_none]
    have hsplit := Shared.arrays_of_unscopedBufs (pat6 m c) winFacts₀6 (Vt20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from Phi_first6 (Vt20 m) c]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from Phi_last6 (Vt20 m) c).trans ?_
    unfold Pipeline.ΦA
    iintro ⟨Hr, Hp⟩
    isplitl [Hp]; · iexact Hp
    isplitr; · iempintro
    iexact Hr
  hexit c := by
    have hjoin := Shared.unscopedBufs_of_arrays_last (pat6 m c) winFacts₀6 (Vt20 m c) (Vt21 m c) (fun _ => rfl)
      (W21_out2 m c) (fun b hb => W21_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- Region 13's two input windows read one array, each at half of the full share; window 2 is its output. -/
theorem pat13 (c : Dev nD) : Shared.Pattern c (dat13 (Vt38 m) c) (0 : Fin 3) (1 : Fin 3) (2 : Fin 3) where
  all := by decide
  ne01 := by decide
  ne02 := by decide
  ne12 := by decide
  same := rfl
  other := by decide
  in0 := rfl
  in1 := rfl
  out2 := rfl
  q0 := rfl
  q1 := rfl
  whole := arr_whole13

set_option backward.isDefEq.respectTransparency.types false in
/-- REGION 13 over the thread state: entered from every unscoped buffer at `W38`, left at `W39`; the array its two
    input windows share is split between them at entry and put together again at exit. -/
def reg13 : Pipeline.RegionSeg (pcfgs (F := F)) adm (pdats m) () defs₀ 𝒱₀ L lv 13 where
  win := winFacts₀13
  block_pos := block_pos13
  stage_whole := stage_whole13
  K := PEmpty
  osem k := k.elim
  ho := Pipeline.OwnSemFacts.none _
  hbody c := (body_obligation13 (Vt38 m) c).loose
  hwaits := Pipeline.hwaits_of_owed_zero _ _ _ _ L lv 13 fun _ _ => rfl
  pre c := iprop(StableHlo.held (c : Thread nD τ) (Pipeline.ucRefs τ sig) (W38 m c) ∗ R c)
  post c := iprop(StableHlo.held (c : Thread nD τ) (Pipeline.ucRefs τ sig) (W39 m c) ∗ R c)
  X c := iprop(∃ r, prngReg c r)
  Y c := iprop(∃ r, prngReg c r)
  Z c := Pipeline.unscopedRest (Ix := Unit) (Name := ℕ) (U := UR sig nD τ) (Lvl := ℕ) spec13 c (Vt38 m c)
  hentry c := by
    rw [Pipeline.ownSems0_none]
    have hsplit := Shared.arrays_of_unscopedBufs (pat13 m c) winFacts₀13 (Vt38 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from Phi_first13 (Vt38 m) c]; unfold Pipeline.ΦA
    iintro ⟨Hp, -, Hr⟩
    isplitl [Hr]; · iexact Hr
    iexact Hp
  hout c := by
    rw [Pipeline.ownSems0_none]
    refine (show (pdats m 13 c).Φ (Fin.last _) ⊢ Pipeline.ΦA spec13 c from Phi_last13 (Vt38 m) c).trans ?_
    unfold Pipeline.ΦA
    iintro ⟨Hr, Hp⟩
    isplitl [Hp]; · iexact Hp
    isplitr; · iempintro
    iexact Hr
  hexit c := by
    have hjoin := Shared.unscopedBufs_of_arrays_last (pat13 m c) winFacts₀13 (Vt38 m c) (Vt39 m c) (fun _ => rfl)
      (W39_out2 m c) (fun b hb => W39_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-- Region 20's two input windows read one array, each at half of the full share; window 2 is its output. -/
theorem pat20 (c : Dev nD) : Shared.Pattern c (dat20 (Vt56 m) c) (0 : Fin 3) (1 : Fin 3) (2 : Fin 3) where
  all := by decide
  ne01 := by decide
  ne02 := by decide
  ne12 := by decide
  same := rfl
  other := by decide
  in0 := rfl
  in1 := rfl
  out2 := rfl
  q0 := rfl
  q1 := rfl
  whole := arr_whole20

set_option backward.isDefEq.respectTransparency.types false in
/-- REGION 20 over the thread state: entered from every unscoped buffer at `W56`, left at `W57`; the array its two
    input windows share is split between them at entry and put together again at exit. -/
def reg20 : Pipeline.RegionSeg (pcfgs (F := F)) adm (pdats m) () defs₀ 𝒱₀ L lv 20 where
  win := winFacts₀20
  block_pos := block_pos20
  stage_whole := stage_whole20
  K := PEmpty
  osem k := k.elim
  ho := Pipeline.OwnSemFacts.none _
  hbody c := (body_obligation20 (Vt56 m) c).loose
  hwaits := Pipeline.hwaits_of_owed_zero _ _ _ _ L lv 20 fun _ _ => rfl
  pre c := iprop(StableHlo.held (c : Thread nD τ) (Pipeline.ucRefs τ sig) (W56 m c) ∗ R c)
  post c := iprop(StableHlo.held (c : Thread nD τ) (Pipeline.ucRefs τ sig) (W57 m c) ∗ R c)
  X c := iprop(∃ r, prngReg c r)
  Y c := iprop(∃ r, prngReg c r)
  Z c := Pipeline.unscopedRest (Ix := Unit) (Name := ℕ) (U := UR sig nD τ) (Lvl := ℕ) spec20 c (Vt56 m c)
  hentry c := by
    rw [Pipeline.ownSems0_none]
    have hsplit := Shared.arrays_of_unscopedBufs (pat20 m c) winFacts₀20 (Vt56 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from Phi_first20 (Vt56 m) c]; unfold Pipeline.ΦA
    iintro ⟨Hp, -, Hr⟩
    isplitl [Hr]; · iexact Hr
    iexact Hp
  hout c := by
    rw [Pipeline.ownSems0_none]
    refine (show (pdats m 20 c).Φ (Fin.last _) ⊢ Pipeline.ΦA spec20 c from Phi_last20 (Vt56 m) c).trans ?_
    unfold Pipeline.ΦA
    iintro ⟨Hr, Hp⟩
    isplitl [Hp]; · iexact Hp
    isplitr; · iempintro
    iexact Hr
  hexit c := by
    have hjoin := Shared.unscopedBufs_of_arrays_last (pat20 m c) winFacts₀20 (Vt56 m c) (Vt57 m c) (fun _ => rfl)
      (W57_out2 m c) (fun b hb => W57_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/- Kernel's @main as the list of its 64 segments, and the launch: every weakly fair execution terminates with every
   unscoped buffer at the last boundary's contents. -/
import proofs.«405323_j90718299226206_3_alg».proof.Proof.Gen.Kernel.Launch
import proofs.«405323_j90718299226206_3_alg».proof.Proof.Gen.Kernel.Skeleton
import proofs.«405323_j90718299226206_3_alg».proof.Proof.Gen.Kernel.Points
import proofs.«405323_j90718299226206_3_alg».proof.Proof.K.Regs
import proofs.«405323_j90718299226206_3_alg».proof.Proof.K.RegsShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

abbrev segs : List (Pipeline.Seg (pcfgs (F := F)) adm (pdats m) () defs₀ 𝒱₀ L lv) :=
  [
    .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)),
    .host (hseg hostOps2_1 hostOps2_1_sub hostOps2_1_fresh (W8 m)),
    .host (hseg hostOps2_2 hostOps2_2_sub hostOps2_2_fresh (W9 m)),
    .region (reg2 m),
    .host (hseg hostOps3 hostOps3_sub hostOps3_fresh (W11 m)),
    .host (hseg hostOps3_1 hostOps3_1_sub hostOps3_1_fresh (W12 m)),
    .host (hseg hostOps3_2 hostOps3_2_sub hostOps3_2_fresh (W13 m)),
    .host (hseg hostOps3_3 hostOps3_3_sub hostOps3_3_fresh (W14 m)),
    .host (hseg hostOps3_4 hostOps3_4_sub hostOps3_4_fresh (W15 m)),
    .region (reg3 m),
    .host (hseg hostOps4 hostOps4_sub hostOps4_fresh (W17 m)),
    .region (reg4 m),
    .region (reg5 m),
    .region (reg6 m),
    .host (hseg hostOps7 hostOps7_sub hostOps7_fresh (W21 m)),
    .host (hseg hostOps7_1 hostOps7_1_sub hostOps7_1_fresh (W22 m)),
    .host (hseg hostOps7_2 hostOps7_2_sub hostOps7_2_fresh (W23 m)),
    .host (hseg hostOps7_3 hostOps7_3_sub hostOps7_3_fresh (W24 m)),
    .host (hseg hostOps7_4 hostOps7_4_sub hostOps7_4_fresh (W25 m)),
    .host (hseg hostOps7_5 hostOps7_5_sub hostOps7_5_fresh (W26 m)),
    .host (hseg hostOps7_6 hostOps7_6_sub hostOps7_6_fresh (W27 m)),
    .host (hseg hostOps7_7 hostOps7_7_sub hostOps7_7_fresh (W28 m)),
    .region (reg7 m),
    .host (hseg hostOps8 hostOps8_sub hostOps8_fresh (W30 m)),
    .region (reg8 m),
    .host (hseg hostOps9 hostOps9_sub hostOps9_fresh (W32 m)),
    .region (reg9 m),
    .host (hseg hostOps10 hostOps10_sub hostOps10_fresh (W34 m)),
    .region (reg10 m),
    .region (reg11 m),
    .region (reg12 m),
    .region (reg13 m),
    .host (hseg hostOps14 hostOps14_sub hostOps14_fresh (W39 m)),
    .host (hseg hostOps14_1 hostOps14_1_sub hostOps14_1_fresh (W40 m)),
    .host (hseg hostOps14_2 hostOps14_2_sub hostOps14_2_fresh (W41 m)),
    .host (hseg hostOps14_3 hostOps14_3_sub hostOps14_3_fresh (W42 m)),
    .host (hseg hostOps14_4 hostOps14_4_sub hostOps14_4_fresh (W43 m)),
    .host (hseg hostOps14_5 hostOps14_5_sub hostOps14_5_fresh (W44 m)),
    .host (hseg hostOps14_6 hostOps14_6_sub hostOps14_6_fresh (W45 m)),
    .host (hseg hostOps14_7 hostOps14_7_sub hostOps14_7_fresh (W46 m)),
    .region (reg14 m),
    .host (hseg hostOps15 hostOps15_sub hostOps15_fresh (W48 m)),
    .region (reg15 m),
    .host (hseg hostOps16 hostOps16_sub hostOps16_fresh (W50 m)),
    .region (reg16 m),
    .host (hseg hostOps17 hostOps17_sub hostOps17_fresh (W52 m)),
    .region (reg17 m),
    .region (reg18 m),
    .region (reg19 m),
    .region (reg20 m),
    .host (hseg hostOps21 hostOps21_sub hostOps21_fresh (W57 m)),
    .host (hseg hostOps21_1 hostOps21_1_sub hostOps21_1_fresh (W58 m)),
    .host (hseg hostOps21_2 hostOps21_2_sub hostOps21_2_fresh (W59 m)),
    .host (hseg hostOps21_3 hostOps21_3_sub hostOps21_3_fresh (W60 m)),
    .host (hseg hostOps21_4 hostOps21_4_sub hostOps21_4_fresh (W61 m)),
    .host (hseg hostOps21_5 hostOps21_5_sub hostOps21_5_fresh (W62 m)) ]

set_option maxHeartbeats 4000000 in
theorem main_run (c : Dev nD) : main (F := F) c = Pipeline.Seg.run (segs m) := (main_chain c).trans (by chain_rfl)

set_option maxHeartbeats 4000000 in
set_option backward.isDefEq.respectTransparency.types false in
/-- THE RUN: from any memory with zero counters every weakly fair execution of @main on the TensorCores terminates, nothing
    faulting, and every unscoped buffer ends at the last boundary's contents `W63`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W63 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W63 m c) ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W63 m c b)
    (hfin := fun c s' => by
      iintro ⟨⟨Hh, -⟩, HSI⟩
      unfold StableHlo.held
      imodintro
      iapply (pointsTo_read_all (Pipeline.ucRefs τ sig) (fun b => (((c : Thread nD τ)).1, b)) (W63 m c) s')
      isplitl [Hh] <;> iassumption)
    (hQ := fun s h c => h c)

end Cert.Kernel.Hand

end
-- ==== Proof.K.Frames.lean ====
/- Which boundary's contents a buffer keeps to the end: no later host stretch or region writes it. -/
import proofs.«405323_j90718299226206_3_alg».proof.Proof.K.Fold
import proofs.«405323_j90718299226206_3_alg».proof.Proof.KernelRegions

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (c : Dev nD)

abbrev writes1 : List (Ref sig .tc) := GenP.hostOps0_W
theorem step1 (r : Ref sig .tc) (h : r ∉ writes1) : W1 m c (Proc.devRef .tc r) = W0 m c (Proc.devRef .tc r) :=
  StableHlo.after_of_writes_sub hostOps0 _ GenP.hostOps0_writes h
abbrev writes2 : List (Ref sig .tc) := [main_v21]
theorem step2 (r : Ref sig .tc) (h : r ∉ writes2) : W2 m c (Proc.devRef .tc r) = W1 m c (Proc.devRef .tc r) :=
  W2_of_ne m c r (List.ne_of_not_mem_cons h)
abbrev writes3 : List (Ref sig .tc) := GenP.hostOps1_W
theorem step3 (r : Ref sig .tc) (h : r ∉ writes3) : W3 m c (Proc.devRef .tc r) = W2 m c (Proc.devRef .tc r) :=
  StableHlo.after_of_writes_sub hostOps1 _ GenP.hostOps1_writes h
abbrev writes4 : List (Ref sig .tc) := GenP.hostOps1_1_W
theorem step4 (r : Ref sig .tc) (h : r ∉ writes4) : W4 m c (Proc.devRef .tc r) = W3 m c (Proc.devRef .tc r) :=
  StableHlo.after_of_writes_sub hostOps1_1 _ GenP.hostOps1_1_writes h
abbrev writes5 : List (Ref sig .tc) := GenP.hostOps1_2_W
theorem step5 (r : Ref sig .tc) (h : r ∉ writes5) : W5 m c (Proc.devRef .tc r) = W4 m c (Proc.devRef .tc r) :=
  StableHlo.after_of_writes_sub hostOps1_2 _ GenP.hostOps1_2_writes h
abbrev writes6 : List (Ref sig .tc) := GenP.hostOps1_3_W
theorem step6 (r : Ref sig .tc) (h : r ∉ writes6) : W6 m c (Proc.devRef .tc r) = W5 m c (Proc.devRef .tc r) :=
  StableHlo.after_of_writes_sub hostOps1_3 _ GenP.hostOps1_3_writes h
abbrev writes7 : List (Ref sig .tc) := [main_v39]
theorem step7 (r : Ref sig .tc) (h : r ∉ writes7) : W7 m c (Proc.devRef .tc r) = W6 m c (Proc.devRef .tc r) :=
  W7_of_ne m c r (List.ne_of_not_mem_cons h)
abbrev writes8 : List (Ref sig .tc) := GenP.hostOps2_W
theorem step8 (r : Ref sig .tc) (h : r ∉ writes8) : W8 m c (Proc.devRef .tc r) = W7 m c (Proc.devRef .tc r) :=
  StableHlo.after_of_writes_sub hostOps2 _ GenP.hostOps2_writes h
abbrev writes9 : List (Ref sig .tc) := GenP.hostOps2_1_W
theorem step9 (r : Ref sig .tc) (h : r ∉ writes9) : W9 m c (Proc.devRef .tc r) = W8 m c (Proc.devRef .tc r) :=
  StableHlo.after_of_writes_sub hostOps2_1 _ GenP.hostOps2_1_writes h
abbrev writes10 : List (Ref sig .tc) := GenP.hostOps2_2_W
theorem step10 (r : Ref sig .tc) (h : r ∉ writes10) : W10 m c (Proc.devRef .tc r) = W9 m c (Proc.devRef .tc r) :=
  StableHlo.after_of_writes_sub hostOps2_2 _ GenP.hostOps2_2_writes h
abbrev writes11 : List (Ref sig .tc) := [main_v54_0, main_v54_1]
theorem step11 (r : Ref sig .tc) (h : r ∉ writes11) : W11 m c (Proc.devRef .tc r) = W10 m c (Proc.devRef .tc r) :=
  W11_of_ne m c r (List.ne_of_not_mem_cons h) (List.ne_of_not_mem_cons (List.not_mem_of_not_mem_cons h))
abbrev writes12 : List (Ref sig .tc) := GenP.hostOps3_W
theorem step12 (r : Ref sig .tc) (h : r ∉ writes12) : W12 m c (Proc.devRef .tc r) = W11 m c (Proc.devRef .tc r) :=
  StableHlo.after_of_writes_sub hostOps3 _ GenP.hostOps3_writes h
abbrev writes13 : List (Ref sig .tc) := GenP.hostOps3_1_W
theorem step13 (r : Ref sig .tc) (h : r ∉ writes13) : W13 m c (Proc.devRef .tc r) = W12 m c (Proc.devRef .tc r) :=
  StableHlo.after_of_writes_sub hostOps3_1 _ GenP.hostOps3_1_writes h
abbrev writes14 : List (Ref sig .tc) := GenP.hostOps3_2_W
theorem step14 (r : Ref sig .tc) (h : r ∉ writes14) : W14 m c (Proc.devRef .tc r) = W13 m c (Proc.devRef .tc r) :=
  StableHlo.after_of_writes_sub hostOps3_2 _ GenP.hostOps3_2_writes h
abbrev writes15 : List (Ref sig .tc) := GenP.hostOps3_3_W
theorem step15 (r : Ref sig .tc) (h : r ∉ writes15) : W15 m c (Proc.devRef .tc r) = W14 m c (Proc.devRef .tc r) :=
  StableHlo.after_of_writes_sub hostOps3_3 _ GenP.hostOps3_3_writes h
abbrev writes16 : List (Ref sig .tc) := GenP.hostOps3_4_W
theorem step16 (r : Ref sig .tc) (h : r ∉ writes16) : W16 m c (Proc.devRef .tc r) = W15 m c (Proc.devRef .tc r) :=
  StableHlo.after_of_writes_sub hostOps3_4 _ GenP.hostOps3_4_writes h
abbrev writes17 : List (Ref sig .tc) := [main_v58_0, main_v58_1]
theorem step17 (r : Ref sig .tc) (h : r ∉ writes17) : W17 m c (Proc.devRef .tc r) = W16 m c (Proc.devRef .tc r) :=
  W17_of_ne m c r (List.ne_of_not_mem_cons h) (List.ne_of_not_mem_cons (List.not_mem_of_not_mem_cons h))
abbrev writes18 : List (Ref sig .tc) := GenP.hostOps4_W
theorem step18 (r : Ref sig .tc) (h : r ∉ writes18) : W18 m c (Proc.devRef .tc r) = W17 m c (Proc.devRef .tc r) :=
  StableHlo.after_of_writes_sub hostOps4 _ GenP.hostOps4_writes h
abbrev writes19 : List (Ref sig .tc) := [main_v61]
theorem step19 (r : Ref sig .tc) (h : r ∉ writes19) : W19 m c (Proc.devRef .tc r) = W18 m c (Proc.devRef .tc r) :=
  W19_of_ne m c r (List.ne_of_not_mem_cons h)
abbrev writes20 : List (Ref sig .tc) := [main_v62]
theorem step20 (r : Ref sig .tc) (h : r ∉ writes20) : W20 m c (Proc.devRef .tc r) = W19 m c (Proc.devRef .tc r) :=
  W20_of_ne m c r (List.ne_of_not_mem_cons h)
abbrev writes21 : List (Ref sig .tc) := [main_v63]
theorem step21 (r : Ref sig .tc) (h : r ∉ writes21) : W21 m c (Proc.devRef .tc r) = W20 m c (Proc.devRef .tc r) :=
  W21_of_ne m c r (List.ne_of_not_mem_cons h)
abbrev writes22 : List (Ref sig .tc) := GenP.hostOps7_W
theorem step22 (r : Ref sig .tc) (h : r ∉ writes22) : W22 m c (Proc.devRef .tc r) = W21 m c (Proc.devRef .tc r) :=
  StableHlo.after_of_writes_sub hostOps7 _ GenP.hostOps7_writes h
abbrev writes23 : List (Ref sig .tc) := GenP.hostOps7_1_W
theorem step23 (r : Ref sig .tc) (h : r ∉ writes23) : W23 m c (Proc.devRef .tc r) = W22 m c (Proc.devRef .tc r) :=
  StableHlo.after_of_writes_sub hostOps7_1 _ GenP.hostOps7_1_writes h
abbrev writes24 : List (Ref sig .tc) := GenP.hostOps7_2_W
theorem step24 (r : Ref sig .tc) (h : r ∉ writes24) : W24 m c (Proc.devRef .tc r) = W23 m c (Proc.devRef .tc r) :=
  StableHlo.after_of_writes_sub hostOps7_2 _ GenP.hostOps7_2_writes h
abbrev writes25 : List (Ref sig .tc) := GenP.hostOps7_3_W
theorem step25 (r : Ref sig .tc) (h : r ∉ writes25) : W25 m c (Proc.devRef .tc r) = W24 m c (Proc.devRef .tc r) :=
  StableHlo.after_of_writes_sub hostOps7_3 _ GenP.hostOps7_3_writes h
abbrev writes26 : List (Ref sig .tc) := GenP.hostOps7_4_W
theorem step26 (r : Ref sig .tc) (h : r ∉ writes26) : W26 m c (Proc.devRef .tc r) = W25 m c (Proc.devRef .tc r) :=
  StableHlo.after_of_writes_sub hostOps7_4 _ GenP.hostOps7_4_writes h
abbrev writes27 : List (Ref sig .tc) := GenP.hostOps7_5_W
theorem step27 (r : Ref sig .tc) (h : r ∉ writes27) : W27 m c (Proc.devRef .tc r) = W26 m c (Proc.devRef .tc r) :=
  StableHlo.after_of_writes_sub hostOps7_5 _ GenP.hostOps7_5_writes h
abbrev writes28 : List (Ref sig .tc) := GenP.hostOps7_6_W
theorem step28 (r : Ref sig .tc) (h : r ∉ writes28) : W28 m c (Proc.devRef .tc r) = W27 m c (Proc.devRef .tc r) :=
  StableHlo.after_of_writes_sub hostOps7_6 _ GenP.hostOps7_6_writes h
abbrev writes29 : List (Ref sig .tc) := GenP.hostOps7_7_W
theorem step29 (r : Ref sig .tc) (h : r ∉ writes29) : W29 m c (Proc.devRef .tc r) = W28 m c (Proc.devRef .tc r) :=
  StableHlo.after_of_writes_sub hostOps7_7 _ GenP.hostOps7_7_writes h
abbrev writes30 : List (Ref sig .tc) := [main_v127]
theorem step30 (r : Ref sig .tc) (h : r ∉ writes30) : W30 m c (Proc.devRef .tc r) = W29 m c (Proc.devRef .tc r) :=
  W30_of_ne m c r (List.ne_of_not_mem_cons h)
abbrev writes31 : List (Ref sig .tc) := GenP.hostOps8_W
theorem step31 (r : Ref sig .tc) (h : r ∉ writes31) : W31 m c (Proc.devRef .tc r) = W30 m c (Proc.devRef .tc r) :=
  StableHlo.after_of_writes_sub hostOps8 _ GenP.hostOps8_writes h
abbrev writes32 : List (Ref sig .tc) := [main_v129]
theorem step32 (r : Ref sig .tc) (h : r ∉ writes32) : W32 m c (Proc.devRef .tc r) = W31 m c (Proc.devRef .tc r) :=
  W32_of_ne m c r (List.ne_of_not_mem_cons h)
abbrev writes33 : List (Ref sig .tc) := GenP.hostOps9_W
theorem step33 (r : Ref sig .tc) (h : r ∉ writes33) : W33 m c (Proc.devRef .tc r) = W32 m c (Proc.devRef .tc r) :=
  StableHlo.after_of_writes_sub hostOps9 _ GenP.hostOps9_writes h
abbrev writes34 : List (Ref sig .tc) := [main_v131_0, main_v131_1]
theorem step34 (r : Ref sig .tc) (h : r ∉ writes34) : W34 m c (Proc.devRef .tc r) = W33 m c (Proc.devRef .tc r) :=
  W34_of_ne m c r (List.ne_of_not_mem_cons h) (List.ne_of_not_mem_cons (List.not_mem_of_not_mem_cons h))
abbrev writes35 : List (Ref sig .tc) := GenP.hostOps10_W
theorem step35 (r : Ref sig .tc) (h : r ∉ writes35) : W35 m c (Proc.devRef .tc r) = W34 m c (Proc.devRef .tc r) :=
  StableHlo.after_of_writes_sub hostOps10 _ GenP.hostOps10_writes h
abbrev writes36 : List (Ref sig .tc) := [main_v134]
theorem step36 (r : Ref sig .tc) (h : r ∉ writes36) : W36 m c (Proc.devRef .tc r) = W35 m c (Proc.devRef .tc r) :=
  W36_of_ne m c r (List.ne_of_not_mem_cons h)
abbrev writes37 : List (Ref sig .tc) := [main_v135]
theorem step37 (r : Ref sig .tc) (h : r ∉ writes37) : W37 m c (Proc.devRef .tc r) = W36 m c (Proc.devRef .tc r) :=
  W37_of_ne m c r (List.ne_of_not_mem_cons h)
abbrev writes38 : List (Ref sig .tc) := [main_v136]
theorem step38 (r : Ref sig .tc) (h : r ∉ writes38) : W38 m c (Proc.devRef .tc r) = W37 m c (Proc.devRef .tc r) :=
  W38_of_ne m c r (List.ne_of_not_mem_cons h)
abbrev writes39 : List (Ref sig .tc) := [main_v137]
theorem step39 (r : Ref sig .tc) (h : r ∉ writes39) : W39 m c (Proc.devRef .tc r) = W38 m c (Proc.devRef .tc r) :=
  W39_of_ne m c r (List.ne_of_not_mem_cons h)
abbrev writes40 : List (Ref sig .tc) := GenP.hostOps14_W
theorem step40 (r : Ref sig .tc) (h : r ∉ writes40) : W40 m c (Proc.devRef .tc r) = W39 m c (Proc.devRef .tc r) :=
  StableHlo.after_of_writes_sub hostOps14 _ GenP.hostOps14_writes h
abbrev writes41 : List (Ref sig .tc) := GenP.hostOps14_1_W
theorem step41 (r : Ref sig .tc) (h : r ∉ writes41) : W41 m c (Proc.devRef .tc r) = W40 m c (Proc.devRef .tc r) :=
  StableHlo.after_of_writes_sub hostOps14_1 _ GenP.hostOps14_1_writes h
abbrev writes42 : List (Ref sig .tc) := GenP.hostOps14_2_W
theorem step42 (r : Ref sig .tc) (h : r ∉ writes42) : W42 m c (Proc.devRef .tc r) = W41 m c (Proc.devRef .tc r) :=
  StableHlo.after_of_writes_sub hostOps14_2 _ GenP.hostOps14_2_writes h
abbrev writes43 : List (Ref sig .tc) := GenP.hostOps14_3_W
theorem step43 (r : Ref sig .tc) (h : r ∉ writes43) : W43 m c (Proc.devRef .tc r) = W42 m c (Proc.devRef .tc r) :=
  StableHlo.after_of_writes_sub hostOps14_3 _ GenP.hostOps14_3_writes h
abbrev writes44 : List (Ref sig .tc) := GenP.hostOps14_4_W
theorem step44 (r : Ref sig .tc) (h : r ∉ writes44) : W44 m c (Proc.devRef .tc r) = W43 m c (Proc.devRef .tc r) :=
  StableHlo.after_of_writes_sub hostOps14_4 _ GenP.hostOps14_4_writes h
abbrev writes45 : List (Ref sig .tc) := GenP.hostOps14_5_W
theorem step45 (r : Ref sig .tc) (h : r ∉ writes45) : W45 m c (Proc.devRef .tc r) = W44 m c (Proc.devRef .tc r) :=
  StableHlo.after_of_writes_sub hostOps14_5 _ GenP.hostOps14_5_writes h
abbrev writes46 : List (Ref sig .tc) := GenP.hostOps14_6_W
theorem step46 (r : Ref sig .tc) (h : r ∉ writes46) : W46 m c (Proc.devRef .tc r) = W45 m c (Proc.devRef .tc r) :=
  StableHlo.after_of_writes_sub hostOps14_6 _ GenP.hostOps14_6_writes h
abbrev writes47 : List (Ref sig .tc) := GenP.hostOps14_7_W
theorem step47 (r : Ref sig .tc) (h : r ∉ writes47) : W47 m c (Proc.devRef .tc r) = W46 m c (Proc.devRef .tc r) :=
  StableHlo.after_of_writes_sub hostOps14_7 _ GenP.hostOps14_7_writes h
abbrev writes48 : List (Ref sig .tc) := [main_v200]
theorem step48 (r : Ref sig .tc) (h : r ∉ writes48) : W48 m c (Proc.devRef .tc r) = W47 m c (Proc.devRef .tc r) :=
  W48_of_ne m c r (List.ne_of_not_mem_cons h)
abbrev writes49 : List (Ref sig .tc) := GenP.hostOps15_W
theorem step49 (r : Ref sig .tc) (h : r ∉ writes49) : W49 m c (Proc.devRef .tc r) = W48 m c (Proc.devRef .tc r) :=
  StableHlo.after_of_writes_sub hostOps15 _ GenP.hostOps15_writes h
abbrev writes50 : List (Ref sig .tc) := [main_v202]
theorem step50 (r : Ref sig .tc) (h : r ∉ writes50) : W50 m c (Proc.devRef .tc r) = W49 m c (Proc.devRef .tc r) :=
  W50_of_ne m c r (List.ne_of_not_mem_cons h)
abbrev writes51 : List (Ref sig .tc) := GenP.hostOps16_W
theorem step51 (r : Ref sig .tc) (h : r ∉ writes51) : W51 m c (Proc.devRef .tc r) = W50 m c (Proc.devRef .tc r) :=
  StableHlo.after_of_writes_sub hostOps16 _ GenP.hostOps16_writes h
abbrev writes52 : List (Ref sig .tc) := [main_v204_0, main_v204_1]
theorem step52 (r : Ref sig .tc) (h : r ∉ writes52) : W52 m c (Proc.devRef .tc r) = W51 m c (Proc.devRef .tc r) :=
  W52_of_ne m c r (List.ne_of_not_mem_cons h) (List.ne_of_not_mem_cons (List.not_mem_of_not_mem_cons h))
abbrev writes53 : List (Ref sig .tc) := GenP.hostOps17_W
theorem step53 (r : Ref sig .tc) (h : r ∉ writes53) : W53 m c (Proc.devRef .tc r) = W52 m c (Proc.devRef .tc r) :=
  StableHlo.after_of_writes_sub hostOps17 _ GenP.hostOps17_writes h
abbrev writes54 : List (Ref sig .tc) := [main_v207]
theorem step54 (r : Ref sig .tc) (h : r ∉ writes54) : W54 m c (Proc.devRef .tc r) = W53 m c (Proc.devRef .tc r) :=
  W54_of_ne m c r (List.ne_of_not_mem_cons h)
abbrev writes55 : List (Ref sig .tc) := [main_v208]
theorem step55 (r : Ref sig .tc) (h : r ∉ writes55) : W55 m c (Proc.devRef .tc r) = W54 m c (Proc.devRef .tc r) :=
  W55_of_ne m c r (List.ne_of_not_mem_cons h)
abbrev writes56 : List (Ref sig .tc) := [main_v209]
theorem step56 (r : Ref sig .tc) (h : r ∉ writes56) : W56 m c (Proc.devRef .tc r) = W55 m c (Proc.devRef .tc r) :=
  W56_of_ne m c r (List.ne_of_not_mem_cons h)
abbrev writes57 : List (Ref sig .tc) := [main_v210]
theorem step57 (r : Ref sig .tc) (h : r ∉ writes57) : W57 m c (Proc.devRef .tc r) = W56 m c (Proc.devRef .tc r) :=
  W57_of_ne m c r (List.ne_of_not_mem_cons h)
abbrev writes58 : List (Ref sig .tc) := GenP.hostOps21_W
theorem step58 (r : Ref sig .tc) (h : r ∉ writes58) : W58 m c (Proc.devRef .tc r) = W57 m c (Proc.devRef .tc r) :=
  StableHlo.after_of_writes_sub hostOps21 _ GenP.hostOps21_writes h
abbrev writes59 : List (Ref sig .tc) := GenP.hostOps21_1_W
theorem step59 (r : Ref sig .tc) (h : r ∉ writes59) : W59 m c (Proc.devRef .tc r) = W58 m c (Proc.devRef .tc r) :=
  StableHlo.after_of_writes_sub hostOps21_1 _ GenP.hostOps21_1_writes h
abbrev writes60 : List (Ref sig .tc) := GenP.hostOps21_2_W
theorem step60 (r : Ref sig .tc) (h : r ∉ writes60) : W60 m c (Proc.devRef .tc r) = W59 m c (Proc.devRef .tc r) :=
  StableHlo.after_of_writes_sub hostOps21_2 _ GenP.hostOps21_2_writes h
abbrev writes61 : List (Ref sig .tc) := GenP.hostOps21_3_W
theorem step61 (r : Ref sig .tc) (h : r ∉ writes61) : W61 m c (Proc.devRef .tc r) = W60 m c (Proc.devRef .tc r) :=
  StableHlo.after_of_writes_sub hostOps21_3 _ GenP.hostOps21_3_writes h
abbrev writes62 : List (Ref sig .tc) := GenP.hostOps21_4_W
theorem step62 (r : Ref sig .tc) (h : r ∉ writes62) : W62 m c (Proc.devRef .tc r) = W61 m c (Proc.devRef .tc r) :=
  StableHlo.after_of_writes_sub hostOps21_4 _ GenP.hostOps21_4_writes h
abbrev writes63 : List (Ref sig .tc) := GenP.hostOps21_5_W
theorem step63 (r : Ref sig .tc) (h : r ∉ writes63) : W63 m c (Proc.devRef .tc r) = W62 m c (Proc.devRef .tc r) :=
  StableHlo.after_of_writes_sub hostOps21_5 _ GenP.hostOps21_5_writes h
abbrev later63 : List (Ref sig .tc) := []
theorem frame63 (r : Ref sig .tc) (h : r ∉ later63) : W63 m c (Proc.devRef .tc r) = W63 m c (Proc.devRef .tc r) := rfl
abbrev later62 : List (Ref sig .tc) := writes63 ++ later63
theorem frame62 (r : Ref sig .tc) (h : r ∉ later62) : W63 m c (Proc.devRef .tc r) = W62 m c (Proc.devRef .tc r) :=
  (frame63 m c r fun hm => h (List.mem_append_right _ hm)).trans (step63 m c r fun hm => h (List.mem_append_left _ hm))
abbrev later61 : List (Ref sig .tc) := writes62 ++ later62
theorem frame61 (r : Ref sig .tc) (h : r ∉ later61) : W63 m c (Proc.devRef .tc r) = W61 m c (Proc.devRef .tc r) :=
  (frame62 m c r fun hm => h (List.mem_append_right _ hm)).trans (step62 m c r fun hm => h (List.mem_append_left _ hm))
abbrev later60 : List (Ref sig .tc) := writes61 ++ later61
theorem frame60 (r : Ref sig .tc) (h : r ∉ later60) : W63 m c (Proc.devRef .tc r) = W60 m c (Proc.devRef .tc r) :=
  (frame61 m c r fun hm => h (List.mem_append_right _ hm)).trans (step61 m c r fun hm => h (List.mem_append_left _ hm))
abbrev later59 : List (Ref sig .tc) := writes60 ++ later60
theorem frame59 (r : Ref sig .tc) (h : r ∉ later59) : W63 m c (Proc.devRef .tc r) = W59 m c (Proc.devRef .tc r) :=
  (frame60 m c r fun hm => h (List.mem_append_right _ hm)).trans (step60 m c r fun hm => h (List.mem_append_left _ hm))
abbrev later58 : List (Ref sig .tc) := writes59 ++ later59
theorem frame58 (r : Ref sig .tc) (h : r ∉ later58) : W63 m c (Proc.devRef .tc r) = W58 m c (Proc.devRef .tc r) :=
  (frame59 m c r fun hm => h (List.mem_append_right _ hm)).trans (step59 m c r fun hm => h (List.mem_append_left _ hm))
abbrev later57 : List (Ref sig .tc) := writes58 ++ later58
theorem frame57 (r : Ref sig .tc) (h : r ∉ later57) : W63 m c (Proc.devRef .tc r) = W57 m c (Proc.devRef .tc r) :=
  (frame58 m c r fun hm => h (List.mem_append_right _ hm)).trans (step58 m c r fun hm => h (List.mem_append_left _ hm))
abbrev later56 : List (Ref sig .tc) := writes57 ++ later57
theorem frame56 (r : Ref sig .tc) (h : r ∉ later56) : W63 m c (Proc.devRef .tc r) = W56 m c (Proc.devRef .tc r) :=
  (frame57 m c r fun hm => h (List.mem_append_right _ hm)).trans (step57 m c r fun hm => h (List.mem_append_left _ hm))
abbrev later55 : List (Ref sig .tc) := writes56 ++ later56
theorem frame55 (r : Ref sig .tc) (h : r ∉ later55) : W63 m c (Proc.devRef .tc r) = W55 m c (Proc.devRef .tc r) :=
  (frame56 m c r fun hm => h (List.mem_append_right _ hm)).trans (step56 m c r fun hm => h (List.mem_append_left _ hm))
abbrev later54 : List (Ref sig .tc) := writes55 ++ later55
theorem frame54 (r : Ref sig .tc) (h : r ∉ later54) : W63 m c (Proc.devRef .tc r) = W54 m c (Proc.devRef .tc r) :=
  (frame55 m c r fun hm => h (List.mem_append_right _ hm)).trans (step55 m c r fun hm => h (List.mem_append_left _ hm))
abbrev later53 : List (Ref sig .tc) := writes54 ++ later54
theorem frame53 (r : Ref sig .tc) (h : r ∉ later53) : W63 m c (Proc.devRef .tc r) = W53 m c (Proc.devRef .tc r) :=
  (frame54 m c r fun hm => h (List.mem_append_right _ hm)).trans (step54 m c r fun hm => h (List.mem_append_left _ hm))
abbrev later52 : List (Ref sig .tc) := writes53 ++ later53
theorem frame52 (r : Ref sig .tc) (h : r ∉ later52) : W63 m c (Proc.devRef .tc r) = W52 m c (Proc.devRef .tc r) :=
  (frame53 m c r fun hm => h (List.mem_append_right _ hm)).trans (step53 m c r fun hm => h (List.mem_append_left _ hm))
abbrev later51 : List (Ref sig .tc) := writes52 ++ later52
theorem frame51 (r : Ref sig .tc) (h : r ∉ later51) : W63 m c (Proc.devRef .tc r) = W51 m c (Proc.devRef .tc r) :=
  (frame52 m c r fun hm => h (List.mem_append_right _ hm)).trans (step52 m c r fun hm => h (List.mem_append_left _ hm))
abbrev later50 : List (Ref sig .tc) := writes51 ++ later51
theorem frame50 (r : Ref sig .tc) (h : r ∉ later50) : W63 m c (Proc.devRef .tc r) = W50 m c (Proc.devRef .tc r) :=
  (frame51 m c r fun hm => h (List.mem_append_right _ hm)).trans (step51 m c r fun hm => h (List.mem_append_left _ hm))
abbrev later49 : List (Ref sig .tc) := writes50 ++ later50
theorem frame49 (r : Ref sig .tc) (h : r ∉ later49) : W63 m c (Proc.devRef .tc r) = W49 m c (Proc.devRef .tc r) :=
  (frame50 m c r fun hm => h (List.mem_append_right _ hm)).trans (step50 m c r fun hm => h (List.mem_append_left _ hm))
abbrev later48 : List (Ref sig .tc) := writes49 ++ later49
theorem frame48 (r : Ref sig .tc) (h : r ∉ later48) : W63 m c (Proc.devRef .tc r) = W48 m c (Proc.devRef .tc r) :=
  (frame49 m c r fun hm => h (List.mem_append_right _ hm)).trans (step49 m c r fun hm => h (List.mem_append_left _ hm))
abbrev later47 : List (Ref sig .tc) := writes48 ++ later48
theorem frame47 (r : Ref sig .tc) (h : r ∉ later47) : W63 m c (Proc.devRef .tc r) = W47 m c (Proc.devRef .tc r) :=
  (frame48 m c r fun hm => h (List.mem_append_right _ hm)).trans (step48 m c r fun hm => h (List.mem_append_left _ hm))
abbrev later46 : List (Ref sig .tc) := writes47 ++ later47
theorem frame46 (r : Ref sig .tc) (h : r ∉ later46) : W63 m c (Proc.devRef .tc r) = W46 m c (Proc.devRef .tc r) :=
  (frame47 m c r fun hm => h (List.mem_append_right _ hm)).trans (step47 m c r fun hm => h (List.mem_append_left _ hm))
abbrev later45 : List (Ref sig .tc) := writes46 ++ later46
theorem frame45 (r : Ref sig .tc) (h : r ∉ later45) : W63 m c (Proc.devRef .tc r) = W45 m c (Proc.devRef .tc r) :=
  (frame46 m c r fun hm => h (List.mem_append_right _ hm)).trans (step46 m c r fun hm => h (List.mem_append_left _ hm))
abbrev later44 : List (Ref sig .tc) := writes45 ++ later45
theorem frame44 (r : Ref sig .tc) (h : r ∉ later44) : W63 m c (Proc.devRef .tc r) = W44 m c (Proc.devRef .tc r) :=
  (frame45 m c r fun hm => h (List.mem_append_right _ hm)).trans (step45 m c r fun hm => h (List.mem_append_left _ hm))
abbrev later43 : List (Ref sig .tc) := writes44 ++ later44
theorem frame43 (r : Ref sig .tc) (h : r ∉ later43) : W63 m c (Proc.devRef .tc r) = W43 m c (Proc.devRef .tc r) :=
  (frame44 m c r fun hm => h (List.mem_append_right _ hm)).trans (step44 m c r fun hm => h (List.mem_append_left _ hm))
abbrev later42 : List (Ref sig .tc) := writes43 ++ later43
theorem frame42 (r : Ref sig .tc) (h : r ∉ later42) : W63 m c (Proc.devRef .tc r) = W42 m c (Proc.devRef .tc r) :=
  (frame43 m c r fun hm => h (List.mem_append_right _ hm)).trans (step43 m c r fun hm => h (List.mem_append_left _ hm))
abbrev later41 : List (Ref sig .tc) := writes42 ++ later42
theorem frame41 (r : Ref sig .tc) (h : r ∉ later41) : W63 m c (Proc.devRef .tc r) = W41 m c (Proc.devRef .tc r) :=
  (frame42 m c r fun hm => h (List.mem_append_right _ hm)).trans (step42 m c r fun hm => h (List.mem_append_left _ hm))
abbrev later40 : List (Ref sig .tc) := writes41 ++ later41
theorem frame40 (r : Ref sig .tc) (h : r ∉ later40) : W63 m c (Proc.devRef .tc r) = W40 m c (Proc.devRef .tc r) :=
  (frame41 m c r fun hm => h (List.mem_append_right _ hm)).trans (step41 m c r fun hm => h (List.mem_append_left _ hm))
abbrev later39 : List (Ref sig .tc) := writes40 ++ later40
theorem frame39 (r : Ref sig .tc) (h : r ∉ later39) : W63 m c (Proc.devRef .tc r) = W39 m c (Proc.devRef .tc r) :=
  (frame40 m c r fun hm => h (List.mem_append_right _ hm)).trans (step40 m c r fun hm => h (List.mem_append_left _ hm))
abbrev later38 : List (Ref sig .tc) := writes39 ++ later39
theorem frame38 (r : Ref sig .tc) (h : r ∉ later38) : W63 m c (Proc.devRef .tc r) = W38 m c (Proc.devRef .tc r) :=
  (frame39 m c r fun hm => h (List.mem_append_right _ hm)).trans (step39 m c r fun hm => h (List.mem_append_left _ hm))
abbrev later37 : List (Ref sig .tc) := writes38 ++ later38
theorem frame37 (r : Ref sig .tc) (h : r ∉ later37) : W63 m c (Proc.devRef .tc r) = W37 m c (Proc.devRef .tc r) :=
  (frame38 m c r fun hm => h (List.mem_append_right _ hm)).trans (step38 m c r fun hm => h (List.mem_append_left _ hm))
abbrev later36 : List (Ref sig .tc) := writes37 ++ later37
theorem frame36 (r : Ref sig .tc) (h : r ∉ later36) : W63 m c (Proc.devRef .tc r) = W36 m c (Proc.devRef .tc r) :=
  (frame37 m c r fun hm => h (List.mem_append_right _ hm)).trans (step37 m c r fun hm => h (List.mem_append_left _ hm))
abbrev later35 : List (Ref sig .tc) := writes36 ++ later36
theorem frame35 (r : Ref sig .tc) (h : r ∉ later35) : W63 m c (Proc.devRef .tc r) = W35 m c (Proc.devRef .tc r) :=
  (frame36 m c r fun hm => h (List.mem_append_right _ hm)).trans (step36 m c r fun hm => h (List.mem_append_left _ hm))
abbrev later34 : List (Ref sig .tc) := writes35 ++ later35
theorem frame34 (r : Ref sig .tc) (h : r ∉ later34) : W63 m c (Proc.devRef .tc r) = W34 m c (Proc.devRef .tc r) :=
  (frame35 m c r fun hm => h (List.mem_append_right _ hm)).trans (step35 m c r fun hm => h (List.mem_append_left _ hm))
abbrev later33 : List (Ref sig .tc) := writes34 ++ later34
theorem frame33 (r : Ref sig .tc) (h : r ∉ later33) : W63 m c (Proc.devRef .tc r) = W33 m c (Proc.devRef .tc r) :=
  (frame34 m c r fun hm => h (List.mem_append_right _ hm)).trans (step34 m c r fun hm => h (List.mem_append_left _ hm))
abbrev later32 : List (Ref sig .tc) := writes33 ++ later33
theorem frame32 (r : Ref sig .tc) (h : r ∉ later32) : W63 m c (Proc.devRef .tc r) = W32 m c (Proc.devRef .tc r) :=
  (frame33 m c r fun hm => h (List.mem_append_right _ hm)).trans (step33 m c r fun hm => h (List.mem_append_left _ hm))
abbrev later31 : List (Ref sig .tc) := writes32 ++ later32
theorem frame31 (r : Ref sig .tc) (h : r ∉ later31) : W63 m c (Proc.devRef .tc r) = W31 m c (Proc.devRef .tc r) :=
  (frame32 m c r fun hm => h (List.mem_append_right _ hm)).trans (step32 m c r fun hm => h (List.mem_append_left _ hm))
abbrev later30 : List (Ref sig .tc) := writes31 ++ later31
theorem frame30 (r : Ref sig .tc) (h : r ∉ later30) : W63 m c (Proc.devRef .tc r) = W30 m c (Proc.devRef .tc r) :=
  (frame31 m c r fun hm => h (List.mem_append_right _ hm)).trans (step31 m c r fun hm => h (List.mem_append_left _ hm))
abbrev later29 : List (Ref sig .tc) := writes30 ++ later30
theorem frame29 (r : Ref sig .tc) (h : r ∉ later29) : W63 m c (Proc.devRef .tc r) = W29 m c (Proc.devRef .tc r) :=
  (frame30 m c r fun hm => h (List.mem_append_right _ hm)).trans (step30 m c r fun hm => h (List.mem_append_left _ hm))
abbrev later28 : List (Ref sig .tc) := writes29 ++ later29
theorem frame28 (r : Ref sig .tc) (h : r ∉ later28) : W63 m c (Proc.devRef .tc r) = W28 m c (Proc.devRef .tc r) :=
  (frame29 m c r fun hm => h (List.mem_append_right _ hm)).trans (step29 m c r fun hm => h (List.mem_append_left _ hm))
abbrev later27 : List (Ref sig .tc) := writes28 ++ later28
theorem frame27 (r : Ref sig .tc) (h : r ∉ later27) : W63 m c (Proc.devRef .tc r) = W27 m c (Proc.devRef .tc r) :=
  (frame28 m c r fun hm => h (List.mem_append_right _ hm)).trans (step28 m c r fun hm => h (List.mem_append_left _ hm))
abbrev later26 : List (Ref sig .tc) := writes27 ++ later27
theorem frame26 (r : Ref sig .tc) (h : r ∉ later26) : W63 m c (Proc.devRef .tc r) = W26 m c (Proc.devRef .tc r) :=
  (frame27 m c r fun hm => h (List.mem_append_right _ hm)).trans (step27 m c r fun hm => h (List.mem_append_left _ hm))
abbrev later25 : List (Ref sig .tc) := writes26 ++ later26
theorem frame25 (r : Ref sig .tc) (h : r ∉ later25) : W63 m c (Proc.devRef .tc r) = W25 m c (Proc.devRef .tc r) :=
  (frame26 m c r fun hm => h (List.mem_append_right _ hm)).trans (step26 m c r fun hm => h (List.mem_append_left _ hm))
abbrev later24 : List (Ref sig .tc) := writes25 ++ later25
theorem frame24 (r : Ref sig .tc) (h : r ∉ later24) : W63 m c (Proc.devRef .tc r) = W24 m c (Proc.devRef .tc r) :=
  (frame25 m c r fun hm => h (List.mem_append_right _ hm)).trans (step25 m c r fun hm => h (List.mem_append_left _ hm))
abbrev later23 : List (Ref sig .tc) := writes24 ++ later24
theorem frame23 (r : Ref sig .tc) (h : r ∉ later23) : W63 m c (Proc.devRef .tc r) = W23 m c (Proc.devRef .tc r) :=
  (frame24 m c r fun hm => h (List.mem_append_right _ hm)).trans (step24 m c r fun hm => h (List.mem_append_left _ hm))
abbrev later22 : List (Ref sig .tc) := writes23 ++ later23
theorem frame22 (r : Ref sig .tc) (h : r ∉ later22) : W63 m c (Proc.devRef .tc r) = W22 m c (Proc.devRef .tc r) :=
  (frame23 m c r fun hm => h (List.mem_append_right _ hm)).trans (step23 m c r fun hm => h (List.mem_append_left _ hm))
abbrev later21 : List (Ref sig .tc) := writes22 ++ later22
theorem frame21 (r : Ref sig .tc) (h : r ∉ later21) : W63 m c (Proc.devRef .tc r) = W21 m c (Proc.devRef .tc r) :=
  (frame22 m c r fun hm => h (List.mem_append_right _ hm)).trans (step22 m c r fun hm => h (List.mem_append_left _ hm))
abbrev later20 : List (Ref sig .tc) := writes21 ++ later21
theorem frame20 (r : Ref sig .tc) (h : r ∉ later20) : W63 m c (Proc.devRef .tc r) = W20 m c (Proc.devRef .tc r) :=
  (frame21 m c r fun hm => h (List.mem_append_right _ hm)).trans (step21 m c r fun hm => h (List.mem_append_left _ hm))
abbrev later19 : List (Ref sig .tc) := writes20 ++ later20
theorem frame19 (r : Ref sig .tc) (h : r ∉ later19) : W63 m c (Proc.devRef .tc r) = W19 m c (Proc.devRef .tc r) :=
  (frame20 m c r fun hm => h (List.mem_append_right _ hm)).trans (step20 m c r fun hm => h (List.mem_append_left _ hm))
abbrev later18 : List (Ref sig .tc) := writes19 ++ later19
theorem frame18 (r : Ref sig .tc) (h : r ∉ later18) : W63 m c (Proc.devRef .tc r) = W18 m c (Proc.devRef .tc r) :=
  (frame19 m c r fun hm => h (List.mem_append_right _ hm)).trans (step19 m c r fun hm => h (List.mem_append_left _ hm))
abbrev later17 : List (Ref sig .tc) := writes18 ++ later18
theorem frame17 (r : Ref sig .tc) (h : r ∉ later17) : W63 m c (Proc.devRef .tc r) = W17 m c (Proc.devRef .tc r) :=
  (frame18 m c r fun hm => h (List.mem_append_right _ hm)).trans (step18 m c r fun hm => h (List.mem_append_left _ hm))
abbrev later16 : List (Ref sig .tc) := writes17 ++ later17
theorem frame16 (r : Ref sig .tc) (h : r ∉ later16) : W63 m c (Proc.devRef .tc r) = W16 m c (Proc.devRef .tc r) :=
  (frame17 m c r fun hm => h (List.mem_append_right _ hm)).trans (step17 m c r fun hm => h (List.mem_append_left _ hm))
abbrev later15 : List (Ref sig .tc) := writes16 ++ later16
theorem frame15 (r : Ref sig .tc) (h : r ∉ later15) : W63 m c (Proc.devRef .tc r) = W15 m c (Proc.devRef .tc r) :=
  (frame16 m c r fun hm => h (List.mem_append_right _ hm)).trans (step16 m c r fun hm => h (List.mem_append_left _ hm))
abbrev later14 : List (Ref sig .tc) := writes15 ++ later15
theorem frame14 (r : Ref sig .tc) (h : r ∉ later14) : W63 m c (Proc.devRef .tc r) = W14 m c (Proc.devRef .tc r) :=
  (frame15 m c r fun hm => h (List.mem_append_right _ hm)).trans (step15 m c r fun hm => h (List.mem_append_left _ hm))
abbrev later13 : List (Ref sig .tc) := writes14 ++ later14
theorem frame13 (r : Ref sig .tc) (h : r ∉ later13) : W63 m c (Proc.devRef .tc r) = W13 m c (Proc.devRef .tc r) :=
  (frame14 m c r fun hm => h (List.mem_append_right _ hm)).trans (step14 m c r fun hm => h (List.mem_append_left _ hm))
abbrev later12 : List (Ref sig .tc) := writes13 ++ later13
theorem frame12 (r : Ref sig .tc) (h : r ∉ later12) : W63 m c (Proc.devRef .tc r) = W12 m c (Proc.devRef .tc r) :=
  (frame13 m c r fun hm => h (List.mem_append_right _ hm)).trans (step13 m c r fun hm => h (List.mem_append_left _ hm))
abbrev later11 : List (Ref sig .tc) := writes12 ++ later12
theorem frame11 (r : Ref sig .tc) (h : r ∉ later11) : W63 m c (Proc.devRef .tc r) = W11 m c (Proc.devRef .tc r) :=
  (frame12 m c r fun hm => h (List.mem_append_right _ hm)).trans (step12 m c r fun hm => h (List.mem_append_left _ hm))
abbrev later10 : List (Ref sig .tc) := writes11 ++ later11
theorem frame10 (r : Ref sig .tc) (h : r ∉ later10) : W63 m c (Proc.devRef .tc r) = W10 m c (Proc.devRef .tc r) :=
  (frame11 m c r fun hm => h (List.mem_append_right _ hm)).trans (step11 m c r fun hm => h (List.mem_append_left _ hm))
abbrev later9 : List (Ref sig .tc) := writes10 ++ later10
theorem frame9 (r : Ref sig .tc) (h : r ∉ later9) : W63 m c (Proc.devRef .tc r) = W9 m c (Proc.devRef .tc r) :=
  (frame10 m c r fun hm => h (List.mem_append_right _ hm)).trans (step10 m c r fun hm => h (List.mem_append_left _ hm))
abbrev later8 : List (Ref sig .tc) := writes9 ++ later9
theorem frame8 (r : Ref sig .tc) (h : r ∉ later8) : W63 m c (Proc.devRef .tc r) = W8 m c (Proc.devRef .tc r) :=
  (frame9 m c r fun hm => h (List.mem_append_right _ hm)).trans (step9 m c r fun hm => h (List.mem_append_left _ hm))
abbrev later7 : List (Ref sig .tc) := writes8 ++ later8
theorem frame7 (r : Ref sig .tc) (h : r ∉ later7) : W63 m c (Proc.devRef .tc r) = W7 m c (Proc.devRef .tc r) :=
  (frame8 m c r fun hm => h (List.mem_append_right _ hm)).trans (step8 m c r fun hm => h (List.mem_append_left _ hm))
abbrev later6 : List (Ref sig .tc) := writes7 ++ later7
theorem frame6 (r : Ref sig .tc) (h : r ∉ later6) : W63 m c (Proc.devRef .tc r) = W6 m c (Proc.devRef .tc r) :=
  (frame7 m c r fun hm => h (List.mem_append_right _ hm)).trans (step7 m c r fun hm => h (List.mem_append_left _ hm))
abbrev later5 : List (Ref sig .tc) := writes6 ++ later6
theorem frame5 (r : Ref sig .tc) (h : r ∉ later5) : W63 m c (Proc.devRef .tc r) = W5 m c (Proc.devRef .tc r) :=
  (frame6 m c r fun hm => h (List.mem_append_right _ hm)).trans (step6 m c r fun hm => h (List.mem_append_left _ hm))
abbrev later4 : List (Ref sig .tc) := writes5 ++ later5
theorem frame4 (r : Ref sig .tc) (h : r ∉ later4) : W63 m c (Proc.devRef .tc r) = W4 m c (Proc.devRef .tc r) :=
  (frame5 m c r fun hm => h (List.mem_append_right _ hm)).trans (step5 m c r fun hm => h (List.mem_append_left _ hm))
abbrev later3 : List (Ref sig .tc) := writes4 ++ later4
theorem frame3 (r : Ref sig .tc) (h : r ∉ later3) : W63 m c (Proc.devRef .tc r) = W3 m c (Proc.devRef .tc r) :=
  (frame4 m c r fun hm => h (List.mem_append_right _ hm)).trans (step4 m c r fun hm => h (List.mem_append_left _ hm))
abbrev later2 : List (Ref sig .tc) := writes3 ++ later3
theorem frame2 (r : Ref sig .tc) (h : r ∉ later2) : W63 m c (Proc.devRef .tc r) = W2 m c (Proc.devRef .tc r) :=
  (frame3 m c r fun hm => h (List.mem_append_right _ hm)).trans (step3 m c r fun hm => h (List.mem_append_left _ hm))
abbrev later1 : List (Ref sig .tc) := writes2 ++ later2
theorem frame1 (r : Ref sig .tc) (h : r ∉ later1) : W63 m c (Proc.devRef .tc r) = W1 m c (Proc.devRef .tc r) :=
  (frame2 m c r fun hm => h (List.mem_append_right _ hm)).trans (step2 m c r fun hm => h (List.mem_append_left _ hm))
abbrev later0 : List (Ref sig .tc) := writes1 ++ later1
theorem frame0 (r : Ref sig .tc) (h : r ∉ later0) : W63 m c (Proc.devRef .tc r) = W0 m c (Proc.devRef .tc r) :=
  (frame1 m c r fun hm => h (List.mem_append_right _ hm)).trans (step1 m c r fun hm => h (List.mem_append_left _ hm))

end Cert.Kernel.Hand

end
-- ==== Proof.Ref.Run0.lean ====
import proofs.«405323_j90718299226206_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 22 of @main (window `main_part0`), each call's body at its call site. -/
abbrev ops_p0_0 : List (HloOp τ sig (Elt F)) :=
  [ StableHlo.nullary main_cst (constant S_ .f32 0x00000000#32),
    StableHlo.unary main_cst main_v0 (broadcastInDim S10000x10000 ![] bcast_S_S10000x10000 : (⟨S_, .f32⟩ : BufTy).Contents (Elt F) → (⟨S10000x10000, .f32⟩ : BufTy).Contents (Elt F)),
    StableHlo.unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v1 main_v2 rfl shapeCasts_S1x320000_S320000,
    StableHlo.unary main_arg1 main_v3 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v3 main_v4 rfl shapeCasts_S1x320000_S320000,
    StableHlo.nullary main_c (constantI S_ 32 0#32),
    StableHlo.unary main_c main_v5 (broadcastInDim S320000 ![] bcast_S_S320000 : (⟨S_, .i32⟩ : BufTy).Contents (Elt F) → (⟨S320000, .i32⟩ : BufTy).Contents (Elt F)),
    StableHlo.binary main_v2 main_v5 main_v6 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 10000#32),
    StableHlo.unary main_c_0 main_v7 (broadcastInDim S320000 ![] bcast_S_S320000 : (⟨S_, .i32⟩ : BufTy).Contents (Elt F) → (⟨S320000, .i32⟩ : BufTy).Contents (Elt F)),
    StableHlo.binary main_v2 main_v7 main_v8 (addi : (⟨S320000, .i32⟩ : BufTy).Contents (Elt F) → (⟨S320000, .i32⟩ : BufTy).Contents (Elt F) → (⟨S320000, .i32⟩ : BufTy).Contents (Elt F)),
    StableHlo.ternary main_v6 main_v8 main_v2 main_v9 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.nullary main_c_1 (constantI S_ 32 0#32),
    StableHlo.unary main_c_1 main_v10 (broadcastInDim S320000 ![] bcast_S_S320000 : (⟨S_, .i32⟩ : BufTy).Contents (Elt F) → (⟨S320000, .i32⟩ : BufTy).Contents (Elt F)),
    StableHlo.binary main_v4 main_v10 main_v11 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 10000#32),
    StableHlo.unary main_c_2 main_v12 (broadcastInDim S320000 ![] bcast_S_S320000 : (⟨S_, .i32⟩ : BufTy).Contents (Elt F) → (⟨S320000, .i32⟩ : BufTy).Contents (Elt F)),
    StableHlo.binary main_v4 main_v12 main_v13 (addi : (⟨S320000, .i32⟩ : BufTy).Contents (Elt F) → (⟨S320000, .i32⟩ : BufTy).Contents (Elt F) → (⟨S320000, .i32⟩ : BufTy).Contents (Elt F)),
    StableHlo.ternary main_v11 main_v13 main_v4 main_v14 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v9 main_v15 (broadcastInDim S320000x1 ![0] bcast_S320000_S320000x1_0 : (⟨S320000, .i32⟩ : BufTy).Contents (Elt F) → (⟨S320000x1, .i32⟩ : BufTy).Contents (Elt F)),
    StableHlo.unary main_v14 main_v16 (broadcastInDim S320000x1 ![0] bcast_S320000_S320000x1_0 : (⟨S320000, .i32⟩ : BufTy).Contents (Elt F) → (⟨S320000x1, .i32⟩ : BufTy).Contents (Elt F)) ]

theorem ops_p0_0_sub : (ops_p0_0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem ops_p0_0_fresh : (ops_p0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers those operations write, in order. -/
abbrev ops_p0_0_W : List (Ref sig .tc) := [main_cst, main_v0, main_v1, main_v2, main_v3, main_v4, main_c, main_v5, main_v6, main_c_0, main_v7, main_v8, main_v9, main_c_1, main_v10, main_v11, main_c_2, main_v12, main_v13, main_v14, main_v15, main_v16]
theorem ops_p0_0_writes : (ops_p0_0 : List (HloOp τ sig (Elt F))).Forall fun op => op.writes ⊆ (ops_p0_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 23 … 27 of @main (window `main_part0`), each call's body at its call site. -/
abbrev ops_p0_1 : List (HloOp τ sig (Elt F)) :=
  [ StableHlo.binary main_v15 main_v16 main_v17 ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F)),
    StableHlo.ternary main_v0 main_v17 main_arg2 main_v18 ((fun x i u => Host.scatterAdd scatter_S10000x10000_S320000x2_S320000_n_01_01_1 x i u) : (⟨S10000x10000, .f32⟩ : BufTy).Contents (Elt F) → (⟨S320000x2, .i32⟩ : BufTy).Contents (Elt F) → (⟨S320000, .f32⟩ : BufTy).Contents (Elt F) → (⟨S10000x10000, .f32⟩ : BufTy).Contents (Elt F)),
    StableHlo.nullary main_v19 (iotaInDim S10000 32 0),
    StableHlo.unary main_arg1 main_v20 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v20 main_v21 rfl shapeCasts_S1x320000_S320000 ]

theorem ops_p0_1_sub : (ops_p0_1 : List (HloOp τ sig (Elt F))).Forall fun op => op.bufs ⊆ tcRefs τ sig :=
  ⟨binary_bufs_sub .., ternary_bufs_sub .., nullary_bufs_sub .., unary_bufs_sub .., reshape_bufs_sub ..⟩
theorem ops_p0_1_fresh : (ops_p0_1 : List (HloOp τ sig (Elt F))).Forall fun op => op.fresh = ∅ :=
  ⟨rfl, rfl, rfl, rfl, rfl⟩
/-- The buffers those operations write, in order. -/
abbrev ops_p0_1_W : List (Ref sig .tc) := [main_v17, main_v18, main_v19, main_v20, main_v21]
theorem ops_p0_1_writes : (ops_p0_1 : List (HloOp τ sig (Elt F))).Forall fun op => op.writes ⊆ (ops_p0_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 28 … 30 of @main (window `main_part0`), each call's body at its call site. -/
abbrev ops_p0_2 : List (HloOp τ sig (Elt F)) :=
  [ StableHlo.binary main_v21 main_v19 main_v22 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.unary main_arg1 main_v23 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v23 main_v24 rfl shapeCasts_S1x320000_S320000 ]

theorem ops_p0_2_sub : (ops_p0_2 : List (HloOp τ sig (Elt F))).Forall fun op => op.bufs ⊆ tcRefs τ sig :=
  ⟨binary_bufs_sub .., unary_bufs_sub .., reshape_bufs_sub ..⟩
theorem ops_p0_2_fresh : (ops_p0_2 : List (HloOp τ sig (Elt F))).Forall fun op => op.fresh = ∅ :=
  ⟨rfl, rfl, rfl⟩
/-- The buffers those operations write, in order. -/
abbrev ops_p0_2_W : List (Ref sig .tc) := [main_v22, main_v23, main_v24]
theorem ops_p0_2_writes : (ops_p0_2 : List (HloOp τ sig (Elt F))).Forall fun op => op.writes ⊆ (ops_p0_2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 31 … 33 of @main (window `main_part0`), each call's body at its call site. -/
abbrev ops_p0_3 : List (HloOp τ sig (Elt F)) :=
  [ StableHlo.binary main_v24 main_v19 main_v25 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.nullary main_cst_3 (constant S_ .f32 0x3F800000#32),
    StableHlo.unary main_cst_3 main_v26 (broadcastInDim S10000 ![] bcast_S_S10000 : (⟨S_, .f32⟩ : BufTy).Contents (Elt F) → (⟨S10000, .f32⟩ : BufTy).Contents (Elt F)) ]

theorem ops_p0_3_sub : (ops_p0_3 : List (HloOp τ sig (Elt F))).Forall fun op => op.bufs ⊆ tcRefs τ sig :=
  ⟨binary_bufs_sub .., nullary_bufs_sub .., unary_bufs_sub ..⟩
theorem ops_p0_3_fresh : (ops_p0_3 : List (HloOp τ sig (Elt F))).Forall fun op => op.fresh = ∅ :=
  ⟨rfl, rfl, rfl⟩
/-- The buffers those operations write, in order. -/
abbrev ops_p0_3_W : List (Ref sig .tc) := [main_v25, main_cst_3, main_v26]
theorem ops_p0_3_writes : (ops_p0_3 : List (HloOp τ sig (Elt F))).Forall fun op => op.writes ⊆ (ops_p0_3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 34 … 62 of @main (window `main_part0`), each call's body at its call site. -/
abbrev ops_p0_4 : List (HloOp τ sig (Elt F)) :=
  [ StableHlo.binary main_arg2 main_v26 main_v27 ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F)),
    StableHlo.nullary main_cst_4 (constant S_ .f32 0x00000000#32),
    StableHlo.unary main_cst_4 main_v28 (broadcastInDim S10000 ![] bcast_S_S10000 : (⟨S_, .f32⟩ : BufTy).Contents (Elt F) → (⟨S10000, .f32⟩ : BufTy).Contents (Elt F)),
    StableHlo.unary main_v25 main_v29 (broadcastInDim S330000x1 ![0] bcast_S330000_S330000x1_0 : (⟨S330000, .i32⟩ : BufTy).Contents (Elt F) → (⟨S330000x1, .i32⟩ : BufTy).Contents (Elt F)),
    StableHlo.ternary main_v28 main_v29 main_v27 main_v30 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_5 (constant S_ .f32 0x00000000#32),
    StableHlo.unary main_cst_5 main_v31 (broadcastInDim S10000 ![] bcast_S_S10000 : (⟨S_, .f32⟩ : BufTy).Contents (Elt F) → (⟨S10000, .f32⟩ : BufTy).Contents (Elt F)),
    StableHlo.binary main_v30 main_v31 main_v32 (cmpf .ogt : (⟨S10000, .f32⟩ : BufTy).Contents (Elt F) → (⟨S10000, .f32⟩ : BufTy).Contents (Elt F) → (⟨S10000, .i1⟩ : BufTy).Contents (Elt F)),
    StableHlo.unary main_v30 main_v33 (Host.rsqrt : (⟨S10000, .f32⟩ : BufTy).Contents (Elt F) → (⟨S10000, .f32⟩ : BufTy).Contents (Elt F)),
    StableHlo.nullary main_cst_6 (constant S_ .f32 0x00000000#32),
    StableHlo.TRef.unary (.of main_cst_6) main_call0.v0 id,
    StableHlo.TRef.unary main_call0.v0 main_call0.v1 (broadcastInDim S10000 ![] bcast_S_S10000),
    StableHlo.TRef.ternary (.of main_v32) (.of main_v33) main_call0.v1 main_call0.v2 select,
    StableHlo.nullary main_c_7 (constantI S_ 32 0#32),
    StableHlo.unary main_c_7 main_v35 (broadcastInDim S330000 ![] bcast_S_S330000 : (⟨S_, .i32⟩ : BufTy).Contents (Elt F) → (⟨S330000, .i32⟩ : BufTy).Contents (Elt F)),
    StableHlo.binary main_v22 main_v35 main_v36 (cmpi .slt : (⟨S330000, .i32⟩ : BufTy).Contents (Elt F) → (⟨S330000, .i32⟩ : BufTy).Contents (Elt F) → (⟨S330000, .i1⟩ : BufTy).Contents (Elt F)),
    StableHlo.nullary main_c_8 (constantI S_ 32 10000#32),
    StableHlo.unary main_c_8 main_v37 (broadcastInDim S330000 ![] bcast_S_S330000 : (⟨S_, .i32⟩ : BufTy).Contents (Elt F) → (⟨S330000, .i32⟩ : BufTy).Contents (Elt F)),
    StableHlo.binary main_v22 main_v37 main_v38 (addi : (⟨S330000, .i32⟩ : BufTy).Contents (Elt F) → (⟨S330000, .i32⟩ : BufTy).Contents (Elt F) → (⟨S330000, .i32⟩ : BufTy).Contents (Elt F)),
    StableHlo.ternary main_v36 main_v38 main_v22 main_v39 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v39 main_v40 (broadcastInDim S330000x1 ![0] bcast_S330000_S330000x1_0 : (⟨S330000, .i32⟩ : BufTy).Contents (Elt F) → (⟨S330000x1, .i32⟩ : BufTy).Contents (Elt F)),
    StableHlo.binary main_v34 main_v40 main_v41 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v41 main_v27 main_v42 (mulf : (⟨S330000, .f32⟩ : BufTy).Contents (Elt F) → (⟨S330000, .f32⟩ : BufTy).Contents (Elt F) → (⟨S330000, .f32⟩ : BufTy).Contents (Elt F)),
    StableHlo.nullary main_c_9 (constantI S_ 32 0#32),
    StableHlo.unary main_c_9 main_v43 (broadcastInDim S330000 ![] bcast_S_S330000 : (⟨S_, .i32⟩ : BufTy).Contents (Elt F) → (⟨S330000, .i32⟩ : BufTy).Contents (Elt F)),
    StableHlo.binary main_v25 main_v43 main_v44 (cmpi .slt : (⟨S330000, .i32⟩ : BufTy).Contents (Elt F) → (⟨S330000, .i32⟩ : BufTy).Contents (Elt F) → (⟨S330000, .i1⟩ : BufTy).Contents (Elt F)),
    StableHlo.nullary main_c_10 (constantI S_ 32 10000#32),
    StableHlo.unary main_c_10 main_v45 (broadcastInDim S330000 ![] bcast_S_S330000 : (⟨S_, .i32⟩ : BufTy).Contents (Elt F) → (⟨S330000, .i32⟩ : BufTy).Contents (Elt F)),
    StableHlo.binary main_v25 main_v45 main_v46 (addi : (⟨S330000, .i32⟩ : BufTy).Contents (Elt F) → (⟨S330000, .i32⟩ : BufTy).Contents (Elt F) → (⟨S330000, .i32⟩ : BufTy).Contents (Elt F)) ]

theorem ops_p0_4_sub : (ops_p0_4 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub ..⟩
theorem ops_p0_4_fresh : (ops_p0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p0_4_W : List (Ref sig .tc) := [main_v27, main_cst_4, main_v28, main_v29, main_v30, main_cst_5, main_v31, main_v32, main_v33, main_cst_6, main_call0_v0, main_call0_v1, main_v34, main_c_7, main_v35, main_v36, main_c_8, main_v37, main_v38, main_v39, main_v40, main_v41, main_v42, main_c_9, main_v43, main_v44, main_c_10, main_v45, main_v46]
theorem ops_p0_4_writes : (ops_p0_4 : List (HloOp τ sig (Elt F))).Forall fun op => op.writes ⊆ (ops_p0_4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Window `main_part0`'s operations. -/
abbrev ops_p0 : List (HloOp τ sig (Elt F)) :=
  ops_p0_0 ++ (ops_p0_1 ++ (ops_p0_2 ++ (ops_p0_3 ++ (ops_p0_4))))

end Cert.ReferenceIdeal.HandRun

end
-- ==== Proof.Ref.Run1.lean ====
import proofs.«405323_j90718299226206_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 63 … 102 of @main (window `main_part1`), each call's body at its call site. -/
abbrev ops_p1_0 : List (HloOp τ sig (Elt F)) :=
  [ StableHlo.ternary main_v44 main_v46 main_v25 main_v47 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v47 main_v48 (broadcastInDim S330000x1 ![0] bcast_S330000_S330000x1_0 : (⟨S330000, .i32⟩ : BufTy).Contents (Elt F) → (⟨S330000x1, .i32⟩ : BufTy).Contents (Elt F)),
    StableHlo.binary main_v34 main_v48 main_v49 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.binary main_v42 main_v49 main_v50 (mulf : (⟨S330000, .f32⟩ : BufTy).Contents (Elt F) → (⟨S330000, .f32⟩ : BufTy).Contents (Elt F) → (⟨S330000, .f32⟩ : BufTy).Contents (Elt F)),
    StableHlo.binary main_arg0 main_arg3 main_v51 ((fun l r => Host.dotGeneral dot_S10000x512_S512x512_S10000x512_1_0_0_1_n_n none l r) : (⟨S10000x512, .f32⟩ : BufTy).Contents (Elt F) → (⟨S512x512, .f32⟩ : BufTy).Contents (Elt F) → (⟨S10000x512, .f32⟩ : BufTy).Contents (Elt F)),
    StableHlo.unary main_v50 main_v52 (broadcastInDim S330000x1 ![0] bcast_S330000_S330000x1_0 : (⟨S330000, .f32⟩ : BufTy).Contents (Elt F) → (⟨S330000x1, .f32⟩ : BufTy).Contents (Elt F)),
    StableHlo.nullary main_c_11 (constantI S_ 32 0#32),
    StableHlo.unary main_c_11 main_v53 (broadcastInDim S330000 ![] bcast_S_S330000 : (⟨S_, .i32⟩ : BufTy).Contents (Elt F) → (⟨S330000, .i32⟩ : BufTy).Contents (Elt F)),
    StableHlo.binary main_v22 main_v53 main_v54 (cmpi .slt : (⟨S330000, .i32⟩ : BufTy).Contents (Elt F) → (⟨S330000, .i32⟩ : BufTy).Contents (Elt F) → (⟨S330000, .i1⟩ : BufTy).Contents (Elt F)),
    StableHlo.nullary main_c_12 (constantI S_ 32 10000#32),
    StableHlo.unary main_c_12 main_v55 (broadcastInDim S330000 ![] bcast_S_S330000 : (⟨S_, .i32⟩ : BufTy).Contents (Elt F) → (⟨S330000, .i32⟩ : BufTy).Contents (Elt F)),
    StableHlo.binary main_v22 main_v55 main_v56 (addi : (⟨S330000, .i32⟩ : BufTy).Contents (Elt F) → (⟨S330000, .i32⟩ : BufTy).Contents (Elt F) → (⟨S330000, .i32⟩ : BufTy).Contents (Elt F)),
    StableHlo.ternary main_v54 main_v56 main_v22 main_v57 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v57 main_v58 (broadcastInDim S330000x1 ![0] bcast_S330000_S330000x1_0 : (⟨S330000, .i32⟩ : BufTy).Contents (Elt F) → (⟨S330000x1, .i32⟩ : BufTy).Contents (Elt F)),
    StableHlo.binary main_v51 main_v58 main_v59 ((fun x i => Host.gather gather_S10000x512_S330000x1_S330000x512_1_0_n_n_0_1_1512 x i) : (⟨S10000x512, .f32⟩ : BufTy).Contents (Elt F) → (⟨S330000x1, .i32⟩ : BufTy).Contents (Elt F) → (⟨S330000x512, .f32⟩ : BufTy).Contents (Elt F)),
    StableHlo.unary main_v52 main_v60 (broadcastInDim S330000x512 ![0, 1] bcast_S330000x1_S330000x512_0_1 : (⟨S330000x1, .f32⟩ : BufTy).Contents (Elt F) → (⟨S330000x512, .f32⟩ : BufTy).Contents (Elt F)),
    StableHlo.binary main_v60 main_v59 main_v61 (mulf : (⟨S330000x512, .f32⟩ : BufTy).Contents (Elt F) → (⟨S330000x512, .f32⟩ : BufTy).Contents (Elt F) → (⟨S330000x512, .f32⟩ : BufTy).Contents (Elt F)),
    StableHlo.nullary main_cst_13 (constant S_ .f32 0x00000000#32),
    StableHlo.unary main_cst_13 main_v62 (broadcastInDim S10000x512 ![] bcast_S_S10000x512 : (⟨S_, .f32⟩ : BufTy).Contents (Elt F) → (⟨S10000x512, .f32⟩ : BufTy).Contents (Elt F)),
    StableHlo.unary main_v25 main_v63 (broadcastInDim S330000x1 ![0] bcast_S330000_S330000x1_0 : (⟨S330000, .i32⟩ : BufTy).Contents (Elt F) → (⟨S330000x1, .i32⟩ : BufTy).Contents (Elt F)),
    StableHlo.ternary main_v62 main_v63 main_v61 main_v64 ((fun x i u => Host.scatterAdd scatter_S10000x512_S330000x1_S330000x512_1_0_0_1 x i u) : (⟨S10000x512, .f32⟩ : BufTy).Contents (Elt F) → (⟨S330000x1, .i32⟩ : BufTy).Contents (Elt F) → (⟨S330000x512, .f32⟩ : BufTy).Contents (Elt F) → (⟨S10000x512, .f32⟩ : BufTy).Contents (Elt F)),
    StableHlo.unary main_arg4 main_v65 (broadcastInDim S1x512 ![1] bcast_S512_S1x512_1 : (⟨S512, .f32⟩ : BufTy).Contents (Elt F) → (⟨S1x512, .f32⟩ : BufTy).Contents (Elt F)),
    StableHlo.unary main_v65 main_v66 (broadcastInDim S10000x512 ![0, 1] bcast_S1x512_S10000x512_0_1 : (⟨S1x512, .f32⟩ : BufTy).Contents (Elt F) → (⟨S10000x512, .f32⟩ : BufTy).Contents (Elt F)),
    StableHlo.binary main_v64 main_v66 main_v67 (addf : (⟨S10000x512, .f32⟩ : BufTy).Contents (Elt F) → (⟨S10000x512, .f32⟩ : BufTy).Contents (Elt F) → (⟨S10000x512, .f32⟩ : BufTy).Contents (Elt F)),
    StableHlo.TRef.nullary main_call1.cst (constant S_ .f32 0x00000000#32),
    StableHlo.TRef.unary main_call1.cst main_call1.v0 (broadcastInDim S10000x512 ![] bcast_S_S10000x512),
    StableHlo.TRef.binary (.of main_v67) main_call1.v0 main_call1.v1 maximumf,
    StableHlo.binary main_v68 main_arg5 main_v69 ((fun l r => Host.dotGeneral dot_S10000x512_S512x1024_S10000x1024_1_0_0_1_n_n none l r) : (⟨S10000x512, .f32⟩ : BufTy).Contents (Elt F) → (⟨S512x1024, .f32⟩ : BufTy).Contents (Elt F) → (⟨S10000x1024, .f32⟩ : BufTy).Contents (Elt F)),
    StableHlo.unary main_arg6 main_v70 (broadcastInDim S1x1024 ![1] bcast_S1024_S1x1024_1 : (⟨S1024, .f32⟩ : BufTy).Contents (Elt F) → (⟨S1x1024, .f32⟩ : BufTy).Contents (Elt F)),
    StableHlo.unary main_v70 main_v71 (broadcastInDim S10000x1024 ![0, 1] bcast_S1x1024_S10000x1024_0_1 : (⟨S1x1024, .f32⟩ : BufTy).Contents (Elt F) → (⟨S10000x1024, .f32⟩ : BufTy).Contents (Elt F)),
    StableHlo.binary main_v69 main_v71 main_v72 (addf : (⟨S10000x1024, .f32⟩ : BufTy).Contents (Elt F) → (⟨S10000x1024, .f32⟩ : BufTy).Contents (Elt F) → (⟨S10000x1024, .f32⟩ : BufTy).Contents (Elt F)),
    StableHlo.TRef.nullary main_call2.cst (constant S_ .f32 0x00000000#32),
    StableHlo.TRef.unary main_call2.cst main_call2.v0 (broadcastInDim S10000x1024 ![] bcast_S_S10000x1024),
    StableHlo.TRef.binary (.of main_v72) main_call2.v0 main_call2.v1 maximumf,
    StableHlo.nullary main_cst_14 (constant S_ .f32 0xFF800000#32),
    StableHlo.binary main_v73 main_cst_14 main_v74 ((fun x v => Host.reduce FloatOps.maximumf x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    StableHlo.nullary main_cst_15 (constant S_ .f32 0xFF800000#32),
    StableHlo.unary main_cst_15 main_v75 (broadcastInDim S10000 ![] bcast_S_S10000 : (⟨S_, .f32⟩ : BufTy).Contents (Elt F) → (⟨S10000, .f32⟩ : BufTy).Contents (Elt F)),
    StableHlo.binary main_v75 main_v74 main_v76 (maximumf : (⟨S10000, .f32⟩ : BufTy).Contents (Elt F) → (⟨S10000, .f32⟩ : BufTy).Contents (Elt F) → (⟨S10000, .f32⟩ : BufTy).Contents (Elt F)),
    StableHlo.unary main_v76 main_v77 (broadcastInDim S10000x1 ![0] bcast_S10000_S10000x1_0 : (⟨S10000, .f32⟩ : BufTy).Contents (Elt F) → (⟨S10000x1, .f32⟩ : BufTy).Contents (Elt F)) ]

theorem ops_p1_0_sub : (ops_p1_0 : List (HloOp τ sig (Elt F))).Forall fun op => op.bufs ⊆ tcRefs τ sig :=
  ⟨ternary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub ..⟩
theorem ops_p1_0_fresh : (ops_p1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p1_0_W : List (Ref sig .tc) := [main_v47, main_v48, main_v49, main_v50, main_v51, main_v52, main_c_11, main_v53, main_v54, main_c_12, main_v55, main_v56, main_v57, main_v58, main_v59, main_v60, main_v61, main_cst_13, main_v62, main_v63, main_v64, main_v65, main_v66, main_v67, main_call1_cst, main_call1_v0, main_v68, main_v69, main_v70, main_v71, main_v72, main_call2_cst, main_call2_v0, main_v73, main_cst_14, main_v74, main_cst_15, main_v75, main_v76, main_v77]
theorem ops_p1_0_writes : (ops_p1_0 : List (HloOp τ sig (Elt F))).Forall fun op => op.writes ⊆ (ops_p1_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 103 … 136 of @main (window `main_part1`), each call's body at its call site. -/
abbrev ops_p1_1 : List (HloOp τ sig (Elt F)) :=
  [ StableHlo.unary main_v77 main_v78 (broadcastInDim S10000x1024 ![0, 1] bcast_S10000x1_S10000x1024_0_1 : (⟨S10000x1, .f32⟩ : BufTy).Contents (Elt F) → (⟨S10000x1024, .f32⟩ : BufTy).Contents (Elt F)),
    StableHlo.binary main_v73 main_v78 main_v79 (subf : (⟨S10000x1024, .f32⟩ : BufTy).Contents (Elt F) → (⟨S10000x1024, .f32⟩ : BufTy).Contents (Elt F) → (⟨S10000x1024, .f32⟩ : BufTy).Contents (Elt F)),
    StableHlo.unary main_v79 main_v80 (Host.exp : (⟨S10000x1024, .f32⟩ : BufTy).Contents (Elt F) → (⟨S10000x1024, .f32⟩ : BufTy).Contents (Elt F)),
    StableHlo.nullary main_cst_16 (constant S_ .f32 0x00000000#32),
    StableHlo.binary main_v80 main_cst_16 main_v81 ((fun x v => Host.reduceAdd x v reducesTo_S10000x1024_S10000_d1 h_S_) : (⟨S10000x1024, .f32⟩ : BufTy).Contents (Elt F) → (⟨S_, .f32⟩ : BufTy).Contents (Elt F) → (⟨S10000, .f32⟩ : BufTy).Contents (Elt F)),
    StableHlo.unary main_v81 main_v82 (broadcastInDim S10000x1 ![0] bcast_S10000_S10000x1_0 : (⟨S10000, .f32⟩ : BufTy).Contents (Elt F) → (⟨S10000x1, .f32⟩ : BufTy).Contents (Elt F)),
    StableHlo.unary main_v82 main_v83 (broadcastInDim S10000x1024 ![0, 1] bcast_S10000x1_S10000x1024_0_1 : (⟨S10000x1, .f32⟩ : BufTy).Contents (Elt F) → (⟨S10000x1024, .f32⟩ : BufTy).Contents (Elt F)),
    StableHlo.binary main_v80 main_v83 main_v84 (Host.divf : (⟨S10000x1024, .f32⟩ : BufTy).Contents (Elt F) → (⟨S10000x1024, .f32⟩ : BufTy).Contents (Elt F) → (⟨S10000x1024, .f32⟩ : BufTy).Contents (Elt F)),
    StableHlo.unary main_v84 main_v85 ((transpose S1024x10000 [1, 0] · transposes_S10000x1024_S1024x10000_1_0) : (⟨S10000x1024, .f32⟩ : BufTy).Contents (Elt F) → (⟨S1024x10000, .f32⟩ : BufTy).Contents (Elt F)),
    StableHlo.binary main_v85 main_v68 main_v86 ((fun l r => Host.dotGeneral dot_S1024x10000_S10000x512_S1024x512_1_0_0_1_n_n none l r) : (⟨S1024x10000, .f32⟩ : BufTy).Contents (Elt F) → (⟨S10000x512, .f32⟩ : BufTy).Contents (Elt F) → (⟨S1024x512, .f32⟩ : BufTy).Contents (Elt F)),
    StableHlo.unary main_v84 main_v87 ((transpose S1024x10000 [1, 0] · transposes_S10000x1024_S1024x10000_1_0) : (⟨S10000x1024, .f32⟩ : BufTy).Contents (Elt F) → (⟨S1024x10000, .f32⟩ : BufTy).Contents (Elt F)),
    StableHlo.binary main_v18 main_v84 main_v88 ((fun l r => Host.dotGeneral dot_S10000x10000_S10000x1024_S10000x1024_1_0_0_1_n_n none l r) : (⟨S10000x10000, .f32⟩ : BufTy).Contents (Elt F) → (⟨S10000x1024, .f32⟩ : BufTy).Contents (Elt F) → (⟨S10000x1024, .f32⟩ : BufTy).Contents (Elt F)),
    StableHlo.binary main_v87 main_v88 main_v89 ((fun l r => Host.dotGeneral dot_S1024x10000_S10000x1024_S1024x1024_1_0_0_1_n_n none l r) : (⟨S1024x10000, .f32⟩ : BufTy).Contents (Elt F) → (⟨S10000x1024, .f32⟩ : BufTy).Contents (Elt F) → (⟨S1024x1024, .f32⟩ : BufTy).Contents (Elt F)),
    StableHlo.TRef.nullary main_call3.v0 (iotaInDim S1024x1024 32 0),
    StableHlo.TRef.nullary main_call3.v1 (iotaInDim S1024x1024 32 1),
    StableHlo.TRef.nullary main_call3.c (constantI S_ 32 0#32),
    StableHlo.TRef.unary main_call3.c main_call3.v2 (broadcastInDim S1024x1024 ![] bcast_S_S1024x1024),
    StableHlo.TRef.binary main_call3.v0 main_call3.v2 main_call3.v3 addi,
    StableHlo.TRef.binary main_call3.v3 main_call3.v1 main_call3.v4 (cmpi .eq),
    StableHlo.TRef.nullary main_call3.cst (constant S_ .f32 0x00000000#32),
    StableHlo.TRef.unary main_call3.cst main_call3.v5 (broadcastInDim S1024x1024 ![] bcast_S_S1024x1024),
    StableHlo.TRef.ternary main_call3.v4 (.of main_v89) main_call3.v5 main_call3.call0.v0 select,
    StableHlo.TRef.nullary main_call3.cst_0 (constant S_ .f32 0x00000000#32),
    StableHlo.TRef.binary main_call3.call0.v0 main_call3.cst_0 main_call3.v7 (fun x v => Host.reduceAdd x v reducesTo_S1024x1024_S_d0_1 h_S_),
    StableHlo.nullary main_cst_17 (constant S_ .f32 0x00000000#32),
    StableHlo.binary main_v18 main_cst_17 main_v91 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    StableHlo.unary main_v91 main_v92 (broadcastInDim S10000x1 ![0] bcast_S10000_S10000x1_0 : (⟨S10000, .f32⟩ : BufTy).Contents (Elt F) → (⟨S10000x1, .f32⟩ : BufTy).Contents (Elt F)),
    StableHlo.unary main_v92 main_v93 (broadcastInDim S10000x1024 ![0, 1] bcast_S10000x1_S10000x1024_0_1 : (⟨S10000x1, .f32⟩ : BufTy).Contents (Elt F) → (⟨S10000x1024, .f32⟩ : BufTy).Contents (Elt F)),
    StableHlo.binary main_v93 main_v84 main_v94 (mulf : (⟨S10000x1024, .f32⟩ : BufTy).Contents (Elt F) → (⟨S10000x1024, .f32⟩ : BufTy).Contents (Elt F) → (⟨S10000x1024, .f32⟩ : BufTy).Contents (Elt F)),
    StableHlo.binary main_v94 main_v84 main_v95 (mulf : (⟨S10000x1024, .f32⟩ : BufTy).Contents (Elt F) → (⟨S10000x1024, .f32⟩ : BufTy).Contents (Elt F) → (⟨S10000x1024, .f32⟩ : BufTy).Contents (Elt F)),
    StableHlo.nullary main_cst_18 (constant S_ .f32 0x00000000#32),
    StableHlo.binary main_v95 main_cst_18 main_v96 ((fun x v => Host.reduceAdd x v reducesTo_S10000x1024_S_d0_1 h_S_) : (⟨S10000x1024, .f32⟩ : BufTy).Contents (Elt F) → (⟨S_, .f32⟩ : BufTy).Contents (Elt F) → (⟨S_, .f32⟩ : BufTy).Contents (Elt F)),
    StableHlo.binary main_v90 main_v96 main_v97 (Host.divf : (⟨S_, .f32⟩ : BufTy).Contents (Elt F) → (⟨S_, .f32⟩ : BufTy).Contents (Elt F) → (⟨S_, .f32⟩ : BufTy).Contents (Elt F)),
    StableHlo.unary main_v97 main_v98 (Host.negf : (⟨S_, .f32⟩ : BufTy).Contents (Elt F) → (⟨S_, .f32⟩ : BufTy).Contents (Elt F)) ]

theorem ops_p1_1_sub : (ops_p1_1 : List (HloOp τ sig (Elt F))).Forall fun op => op.bufs ⊆ tcRefs τ sig :=
  ⟨unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., nullary_bufs_sub .., binary_bufs_sub .., unary_bufs_sub .., unary_bufs_sub .., binary_bufs_sub .., binary_bufs_sub .., nullary_bufs_sub .., binary_bufs_sub .., binary_bufs_sub .., unary_bufs_sub ..⟩
theorem ops_p1_1_fresh : (ops_p1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p1_1_W : List (Ref sig .tc) := [main_v78, main_v79, main_v80, main_cst_16, main_v81, main_v82, main_v83, main_v84, main_v85, main_v86, main_v87, main_v88, main_v89, main_call3_v0, main_call3_v1, main_call3_c, main_call3_v2, main_call3_v3, main_call3_v4, main_call3_cst, main_call3_v5, main_call3_v6, main_call3_cst_0, main_v90, main_cst_17, main_v91, main_v92, main_v93, main_v94, main_v95, main_cst_18, main_v96, main_v97, main_v98]
theorem ops_p1_1_writes : (ops_p1_1 : List (HloOp τ sig (Elt F))).Forall fun op => op.writes ⊆ (ops_p1_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Window `main_part1`'s operations. -/
abbrev ops_p1 : List (HloOp τ sig (Elt F)) :=
  ops_p1_0 ++ (ops_p1_1)

end Cert.ReferenceIdeal.HandRun

end
-- ==== Proof.Ref.Run2.lean ====
import proofs.«405323_j90718299226206_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 137 … 176 of @main (window `main_part2`), each call's body at its call site. -/
abbrev ops_p2_0 : List (HloOp τ sig (Elt F)) :=
  [ StableHlo.unary main_v84 main_v99 ((transpose S1024x10000 [1, 0] · transposes_S10000x1024_S1024x10000_1_0) : (⟨S10000x1024, .f32⟩ : BufTy).Contents (Elt F) → (⟨S1024x10000, .f32⟩ : BufTy).Contents (Elt F)),
    StableHlo.binary main_v99 main_v84 main_v100 ((fun l r => Host.dotGeneral dot_S1024x10000_S10000x1024_S1024x1024_1_0_0_1_n_n none l r) : (⟨S1024x10000, .f32⟩ : BufTy).Contents (Elt F) → (⟨S10000x1024, .f32⟩ : BufTy).Contents (Elt F) → (⟨S1024x1024, .f32⟩ : BufTy).Contents (Elt F)),
    StableHlo.TRef.binary (.of main_v100) (.of main_v100) main_call4.v0 mulf,
    StableHlo.TRef.nullary main_call4.cst (constant S_ .f32 0x00000000#32),
    StableHlo.TRef.binary main_call4.v0 main_call4.cst main_call4.v1 (fun x v => Host.reduceAdd x v reducesTo_S1024x1024_S_d0_1 h_S_),
    StableHlo.TRef.unary main_call4.v1 main_call4.v2 Host.sqrt,
    StableHlo.unary main_v101 main_v102 (broadcastInDim S1024x1024 ![] bcast_S_S1024x1024 : (⟨S_, .f32⟩ : BufTy).Contents (Elt F) → (⟨S1024x1024, .f32⟩ : BufTy).Contents (Elt F)),
    StableHlo.binary main_v100 main_v102 main_v103 (Host.divf : (⟨S1024x1024, .f32⟩ : BufTy).Contents (Elt F) → (⟨S1024x1024, .f32⟩ : BufTy).Contents (Elt F) → (⟨S1024x1024, .f32⟩ : BufTy).Contents (Elt F)),
    StableHlo.nullary main_v104 (iotaInDim S1024x1024 32 0),
    StableHlo.nullary main_v105 (iotaInDim S1024x1024 32 1),
    StableHlo.nullary main_c_19 (constantI S_ 32 0#32),
    StableHlo.unary main_c_19 main_v106 (broadcastInDim S1024x1024 ![] bcast_S_S1024x1024 : (⟨S_, .i32⟩ : BufTy).Contents (Elt F) → (⟨S1024x1024, .i32⟩ : BufTy).Contents (Elt F)),
    StableHlo.binary main_v104 main_v106 main_v107 (addi : (⟨S1024x1024, .i32⟩ : BufTy).Contents (Elt F) → (⟨S1024x1024, .i32⟩ : BufTy).Contents (Elt F) → (⟨S1024x1024, .i32⟩ : BufTy).Contents (Elt F)),
    StableHlo.binary main_v107 main_v105 main_v108 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v108 main_v109 (uitofp .f32 : (⟨S1024x1024, .i1⟩ : BufTy).Contents (Elt F) → (⟨S1024x1024, .f32⟩ : BufTy).Contents (Elt F)),
    StableHlo.nullary main_cst_20 (constant S_ .f32 0x44800000#32),
    StableHlo.unary main_cst_20 main_v110 (Host.sqrt : (⟨S_, .f32⟩ : BufTy).Contents (Elt F) → (⟨S_, .f32⟩ : BufTy).Contents (Elt F)),
    StableHlo.unary main_v110 main_v111 (broadcastInDim S1024x1024 ![] bcast_S_S1024x1024 : (⟨S_, .f32⟩ : BufTy).Contents (Elt F) → (⟨S1024x1024, .f32⟩ : BufTy).Contents (Elt F)),
    StableHlo.binary main_v109 main_v111 main_v112 (Host.divf : (⟨S1024x1024, .f32⟩ : BufTy).Contents (Elt F) → (⟨S1024x1024, .f32⟩ : BufTy).Contents (Elt F) → (⟨S1024x1024, .f32⟩ : BufTy).Contents (Elt F)),
    StableHlo.binary main_v103 main_v112 main_v113 (subf : (⟨S1024x1024, .f32⟩ : BufTy).Contents (Elt F) → (⟨S1024x1024, .f32⟩ : BufTy).Contents (Elt F) → (⟨S1024x1024, .f32⟩ : BufTy).Contents (Elt F)),
    StableHlo.TRef.binary (.of main_v113) (.of main_v113) main_call5.v0 mulf,
    StableHlo.TRef.nullary main_call5.cst (constant S_ .f32 0x00000000#32),
    StableHlo.TRef.binary main_call5.v0 main_call5.cst main_call5.v1 (fun x v => Host.reduceAdd x v reducesTo_S1024x1024_S_d0_1 h_S_),
    StableHlo.TRef.unary main_call5.v1 main_call5.v2 Host.sqrt,
    StableHlo.nullary main_v115 (iotaInDim S1024x1024 32 0),
    StableHlo.nullary main_v116 (iotaInDim S1024x1024 32 1),
    StableHlo.nullary main_c_21 (constantI S_ 32 0#32),
    StableHlo.unary main_c_21 main_v117 (broadcastInDim S1024x1024 ![] bcast_S_S1024x1024 : (⟨S_, .i32⟩ : BufTy).Contents (Elt F) → (⟨S1024x1024, .i32⟩ : BufTy).Contents (Elt F)),
    StableHlo.binary main_v115 main_v117 main_v118 (addi : (⟨S1024x1024, .i32⟩ : BufTy).Contents (Elt F) → (⟨S1024x1024, .i32⟩ : BufTy).Contents (Elt F) → (⟨S1024x1024, .i32⟩ : BufTy).Contents (Elt F)),
    StableHlo.binary main_v118 main_v116 main_v119 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v119 main_v120 (uitofp .f32 : (⟨S1024x1024, .i1⟩ : BufTy).Contents (Elt F) → (⟨S1024x1024, .f32⟩ : BufTy).Contents (Elt F)),
    StableHlo.nullary main_cst_22 (constant S_ .f32 0x3F800000#32),
    StableHlo.unary main_cst_22 main_v121 (broadcastInDim S1024x1024 ![] bcast_S_S1024x1024 : (⟨S_, .f32⟩ : BufTy).Contents (Elt F) → (⟨S1024x1024, .f32⟩ : BufTy).Contents (Elt F)),
    StableHlo.binary main_v121 main_v120 main_v122 (subf : (⟨S1024x1024, .f32⟩ : BufTy).Contents (Elt F) → (⟨S1024x1024, .f32⟩ : BufTy).Contents (Elt F) → (⟨S1024x1024, .f32⟩ : BufTy).Contents (Elt F)),
    StableHlo.binary main_v89 main_v122 main_v123 (mulf : (⟨S1024x1024, .f32⟩ : BufTy).Contents (Elt F) → (⟨S1024x1024, .f32⟩ : BufTy).Contents (Elt F) → (⟨S1024x1024, .f32⟩ : BufTy).Contents (Elt F)),
    StableHlo.nullary main_cst_23 (constant S_ .f32 0x00000000#32),
    StableHlo.binary main_v123 main_cst_23 main_v124 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.unary main_v124 main_v125 (Host.sqrt : (⟨S1024, .f32⟩ : BufTy).Contents (Elt F) → (⟨S1024, .f32⟩ : BufTy).Contents (Elt F)),
    StableHlo.unary main_v125 main_v126 (broadcastInDim S1024x1 ![0] bcast_S1024_S1024x1_0 : (⟨S1024, .f32⟩ : BufTy).Contents (Elt F) → (⟨S1024x1, .f32⟩ : BufTy).Contents (Elt F)),
    StableHlo.nullary main_cst_24 (constant S_ .f32 0x26901D7D#32) ]

theorem ops_p2_0_sub : (ops_p2_0 : List (HloOp τ sig (Elt F))).Forall fun op => op.bufs ⊆ tcRefs τ sig :=
  ⟨unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., binary_bufs_sub .., binary_bufs_sub .., binary_bufs_sub .., nullary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., unary_bufs_sub .., unary_bufs_sub .., nullary_bufs_sub ..⟩
theorem ops_p2_0_fresh : (ops_p2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p2_0_W : List (Ref sig .tc) := [main_v99, main_v100, main_call4_v0, main_call4_cst, main_call4_v1, main_v101, main_v102, main_v103, main_v104, main_v105, main_c_19, main_v106, main_v107, main_v108, main_v109, main_cst_20, main_v110, main_v111, main_v112, main_v113, main_call5_v0, main_call5_cst, main_call5_v1, main_v114, main_v115, main_v116, main_c_21, main_v117, main_v118, main_v119, main_v120, main_cst_22, main_v121, main_v122, main_v123, main_cst_23, main_v124, main_v125, main_v126, main_cst_24]
theorem ops_p2_0_writes : (ops_p2_0 : List (HloOp τ sig (Elt F))).Forall fun op => op.writes ⊆ (ops_p2_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 177 … 204 of @main (window `main_part2`), each call's body at its call site. -/
abbrev ops_p2_1 : List (HloOp τ sig (Elt F)) :=
  [ StableHlo.unary main_cst_24 main_v127 (broadcastInDim S1024x1 ![] bcast_S_S1024x1 : (⟨S_, .f32⟩ : BufTy).Contents (Elt F) → (⟨S1024x1, .f32⟩ : BufTy).Contents (Elt F)),
    StableHlo.binary main_v126 main_v127 main_v128 (addf : (⟨S1024x1, .f32⟩ : BufTy).Contents (Elt F) → (⟨S1024x1, .f32⟩ : BufTy).Contents (Elt F) → (⟨S1024x1, .f32⟩ : BufTy).Contents (Elt F)),
    StableHlo.unary main_v128 main_v129 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v123 main_v129 main_v130 (Host.divf : (⟨S1024x1024, .f32⟩ : BufTy).Contents (Elt F) → (⟨S1024x1024, .f32⟩ : BufTy).Contents (Elt F) → (⟨S1024x1024, .f32⟩ : BufTy).Contents (Elt F)),
    StableHlo.unary main_v128 main_v131 ((transpose S1x1024 [1, 0] · transposes_S1024x1_S1x1024_1_0) : (⟨S1024x1, .f32⟩ : BufTy).Contents (Elt F) → (⟨S1x1024, .f32⟩ : BufTy).Contents (Elt F)),
    StableHlo.unary main_v131 main_v132 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v130 main_v132 main_v133 (Host.divf : (⟨S1024x1024, .f32⟩ : BufTy).Contents (Elt F) → (⟨S1024x1024, .f32⟩ : BufTy).Contents (Elt F) → (⟨S1024x1024, .f32⟩ : BufTy).Contents (Elt F)),
    StableHlo.nullary main_v134 (iotaInDim S1024x1024 32 0),
    StableHlo.nullary main_v135 (iotaInDim S1024x1024 32 1),
    StableHlo.nullary main_c_25 (constantI S_ 32 0#32),
    StableHlo.unary main_c_25 main_v136 (broadcastInDim S1024x1024 ![] bcast_S_S1024x1024 : (⟨S_, .i32⟩ : BufTy).Contents (Elt F) → (⟨S1024x1024, .i32⟩ : BufTy).Contents (Elt F)),
    StableHlo.binary main_v134 main_v136 main_v137 (addi : (⟨S1024x1024, .i32⟩ : BufTy).Contents (Elt F) → (⟨S1024x1024, .i32⟩ : BufTy).Contents (Elt F) → (⟨S1024x1024, .i32⟩ : BufTy).Contents (Elt F)),
    StableHlo.binary main_v137 main_v135 main_v138 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v138 main_v139 (uitofp .f32 : (⟨S1024x1024, .i1⟩ : BufTy).Contents (Elt F) → (⟨S1024x1024, .f32⟩ : BufTy).Contents (Elt F)),
    StableHlo.binary main_v133 main_v139 main_v140 (addf : (⟨S1024x1024, .f32⟩ : BufTy).Contents (Elt F) → (⟨S1024x1024, .f32⟩ : BufTy).Contents (Elt F) → (⟨S1024x1024, .f32⟩ : BufTy).Contents (Elt F)),
    StableHlo.nullary main_cst_26 (constant S_ .f32 0x00000000#32),
    StableHlo.binary main_v140 main_cst_26 main_v141 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.nullary main_cst_27 (constant S_ .f32 0x00000000#32),
    StableHlo.unary main_cst_27 main_v142 (broadcastInDim S1024 ![] bcast_S_S1024 : (⟨S_, .f32⟩ : BufTy).Contents (Elt F) → (⟨S1024, .f32⟩ : BufTy).Contents (Elt F)),
    StableHlo.binary main_v141 main_v142 main_v143 (cmpf .ogt : (⟨S1024, .f32⟩ : BufTy).Contents (Elt F) → (⟨S1024, .f32⟩ : BufTy).Contents (Elt F) → (⟨S1024, .i1⟩ : BufTy).Contents (Elt F)),
    StableHlo.unary main_v141 main_v144 (Host.rsqrt : (⟨S1024, .f32⟩ : BufTy).Contents (Elt F) → (⟨S1024, .f32⟩ : BufTy).Contents (Elt F)),
    StableHlo.nullary main_cst_28 (constant S_ .f32 0x00000000#32),
    StableHlo.TRef.unary (.of main_cst_28) main_call6.v0 id,
    StableHlo.TRef.unary main_call6.v0 main_call6.v1 (broadcastInDim S1024 ![] bcast_S_S1024),
    StableHlo.TRef.ternary (.of main_v143) (.of main_v144) main_call6.v1 main_call6.v2 select,
    StableHlo.unary main_v145 main_v146 (broadcastInDim S1024x1 ![0] bcast_S1024_S1024x1_0 : (⟨S1024, .f32⟩ : BufTy).Contents (Elt F) → (⟨S1024x1, .f32⟩ : BufTy).Contents (Elt F)),
    StableHlo.unary main_v146 main_v147 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v147 main_v140 main_v148 (mulf : (⟨S1024x1024, .f32⟩ : BufTy).Contents (Elt F) → (⟨S1024x1024, .f32⟩ : BufTy).Contents (Elt F) → (⟨S1024x1024, .f32⟩ : BufTy).Contents (Elt F)) ]

theorem ops_p2_1_sub : (ops_p2_1 : List (HloOp τ sig (Elt F))).Forall fun op => op.bufs ⊆ tcRefs τ sig :=
  ⟨unary_bufs_sub .., binary_bufs_sub .., unary_bufs_sub .., binary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., binary_bufs_sub ..⟩
theorem ops_p2_1_fresh : (ops_p2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p2_1_W : List (Ref sig .tc) := [main_v127, main_v128, main_v129, main_v130, main_v131, main_v132, main_v133, main_v134, main_v135, main_c_25, main_v136, main_v137, main_v138, main_v139, main_v140, main_cst_26, main_v141, main_cst_27, main_v142, main_v143, main_v144, main_cst_28, main_call6_v0, main_call6_v1, main_v145, main_v146, main_v147, main_v148]
theorem ops_p2_1_writes : (ops_p2_1 : List (HloOp τ sig (Elt F))).Forall fun op => op.writes ⊆ (ops_p2_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Window `main_part2`'s operations. -/
abbrev ops_p2 : List (HloOp τ sig (Elt F)) :=
  ops_p2_0 ++ (ops_p2_1)

end Cert.ReferenceIdeal.HandRun

end
-- ==== Proof.Ref.Run3.lean ====
import proofs.«405323_j90718299226206_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 205 … 244 of @main (window `main_part3`), each call's body at its call site. -/
abbrev ops_p3_0 : List (HloOp τ sig (Elt F)) :=
  [ StableHlo.unary main_v145 main_v149 (broadcastInDim S1x1024 ![1] bcast_S1024_S1x1024_1 : (⟨S1024, .f32⟩ : BufTy).Contents (Elt F) → (⟨S1x1024, .f32⟩ : BufTy).Contents (Elt F)),
    StableHlo.unary main_v149 main_v150 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v148 main_v150 main_v151 (mulf : (⟨S1024x1024, .f32⟩ : BufTy).Contents (Elt F) → (⟨S1024x1024, .f32⟩ : BufTy).Contents (Elt F) → (⟨S1024x1024, .f32⟩ : BufTy).Contents (Elt F)),
    StableHlo.binary main_v86 main_arg7 main_v152 ((fun l r => Host.dotGeneral dot_S1024x512_S512x512_S1024x512_1_0_0_1_n_n none l r) : (⟨S1024x512, .f32⟩ : BufTy).Contents (Elt F) → (⟨S512x512, .f32⟩ : BufTy).Contents (Elt F) → (⟨S1024x512, .f32⟩ : BufTy).Contents (Elt F)),
    StableHlo.binary main_v151 main_v152 main_v153 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    StableHlo.unary main_arg8 main_v154 (broadcastInDim S1x512 ![1] bcast_S512_S1x512_1 : (⟨S512, .f32⟩ : BufTy).Contents (Elt F) → (⟨S1x512, .f32⟩ : BufTy).Contents (Elt F)),
    StableHlo.unary main_v154 main_v155 (broadcastInDim S1024x512 ![0, 1] bcast_S1x512_S1024x512_0_1 : (⟨S1x512, .f32⟩ : BufTy).Contents (Elt F) → (⟨S1024x512, .f32⟩ : BufTy).Contents (Elt F)),
    StableHlo.binary main_v153 main_v155 main_v156 (addf : (⟨S1024x512, .f32⟩ : BufTy).Contents (Elt F) → (⟨S1024x512, .f32⟩ : BufTy).Contents (Elt F) → (⟨S1024x512, .f32⟩ : BufTy).Contents (Elt F)),
    StableHlo.TRef.nullary main_call7.cst (constant S_ .f32 0x00000000#32),
    StableHlo.TRef.unary main_call7.cst main_call7.v0 (broadcastInDim S1024x512 ![] bcast_S_S1024x512),
    StableHlo.TRef.binary (.of main_v156) main_call7.v0 main_call7.v1 maximumf,
    StableHlo.binary main_v157 main_arg9 main_v158 ((fun l r => Host.dotGeneral dot_S1024x512_S512x128_S1024x128_1_0_0_1_n_n none l r) : (⟨S1024x512, .f32⟩ : BufTy).Contents (Elt F) → (⟨S512x128, .f32⟩ : BufTy).Contents (Elt F) → (⟨S1024x128, .f32⟩ : BufTy).Contents (Elt F)),
    StableHlo.unary main_arg10 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S1024x128 ![0, 1] bcast_S1x128_S1024x128_0_1 : (⟨S1x128, .f32⟩ : BufTy).Contents (Elt F) → (⟨S1024x128, .f32⟩ : BufTy).Contents (Elt F)),
    StableHlo.binary main_v158 main_v160 main_v161 (addf : (⟨S1024x128, .f32⟩ : BufTy).Contents (Elt F) → (⟨S1024x128, .f32⟩ : BufTy).Contents (Elt F) → (⟨S1024x128, .f32⟩ : BufTy).Contents (Elt F)),
    StableHlo.TRef.nullary main_call8.cst (constant S_ .f32 0x00000000#32),
    StableHlo.TRef.unary main_call8.cst main_call8.v0 (broadcastInDim S1024x128 ![] bcast_S_S1024x128),
    StableHlo.TRef.binary (.of main_v161) main_call8.v0 main_call8.v1 maximumf,
    StableHlo.nullary main_cst_29 (constant S_ .f32 0xFF800000#32),
    StableHlo.binary main_v162 main_cst_29 main_v163 ((fun x v => Host.reduce FloatOps.maximumf x v reducesTo_S1024x128_S1024_d1 h_S_) : (⟨S1024x128, .f32⟩ : BufTy).Contents (Elt F) → (⟨S_, .f32⟩ : BufTy).Contents (Elt F) → (⟨S1024, .f32⟩ : BufTy).Contents (Elt F)),
    StableHlo.nullary main_cst_30 (constant S_ .f32 0xFF800000#32),
    StableHlo.unary main_cst_30 main_v164 (broadcastInDim S1024 ![] bcast_S_S1024 : (⟨S_, .f32⟩ : BufTy).Contents (Elt F) → (⟨S1024, .f32⟩ : BufTy).Contents (Elt F)),
    StableHlo.binary main_v164 main_v163 main_v165 (maximumf : (⟨S1024, .f32⟩ : BufTy).Contents (Elt F) → (⟨S1024, .f32⟩ : BufTy).Contents (Elt F) → (⟨S1024, .f32⟩ : BufTy).Contents (Elt F)),
    StableHlo.unary main_v165 main_v166 (broadcastInDim S1024x1 ![0] bcast_S1024_S1024x1_0 : (⟨S1024, .f32⟩ : BufTy).Contents (Elt F) → (⟨S1024x1, .f32⟩ : BufTy).Contents (Elt F)),
    StableHlo.unary main_v166 main_v167 (broadcastInDim S1024x128 ![0, 1] bcast_S1024x1_S1024x128_0_1 : (⟨S1024x1, .f32⟩ : BufTy).Contents (Elt F) → (⟨S1024x128, .f32⟩ : BufTy).Contents (Elt F)),
    StableHlo.binary main_v162 main_v167 main_v168 (subf : (⟨S1024x128, .f32⟩ : BufTy).Contents (Elt F) → (⟨S1024x128, .f32⟩ : BufTy).Contents (Elt F) → (⟨S1024x128, .f32⟩ : BufTy).Contents (Elt F)),
    StableHlo.unary main_v168 main_v169 (Host.exp : (⟨S1024x128, .f32⟩ : BufTy).Contents (Elt F) → (⟨S1024x128, .f32⟩ : BufTy).Contents (Elt F)),
    StableHlo.nullary main_cst_31 (constant S_ .f32 0x00000000#32),
    StableHlo.binary main_v169 main_cst_31 main_v170 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    StableHlo.unary main_v170 main_v171 (broadcastInDim S1024x1 ![0] bcast_S1024_S1024x1_0 : (⟨S1024, .f32⟩ : BufTy).Contents (Elt F) → (⟨S1024x1, .f32⟩ : BufTy).Contents (Elt F)),
    StableHlo.unary main_v171 main_v172 (broadcastInDim S1024x128 ![0, 1] bcast_S1024x1_S1024x128_0_1 : (⟨S1024x1, .f32⟩ : BufTy).Contents (Elt F) → (⟨S1024x128, .f32⟩ : BufTy).Contents (Elt F)),
    StableHlo.binary main_v169 main_v172 main_v173 (Host.divf : (⟨S1024x128, .f32⟩ : BufTy).Contents (Elt F) → (⟨S1024x128, .f32⟩ : BufTy).Contents (Elt F) → (⟨S1024x128, .f32⟩ : BufTy).Contents (Elt F)),
    StableHlo.unary main_v173 main_v174 ((transpose S128x1024 [1, 0] · transposes_S1024x128_S128x1024_1_0) : (⟨S1024x128, .f32⟩ : BufTy).Contents (Elt F) → (⟨S128x1024, .f32⟩ : BufTy).Contents (Elt F)),
    StableHlo.binary main_v174 main_v157 main_v175 ((fun l r => Host.dotGeneral dot_S128x1024_S1024x512_S128x512_1_0_0_1_n_n none l r) : (⟨S128x1024, .f32⟩ : BufTy).Contents (Elt F) → (⟨S1024x512, .f32⟩ : BufTy).Contents (Elt F) → (⟨S128x512, .f32⟩ : BufTy).Contents (Elt F)),
    StableHlo.unary main_v173 main_v176 ((transpose S128x1024 [1, 0] · transposes_S1024x128_S128x1024_1_0) : (⟨S1024x128, .f32⟩ : BufTy).Contents (Elt F) → (⟨S128x1024, .f32⟩ : BufTy).Contents (Elt F)),
    StableHlo.binary main_v133 main_v173 main_v177 ((fun l r => Host.dotGeneral dot_S1024x1024_S1024x128_S1024x128_1_0_0_1_n_n none l r) : (⟨S1024x1024, .f32⟩ : BufTy).Contents (Elt F) → (⟨S1024x128, .f32⟩ : BufTy).Contents (Elt F) → (⟨S1024x128, .f32⟩ : BufTy).Contents (Elt F)),
    StableHlo.binary main_v176 main_v177 main_v178 ((fun l r => Host.dotGeneral dot_S128x1024_S1024x128_S128x128_1_0_0_1_n_n none l r) : (⟨S128x1024, .f32⟩ : BufTy).Contents (Elt F) → (⟨S1024x128, .f32⟩ : BufTy).Contents (Elt F) → (⟨S128x128, .f32⟩ : BufTy).Contents (Elt F)),
    StableHlo.TRef.nullary main_call9.v0 (iotaInDim S128x128 32 0),
    StableHlo.TRef.nullary main_call9.v1 (iotaInDim S128x128 32 1),
    StableHlo.TRef.nullary main_call9.c (constantI S_ 32 0#32) ]

theorem ops_p3_0_sub : (ops_p3_0 : List (HloOp τ sig (Elt F))).Forall fun op => op.bufs ⊆ tcRefs τ sig :=
  ⟨unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., nullary_bufs_sub .., nullary_bufs_sub .., nullary_bufs_sub ..⟩
theorem ops_p3_0_fresh : (ops_p3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p3_0_W : List (Ref sig .tc) := [main_v149, main_v150, main_v151, main_v152, main_v153, main_v154, main_v155, main_v156, main_call7_cst, main_call7_v0, main_v157, main_v158, main_v159, main_v160, main_v161, main_call8_cst, main_call8_v0, main_v162, main_cst_29, main_v163, main_cst_30, main_v164, main_v165, main_v166, main_v167, main_v168, main_v169, main_cst_31, main_v170, main_v171, main_v172, main_v173, main_v174, main_v175, main_v176, main_v177, main_v178, main_call9_v0, main_call9_v1, main_call9_c]
theorem ops_p3_0_writes : (ops_p3_0 : List (HloOp τ sig (Elt F))).Forall fun op => op.writes ⊆ (ops_p3_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 245 … 281 of @main (window `main_part3`), each call's body at its call site. -/
abbrev ops_p3_1 : List (HloOp τ sig (Elt F)) :=
  [ StableHlo.TRef.unary main_call9.c main_call9.v2 (broadcastInDim S128x128 ![] bcast_S_S128x128),
    StableHlo.TRef.binary main_call9.v0 main_call9.v2 main_call9.v3 addi,
    StableHlo.TRef.binary main_call9.v3 main_call9.v1 main_call9.v4 (cmpi .eq),
    StableHlo.TRef.nullary main_call9.cst (constant S_ .f32 0x00000000#32),
    StableHlo.TRef.unary main_call9.cst main_call9.v5 (broadcastInDim S128x128 ![] bcast_S_S128x128),
    StableHlo.TRef.ternary main_call9.v4 (.of main_v178) main_call9.v5 main_call9.call0.v0 select,
    StableHlo.TRef.nullary main_call9.cst_0 (constant S_ .f32 0x00000000#32),
    StableHlo.TRef.binary main_call9.call0.v0 main_call9.cst_0 main_call9.v7 (fun x v => Host.reduceAdd x v reducesTo_S128x128_S_d0_1 h_S_),
    StableHlo.nullary main_cst_32 (constant S_ .f32 0x00000000#32),
    StableHlo.binary main_v133 main_cst_32 main_v180 ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)),
    StableHlo.unary main_v180 main_v181 (broadcastInDim S1024x1 ![0] bcast_S1024_S1024x1_0 : (⟨S1024, .f32⟩ : BufTy).Contents (Elt F) → (⟨S1024x1, .f32⟩ : BufTy).Contents (Elt F)),
    StableHlo.unary main_v181 main_v182 (broadcastInDim S1024x128 ![0, 1] bcast_S1024x1_S1024x128_0_1 : (⟨S1024x1, .f32⟩ : BufTy).Contents (Elt F) → (⟨S1024x128, .f32⟩ : BufTy).Contents (Elt F)),
    StableHlo.binary main_v182 main_v173 main_v183 (mulf : (⟨S1024x128, .f32⟩ : BufTy).Contents (Elt F) → (⟨S1024x128, .f32⟩ : BufTy).Contents (Elt F) → (⟨S1024x128, .f32⟩ : BufTy).Contents (Elt F)),
    StableHlo.binary main_v183 main_v173 main_v184 (mulf : (⟨S1024x128, .f32⟩ : BufTy).Contents (Elt F) → (⟨S1024x128, .f32⟩ : BufTy).Contents (Elt F) → (⟨S1024x128, .f32⟩ : BufTy).Contents (Elt F)),
    StableHlo.nullary main_cst_33 (constant S_ .f32 0x00000000#32),
    StableHlo.binary main_v184 main_cst_33 main_v185 ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)),
    StableHlo.binary main_v179 main_v185 main_v186 (Host.divf : (⟨S_, .f32⟩ : BufTy).Contents (Elt F) → (⟨S_, .f32⟩ : BufTy).Contents (Elt F) → (⟨S_, .f32⟩ : BufTy).Contents (Elt F)),
    StableHlo.unary main_v186 main_v187 (Host.negf : (⟨S_, .f32⟩ : BufTy).Contents (Elt F) → (⟨S_, .f32⟩ : BufTy).Contents (Elt F)),
    StableHlo.unary main_v173 main_v188 ((transpose S128x1024 [1, 0] · transposes_S1024x128_S128x1024_1_0) : (⟨S1024x128, .f32⟩ : BufTy).Contents (Elt F) → (⟨S128x1024, .f32⟩ : BufTy).Contents (Elt F)),
    StableHlo.binary main_v188 main_v173 main_v189 ((fun l r => Host.dotGeneral dot_S128x1024_S1024x128_S128x128_1_0_0_1_n_n none l r) : (⟨S128x1024, .f32⟩ : BufTy).Contents (Elt F) → (⟨S1024x128, .f32⟩ : BufTy).Contents (Elt F) → (⟨S128x128, .f32⟩ : BufTy).Contents (Elt F)),
    StableHlo.TRef.binary (.of main_v189) (.of main_v189) main_call10.v0 mulf,
    StableHlo.TRef.nullary main_call10.cst (constant S_ .f32 0x00000000#32),
    StableHlo.TRef.binary main_call10.v0 main_call10.cst main_call10.v1 (fun x v => Host.reduceAdd x v reducesTo_S128x128_S_d0_1 h_S_),
    StableHlo.TRef.unary main_call10.v1 main_call10.v2 Host.sqrt,
    StableHlo.unary main_v190 main_v191 (broadcastInDim S128x128 ![] bcast_S_S128x128 : (⟨S_, .f32⟩ : BufTy).Contents (Elt F) → (⟨S128x128, .f32⟩ : BufTy).Contents (Elt F)),
    StableHlo.binary main_v189 main_v191 main_v192 (Host.divf : (⟨S128x128, .f32⟩ : BufTy).Contents (Elt F) → (⟨S128x128, .f32⟩ : BufTy).Contents (Elt F) → (⟨S128x128, .f32⟩ : BufTy).Contents (Elt F)),
    StableHlo.nullary main_v193 (iotaInDim S128x128 32 0),
    StableHlo.nullary main_v194 (iotaInDim S128x128 32 1),
    StableHlo.nullary main_c_34 (constantI S_ 32 0#32),
    StableHlo.unary main_c_34 main_v195 (broadcastInDim S128x128 ![] bcast_S_S128x128 : (⟨S_, .i32⟩ : BufTy).Contents (Elt F) → (⟨S128x128, .i32⟩ : BufTy).Contents (Elt F)),
    StableHlo.binary main_v193 main_v195 main_v196 (addi : (⟨S128x128, .i32⟩ : BufTy).Contents (Elt F) → (⟨S128x128, .i32⟩ : BufTy).Contents (Elt F) → (⟨S128x128, .i32⟩ : BufTy).Contents (Elt F)),
    StableHlo.binary main_v196 main_v194 main_v197 (cmpi .eq : (⟨S128x128, .i32⟩ : BufTy).Contents (Elt F) → (⟨S128x128, .i32⟩ : BufTy).Contents (Elt F) → (⟨S128x128, .i1⟩ : BufTy).Contents (Elt F)),
    StableHlo.unary main_v197 main_v198 (uitofp .f32 : (⟨S128x128, .i1⟩ : BufTy).Contents (Elt F) → (⟨S128x128, .f32⟩ : BufTy).Contents (Elt F)),
    StableHlo.nullary main_cst_35 (constant S_ .f32 0x43000000#32),
    StableHlo.unary main_cst_35 main_v199 (Host.sqrt : (⟨S_, .f32⟩ : BufTy).Contents (Elt F) → (⟨S_, .f32⟩ : BufTy).Contents (Elt F)),
    StableHlo.unary main_v199 main_v200 (broadcastInDim S128x128 ![] bcast_S_S128x128 : (⟨S_, .f32⟩ : BufTy).Contents (Elt F) → (⟨S128x128, .f32⟩ : BufTy).Contents (Elt F)),
    StableHlo.binary main_v198 main_v200 main_v201 (Host.divf : (⟨S128x128, .f32⟩ : BufTy).Contents (Elt F) → (⟨S128x128, .f32⟩ : BufTy).Contents (Elt F) → (⟨S128x128, .f32⟩ : BufTy).Contents (Elt F)) ]

theorem ops_p3_1_sub : (ops_p3_1 : List (HloOp τ sig (Elt F))).Forall fun op => op.bufs ⊆ tcRefs τ sig :=
  ⟨unary_bufs_sub .., binary_bufs_sub .., binary_bufs_sub .., nullary_bufs_sub .., unary_bufs_sub .., ternary_bufs_sub .., nullary_bufs_sub .., binary_bufs_sub .., nullary_bufs_sub .., binary_bufs_sub .., unary_bufs_sub .., unary_bufs_sub .., binary_bufs_sub .., binary_bufs_sub .., nullary_bufs_sub .., binary_bufs_sub .., binary_bufs_sub .., unary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., binary_bufs_sub ..⟩
theorem ops_p3_1_fresh : (ops_p3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p3_1_W : List (Ref sig .tc) := [main_call9_v2, main_call9_v3, main_call9_v4, main_call9_cst, main_call9_v5, main_call9_v6, main_call9_cst_0, main_v179, main_cst_32, main_v180, main_v181, main_v182, main_v183, main_v184, main_cst_33, main_v185, main_v186, main_v187, main_v188, main_v189, main_call10_v0, main_call10_cst, main_call10_v1, main_v190, main_v191, main_v192, main_v193, main_v194, main_c_34, main_v195, main_v196, main_v197, main_v198, main_cst_35, main_v199, main_v200, main_v201]
theorem ops_p3_1_writes : (ops_p3_1 : List (HloOp τ sig (Elt F))).Forall fun op => op.writes ⊆ (ops_p3_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Window `main_part3`'s operations. -/
abbrev ops_p3 : List (HloOp τ sig (Elt F)) :=
  ops_p3_0 ++ (ops_p3_1)

end Cert.ReferenceIdeal.HandRun

end
-- ==== Proof.Ref.Run4.lean ====
import proofs.«405323_j90718299226206_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 282 … 321 of @main (window `main_part4`), each call's body at its call site. -/
abbrev ops_p4_0 : List (HloOp τ sig (Elt F)) :=
  [ StableHlo.binary main_v192 main_v201 main_v202 (subf : (⟨S128x128, .f32⟩ : BufTy).Contents (Elt F) → (⟨S128x128, .f32⟩ : BufTy).Contents (Elt F) → (⟨S128x128, .f32⟩ : BufTy).Contents (Elt F)),
    StableHlo.TRef.binary (.of main_v202) (.of main_v202) main_call11.v0 mulf,
    StableHlo.TRef.nullary main_call11.cst (constant S_ .f32 0x00000000#32),
    StableHlo.TRef.binary main_call11.v0 main_call11.cst main_call11.v1 (fun x v => Host.reduceAdd x v reducesTo_S128x128_S_d0_1 h_S_),
    StableHlo.TRef.unary main_call11.v1 main_call11.v2 Host.sqrt,
    StableHlo.nullary main_v204 (iotaInDim S128x128 32 0),
    StableHlo.nullary main_v205 (iotaInDim S128x128 32 1),
    StableHlo.nullary main_c_36 (constantI S_ 32 0#32),
    StableHlo.unary main_c_36 main_v206 (broadcastInDim S128x128 ![] bcast_S_S128x128 : (⟨S_, .i32⟩ : BufTy).Contents (Elt F) → (⟨S128x128, .i32⟩ : BufTy).Contents (Elt F)),
    StableHlo.binary main_v204 main_v206 main_v207 (addi : (⟨S128x128, .i32⟩ : BufTy).Contents (Elt F) → (⟨S128x128, .i32⟩ : BufTy).Contents (Elt F) → (⟨S128x128, .i32⟩ : BufTy).Contents (Elt F)),
    StableHlo.binary main_v207 main_v205 main_v208 (cmpi .eq : (⟨S128x128, .i32⟩ : BufTy).Contents (Elt F) → (⟨S128x128, .i32⟩ : BufTy).Contents (Elt F) → (⟨S128x128, .i1⟩ : BufTy).Contents (Elt F)),
    StableHlo.unary main_v208 main_v209 (uitofp .f32 : (⟨S128x128, .i1⟩ : BufTy).Contents (Elt F) → (⟨S128x128, .f32⟩ : BufTy).Contents (Elt F)),
    StableHlo.nullary main_cst_37 (constant S_ .f32 0x3F800000#32),
    StableHlo.unary main_cst_37 main_v210 (broadcastInDim S128x128 ![] bcast_S_S128x128 : (⟨S_, .f32⟩ : BufTy).Contents (Elt F) → (⟨S128x128, .f32⟩ : BufTy).Contents (Elt F)),
    StableHlo.binary main_v210 main_v209 main_v211 (subf : (⟨S128x128, .f32⟩ : BufTy).Contents (Elt F) → (⟨S128x128, .f32⟩ : BufTy).Contents (Elt F) → (⟨S128x128, .f32⟩ : BufTy).Contents (Elt F)),
    StableHlo.binary main_v178 main_v211 main_v212 (mulf : (⟨S128x128, .f32⟩ : BufTy).Contents (Elt F) → (⟨S128x128, .f32⟩ : BufTy).Contents (Elt F) → (⟨S128x128, .f32⟩ : BufTy).Contents (Elt F)),
    StableHlo.nullary main_cst_38 (constant S_ .f32 0x00000000#32),
    StableHlo.binary main_v212 main_cst_38 main_v213 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v213 main_v214 (Host.sqrt : (⟨S128, .f32⟩ : BufTy).Contents (Elt F) → (⟨S128, .f32⟩ : BufTy).Contents (Elt F)),
    StableHlo.unary main_v214 main_v215 (broadcastInDim S128x1 ![0] bcast_S128_S128x1_0 : (⟨S128, .f32⟩ : BufTy).Contents (Elt F) → (⟨S128x1, .f32⟩ : BufTy).Contents (Elt F)),
    StableHlo.nullary main_cst_39 (constant S_ .f32 0x26901D7D#32),
    StableHlo.unary main_cst_39 main_v216 (broadcastInDim S128x1 ![] bcast_S_S128x1 : (⟨S_, .f32⟩ : BufTy).Contents (Elt F) → (⟨S128x1, .f32⟩ : BufTy).Contents (Elt F)),
    StableHlo.binary main_v215 main_v216 main_v217 (addf : (⟨S128x1, .f32⟩ : BufTy).Contents (Elt F) → (⟨S128x1, .f32⟩ : BufTy).Contents (Elt F) → (⟨S128x1, .f32⟩ : BufTy).Contents (Elt F)),
    StableHlo.unary main_v217 main_v218 (broadcastInDim S128x128 ![0, 1] bcast_S128x1_S128x128_0_1 : (⟨S128x1, .f32⟩ : BufTy).Contents (Elt F) → (⟨S128x128, .f32⟩ : BufTy).Contents (Elt F)),
    StableHlo.binary main_v212 main_v218 main_v219 (Host.divf : (⟨S128x128, .f32⟩ : BufTy).Contents (Elt F) → (⟨S128x128, .f32⟩ : BufTy).Contents (Elt F) → (⟨S128x128, .f32⟩ : BufTy).Contents (Elt F)),
    StableHlo.unary main_v217 main_v220 ((transpose S1x128 [1, 0] · transposes_S128x1_S1x128_1_0) : (⟨S128x1, .f32⟩ : BufTy).Contents (Elt F) → (⟨S1x128, .f32⟩ : BufTy).Contents (Elt F)),
    StableHlo.unary main_v220 main_v221 (broadcastInDim S128x128 ![0, 1] bcast_S1x128_S128x128_0_1 : (⟨S1x128, .f32⟩ : BufTy).Contents (Elt F) → (⟨S128x128, .f32⟩ : BufTy).Contents (Elt F)),
    StableHlo.binary main_v219 main_v221 main_v222 (Host.divf : (⟨S128x128, .f32⟩ : BufTy).Contents (Elt F) → (⟨S128x128, .f32⟩ : BufTy).Contents (Elt F) → (⟨S128x128, .f32⟩ : BufTy).Contents (Elt F)),
    StableHlo.nullary main_v223 (iotaInDim S128x128 32 0),
    StableHlo.nullary main_v224 (iotaInDim S128x128 32 1),
    StableHlo.nullary main_c_40 (constantI S_ 32 0#32),
    StableHlo.unary main_c_40 main_v225 (broadcastInDim S128x128 ![] bcast_S_S128x128 : (⟨S_, .i32⟩ : BufTy).Contents (Elt F) → (⟨S128x128, .i32⟩ : BufTy).Contents (Elt F)),
    StableHlo.binary main_v223 main_v225 main_v226 (addi : (⟨S128x128, .i32⟩ : BufTy).Contents (Elt F) → (⟨S128x128, .i32⟩ : BufTy).Contents (Elt F) → (⟨S128x128, .i32⟩ : BufTy).Contents (Elt F)),
    StableHlo.binary main_v226 main_v224 main_v227 (cmpi .eq : (⟨S128x128, .i32⟩ : BufTy).Contents (Elt F) → (⟨S128x128, .i32⟩ : BufTy).Contents (Elt F) → (⟨S128x128, .i1⟩ : BufTy).Contents (Elt F)),
    StableHlo.unary main_v227 main_v228 (uitofp .f32 : (⟨S128x128, .i1⟩ : BufTy).Contents (Elt F) → (⟨S128x128, .f32⟩ : BufTy).Contents (Elt F)),
    StableHlo.binary main_v222 main_v228 main_v229 (addf : (⟨S128x128, .f32⟩ : BufTy).Contents (Elt F) → (⟨S128x128, .f32⟩ : BufTy).Contents (Elt F) → (⟨S128x128, .f32⟩ : BufTy).Contents (Elt F)),
    StableHlo.nullary main_cst_41 (constant S_ .f32 0x00000000#32),
    StableHlo.binary main_v229 main_cst_41 main_v230 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.nullary main_cst_42 (constant S_ .f32 0x00000000#32),
    StableHlo.unary main_cst_42 main_v231 (broadcastInDim S128 ![] bcast_S_S128 : (⟨S_, .f32⟩ : BufTy).Contents (Elt F) → (⟨S128, .f32⟩ : BufTy).Contents (Elt F)) ]

theorem ops_p4_0_sub : (ops_p4_0 : List (HloOp τ sig (Elt F))).Forall fun op => op.bufs ⊆ tcRefs τ sig :=
  ⟨binary_bufs_sub .., binary_bufs_sub .., nullary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub ..⟩
theorem ops_p4_0_fresh : (ops_p4_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p4_0_W : List (Ref sig .tc) := [main_v202, main_call11_v0, main_call11_cst, main_call11_v1, main_v203, main_v204, main_v205, main_c_36, main_v206, main_v207, main_v208, main_v209, main_cst_37, main_v210, main_v211, main_v212, main_cst_38, main_v213, main_v214, main_v215, main_cst_39, main_v216, main_v217, main_v218, main_v219, main_v220, main_v221, main_v222, main_v223, main_v224, main_c_40, main_v225, main_v226, main_v227, main_v228, main_v229, main_cst_41, main_v230, main_cst_42, main_v231]
theorem ops_p4_0_writes : (ops_p4_0 : List (HloOp τ sig (Elt F))).Forall fun op => op.writes ⊆ (ops_p4_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 322 … 350 of @main (window `main_part4`), each call's body at its call site. -/
abbrev ops_p4_1 : List (HloOp τ sig (Elt F)) :=
  [ StableHlo.binary main_v230 main_v231 main_v232 (cmpf .ogt : (⟨S128, .f32⟩ : BufTy).Contents (Elt F) → (⟨S128, .f32⟩ : BufTy).Contents (Elt F) → (⟨S128, .i1⟩ : BufTy).Contents (Elt F)),
    StableHlo.unary main_v230 main_v233 (Host.rsqrt : (⟨S128, .f32⟩ : BufTy).Contents (Elt F) → (⟨S128, .f32⟩ : BufTy).Contents (Elt F)),
    StableHlo.nullary main_cst_43 (constant S_ .f32 0x00000000#32),
    StableHlo.TRef.unary (.of main_cst_43) main_call12.v0 id,
    StableHlo.TRef.unary main_call12.v0 main_call12.v1 (broadcastInDim S128 ![] bcast_S_S128),
    StableHlo.TRef.ternary (.of main_v232) (.of main_v233) main_call12.v1 main_call12.v2 select,
    StableHlo.unary main_v234 main_v235 (broadcastInDim S128x1 ![0] bcast_S128_S128x1_0 : (⟨S128, .f32⟩ : BufTy).Contents (Elt F) → (⟨S128x1, .f32⟩ : BufTy).Contents (Elt F)),
    StableHlo.unary main_v235 main_v236 (broadcastInDim S128x128 ![0, 1] bcast_S128x1_S128x128_0_1 : (⟨S128x1, .f32⟩ : BufTy).Contents (Elt F) → (⟨S128x128, .f32⟩ : BufTy).Contents (Elt F)),
    StableHlo.binary main_v236 main_v229 main_v237 (mulf : (⟨S128x128, .f32⟩ : BufTy).Contents (Elt F) → (⟨S128x128, .f32⟩ : BufTy).Contents (Elt F) → (⟨S128x128, .f32⟩ : BufTy).Contents (Elt F)),
    StableHlo.unary main_v234 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S128x128 ![0, 1] bcast_S1x128_S128x128_0_1 : (⟨S1x128, .f32⟩ : BufTy).Contents (Elt F) → (⟨S128x128, .f32⟩ : BufTy).Contents (Elt F)),
    StableHlo.binary main_v237 main_v239 main_v240 (mulf : (⟨S128x128, .f32⟩ : BufTy).Contents (Elt F) → (⟨S128x128, .f32⟩ : BufTy).Contents (Elt F) → (⟨S128x128, .f32⟩ : BufTy).Contents (Elt F)),
    StableHlo.binary main_v175 main_arg11 main_v241 ((fun l r => Host.dotGeneral dot_S128x512_S512x512_S128x512_1_0_0_1_n_n none l r) : (⟨S128x512, .f32⟩ : BufTy).Contents (Elt F) → (⟨S512x512, .f32⟩ : BufTy).Contents (Elt F) → (⟨S128x512, .f32⟩ : BufTy).Contents (Elt F)),
    StableHlo.binary main_v240 main_v241 main_v242 ((fun l r => Host.dotGeneral dot_S128x128_S128x512_S128x512_1_0_0_1_n_n none l r) : (⟨S128x128, .f32⟩ : BufTy).Contents (Elt F) → (⟨S128x512, .f32⟩ : BufTy).Contents (Elt F) → (⟨S128x512, .f32⟩ : BufTy).Contents (Elt F)),
    StableHlo.unary main_arg12 main_v243 (broadcastInDim S1x512 ![1] bcast_S512_S1x512_1 : (⟨S512, .f32⟩ : BufTy).Contents (Elt F) → (⟨S1x512, .f32⟩ : BufTy).Contents (Elt F)),
    StableHlo.unary main_v243 main_v244 (broadcastInDim S128x512 ![0, 1] bcast_S1x512_S128x512_0_1 : (⟨S1x512, .f32⟩ : BufTy).Contents (Elt F) → (⟨S128x512, .f32⟩ : BufTy).Contents (Elt F)),
    StableHlo.binary main_v242 main_v244 main_v245 (addf : (⟨S128x512, .f32⟩ : BufTy).Contents (Elt F) → (⟨S128x512, .f32⟩ : BufTy).Contents (Elt F) → (⟨S128x512, .f32⟩ : BufTy).Contents (Elt F)),
    StableHlo.TRef.nullary main_call13.cst (constant S_ .f32 0x00000000#32),
    StableHlo.TRef.unary main_call13.cst main_call13.v0 (broadcastInDim S128x512 ![] bcast_S_S128x512),
    StableHlo.TRef.binary (.of main_v245) main_call13.v0 main_call13.v1 maximumf,
    StableHlo.binary main_v246 main_arg13 main_v247 ((fun l r => Host.dotGeneral dot_S128x512_S512x1_S128x1_1_0_0_1_n_n none l r) : (⟨S128x512, .f32⟩ : BufTy).Contents (Elt F) → (⟨S512x1, .f32⟩ : BufTy).Contents (Elt F) → (⟨S128x1, .f32⟩ : BufTy).Contents (Elt F)),
    StableHlo.unary main_arg14 main_v248 (broadcastInDim S1x1 ![1] bcast_S1_S1x1_1 : (⟨S1, .f32⟩ : BufTy).Contents (Elt F) → (⟨S1x1, .f32⟩ : BufTy).Contents (Elt F)),
    StableHlo.unary main_v248 main_v249 (broadcastInDim S128x1 ![0, 1] bcast_S1x1_S128x1_0_1 : (⟨S1x1, .f32⟩ : BufTy).Contents (Elt F) → (⟨S128x1, .f32⟩ : BufTy).Contents (Elt F)),
    StableHlo.binary main_v247 main_v249 main_v250 (addf : (⟨S128x1, .f32⟩ : BufTy).Contents (Elt F) → (⟨S128x1, .f32⟩ : BufTy).Contents (Elt F) → (⟨S128x1, .f32⟩ : BufTy).Contents (Elt F)),
    StableHlo.TRef.nullary main_call14.cst (constant S_ .f32 0x00000000#32),
    StableHlo.TRef.unary main_call14.cst main_call14.v0 (broadcastInDim S128x1 ![] bcast_S_S128x1),
    StableHlo.TRef.binary (.of main_v250) main_call14.v0 main_call14.v1 maximumf,
    StableHlo.nullary main_cst_44 (constant S_ .f32 0xFF800000#32),
    StableHlo.binary main_v251 main_cst_44 main_v252 ((fun x v => Host.reduce FloatOps.maximumf x v reducesTo_S128x1_S128_d1 h_S_) : (⟨S128x1, .f32⟩ : BufTy).Contents (Elt F) → (⟨S_, .f32⟩ : BufTy).Contents (Elt F) → (⟨S128, .f32⟩ : BufTy).Contents (Elt F)) ]

theorem ops_p4_1_sub : (ops_p4_1 : List (HloOp τ sig (Elt F))).Forall fun op => op.bufs ⊆ tcRefs τ sig :=
  ⟨binary_bufs_sub .., unary_bufs_sub .., nullary_bufs_sub .., unary_bufs_sub .., unary_bufs_sub .., ternary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub ..⟩
theorem ops_p4_1_fresh : (ops_p4_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p4_1_W : List (Ref sig .tc) := [main_v232, main_v233, main_cst_43, main_call12_v0, main_call12_v1, main_v234, main_v235, main_v236, main_v237, main_v238, main_v239, main_v240, main_v241, main_v242, main_v243, main_v244, main_v245, main_call13_cst, main_call13_v0, main_v246, main_v247, main_v248, main_v249, main_v250, main_call14_cst, main_call14_v0, main_v251, main_cst_44, main_v252]
theorem ops_p4_1_writes : (ops_p4_1 : List (HloOp τ sig (Elt F))).Forall fun op => op.writes ⊆ (ops_p4_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Window `main_part4`'s operations. -/
abbrev ops_p4 : List (HloOp τ sig (Elt F)) :=
  ops_p4_0 ++ (ops_p4_1)

end Cert.ReferenceIdeal.HandRun

end
-- ==== Proof.Ref.Run5.lean ====
import proofs.«405323_j90718299226206_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 351 … 390 of @main (window `main_part5`), each call's body at its call site. -/
abbrev ops_p5_0 : List (HloOp τ sig (Elt F)) :=
  [ StableHlo.nullary main_cst_45 (constant S_ .f32 0xFF800000#32),
    StableHlo.unary main_cst_45 main_v253 (broadcastInDim S128 ![] bcast_S_S128 : (⟨S_, .f32⟩ : BufTy).Contents (Elt F) → (⟨S128, .f32⟩ : BufTy).Contents (Elt F)),
    StableHlo.binary main_v253 main_v252 main_v254 (maximumf : (⟨S128, .f32⟩ : BufTy).Contents (Elt F) → (⟨S128, .f32⟩ : BufTy).Contents (Elt F) → (⟨S128, .f32⟩ : BufTy).Contents (Elt F)),
    StableHlo.unary main_v254 main_v255 (broadcastInDim S128x1 ![0] bcast_S128_S128x1_0 : (⟨S128, .f32⟩ : BufTy).Contents (Elt F) → (⟨S128x1, .f32⟩ : BufTy).Contents (Elt F)),
    StableHlo.binary main_v251 main_v255 main_v256 (subf : (⟨S128x1, .f32⟩ : BufTy).Contents (Elt F) → (⟨S128x1, .f32⟩ : BufTy).Contents (Elt F) → (⟨S128x1, .f32⟩ : BufTy).Contents (Elt F)),
    StableHlo.unary main_v256 main_v257 (Host.exp : (⟨S128x1, .f32⟩ : BufTy).Contents (Elt F) → (⟨S128x1, .f32⟩ : BufTy).Contents (Elt F)),
    StableHlo.nullary main_cst_46 (constant S_ .f32 0x00000000#32),
    StableHlo.binary main_v257 main_cst_46 main_v258 ((fun x v => Host.reduceAdd x v reducesTo_S128x1_S128_d1 h_S_) : (⟨S128x1, .f32⟩ : BufTy).Contents (Elt F) → (⟨S_, .f32⟩ : BufTy).Contents (Elt F) → (⟨S128, .f32⟩ : BufTy).Contents (Elt F)),
    StableHlo.unary main_v258 main_v259 (broadcastInDim S128x1 ![0] bcast_S128_S128x1_0 : (⟨S128, .f32⟩ : BufTy).Contents (Elt F) → (⟨S128x1, .f32⟩ : BufTy).Contents (Elt F)),
    StableHlo.binary main_v257 main_v259 main_v260 (Host.divf : (⟨S128x1, .f32⟩ : BufTy).Contents (Elt F) → (⟨S128x1, .f32⟩ : BufTy).Contents (Elt F) → (⟨S128x1, .f32⟩ : BufTy).Contents (Elt F)),
    StableHlo.unary main_v260 main_v261 ((transpose S1x128 [1, 0] · transposes_S128x1_S1x128_1_0) : (⟨S128x1, .f32⟩ : BufTy).Contents (Elt F) → (⟨S1x128, .f32⟩ : BufTy).Contents (Elt F)),
    StableHlo.binary main_v261 main_v246 main_v262 ((fun l r => Host.dotGeneral dot_S1x128_S128x512_S1x512_1_0_0_1_n_n none l r) : (⟨S1x128, .f32⟩ : BufTy).Contents (Elt F) → (⟨S128x512, .f32⟩ : BufTy).Contents (Elt F) → (⟨S1x512, .f32⟩ : BufTy).Contents (Elt F)),
    StableHlo.unary main_v260 main_v263 ((transpose S1x128 [1, 0] · transposes_S128x1_S1x128_1_0) : (⟨S128x1, .f32⟩ : BufTy).Contents (Elt F) → (⟨S1x128, .f32⟩ : BufTy).Contents (Elt F)),
    StableHlo.binary main_v222 main_v260 main_v264 ((fun l r => Host.dotGeneral dot_S128x128_S128x1_S128x1_1_0_0_1_n_n none l r) : (⟨S128x128, .f32⟩ : BufTy).Contents (Elt F) → (⟨S128x1, .f32⟩ : BufTy).Contents (Elt F) → (⟨S128x1, .f32⟩ : BufTy).Contents (Elt F)),
    StableHlo.binary main_v263 main_v264 main_v265 ((fun l r => Host.dotGeneral dot_S1x128_S128x1_S1x1_1_0_0_1_n_n none l r) : (⟨S1x128, .f32⟩ : BufTy).Contents (Elt F) → (⟨S128x1, .f32⟩ : BufTy).Contents (Elt F) → (⟨S1x1, .f32⟩ : BufTy).Contents (Elt F)),
    StableHlo.TRef.nullary main_call15.v0 (iotaInDim S1x1 32 0),
    StableHlo.TRef.nullary main_call15.v1 (iotaInDim S1x1 32 1),
    StableHlo.TRef.nullary main_call15.c (constantI S_ 32 0#32),
    StableHlo.TRef.unary main_call15.c main_call15.v2 (broadcastInDim S1x1 ![] bcast_S_S1x1),
    StableHlo.TRef.binary main_call15.v0 main_call15.v2 main_call15.v3 addi,
    StableHlo.TRef.binary main_call15.v3 main_call15.v1 main_call15.v4 (cmpi .eq),
    StableHlo.TRef.nullary main_call15.cst (constant S_ .f32 0x00000000#32),
    StableHlo.TRef.unary main_call15.cst main_call15.v5 (broadcastInDim S1x1 ![] bcast_S_S1x1),
    StableHlo.TRef.ternary main_call15.v4 (.of main_v265) main_call15.v5 main_call15.call0.v0 select,
    StableHlo.TRef.nullary main_call15.cst_0 (constant S_ .f32 0x00000000#32),
    StableHlo.TRef.binary main_call15.call0.v0 main_call15.cst_0 main_call15.v7 (fun x v => Host.reduceAdd x v reducesTo_S1x1_S_d0_1 h_S_),
    StableHlo.nullary main_cst_47 (constant S_ .f32 0x00000000#32),
    StableHlo.binary main_v222 main_cst_47 main_v267 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v267 main_v268 (broadcastInDim S128x1 ![0] bcast_S128_S128x1_0 : (⟨S128, .f32⟩ : BufTy).Contents (Elt F) → (⟨S128x1, .f32⟩ : BufTy).Contents (Elt F)),
    StableHlo.binary main_v268 main_v260 main_v269 (mulf : (⟨S128x1, .f32⟩ : BufTy).Contents (Elt F) → (⟨S128x1, .f32⟩ : BufTy).Contents (Elt F) → (⟨S128x1, .f32⟩ : BufTy).Contents (Elt F)),
    StableHlo.binary main_v269 main_v260 main_v270 (mulf : (⟨S128x1, .f32⟩ : BufTy).Contents (Elt F) → (⟨S128x1, .f32⟩ : BufTy).Contents (Elt F) → (⟨S128x1, .f32⟩ : BufTy).Contents (Elt F)),
    StableHlo.nullary main_cst_48 (constant S_ .f32 0x00000000#32),
    StableHlo.binary main_v270 main_cst_48 main_v271 ((fun x v => Host.reduceAdd x v reducesTo_S128x1_S_d0_1 h_S_) : (⟨S128x1, .f32⟩ : BufTy).Contents (Elt F) → (⟨S_, .f32⟩ : BufTy).Contents (Elt F) → (⟨S_, .f32⟩ : BufTy).Contents (Elt F)),
    StableHlo.binary main_v266 main_v271 main_v272 (Host.divf : (⟨S_, .f32⟩ : BufTy).Contents (Elt F) → (⟨S_, .f32⟩ : BufTy).Contents (Elt F) → (⟨S_, .f32⟩ : BufTy).Contents (Elt F)),
    StableHlo.unary main_v272 main_v273 (Host.negf : (⟨S_, .f32⟩ : BufTy).Contents (Elt F) → (⟨S_, .f32⟩ : BufTy).Contents (Elt F)),
    StableHlo.unary main_v260 main_v274 ((transpose S1x128 [1, 0] · transposes_S128x1_S1x128_1_0) : (⟨S128x1, .f32⟩ : BufTy).Contents (Elt F) → (⟨S1x128, .f32⟩ : BufTy).Contents (Elt F)),
    StableHlo.binary main_v274 main_v260 main_v275 ((fun l r => Host.dotGeneral dot_S1x128_S128x1_S1x1_1_0_0_1_n_n none l r) : (⟨S1x128, .f32⟩ : BufTy).Contents (Elt F) → (⟨S128x1, .f32⟩ : BufTy).Contents (Elt F) → (⟨S1x1, .f32⟩ : BufTy).Contents (Elt F)),
    StableHlo.TRef.binary (.of main_v275) (.of main_v275) main_call16.v0 mulf,
    StableHlo.TRef.nullary main_call16.cst (constant S_ .f32 0x00000000#32),
    StableHlo.TRef.binary main_call16.v0 main_call16.cst main_call16.v1 (fun x v => Host.reduceAdd x v reducesTo_S1x1_S_d0_1 h_S_) ]

theorem ops_p5_0_sub : (ops_p5_0 : List (HloOp τ sig (Elt F))).Forall fun op => op.bufs ⊆ tcRefs τ sig :=
  ⟨nullary_bufs_sub .., unary_bufs_sub .., binary_bufs_sub .., unary_bufs_sub .., binary_bufs_sub .., unary_bufs_sub .., nullary_bufs_sub .., binary_bufs_sub .., unary_bufs_sub .., binary_bufs_sub .., unary_bufs_sub .., binary_bufs_sub .., unary_bufs_sub .., binary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., nullary_bufs_sub .., binary_bufs_sub .., unary_bufs_sub .., binary_bufs_sub .., binary_bufs_sub .., nullary_bufs_sub .., binary_bufs_sub .., binary_bufs_sub .., unary_bufs_sub .., unary_bufs_sub .., binary_bufs_sub .., binary_bufs_sub .., nullary_bufs_sub .., binary_bufs_sub ..⟩
theorem ops_p5_0_fresh : (ops_p5_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p5_0_W : List (Ref sig .tc) := [main_cst_45, main_v253, main_v254, main_v255, main_v256, main_v257, main_cst_46, main_v258, main_v259, main_v260, main_v261, main_v262, main_v263, main_v264, main_v265, main_call15_v0, main_call15_v1, main_call15_c, main_call15_v2, main_call15_v3, main_call15_v4, main_call15_cst, main_call15_v5, main_call15_v6, main_call15_cst_0, main_v266, main_cst_47, main_v267, main_v268, main_v269, main_v270, main_cst_48, main_v271, main_v272, main_v273, main_v274, main_v275, main_call16_v0, main_call16_cst, main_call16_v1]
theorem ops_p5_0_writes : (ops_p5_0 : List (HloOp τ sig (Elt F))).Forall fun op => op.writes ⊆ (ops_p5_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Operations 391 … 426 of @main (window `main_part5`), each call's body at its call site. -/
abbrev ops_p5_1 : List (HloOp τ sig (Elt F)) :=
  [ StableHlo.TRef.unary main_call16.v1 main_call16.v2 Host.sqrt,
    StableHlo.unary main_v276 main_v277 (broadcastInDim S1x1 ![] bcast_S_S1x1 : (⟨S_, .f32⟩ : BufTy).Contents (Elt F) → (⟨S1x1, .f32⟩ : BufTy).Contents (Elt F)),
    StableHlo.binary main_v275 main_v277 main_v278 (Host.divf : (⟨S1x1, .f32⟩ : BufTy).Contents (Elt F) → (⟨S1x1, .f32⟩ : BufTy).Contents (Elt F) → (⟨S1x1, .f32⟩ : BufTy).Contents (Elt F)),
    StableHlo.nullary main_v279 (iotaInDim S1x1 32 0),
    StableHlo.nullary main_v280 (iotaInDim S1x1 32 1),
    StableHlo.nullary main_c_49 (constantI S_ 32 0#32),
    StableHlo.unary main_c_49 main_v281 (broadcastInDim S1x1 ![] bcast_S_S1x1 : (⟨S_, .i32⟩ : BufTy).Contents (Elt F) → (⟨S1x1, .i32⟩ : BufTy).Contents (Elt F)),
    StableHlo.binary main_v279 main_v281 main_v282 (addi : (⟨S1x1, .i32⟩ : BufTy).Contents (Elt F) → (⟨S1x1, .i32⟩ : BufTy).Contents (Elt F) → (⟨S1x1, .i32⟩ : BufTy).Contents (Elt F)),
    StableHlo.binary main_v282 main_v280 main_v283 (cmpi .eq : (⟨S1x1, .i32⟩ : BufTy).Contents (Elt F) → (⟨S1x1, .i32⟩ : BufTy).Contents (Elt F) → (⟨S1x1, .i1⟩ : BufTy).Contents (Elt F)),
    StableHlo.unary main_v283 main_v284 (uitofp .f32 : (⟨S1x1, .i1⟩ : BufTy).Contents (Elt F) → (⟨S1x1, .f32⟩ : BufTy).Contents (Elt F)),
    StableHlo.nullary main_cst_50 (constant S_ .f32 0x3F800000#32),
    StableHlo.unary main_cst_50 main_v285 (Host.sqrt : (⟨S_, .f32⟩ : BufTy).Contents (Elt F) → (⟨S_, .f32⟩ : BufTy).Contents (Elt F)),
    StableHlo.unary main_v285 main_v286 (broadcastInDim S1x1 ![] bcast_S_S1x1 : (⟨S_, .f32⟩ : BufTy).Contents (Elt F) → (⟨S1x1, .f32⟩ : BufTy).Contents (Elt F)),
    StableHlo.binary main_v284 main_v286 main_v287 (Host.divf : (⟨S1x1, .f32⟩ : BufTy).Contents (Elt F) → (⟨S1x1, .f32⟩ : BufTy).Contents (Elt F) → (⟨S1x1, .f32⟩ : BufTy).Contents (Elt F)),
    StableHlo.binary main_v278 main_v287 main_v288 (subf : (⟨S1x1, .f32⟩ : BufTy).Contents (Elt F) → (⟨S1x1, .f32⟩ : BufTy).Contents (Elt F) → (⟨S1x1, .f32⟩ : BufTy).Contents (Elt F)),
    StableHlo.TRef.binary (.of main_v288) (.of main_v288) main_call17.v0 mulf,
    StableHlo.TRef.nullary main_call17.cst (constant S_ .f32 0x00000000#32),
    StableHlo.TRef.binary main_call17.v0 main_call17.cst main_call17.v1 (fun x v => Host.reduceAdd x v reducesTo_S1x1_S_d0_1 h_S_),
    StableHlo.TRef.unary main_call17.v1 main_call17.v2 Host.sqrt,
    StableHlo.nullary main_v290 (iotaInDim S1x1 32 0),
    StableHlo.nullary main_v291 (iotaInDim S1x1 32 1),
    StableHlo.nullary main_c_51 (constantI S_ 32 0#32),
    StableHlo.unary main_c_51 main_v292 (broadcastInDim S1x1 ![] bcast_S_S1x1 : (⟨S_, .i32⟩ : BufTy).Contents (Elt F) → (⟨S1x1, .i32⟩ : BufTy).Contents (Elt F)),
    StableHlo.binary main_v290 main_v292 main_v293 (addi : (⟨S1x1, .i32⟩ : BufTy).Contents (Elt F) → (⟨S1x1, .i32⟩ : BufTy).Contents (Elt F) → (⟨S1x1, .i32⟩ : BufTy).Contents (Elt F)),
    StableHlo.binary main_v293 main_v291 main_v294 (cmpi .eq : (⟨S1x1, .i32⟩ : BufTy).Contents (Elt F) → (⟨S1x1, .i32⟩ : BufTy).Contents (Elt F) → (⟨S1x1, .i1⟩ : BufTy).Contents (Elt F)),
    StableHlo.unary main_v294 main_v295 (uitofp .f32 : (⟨S1x1, .i1⟩ : BufTy).Contents (Elt F) → (⟨S1x1, .f32⟩ : BufTy).Contents (Elt F)),
    StableHlo.nullary main_cst_52 (constant S_ .f32 0x3F800000#32),
    StableHlo.unary main_cst_52 main_v296 (broadcastInDim S1x1 ![] bcast_S_S1x1 : (⟨S_, .f32⟩ : BufTy).Contents (Elt F) → (⟨S1x1, .f32⟩ : BufTy).Contents (Elt F)),
    StableHlo.binary main_v296 main_v295 main_v297 (subf : (⟨S1x1, .f32⟩ : BufTy).Contents (Elt F) → (⟨S1x1, .f32⟩ : BufTy).Contents (Elt F) → (⟨S1x1, .f32⟩ : BufTy).Contents (Elt F)),
    StableHlo.binary main_v265 main_v297 main_v298 (mulf : (⟨S1x1, .f32⟩ : BufTy).Contents (Elt F) → (⟨S1x1, .f32⟩ : BufTy).Contents (Elt F) → (⟨S1x1, .f32⟩ : BufTy).Contents (Elt F)),
    StableHlo.nullary main_cst_53 (constant S_ .f32 0x00000000#32),
    StableHlo.binary main_v298 main_cst_53 main_v299 ((fun x v => Host.reduceAdd x v reducesTo_S1x1_S1_d1 h_S_) : (⟨S1x1, .f32⟩ : BufTy).Contents (Elt F) → (⟨S_, .f32⟩ : BufTy).Contents (Elt F) → (⟨S1, .f32⟩ : BufTy).Contents (Elt F)),
    StableHlo.unary main_v299 main_v300 (Host.sqrt : (⟨S1, .f32⟩ : BufTy).Contents (Elt F) → (⟨S1, .f32⟩ : BufTy).Contents (Elt F)),
    StableHlo.unary main_v300 main_v301 (broadcastInDim S1x1 ![0] bcast_S1_S1x1_0 : (⟨S1, .f32⟩ : BufTy).Contents (Elt F) → (⟨S1x1, .f32⟩ : BufTy).Contents (Elt F)),
    StableHlo.nullary main_cst_54 (constant S_ .f32 0x26901D7D#32),
    StableHlo.unary main_cst_54 main_v302 (broadcastInDim S1x1 ![] bcast_S_S1x1 : (⟨S_, .f32⟩ : BufTy).Contents (Elt F) → (⟨S1x1, .f32⟩ : BufTy).Contents (Elt F)) ]

theorem ops_p5_1_sub : (ops_p5_1 : List (HloOp τ sig (Elt F))).Forall fun op => op.bufs ⊆ tcRefs τ sig :=
  ⟨unary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., binary_bufs_sub .., binary_bufs_sub .., binary_bufs_sub .., nullary_bufs_sub .., binary_bufs_sub .., unary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., binary_bufs_sub .., unary_bufs_sub .., unary_bufs_sub .., nullary_bufs_sub .., unary_bufs_sub ..⟩
theorem ops_p5_1_fresh : (ops_p5_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers those operations write, in order. -/
abbrev ops_p5_1_W : List (Ref sig .tc) := [main_v276, main_v277, main_v278, main_v279, main_v280, main_c_49, main_v281, main_v282, main_v283, main_v284, main_cst_50, main_v285, main_v286, main_v287, main_v288, main_call17_v0, main_call17_cst, main_call17_v1, main_v289, main_v290, main_v291, main_c_51, main_v292, main_v293, main_v294, main_v295, main_cst_52, main_v296, main_v297, main_v298, main_cst_53, main_v299, main_v300, main_v301, main_cst_54, main_v302]
theorem ops_p5_1_writes : (ops_p5_1 : List (HloOp τ sig (Elt F))).Forall fun op => op.writes ⊆ (ops_p5_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Window `main_part5`'s operations. -/
abbrev ops_p5 : List (HloOp τ sig (Elt F)) :=
  ops_p5_0 ++ (ops_p5_1)

end Cert.ReferenceIdeal.HandRun

end
-- ==== Proof.Ref.Run6.lean ====
import proofs.«405323_j90718299226206_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 427 … 430 of @main (window `main_part6`), each call's body at its call site. -/
abbrev ops_p6_0 : List (HloOp τ sig (Elt F)) :=
  [ StableHlo.binary main_v301 main_v302 main_v303 (addf : (⟨S1x1, .f32⟩ : BufTy).Contents (Elt F) → (⟨S1x1, .f32⟩ : BufTy).Contents (Elt F) → (⟨S1x1, .f32⟩ : BufTy).Contents (Elt F)),
    StableHlo.binary main_v298 main_v303 main_v304 (Host.divf : (⟨S1x1, .f32⟩ : BufTy).Contents (Elt F) → (⟨S1x1, .f32⟩ : BufTy).Contents (Elt F) → (⟨S1x1, .f32⟩ : BufTy).Contents (Elt F)),
    StableHlo.unary main_v303 main_v305 ((transpose S1x1 [1, 0] · transposes_S1x1_S1x1_1_0) : (⟨S1x1, .f32⟩ : BufTy).Contents (Elt F) → (⟨S1x1, .f32⟩ : BufTy).Contents (Elt F)),
    StableHlo.binary main_v304 main_v305 main_v306 (Host.divf : (⟨S1x1, .f32⟩ : BufTy).Contents (Elt F) → (⟨S1x1, .f32⟩ : BufTy).Contents (Elt F) → (⟨S1x1, .f32⟩ : BufTy).Contents (Elt F)) ]

theorem ops_p6_0_sub : (ops_p6_0 : List (HloOp τ sig (Elt F))).Forall fun op => op.bufs ⊆ tcRefs τ sig :=
  ⟨binary_bufs_sub .., binary_bufs_sub .., unary_bufs_sub .., binary_bufs_sub ..⟩
theorem ops_p6_0_fresh : (ops_p6_0 : List (HloOp τ sig (Elt F))).Forall fun op => op.fresh = ∅ :=
  ⟨rfl, rfl, rfl, rfl⟩
/-- The buffers those operations write, in order. -/
abbrev ops_p6_0_W : List (Ref sig .tc) := [main_v303, main_v304, main_v305, main_v306]
theorem ops_p6_0_writes : (ops_p6_0 : List (HloOp τ sig (Elt F))).Forall fun op => op.writes ⊆ (ops_p6_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- Window `main_part6`'s operations. -/
abbrev ops_p6 : List (HloOp τ sig (Elt F)) :=
  ops_p6_0

end Cert.ReferenceIdeal.HandRun

end
-- ==== Proof.Ref.Run.lean ====
/-
  The reference program's run. @main is seven windows of straight-line host operations, the outlined functions'
  bodies standing at their call sites: each window is the line `seq` of its list of operations, so @main is the line
  of the seven lists joined, 430 operations in all. No buffer or semaphore of the signature is scoped, so from any
  memory with zero counters every weakly fair execution of @main terminates, and every buffer of every device ends
  at the fold `after ops` of the operations' results over its launch contents. An operation writes only its own
  result buffer, and no argument of @main is one: the fifteen arguments end as they began.
-/
import proofs.«405323_j90718299226206_3_alg».proof.Proof.Ref.Run0
import proofs.«405323_j90718299226206_3_alg».proof.Proof.Ref.Run1
import proofs.«405323_j90718299226206_3_alg».proof.Proof.Ref.Run2
import proofs.«405323_j90718299226206_3_alg».proof.Proof.Ref.Run3
import proofs.«405323_j90718299226206_3_alg».proof.Proof.Ref.Run4
import proofs.«405323_j90718299226206_3_alg».proof.Proof.Ref.Run5
import proofs.«405323_j90718299226206_3_alg».proof.Proof.Ref.Run6
import Idealize.ShloMosaic.Lib.Pipeline.Frame
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Each window is the line of its operations

Both sides are right-nested chains of `hlo` steps: a window's `do` block with each function's body unfolded at its
call (sequencing reassociated by the monad's own computation), and `seq` unrolled over the literal lists: the two
sides are equal by computation. -/

theorem main_part0_eq (c : Dev nD) : main_part0 (F := F) c = seq ops_p0 := by chain_rfl
theorem main_part1_eq (c : Dev nD) : main_part1 (F := F) c = seq ops_p1 := by chain_rfl
theorem main_part2_eq (c : Dev nD) : main_part2 (F := F) c = seq ops_p2 := by chain_rfl
theorem main_part3_eq (c : Dev nD) : main_part3 (F := F) c = seq ops_p3 := by chain_rfl
theorem main_part4_eq (c : Dev nD) : main_part4 (F := F) c = seq ops_p4 := by chain_rfl
theorem main_part5_eq (c : Dev nD) : main_part5 (F := F) c = seq ops_p5 := by chain_rfl
theorem main_part6_eq (c : Dev nD) : main_part6 (F := F) c = seq ops_p6 := by chain_rfl

/-! ## @main is the line of all of them -/

/-- @main's 430 operations in order, each call's body at its call site: the seven windows' lists joined. -/
abbrev ops : List (HloOp τ sig (Elt F)) :=
  ops_p0 ++ (ops_p1 ++ (ops_p2 ++ (ops_p3 ++ (ops_p4 ++ (ops_p5 ++ ops_p6)))))

/-- @main runs its windows in turn, and a line of two lists joined is the first's line then the second's. -/
theorem main_eq (c : Dev nD) : main (F := F) c = seq ops := by
  simp only [ops, seq_append, ← main_part0_eq c, ← main_part1_eq c, ← main_part2_eq c, ← main_part3_eq c,
    ← main_part4_eq c, ← main_part5_eq c, ← main_part6_eq c]
  rfl

/-! ## The side conditions of the run, list by list -/

/-- A property of every element of two lists holds of every element of their join. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Every operation touches TensorCore buffers only. -/
theorem ops_sub : (ops : List (HloOp τ sig (Elt F))).Forall fun op => op.bufs ⊆ tcRefs τ sig :=
  forall_append (forall_append ops_p0_0_sub (forall_append ops_p0_1_sub (forall_append ops_p0_2_sub (forall_append ops_p0_3_sub ops_p0_4_sub)))) (forall_append (forall_append ops_p1_0_sub ops_p1_1_sub) (forall_append (forall_append ops_p2_0_sub ops_p2_1_sub) (forall_append (forall_append ops_p3_0_sub ops_p3_1_sub) (forall_append (forall_append ops_p4_0_sub ops_p4_1_sub) (forall_append (forall_append ops_p5_0_sub ops_p5_1_sub) ops_p6_0_sub)))))

/-- Every operation determines its results: none allocates. -/
theorem ops_fresh : ∀ op ∈ (ops : List (HloOp τ sig (Elt F))), op.fresh = ∅ :=
  List.forall_iff_forall_mem.mp
    (forall_append (forall_append ops_p0_0_fresh (forall_append ops_p0_1_fresh (forall_append ops_p0_2_fresh (forall_append ops_p0_3_fresh ops_p0_4_fresh)))) (forall_append (forall_append ops_p1_0_fresh ops_p1_1_fresh) (forall_append (forall_append ops_p2_0_fresh ops_p2_1_fresh) (forall_append (forall_append ops_p3_0_fresh ops_p3_1_fresh) (forall_append (forall_append ops_p4_0_fresh ops_p4_1_fresh) (forall_append (forall_append ops_p5_0_fresh ops_p5_1_fresh) ops_p6_0_fresh))))))

theorem scopedRefs_eq : (Finset.univ.filter fun b : Ref sig .tc => b.isScoped) = ∅ := by decide
theorem scopedSems_eq : (Finset.univ.filter fun sm : SemLoc sig => sm.isScoped .tc) = ∅ := by decide

/-! ## The run -/

/-- On every device, for any float values, from any memory with zero counters: every weakly fair execution of
    @main terminates, and every TensorCore buffer ends at the fold of the 430 operations over the device's launch
    contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = StableHlo.after ops (fun b => m (c, b)) (Proc.devRef .tc b) :=
  run_seq scopedRefs_eq scopedSems_eq defs main (fun _ => ops) main_eq (fun _ => ops_sub) m ρ (fun _ => ops_fresh)

/-! ## What the line leaves alone -/

/-- A buffer that neither of two lines changes is unchanged by the two joined. -/
theorem keep_append {l₁ l₂ : List (HloOp τ sig (Elt F))} {b : DevRef τ sig}
    (h₁ : ∀ V : Valuation τ sig (Elt F), after l₁ V b = V b) (h₂ : ∀ V : Valuation τ sig (Elt F), after l₂ V b = V b)
    (V : Valuation τ sig (Elt F)) : after (l₁ ++ l₂) V b = V b := by
  rw [StableHlo.after_append, h₂, h₁]

/-- The buffers the 430 operations write, in order: each operation's one result. -/
abbrev ops_W : List (Ref sig .tc) :=
  List.append ops_p0_0_W (List.append ops_p0_1_W (List.append ops_p0_2_W (List.append ops_p0_3_W (List.append ops_p0_4_W (List.append ops_p1_0_W (List.append ops_p1_1_W (List.append ops_p2_0_W (List.append ops_p2_1_W (List.append ops_p3_0_W (List.append ops_p3_1_W (List.append ops_p4_0_W (List.append ops_p4_1_W (List.append ops_p5_0_W (List.append ops_p5_1_W (ops_p6_0_W)))))))))))))))

/-- A reference that is no operation's result keeps its launch contents through the whole line. -/
theorem ops_keep (r : Ref sig .tc) (h : r ∉ ops_W) (V : Valuation τ sig (Elt F)) :
    after ops V (Proc.devRef .tc r) = V (Proc.devRef .tc r) := by
  simp only [ops_W, List.append_eq, List.mem_append, not_or] at h
  obtain ⟨h0, h1, h2, h3, h4, h5, h6, h7, h8, h9, h10, h11, h12, h13, h14, h15⟩ := h
  exact
    keep_append (keep_append (fun V => after_of_writes_sub ops_p0_0 V ops_p0_0_writes h0) (keep_append (fun V => after_of_writes_sub ops_p0_1 V ops_p0_1_writes h1) (keep_append (fun V => after_of_writes_sub ops_p0_2 V ops_p0_2_writes h2) (keep_append (fun V => after_of_writes_sub ops_p0_3 V ops_p0_3_writes h3) ((fun V => after_of_writes_sub ops_p0_4 V ops_p0_4_writes h4)))))) (keep_append (keep_append (fun V => after_of_writes_sub ops_p1_0 V ops_p1_0_writes h5) ((fun V => after_of_writes_sub ops_p1_1 V ops_p1_1_writes h6))) (keep_append (keep_append (fun V => after_of_writes_sub ops_p2_0 V ops_p2_0_writes h7) ((fun V => after_of_writes_sub ops_p2_1 V ops_p2_1_writes h8))) (keep_append (keep_append (fun V => after_of_writes_sub ops_p3_0 V ops_p3_0_writes h9) ((fun V => after_of_writes_sub ops_p3_1 V ops_p3_1_writes h10))) (keep_append (keep_append (fun V => after_of_writes_sub ops_p4_0 V ops_p4_0_writes h11) ((fun V => after_of_writes_sub ops_p4_1 V ops_p4_1_writes h12))) (keep_append (keep_append (fun V => after_of_writes_sub ops_p5_0 V ops_p5_0_writes h13) ((fun V => after_of_writes_sub ops_p5_1 V ops_p5_1_writes h14))) ((fun V => after_of_writes_sub ops_p6_0 V ops_p6_0_writes h15))))))) V

/-- No operation writes an argument of @main: each of the fifteen ends at its launch contents. -/
theorem args_kept_0 (V : Valuation τ sig (Elt F)) :
    after ops V (Proc.devRef .tc main_arg0) = V (Proc.devRef .tc main_arg0) := ops_keep main_arg0 (by decide) V
theorem args_kept_1 (V : Valuation τ sig (Elt F)) :
    after ops V (Proc.devRef .tc main_arg1) = V (Proc.devRef .tc main_arg1) := ops_keep main_arg1 (by decide) V
theorem args_kept_2 (V : Valuation τ sig (Elt F)) :
    after ops V (Proc.devRef .tc main_arg2) = V (Proc.devRef .tc main_arg2) := ops_keep main_arg2 (by decide) V
theorem args_kept_3 (V : Valuation τ sig (Elt F)) :
    after ops V (Proc.devRef .tc main_arg3) = V (Proc.devRef .tc main_arg3) := ops_keep main_arg3 (by decide) V
theorem args_kept_4 (V : Valuation τ sig (Elt F)) :
    after ops V (Proc.devRef .tc main_arg4) = V (Proc.devRef .tc main_arg4) := ops_keep main_arg4 (by decide) V
theorem args_kept_5 (V : Valuation τ sig (Elt F)) :
    after ops V (Proc.devRef .tc main_arg5) = V (Proc.devRef .tc main_arg5) := ops_keep main_arg5 (by decide) V
theorem args_kept_6 (V : Valuation τ sig (Elt F)) :
    after ops V (Proc.devRef .tc main_arg6) = V (Proc.devRef .tc main_arg6) := ops_keep main_arg6 (by decide) V
theorem args_kept_7 (V : Valuation τ sig (Elt F)) :
    after ops V (Proc.devRef .tc main_arg7) = V (Proc.devRef .tc main_arg7) := ops_keep main_arg7 (by decide) V
theorem args_kept_8 (V : Valuation τ sig (Elt F)) :
    after ops V (Proc.devRef .tc main_arg8) = V (Proc.devRef .tc main_arg8) := ops_keep main_arg8 (by decide) V
theorem args_kept_9 (V : Valuation τ sig (Elt F)) :
    after ops V (Proc.devRef .tc main_arg9) = V (Proc.devRef .tc main_arg9) := ops_keep main_arg9 (by decide) V
theorem args_kept_10 (V : Valuation τ sig (Elt F)) :
    after ops V (Proc.devRef .tc main_arg10) = V (Proc.devRef .tc main_arg10) := ops_keep main_arg10 (by decide) V
theorem args_kept_11 (V : Valuation τ sig (Elt F)) :
    after ops V (Proc.devRef .tc main_arg11) = V (Proc.devRef .tc main_arg11) := ops_keep main_arg11 (by decide) V
theorem args_kept_12 (V : Valuation τ sig (Elt F)) :
    after ops V (Proc.devRef .tc main_arg12) = V (Proc.devRef .tc main_arg12) := ops_keep main_arg12 (by decide) V
theorem args_kept_13 (V : Valuation τ sig (Elt F)) :
    after ops V (Proc.devRef .tc main_arg13) = V (Proc.devRef .tc main_arg13) := ops_keep main_arg13 (by decide) V
theorem args_kept_14 (V : Valuation τ sig (Elt F)) :
    after ops V (Proc.devRef .tc main_arg14) = V (Proc.devRef .tc main_arg14) := ops_keep main_arg14 (by decide) V

/-- The same of a device's launch contents, all fifteen at once. -/
theorem args_kept (m : (ℓ : Loc nD τ sig) → Buf (Elt F) ℓ) (c : Dev nD) :
    StableHlo.after ops (fun b => m (c, b)) (Proc.devRef .tc main_arg0) = m ((c.tc : Thread nD τ).loc main_arg0)
    ∧ StableHlo.after ops (fun b => m (c, b)) (Proc.devRef .tc main_arg1) = m ((c.tc : Thread nD τ).loc main_arg1)
    ∧ StableHlo.after ops (fun b => m (c, b)) (Proc.devRef .tc main_arg2) = m ((c.tc : Thread nD τ).loc main_arg2)
    ∧ StableHlo.after ops (fun b => m (c, b)) (Proc.devRef .tc main_arg3) = m ((c.tc : Thread nD τ).loc main_arg3)
    ∧ StableHlo.after ops (fun b => m (c, b)) (Proc.devRef .tc main_arg4) = m ((c.tc : Thread nD τ).loc main_arg4)
    ∧ StableHlo.after ops (fun b => m (c, b)) (Proc.devRef .tc main_arg5) = m ((c.tc : Thread nD τ).loc main_arg5)
    ∧ StableHlo.after ops (fun b => m (c, b)) (Proc.devRef .tc main_arg6) = m ((c.tc : Thread nD τ).loc main_arg6)
    ∧ StableHlo.after ops (fun b => m (c, b)) (Proc.devRef .tc main_arg7) = m ((c.tc : Thread nD τ).loc main_arg7)
    ∧ StableHlo.after ops (fun b => m (c, b)) (Proc.devRef .tc main_arg8) = m ((c.tc : Thread nD τ).loc main_arg8)
    ∧ StableHlo.after ops (fun b => m (c, b)) (Proc.devRef .tc main_arg9) = m ((c.tc : Thread nD τ).loc main_arg9)
    ∧ StableHlo.after ops (fun b => m (c, b)) (Proc.devRef .tc main_arg10) = m ((c.tc : Thread nD τ).loc main_arg10)
    ∧ StableHlo.after ops (fun b => m (c, b)) (Proc.devRef .tc main_arg11) = m ((c.tc : Thread nD τ).loc main_arg11)
    ∧ StableHlo.after ops (fun b => m (c, b)) (Proc.devRef .tc main_arg12) = m ((c.tc : Thread nD τ).loc main_arg12)
    ∧ StableHlo.after ops (fun b => m (c, b)) (Proc.devRef .tc main_arg13) = m ((c.tc : Thread nD τ).loc main_arg13)
    ∧ StableHlo.after ops (fun b => m (c, b)) (Proc.devRef .tc main_arg14) = m ((c.tc : Thread nD τ).loc main_arg14) :=
  ⟨args_kept_0 _, args_kept_1 _, args_kept_2 _, args_kept_3 _, args_kept_4 _, args_kept_5 _, args_kept_6 _, args_kept_7 _, args_kept_8 _, args_kept_9 _, args_kept_10 _, args_kept_11 _, args_kept_12 _, args_kept_13 _, args_kept_14 _⟩

end Cert.ReferenceIdeal.HandRun

end
-- ==== Proof.Ref.ReadLib.lean ====
/-
  Reading a line of single-assignment operations at its END. When the operations of a line write buffers of
  consecutive table indices, one each and in order (`Asc n l`: the `k`-th writes index `n + k`), a buffer of index
  below `n + k` is not written from the `k`-th operation on, and the buffer of index `n + k` is written by the
  `k`-th alone. So at the end of the line the `k`-th operation's result buffer holds its function of what its
  operands hold AT THE END, provided the operands' indices are below `n + k`: each is read where it was last
  written, before the operation, and never changes afterwards.
-/
import Idealize.ShloMosaic.Lib.StableHlo.Run
import Idealize.ShloMosaic.Lib.Pipeline.Frame

noncomputable section

namespace Cert.ReferenceIdeal.HandRun

open Idealize.ShloMosaic Idealize.ShloMosaic.TcCoe Idealize.SL.Sem Idealize.ShloMosaic.StableHlo

variable {τ : Topo} {sig : RefSig} {Val : EltTy → Type}

/-- The line's operations write buffers of consecutive table indices from `n` on, in order: whatever the first
    writes has index `n`, and the rest go on from `n + 1`. -/
def Asc : Nat → List (HloOp τ sig Val) → Prop
  | _, [] => True
  | n, op :: l => (∀ b ∈ op.writes, b.idx.val = n) ∧ Asc (n + 1) l

/-- An operation whose writes are the one buffer `y`, of index `n`. -/
theorem asc_one (y : Ref sig .tc) (n : Nat) (h : (Proc.devRef (τ := τ) .tc y).idx.val = n) :
    ∀ b ∈ ({Proc.devRef .tc y} : Finset (DevRef τ sig)), b.idx.val = n :=
  fun b hb => by rw [Finset.mem_singleton.mp hb]; exact h

theorem Asc.append {n : Nat} {l₁ l₂ : List (HloOp τ sig Val)} (h₁ : Asc n l₁) (h₂ : Asc (n + l₁.length) l₂) :
    Asc n (l₁ ++ l₂) := by
  induction l₁ generalizing n with
  | nil => simpa using h₂
  | cons op l ih =>
    refine ⟨h₁.1, ih h₁.2 ?_⟩
    have e : n + 1 + l.length = n + (op :: l).length := by rw [List.length_cons]; omega
    rw [e]; exact h₂

/-- A buffer of index below `n` is written by no operation of the line. -/
theorem Asc.not_writes {n : Nat} {l : List (HloOp τ sig Val)} (hl : Asc n l) {b : DevRef τ sig} (hb : b.idx.val < n) :
    ∀ o ∈ l, b ∉ o.writes := by
  induction l generalizing n with
  | nil => intro o ho; cases ho
  | cons op l ih =>
    intro o ho
    rcases List.mem_cons.mp ho with rfl | ho
    · intro hm; have := hl.1 b hm; omega
    · exact ih hl.2 (by omega) o ho

theorem Asc.drop {n : Nat} {l : List (HloOp τ sig Val)} (hl : Asc n l) (k : Nat) : Asc (n + k) (l.drop k) := by
  induction k generalizing n l with
  | zero => simpa using hl
  | succ k ih =>
    cases l with
    | nil => simp [Asc]
    | cons op l =>
      have := ih hl.2
      rw [List.drop_succ_cons]
      have e : n + 1 + k = n + (k + 1) := by omega
      rw [e] at this; exact this

/-- The `k`-th operation writes index `n + k` only, and the operations after it go on from `n + k + 1`. -/
theorem Asc.nth {n : Nat} {l : List (HloOp τ sig Val)} (hl : Asc n l) {k : Nat} {op : HloOp τ sig Val}
    (h : l[k]? = some op) : (∀ b ∈ op.writes, b.idx.val = n + k) ∧ Asc (n + k + 1) (l.drop (k + 1)) := by
  obtain ⟨hk, rfl⟩ := List.getElem?_eq_some_iff.mp h
  have := hl.drop k
  rw [List.drop_eq_getElem_cons hk] at this
  exact this

theorem split_nth {l : List (HloOp τ sig Val)} {k : Nat} {op : HloOp τ sig Val} (h : l[k]? = some op) :
    l = l.take k ++ op :: l.drop (k + 1) := by
  obtain ⟨hk, rfl⟩ := List.getElem?_eq_some_iff.mp h
  rw [← List.drop_eq_getElem_cons hk, List.take_append_drop]

/-- At the end of the line a buffer of index at most `n + k` holds what the `k`-th operation left in it. -/
theorem Asc.after_eq {n : Nat} {l : List (HloOp τ sig Val)} (hl : Asc n l) {k : Nat} {op : HloOp τ sig Val}
    (h : l[k]? = some op) (V : Valuation τ sig Val) {b : DevRef τ sig} (hb : b.idx.val ≤ n + k) :
    after l V b = op.result (after (l.take k) V) b := by
  have ht := (hl.nth h).2
  rw [show after l V b = after (l.take k ++ op :: l.drop (k + 1)) V b from
    congrArg (fun l' => after l' V b) (split_nth h)]
  rw [StableHlo.after_append, after_cons, after_of_forall_not_mem _ _ (ht.not_writes (by omega))]

/-- … and a buffer of index below `n + k` what it held just before the `k`-th operation. -/
theorem Asc.after_old {n : Nat} {l : List (HloOp τ sig Val)} (hl : Asc n l) {k : Nat} {op : HloOp τ sig Val}
    (h : l[k]? = some op) (V : Valuation τ sig Val) {b : DevRef τ sig} (hb : b.idx.val < n + k) :
    after l V b = after (l.take k) V b := by
  rw [hl.after_eq h V (Nat.le_of_lt hb)]
  exact op.result_of_not_mem _ (fun hm => by have := (hl.nth h).1 b hm; omega)

section Reads

variable {n : Nat} {l : List (HloOp τ sig Val)} (hl : Asc n l) (V : Valuation τ sig Val) (k : Nat)
include hl

theorem Asc.read_nullary {y : Ref sig .tc} {v : y.ty.Contents Val} {hy}
    (h : l[k]? = some (nullary y v hy)) : after l V (Proc.devRef .tc y) = v :=
  (hl.after_eq h V (Nat.le_of_eq ((hl.nth h).1 _ (by rw [nullary_writes]; exact Finset.mem_singleton_self _)))).trans
    (nullary_result y v hy _)

theorem Asc.read_unary {x y : Ref sig .tc} {f : x.ty.Contents Val → y.ty.Contents Val} {hx hy}
    (h : l[k]? = some (unary x y f hx hy)) (hx' : (Proc.devRef (τ := τ) .tc x).idx.val < n + k) :
    after l V (Proc.devRef .tc y) = f (after l V (Proc.devRef .tc x)) :=
  ((hl.after_eq h V (Nat.le_of_eq ((hl.nth h).1 _ (by rw [unary_writes]; exact Finset.mem_singleton_self _)))).trans
    (unary_result x y f hx hy _)).trans (congrArg f (hl.after_old h V hx').symm)

theorem Asc.read_binary {a b y : Ref sig .tc} {f : a.ty.Contents Val → b.ty.Contents Val → y.ty.Contents Val} {ha hb hy}
    (h : l[k]? = some (binary a b y f ha hb hy)) (ha' : (Proc.devRef (τ := τ) .tc a).idx.val < n + k)
    (hb' : (Proc.devRef (τ := τ) .tc b).idx.val < n + k) :
    after l V (Proc.devRef .tc y) = f (after l V (Proc.devRef .tc a)) (after l V (Proc.devRef .tc b)) :=
  ((hl.after_eq h V (Nat.le_of_eq ((hl.nth h).1 _ (by rw [binary_writes]; exact Finset.mem_singleton_self _)))).trans
    (binary_result a b y f ha hb hy _)).trans (congrArg₂ f (hl.after_old h V ha').symm (hl.after_old h V hb').symm)

theorem Asc.read_ternary {c a b y : Ref sig .tc}
    {f : c.ty.Contents Val → a.ty.Contents Val → b.ty.Contents Val → y.ty.Contents Val} {hc ha hb hy}
    (h : l[k]? = some (ternary c a b y f hc ha hb hy)) (hc' : (Proc.devRef (τ := τ) .tc c).idx.val < n + k)
    (ha' : (Proc.devRef (τ := τ) .tc a).idx.val < n + k) (hb' : (Proc.devRef (τ := τ) .tc b).idx.val < n + k) :
    after l V (Proc.devRef .tc y)
      = f (after l V (Proc.devRef .tc c)) (after l V (Proc.devRef .tc a)) (after l V (Proc.devRef .tc b)) := by
  have ey := (hl.after_eq h V (Nat.le_of_eq ((hl.nth h).1 _ (by rw [ternary_writes]; exact Finset.mem_singleton_self _)))).trans
    (ternary_result c a b y f hc ha hb hy _)
  have ec := hl.after_old h V hc'
  have ea := hl.after_old h V ha'
  have eb := hl.after_old h V hb'
  rw [ey]
  exact (congrArg₂ (f (after (l.take k) V (Proc.devRef .tc c))) ea.symm eb.symm).trans
    (congrArg (fun w => f w (after l V (Proc.devRef .tc a)) (after l V (Proc.devRef .tc b))) ec.symm)

theorem Asc.read_reshape {x y : Ref sig .tc} {he : x.ty.elt = y.ty.elt} {hn : x.ty.shape.ShapeCasts y.ty.shape} {hx hy}
    (h : l[k]? = some (reshape x y he hn hx hy)) (hx' : (Proc.devRef (τ := τ) .tc x).idx.val < n + k) :
    after l V (Proc.devRef .tc y) = fun i => he ▸ shapeCast y.ty.shape (after l V (Proc.devRef .tc x)) hn i := by
  have ey := (hl.after_eq h V (Nat.le_of_eq ((hl.nth h).1 _ (by rw [reshape_writes]; exact Finset.mem_singleton_self _)))).trans
    (reshape_result x y he hn hx hy _)
  rw [ey, hl.after_old h V hx']

end Reads

end Cert.ReferenceIdeal.HandRun

end
-- ==== Proof.Ref.ReadsAsc.lean ====
import proofs.«405323_j90718299226206_3_alg».proof.Proof.Ref.Run
import proofs.«405323_j90718299226206_3_alg».proof.Proof.Ref.ReadLib

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of `ops_p0_0` write buffers 15 … 36, one each, in order. -/
theorem ops_p0_0_asc : Asc 15 (ops_p0_0 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
/-- The operations of `ops_p0_1` write buffers 37 … 41, one each, in order. -/
theorem ops_p0_1_asc : Asc 37 (ops_p0_1 : List (HloOp τ sig (Elt F))) :=
  ⟨asc_one _ _ rfl, asc_one _ _ rfl, asc_one _ _ rfl, asc_one _ _ rfl, asc_one _ _ rfl, trivial⟩
/-- The operations of `ops_p0_2` write buffers 42 … 44, one each, in order. -/
theorem ops_p0_2_asc : Asc 42 (ops_p0_2 : List (HloOp τ sig (Elt F))) :=
  ⟨asc_one _ _ rfl, asc_one _ _ rfl, asc_one _ _ rfl, trivial⟩
/-- The operations of `ops_p0_3` write buffers 45 … 47, one each, in order. -/
theorem ops_p0_3_asc : Asc 45 (ops_p0_3 : List (HloOp τ sig (Elt F))) :=
  ⟨asc_one _ _ rfl, asc_one _ _ rfl, asc_one _ _ rfl, trivial⟩
/-- The operations of `ops_p0_4` write buffers 48 … 76, one each, in order. -/
theorem ops_p0_4_asc : Asc 48 (ops_p0_4 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
theorem ops_p0_asc : Asc 15 (ops_p0 : List (HloOp τ sig (Elt F))) :=
  (ops_p0_0_asc).append ((ops_p0_1_asc).append ((ops_p0_2_asc).append ((ops_p0_3_asc).append ops_p0_4_asc)))

/-- The operations of `ops_p1_0` write buffers 77 … 116, one each, in order. -/
theorem ops_p1_0_asc : Asc 77 (ops_p1_0 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
/-- The operations of `ops_p1_1` write buffers 117 … 150, one each, in order. -/
theorem ops_p1_1_asc : Asc 117 (ops_p1_1 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
theorem ops_p1_asc : Asc 77 (ops_p1 : List (HloOp τ sig (Elt F))) :=
  (ops_p1_0_asc).append ops_p1_1_asc

/-- The operations of `ops_p2_0` write buffers 151 … 190, one each, in order. -/
theorem ops_p2_0_asc : Asc 151 (ops_p2_0 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
/-- The operations of `ops_p2_1` write buffers 191 … 218, one each, in order. -/
theorem ops_p2_1_asc : Asc 191 (ops_p2_1 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
theorem ops_p2_asc : Asc 151 (ops_p2 : List (HloOp τ sig (Elt F))) :=
  (ops_p2_0_asc).append ops_p2_1_asc

/-- The operations of `ops_p3_0` write buffers 219 … 258, one each, in order. -/
theorem ops_p3_0_asc : Asc 219 (ops_p3_0 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
/-- The operations of `ops_p3_1` write buffers 259 … 295, one each, in order. -/
theorem ops_p3_1_asc : Asc 259 (ops_p3_1 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
theorem ops_p3_asc : Asc 219 (ops_p3 : List (HloOp τ sig (Elt F))) :=
  (ops_p3_0_asc).append ops_p3_1_asc

/-- The operations of `ops_p4_0` write buffers 296 … 335, one each, in order. -/
theorem ops_p4_0_asc : Asc 296 (ops_p4_0 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
/-- The operations of `ops_p4_1` write buffers 336 … 364, one each, in order. -/
theorem ops_p4_1_asc : Asc 336 (ops_p4_1 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
theorem ops_p4_asc : Asc 296 (ops_p4 : List (HloOp τ sig (Elt F))) :=
  (ops_p4_0_asc).append ops_p4_1_asc

/-- The operations of `ops_p5_0` write buffers 365 … 404, one each, in order. -/
theorem ops_p5_0_asc : Asc 365 (ops_p5_0 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
/-- The operations of `ops_p5_1` write buffers 405 … 440, one each, in order. -/
theorem ops_p5_1_asc : Asc 405 (ops_p5_1 : List (HloOp τ sig (Elt F))) :=
  ⟨asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, asc_one _ _ rfl, trivial⟩
theorem ops_p5_asc : Asc 365 (ops_p5 : List (HloOp τ sig (Elt F))) :=
  (ops_p5_0_asc).append ops_p5_1_asc

/-- The operations of `ops_p6_0` write buffers 441 … 444, one each, in order. -/
theorem ops_p6_0_asc : Asc 441 (ops_p6_0 : List (HloOp τ sig (Elt F))) :=
  ⟨asc_one _ _ rfl, asc_one _ _ rfl, asc_one _ _ rfl, asc_one _ _ rfl, trivial⟩
theorem ops_p6_asc : Asc 441 (ops_p6 : List (HloOp τ sig (Elt F))) :=
  ops_p6_0_asc

/-- @main's 430 operations write buffers 15 … 444, one each, in order. -/
theorem ops_asc : Asc 15 (ops : List (HloOp τ sig (Elt F))) :=
  (ops_p0_asc).append ((ops_p1_asc).append ((ops_p2_asc).append ((ops_p3_asc).append ((ops_p4_asc).append ((ops_p5_asc).append ops_p6_asc)))))

variable (m : (ℓ : Loc nD τ sig) → Buf (Elt F) ℓ) (c : Dev nD)

/-- What the buffer `r` of device `c` holds at the end of @main's run from the memory `m`. -/
abbrev RV (r : Ref sig .tc) := StableHlo.after (ops (F := F)) (fun b => m (c, b)) (Proc.devRef .tc r)

theorem RV_arg_0 : RV m c main_arg0 = m ((c.tc : Thread nD τ).loc main_arg0) := args_kept_0 _
theorem RV_arg_1 : RV m c main_arg1 = m ((c.tc : Thread nD τ).loc main_arg1) := args_kept_1 _
theorem RV_arg_2 : RV m c main_arg2 = m ((c.tc : Thread nD τ).loc main_arg2) := args_kept_2 _
theorem RV_arg_3 : RV m c main_arg3 = m ((c.tc : Thread nD τ).loc main_arg3) := args_kept_3 _
theorem RV_arg_4 : RV m c main_arg4 = m ((c.tc : Thread nD τ).loc main_arg4) := args_kept_4 _
theorem RV_arg_5 : RV m c main_arg5 = m ((c.tc : Thread nD τ).loc main_arg5) := args_kept_5 _
theorem RV_arg_6 : RV m c main_arg6 = m ((c.tc : Thread nD τ).loc main_arg6) := args_kept_6 _
theorem RV_arg_7 : RV m c main_arg7 = m ((c.tc : Thread nD τ).loc main_arg7) := args_kept_7 _
theorem RV_arg_8 : RV m c main_arg8 = m ((c.tc : Thread nD τ).loc main_arg8) := args_kept_8 _
theorem RV_arg_9 : RV m c main_arg9 = m ((c.tc : Thread nD τ).loc main_arg9) := args_kept_9 _
theorem RV_arg_10 : RV m c main_arg10 = m ((c.tc : Thread nD τ).loc main_arg10) := args_kept_10 _
theorem RV_arg_11 : RV m c main_arg11 = m ((c.tc : Thread nD τ).loc main_arg11) := args_kept_11 _
theorem RV_arg_12 : RV m c main_arg12 = m ((c.tc : Thread nD τ).loc main_arg12) := args_kept_12 _
theorem RV_arg_13 : RV m c main_arg13 = m ((c.tc : Thread nD τ).loc main_arg13) := args_kept_13 _
theorem RV_arg_14 : RV m c main_arg14 = m ((c.tc : Thread nD τ).loc main_arg14) := args_kept_14 _

end Cert.ReferenceIdeal.HandRun

end
-- ==== Proof.KI.Reads0.lean ====
/- What each host operation of @main leaves in its result buffer, read at the last boundary's contents: the operation's
   function of its operands' contents there (every buffer is written once). Stretches: hostOps0, hostOps1, hostOps1_1, hostOps1_2, hostOps1_3. -/
import proofs.«405323_j90718299226206_3_alg».proof.Proof.KI.Frames

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem kd0_main_cst : W1 m c (Proc.devRef .tc main_cst) = (constant S_ .f32 0x00000000#32) := by
  dsimp only [W1, hostOps0]
  after_results_simp <;> (try simp only [StableHlo.TRef.ofBuf, StableHlo.TRef.toBuf, cast_eq]) <;> (try rfl)
theorem kd_main_cst : W63 m c (Proc.devRef .tc main_cst) = (constant S_ .f32 0x00000000#32) := by
  rw [frame1 m c main_cst (by decide)]; exact kd0_main_cst m c
theorem kd0_main_v0 : W1 m c (Proc.devRef .tc main_v0) = (broadcastInDim S10240x10240 ![] bcast_S_S10240x10240 : (⟨S_, .f32⟩ : BufTy).Contents (Elt F) → (⟨S10240x10240, .f32⟩ : BufTy).Contents (Elt F)) (W1 m c (Proc.devRef .tc main_cst)) := by
  dsimp only [W1, hostOps0]
  after_results_simp <;> (try simp only [StableHlo.TRef.ofBuf, StableHlo.TRef.toBuf, cast_eq]) <;> (try rfl)
theorem kd_main_v0 : W63 m c (Proc.devRef .tc main_v0) = (broadcastInDim S10240x10240 ![] bcast_S_S10240x10240 : (⟨S_, .f32⟩ : BufTy).Contents (Elt F) → (⟨S10240x10240, .f32⟩ : BufTy).Contents (Elt F)) (W63 m c (Proc.devRef .tc main_cst)) := by
  rw [frame1 m c main_v0 (by decide), frame1 m c main_cst (by decide)]; exact kd0_main_v0 m c
theorem kd0_main_v1 : W1 m c (Proc.devRef .tc main_v1) = ((extractStridedSlice S1x320000 ![0, 0] · slices_S2x320000_S1x320000_0_0) : (⟨S2x320000, .i32⟩ : BufTy).Contents (Elt F) → (⟨S1x320000, .i32⟩ : BufTy).Contents (Elt F)) (W1 m c (Proc.devRef .tc main_arg1)) := by
  dsimp only [W1, hostOps0]
  after_results_simp <;> (try simp only [StableHlo.TRef.ofBuf, StableHlo.TRef.toBuf, cast_eq]) <;> (try rfl)
theorem kd_main_v1 : W63 m c (Proc.devRef .tc main_v1) = ((extractStridedSlice S1x320000 ![0, 0] · slices_S2x320000_S1x320000_0_0) : (⟨S2x320000, .i32⟩ : BufTy).Contents (Elt F) → (⟨S1x320000, .i32⟩ : BufTy).Contents (Elt F)) (W63 m c (Proc.devRef .tc main_arg1)) := by
  rw [frame1 m c main_v1 (by decide), frame1 m c main_arg1 (by decide)]; exact kd0_main_v1 m c
theorem kd0_main_v2 : W1 m c (Proc.devRef .tc main_v2) = shapeCast S320000 (W1 m c (Proc.devRef .tc main_v1)) shapeCasts_S1x320000_S320000 := by
  dsimp only [W1, hostOps0]
  after_results_simp <;> (try simp only [StableHlo.TRef.ofBuf, StableHlo.TRef.toBuf, cast_eq]) <;> (try rfl)
theorem kd_main_v2 : W63 m c (Proc.devRef .tc main_v2) = shapeCast S320000 (W63 m c (Proc.devRef .tc main_v1)) shapeCasts_S1x320000_S320000 := by
  rw [frame1 m c main_v2 (by decide), frame1 m c main_v1 (by decide)]; exact kd0_main_v2 m c
theorem kd0_main_v3 : W1 m c (Proc.devRef .tc main_v3) = ((extractStridedSlice S1x320000 ![1, 0] · slices_S2x320000_S1x320000_1_0) : (⟨S2x320000, .i32⟩ : BufTy).Contents (Elt F) → (⟨S1x320000, .i32⟩ : BufTy).Contents (Elt F)) (W1 m c (Proc.devRef .tc main_arg1)) := by
  dsimp only [W1, hostOps0]
  after_results_simp <;> (try simp only [StableHlo.TRef.ofBuf, StableHlo.TRef.toBuf, cast_eq]) <;> (try rfl)
theorem kd_main_v3 : W63 m c (Proc.devRef .tc main_v3) = ((extractStridedSlice S1x320000 ![1, 0] · slices_S2x320000_S1x320000_1_0) : (⟨S2x320000, .i32⟩ : BufTy).Contents (Elt F) → (⟨S1x320000, .i32⟩ : BufTy).Contents (Elt F)) (W63 m c (Proc.devRef .tc main_arg1)) := by
  rw [frame1 m c main_v3 (by decide), frame1 m c main_arg1 (by decide)]; exact kd0_main_v3 m c
theorem kd0_main_v4 : W1 m c (Proc.devRef .tc main_v4) = shapeCast S320000 (W1 m c (Proc.devRef .tc main_v3)) shapeCasts_S1x320000_S320000 := by
  dsimp only [W1, hostOps0]
  after_results_simp <;> (try simp only [StableHlo.TRef.ofBuf, StableHlo.TRef.toBuf, cast_eq]) <;> (try rfl)
theorem kd_main_v4 : W63 m c (Proc.devRef .tc main_v4) = shapeCast S320000 (W63 m c (Proc.devRef .tc main_v3)) shapeCasts_S1x320000_S320000 := by
  rw [frame1 m c main_v4 (by decide), frame1 m c main_v3 (by decide)]; exact kd0_main_v4 m c
theorem kd0_main_c : W1 m c (Proc.devRef .tc main_c) = (constantI S_ 32 0#32) := by
  dsimp only [W1, hostOps0]
  after_results_simp <;> (try simp only [StableHlo.TRef.ofBuf, StableHlo.TRef.toBuf, cast_eq]) <;> (try rfl)
theorem kd_main_c : W63 m c (Proc.devRef .tc main_c) = (constantI S_ 32 0#32) := by
  rw [frame1 m c main_c (by decide)]; exact kd0_main_c m c
theorem kd0_main_v5 : W1 m c (Proc.devRef .tc main_v5) = (broadcastInDim S320000 ![] bcast_S_S320000 : (⟨S_, .i32⟩ : BufTy).Contents (Elt F) → (⟨S320000, .i32⟩ : BufTy).Contents (Elt F)) (W1 m c (Proc.devRef .tc main_c)) := by
  dsimp only [W1, hostOps0]
  after_results_simp <;> (try simp only [StableHlo.TRef.ofBuf, StableHlo.TRef.toBuf, cast_eq]) <;> (try rfl)
theorem kd_main_v5 : W63 m c (Proc.devRef .tc main_v5) = (broadcastInDim S320000 ![] bcast_S_S320000 : (⟨S_, .i32⟩ : BufTy).Contents (Elt F) → (⟨S320000, .i32⟩ : BufTy).Contents (Elt F)) (W63 m c (Proc.devRef .tc main_c)) := by
  rw [frame1 m c main_v5 (by decide), frame1 m c main_c (by decide)]; exact kd0_main_v5 m c
theorem kd0_main_v6 : W1 m c (Proc.devRef .tc main_v6) = (cmpi .slt : (⟨S320000, .i32⟩ : BufTy).Contents (Elt F) → (⟨S320000, .i32⟩ : BufTy).Contents (Elt F) → (⟨S320000, .i1⟩ : BufTy).Contents (Elt F)) (W1 m c (Proc.devRef .tc main_v2)) (W1 m c (Proc.devRef .tc main_v5)) := by
  dsimp only [W1, hostOps0]
  after_results_simp <;> (try simp only [StableHlo.TRef.ofBuf, StableHlo.TRef.toBuf, cast_eq]) <;> (try rfl)
theorem kd_main_v6 : W63 m c (Proc.devRef .tc main_v6) = (cmpi .slt : (⟨S320000, .i32⟩ : BufTy).Contents (Elt F) → (⟨S320000, .i32⟩ : BufTy).Contents (Elt F) → (⟨S320000, .i1⟩ : BufTy).Contents (Elt F)) (W63 m c (Proc.devRef .tc main_v2)) (W63 m c (Proc.devRef .tc main_v5)) := by
  rw [frame1 m c main_v6 (by decide), frame1 m c main_v2 (by decide), frame1 m c main_v5 (by decide)]; exact kd0_main_v6 m c
theorem kd0_main_c_0 : W1 m c (Proc.devRef .tc main_c_0) = (constantI S_ 32 10240#32) := by
  dsimp only [W1, hostOps0]
  after_results_simp <;> (try simp only [StableHlo.TRef.ofBuf, StableHlo.TRef.toBuf, cast_eq]) <;> (try rfl)
theorem kd_main_c_0 : W63 m c (Proc.devRef .tc main_c_0) = (constantI S_ 32 10240#32) := by
  rw [frame1 m c main_c_0 (by decide)]; exact kd0_main_c_0 m c
theorem kd0_main_v7 : W1 m c (Proc.devRef .tc main_v7) = (broadcastInDim S320000 ![] bcast_S_S320000 : (⟨S_, .i32⟩ : BufTy).Contents (Elt F) → (⟨S320000, .i32⟩ : BufTy).Contents (Elt F)) (W1 m c (Proc.devRef .tc main_c_0)) := by
  dsimp only [W1, hostOps0]
  after_results_simp <;> (try simp only [StableHlo.TRef.ofBuf, StableHlo.TRef.toBuf, cast_eq]) <;> (try rfl)
theorem kd_main_v7 : W63 m c (Proc.devRef .tc main_v7) = (broadcastInDim S320000 ![] bcast_S_S320000 : (⟨S_, .i32⟩ : BufTy).Contents (Elt F) → (⟨S320000, .i32⟩ : BufTy).Contents (Elt F)) (W63 m c (Proc.devRef .tc main_c_0)) := by
  rw [frame1 m c main_v7 (by decide), frame1 m c main_c_0 (by decide)]; exact kd0_main_v7 m c
theorem kd0_main_v8 : W1 m c (Proc.devRef .tc main_v8) = (addi : (⟨S320000, .i32⟩ : BufTy).Contents (Elt F) → (⟨S320000, .i32⟩ : BufTy).Contents (Elt F) → (⟨S320000, .i32⟩ : BufTy).Contents (Elt F)) (W1 m c (Proc.devRef .tc main_v2)) (W1 m c (Proc.devRef .tc main_v7)) := by
  dsimp only [W1, hostOps0]
  after_results_simp <;> (try simp only [StableHlo.TRef.ofBuf, StableHlo.TRef.toBuf, cast_eq]) <;> (try rfl)
theorem kd_main_v8 : W63 m c (Proc.devRef .tc main_v8) = (addi : (⟨S320000, .i32⟩ : BufTy).Contents (Elt F) → (⟨S320000, .i32⟩ : BufTy).Contents (Elt F) → (⟨S320000, .i32⟩ : BufTy).Contents (Elt F)) (W63 m c (Proc.devRef .tc main_v2)) (W63 m c (Proc.devRef .tc main_v7)) := by
  rw [frame1 m c main_v8 (by decide), frame1 m c main_v2 (by decide), frame1 m c main_v7 (by decide)]; exact kd0_main_v8 m c
theorem kd0_main_v9 : W1 m c (Proc.devRef .tc main_v9) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (W1 m c (Proc.devRef .tc main_v6)) (W1 m c (Proc.devRef .tc main_v8)) (W1 m c (Proc.devRef .tc main_v2)) := by
  dsimp only [W1, hostOps0]
  after_results_simp <;> (try simp only [StableHlo.TRef.ofBuf, StableHlo.TRef.toBuf, cast_eq]) <;> (try rfl)
theorem kd_main_v9 : W63 m c (Proc.devRef .tc main_v9) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (W63 m c (Proc.devRef .tc main_v6)) (W63 m c (Proc.devRef .tc main_v8)) (W63 m c (Proc.devRef .tc main_v2)) := by
  rw [frame1 m c main_v9 (by decide), frame1 m c main_v6 (by decide), frame1 m c main_v8 (by decide), frame1 m c main_v2 (by decide)]; exact kd0_main_v9 m c
theorem kd0_main_c_1 : W1 m c (Proc.devRef .tc main_c_1) = (constantI S_ 32 0#32) := by
  dsimp only [W1, hostOps0]
  after_results_simp <;> (try simp only [StableHlo.TRef.ofBuf, StableHlo.TRef.toBuf, cast_eq]) <;> (try rfl)
theorem kd_main_c_1 : W63 m c (Proc.devRef .tc main_c_1) = (constantI S_ 32 0#32) := by
  rw [frame1 m c main_c_1 (by decide)]; exact kd0_main_c_1 m c
theorem kd0_main_v10 : W1 m c (Proc.devRef .tc main_v10) = (broadcastInDim S320000 ![] bcast_S_S320000 : (⟨S_, .i32⟩ : BufTy).Contents (Elt F) → (⟨S320000, .i32⟩ : BufTy).Contents (Elt F)) (W1 m c (Proc.devRef .tc main_c_1)) := by
  dsimp only [W1, hostOps0]
  after_results_simp <;> (try simp only [StableHlo.TRef.ofBuf, StableHlo.TRef.toBuf, cast_eq]) <;> (try rfl)
theorem kd_main_v10 : W63 m c (Proc.devRef .tc main_v10) = (broadcastInDim S320000 ![] bcast_S_S320000 : (⟨S_, .i32⟩ : BufTy).Contents (Elt F) → (⟨S320000, .i32⟩ : BufTy).Contents (Elt F)) (W63 m c (Proc.devRef .tc main_c_1)) := by
  rw [frame1 m c main_v10 (by decide), frame1 m c main_c_1 (by decide)]; exact kd0_main_v10 m c
theorem kd0_main_v11 : W1 m c (Proc.devRef .tc main_v11) = (cmpi .slt : (⟨S320000, .i32⟩ : BufTy).Contents (Elt F) → (⟨S320000, .i32⟩ : BufTy).Contents (Elt F) → (⟨S320000, .i1⟩ : BufTy).Contents (Elt F)) (W1 m c (Proc.devRef .tc main_v4)) (W1 m c (Proc.devRef .tc main_v10)) := by
  dsimp only [W1, hostOps0]
  after_results_simp <;> (try simp only [StableHlo.TRef.ofBuf, StableHlo.TRef.toBuf, cast_eq]) <;> (try rfl)
theorem kd_main_v11 : W63 m c (Proc.devRef .tc main_v11) = (cmpi .slt : (⟨S320000, .i32⟩ : BufTy).Contents (Elt F) → (⟨S320000, .i32⟩ : BufTy).Contents (Elt F) → (⟨S320000, .i1⟩ : BufTy).Contents (Elt F)) (W63 m c (Proc.devRef .tc main_v4)) (W63 m c (Proc.devRef .tc main_v10)) := by
  rw [frame1 m c main_v11 (by decide), frame1 m c main_v4 (by decide), frame1 m c main_v10 (by decide)]; exact kd0_main_v11 m c
theorem kd0_main_c_2 : W1 m c (Proc.devRef .tc main_c_2) = (constantI S_ 32 10240#32) := by
  dsimp only [W1, hostOps0]
  after_results_simp <;> (try simp only [StableHlo.TRef.ofBuf, StableHlo.TRef.toBuf, cast_eq]) <;> (try rfl)
theorem kd_main_c_2 : W63 m c (Proc.devRef .tc main_c_2) = (constantI S_ 32 10240#32) := by
  rw [frame1 m c main_c_2 (by decide)]; exact kd0_main_c_2 m c
theorem kd0_main_v12 : W1 m c (Proc.devRef .tc main_v12) = (broadcastInDim S320000 ![] bcast_S_S320000 : (⟨S_, .i32⟩ : BufTy).Contents (Elt F) → (⟨S320000, .i32⟩ : BufTy).Contents (Elt F)) (W1 m c (Proc.devRef .tc main_c_2)) := by
  dsimp only [W1, hostOps0]
  after_results_simp <;> (try simp only [StableHlo.TRef.ofBuf, StableHlo.TRef.toBuf, cast_eq]) <;> (try rfl)
theorem kd_main_v12 : W63 m c (Proc.devRef .tc main_v12) = (broadcastInDim S320000 ![] bcast_S_S320000 : (⟨S_, .i32⟩ : BufTy).Contents (Elt F) → (⟨S320000, .i32⟩ : BufTy).Contents (Elt F)) (W63 m c (Proc.devRef .tc main_c_2)) := by
  rw [frame1 m c main_v12 (by decide), frame1 m c main_c_2 (by decide)]; exact kd0_main_v12 m c
theorem kd0_main_v13 : W1 m c (Proc.devRef .tc main_v13) = (addi : (⟨S320000, .i32⟩ : BufTy).Contents (Elt F) → (⟨S320000, .i32⟩ : BufTy).Contents (Elt F) → (⟨S320000, .i32⟩ : BufTy).Contents (Elt F)) (W1 m c (Proc.devRef .tc main_v4)) (W1 m c (Proc.devRef .tc main_v12)) := by
  dsimp only [W1, hostOps0]
  after_results_simp <;> (try simp only [StableHlo.TRef.ofBuf, StableHlo.TRef.toBuf, cast_eq]) <;> (try rfl)
theorem kd_main_v13 : W63 m c (Proc.devRef .tc main_v13) = (addi : (⟨S320000, .i32⟩ : BufTy).Contents (Elt F) → (⟨S320000, .i32⟩ : BufTy).Contents (Elt F) → (⟨S320000, .i32⟩ : BufTy).Contents (Elt F)) (W63 m c (Proc.devRef .tc main_v4)) (W63 m c (Proc.devRef .tc main_v12)) := by
  rw [frame1 m c main_v13 (by decide), frame1 m c main_v4 (by decide), frame1 m c main_v12 (by decide)]; exact kd0_main_v13 m c
theorem kd0_main_v14 : W1 m c (Proc.devRef .tc main_v14) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (W1 m c (Proc.devRef .tc main_v11)) (W1 m c (Proc.devRef .tc main_v13)) (W1 m c (Proc.devRef .tc main_v4)) := by
  dsimp only [W1, hostOps0]
  after_results_simp <;> (try simp only [StableHlo.TRef.ofBuf, StableHlo.TRef.toBuf, cast_eq]) <;> (try rfl)
theorem kd_main_v14 : W63 m c (Proc.devRef .tc main_v14) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (W63 m c (Proc.devRef .tc main_v11)) (W63 m c (Proc.devRef .tc main_v13)) (W63 m c (Proc.devRef .tc main_v4)) := by
  rw [frame1 m c main_v14 (by decide), frame1 m c main_v11 (by decide), frame1 m c main_v13 (by decide), frame1 m c main_v4 (by decide)]; exact kd0_main_v14 m c
theorem kd0_main_v15 : W1 m c (Proc.devRef .tc main_v15) = (broadcastInDim S320000x1 ![0] bcast_S320000_S320000x1_0 : (⟨S320000, .i32⟩ : BufTy).Contents (Elt F) → (⟨S320000x1, .i32⟩ : BufTy).Contents (Elt F)) (W1 m c (Proc.devRef .tc main_v9)) := by
  dsimp only [W1, hostOps0]
  after_results_simp <;> (try simp only [StableHlo.TRef.ofBuf, StableHlo.TRef.toBuf, cast_eq]) <;> (try rfl)
theorem kd_main_v15 : W63 m c (Proc.devRef .tc main_v15) = (broadcastInDim S320000x1 ![0] bcast_S320000_S320000x1_0 : (⟨S320000, .i32⟩ : BufTy).Contents (Elt F) → (⟨S320000x1, .i32⟩ : BufTy).Contents (Elt F)) (W63 m c (Proc.devRef .tc main_v9)) := by
  rw [frame1 m c main_v15 (by decide), frame1 m c main_v9 (by decide)]; exact kd0_main_v15 m c
theorem kd0_main_v16 : W1 m c (Proc.devRef .tc main_v16) = (broadcastInDim S320000x1 ![0] bcast_S320000_S320000x1_0 : (⟨S320000, .i32⟩ : BufTy).Contents (Elt F) → (⟨S320000x1, .i32⟩ : BufTy).Contents (Elt F)) (W1 m c (Proc.devRef .tc main_v14)) := by
  dsimp only [W1, hostOps0]
  after_results_simp <;> (try simp only [StableHlo.TRef.ofBuf, StableHlo.TRef.toBuf, cast_eq]) <;> (try rfl)
theorem kd_main_v16 : W63 m c (Proc.devRef .tc main_v16) = (broadcastInDim S320000x1 ![0] bcast_S320000_S320000x1_0 : (⟨S320000, .i32⟩ : BufTy).Contents (Elt F) → (⟨S320000x1, .i32⟩ : BufTy).Contents (Elt F)) (W63 m c (Proc.devRef .tc main_v14)) := by
  rw [frame1 m c main_v16 (by decide), frame1 m c main_v14 (by decide)]; exact kd0_main_v16 m c
theorem kd0_main_v17 : W1 m c (Proc.devRef .tc main_v17) = ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F)) (W1 m c (Proc.devRef .tc main_v15)) (W1 m c (Proc.devRef .tc main_v16)) := by
  dsimp only [W1, hostOps0]
  after_results_simp <;> (try simp only [StableHlo.TRef.ofBuf, StableHlo.TRef.toBuf, cast_eq]) <;> (try rfl)
theorem kd_main_v17 : W63 m c (Proc.devRef .tc main_v17) = ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F)) (W63 m c (Proc.devRef .tc main_v15)) (W63 m c (Proc.devRef .tc main_v16)) := by
  rw [frame1 m c main_v17 (by decide), frame1 m c main_v15 (by decide), frame1 m c main_v16 (by decide)]; exact kd0_main_v17 m c
theorem kd0_main_v18 : W1 m c (Proc.devRef .tc main_v18) = ((fun x i u => Host.scatterAdd scatter_S10240x10240_S320000x2_S320000_n_01_01_1 x i u) : (⟨S10240x10240, .f32⟩ : BufTy).Contents (Elt F) → (⟨S320000x2, .i32⟩ : BufTy).Contents (Elt F) → (⟨S320000, .f32⟩ : BufTy).Contents (Elt F) → (⟨S10240x10240, .f32⟩ : BufTy).Contents (Elt F)) (W1 m c (Proc.devRef .tc main_v0)) (W1 m c (Proc.devRef .tc main_v17)) (W1 m c (Proc.devRef .tc main_arg2)) := by
  dsimp only [W1, hostOps0]
  after_results_simp <;> (try simp only [StableHlo.TRef.ofBuf, StableHlo.TRef.toBuf, cast_eq]) <;> (try rfl)
theorem kd_main_v18 : W63 m c (Proc.devRef .tc main_v18) = ((fun x i u => Host.scatterAdd scatter_S10240x10240_S320000x2_S320000_n_01_01_1 x i u) : (⟨S10240x10240, .f32⟩ : BufTy).Contents (Elt F) → (⟨S320000x2, .i32⟩ : BufTy).Contents (Elt F) → (⟨S320000, .f32⟩ : BufTy).Contents (Elt F) → (⟨S10240x10240, .f32⟩ : BufTy).Contents (Elt F)) (W63 m c (Proc.devRef .tc main_v0)) (W63 m c (Proc.devRef .tc main_v17)) (W63 m c (Proc.devRef .tc main_arg2)) := by
  rw [frame1 m c main_v18 (by decide), frame1 m c main_v0 (by decide), frame1 m c main_v17 (by decide), frame1 m c main_arg2 (by decide)]; exact kd0_main_v18 m c
theorem kd0_main_cst_3 : W1 m c (Proc.devRef .tc main_cst_3) = (constant S_ .f32 0x00000000#32) := by
  dsimp only [W1, hostOps0]
  after_results_simp <;> (try simp only [StableHlo.TRef.ofBuf, StableHlo.TRef.toBuf, cast_eq]) <;> (try rfl)
theorem kd_main_cst_3 : W63 m c (Proc.devRef .tc main_cst_3) = (constant S_ .f32 0x00000000#32) := by
  rw [frame1 m c main_cst_3 (by decide)]; exact kd0_main_cst_3 m c
theorem kd0_main_v19 : W1 m c (Proc.devRef .tc main_v19) = (broadcastInDim S512 ![] bcast_S_S512 : (⟨S_, .f32⟩ : BufTy).Contents (Elt F) → (⟨S512, .f32⟩ : BufTy).Contents (Elt F)) (W1 m c (Proc.devRef .tc main_cst_3)) := by
  dsimp only [W1, hostOps0]
  after_results_simp <;> (try simp only [StableHlo.TRef.ofBuf, StableHlo.TRef.toBuf, cast_eq]) <;> (try rfl)
theorem kd_main_v19 : W63 m c (Proc.devRef .tc main_v19) = (broadcastInDim S512 ![] bcast_S_S512 : (⟨S_, .f32⟩ : BufTy).Contents (Elt F) → (⟨S512, .f32⟩ : BufTy).Contents (Elt F)) (W63 m c (Proc.devRef .tc main_cst_3)) := by
  rw [frame1 m c main_v19 (by decide), frame1 m c main_cst_3 (by decide)]; exact kd0_main_v19 m c
theorem kd0_main_v20 : W1 m c (Proc.devRef .tc main_v20) = shapeCast S1x512 (W1 m c (Proc.devRef .tc main_v19)) shapeCasts_S512_S1x512 := by
  dsimp only [W1, hostOps0]
  after_results_simp <;> (try simp only [StableHlo.TRef.ofBuf, StableHlo.TRef.toBuf, cast_eq]) <;> (try rfl)
theorem kd_main_v20 : W63 m c (Proc.devRef .tc main_v20) = shapeCast S1x512 (W63 m c (Proc.devRef .tc main_v19)) shapeCasts_S512_S1x512 := by
  rw [frame1 m c main_v20 (by decide), frame1 m c main_v19 (by decide)]; exact kd0_main_v20 m c
theorem kd0_main_v22 : W3 m c (Proc.devRef .tc main_v22) = (iotaInDim S10000 32 0) := by
  dsimp only [W3, hostOps1]
  after_results_simp <;> (try simp only [StableHlo.TRef.ofBuf, StableHlo.TRef.toBuf, cast_eq]) <;> (try rfl)
theorem kd_main_v22 : W63 m c (Proc.devRef .tc main_v22) = (iotaInDim S10000 32 0) := by
  rw [frame3 m c main_v22 (by decide)]; exact kd0_main_v22 m c
theorem kd0_main_v23 : W3 m c (Proc.devRef .tc main_v23) = ((extractStridedSlice S1x320000 ![1, 0] · slices_S2x320000_S1x320000_1_0) : (⟨S2x320000, .i32⟩ : BufTy).Contents (Elt F) → (⟨S1x320000, .i32⟩ : BufTy).Contents (Elt F)) (W3 m c (Proc.devRef .tc main_arg1)) := by
  dsimp only [W3, hostOps1]
  after_results_simp <;> (try simp only [StableHlo.TRef.ofBuf, StableHlo.TRef.toBuf, cast_eq]) <;> (try rfl)
theorem kd_main_v23 : W63 m c (Proc.devRef .tc main_v23) = ((extractStridedSlice S1x320000 ![1, 0] · slices_S2x320000_S1x320000_1_0) : (⟨S2x320000, .i32⟩ : BufTy).Contents (Elt F) → (⟨S1x320000, .i32⟩ : BufTy).Contents (Elt F)) (W63 m c (Proc.devRef .tc main_arg1)) := by
  rw [frame3 m c main_v23 (by decide), frame3 m c main_arg1 (by decide)]; exact kd0_main_v23 m c
theorem kd0_main_v24 : W3 m c (Proc.devRef .tc main_v24) = shapeCast S320000 (W3 m c (Proc.devRef .tc main_v23)) shapeCasts_S1x320000_S320000 := by
  dsimp only [W3, hostOps1]
  after_results_simp <;> (try simp only [StableHlo.TRef.ofBuf, StableHlo.TRef.toBuf, cast_eq]) <;> (try rfl)
theorem kd_main_v24 : W63 m c (Proc.devRef .tc main_v24) = shapeCast S320000 (W63 m c (Proc.devRef .tc main_v23)) shapeCasts_S1x320000_S320000 := by
  rw [frame3 m c main_v24 (by decide), frame3 m c main_v23 (by decide)]; exact kd0_main_v24 m c
theorem kd0_main_v25 : W3 m c (Proc.devRef .tc main_v25) = ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) (W3 m c (Proc.devRef .tc main_v24)) (W3 m c (Proc.devRef .tc main_v22)) := by
  dsimp only [W3, hostOps1]
  after_results_simp <;> (try simp only [StableHlo.TRef.ofBuf, StableHlo.TRef.toBuf, cast_eq]) <;> (try rfl)
theorem kd_main_v25 : W63 m c (Proc.devRef .tc main_v25) = ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) (W63 m c (Proc.devRef .tc main_v24)) (W63 m c (Proc.devRef .tc main_v22)) := by
  rw [frame3 m c main_v25 (by decide), frame3 m c main_v24 (by decide), frame3 m c main_v22 (by decide)]; exact kd0_main_v25 m c
theorem kd0_main_cst_4 : W3 m c (Proc.devRef .tc main_cst_4) = (constant S_ .f32 0x3F800000#32) := by
  dsimp only [W3, hostOps1]
  after_results_simp <;> (try simp only [StableHlo.TRef.ofBuf, StableHlo.TRef.toBuf, cast_eq]) <;> (try rfl)
theorem kd_main_cst_4 : W63 m c (Proc.devRef .tc main_cst_4) = (constant S_ .f32 0x3F800000#32) := by
  rw [frame3 m c main_cst_4 (by decide)]; exact kd0_main_cst_4 m c
theorem kd0_main_v26 : W3 m c (Proc.devRef .tc main_v26) = (broadcastInDim S10000 ![] bcast_S_S10000 : (⟨S_, .f32⟩ : BufTy).Contents (Elt F) → (⟨S10000, .f32⟩ : BufTy).Contents (Elt F)) (W3 m c (Proc.devRef .tc main_cst_4)) := by
  dsimp only [W3, hostOps1]
  after_results_simp <;> (try simp only [StableHlo.TRef.ofBuf, StableHlo.TRef.toBuf, cast_eq]) <;> (try rfl)
theorem kd_main_v26 : W63 m c (Proc.devRef .tc main_v26) = (broadcastInDim S10000 ![] bcast_S_S10000 : (⟨S_, .f32⟩ : BufTy).Contents (Elt F) → (⟨S10000, .f32⟩ : BufTy).Contents (Elt F)) (W63 m c (Proc.devRef .tc main_cst_4)) := by
  rw [frame3 m c main_v26 (by decide), frame3 m c main_cst_4 (by decide)]; exact kd0_main_v26 m c
theorem kd0_main_v27 : W3 m c (Proc.devRef .tc main_v27) = ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F)) (W3 m c (Proc.devRef .tc main_arg2)) (W3 m c (Proc.devRef .tc main_v26)) := by
  dsimp only [W3, hostOps1]
  after_results_simp <;> (try simp only [StableHlo.TRef.ofBuf, StableHlo.TRef.toBuf, cast_eq]) <;> (try rfl)
theorem kd_main_v27 : W63 m c (Proc.devRef .tc main_v27) = ((fun a b => concatenate S330000 0 [⟨S320000, a⟩, ⟨S10000, b⟩] concatenates_S320000_S10000_S330000_d0) : (⟨S320000, .f32⟩ : BufTy).Contents (Elt F) → (⟨S10000, .f32⟩ : BufTy).Contents (Elt F) → (⟨S330000, .f32⟩ : BufTy).Contents (Elt F)) (W63 m c (Proc.devRef .tc main_arg2)) (W63 m c (Proc.devRef .tc main_v26)) := by
  rw [frame3 m c main_v27 (by decide), frame3 m c main_arg2 (by decide), frame3 m c main_v26 (by decide)]; exact kd0_main_v27 m c
theorem kd0_main_cst_5 : W3 m c (Proc.devRef .tc main_cst_5) = (constant S_ .f32 0x00000000#32) := by
  dsimp only [W3, hostOps1]
  after_results_simp <;> (try simp only [StableHlo.TRef.ofBuf, StableHlo.TRef.toBuf, cast_eq]) <;> (try rfl)
theorem kd_main_cst_5 : W63 m c (Proc.devRef .tc main_cst_5) = (constant S_ .f32 0x00000000#32) := by
  rw [frame3 m c main_cst_5 (by decide)]; exact kd0_main_cst_5 m c
theorem kd0_main_v28 : W3 m c (Proc.devRef .tc main_v28) = (broadcastInDim S10000 ![] bcast_S_S10000 : (⟨S_, .f32⟩ : BufTy).Contents (Elt F) → (⟨S10000, .f32⟩ : BufTy).Contents (Elt F)) (W3 m c (Proc.devRef .tc main_cst_5)) := by
  dsimp only [W3, hostOps1]
  after_results_simp <;> (try simp only [StableHlo.TRef.ofBuf, StableHlo.TRef.toBuf, cast_eq]) <;> (try rfl)
theorem kd_main_v28 : W63 m c (Proc.devRef .tc main_v28) = (broadcastInDim S10000 ![] bcast_S_S10000 : (⟨S_, .f32⟩ : BufTy).Contents (Elt F) → (⟨S10000, .f32⟩ : BufTy).Contents (Elt F)) (W63 m c (Proc.devRef .tc main_cst_5)) := by
  rw [frame3 m c main_v28 (by decide), frame3 m c main_cst_5 (by decide)]; exact kd0_main_v28 m c
theorem kd0_main_v29 : W3 m c (Proc.devRef .tc main_v29) = (broadcastInDim S330000x1 ![0] bcast_S330000_S330000x1_0 : (⟨S330000, .i32⟩ : BufTy).Contents (Elt F) → (⟨S330000x1, .i32⟩ : BufTy).Contents (Elt F)) (W3 m c (Proc.devRef .tc main_v25)) := by
  dsimp only [W3, hostOps1]
  after_results_simp <;> (try simp only [StableHlo.TRef.ofBuf, StableHlo.TRef.toBuf, cast_eq]) <;> (try rfl)
theorem kd_main_v29 : W63 m c (Proc.devRef .tc main_v29) = (broadcastInDim S330000x1 ![0] bcast_S330000_S330000x1_0 : (⟨S330000, .i32⟩ : BufTy).Contents (Elt F) → (⟨S330000x1, .i32⟩ : BufTy).Contents (Elt F)) (W63 m c (Proc.devRef .tc main_v25)) := by
  rw [frame3 m c main_v29 (by decide), frame3 m c main_v25 (by decide)]; exact kd0_main_v29 m c
theorem kd0_main_v30 : W3 m c (Proc.devRef .tc main_v30) = ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)) (W3 m c (Proc.devRef .tc main_v28)) (W3 m c (Proc.devRef .tc main_v29)) (W3 m c (Proc.devRef .tc main_v27)) := by
  dsimp only [W3, hostOps1]
  after_results_simp <;> (try simp only [StableHlo.TRef.ofBuf, StableHlo.TRef.toBuf, cast_eq]) <;> (try rfl)
theorem kd_main_v30 : W63 m c (Proc.devRef .tc main_v30) = ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)) (W63 m c (Proc.devRef .tc main_v28)) (W63 m c (Proc.devRef .tc main_v29)) (W63 m c (Proc.devRef .tc main_v27)) := by
  rw [frame3 m c main_v30 (by decide), frame3 m c main_v28 (by decide), frame3 m c main_v29 (by decide), frame3 m c main_v27 (by decide)]; exact kd0_main_v30 m c
theorem kd0_main_cst_6 : W3 m c (Proc.devRef .tc main_cst_6) = (constant S_ .f32 0x00000000#32) := by
  dsimp only [W3, hostOps1]
  after_results_simp <;> (try simp only [StableHlo.TRef.ofBuf, StableHlo.TRef.toBuf, cast_eq]) <;> (try rfl)
theorem kd_main_cst_6 : W63 m c (Proc.devRef .tc main_cst_6) = (constant S_ .f32 0x00000000#32) := by
  rw [frame3 m c main_cst_6 (by decide)]; exact kd0_main_cst_6 m c
theorem kd0_main_v31 : W3 m c (Proc.devRef .tc main_v31) = (broadcastInDim S10000 ![] bcast_S_S10000 : (⟨S_, .f32⟩ : BufTy).Contents (Elt F) → (⟨S10000, .f32⟩ : BufTy).Contents (Elt F)) (W3 m c (Proc.devRef .tc main_cst_6)) := by
  dsimp only [W3, hostOps1]
  after_results_simp <;> (try simp only [StableHlo.TRef.ofBuf, StableHlo.TRef.toBuf, cast_eq]) <;> (try rfl)
theorem kd_main_v31 : W63 m c (Proc.devRef .tc main_v31) = (broadcastInDim S10000 ![] bcast_S_S10000 : (⟨S_, .f32⟩ : BufTy).Contents (Elt F) → (⟨S10000, .f32⟩ : BufTy).Contents (Elt F)) (W63 m c (Proc.devRef .tc main_cst_6)) := by
  rw [frame3 m c main_v31 (by decide), frame3 m c main_cst_6 (by decide)]; exact kd0_main_v31 m c
theorem kd0_main_v32 : W3 m c (Proc.devRef .tc main_v32) = (cmpf .ogt : (⟨S10000, .f32⟩ : BufTy).Contents (Elt F) → (⟨S10000, .f32⟩ : BufTy).Contents (Elt F) → (⟨S10000, .i1⟩ : BufTy).Contents (Elt F)) (W3 m c (Proc.devRef .tc main_v30)) (W3 m c (Proc.devRef .tc main_v31)) := by
  dsimp only [W3, hostOps1]
  after_results_simp <;> (try simp only [StableHlo.TRef.ofBuf, StableHlo.TRef.toBuf, cast_eq]) <;> (try rfl)
theorem kd_main_v32 : W63 m c (Proc.devRef .tc main_v32) = (cmpf .ogt : (⟨S10000, .f32⟩ : BufTy).Contents (Elt F) → (⟨S10000, .f32⟩ : BufTy).Contents (Elt F) → (⟨S10000, .i1⟩ : BufTy).Contents (Elt F)) (W63 m c (Proc.devRef .tc main_v30)) (W63 m c (Proc.devRef .tc main_v31)) := by
  rw [frame3 m c main_v32 (by decide), frame3 m c main_v30 (by decide), frame3 m c main_v31 (by decide)]; exact kd0_main_v32 m c
theorem kd0_main_v33 : W3 m c (Proc.devRef .tc main_v33) = (Host.rsqrt : (⟨S10000, .f32⟩ : BufTy).Contents (Elt F) → (⟨S10000, .f32⟩ : BufTy).Contents (Elt F)) (W3 m c (Proc.devRef .tc main_v30)) := by
  dsimp only [W3, hostOps1]
  after_results_simp <;> (try simp only [StableHlo.TRef.ofBuf, StableHlo.TRef.toBuf, cast_eq]) <;> (try rfl)
theorem kd_main_v33 : W63 m c (Proc.devRef .tc main_v33) = (Host.rsqrt : (⟨S10000, .f32⟩ : BufTy).Contents (Elt F) → (⟨S10000, .f32⟩ : BufTy).Contents (Elt F)) (W63 m c (Proc.devRef .tc main_v30)) := by
  rw [frame3 m c main_v33 (by decide), frame3 m c main_v30 (by decide)]; exact kd0_main_v33 m c
theorem kd0_main_cst_7 : W3 m c (Proc.devRef .tc main_cst_7) = (constant S_ .f32 0x00000000#32) := by
  dsimp only [W3, hostOps1]
  after_results_simp <;> (try simp only [StableHlo.TRef.ofBuf, StableHlo.TRef.toBuf, cast_eq]) <;> (try rfl)
theorem kd_main_cst_7 : W63 m c (Proc.devRef .tc main_cst_7) = (constant S_ .f32 0x00000000#32) := by
  rw [frame3 m c main_cst_7 (by decide)]; exact kd0_main_cst_7 m c
theorem kd0_main_call0_v0 : W4 m c (Proc.devRef .tc main_call0_v0) = (id : (⟨S_, .f32⟩ : BufTy).Contents (Elt F) → (⟨S_, .f32⟩ : BufTy).Contents (Elt F)) (W4 m c (Proc.devRef .tc main_cst_7)) := by
  dsimp only [W4, hostOps1_1]
  after_results_simp <;> (try simp only [StableHlo.TRef.ofBuf, StableHlo.TRef.toBuf, cast_eq]) <;> (try rfl)
theorem kd_main_call0_v0 : W63 m c (Proc.devRef .tc main_call0_v0) = (id : (⟨S_, .f32⟩ : BufTy).Contents (Elt F) → (⟨S_, .f32⟩ : BufTy).Contents (Elt F)) (W63 m c (Proc.devRef .tc main_cst_7)) := by
  rw [frame4 m c main_call0_v0 (by decide), frame4 m c main_cst_7 (by decide)]; exact kd0_main_call0_v0 m c
theorem kd0_main_call0_v1 : W4 m c (Proc.devRef .tc main_call0_v1) = ((broadcastInDim S10000 ![] bcast_S_S10000) : (⟨S_, .f32⟩ : BufTy).Contents (Elt F) → (⟨S10000, .f32⟩ : BufTy).Contents (Elt F)) (W4 m c (Proc.devRef .tc main_call0_v0)) := by
  dsimp only [W4, hostOps1_1]
  after_results_simp <;> (try simp only [StableHlo.TRef.ofBuf, StableHlo.TRef.toBuf, cast_eq]) <;> (try rfl)
theorem kd_main_call0_v1 : W63 m c (Proc.devRef .tc main_call0_v1) = ((broadcastInDim S10000 ![] bcast_S_S10000) : (⟨S_, .f32⟩ : BufTy).Contents (Elt F) → (⟨S10000, .f32⟩ : BufTy).Contents (Elt F)) (W63 m c (Proc.devRef .tc main_call0_v0)) := by
  rw [frame4 m c main_call0_v1 (by decide), frame4 m c main_call0_v0 (by decide)]; exact kd0_main_call0_v1 m c
theorem kd0_main_v34 : W4 m c (Proc.devRef .tc main_v34) = (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)) (W4 m c (Proc.devRef .tc main_v32)) (W4 m c (Proc.devRef .tc main_v33)) (W4 m c (Proc.devRef .tc main_call0_v1)) := by
  dsimp only [W4, hostOps1_1]
  after_results_simp <;> (try simp only [StableHlo.TRef.ofBuf, StableHlo.TRef.toBuf, cast_eq]) <;> (try rfl)
theorem kd_main_v34 : W63 m c (Proc.devRef .tc main_v34) = (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)) (W63 m c (Proc.devRef .tc main_v32)) (W63 m c (Proc.devRef .tc main_v33)) (W63 m c (Proc.devRef .tc main_call0_v1)) := by
  rw [frame4 m c main_v34 (by decide), frame4 m c main_v32 (by decide), frame4 m c main_v33 (by decide), frame4 m c main_call0_v1 (by decide)]; exact kd0_main_v34 m c
theorem kd0_main_v35 : W5 m c (Proc.devRef .tc main_v35) = (broadcastInDim S10000x1 ![0] bcast_S10000_S10000x1_0 : (⟨S10000, .f32⟩ : BufTy).Contents (Elt F) → (⟨S10000x1, .f32⟩ : BufTy).Contents (Elt F)) (W5 m c (Proc.devRef .tc main_v34)) := by
  dsimp only [W5, hostOps1_2]
  after_results_simp <;> (try simp only [StableHlo.TRef.ofBuf, StableHlo.TRef.toBuf, cast_eq]) <;> (try rfl)
theorem kd_main_v35 : W63 m c (Proc.devRef .tc main_v35) = (broadcastInDim S10000x1 ![0] bcast_S10000_S10000x1_0 : (⟨S10000, .f32⟩ : BufTy).Contents (Elt F) → (⟨S10000x1, .f32⟩ : BufTy).Contents (Elt F)) (W63 m c (Proc.devRef .tc main_v34)) := by
  rw [frame5 m c main_v35 (by decide), frame5 m c main_v34 (by decide)]; exact kd0_main_v35 m c
theorem kd0_main_v36 : W5 m c (Proc.devRef .tc main_v36) = (broadcastInDim S10000x512 ![0, 1] bcast_S10000x1_S10000x512_0_1 : (⟨S10000x1, .f32⟩ : BufTy).Contents (Elt F) → (⟨S10000x512, .f32⟩ : BufTy).Contents (Elt F)) (W5 m c (Proc.devRef .tc main_v35)) := by
  dsimp only [W5, hostOps1_2]
  after_results_simp <;> (try simp only [StableHlo.TRef.ofBuf, StableHlo.TRef.toBuf, cast_eq]) <;> (try rfl)
theorem kd_main_v36 : W63 m c (Proc.devRef .tc main_v36) = (broadcastInDim S10000x512 ![0, 1] bcast_S10000x1_S10000x512_0_1 : (⟨S10000x1, .f32⟩ : BufTy).Contents (Elt F) → (⟨S10000x512, .f32⟩ : BufTy).Contents (Elt F)) (W63 m c (Proc.devRef .tc main_v35)) := by
  rw [frame5 m c main_v36 (by decide), frame5 m c main_v35 (by decide)]; exact kd0_main_v36 m c
theorem kd0_main_v37 : W5 m c (Proc.devRef .tc main_v37) = (mulf : (⟨S10000x512, .f32⟩ : BufTy).Contents (Elt F) → (⟨S10000x512, .f32⟩ : BufTy).Contents (Elt F) → (⟨S10000x512, .f32⟩ : BufTy).Contents (Elt F)) (W5 m c (Proc.devRef .tc main_v36)) (W5 m c (Proc.devRef .tc main_v21)) := by
  dsimp only [W5, hostOps1_2]
  after_results_simp <;> (try simp only [StableHlo.TRef.ofBuf, StableHlo.TRef.toBuf, cast_eq]) <;> (try rfl)
theorem kd_main_v37 : W63 m c (Proc.devRef .tc main_v37) = (mulf : (⟨S10000x512, .f32⟩ : BufTy).Contents (Elt F) → (⟨S10000x512, .f32⟩ : BufTy).Contents (Elt F) → (⟨S10000x512, .f32⟩ : BufTy).Contents (Elt F)) (W63 m c (Proc.devRef .tc main_v36)) (W63 m c (Proc.devRef .tc main_v21)) := by
  rw [frame5 m c main_v37 (by decide), frame5 m c main_v36 (by decide), frame5 m c main_v21 (by decide)]; exact kd0_main_v37 m c
theorem kd0_main_c_8 : W5 m c (Proc.devRef .tc main_c_8) = (constantI S_ 32 0#32) := by
  dsimp only [W5, hostOps1_2]
  after_results_simp <;> (try simp only [StableHlo.TRef.ofBuf, StableHlo.TRef.toBuf, cast_eq]) <;> (try rfl)
theorem kd_main_c_8 : W63 m c (Proc.devRef .tc main_c_8) = (constantI S_ 32 0#32) := by
  rw [frame5 m c main_c_8 (by decide)]; exact kd0_main_c_8 m c
theorem kd0_main_call1_v0 : W6 m c (Proc.devRef .tc main_call1_v0) = ((sitofp .f32) : (⟨S_, .i32⟩ : BufTy).Contents (Elt F) → (⟨S_, .f32⟩ : BufTy).Contents (Elt F)) (W6 m c (Proc.devRef .tc main_c_8)) := by
  dsimp only [W6, hostOps1_3]
  after_results_simp <;> (try simp only [StableHlo.TRef.ofBuf, StableHlo.TRef.toBuf, cast_eq]) <;> (try rfl)
theorem kd_main_call1_v0 : W63 m c (Proc.devRef .tc main_call1_v0) = ((sitofp .f32) : (⟨S_, .i32⟩ : BufTy).Contents (Elt F) → (⟨S_, .f32⟩ : BufTy).Contents (Elt F)) (W63 m c (Proc.devRef .tc main_c_8)) := by
  rw [frame6 m c main_call1_v0 (by decide), frame6 m c main_c_8 (by decide)]; exact kd0_main_call1_v0 m c
theorem kd0_main_v38 : W6 m c (Proc.devRef .tc main_v38) = ((fun x v => pad S10240x512 ![0, 0] ![240, 0] ![0, 0] x v pads_S10000x512_S10240x512_02400_000 h_S_) : (⟨S10000x512, .f32⟩ : BufTy).Contents (Elt F) → (⟨S_, .f32⟩ : BufTy).Contents (Elt F) → (⟨S10240x512, .f32⟩ : BufTy).Contents (Elt F)) (W6 m c (Proc.devRef .tc main_v37)) (W6 m c (Proc.devRef .tc main_call1_v0)) := by
  dsimp only [W6, hostOps1_3]
  after_results_simp <;> (try simp only [StableHlo.TRef.ofBuf, StableHlo.TRef.toBuf, cast_eq]) <;> (try rfl)
theorem kd_main_v38 : W63 m c (Proc.devRef .tc main_v38) = ((fun x v => pad S10240x512 ![0, 0] ![240, 0] ![0, 0] x v pads_S10000x512_S10240x512_02400_000 h_S_) : (⟨S10000x512, .f32⟩ : BufTy).Contents (Elt F) → (⟨S_, .f32⟩ : BufTy).Contents (Elt F) → (⟨S10240x512, .f32⟩ : BufTy).Contents (Elt F)) (W63 m c (Proc.devRef .tc main_v37)) (W63 m c (Proc.devRef .tc main_call1_v0)) := by
  rw [frame6 m c main_v38 (by decide), frame6 m c main_v37 (by decide), frame6 m c main_call1_v0 (by decide)]; exact kd0_main_v38 m c

end Cert.KernelIdeal.Hand

end
-- ==== Proof.KI.Reads1.lean ====
/- What each host operation of @main leaves in its result buffer, read at the last boundary's contents: the operation's
   function of its operands' contents there (every buffer is written once). Stretches: hostOps2, hostOps2_1, hostOps2_2, hostOps3, hostOps3_1, hostOps3_2, hostOps3_3, hostOps3_4, hostOps4, hostOps7, hostOps7_1, hostOps7_2. -/
import proofs.«405323_j90718299226206_3_alg».proof.Proof.KI.Frames

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem kd0_main_v40 : W8 m c (Proc.devRef .tc main_v40) = (broadcastInDim S10000x1 ![0] bcast_S10000_S10000x1_0 : (⟨S10000, .f32⟩ : BufTy).Contents (Elt F) → (⟨S10000x1, .f32⟩ : BufTy).Contents (Elt F)) (W8 m c (Proc.devRef .tc main_v34)) := by
  dsimp only [W8, hostOps2]
  after_results_simp <;> (try simp only [StableHlo.TRef.ofBuf, StableHlo.TRef.toBuf, cast_eq]) <;> (try rfl)
theorem kd_main_v40 : W63 m c (Proc.devRef .tc main_v40) = (broadcastInDim S10000x1 ![0] bcast_S10000_S10000x1_0 : (⟨S10000, .f32⟩ : BufTy).Contents (Elt F) → (⟨S10000x1, .f32⟩ : BufTy).Contents (Elt F)) (W63 m c (Proc.devRef .tc main_v34)) := by
  rw [frame8 m c main_v40 (by decide), frame8 m c main_v34 (by decide)]; exact kd0_main_v40 m c
theorem kd0_main_v41 : W8 m c (Proc.devRef .tc main_v41) = ((extractStridedSlice S10000x512 ![0, 0] · slices_S10240x512_S10000x512_0_0) : (⟨S10240x512, .f32⟩ : BufTy).Contents (Elt F) → (⟨S10000x512, .f32⟩ : BufTy).Contents (Elt F)) (W8 m c (Proc.devRef .tc main_v39)) := by
  dsimp only [W8, hostOps2]
  after_results_simp <;> (try simp only [StableHlo.TRef.ofBuf, StableHlo.TRef.toBuf, cast_eq]) <;> (try rfl)
theorem kd_main_v41 : W63 m c (Proc.devRef .tc main_v41) = ((extractStridedSlice S10000x512 ![0, 0] · slices_S10240x512_S10000x512_0_0) : (⟨S10240x512, .f32⟩ : BufTy).Contents (Elt F) → (⟨S10000x512, .f32⟩ : BufTy).Contents (Elt F)) (W63 m c (Proc.devRef .tc main_v39)) := by
  rw [frame8 m c main_v41 (by decide), frame8 m c main_v39 (by decide)]; exact kd0_main_v41 m c
theorem kd0_main_v42 : W8 m c (Proc.devRef .tc main_v42) = (broadcastInDim S10000x512 ![0, 1] bcast_S10000x1_S10000x512_0_1 : (⟨S10000x1, .f32⟩ : BufTy).Contents (Elt F) → (⟨S10000x512, .f32⟩ : BufTy).Contents (Elt F)) (W8 m c (Proc.devRef .tc main_v40)) := by
  dsimp only [W8, hostOps2]
  after_results_simp <;> (try simp only [StableHlo.TRef.ofBuf, StableHlo.TRef.toBuf, cast_eq]) <;> (try rfl)
theorem kd_main_v42 : W63 m c (Proc.devRef .tc main_v42) = (broadcastInDim S10000x512 ![0, 1] bcast_S10000x1_S10000x512_0_1 : (⟨S10000x1, .f32⟩ : BufTy).Contents (Elt F) → (⟨S10000x512, .f32⟩ : BufTy).Contents (Elt F)) (W63 m c (Proc.devRef .tc main_v40)) := by
  rw [frame8 m c main_v42 (by decide), frame8 m c main_v40 (by decide)]; exact kd0_main_v42 m c
theorem kd0_main_v43 : W8 m c (Proc.devRef .tc main_v43) = (mulf : (⟨S10000x512, .f32⟩ : BufTy).Contents (Elt F) → (⟨S10000x512, .f32⟩ : BufTy).Contents (Elt F) → (⟨S10000x512, .f32⟩ : BufTy).Contents (Elt F)) (W8 m c (Proc.devRef .tc main_v42)) (W8 m c (Proc.devRef .tc main_v41)) := by
  dsimp only [W8, hostOps2]
  after_results_simp <;> (try simp only [StableHlo.TRef.ofBuf, StableHlo.TRef.toBuf, cast_eq]) <;> (try rfl)
theorem kd_main_v43 : W63 m c (Proc.devRef .tc main_v43) = (mulf : (⟨S10000x512, .f32⟩ : BufTy).Contents (Elt F) → (⟨S10000x512, .f32⟩ : BufTy).Contents (Elt F) → (⟨S10000x512, .f32⟩ : BufTy).Contents (Elt F)) (W63 m c (Proc.devRef .tc main_v42)) (W63 m c (Proc.devRef .tc main_v41)) := by
  rw [frame8 m c main_v43 (by decide), frame8 m c main_v42 (by decide), frame8 m c main_v41 (by decide)]; exact kd0_main_v43 m c
theorem kd0_main_v44 : W8 m c (Proc.devRef .tc main_v44) = (mulf : (⟨S10000, .f32⟩ : BufTy).Contents (Elt F) → (⟨S10000, .f32⟩ : BufTy).Contents (Elt F) → (⟨S10000, .f32⟩ : BufTy).Contents (Elt F)) (W8 m c (Proc.devRef .tc main_v34)) (W8 m c (Proc.devRef .tc main_v34)) := by
  dsimp only [W8, hostOps2]
  after_results_simp <;> (try simp only [StableHlo.TRef.ofBuf, StableHlo.TRef.toBuf, cast_eq]) <;> (try rfl)
theorem kd_main_v44 : W63 m c (Proc.devRef .tc main_v44) = (mulf : (⟨S10000, .f32⟩ : BufTy).Contents (Elt F) → (⟨S10000, .f32⟩ : BufTy).Contents (Elt F) → (⟨S10000, .f32⟩ : BufTy).Contents (Elt F)) (W63 m c (Proc.devRef .tc main_v34)) (W63 m c (Proc.devRef .tc main_v34)) := by
  rw [frame8 m c main_v44 (by decide), frame8 m c main_v34 (by decide)]; exact kd0_main_v44 m c
theorem kd0_main_v45 : W8 m c (Proc.devRef .tc main_v45) = (broadcastInDim S10000x1 ![0] bcast_S10000_S10000x1_0 : (⟨S10000, .f32⟩ : BufTy).Contents (Elt F) → (⟨S10000x1, .f32⟩ : BufTy).Contents (Elt F)) (W8 m c (Proc.devRef .tc main_v44)) := by
  dsimp only [W8, hostOps2]
  after_results_simp <;> (try simp only [StableHlo.TRef.ofBuf, StableHlo.TRef.toBuf, cast_eq]) <;> (try rfl)
theorem kd_main_v45 : W63 m c (Proc.devRef .tc main_v45) = (broadcastInDim S10000x1 ![0] bcast_S10000_S10000x1_0 : (⟨S10000, .f32⟩ : BufTy).Contents (Elt F) → (⟨S10000x1, .f32⟩ : BufTy).Contents (Elt F)) (W63 m c (Proc.devRef .tc main_v44)) := by
  rw [frame8 m c main_v45 (by decide), frame8 m c main_v44 (by decide)]; exact kd0_main_v45 m c
theorem kd0_main_v46 : W8 m c (Proc.devRef .tc main_v46) = (broadcastInDim S10000x512 ![0, 1] bcast_S10000x1_S10000x512_0_1 : (⟨S10000x1, .f32⟩ : BufTy).Contents (Elt F) → (⟨S10000x512, .f32⟩ : BufTy).Contents (Elt F)) (W8 m c (Proc.devRef .tc main_v45)) := by
  dsimp only [W8, hostOps2]
  after_results_simp <;> (try simp only [StableHlo.TRef.ofBuf, StableHlo.TRef.toBuf, cast_eq]) <;> (try rfl)
theorem kd_main_v46 : W63 m c (Proc.devRef .tc main_v46) = (broadcastInDim S10000x512 ![0, 1] bcast_S10000x1_S10000x512_0_1 : (⟨S10000x1, .f32⟩ : BufTy).Contents (Elt F) → (⟨S10000x512, .f32⟩ : BufTy).Contents (Elt F)) (W63 m c (Proc.devRef .tc main_v45)) := by
  rw [frame8 m c main_v46 (by decide), frame8 m c main_v45 (by decide)]; exact kd0_main_v46 m c
theorem kd0_main_v47 : W8 m c (Proc.devRef .tc main_v47) = (mulf : (⟨S10000x512, .f32⟩ : BufTy).Contents (Elt F) → (⟨S10000x512, .f32⟩ : BufTy).Contents (Elt F) → (⟨S10000x512, .f32⟩ : BufTy).Contents (Elt F)) (W8 m c (Proc.devRef .tc main_v46)) (W8 m c (Proc.devRef .tc main_v21)) := by
  dsimp only [W8, hostOps2]
  after_results_simp <;> (try simp only [StableHlo.TRef.ofBuf, StableHlo.TRef.toBuf, cast_eq]) <;> (try rfl)
theorem kd_main_v47 : W63 m c (Proc.devRef .tc main_v47) = (mulf : (⟨S10000x512, .f32⟩ : BufTy).Contents (Elt F) → (⟨S10000x512, .f32⟩ : BufTy).Contents (Elt F) → (⟨S10000x512, .f32⟩ : BufTy).Contents (Elt F)) (W63 m c (Proc.devRef .tc main_v46)) (W63 m c (Proc.devRef .tc main_v21)) := by
  rw [frame8 m c main_v47 (by decide), frame8 m c main_v46 (by decide), frame8 m c main_v21 (by decide)]; exact kd0_main_v47 m c
theorem kd0_main_v48 : W8 m c (Proc.devRef .tc main_v48) = (addf : (⟨S10000x512, .f32⟩ : BufTy).Contents (Elt F) → (⟨S10000x512, .f32⟩ : BufTy).Contents (Elt F) → (⟨S10000x512, .f32⟩ : BufTy).Contents (Elt F)) (W8 m c (Proc.devRef .tc main_v43)) (W8 m c (Proc.devRef .tc main_v47)) := by
  dsimp only [W8, hostOps2]
  after_results_simp <;> (try simp only [StableHlo.TRef.ofBuf, StableHlo.TRef.toBuf, cast_eq]) <;> (try rfl)
theorem kd_main_v48 : W63 m c (Proc.devRef .tc main_v48) = (addf : (⟨S10000x512, .f32⟩ : BufTy).Contents (Elt F) → (⟨S10000x512, .f32⟩ : BufTy).Contents (Elt F) → (⟨S10000x512, .f32⟩ : BufTy).Contents (Elt F)) (W63 m c (Proc.devRef .tc main_v43)) (W63 m c (Proc.devRef .tc main_v47)) := by
  rw [frame8 m c main_v48 (by decide), frame8 m c main_v43 (by decide), frame8 m c main_v47 (by decide)]; exact kd0_main_v48 m c
theorem kd0_main_v49 : W8 m c (Proc.devRef .tc main_v49) = (broadcastInDim S1x512 ![1] bcast_S512_S1x512_1 : (⟨S512, .f32⟩ : BufTy).Contents (Elt F) → (⟨S1x512, .f32⟩ : BufTy).Contents (Elt F)) (W8 m c (Proc.devRef .tc main_arg4)) := by
  dsimp only [W8, hostOps2]
  after_results_simp <;> (try simp only [StableHlo.TRef.ofBuf, StableHlo.TRef.toBuf, cast_eq]) <;> (try rfl)
theorem kd_main_v49 : W63 m c (Proc.devRef .tc main_v49) = (broadcastInDim S1x512 ![1] bcast_S512_S1x512_1 : (⟨S512, .f32⟩ : BufTy).Contents (Elt F) → (⟨S1x512, .f32⟩ : BufTy).Contents (Elt F)) (W63 m c (Proc.devRef .tc main_arg4)) := by
  rw [frame8 m c main_v49 (by decide), frame8 m c main_arg4 (by decide)]; exact kd0_main_v49 m c
theorem kd0_main_v50 : W8 m c (Proc.devRef .tc main_v50) = (broadcastInDim S10000x512 ![0, 1] bcast_S1x512_S10000x512_0_1 : (⟨S1x512, .f32⟩ : BufTy).Contents (Elt F) → (⟨S10000x512, .f32⟩ : BufTy).Contents (Elt F)) (W8 m c (Proc.devRef .tc main_v49)) := by
  dsimp only [W8, hostOps2]
  after_results_simp <;> (try simp only [StableHlo.TRef.ofBuf, StableHlo.TRef.toBuf, cast_eq]) <;> (try rfl)
theorem kd_main_v50 : W63 m c (Proc.devRef .tc main_v50) = (broadcastInDim S10000x512 ![0, 1] bcast_S1x512_S10000x512_0_1 : (⟨S1x512, .f32⟩ : BufTy).Contents (Elt F) → (⟨S10000x512, .f32⟩ : BufTy).Contents (Elt F)) (W63 m c (Proc.devRef .tc main_v49)) := by
  rw [frame8 m c main_v50 (by decide), frame8 m c main_v49 (by decide)]; exact kd0_main_v50 m c
theorem kd0_main_v51 : W8 m c (Proc.devRef .tc main_v51) = (addf : (⟨S10000x512, .f32⟩ : BufTy).Contents (Elt F) → (⟨S10000x512, .f32⟩ : BufTy).Contents (Elt F) → (⟨S10000x512, .f32⟩ : BufTy).Contents (Elt F)) (W8 m c (Proc.devRef .tc main_v48)) (W8 m c (Proc.devRef .tc main_v50)) := by
  dsimp only [W8, hostOps2]
  after_results_simp <;> (try simp only [StableHlo.TRef.ofBuf, StableHlo.TRef.toBuf, cast_eq]) <;> (try rfl)
theorem kd_main_v51 : W63 m c (Proc.devRef .tc main_v51) = (addf : (⟨S10000x512, .f32⟩ : BufTy).Contents (Elt F) → (⟨S10000x512, .f32⟩ : BufTy).Contents (Elt F) → (⟨S10000x512, .f32⟩ : BufTy).Contents (Elt F)) (W63 m c (Proc.devRef .tc main_v48)) (W63 m c (Proc.devRef .tc main_v50)) := by
  rw [frame8 m c main_v51 (by decide), frame8 m c main_v48 (by decide), frame8 m c main_v50 (by decide)]; exact kd0_main_v51 m c
theorem kd0_main_call2_cst : W9 m c (Proc.devRef .tc main_call2_cst) = ((constant S_ .f32 0x00000000#32) : (⟨S_, .f32⟩ : BufTy).Contents (Elt F)) := by
  dsimp only [W9, hostOps2_1]
  after_results_simp <;> (try simp only [StableHlo.TRef.ofBuf, StableHlo.TRef.toBuf, cast_eq]) <;> (try rfl)
theorem kd_main_call2_cst : W63 m c (Proc.devRef .tc main_call2_cst) = ((constant S_ .f32 0x00000000#32) : (⟨S_, .f32⟩ : BufTy).Contents (Elt F)) := by
  rw [frame9 m c main_call2_cst (by decide)]; exact kd0_main_call2_cst m c
theorem kd0_main_call2_v0 : W9 m c (Proc.devRef .tc main_call2_v0) = ((broadcastInDim S10000x512 ![] bcast_S_S10000x512) : (⟨S_, .f32⟩ : BufTy).Contents (Elt F) → (⟨S10000x512, .f32⟩ : BufTy).Contents (Elt F)) (W9 m c (Proc.devRef .tc main_call2_cst)) := by
  dsimp only [W9, hostOps2_1]
  after_results_simp <;> (try simp only [StableHlo.TRef.ofBuf, StableHlo.TRef.toBuf, cast_eq]) <;> (try rfl)
theorem kd_main_call2_v0 : W63 m c (Proc.devRef .tc main_call2_v0) = ((broadcastInDim S10000x512 ![] bcast_S_S10000x512) : (⟨S_, .f32⟩ : BufTy).Contents (Elt F) → (⟨S10000x512, .f32⟩ : BufTy).Contents (Elt F)) (W63 m c (Proc.devRef .tc main_call2_cst)) := by
  rw [frame9 m c main_call2_v0 (by decide), frame9 m c main_call2_cst (by decide)]; exact kd0_main_call2_v0 m c
theorem kd0_main_v52 : W9 m c (Proc.devRef .tc main_v52) = (maximumf : (⟨S10000x512, .f32⟩ : BufTy).Contents (Elt F) → (⟨S10000x512, .f32⟩ : BufTy).Contents (Elt F) → (⟨S10000x512, .f32⟩ : BufTy).Contents (Elt F)) (W9 m c (Proc.devRef .tc main_v51)) (W9 m c (Proc.devRef .tc main_call2_v0)) := by
  dsimp only [W9, hostOps2_1]
  after_results_simp <;> (try simp only [StableHlo.TRef.ofBuf, StableHlo.TRef.toBuf, cast_eq]) <;> (try rfl)
theorem kd_main_v52 : W63 m c (Proc.devRef .tc main_v52) = (maximumf : (⟨S10000x512, .f32⟩ : BufTy).Contents (Elt F) → (⟨S10000x512, .f32⟩ : BufTy).Contents (Elt F) → (⟨S10000x512, .f32⟩ : BufTy).Contents (Elt F)) (W63 m c (Proc.devRef .tc main_v51)) (W63 m c (Proc.devRef .tc main_call2_v0)) := by
  rw [frame9 m c main_v52 (by decide), frame9 m c main_v51 (by decide), frame9 m c main_call2_v0 (by decide)]; exact kd0_main_v52 m c
theorem kd0_main_v53 : W10 m c (Proc.devRef .tc main_v53) = shapeCast S1x1024 (W10 m c (Proc.devRef .tc main_arg6)) shapeCasts_S1024_S1x1024 := by
  dsimp only [W10, hostOps2_2]
  after_results_simp <;> (try simp only [StableHlo.TRef.ofBuf, StableHlo.TRef.toBuf, cast_eq]) <;> (try rfl)
theorem kd_main_v53 : W63 m c (Proc.devRef .tc main_v53) = shapeCast S1x1024 (W63 m c (Proc.devRef .tc main_arg6)) shapeCasts_S1024_S1x1024 := by
  rw [frame10 m c main_v53 (by decide), frame10 m c main_arg6 (by decide)]; exact kd0_main_v53 m c
theorem kd0_main_c_9 : W12 m c (Proc.devRef .tc main_c_9) = (constantI S_ 32 0#32) := by
  dsimp only [W12, hostOps3]
  after_results_simp <;> (try simp only [StableHlo.TRef.ofBuf, StableHlo.TRef.toBuf, cast_eq]) <;> (try rfl)
theorem kd_main_c_9 : W63 m c (Proc.devRef .tc main_c_9) = (constantI S_ 32 0#32) := by
  rw [frame12 m c main_c_9 (by decide)]; exact kd0_main_c_9 m c
theorem kd0_main_call3_v0 : W13 m c (Proc.devRef .tc main_call3_v0) = ((sitofp .bf16) : (⟨S_, .i32⟩ : BufTy).Contents (Elt F) → (⟨S_, .bf16⟩ : BufTy).Contents (Elt F)) (W13 m c (Proc.devRef .tc main_c_9)) := by
  dsimp only [W13, hostOps3_1]
  after_results_simp <;> (try simp only [StableHlo.TRef.ofBuf, StableHlo.TRef.toBuf, cast_eq]) <;> (try rfl)
theorem kd_main_call3_v0 : W63 m c (Proc.devRef .tc main_call3_v0) = ((sitofp .bf16) : (⟨S_, .i32⟩ : BufTy).Contents (Elt F) → (⟨S_, .bf16⟩ : BufTy).Contents (Elt F)) (W63 m c (Proc.devRef .tc main_c_9)) := by
  rw [frame13 m c main_call3_v0 (by decide), frame13 m c main_c_9 (by decide)]; exact kd0_main_call3_v0 m c
theorem kd0_main_v55 : W13 m c (Proc.devRef .tc main_v55) = ((fun x v => pad S10240x1024 ![0, 0] ![240, 0] ![0, 0] x v pads_S10000x1024_S10240x1024_02400_000 h_S_) : (⟨S10000x1024, .bf16⟩ : BufTy).Contents (Elt F) → (⟨S_, .bf16⟩ : BufTy).Contents (Elt F) → (⟨S10240x1024, .bf16⟩ : BufTy).Contents (Elt F)) (W13 m c (Proc.devRef .tc main_v54_1)) (W13 m c (Proc.devRef .tc main_call3_v0)) := by
  dsimp only [W13, hostOps3_1]
  after_results_simp <;> (try simp only [StableHlo.TRef.ofBuf, StableHlo.TRef.toBuf, cast_eq]) <;> (try rfl)
theorem kd_main_v55 : W63 m c (Proc.devRef .tc main_v55) = ((fun x v => pad S10240x1024 ![0, 0] ![240, 0] ![0, 0] x v pads_S10000x1024_S10240x1024_02400_000 h_S_) : (⟨S10000x1024, .bf16⟩ : BufTy).Contents (Elt F) → (⟨S_, .bf16⟩ : BufTy).Contents (Elt F) → (⟨S10240x1024, .bf16⟩ : BufTy).Contents (Elt F)) (W63 m c (Proc.devRef .tc main_v54_1)) (W63 m c (Proc.devRef .tc main_call3_v0)) := by
  rw [frame13 m c main_v55 (by decide), frame13 m c main_v54_1 (by decide), frame13 m c main_call3_v0 (by decide)]; exact kd0_main_v55 m c
theorem kd0_main_c_10 : W14 m c (Proc.devRef .tc main_c_10) = (constantI S_ 32 0#32) := by
  dsimp only [W14, hostOps3_2]
  after_results_simp <;> (try simp only [StableHlo.TRef.ofBuf, StableHlo.TRef.toBuf, cast_eq]) <;> (try rfl)
theorem kd_main_c_10 : W63 m c (Proc.devRef .tc main_c_10) = (constantI S_ 32 0#32) := by
  rw [frame14 m c main_c_10 (by decide)]; exact kd0_main_c_10 m c
theorem kd0_main_call4_v0 : W15 m c (Proc.devRef .tc main_call4_v0) = ((sitofp .f32) : (⟨S_, .i32⟩ : BufTy).Contents (Elt F) → (⟨S_, .f32⟩ : BufTy).Contents (Elt F)) (W15 m c (Proc.devRef .tc main_c_10)) := by
  dsimp only [W15, hostOps3_3]
  after_results_simp <;> (try simp only [StableHlo.TRef.ofBuf, StableHlo.TRef.toBuf, cast_eq]) <;> (try rfl)
theorem kd_main_call4_v0 : W63 m c (Proc.devRef .tc main_call4_v0) = ((sitofp .f32) : (⟨S_, .i32⟩ : BufTy).Contents (Elt F) → (⟨S_, .f32⟩ : BufTy).Contents (Elt F)) (W63 m c (Proc.devRef .tc main_c_10)) := by
  rw [frame15 m c main_call4_v0 (by decide), frame15 m c main_c_10 (by decide)]; exact kd0_main_call4_v0 m c
theorem kd0_main_v56 : W15 m c (Proc.devRef .tc main_v56) = ((fun x v => pad S10240x512 ![0, 0] ![240, 0] ![0, 0] x v pads_S10000x512_S10240x512_02400_000 h_S_) : (⟨S10000x512, .f32⟩ : BufTy).Contents (Elt F) → (⟨S_, .f32⟩ : BufTy).Contents (Elt F) → (⟨S10240x512, .f32⟩ : BufTy).Contents (Elt F)) (W15 m c (Proc.devRef .tc main_v52)) (W15 m c (Proc.devRef .tc main_call4_v0)) := by
  dsimp only [W15, hostOps3_3]
  after_results_simp <;> (try simp only [StableHlo.TRef.ofBuf, StableHlo.TRef.toBuf, cast_eq]) <;> (try rfl)
theorem kd_main_v56 : W63 m c (Proc.devRef .tc main_v56) = ((fun x v => pad S10240x512 ![0, 0] ![240, 0] ![0, 0] x v pads_S10000x512_S10240x512_02400_000 h_S_) : (⟨S10000x512, .f32⟩ : BufTy).Contents (Elt F) → (⟨S_, .f32⟩ : BufTy).Contents (Elt F) → (⟨S10240x512, .f32⟩ : BufTy).Contents (Elt F)) (W63 m c (Proc.devRef .tc main_v52)) (W63 m c (Proc.devRef .tc main_call4_v0)) := by
  rw [frame15 m c main_v56 (by decide), frame15 m c main_v52 (by decide), frame15 m c main_call4_v0 (by decide)]; exact kd0_main_v56 m c
theorem kd0_main_cst_11 : W16 m c (Proc.devRef .tc main_cst_11) = (constant S_ .f32 0x00000000#32) := by
  dsimp only [W16, hostOps3_4]
  after_results_simp <;> (try simp only [StableHlo.TRef.ofBuf, StableHlo.TRef.toBuf, cast_eq]) <;> (try rfl)
theorem kd_main_cst_11 : W63 m c (Proc.devRef .tc main_cst_11) = (constant S_ .f32 0x00000000#32) := by
  rw [frame16 m c main_cst_11 (by decide)]; exact kd0_main_cst_11 m c
theorem kd0_main_v57 : W16 m c (Proc.devRef .tc main_v57) = (broadcastInDim S1x1024 ![] bcast_S_S1x1024 : (⟨S_, .f32⟩ : BufTy).Contents (Elt F) → (⟨S1x1024, .f32⟩ : BufTy).Contents (Elt F)) (W16 m c (Proc.devRef .tc main_cst_11)) := by
  dsimp only [W16, hostOps3_4]
  after_results_simp <;> (try simp only [StableHlo.TRef.ofBuf, StableHlo.TRef.toBuf, cast_eq]) <;> (try rfl)
theorem kd_main_v57 : W63 m c (Proc.devRef .tc main_v57) = (broadcastInDim S1x1024 ![] bcast_S_S1x1024 : (⟨S_, .f32⟩ : BufTy).Contents (Elt F) → (⟨S1x1024, .f32⟩ : BufTy).Contents (Elt F)) (W63 m c (Proc.devRef .tc main_cst_11)) := by
  rw [frame16 m c main_v57 (by decide), frame16 m c main_cst_11 (by decide)]; exact kd0_main_v57 m c
theorem kd0_main_v59 : W18 m c (Proc.devRef .tc main_v59) = ((extractStridedSlice S10000x1 ![0, 0] · slices_S10240x128_S10000x1_0_0) : (⟨S10240x128, .f32⟩ : BufTy).Contents (Elt F) → (⟨S10000x1, .f32⟩ : BufTy).Contents (Elt F)) (W18 m c (Proc.devRef .tc main_v58_1)) := by
  dsimp only [W18, hostOps4]
  after_results_simp <;> (try simp only [StableHlo.TRef.ofBuf, StableHlo.TRef.toBuf, cast_eq]) <;> (try rfl)
theorem kd_main_v59 : W63 m c (Proc.devRef .tc main_v59) = ((extractStridedSlice S10000x1 ![0, 0] · slices_S10240x128_S10000x1_0_0) : (⟨S10240x128, .f32⟩ : BufTy).Contents (Elt F) → (⟨S10000x1, .f32⟩ : BufTy).Contents (Elt F)) (W63 m c (Proc.devRef .tc main_v58_1)) := by
  rw [frame18 m c main_v59 (by decide), frame18 m c main_v58_1 (by decide)]; exact kd0_main_v59 m c
theorem kd0_main_v60 : W18 m c (Proc.devRef .tc main_v60) = shapeCast S10000 (W18 m c (Proc.devRef .tc main_v59)) shapeCasts_S10000x1_S10000 := by
  dsimp only [W18, hostOps4]
  after_results_simp <;> (try simp only [StableHlo.TRef.ofBuf, StableHlo.TRef.toBuf, cast_eq]) <;> (try rfl)
theorem kd_main_v60 : W63 m c (Proc.devRef .tc main_v60) = shapeCast S10000 (W63 m c (Proc.devRef .tc main_v59)) shapeCasts_S10000x1_S10000 := by
  rw [frame18 m c main_v60 (by decide), frame18 m c main_v59 (by decide)]; exact kd0_main_v60 m c
theorem kd0_main_call5_v0 : W22 m c (Proc.devRef .tc main_call5_v0) = ((iotaInDim S1024x1024 32 0) : (⟨S1024x1024, .i32⟩ : BufTy).Contents (Elt F)) := by
  dsimp only [W22, hostOps7]
  after_results_simp <;> (try simp only [StableHlo.TRef.ofBuf, StableHlo.TRef.toBuf, cast_eq]) <;> (try rfl)
theorem kd_main_call5_v0 : W63 m c (Proc.devRef .tc main_call5_v0) = ((iotaInDim S1024x1024 32 0) : (⟨S1024x1024, .i32⟩ : BufTy).Contents (Elt F)) := by
  rw [frame22 m c main_call5_v0 (by decide)]; exact kd0_main_call5_v0 m c
theorem kd0_main_call5_v1 : W22 m c (Proc.devRef .tc main_call5_v1) = ((iotaInDim S1024x1024 32 1) : (⟨S1024x1024, .i32⟩ : BufTy).Contents (Elt F)) := by
  dsimp only [W22, hostOps7]
  after_results_simp <;> (try simp only [StableHlo.TRef.ofBuf, StableHlo.TRef.toBuf, cast_eq]) <;> (try rfl)
theorem kd_main_call5_v1 : W63 m c (Proc.devRef .tc main_call5_v1) = ((iotaInDim S1024x1024 32 1) : (⟨S1024x1024, .i32⟩ : BufTy).Contents (Elt F)) := by
  rw [frame22 m c main_call5_v1 (by decide)]; exact kd0_main_call5_v1 m c
theorem kd0_main_call5_c : W22 m c (Proc.devRef .tc main_call5_c) = ((constantI S_ 32 0#32) : (⟨S_, .i32⟩ : BufTy).Contents (Elt F)) := by
  dsimp only [W22, hostOps7]
  after_results_simp <;> (try simp only [StableHlo.TRef.ofBuf, StableHlo.TRef.toBuf, cast_eq]) <;> (try rfl)
theorem kd_main_call5_c : W63 m c (Proc.devRef .tc main_call5_c) = ((constantI S_ 32 0#32) : (⟨S_, .i32⟩ : BufTy).Contents (Elt F)) := by
  rw [frame22 m c main_call5_c (by decide)]; exact kd0_main_call5_c m c
theorem kd0_main_call5_v2 : W22 m c (Proc.devRef .tc main_call5_v2) = ((broadcastInDim S1024x1024 ![] bcast_S_S1024x1024) : (⟨S_, .i32⟩ : BufTy).Contents (Elt F) → (⟨S1024x1024, .i32⟩ : BufTy).Contents (Elt F)) (W22 m c (Proc.devRef .tc main_call5_c)) := by
  dsimp only [W22, hostOps7]
  after_results_simp <;> (try simp only [StableHlo.TRef.ofBuf, StableHlo.TRef.toBuf, cast_eq]) <;> (try rfl)
theorem kd_main_call5_v2 : W63 m c (Proc.devRef .tc main_call5_v2) = ((broadcastInDim S1024x1024 ![] bcast_S_S1024x1024) : (⟨S_, .i32⟩ : BufTy).Contents (Elt F) → (⟨S1024x1024, .i32⟩ : BufTy).Contents (Elt F)) (W63 m c (Proc.devRef .tc main_call5_c)) := by
  rw [frame22 m c main_call5_v2 (by decide), frame22 m c main_call5_c (by decide)]; exact kd0_main_call5_v2 m c
theorem kd0_main_call5_v3 : W22 m c (Proc.devRef .tc main_call5_v3) = (addi : (⟨S1024x1024, .i32⟩ : BufTy).Contents (Elt F) → (⟨S1024x1024, .i32⟩ : BufTy).Contents (Elt F) → (⟨S1024x1024, .i32⟩ : BufTy).Contents (Elt F)) (W22 m c (Proc.devRef .tc main_call5_v0)) (W22 m c (Proc.devRef .tc main_call5_v2)) := by
  dsimp only [W22, hostOps7]
  after_results_simp <;> (try simp only [StableHlo.TRef.ofBuf, StableHlo.TRef.toBuf, cast_eq]) <;> (try rfl)
theorem kd_main_call5_v3 : W63 m c (Proc.devRef .tc main_call5_v3) = (addi : (⟨S1024x1024, .i32⟩ : BufTy).Contents (Elt F) → (⟨S1024x1024, .i32⟩ : BufTy).Contents (Elt F) → (⟨S1024x1024, .i32⟩ : BufTy).Contents (Elt F)) (W63 m c (Proc.devRef .tc main_call5_v0)) (W63 m c (Proc.devRef .tc main_call5_v2)) := by
  rw [frame22 m c main_call5_v3 (by decide), frame22 m c main_call5_v0 (by decide), frame22 m c main_call5_v2 (by decide)]; exact kd0_main_call5_v3 m c
theorem kd0_main_call5_v4 : W22 m c (Proc.devRef .tc main_call5_v4) = ((cmpi .eq) : (⟨S1024x1024, .i32⟩ : BufTy).Contents (Elt F) → (⟨S1024x1024, .i32⟩ : BufTy).Contents (Elt F) → (⟨S1024x1024, .i1⟩ : BufTy).Contents (Elt F)) (W22 m c (Proc.devRef .tc main_call5_v3)) (W22 m c (Proc.devRef .tc main_call5_v1)) := by
  dsimp only [W22, hostOps7]
  after_results_simp <;> (try simp only [StableHlo.TRef.ofBuf, StableHlo.TRef.toBuf, cast_eq]) <;> (try rfl)
theorem kd_main_call5_v4 : W63 m c (Proc.devRef .tc main_call5_v4) = ((cmpi .eq) : (⟨S1024x1024, .i32⟩ : BufTy).Contents (Elt F) → (⟨S1024x1024, .i32⟩ : BufTy).Contents (Elt F) → (⟨S1024x1024, .i1⟩ : BufTy).Contents (Elt F)) (W63 m c (Proc.devRef .tc main_call5_v3)) (W63 m c (Proc.devRef .tc main_call5_v1)) := by
  rw [frame22 m c main_call5_v4 (by decide), frame22 m c main_call5_v3 (by decide), frame22 m c main_call5_v1 (by decide)]; exact kd0_main_call5_v4 m c
theorem kd0_main_call5_cst : W22 m c (Proc.devRef .tc main_call5_cst) = ((constant S_ .f32 0x00000000#32) : (⟨S_, .f32⟩ : BufTy).Contents (Elt F)) := by
  dsimp only [W22, hostOps7]
  after_results_simp <;> (try simp only [StableHlo.TRef.ofBuf, StableHlo.TRef.toBuf, cast_eq]) <;> (try rfl)
theorem kd_main_call5_cst : W63 m c (Proc.devRef .tc main_call5_cst) = ((constant S_ .f32 0x00000000#32) : (⟨S_, .f32⟩ : BufTy).Contents (Elt F)) := by
  rw [frame22 m c main_call5_cst (by decide)]; exact kd0_main_call5_cst m c
theorem kd0_main_call5_v5 : W22 m c (Proc.devRef .tc main_call5_v5) = ((broadcastInDim S1024x1024 ![] bcast_S_S1024x1024) : (⟨S_, .f32⟩ : BufTy).Contents (Elt F) → (⟨S1024x1024, .f32⟩ : BufTy).Contents (Elt F)) (W22 m c (Proc.devRef .tc main_call5_cst)) := by
  dsimp only [W22, hostOps7]
  after_results_simp <;> (try simp only [StableHlo.TRef.ofBuf, StableHlo.TRef.toBuf, cast_eq]) <;> (try rfl)
theorem kd_main_call5_v5 : W63 m c (Proc.devRef .tc main_call5_v5) = ((broadcastInDim S1024x1024 ![] bcast_S_S1024x1024) : (⟨S_, .f32⟩ : BufTy).Contents (Elt F) → (⟨S1024x1024, .f32⟩ : BufTy).Contents (Elt F)) (W63 m c (Proc.devRef .tc main_call5_cst)) := by
  rw [frame22 m c main_call5_v5 (by decide), frame22 m c main_call5_cst (by decide)]; exact kd0_main_call5_v5 m c
theorem kd0_main_call5_v6 : W22 m c (Proc.devRef .tc main_call5_v6) = (select : (⟨S1024x1024, .i1⟩ : BufTy).Contents (Elt F) → (⟨S1024x1024, .f32⟩ : BufTy).Contents (Elt F) → (⟨S1024x1024, .f32⟩ : BufTy).Contents (Elt F) → (⟨S1024x1024, .f32⟩ : BufTy).Contents (Elt F)) (W22 m c (Proc.devRef .tc main_call5_v4)) (W22 m c (Proc.devRef .tc main_v62)) (W22 m c (Proc.devRef .tc main_call5_v5)) := by
  dsimp only [W22, hostOps7]
  after_results_simp <;> (try simp only [StableHlo.TRef.ofBuf, StableHlo.TRef.toBuf, cast_eq]) <;> (try rfl)
theorem kd_main_call5_v6 : W63 m c (Proc.devRef .tc main_call5_v6) = (select : (⟨S1024x1024, .i1⟩ : BufTy).Contents (Elt F) → (⟨S1024x1024, .f32⟩ : BufTy).Contents (Elt F) → (⟨S1024x1024, .f32⟩ : BufTy).Contents (Elt F) → (⟨S1024x1024, .f32⟩ : BufTy).Contents (Elt F)) (W63 m c (Proc.devRef .tc main_call5_v4)) (W63 m c (Proc.devRef .tc main_v62)) (W63 m c (Proc.devRef .tc main_call5_v5)) := by
  rw [frame22 m c main_call5_v6 (by decide), frame22 m c main_call5_v4 (by decide), frame22 m c main_v62 (by decide), frame22 m c main_call5_v5 (by decide)]; exact kd0_main_call5_v6 m c
theorem kd0_main_call5_cst_0 : W22 m c (Proc.devRef .tc main_call5_cst_0) = ((constant S_ .f32 0x00000000#32) : (⟨S_, .f32⟩ : BufTy).Contents (Elt F)) := by
  dsimp only [W22, hostOps7]
  after_results_simp <;> (try simp only [StableHlo.TRef.ofBuf, StableHlo.TRef.toBuf, cast_eq]) <;> (try rfl)
theorem kd_main_call5_cst_0 : W63 m c (Proc.devRef .tc main_call5_cst_0) = ((constant S_ .f32 0x00000000#32) : (⟨S_, .f32⟩ : BufTy).Contents (Elt F)) := by
  rw [frame22 m c main_call5_cst_0 (by decide)]; exact kd0_main_call5_cst_0 m c
theorem kd0_main_v64 : W22 m c (Proc.devRef .tc main_v64) = (fun x v => Host.reduceAdd x v reducesTo_S1024x1024_S_d0_1 h_S_) (W22 m c (Proc.devRef .tc main_call5_v6)) (W22 m c (Proc.devRef .tc main_call5_cst_0)) := by
  dsimp only [W22, hostOps7]
  after_results_simp <;> (try simp only [StableHlo.TRef.ofBuf, StableHlo.TRef.toBuf, cast_eq]) <;> (try rfl)
theorem kd_main_v64 : W63 m c (Proc.devRef .tc main_v64) = (fun x v => Host.reduceAdd x v reducesTo_S1024x1024_S_d0_1 h_S_) (W63 m c (Proc.devRef .tc main_call5_v6)) (W63 m c (Proc.devRef .tc main_call5_cst_0)) := by
  rw [frame22 m c main_v64 (by decide), frame22 m c main_call5_v6 (by decide), frame22 m c main_call5_cst_0 (by decide)]; exact kd0_main_v64 m c
theorem kd0_main_v65 : W23 m c (Proc.devRef .tc main_v65) = (broadcastInDim S10000x1 ![0] bcast_S10000_S10000x1_0 : (⟨S10000, .f32⟩ : BufTy).Contents (Elt F) → (⟨S10000x1, .f32⟩ : BufTy).Contents (Elt F)) (W23 m c (Proc.devRef .tc main_v60)) := by
  dsimp only [W23, hostOps7_1]
  after_results_simp <;> (try simp only [StableHlo.TRef.ofBuf, StableHlo.TRef.toBuf, cast_eq]) <;> (try rfl)
theorem kd_main_v65 : W63 m c (Proc.devRef .tc main_v65) = (broadcastInDim S10000x1 ![0] bcast_S10000_S10000x1_0 : (⟨S10000, .f32⟩ : BufTy).Contents (Elt F) → (⟨S10000x1, .f32⟩ : BufTy).Contents (Elt F)) (W63 m c (Proc.devRef .tc main_v60)) := by
  rw [frame23 m c main_v65 (by decide), frame23 m c main_v60 (by decide)]; exact kd0_main_v65 m c
theorem kd0_main_v66 : W23 m c (Proc.devRef .tc main_v66) = ((extf .f32 · bitsLt_bf16_f32) : (⟨S10000x1024, .bf16⟩ : BufTy).Contents (Elt F) → (⟨S10000x1024, .f32⟩ : BufTy).Contents (Elt F)) (W23 m c (Proc.devRef .tc main_v54_1)) := by
  dsimp only [W23, hostOps7_1]
  after_results_simp <;> (try simp only [StableHlo.TRef.ofBuf, StableHlo.TRef.toBuf, cast_eq]) <;> (try rfl)
theorem kd_main_v66 : W63 m c (Proc.devRef .tc main_v66) = ((extf .f32 · bitsLt_bf16_f32) : (⟨S10000x1024, .bf16⟩ : BufTy).Contents (Elt F) → (⟨S10000x1024, .f32⟩ : BufTy).Contents (Elt F)) (W63 m c (Proc.devRef .tc main_v54_1)) := by
  rw [frame23 m c main_v66 (by decide), frame23 m c main_v54_1 (by decide)]; exact kd0_main_v66 m c
theorem kd0_main_v67 : W23 m c (Proc.devRef .tc main_v67) = (broadcastInDim S10000x1024 ![0, 1] bcast_S10000x1_S10000x1024_0_1 : (⟨S10000x1, .f32⟩ : BufTy).Contents (Elt F) → (⟨S10000x1024, .f32⟩ : BufTy).Contents (Elt F)) (W23 m c (Proc.devRef .tc main_v65)) := by
  dsimp only [W23, hostOps7_1]
  after_results_simp <;> (try simp only [StableHlo.TRef.ofBuf, StableHlo.TRef.toBuf, cast_eq]) <;> (try rfl)
theorem kd_main_v67 : W63 m c (Proc.devRef .tc main_v67) = (broadcastInDim S10000x1024 ![0, 1] bcast_S10000x1_S10000x1024_0_1 : (⟨S10000x1, .f32⟩ : BufTy).Contents (Elt F) → (⟨S10000x1024, .f32⟩ : BufTy).Contents (Elt F)) (W63 m c (Proc.devRef .tc main_v65)) := by
  rw [frame23 m c main_v67 (by decide), frame23 m c main_v65 (by decide)]; exact kd0_main_v67 m c
theorem kd0_main_v68 : W23 m c (Proc.devRef .tc main_v68) = (mulf : (⟨S10000x1024, .f32⟩ : BufTy).Contents (Elt F) → (⟨S10000x1024, .f32⟩ : BufTy).Contents (Elt F) → (⟨S10000x1024, .f32⟩ : BufTy).Contents (Elt F)) (W23 m c (Proc.devRef .tc main_v67)) (W23 m c (Proc.devRef .tc main_v66)) := by
  dsimp only [W23, hostOps7_1]
  after_results_simp <;> (try simp only [StableHlo.TRef.ofBuf, StableHlo.TRef.toBuf, cast_eq]) <;> (try rfl)
theorem kd_main_v68 : W63 m c (Proc.devRef .tc main_v68) = (mulf : (⟨S10000x1024, .f32⟩ : BufTy).Contents (Elt F) → (⟨S10000x1024, .f32⟩ : BufTy).Contents (Elt F) → (⟨S10000x1024, .f32⟩ : BufTy).Contents (Elt F)) (W63 m c (Proc.devRef .tc main_v67)) (W63 m c (Proc.devRef .tc main_v66)) := by
  rw [frame23 m c main_v68 (by decide), frame23 m c main_v67 (by decide), frame23 m c main_v66 (by decide)]; exact kd0_main_v68 m c
theorem kd0_main_v69 : W23 m c (Proc.devRef .tc main_v69) = ((extf .f32 · bitsLt_bf16_f32) : (⟨S10000x1024, .bf16⟩ : BufTy).Contents (Elt F) → (⟨S10000x1024, .f32⟩ : BufTy).Contents (Elt F)) (W23 m c (Proc.devRef .tc main_v54_1)) := by
  dsimp only [W23, hostOps7_1]
  after_results_simp <;> (try simp only [StableHlo.TRef.ofBuf, StableHlo.TRef.toBuf, cast_eq]) <;> (try rfl)
theorem kd_main_v69 : W63 m c (Proc.devRef .tc main_v69) = ((extf .f32 · bitsLt_bf16_f32) : (⟨S10000x1024, .bf16⟩ : BufTy).Contents (Elt F) → (⟨S10000x1024, .f32⟩ : BufTy).Contents (Elt F)) (W63 m c (Proc.devRef .tc main_v54_1)) := by
  rw [frame23 m c main_v69 (by decide), frame23 m c main_v54_1 (by decide)]; exact kd0_main_v69 m c
theorem kd0_main_v70 : W23 m c (Proc.devRef .tc main_v70) = (mulf : (⟨S10000x1024, .f32⟩ : BufTy).Contents (Elt F) → (⟨S10000x1024, .f32⟩ : BufTy).Contents (Elt F) → (⟨S10000x1024, .f32⟩ : BufTy).Contents (Elt F)) (W23 m c (Proc.devRef .tc main_v68)) (W23 m c (Proc.devRef .tc main_v69)) := by
  dsimp only [W23, hostOps7_1]
  after_results_simp <;> (try simp only [StableHlo.TRef.ofBuf, StableHlo.TRef.toBuf, cast_eq]) <;> (try rfl)
theorem kd_main_v70 : W63 m c (Proc.devRef .tc main_v70) = (mulf : (⟨S10000x1024, .f32⟩ : BufTy).Contents (Elt F) → (⟨S10000x1024, .f32⟩ : BufTy).Contents (Elt F) → (⟨S10000x1024, .f32⟩ : BufTy).Contents (Elt F)) (W63 m c (Proc.devRef .tc main_v68)) (W63 m c (Proc.devRef .tc main_v69)) := by
  rw [frame23 m c main_v70 (by decide), frame23 m c main_v68 (by decide), frame23 m c main_v69 (by decide)]; exact kd0_main_v70 m c
theorem kd0_main_cst_12 : W23 m c (Proc.devRef .tc main_cst_12) = (constant S_ .f32 0x00000000#32) := by
  dsimp only [W23, hostOps7_1]
  after_results_simp <;> (try simp only [StableHlo.TRef.ofBuf, StableHlo.TRef.toBuf, cast_eq]) <;> (try rfl)
theorem kd_main_cst_12 : W63 m c (Proc.devRef .tc main_cst_12) = (constant S_ .f32 0x00000000#32) := by
  rw [frame23 m c main_cst_12 (by decide)]; exact kd0_main_cst_12 m c
theorem kd0_main_v71 : W23 m c (Proc.devRef .tc main_v71) = ((fun x v => Host.reduceAdd x v reducesTo_S10000x1024_S_d0_1 h_S_) : (⟨S10000x1024, .f32⟩ : BufTy).Contents (Elt F) → (⟨S_, .f32⟩ : BufTy).Contents (Elt F) → (⟨S_, .f32⟩ : BufTy).Contents (Elt F)) (W23 m c (Proc.devRef .tc main_v70)) (W23 m c (Proc.devRef .tc main_cst_12)) := by
  dsimp only [W23, hostOps7_1]
  after_results_simp <;> (try simp only [StableHlo.TRef.ofBuf, StableHlo.TRef.toBuf, cast_eq]) <;> (try rfl)
theorem kd_main_v71 : W63 m c (Proc.devRef .tc main_v71) = ((fun x v => Host.reduceAdd x v reducesTo_S10000x1024_S_d0_1 h_S_) : (⟨S10000x1024, .f32⟩ : BufTy).Contents (Elt F) → (⟨S_, .f32⟩ : BufTy).Contents (Elt F) → (⟨S_, .f32⟩ : BufTy).Contents (Elt F)) (W63 m c (Proc.devRef .tc main_v70)) (W63 m c (Proc.devRef .tc main_cst_12)) := by
  rw [frame23 m c main_v71 (by decide), frame23 m c main_v70 (by decide), frame23 m c main_cst_12 (by decide)]; exact kd0_main_v71 m c
theorem kd0_main_v72 : W23 m c (Proc.devRef .tc main_v72) = (Host.divf : (⟨S_, .f32⟩ : BufTy).Contents (Elt F) → (⟨S_, .f32⟩ : BufTy).Contents (Elt F) → (⟨S_, .f32⟩ : BufTy).Contents (Elt F)) (W23 m c (Proc.devRef .tc main_v64)) (W23 m c (Proc.devRef .tc main_v71)) := by
  dsimp only [W23, hostOps7_1]
  after_results_simp <;> (try simp only [StableHlo.TRef.ofBuf, StableHlo.TRef.toBuf, cast_eq]) <;> (try rfl)
theorem kd_main_v72 : W63 m c (Proc.devRef .tc main_v72) = (Host.divf : (⟨S_, .f32⟩ : BufTy).Contents (Elt F) → (⟨S_, .f32⟩ : BufTy).Contents (Elt F) → (⟨S_, .f32⟩ : BufTy).Contents (Elt F)) (W63 m c (Proc.devRef .tc main_v64)) (W63 m c (Proc.devRef .tc main_v71)) := by
  rw [frame23 m c main_v72 (by decide), frame23 m c main_v64 (by decide), frame23 m c main_v71 (by decide)]; exact kd0_main_v72 m c
theorem kd0_main_v73 : W23 m c (Proc.devRef .tc main_v73) = (Host.negf : (⟨S_, .f32⟩ : BufTy).Contents (Elt F) → (⟨S_, .f32⟩ : BufTy).Contents (Elt F)) (W23 m c (Proc.devRef .tc main_v72)) := by
  dsimp only [W23, hostOps7_1]
  after_results_simp <;> (try simp only [StableHlo.TRef.ofBuf, StableHlo.TRef.toBuf, cast_eq]) <;> (try rfl)
theorem kd_main_v73 : W63 m c (Proc.devRef .tc main_v73) = (Host.negf : (⟨S_, .f32⟩ : BufTy).Contents (Elt F) → (⟨S_, .f32⟩ : BufTy).Contents (Elt F)) (W63 m c (Proc.devRef .tc main_v72)) := by
  rw [frame23 m c main_v73 (by decide), frame23 m c main_v72 (by decide)]; exact kd0_main_v73 m c
theorem kd0_main_call6_v0 : W24 m c (Proc.devRef .tc main_call6_v0) = (mulf : (⟨S1024x1024, .f32⟩ : BufTy).Contents (Elt F) → (⟨S1024x1024, .f32⟩ : BufTy).Contents (Elt F) → (⟨S1024x1024, .f32⟩ : BufTy).Contents (Elt F)) (W24 m c (Proc.devRef .tc main_v63)) (W24 m c (Proc.devRef .tc main_v63)) := by
  dsimp only [W24, hostOps7_2]
  after_results_simp <;> (try simp only [StableHlo.TRef.ofBuf, StableHlo.TRef.toBuf, cast_eq]) <;> (try rfl)
theorem kd_main_call6_v0 : W63 m c (Proc.devRef .tc main_call6_v0) = (mulf : (⟨S1024x1024, .f32⟩ : BufTy).Contents (Elt F) → (⟨S1024x1024, .f32⟩ : BufTy).Contents (Elt F) → (⟨S1024x1024, .f32⟩ : BufTy).Contents (Elt F)) (W63 m c (Proc.devRef .tc main_v63)) (W63 m c (Proc.devRef .tc main_v63)) := by
  rw [frame24 m c main_call6_v0 (by decide), frame24 m c main_v63 (by decide)]; exact kd0_main_call6_v0 m c
theorem kd0_main_call6_cst : W24 m c (Proc.devRef .tc main_call6_cst) = ((constant S_ .f32 0x00000000#32) : (⟨S_, .f32⟩ : BufTy).Contents (Elt F)) := by
  dsimp only [W24, hostOps7_2]
  after_results_simp <;> (try simp only [StableHlo.TRef.ofBuf, StableHlo.TRef.toBuf, cast_eq]) <;> (try rfl)
theorem kd_main_call6_cst : W63 m c (Proc.devRef .tc main_call6_cst) = ((constant S_ .f32 0x00000000#32) : (⟨S_, .f32⟩ : BufTy).Contents (Elt F)) := by
  rw [frame24 m c main_call6_cst (by decide)]; exact kd0_main_call6_cst m c
theorem kd0_main_call6_v1 : W24 m c (Proc.devRef .tc main_call6_v1) = ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)) (W24 m c (Proc.devRef .tc main_call6_v0)) (W24 m c (Proc.devRef .tc main_call6_cst)) := by
  dsimp only [W24, hostOps7_2]
  after_results_simp <;> (try simp only [StableHlo.TRef.ofBuf, StableHlo.TRef.toBuf, cast_eq]) <;> (try rfl)
theorem kd_main_call6_v1 : W63 m c (Proc.devRef .tc main_call6_v1) = ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)) (W63 m c (Proc.devRef .tc main_call6_v0)) (W63 m c (Proc.devRef .tc main_call6_cst)) := by
  rw [frame24 m c main_call6_v1 (by decide), frame24 m c main_call6_v0 (by decide), frame24 m c main_call6_cst (by decide)]; exact kd0_main_call6_v1 m c
theorem kd0_main_v74 : W24 m c (Proc.devRef .tc main_v74) = (Host.sqrt : (⟨S_, .f32⟩ : BufTy).Contents (Elt F) → (⟨S_, .f32⟩ : BufTy).Contents (Elt F)) (W24 m c (Proc.devRef .tc main_call6_v1)) := by
  dsimp only [W24, hostOps7_2]
  after_results_simp <;> (try simp only [StableHlo.TRef.ofBuf, StableHlo.TRef.toBuf, cast_eq]) <;> (try rfl)
theorem kd_main_v74 : W63 m c (Proc.devRef .tc main_v74) = (Host.sqrt : (⟨S_, .f32⟩ : BufTy).Contents (Elt F) → (⟨S_, .f32⟩ : BufTy).Contents (Elt F)) (W63 m c (Proc.devRef .tc main_call6_v1)) := by
  rw [frame24 m c main_v74 (by decide), frame24 m c main_call6_v1 (by decide)]; exact kd0_main_v74 m c

end Cert.KernelIdeal.Hand

end
-- ==== Proof.KI.Reads2.lean ====
/- What each host operation of @main leaves in its result buffer, read at the last boundary's contents: the operation's
   function of its operands' contents there (every buffer is written once). Stretches: hostOps7_3, hostOps7_4, hostOps7_5, hostOps7_6. -/
import proofs.«405323_j90718299226206_3_alg».proof.Proof.KI.Frames

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem kd0_main_v75 : W25 m c (Proc.devRef .tc main_v75) = (broadcastInDim S1024x1024 ![] bcast_S_S1024x1024 : (⟨S_, .f32⟩ : BufTy).Contents (Elt F) → (⟨S1024x1024, .f32⟩ : BufTy).Contents (Elt F)) (W25 m c (Proc.devRef .tc main_v74)) := by
  dsimp only [W25, hostOps7_3]
  after_results_simp <;> (try simp only [StableHlo.TRef.ofBuf, StableHlo.TRef.toBuf, cast_eq]) <;> (try rfl)
theorem kd_main_v75 : W63 m c (Proc.devRef .tc main_v75) = (broadcastInDim S1024x1024 ![] bcast_S_S1024x1024 : (⟨S_, .f32⟩ : BufTy).Contents (Elt F) → (⟨S1024x1024, .f32⟩ : BufTy).Contents (Elt F)) (W63 m c (Proc.devRef .tc main_v74)) := by
  rw [frame25 m c main_v75 (by decide), frame25 m c main_v74 (by decide)]; exact kd0_main_v75 m c
theorem kd0_main_v76 : W25 m c (Proc.devRef .tc main_v76) = (Host.divf : (⟨S1024x1024, .f32⟩ : BufTy).Contents (Elt F) → (⟨S1024x1024, .f32⟩ : BufTy).Contents (Elt F) → (⟨S1024x1024, .f32⟩ : BufTy).Contents (Elt F)) (W25 m c (Proc.devRef .tc main_v63)) (W25 m c (Proc.devRef .tc main_v75)) := by
  dsimp only [W25, hostOps7_3]
  after_results_simp <;> (try simp only [StableHlo.TRef.ofBuf, StableHlo.TRef.toBuf, cast_eq]) <;> (try rfl)
theorem kd_main_v76 : W63 m c (Proc.devRef .tc main_v76) = (Host.divf : (⟨S1024x1024, .f32⟩ : BufTy).Contents (Elt F) → (⟨S1024x1024, .f32⟩ : BufTy).Contents (Elt F) → (⟨S1024x1024, .f32⟩ : BufTy).Contents (Elt F)) (W63 m c (Proc.devRef .tc main_v63)) (W63 m c (Proc.devRef .tc main_v75)) := by
  rw [frame25 m c main_v76 (by decide), frame25 m c main_v63 (by decide), frame25 m c main_v75 (by decide)]; exact kd0_main_v76 m c
theorem kd0_main_v77 : W25 m c (Proc.devRef .tc main_v77) = (iotaInDim S1024x1024 32 0) := by
  dsimp only [W25, hostOps7_3]
  after_results_simp <;> (try simp only [StableHlo.TRef.ofBuf, StableHlo.TRef.toBuf, cast_eq]) <;> (try rfl)
theorem kd_main_v77 : W63 m c (Proc.devRef .tc main_v77) = (iotaInDim S1024x1024 32 0) := by
  rw [frame25 m c main_v77 (by decide)]; exact kd0_main_v77 m c
theorem kd0_main_v78 : W25 m c (Proc.devRef .tc main_v78) = (iotaInDim S1024x1024 32 1) := by
  dsimp only [W25, hostOps7_3]
  after_results_simp <;> (try simp only [StableHlo.TRef.ofBuf, StableHlo.TRef.toBuf, cast_eq]) <;> (try rfl)
theorem kd_main_v78 : W63 m c (Proc.devRef .tc main_v78) = (iotaInDim S1024x1024 32 1) := by
  rw [frame25 m c main_v78 (by decide)]; exact kd0_main_v78 m c
theorem kd0_main_c_13 : W25 m c (Proc.devRef .tc main_c_13) = (constantI S_ 32 0#32) := by
  dsimp only [W25, hostOps7_3]
  after_results_simp <;> (try simp only [StableHlo.TRef.ofBuf, StableHlo.TRef.toBuf, cast_eq]) <;> (try rfl)
theorem kd_main_c_13 : W63 m c (Proc.devRef .tc main_c_13) = (constantI S_ 32 0#32) := by
  rw [frame25 m c main_c_13 (by decide)]; exact kd0_main_c_13 m c
theorem kd0_main_v79 : W25 m c (Proc.devRef .tc main_v79) = (broadcastInDim S1024x1024 ![] bcast_S_S1024x1024 : (⟨S_, .i32⟩ : BufTy).Contents (Elt F) → (⟨S1024x1024, .i32⟩ : BufTy).Contents (Elt F)) (W25 m c (Proc.devRef .tc main_c_13)) := by
  dsimp only [W25, hostOps7_3]
  after_results_simp <;> (try simp only [StableHlo.TRef.ofBuf, StableHlo.TRef.toBuf, cast_eq]) <;> (try rfl)
theorem kd_main_v79 : W63 m c (Proc.devRef .tc main_v79) = (broadcastInDim S1024x1024 ![] bcast_S_S1024x1024 : (⟨S_, .i32⟩ : BufTy).Contents (Elt F) → (⟨S1024x1024, .i32⟩ : BufTy).Contents (Elt F)) (W63 m c (Proc.devRef .tc main_c_13)) := by
  rw [frame25 m c main_v79 (by decide), frame25 m c main_c_13 (by decide)]; exact kd0_main_v79 m c
theorem kd0_main_v80 : W25 m c (Proc.devRef .tc main_v80) = (addi : (⟨S1024x1024, .i32⟩ : BufTy).Contents (Elt F) → (⟨S1024x1024, .i32⟩ : BufTy).Contents (Elt F) → (⟨S1024x1024, .i32⟩ : BufTy).Contents (Elt F)) (W25 m c (Proc.devRef .tc main_v77)) (W25 m c (Proc.devRef .tc main_v79)) := by
  dsimp only [W25, hostOps7_3]
  after_results_simp <;> (try simp only [StableHlo.TRef.ofBuf, StableHlo.TRef.toBuf, cast_eq]) <;> (try rfl)
theorem kd_main_v80 : W63 m c (Proc.devRef .tc main_v80) = (addi : (⟨S1024x1024, .i32⟩ : BufTy).Contents (Elt F) → (⟨S1024x1024, .i32⟩ : BufTy).Contents (Elt F) → (⟨S1024x1024, .i32⟩ : BufTy).Contents (Elt F)) (W63 m c (Proc.devRef .tc main_v77)) (W63 m c (Proc.devRef .tc main_v79)) := by
  rw [frame25 m c main_v80 (by decide), frame25 m c main_v77 (by decide), frame25 m c main_v79 (by decide)]; exact kd0_main_v80 m c
theorem kd0_main_v81 : W25 m c (Proc.devRef .tc main_v81) = (cmpi .eq : (⟨S1024x1024, .i32⟩ : BufTy).Contents (Elt F) → (⟨S1024x1024, .i32⟩ : BufTy).Contents (Elt F) → (⟨S1024x1024, .i1⟩ : BufTy).Contents (Elt F)) (W25 m c (Proc.devRef .tc main_v80)) (W25 m c (Proc.devRef .tc main_v78)) := by
  dsimp only [W25, hostOps7_3]
  after_results_simp <;> (try simp only [StableHlo.TRef.ofBuf, StableHlo.TRef.toBuf, cast_eq]) <;> (try rfl)
theorem kd_main_v81 : W63 m c (Proc.devRef .tc main_v81) = (cmpi .eq : (⟨S1024x1024, .i32⟩ : BufTy).Contents (Elt F) → (⟨S1024x1024, .i32⟩ : BufTy).Contents (Elt F) → (⟨S1024x1024, .i1⟩ : BufTy).Contents (Elt F)) (W63 m c (Proc.devRef .tc main_v80)) (W63 m c (Proc.devRef .tc main_v78)) := by
  rw [frame25 m c main_v81 (by decide), frame25 m c main_v80 (by decide), frame25 m c main_v78 (by decide)]; exact kd0_main_v81 m c
theorem kd0_main_v82 : W25 m c (Proc.devRef .tc main_v82) = (uitofp .f32 : (⟨S1024x1024, .i1⟩ : BufTy).Contents (Elt F) → (⟨S1024x1024, .f32⟩ : BufTy).Contents (Elt F)) (W25 m c (Proc.devRef .tc main_v81)) := by
  dsimp only [W25, hostOps7_3]
  after_results_simp <;> (try simp only [StableHlo.TRef.ofBuf, StableHlo.TRef.toBuf, cast_eq]) <;> (try rfl)
theorem kd_main_v82 : W63 m c (Proc.devRef .tc main_v82) = (uitofp .f32 : (⟨S1024x1024, .i1⟩ : BufTy).Contents (Elt F) → (⟨S1024x1024, .f32⟩ : BufTy).Contents (Elt F)) (W63 m c (Proc.devRef .tc main_v81)) := by
  rw [frame25 m c main_v82 (by decide), frame25 m c main_v81 (by decide)]; exact kd0_main_v82 m c
theorem kd0_main_cst_14 : W25 m c (Proc.devRef .tc main_cst_14) = (constant S_ .f32 0x44800000#32) := by
  dsimp only [W25, hostOps7_3]
  after_results_simp <;> (try simp only [StableHlo.TRef.ofBuf, StableHlo.TRef.toBuf, cast_eq]) <;> (try rfl)
theorem kd_main_cst_14 : W63 m c (Proc.devRef .tc main_cst_14) = (constant S_ .f32 0x44800000#32) := by
  rw [frame25 m c main_cst_14 (by decide)]; exact kd0_main_cst_14 m c
theorem kd0_main_v83 : W25 m c (Proc.devRef .tc main_v83) = (Host.sqrt : (⟨S_, .f32⟩ : BufTy).Contents (Elt F) → (⟨S_, .f32⟩ : BufTy).Contents (Elt F)) (W25 m c (Proc.devRef .tc main_cst_14)) := by
  dsimp only [W25, hostOps7_3]
  after_results_simp <;> (try simp only [StableHlo.TRef.ofBuf, StableHlo.TRef.toBuf, cast_eq]) <;> (try rfl)
theorem kd_main_v83 : W63 m c (Proc.devRef .tc main_v83) = (Host.sqrt : (⟨S_, .f32⟩ : BufTy).Contents (Elt F) → (⟨S_, .f32⟩ : BufTy).Contents (Elt F)) (W63 m c (Proc.devRef .tc main_cst_14)) := by
  rw [frame25 m c main_v83 (by decide), frame25 m c main_cst_14 (by decide)]; exact kd0_main_v83 m c
theorem kd0_main_v84 : W25 m c (Proc.devRef .tc main_v84) = (broadcastInDim S1024x1024 ![] bcast_S_S1024x1024 : (⟨S_, .f32⟩ : BufTy).Contents (Elt F) → (⟨S1024x1024, .f32⟩ : BufTy).Contents (Elt F)) (W25 m c (Proc.devRef .tc main_v83)) := by
  dsimp only [W25, hostOps7_3]
  after_results_simp <;> (try simp only [StableHlo.TRef.ofBuf, StableHlo.TRef.toBuf, cast_eq]) <;> (try rfl)
theorem kd_main_v84 : W63 m c (Proc.devRef .tc main_v84) = (broadcastInDim S1024x1024 ![] bcast_S_S1024x1024 : (⟨S_, .f32⟩ : BufTy).Contents (Elt F) → (⟨S1024x1024, .f32⟩ : BufTy).Contents (Elt F)) (W63 m c (Proc.devRef .tc main_v83)) := by
  rw [frame25 m c main_v84 (by decide), frame25 m c main_v83 (by decide)]; exact kd0_main_v84 m c
theorem kd0_main_v85 : W25 m c (Proc.devRef .tc main_v85) = (Host.divf : (⟨S1024x1024, .f32⟩ : BufTy).Contents (Elt F) → (⟨S1024x1024, .f32⟩ : BufTy).Contents (Elt F) → (⟨S1024x1024, .f32⟩ : BufTy).Contents (Elt F)) (W25 m c (Proc.devRef .tc main_v82)) (W25 m c (Proc.devRef .tc main_v84)) := by
  dsimp only [W25, hostOps7_3]
  after_results_simp <;> (try simp only [StableHlo.TRef.ofBuf, StableHlo.TRef.toBuf, cast_eq]) <;> (try rfl)
theorem kd_main_v85 : W63 m c (Proc.devRef .tc main_v85) = (Host.divf : (⟨S1024x1024, .f32⟩ : BufTy).Contents (Elt F) → (⟨S1024x1024, .f32⟩ : BufTy).Contents (Elt F) → (⟨S1024x1024, .f32⟩ : BufTy).Contents (Elt F)) (W63 m c (Proc.devRef .tc main_v82)) (W63 m c (Proc.devRef .tc main_v84)) := by
  rw [frame25 m c main_v85 (by decide), frame25 m c main_v82 (by decide), frame25 m c main_v84 (by decide)]; exact kd0_main_v85 m c
theorem kd0_main_v86 : W25 m c (Proc.devRef .tc main_v86) = (subf : (⟨S1024x1024, .f32⟩ : BufTy).Contents (Elt F) → (⟨S1024x1024, .f32⟩ : BufTy).Contents (Elt F) → (⟨S1024x1024, .f32⟩ : BufTy).Contents (Elt F)) (W25 m c (Proc.devRef .tc main_v76)) (W25 m c (Proc.devRef .tc main_v85)) := by
  dsimp only [W25, hostOps7_3]
  after_results_simp <;> (try simp only [StableHlo.TRef.ofBuf, StableHlo.TRef.toBuf, cast_eq]) <;> (try rfl)
theorem kd_main_v86 : W63 m c (Proc.devRef .tc main_v86) = (subf : (⟨S1024x1024, .f32⟩ : BufTy).Contents (Elt F) → (⟨S1024x1024, .f32⟩ : BufTy).Contents (Elt F) → (⟨S1024x1024, .f32⟩ : BufTy).Contents (Elt F)) (W63 m c (Proc.devRef .tc main_v76)) (W63 m c (Proc.devRef .tc main_v85)) := by
  rw [frame25 m c main_v86 (by decide), frame25 m c main_v76 (by decide), frame25 m c main_v85 (by decide)]; exact kd0_main_v86 m c
theorem kd0_main_call7_v0 : W26 m c (Proc.devRef .tc main_call7_v0) = (mulf : (⟨S1024x1024, .f32⟩ : BufTy).Contents (Elt F) → (⟨S1024x1024, .f32⟩ : BufTy).Contents (Elt F) → (⟨S1024x1024, .f32⟩ : BufTy).Contents (Elt F)) (W26 m c (Proc.devRef .tc main_v86)) (W26 m c (Proc.devRef .tc main_v86)) := by
  dsimp only [W26, hostOps7_4]
  after_results_simp <;> (try simp only [StableHlo.TRef.ofBuf, StableHlo.TRef.toBuf, cast_eq]) <;> (try rfl)
theorem kd_main_call7_v0 : W63 m c (Proc.devRef .tc main_call7_v0) = (mulf : (⟨S1024x1024, .f32⟩ : BufTy).Contents (Elt F) → (⟨S1024x1024, .f32⟩ : BufTy).Contents (Elt F) → (⟨S1024x1024, .f32⟩ : BufTy).Contents (Elt F)) (W63 m c (Proc.devRef .tc main_v86)) (W63 m c (Proc.devRef .tc main_v86)) := by
  rw [frame26 m c main_call7_v0 (by decide), frame26 m c main_v86 (by decide)]; exact kd0_main_call7_v0 m c
theorem kd0_main_call7_cst : W26 m c (Proc.devRef .tc main_call7_cst) = ((constant S_ .f32 0x00000000#32) : (⟨S_, .f32⟩ : BufTy).Contents (Elt F)) := by
  dsimp only [W26, hostOps7_4]
  after_results_simp <;> (try simp only [StableHlo.TRef.ofBuf, StableHlo.TRef.toBuf, cast_eq]) <;> (try rfl)
theorem kd_main_call7_cst : W63 m c (Proc.devRef .tc main_call7_cst) = ((constant S_ .f32 0x00000000#32) : (⟨S_, .f32⟩ : BufTy).Contents (Elt F)) := by
  rw [frame26 m c main_call7_cst (by decide)]; exact kd0_main_call7_cst m c
theorem kd0_main_call7_v1 : W26 m c (Proc.devRef .tc main_call7_v1) = ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)) (W26 m c (Proc.devRef .tc main_call7_v0)) (W26 m c (Proc.devRef .tc main_call7_cst)) := by
  dsimp only [W26, hostOps7_4]
  after_results_simp <;> (try simp only [StableHlo.TRef.ofBuf, StableHlo.TRef.toBuf, cast_eq]) <;> (try rfl)
theorem kd_main_call7_v1 : W63 m c (Proc.devRef .tc main_call7_v1) = ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)) (W63 m c (Proc.devRef .tc main_call7_v0)) (W63 m c (Proc.devRef .tc main_call7_cst)) := by
  rw [frame26 m c main_call7_v1 (by decide), frame26 m c main_call7_v0 (by decide), frame26 m c main_call7_cst (by decide)]; exact kd0_main_call7_v1 m c
theorem kd0_main_v87 : W26 m c (Proc.devRef .tc main_v87) = (Host.sqrt : (⟨S_, .f32⟩ : BufTy).Contents (Elt F) → (⟨S_, .f32⟩ : BufTy).Contents (Elt F)) (W26 m c (Proc.devRef .tc main_call7_v1)) := by
  dsimp only [W26, hostOps7_4]
  after_results_simp <;> (try simp only [StableHlo.TRef.ofBuf, StableHlo.TRef.toBuf, cast_eq]) <;> (try rfl)
theorem kd_main_v87 : W63 m c (Proc.devRef .tc main_v87) = (Host.sqrt : (⟨S_, .f32⟩ : BufTy).Contents (Elt F) → (⟨S_, .f32⟩ : BufTy).Contents (Elt F)) (W63 m c (Proc.devRef .tc main_call7_v1)) := by
  rw [frame26 m c main_v87 (by decide), frame26 m c main_call7_v1 (by decide)]; exact kd0_main_v87 m c
theorem kd0_main_v88 : W27 m c (Proc.devRef .tc main_v88) = (iotaInDim S1024x1024 32 0) := by
  dsimp only [W27, hostOps7_5]
  after_results_simp <;> (try simp only [StableHlo.TRef.ofBuf, StableHlo.TRef.toBuf, cast_eq]) <;> (try rfl)
theorem kd_main_v88 : W63 m c (Proc.devRef .tc main_v88) = (iotaInDim S1024x1024 32 0) := by
  rw [frame27 m c main_v88 (by decide)]; exact kd0_main_v88 m c
theorem kd0_main_v89 : W27 m c (Proc.devRef .tc main_v89) = (iotaInDim S1024x1024 32 1) := by
  dsimp only [W27, hostOps7_5]
  after_results_simp <;> (try simp only [StableHlo.TRef.ofBuf, StableHlo.TRef.toBuf, cast_eq]) <;> (try rfl)
theorem kd_main_v89 : W63 m c (Proc.devRef .tc main_v89) = (iotaInDim S1024x1024 32 1) := by
  rw [frame27 m c main_v89 (by decide)]; exact kd0_main_v89 m c
theorem kd0_main_c_15 : W27 m c (Proc.devRef .tc main_c_15) = (constantI S_ 32 0#32) := by
  dsimp only [W27, hostOps7_5]
  after_results_simp <;> (try simp only [StableHlo.TRef.ofBuf, StableHlo.TRef.toBuf, cast_eq]) <;> (try rfl)
theorem kd_main_c_15 : W63 m c (Proc.devRef .tc main_c_15) = (constantI S_ 32 0#32) := by
  rw [frame27 m c main_c_15 (by decide)]; exact kd0_main_c_15 m c
theorem kd0_main_v90 : W27 m c (Proc.devRef .tc main_v90) = (broadcastInDim S1024x1024 ![] bcast_S_S1024x1024 : (⟨S_, .i32⟩ : BufTy).Contents (Elt F) → (⟨S1024x1024, .i32⟩ : BufTy).Contents (Elt F)) (W27 m c (Proc.devRef .tc main_c_15)) := by
  dsimp only [W27, hostOps7_5]
  after_results_simp <;> (try simp only [StableHlo.TRef.ofBuf, StableHlo.TRef.toBuf, cast_eq]) <;> (try rfl)
theorem kd_main_v90 : W63 m c (Proc.devRef .tc main_v90) = (broadcastInDim S1024x1024 ![] bcast_S_S1024x1024 : (⟨S_, .i32⟩ : BufTy).Contents (Elt F) → (⟨S1024x1024, .i32⟩ : BufTy).Contents (Elt F)) (W63 m c (Proc.devRef .tc main_c_15)) := by
  rw [frame27 m c main_v90 (by decide), frame27 m c main_c_15 (by decide)]; exact kd0_main_v90 m c
theorem kd0_main_v91 : W27 m c (Proc.devRef .tc main_v91) = (addi : (⟨S1024x1024, .i32⟩ : BufTy).Contents (Elt F) → (⟨S1024x1024, .i32⟩ : BufTy).Contents (Elt F) → (⟨S1024x1024, .i32⟩ : BufTy).Contents (Elt F)) (W27 m c (Proc.devRef .tc main_v88)) (W27 m c (Proc.devRef .tc main_v90)) := by
  dsimp only [W27, hostOps7_5]
  after_results_simp <;> (try simp only [StableHlo.TRef.ofBuf, StableHlo.TRef.toBuf, cast_eq]) <;> (try rfl)
theorem kd_main_v91 : W63 m c (Proc.devRef .tc main_v91) = (addi : (⟨S1024x1024, .i32⟩ : BufTy).Contents (Elt F) → (⟨S1024x1024, .i32⟩ : BufTy).Contents (Elt F) → (⟨S1024x1024, .i32⟩ : BufTy).Contents (Elt F)) (W63 m c (Proc.devRef .tc main_v88)) (W63 m c (Proc.devRef .tc main_v90)) := by
  rw [frame27 m c main_v91 (by decide), frame27 m c main_v88 (by decide), frame27 m c main_v90 (by decide)]; exact kd0_main_v91 m c
theorem kd0_main_v92 : W27 m c (Proc.devRef .tc main_v92) = (cmpi .eq : (⟨S1024x1024, .i32⟩ : BufTy).Contents (Elt F) → (⟨S1024x1024, .i32⟩ : BufTy).Contents (Elt F) → (⟨S1024x1024, .i1⟩ : BufTy).Contents (Elt F)) (W27 m c (Proc.devRef .tc main_v91)) (W27 m c (Proc.devRef .tc main_v89)) := by
  dsimp only [W27, hostOps7_5]
  after_results_simp <;> (try simp only [StableHlo.TRef.ofBuf, StableHlo.TRef.toBuf, cast_eq]) <;> (try rfl)
theorem kd_main_v92 : W63 m c (Proc.devRef .tc main_v92) = (cmpi .eq : (⟨S1024x1024, .i32⟩ : BufTy).Contents (Elt F) → (⟨S1024x1024, .i32⟩ : BufTy).Contents (Elt F) → (⟨S1024x1024, .i1⟩ : BufTy).Contents (Elt F)) (W63 m c (Proc.devRef .tc main_v91)) (W63 m c (Proc.devRef .tc main_v89)) := by
  rw [frame27 m c main_v92 (by decide), frame27 m c main_v91 (by decide), frame27 m c main_v89 (by decide)]; exact kd0_main_v92 m c
theorem kd0_main_v93 : W27 m c (Proc.devRef .tc main_v93) = (uitofp .f32 : (⟨S1024x1024, .i1⟩ : BufTy).Contents (Elt F) → (⟨S1024x1024, .f32⟩ : BufTy).Contents (Elt F)) (W27 m c (Proc.devRef .tc main_v92)) := by
  dsimp only [W27, hostOps7_5]
  after_results_simp <;> (try simp only [StableHlo.TRef.ofBuf, StableHlo.TRef.toBuf, cast_eq]) <;> (try rfl)
theorem kd_main_v93 : W63 m c (Proc.devRef .tc main_v93) = (uitofp .f32 : (⟨S1024x1024, .i1⟩ : BufTy).Contents (Elt F) → (⟨S1024x1024, .f32⟩ : BufTy).Contents (Elt F)) (W63 m c (Proc.devRef .tc main_v92)) := by
  rw [frame27 m c main_v93 (by decide), frame27 m c main_v92 (by decide)]; exact kd0_main_v93 m c
theorem kd0_main_cst_16 : W27 m c (Proc.devRef .tc main_cst_16) = (constant S_ .f32 0x3F800000#32) := by
  dsimp only [W27, hostOps7_5]
  after_results_simp <;> (try simp only [StableHlo.TRef.ofBuf, StableHlo.TRef.toBuf, cast_eq]) <;> (try rfl)
theorem kd_main_cst_16 : W63 m c (Proc.devRef .tc main_cst_16) = (constant S_ .f32 0x3F800000#32) := by
  rw [frame27 m c main_cst_16 (by decide)]; exact kd0_main_cst_16 m c
theorem kd0_main_v94 : W27 m c (Proc.devRef .tc main_v94) = (broadcastInDim S1024x1024 ![] bcast_S_S1024x1024 : (⟨S_, .f32⟩ : BufTy).Contents (Elt F) → (⟨S1024x1024, .f32⟩ : BufTy).Contents (Elt F)) (W27 m c (Proc.devRef .tc main_cst_16)) := by
  dsimp only [W27, hostOps7_5]
  after_results_simp <;> (try simp only [StableHlo.TRef.ofBuf, StableHlo.TRef.toBuf, cast_eq]) <;> (try rfl)
theorem kd_main_v94 : W63 m c (Proc.devRef .tc main_v94) = (broadcastInDim S1024x1024 ![] bcast_S_S1024x1024 : (⟨S_, .f32⟩ : BufTy).Contents (Elt F) → (⟨S1024x1024, .f32⟩ : BufTy).Contents (Elt F)) (W63 m c (Proc.devRef .tc main_cst_16)) := by
  rw [frame27 m c main_v94 (by decide), frame27 m c main_cst_16 (by decide)]; exact kd0_main_v94 m c
theorem kd0_main_v95 : W27 m c (Proc.devRef .tc main_v95) = (subf : (⟨S1024x1024, .f32⟩ : BufTy).Contents (Elt F) → (⟨S1024x1024, .f32⟩ : BufTy).Contents (Elt F) → (⟨S1024x1024, .f32⟩ : BufTy).Contents (Elt F)) (W27 m c (Proc.devRef .tc main_v94)) (W27 m c (Proc.devRef .tc main_v93)) := by
  dsimp only [W27, hostOps7_5]
  after_results_simp <;> (try simp only [StableHlo.TRef.ofBuf, StableHlo.TRef.toBuf, cast_eq]) <;> (try rfl)
theorem kd_main_v95 : W63 m c (Proc.devRef .tc main_v95) = (subf : (⟨S1024x1024, .f32⟩ : BufTy).Contents (Elt F) → (⟨S1024x1024, .f32⟩ : BufTy).Contents (Elt F) → (⟨S1024x1024, .f32⟩ : BufTy).Contents (Elt F)) (W63 m c (Proc.devRef .tc main_v94)) (W63 m c (Proc.devRef .tc main_v93)) := by
  rw [frame27 m c main_v95 (by decide), frame27 m c main_v94 (by decide), frame27 m c main_v93 (by decide)]; exact kd0_main_v95 m c
theorem kd0_main_v96 : W27 m c (Proc.devRef .tc main_v96) = (mulf : (⟨S1024x1024, .f32⟩ : BufTy).Contents (Elt F) → (⟨S1024x1024, .f32⟩ : BufTy).Contents (Elt F) → (⟨S1024x1024, .f32⟩ : BufTy).Contents (Elt F)) (W27 m c (Proc.devRef .tc main_v62)) (W27 m c (Proc.devRef .tc main_v95)) := by
  dsimp only [W27, hostOps7_5]
  after_results_simp <;> (try simp only [StableHlo.TRef.ofBuf, StableHlo.TRef.toBuf, cast_eq]) <;> (try rfl)
theorem kd_main_v96 : W63 m c (Proc.devRef .tc main_v96) = (mulf : (⟨S1024x1024, .f32⟩ : BufTy).Contents (Elt F) → (⟨S1024x1024, .f32⟩ : BufTy).Contents (Elt F) → (⟨S1024x1024, .f32⟩ : BufTy).Contents (Elt F)) (W63 m c (Proc.devRef .tc main_v62)) (W63 m c (Proc.devRef .tc main_v95)) := by
  rw [frame27 m c main_v96 (by decide), frame27 m c main_v62 (by decide), frame27 m c main_v95 (by decide)]; exact kd0_main_v96 m c
theorem kd0_main_cst_17 : W27 m c (Proc.devRef .tc main_cst_17) = (constant S_ .f32 0x00000000#32) := by
  dsimp only [W27, hostOps7_5]
  after_results_simp <;> (try simp only [StableHlo.TRef.ofBuf, StableHlo.TRef.toBuf, cast_eq]) <;> (try rfl)
theorem kd_main_cst_17 : W63 m c (Proc.devRef .tc main_cst_17) = (constant S_ .f32 0x00000000#32) := by
  rw [frame27 m c main_cst_17 (by decide)]; exact kd0_main_cst_17 m c
theorem kd0_main_v97 : W27 m c (Proc.devRef .tc main_v97) = ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)) (W27 m c (Proc.devRef .tc main_v96)) (W27 m c (Proc.devRef .tc main_cst_17)) := by
  dsimp only [W27, hostOps7_5]
  after_results_simp <;> (try simp only [StableHlo.TRef.ofBuf, StableHlo.TRef.toBuf, cast_eq]) <;> (try rfl)
theorem kd_main_v97 : W63 m c (Proc.devRef .tc main_v97) = ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)) (W63 m c (Proc.devRef .tc main_v96)) (W63 m c (Proc.devRef .tc main_cst_17)) := by
  rw [frame27 m c main_v97 (by decide), frame27 m c main_v96 (by decide), frame27 m c main_cst_17 (by decide)]; exact kd0_main_v97 m c
theorem kd0_main_v98 : W27 m c (Proc.devRef .tc main_v98) = (Host.sqrt : (⟨S1024, .f32⟩ : BufTy).Contents (Elt F) → (⟨S1024, .f32⟩ : BufTy).Contents (Elt F)) (W27 m c (Proc.devRef .tc main_v97)) := by
  dsimp only [W27, hostOps7_5]
  after_results_simp <;> (try simp only [StableHlo.TRef.ofBuf, StableHlo.TRef.toBuf, cast_eq]) <;> (try rfl)
theorem kd_main_v98 : W63 m c (Proc.devRef .tc main_v98) = (Host.sqrt : (⟨S1024, .f32⟩ : BufTy).Contents (Elt F) → (⟨S1024, .f32⟩ : BufTy).Contents (Elt F)) (W63 m c (Proc.devRef .tc main_v97)) := by
  rw [frame27 m c main_v98 (by decide), frame27 m c main_v97 (by decide)]; exact kd0_main_v98 m c
theorem kd0_main_v99 : W27 m c (Proc.devRef .tc main_v99) = (broadcastInDim S1024x1 ![0] bcast_S1024_S1024x1_0 : (⟨S1024, .f32⟩ : BufTy).Contents (Elt F) → (⟨S1024x1, .f32⟩ : BufTy).Contents (Elt F)) (W27 m c (Proc.devRef .tc main_v98)) := by
  dsimp only [W27, hostOps7_5]
  after_results_simp <;> (try simp only [StableHlo.TRef.ofBuf, StableHlo.TRef.toBuf, cast_eq]) <;> (try rfl)
theorem kd_main_v99 : W63 m c (Proc.devRef .tc main_v99) = (broadcastInDim S1024x1 ![0] bcast_S1024_S1024x1_0 : (⟨S1024, .f32⟩ : BufTy).Contents (Elt F) → (⟨S1024x1, .f32⟩ : BufTy).Contents (Elt F)) (W63 m c (Proc.devRef .tc main_v98)) := by
  rw [frame27 m c main_v99 (by decide), frame27 m c main_v98 (by decide)]; exact kd0_main_v99 m c
theorem kd0_main_cst_18 : W27 m c (Proc.devRef .tc main_cst_18) = (constant S_ .f32 0x26901D7D#32) := by
  dsimp only [W27, hostOps7_5]
  after_results_simp <;> (try simp only [StableHlo.TRef.ofBuf, StableHlo.TRef.toBuf, cast_eq]) <;> (try rfl)
theorem kd_main_cst_18 : W63 m c (Proc.devRef .tc main_cst_18) = (constant S_ .f32 0x26901D7D#32) := by
  rw [frame27 m c main_cst_18 (by decide)]; exact kd0_main_cst_18 m c
theorem kd0_main_v100 : W27 m c (Proc.devRef .tc main_v100) = (broadcastInDim S1024x1 ![] bcast_S_S1024x1 : (⟨S_, .f32⟩ : BufTy).Contents (Elt F) → (⟨S1024x1, .f32⟩ : BufTy).Contents (Elt F)) (W27 m c (Proc.devRef .tc main_cst_18)) := by
  dsimp only [W27, hostOps7_5]
  after_results_simp <;> (try simp only [StableHlo.TRef.ofBuf, StableHlo.TRef.toBuf, cast_eq]) <;> (try rfl)
theorem kd_main_v100 : W63 m c (Proc.devRef .tc main_v100) = (broadcastInDim S1024x1 ![] bcast_S_S1024x1 : (⟨S_, .f32⟩ : BufTy).Contents (Elt F) → (⟨S1024x1, .f32⟩ : BufTy).Contents (Elt F)) (W63 m c (Proc.devRef .tc main_cst_18)) := by
  rw [frame27 m c main_v100 (by decide), frame27 m c main_cst_18 (by decide)]; exact kd0_main_v100 m c
theorem kd0_main_v101 : W27 m c (Proc.devRef .tc main_v101) = (addf : (⟨S1024x1, .f32⟩ : BufTy).Contents (Elt F) → (⟨S1024x1, .f32⟩ : BufTy).Contents (Elt F) → (⟨S1024x1, .f32⟩ : BufTy).Contents (Elt F)) (W27 m c (Proc.devRef .tc main_v99)) (W27 m c (Proc.devRef .tc main_v100)) := by
  dsimp only [W27, hostOps7_5]
  after_results_simp <;> (try simp only [StableHlo.TRef.ofBuf, StableHlo.TRef.toBuf, cast_eq]) <;> (try rfl)
theorem kd_main_v101 : W63 m c (Proc.devRef .tc main_v101) = (addf : (⟨S1024x1, .f32⟩ : BufTy).Contents (Elt F) → (⟨S1024x1, .f32⟩ : BufTy).Contents (Elt F) → (⟨S1024x1, .f32⟩ : BufTy).Contents (Elt F)) (W63 m c (Proc.devRef .tc main_v99)) (W63 m c (Proc.devRef .tc main_v100)) := by
  rw [frame27 m c main_v101 (by decide), frame27 m c main_v99 (by decide), frame27 m c main_v100 (by decide)]; exact kd0_main_v101 m c
theorem kd0_main_v102 : W27 m c (Proc.devRef .tc main_v102) = (broadcastInDim S1024x1024 ![0, 1] bcast_S1024x1_S1024x1024_0_1 : (⟨S1024x1, .f32⟩ : BufTy).Contents (Elt F) → (⟨S1024x1024, .f32⟩ : BufTy).Contents (Elt F)) (W27 m c (Proc.devRef .tc main_v101)) := by
  dsimp only [W27, hostOps7_5]
  after_results_simp <;> (try simp only [StableHlo.TRef.ofBuf, StableHlo.TRef.toBuf, cast_eq]) <;> (try rfl)
theorem kd_main_v102 : W63 m c (Proc.devRef .tc main_v102) = (broadcastInDim S1024x1024 ![0, 1] bcast_S1024x1_S1024x1024_0_1 : (⟨S1024x1, .f32⟩ : BufTy).Contents (Elt F) → (⟨S1024x1024, .f32⟩ : BufTy).Contents (Elt F)) (W63 m c (Proc.devRef .tc main_v101)) := by
  rw [frame27 m c main_v102 (by decide), frame27 m c main_v101 (by decide)]; exact kd0_main_v102 m c
theorem kd0_main_v103 : W27 m c (Proc.devRef .tc main_v103) = (Host.divf : (⟨S1024x1024, .f32⟩ : BufTy).Contents (Elt F) → (⟨S1024x1024, .f32⟩ : BufTy).Contents (Elt F) → (⟨S1024x1024, .f32⟩ : BufTy).Contents (Elt F)) (W27 m c (Proc.devRef .tc main_v96)) (W27 m c (Proc.devRef .tc main_v102)) := by
  dsimp only [W27, hostOps7_5]
  after_results_simp <;> (try simp only [StableHlo.TRef.ofBuf, StableHlo.TRef.toBuf, cast_eq]) <;> (try rfl)
theorem kd_main_v103 : W63 m c (Proc.devRef .tc main_v103) = (Host.divf : (⟨S1024x1024, .f32⟩ : BufTy).Contents (Elt F) → (⟨S1024x1024, .f32⟩ : BufTy).Contents (Elt F) → (⟨S1024x1024, .f32⟩ : BufTy).Contents (Elt F)) (W63 m c (Proc.devRef .tc main_v96)) (W63 m c (Proc.devRef .tc main_v102)) := by
  rw [frame27 m c main_v103 (by decide), frame27 m c main_v96 (by decide), frame27 m c main_v102 (by decide)]; exact kd0_main_v103 m c
theorem kd0_main_v104 : W27 m c (Proc.devRef .tc main_v104) = ((transpose S1x1024 [1, 0] · transposes_S1024x1_S1x1024_1_0) : (⟨S1024x1, .f32⟩ : BufTy).Contents (Elt F) → (⟨S1x1024, .f32⟩ : BufTy).Contents (Elt F)) (W27 m c (Proc.devRef .tc main_v101)) := by
  dsimp only [W27, hostOps7_5]
  after_results_simp <;> (try simp only [StableHlo.TRef.ofBuf, StableHlo.TRef.toBuf, cast_eq]) <;> (try rfl)
theorem kd_main_v104 : W63 m c (Proc.devRef .tc main_v104) = ((transpose S1x1024 [1, 0] · transposes_S1024x1_S1x1024_1_0) : (⟨S1024x1, .f32⟩ : BufTy).Contents (Elt F) → (⟨S1x1024, .f32⟩ : BufTy).Contents (Elt F)) (W63 m c (Proc.devRef .tc main_v101)) := by
  rw [frame27 m c main_v104 (by decide), frame27 m c main_v101 (by decide)]; exact kd0_main_v104 m c
theorem kd0_main_v105 : W27 m c (Proc.devRef .tc main_v105) = (broadcastInDim S1024x1024 ![0, 1] bcast_S1x1024_S1024x1024_0_1 : (⟨S1x1024, .f32⟩ : BufTy).Contents (Elt F) → (⟨S1024x1024, .f32⟩ : BufTy).Contents (Elt F)) (W27 m c (Proc.devRef .tc main_v104)) := by
  dsimp only [W27, hostOps7_5]
  after_results_simp <;> (try simp only [StableHlo.TRef.ofBuf, StableHlo.TRef.toBuf, cast_eq]) <;> (try rfl)
theorem kd_main_v105 : W63 m c (Proc.devRef .tc main_v105) = (broadcastInDim S1024x1024 ![0, 1] bcast_S1x1024_S1024x1024_0_1 : (⟨S1x1024, .f32⟩ : BufTy).Contents (Elt F) → (⟨S1024x1024, .f32⟩ : BufTy).Contents (Elt F)) (W63 m c (Proc.devRef .tc main_v104)) := by
  rw [frame27 m c main_v105 (by decide), frame27 m c main_v104 (by decide)]; exact kd0_main_v105 m c
theorem kd0_main_v106 : W27 m c (Proc.devRef .tc main_v106) = (Host.divf : (⟨S1024x1024, .f32⟩ : BufTy).Contents (Elt F) → (⟨S1024x1024, .f32⟩ : BufTy).Contents (Elt F) → (⟨S1024x1024, .f32⟩ : BufTy).Contents (Elt F)) (W27 m c (Proc.devRef .tc main_v103)) (W27 m c (Proc.devRef .tc main_v105)) := by
  dsimp only [W27, hostOps7_5]
  after_results_simp <;> (try simp only [StableHlo.TRef.ofBuf, StableHlo.TRef.toBuf, cast_eq]) <;> (try rfl)
theorem kd_main_v106 : W63 m c (Proc.devRef .tc main_v106) = (Host.divf : (⟨S1024x1024, .f32⟩ : BufTy).Contents (Elt F) → (⟨S1024x1024, .f32⟩ : BufTy).Contents (Elt F) → (⟨S1024x1024, .f32⟩ : BufTy).Contents (Elt F)) (W63 m c (Proc.devRef .tc main_v103)) (W63 m c (Proc.devRef .tc main_v105)) := by
  rw [frame27 m c main_v106 (by decide), frame27 m c main_v103 (by decide), frame27 m c main_v105 (by decide)]; exact kd0_main_v106 m c
theorem kd0_main_v107 : W27 m c (Proc.devRef .tc main_v107) = (iotaInDim S1024x1024 32 0) := by
  dsimp only [W27, hostOps7_5]
  after_results_simp <;> (try simp only [StableHlo.TRef.ofBuf, StableHlo.TRef.toBuf, cast_eq]) <;> (try rfl)
theorem kd_main_v107 : W63 m c (Proc.devRef .tc main_v107) = (iotaInDim S1024x1024 32 0) := by
  rw [frame27 m c main_v107 (by decide)]; exact kd0_main_v107 m c
theorem kd0_main_v108 : W27 m c (Proc.devRef .tc main_v108) = (iotaInDim S1024x1024 32 1) := by
  dsimp only [W27, hostOps7_5]
  after_results_simp <;> (try simp only [StableHlo.TRef.ofBuf, StableHlo.TRef.toBuf, cast_eq]) <;> (try rfl)
theorem kd_main_v108 : W63 m c (Proc.devRef .tc main_v108) = (iotaInDim S1024x1024 32 1) := by
  rw [frame27 m c main_v108 (by decide)]; exact kd0_main_v108 m c
theorem kd0_main_c_19 : W27 m c (Proc.devRef .tc main_c_19) = (constantI S_ 32 0#32) := by
  dsimp only [W27, hostOps7_5]
  after_results_simp <;> (try simp only [StableHlo.TRef.ofBuf, StableHlo.TRef.toBuf, cast_eq]) <;> (try rfl)
theorem kd_main_c_19 : W63 m c (Proc.devRef .tc main_c_19) = (constantI S_ 32 0#32) := by
  rw [frame27 m c main_c_19 (by decide)]; exact kd0_main_c_19 m c
theorem kd0_main_v109 : W27 m c (Proc.devRef .tc main_v109) = (broadcastInDim S1024x1024 ![] bcast_S_S1024x1024 : (⟨S_, .i32⟩ : BufTy).Contents (Elt F) → (⟨S1024x1024, .i32⟩ : BufTy).Contents (Elt F)) (W27 m c (Proc.devRef .tc main_c_19)) := by
  dsimp only [W27, hostOps7_5]
  after_results_simp <;> (try simp only [StableHlo.TRef.ofBuf, StableHlo.TRef.toBuf, cast_eq]) <;> (try rfl)
theorem kd_main_v109 : W63 m c (Proc.devRef .tc main_v109) = (broadcastInDim S1024x1024 ![] bcast_S_S1024x1024 : (⟨S_, .i32⟩ : BufTy).Contents (Elt F) → (⟨S1024x1024, .i32⟩ : BufTy).Contents (Elt F)) (W63 m c (Proc.devRef .tc main_c_19)) := by
  rw [frame27 m c main_v109 (by decide), frame27 m c main_c_19 (by decide)]; exact kd0_main_v109 m c
theorem kd0_main_v110 : W27 m c (Proc.devRef .tc main_v110) = (addi : (⟨S1024x1024, .i32⟩ : BufTy).Contents (Elt F) → (⟨S1024x1024, .i32⟩ : BufTy).Contents (Elt F) → (⟨S1024x1024, .i32⟩ : BufTy).Contents (Elt F)) (W27 m c (Proc.devRef .tc main_v107)) (W27 m c (Proc.devRef .tc main_v109)) := by
  dsimp only [W27, hostOps7_5]
  after_results_simp <;> (try simp only [StableHlo.TRef.ofBuf, StableHlo.TRef.toBuf, cast_eq]) <;> (try rfl)
theorem kd_main_v110 : W63 m c (Proc.devRef .tc main_v110) = (addi : (⟨S1024x1024, .i32⟩ : BufTy).Contents (Elt F) → (⟨S1024x1024, .i32⟩ : BufTy).Contents (Elt F) → (⟨S1024x1024, .i32⟩ : BufTy).Contents (Elt F)) (W63 m c (Proc.devRef .tc main_v107)) (W63 m c (Proc.devRef .tc main_v109)) := by
  rw [frame27 m c main_v110 (by decide), frame27 m c main_v107 (by decide), frame27 m c main_v109 (by decide)]; exact kd0_main_v110 m c
theorem kd0_main_v111 : W27 m c (Proc.devRef .tc main_v111) = (cmpi .eq : (⟨S1024x1024, .i32⟩ : BufTy).Contents (Elt F) → (⟨S1024x1024, .i32⟩ : BufTy).Contents (Elt F) → (⟨S1024x1024, .i1⟩ : BufTy).Contents (Elt F)) (W27 m c (Proc.devRef .tc main_v110)) (W27 m c (Proc.devRef .tc main_v108)) := by
  dsimp only [W27, hostOps7_5]
  after_results_simp <;> (try simp only [StableHlo.TRef.ofBuf, StableHlo.TRef.toBuf, cast_eq]) <;> (try rfl)
theorem kd_main_v111 : W63 m c (Proc.devRef .tc main_v111) = (cmpi .eq : (⟨S1024x1024, .i32⟩ : BufTy).Contents (Elt F) → (⟨S1024x1024, .i32⟩ : BufTy).Contents (Elt F) → (⟨S1024x1024, .i1⟩ : BufTy).Contents (Elt F)) (W63 m c (Proc.devRef .tc main_v110)) (W63 m c (Proc.devRef .tc main_v108)) := by
  rw [frame27 m c main_v111 (by decide), frame27 m c main_v110 (by decide), frame27 m c main_v108 (by decide)]; exact kd0_main_v111 m c
theorem kd0_main_v112 : W27 m c (Proc.devRef .tc main_v112) = (uitofp .f32 : (⟨S1024x1024, .i1⟩ : BufTy).Contents (Elt F) → (⟨S1024x1024, .f32⟩ : BufTy).Contents (Elt F)) (W27 m c (Proc.devRef .tc main_v111)) := by
  dsimp only [W27, hostOps7_5]
  after_results_simp <;> (try simp only [StableHlo.TRef.ofBuf, StableHlo.TRef.toBuf, cast_eq]) <;> (try rfl)
theorem kd_main_v112 : W63 m c (Proc.devRef .tc main_v112) = (uitofp .f32 : (⟨S1024x1024, .i1⟩ : BufTy).Contents (Elt F) → (⟨S1024x1024, .f32⟩ : BufTy).Contents (Elt F)) (W63 m c (Proc.devRef .tc main_v111)) := by
  rw [frame27 m c main_v112 (by decide), frame27 m c main_v111 (by decide)]; exact kd0_main_v112 m c
theorem kd0_main_v113 : W27 m c (Proc.devRef .tc main_v113) = (addf : (⟨S1024x1024, .f32⟩ : BufTy).Contents (Elt F) → (⟨S1024x1024, .f32⟩ : BufTy).Contents (Elt F) → (⟨S1024x1024, .f32⟩ : BufTy).Contents (Elt F)) (W27 m c (Proc.devRef .tc main_v106)) (W27 m c (Proc.devRef .tc main_v112)) := by
  dsimp only [W27, hostOps7_5]
  after_results_simp <;> (try simp only [StableHlo.TRef.ofBuf, StableHlo.TRef.toBuf, cast_eq]) <;> (try rfl)
theorem kd_main_v113 : W63 m c (Proc.devRef .tc main_v113) = (addf : (⟨S1024x1024, .f32⟩ : BufTy).Contents (Elt F) → (⟨S1024x1024, .f32⟩ : BufTy).Contents (Elt F) → (⟨S1024x1024, .f32⟩ : BufTy).Contents (Elt F)) (W63 m c (Proc.devRef .tc main_v106)) (W63 m c (Proc.devRef .tc main_v112)) := by
  rw [frame27 m c main_v113 (by decide), frame27 m c main_v106 (by decide), frame27 m c main_v112 (by decide)]; exact kd0_main_v113 m c
theorem kd0_main_cst_20 : W27 m c (Proc.devRef .tc main_cst_20) = (constant S_ .f32 0x00000000#32) := by
  dsimp only [W27, hostOps7_5]
  after_results_simp <;> (try simp only [StableHlo.TRef.ofBuf, StableHlo.TRef.toBuf, cast_eq]) <;> (try rfl)
theorem kd_main_cst_20 : W63 m c (Proc.devRef .tc main_cst_20) = (constant S_ .f32 0x00000000#32) := by
  rw [frame27 m c main_cst_20 (by decide)]; exact kd0_main_cst_20 m c
theorem kd0_main_v114 : W27 m c (Proc.devRef .tc main_v114) = ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)) (W27 m c (Proc.devRef .tc main_v113)) (W27 m c (Proc.devRef .tc main_cst_20)) := by
  dsimp only [W27, hostOps7_5]
  after_results_simp <;> (try simp only [StableHlo.TRef.ofBuf, StableHlo.TRef.toBuf, cast_eq]) <;> (try rfl)
theorem kd_main_v114 : W63 m c (Proc.devRef .tc main_v114) = ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)) (W63 m c (Proc.devRef .tc main_v113)) (W63 m c (Proc.devRef .tc main_cst_20)) := by
  rw [frame27 m c main_v114 (by decide), frame27 m c main_v113 (by decide), frame27 m c main_cst_20 (by decide)]; exact kd0_main_v114 m c
theorem kd0_main_cst_21 : W27 m c (Proc.devRef .tc main_cst_21) = (constant S_ .f32 0x00000000#32) := by
  dsimp only [W27, hostOps7_5]
  after_results_simp <;> (try simp only [StableHlo.TRef.ofBuf, StableHlo.TRef.toBuf, cast_eq]) <;> (try rfl)
theorem kd_main_cst_21 : W63 m c (Proc.devRef .tc main_cst_21) = (constant S_ .f32 0x00000000#32) := by
  rw [frame27 m c main_cst_21 (by decide)]; exact kd0_main_cst_21 m c
theorem kd0_main_v115 : W27 m c (Proc.devRef .tc main_v115) = (broadcastInDim S1024 ![] bcast_S_S1024 : (⟨S_, .f32⟩ : BufTy).Contents (Elt F) → (⟨S1024, .f32⟩ : BufTy).Contents (Elt F)) (W27 m c (Proc.devRef .tc main_cst_21)) := by
  dsimp only [W27, hostOps7_5]
  after_results_simp <;> (try simp only [StableHlo.TRef.ofBuf, StableHlo.TRef.toBuf, cast_eq]) <;> (try rfl)
theorem kd_main_v115 : W63 m c (Proc.devRef .tc main_v115) = (broadcastInDim S1024 ![] bcast_S_S1024 : (⟨S_, .f32⟩ : BufTy).Contents (Elt F) → (⟨S1024, .f32⟩ : BufTy).Contents (Elt F)) (W63 m c (Proc.devRef .tc main_cst_21)) := by
  rw [frame27 m c main_v115 (by decide), frame27 m c main_cst_21 (by decide)]; exact kd0_main_v115 m c
theorem kd0_main_v116 : W27 m c (Proc.devRef .tc main_v116) = (cmpf .ogt : (⟨S1024, .f32⟩ : BufTy).Contents (Elt F) → (⟨S1024, .f32⟩ : BufTy).Contents (Elt F) → (⟨S1024, .i1⟩ : BufTy).Contents (Elt F)) (W27 m c (Proc.devRef .tc main_v114)) (W27 m c (Proc.devRef .tc main_v115)) := by
  dsimp only [W27, hostOps7_5]
  after_results_simp <;> (try simp only [StableHlo.TRef.ofBuf, StableHlo.TRef.toBuf, cast_eq]) <;> (try rfl)
theorem kd_main_v116 : W63 m c (Proc.devRef .tc main_v116) = (cmpf .ogt : (⟨S1024, .f32⟩ : BufTy).Contents (Elt F) → (⟨S1024, .f32⟩ : BufTy).Contents (Elt F) → (⟨S1024, .i1⟩ : BufTy).Contents (Elt F)) (W63 m c (Proc.devRef .tc main_v114)) (W63 m c (Proc.devRef .tc main_v115)) := by
  rw [frame27 m c main_v116 (by decide), frame27 m c main_v114 (by decide), frame27 m c main_v115 (by decide)]; exact kd0_main_v116 m c
theorem kd0_main_v117 : W27 m c (Proc.devRef .tc main_v117) = (Host.rsqrt : (⟨S1024, .f32⟩ : BufTy).Contents (Elt F) → (⟨S1024, .f32⟩ : BufTy).Contents (Elt F)) (W27 m c (Proc.devRef .tc main_v114)) := by
  dsimp only [W27, hostOps7_5]
  after_results_simp <;> (try simp only [StableHlo.TRef.ofBuf, StableHlo.TRef.toBuf, cast_eq]) <;> (try rfl)
theorem kd_main_v117 : W63 m c (Proc.devRef .tc main_v117) = (Host.rsqrt : (⟨S1024, .f32⟩ : BufTy).Contents (Elt F) → (⟨S1024, .f32⟩ : BufTy).Contents (Elt F)) (W63 m c (Proc.devRef .tc main_v114)) := by
  rw [frame27 m c main_v117 (by decide), frame27 m c main_v114 (by decide)]; exact kd0_main_v117 m c
theorem kd0_main_cst_22 : W27 m c (Proc.devRef .tc main_cst_22) = (constant S_ .f32 0x00000000#32) := by
  dsimp only [W27, hostOps7_5]
  after_results_simp <;> (try simp only [StableHlo.TRef.ofBuf, StableHlo.TRef.toBuf, cast_eq]) <;> (try rfl)
theorem kd_main_cst_22 : W63 m c (Proc.devRef .tc main_cst_22) = (constant S_ .f32 0x00000000#32) := by
  rw [frame27 m c main_cst_22 (by decide)]; exact kd0_main_cst_22 m c
theorem kd0_main_call8_v0 : W28 m c (Proc.devRef .tc main_call8_v0) = (id : (⟨S_, .f32⟩ : BufTy).Contents (Elt F) → (⟨S_, .f32⟩ : BufTy).Contents (Elt F)) (W28 m c (Proc.devRef .tc main_cst_22)) := by
  dsimp only [W28, hostOps7_6]
  after_results_simp <;> (try simp only [StableHlo.TRef.ofBuf, StableHlo.TRef.toBuf, cast_eq]) <;> (try rfl)
theorem kd_main_call8_v0 : W63 m c (Proc.devRef .tc main_call8_v0) = (id : (⟨S_, .f32⟩ : BufTy).Contents (Elt F) → (⟨S_, .f32⟩ : BufTy).Contents (Elt F)) (W63 m c (Proc.devRef .tc main_cst_22)) := by
  rw [frame28 m c main_call8_v0 (by decide), frame28 m c main_cst_22 (by decide)]; exact kd0_main_call8_v0 m c
theorem kd0_main_call8_v1 : W28 m c (Proc.devRef .tc main_call8_v1) = ((broadcastInDim S1024 ![] bcast_S_S1024) : (⟨S_, .f32⟩ : BufTy).Contents (Elt F) → (⟨S1024, .f32⟩ : BufTy).Contents (Elt F)) (W28 m c (Proc.devRef .tc main_call8_v0)) := by
  dsimp only [W28, hostOps7_6]
  after_results_simp <;> (try simp only [StableHlo.TRef.ofBuf, StableHlo.TRef.toBuf, cast_eq]) <;> (try rfl)
theorem kd_main_call8_v1 : W63 m c (Proc.devRef .tc main_call8_v1) = ((broadcastInDim S1024 ![] bcast_S_S1024) : (⟨S_, .f32⟩ : BufTy).Contents (Elt F) → (⟨S1024, .f32⟩ : BufTy).Contents (Elt F)) (W63 m c (Proc.devRef .tc main_call8_v0)) := by
  rw [frame28 m c main_call8_v1 (by decide), frame28 m c main_call8_v0 (by decide)]; exact kd0_main_call8_v1 m c
theorem kd0_main_v118 : W28 m c (Proc.devRef .tc main_v118) = (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)) (W28 m c (Proc.devRef .tc main_v116)) (W28 m c (Proc.devRef .tc main_v117)) (W28 m c (Proc.devRef .tc main_call8_v1)) := by
  dsimp only [W28, hostOps7_6]
  after_results_simp <;> (try simp only [StableHlo.TRef.ofBuf, StableHlo.TRef.toBuf, cast_eq]) <;> (try rfl)
theorem kd_main_v118 : W63 m c (Proc.devRef .tc main_v118) = (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)) (W63 m c (Proc.devRef .tc main_v116)) (W63 m c (Proc.devRef .tc main_v117)) (W63 m c (Proc.devRef .tc main_call8_v1)) := by
  rw [frame28 m c main_v118 (by decide), frame28 m c main_v116 (by decide), frame28 m c main_v117 (by decide), frame28 m c main_call8_v1 (by decide)]; exact kd0_main_v118 m c

end Cert.KernelIdeal.Hand

end
-- ==== Proof.KI.Reads3.lean ====
/- What each host operation of @main leaves in its result buffer, read at the last boundary's contents: the operation's
   function of its operands' contents there (every buffer is written once). Stretches: hostOps7_7, hostOps8, hostOps9, hostOps10, hostOps14, hostOps14_1, hostOps14_2, hostOps14_3, hostOps14_4. -/
import proofs.«405323_j90718299226206_3_alg».proof.Proof.KI.Frames

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem kd0_main_v119 : W29 m c (Proc.devRef .tc main_v119) = (broadcastInDim S1024x1 ![0] bcast_S1024_S1024x1_0 : (⟨S1024, .f32⟩ : BufTy).Contents (Elt F) → (⟨S1024x1, .f32⟩ : BufTy).Contents (Elt F)) (W29 m c (Proc.devRef .tc main_v118)) := by
  dsimp only [W29, hostOps7_7]
  after_results_simp <;> (try simp only [StableHlo.TRef.ofBuf, StableHlo.TRef.toBuf, cast_eq]) <;> (try rfl)
theorem kd_main_v119 : W63 m c (Proc.devRef .tc main_v119) = (broadcastInDim S1024x1 ![0] bcast_S1024_S1024x1_0 : (⟨S1024, .f32⟩ : BufTy).Contents (Elt F) → (⟨S1024x1, .f32⟩ : BufTy).Contents (Elt F)) (W63 m c (Proc.devRef .tc main_v118)) := by
  rw [frame29 m c main_v119 (by decide), frame29 m c main_v118 (by decide)]; exact kd0_main_v119 m c
theorem kd0_main_v120 : W29 m c (Proc.devRef .tc main_v120) = (broadcastInDim S1024x1024 ![0, 1] bcast_S1024x1_S1024x1024_0_1 : (⟨S1024x1, .f32⟩ : BufTy).Contents (Elt F) → (⟨S1024x1024, .f32⟩ : BufTy).Contents (Elt F)) (W29 m c (Proc.devRef .tc main_v119)) := by
  dsimp only [W29, hostOps7_7]
  after_results_simp <;> (try simp only [StableHlo.TRef.ofBuf, StableHlo.TRef.toBuf, cast_eq]) <;> (try rfl)
theorem kd_main_v120 : W63 m c (Proc.devRef .tc main_v120) = (broadcastInDim S1024x1024 ![0, 1] bcast_S1024x1_S1024x1024_0_1 : (⟨S1024x1, .f32⟩ : BufTy).Contents (Elt F) → (⟨S1024x1024, .f32⟩ : BufTy).Contents (Elt F)) (W63 m c (Proc.devRef .tc main_v119)) := by
  rw [frame29 m c main_v120 (by decide), frame29 m c main_v119 (by decide)]; exact kd0_main_v120 m c
theorem kd0_main_v121 : W29 m c (Proc.devRef .tc main_v121) = (mulf : (⟨S1024x1024, .f32⟩ : BufTy).Contents (Elt F) → (⟨S1024x1024, .f32⟩ : BufTy).Contents (Elt F) → (⟨S1024x1024, .f32⟩ : BufTy).Contents (Elt F)) (W29 m c (Proc.devRef .tc main_v120)) (W29 m c (Proc.devRef .tc main_v113)) := by
  dsimp only [W29, hostOps7_7]
  after_results_simp <;> (try simp only [StableHlo.TRef.ofBuf, StableHlo.TRef.toBuf, cast_eq]) <;> (try rfl)
theorem kd_main_v121 : W63 m c (Proc.devRef .tc main_v121) = (mulf : (⟨S1024x1024, .f32⟩ : BufTy).Contents (Elt F) → (⟨S1024x1024, .f32⟩ : BufTy).Contents (Elt F) → (⟨S1024x1024, .f32⟩ : BufTy).Contents (Elt F)) (W63 m c (Proc.devRef .tc main_v120)) (W63 m c (Proc.devRef .tc main_v113)) := by
  rw [frame29 m c main_v121 (by decide), frame29 m c main_v120 (by decide), frame29 m c main_v113 (by decide)]; exact kd0_main_v121 m c
theorem kd0_main_v122 : W29 m c (Proc.devRef .tc main_v122) = (broadcastInDim S1x1024 ![1] bcast_S1024_S1x1024_1 : (⟨S1024, .f32⟩ : BufTy).Contents (Elt F) → (⟨S1x1024, .f32⟩ : BufTy).Contents (Elt F)) (W29 m c (Proc.devRef .tc main_v118)) := by
  dsimp only [W29, hostOps7_7]
  after_results_simp <;> (try simp only [StableHlo.TRef.ofBuf, StableHlo.TRef.toBuf, cast_eq]) <;> (try rfl)
theorem kd_main_v122 : W63 m c (Proc.devRef .tc main_v122) = (broadcastInDim S1x1024 ![1] bcast_S1024_S1x1024_1 : (⟨S1024, .f32⟩ : BufTy).Contents (Elt F) → (⟨S1x1024, .f32⟩ : BufTy).Contents (Elt F)) (W63 m c (Proc.devRef .tc main_v118)) := by
  rw [frame29 m c main_v122 (by decide), frame29 m c main_v118 (by decide)]; exact kd0_main_v122 m c
theorem kd0_main_v123 : W29 m c (Proc.devRef .tc main_v123) = (broadcastInDim S1024x1024 ![0, 1] bcast_S1x1024_S1024x1024_0_1 : (⟨S1x1024, .f32⟩ : BufTy).Contents (Elt F) → (⟨S1024x1024, .f32⟩ : BufTy).Contents (Elt F)) (W29 m c (Proc.devRef .tc main_v122)) := by
  dsimp only [W29, hostOps7_7]
  after_results_simp <;> (try simp only [StableHlo.TRef.ofBuf, StableHlo.TRef.toBuf, cast_eq]) <;> (try rfl)
theorem kd_main_v123 : W63 m c (Proc.devRef .tc main_v123) = (broadcastInDim S1024x1024 ![0, 1] bcast_S1x1024_S1024x1024_0_1 : (⟨S1x1024, .f32⟩ : BufTy).Contents (Elt F) → (⟨S1024x1024, .f32⟩ : BufTy).Contents (Elt F)) (W63 m c (Proc.devRef .tc main_v122)) := by
  rw [frame29 m c main_v123 (by decide), frame29 m c main_v122 (by decide)]; exact kd0_main_v123 m c
theorem kd0_main_v124 : W29 m c (Proc.devRef .tc main_v124) = (mulf : (⟨S1024x1024, .f32⟩ : BufTy).Contents (Elt F) → (⟨S1024x1024, .f32⟩ : BufTy).Contents (Elt F) → (⟨S1024x1024, .f32⟩ : BufTy).Contents (Elt F)) (W29 m c (Proc.devRef .tc main_v121)) (W29 m c (Proc.devRef .tc main_v123)) := by
  dsimp only [W29, hostOps7_7]
  after_results_simp <;> (try simp only [StableHlo.TRef.ofBuf, StableHlo.TRef.toBuf, cast_eq]) <;> (try rfl)
theorem kd_main_v124 : W63 m c (Proc.devRef .tc main_v124) = (mulf : (⟨S1024x1024, .f32⟩ : BufTy).Contents (Elt F) → (⟨S1024x1024, .f32⟩ : BufTy).Contents (Elt F) → (⟨S1024x1024, .f32⟩ : BufTy).Contents (Elt F)) (W63 m c (Proc.devRef .tc main_v121)) (W63 m c (Proc.devRef .tc main_v123)) := by
  rw [frame29 m c main_v124 (by decide), frame29 m c main_v121 (by decide), frame29 m c main_v123 (by decide)]; exact kd0_main_v124 m c
theorem kd0_main_cst_23 : W29 m c (Proc.devRef .tc main_cst_23) = (constant S_ .f32 0x00000000#32) := by
  dsimp only [W29, hostOps7_7]
  after_results_simp <;> (try simp only [StableHlo.TRef.ofBuf, StableHlo.TRef.toBuf, cast_eq]) <;> (try rfl)
theorem kd_main_cst_23 : W63 m c (Proc.devRef .tc main_cst_23) = (constant S_ .f32 0x00000000#32) := by
  rw [frame29 m c main_cst_23 (by decide)]; exact kd0_main_cst_23 m c
theorem kd0_main_v125 : W29 m c (Proc.devRef .tc main_v125) = (broadcastInDim S512 ![] bcast_S_S512 : (⟨S_, .f32⟩ : BufTy).Contents (Elt F) → (⟨S512, .f32⟩ : BufTy).Contents (Elt F)) (W29 m c (Proc.devRef .tc main_cst_23)) := by
  dsimp only [W29, hostOps7_7]
  after_results_simp <;> (try simp only [StableHlo.TRef.ofBuf, StableHlo.TRef.toBuf, cast_eq]) <;> (try rfl)
theorem kd_main_v125 : W63 m c (Proc.devRef .tc main_v125) = (broadcastInDim S512 ![] bcast_S_S512 : (⟨S_, .f32⟩ : BufTy).Contents (Elt F) → (⟨S512, .f32⟩ : BufTy).Contents (Elt F)) (W63 m c (Proc.devRef .tc main_cst_23)) := by
  rw [frame29 m c main_v125 (by decide), frame29 m c main_cst_23 (by decide)]; exact kd0_main_v125 m c
theorem kd0_main_v126 : W29 m c (Proc.devRef .tc main_v126) = shapeCast S1x512 (W29 m c (Proc.devRef .tc main_v125)) shapeCasts_S512_S1x512 := by
  dsimp only [W29, hostOps7_7]
  after_results_simp <;> (try simp only [StableHlo.TRef.ofBuf, StableHlo.TRef.toBuf, cast_eq]) <;> (try rfl)
theorem kd_main_v126 : W63 m c (Proc.devRef .tc main_v126) = shapeCast S1x512 (W63 m c (Proc.devRef .tc main_v125)) shapeCasts_S512_S1x512 := by
  rw [frame29 m c main_v126 (by decide), frame29 m c main_v125 (by decide)]; exact kd0_main_v126 m c
theorem kd0_main_v128 : W31 m c (Proc.devRef .tc main_v128) = shapeCast S1x512 (W31 m c (Proc.devRef .tc main_arg8)) shapeCasts_S512_S1x512 := by
  dsimp only [W31, hostOps8]
  after_results_simp <;> (try simp only [StableHlo.TRef.ofBuf, StableHlo.TRef.toBuf, cast_eq]) <;> (try rfl)
theorem kd_main_v128 : W63 m c (Proc.devRef .tc main_v128) = shapeCast S1x512 (W63 m c (Proc.devRef .tc main_arg8)) shapeCasts_S512_S1x512 := by
  rw [frame31 m c main_v128 (by decide), frame31 m c main_arg8 (by decide)]; exact kd0_main_v128 m c
theorem kd0_main_v130 : W33 m c (Proc.devRef .tc main_v130) = shapeCast S1x128 (W33 m c (Proc.devRef .tc main_arg10)) shapeCasts_S128_S1x128 := by
  dsimp only [W33, hostOps9]
  after_results_simp <;> (try simp only [StableHlo.TRef.ofBuf, StableHlo.TRef.toBuf, cast_eq]) <;> (try rfl)
theorem kd_main_v130 : W63 m c (Proc.devRef .tc main_v130) = shapeCast S1x128 (W63 m c (Proc.devRef .tc main_arg10)) shapeCasts_S128_S1x128 := by
  rw [frame33 m c main_v130 (by decide), frame33 m c main_arg10 (by decide)]; exact kd0_main_v130 m c
theorem kd0_main_cst_24 : W35 m c (Proc.devRef .tc main_cst_24) = (constant S_ .f32 0x00000000#32) := by
  dsimp only [W35, hostOps10]
  after_results_simp <;> (try simp only [StableHlo.TRef.ofBuf, StableHlo.TRef.toBuf, cast_eq]) <;> (try rfl)
theorem kd_main_cst_24 : W63 m c (Proc.devRef .tc main_cst_24) = (constant S_ .f32 0x00000000#32) := by
  rw [frame35 m c main_cst_24 (by decide)]; exact kd0_main_cst_24 m c
theorem kd0_main_v132 : W35 m c (Proc.devRef .tc main_v132) = (broadcastInDim S128 ![] bcast_S_S128 : (⟨S_, .f32⟩ : BufTy).Contents (Elt F) → (⟨S128, .f32⟩ : BufTy).Contents (Elt F)) (W35 m c (Proc.devRef .tc main_cst_24)) := by
  dsimp only [W35, hostOps10]
  after_results_simp <;> (try simp only [StableHlo.TRef.ofBuf, StableHlo.TRef.toBuf, cast_eq]) <;> (try rfl)
theorem kd_main_v132 : W63 m c (Proc.devRef .tc main_v132) = (broadcastInDim S128 ![] bcast_S_S128 : (⟨S_, .f32⟩ : BufTy).Contents (Elt F) → (⟨S128, .f32⟩ : BufTy).Contents (Elt F)) (W63 m c (Proc.devRef .tc main_cst_24)) := by
  rw [frame35 m c main_v132 (by decide), frame35 m c main_cst_24 (by decide)]; exact kd0_main_v132 m c
theorem kd0_main_v133 : W35 m c (Proc.devRef .tc main_v133) = shapeCast S1x128 (W35 m c (Proc.devRef .tc main_v132)) shapeCasts_S128_S1x128 := by
  dsimp only [W35, hostOps10]
  after_results_simp <;> (try simp only [StableHlo.TRef.ofBuf, StableHlo.TRef.toBuf, cast_eq]) <;> (try rfl)
theorem kd_main_v133 : W63 m c (Proc.devRef .tc main_v133) = shapeCast S1x128 (W63 m c (Proc.devRef .tc main_v132)) shapeCasts_S128_S1x128 := by
  rw [frame35 m c main_v133 (by decide), frame35 m c main_v132 (by decide)]; exact kd0_main_v133 m c
theorem kd0_main_call9_v0 : W40 m c (Proc.devRef .tc main_call9_v0) = ((iotaInDim S128x128 32 0) : (⟨S128x128, .i32⟩ : BufTy).Contents (Elt F)) := by
  dsimp only [W40, hostOps14]
  after_results_simp <;> (try simp only [StableHlo.TRef.ofBuf, StableHlo.TRef.toBuf, cast_eq]) <;> (try rfl)
theorem kd_main_call9_v0 : W63 m c (Proc.devRef .tc main_call9_v0) = ((iotaInDim S128x128 32 0) : (⟨S128x128, .i32⟩ : BufTy).Contents (Elt F)) := by
  rw [frame40 m c main_call9_v0 (by decide)]; exact kd0_main_call9_v0 m c
theorem kd0_main_call9_v1 : W40 m c (Proc.devRef .tc main_call9_v1) = ((iotaInDim S128x128 32 1) : (⟨S128x128, .i32⟩ : BufTy).Contents (Elt F)) := by
  dsimp only [W40, hostOps14]
  after_results_simp <;> (try simp only [StableHlo.TRef.ofBuf, StableHlo.TRef.toBuf, cast_eq]) <;> (try rfl)
theorem kd_main_call9_v1 : W63 m c (Proc.devRef .tc main_call9_v1) = ((iotaInDim S128x128 32 1) : (⟨S128x128, .i32⟩ : BufTy).Contents (Elt F)) := by
  rw [frame40 m c main_call9_v1 (by decide)]; exact kd0_main_call9_v1 m c
theorem kd0_main_call9_c : W40 m c (Proc.devRef .tc main_call9_c) = ((constantI S_ 32 0#32) : (⟨S_, .i32⟩ : BufTy).Contents (Elt F)) := by
  dsimp only [W40, hostOps14]
  after_results_simp <;> (try simp only [StableHlo.TRef.ofBuf, StableHlo.TRef.toBuf, cast_eq]) <;> (try rfl)
theorem kd_main_call9_c : W63 m c (Proc.devRef .tc main_call9_c) = ((constantI S_ 32 0#32) : (⟨S_, .i32⟩ : BufTy).Contents (Elt F)) := by
  rw [frame40 m c main_call9_c (by decide)]; exact kd0_main_call9_c m c
theorem kd0_main_call9_v2 : W40 m c (Proc.devRef .tc main_call9_v2) = ((broadcastInDim S128x128 ![] bcast_S_S128x128) : (⟨S_, .i32⟩ : BufTy).Contents (Elt F) → (⟨S128x128, .i32⟩ : BufTy).Contents (Elt F)) (W40 m c (Proc.devRef .tc main_call9_c)) := by
  dsimp only [W40, hostOps14]
  after_results_simp <;> (try simp only [StableHlo.TRef.ofBuf, StableHlo.TRef.toBuf, cast_eq]) <;> (try rfl)
theorem kd_main_call9_v2 : W63 m c (Proc.devRef .tc main_call9_v2) = ((broadcastInDim S128x128 ![] bcast_S_S128x128) : (⟨S_, .i32⟩ : BufTy).Contents (Elt F) → (⟨S128x128, .i32⟩ : BufTy).Contents (Elt F)) (W63 m c (Proc.devRef .tc main_call9_c)) := by
  rw [frame40 m c main_call9_v2 (by decide), frame40 m c main_call9_c (by decide)]; exact kd0_main_call9_v2 m c
theorem kd0_main_call9_v3 : W40 m c (Proc.devRef .tc main_call9_v3) = (addi : (⟨S128x128, .i32⟩ : BufTy).Contents (Elt F) → (⟨S128x128, .i32⟩ : BufTy).Contents (Elt F) → (⟨S128x128, .i32⟩ : BufTy).Contents (Elt F)) (W40 m c (Proc.devRef .tc main_call9_v0)) (W40 m c (Proc.devRef .tc main_call9_v2)) := by
  dsimp only [W40, hostOps14]
  after_results_simp <;> (try simp only [StableHlo.TRef.ofBuf, StableHlo.TRef.toBuf, cast_eq]) <;> (try rfl)
theorem kd_main_call9_v3 : W63 m c (Proc.devRef .tc main_call9_v3) = (addi : (⟨S128x128, .i32⟩ : BufTy).Contents (Elt F) → (⟨S128x128, .i32⟩ : BufTy).Contents (Elt F) → (⟨S128x128, .i32⟩ : BufTy).Contents (Elt F)) (W63 m c (Proc.devRef .tc main_call9_v0)) (W63 m c (Proc.devRef .tc main_call9_v2)) := by
  rw [frame40 m c main_call9_v3 (by decide), frame40 m c main_call9_v0 (by decide), frame40 m c main_call9_v2 (by decide)]; exact kd0_main_call9_v3 m c
theorem kd0_main_call9_v4 : W40 m c (Proc.devRef .tc main_call9_v4) = ((cmpi .eq) : (⟨S128x128, .i32⟩ : BufTy).Contents (Elt F) → (⟨S128x128, .i32⟩ : BufTy).Contents (Elt F) → (⟨S128x128, .i1⟩ : BufTy).Contents (Elt F)) (W40 m c (Proc.devRef .tc main_call9_v3)) (W40 m c (Proc.devRef .tc main_call9_v1)) := by
  dsimp only [W40, hostOps14]
  after_results_simp <;> (try simp only [StableHlo.TRef.ofBuf, StableHlo.TRef.toBuf, cast_eq]) <;> (try rfl)
theorem kd_main_call9_v4 : W63 m c (Proc.devRef .tc main_call9_v4) = ((cmpi .eq) : (⟨S128x128, .i32⟩ : BufTy).Contents (Elt F) → (⟨S128x128, .i32⟩ : BufTy).Contents (Elt F) → (⟨S128x128, .i1⟩ : BufTy).Contents (Elt F)) (W63 m c (Proc.devRef .tc main_call9_v3)) (W63 m c (Proc.devRef .tc main_call9_v1)) := by
  rw [frame40 m c main_call9_v4 (by decide), frame40 m c main_call9_v3 (by decide), frame40 m c main_call9_v1 (by decide)]; exact kd0_main_call9_v4 m c
theorem kd0_main_call9_cst : W40 m c (Proc.devRef .tc main_call9_cst) = ((constant S_ .f32 0x00000000#32) : (⟨S_, .f32⟩ : BufTy).Contents (Elt F)) := by
  dsimp only [W40, hostOps14]
  after_results_simp <;> (try simp only [StableHlo.TRef.ofBuf, StableHlo.TRef.toBuf, cast_eq]) <;> (try rfl)
theorem kd_main_call9_cst : W63 m c (Proc.devRef .tc main_call9_cst) = ((constant S_ .f32 0x00000000#32) : (⟨S_, .f32⟩ : BufTy).Contents (Elt F)) := by
  rw [frame40 m c main_call9_cst (by decide)]; exact kd0_main_call9_cst m c
theorem kd0_main_call9_v5 : W40 m c (Proc.devRef .tc main_call9_v5) = ((broadcastInDim S128x128 ![] bcast_S_S128x128) : (⟨S_, .f32⟩ : BufTy).Contents (Elt F) → (⟨S128x128, .f32⟩ : BufTy).Contents (Elt F)) (W40 m c (Proc.devRef .tc main_call9_cst)) := by
  dsimp only [W40, hostOps14]
  after_results_simp <;> (try simp only [StableHlo.TRef.ofBuf, StableHlo.TRef.toBuf, cast_eq]) <;> (try rfl)
theorem kd_main_call9_v5 : W63 m c (Proc.devRef .tc main_call9_v5) = ((broadcastInDim S128x128 ![] bcast_S_S128x128) : (⟨S_, .f32⟩ : BufTy).Contents (Elt F) → (⟨S128x128, .f32⟩ : BufTy).Contents (Elt F)) (W63 m c (Proc.devRef .tc main_call9_cst)) := by
  rw [frame40 m c main_call9_v5 (by decide), frame40 m c main_call9_cst (by decide)]; exact kd0_main_call9_v5 m c
theorem kd0_main_call9_v6 : W40 m c (Proc.devRef .tc main_call9_v6) = (select : (⟨S128x128, .i1⟩ : BufTy).Contents (Elt F) → (⟨S128x128, .f32⟩ : BufTy).Contents (Elt F) → (⟨S128x128, .f32⟩ : BufTy).Contents (Elt F) → (⟨S128x128, .f32⟩ : BufTy).Contents (Elt F)) (W40 m c (Proc.devRef .tc main_call9_v4)) (W40 m c (Proc.devRef .tc main_v136)) (W40 m c (Proc.devRef .tc main_call9_v5)) := by
  dsimp only [W40, hostOps14]
  after_results_simp <;> (try simp only [StableHlo.TRef.ofBuf, StableHlo.TRef.toBuf, cast_eq]) <;> (try rfl)
theorem kd_main_call9_v6 : W63 m c (Proc.devRef .tc main_call9_v6) = (select : (⟨S128x128, .i1⟩ : BufTy).Contents (Elt F) → (⟨S128x128, .f32⟩ : BufTy).Contents (Elt F) → (⟨S128x128, .f32⟩ : BufTy).Contents (Elt F) → (⟨S128x128, .f32⟩ : BufTy).Contents (Elt F)) (W63 m c (Proc.devRef .tc main_call9_v4)) (W63 m c (Proc.devRef .tc main_v136)) (W63 m c (Proc.devRef .tc main_call9_v5)) := by
  rw [frame40 m c main_call9_v6 (by decide), frame40 m c main_call9_v4 (by decide), frame40 m c main_v136 (by decide), frame40 m c main_call9_v5 (by decide)]; exact kd0_main_call9_v6 m c
theorem kd0_main_call9_cst_0 : W40 m c (Proc.devRef .tc main_call9_cst_0) = ((constant S_ .f32 0x00000000#32) : (⟨S_, .f32⟩ : BufTy).Contents (Elt F)) := by
  dsimp only [W40, hostOps14]
  after_results_simp <;> (try simp only [StableHlo.TRef.ofBuf, StableHlo.TRef.toBuf, cast_eq]) <;> (try rfl)
theorem kd_main_call9_cst_0 : W63 m c (Proc.devRef .tc main_call9_cst_0) = ((constant S_ .f32 0x00000000#32) : (⟨S_, .f32⟩ : BufTy).Contents (Elt F)) := by
  rw [frame40 m c main_call9_cst_0 (by decide)]; exact kd0_main_call9_cst_0 m c
theorem kd0_main_v138 : W40 m c (Proc.devRef .tc main_v138) = (fun x v => Host.reduceAdd x v reducesTo_S128x128_S_d0_1 h_S_) (W40 m c (Proc.devRef .tc main_call9_v6)) (W40 m c (Proc.devRef .tc main_call9_cst_0)) := by
  dsimp only [W40, hostOps14]
  after_results_simp <;> (try simp only [StableHlo.TRef.ofBuf, StableHlo.TRef.toBuf, cast_eq]) <;> (try rfl)
theorem kd_main_v138 : W63 m c (Proc.devRef .tc main_v138) = (fun x v => Host.reduceAdd x v reducesTo_S128x128_S_d0_1 h_S_) (W63 m c (Proc.devRef .tc main_call9_v6)) (W63 m c (Proc.devRef .tc main_call9_cst_0)) := by
  rw [frame40 m c main_v138 (by decide), frame40 m c main_call9_v6 (by decide), frame40 m c main_call9_cst_0 (by decide)]; exact kd0_main_v138 m c
theorem kd0_main_cst_25 : W41 m c (Proc.devRef .tc main_cst_25) = (constant S_ .f32 0x00000000#32) := by
  dsimp only [W41, hostOps14_1]
  after_results_simp <;> (try simp only [StableHlo.TRef.ofBuf, StableHlo.TRef.toBuf, cast_eq]) <;> (try rfl)
theorem kd_main_cst_25 : W63 m c (Proc.devRef .tc main_cst_25) = (constant S_ .f32 0x00000000#32) := by
  rw [frame41 m c main_cst_25 (by decide)]; exact kd0_main_cst_25 m c
theorem kd0_main_v139 : W41 m c (Proc.devRef .tc main_v139) = ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)) (W41 m c (Proc.devRef .tc main_v106)) (W41 m c (Proc.devRef .tc main_cst_25)) := by
  dsimp only [W41, hostOps14_1]
  after_results_simp <;> (try simp only [StableHlo.TRef.ofBuf, StableHlo.TRef.toBuf, cast_eq]) <;> (try rfl)
theorem kd_main_v139 : W63 m c (Proc.devRef .tc main_v139) = ((fun x v => Host.reduceAdd x v reducesTo_S1024x1024_S1024_d1 h_S_) : (⟨S1024x1024, .f32⟩ : BufTy).Contents (Elt F) → (⟨S_, .f32⟩ : BufTy).Contents (Elt F) → (⟨S1024, .f32⟩ : BufTy).Contents (Elt F)) (W63 m c (Proc.devRef .tc main_v106)) (W63 m c (Proc.devRef .tc main_cst_25)) := by
  rw [frame41 m c main_v139 (by decide), frame41 m c main_v106 (by decide), frame41 m c main_cst_25 (by decide)]; exact kd0_main_v139 m c
theorem kd0_main_v140 : W41 m c (Proc.devRef .tc main_v140) = (broadcastInDim S1024x1 ![0] bcast_S1024_S1024x1_0 : (⟨S1024, .f32⟩ : BufTy).Contents (Elt F) → (⟨S1024x1, .f32⟩ : BufTy).Contents (Elt F)) (W41 m c (Proc.devRef .tc main_v139)) := by
  dsimp only [W41, hostOps14_1]
  after_results_simp <;> (try simp only [StableHlo.TRef.ofBuf, StableHlo.TRef.toBuf, cast_eq]) <;> (try rfl)
theorem kd_main_v140 : W63 m c (Proc.devRef .tc main_v140) = (broadcastInDim S1024x1 ![0] bcast_S1024_S1024x1_0 : (⟨S1024, .f32⟩ : BufTy).Contents (Elt F) → (⟨S1024x1, .f32⟩ : BufTy).Contents (Elt F)) (W63 m c (Proc.devRef .tc main_v139)) := by
  rw [frame41 m c main_v140 (by decide), frame41 m c main_v139 (by decide)]; exact kd0_main_v140 m c
theorem kd0_main_v141 : W41 m c (Proc.devRef .tc main_v141) = (broadcastInDim S1024x128 ![0, 1] bcast_S1024x1_S1024x128_0_1 : (⟨S1024x1, .f32⟩ : BufTy).Contents (Elt F) → (⟨S1024x128, .f32⟩ : BufTy).Contents (Elt F)) (W41 m c (Proc.devRef .tc main_v140)) := by
  dsimp only [W41, hostOps14_1]
  after_results_simp <;> (try simp only [StableHlo.TRef.ofBuf, StableHlo.TRef.toBuf, cast_eq]) <;> (try rfl)
theorem kd_main_v141 : W63 m c (Proc.devRef .tc main_v141) = (broadcastInDim S1024x128 ![0, 1] bcast_S1024x1_S1024x128_0_1 : (⟨S1024x1, .f32⟩ : BufTy).Contents (Elt F) → (⟨S1024x128, .f32⟩ : BufTy).Contents (Elt F)) (W63 m c (Proc.devRef .tc main_v140)) := by
  rw [frame41 m c main_v141 (by decide), frame41 m c main_v140 (by decide)]; exact kd0_main_v141 m c
theorem kd0_main_v142 : W41 m c (Proc.devRef .tc main_v142) = (mulf : (⟨S1024x128, .f32⟩ : BufTy).Contents (Elt F) → (⟨S1024x128, .f32⟩ : BufTy).Contents (Elt F) → (⟨S1024x128, .f32⟩ : BufTy).Contents (Elt F)) (W41 m c (Proc.devRef .tc main_v141)) (W41 m c (Proc.devRef .tc main_v131_1)) := by
  dsimp only [W41, hostOps14_1]
  after_results_simp <;> (try simp only [StableHlo.TRef.ofBuf, StableHlo.TRef.toBuf, cast_eq]) <;> (try rfl)
theorem kd_main_v142 : W63 m c (Proc.devRef .tc main_v142) = (mulf : (⟨S1024x128, .f32⟩ : BufTy).Contents (Elt F) → (⟨S1024x128, .f32⟩ : BufTy).Contents (Elt F) → (⟨S1024x128, .f32⟩ : BufTy).Contents (Elt F)) (W63 m c (Proc.devRef .tc main_v141)) (W63 m c (Proc.devRef .tc main_v131_1)) := by
  rw [frame41 m c main_v142 (by decide), frame41 m c main_v141 (by decide), frame41 m c main_v131_1 (by decide)]; exact kd0_main_v142 m c
theorem kd0_main_v143 : W41 m c (Proc.devRef .tc main_v143) = (mulf : (⟨S1024x128, .f32⟩ : BufTy).Contents (Elt F) → (⟨S1024x128, .f32⟩ : BufTy).Contents (Elt F) → (⟨S1024x128, .f32⟩ : BufTy).Contents (Elt F)) (W41 m c (Proc.devRef .tc main_v142)) (W41 m c (Proc.devRef .tc main_v131_1)) := by
  dsimp only [W41, hostOps14_1]
  after_results_simp <;> (try simp only [StableHlo.TRef.ofBuf, StableHlo.TRef.toBuf, cast_eq]) <;> (try rfl)
theorem kd_main_v143 : W63 m c (Proc.devRef .tc main_v143) = (mulf : (⟨S1024x128, .f32⟩ : BufTy).Contents (Elt F) → (⟨S1024x128, .f32⟩ : BufTy).Contents (Elt F) → (⟨S1024x128, .f32⟩ : BufTy).Contents (Elt F)) (W63 m c (Proc.devRef .tc main_v142)) (W63 m c (Proc.devRef .tc main_v131_1)) := by
  rw [frame41 m c main_v143 (by decide), frame41 m c main_v142 (by decide), frame41 m c main_v131_1 (by decide)]; exact kd0_main_v143 m c
theorem kd0_main_cst_26 : W41 m c (Proc.devRef .tc main_cst_26) = (constant S_ .f32 0x00000000#32) := by
  dsimp only [W41, hostOps14_1]
  after_results_simp <;> (try simp only [StableHlo.TRef.ofBuf, StableHlo.TRef.toBuf, cast_eq]) <;> (try rfl)
theorem kd_main_cst_26 : W63 m c (Proc.devRef .tc main_cst_26) = (constant S_ .f32 0x00000000#32) := by
  rw [frame41 m c main_cst_26 (by decide)]; exact kd0_main_cst_26 m c
theorem kd0_main_v144 : W41 m c (Proc.devRef .tc main_v144) = ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)) (W41 m c (Proc.devRef .tc main_v143)) (W41 m c (Proc.devRef .tc main_cst_26)) := by
  dsimp only [W41, hostOps14_1]
  after_results_simp <;> (try simp only [StableHlo.TRef.ofBuf, StableHlo.TRef.toBuf, cast_eq]) <;> (try rfl)
theorem kd_main_v144 : W63 m c (Proc.devRef .tc main_v144) = ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)) (W63 m c (Proc.devRef .tc main_v143)) (W63 m c (Proc.devRef .tc main_cst_26)) := by
  rw [frame41 m c main_v144 (by decide), frame41 m c main_v143 (by decide), frame41 m c main_cst_26 (by decide)]; exact kd0_main_v144 m c
theorem kd0_main_v145 : W41 m c (Proc.devRef .tc main_v145) = (Host.divf : (⟨S_, .f32⟩ : BufTy).Contents (Elt F) → (⟨S_, .f32⟩ : BufTy).Contents (Elt F) → (⟨S_, .f32⟩ : BufTy).Contents (Elt F)) (W41 m c (Proc.devRef .tc main_v138)) (W41 m c (Proc.devRef .tc main_v144)) := by
  dsimp only [W41, hostOps14_1]
  after_results_simp <;> (try simp only [StableHlo.TRef.ofBuf, StableHlo.TRef.toBuf, cast_eq]) <;> (try rfl)
theorem kd_main_v145 : W63 m c (Proc.devRef .tc main_v145) = (Host.divf : (⟨S_, .f32⟩ : BufTy).Contents (Elt F) → (⟨S_, .f32⟩ : BufTy).Contents (Elt F) → (⟨S_, .f32⟩ : BufTy).Contents (Elt F)) (W63 m c (Proc.devRef .tc main_v138)) (W63 m c (Proc.devRef .tc main_v144)) := by
  rw [frame41 m c main_v145 (by decide), frame41 m c main_v138 (by decide), frame41 m c main_v144 (by decide)]; exact kd0_main_v145 m c
theorem kd0_main_v146 : W41 m c (Proc.devRef .tc main_v146) = (Host.negf : (⟨S_, .f32⟩ : BufTy).Contents (Elt F) → (⟨S_, .f32⟩ : BufTy).Contents (Elt F)) (W41 m c (Proc.devRef .tc main_v145)) := by
  dsimp only [W41, hostOps14_1]
  after_results_simp <;> (try simp only [StableHlo.TRef.ofBuf, StableHlo.TRef.toBuf, cast_eq]) <;> (try rfl)
theorem kd_main_v146 : W63 m c (Proc.devRef .tc main_v146) = (Host.negf : (⟨S_, .f32⟩ : BufTy).Contents (Elt F) → (⟨S_, .f32⟩ : BufTy).Contents (Elt F)) (W63 m c (Proc.devRef .tc main_v145)) := by
  rw [frame41 m c main_v146 (by decide), frame41 m c main_v145 (by decide)]; exact kd0_main_v146 m c
theorem kd0_main_call10_v0 : W42 m c (Proc.devRef .tc main_call10_v0) = (mulf : (⟨S128x128, .f32⟩ : BufTy).Contents (Elt F) → (⟨S128x128, .f32⟩ : BufTy).Contents (Elt F) → (⟨S128x128, .f32⟩ : BufTy).Contents (Elt F)) (W42 m c (Proc.devRef .tc main_v137)) (W42 m c (Proc.devRef .tc main_v137)) := by
  dsimp only [W42, hostOps14_2]
  after_results_simp <;> (try simp only [StableHlo.TRef.ofBuf, StableHlo.TRef.toBuf, cast_eq]) <;> (try rfl)
theorem kd_main_call10_v0 : W63 m c (Proc.devRef .tc main_call10_v0) = (mulf : (⟨S128x128, .f32⟩ : BufTy).Contents (Elt F) → (⟨S128x128, .f32⟩ : BufTy).Contents (Elt F) → (⟨S128x128, .f32⟩ : BufTy).Contents (Elt F)) (W63 m c (Proc.devRef .tc main_v137)) (W63 m c (Proc.devRef .tc main_v137)) := by
  rw [frame42 m c main_call10_v0 (by decide), frame42 m c main_v137 (by decide)]; exact kd0_main_call10_v0 m c
theorem kd0_main_call10_cst : W42 m c (Proc.devRef .tc main_call10_cst) = ((constant S_ .f32 0x00000000#32) : (⟨S_, .f32⟩ : BufTy).Contents (Elt F)) := by
  dsimp only [W42, hostOps14_2]
  after_results_simp <;> (try simp only [StableHlo.TRef.ofBuf, StableHlo.TRef.toBuf, cast_eq]) <;> (try rfl)
theorem kd_main_call10_cst : W63 m c (Proc.devRef .tc main_call10_cst) = ((constant S_ .f32 0x00000000#32) : (⟨S_, .f32⟩ : BufTy).Contents (Elt F)) := by
  rw [frame42 m c main_call10_cst (by decide)]; exact kd0_main_call10_cst m c
theorem kd0_main_call10_v1 : W42 m c (Proc.devRef .tc main_call10_v1) = ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)) (W42 m c (Proc.devRef .tc main_call10_v0)) (W42 m c (Proc.devRef .tc main_call10_cst)) := by
  dsimp only [W42, hostOps14_2]
  after_results_simp <;> (try simp only [StableHlo.TRef.ofBuf, StableHlo.TRef.toBuf, cast_eq]) <;> (try rfl)
theorem kd_main_call10_v1 : W63 m c (Proc.devRef .tc main_call10_v1) = ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)) (W63 m c (Proc.devRef .tc main_call10_v0)) (W63 m c (Proc.devRef .tc main_call10_cst)) := by
  rw [frame42 m c main_call10_v1 (by decide), frame42 m c main_call10_v0 (by decide), frame42 m c main_call10_cst (by decide)]; exact kd0_main_call10_v1 m c
theorem kd0_main_v147 : W42 m c (Proc.devRef .tc main_v147) = (Host.sqrt : (⟨S_, .f32⟩ : BufTy).Contents (Elt F) → (⟨S_, .f32⟩ : BufTy).Contents (Elt F)) (W42 m c (Proc.devRef .tc main_call10_v1)) := by
  dsimp only [W42, hostOps14_2]
  after_results_simp <;> (try simp only [StableHlo.TRef.ofBuf, StableHlo.TRef.toBuf, cast_eq]) <;> (try rfl)
theorem kd_main_v147 : W63 m c (Proc.devRef .tc main_v147) = (Host.sqrt : (⟨S_, .f32⟩ : BufTy).Contents (Elt F) → (⟨S_, .f32⟩ : BufTy).Contents (Elt F)) (W63 m c (Proc.devRef .tc main_call10_v1)) := by
  rw [frame42 m c main_v147 (by decide), frame42 m c main_call10_v1 (by decide)]; exact kd0_main_v147 m c
theorem kd0_main_v148 : W43 m c (Proc.devRef .tc main_v148) = (broadcastInDim S128x128 ![] bcast_S_S128x128 : (⟨S_, .f32⟩ : BufTy).Contents (Elt F) → (⟨S128x128, .f32⟩ : BufTy).Contents (Elt F)) (W43 m c (Proc.devRef .tc main_v147)) := by
  dsimp only [W43, hostOps14_3]
  after_results_simp <;> (try simp only [StableHlo.TRef.ofBuf, StableHlo.TRef.toBuf, cast_eq]) <;> (try rfl)
theorem kd_main_v148 : W63 m c (Proc.devRef .tc main_v148) = (broadcastInDim S128x128 ![] bcast_S_S128x128 : (⟨S_, .f32⟩ : BufTy).Contents (Elt F) → (⟨S128x128, .f32⟩ : BufTy).Contents (Elt F)) (W63 m c (Proc.devRef .tc main_v147)) := by
  rw [frame43 m c main_v148 (by decide), frame43 m c main_v147 (by decide)]; exact kd0_main_v148 m c
theorem kd0_main_v149 : W43 m c (Proc.devRef .tc main_v149) = (Host.divf : (⟨S128x128, .f32⟩ : BufTy).Contents (Elt F) → (⟨S128x128, .f32⟩ : BufTy).Contents (Elt F) → (⟨S128x128, .f32⟩ : BufTy).Contents (Elt F)) (W43 m c (Proc.devRef .tc main_v137)) (W43 m c (Proc.devRef .tc main_v148)) := by
  dsimp only [W43, hostOps14_3]
  after_results_simp <;> (try simp only [StableHlo.TRef.ofBuf, StableHlo.TRef.toBuf, cast_eq]) <;> (try rfl)
theorem kd_main_v149 : W63 m c (Proc.devRef .tc main_v149) = (Host.divf : (⟨S128x128, .f32⟩ : BufTy).Contents (Elt F) → (⟨S128x128, .f32⟩ : BufTy).Contents (Elt F) → (⟨S128x128, .f32⟩ : BufTy).Contents (Elt F)) (W63 m c (Proc.devRef .tc main_v137)) (W63 m c (Proc.devRef .tc main_v148)) := by
  rw [frame43 m c main_v149 (by decide), frame43 m c main_v137 (by decide), frame43 m c main_v148 (by decide)]; exact kd0_main_v149 m c
theorem kd0_main_v150 : W43 m c (Proc.devRef .tc main_v150) = (iotaInDim S128x128 32 0) := by
  dsimp only [W43, hostOps14_3]
  after_results_simp <;> (try simp only [StableHlo.TRef.ofBuf, StableHlo.TRef.toBuf, cast_eq]) <;> (try rfl)
theorem kd_main_v150 : W63 m c (Proc.devRef .tc main_v150) = (iotaInDim S128x128 32 0) := by
  rw [frame43 m c main_v150 (by decide)]; exact kd0_main_v150 m c
theorem kd0_main_v151 : W43 m c (Proc.devRef .tc main_v151) = (iotaInDim S128x128 32 1) := by
  dsimp only [W43, hostOps14_3]
  after_results_simp <;> (try simp only [StableHlo.TRef.ofBuf, StableHlo.TRef.toBuf, cast_eq]) <;> (try rfl)
theorem kd_main_v151 : W63 m c (Proc.devRef .tc main_v151) = (iotaInDim S128x128 32 1) := by
  rw [frame43 m c main_v151 (by decide)]; exact kd0_main_v151 m c
theorem kd0_main_c_27 : W43 m c (Proc.devRef .tc main_c_27) = (constantI S_ 32 0#32) := by
  dsimp only [W43, hostOps14_3]
  after_results_simp <;> (try simp only [StableHlo.TRef.ofBuf, StableHlo.TRef.toBuf, cast_eq]) <;> (try rfl)
theorem kd_main_c_27 : W63 m c (Proc.devRef .tc main_c_27) = (constantI S_ 32 0#32) := by
  rw [frame43 m c main_c_27 (by decide)]; exact kd0_main_c_27 m c
theorem kd0_main_v152 : W43 m c (Proc.devRef .tc main_v152) = (broadcastInDim S128x128 ![] bcast_S_S128x128 : (⟨S_, .i32⟩ : BufTy).Contents (Elt F) → (⟨S128x128, .i32⟩ : BufTy).Contents (Elt F)) (W43 m c (Proc.devRef .tc main_c_27)) := by
  dsimp only [W43, hostOps14_3]
  after_results_simp <;> (try simp only [StableHlo.TRef.ofBuf, StableHlo.TRef.toBuf, cast_eq]) <;> (try rfl)
theorem kd_main_v152 : W63 m c (Proc.devRef .tc main_v152) = (broadcastInDim S128x128 ![] bcast_S_S128x128 : (⟨S_, .i32⟩ : BufTy).Contents (Elt F) → (⟨S128x128, .i32⟩ : BufTy).Contents (Elt F)) (W63 m c (Proc.devRef .tc main_c_27)) := by
  rw [frame43 m c main_v152 (by decide), frame43 m c main_c_27 (by decide)]; exact kd0_main_v152 m c
theorem kd0_main_v153 : W43 m c (Proc.devRef .tc main_v153) = (addi : (⟨S128x128, .i32⟩ : BufTy).Contents (Elt F) → (⟨S128x128, .i32⟩ : BufTy).Contents (Elt F) → (⟨S128x128, .i32⟩ : BufTy).Contents (Elt F)) (W43 m c (Proc.devRef .tc main_v150)) (W43 m c (Proc.devRef .tc main_v152)) := by
  dsimp only [W43, hostOps14_3]
  after_results_simp <;> (try simp only [StableHlo.TRef.ofBuf, StableHlo.TRef.toBuf, cast_eq]) <;> (try rfl)
theorem kd_main_v153 : W63 m c (Proc.devRef .tc main_v153) = (addi : (⟨S128x128, .i32⟩ : BufTy).Contents (Elt F) → (⟨S128x128, .i32⟩ : BufTy).Contents (Elt F) → (⟨S128x128, .i32⟩ : BufTy).Contents (Elt F)) (W63 m c (Proc.devRef .tc main_v150)) (W63 m c (Proc.devRef .tc main_v152)) := by
  rw [frame43 m c main_v153 (by decide), frame43 m c main_v150 (by decide), frame43 m c main_v152 (by decide)]; exact kd0_main_v153 m c
theorem kd0_main_v154 : W43 m c (Proc.devRef .tc main_v154) = (cmpi .eq : (⟨S128x128, .i32⟩ : BufTy).Contents (Elt F) → (⟨S128x128, .i32⟩ : BufTy).Contents (Elt F) → (⟨S128x128, .i1⟩ : BufTy).Contents (Elt F)) (W43 m c (Proc.devRef .tc main_v153)) (W43 m c (Proc.devRef .tc main_v151)) := by
  dsimp only [W43, hostOps14_3]
  after_results_simp <;> (try simp only [StableHlo.TRef.ofBuf, StableHlo.TRef.toBuf, cast_eq]) <;> (try rfl)
theorem kd_main_v154 : W63 m c (Proc.devRef .tc main_v154) = (cmpi .eq : (⟨S128x128, .i32⟩ : BufTy).Contents (Elt F) → (⟨S128x128, .i32⟩ : BufTy).Contents (Elt F) → (⟨S128x128, .i1⟩ : BufTy).Contents (Elt F)) (W63 m c (Proc.devRef .tc main_v153)) (W63 m c (Proc.devRef .tc main_v151)) := by
  rw [frame43 m c main_v154 (by decide), frame43 m c main_v153 (by decide), frame43 m c main_v151 (by decide)]; exact kd0_main_v154 m c
theorem kd0_main_v155 : W43 m c (Proc.devRef .tc main_v155) = (uitofp .f32 : (⟨S128x128, .i1⟩ : BufTy).Contents (Elt F) → (⟨S128x128, .f32⟩ : BufTy).Contents (Elt F)) (W43 m c (Proc.devRef .tc main_v154)) := by
  dsimp only [W43, hostOps14_3]
  after_results_simp <;> (try simp only [StableHlo.TRef.ofBuf, StableHlo.TRef.toBuf, cast_eq]) <;> (try rfl)
theorem kd_main_v155 : W63 m c (Proc.devRef .tc main_v155) = (uitofp .f32 : (⟨S128x128, .i1⟩ : BufTy).Contents (Elt F) → (⟨S128x128, .f32⟩ : BufTy).Contents (Elt F)) (W63 m c (Proc.devRef .tc main_v154)) := by
  rw [frame43 m c main_v155 (by decide), frame43 m c main_v154 (by decide)]; exact kd0_main_v155 m c
theorem kd0_main_cst_28 : W43 m c (Proc.devRef .tc main_cst_28) = (constant S_ .f32 0x43000000#32) := by
  dsimp only [W43, hostOps14_3]
  after_results_simp <;> (try simp only [StableHlo.TRef.ofBuf, StableHlo.TRef.toBuf, cast_eq]) <;> (try rfl)
theorem kd_main_cst_28 : W63 m c (Proc.devRef .tc main_cst_28) = (constant S_ .f32 0x43000000#32) := by
  rw [frame43 m c main_cst_28 (by decide)]; exact kd0_main_cst_28 m c
theorem kd0_main_v156 : W43 m c (Proc.devRef .tc main_v156) = (Host.sqrt : (⟨S_, .f32⟩ : BufTy).Contents (Elt F) → (⟨S_, .f32⟩ : BufTy).Contents (Elt F)) (W43 m c (Proc.devRef .tc main_cst_28)) := by
  dsimp only [W43, hostOps14_3]
  after_results_simp <;> (try simp only [StableHlo.TRef.ofBuf, StableHlo.TRef.toBuf, cast_eq]) <;> (try rfl)
theorem kd_main_v156 : W63 m c (Proc.devRef .tc main_v156) = (Host.sqrt : (⟨S_, .f32⟩ : BufTy).Contents (Elt F) → (⟨S_, .f32⟩ : BufTy).Contents (Elt F)) (W63 m c (Proc.devRef .tc main_cst_28)) := by
  rw [frame43 m c main_v156 (by decide), frame43 m c main_cst_28 (by decide)]; exact kd0_main_v156 m c
theorem kd0_main_v157 : W43 m c (Proc.devRef .tc main_v157) = (broadcastInDim S128x128 ![] bcast_S_S128x128 : (⟨S_, .f32⟩ : BufTy).Contents (Elt F) → (⟨S128x128, .f32⟩ : BufTy).Contents (Elt F)) (W43 m c (Proc.devRef .tc main_v156)) := by
  dsimp only [W43, hostOps14_3]
  after_results_simp <;> (try simp only [StableHlo.TRef.ofBuf, StableHlo.TRef.toBuf, cast_eq]) <;> (try rfl)
theorem kd_main_v157 : W63 m c (Proc.devRef .tc main_v157) = (broadcastInDim S128x128 ![] bcast_S_S128x128 : (⟨S_, .f32⟩ : BufTy).Contents (Elt F) → (⟨S128x128, .f32⟩ : BufTy).Contents (Elt F)) (W63 m c (Proc.devRef .tc main_v156)) := by
  rw [frame43 m c main_v157 (by decide), frame43 m c main_v156 (by decide)]; exact kd0_main_v157 m c
theorem kd0_main_v158 : W43 m c (Proc.devRef .tc main_v158) = (Host.divf : (⟨S128x128, .f32⟩ : BufTy).Contents (Elt F) → (⟨S128x128, .f32⟩ : BufTy).Contents (Elt F) → (⟨S128x128, .f32⟩ : BufTy).Contents (Elt F)) (W43 m c (Proc.devRef .tc main_v155)) (W43 m c (Proc.devRef .tc main_v157)) := by
  dsimp only [W43, hostOps14_3]
  after_results_simp <;> (try simp only [StableHlo.TRef.ofBuf, StableHlo.TRef.toBuf, cast_eq]) <;> (try rfl)
theorem kd_main_v158 : W63 m c (Proc.devRef .tc main_v158) = (Host.divf : (⟨S128x128, .f32⟩ : BufTy).Contents (Elt F) → (⟨S128x128, .f32⟩ : BufTy).Contents (Elt F) → (⟨S128x128, .f32⟩ : BufTy).Contents (Elt F)) (W63 m c (Proc.devRef .tc main_v155)) (W63 m c (Proc.devRef .tc main_v157)) := by
  rw [frame43 m c main_v158 (by decide), frame43 m c main_v155 (by decide), frame43 m c main_v157 (by decide)]; exact kd0_main_v158 m c
theorem kd0_main_v159 : W43 m c (Proc.devRef .tc main_v159) = (subf : (⟨S128x128, .f32⟩ : BufTy).Contents (Elt F) → (⟨S128x128, .f32⟩ : BufTy).Contents (Elt F) → (⟨S128x128, .f32⟩ : BufTy).Contents (Elt F)) (W43 m c (Proc.devRef .tc main_v149)) (W43 m c (Proc.devRef .tc main_v158)) := by
  dsimp only [W43, hostOps14_3]
  after_results_simp <;> (try simp only [StableHlo.TRef.ofBuf, StableHlo.TRef.toBuf, cast_eq]) <;> (try rfl)
theorem kd_main_v159 : W63 m c (Proc.devRef .tc main_v159) = (subf : (⟨S128x128, .f32⟩ : BufTy).Contents (Elt F) → (⟨S128x128, .f32⟩ : BufTy).Contents (Elt F) → (⟨S128x128, .f32⟩ : BufTy).Contents (Elt F)) (W63 m c (Proc.devRef .tc main_v149)) (W63 m c (Proc.devRef .tc main_v158)) := by
  rw [frame43 m c main_v159 (by decide), frame43 m c main_v149 (by decide), frame43 m c main_v158 (by decide)]; exact kd0_main_v159 m c
theorem kd0_main_call11_v0 : W44 m c (Proc.devRef .tc main_call11_v0) = (mulf : (⟨S128x128, .f32⟩ : BufTy).Contents (Elt F) → (⟨S128x128, .f32⟩ : BufTy).Contents (Elt F) → (⟨S128x128, .f32⟩ : BufTy).Contents (Elt F)) (W44 m c (Proc.devRef .tc main_v159)) (W44 m c (Proc.devRef .tc main_v159)) := by
  dsimp only [W44, hostOps14_4]
  after_results_simp <;> (try simp only [StableHlo.TRef.ofBuf, StableHlo.TRef.toBuf, cast_eq]) <;> (try rfl)
theorem kd_main_call11_v0 : W63 m c (Proc.devRef .tc main_call11_v0) = (mulf : (⟨S128x128, .f32⟩ : BufTy).Contents (Elt F) → (⟨S128x128, .f32⟩ : BufTy).Contents (Elt F) → (⟨S128x128, .f32⟩ : BufTy).Contents (Elt F)) (W63 m c (Proc.devRef .tc main_v159)) (W63 m c (Proc.devRef .tc main_v159)) := by
  rw [frame44 m c main_call11_v0 (by decide), frame44 m c main_v159 (by decide)]; exact kd0_main_call11_v0 m c
theorem kd0_main_call11_cst : W44 m c (Proc.devRef .tc main_call11_cst) = ((constant S_ .f32 0x00000000#32) : (⟨S_, .f32⟩ : BufTy).Contents (Elt F)) := by
  dsimp only [W44, hostOps14_4]
  after_results_simp <;> (try simp only [StableHlo.TRef.ofBuf, StableHlo.TRef.toBuf, cast_eq]) <;> (try rfl)
theorem kd_main_call11_cst : W63 m c (Proc.devRef .tc main_call11_cst) = ((constant S_ .f32 0x00000000#32) : (⟨S_, .f32⟩ : BufTy).Contents (Elt F)) := by
  rw [frame44 m c main_call11_cst (by decide)]; exact kd0_main_call11_cst m c
theorem kd0_main_call11_v1 : W44 m c (Proc.devRef .tc main_call11_v1) = ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)) (W44 m c (Proc.devRef .tc main_call11_v0)) (W44 m c (Proc.devRef .tc main_call11_cst)) := by
  dsimp only [W44, hostOps14_4]
  after_results_simp <;> (try simp only [StableHlo.TRef.ofBuf, StableHlo.TRef.toBuf, cast_eq]) <;> (try rfl)
theorem kd_main_call11_v1 : W63 m c (Proc.devRef .tc main_call11_v1) = ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)) (W63 m c (Proc.devRef .tc main_call11_v0)) (W63 m c (Proc.devRef .tc main_call11_cst)) := by
  rw [frame44 m c main_call11_v1 (by decide), frame44 m c main_call11_v0 (by decide), frame44 m c main_call11_cst (by decide)]; exact kd0_main_call11_v1 m c
theorem kd0_main_v160 : W44 m c (Proc.devRef .tc main_v160) = (Host.sqrt : (⟨S_, .f32⟩ : BufTy).Contents (Elt F) → (⟨S_, .f32⟩ : BufTy).Contents (Elt F)) (W44 m c (Proc.devRef .tc main_call11_v1)) := by
  dsimp only [W44, hostOps14_4]
  after_results_simp <;> (try simp only [StableHlo.TRef.ofBuf, StableHlo.TRef.toBuf, cast_eq]) <;> (try rfl)
theorem kd_main_v160 : W63 m c (Proc.devRef .tc main_v160) = (Host.sqrt : (⟨S_, .f32⟩ : BufTy).Contents (Elt F) → (⟨S_, .f32⟩ : BufTy).Contents (Elt F)) (W63 m c (Proc.devRef .tc main_call11_v1)) := by
  rw [frame44 m c main_v160 (by decide), frame44 m c main_call11_v1 (by decide)]; exact kd0_main_v160 m c

end Cert.KernelIdeal.Hand

end
-- ==== Proof.KI.Reads4.lean ====
/- What each host operation of @main leaves in its result buffer, read at the last boundary's contents: the operation's
   function of its operands' contents there (every buffer is written once). Stretches: hostOps14_5, hostOps14_6, hostOps14_7, hostOps15, hostOps16, hostOps17. -/
import proofs.«405323_j90718299226206_3_alg».proof.Proof.KI.Frames

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem kd0_main_v161 : W45 m c (Proc.devRef .tc main_v161) = (iotaInDim S128x128 32 0) := by
  dsimp only [W45, hostOps14_5]
  after_results_simp <;> (try simp only [StableHlo.TRef.ofBuf, StableHlo.TRef.toBuf, cast_eq]) <;> (try rfl)
theorem kd_main_v161 : W63 m c (Proc.devRef .tc main_v161) = (iotaInDim S128x128 32 0) := by
  rw [frame45 m c main_v161 (by decide)]; exact kd0_main_v161 m c
theorem kd0_main_v162 : W45 m c (Proc.devRef .tc main_v162) = (iotaInDim S128x128 32 1) := by
  dsimp only [W45, hostOps14_5]
  after_results_simp <;> (try simp only [StableHlo.TRef.ofBuf, StableHlo.TRef.toBuf, cast_eq]) <;> (try rfl)
theorem kd_main_v162 : W63 m c (Proc.devRef .tc main_v162) = (iotaInDim S128x128 32 1) := by
  rw [frame45 m c main_v162 (by decide)]; exact kd0_main_v162 m c
theorem kd0_main_c_29 : W45 m c (Proc.devRef .tc main_c_29) = (constantI S_ 32 0#32) := by
  dsimp only [W45, hostOps14_5]
  after_results_simp <;> (try simp only [StableHlo.TRef.ofBuf, StableHlo.TRef.toBuf, cast_eq]) <;> (try rfl)
theorem kd_main_c_29 : W63 m c (Proc.devRef .tc main_c_29) = (constantI S_ 32 0#32) := by
  rw [frame45 m c main_c_29 (by decide)]; exact kd0_main_c_29 m c
theorem kd0_main_v163 : W45 m c (Proc.devRef .tc main_v163) = (broadcastInDim S128x128 ![] bcast_S_S128x128 : (⟨S_, .i32⟩ : BufTy).Contents (Elt F) → (⟨S128x128, .i32⟩ : BufTy).Contents (Elt F)) (W45 m c (Proc.devRef .tc main_c_29)) := by
  dsimp only [W45, hostOps14_5]
  after_results_simp <;> (try simp only [StableHlo.TRef.ofBuf, StableHlo.TRef.toBuf, cast_eq]) <;> (try rfl)
theorem kd_main_v163 : W63 m c (Proc.devRef .tc main_v163) = (broadcastInDim S128x128 ![] bcast_S_S128x128 : (⟨S_, .i32⟩ : BufTy).Contents (Elt F) → (⟨S128x128, .i32⟩ : BufTy).Contents (Elt F)) (W63 m c (Proc.devRef .tc main_c_29)) := by
  rw [frame45 m c main_v163 (by decide), frame45 m c main_c_29 (by decide)]; exact kd0_main_v163 m c
theorem kd0_main_v164 : W45 m c (Proc.devRef .tc main_v164) = (addi : (⟨S128x128, .i32⟩ : BufTy).Contents (Elt F) → (⟨S128x128, .i32⟩ : BufTy).Contents (Elt F) → (⟨S128x128, .i32⟩ : BufTy).Contents (Elt F)) (W45 m c (Proc.devRef .tc main_v161)) (W45 m c (Proc.devRef .tc main_v163)) := by
  dsimp only [W45, hostOps14_5]
  after_results_simp <;> (try simp only [StableHlo.TRef.ofBuf, StableHlo.TRef.toBuf, cast_eq]) <;> (try rfl)
theorem kd_main_v164 : W63 m c (Proc.devRef .tc main_v164) = (addi : (⟨S128x128, .i32⟩ : BufTy).Contents (Elt F) → (⟨S128x128, .i32⟩ : BufTy).Contents (Elt F) → (⟨S128x128, .i32⟩ : BufTy).Contents (Elt F)) (W63 m c (Proc.devRef .tc main_v161)) (W63 m c (Proc.devRef .tc main_v163)) := by
  rw [frame45 m c main_v164 (by decide), frame45 m c main_v161 (by decide), frame45 m c main_v163 (by decide)]; exact kd0_main_v164 m c
theorem kd0_main_v165 : W45 m c (Proc.devRef .tc main_v165) = (cmpi .eq : (⟨S128x128, .i32⟩ : BufTy).Contents (Elt F) → (⟨S128x128, .i32⟩ : BufTy).Contents (Elt F) → (⟨S128x128, .i1⟩ : BufTy).Contents (Elt F)) (W45 m c (Proc.devRef .tc main_v164)) (W45 m c (Proc.devRef .tc main_v162)) := by
  dsimp only [W45, hostOps14_5]
  after_results_simp <;> (try simp only [StableHlo.TRef.ofBuf, StableHlo.TRef.toBuf, cast_eq]) <;> (try rfl)
theorem kd_main_v165 : W63 m c (Proc.devRef .tc main_v165) = (cmpi .eq : (⟨S128x128, .i32⟩ : BufTy).Contents (Elt F) → (⟨S128x128, .i32⟩ : BufTy).Contents (Elt F) → (⟨S128x128, .i1⟩ : BufTy).Contents (Elt F)) (W63 m c (Proc.devRef .tc main_v164)) (W63 m c (Proc.devRef .tc main_v162)) := by
  rw [frame45 m c main_v165 (by decide), frame45 m c main_v164 (by decide), frame45 m c main_v162 (by decide)]; exact kd0_main_v165 m c
theorem kd0_main_v166 : W45 m c (Proc.devRef .tc main_v166) = (uitofp .f32 : (⟨S128x128, .i1⟩ : BufTy).Contents (Elt F) → (⟨S128x128, .f32⟩ : BufTy).Contents (Elt F)) (W45 m c (Proc.devRef .tc main_v165)) := by
  dsimp only [W45, hostOps14_5]
  after_results_simp <;> (try simp only [StableHlo.TRef.ofBuf, StableHlo.TRef.toBuf, cast_eq]) <;> (try rfl)
theorem kd_main_v166 : W63 m c (Proc.devRef .tc main_v166) = (uitofp .f32 : (⟨S128x128, .i1⟩ : BufTy).Contents (Elt F) → (⟨S128x128, .f32⟩ : BufTy).Contents (Elt F)) (W63 m c (Proc.devRef .tc main_v165)) := by
  rw [frame45 m c main_v166 (by decide), frame45 m c main_v165 (by decide)]; exact kd0_main_v166 m c
theorem kd0_main_cst_30 : W45 m c (Proc.devRef .tc main_cst_30) = (constant S_ .f32 0x3F800000#32) := by
  dsimp only [W45, hostOps14_5]
  after_results_simp <;> (try simp only [StableHlo.TRef.ofBuf, StableHlo.TRef.toBuf, cast_eq]) <;> (try rfl)
theorem kd_main_cst_30 : W63 m c (Proc.devRef .tc main_cst_30) = (constant S_ .f32 0x3F800000#32) := by
  rw [frame45 m c main_cst_30 (by decide)]; exact kd0_main_cst_30 m c
theorem kd0_main_v167 : W45 m c (Proc.devRef .tc main_v167) = (broadcastInDim S128x128 ![] bcast_S_S128x128 : (⟨S_, .f32⟩ : BufTy).Contents (Elt F) → (⟨S128x128, .f32⟩ : BufTy).Contents (Elt F)) (W45 m c (Proc.devRef .tc main_cst_30)) := by
  dsimp only [W45, hostOps14_5]
  after_results_simp <;> (try simp only [StableHlo.TRef.ofBuf, StableHlo.TRef.toBuf, cast_eq]) <;> (try rfl)
theorem kd_main_v167 : W63 m c (Proc.devRef .tc main_v167) = (broadcastInDim S128x128 ![] bcast_S_S128x128 : (⟨S_, .f32⟩ : BufTy).Contents (Elt F) → (⟨S128x128, .f32⟩ : BufTy).Contents (Elt F)) (W63 m c (Proc.devRef .tc main_cst_30)) := by
  rw [frame45 m c main_v167 (by decide), frame45 m c main_cst_30 (by decide)]; exact kd0_main_v167 m c
theorem kd0_main_v168 : W45 m c (Proc.devRef .tc main_v168) = (subf : (⟨S128x128, .f32⟩ : BufTy).Contents (Elt F) → (⟨S128x128, .f32⟩ : BufTy).Contents (Elt F) → (⟨S128x128, .f32⟩ : BufTy).Contents (Elt F)) (W45 m c (Proc.devRef .tc main_v167)) (W45 m c (Proc.devRef .tc main_v166)) := by
  dsimp only [W45, hostOps14_5]
  after_results_simp <;> (try simp only [StableHlo.TRef.ofBuf, StableHlo.TRef.toBuf, cast_eq]) <;> (try rfl)
theorem kd_main_v168 : W63 m c (Proc.devRef .tc main_v168) = (subf : (⟨S128x128, .f32⟩ : BufTy).Contents (Elt F) → (⟨S128x128, .f32⟩ : BufTy).Contents (Elt F) → (⟨S128x128, .f32⟩ : BufTy).Contents (Elt F)) (W63 m c (Proc.devRef .tc main_v167)) (W63 m c (Proc.devRef .tc main_v166)) := by
  rw [frame45 m c main_v168 (by decide), frame45 m c main_v167 (by decide), frame45 m c main_v166 (by decide)]; exact kd0_main_v168 m c
theorem kd0_main_v169 : W45 m c (Proc.devRef .tc main_v169) = (mulf : (⟨S128x128, .f32⟩ : BufTy).Contents (Elt F) → (⟨S128x128, .f32⟩ : BufTy).Contents (Elt F) → (⟨S128x128, .f32⟩ : BufTy).Contents (Elt F)) (W45 m c (Proc.devRef .tc main_v136)) (W45 m c (Proc.devRef .tc main_v168)) := by
  dsimp only [W45, hostOps14_5]
  after_results_simp <;> (try simp only [StableHlo.TRef.ofBuf, StableHlo.TRef.toBuf, cast_eq]) <;> (try rfl)
theorem kd_main_v169 : W63 m c (Proc.devRef .tc main_v169) = (mulf : (⟨S128x128, .f32⟩ : BufTy).Contents (Elt F) → (⟨S128x128, .f32⟩ : BufTy).Contents (Elt F) → (⟨S128x128, .f32⟩ : BufTy).Contents (Elt F)) (W63 m c (Proc.devRef .tc main_v136)) (W63 m c (Proc.devRef .tc main_v168)) := by
  rw [frame45 m c main_v169 (by decide), frame45 m c main_v136 (by decide), frame45 m c main_v168 (by decide)]; exact kd0_main_v169 m c
theorem kd0_main_cst_31 : W45 m c (Proc.devRef .tc main_cst_31) = (constant S_ .f32 0x00000000#32) := by
  dsimp only [W45, hostOps14_5]
  after_results_simp <;> (try simp only [StableHlo.TRef.ofBuf, StableHlo.TRef.toBuf, cast_eq]) <;> (try rfl)
theorem kd_main_cst_31 : W63 m c (Proc.devRef .tc main_cst_31) = (constant S_ .f32 0x00000000#32) := by
  rw [frame45 m c main_cst_31 (by decide)]; exact kd0_main_cst_31 m c
theorem kd0_main_v170 : W45 m c (Proc.devRef .tc main_v170) = ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)) (W45 m c (Proc.devRef .tc main_v169)) (W45 m c (Proc.devRef .tc main_cst_31)) := by
  dsimp only [W45, hostOps14_5]
  after_results_simp <;> (try simp only [StableHlo.TRef.ofBuf, StableHlo.TRef.toBuf, cast_eq]) <;> (try rfl)
theorem kd_main_v170 : W63 m c (Proc.devRef .tc main_v170) = ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)) (W63 m c (Proc.devRef .tc main_v169)) (W63 m c (Proc.devRef .tc main_cst_31)) := by
  rw [frame45 m c main_v170 (by decide), frame45 m c main_v169 (by decide), frame45 m c main_cst_31 (by decide)]; exact kd0_main_v170 m c
theorem kd0_main_v171 : W45 m c (Proc.devRef .tc main_v171) = (Host.sqrt : (⟨S128, .f32⟩ : BufTy).Contents (Elt F) → (⟨S128, .f32⟩ : BufTy).Contents (Elt F)) (W45 m c (Proc.devRef .tc main_v170)) := by
  dsimp only [W45, hostOps14_5]
  after_results_simp <;> (try simp only [StableHlo.TRef.ofBuf, StableHlo.TRef.toBuf, cast_eq]) <;> (try rfl)
theorem kd_main_v171 : W63 m c (Proc.devRef .tc main_v171) = (Host.sqrt : (⟨S128, .f32⟩ : BufTy).Contents (Elt F) → (⟨S128, .f32⟩ : BufTy).Contents (Elt F)) (W63 m c (Proc.devRef .tc main_v170)) := by
  rw [frame45 m c main_v171 (by decide), frame45 m c main_v170 (by decide)]; exact kd0_main_v171 m c
theorem kd0_main_v172 : W45 m c (Proc.devRef .tc main_v172) = (broadcastInDim S128x1 ![0] bcast_S128_S128x1_0 : (⟨S128, .f32⟩ : BufTy).Contents (Elt F) → (⟨S128x1, .f32⟩ : BufTy).Contents (Elt F)) (W45 m c (Proc.devRef .tc main_v171)) := by
  dsimp only [W45, hostOps14_5]
  after_results_simp <;> (try simp only [StableHlo.TRef.ofBuf, StableHlo.TRef.toBuf, cast_eq]) <;> (try rfl)
theorem kd_main_v172 : W63 m c (Proc.devRef .tc main_v172) = (broadcastInDim S128x1 ![0] bcast_S128_S128x1_0 : (⟨S128, .f32⟩ : BufTy).Contents (Elt F) → (⟨S128x1, .f32⟩ : BufTy).Contents (Elt F)) (W63 m c (Proc.devRef .tc main_v171)) := by
  rw [frame45 m c main_v172 (by decide), frame45 m c main_v171 (by decide)]; exact kd0_main_v172 m c
theorem kd0_main_cst_32 : W45 m c (Proc.devRef .tc main_cst_32) = (constant S_ .f32 0x26901D7D#32) := by
  dsimp only [W45, hostOps14_5]
  after_results_simp <;> (try simp only [StableHlo.TRef.ofBuf, StableHlo.TRef.toBuf, cast_eq]) <;> (try rfl)
theorem kd_main_cst_32 : W63 m c (Proc.devRef .tc main_cst_32) = (constant S_ .f32 0x26901D7D#32) := by
  rw [frame45 m c main_cst_32 (by decide)]; exact kd0_main_cst_32 m c
theorem kd0_main_v173 : W45 m c (Proc.devRef .tc main_v173) = (broadcastInDim S128x1 ![] bcast_S_S128x1 : (⟨S_, .f32⟩ : BufTy).Contents (Elt F) → (⟨S128x1, .f32⟩ : BufTy).Contents (Elt F)) (W45 m c (Proc.devRef .tc main_cst_32)) := by
  dsimp only [W45, hostOps14_5]
  after_results_simp <;> (try simp only [StableHlo.TRef.ofBuf, StableHlo.TRef.toBuf, cast_eq]) <;> (try rfl)
theorem kd_main_v173 : W63 m c (Proc.devRef .tc main_v173) = (broadcastInDim S128x1 ![] bcast_S_S128x1 : (⟨S_, .f32⟩ : BufTy).Contents (Elt F) → (⟨S128x1, .f32⟩ : BufTy).Contents (Elt F)) (W63 m c (Proc.devRef .tc main_cst_32)) := by
  rw [frame45 m c main_v173 (by decide), frame45 m c main_cst_32 (by decide)]; exact kd0_main_v173 m c
theorem kd0_main_v174 : W45 m c (Proc.devRef .tc main_v174) = (addf : (⟨S128x1, .f32⟩ : BufTy).Contents (Elt F) → (⟨S128x1, .f32⟩ : BufTy).Contents (Elt F) → (⟨S128x1, .f32⟩ : BufTy).Contents (Elt F)) (W45 m c (Proc.devRef .tc main_v172)) (W45 m c (Proc.devRef .tc main_v173)) := by
  dsimp only [W45, hostOps14_5]
  after_results_simp <;> (try simp only [StableHlo.TRef.ofBuf, StableHlo.TRef.toBuf, cast_eq]) <;> (try rfl)
theorem kd_main_v174 : W63 m c (Proc.devRef .tc main_v174) = (addf : (⟨S128x1, .f32⟩ : BufTy).Contents (Elt F) → (⟨S128x1, .f32⟩ : BufTy).Contents (Elt F) → (⟨S128x1, .f32⟩ : BufTy).Contents (Elt F)) (W63 m c (Proc.devRef .tc main_v172)) (W63 m c (Proc.devRef .tc main_v173)) := by
  rw [frame45 m c main_v174 (by decide), frame45 m c main_v172 (by decide), frame45 m c main_v173 (by decide)]; exact kd0_main_v174 m c
theorem kd0_main_v175 : W45 m c (Proc.devRef .tc main_v175) = (broadcastInDim S128x128 ![0, 1] bcast_S128x1_S128x128_0_1 : (⟨S128x1, .f32⟩ : BufTy).Contents (Elt F) → (⟨S128x128, .f32⟩ : BufTy).Contents (Elt F)) (W45 m c (Proc.devRef .tc main_v174)) := by
  dsimp only [W45, hostOps14_5]
  after_results_simp <;> (try simp only [StableHlo.TRef.ofBuf, StableHlo.TRef.toBuf, cast_eq]) <;> (try rfl)
theorem kd_main_v175 : W63 m c (Proc.devRef .tc main_v175) = (broadcastInDim S128x128 ![0, 1] bcast_S128x1_S128x128_0_1 : (⟨S128x1, .f32⟩ : BufTy).Contents (Elt F) → (⟨S128x128, .f32⟩ : BufTy).Contents (Elt F)) (W63 m c (Proc.devRef .tc main_v174)) := by
  rw [frame45 m c main_v175 (by decide), frame45 m c main_v174 (by decide)]; exact kd0_main_v175 m c
theorem kd0_main_v176 : W45 m c (Proc.devRef .tc main_v176) = (Host.divf : (⟨S128x128, .f32⟩ : BufTy).Contents (Elt F) → (⟨S128x128, .f32⟩ : BufTy).Contents (Elt F) → (⟨S128x128, .f32⟩ : BufTy).Contents (Elt F)) (W45 m c (Proc.devRef .tc main_v169)) (W45 m c (Proc.devRef .tc main_v175)) := by
  dsimp only [W45, hostOps14_5]
  after_results_simp <;> (try simp only [StableHlo.TRef.ofBuf, StableHlo.TRef.toBuf, cast_eq]) <;> (try rfl)
theorem kd_main_v176 : W63 m c (Proc.devRef .tc main_v176) = (Host.divf : (⟨S128x128, .f32⟩ : BufTy).Contents (Elt F) → (⟨S128x128, .f32⟩ : BufTy).Contents (Elt F) → (⟨S128x128, .f32⟩ : BufTy).Contents (Elt F)) (W63 m c (Proc.devRef .tc main_v169)) (W63 m c (Proc.devRef .tc main_v175)) := by
  rw [frame45 m c main_v176 (by decide), frame45 m c main_v169 (by decide), frame45 m c main_v175 (by decide)]; exact kd0_main_v176 m c
theorem kd0_main_v177 : W45 m c (Proc.devRef .tc main_v177) = ((transpose S1x128 [1, 0] · transposes_S128x1_S1x128_1_0) : (⟨S128x1, .f32⟩ : BufTy).Contents (Elt F) → (⟨S1x128, .f32⟩ : BufTy).Contents (Elt F)) (W45 m c (Proc.devRef .tc main_v174)) := by
  dsimp only [W45, hostOps14_5]
  after_results_simp <;> (try simp only [StableHlo.TRef.ofBuf, StableHlo.TRef.toBuf, cast_eq]) <;> (try rfl)
theorem kd_main_v177 : W63 m c (Proc.devRef .tc main_v177) = ((transpose S1x128 [1, 0] · transposes_S128x1_S1x128_1_0) : (⟨S128x1, .f32⟩ : BufTy).Contents (Elt F) → (⟨S1x128, .f32⟩ : BufTy).Contents (Elt F)) (W63 m c (Proc.devRef .tc main_v174)) := by
  rw [frame45 m c main_v177 (by decide), frame45 m c main_v174 (by decide)]; exact kd0_main_v177 m c
theorem kd0_main_v178 : W45 m c (Proc.devRef .tc main_v178) = (broadcastInDim S128x128 ![0, 1] bcast_S1x128_S128x128_0_1 : (⟨S1x128, .f32⟩ : BufTy).Contents (Elt F) → (⟨S128x128, .f32⟩ : BufTy).Contents (Elt F)) (W45 m c (Proc.devRef .tc main_v177)) := by
  dsimp only [W45, hostOps14_5]
  after_results_simp <;> (try simp only [StableHlo.TRef.ofBuf, StableHlo.TRef.toBuf, cast_eq]) <;> (try rfl)
theorem kd_main_v178 : W63 m c (Proc.devRef .tc main_v178) = (broadcastInDim S128x128 ![0, 1] bcast_S1x128_S128x128_0_1 : (⟨S1x128, .f32⟩ : BufTy).Contents (Elt F) → (⟨S128x128, .f32⟩ : BufTy).Contents (Elt F)) (W63 m c (Proc.devRef .tc main_v177)) := by
  rw [frame45 m c main_v178 (by decide), frame45 m c main_v177 (by decide)]; exact kd0_main_v178 m c
theorem kd0_main_v179 : W45 m c (Proc.devRef .tc main_v179) = (Host.divf : (⟨S128x128, .f32⟩ : BufTy).Contents (Elt F) → (⟨S128x128, .f32⟩ : BufTy).Contents (Elt F) → (⟨S128x128, .f32⟩ : BufTy).Contents (Elt F)) (W45 m c (Proc.devRef .tc main_v176)) (W45 m c (Proc.devRef .tc main_v178)) := by
  dsimp only [W45, hostOps14_5]
  after_results_simp <;> (try simp only [StableHlo.TRef.ofBuf, StableHlo.TRef.toBuf, cast_eq]) <;> (try rfl)
theorem kd_main_v179 : W63 m c (Proc.devRef .tc main_v179) = (Host.divf : (⟨S128x128, .f32⟩ : BufTy).Contents (Elt F) → (⟨S128x128, .f32⟩ : BufTy).Contents (Elt F) → (⟨S128x128, .f32⟩ : BufTy).Contents (Elt F)) (W63 m c (Proc.devRef .tc main_v176)) (W63 m c (Proc.devRef .tc main_v178)) := by
  rw [frame45 m c main_v179 (by decide), frame45 m c main_v176 (by decide), frame45 m c main_v178 (by decide)]; exact kd0_main_v179 m c
theorem kd0_main_v180 : W45 m c (Proc.devRef .tc main_v180) = (iotaInDim S128x128 32 0) := by
  dsimp only [W45, hostOps14_5]
  after_results_simp <;> (try simp only [StableHlo.TRef.ofBuf, StableHlo.TRef.toBuf, cast_eq]) <;> (try rfl)
theorem kd_main_v180 : W63 m c (Proc.devRef .tc main_v180) = (iotaInDim S128x128 32 0) := by
  rw [frame45 m c main_v180 (by decide)]; exact kd0_main_v180 m c
theorem kd0_main_v181 : W45 m c (Proc.devRef .tc main_v181) = (iotaInDim S128x128 32 1) := by
  dsimp only [W45, hostOps14_5]
  after_results_simp <;> (try simp only [StableHlo.TRef.ofBuf, StableHlo.TRef.toBuf, cast_eq]) <;> (try rfl)
theorem kd_main_v181 : W63 m c (Proc.devRef .tc main_v181) = (iotaInDim S128x128 32 1) := by
  rw [frame45 m c main_v181 (by decide)]; exact kd0_main_v181 m c
theorem kd0_main_c_33 : W45 m c (Proc.devRef .tc main_c_33) = (constantI S_ 32 0#32) := by
  dsimp only [W45, hostOps14_5]
  after_results_simp <;> (try simp only [StableHlo.TRef.ofBuf, StableHlo.TRef.toBuf, cast_eq]) <;> (try rfl)
theorem kd_main_c_33 : W63 m c (Proc.devRef .tc main_c_33) = (constantI S_ 32 0#32) := by
  rw [frame45 m c main_c_33 (by decide)]; exact kd0_main_c_33 m c
theorem kd0_main_v182 : W45 m c (Proc.devRef .tc main_v182) = (broadcastInDim S128x128 ![] bcast_S_S128x128 : (⟨S_, .i32⟩ : BufTy).Contents (Elt F) → (⟨S128x128, .i32⟩ : BufTy).Contents (Elt F)) (W45 m c (Proc.devRef .tc main_c_33)) := by
  dsimp only [W45, hostOps14_5]
  after_results_simp <;> (try simp only [StableHlo.TRef.ofBuf, StableHlo.TRef.toBuf, cast_eq]) <;> (try rfl)
theorem kd_main_v182 : W63 m c (Proc.devRef .tc main_v182) = (broadcastInDim S128x128 ![] bcast_S_S128x128 : (⟨S_, .i32⟩ : BufTy).Contents (Elt F) → (⟨S128x128, .i32⟩ : BufTy).Contents (Elt F)) (W63 m c (Proc.devRef .tc main_c_33)) := by
  rw [frame45 m c main_v182 (by decide), frame45 m c main_c_33 (by decide)]; exact kd0_main_v182 m c
theorem kd0_main_v183 : W45 m c (Proc.devRef .tc main_v183) = (addi : (⟨S128x128, .i32⟩ : BufTy).Contents (Elt F) → (⟨S128x128, .i32⟩ : BufTy).Contents (Elt F) → (⟨S128x128, .i32⟩ : BufTy).Contents (Elt F)) (W45 m c (Proc.devRef .tc main_v180)) (W45 m c (Proc.devRef .tc main_v182)) := by
  dsimp only [W45, hostOps14_5]
  after_results_simp <;> (try simp only [StableHlo.TRef.ofBuf, StableHlo.TRef.toBuf, cast_eq]) <;> (try rfl)
theorem kd_main_v183 : W63 m c (Proc.devRef .tc main_v183) = (addi : (⟨S128x128, .i32⟩ : BufTy).Contents (Elt F) → (⟨S128x128, .i32⟩ : BufTy).Contents (Elt F) → (⟨S128x128, .i32⟩ : BufTy).Contents (Elt F)) (W63 m c (Proc.devRef .tc main_v180)) (W63 m c (Proc.devRef .tc main_v182)) := by
  rw [frame45 m c main_v183 (by decide), frame45 m c main_v180 (by decide), frame45 m c main_v182 (by decide)]; exact kd0_main_v183 m c
theorem kd0_main_v184 : W45 m c (Proc.devRef .tc main_v184) = (cmpi .eq : (⟨S128x128, .i32⟩ : BufTy).Contents (Elt F) → (⟨S128x128, .i32⟩ : BufTy).Contents (Elt F) → (⟨S128x128, .i1⟩ : BufTy).Contents (Elt F)) (W45 m c (Proc.devRef .tc main_v183)) (W45 m c (Proc.devRef .tc main_v181)) := by
  dsimp only [W45, hostOps14_5]
  after_results_simp <;> (try simp only [StableHlo.TRef.ofBuf, StableHlo.TRef.toBuf, cast_eq]) <;> (try rfl)
theorem kd_main_v184 : W63 m c (Proc.devRef .tc main_v184) = (cmpi .eq : (⟨S128x128, .i32⟩ : BufTy).Contents (Elt F) → (⟨S128x128, .i32⟩ : BufTy).Contents (Elt F) → (⟨S128x128, .i1⟩ : BufTy).Contents (Elt F)) (W63 m c (Proc.devRef .tc main_v183)) (W63 m c (Proc.devRef .tc main_v181)) := by
  rw [frame45 m c main_v184 (by decide), frame45 m c main_v183 (by decide), frame45 m c main_v181 (by decide)]; exact kd0_main_v184 m c
theorem kd0_main_v185 : W45 m c (Proc.devRef .tc main_v185) = (uitofp .f32 : (⟨S128x128, .i1⟩ : BufTy).Contents (Elt F) → (⟨S128x128, .f32⟩ : BufTy).Contents (Elt F)) (W45 m c (Proc.devRef .tc main_v184)) := by
  dsimp only [W45, hostOps14_5]
  after_results_simp <;> (try simp only [StableHlo.TRef.ofBuf, StableHlo.TRef.toBuf, cast_eq]) <;> (try rfl)
theorem kd_main_v185 : W63 m c (Proc.devRef .tc main_v185) = (uitofp .f32 : (⟨S128x128, .i1⟩ : BufTy).Contents (Elt F) → (⟨S128x128, .f32⟩ : BufTy).Contents (Elt F)) (W63 m c (Proc.devRef .tc main_v184)) := by
  rw [frame45 m c main_v185 (by decide), frame45 m c main_v184 (by decide)]; exact kd0_main_v185 m c
theorem kd0_main_v186 : W45 m c (Proc.devRef .tc main_v186) = (addf : (⟨S128x128, .f32⟩ : BufTy).Contents (Elt F) → (⟨S128x128, .f32⟩ : BufTy).Contents (Elt F) → (⟨S128x128, .f32⟩ : BufTy).Contents (Elt F)) (W45 m c (Proc.devRef .tc main_v179)) (W45 m c (Proc.devRef .tc main_v185)) := by
  dsimp only [W45, hostOps14_5]
  after_results_simp <;> (try simp only [StableHlo.TRef.ofBuf, StableHlo.TRef.toBuf, cast_eq]) <;> (try rfl)
theorem kd_main_v186 : W63 m c (Proc.devRef .tc main_v186) = (addf : (⟨S128x128, .f32⟩ : BufTy).Contents (Elt F) → (⟨S128x128, .f32⟩ : BufTy).Contents (Elt F) → (⟨S128x128, .f32⟩ : BufTy).Contents (Elt F)) (W63 m c (Proc.devRef .tc main_v179)) (W63 m c (Proc.devRef .tc main_v185)) := by
  rw [frame45 m c main_v186 (by decide), frame45 m c main_v179 (by decide), frame45 m c main_v185 (by decide)]; exact kd0_main_v186 m c
theorem kd0_main_cst_34 : W45 m c (Proc.devRef .tc main_cst_34) = (constant S_ .f32 0x00000000#32) := by
  dsimp only [W45, hostOps14_5]
  after_results_simp <;> (try simp only [StableHlo.TRef.ofBuf, StableHlo.TRef.toBuf, cast_eq]) <;> (try rfl)
theorem kd_main_cst_34 : W63 m c (Proc.devRef .tc main_cst_34) = (constant S_ .f32 0x00000000#32) := by
  rw [frame45 m c main_cst_34 (by decide)]; exact kd0_main_cst_34 m c
theorem kd0_main_v187 : W45 m c (Proc.devRef .tc main_v187) = ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)) (W45 m c (Proc.devRef .tc main_v186)) (W45 m c (Proc.devRef .tc main_cst_34)) := by
  dsimp only [W45, hostOps14_5]
  after_results_simp <;> (try simp only [StableHlo.TRef.ofBuf, StableHlo.TRef.toBuf, cast_eq]) <;> (try rfl)
theorem kd_main_v187 : W63 m c (Proc.devRef .tc main_v187) = ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)) (W63 m c (Proc.devRef .tc main_v186)) (W63 m c (Proc.devRef .tc main_cst_34)) := by
  rw [frame45 m c main_v187 (by decide), frame45 m c main_v186 (by decide), frame45 m c main_cst_34 (by decide)]; exact kd0_main_v187 m c
theorem kd0_main_cst_35 : W45 m c (Proc.devRef .tc main_cst_35) = (constant S_ .f32 0x00000000#32) := by
  dsimp only [W45, hostOps14_5]
  after_results_simp <;> (try simp only [StableHlo.TRef.ofBuf, StableHlo.TRef.toBuf, cast_eq]) <;> (try rfl)
theorem kd_main_cst_35 : W63 m c (Proc.devRef .tc main_cst_35) = (constant S_ .f32 0x00000000#32) := by
  rw [frame45 m c main_cst_35 (by decide)]; exact kd0_main_cst_35 m c
theorem kd0_main_v188 : W45 m c (Proc.devRef .tc main_v188) = (broadcastInDim S128 ![] bcast_S_S128 : (⟨S_, .f32⟩ : BufTy).Contents (Elt F) → (⟨S128, .f32⟩ : BufTy).Contents (Elt F)) (W45 m c (Proc.devRef .tc main_cst_35)) := by
  dsimp only [W45, hostOps14_5]
  after_results_simp <;> (try simp only [StableHlo.TRef.ofBuf, StableHlo.TRef.toBuf, cast_eq]) <;> (try rfl)
theorem kd_main_v188 : W63 m c (Proc.devRef .tc main_v188) = (broadcastInDim S128 ![] bcast_S_S128 : (⟨S_, .f32⟩ : BufTy).Contents (Elt F) → (⟨S128, .f32⟩ : BufTy).Contents (Elt F)) (W63 m c (Proc.devRef .tc main_cst_35)) := by
  rw [frame45 m c main_v188 (by decide), frame45 m c main_cst_35 (by decide)]; exact kd0_main_v188 m c
theorem kd0_main_v189 : W45 m c (Proc.devRef .tc main_v189) = (cmpf .ogt : (⟨S128, .f32⟩ : BufTy).Contents (Elt F) → (⟨S128, .f32⟩ : BufTy).Contents (Elt F) → (⟨S128, .i1⟩ : BufTy).Contents (Elt F)) (W45 m c (Proc.devRef .tc main_v187)) (W45 m c (Proc.devRef .tc main_v188)) := by
  dsimp only [W45, hostOps14_5]
  after_results_simp <;> (try simp only [StableHlo.TRef.ofBuf, StableHlo.TRef.toBuf, cast_eq]) <;> (try rfl)
theorem kd_main_v189 : W63 m c (Proc.devRef .tc main_v189) = (cmpf .ogt : (⟨S128, .f32⟩ : BufTy).Contents (Elt F) → (⟨S128, .f32⟩ : BufTy).Contents (Elt F) → (⟨S128, .i1⟩ : BufTy).Contents (Elt F)) (W63 m c (Proc.devRef .tc main_v187)) (W63 m c (Proc.devRef .tc main_v188)) := by
  rw [frame45 m c main_v189 (by decide), frame45 m c main_v187 (by decide), frame45 m c main_v188 (by decide)]; exact kd0_main_v189 m c
theorem kd0_main_v190 : W45 m c (Proc.devRef .tc main_v190) = (Host.rsqrt : (⟨S128, .f32⟩ : BufTy).Contents (Elt F) → (⟨S128, .f32⟩ : BufTy).Contents (Elt F)) (W45 m c (Proc.devRef .tc main_v187)) := by
  dsimp only [W45, hostOps14_5]
  after_results_simp <;> (try simp only [StableHlo.TRef.ofBuf, StableHlo.TRef.toBuf, cast_eq]) <;> (try rfl)
theorem kd_main_v190 : W63 m c (Proc.devRef .tc main_v190) = (Host.rsqrt : (⟨S128, .f32⟩ : BufTy).Contents (Elt F) → (⟨S128, .f32⟩ : BufTy).Contents (Elt F)) (W63 m c (Proc.devRef .tc main_v187)) := by
  rw [frame45 m c main_v190 (by decide), frame45 m c main_v187 (by decide)]; exact kd0_main_v190 m c
theorem kd0_main_cst_36 : W45 m c (Proc.devRef .tc main_cst_36) = (constant S_ .f32 0x00000000#32) := by
  dsimp only [W45, hostOps14_5]
  after_results_simp <;> (try simp only [StableHlo.TRef.ofBuf, StableHlo.TRef.toBuf, cast_eq]) <;> (try rfl)
theorem kd_main_cst_36 : W63 m c (Proc.devRef .tc main_cst_36) = (constant S_ .f32 0x00000000#32) := by
  rw [frame45 m c main_cst_36 (by decide)]; exact kd0_main_cst_36 m c
theorem kd0_main_call12_v0 : W46 m c (Proc.devRef .tc main_call12_v0) = (id : (⟨S_, .f32⟩ : BufTy).Contents (Elt F) → (⟨S_, .f32⟩ : BufTy).Contents (Elt F)) (W46 m c (Proc.devRef .tc main_cst_36)) := by
  dsimp only [W46, hostOps14_6]
  after_results_simp <;> (try simp only [StableHlo.TRef.ofBuf, StableHlo.TRef.toBuf, cast_eq]) <;> (try rfl)
theorem kd_main_call12_v0 : W63 m c (Proc.devRef .tc main_call12_v0) = (id : (⟨S_, .f32⟩ : BufTy).Contents (Elt F) → (⟨S_, .f32⟩ : BufTy).Contents (Elt F)) (W63 m c (Proc.devRef .tc main_cst_36)) := by
  rw [frame46 m c main_call12_v0 (by decide), frame46 m c main_cst_36 (by decide)]; exact kd0_main_call12_v0 m c
theorem kd0_main_call12_v1 : W46 m c (Proc.devRef .tc main_call12_v1) = ((broadcastInDim S128 ![] bcast_S_S128) : (⟨S_, .f32⟩ : BufTy).Contents (Elt F) → (⟨S128, .f32⟩ : BufTy).Contents (Elt F)) (W46 m c (Proc.devRef .tc main_call12_v0)) := by
  dsimp only [W46, hostOps14_6]
  after_results_simp <;> (try simp only [StableHlo.TRef.ofBuf, StableHlo.TRef.toBuf, cast_eq]) <;> (try rfl)
theorem kd_main_call12_v1 : W63 m c (Proc.devRef .tc main_call12_v1) = ((broadcastInDim S128 ![] bcast_S_S128) : (⟨S_, .f32⟩ : BufTy).Contents (Elt F) → (⟨S128, .f32⟩ : BufTy).Contents (Elt F)) (W63 m c (Proc.devRef .tc main_call12_v0)) := by
  rw [frame46 m c main_call12_v1 (by decide), frame46 m c main_call12_v0 (by decide)]; exact kd0_main_call12_v1 m c
theorem kd0_main_v191 : W46 m c (Proc.devRef .tc main_v191) = (select : (⟨S128, .i1⟩ : BufTy).Contents (Elt F) → (⟨S128, .f32⟩ : BufTy).Contents (Elt F) → (⟨S128, .f32⟩ : BufTy).Contents (Elt F) → (⟨S128, .f32⟩ : BufTy).Contents (Elt F)) (W46 m c (Proc.devRef .tc main_v189)) (W46 m c (Proc.devRef .tc main_v190)) (W46 m c (Proc.devRef .tc main_call12_v1)) := by
  dsimp only [W46, hostOps14_6]
  after_results_simp <;> (try simp only [StableHlo.TRef.ofBuf, StableHlo.TRef.toBuf, cast_eq]) <;> (try rfl)
theorem kd_main_v191 : W63 m c (Proc.devRef .tc main_v191) = (select : (⟨S128, .i1⟩ : BufTy).Contents (Elt F) → (⟨S128, .f32⟩ : BufTy).Contents (Elt F) → (⟨S128, .f32⟩ : BufTy).Contents (Elt F) → (⟨S128, .f32⟩ : BufTy).Contents (Elt F)) (W63 m c (Proc.devRef .tc main_v189)) (W63 m c (Proc.devRef .tc main_v190)) (W63 m c (Proc.devRef .tc main_call12_v1)) := by
  rw [frame46 m c main_v191 (by decide), frame46 m c main_v189 (by decide), frame46 m c main_v190 (by decide), frame46 m c main_call12_v1 (by decide)]; exact kd0_main_v191 m c
theorem kd0_main_v192 : W47 m c (Proc.devRef .tc main_v192) = (broadcastInDim S128x1 ![0] bcast_S128_S128x1_0 : (⟨S128, .f32⟩ : BufTy).Contents (Elt F) → (⟨S128x1, .f32⟩ : BufTy).Contents (Elt F)) (W47 m c (Proc.devRef .tc main_v191)) := by
  dsimp only [W47, hostOps14_7]
  after_results_simp <;> (try simp only [StableHlo.TRef.ofBuf, StableHlo.TRef.toBuf, cast_eq]) <;> (try rfl)
theorem kd_main_v192 : W63 m c (Proc.devRef .tc main_v192) = (broadcastInDim S128x1 ![0] bcast_S128_S128x1_0 : (⟨S128, .f32⟩ : BufTy).Contents (Elt F) → (⟨S128x1, .f32⟩ : BufTy).Contents (Elt F)) (W63 m c (Proc.devRef .tc main_v191)) := by
  rw [frame47 m c main_v192 (by decide), frame47 m c main_v191 (by decide)]; exact kd0_main_v192 m c
theorem kd0_main_v193 : W47 m c (Proc.devRef .tc main_v193) = (broadcastInDim S128x128 ![0, 1] bcast_S128x1_S128x128_0_1 : (⟨S128x1, .f32⟩ : BufTy).Contents (Elt F) → (⟨S128x128, .f32⟩ : BufTy).Contents (Elt F)) (W47 m c (Proc.devRef .tc main_v192)) := by
  dsimp only [W47, hostOps14_7]
  after_results_simp <;> (try simp only [StableHlo.TRef.ofBuf, StableHlo.TRef.toBuf, cast_eq]) <;> (try rfl)
theorem kd_main_v193 : W63 m c (Proc.devRef .tc main_v193) = (broadcastInDim S128x128 ![0, 1] bcast_S128x1_S128x128_0_1 : (⟨S128x1, .f32⟩ : BufTy).Contents (Elt F) → (⟨S128x128, .f32⟩ : BufTy).Contents (Elt F)) (W63 m c (Proc.devRef .tc main_v192)) := by
  rw [frame47 m c main_v193 (by decide), frame47 m c main_v192 (by decide)]; exact kd0_main_v193 m c
theorem kd0_main_v194 : W47 m c (Proc.devRef .tc main_v194) = (mulf : (⟨S128x128, .f32⟩ : BufTy).Contents (Elt F) → (⟨S128x128, .f32⟩ : BufTy).Contents (Elt F) → (⟨S128x128, .f32⟩ : BufTy).Contents (Elt F)) (W47 m c (Proc.devRef .tc main_v193)) (W47 m c (Proc.devRef .tc main_v186)) := by
  dsimp only [W47, hostOps14_7]
  after_results_simp <;> (try simp only [StableHlo.TRef.ofBuf, StableHlo.TRef.toBuf, cast_eq]) <;> (try rfl)
theorem kd_main_v194 : W63 m c (Proc.devRef .tc main_v194) = (mulf : (⟨S128x128, .f32⟩ : BufTy).Contents (Elt F) → (⟨S128x128, .f32⟩ : BufTy).Contents (Elt F) → (⟨S128x128, .f32⟩ : BufTy).Contents (Elt F)) (W63 m c (Proc.devRef .tc main_v193)) (W63 m c (Proc.devRef .tc main_v186)) := by
  rw [frame47 m c main_v194 (by decide), frame47 m c main_v193 (by decide), frame47 m c main_v186 (by decide)]; exact kd0_main_v194 m c
theorem kd0_main_v195 : W47 m c (Proc.devRef .tc main_v195) = (broadcastInDim S1x128 ![1] bcast_S128_S1x128_1 : (⟨S128, .f32⟩ : BufTy).Contents (Elt F) → (⟨S1x128, .f32⟩ : BufTy).Contents (Elt F)) (W47 m c (Proc.devRef .tc main_v191)) := by
  dsimp only [W47, hostOps14_7]
  after_results_simp <;> (try simp only [StableHlo.TRef.ofBuf, StableHlo.TRef.toBuf, cast_eq]) <;> (try rfl)
theorem kd_main_v195 : W63 m c (Proc.devRef .tc main_v195) = (broadcastInDim S1x128 ![1] bcast_S128_S1x128_1 : (⟨S128, .f32⟩ : BufTy).Contents (Elt F) → (⟨S1x128, .f32⟩ : BufTy).Contents (Elt F)) (W63 m c (Proc.devRef .tc main_v191)) := by
  rw [frame47 m c main_v195 (by decide), frame47 m c main_v191 (by decide)]; exact kd0_main_v195 m c
theorem kd0_main_v196 : W47 m c (Proc.devRef .tc main_v196) = (broadcastInDim S128x128 ![0, 1] bcast_S1x128_S128x128_0_1 : (⟨S1x128, .f32⟩ : BufTy).Contents (Elt F) → (⟨S128x128, .f32⟩ : BufTy).Contents (Elt F)) (W47 m c (Proc.devRef .tc main_v195)) := by
  dsimp only [W47, hostOps14_7]
  after_results_simp <;> (try simp only [StableHlo.TRef.ofBuf, StableHlo.TRef.toBuf, cast_eq]) <;> (try rfl)
theorem kd_main_v196 : W63 m c (Proc.devRef .tc main_v196) = (broadcastInDim S128x128 ![0, 1] bcast_S1x128_S128x128_0_1 : (⟨S1x128, .f32⟩ : BufTy).Contents (Elt F) → (⟨S128x128, .f32⟩ : BufTy).Contents (Elt F)) (W63 m c (Proc.devRef .tc main_v195)) := by
  rw [frame47 m c main_v196 (by decide), frame47 m c main_v195 (by decide)]; exact kd0_main_v196 m c
theorem kd0_main_v197 : W47 m c (Proc.devRef .tc main_v197) = (mulf : (⟨S128x128, .f32⟩ : BufTy).Contents (Elt F) → (⟨S128x128, .f32⟩ : BufTy).Contents (Elt F) → (⟨S128x128, .f32⟩ : BufTy).Contents (Elt F)) (W47 m c (Proc.devRef .tc main_v194)) (W47 m c (Proc.devRef .tc main_v196)) := by
  dsimp only [W47, hostOps14_7]
  after_results_simp <;> (try simp only [StableHlo.TRef.ofBuf, StableHlo.TRef.toBuf, cast_eq]) <;> (try rfl)
theorem kd_main_v197 : W63 m c (Proc.devRef .tc main_v197) = (mulf : (⟨S128x128, .f32⟩ : BufTy).Contents (Elt F) → (⟨S128x128, .f32⟩ : BufTy).Contents (Elt F) → (⟨S128x128, .f32⟩ : BufTy).Contents (Elt F)) (W63 m c (Proc.devRef .tc main_v194)) (W63 m c (Proc.devRef .tc main_v196)) := by
  rw [frame47 m c main_v197 (by decide), frame47 m c main_v194 (by decide), frame47 m c main_v196 (by decide)]; exact kd0_main_v197 m c
theorem kd0_main_cst_37 : W47 m c (Proc.devRef .tc main_cst_37) = (constant S_ .f32 0x00000000#32) := by
  dsimp only [W47, hostOps14_7]
  after_results_simp <;> (try simp only [StableHlo.TRef.ofBuf, StableHlo.TRef.toBuf, cast_eq]) <;> (try rfl)
theorem kd_main_cst_37 : W63 m c (Proc.devRef .tc main_cst_37) = (constant S_ .f32 0x00000000#32) := by
  rw [frame47 m c main_cst_37 (by decide)]; exact kd0_main_cst_37 m c
theorem kd0_main_v198 : W47 m c (Proc.devRef .tc main_v198) = (broadcastInDim S512 ![] bcast_S_S512 : (⟨S_, .f32⟩ : BufTy).Contents (Elt F) → (⟨S512, .f32⟩ : BufTy).Contents (Elt F)) (W47 m c (Proc.devRef .tc main_cst_37)) := by
  dsimp only [W47, hostOps14_7]
  after_results_simp <;> (try simp only [StableHlo.TRef.ofBuf, StableHlo.TRef.toBuf, cast_eq]) <;> (try rfl)
theorem kd_main_v198 : W63 m c (Proc.devRef .tc main_v198) = (broadcastInDim S512 ![] bcast_S_S512 : (⟨S_, .f32⟩ : BufTy).Contents (Elt F) → (⟨S512, .f32⟩ : BufTy).Contents (Elt F)) (W63 m c (Proc.devRef .tc main_cst_37)) := by
  rw [frame47 m c main_v198 (by decide), frame47 m c main_cst_37 (by decide)]; exact kd0_main_v198 m c
theorem kd0_main_v199 : W47 m c (Proc.devRef .tc main_v199) = shapeCast S1x512 (W47 m c (Proc.devRef .tc main_v198)) shapeCasts_S512_S1x512 := by
  dsimp only [W47, hostOps14_7]
  after_results_simp <;> (try simp only [StableHlo.TRef.ofBuf, StableHlo.TRef.toBuf, cast_eq]) <;> (try rfl)
theorem kd_main_v199 : W63 m c (Proc.devRef .tc main_v199) = shapeCast S1x512 (W63 m c (Proc.devRef .tc main_v198)) shapeCasts_S512_S1x512 := by
  rw [frame47 m c main_v199 (by decide), frame47 m c main_v198 (by decide)]; exact kd0_main_v199 m c
theorem kd0_main_v201 : W49 m c (Proc.devRef .tc main_v201) = shapeCast S1x512 (W49 m c (Proc.devRef .tc main_arg12)) shapeCasts_S512_S1x512 := by
  dsimp only [W49, hostOps15]
  after_results_simp <;> (try simp only [StableHlo.TRef.ofBuf, StableHlo.TRef.toBuf, cast_eq]) <;> (try rfl)
theorem kd_main_v201 : W63 m c (Proc.devRef .tc main_v201) = shapeCast S1x512 (W63 m c (Proc.devRef .tc main_arg12)) shapeCasts_S512_S1x512 := by
  rw [frame49 m c main_v201 (by decide), frame49 m c main_arg12 (by decide)]; exact kd0_main_v201 m c
theorem kd0_main_v203 : W51 m c (Proc.devRef .tc main_v203) = shapeCast S1x1 (W51 m c (Proc.devRef .tc main_arg14)) shapeCasts_S1_S1x1 := by
  dsimp only [W51, hostOps16]
  after_results_simp <;> (try simp only [StableHlo.TRef.ofBuf, StableHlo.TRef.toBuf, cast_eq]) <;> (try rfl)
theorem kd_main_v203 : W63 m c (Proc.devRef .tc main_v203) = shapeCast S1x1 (W63 m c (Proc.devRef .tc main_arg14)) shapeCasts_S1_S1x1 := by
  rw [frame51 m c main_v203 (by decide), frame51 m c main_arg14 (by decide)]; exact kd0_main_v203 m c
theorem kd0_main_cst_38 : W53 m c (Proc.devRef .tc main_cst_38) = (constant S_ .f32 0x00000000#32) := by
  dsimp only [W53, hostOps17]
  after_results_simp <;> (try simp only [StableHlo.TRef.ofBuf, StableHlo.TRef.toBuf, cast_eq]) <;> (try rfl)
theorem kd_main_cst_38 : W63 m c (Proc.devRef .tc main_cst_38) = (constant S_ .f32 0x00000000#32) := by
  rw [frame53 m c main_cst_38 (by decide)]; exact kd0_main_cst_38 m c
theorem kd0_main_v205 : W53 m c (Proc.devRef .tc main_v205) = (broadcastInDim S1 ![] bcast_S_S1 : (⟨S_, .f32⟩ : BufTy).Contents (Elt F) → (⟨S1, .f32⟩ : BufTy).Contents (Elt F)) (W53 m c (Proc.devRef .tc main_cst_38)) := by
  dsimp only [W53, hostOps17]
  after_results_simp <;> (try simp only [StableHlo.TRef.ofBuf, StableHlo.TRef.toBuf, cast_eq]) <;> (try rfl)
theorem kd_main_v205 : W63 m c (Proc.devRef .tc main_v205) = (broadcastInDim S1 ![] bcast_S_S1 : (⟨S_, .f32⟩ : BufTy).Contents (Elt F) → (⟨S1, .f32⟩ : BufTy).Contents (Elt F)) (W63 m c (Proc.devRef .tc main_cst_38)) := by
  rw [frame53 m c main_v205 (by decide), frame53 m c main_cst_38 (by decide)]; exact kd0_main_v205 m c
theorem kd0_main_v206 : W53 m c (Proc.devRef .tc main_v206) = shapeCast S1x1 (W53 m c (Proc.devRef .tc main_v205)) shapeCasts_S1_S1x1 := by
  dsimp only [W53, hostOps17]
  after_results_simp <;> (try simp only [StableHlo.TRef.ofBuf, StableHlo.TRef.toBuf, cast_eq]) <;> (try rfl)
theorem kd_main_v206 : W63 m c (Proc.devRef .tc main_v206) = shapeCast S1x1 (W63 m c (Proc.devRef .tc main_v205)) shapeCasts_S1_S1x1 := by
  rw [frame53 m c main_v206 (by decide), frame53 m c main_v205 (by decide)]; exact kd0_main_v206 m c

end Cert.KernelIdeal.Hand

end
-- ==== Proof.KI.Reads5.lean ====
/- What each host operation of @main leaves in its result buffer, read at the last boundary's contents: the operation's
   function of its operands' contents there (every buffer is written once). Stretches: hostOps21, hostOps21_1, hostOps21_2, hostOps21_3, hostOps21_4. -/
import proofs.«405323_j90718299226206_3_alg».proof.Proof.KI.Frames

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem kd0_main_call13_v0 : W58 m c (Proc.devRef .tc main_call13_v0) = ((iotaInDim S1x1 32 0) : (⟨S1x1, .i32⟩ : BufTy).Contents (Elt F)) := by
  dsimp only [W58, hostOps21]
  after_results_simp <;> (try simp only [StableHlo.TRef.ofBuf, StableHlo.TRef.toBuf, cast_eq]) <;> (try rfl)
theorem kd_main_call13_v0 : W63 m c (Proc.devRef .tc main_call13_v0) = ((iotaInDim S1x1 32 0) : (⟨S1x1, .i32⟩ : BufTy).Contents (Elt F)) := by
  rw [frame58 m c main_call13_v0 (by decide)]; exact kd0_main_call13_v0 m c
theorem kd0_main_call13_v1 : W58 m c (Proc.devRef .tc main_call13_v1) = ((iotaInDim S1x1 32 1) : (⟨S1x1, .i32⟩ : BufTy).Contents (Elt F)) := by
  dsimp only [W58, hostOps21]
  after_results_simp <;> (try simp only [StableHlo.TRef.ofBuf, StableHlo.TRef.toBuf, cast_eq]) <;> (try rfl)
theorem kd_main_call13_v1 : W63 m c (Proc.devRef .tc main_call13_v1) = ((iotaInDim S1x1 32 1) : (⟨S1x1, .i32⟩ : BufTy).Contents (Elt F)) := by
  rw [frame58 m c main_call13_v1 (by decide)]; exact kd0_main_call13_v1 m c
theorem kd0_main_call13_c : W58 m c (Proc.devRef .tc main_call13_c) = ((constantI S_ 32 0#32) : (⟨S_, .i32⟩ : BufTy).Contents (Elt F)) := by
  dsimp only [W58, hostOps21]
  after_results_simp <;> (try simp only [StableHlo.TRef.ofBuf, StableHlo.TRef.toBuf, cast_eq]) <;> (try rfl)
theorem kd_main_call13_c : W63 m c (Proc.devRef .tc main_call13_c) = ((constantI S_ 32 0#32) : (⟨S_, .i32⟩ : BufTy).Contents (Elt F)) := by
  rw [frame58 m c main_call13_c (by decide)]; exact kd0_main_call13_c m c
theorem kd0_main_call13_v2 : W58 m c (Proc.devRef .tc main_call13_v2) = ((broadcastInDim S1x1 ![] bcast_S_S1x1) : (⟨S_, .i32⟩ : BufTy).Contents (Elt F) → (⟨S1x1, .i32⟩ : BufTy).Contents (Elt F)) (W58 m c (Proc.devRef .tc main_call13_c)) := by
  dsimp only [W58, hostOps21]
  after_results_simp <;> (try simp only [StableHlo.TRef.ofBuf, StableHlo.TRef.toBuf, cast_eq]) <;> (try rfl)
theorem kd_main_call13_v2 : W63 m c (Proc.devRef .tc main_call13_v2) = ((broadcastInDim S1x1 ![] bcast_S_S1x1) : (⟨S_, .i32⟩ : BufTy).Contents (Elt F) → (⟨S1x1, .i32⟩ : BufTy).Contents (Elt F)) (W63 m c (Proc.devRef .tc main_call13_c)) := by
  rw [frame58 m c main_call13_v2 (by decide), frame58 m c main_call13_c (by decide)]; exact kd0_main_call13_v2 m c
theorem kd0_main_call13_v3 : W58 m c (Proc.devRef .tc main_call13_v3) = (addi : (⟨S1x1, .i32⟩ : BufTy).Contents (Elt F) → (⟨S1x1, .i32⟩ : BufTy).Contents (Elt F) → (⟨S1x1, .i32⟩ : BufTy).Contents (Elt F)) (W58 m c (Proc.devRef .tc main_call13_v0)) (W58 m c (Proc.devRef .tc main_call13_v2)) := by
  dsimp only [W58, hostOps21]
  after_results_simp <;> (try simp only [StableHlo.TRef.ofBuf, StableHlo.TRef.toBuf, cast_eq]) <;> (try rfl)
theorem kd_main_call13_v3 : W63 m c (Proc.devRef .tc main_call13_v3) = (addi : (⟨S1x1, .i32⟩ : BufTy).Contents (Elt F) → (⟨S1x1, .i32⟩ : BufTy).Contents (Elt F) → (⟨S1x1, .i32⟩ : BufTy).Contents (Elt F)) (W63 m c (Proc.devRef .tc main_call13_v0)) (W63 m c (Proc.devRef .tc main_call13_v2)) := by
  rw [frame58 m c main_call13_v3 (by decide), frame58 m c main_call13_v0 (by decide), frame58 m c main_call13_v2 (by decide)]; exact kd0_main_call13_v3 m c
theorem kd0_main_call13_v4 : W58 m c (Proc.devRef .tc main_call13_v4) = ((cmpi .eq) : (⟨S1x1, .i32⟩ : BufTy).Contents (Elt F) → (⟨S1x1, .i32⟩ : BufTy).Contents (Elt F) → (⟨S1x1, .i1⟩ : BufTy).Contents (Elt F)) (W58 m c (Proc.devRef .tc main_call13_v3)) (W58 m c (Proc.devRef .tc main_call13_v1)) := by
  dsimp only [W58, hostOps21]
  after_results_simp <;> (try simp only [StableHlo.TRef.ofBuf, StableHlo.TRef.toBuf, cast_eq]) <;> (try rfl)
theorem kd_main_call13_v4 : W63 m c (Proc.devRef .tc main_call13_v4) = ((cmpi .eq) : (⟨S1x1, .i32⟩ : BufTy).Contents (Elt F) → (⟨S1x1, .i32⟩ : BufTy).Contents (Elt F) → (⟨S1x1, .i1⟩ : BufTy).Contents (Elt F)) (W63 m c (Proc.devRef .tc main_call13_v3)) (W63 m c (Proc.devRef .tc main_call13_v1)) := by
  rw [frame58 m c main_call13_v4 (by decide), frame58 m c main_call13_v3 (by decide), frame58 m c main_call13_v1 (by decide)]; exact kd0_main_call13_v4 m c
theorem kd0_main_call13_cst : W58 m c (Proc.devRef .tc main_call13_cst) = ((constant S_ .f32 0x00000000#32) : (⟨S_, .f32⟩ : BufTy).Contents (Elt F)) := by
  dsimp only [W58, hostOps21]
  after_results_simp <;> (try simp only [StableHlo.TRef.ofBuf, StableHlo.TRef.toBuf, cast_eq]) <;> (try rfl)
theorem kd_main_call13_cst : W63 m c (Proc.devRef .tc main_call13_cst) = ((constant S_ .f32 0x00000000#32) : (⟨S_, .f32⟩ : BufTy).Contents (Elt F)) := by
  rw [frame58 m c main_call13_cst (by decide)]; exact kd0_main_call13_cst m c
theorem kd0_main_call13_v5 : W58 m c (Proc.devRef .tc main_call13_v5) = ((broadcastInDim S1x1 ![] bcast_S_S1x1) : (⟨S_, .f32⟩ : BufTy).Contents (Elt F) → (⟨S1x1, .f32⟩ : BufTy).Contents (Elt F)) (W58 m c (Proc.devRef .tc main_call13_cst)) := by
  dsimp only [W58, hostOps21]
  after_results_simp <;> (try simp only [StableHlo.TRef.ofBuf, StableHlo.TRef.toBuf, cast_eq]) <;> (try rfl)
theorem kd_main_call13_v5 : W63 m c (Proc.devRef .tc main_call13_v5) = ((broadcastInDim S1x1 ![] bcast_S_S1x1) : (⟨S_, .f32⟩ : BufTy).Contents (Elt F) → (⟨S1x1, .f32⟩ : BufTy).Contents (Elt F)) (W63 m c (Proc.devRef .tc main_call13_cst)) := by
  rw [frame58 m c main_call13_v5 (by decide), frame58 m c main_call13_cst (by decide)]; exact kd0_main_call13_v5 m c
theorem kd0_main_call13_v6 : W58 m c (Proc.devRef .tc main_call13_v6) = (select : (⟨S1x1, .i1⟩ : BufTy).Contents (Elt F) → (⟨S1x1, .f32⟩ : BufTy).Contents (Elt F) → (⟨S1x1, .f32⟩ : BufTy).Contents (Elt F) → (⟨S1x1, .f32⟩ : BufTy).Contents (Elt F)) (W58 m c (Proc.devRef .tc main_call13_v4)) (W58 m c (Proc.devRef .tc main_v209)) (W58 m c (Proc.devRef .tc main_call13_v5)) := by
  dsimp only [W58, hostOps21]
  after_results_simp <;> (try simp only [StableHlo.TRef.ofBuf, StableHlo.TRef.toBuf, cast_eq]) <;> (try rfl)
theorem kd_main_call13_v6 : W63 m c (Proc.devRef .tc main_call13_v6) = (select : (⟨S1x1, .i1⟩ : BufTy).Contents (Elt F) → (⟨S1x1, .f32⟩ : BufTy).Contents (Elt F) → (⟨S1x1, .f32⟩ : BufTy).Contents (Elt F) → (⟨S1x1, .f32⟩ : BufTy).Contents (Elt F)) (W63 m c (Proc.devRef .tc main_call13_v4)) (W63 m c (Proc.devRef .tc main_v209)) (W63 m c (Proc.devRef .tc main_call13_v5)) := by
  rw [frame58 m c main_call13_v6 (by decide), frame58 m c main_call13_v4 (by decide), frame58 m c main_v209 (by decide), frame58 m c main_call13_v5 (by decide)]; exact kd0_main_call13_v6 m c
theorem kd0_main_call13_cst_0 : W58 m c (Proc.devRef .tc main_call13_cst_0) = ((constant S_ .f32 0x00000000#32) : (⟨S_, .f32⟩ : BufTy).Contents (Elt F)) := by
  dsimp only [W58, hostOps21]
  after_results_simp <;> (try simp only [StableHlo.TRef.ofBuf, StableHlo.TRef.toBuf, cast_eq]) <;> (try rfl)
theorem kd_main_call13_cst_0 : W63 m c (Proc.devRef .tc main_call13_cst_0) = ((constant S_ .f32 0x00000000#32) : (⟨S_, .f32⟩ : BufTy).Contents (Elt F)) := by
  rw [frame58 m c main_call13_cst_0 (by decide)]; exact kd0_main_call13_cst_0 m c
theorem kd0_main_v211 : W58 m c (Proc.devRef .tc main_v211) = (fun x v => Host.reduceAdd x v reducesTo_S1x1_S_d0_1 h_S_) (W58 m c (Proc.devRef .tc main_call13_v6)) (W58 m c (Proc.devRef .tc main_call13_cst_0)) := by
  dsimp only [W58, hostOps21]
  after_results_simp <;> (try simp only [StableHlo.TRef.ofBuf, StableHlo.TRef.toBuf, cast_eq]) <;> (try rfl)
theorem kd_main_v211 : W63 m c (Proc.devRef .tc main_v211) = (fun x v => Host.reduceAdd x v reducesTo_S1x1_S_d0_1 h_S_) (W63 m c (Proc.devRef .tc main_call13_v6)) (W63 m c (Proc.devRef .tc main_call13_cst_0)) := by
  rw [frame58 m c main_v211 (by decide), frame58 m c main_call13_v6 (by decide), frame58 m c main_call13_cst_0 (by decide)]; exact kd0_main_v211 m c
theorem kd0_main_cst_39 : W59 m c (Proc.devRef .tc main_cst_39) = (constant S_ .f32 0x00000000#32) := by
  dsimp only [W59, hostOps21_1]
  after_results_simp <;> (try simp only [StableHlo.TRef.ofBuf, StableHlo.TRef.toBuf, cast_eq]) <;> (try rfl)
theorem kd_main_cst_39 : W63 m c (Proc.devRef .tc main_cst_39) = (constant S_ .f32 0x00000000#32) := by
  rw [frame59 m c main_cst_39 (by decide)]; exact kd0_main_cst_39 m c
theorem kd0_main_v212 : W59 m c (Proc.devRef .tc main_v212) = ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)) (W59 m c (Proc.devRef .tc main_v179)) (W59 m c (Proc.devRef .tc main_cst_39)) := by
  dsimp only [W59, hostOps21_1]
  after_results_simp <;> (try simp only [StableHlo.TRef.ofBuf, StableHlo.TRef.toBuf, cast_eq]) <;> (try rfl)
theorem kd_main_v212 : W63 m c (Proc.devRef .tc main_v212) = ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)) (W63 m c (Proc.devRef .tc main_v179)) (W63 m c (Proc.devRef .tc main_cst_39)) := by
  rw [frame59 m c main_v212 (by decide), frame59 m c main_v179 (by decide), frame59 m c main_cst_39 (by decide)]; exact kd0_main_v212 m c
theorem kd0_main_v213 : W59 m c (Proc.devRef .tc main_v213) = (broadcastInDim S128x1 ![0] bcast_S128_S128x1_0 : (⟨S128, .f32⟩ : BufTy).Contents (Elt F) → (⟨S128x1, .f32⟩ : BufTy).Contents (Elt F)) (W59 m c (Proc.devRef .tc main_v212)) := by
  dsimp only [W59, hostOps21_1]
  after_results_simp <;> (try simp only [StableHlo.TRef.ofBuf, StableHlo.TRef.toBuf, cast_eq]) <;> (try rfl)
theorem kd_main_v213 : W63 m c (Proc.devRef .tc main_v213) = (broadcastInDim S128x1 ![0] bcast_S128_S128x1_0 : (⟨S128, .f32⟩ : BufTy).Contents (Elt F) → (⟨S128x1, .f32⟩ : BufTy).Contents (Elt F)) (W63 m c (Proc.devRef .tc main_v212)) := by
  rw [frame59 m c main_v213 (by decide), frame59 m c main_v212 (by decide)]; exact kd0_main_v213 m c
theorem kd0_main_v214 : W59 m c (Proc.devRef .tc main_v214) = (mulf : (⟨S128x1, .f32⟩ : BufTy).Contents (Elt F) → (⟨S128x1, .f32⟩ : BufTy).Contents (Elt F) → (⟨S128x1, .f32⟩ : BufTy).Contents (Elt F)) (W59 m c (Proc.devRef .tc main_v213)) (W59 m c (Proc.devRef .tc main_v204_1)) := by
  dsimp only [W59, hostOps21_1]
  after_results_simp <;> (try simp only [StableHlo.TRef.ofBuf, StableHlo.TRef.toBuf, cast_eq]) <;> (try rfl)
theorem kd_main_v214 : W63 m c (Proc.devRef .tc main_v214) = (mulf : (⟨S128x1, .f32⟩ : BufTy).Contents (Elt F) → (⟨S128x1, .f32⟩ : BufTy).Contents (Elt F) → (⟨S128x1, .f32⟩ : BufTy).Contents (Elt F)) (W63 m c (Proc.devRef .tc main_v213)) (W63 m c (Proc.devRef .tc main_v204_1)) := by
  rw [frame59 m c main_v214 (by decide), frame59 m c main_v213 (by decide), frame59 m c main_v204_1 (by decide)]; exact kd0_main_v214 m c
theorem kd0_main_v215 : W59 m c (Proc.devRef .tc main_v215) = (mulf : (⟨S128x1, .f32⟩ : BufTy).Contents (Elt F) → (⟨S128x1, .f32⟩ : BufTy).Contents (Elt F) → (⟨S128x1, .f32⟩ : BufTy).Contents (Elt F)) (W59 m c (Proc.devRef .tc main_v214)) (W59 m c (Proc.devRef .tc main_v204_1)) := by
  dsimp only [W59, hostOps21_1]
  after_results_simp <;> (try simp only [StableHlo.TRef.ofBuf, StableHlo.TRef.toBuf, cast_eq]) <;> (try rfl)
theorem kd_main_v215 : W63 m c (Proc.devRef .tc main_v215) = (mulf : (⟨S128x1, .f32⟩ : BufTy).Contents (Elt F) → (⟨S128x1, .f32⟩ : BufTy).Contents (Elt F) → (⟨S128x1, .f32⟩ : BufTy).Contents (Elt F)) (W63 m c (Proc.devRef .tc main_v214)) (W63 m c (Proc.devRef .tc main_v204_1)) := by
  rw [frame59 m c main_v215 (by decide), frame59 m c main_v214 (by decide), frame59 m c main_v204_1 (by decide)]; exact kd0_main_v215 m c
theorem kd0_main_cst_40 : W59 m c (Proc.devRef .tc main_cst_40) = (constant S_ .f32 0x00000000#32) := by
  dsimp only [W59, hostOps21_1]
  after_results_simp <;> (try simp only [StableHlo.TRef.ofBuf, StableHlo.TRef.toBuf, cast_eq]) <;> (try rfl)
theorem kd_main_cst_40 : W63 m c (Proc.devRef .tc main_cst_40) = (constant S_ .f32 0x00000000#32) := by
  rw [frame59 m c main_cst_40 (by decide)]; exact kd0_main_cst_40 m c
theorem kd0_main_v216 : W59 m c (Proc.devRef .tc main_v216) = ((fun x v => Host.reduceAdd x v reducesTo_S128x1_S_d0_1 h_S_) : (⟨S128x1, .f32⟩ : BufTy).Contents (Elt F) → (⟨S_, .f32⟩ : BufTy).Contents (Elt F) → (⟨S_, .f32⟩ : BufTy).Contents (Elt F)) (W59 m c (Proc.devRef .tc main_v215)) (W59 m c (Proc.devRef .tc main_cst_40)) := by
  dsimp only [W59, hostOps21_1]
  after_results_simp <;> (try simp only [StableHlo.TRef.ofBuf, StableHlo.TRef.toBuf, cast_eq]) <;> (try rfl)
theorem kd_main_v216 : W63 m c (Proc.devRef .tc main_v216) = ((fun x v => Host.reduceAdd x v reducesTo_S128x1_S_d0_1 h_S_) : (⟨S128x1, .f32⟩ : BufTy).Contents (Elt F) → (⟨S_, .f32⟩ : BufTy).Contents (Elt F) → (⟨S_, .f32⟩ : BufTy).Contents (Elt F)) (W63 m c (Proc.devRef .tc main_v215)) (W63 m c (Proc.devRef .tc main_cst_40)) := by
  rw [frame59 m c main_v216 (by decide), frame59 m c main_v215 (by decide), frame59 m c main_cst_40 (by decide)]; exact kd0_main_v216 m c
theorem kd0_main_v217 : W59 m c (Proc.devRef .tc main_v217) = (Host.divf : (⟨S_, .f32⟩ : BufTy).Contents (Elt F) → (⟨S_, .f32⟩ : BufTy).Contents (Elt F) → (⟨S_, .f32⟩ : BufTy).Contents (Elt F)) (W59 m c (Proc.devRef .tc main_v211)) (W59 m c (Proc.devRef .tc main_v216)) := by
  dsimp only [W59, hostOps21_1]
  after_results_simp <;> (try simp only [StableHlo.TRef.ofBuf, StableHlo.TRef.toBuf, cast_eq]) <;> (try rfl)
theorem kd_main_v217 : W63 m c (Proc.devRef .tc main_v217) = (Host.divf : (⟨S_, .f32⟩ : BufTy).Contents (Elt F) → (⟨S_, .f32⟩ : BufTy).Contents (Elt F) → (⟨S_, .f32⟩ : BufTy).Contents (Elt F)) (W63 m c (Proc.devRef .tc main_v211)) (W63 m c (Proc.devRef .tc main_v216)) := by
  rw [frame59 m c main_v217 (by decide), frame59 m c main_v211 (by decide), frame59 m c main_v216 (by decide)]; exact kd0_main_v217 m c
theorem kd0_main_v218 : W59 m c (Proc.devRef .tc main_v218) = (Host.negf : (⟨S_, .f32⟩ : BufTy).Contents (Elt F) → (⟨S_, .f32⟩ : BufTy).Contents (Elt F)) (W59 m c (Proc.devRef .tc main_v217)) := by
  dsimp only [W59, hostOps21_1]
  after_results_simp <;> (try simp only [StableHlo.TRef.ofBuf, StableHlo.TRef.toBuf, cast_eq]) <;> (try rfl)
theorem kd_main_v218 : W63 m c (Proc.devRef .tc main_v218) = (Host.negf : (⟨S_, .f32⟩ : BufTy).Contents (Elt F) → (⟨S_, .f32⟩ : BufTy).Contents (Elt F)) (W63 m c (Proc.devRef .tc main_v217)) := by
  rw [frame59 m c main_v218 (by decide), frame59 m c main_v217 (by decide)]; exact kd0_main_v218 m c
theorem kd0_main_call14_v0 : W60 m c (Proc.devRef .tc main_call14_v0) = (mulf : (⟨S1x1, .f32⟩ : BufTy).Contents (Elt F) → (⟨S1x1, .f32⟩ : BufTy).Contents (Elt F) → (⟨S1x1, .f32⟩ : BufTy).Contents (Elt F)) (W60 m c (Proc.devRef .tc main_v210)) (W60 m c (Proc.devRef .tc main_v210)) := by
  dsimp only [W60, hostOps21_2]
  after_results_simp <;> (try simp only [StableHlo.TRef.ofBuf, StableHlo.TRef.toBuf, cast_eq]) <;> (try rfl)
theorem kd_main_call14_v0 : W63 m c (Proc.devRef .tc main_call14_v0) = (mulf : (⟨S1x1, .f32⟩ : BufTy).Contents (Elt F) → (⟨S1x1, .f32⟩ : BufTy).Contents (Elt F) → (⟨S1x1, .f32⟩ : BufTy).Contents (Elt F)) (W63 m c (Proc.devRef .tc main_v210)) (W63 m c (Proc.devRef .tc main_v210)) := by
  rw [frame60 m c main_call14_v0 (by decide), frame60 m c main_v210 (by decide)]; exact kd0_main_call14_v0 m c
theorem kd0_main_call14_cst : W60 m c (Proc.devRef .tc main_call14_cst) = ((constant S_ .f32 0x00000000#32) : (⟨S_, .f32⟩ : BufTy).Contents (Elt F)) := by
  dsimp only [W60, hostOps21_2]
  after_results_simp <;> (try simp only [StableHlo.TRef.ofBuf, StableHlo.TRef.toBuf, cast_eq]) <;> (try rfl)
theorem kd_main_call14_cst : W63 m c (Proc.devRef .tc main_call14_cst) = ((constant S_ .f32 0x00000000#32) : (⟨S_, .f32⟩ : BufTy).Contents (Elt F)) := by
  rw [frame60 m c main_call14_cst (by decide)]; exact kd0_main_call14_cst m c
theorem kd0_main_call14_v1 : W60 m c (Proc.devRef .tc main_call14_v1) = ((fun x v => Host.reduceAdd x v reducesTo_S1x1_S_d0_1 h_S_) : (⟨S1x1, .f32⟩ : BufTy).Contents (Elt F) → (⟨S_, .f32⟩ : BufTy).Contents (Elt F) → (⟨S_, .f32⟩ : BufTy).Contents (Elt F)) (W60 m c (Proc.devRef .tc main_call14_v0)) (W60 m c (Proc.devRef .tc main_call14_cst)) := by
  dsimp only [W60, hostOps21_2]
  after_results_simp <;> (try simp only [StableHlo.TRef.ofBuf, StableHlo.TRef.toBuf, cast_eq]) <;> (try rfl)
theorem kd_main_call14_v1 : W63 m c (Proc.devRef .tc main_call14_v1) = ((fun x v => Host.reduceAdd x v reducesTo_S1x1_S_d0_1 h_S_) : (⟨S1x1, .f32⟩ : BufTy).Contents (Elt F) → (⟨S_, .f32⟩ : BufTy).Contents (Elt F) → (⟨S_, .f32⟩ : BufTy).Contents (Elt F)) (W63 m c (Proc.devRef .tc main_call14_v0)) (W63 m c (Proc.devRef .tc main_call14_cst)) := by
  rw [frame60 m c main_call14_v1 (by decide), frame60 m c main_call14_v0 (by decide), frame60 m c main_call14_cst (by decide)]; exact kd0_main_call14_v1 m c
theorem kd0_main_v219 : W60 m c (Proc.devRef .tc main_v219) = (Host.sqrt : (⟨S_, .f32⟩ : BufTy).Contents (Elt F) → (⟨S_, .f32⟩ : BufTy).Contents (Elt F)) (W60 m c (Proc.devRef .tc main_call14_v1)) := by
  dsimp only [W60, hostOps21_2]
  after_results_simp <;> (try simp only [StableHlo.TRef.ofBuf, StableHlo.TRef.toBuf, cast_eq]) <;> (try rfl)
theorem kd_main_v219 : W63 m c (Proc.devRef .tc main_v219) = (Host.sqrt : (⟨S_, .f32⟩ : BufTy).Contents (Elt F) → (⟨S_, .f32⟩ : BufTy).Contents (Elt F)) (W63 m c (Proc.devRef .tc main_call14_v1)) := by
  rw [frame60 m c main_v219 (by decide), frame60 m c main_call14_v1 (by decide)]; exact kd0_main_v219 m c
theorem kd0_main_v220 : W61 m c (Proc.devRef .tc main_v220) = (broadcastInDim S1x1 ![] bcast_S_S1x1 : (⟨S_, .f32⟩ : BufTy).Contents (Elt F) → (⟨S1x1, .f32⟩ : BufTy).Contents (Elt F)) (W61 m c (Proc.devRef .tc main_v219)) := by
  dsimp only [W61, hostOps21_3]
  after_results_simp <;> (try simp only [StableHlo.TRef.ofBuf, StableHlo.TRef.toBuf, cast_eq]) <;> (try rfl)
theorem kd_main_v220 : W63 m c (Proc.devRef .tc main_v220) = (broadcastInDim S1x1 ![] bcast_S_S1x1 : (⟨S_, .f32⟩ : BufTy).Contents (Elt F) → (⟨S1x1, .f32⟩ : BufTy).Contents (Elt F)) (W63 m c (Proc.devRef .tc main_v219)) := by
  rw [frame61 m c main_v220 (by decide), frame61 m c main_v219 (by decide)]; exact kd0_main_v220 m c
theorem kd0_main_v221 : W61 m c (Proc.devRef .tc main_v221) = (Host.divf : (⟨S1x1, .f32⟩ : BufTy).Contents (Elt F) → (⟨S1x1, .f32⟩ : BufTy).Contents (Elt F) → (⟨S1x1, .f32⟩ : BufTy).Contents (Elt F)) (W61 m c (Proc.devRef .tc main_v210)) (W61 m c (Proc.devRef .tc main_v220)) := by
  dsimp only [W61, hostOps21_3]
  after_results_simp <;> (try simp only [StableHlo.TRef.ofBuf, StableHlo.TRef.toBuf, cast_eq]) <;> (try rfl)
theorem kd_main_v221 : W63 m c (Proc.devRef .tc main_v221) = (Host.divf : (⟨S1x1, .f32⟩ : BufTy).Contents (Elt F) → (⟨S1x1, .f32⟩ : BufTy).Contents (Elt F) → (⟨S1x1, .f32⟩ : BufTy).Contents (Elt F)) (W63 m c (Proc.devRef .tc main_v210)) (W63 m c (Proc.devRef .tc main_v220)) := by
  rw [frame61 m c main_v221 (by decide), frame61 m c main_v210 (by decide), frame61 m c main_v220 (by decide)]; exact kd0_main_v221 m c
theorem kd0_main_v222 : W61 m c (Proc.devRef .tc main_v222) = (iotaInDim S1x1 32 0) := by
  dsimp only [W61, hostOps21_3]
  after_results_simp <;> (try simp only [StableHlo.TRef.ofBuf, StableHlo.TRef.toBuf, cast_eq]) <;> (try rfl)
theorem kd_main_v222 : W63 m c (Proc.devRef .tc main_v222) = (iotaInDim S1x1 32 0) := by
  rw [frame61 m c main_v222 (by decide)]; exact kd0_main_v222 m c
theorem kd0_main_v223 : W61 m c (Proc.devRef .tc main_v223) = (iotaInDim S1x1 32 1) := by
  dsimp only [W61, hostOps21_3]
  after_results_simp <;> (try simp only [StableHlo.TRef.ofBuf, StableHlo.TRef.toBuf, cast_eq]) <;> (try rfl)
theorem kd_main_v223 : W63 m c (Proc.devRef .tc main_v223) = (iotaInDim S1x1 32 1) := by
  rw [frame61 m c main_v223 (by decide)]; exact kd0_main_v223 m c
theorem kd0_main_c_41 : W61 m c (Proc.devRef .tc main_c_41) = (constantI S_ 32 0#32) := by
  dsimp only [W61, hostOps21_3]
  after_results_simp <;> (try simp only [StableHlo.TRef.ofBuf, StableHlo.TRef.toBuf, cast_eq]) <;> (try rfl)
theorem kd_main_c_41 : W63 m c (Proc.devRef .tc main_c_41) = (constantI S_ 32 0#32) := by
  rw [frame61 m c main_c_41 (by decide)]; exact kd0_main_c_41 m c
theorem kd0_main_v224 : W61 m c (Proc.devRef .tc main_v224) = (broadcastInDim S1x1 ![] bcast_S_S1x1 : (⟨S_, .i32⟩ : BufTy).Contents (Elt F) → (⟨S1x1, .i32⟩ : BufTy).Contents (Elt F)) (W61 m c (Proc.devRef .tc main_c_41)) := by
  dsimp only [W61, hostOps21_3]
  after_results_simp <;> (try simp only [StableHlo.TRef.ofBuf, StableHlo.TRef.toBuf, cast_eq]) <;> (try rfl)
theorem kd_main_v224 : W63 m c (Proc.devRef .tc main_v224) = (broadcastInDim S1x1 ![] bcast_S_S1x1 : (⟨S_, .i32⟩ : BufTy).Contents (Elt F) → (⟨S1x1, .i32⟩ : BufTy).Contents (Elt F)) (W63 m c (Proc.devRef .tc main_c_41)) := by
  rw [frame61 m c main_v224 (by decide), frame61 m c main_c_41 (by decide)]; exact kd0_main_v224 m c
theorem kd0_main_v225 : W61 m c (Proc.devRef .tc main_v225) = (addi : (⟨S1x1, .i32⟩ : BufTy).Contents (Elt F) → (⟨S1x1, .i32⟩ : BufTy).Contents (Elt F) → (⟨S1x1, .i32⟩ : BufTy).Contents (Elt F)) (W61 m c (Proc.devRef .tc main_v222)) (W61 m c (Proc.devRef .tc main_v224)) := by
  dsimp only [W61, hostOps21_3]
  after_results_simp <;> (try simp only [StableHlo.TRef.ofBuf, StableHlo.TRef.toBuf, cast_eq]) <;> (try rfl)
theorem kd_main_v225 : W63 m c (Proc.devRef .tc main_v225) = (addi : (⟨S1x1, .i32⟩ : BufTy).Contents (Elt F) → (⟨S1x1, .i32⟩ : BufTy).Contents (Elt F) → (⟨S1x1, .i32⟩ : BufTy).Contents (Elt F)) (W63 m c (Proc.devRef .tc main_v222)) (W63 m c (Proc.devRef .tc main_v224)) := by
  rw [frame61 m c main_v225 (by decide), frame61 m c main_v222 (by decide), frame61 m c main_v224 (by decide)]; exact kd0_main_v225 m c
theorem kd0_main_v226 : W61 m c (Proc.devRef .tc main_v226) = (cmpi .eq : (⟨S1x1, .i32⟩ : BufTy).Contents (Elt F) → (⟨S1x1, .i32⟩ : BufTy).Contents (Elt F) → (⟨S1x1, .i1⟩ : BufTy).Contents (Elt F)) (W61 m c (Proc.devRef .tc main_v225)) (W61 m c (Proc.devRef .tc main_v223)) := by
  dsimp only [W61, hostOps21_3]
  after_results_simp <;> (try simp only [StableHlo.TRef.ofBuf, StableHlo.TRef.toBuf, cast_eq]) <;> (try rfl)
theorem kd_main_v226 : W63 m c (Proc.devRef .tc main_v226) = (cmpi .eq : (⟨S1x1, .i32⟩ : BufTy).Contents (Elt F) → (⟨S1x1, .i32⟩ : BufTy).Contents (Elt F) → (⟨S1x1, .i1⟩ : BufTy).Contents (Elt F)) (W63 m c (Proc.devRef .tc main_v225)) (W63 m c (Proc.devRef .tc main_v223)) := by
  rw [frame61 m c main_v226 (by decide), frame61 m c main_v225 (by decide), frame61 m c main_v223 (by decide)]; exact kd0_main_v226 m c
theorem kd0_main_v227 : W61 m c (Proc.devRef .tc main_v227) = (uitofp .f32 : (⟨S1x1, .i1⟩ : BufTy).Contents (Elt F) → (⟨S1x1, .f32⟩ : BufTy).Contents (Elt F)) (W61 m c (Proc.devRef .tc main_v226)) := by
  dsimp only [W61, hostOps21_3]
  after_results_simp <;> (try simp only [StableHlo.TRef.ofBuf, StableHlo.TRef.toBuf, cast_eq]) <;> (try rfl)
theorem kd_main_v227 : W63 m c (Proc.devRef .tc main_v227) = (uitofp .f32 : (⟨S1x1, .i1⟩ : BufTy).Contents (Elt F) → (⟨S1x1, .f32⟩ : BufTy).Contents (Elt F)) (W63 m c (Proc.devRef .tc main_v226)) := by
  rw [frame61 m c main_v227 (by decide), frame61 m c main_v226 (by decide)]; exact kd0_main_v227 m c
theorem kd0_main_cst_42 : W61 m c (Proc.devRef .tc main_cst_42) = (constant S_ .f32 0x3F800000#32) := by
  dsimp only [W61, hostOps21_3]
  after_results_simp <;> (try simp only [StableHlo.TRef.ofBuf, StableHlo.TRef.toBuf, cast_eq]) <;> (try rfl)
theorem kd_main_cst_42 : W63 m c (Proc.devRef .tc main_cst_42) = (constant S_ .f32 0x3F800000#32) := by
  rw [frame61 m c main_cst_42 (by decide)]; exact kd0_main_cst_42 m c
theorem kd0_main_v228 : W61 m c (Proc.devRef .tc main_v228) = (Host.sqrt : (⟨S_, .f32⟩ : BufTy).Contents (Elt F) → (⟨S_, .f32⟩ : BufTy).Contents (Elt F)) (W61 m c (Proc.devRef .tc main_cst_42)) := by
  dsimp only [W61, hostOps21_3]
  after_results_simp <;> (try simp only [StableHlo.TRef.ofBuf, StableHlo.TRef.toBuf, cast_eq]) <;> (try rfl)
theorem kd_main_v228 : W63 m c (Proc.devRef .tc main_v228) = (Host.sqrt : (⟨S_, .f32⟩ : BufTy).Contents (Elt F) → (⟨S_, .f32⟩ : BufTy).Contents (Elt F)) (W63 m c (Proc.devRef .tc main_cst_42)) := by
  rw [frame61 m c main_v228 (by decide), frame61 m c main_cst_42 (by decide)]; exact kd0_main_v228 m c
theorem kd0_main_v229 : W61 m c (Proc.devRef .tc main_v229) = (broadcastInDim S1x1 ![] bcast_S_S1x1 : (⟨S_, .f32⟩ : BufTy).Contents (Elt F) → (⟨S1x1, .f32⟩ : BufTy).Contents (Elt F)) (W61 m c (Proc.devRef .tc main_v228)) := by
  dsimp only [W61, hostOps21_3]
  after_results_simp <;> (try simp only [StableHlo.TRef.ofBuf, StableHlo.TRef.toBuf, cast_eq]) <;> (try rfl)
theorem kd_main_v229 : W63 m c (Proc.devRef .tc main_v229) = (broadcastInDim S1x1 ![] bcast_S_S1x1 : (⟨S_, .f32⟩ : BufTy).Contents (Elt F) → (⟨S1x1, .f32⟩ : BufTy).Contents (Elt F)) (W63 m c (Proc.devRef .tc main_v228)) := by
  rw [frame61 m c main_v229 (by decide), frame61 m c main_v228 (by decide)]; exact kd0_main_v229 m c
theorem kd0_main_v230 : W61 m c (Proc.devRef .tc main_v230) = (Host.divf : (⟨S1x1, .f32⟩ : BufTy).Contents (Elt F) → (⟨S1x1, .f32⟩ : BufTy).Contents (Elt F) → (⟨S1x1, .f32⟩ : BufTy).Contents (Elt F)) (W61 m c (Proc.devRef .tc main_v227)) (W61 m c (Proc.devRef .tc main_v229)) := by
  dsimp only [W61, hostOps21_3]
  after_results_simp <;> (try simp only [StableHlo.TRef.ofBuf, StableHlo.TRef.toBuf, cast_eq]) <;> (try rfl)
theorem kd_main_v230 : W63 m c (Proc.devRef .tc main_v230) = (Host.divf : (⟨S1x1, .f32⟩ : BufTy).Contents (Elt F) → (⟨S1x1, .f32⟩ : BufTy).Contents (Elt F) → (⟨S1x1, .f32⟩ : BufTy).Contents (Elt F)) (W63 m c (Proc.devRef .tc main_v227)) (W63 m c (Proc.devRef .tc main_v229)) := by
  rw [frame61 m c main_v230 (by decide), frame61 m c main_v227 (by decide), frame61 m c main_v229 (by decide)]; exact kd0_main_v230 m c
theorem kd0_main_v231 : W61 m c (Proc.devRef .tc main_v231) = (subf : (⟨S1x1, .f32⟩ : BufTy).Contents (Elt F) → (⟨S1x1, .f32⟩ : BufTy).Contents (Elt F) → (⟨S1x1, .f32⟩ : BufTy).Contents (Elt F)) (W61 m c (Proc.devRef .tc main_v221)) (W61 m c (Proc.devRef .tc main_v230)) := by
  dsimp only [W61, hostOps21_3]
  after_results_simp <;> (try simp only [StableHlo.TRef.ofBuf, StableHlo.TRef.toBuf, cast_eq]) <;> (try rfl)
theorem kd_main_v231 : W63 m c (Proc.devRef .tc main_v231) = (subf : (⟨S1x1, .f32⟩ : BufTy).Contents (Elt F) → (⟨S1x1, .f32⟩ : BufTy).Contents (Elt F) → (⟨S1x1, .f32⟩ : BufTy).Contents (Elt F)) (W63 m c (Proc.devRef .tc main_v221)) (W63 m c (Proc.devRef .tc main_v230)) := by
  rw [frame61 m c main_v231 (by decide), frame61 m c main_v221 (by decide), frame61 m c main_v230 (by decide)]; exact kd0_main_v231 m c
theorem kd0_main_call15_v0 : W62 m c (Proc.devRef .tc main_call15_v0) = (mulf : (⟨S1x1, .f32⟩ : BufTy).Contents (Elt F) → (⟨S1x1, .f32⟩ : BufTy).Contents (Elt F) → (⟨S1x1, .f32⟩ : BufTy).Contents (Elt F)) (W62 m c (Proc.devRef .tc main_v231)) (W62 m c (Proc.devRef .tc main_v231)) := by
  dsimp only [W62, hostOps21_4]
  after_results_simp <;> (try simp only [StableHlo.TRef.ofBuf, StableHlo.TRef.toBuf, cast_eq]) <;> (try rfl)
theorem kd_main_call15_v0 : W63 m c (Proc.devRef .tc main_call15_v0) = (mulf : (⟨S1x1, .f32⟩ : BufTy).Contents (Elt F) → (⟨S1x1, .f32⟩ : BufTy).Contents (Elt F) → (⟨S1x1, .f32⟩ : BufTy).Contents (Elt F)) (W63 m c (Proc.devRef .tc main_v231)) (W63 m c (Proc.devRef .tc main_v231)) := by
  rw [frame62 m c main_call15_v0 (by decide), frame62 m c main_v231 (by decide)]; exact kd0_main_call15_v0 m c
theorem kd0_main_call15_cst : W62 m c (Proc.devRef .tc main_call15_cst) = ((constant S_ .f32 0x00000000#32) : (⟨S_, .f32⟩ : BufTy).Contents (Elt F)) := by
  dsimp only [W62, hostOps21_4]
  after_results_simp <;> (try simp only [StableHlo.TRef.ofBuf, StableHlo.TRef.toBuf, cast_eq]) <;> (try rfl)
theorem kd_main_call15_cst : W63 m c (Proc.devRef .tc main_call15_cst) = ((constant S_ .f32 0x00000000#32) : (⟨S_, .f32⟩ : BufTy).Contents (Elt F)) := by
  rw [frame62 m c main_call15_cst (by decide)]; exact kd0_main_call15_cst m c
theorem kd0_main_call15_v1 : W62 m c (Proc.devRef .tc main_call15_v1) = ((fun x v => Host.reduceAdd x v reducesTo_S1x1_S_d0_1 h_S_) : (⟨S1x1, .f32⟩ : BufTy).Contents (Elt F) → (⟨S_, .f32⟩ : BufTy).Contents (Elt F) → (⟨S_, .f32⟩ : BufTy).Contents (Elt F)) (W62 m c (Proc.devRef .tc main_call15_v0)) (W62 m c (Proc.devRef .tc main_call15_cst)) := by
  dsimp only [W62, hostOps21_4]
  after_results_simp <;> (try simp only [StableHlo.TRef.ofBuf, StableHlo.TRef.toBuf, cast_eq]) <;> (try rfl)
theorem kd_main_call15_v1 : W63 m c (Proc.devRef .tc main_call15_v1) = ((fun x v => Host.reduceAdd x v reducesTo_S1x1_S_d0_1 h_S_) : (⟨S1x1, .f32⟩ : BufTy).Contents (Elt F) → (⟨S_, .f32⟩ : BufTy).Contents (Elt F) → (⟨S_, .f32⟩ : BufTy).Contents (Elt F)) (W63 m c (Proc.devRef .tc main_call15_v0)) (W63 m c (Proc.devRef .tc main_call15_cst)) := by
  rw [frame62 m c main_call15_v1 (by decide), frame62 m c main_call15_v0 (by decide), frame62 m c main_call15_cst (by decide)]; exact kd0_main_call15_v1 m c
theorem kd0_main_v232 : W62 m c (Proc.devRef .tc main_v232) = (Host.sqrt : (⟨S_, .f32⟩ : BufTy).Contents (Elt F) → (⟨S_, .f32⟩ : BufTy).Contents (Elt F)) (W62 m c (Proc.devRef .tc main_call15_v1)) := by
  dsimp only [W62, hostOps21_4]
  after_results_simp <;> (try simp only [StableHlo.TRef.ofBuf, StableHlo.TRef.toBuf, cast_eq]) <;> (try rfl)
theorem kd_main_v232 : W63 m c (Proc.devRef .tc main_v232) = (Host.sqrt : (⟨S_, .f32⟩ : BufTy).Contents (Elt F) → (⟨S_, .f32⟩ : BufTy).Contents (Elt F)) (W63 m c (Proc.devRef .tc main_call15_v1)) := by
  rw [frame62 m c main_v232 (by decide), frame62 m c main_call15_v1 (by decide)]; exact kd0_main_v232 m c

end Cert.KernelIdeal.Hand

end
-- ==== Proof.KI.Reads6.lean ====
/- What each host operation of @main leaves in its result buffer, read at the last boundary's contents: the operation's
   function of its operands' contents there (every buffer is written once). Stretches: hostOps21_5. -/
import proofs.«405323_j90718299226206_3_alg».proof.Proof.KI.Frames

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem kd0_main_v233 : W63 m c (Proc.devRef .tc main_v233) = (iotaInDim S1x1 32 0) := by
  dsimp only [W63, hostOps21_5]
  after_results_simp <;> (try simp only [StableHlo.TRef.ofBuf, StableHlo.TRef.toBuf, cast_eq]) <;> (try rfl)
theorem kd_main_v233 : W63 m c (Proc.devRef .tc main_v233) = (iotaInDim S1x1 32 0) := by
  rw [frame63 m c main_v233 (by decide)]; exact kd0_main_v233 m c
theorem kd0_main_v234 : W63 m c (Proc.devRef .tc main_v234) = (iotaInDim S1x1 32 1) := by
  dsimp only [W63, hostOps21_5]
  after_results_simp <;> (try simp only [StableHlo.TRef.ofBuf, StableHlo.TRef.toBuf, cast_eq]) <;> (try rfl)
theorem kd_main_v234 : W63 m c (Proc.devRef .tc main_v234) = (iotaInDim S1x1 32 1) := by
  rw [frame63 m c main_v234 (by decide)]; exact kd0_main_v234 m c
theorem kd0_main_c_43 : W63 m c (Proc.devRef .tc main_c_43) = (constantI S_ 32 0#32) := by
  dsimp only [W63, hostOps21_5]
  after_results_simp <;> (try simp only [StableHlo.TRef.ofBuf, StableHlo.TRef.toBuf, cast_eq]) <;> (try rfl)
theorem kd_main_c_43 : W63 m c (Proc.devRef .tc main_c_43) = (constantI S_ 32 0#32) := by
  rw [frame63 m c main_c_43 (by decide)]; exact kd0_main_c_43 m c
theorem kd0_main_v235 : W63 m c (Proc.devRef .tc main_v235) = (broadcastInDim S1x1 ![] bcast_S_S1x1 : (⟨S_, .i32⟩ : BufTy).Contents (Elt F) → (⟨S1x1, .i32⟩ : BufTy).Contents (Elt F)) (W63 m c (Proc.devRef .tc main_c_43)) := by
  dsimp only [W63, hostOps21_5]
  after_results_simp <;> (try simp only [StableHlo.TRef.ofBuf, StableHlo.TRef.toBuf, cast_eq]) <;> (try rfl)
theorem kd_main_v235 : W63 m c (Proc.devRef .tc main_v235) = (broadcastInDim S1x1 ![] bcast_S_S1x1 : (⟨S_, .i32⟩ : BufTy).Contents (Elt F) → (⟨S1x1, .i32⟩ : BufTy).Contents (Elt F)) (W63 m c (Proc.devRef .tc main_c_43)) := by
  rw [frame63 m c main_v235 (by decide), frame63 m c main_c_43 (by decide)]; exact kd0_main_v235 m c
theorem kd0_main_v236 : W63 m c (Proc.devRef .tc main_v236) = (addi : (⟨S1x1, .i32⟩ : BufTy).Contents (Elt F) → (⟨S1x1, .i32⟩ : BufTy).Contents (Elt F) → (⟨S1x1, .i32⟩ : BufTy).Contents (Elt F)) (W63 m c (Proc.devRef .tc main_v233)) (W63 m c (Proc.devRef .tc main_v235)) := by
  dsimp only [W63, hostOps21_5]
  after_results_simp <;> (try simp only [StableHlo.TRef.ofBuf, StableHlo.TRef.toBuf, cast_eq]) <;> (try rfl)
theorem kd_main_v236 : W63 m c (Proc.devRef .tc main_v236) = (addi : (⟨S1x1, .i32⟩ : BufTy).Contents (Elt F) → (⟨S1x1, .i32⟩ : BufTy).Contents (Elt F) → (⟨S1x1, .i32⟩ : BufTy).Contents (Elt F)) (W63 m c (Proc.devRef .tc main_v233)) (W63 m c (Proc.devRef .tc main_v235)) := by
  rw [frame63 m c main_v236 (by decide), frame63 m c main_v233 (by decide), frame63 m c main_v235 (by decide)]; exact kd0_main_v236 m c
theorem kd0_main_v237 : W63 m c (Proc.devRef .tc main_v237) = (cmpi .eq : (⟨S1x1, .i32⟩ : BufTy).Contents (Elt F) → (⟨S1x1, .i32⟩ : BufTy).Contents (Elt F) → (⟨S1x1, .i1⟩ : BufTy).Contents (Elt F)) (W63 m c (Proc.devRef .tc main_v236)) (W63 m c (Proc.devRef .tc main_v234)) := by
  dsimp only [W63, hostOps21_5]
  after_results_simp <;> (try simp only [StableHlo.TRef.ofBuf, StableHlo.TRef.toBuf, cast_eq]) <;> (try rfl)
theorem kd_main_v237 : W63 m c (Proc.devRef .tc main_v237) = (cmpi .eq : (⟨S1x1, .i32⟩ : BufTy).Contents (Elt F) → (⟨S1x1, .i32⟩ : BufTy).Contents (Elt F) → (⟨S1x1, .i1⟩ : BufTy).Contents (Elt F)) (W63 m c (Proc.devRef .tc main_v236)) (W63 m c (Proc.devRef .tc main_v234)) := by
  rw [frame63 m c main_v237 (by decide), frame63 m c main_v236 (by decide), frame63 m c main_v234 (by decide)]; exact kd0_main_v237 m c
theorem kd0_main_v238 : W63 m c (Proc.devRef .tc main_v238) = (uitofp .f32 : (⟨S1x1, .i1⟩ : BufTy).Contents (Elt F) → (⟨S1x1, .f32⟩ : BufTy).Contents (Elt F)) (W63 m c (Proc.devRef .tc main_v237)) := by
  dsimp only [W63, hostOps21_5]
  after_results_simp <;> (try simp only [StableHlo.TRef.ofBuf, StableHlo.TRef.toBuf, cast_eq]) <;> (try rfl)
theorem kd_main_v238 : W63 m c (Proc.devRef .tc main_v238) = (uitofp .f32 : (⟨S1x1, .i1⟩ : BufTy).Contents (Elt F) → (⟨S1x1, .f32⟩ : BufTy).Contents (Elt F)) (W63 m c (Proc.devRef .tc main_v237)) := by
  rw [frame63 m c main_v238 (by decide), frame63 m c main_v237 (by decide)]; exact kd0_main_v238 m c
theorem kd0_main_cst_44 : W63 m c (Proc.devRef .tc main_cst_44) = (constant S_ .f32 0x3F800000#32) := by
  dsimp only [W63, hostOps21_5]
  after_results_simp <;> (try simp only [StableHlo.TRef.ofBuf, StableHlo.TRef.toBuf, cast_eq]) <;> (try rfl)
theorem kd_main_cst_44 : W63 m c (Proc.devRef .tc main_cst_44) = (constant S_ .f32 0x3F800000#32) := by
  rw [frame63 m c main_cst_44 (by decide)]; exact kd0_main_cst_44 m c
theorem kd0_main_v239 : W63 m c (Proc.devRef .tc main_v239) = (broadcastInDim S1x1 ![] bcast_S_S1x1 : (⟨S_, .f32⟩ : BufTy).Contents (Elt F) → (⟨S1x1, .f32⟩ : BufTy).Contents (Elt F)) (W63 m c (Proc.devRef .tc main_cst_44)) := by
  dsimp only [W63, hostOps21_5]
  after_results_simp <;> (try simp only [StableHlo.TRef.ofBuf, StableHlo.TRef.toBuf, cast_eq]) <;> (try rfl)
theorem kd_main_v239 : W63 m c (Proc.devRef .tc main_v239) = (broadcastInDim S1x1 ![] bcast_S_S1x1 : (⟨S_, .f32⟩ : BufTy).Contents (Elt F) → (⟨S1x1, .f32⟩ : BufTy).Contents (Elt F)) (W63 m c (Proc.devRef .tc main_cst_44)) := by
  rw [frame63 m c main_v239 (by decide), frame63 m c main_cst_44 (by decide)]; exact kd0_main_v239 m c
theorem kd0_main_v240 : W63 m c (Proc.devRef .tc main_v240) = (subf : (⟨S1x1, .f32⟩ : BufTy).Contents (Elt F) → (⟨S1x1, .f32⟩ : BufTy).Contents (Elt F) → (⟨S1x1, .f32⟩ : BufTy).Contents (Elt F)) (W63 m c (Proc.devRef .tc main_v239)) (W63 m c (Proc.devRef .tc main_v238)) := by
  dsimp only [W63, hostOps21_5]
  after_results_simp <;> (try simp only [StableHlo.TRef.ofBuf, StableHlo.TRef.toBuf, cast_eq]) <;> (try rfl)
theorem kd_main_v240 : W63 m c (Proc.devRef .tc main_v240) = (subf : (⟨S1x1, .f32⟩ : BufTy).Contents (Elt F) → (⟨S1x1, .f32⟩ : BufTy).Contents (Elt F) → (⟨S1x1, .f32⟩ : BufTy).Contents (Elt F)) (W63 m c (Proc.devRef .tc main_v239)) (W63 m c (Proc.devRef .tc main_v238)) := by
  rw [frame63 m c main_v240 (by decide), frame63 m c main_v239 (by decide), frame63 m c main_v238 (by decide)]; exact kd0_main_v240 m c
theorem kd0_main_v241 : W63 m c (Proc.devRef .tc main_v241) = (mulf : (⟨S1x1, .f32⟩ : BufTy).Contents (Elt F) → (⟨S1x1, .f32⟩ : BufTy).Contents (Elt F) → (⟨S1x1, .f32⟩ : BufTy).Contents (Elt F)) (W63 m c (Proc.devRef .tc main_v209)) (W63 m c (Proc.devRef .tc main_v240)) := by
  dsimp only [W63, hostOps21_5]
  after_results_simp <;> (try simp only [StableHlo.TRef.ofBuf, StableHlo.TRef.toBuf, cast_eq]) <;> (try rfl)
theorem kd_main_v241 : W63 m c (Proc.devRef .tc main_v241) = (mulf : (⟨S1x1, .f32⟩ : BufTy).Contents (Elt F) → (⟨S1x1, .f32⟩ : BufTy).Contents (Elt F) → (⟨S1x1, .f32⟩ : BufTy).Contents (Elt F)) (W63 m c (Proc.devRef .tc main_v209)) (W63 m c (Proc.devRef .tc main_v240)) := by
  rw [frame63 m c main_v241 (by decide), frame63 m c main_v209 (by decide), frame63 m c main_v240 (by decide)]; exact kd0_main_v241 m c
theorem kd0_main_cst_45 : W63 m c (Proc.devRef .tc main_cst_45) = (constant S_ .f32 0x00000000#32) := by
  dsimp only [W63, hostOps21_5]
  after_results_simp <;> (try simp only [StableHlo.TRef.ofBuf, StableHlo.TRef.toBuf, cast_eq]) <;> (try rfl)
theorem kd_main_cst_45 : W63 m c (Proc.devRef .tc main_cst_45) = (constant S_ .f32 0x00000000#32) := by
  rw [frame63 m c main_cst_45 (by decide)]; exact kd0_main_cst_45 m c
theorem kd0_main_v242 : W63 m c (Proc.devRef .tc main_v242) = ((fun x v => Host.reduceAdd x v reducesTo_S1x1_S1_d1 h_S_) : (⟨S1x1, .f32⟩ : BufTy).Contents (Elt F) → (⟨S_, .f32⟩ : BufTy).Contents (Elt F) → (⟨S1, .f32⟩ : BufTy).Contents (Elt F)) (W63 m c (Proc.devRef .tc main_v241)) (W63 m c (Proc.devRef .tc main_cst_45)) := by
  dsimp only [W63, hostOps21_5]
  after_results_simp <;> (try simp only [StableHlo.TRef.ofBuf, StableHlo.TRef.toBuf, cast_eq]) <;> (try rfl)
theorem kd_main_v242 : W63 m c (Proc.devRef .tc main_v242) = ((fun x v => Host.reduceAdd x v reducesTo_S1x1_S1_d1 h_S_) : (⟨S1x1, .f32⟩ : BufTy).Contents (Elt F) → (⟨S_, .f32⟩ : BufTy).Contents (Elt F) → (⟨S1, .f32⟩ : BufTy).Contents (Elt F)) (W63 m c (Proc.devRef .tc main_v241)) (W63 m c (Proc.devRef .tc main_cst_45)) := by
  rw [frame63 m c main_v242 (by decide), frame63 m c main_v241 (by decide), frame63 m c main_cst_45 (by decide)]; exact kd0_main_v242 m c
theorem kd0_main_v243 : W63 m c (Proc.devRef .tc main_v243) = (Host.sqrt : (⟨S1, .f32⟩ : BufTy).Contents (Elt F) → (⟨S1, .f32⟩ : BufTy).Contents (Elt F)) (W63 m c (Proc.devRef .tc main_v242)) := by
  dsimp only [W63, hostOps21_5]
  after_results_simp <;> (try simp only [StableHlo.TRef.ofBuf, StableHlo.TRef.toBuf, cast_eq]) <;> (try rfl)
theorem kd_main_v243 : W63 m c (Proc.devRef .tc main_v243) = (Host.sqrt : (⟨S1, .f32⟩ : BufTy).Contents (Elt F) → (⟨S1, .f32⟩ : BufTy).Contents (Elt F)) (W63 m c (Proc.devRef .tc main_v242)) := by
  rw [frame63 m c main_v243 (by decide), frame63 m c main_v242 (by decide)]; exact kd0_main_v243 m c
theorem kd0_main_v244 : W63 m c (Proc.devRef .tc main_v244) = (broadcastInDim S1x1 ![0] bcast_S1_S1x1_0 : (⟨S1, .f32⟩ : BufTy).Contents (Elt F) → (⟨S1x1, .f32⟩ : BufTy).Contents (Elt F)) (W63 m c (Proc.devRef .tc main_v243)) := by
  dsimp only [W63, hostOps21_5]
  after_results_simp <;> (try simp only [StableHlo.TRef.ofBuf, StableHlo.TRef.toBuf, cast_eq]) <;> (try rfl)
theorem kd_main_v244 : W63 m c (Proc.devRef .tc main_v244) = (broadcastInDim S1x1 ![0] bcast_S1_S1x1_0 : (⟨S1, .f32⟩ : BufTy).Contents (Elt F) → (⟨S1x1, .f32⟩ : BufTy).Contents (Elt F)) (W63 m c (Proc.devRef .tc main_v243)) := by
  rw [frame63 m c main_v244 (by decide), frame63 m c main_v243 (by decide)]; exact kd0_main_v244 m c
theorem kd0_main_cst_46 : W63 m c (Proc.devRef .tc main_cst_46) = (constant S_ .f32 0x26901D7D#32) := by
  dsimp only [W63, hostOps21_5]
  after_results_simp <;> (try simp only [StableHlo.TRef.ofBuf, StableHlo.TRef.toBuf, cast_eq]) <;> (try rfl)
theorem kd_main_cst_46 : W63 m c (Proc.devRef .tc main_cst_46) = (constant S_ .f32 0x26901D7D#32) := by
  rw [frame63 m c main_cst_46 (by decide)]; exact kd0_main_cst_46 m c
theorem kd0_main_v245 : W63 m c (Proc.devRef .tc main_v245) = (broadcastInDim S1x1 ![] bcast_S_S1x1 : (⟨S_, .f32⟩ : BufTy).Contents (Elt F) → (⟨S1x1, .f32⟩ : BufTy).Contents (Elt F)) (W63 m c (Proc.devRef .tc main_cst_46)) := by
  dsimp only [W63, hostOps21_5]
  after_results_simp <;> (try simp only [StableHlo.TRef.ofBuf, StableHlo.TRef.toBuf, cast_eq]) <;> (try rfl)
theorem kd_main_v245 : W63 m c (Proc.devRef .tc main_v245) = (broadcastInDim S1x1 ![] bcast_S_S1x1 : (⟨S_, .f32⟩ : BufTy).Contents (Elt F) → (⟨S1x1, .f32⟩ : BufTy).Contents (Elt F)) (W63 m c (Proc.devRef .tc main_cst_46)) := by
  rw [frame63 m c main_v245 (by decide), frame63 m c main_cst_46 (by decide)]; exact kd0_main_v245 m c
theorem kd0_main_v246 : W63 m c (Proc.devRef .tc main_v246) = (addf : (⟨S1x1, .f32⟩ : BufTy).Contents (Elt F) → (⟨S1x1, .f32⟩ : BufTy).Contents (Elt F) → (⟨S1x1, .f32⟩ : BufTy).Contents (Elt F)) (W63 m c (Proc.devRef .tc main_v244)) (W63 m c (Proc.devRef .tc main_v245)) := by
  dsimp only [W63, hostOps21_5]
  after_results_simp <;> (try simp only [StableHlo.TRef.ofBuf, StableHlo.TRef.toBuf, cast_eq]) <;> (try rfl)
theorem kd_main_v246 : W63 m c (Proc.devRef .tc main_v246) = (addf : (⟨S1x1, .f32⟩ : BufTy).Contents (Elt F) → (⟨S1x1, .f32⟩ : BufTy).Contents (Elt F) → (⟨S1x1, .f32⟩ : BufTy).Contents (Elt F)) (W63 m c (Proc.devRef .tc main_v244)) (W63 m c (Proc.devRef .tc main_v245)) := by
  rw [frame63 m c main_v246 (by decide), frame63 m c main_v244 (by decide), frame63 m c main_v245 (by decide)]; exact kd0_main_v246 m c
theorem kd0_main_v247 : W63 m c (Proc.devRef .tc main_v247) = (Host.divf : (⟨S1x1, .f32⟩ : BufTy).Contents (Elt F) → (⟨S1x1, .f32⟩ : BufTy).Contents (Elt F) → (⟨S1x1, .f32⟩ : BufTy).Contents (Elt F)) (W63 m c (Proc.devRef .tc main_v241)) (W63 m c (Proc.devRef .tc main_v246)) := by
  dsimp only [W63, hostOps21_5]
  after_results_simp <;> (try simp only [StableHlo.TRef.ofBuf, StableHlo.TRef.toBuf, cast_eq]) <;> (try rfl)
theorem kd_main_v247 : W63 m c (Proc.devRef .tc main_v247) = (Host.divf : (⟨S1x1, .f32⟩ : BufTy).Contents (Elt F) → (⟨S1x1, .f32⟩ : BufTy).Contents (Elt F) → (⟨S1x1, .f32⟩ : BufTy).Contents (Elt F)) (W63 m c (Proc.devRef .tc main_v241)) (W63 m c (Proc.devRef .tc main_v246)) := by
  rw [frame63 m c main_v247 (by decide), frame63 m c main_v241 (by decide), frame63 m c main_v246 (by decide)]; exact kd0_main_v247 m c
theorem kd0_main_v248 : W63 m c (Proc.devRef .tc main_v248) = ((transpose S1x1 [1, 0] · transposes_S1x1_S1x1_1_0) : (⟨S1x1, .f32⟩ : BufTy).Contents (Elt F) → (⟨S1x1, .f32⟩ : BufTy).Contents (Elt F)) (W63 m c (Proc.devRef .tc main_v246)) := by
  dsimp only [W63, hostOps21_5]
  after_results_simp <;> (try simp only [StableHlo.TRef.ofBuf, StableHlo.TRef.toBuf, cast_eq]) <;> (try rfl)
theorem kd_main_v248 : W63 m c (Proc.devRef .tc main_v248) = ((transpose S1x1 [1, 0] · transposes_S1x1_S1x1_1_0) : (⟨S1x1, .f32⟩ : BufTy).Contents (Elt F) → (⟨S1x1, .f32⟩ : BufTy).Contents (Elt F)) (W63 m c (Proc.devRef .tc main_v246)) := by
  rw [frame63 m c main_v248 (by decide), frame63 m c main_v246 (by decide)]; exact kd0_main_v248 m c
theorem kd0_main_v249 : W63 m c (Proc.devRef .tc main_v249) = (Host.divf : (⟨S1x1, .f32⟩ : BufTy).Contents (Elt F) → (⟨S1x1, .f32⟩ : BufTy).Contents (Elt F) → (⟨S1x1, .f32⟩ : BufTy).Contents (Elt F)) (W63 m c (Proc.devRef .tc main_v247)) (W63 m c (Proc.devRef .tc main_v248)) := by
  dsimp only [W63, hostOps21_5]
  after_results_simp <;> (try simp only [StableHlo.TRef.ofBuf, StableHlo.TRef.toBuf, cast_eq]) <;> (try rfl)
theorem kd_main_v249 : W63 m c (Proc.devRef .tc main_v249) = (Host.divf : (⟨S1x1, .f32⟩ : BufTy).Contents (Elt F) → (⟨S1x1, .f32⟩ : BufTy).Contents (Elt F) → (⟨S1x1, .f32⟩ : BufTy).Contents (Elt F)) (W63 m c (Proc.devRef .tc main_v247)) (W63 m c (Proc.devRef .tc main_v248)) := by
  rw [frame63 m c main_v249 (by decide), frame63 m c main_v247 (by decide), frame63 m c main_v248 (by decide)]; exact kd0_main_v249 m c

end Cert.KernelIdeal.Hand

end
-- ==== Proof.KI.Reads.lean ====
/- Every host operation's read lemma, gathered. -/
import proofs.«405323_j90718299226206_3_alg».proof.Proof.KI.Reads0
import proofs.«405323_j90718299226206_3_alg».proof.Proof.KI.Reads1
import proofs.«405323_j90718299226206_3_alg».proof.Proof.KI.Reads2
import proofs.«405323_j90718299226206_3_alg».proof.Proof.KI.Reads3
import proofs.«405323_j90718299226206_3_alg».proof.Proof.KI.Reads4
import proofs.«405323_j90718299226206_3_alg».proof.Proof.KI.Reads5
import proofs.«405323_j90718299226206_3_alg».proof.Proof.KI.Reads6
-- ==== Proof.Ref.Reads0.lean ====
import proofs.«405323_j90718299226206_3_alg».proof.Proof.Ref.ReadsAsc

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

theorem rd_main_cst : RV m c main_cst = (constant S_ .f32 0x00000000#32 : (⟨S_, .f32⟩ : BufTy).Contents (Elt F)) := by
  have h := (ops_asc (F := F)).read_nullary (fun b => m (c, b)) 0 rfl
  unfold RV
  generalize StableHlo.after (ops (F := F)) (fun b => m (c, b)) = W at h ⊢
  exact h
theorem rd_main_v0 : RV m c main_v0 = (broadcastInDim S10000x10000 ![] bcast_S_S10000x10000 : (⟨S_, .f32⟩ : BufTy).Contents (Elt F) → (⟨S10000x10000, .f32⟩ : BufTy).Contents (Elt F)) (RV m c main_cst) := by
  have h := (ops_asc (F := F)).read_unary (fun b => m (c, b)) 1 rfl (by decide)
  unfold RV
  generalize StableHlo.after (ops (F := F)) (fun b => m (c, b)) = W at h ⊢
  exact h
theorem rd_main_v1 : RV m c main_v1 = extractStridedSlice S1x320000 ![0, 0] (RV m c main_arg1) slices_S2x320000_S1x320000_0_0 := by
  have h := (ops_asc (F := F)).read_unary (fun b => m (c, b)) 2 rfl (by decide)
  unfold RV
  generalize StableHlo.after (ops (F := F)) (fun b => m (c, b)) = W at h ⊢
  exact h
theorem rd_main_v2 : RV m c main_v2 = shapeCast S320000 (RV m c main_v1) shapeCasts_S1x320000_S320000 := by
  have h := (ops_asc (F := F)).read_reshape (fun b => m (c, b)) 3 rfl (by decide)
  unfold RV
  generalize StableHlo.after (ops (F := F)) (fun b => m (c, b)) = W at h ⊢
  exact h
theorem rd_main_v3 : RV m c main_v3 = extractStridedSlice S1x320000 ![1, 0] (RV m c main_arg1) slices_S2x320000_S1x320000_1_0 := by
  have h := (ops_asc (F := F)).read_unary (fun b => m (c, b)) 4 rfl (by decide)
  unfold RV
  generalize StableHlo.after (ops (F := F)) (fun b => m (c, b)) = W at h ⊢
  exact h
theorem rd_main_v4 : RV m c main_v4 = shapeCast S320000 (RV m c main_v3) shapeCasts_S1x320000_S320000 := by
  have h := (ops_asc (F := F)).read_reshape (fun b => m (c, b)) 5 rfl (by decide)
  unfold RV
  generalize StableHlo.after (ops (F := F)) (fun b => m (c, b)) = W at h ⊢
  exact h
theorem rd_main_c : RV m c main_c = (constantI S_ 32 0#32 : (⟨S_, .i32⟩ : BufTy).Contents (Elt F)) := by
  have h := (ops_asc (F := F)).read_nullary (fun b => m (c, b)) 6 rfl
  unfold RV
  generalize StableHlo.after (ops (F := F)) (fun b => m (c, b)) = W at h ⊢
  exact h
theorem rd_main_v5 : RV m c main_v5 = (broadcastInDim S320000 ![] bcast_S_S320000 : (⟨S_, .i32⟩ : BufTy).Contents (Elt F) → (⟨S320000, .i32⟩ : BufTy).Contents (Elt F)) (RV m c main_c) := by
  have h := (ops_asc (F := F)).read_unary (fun b => m (c, b)) 7 rfl (by decide)
  unfold RV
  generalize StableHlo.after (ops (F := F)) (fun b => m (c, b)) = W at h ⊢
  exact h
theorem rd_main_v6 : RV m c main_v6 = (cmpi .slt : (⟨S320000, .i32⟩ : BufTy).Contents (Elt F) → (⟨S320000, .i32⟩ : BufTy).Contents (Elt F) → (⟨S320000, .i1⟩ : BufTy).Contents (Elt F)) (RV m c main_v2) (RV m c main_v5) := by
  have h := (ops_asc (F := F)).read_binary (fun b => m (c, b)) 8 rfl (by decide) (by decide)
  unfold RV
  generalize StableHlo.after (ops (F := F)) (fun b => m (c, b)) = W at h ⊢
  exact h
theorem rd_main_c_0 : RV m c main_c_0 = (constantI S_ 32 10000#32 : (⟨S_, .i32⟩ : BufTy).Contents (Elt F)) := by
  have h := (ops_asc (F := F)).read_nullary (fun b => m (c, b)) 9 rfl
  unfold RV
  generalize StableHlo.after (ops (F := F)) (fun b => m (c, b)) = W at h ⊢
  exact h
theorem rd_main_v7 : RV m c main_v7 = (broadcastInDim S320000 ![] bcast_S_S320000 : (⟨S_, .i32⟩ : BufTy).Contents (Elt F) → (⟨S320000, .i32⟩ : BufTy).Contents (Elt F)) (RV m c main_c_0) := by
  have h := (ops_asc (F := F)).read_unary (fun b => m (c, b)) 10 rfl (by decide)
  unfold RV
  generalize StableHlo.after (ops (F := F)) (fun b => m (c, b)) = W at h ⊢
  exact h
theorem rd_main_v8 : RV m c main_v8 = (addi : (⟨S320000, .i32⟩ : BufTy).Contents (Elt F) → (⟨S320000, .i32⟩ : BufTy).Contents (Elt F) → (⟨S320000, .i32⟩ : BufTy).Contents (Elt F)) (RV m c main_v2) (RV m c main_v7) := by
  have h := (ops_asc (F := F)).read_binary (fun b => m (c, b)) 11 rfl (by decide) (by decide)
  unfold RV
  generalize StableHlo.after (ops (F := F)) (fun b => m (c, b)) = W at h ⊢
  exact h
theorem rd_main_v9 : RV m c main_v9 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (RV m c main_v6) (RV m c main_v8) (RV m c main_v2) := by
  have h := (ops_asc (F := F)).read_ternary (fun b => m (c, b)) 12 rfl (by decide) (by decide) (by decide)
  unfold RV
  generalize StableHlo.after (ops (F := F)) (fun b => m (c, b)) = W at h ⊢
  exact h
theorem rd_main_c_1 : RV m c main_c_1 = (constantI S_ 32 0#32 : (⟨S_, .i32⟩ : BufTy).Contents (Elt F)) := by
  have h := (ops_asc (F := F)).read_nullary (fun b => m (c, b)) 13 rfl
  unfold RV
  generalize StableHlo.after (ops (F := F)) (fun b => m (c, b)) = W at h ⊢
  exact h
theorem rd_main_v10 : RV m c main_v10 = (broadcastInDim S320000 ![] bcast_S_S320000 : (⟨S_, .i32⟩ : BufTy).Contents (Elt F) → (⟨S320000, .i32⟩ : BufTy).Contents (Elt F)) (RV m c main_c_1) := by
  have h := (ops_asc (F := F)).read_unary (fun b => m (c, b)) 14 rfl (by decide)
  unfold RV
  generalize StableHlo.after (ops (F := F)) (fun b => m (c, b)) = W at h ⊢
  exact h
theorem rd_main_v11 : RV m c main_v11 = (cmpi .slt : (⟨S320000, .i32⟩ : BufTy).Contents (Elt F) → (⟨S320000, .i32⟩ : BufTy).Contents (Elt F) → (⟨S320000, .i1⟩ : BufTy).Contents (Elt F)) (RV m c main_v4) (RV m c main_v10) := by
  have h := (ops_asc (F := F)).read_binary (fun b => m (c, b)) 15 rfl (by decide) (by decide)
  unfold RV
  generalize StableHlo.after (ops (F := F)) (fun b => m (c, b)) = W at h ⊢
  exact h
theorem rd_main_c_2 : RV m c main_c_2 = (constantI S_ 32 10000#32 : (⟨S_, .i32⟩ : BufTy).Contents (Elt F)) := by
  have h := (ops_asc (F := F)).read_nullary (fun b => m (c, b)) 16 rfl
  unfold RV
  generalize StableHlo.after (ops (F := F)) (fun b => m (c, b)) = W at h ⊢
  exact h
theorem rd_main_v12 : RV m c main_v12 = (broadcastInDim S320000 ![] bcast_S_S320000 : (⟨S_, .i32⟩ : BufTy).Contents (Elt F) → (⟨S320000, .i32⟩ : BufTy).Contents (Elt F)) (RV m c main_c_2) := by
  have h := (ops_asc (F := F)).read_unary (fun b => m (c, b)) 17 rfl (by decide)
  unfold RV
  generalize StableHlo.after (ops (F := F)) (fun b => m (c, b)) = W at h ⊢
  exact h
theorem rd_main_v13 : RV m c main_v13 = (addi : (⟨S320000, .i32⟩ : BufTy).Contents (Elt F) → (⟨S320000, .i32⟩ : BufTy).Contents (Elt F) → (⟨S320000, .i32⟩ : BufTy).Contents (Elt F)) (RV m c main_v4) (RV m c main_v12) := by
  have h := (ops_asc (F := F)).read_binary (fun b => m (c, b)) 18 rfl (by decide) (by decide)
  unfold RV
  generalize StableHlo.after (ops (F := F)) (fun b => m (c, b)) = W at h ⊢
  exact h
theorem rd_main_v14 : RV m c main_v14 = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (RV m c main_v11) (RV m c main_v13) (RV m c main_v4) := by
  have h := (ops_asc (F := F)).read_ternary (fun b => m (c, b)) 19 rfl (by decide) (by decide) (by decide)
  unfold RV
  generalize StableHlo.after (ops (F := F)) (fun b => m (c, b)) = W at h ⊢
  exact h
theorem rd_main_v15 : RV m c main_v15 = (broadcastInDim S320000x1 ![0] bcast_S320000_S320000x1_0 : (⟨S320000, .i32⟩ : BufTy).Contents (Elt F) → (⟨S320000x1, .i32⟩ : BufTy).Contents (Elt F)) (RV m c main_v9) := by
  have h := (ops_asc (F := F)).read_unary (fun b => m (c, b)) 20 rfl (by decide)
  unfold RV
  generalize StableHlo.after (ops (F := F)) (fun b => m (c, b)) = W at h ⊢
  exact h
theorem rd_main_v16 : RV m c main_v16 = (broadcastInDim S320000x1 ![0] bcast_S320000_S320000x1_0 : (⟨S320000, .i32⟩ : BufTy).Contents (Elt F) → (⟨S320000x1, .i32⟩ : BufTy).Contents (Elt F)) (RV m c main_v14) := by
  have h := (ops_asc (F := F)).read_unary (fun b => m (c, b)) 21 rfl (by decide)
  unfold RV
  generalize StableHlo.after (ops (F := F)) (fun b => m (c, b)) = W at h ⊢
  exact h
theorem rd_main_v17 : RV m c main_v17 = concatenate S320000x2 1 [⟨S320000x1, (RV m c main_v15)⟩, ⟨S320000x1, (RV m c main_v16)⟩] concatenates_S320000x1_S320000x1_S320000x2_d1 := by
  have h := (ops_asc (F := F)).read_binary (fun b => m (c, b)) 22 rfl (by decide) (by decide)
  unfold RV
  generalize StableHlo.after (ops (F := F)) (fun b => m (c, b)) = W at h ⊢
  exact h
theorem rd_main_v18 : RV m c main_v18 = Host.scatterAdd scatter_S10000x10000_S320000x2_S320000_n_01_01_1 (RV m c main_v0) (RV m c main_v17) (RV m c main_arg2) := by
  have h := (ops_asc (F := F)).read_ternary (fun b => m (c, b)) 23 rfl (by decide) (by decide) (by decide)
  unfold RV
  generalize StableHlo.after (ops (F := F)) (fun b => m (c, b)) = W at h ⊢
  exact h
theorem rd_main_v19 : RV m c main_v19 = (iotaInDim S10000 32 0 : (⟨S10000, .i32⟩ : BufTy).Contents (Elt F)) := by
  have h := (ops_asc (F := F)).read_nullary (fun b => m (c, b)) 24 rfl
  unfold RV
  generalize StableHlo.after (ops (F := F)) (fun b => m (c, b)) = W at h ⊢
  exact h
theorem rd_main_v20 : RV m c main_v20 = extractStridedSlice S1x320000 ![0, 0] (RV m c main_arg1) slices_S2x320000_S1x320000_0_0 := by
  have h := (ops_asc (F := F)).read_unary (fun b => m (c, b)) 25 rfl (by decide)
  unfold RV
  generalize StableHlo.after (ops (F := F)) (fun b => m (c, b)) = W at h ⊢
  exact h
theorem rd_main_v21 : RV m c main_v21 = shapeCast S320000 (RV m c main_v20) shapeCasts_S1x320000_S320000 := by
  have h := (ops_asc (F := F)).read_reshape (fun b => m (c, b)) 26 rfl (by decide)
  unfold RV
  generalize StableHlo.after (ops (F := F)) (fun b => m (c, b)) = W at h ⊢
  exact h
theorem rd_main_v22 : RV m c main_v22 = concatenate S330000 0 [⟨S320000, (RV m c main_v21)⟩, ⟨S10000, (RV m c main_v19)⟩] concatenates_S320000_S10000_S330000_d0 := by
  have h := (ops_asc (F := F)).read_binary (fun b => m (c, b)) 27 rfl (by decide) (by decide)
  unfold RV
  generalize StableHlo.after (ops (F := F)) (fun b => m (c, b)) = W at h ⊢
  exact h
theorem rd_main_v23 : RV m c main_v23 = extractStridedSlice S1x320000 ![1, 0] (RV m c main_arg1) slices_S2x320000_S1x320000_1_0 := by
  have h := (ops_asc (F := F)).read_unary (fun b => m (c, b)) 28 rfl (by decide)
  unfold RV
  generalize StableHlo.after (ops (F := F)) (fun b => m (c, b)) = W at h ⊢
  exact h
theorem rd_main_v24 : RV m c main_v24 = shapeCast S320000 (RV m c main_v23) shapeCasts_S1x320000_S320000 := by
  have h := (ops_asc (F := F)).read_reshape (fun b => m (c, b)) 29 rfl (by decide)
  unfold RV
  generalize StableHlo.after (ops (F := F)) (fun b => m (c, b)) = W at h ⊢
  exact h
theorem rd_main_v25 : RV m c main_v25 = concatenate S330000 0 [⟨S320000, (RV m c main_v24)⟩, ⟨S10000, (RV m c main_v19)⟩] concatenates_S320000_S10000_S330000_d0 := by
  have h := (ops_asc (F := F)).read_binary (fun b => m (c, b)) 30 rfl (by decide) (by decide)
  unfold RV
  generalize StableHlo.after (ops (F := F)) (fun b => m (c, b)) = W at h ⊢
  exact h
theorem rd_main_cst_3 : RV m c main_cst_3 = (constant S_ .f32 0x3F800000#32 : (⟨S_, .f32⟩ : BufTy).Contents (Elt F)) := by
  have h := (ops_asc (F := F)).read_nullary (fun b => m (c, b)) 31 rfl
  unfold RV
  generalize StableHlo.after (ops (F := F)) (fun b => m (c, b)) = W at h ⊢
  exact h
theorem rd_main_v26 : RV m c main_v26 = (broadcastInDim S10000 ![] bcast_S_S10000 : (⟨S_, .f32⟩ : BufTy).Contents (Elt F) → (⟨S10000, .f32⟩ : BufTy).Contents (Elt F)) (RV m c main_cst_3) := by
  have h := (ops_asc (F := F)).read_unary (fun b => m (c, b)) 32 rfl (by decide)
  unfold RV
  generalize StableHlo.after (ops (F := F)) (fun b => m (c, b)) = W at h ⊢
  exact h
theorem rd_main_v27 : RV m c main_v27 = concatenate S330000 0 [⟨S320000, (RV m c main_arg2)⟩, ⟨S10000, (RV m c main_v26)⟩] concatenates_S320000_S10000_S330000_d0 := by
  have h := (ops_asc (F := F)).read_binary (fun b => m (c, b)) 33 rfl (by decide) (by decide)
  unfold RV
  generalize StableHlo.after (ops (F := F)) (fun b => m (c, b)) = W at h ⊢
  exact h
theorem rd_main_cst_4 : RV m c main_cst_4 = (constant S_ .f32 0x00000000#32 : (⟨S_, .f32⟩ : BufTy).Contents (Elt F)) := by
  have h := (ops_asc (F := F)).read_nullary (fun b => m (c, b)) 34 rfl
  unfold RV
  generalize StableHlo.after (ops (F := F)) (fun b => m (c, b)) = W at h ⊢
  exact h
theorem rd_main_v28 : RV m c main_v28 = (broadcastInDim S10000 ![] bcast_S_S10000 : (⟨S_, .f32⟩ : BufTy).Contents (Elt F) → (⟨S10000, .f32⟩ : BufTy).Contents (Elt F)) (RV m c main_cst_4) := by
  have h := (ops_asc (F := F)).read_unary (fun b => m (c, b)) 35 rfl (by decide)
  unfold RV
  generalize StableHlo.after (ops (F := F)) (fun b => m (c, b)) = W at h ⊢
  exact h
theorem rd_main_v29 : RV m c main_v29 = (broadcastInDim S330000x1 ![0] bcast_S330000_S330000x1_0 : (⟨S330000, .i32⟩ : BufTy).Contents (Elt F) → (⟨S330000x1, .i32⟩ : BufTy).Contents (Elt F)) (RV m c main_v25) := by
  have h := (ops_asc (F := F)).read_unary (fun b => m (c, b)) 36 rfl (by decide)
  unfold RV
  generalize StableHlo.after (ops (F := F)) (fun b => m (c, b)) = W at h ⊢
  exact h
theorem rd_main_v30 : RV m c main_v30 = Host.scatterAdd scatter_S10000_S330000x1_S330000_n_0_0_1 (RV m c main_v28) (RV m c main_v29) (RV m c main_v27) := by
  have h := (ops_asc (F := F)).read_ternary (fun b => m (c, b)) 37 rfl (by decide) (by decide) (by decide)
  unfold RV
  generalize StableHlo.after (ops (F := F)) (fun b => m (c, b)) = W at h ⊢
  exact h
theorem rd_main_cst_5 : RV m c main_cst_5 = (constant S_ .f32 0x00000000#32 : (⟨S_, .f32⟩ : BufTy).Contents (Elt F)) := by
  have h := (ops_asc (F := F)).read_nullary (fun b => m (c, b)) 38 rfl
  unfold RV
  generalize StableHlo.after (ops (F := F)) (fun b => m (c, b)) = W at h ⊢
  exact h
theorem rd_main_v31 : RV m c main_v31 = (broadcastInDim S10000 ![] bcast_S_S10000 : (⟨S_, .f32⟩ : BufTy).Contents (Elt F) → (⟨S10000, .f32⟩ : BufTy).Contents (Elt F)) (RV m c main_cst_5) := by
  have h := (ops_asc (F := F)).read_unary (fun b => m (c, b)) 39 rfl (by decide)
  unfold RV
  generalize StableHlo.after (ops (F := F)) (fun b => m (c, b)) = W at h ⊢
  exact h
theorem rd_main_v32 : RV m c main_v32 = (cmpf .ogt : (⟨S10000, .f32⟩ : BufTy).Contents (Elt F) → (⟨S10000, .f32⟩ : BufTy).Contents (Elt F) → (⟨S10000, .i1⟩ : BufTy).Contents (Elt F)) (RV m c main_v30) (RV m c main_v31) := by
  have h := (ops_asc (F := F)).read_binary (fun b => m (c, b)) 40 rfl (by decide) (by decide)
  unfold RV
  generalize StableHlo.after (ops (F := F)) (fun b => m (c, b)) = W at h ⊢
  exact h
theorem rd_main_v33 : RV m c main_v33 = (Host.rsqrt : (⟨S10000, .f32⟩ : BufTy).Contents (Elt F) → (⟨S10000, .f32⟩ : BufTy).Contents (Elt F)) (RV m c main_v30) := by
  have h := (ops_asc (F := F)).read_unary (fun b => m (c, b)) 41 rfl (by decide)
  unfold RV
  generalize StableHlo.after (ops (F := F)) (fun b => m (c, b)) = W at h ⊢
  exact h
theorem rd_main_cst_6 : RV m c main_cst_6 = (constant S_ .f32 0x00000000#32 : (⟨S_, .f32⟩ : BufTy).Contents (Elt F)) := by
  have h := (ops_asc (F := F)).read_nullary (fun b => m (c, b)) 42 rfl
  unfold RV
  generalize StableHlo.after (ops (F := F)) (fun b => m (c, b)) = W at h ⊢
  exact h
theorem rd_main_call0_v0 : RV m c main_call0_v0 = (RV m c main_cst_6) := by
  have h := (ops_asc (F := F)).read_unary (fun b => m (c, b)) 43 rfl (by decide)
  unfold RV
  generalize StableHlo.after (ops (F := F)) (fun b => m (c, b)) = W at h ⊢
  exact h
theorem rd_main_call0_v1 : RV m c main_call0_v1 = (broadcastInDim S10000 ![] bcast_S_S10000 : (⟨S_, .f32⟩ : BufTy).Contents (Elt F) → (⟨S10000, .f32⟩ : BufTy).Contents (Elt F)) (RV m c main_call0_v0) := by
  have h := (ops_asc (F := F)).read_unary (fun b => m (c, b)) 44 rfl (by decide)
  unfold RV
  generalize StableHlo.after (ops (F := F)) (fun b => m (c, b)) = W at h ⊢
  exact h
theorem rd_main_v34 : RV m c main_v34 = (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)) (RV m c main_v32) (RV m c main_v33) (RV m c main_call0_v1) := by
  have h := (ops_asc (F := F)).read_ternary (fun b => m (c, b)) 45 rfl (by decide) (by decide) (by decide)
  unfold RV
  generalize StableHlo.after (ops (F := F)) (fun b => m (c, b)) = W at h ⊢
  exact h
theorem rd_main_c_7 : RV m c main_c_7 = (constantI S_ 32 0#32 : (⟨S_, .i32⟩ : BufTy).Contents (Elt F)) := by
  have h := (ops_asc (F := F)).read_nullary (fun b => m (c, b)) 46 rfl
  unfold RV
  generalize StableHlo.after (ops (F := F)) (fun b => m (c, b)) = W at h ⊢
  exact h
theorem rd_main_v35 : RV m c main_v35 = (broadcastInDim S330000 ![] bcast_S_S330000 : (⟨S_, .i32⟩ : BufTy).Contents (Elt F) → (⟨S330000, .i32⟩ : BufTy).Contents (Elt F)) (RV m c main_c_7) := by
  have h := (ops_asc (F := F)).read_unary (fun b => m (c, b)) 47 rfl (by decide)
  unfold RV
  generalize StableHlo.after (ops (F := F)) (fun b => m (c, b)) = W at h ⊢
  exact h
theorem rd_main_v36 : RV m c main_v36 = (cmpi .slt : (⟨S330000, .i32⟩ : BufTy).Contents (Elt F) → (⟨S330000, .i32⟩ : BufTy).Contents (Elt F) → (⟨S330000, .i1⟩ : BufTy).Contents (Elt F)) (RV m c main_v22) (RV m c main_v35) := by
  have h := (ops_asc (F := F)).read_binary (fun b => m (c, b)) 48 rfl (by decide) (by decide)
  unfold RV
  generalize StableHlo.after (ops (F := F)) (fun b => m (c, b)) = W at h ⊢
  exact h
theorem rd_main_c_8 : RV m c main_c_8 = (constantI S_ 32 10000#32 : (⟨S_, .i32⟩ : BufTy).Contents (Elt F)) := by
  have h := (ops_asc (F := F)).read_nullary (fun b => m (c, b)) 49 rfl
  unfold RV
  generalize StableHlo.after (ops (F := F)) (fun b => m (c, b)) = W at h ⊢
  exact h
theorem rd_main_v37 : RV m c main_v37 = (broadcastInDim S330000 ![] bcast_S_S330000 : (⟨S_, .i32⟩ : BufTy).Contents (Elt F) → (⟨S330000, .i32⟩ : BufTy).Contents (Elt F)) (RV m c main_c_8) := by
  have h := (ops_asc (F := F)).read_unary (fun b => m (c, b)) 50 rfl (by decide)
  unfold RV
  generalize StableHlo.after (ops (F := F)) (fun b => m (c, b)) = W at h ⊢
  exact h
theorem rd_main_v38 : RV m c main_v38 = (addi : (⟨S330000, .i32⟩ : BufTy).Contents (Elt F) → (⟨S330000, .i32⟩ : BufTy).Contents (Elt F) → (⟨S330000, .i32⟩ : BufTy).Contents (Elt F)) (RV m c main_v22) (RV m c main_v37) := by
  have h := (ops_asc (F := F)).read_binary (fun b => m (c, b)) 51 rfl (by decide) (by decide)
  unfold RV
  generalize StableHlo.after (ops (F := F)) (fun b => m (c, b)) = W at h ⊢
  exact h
theorem rd_main_v39 : RV m c main_v39 = (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)) (RV m c main_v36) (RV m c main_v38) (RV m c main_v22) := by
  have h := (ops_asc (F := F)).read_ternary (fun b => m (c, b)) 52 rfl (by decide) (by decide) (by decide)
  unfold RV
  generalize StableHlo.after (ops (F := F)) (fun b => m (c, b)) = W at h ⊢
  exact h
theorem rd_main_v40 : RV m c main_v40 = (broadcastInDim S330000x1 ![0] bcast_S330000_S330000x1_0 : (⟨S330000, .i32⟩ : BufTy).Contents (Elt F) → (⟨S330000x1, .i32⟩ : BufTy).Contents (Elt F)) (RV m c main_v39) := by
  have h := (ops_asc (F := F)).read_unary (fun b => m (c, b)) 53 rfl (by decide)
  unfold RV
  generalize StableHlo.after (ops (F := F)) (fun b => m (c, b)) = W at h ⊢
  exact h
theorem rd_main_v41 : RV m c main_v41 = Host.gather gather_S10000_S330000x1_S330000_n_0_n_n_0_1_1 (RV m c main_v34) (RV m c main_v40) := by
  have h := (ops_asc (F := F)).read_binary (fun b => m (c, b)) 54 rfl (by decide) (by decide)
  unfold RV
  generalize StableHlo.after (ops (F := F)) (fun b => m (c, b)) = W at h ⊢
  exact h
theorem rd_main_v42 : RV m c main_v42 = (mulf : (⟨S330000, .f32⟩ : BufTy).Contents (Elt F) → (⟨S330000, .f32⟩ : BufTy).Contents (Elt F) → (⟨S330000, .f32⟩ : BufTy).Contents (Elt F)) (RV m c main_v41) (RV m c main_v27) := by
  have h := (ops_asc (F := F)).read_binary (fun b => m (c, b)) 55 rfl (by decide) (by decide)
  unfold RV
  generalize StableHlo.after (ops (F := F)) (fun b => m (c, b)) = W at h ⊢
  exact h
theorem rd_main_c_9 : RV m c main_c_9 = (constantI S_ 32 0#32 : (⟨S_, .i32⟩ : BufTy).Contents (Elt F)) := by
  have h := (ops_asc (F := F)).read_nullary (fun b => m (c, b)) 56 rfl
  unfold RV
  generalize StableHlo.after (ops (F := F)) (fun b => m (c, b)) = W at h ⊢
  exact h
theorem rd_main_v43 : RV m c main_v43 = (broadcastInDim S330000 ![] bcast_S_S330000 : (⟨S_, .i32⟩ : BufTy).Contents (Elt F) → (⟨S330000, .i32⟩ : BufTy).Contents (Elt F)) (RV m c main_c_9) := by
  have h := (ops_asc (F := F)).read_unary (fun b => m (c, b)) 57 rfl (by decide)
  unfold RV
  generalize StableHlo.after (ops (F := F)) (fun b => m (c, b)) = W at h ⊢
  exact h
theorem rd_main_v44 : RV m c main_v44 = (cmpi .slt : (⟨S330000, .i32⟩ : BufTy).Contents (Elt F) → (⟨S330000, .i32⟩ : BufTy).Contents (Elt F) → (⟨S330000, .i1⟩ : BufTy).Contents (Elt F)) (RV m c main_v25) (RV m c main_v43) := by
  have h := (ops_asc (F := F)).read_binary (fun b => m (c, b)) 58 rfl (by decide) (by decide)
  unfold RV
  generalize StableHlo.after (ops (F := F)) (fun b => m (c, b)) = W at h ⊢
  exact h
theorem rd_main_c_10 : RV m c main_c_10 = (constantI S_ 32 10000#32 : (⟨S_, .i32⟩ : BufTy).Contents (Elt F)) := by
  have h := (ops_asc (F := F)).read_nullary (fun b => m (c, b)) 59 rfl
  unfold RV
  generalize StableHlo.after (ops (F := F)) (fun b => m (c, b)) = W at h ⊢
  exact h
theorem rd_main_v45 : RV m c main_v45 = (broadcastInDim S330000 ![] bcast_S_S330000 : (⟨S_, .i32⟩ : BufTy).Contents (Elt F) → (⟨S330000, .i32⟩ : BufTy).Contents (Elt F)) (RV m c main_c_10) := by
  have h := (ops_asc (F := F)).read_unary (fun b => m (c, b)) 60 rfl (by decide)
  unfold RV
  generalize StableHlo.after (ops (F := F)) (fun b => m (c, b)) = W at h ⊢
  exact h
theorem rd_main_v46 : RV m c main_v46 = (addi : (⟨S330000, .i32⟩ : BufTy).Contents (Elt F) → (⟨S330000, .i32⟩ : BufTy).Contents (Elt F) → (⟨S330000, .i32⟩ : BufTy).Contents (Elt F)) (RV m c main_v25) (RV m c main_v45) := by
  have h := (ops_asc (F := F)).read_binary (fun b => m (c, b)) 61 rfl (by decide) (by decide)
  unfold RV
  generalize StableHlo.after (ops (F := F)) (fun b => m (c, b)) = W at h ⊢
  exact h

end Cert.ReferenceIdeal.HandRun

end
-- ==== Proof.Ref.Reads1.lean ====
import proofs.«405323_j90718299226206_3_alg».proof.Proof.Ref.ReadsAsc

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

theorem rd_main_v47 : RV m c main_v47 = (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)) (RV m c main_v44) (RV m c main_v46) (RV m c main_v25) := by
  have h := (ops_asc (F := F)).read_ternary (fun b => m (c, b)) 62 rfl (by decide) (by decide) (by decide)
  unfold RV
  generalize StableHlo.after (ops (F := F)) (fun b => m (c, b)) = W at h ⊢
  exact h
theorem rd_main_v48 : RV m c main_v48 = (broadcastInDim S330000x1 ![0] bcast_S330000_S330000x1_0 : (⟨S330000, .i32⟩ : BufTy).Contents (Elt F) → (⟨S330000x1, .i32⟩ : BufTy).Contents (Elt F)) (RV m c main_v47) := by
  have h := (ops_asc (F := F)).read_unary (fun b => m (c, b)) 63 rfl (by decide)
  unfold RV
  generalize StableHlo.after (ops (F := F)) (fun b => m (c, b)) = W at h ⊢
  exact h
theorem rd_main_v49 : RV m c main_v49 = Host.gather gather_S10000_S330000x1_S330000_n_0_n_n_0_1_1 (RV m c main_v34) (RV m c main_v48) := by
  have h := (ops_asc (F := F)).read_binary (fun b => m (c, b)) 64 rfl (by decide) (by decide)
  unfold RV
  generalize StableHlo.after (ops (F := F)) (fun b => m (c, b)) = W at h ⊢
  exact h
theorem rd_main_v50 : RV m c main_v50 = (mulf : (⟨S330000, .f32⟩ : BufTy).Contents (Elt F) → (⟨S330000, .f32⟩ : BufTy).Contents (Elt F) → (⟨S330000, .f32⟩ : BufTy).Contents (Elt F)) (RV m c main_v42) (RV m c main_v49) := by
  have h := (ops_asc (F := F)).read_binary (fun b => m (c, b)) 65 rfl (by decide) (by decide)
  unfold RV
  generalize StableHlo.after (ops (F := F)) (fun b => m (c, b)) = W at h ⊢
  exact h
theorem rd_main_v51 : RV m c main_v51 = Host.dotGeneral dot_S10000x512_S512x512_S10000x512_1_0_0_1_n_n none (RV m c main_arg0) (RV m c main_arg3) := by
  have h := (ops_asc (F := F)).read_binary (fun b => m (c, b)) 66 rfl (by decide) (by decide)
  unfold RV
  generalize StableHlo.after (ops (F := F)) (fun b => m (c, b)) = W at h ⊢
  exact h
theorem rd_main_v52 : RV m c main_v52 = (broadcastInDim S330000x1 ![0] bcast_S330000_S330000x1_0 : (⟨S330000, .f32⟩ : BufTy).Contents (Elt F) → (⟨S330000x1, .f32⟩ : BufTy).Contents (Elt F)) (RV m c main_v50) := by
  have h := (ops_asc (F := F)).read_unary (fun b => m (c, b)) 67 rfl (by decide)
  unfold RV
  generalize StableHlo.after (ops (F := F)) (fun b => m (c, b)) = W at h ⊢
  exact h
theorem rd_main_c_11 : RV m c main_c_11 = (constantI S_ 32 0#32 : (⟨S_, .i32⟩ : BufTy).Contents (Elt F)) := by
  have h := (ops_asc (F := F)).read_nullary (fun b => m (c, b)) 68 rfl
  unfold RV
  generalize StableHlo.after (ops (F := F)) (fun b => m (c, b)) = W at h ⊢
  exact h
theorem rd_main_v53 : RV m c main_v53 = (broadcastInDim S330000 ![] bcast_S_S330000 : (⟨S_, .i32⟩ : BufTy).Contents (Elt F) → (⟨S330000, .i32⟩ : BufTy).Contents (Elt F)) (RV m c main_c_11) := by
  have h := (ops_asc (F := F)).read_unary (fun b => m (c, b)) 69 rfl (by decide)
  unfold RV
  generalize StableHlo.after (ops (F := F)) (fun b => m (c, b)) = W at h ⊢
  exact h
theorem rd_main_v54 : RV m c main_v54 = (cmpi .slt : (⟨S330000, .i32⟩ : BufTy).Contents (Elt F) → (⟨S330000, .i32⟩ : BufTy).Contents (Elt F) → (⟨S330000, .i1⟩ : BufTy).Contents (Elt F)) (RV m c main_v22) (RV m c main_v53) := by
  have h := (ops_asc (F := F)).read_binary (fun b => m (c, b)) 70 rfl (by decide) (by decide)
  unfold RV
  generalize StableHlo.after (ops (F := F)) (fun b => m (c, b)) = W at h ⊢
  exact h
theorem rd_main_c_12 : RV m c main_c_12 = (constantI S_ 32 10000#32 : (⟨S_, .i32⟩ : BufTy).Contents (Elt F)) := by
  have h := (ops_asc (F := F)).read_nullary (fun b => m (c, b)) 71 rfl
  unfold RV
  generalize StableHlo.after (ops (F := F)) (fun b => m (c, b)) = W at h ⊢
  exact h
theorem rd_main_v55 : RV m c main_v55 = (broadcastInDim S330000 ![] bcast_S_S330000 : (⟨S_, .i32⟩ : BufTy).Contents (Elt F) → (⟨S330000, .i32⟩ : BufTy).Contents (Elt F)) (RV m c main_c_12) := by
  have h := (ops_asc (F := F)).read_unary (fun b => m (c, b)) 72 rfl (by decide)
  unfold RV
  generalize StableHlo.after (ops (F := F)) (fun b => m (c, b)) = W at h ⊢
  exact h
theorem rd_main_v56 : RV m c main_v56 = (addi : (⟨S330000, .i32⟩ : BufTy).Contents (Elt F) → (⟨S330000, .i32⟩ : BufTy).Contents (Elt F) → (⟨S330000, .i32⟩ : BufTy).Contents (Elt F)) (RV m c main_v22) (RV m c main_v55) := by
  have h := (ops_asc (F := F)).read_binary (fun b => m (c, b)) 73 rfl (by decide) (by decide)
  unfold RV
  generalize StableHlo.after (ops (F := F)) (fun b => m (c, b)) = W at h ⊢
  exact h
theorem rd_main_v57 : RV m c main_v57 = (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)) (RV m c main_v54) (RV m c main_v56) (RV m c main_v22) := by
  have h := (ops_asc (F := F)).read_ternary (fun b => m (c, b)) 74 rfl (by decide) (by decide) (by decide)
  unfold RV
  generalize StableHlo.after (ops (F := F)) (fun b => m (c, b)) = W at h ⊢
  exact h
theorem rd_main_v58 : RV m c main_v58 = (broadcastInDim S330000x1 ![0] bcast_S330000_S330000x1_0 : (⟨S330000, .i32⟩ : BufTy).Contents (Elt F) → (⟨S330000x1, .i32⟩ : BufTy).Contents (Elt F)) (RV m c main_v57) := by
  have h := (ops_asc (F := F)).read_unary (fun b => m (c, b)) 75 rfl (by decide)
  unfold RV
  generalize StableHlo.after (ops (F := F)) (fun b => m (c, b)) = W at h ⊢
  exact h
theorem rd_main_v59 : RV m c main_v59 = Host.gather gather_S10000x512_S330000x1_S330000x512_1_0_n_n_0_1_1512 (RV m c main_v51) (RV m c main_v58) := by
  have h := (ops_asc (F := F)).read_binary (fun b => m (c, b)) 76 rfl (by decide) (by decide)
  unfold RV
  generalize StableHlo.after (ops (F := F)) (fun b => m (c, b)) = W at h ⊢
  exact h
theorem rd_main_v60 : RV m c main_v60 = (broadcastInDim S330000x512 ![0, 1] bcast_S330000x1_S330000x512_0_1 : (⟨S330000x1, .f32⟩ : BufTy).Contents (Elt F) → (⟨S330000x512, .f32⟩ : BufTy).Contents (Elt F)) (RV m c main_v52) := by
  have h := (ops_asc (F := F)).read_unary (fun b => m (c, b)) 77 rfl (by decide)
  unfold RV
  generalize StableHlo.after (ops (F := F)) (fun b => m (c, b)) = W at h ⊢
  exact h
theorem rd_main_v61 : RV m c main_v61 = (mulf : (⟨S330000x512, .f32⟩ : BufTy).Contents (Elt F) → (⟨S330000x512, .f32⟩ : BufTy).Contents (Elt F) → (⟨S330000x512, .f32⟩ : BufTy).Contents (Elt F)) (RV m c main_v60) (RV m c main_v59) := by
  have h := (ops_asc (F := F)).read_binary (fun b => m (c, b)) 78 rfl (by decide) (by decide)
  unfold RV
  generalize StableHlo.after (ops (F := F)) (fun b => m (c, b)) = W at h ⊢
  exact h
theorem rd_main_cst_13 : RV m c main_cst_13 = (constant S_ .f32 0x00000000#32 : (⟨S_, .f32⟩ : BufTy).Contents (Elt F)) := by
  have h := (ops_asc (F := F)).read_nullary (fun b => m (c, b)) 79 rfl
  unfold RV
  generalize StableHlo.after (ops (F := F)) (fun b => m (c, b)) = W at h ⊢
  exact h
theorem rd_main_v62 : RV m c main_v62 = (broadcastInDim S10000x512 ![] bcast_S_S10000x512 : (⟨S_, .f32⟩ : BufTy).Contents (Elt F) → (⟨S10000x512, .f32⟩ : BufTy).Contents (Elt F)) (RV m c main_cst_13) := by
  have h := (ops_asc (F := F)).read_unary (fun b => m (c, b)) 80 rfl (by decide)
  unfold RV
  generalize StableHlo.after (ops (F := F)) (fun b => m (c, b)) = W at h ⊢
  exact h
theorem rd_main_v63 : RV m c main_v63 = (broadcastInDim S330000x1 ![0] bcast_S330000_S330000x1_0 : (⟨S330000, .i32⟩ : BufTy).Contents (Elt F) → (⟨S330000x1, .i32⟩ : BufTy).Contents (Elt F)) (RV m c main_v25) := by
  have h := (ops_asc (F := F)).read_unary (fun b => m (c, b)) 81 rfl (by decide)
  unfold RV
  generalize StableHlo.after (ops (F := F)) (fun b => m (c, b)) = W at h ⊢
  exact h
theorem rd_main_v64 : RV m c main_v64 = Host.scatterAdd scatter_S10000x512_S330000x1_S330000x512_1_0_0_1 (RV m c main_v62) (RV m c main_v63) (RV m c main_v61) := by
  have h := (ops_asc (F := F)).read_ternary (fun b => m (c, b)) 82 rfl (by decide) (by decide) (by decide)
  unfold RV
  generalize StableHlo.after (ops (F := F)) (fun b => m (c, b)) = W at h ⊢
  exact h
theorem rd_main_v65 : RV m c main_v65 = (broadcastInDim S1x512 ![1] bcast_S512_S1x512_1 : (⟨S512, .f32⟩ : BufTy).Contents (Elt F) → (⟨S1x512, .f32⟩ : BufTy).Contents (Elt F)) (RV m c main_arg4) := by
  have h := (ops_asc (F := F)).read_unary (fun b => m (c, b)) 83 rfl (by decide)
  unfold RV
  generalize StableHlo.after (ops (F := F)) (fun b => m (c, b)) = W at h ⊢
  exact h
theorem rd_main_v66 : RV m c main_v66 = (broadcastInDim S10000x512 ![0, 1] bcast_S1x512_S10000x512_0_1 : (⟨S1x512, .f32⟩ : BufTy).Contents (Elt F) → (⟨S10000x512, .f32⟩ : BufTy).Contents (Elt F)) (RV m c main_v65) := by
  have h := (ops_asc (F := F)).read_unary (fun b => m (c, b)) 84 rfl (by decide)
  unfold RV
  generalize StableHlo.after (ops (F := F)) (fun b => m (c, b)) = W at h ⊢
  exact h
theorem rd_main_v67 : RV m c main_v67 = (addf : (⟨S10000x512, .f32⟩ : BufTy).Contents (Elt F) → (⟨S10000x512, .f32⟩ : BufTy).Contents (Elt F) → (⟨S10000x512, .f32⟩ : BufTy).Contents (Elt F)) (RV m c main_v64) (RV m c main_v66) := by
  have h := (ops_asc (F := F)).read_binary (fun b => m (c, b)) 85 rfl (by decide) (by decide)
  unfold RV
  generalize StableHlo.after (ops (F := F)) (fun b => m (c, b)) = W at h ⊢
  exact h
theorem rd_main_call1_cst : RV m c main_call1_cst = (constant S_ .f32 0x00000000#32 : (⟨S_, .f32⟩ : BufTy).Contents (Elt F)) := by
  have h := (ops_asc (F := F)).read_nullary (fun b => m (c, b)) 86 rfl
  unfold RV
  generalize StableHlo.after (ops (F := F)) (fun b => m (c, b)) = W at h ⊢
  exact h
theorem rd_main_call1_v0 : RV m c main_call1_v0 = (broadcastInDim S10000x512 ![] bcast_S_S10000x512 : (⟨S_, .f32⟩ : BufTy).Contents (Elt F) → (⟨S10000x512, .f32⟩ : BufTy).Contents (Elt F)) (RV m c main_call1_cst) := by
  have h := (ops_asc (F := F)).read_unary (fun b => m (c, b)) 87 rfl (by decide)
  unfold RV
  generalize StableHlo.after (ops (F := F)) (fun b => m (c, b)) = W at h ⊢
  exact h
theorem rd_main_v68 : RV m c main_v68 = (maximumf : (⟨S10000x512, .f32⟩ : BufTy).Contents (Elt F) → (⟨S10000x512, .f32⟩ : BufTy).Contents (Elt F) → (⟨S10000x512, .f32⟩ : BufTy).Contents (Elt F)) (RV m c main_v67) (RV m c main_call1_v0) := by
  have h := (ops_asc (F := F)).read_binary (fun b => m (c, b)) 88 rfl (by decide) (by decide)
  unfold RV
  generalize StableHlo.after (ops (F := F)) (fun b => m (c, b)) = W at h ⊢
  exact h
theorem rd_main_v69 : RV m c main_v69 = Host.dotGeneral dot_S10000x512_S512x1024_S10000x1024_1_0_0_1_n_n none (RV m c main_v68) (RV m c main_arg5) := by
  have h := (ops_asc (F := F)).read_binary (fun b => m (c, b)) 89 rfl (by decide) (by decide)
  unfold RV
  generalize StableHlo.after (ops (F := F)) (fun b => m (c, b)) = W at h ⊢
  exact h
theorem rd_main_v70 : RV m c main_v70 = (broadcastInDim S1x1024 ![1] bcast_S1024_S1x1024_1 : (⟨S1024, .f32⟩ : BufTy).Contents (Elt F) → (⟨S1x1024, .f32⟩ : BufTy).Contents (Elt F)) (RV m c main_arg6) := by
  have h := (ops_asc (F := F)).read_unary (fun b => m (c, b)) 90 rfl (by decide)
  unfold RV
  generalize StableHlo.after (ops (F := F)) (fun b => m (c, b)) = W at h ⊢
  exact h
theorem rd_main_v71 : RV m c main_v71 = (broadcastInDim S10000x1024 ![0, 1] bcast_S1x1024_S10000x1024_0_1 : (⟨S1x1024, .f32⟩ : BufTy).Contents (Elt F) → (⟨S10000x1024, .f32⟩ : BufTy).Contents (Elt F)) (RV m c main_v70) := by
  have h := (ops_asc (F := F)).read_unary (fun b => m (c, b)) 91 rfl (by decide)
  unfold RV
  generalize StableHlo.after (ops (F := F)) (fun b => m (c, b)) = W at h ⊢
  exact h
theorem rd_main_v72 : RV m c main_v72 = (addf : (⟨S10000x1024, .f32⟩ : BufTy).Contents (Elt F) → (⟨S10000x1024, .f32⟩ : BufTy).Contents (Elt F) → (⟨S10000x1024, .f32⟩ : BufTy).Contents (Elt F)) (RV m c main_v69) (RV m c main_v71) := by
  have h := (ops_asc (F := F)).read_binary (fun b => m (c, b)) 92 rfl (by decide) (by decide)
  unfold RV
  generalize StableHlo.after (ops (F := F)) (fun b => m (c, b)) = W at h ⊢
  exact h
theorem rd_main_call2_cst : RV m c main_call2_cst = (constant S_ .f32 0x00000000#32 : (⟨S_, .f32⟩ : BufTy).Contents (Elt F)) := by
  have h := (ops_asc (F := F)).read_nullary (fun b => m (c, b)) 93 rfl
  unfold RV
  generalize StableHlo.after (ops (F := F)) (fun b => m (c, b)) = W at h ⊢
  exact h
theorem rd_main_call2_v0 : RV m c main_call2_v0 = (broadcastInDim S10000x1024 ![] bcast_S_S10000x1024 : (⟨S_, .f32⟩ : BufTy).Contents (Elt F) → (⟨S10000x1024, .f32⟩ : BufTy).Contents (Elt F)) (RV m c main_call2_cst) := by
  have h := (ops_asc (F := F)).read_unary (fun b => m (c, b)) 94 rfl (by decide)
  unfold RV
  generalize StableHlo.after (ops (F := F)) (fun b => m (c, b)) = W at h ⊢
  exact h
theorem rd_main_v73 : RV m c main_v73 = (maximumf : (⟨S10000x1024, .f32⟩ : BufTy).Contents (Elt F) → (⟨S10000x1024, .f32⟩ : BufTy).Contents (Elt F) → (⟨S10000x1024, .f32⟩ : BufTy).Contents (Elt F)) (RV m c main_v72) (RV m c main_call2_v0) := by
  have h := (ops_asc (F := F)).read_binary (fun b => m (c, b)) 95 rfl (by decide) (by decide)
  unfold RV
  generalize StableHlo.after (ops (F := F)) (fun b => m (c, b)) = W at h ⊢
  exact h
theorem rd_main_cst_14 : RV m c main_cst_14 = (constant S_ .f32 0xFF800000#32 : (⟨S_, .f32⟩ : BufTy).Contents (Elt F)) := by
  have h := (ops_asc (F := F)).read_nullary (fun b => m (c, b)) 96 rfl
  unfold RV
  generalize StableHlo.after (ops (F := F)) (fun b => m (c, b)) = W at h ⊢
  exact h
theorem rd_main_v74 : RV m c main_v74 = Host.reduce FloatOps.maximumf (RV m c main_v73) (RV m c main_cst_14) reducesTo_S10000x1024_S10000_d1 h_S_ := by
  have h := (ops_asc (F := F)).read_binary (fun b => m (c, b)) 97 rfl (by decide) (by decide)
  unfold RV
  generalize StableHlo.after (ops (F := F)) (fun b => m (c, b)) = W at h ⊢
  exact h
theorem rd_main_cst_15 : RV m c main_cst_15 = (constant S_ .f32 0xFF800000#32 : (⟨S_, .f32⟩ : BufTy).Contents (Elt F)) := by
  have h := (ops_asc (F := F)).read_nullary (fun b => m (c, b)) 98 rfl
  unfold RV
  generalize StableHlo.after (ops (F := F)) (fun b => m (c, b)) = W at h ⊢
  exact h
theorem rd_main_v75 : RV m c main_v75 = (broadcastInDim S10000 ![] bcast_S_S10000 : (⟨S_, .f32⟩ : BufTy).Contents (Elt F) → (⟨S10000, .f32⟩ : BufTy).Contents (Elt F)) (RV m c main_cst_15) := by
  have h := (ops_asc (F := F)).read_unary (fun b => m (c, b)) 99 rfl (by decide)
  unfold RV
  generalize StableHlo.after (ops (F := F)) (fun b => m (c, b)) = W at h ⊢
  exact h
theorem rd_main_v76 : RV m c main_v76 = (maximumf : (⟨S10000, .f32⟩ : BufTy).Contents (Elt F) → (⟨S10000, .f32⟩ : BufTy).Contents (Elt F) → (⟨S10000, .f32⟩ : BufTy).Contents (Elt F)) (RV m c main_v75) (RV m c main_v74) := by
  have h := (ops_asc (F := F)).read_binary (fun b => m (c, b)) 100 rfl (by decide) (by decide)
  unfold RV
  generalize StableHlo.after (ops (F := F)) (fun b => m (c, b)) = W at h ⊢
  exact h
theorem rd_main_v77 : RV m c main_v77 = (broadcastInDim S10000x1 ![0] bcast_S10000_S10000x1_0 : (⟨S10000, .f32⟩ : BufTy).Contents (Elt F) → (⟨S10000x1, .f32⟩ : BufTy).Contents (Elt F)) (RV m c main_v76) := by
  have h := (ops_asc (F := F)).read_unary (fun b => m (c, b)) 101 rfl (by decide)
  unfold RV
  generalize StableHlo.after (ops (F := F)) (fun b => m (c, b)) = W at h ⊢
  exact h
theorem rd_main_v78 : RV m c main_v78 = (broadcastInDim S10000x1024 ![0, 1] bcast_S10000x1_S10000x1024_0_1 : (⟨S10000x1, .f32⟩ : BufTy).Contents (Elt F) → (⟨S10000x1024, .f32⟩ : BufTy).Contents (Elt F)) (RV m c main_v77) := by
  have h := (ops_asc (F := F)).read_unary (fun b => m (c, b)) 102 rfl (by decide)
  unfold RV
  generalize StableHlo.after (ops (F := F)) (fun b => m (c, b)) = W at h ⊢
  exact h
theorem rd_main_v79 : RV m c main_v79 = (subf : (⟨S10000x1024, .f32⟩ : BufTy).Contents (Elt F) → (⟨S10000x1024, .f32⟩ : BufTy).Contents (Elt F) → (⟨S10000x1024, .f32⟩ : BufTy).Contents (Elt F)) (RV m c main_v73) (RV m c main_v78) := by
  have h := (ops_asc (F := F)).read_binary (fun b => m (c, b)) 103 rfl (by decide) (by decide)
  unfold RV
  generalize StableHlo.after (ops (F := F)) (fun b => m (c, b)) = W at h ⊢
  exact h
theorem rd_main_v80 : RV m c main_v80 = (Host.exp : (⟨S10000x1024, .f32⟩ : BufTy).Contents (Elt F) → (⟨S10000x1024, .f32⟩ : BufTy).Contents (Elt F)) (RV m c main_v79) := by
  have h := (ops_asc (F := F)).read_unary (fun b => m (c, b)) 104 rfl (by decide)
  unfold RV
  generalize StableHlo.after (ops (F := F)) (fun b => m (c, b)) = W at h ⊢
  exact h
theorem rd_main_cst_16 : RV m c main_cst_16 = (constant S_ .f32 0x00000000#32 : (⟨S_, .f32⟩ : BufTy).Contents (Elt F)) := by
  have h := (ops_asc (F := F)).read_nullary (fun b => m (c, b)) 105 rfl
  unfold RV
  generalize StableHlo.after (ops (F := F)) (fun b => m (c, b)) = W at h ⊢
  exact h
theorem rd_main_v81 : RV m c main_v81 = Host.reduceAdd (RV m c main_v80) (RV m c main_cst_16) reducesTo_S10000x1024_S10000_d1 h_S_ := by
  have h := (ops_asc (F := F)).read_binary (fun b => m (c, b)) 106 rfl (by decide) (by decide)
  unfold RV
  generalize StableHlo.after (ops (F := F)) (fun b => m (c, b)) = W at h ⊢
  exact h
theorem rd_main_v82 : RV m c main_v82 = (broadcastInDim S10000x1 ![0] bcast_S10000_S10000x1_0 : (⟨S10000, .f32⟩ : BufTy).Contents (Elt F) → (⟨S10000x1, .f32⟩ : BufTy).Contents (Elt F)) (RV m c main_v81) := by
  have h := (ops_asc (F := F)).read_unary (fun b => m (c, b)) 107 rfl (by decide)
  unfold RV
  generalize StableHlo.after (ops (F := F)) (fun b => m (c, b)) = W at h ⊢
  exact h
theorem rd_main_v83 : RV m c main_v83 = (broadcastInDim S10000x1024 ![0, 1] bcast_S10000x1_S10000x1024_0_1 : (⟨S10000x1, .f32⟩ : BufTy).Contents (Elt F) → (⟨S10000x1024, .f32⟩ : BufTy).Contents (Elt F)) (RV m c main_v82) := by
  have h := (ops_asc (F := F)).read_unary (fun b => m (c, b)) 108 rfl (by decide)
  unfold RV
  generalize StableHlo.after (ops (F := F)) (fun b => m (c, b)) = W at h ⊢
  exact h
theorem rd_main_v84 : RV m c main_v84 = (Host.divf : (⟨S10000x1024, .f32⟩ : BufTy).Contents (Elt F) → (⟨S10000x1024, .f32⟩ : BufTy).Contents (Elt F) → (⟨S10000x1024, .f32⟩ : BufTy).Contents (Elt F)) (RV m c main_v80) (RV m c main_v83) := by
  have h := (ops_asc (F := F)).read_binary (fun b => m (c, b)) 109 rfl (by decide) (by decide)
  unfold RV
  generalize StableHlo.after (ops (F := F)) (fun b => m (c, b)) = W at h ⊢
  exact h
theorem rd_main_v85 : RV m c main_v85 = transpose S1024x10000 [1, 0] (RV m c main_v84) transposes_S10000x1024_S1024x10000_1_0 := by
  have h := (ops_asc (F := F)).read_unary (fun b => m (c, b)) 110 rfl (by decide)
  unfold RV
  generalize StableHlo.after (ops (F := F)) (fun b => m (c, b)) = W at h ⊢
  exact h
theorem rd_main_v86 : RV m c main_v86 = Host.dotGeneral dot_S1024x10000_S10000x512_S1024x512_1_0_0_1_n_n none (RV m c main_v85) (RV m c main_v68) := by
  have h := (ops_asc (F := F)).read_binary (fun b => m (c, b)) 111 rfl (by decide) (by decide)
  unfold RV
  generalize StableHlo.after (ops (F := F)) (fun b => m (c, b)) = W at h ⊢
  exact h
theorem rd_main_v87 : RV m c main_v87 = transpose S1024x10000 [1, 0] (RV m c main_v84) transposes_S10000x1024_S1024x10000_1_0 := by
  have h := (ops_asc (F := F)).read_unary (fun b => m (c, b)) 112 rfl (by decide)
  unfold RV
  generalize StableHlo.after (ops (F := F)) (fun b => m (c, b)) = W at h ⊢
  exact h
theorem rd_main_v88 : RV m c main_v88 = Host.dotGeneral dot_S10000x10000_S10000x1024_S10000x1024_1_0_0_1_n_n none (RV m c main_v18) (RV m c main_v84) := by
  have h := (ops_asc (F := F)).read_binary (fun b => m (c, b)) 113 rfl (by decide) (by decide)
  unfold RV
  generalize StableHlo.after (ops (F := F)) (fun b => m (c, b)) = W at h ⊢
  exact h
theorem rd_main_v89 : RV m c main_v89 = Host.dotGeneral dot_S1024x10000_S10000x1024_S1024x1024_1_0_0_1_n_n none (RV m c main_v87) (RV m c main_v88) := by
  have h := (ops_asc (F := F)).read_binary (fun b => m (c, b)) 114 rfl (by decide) (by decide)
  unfold RV
  generalize StableHlo.after (ops (F := F)) (fun b => m (c, b)) = W at h ⊢
  exact h
theorem rd_main_call3_v0 : RV m c main_call3_v0 = (iotaInDim S1024x1024 32 0 : (⟨S1024x1024, .i32⟩ : BufTy).Contents (Elt F)) := by
  have h := (ops_asc (F := F)).read_nullary (fun b => m (c, b)) 115 rfl
  unfold RV
  generalize StableHlo.after (ops (F := F)) (fun b => m (c, b)) = W at h ⊢
  exact h
theorem rd_main_call3_v1 : RV m c main_call3_v1 = (iotaInDim S1024x1024 32 1 : (⟨S1024x1024, .i32⟩ : BufTy).Contents (Elt F)) := by
  have h := (ops_asc (F := F)).read_nullary (fun b => m (c, b)) 116 rfl
  unfold RV
  generalize StableHlo.after (ops (F := F)) (fun b => m (c, b)) = W at h ⊢
  exact h
theorem rd_main_call3_c : RV m c main_call3_c = (constantI S_ 32 0#32 : (⟨S_, .i32⟩ : BufTy).Contents (Elt F)) := by
  have h := (ops_asc (F := F)).read_nullary (fun b => m (c, b)) 117 rfl
  unfold RV
  generalize StableHlo.after (ops (F := F)) (fun b => m (c, b)) = W at h ⊢
  exact h
theorem rd_main_call3_v2 : RV m c main_call3_v2 = (broadcastInDim S1024x1024 ![] bcast_S_S1024x1024 : (⟨S_, .i32⟩ : BufTy).Contents (Elt F) → (⟨S1024x1024, .i32⟩ : BufTy).Contents (Elt F)) (RV m c main_call3_c) := by
  have h := (ops_asc (F := F)).read_unary (fun b => m (c, b)) 118 rfl (by decide)
  unfold RV
  generalize StableHlo.after (ops (F := F)) (fun b => m (c, b)) = W at h ⊢
  exact h
theorem rd_main_call3_v3 : RV m c main_call3_v3 = (addi : (⟨S1024x1024, .i32⟩ : BufTy).Contents (Elt F) → (⟨S1024x1024, .i32⟩ : BufTy).Contents (Elt F) → (⟨S1024x1024, .i32⟩ : BufTy).Contents (Elt F)) (RV m c main_call3_v0) (RV m c main_call3_v2) := by
  have h := (ops_asc (F := F)).read_binary (fun b => m (c, b)) 119 rfl (by decide) (by decide)
  unfold RV
  generalize StableHlo.after (ops (F := F)) (fun b => m (c, b)) = W at h ⊢
  exact h
theorem rd_main_call3_v4 : RV m c main_call3_v4 = (cmpi .eq : (⟨S1024x1024, .i32⟩ : BufTy).Contents (Elt F) → (⟨S1024x1024, .i32⟩ : BufTy).Contents (Elt F) → (⟨S1024x1024, .i1⟩ : BufTy).Contents (Elt F)) (RV m c main_call3_v3) (RV m c main_call3_v1) := by
  have h := (ops_asc (F := F)).read_binary (fun b => m (c, b)) 120 rfl (by decide) (by decide)
  unfold RV
  generalize StableHlo.after (ops (F := F)) (fun b => m (c, b)) = W at h ⊢
  exact h
theorem rd_main_call3_cst : RV m c main_call3_cst = (constant S_ .f32 0x00000000#32 : (⟨S_, .f32⟩ : BufTy).Contents (Elt F)) := by
  have h := (ops_asc (F := F)).read_nullary (fun b => m (c, b)) 121 rfl
  unfold RV
  generalize StableHlo.after (ops (F := F)) (fun b => m (c, b)) = W at h ⊢
  exact h
theorem rd_main_call3_v5 : RV m c main_call3_v5 = (broadcastInDim S1024x1024 ![] bcast_S_S1024x1024 : (⟨S_, .f32⟩ : BufTy).Contents (Elt F) → (⟨S1024x1024, .f32⟩ : BufTy).Contents (Elt F)) (RV m c main_call3_cst) := by
  have h := (ops_asc (F := F)).read_unary (fun b => m (c, b)) 122 rfl (by decide)
  unfold RV
  generalize StableHlo.after (ops (F := F)) (fun b => m (c, b)) = W at h ⊢
  exact h
theorem rd_main_call3_v6 : RV m c main_call3_v6 = (select : (⟨S1024x1024, .i1⟩ : BufTy).Contents (Elt F) → (⟨S1024x1024, .f32⟩ : BufTy).Contents (Elt F) → (⟨S1024x1024, .f32⟩ : BufTy).Contents (Elt F) → (⟨S1024x1024, .f32⟩ : BufTy).Contents (Elt F)) (RV m c main_call3_v4) (RV m c main_v89) (RV m c main_call3_v5) := by
  have h := (ops_asc (F := F)).read_ternary (fun b => m (c, b)) 123 rfl (by decide) (by decide) (by decide)
  unfold RV
  generalize StableHlo.after (ops (F := F)) (fun b => m (c, b)) = W at h ⊢
  exact h
theorem rd_main_call3_cst_0 : RV m c main_call3_cst_0 = (constant S_ .f32 0x00000000#32 : (⟨S_, .f32⟩ : BufTy).Contents (Elt F)) := by
  have h := (ops_asc (F := F)).read_nullary (fun b => m (c, b)) 124 rfl
  unfold RV
  generalize StableHlo.after (ops (F := F)) (fun b => m (c, b)) = W at h ⊢
  exact h
theorem rd_main_v90 : RV m c main_v90 = Host.reduceAdd (RV m c main_call3_v6) (RV m c main_call3_cst_0) reducesTo_S1024x1024_S_d0_1 h_S_ := by
  have h := (ops_asc (F := F)).read_binary (fun b => m (c, b)) 125 rfl (by decide) (by decide)
  unfold RV
  generalize StableHlo.after (ops (F := F)) (fun b => m (c, b)) = W at h ⊢
  exact h
theorem rd_main_cst_17 : RV m c main_cst_17 = (constant S_ .f32 0x00000000#32 : (⟨S_, .f32⟩ : BufTy).Contents (Elt F)) := by
  have h := (ops_asc (F := F)).read_nullary (fun b => m (c, b)) 126 rfl
  unfold RV
  generalize StableHlo.after (ops (F := F)) (fun b => m (c, b)) = W at h ⊢
  exact h
theorem rd_main_v91 : RV m c main_v91 = Host.reduceAdd (RV m c main_v18) (RV m c main_cst_17) reducesTo_S10000x10000_S10000_d1 h_S_ := by
  have h := (ops_asc (F := F)).read_binary (fun b => m (c, b)) 127 rfl (by decide) (by decide)
  unfold RV
  generalize StableHlo.after (ops (F := F)) (fun b => m (c, b)) = W at h ⊢
  exact h
theorem rd_main_v92 : RV m c main_v92 = (broadcastInDim S10000x1 ![0] bcast_S10000_S10000x1_0 : (⟨S10000, .f32⟩ : BufTy).Contents (Elt F) → (⟨S10000x1, .f32⟩ : BufTy).Contents (Elt F)) (RV m c main_v91) := by
  have h := (ops_asc (F := F)).read_unary (fun b => m (c, b)) 128 rfl (by decide)
  unfold RV
  generalize StableHlo.after (ops (F := F)) (fun b => m (c, b)) = W at h ⊢
  exact h
theorem rd_main_v93 : RV m c main_v93 = (broadcastInDim S10000x1024 ![0, 1] bcast_S10000x1_S10000x1024_0_1 : (⟨S10000x1, .f32⟩ : BufTy).Contents (Elt F) → (⟨S10000x1024, .f32⟩ : BufTy).Contents (Elt F)) (RV m c main_v92) := by
  have h := (ops_asc (F := F)).read_unary (fun b => m (c, b)) 129 rfl (by decide)
  unfold RV
  generalize StableHlo.after (ops (F := F)) (fun b => m (c, b)) = W at h ⊢
  exact h
theorem rd_main_v94 : RV m c main_v94 = (mulf : (⟨S10000x1024, .f32⟩ : BufTy).Contents (Elt F) → (⟨S10000x1024, .f32⟩ : BufTy).Contents (Elt F) → (⟨S10000x1024, .f32⟩ : BufTy).Contents (Elt F)) (RV m c main_v93) (RV m c main_v84) := by
  have h := (ops_asc (F := F)).read_binary (fun b => m (c, b)) 130 rfl (by decide) (by decide)
  unfold RV
  generalize StableHlo.after (ops (F := F)) (fun b => m (c, b)) = W at h ⊢
  exact h
theorem rd_main_v95 : RV m c main_v95 = (mulf : (⟨S10000x1024, .f32⟩ : BufTy).Contents (Elt F) → (⟨S10000x1024, .f32⟩ : BufTy).Contents (Elt F) → (⟨S10000x1024, .f32⟩ : BufTy).Contents (Elt F)) (RV m c main_v94) (RV m c main_v84) := by
  have h := (ops_asc (F := F)).read_binary (fun b => m (c, b)) 131 rfl (by decide) (by decide)
  unfold RV
  generalize StableHlo.after (ops (F := F)) (fun b => m (c, b)) = W at h ⊢
  exact h
theorem rd_main_cst_18 : RV m c main_cst_18 = (constant S_ .f32 0x00000000#32 : (⟨S_, .f32⟩ : BufTy).Contents (Elt F)) := by
  have h := (ops_asc (F := F)).read_nullary (fun b => m (c, b)) 132 rfl
  unfold RV
  generalize StableHlo.after (ops (F := F)) (fun b => m (c, b)) = W at h ⊢
  exact h
theorem rd_main_v96 : RV m c main_v96 = Host.reduceAdd (RV m c main_v95) (RV m c main_cst_18) reducesTo_S10000x1024_S_d0_1 h_S_ := by
  have h := (ops_asc (F := F)).read_binary (fun b => m (c, b)) 133 rfl (by decide) (by decide)
  unfold RV
  generalize StableHlo.after (ops (F := F)) (fun b => m (c, b)) = W at h ⊢
  exact h
theorem rd_main_v97 : RV m c main_v97 = (Host.divf : (⟨S_, .f32⟩ : BufTy).Contents (Elt F) → (⟨S_, .f32⟩ : BufTy).Contents (Elt F) → (⟨S_, .f32⟩ : BufTy).Contents (Elt F)) (RV m c main_v90) (RV m c main_v96) := by
  have h := (ops_asc (F := F)).read_binary (fun b => m (c, b)) 134 rfl (by decide) (by decide)
  unfold RV
  generalize StableHlo.after (ops (F := F)) (fun b => m (c, b)) = W at h ⊢
  exact h
theorem rd_main_v98 : RV m c main_v98 = (Host.negf : (⟨S_, .f32⟩ : BufTy).Contents (Elt F) → (⟨S_, .f32⟩ : BufTy).Contents (Elt F)) (RV m c main_v97) := by
  have h := (ops_asc (F := F)).read_unary (fun b => m (c, b)) 135 rfl (by decide)
  unfold RV
  generalize StableHlo.after (ops (F := F)) (fun b => m (c, b)) = W at h ⊢
  exact h

end Cert.ReferenceIdeal.HandRun

end
-- ==== Proof.Ref.Reads2.lean ====
import proofs.«405323_j90718299226206_3_alg».proof.Proof.Ref.ReadsAsc

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

theorem rd_main_v99 : RV m c main_v99 = transpose S1024x10000 [1, 0] (RV m c main_v84) transposes_S10000x1024_S1024x10000_1_0 := by
  have h := (ops_asc (F := F)).read_unary (fun b => m (c, b)) 136 rfl (by decide)
  unfold RV
  generalize StableHlo.after (ops (F := F)) (fun b => m (c, b)) = W at h ⊢
  exact h
theorem rd_main_v100 : RV m c main_v100 = Host.dotGeneral dot_S1024x10000_S10000x1024_S1024x1024_1_0_0_1_n_n none (RV m c main_v99) (RV m c main_v84) := by
  have h := (ops_asc (F := F)).read_binary (fun b => m (c, b)) 137 rfl (by decide) (by decide)
  unfold RV
  generalize StableHlo.after (ops (F := F)) (fun b => m (c, b)) = W at h ⊢
  exact h
theorem rd_main_call4_v0 : RV m c main_call4_v0 = (mulf : (⟨S1024x1024, .f32⟩ : BufTy).Contents (Elt F) → (⟨S1024x1024, .f32⟩ : BufTy).Contents (Elt F) → (⟨S1024x1024, .f32⟩ : BufTy).Contents (Elt F)) (RV m c main_v100) (RV m c main_v100) := by
  have h := (ops_asc (F := F)).read_binary (fun b => m (c, b)) 138 rfl (by decide) (by decide)
  unfold RV
  generalize StableHlo.after (ops (F := F)) (fun b => m (c, b)) = W at h ⊢
  exact h
theorem rd_main_call4_cst : RV m c main_call4_cst = (constant S_ .f32 0x00000000#32 : (⟨S_, .f32⟩ : BufTy).Contents (Elt F)) := by
  have h := (ops_asc (F := F)).read_nullary (fun b => m (c, b)) 139 rfl
  unfold RV
  generalize StableHlo.after (ops (F := F)) (fun b => m (c, b)) = W at h ⊢
  exact h
theorem rd_main_call4_v1 : RV m c main_call4_v1 = Host.reduceAdd (RV m c main_call4_v0) (RV m c main_call4_cst) reducesTo_S1024x1024_S_d0_1 h_S_ := by
  have h := (ops_asc (F := F)).read_binary (fun b => m (c, b)) 140 rfl (by decide) (by decide)
  unfold RV
  generalize StableHlo.after (ops (F := F)) (fun b => m (c, b)) = W at h ⊢
  exact h
theorem rd_main_v101 : RV m c main_v101 = (Host.sqrt : (⟨S_, .f32⟩ : BufTy).Contents (Elt F) → (⟨S_, .f32⟩ : BufTy).Contents (Elt F)) (RV m c main_call4_v1) := by
  have h := (ops_asc (F := F)).read_unary (fun b => m (c, b)) 141 rfl (by decide)
  unfold RV
  generalize StableHlo.after (ops (F := F)) (fun b => m (c, b)) = W at h ⊢
  exact h
theorem rd_main_v102 : RV m c main_v102 = (broadcastInDim S1024x1024 ![] bcast_S_S1024x1024 : (⟨S_, .f32⟩ : BufTy).Contents (Elt F) → (⟨S1024x1024, .f32⟩ : BufTy).Contents (Elt F)) (RV m c main_v101) := by
  have h := (ops_asc (F := F)).read_unary (fun b => m (c, b)) 142 rfl (by decide)
  unfold RV
  generalize StableHlo.after (ops (F := F)) (fun b => m (c, b)) = W at h ⊢
  exact h
theorem rd_main_v103 : RV m c main_v103 = (Host.divf : (⟨S1024x1024, .f32⟩ : BufTy).Contents (Elt F) → (⟨S1024x1024, .f32⟩ : BufTy).Contents (Elt F) → (⟨S1024x1024, .f32⟩ : BufTy).Contents (Elt F)) (RV m c main_v100) (RV m c main_v102) := by
  have h := (ops_asc (F := F)).read_binary (fun b => m (c, b)) 143 rfl (by decide) (by decide)
  unfold RV
  generalize StableHlo.after (ops (F := F)) (fun b => m (c, b)) = W at h ⊢
  exact h
theorem rd_main_v104 : RV m c main_v104 = (iotaInDim S1024x1024 32 0 : (⟨S1024x1024, .i32⟩ : BufTy).Contents (Elt F)) := by
  have h := (ops_asc (F := F)).read_nullary (fun b => m (c, b)) 144 rfl
  unfold RV
  generalize StableHlo.after (ops (F := F)) (fun b => m (c, b)) = W at h ⊢
  exact h
theorem rd_main_v105 : RV m c main_v105 = (iotaInDim S1024x1024 32 1 : (⟨S1024x1024, .i32⟩ : BufTy).Contents (Elt F)) := by
  have h := (ops_asc (F := F)).read_nullary (fun b => m (c, b)) 145 rfl
  unfold RV
  generalize StableHlo.after (ops (F := F)) (fun b => m (c, b)) = W at h ⊢
  exact h
theorem rd_main_c_19 : RV m c main_c_19 = (constantI S_ 32 0#32 : (⟨S_, .i32⟩ : BufTy).Contents (Elt F)) := by
  have h := (ops_asc (F := F)).read_nullary (fun b => m (c, b)) 146 rfl
  unfold RV
  generalize StableHlo.after (ops (F := F)) (fun b => m (c, b)) = W at h ⊢
  exact h
theorem rd_main_v106 : RV m c main_v106 = (broadcastInDim S1024x1024 ![] bcast_S_S1024x1024 : (⟨S_, .i32⟩ : BufTy).Contents (Elt F) → (⟨S1024x1024, .i32⟩ : BufTy).Contents (Elt F)) (RV m c main_c_19) := by
  have h := (ops_asc (F := F)).read_unary (fun b => m (c, b)) 147 rfl (by decide)
  unfold RV
  generalize StableHlo.after (ops (F := F)) (fun b => m (c, b)) = W at h ⊢
  exact h
theorem rd_main_v107 : RV m c main_v107 = (addi : (⟨S1024x1024, .i32⟩ : BufTy).Contents (Elt F) → (⟨S1024x1024, .i32⟩ : BufTy).Contents (Elt F) → (⟨S1024x1024, .i32⟩ : BufTy).Contents (Elt F)) (RV m c main_v104) (RV m c main_v106) := by
  have h := (ops_asc (F := F)).read_binary (fun b => m (c, b)) 148 rfl (by decide) (by decide)
  unfold RV
  generalize StableHlo.after (ops (F := F)) (fun b => m (c, b)) = W at h ⊢
  exact h
theorem rd_main_v108 : RV m c main_v108 = (cmpi .eq : (⟨S1024x1024, .i32⟩ : BufTy).Contents (Elt F) → (⟨S1024x1024, .i32⟩ : BufTy).Contents (Elt F) → (⟨S1024x1024, .i1⟩ : BufTy).Contents (Elt F)) (RV m c main_v107) (RV m c main_v105) := by
  have h := (ops_asc (F := F)).read_binary (fun b => m (c, b)) 149 rfl (by decide) (by decide)
  unfold RV
  generalize StableHlo.after (ops (F := F)) (fun b => m (c, b)) = W at h ⊢
  exact h
theorem rd_main_v109 : RV m c main_v109 = (uitofp .f32 : (⟨S1024x1024, .i1⟩ : BufTy).Contents (Elt F) → (⟨S1024x1024, .f32⟩ : BufTy).Contents (Elt F)) (RV m c main_v108) := by
  have h := (ops_asc (F := F)).read_unary (fun b => m (c, b)) 150 rfl (by decide)
  unfold RV
  generalize StableHlo.after (ops (F := F)) (fun b => m (c, b)) = W at h ⊢
  exact h
theorem rd_main_cst_20 : RV m c main_cst_20 = (constant S_ .f32 0x44800000#32 : (⟨S_, .f32⟩ : BufTy).Contents (Elt F)) := by
  have h := (ops_asc (F := F)).read_nullary (fun b => m (c, b)) 151 rfl
  unfold RV
  generalize StableHlo.after (ops (F := F)) (fun b => m (c, b)) = W at h ⊢
  exact h
theorem rd_main_v110 : RV m c main_v110 = (Host.sqrt : (⟨S_, .f32⟩ : BufTy).Contents (Elt F) → (⟨S_, .f32⟩ : BufTy).Contents (Elt F)) (RV m c main_cst_20) := by
  have h := (ops_asc (F := F)).read_unary (fun b => m (c, b)) 152 rfl (by decide)
  unfold RV
  generalize StableHlo.after (ops (F := F)) (fun b => m (c, b)) = W at h ⊢
  exact h
theorem rd_main_v111 : RV m c main_v111 = (broadcastInDim S1024x1024 ![] bcast_S_S1024x1024 : (⟨S_, .f32⟩ : BufTy).Contents (Elt F) → (⟨S1024x1024, .f32⟩ : BufTy).Contents (Elt F)) (RV m c main_v110) := by
  have h := (ops_asc (F := F)).read_unary (fun b => m (c, b)) 153 rfl (by decide)
  unfold RV
  generalize StableHlo.after (ops (F := F)) (fun b => m (c, b)) = W at h ⊢
  exact h
theorem rd_main_v112 : RV m c main_v112 = (Host.divf : (⟨S1024x1024, .f32⟩ : BufTy).Contents (Elt F) → (⟨S1024x1024, .f32⟩ : BufTy).Contents (Elt F) → (⟨S1024x1024, .f32⟩ : BufTy).Contents (Elt F)) (RV m c main_v109) (RV m c main_v111) := by
  have h := (ops_asc (F := F)).read_binary (fun b => m (c, b)) 154 rfl (by decide) (by decide)
  unfold RV
  generalize StableHlo.after (ops (F := F)) (fun b => m (c, b)) = W at h ⊢
  exact h
theorem rd_main_v113 : RV m c main_v113 = (subf : (⟨S1024x1024, .f32⟩ : BufTy).Contents (Elt F) → (⟨S1024x1024, .f32⟩ : BufTy).Contents (Elt F) → (⟨S1024x1024, .f32⟩ : BufTy).Contents (Elt F)) (RV m c main_v103) (RV m c main_v112) := by
  have h := (ops_asc (F := F)).read_binary (fun b => m (c, b)) 155 rfl (by decide) (by decide)
  unfold RV
  generalize StableHlo.after (ops (F := F)) (fun b => m (c, b)) = W at h ⊢
  exact h
theorem rd_main_call5_v0 : RV m c main_call5_v0 = (mulf : (⟨S1024x1024, .f32⟩ : BufTy).Contents (Elt F) → (⟨S1024x1024, .f32⟩ : BufTy).Contents (Elt F) → (⟨S1024x1024, .f32⟩ : BufTy).Contents (Elt F)) (RV m c main_v113) (RV m c main_v113) := by
  have h := (ops_asc (F := F)).read_binary (fun b => m (c, b)) 156 rfl (by decide) (by decide)
  unfold RV
  generalize StableHlo.after (ops (F := F)) (fun b => m (c, b)) = W at h ⊢
  exact h
theorem rd_main_call5_cst : RV m c main_call5_cst = (constant S_ .f32 0x00000000#32 : (⟨S_, .f32⟩ : BufTy).Contents (Elt F)) := by
  have h := (ops_asc (F := F)).read_nullary (fun b => m (c, b)) 157 rfl
  unfold RV
  generalize StableHlo.after (ops (F := F)) (fun b => m (c, b)) = W at h ⊢
  exact h
theorem rd_main_call5_v1 : RV m c main_call5_v1 = Host.reduceAdd (RV m c main_call5_v0) (RV m c main_call5_cst) reducesTo_S1024x1024_S_d0_1 h_S_ := by
  have h := (ops_asc (F := F)).read_binary (fun b => m (c, b)) 158 rfl (by decide) (by decide)
  unfold RV
  generalize StableHlo.after (ops (F := F)) (fun b => m (c, b)) = W at h ⊢
  exact h
theorem rd_main_v114 : RV m c main_v114 = (Host.sqrt : (⟨S_, .f32⟩ : BufTy).Contents (Elt F) → (⟨S_, .f32⟩ : BufTy).Contents (Elt F)) (RV m c main_call5_v1) := by
  have h := (ops_asc (F := F)).read_unary (fun b => m (c, b)) 159 rfl (by decide)
  unfold RV
  generalize StableHlo.after (ops (F := F)) (fun b => m (c, b)) = W at h ⊢
  exact h
theorem rd_main_v115 : RV m c main_v115 = (iotaInDim S1024x1024 32 0 : (⟨S1024x1024, .i32⟩ : BufTy).Contents (Elt F)) := by
  have h := (ops_asc (F := F)).read_nullary (fun b => m (c, b)) 160 rfl
  unfold RV
  generalize StableHlo.after (ops (F := F)) (fun b => m (c, b)) = W at h ⊢
  exact h
theorem rd_main_v116 : RV m c main_v116 = (iotaInDim S1024x1024 32 1 : (⟨S1024x1024, .i32⟩ : BufTy).Contents (Elt F)) := by
  have h := (ops_asc (F := F)).read_nullary (fun b => m (c, b)) 161 rfl
  unfold RV
  generalize StableHlo.after (ops (F := F)) (fun b => m (c, b)) = W at h ⊢
  exact h
theorem rd_main_c_21 : RV m c main_c_21 = (constantI S_ 32 0#32 : (⟨S_, .i32⟩ : BufTy).Contents (Elt F)) := by
  have h := (ops_asc (F := F)).read_nullary (fun b => m (c, b)) 162 rfl
  unfold RV
  generalize StableHlo.after (ops (F := F)) (fun b => m (c, b)) = W at h ⊢
  exact h
theorem rd_main_v117 : RV m c main_v117 = (broadcastInDim S1024x1024 ![] bcast_S_S1024x1024 : (⟨S_, .i32⟩ : BufTy).Contents (Elt F) → (⟨S1024x1024, .i32⟩ : BufTy).Contents (Elt F)) (RV m c main_c_21) := by
  have h := (ops_asc (F := F)).read_unary (fun b => m (c, b)) 163 rfl (by decide)
  unfold RV
  generalize StableHlo.after (ops (F := F)) (fun b => m (c, b)) = W at h ⊢
  exact h
theorem rd_main_v118 : RV m c main_v118 = (addi : (⟨S1024x1024, .i32⟩ : BufTy).Contents (Elt F) → (⟨S1024x1024, .i32⟩ : BufTy).Contents (Elt F) → (⟨S1024x1024, .i32⟩ : BufTy).Contents (Elt F)) (RV m c main_v115) (RV m c main_v117) := by
  have h := (ops_asc (F := F)).read_binary (fun b => m (c, b)) 164 rfl (by decide) (by decide)
  unfold RV
  generalize StableHlo.after (ops (F := F)) (fun b => m (c, b)) = W at h ⊢
  exact h
theorem rd_main_v119 : RV m c main_v119 = (cmpi .eq : (⟨S1024x1024, .i32⟩ : BufTy).Contents (Elt F) → (⟨S1024x1024, .i32⟩ : BufTy).Contents (Elt F) → (⟨S1024x1024, .i1⟩ : BufTy).Contents (Elt F)) (RV m c main_v118) (RV m c main_v116) := by
  have h := (ops_asc (F := F)).read_binary (fun b => m (c, b)) 165 rfl (by decide) (by decide)
  unfold RV
  generalize StableHlo.after (ops (F := F)) (fun b => m (c, b)) = W at h ⊢
  exact h
theorem rd_main_v120 : RV m c main_v120 = (uitofp .f32 : (⟨S1024x1024, .i1⟩ : BufTy).Contents (Elt F) → (⟨S1024x1024, .f32⟩ : BufTy).Contents (Elt F)) (RV m c main_v119) := by
  have h := (ops_asc (F := F)).read_unary (fun b => m (c, b)) 166 rfl (by decide)
  unfold RV
  generalize StableHlo.after (ops (F := F)) (fun b => m (c, b)) = W at h ⊢
  exact h
theorem rd_main_cst_22 : RV m c main_cst_22 = (constant S_ .f32 0x3F800000#32 : (⟨S_, .f32⟩ : BufTy).Contents (Elt F)) := by
  have h := (ops_asc (F := F)).read_nullary (fun b => m (c, b)) 167 rfl
  unfold RV
  generalize StableHlo.after (ops (F := F)) (fun b => m (c, b)) = W at h ⊢
  exact h
theorem rd_main_v121 : RV m c main_v121 = (broadcastInDim S1024x1024 ![] bcast_S_S1024x1024 : (⟨S_, .f32⟩ : BufTy).Contents (Elt F) → (⟨S1024x1024, .f32⟩ : BufTy).Contents (Elt F)) (RV m c main_cst_22) := by
  have h := (ops_asc (F := F)).read_unary (fun b => m (c, b)) 168 rfl (by decide)
  unfold RV
  generalize StableHlo.after (ops (F := F)) (fun b => m (c, b)) = W at h ⊢
  exact h
theorem rd_main_v122 : RV m c main_v122 = (subf : (⟨S1024x1024, .f32⟩ : BufTy).Contents (Elt F) → (⟨S1024x1024, .f32⟩ : BufTy).Contents (Elt F) → (⟨S1024x1024, .f32⟩ : BufTy).Contents (Elt F)) (RV m c main_v121) (RV m c main_v120) := by
  have h := (ops_asc (F := F)).read_binary (fun b => m (c, b)) 169 rfl (by decide) (by decide)
  unfold RV
  generalize StableHlo.after (ops (F := F)) (fun b => m (c, b)) = W at h ⊢
  exact h
theorem rd_main_v123 : RV m c main_v123 = (mulf : (⟨S1024x1024, .f32⟩ : BufTy).Contents (Elt F) → (⟨S1024x1024, .f32⟩ : BufTy).Contents (Elt F) → (⟨S1024x1024, .f32⟩ : BufTy).Contents (Elt F)) (RV m c main_v89) (RV m c main_v122) := by
  have h := (ops_asc (F := F)).read_binary (fun b => m (c, b)) 170 rfl (by decide) (by decide)
  unfold RV
  generalize StableHlo.after (ops (F := F)) (fun b => m (c, b)) = W at h ⊢
  exact h
theorem rd_main_cst_23 : RV m c main_cst_23 = (constant S_ .f32 0x00000000#32 : (⟨S_, .f32⟩ : BufTy).Contents (Elt F)) := by
  have h := (ops_asc (F := F)).read_nullary (fun b => m (c, b)) 171 rfl
  unfold RV
  generalize StableHlo.after (ops (F := F)) (fun b => m (c, b)) = W at h ⊢
  exact h
theorem rd_main_v124 : RV m c main_v124 = Host.reduceAdd (RV m c main_v123) (RV m c main_cst_23) reducesTo_S1024x1024_S1024_d1 h_S_ := by
  have h := (ops_asc (F := F)).read_binary (fun b => m (c, b)) 172 rfl (by decide) (by decide)
  unfold RV
  generalize StableHlo.after (ops (F := F)) (fun b => m (c, b)) = W at h ⊢
  exact h
theorem rd_main_v125 : RV m c main_v125 = (Host.sqrt : (⟨S1024, .f32⟩ : BufTy).Contents (Elt F) → (⟨S1024, .f32⟩ : BufTy).Contents (Elt F)) (RV m c main_v124) := by
  have h := (ops_asc (F := F)).read_unary (fun b => m (c, b)) 173 rfl (by decide)
  unfold RV
  generalize StableHlo.after (ops (F := F)) (fun b => m (c, b)) = W at h ⊢
  exact h
theorem rd_main_v126 : RV m c main_v126 = (broadcastInDim S1024x1 ![0] bcast_S1024_S1024x1_0 : (⟨S1024, .f32⟩ : BufTy).Contents (Elt F) → (⟨S1024x1, .f32⟩ : BufTy).Contents (Elt F)) (RV m c main_v125) := by
  have h := (ops_asc (F := F)).read_unary (fun b => m (c, b)) 174 rfl (by decide)
  unfold RV
  generalize StableHlo.after (ops (F := F)) (fun b => m (c, b)) = W at h ⊢
  exact h
theorem rd_main_cst_24 : RV m c main_cst_24 = (constant S_ .f32 0x26901D7D#32 : (⟨S_, .f32⟩ : BufTy).Contents (Elt F)) := by
  have h := (ops_asc (F := F)).read_nullary (fun b => m (c, b)) 175 rfl
  unfold RV
  generalize StableHlo.after (ops (F := F)) (fun b => m (c, b)) = W at h ⊢
  exact h
theorem rd_main_v127 : RV m c main_v127 = (broadcastInDim S1024x1 ![] bcast_S_S1024x1 : (⟨S_, .f32⟩ : BufTy).Contents (Elt F) → (⟨S1024x1, .f32⟩ : BufTy).Contents (Elt F)) (RV m c main_cst_24) := by
  have h := (ops_asc (F := F)).read_unary (fun b => m (c, b)) 176 rfl (by decide)
  unfold RV
  generalize StableHlo.after (ops (F := F)) (fun b => m (c, b)) = W at h ⊢
  exact h
theorem rd_main_v128 : RV m c main_v128 = (addf : (⟨S1024x1, .f32⟩ : BufTy).Contents (Elt F) → (⟨S1024x1, .f32⟩ : BufTy).Contents (Elt F) → (⟨S1024x1, .f32⟩ : BufTy).Contents (Elt F)) (RV m c main_v126) (RV m c main_v127) := by
  have h := (ops_asc (F := F)).read_binary (fun b => m (c, b)) 177 rfl (by decide) (by decide)
  unfold RV
  generalize StableHlo.after (ops (F := F)) (fun b => m (c, b)) = W at h ⊢
  exact h
theorem rd_main_v129 : RV m c main_v129 = (broadcastInDim S1024x1024 ![0, 1] bcast_S1024x1_S1024x1024_0_1 : (⟨S1024x1, .f32⟩ : BufTy).Contents (Elt F) → (⟨S1024x1024, .f32⟩ : BufTy).Contents (Elt F)) (RV m c main_v128) := by
  have h := (ops_asc (F := F)).read_unary (fun b => m (c, b)) 178 rfl (by decide)
  unfold RV
  generalize StableHlo.after (ops (F := F)) (fun b => m (c, b)) = W at h ⊢
  exact h
theorem rd_main_v130 : RV m c main_v130 = (Host.divf : (⟨S1024x1024, .f32⟩ : BufTy).Contents (Elt F) → (⟨S1024x1024, .f32⟩ : BufTy).Contents (Elt F) → (⟨S1024x1024, .f32⟩ : BufTy).Contents (Elt F)) (RV m c main_v123) (RV m c main_v129) := by
  have h := (ops_asc (F := F)).read_binary (fun b => m (c, b)) 179 rfl (by decide) (by decide)
  unfold RV
  generalize StableHlo.after (ops (F := F)) (fun b => m (c, b)) = W at h ⊢
  exact h
theorem rd_main_v131 : RV m c main_v131 = transpose S1x1024 [1, 0] (RV m c main_v128) transposes_S1024x1_S1x1024_1_0 := by
  have h := (ops_asc (F := F)).read_unary (fun b => m (c, b)) 180 rfl (by decide)
  unfold RV
  generalize StableHlo.after (ops (F := F)) (fun b => m (c, b)) = W at h ⊢
  exact h
theorem rd_main_v132 : RV m c main_v132 = (broadcastInDim S1024x1024 ![0, 1] bcast_S1x1024_S1024x1024_0_1 : (⟨S1x1024, .f32⟩ : BufTy).Contents (Elt F) → (⟨S1024x1024, .f32⟩ : BufTy).Contents (Elt F)) (RV m c main_v131) := by
  have h := (ops_asc (F := F)).read_unary (fun b => m (c, b)) 181 rfl (by decide)
  unfold RV
  generalize StableHlo.after (ops (F := F)) (fun b => m (c, b)) = W at h ⊢
  exact h
theorem rd_main_v133 : RV m c main_v133 = (Host.divf : (⟨S1024x1024, .f32⟩ : BufTy).Contents (Elt F) → (⟨S1024x1024, .f32⟩ : BufTy).Contents (Elt F) → (⟨S1024x1024, .f32⟩ : BufTy).Contents (Elt F)) (RV m c main_v130) (RV m c main_v132) := by
  have h := (ops_asc (F := F)).read_binary (fun b => m (c, b)) 182 rfl (by decide) (by decide)
  unfold RV
  generalize StableHlo.after (ops (F := F)) (fun b => m (c, b)) = W at h ⊢
  exact h
theorem rd_main_v134 : RV m c main_v134 = (iotaInDim S1024x1024 32 0 : (⟨S1024x1024, .i32⟩ : BufTy).Contents (Elt F)) := by
  have h := (ops_asc (F := F)).read_nullary (fun b => m (c, b)) 183 rfl
  unfold RV
  generalize StableHlo.after (ops (F := F)) (fun b => m (c, b)) = W at h ⊢
  exact h
theorem rd_main_v135 : RV m c main_v135 = (iotaInDim S1024x1024 32 1 : (⟨S1024x1024, .i32⟩ : BufTy).Contents (Elt F)) := by
  have h := (ops_asc (F := F)).read_nullary (fun b => m (c, b)) 184 rfl
  unfold RV
  generalize StableHlo.after (ops (F := F)) (fun b => m (c, b)) = W at h ⊢
  exact h
theorem rd_main_c_25 : RV m c main_c_25 = (constantI S_ 32 0#32 : (⟨S_, .i32⟩ : BufTy).Contents (Elt F)) := by
  have h := (ops_asc (F := F)).read_nullary (fun b => m (c, b)) 185 rfl
  unfold RV
  generalize StableHlo.after (ops (F := F)) (fun b => m (c, b)) = W at h ⊢
  exact h
theorem rd_main_v136 : RV m c main_v136 = (broadcastInDim S1024x1024 ![] bcast_S_S1024x1024 : (⟨S_, .i32⟩ : BufTy).Contents (Elt F) → (⟨S1024x1024, .i32⟩ : BufTy).Contents (Elt F)) (RV m c main_c_25) := by
  have h := (ops_asc (F := F)).read_unary (fun b => m (c, b)) 186 rfl (by decide)
  unfold RV
  generalize StableHlo.after (ops (F := F)) (fun b => m (c, b)) = W at h ⊢
  exact h
theorem rd_main_v137 : RV m c main_v137 = (addi : (⟨S1024x1024, .i32⟩ : BufTy).Contents (Elt F) → (⟨S1024x1024, .i32⟩ : BufTy).Contents (Elt F) → (⟨S1024x1024, .i32⟩ : BufTy).Contents (Elt F)) (RV m c main_v134) (RV m c main_v136) := by
  have h := (ops_asc (F := F)).read_binary (fun b => m (c, b)) 187 rfl (by decide) (by decide)
  unfold RV
  generalize StableHlo.after (ops (F := F)) (fun b => m (c, b)) = W at h ⊢
  exact h
theorem rd_main_v138 : RV m c main_v138 = (cmpi .eq : (⟨S1024x1024, .i32⟩ : BufTy).Contents (Elt F) → (⟨S1024x1024, .i32⟩ : BufTy).Contents (Elt F) → (⟨S1024x1024, .i1⟩ : BufTy).Contents (Elt F)) (RV m c main_v137) (RV m c main_v135) := by
  have h := (ops_asc (F := F)).read_binary (fun b => m (c, b)) 188 rfl (by decide) (by decide)
  unfold RV
  generalize StableHlo.after (ops (F := F)) (fun b => m (c, b)) = W at h ⊢
  exact h
theorem rd_main_v139 : RV m c main_v139 = (uitofp .f32 : (⟨S1024x1024, .i1⟩ : BufTy).Contents (Elt F) → (⟨S1024x1024, .f32⟩ : BufTy).Contents (Elt F)) (RV m c main_v138) := by
  have h := (ops_asc (F := F)).read_unary (fun b => m (c, b)) 189 rfl (by decide)
  unfold RV
  generalize StableHlo.after (ops (F := F)) (fun b => m (c, b)) = W at h ⊢
  exact h
theorem rd_main_v140 : RV m c main_v140 = (addf : (⟨S1024x1024, .f32⟩ : BufTy).Contents (Elt F) → (⟨S1024x1024, .f32⟩ : BufTy).Contents (Elt F) → (⟨S1024x1024, .f32⟩ : BufTy).Contents (Elt F)) (RV m c main_v133) (RV m c main_v139) := by
  have h := (ops_asc (F := F)).read_binary (fun b => m (c, b)) 190 rfl (by decide) (by decide)
  unfold RV
  generalize StableHlo.after (ops (F := F)) (fun b => m (c, b)) = W at h ⊢
  exact h
theorem rd_main_cst_26 : RV m c main_cst_26 = (constant S_ .f32 0x00000000#32 : (⟨S_, .f32⟩ : BufTy).Contents (Elt F)) := by
  have h := (ops_asc (F := F)).read_nullary (fun b => m (c, b)) 191 rfl
  unfold RV
  generalize StableHlo.after (ops (F := F)) (fun b => m (c, b)) = W at h ⊢
  exact h
theorem rd_main_v141 : RV m c main_v141 = Host.reduceAdd (RV m c main_v140) (RV m c main_cst_26) reducesTo_S1024x1024_S1024_d1 h_S_ := by
  have h := (ops_asc (F := F)).read_binary (fun b => m (c, b)) 192 rfl (by decide) (by decide)
  unfold RV
  generalize StableHlo.after (ops (F := F)) (fun b => m (c, b)) = W at h ⊢
  exact h
theorem rd_main_cst_27 : RV m c main_cst_27 = (constant S_ .f32 0x00000000#32 : (⟨S_, .f32⟩ : BufTy).Contents (Elt F)) := by
  have h := (ops_asc (F := F)).read_nullary (fun b => m (c, b)) 193 rfl
  unfold RV
  generalize StableHlo.after (ops (F := F)) (fun b => m (c, b)) = W at h ⊢
  exact h
theorem rd_main_v142 : RV m c main_v142 = (broadcastInDim S1024 ![] bcast_S_S1024 : (⟨S_, .f32⟩ : BufTy).Contents (Elt F) → (⟨S1024, .f32⟩ : BufTy).Contents (Elt F)) (RV m c main_cst_27) := by
  have h := (ops_asc (F := F)).read_unary (fun b => m (c, b)) 194 rfl (by decide)
  unfold RV
  generalize StableHlo.after (ops (F := F)) (fun b => m (c, b)) = W at h ⊢
  exact h
theorem rd_main_v143 : RV m c main_v143 = (cmpf .ogt : (⟨S1024, .f32⟩ : BufTy).Contents (Elt F) → (⟨S1024, .f32⟩ : BufTy).Contents (Elt F) → (⟨S1024, .i1⟩ : BufTy).Contents (Elt F)) (RV m c main_v141) (RV m c main_v142) := by
  have h := (ops_asc (F := F)).read_binary (fun b => m (c, b)) 195 rfl (by decide) (by decide)
  unfold RV
  generalize StableHlo.after (ops (F := F)) (fun b => m (c, b)) = W at h ⊢
  exact h
theorem rd_main_v144 : RV m c main_v144 = (Host.rsqrt : (⟨S1024, .f32⟩ : BufTy).Contents (Elt F) → (⟨S1024, .f32⟩ : BufTy).Contents (Elt F)) (RV m c main_v141) := by
  have h := (ops_asc (F := F)).read_unary (fun b => m (c, b)) 196 rfl (by decide)
  unfold RV
  generalize StableHlo.after (ops (F := F)) (fun b => m (c, b)) = W at h ⊢
  exact h
theorem rd_main_cst_28 : RV m c main_cst_28 = (constant S_ .f32 0x00000000#32 : (⟨S_, .f32⟩ : BufTy).Contents (Elt F)) := by
  have h := (ops_asc (F := F)).read_nullary (fun b => m (c, b)) 197 rfl
  unfold RV
  generalize StableHlo.after (ops (F := F)) (fun b => m (c, b)) = W at h ⊢
  exact h
theorem rd_main_call6_v0 : RV m c main_call6_v0 = (RV m c main_cst_28) := by
  have h := (ops_asc (F := F)).read_unary (fun b => m (c, b)) 198 rfl (by decide)
  unfold RV
  generalize StableHlo.after (ops (F := F)) (fun b => m (c, b)) = W at h ⊢
  exact h
theorem rd_main_call6_v1 : RV m c main_call6_v1 = (broadcastInDim S1024 ![] bcast_S_S1024 : (⟨S_, .f32⟩ : BufTy).Contents (Elt F) → (⟨S1024, .f32⟩ : BufTy).Contents (Elt F)) (RV m c main_call6_v0) := by
  have h := (ops_asc (F := F)).read_unary (fun b => m (c, b)) 199 rfl (by decide)
  unfold RV
  generalize StableHlo.after (ops (F := F)) (fun b => m (c, b)) = W at h ⊢
  exact h
theorem rd_main_v145 : RV m c main_v145 = (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)) (RV m c main_v143) (RV m c main_v144) (RV m c main_call6_v1) := by
  have h := (ops_asc (F := F)).read_ternary (fun b => m (c, b)) 200 rfl (by decide) (by decide) (by decide)
  unfold RV
  generalize StableHlo.after (ops (F := F)) (fun b => m (c, b)) = W at h ⊢
  exact h
theorem rd_main_v146 : RV m c main_v146 = (broadcastInDim S1024x1 ![0] bcast_S1024_S1024x1_0 : (⟨S1024, .f32⟩ : BufTy).Contents (Elt F) → (⟨S1024x1, .f32⟩ : BufTy).Contents (Elt F)) (RV m c main_v145) := by
  have h := (ops_asc (F := F)).read_unary (fun b => m (c, b)) 201 rfl (by decide)
  unfold RV
  generalize StableHlo.after (ops (F := F)) (fun b => m (c, b)) = W at h ⊢
  exact h
theorem rd_main_v147 : RV m c main_v147 = (broadcastInDim S1024x1024 ![0, 1] bcast_S1024x1_S1024x1024_0_1 : (⟨S1024x1, .f32⟩ : BufTy).Contents (Elt F) → (⟨S1024x1024, .f32⟩ : BufTy).Contents (Elt F)) (RV m c main_v146) := by
  have h := (ops_asc (F := F)).read_unary (fun b => m (c, b)) 202 rfl (by decide)
  unfold RV
  generalize StableHlo.after (ops (F := F)) (fun b => m (c, b)) = W at h ⊢
  exact h
theorem rd_main_v148 : RV m c main_v148 = (mulf : (⟨S1024x1024, .f32⟩ : BufTy).Contents (Elt F) → (⟨S1024x1024, .f32⟩ : BufTy).Contents (Elt F) → (⟨S1024x1024, .f32⟩ : BufTy).Contents (Elt F)) (RV m c main_v147) (RV m c main_v140) := by
  have h := (ops_asc (F := F)).read_binary (fun b => m (c, b)) 203 rfl (by decide) (by decide)
  unfold RV
  generalize StableHlo.after (ops (F := F)) (fun b => m (c, b)) = W at h ⊢
  exact h

end Cert.ReferenceIdeal.HandRun

end
-- ==== Proof.Ref.Reads3.lean ====
import proofs.«405323_j90718299226206_3_alg».proof.Proof.Ref.ReadsAsc

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

theorem rd_main_v149 : RV m c main_v149 = (broadcastInDim S1x1024 ![1] bcast_S1024_S1x1024_1 : (⟨S1024, .f32⟩ : BufTy).Contents (Elt F) → (⟨S1x1024, .f32⟩ : BufTy).Contents (Elt F)) (RV m c main_v145) := by
  have h := (ops_asc (F := F)).read_unary (fun b => m (c, b)) 204 rfl (by decide)
  unfold RV
  generalize StableHlo.after (ops (F := F)) (fun b => m (c, b)) = W at h ⊢
  exact h
theorem rd_main_v150 : RV m c main_v150 = (broadcastInDim S1024x1024 ![0, 1] bcast_S1x1024_S1024x1024_0_1 : (⟨S1x1024, .f32⟩ : BufTy).Contents (Elt F) → (⟨S1024x1024, .f32⟩ : BufTy).Contents (Elt F)) (RV m c main_v149) := by
  have h := (ops_asc (F := F)).read_unary (fun b => m (c, b)) 205 rfl (by decide)
  unfold RV
  generalize StableHlo.after (ops (F := F)) (fun b => m (c, b)) = W at h ⊢
  exact h
theorem rd_main_v151 : RV m c main_v151 = (mulf : (⟨S1024x1024, .f32⟩ : BufTy).Contents (Elt F) → (⟨S1024x1024, .f32⟩ : BufTy).Contents (Elt F) → (⟨S1024x1024, .f32⟩ : BufTy).Contents (Elt F)) (RV m c main_v148) (RV m c main_v150) := by
  have h := (ops_asc (F := F)).read_binary (fun b => m (c, b)) 206 rfl (by decide) (by decide)
  unfold RV
  generalize StableHlo.after (ops (F := F)) (fun b => m (c, b)) = W at h ⊢
  exact h
theorem rd_main_v152 : RV m c main_v152 = Host.dotGeneral dot_S1024x512_S512x512_S1024x512_1_0_0_1_n_n none (RV m c main_v86) (RV m c main_arg7) := by
  have h := (ops_asc (F := F)).read_binary (fun b => m (c, b)) 207 rfl (by decide) (by decide)
  unfold RV
  generalize StableHlo.after (ops (F := F)) (fun b => m (c, b)) = W at h ⊢
  exact h
theorem rd_main_v153 : RV m c main_v153 = Host.dotGeneral dot_S1024x1024_S1024x512_S1024x512_1_0_0_1_n_n none (RV m c main_v151) (RV m c main_v152) := by
  have h := (ops_asc (F := F)).read_binary (fun b => m (c, b)) 208 rfl (by decide) (by decide)
  unfold RV
  generalize StableHlo.after (ops (F := F)) (fun b => m (c, b)) = W at h ⊢
  exact h
theorem rd_main_v154 : RV m c main_v154 = (broadcastInDim S1x512 ![1] bcast_S512_S1x512_1 : (⟨S512, .f32⟩ : BufTy).Contents (Elt F) → (⟨S1x512, .f32⟩ : BufTy).Contents (Elt F)) (RV m c main_arg8) := by
  have h := (ops_asc (F := F)).read_unary (fun b => m (c, b)) 209 rfl (by decide)
  unfold RV
  generalize StableHlo.after (ops (F := F)) (fun b => m (c, b)) = W at h ⊢
  exact h
theorem rd_main_v155 : RV m c main_v155 = (broadcastInDim S1024x512 ![0, 1] bcast_S1x512_S1024x512_0_1 : (⟨S1x512, .f32⟩ : BufTy).Contents (Elt F) → (⟨S1024x512, .f32⟩ : BufTy).Contents (Elt F)) (RV m c main_v154) := by
  have h := (ops_asc (F := F)).read_unary (fun b => m (c, b)) 210 rfl (by decide)
  unfold RV
  generalize StableHlo.after (ops (F := F)) (fun b => m (c, b)) = W at h ⊢
  exact h
theorem rd_main_v156 : RV m c main_v156 = (addf : (⟨S1024x512, .f32⟩ : BufTy).Contents (Elt F) → (⟨S1024x512, .f32⟩ : BufTy).Contents (Elt F) → (⟨S1024x512, .f32⟩ : BufTy).Contents (Elt F)) (RV m c main_v153) (RV m c main_v155) := by
  have h := (ops_asc (F := F)).read_binary (fun b => m (c, b)) 211 rfl (by decide) (by decide)
  unfold RV
  generalize StableHlo.after (ops (F := F)) (fun b => m (c, b)) = W at h ⊢
  exact h
theorem rd_main_call7_cst : RV m c main_call7_cst = (constant S_ .f32 0x00000000#32 : (⟨S_, .f32⟩ : BufTy).Contents (Elt F)) := by
  have h := (ops_asc (F := F)).read_nullary (fun b => m (c, b)) 212 rfl
  unfold RV
  generalize StableHlo.after (ops (F := F)) (fun b => m (c, b)) = W at h ⊢
  exact h
theorem rd_main_call7_v0 : RV m c main_call7_v0 = (broadcastInDim S1024x512 ![] bcast_S_S1024x512 : (⟨S_, .f32⟩ : BufTy).Contents (Elt F) → (⟨S1024x512, .f32⟩ : BufTy).Contents (Elt F)) (RV m c main_call7_cst) := by
  have h := (ops_asc (F := F)).read_unary (fun b => m (c, b)) 213 rfl (by decide)
  unfold RV
  generalize StableHlo.after (ops (F := F)) (fun b => m (c, b)) = W at h ⊢
  exact h
theorem rd_main_v157 : RV m c main_v157 = (maximumf : (⟨S1024x512, .f32⟩ : BufTy).Contents (Elt F) → (⟨S1024x512, .f32⟩ : BufTy).Contents (Elt F) → (⟨S1024x512, .f32⟩ : BufTy).Contents (Elt F)) (RV m c main_v156) (RV m c main_call7_v0) := by
  have h := (ops_asc (F := F)).read_binary (fun b => m (c, b)) 214 rfl (by decide) (by decide)
  unfold RV
  generalize StableHlo.after (ops (F := F)) (fun b => m (c, b)) = W at h ⊢
  exact h
theorem rd_main_v158 : RV m c main_v158 = Host.dotGeneral dot_S1024x512_S512x128_S1024x128_1_0_0_1_n_n none (RV m c main_v157) (RV m c main_arg9) := by
  have h := (ops_asc (F := F)).read_binary (fun b => m (c, b)) 215 rfl (by decide) (by decide)
  unfold RV
  generalize StableHlo.after (ops (F := F)) (fun b => m (c, b)) = W at h ⊢
  exact h
theorem rd_main_v159 : RV m c main_v159 = (broadcastInDim S1x128 ![1] bcast_S128_S1x128_1 : (⟨S128, .f32⟩ : BufTy).Contents (Elt F) → (⟨S1x128, .f32⟩ : BufTy).Contents (Elt F)) (RV m c main_arg10) := by
  have h := (ops_asc (F := F)).read_unary (fun b => m (c, b)) 216 rfl (by decide)
  unfold RV
  generalize StableHlo.after (ops (F := F)) (fun b => m (c, b)) = W at h ⊢
  exact h
theorem rd_main_v160 : RV m c main_v160 = (broadcastInDim S1024x128 ![0, 1] bcast_S1x128_S1024x128_0_1 : (⟨S1x128, .f32⟩ : BufTy).Contents (Elt F) → (⟨S1024x128, .f32⟩ : BufTy).Contents (Elt F)) (RV m c main_v159) := by
  have h := (ops_asc (F := F)).read_unary (fun b => m (c, b)) 217 rfl (by decide)
  unfold RV
  generalize StableHlo.after (ops (F := F)) (fun b => m (c, b)) = W at h ⊢
  exact h
theorem rd_main_v161 : RV m c main_v161 = (addf : (⟨S1024x128, .f32⟩ : BufTy).Contents (Elt F) → (⟨S1024x128, .f32⟩ : BufTy).Contents (Elt F) → (⟨S1024x128, .f32⟩ : BufTy).Contents (Elt F)) (RV m c main_v158) (RV m c main_v160) := by
  have h := (ops_asc (F := F)).read_binary (fun b => m (c, b)) 218 rfl (by decide) (by decide)
  unfold RV
  generalize StableHlo.after (ops (F := F)) (fun b => m (c, b)) = W at h ⊢
  exact h
theorem rd_main_call8_cst : RV m c main_call8_cst = (constant S_ .f32 0x00000000#32 : (⟨S_, .f32⟩ : BufTy).Contents (Elt F)) := by
  have h := (ops_asc (F := F)).read_nullary (fun b => m (c, b)) 219 rfl
  unfold RV
  generalize StableHlo.after (ops (F := F)) (fun b => m (c, b)) = W at h ⊢
  exact h
theorem rd_main_call8_v0 : RV m c main_call8_v0 = (broadcastInDim S1024x128 ![] bcast_S_S1024x128 : (⟨S_, .f32⟩ : BufTy).Contents (Elt F) → (⟨S1024x128, .f32⟩ : BufTy).Contents (Elt F)) (RV m c main_call8_cst) := by
  have h := (ops_asc (F := F)).read_unary (fun b => m (c, b)) 220 rfl (by decide)
  unfold RV
  generalize StableHlo.after (ops (F := F)) (fun b => m (c, b)) = W at h ⊢
  exact h
theorem rd_main_v162 : RV m c main_v162 = (maximumf : (⟨S1024x128, .f32⟩ : BufTy).Contents (Elt F) → (⟨S1024x128, .f32⟩ : BufTy).Contents (Elt F) → (⟨S1024x128, .f32⟩ : BufTy).Contents (Elt F)) (RV m c main_v161) (RV m c main_call8_v0) := by
  have h := (ops_asc (F := F)).read_binary (fun b => m (c, b)) 221 rfl (by decide) (by decide)
  unfold RV
  generalize StableHlo.after (ops (F := F)) (fun b => m (c, b)) = W at h ⊢
  exact h
theorem rd_main_cst_29 : RV m c main_cst_29 = (constant S_ .f32 0xFF800000#32 : (⟨S_, .f32⟩ : BufTy).Contents (Elt F)) := by
  have h := (ops_asc (F := F)).read_nullary (fun b => m (c, b)) 222 rfl
  unfold RV
  generalize StableHlo.after (ops (F := F)) (fun b => m (c, b)) = W at h ⊢
  exact h
theorem rd_main_v163 : RV m c main_v163 = Host.reduce FloatOps.maximumf (RV m c main_v162) (RV m c main_cst_29) reducesTo_S1024x128_S1024_d1 h_S_ := by
  have h := (ops_asc (F := F)).read_binary (fun b => m (c, b)) 223 rfl (by decide) (by decide)
  unfold RV
  generalize StableHlo.after (ops (F := F)) (fun b => m (c, b)) = W at h ⊢
  exact h
theorem rd_main_cst_30 : RV m c main_cst_30 = (constant S_ .f32 0xFF800000#32 : (⟨S_, .f32⟩ : BufTy).Contents (Elt F)) := by
  have h := (ops_asc (F := F)).read_nullary (fun b => m (c, b)) 224 rfl
  unfold RV
  generalize StableHlo.after (ops (F := F)) (fun b => m (c, b)) = W at h ⊢
  exact h
theorem rd_main_v164 : RV m c main_v164 = (broadcastInDim S1024 ![] bcast_S_S1024 : (⟨S_, .f32⟩ : BufTy).Contents (Elt F) → (⟨S1024, .f32⟩ : BufTy).Contents (Elt F)) (RV m c main_cst_30) := by
  have h := (ops_asc (F := F)).read_unary (fun b => m (c, b)) 225 rfl (by decide)
  unfold RV
  generalize StableHlo.after (ops (F := F)) (fun b => m (c, b)) = W at h ⊢
  exact h
theorem rd_main_v165 : RV m c main_v165 = (maximumf : (⟨S1024, .f32⟩ : BufTy).Contents (Elt F) → (⟨S1024, .f32⟩ : BufTy).Contents (Elt F) → (⟨S1024, .f32⟩ : BufTy).Contents (Elt F)) (RV m c main_v164) (RV m c main_v163) := by
  have h := (ops_asc (F := F)).read_binary (fun b => m (c, b)) 226 rfl (by decide) (by decide)
  unfold RV
  generalize StableHlo.after (ops (F := F)) (fun b => m (c, b)) = W at h ⊢
  exact h
theorem rd_main_v166 : RV m c main_v166 = (broadcastInDim S1024x1 ![0] bcast_S1024_S1024x1_0 : (⟨S1024, .f32⟩ : BufTy).Contents (Elt F) → (⟨S1024x1, .f32⟩ : BufTy).Contents (Elt F)) (RV m c main_v165) := by
  have h := (ops_asc (F := F)).read_unary (fun b => m (c, b)) 227 rfl (by decide)
  unfold RV
  generalize StableHlo.after (ops (F := F)) (fun b => m (c, b)) = W at h ⊢
  exact h
theorem rd_main_v167 : RV m c main_v167 = (broadcastInDim S1024x128 ![0, 1] bcast_S1024x1_S1024x128_0_1 : (⟨S1024x1, .f32⟩ : BufTy).Contents (Elt F) → (⟨S1024x128, .f32⟩ : BufTy).Contents (Elt F)) (RV m c main_v166) := by
  have h := (ops_asc (F := F)).read_unary (fun b => m (c, b)) 228 rfl (by decide)
  unfold RV
  generalize StableHlo.after (ops (F := F)) (fun b => m (c, b)) = W at h ⊢
  exact h
theorem rd_main_v168 : RV m c main_v168 = (subf : (⟨S1024x128, .f32⟩ : BufTy).Contents (Elt F) → (⟨S1024x128, .f32⟩ : BufTy).Contents (Elt F) → (⟨S1024x128, .f32⟩ : BufTy).Contents (Elt F)) (RV m c main_v162) (RV m c main_v167) := by
  have h := (ops_asc (F := F)).read_binary (fun b => m (c, b)) 229 rfl (by decide) (by decide)
  unfold RV
  generalize StableHlo.after (ops (F := F)) (fun b => m (c, b)) = W at h ⊢
  exact h
theorem rd_main_v169 : RV m c main_v169 = (Host.exp : (⟨S1024x128, .f32⟩ : BufTy).Contents (Elt F) → (⟨S1024x128, .f32⟩ : BufTy).Contents (Elt F)) (RV m c main_v168) := by
  have h := (ops_asc (F := F)).read_unary (fun b => m (c, b)) 230 rfl (by decide)
  unfold RV
  generalize StableHlo.after (ops (F := F)) (fun b => m (c, b)) = W at h ⊢
  exact h
theorem rd_main_cst_31 : RV m c main_cst_31 = (constant S_ .f32 0x00000000#32 : (⟨S_, .f32⟩ : BufTy).Contents (Elt F)) := by
  have h := (ops_asc (F := F)).read_nullary (fun b => m (c, b)) 231 rfl
  unfold RV
  generalize StableHlo.after (ops (F := F)) (fun b => m (c, b)) = W at h ⊢
  exact h
theorem rd_main_v170 : RV m c main_v170 = Host.reduceAdd (RV m c main_v169) (RV m c main_cst_31) reducesTo_S1024x128_S1024_d1 h_S_ := by
  have h := (ops_asc (F := F)).read_binary (fun b => m (c, b)) 232 rfl (by decide) (by decide)
  unfold RV
  generalize StableHlo.after (ops (F := F)) (fun b => m (c, b)) = W at h ⊢
  exact h
theorem rd_main_v171 : RV m c main_v171 = (broadcastInDim S1024x1 ![0] bcast_S1024_S1024x1_0 : (⟨S1024, .f32⟩ : BufTy).Contents (Elt F) → (⟨S1024x1, .f32⟩ : BufTy).Contents (Elt F)) (RV m c main_v170) := by
  have h := (ops_asc (F := F)).read_unary (fun b => m (c, b)) 233 rfl (by decide)
  unfold RV
  generalize StableHlo.after (ops (F := F)) (fun b => m (c, b)) = W at h ⊢
  exact h
theorem rd_main_v172 : RV m c main_v172 = (broadcastInDim S1024x128 ![0, 1] bcast_S1024x1_S1024x128_0_1 : (⟨S1024x1, .f32⟩ : BufTy).Contents (Elt F) → (⟨S1024x128, .f32⟩ : BufTy).Contents (Elt F)) (RV m c main_v171) := by
  have h := (ops_asc (F := F)).read_unary (fun b => m (c, b)) 234 rfl (by decide)
  unfold RV
  generalize StableHlo.after (ops (F := F)) (fun b => m (c, b)) = W at h ⊢
  exact h
theorem rd_main_v173 : RV m c main_v173 = (Host.divf : (⟨S1024x128, .f32⟩ : BufTy).Contents (Elt F) → (⟨S1024x128, .f32⟩ : BufTy).Contents (Elt F) → (⟨S1024x128, .f32⟩ : BufTy).Contents (Elt F)) (RV m c main_v169) (RV m c main_v172) := by
  have h := (ops_asc (F := F)).read_binary (fun b => m (c, b)) 235 rfl (by decide) (by decide)
  unfold RV
  generalize StableHlo.after (ops (F := F)) (fun b => m (c, b)) = W at h ⊢
  exact h
theorem rd_main_v174 : RV m c main_v174 = transpose S128x1024 [1, 0] (RV m c main_v173) transposes_S1024x128_S128x1024_1_0 := by
  have h := (ops_asc (F := F)).read_unary (fun b => m (c, b)) 236 rfl (by decide)
  unfold RV
  generalize StableHlo.after (ops (F := F)) (fun b => m (c, b)) = W at h ⊢
  exact h
theorem rd_main_v175 : RV m c main_v175 = Host.dotGeneral dot_S128x1024_S1024x512_S128x512_1_0_0_1_n_n none (RV m c main_v174) (RV m c main_v157) := by
  have h := (ops_asc (F := F)).read_binary (fun b => m (c, b)) 237 rfl (by decide) (by decide)
  unfold RV
  generalize StableHlo.after (ops (F := F)) (fun b => m (c, b)) = W at h ⊢
  exact h
theorem rd_main_v176 : RV m c main_v176 = transpose S128x1024 [1, 0] (RV m c main_v173) transposes_S1024x128_S128x1024_1_0 := by
  have h := (ops_asc (F := F)).read_unary (fun b => m (c, b)) 238 rfl (by decide)
  unfold RV
  generalize StableHlo.after (ops (F := F)) (fun b => m (c, b)) = W at h ⊢
  exact h
theorem rd_main_v177 : RV m c main_v177 = Host.dotGeneral dot_S1024x1024_S1024x128_S1024x128_1_0_0_1_n_n none (RV m c main_v133) (RV m c main_v173) := by
  have h := (ops_asc (F := F)).read_binary (fun b => m (c, b)) 239 rfl (by decide) (by decide)
  unfold RV
  generalize StableHlo.after (ops (F := F)) (fun b => m (c, b)) = W at h ⊢
  exact h
theorem rd_main_v178 : RV m c main_v178 = Host.dotGeneral dot_S128x1024_S1024x128_S128x128_1_0_0_1_n_n none (RV m c main_v176) (RV m c main_v177) := by
  have h := (ops_asc (F := F)).read_binary (fun b => m (c, b)) 240 rfl (by decide) (by decide)
  unfold RV
  generalize StableHlo.after (ops (F := F)) (fun b => m (c, b)) = W at h ⊢
  exact h
theorem rd_main_call9_v0 : RV m c main_call9_v0 = (iotaInDim S128x128 32 0 : (⟨S128x128, .i32⟩ : BufTy).Contents (Elt F)) := by
  have h := (ops_asc (F := F)).read_nullary (fun b => m (c, b)) 241 rfl
  unfold RV
  generalize StableHlo.after (ops (F := F)) (fun b => m (c, b)) = W at h ⊢
  exact h
theorem rd_main_call9_v1 : RV m c main_call9_v1 = (iotaInDim S128x128 32 1 : (⟨S128x128, .i32⟩ : BufTy).Contents (Elt F)) := by
  have h := (ops_asc (F := F)).read_nullary (fun b => m (c, b)) 242 rfl
  unfold RV
  generalize StableHlo.after (ops (F := F)) (fun b => m (c, b)) = W at h ⊢
  exact h
theorem rd_main_call9_c : RV m c main_call9_c = (constantI S_ 32 0#32 : (⟨S_, .i32⟩ : BufTy).Contents (Elt F)) := by
  have h := (ops_asc (F := F)).read_nullary (fun b => m (c, b)) 243 rfl
  unfold RV
  generalize StableHlo.after (ops (F := F)) (fun b => m (c, b)) = W at h ⊢
  exact h
theorem rd_main_call9_v2 : RV m c main_call9_v2 = (broadcastInDim S128x128 ![] bcast_S_S128x128 : (⟨S_, .i32⟩ : BufTy).Contents (Elt F) → (⟨S128x128, .i32⟩ : BufTy).Contents (Elt F)) (RV m c main_call9_c) := by
  have h := (ops_asc (F := F)).read_unary (fun b => m (c, b)) 244 rfl (by decide)
  unfold RV
  generalize StableHlo.after (ops (F := F)) (fun b => m (c, b)) = W at h ⊢
  exact h
theorem rd_main_call9_v3 : RV m c main_call9_v3 = (addi : (⟨S128x128, .i32⟩ : BufTy).Contents (Elt F) → (⟨S128x128, .i32⟩ : BufTy).Contents (Elt F) → (⟨S128x128, .i32⟩ : BufTy).Contents (Elt F)) (RV m c main_call9_v0) (RV m c main_call9_v2) := by
  have h := (ops_asc (F := F)).read_binary (fun b => m (c, b)) 245 rfl (by decide) (by decide)
  unfold RV
  generalize StableHlo.after (ops (F := F)) (fun b => m (c, b)) = W at h ⊢
  exact h
theorem rd_main_call9_v4 : RV m c main_call9_v4 = (cmpi .eq : (⟨S128x128, .i32⟩ : BufTy).Contents (Elt F) → (⟨S128x128, .i32⟩ : BufTy).Contents (Elt F) → (⟨S128x128, .i1⟩ : BufTy).Contents (Elt F)) (RV m c main_call9_v3) (RV m c main_call9_v1) := by
  have h := (ops_asc (F := F)).read_binary (fun b => m (c, b)) 246 rfl (by decide) (by decide)
  unfold RV
  generalize StableHlo.after (ops (F := F)) (fun b => m (c, b)) = W at h ⊢
  exact h
theorem rd_main_call9_cst : RV m c main_call9_cst = (constant S_ .f32 0x00000000#32 : (⟨S_, .f32⟩ : BufTy).Contents (Elt F)) := by
  have h := (ops_asc (F := F)).read_nullary (fun b => m (c, b)) 247 rfl
  unfold RV
  generalize StableHlo.after (ops (F := F)) (fun b => m (c, b)) = W at h ⊢
  exact h
theorem rd_main_call9_v5 : RV m c main_call9_v5 = (broadcastInDim S128x128 ![] bcast_S_S128x128 : (⟨S_, .f32⟩ : BufTy).Contents (Elt F) → (⟨S128x128, .f32⟩ : BufTy).Contents (Elt F)) (RV m c main_call9_cst) := by
  have h := (ops_asc (F := F)).read_unary (fun b => m (c, b)) 248 rfl (by decide)
  unfold RV
  generalize StableHlo.after (ops (F := F)) (fun b => m (c, b)) = W at h ⊢
  exact h
theorem rd_main_call9_v6 : RV m c main_call9_v6 = (select : (⟨S128x128, .i1⟩ : BufTy).Contents (Elt F) → (⟨S128x128, .f32⟩ : BufTy).Contents (Elt F) → (⟨S128x128, .f32⟩ : BufTy).Contents (Elt F) → (⟨S128x128, .f32⟩ : BufTy).Contents (Elt F)) (RV m c main_call9_v4) (RV m c main_v178) (RV m c main_call9_v5) := by
  have h := (ops_asc (F := F)).read_ternary (fun b => m (c, b)) 249 rfl (by decide) (by decide) (by decide)
  unfold RV
  generalize StableHlo.after (ops (F := F)) (fun b => m (c, b)) = W at h ⊢
  exact h
theorem rd_main_call9_cst_0 : RV m c main_call9_cst_0 = (constant S_ .f32 0x00000000#32 : (⟨S_, .f32⟩ : BufTy).Contents (Elt F)) := by
  have h := (ops_asc (F := F)).read_nullary (fun b => m (c, b)) 250 rfl
  unfold RV
  generalize StableHlo.after (ops (F := F)) (fun b => m (c, b)) = W at h ⊢
  exact h
theorem rd_main_v179 : RV m c main_v179 = Host.reduceAdd (RV m c main_call9_v6) (RV m c main_call9_cst_0) reducesTo_S128x128_S_d0_1 h_S_ := by
  have h := (ops_asc (F := F)).read_binary (fun b => m (c, b)) 251 rfl (by decide) (by decide)
  unfold RV
  generalize StableHlo.after (ops (F := F)) (fun b => m (c, b)) = W at h ⊢
  exact h
theorem rd_main_cst_32 : RV m c main_cst_32 = (constant S_ .f32 0x00000000#32 : (⟨S_, .f32⟩ : BufTy).Contents (Elt F)) := by
  have h := (ops_asc (F := F)).read_nullary (fun b => m (c, b)) 252 rfl
  unfold RV
  generalize StableHlo.after (ops (F := F)) (fun b => m (c, b)) = W at h ⊢
  exact h
theorem rd_main_v180 : RV m c main_v180 = Host.reduceAdd (RV m c main_v133) (RV m c main_cst_32) reducesTo_S1024x1024_S1024_d1 h_S_ := by
  have h := (ops_asc (F := F)).read_binary (fun b => m (c, b)) 253 rfl (by decide) (by decide)
  unfold RV
  generalize StableHlo.after (ops (F := F)) (fun b => m (c, b)) = W at h ⊢
  exact h
theorem rd_main_v181 : RV m c main_v181 = (broadcastInDim S1024x1 ![0] bcast_S1024_S1024x1_0 : (⟨S1024, .f32⟩ : BufTy).Contents (Elt F) → (⟨S1024x1, .f32⟩ : BufTy).Contents (Elt F)) (RV m c main_v180) := by
  have h := (ops_asc (F := F)).read_unary (fun b => m (c, b)) 254 rfl (by decide)
  unfold RV
  generalize StableHlo.after (ops (F := F)) (fun b => m (c, b)) = W at h ⊢
  exact h
theorem rd_main_v182 : RV m c main_v182 = (broadcastInDim S1024x128 ![0, 1] bcast_S1024x1_S1024x128_0_1 : (⟨S1024x1, .f32⟩ : BufTy).Contents (Elt F) → (⟨S1024x128, .f32⟩ : BufTy).Contents (Elt F)) (RV m c main_v181) := by
  have h := (ops_asc (F := F)).read_unary (fun b => m (c, b)) 255 rfl (by decide)
  unfold RV
  generalize StableHlo.after (ops (F := F)) (fun b => m (c, b)) = W at h ⊢
  exact h
theorem rd_main_v183 : RV m c main_v183 = (mulf : (⟨S1024x128, .f32⟩ : BufTy).Contents (Elt F) → (⟨S1024x128, .f32⟩ : BufTy).Contents (Elt F) → (⟨S1024x128, .f32⟩ : BufTy).Contents (Elt F)) (RV m c main_v182) (RV m c main_v173) := by
  have h := (ops_asc (F := F)).read_binary (fun b => m (c, b)) 256 rfl (by decide) (by decide)
  unfold RV
  generalize StableHlo.after (ops (F := F)) (fun b => m (c, b)) = W at h ⊢
  exact h
theorem rd_main_v184 : RV m c main_v184 = (mulf : (⟨S1024x128, .f32⟩ : BufTy).Contents (Elt F) → (⟨S1024x128, .f32⟩ : BufTy).Contents (Elt F) → (⟨S1024x128, .f32⟩ : BufTy).Contents (Elt F)) (RV m c main_v183) (RV m c main_v173) := by
  have h := (ops_asc (F := F)).read_binary (fun b => m (c, b)) 257 rfl (by decide) (by decide)
  unfold RV
  generalize StableHlo.after (ops (F := F)) (fun b => m (c, b)) = W at h ⊢
  exact h
theorem rd_main_cst_33 : RV m c main_cst_33 = (constant S_ .f32 0x00000000#32 : (⟨S_, .f32⟩ : BufTy).Contents (Elt F)) := by
  have h := (ops_asc (F := F)).read_nullary (fun b => m (c, b)) 258 rfl
  unfold RV
  generalize StableHlo.after (ops (F := F)) (fun b => m (c, b)) = W at h ⊢
  exact h
theorem rd_main_v185 : RV m c main_v185 = Host.reduceAdd (RV m c main_v184) (RV m c main_cst_33) reducesTo_S1024x128_S_d0_1 h_S_ := by
  have h := (ops_asc (F := F)).read_binary (fun b => m (c, b)) 259 rfl (by decide) (by decide)
  unfold RV
  generalize StableHlo.after (ops (F := F)) (fun b => m (c, b)) = W at h ⊢
  exact h
theorem rd_main_v186 : RV m c main_v186 = (Host.divf : (⟨S_, .f32⟩ : BufTy).Contents (Elt F) → (⟨S_, .f32⟩ : BufTy).Contents (Elt F) → (⟨S_, .f32⟩ : BufTy).Contents (Elt F)) (RV m c main_v179) (RV m c main_v185) := by
  have h := (ops_asc (F := F)).read_binary (fun b => m (c, b)) 260 rfl (by decide) (by decide)
  unfold RV
  generalize StableHlo.after (ops (F := F)) (fun b => m (c, b)) = W at h ⊢
  exact h
theorem rd_main_v187 : RV m c main_v187 = (Host.negf : (⟨S_, .f32⟩ : BufTy).Contents (Elt F) → (⟨S_, .f32⟩ : BufTy).Contents (Elt F)) (RV m c main_v186) := by
  have h := (ops_asc (F := F)).read_unary (fun b => m (c, b)) 261 rfl (by decide)
  unfold RV
  generalize StableHlo.after (ops (F := F)) (fun b => m (c, b)) = W at h ⊢
  exact h
theorem rd_main_v188 : RV m c main_v188 = transpose S128x1024 [1, 0] (RV m c main_v173) transposes_S1024x128_S128x1024_1_0 := by
  have h := (ops_asc (F := F)).read_unary (fun b => m (c, b)) 262 rfl (by decide)
  unfold RV
  generalize StableHlo.after (ops (F := F)) (fun b => m (c, b)) = W at h ⊢
  exact h
theorem rd_main_v189 : RV m c main_v189 = Host.dotGeneral dot_S128x1024_S1024x128_S128x128_1_0_0_1_n_n none (RV m c main_v188) (RV m c main_v173) := by
  have h := (ops_asc (F := F)).read_binary (fun b => m (c, b)) 263 rfl (by decide) (by decide)
  unfold RV
  generalize StableHlo.after (ops (F := F)) (fun b => m (c, b)) = W at h ⊢
  exact h
theorem rd_main_call10_v0 : RV m c main_call10_v0 = (mulf : (⟨S128x128, .f32⟩ : BufTy).Contents (Elt F) → (⟨S128x128, .f32⟩ : BufTy).Contents (Elt F) → (⟨S128x128, .f32⟩ : BufTy).Contents (Elt F)) (RV m c main_v189) (RV m c main_v189) := by
  have h := (ops_asc (F := F)).read_binary (fun b => m (c, b)) 264 rfl (by decide) (by decide)
  unfold RV
  generalize StableHlo.after (ops (F := F)) (fun b => m (c, b)) = W at h ⊢
  exact h
theorem rd_main_call10_cst : RV m c main_call10_cst = (constant S_ .f32 0x00000000#32 : (⟨S_, .f32⟩ : BufTy).Contents (Elt F)) := by
  have h := (ops_asc (F := F)).read_nullary (fun b => m (c, b)) 265 rfl
  unfold RV
  generalize StableHlo.after (ops (F := F)) (fun b => m (c, b)) = W at h ⊢
  exact h
theorem rd_main_call10_v1 : RV m c main_call10_v1 = Host.reduceAdd (RV m c main_call10_v0) (RV m c main_call10_cst) reducesTo_S128x128_S_d0_1 h_S_ := by
  have h := (ops_asc (F := F)).read_binary (fun b => m (c, b)) 266 rfl (by decide) (by decide)
  unfold RV
  generalize StableHlo.after (ops (F := F)) (fun b => m (c, b)) = W at h ⊢
  exact h
theorem rd_main_v190 : RV m c main_v190 = (Host.sqrt : (⟨S_, .f32⟩ : BufTy).Contents (Elt F) → (⟨S_, .f32⟩ : BufTy).Contents (Elt F)) (RV m c main_call10_v1) := by
  have h := (ops_asc (F := F)).read_unary (fun b => m (c, b)) 267 rfl (by decide)
  unfold RV
  generalize StableHlo.after (ops (F := F)) (fun b => m (c, b)) = W at h ⊢
  exact h
theorem rd_main_v191 : RV m c main_v191 = (broadcastInDim S128x128 ![] bcast_S_S128x128 : (⟨S_, .f32⟩ : BufTy).Contents (Elt F) → (⟨S128x128, .f32⟩ : BufTy).Contents (Elt F)) (RV m c main_v190) := by
  have h := (ops_asc (F := F)).read_unary (fun b => m (c, b)) 268 rfl (by decide)
  unfold RV
  generalize StableHlo.after (ops (F := F)) (fun b => m (c, b)) = W at h ⊢
  exact h
theorem rd_main_v192 : RV m c main_v192 = (Host.divf : (⟨S128x128, .f32⟩ : BufTy).Contents (Elt F) → (⟨S128x128, .f32⟩ : BufTy).Contents (Elt F) → (⟨S128x128, .f32⟩ : BufTy).Contents (Elt F)) (RV m c main_v189) (RV m c main_v191) := by
  have h := (ops_asc (F := F)).read_binary (fun b => m (c, b)) 269 rfl (by decide) (by decide)
  unfold RV
  generalize StableHlo.after (ops (F := F)) (fun b => m (c, b)) = W at h ⊢
  exact h
theorem rd_main_v193 : RV m c main_v193 = (iotaInDim S128x128 32 0 : (⟨S128x128, .i32⟩ : BufTy).Contents (Elt F)) := by
  have h := (ops_asc (F := F)).read_nullary (fun b => m (c, b)) 270 rfl
  unfold RV
  generalize StableHlo.after (ops (F := F)) (fun b => m (c, b)) = W at h ⊢
  exact h
theorem rd_main_v194 : RV m c main_v194 = (iotaInDim S128x128 32 1 : (⟨S128x128, .i32⟩ : BufTy).Contents (Elt F)) := by
  have h := (ops_asc (F := F)).read_nullary (fun b => m (c, b)) 271 rfl
  unfold RV
  generalize StableHlo.after (ops (F := F)) (fun b => m (c, b)) = W at h ⊢
  exact h
theorem rd_main_c_34 : RV m c main_c_34 = (constantI S_ 32 0#32 : (⟨S_, .i32⟩ : BufTy).Contents (Elt F)) := by
  have h := (ops_asc (F := F)).read_nullary (fun b => m (c, b)) 272 rfl
  unfold RV
  generalize StableHlo.after (ops (F := F)) (fun b => m (c, b)) = W at h ⊢
  exact h
theorem rd_main_v195 : RV m c main_v195 = (broadcastInDim S128x128 ![] bcast_S_S128x128 : (⟨S_, .i32⟩ : BufTy).Contents (Elt F) → (⟨S128x128, .i32⟩ : BufTy).Contents (Elt F)) (RV m c main_c_34) := by
  have h := (ops_asc (F := F)).read_unary (fun b => m (c, b)) 273 rfl (by decide)
  unfold RV
  generalize StableHlo.after (ops (F := F)) (fun b => m (c, b)) = W at h ⊢
  exact h
theorem rd_main_v196 : RV m c main_v196 = (addi : (⟨S128x128, .i32⟩ : BufTy).Contents (Elt F) → (⟨S128x128, .i32⟩ : BufTy).Contents (Elt F) → (⟨S128x128, .i32⟩ : BufTy).Contents (Elt F)) (RV m c main_v193) (RV m c main_v195) := by
  have h := (ops_asc (F := F)).read_binary (fun b => m (c, b)) 274 rfl (by decide) (by decide)
  unfold RV
  generalize StableHlo.after (ops (F := F)) (fun b => m (c, b)) = W at h ⊢
  exact h
theorem rd_main_v197 : RV m c main_v197 = (cmpi .eq : (⟨S128x128, .i32⟩ : BufTy).Contents (Elt F) → (⟨S128x128, .i32⟩ : BufTy).Contents (Elt F) → (⟨S128x128, .i1⟩ : BufTy).Contents (Elt F)) (RV m c main_v196) (RV m c main_v194) := by
  have h := (ops_asc (F := F)).read_binary (fun b => m (c, b)) 275 rfl (by decide) (by decide)
  unfold RV
  generalize StableHlo.after (ops (F := F)) (fun b => m (c, b)) = W at h ⊢
  exact h
theorem rd_main_v198 : RV m c main_v198 = (uitofp .f32 : (⟨S128x128, .i1⟩ : BufTy).Contents (Elt F) → (⟨S128x128, .f32⟩ : BufTy).Contents (Elt F)) (RV m c main_v197) := by
  have h := (ops_asc (F := F)).read_unary (fun b => m (c, b)) 276 rfl (by decide)
  unfold RV
  generalize StableHlo.after (ops (F := F)) (fun b => m (c, b)) = W at h ⊢
  exact h
theorem rd_main_cst_35 : RV m c main_cst_35 = (constant S_ .f32 0x43000000#32 : (⟨S_, .f32⟩ : BufTy).Contents (Elt F)) := by
  have h := (ops_asc (F := F)).read_nullary (fun b => m (c, b)) 277 rfl
  unfold RV
  generalize StableHlo.after (ops (F := F)) (fun b => m (c, b)) = W at h ⊢
  exact h
theorem rd_main_v199 : RV m c main_v199 = (Host.sqrt : (⟨S_, .f32⟩ : BufTy).Contents (Elt F) → (⟨S_, .f32⟩ : BufTy).Contents (Elt F)) (RV m c main_cst_35) := by
  have h := (ops_asc (F := F)).read_unary (fun b => m (c, b)) 278 rfl (by decide)
  unfold RV
  generalize StableHlo.after (ops (F := F)) (fun b => m (c, b)) = W at h ⊢
  exact h
theorem rd_main_v200 : RV m c main_v200 = (broadcastInDim S128x128 ![] bcast_S_S128x128 : (⟨S_, .f32⟩ : BufTy).Contents (Elt F) → (⟨S128x128, .f32⟩ : BufTy).Contents (Elt F)) (RV m c main_v199) := by
  have h := (ops_asc (F := F)).read_unary (fun b => m (c, b)) 279 rfl (by decide)
  unfold RV
  generalize StableHlo.after (ops (F := F)) (fun b => m (c, b)) = W at h ⊢
  exact h
theorem rd_main_v201 : RV m c main_v201 = (Host.divf : (⟨S128x128, .f32⟩ : BufTy).Contents (Elt F) → (⟨S128x128, .f32⟩ : BufTy).Contents (Elt F) → (⟨S128x128, .f32⟩ : BufTy).Contents (Elt F)) (RV m c main_v198) (RV m c main_v200) := by
  have h := (ops_asc (F := F)).read_binary (fun b => m (c, b)) 280 rfl (by decide) (by decide)
  unfold RV
  generalize StableHlo.after (ops (F := F)) (fun b => m (c, b)) = W at h ⊢
  exact h

end Cert.ReferenceIdeal.HandRun

end
-- ==== Proof.Ref.Reads4.lean ====
import proofs.«405323_j90718299226206_3_alg».proof.Proof.Ref.ReadsAsc

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

theorem rd_main_v202 : RV m c main_v202 = (subf : (⟨S128x128, .f32⟩ : BufTy).Contents (Elt F) → (⟨S128x128, .f32⟩ : BufTy).Contents (Elt F) → (⟨S128x128, .f32⟩ : BufTy).Contents (Elt F)) (RV m c main_v192) (RV m c main_v201) := by
  have h := (ops_asc (F := F)).read_binary (fun b => m (c, b)) 281 rfl (by decide) (by decide)
  unfold RV
  generalize StableHlo.after (ops (F := F)) (fun b => m (c, b)) = W at h ⊢
  exact h
theorem rd_main_call11_v0 : RV m c main_call11_v0 = (mulf : (⟨S128x128, .f32⟩ : BufTy).Contents (Elt F) → (⟨S128x128, .f32⟩ : BufTy).Contents (Elt F) → (⟨S128x128, .f32⟩ : BufTy).Contents (Elt F)) (RV m c main_v202) (RV m c main_v202) := by
  have h := (ops_asc (F := F)).read_binary (fun b => m (c, b)) 282 rfl (by decide) (by decide)
  unfold RV
  generalize StableHlo.after (ops (F := F)) (fun b => m (c, b)) = W at h ⊢
  exact h
theorem rd_main_call11_cst : RV m c main_call11_cst = (constant S_ .f32 0x00000000#32 : (⟨S_, .f32⟩ : BufTy).Contents (Elt F)) := by
  have h := (ops_asc (F := F)).read_nullary (fun b => m (c, b)) 283 rfl
  unfold RV
  generalize StableHlo.after (ops (F := F)) (fun b => m (c, b)) = W at h ⊢
  exact h
theorem rd_main_call11_v1 : RV m c main_call11_v1 = Host.reduceAdd (RV m c main_call11_v0) (RV m c main_call11_cst) reducesTo_S128x128_S_d0_1 h_S_ := by
  have h := (ops_asc (F := F)).read_binary (fun b => m (c, b)) 284 rfl (by decide) (by decide)
  unfold RV
  generalize StableHlo.after (ops (F := F)) (fun b => m (c, b)) = W at h ⊢
  exact h
theorem rd_main_v203 : RV m c main_v203 = (Host.sqrt : (⟨S_, .f32⟩ : BufTy).Contents (Elt F) → (⟨S_, .f32⟩ : BufTy).Contents (Elt F)) (RV m c main_call11_v1) := by
  have h := (ops_asc (F := F)).read_unary (fun b => m (c, b)) 285 rfl (by decide)
  unfold RV
  generalize StableHlo.after (ops (F := F)) (fun b => m (c, b)) = W at h ⊢
  exact h
theorem rd_main_v204 : RV m c main_v204 = (iotaInDim S128x128 32 0 : (⟨S128x128, .i32⟩ : BufTy).Contents (Elt F)) := by
  have h := (ops_asc (F := F)).read_nullary (fun b => m (c, b)) 286 rfl
  unfold RV
  generalize StableHlo.after (ops (F := F)) (fun b => m (c, b)) = W at h ⊢
  exact h
theorem rd_main_v205 : RV m c main_v205 = (iotaInDim S128x128 32 1 : (⟨S128x128, .i32⟩ : BufTy).Contents (Elt F)) := by
  have h := (ops_asc (F := F)).read_nullary (fun b => m (c, b)) 287 rfl
  unfold RV
  generalize StableHlo.after (ops (F := F)) (fun b => m (c, b)) = W at h ⊢
  exact h
theorem rd_main_c_36 : RV m c main_c_36 = (constantI S_ 32 0#32 : (⟨S_, .i32⟩ : BufTy).Contents (Elt F)) := by
  have h := (ops_asc (F := F)).read_nullary (fun b => m (c, b)) 288 rfl
  unfold RV
  generalize StableHlo.after (ops (F := F)) (fun b => m (c, b)) = W at h ⊢
  exact h
theorem rd_main_v206 : RV m c main_v206 = (broadcastInDim S128x128 ![] bcast_S_S128x128 : (⟨S_, .i32⟩ : BufTy).Contents (Elt F) → (⟨S128x128, .i32⟩ : BufTy).Contents (Elt F)) (RV m c main_c_36) := by
  have h := (ops_asc (F := F)).read_unary (fun b => m (c, b)) 289 rfl (by decide)
  unfold RV
  generalize StableHlo.after (ops (F := F)) (fun b => m (c, b)) = W at h ⊢
  exact h
theorem rd_main_v207 : RV m c main_v207 = (addi : (⟨S128x128, .i32⟩ : BufTy).Contents (Elt F) → (⟨S128x128, .i32⟩ : BufTy).Contents (Elt F) → (⟨S128x128, .i32⟩ : BufTy).Contents (Elt F)) (RV m c main_v204) (RV m c main_v206) := by
  have h := (ops_asc (F := F)).read_binary (fun b => m (c, b)) 290 rfl (by decide) (by decide)
  unfold RV
  generalize StableHlo.after (ops (F := F)) (fun b => m (c, b)) = W at h ⊢
  exact h
theorem rd_main_v208 : RV m c main_v208 = (cmpi .eq : (⟨S128x128, .i32⟩ : BufTy).Contents (Elt F) → (⟨S128x128, .i32⟩ : BufTy).Contents (Elt F) → (⟨S128x128, .i1⟩ : BufTy).Contents (Elt F)) (RV m c main_v207) (RV m c main_v205) := by
  have h := (ops_asc (F := F)).read_binary (fun b => m (c, b)) 291 rfl (by decide) (by decide)
  unfold RV
  generalize StableHlo.after (ops (F := F)) (fun b => m (c, b)) = W at h ⊢
  exact h
theorem rd_main_v209 : RV m c main_v209 = (uitofp .f32 : (⟨S128x128, .i1⟩ : BufTy).Contents (Elt F) → (⟨S128x128, .f32⟩ : BufTy).Contents (Elt F)) (RV m c main_v208) := by
  have h := (ops_asc (F := F)).read_unary (fun b => m (c, b)) 292 rfl (by decide)
  unfold RV
  generalize StableHlo.after (ops (F := F)) (fun b => m (c, b)) = W at h ⊢
  exact h
theorem rd_main_cst_37 : RV m c main_cst_37 = (constant S_ .f32 0x3F800000#32 : (⟨S_, .f32⟩ : BufTy).Contents (Elt F)) := by
  have h := (ops_asc (F := F)).read_nullary (fun b => m (c, b)) 293 rfl
  unfold RV
  generalize StableHlo.after (ops (F := F)) (fun b => m (c, b)) = W at h ⊢
  exact h
theorem rd_main_v210 : RV m c main_v210 = (broadcastInDim S128x128 ![] bcast_S_S128x128 : (⟨S_, .f32⟩ : BufTy).Contents (Elt F) → (⟨S128x128, .f32⟩ : BufTy).Contents (Elt F)) (RV m c main_cst_37) := by
  have h := (ops_asc (F := F)).read_unary (fun b => m (c, b)) 294 rfl (by decide)
  unfold RV
  generalize StableHlo.after (ops (F := F)) (fun b => m (c, b)) = W at h ⊢
  exact h
theorem rd_main_v211 : RV m c main_v211 = (subf : (⟨S128x128, .f32⟩ : BufTy).Contents (Elt F) → (⟨S128x128, .f32⟩ : BufTy).Contents (Elt F) → (⟨S128x128, .f32⟩ : BufTy).Contents (Elt F)) (RV m c main_v210) (RV m c main_v209) := by
  have h := (ops_asc (F := F)).read_binary (fun b => m (c, b)) 295 rfl (by decide) (by decide)
  unfold RV
  generalize StableHlo.after (ops (F := F)) (fun b => m (c, b)) = W at h ⊢
  exact h
theorem rd_main_v212 : RV m c main_v212 = (mulf : (⟨S128x128, .f32⟩ : BufTy).Contents (Elt F) → (⟨S128x128, .f32⟩ : BufTy).Contents (Elt F) → (⟨S128x128, .f32⟩ : BufTy).Contents (Elt F)) (RV m c main_v178) (RV m c main_v211) := by
  have h := (ops_asc (F := F)).read_binary (fun b => m (c, b)) 296 rfl (by decide) (by decide)
  unfold RV
  generalize StableHlo.after (ops (F := F)) (fun b => m (c, b)) = W at h ⊢
  exact h
theorem rd_main_cst_38 : RV m c main_cst_38 = (constant S_ .f32 0x00000000#32 : (⟨S_, .f32⟩ : BufTy).Contents (Elt F)) := by
  have h := (ops_asc (F := F)).read_nullary (fun b => m (c, b)) 297 rfl
  unfold RV
  generalize StableHlo.after (ops (F := F)) (fun b => m (c, b)) = W at h ⊢
  exact h
theorem rd_main_v213 : RV m c main_v213 = Host.reduceAdd (RV m c main_v212) (RV m c main_cst_38) reducesTo_S128x128_S128_d1 h_S_ := by
  have h := (ops_asc (F := F)).read_binary (fun b => m (c, b)) 298 rfl (by decide) (by decide)
  unfold RV
  generalize StableHlo.after (ops (F := F)) (fun b => m (c, b)) = W at h ⊢
  exact h
theorem rd_main_v214 : RV m c main_v214 = (Host.sqrt : (⟨S128, .f32⟩ : BufTy).Contents (Elt F) → (⟨S128, .f32⟩ : BufTy).Contents (Elt F)) (RV m c main_v213) := by
  have h := (ops_asc (F := F)).read_unary (fun b => m (c, b)) 299 rfl (by decide)
  unfold RV
  generalize StableHlo.after (ops (F := F)) (fun b => m (c, b)) = W at h ⊢
  exact h
theorem rd_main_v215 : RV m c main_v215 = (broadcastInDim S128x1 ![0] bcast_S128_S128x1_0 : (⟨S128, .f32⟩ : BufTy).Contents (Elt F) → (⟨S128x1, .f32⟩ : BufTy).Contents (Elt F)) (RV m c main_v214) := by
  have h := (ops_asc (F := F)).read_unary (fun b => m (c, b)) 300 rfl (by decide)
  unfold RV
  generalize StableHlo.after (ops (F := F)) (fun b => m (c, b)) = W at h ⊢
  exact h
theorem rd_main_cst_39 : RV m c main_cst_39 = (constant S_ .f32 0x26901D7D#32 : (⟨S_, .f32⟩ : BufTy).Contents (Elt F)) := by
  have h := (ops_asc (F := F)).read_nullary (fun b => m (c, b)) 301 rfl
  unfold RV
  generalize StableHlo.after (ops (F := F)) (fun b => m (c, b)) = W at h ⊢
  exact h
theorem rd_main_v216 : RV m c main_v216 = (broadcastInDim S128x1 ![] bcast_S_S128x1 : (⟨S_, .f32⟩ : BufTy).Contents (Elt F) → (⟨S128x1, .f32⟩ : BufTy).Contents (Elt F)) (RV m c main_cst_39) := by
  have h := (ops_asc (F := F)).read_unary (fun b => m (c, b)) 302 rfl (by decide)
  unfold RV
  generalize StableHlo.after (ops (F := F)) (fun b => m (c, b)) = W at h ⊢
  exact h
theorem rd_main_v217 : RV m c main_v217 = (addf : (⟨S128x1, .f32⟩ : BufTy).Contents (Elt F) → (⟨S128x1, .f32⟩ : BufTy).Contents (Elt F) → (⟨S128x1, .f32⟩ : BufTy).Contents (Elt F)) (RV m c main_v215) (RV m c main_v216) := by
  have h := (ops_asc (F := F)).read_binary (fun b => m (c, b)) 303 rfl (by decide) (by decide)
  unfold RV
  generalize StableHlo.after (ops (F := F)) (fun b => m (c, b)) = W at h ⊢
  exact h
theorem rd_main_v218 : RV m c main_v218 = (broadcastInDim S128x128 ![0, 1] bcast_S128x1_S128x128_0_1 : (⟨S128x1, .f32⟩ : BufTy).Contents (Elt F) → (⟨S128x128, .f32⟩ : BufTy).Contents (Elt F)) (RV m c main_v217) := by
  have h := (ops_asc (F := F)).read_unary (fun b => m (c, b)) 304 rfl (by decide)
  unfold RV
  generalize StableHlo.after (ops (F := F)) (fun b => m (c, b)) = W at h ⊢
  exact h
theorem rd_main_v219 : RV m c main_v219 = (Host.divf : (⟨S128x128, .f32⟩ : BufTy).Contents (Elt F) → (⟨S128x128, .f32⟩ : BufTy).Contents (Elt F) → (⟨S128x128, .f32⟩ : BufTy).Contents (Elt F)) (RV m c main_v212) (RV m c main_v218) := by
  have h := (ops_asc (F := F)).read_binary (fun b => m (c, b)) 305 rfl (by decide) (by decide)
  unfold RV
  generalize StableHlo.after (ops (F := F)) (fun b => m (c, b)) = W at h ⊢
  exact h
theorem rd_main_v220 : RV m c main_v220 = transpose S1x128 [1, 0] (RV m c main_v217) transposes_S128x1_S1x128_1_0 := by
  have h := (ops_asc (F := F)).read_unary (fun b => m (c, b)) 306 rfl (by decide)
  unfold RV
  generalize StableHlo.after (ops (F := F)) (fun b => m (c, b)) = W at h ⊢
  exact h
theorem rd_main_v221 : RV m c main_v221 = (broadcastInDim S128x128 ![0, 1] bcast_S1x128_S128x128_0_1 : (⟨S1x128, .f32⟩ : BufTy).Contents (Elt F) → (⟨S128x128, .f32⟩ : BufTy).Contents (Elt F)) (RV m c main_v220) := by
  have h := (ops_asc (F := F)).read_unary (fun b => m (c, b)) 307 rfl (by decide)
  unfold RV
  generalize StableHlo.after (ops (F := F)) (fun b => m (c, b)) = W at h ⊢
  exact h
theorem rd_main_v222 : RV m c main_v222 = (Host.divf : (⟨S128x128, .f32⟩ : BufTy).Contents (Elt F) → (⟨S128x128, .f32⟩ : BufTy).Contents (Elt F) → (⟨S128x128, .f32⟩ : BufTy).Contents (Elt F)) (RV m c main_v219) (RV m c main_v221) := by
  have h := (ops_asc (F := F)).read_binary (fun b => m (c, b)) 308 rfl (by decide) (by decide)
  unfold RV
  generalize StableHlo.after (ops (F := F)) (fun b => m (c, b)) = W at h ⊢
  exact h
theorem rd_main_v223 : RV m c main_v223 = (iotaInDim S128x128 32 0 : (⟨S128x128, .i32⟩ : BufTy).Contents (Elt F)) := by
  have h := (ops_asc (F := F)).read_nullary (fun b => m (c, b)) 309 rfl
  unfold RV
  generalize StableHlo.after (ops (F := F)) (fun b => m (c, b)) = W at h ⊢
  exact h
theorem rd_main_v224 : RV m c main_v224 = (iotaInDim S128x128 32 1 : (⟨S128x128, .i32⟩ : BufTy).Contents (Elt F)) := by
  have h := (ops_asc (F := F)).read_nullary (fun b => m (c, b)) 310 rfl
  unfold RV
  generalize StableHlo.after (ops (F := F)) (fun b => m (c, b)) = W at h ⊢
  exact h
theorem rd_main_c_40 : RV m c main_c_40 = (constantI S_ 32 0#32 : (⟨S_, .i32⟩ : BufTy).Contents (Elt F)) := by
  have h := (ops_asc (F := F)).read_nullary (fun b => m (c, b)) 311 rfl
  unfold RV
  generalize StableHlo.after (ops (F := F)) (fun b => m (c, b)) = W at h ⊢
  exact h
theorem rd_main_v225 : RV m c main_v225 = (broadcastInDim S128x128 ![] bcast_S_S128x128 : (⟨S_, .i32⟩ : BufTy).Contents (Elt F) → (⟨S128x128, .i32⟩ : BufTy).Contents (Elt F)) (RV m c main_c_40) := by
  have h := (ops_asc (F := F)).read_unary (fun b => m (c, b)) 312 rfl (by decide)
  unfold RV
  generalize StableHlo.after (ops (F := F)) (fun b => m (c, b)) = W at h ⊢
  exact h
theorem rd_main_v226 : RV m c main_v226 = (addi : (⟨S128x128, .i32⟩ : BufTy).Contents (Elt F) → (⟨S128x128, .i32⟩ : BufTy).Contents (Elt F) → (⟨S128x128, .i32⟩ : BufTy).Contents (Elt F)) (RV m c main_v223) (RV m c main_v225) := by
  have h := (ops_asc (F := F)).read_binary (fun b => m (c, b)) 313 rfl (by decide) (by decide)
  unfold RV
  generalize StableHlo.after (ops (F := F)) (fun b => m (c, b)) = W at h ⊢
  exact h
theorem rd_main_v227 : RV m c main_v227 = (cmpi .eq : (⟨S128x128, .i32⟩ : BufTy).Contents (Elt F) → (⟨S128x128, .i32⟩ : BufTy).Contents (Elt F) → (⟨S128x128, .i1⟩ : BufTy).Contents (Elt F)) (RV m c main_v226) (RV m c main_v224) := by
  have h := (ops_asc (F := F)).read_binary (fun b => m (c, b)) 314 rfl (by decide) (by decide)
  unfold RV
  generalize StableHlo.after (ops (F := F)) (fun b => m (c, b)) = W at h ⊢
  exact h
theorem rd_main_v228 : RV m c main_v228 = (uitofp .f32 : (⟨S128x128, .i1⟩ : BufTy).Contents (Elt F) → (⟨S128x128, .f32⟩ : BufTy).Contents (Elt F)) (RV m c main_v227) := by
  have h := (ops_asc (F := F)).read_unary (fun b => m (c, b)) 315 rfl (by decide)
  unfold RV
  generalize StableHlo.after (ops (F := F)) (fun b => m (c, b)) = W at h ⊢
  exact h
theorem rd_main_v229 : RV m c main_v229 = (addf : (⟨S128x128, .f32⟩ : BufTy).Contents (Elt F) → (⟨S128x128, .f32⟩ : BufTy).Contents (Elt F) → (⟨S128x128, .f32⟩ : BufTy).Contents (Elt F)) (RV m c main_v222) (RV m c main_v228) := by
  have h := (ops_asc (F := F)).read_binary (fun b => m (c, b)) 316 rfl (by decide) (by decide)
  unfold RV
  generalize StableHlo.after (ops (F := F)) (fun b => m (c, b)) = W at h ⊢
  exact h
theorem rd_main_cst_41 : RV m c main_cst_41 = (constant S_ .f32 0x00000000#32 : (⟨S_, .f32⟩ : BufTy).Contents (Elt F)) := by
  have h := (ops_asc (F := F)).read_nullary (fun b => m (c, b)) 317 rfl
  unfold RV
  generalize StableHlo.after (ops (F := F)) (fun b => m (c, b)) = W at h ⊢
  exact h
theorem rd_main_v230 : RV m c main_v230 = Host.reduceAdd (RV m c main_v229) (RV m c main_cst_41) reducesTo_S128x128_S128_d1 h_S_ := by
  have h := (ops_asc (F := F)).read_binary (fun b => m (c, b)) 318 rfl (by decide) (by decide)
  unfold RV
  generalize StableHlo.after (ops (F := F)) (fun b => m (c, b)) = W at h ⊢
  exact h
theorem rd_main_cst_42 : RV m c main_cst_42 = (constant S_ .f32 0x00000000#32 : (⟨S_, .f32⟩ : BufTy).Contents (Elt F)) := by
  have h := (ops_asc (F := F)).read_nullary (fun b => m (c, b)) 319 rfl
  unfold RV
  generalize StableHlo.after (ops (F := F)) (fun b => m (c, b)) = W at h ⊢
  exact h
theorem rd_main_v231 : RV m c main_v231 = (broadcastInDim S128 ![] bcast_S_S128 : (⟨S_, .f32⟩ : BufTy).Contents (Elt F) → (⟨S128, .f32⟩ : BufTy).Contents (Elt F)) (RV m c main_cst_42) := by
  have h := (ops_asc (F := F)).read_unary (fun b => m (c, b)) 320 rfl (by decide)
  unfold RV
  generalize StableHlo.after (ops (F := F)) (fun b => m (c, b)) = W at h ⊢
  exact h
theorem rd_main_v232 : RV m c main_v232 = (cmpf .ogt : (⟨S128, .f32⟩ : BufTy).Contents (Elt F) → (⟨S128, .f32⟩ : BufTy).Contents (Elt F) → (⟨S128, .i1⟩ : BufTy).Contents (Elt F)) (RV m c main_v230) (RV m c main_v231) := by
  have h := (ops_asc (F := F)).read_binary (fun b => m (c, b)) 321 rfl (by decide) (by decide)
  unfold RV
  generalize StableHlo.after (ops (F := F)) (fun b => m (c, b)) = W at h ⊢
  exact h
theorem rd_main_v233 : RV m c main_v233 = (Host.rsqrt : (⟨S128, .f32⟩ : BufTy).Contents (Elt F) → (⟨S128, .f32⟩ : BufTy).Contents (Elt F)) (RV m c main_v230) := by
  have h := (ops_asc (F := F)).read_unary (fun b => m (c, b)) 322 rfl (by decide)
  unfold RV
  generalize StableHlo.after (ops (F := F)) (fun b => m (c, b)) = W at h ⊢
  exact h
theorem rd_main_cst_43 : RV m c main_cst_43 = (constant S_ .f32 0x00000000#32 : (⟨S_, .f32⟩ : BufTy).Contents (Elt F)) := by
  have h := (ops_asc (F := F)).read_nullary (fun b => m (c, b)) 323 rfl
  unfold RV
  generalize StableHlo.after (ops (F := F)) (fun b => m (c, b)) = W at h ⊢
  exact h
theorem rd_main_call12_v0 : RV m c main_call12_v0 = (RV m c main_cst_43) := by
  have h := (ops_asc (F := F)).read_unary (fun b => m (c, b)) 324 rfl (by decide)
  unfold RV
  generalize StableHlo.after (ops (F := F)) (fun b => m (c, b)) = W at h ⊢
  exact h
theorem rd_main_call12_v1 : RV m c main_call12_v1 = (broadcastInDim S128 ![] bcast_S_S128 : (⟨S_, .f32⟩ : BufTy).Contents (Elt F) → (⟨S128, .f32⟩ : BufTy).Contents (Elt F)) (RV m c main_call12_v0) := by
  have h := (ops_asc (F := F)).read_unary (fun b => m (c, b)) 325 rfl (by decide)
  unfold RV
  generalize StableHlo.after (ops (F := F)) (fun b => m (c, b)) = W at h ⊢
  exact h
theorem rd_main_v234 : RV m c main_v234 = (select : (⟨S128, .i1⟩ : BufTy).Contents (Elt F) → (⟨S128, .f32⟩ : BufTy).Contents (Elt F) → (⟨S128, .f32⟩ : BufTy).Contents (Elt F) → (⟨S128, .f32⟩ : BufTy).Contents (Elt F)) (RV m c main_v232) (RV m c main_v233) (RV m c main_call12_v1) := by
  have h := (ops_asc (F := F)).read_ternary (fun b => m (c, b)) 326 rfl (by decide) (by decide) (by decide)
  unfold RV
  generalize StableHlo.after (ops (F := F)) (fun b => m (c, b)) = W at h ⊢
  exact h
theorem rd_main_v235 : RV m c main_v235 = (broadcastInDim S128x1 ![0] bcast_S128_S128x1_0 : (⟨S128, .f32⟩ : BufTy).Contents (Elt F) → (⟨S128x1, .f32⟩ : BufTy).Contents (Elt F)) (RV m c main_v234) := by
  have h := (ops_asc (F := F)).read_unary (fun b => m (c, b)) 327 rfl (by decide)
  unfold RV
  generalize StableHlo.after (ops (F := F)) (fun b => m (c, b)) = W at h ⊢
  exact h
theorem rd_main_v236 : RV m c main_v236 = (broadcastInDim S128x128 ![0, 1] bcast_S128x1_S128x128_0_1 : (⟨S128x1, .f32⟩ : BufTy).Contents (Elt F) → (⟨S128x128, .f32⟩ : BufTy).Contents (Elt F)) (RV m c main_v235) := by
  have h := (ops_asc (F := F)).read_unary (fun b => m (c, b)) 328 rfl (by decide)
  unfold RV
  generalize StableHlo.after (ops (F := F)) (fun b => m (c, b)) = W at h ⊢
  exact h
theorem rd_main_v237 : RV m c main_v237 = (mulf : (⟨S128x128, .f32⟩ : BufTy).Contents (Elt F) → (⟨S128x128, .f32⟩ : BufTy).Contents (Elt F) → (⟨S128x128, .f32⟩ : BufTy).Contents (Elt F)) (RV m c main_v236) (RV m c main_v229) := by
  have h := (ops_asc (F := F)).read_binary (fun b => m (c, b)) 329 rfl (by decide) (by decide)
  unfold RV
  generalize StableHlo.after (ops (F := F)) (fun b => m (c, b)) = W at h ⊢
  exact h
theorem rd_main_v238 : RV m c main_v238 = (broadcastInDim S1x128 ![1] bcast_S128_S1x128_1 : (⟨S128, .f32⟩ : BufTy).Contents (Elt F) → (⟨S1x128, .f32⟩ : BufTy).Contents (Elt F)) (RV m c main_v234) := by
  have h := (ops_asc (F := F)).read_unary (fun b => m (c, b)) 330 rfl (by decide)
  unfold RV
  generalize StableHlo.after (ops (F := F)) (fun b => m (c, b)) = W at h ⊢
  exact h
theorem rd_main_v239 : RV m c main_v239 = (broadcastInDim S128x128 ![0, 1] bcast_S1x128_S128x128_0_1 : (⟨S1x128, .f32⟩ : BufTy).Contents (Elt F) → (⟨S128x128, .f32⟩ : BufTy).Contents (Elt F)) (RV m c main_v238) := by
  have h := (ops_asc (F := F)).read_unary (fun b => m (c, b)) 331 rfl (by decide)
  unfold RV
  generalize StableHlo.after (ops (F := F)) (fun b => m (c, b)) = W at h ⊢
  exact h
theorem rd_main_v240 : RV m c main_v240 = (mulf : (⟨S128x128, .f32⟩ : BufTy).Contents (Elt F) → (⟨S128x128, .f32⟩ : BufTy).Contents (Elt F) → (⟨S128x128, .f32⟩ : BufTy).Contents (Elt F)) (RV m c main_v237) (RV m c main_v239) := by
  have h := (ops_asc (F := F)).read_binary (fun b => m (c, b)) 332 rfl (by decide) (by decide)
  unfold RV
  generalize StableHlo.after (ops (F := F)) (fun b => m (c, b)) = W at h ⊢
  exact h
theorem rd_main_v241 : RV m c main_v241 = Host.dotGeneral dot_S128x512_S512x512_S128x512_1_0_0_1_n_n none (RV m c main_v175) (RV m c main_arg11) := by
  have h := (ops_asc (F := F)).read_binary (fun b => m (c, b)) 333 rfl (by decide) (by decide)
  unfold RV
  generalize StableHlo.after (ops (F := F)) (fun b => m (c, b)) = W at h ⊢
  exact h
theorem rd_main_v242 : RV m c main_v242 = Host.dotGeneral dot_S128x128_S128x512_S128x512_1_0_0_1_n_n none (RV m c main_v240) (RV m c main_v241) := by
  have h := (ops_asc (F := F)).read_binary (fun b => m (c, b)) 334 rfl (by decide) (by decide)
  unfold RV
  generalize StableHlo.after (ops (F := F)) (fun b => m (c, b)) = W at h ⊢
  exact h
theorem rd_main_v243 : RV m c main_v243 = (broadcastInDim S1x512 ![1] bcast_S512_S1x512_1 : (⟨S512, .f32⟩ : BufTy).Contents (Elt F) → (⟨S1x512, .f32⟩ : BufTy).Contents (Elt F)) (RV m c main_arg12) := by
  have h := (ops_asc (F := F)).read_unary (fun b => m (c, b)) 335 rfl (by decide)
  unfold RV
  generalize StableHlo.after (ops (F := F)) (fun b => m (c, b)) = W at h ⊢
  exact h
theorem rd_main_v244 : RV m c main_v244 = (broadcastInDim S128x512 ![0, 1] bcast_S1x512_S128x512_0_1 : (⟨S1x512, .f32⟩ : BufTy).Contents (Elt F) → (⟨S128x512, .f32⟩ : BufTy).Contents (Elt F)) (RV m c main_v243) := by
  have h := (ops_asc (F := F)).read_unary (fun b => m (c, b)) 336 rfl (by decide)
  unfold RV
  generalize StableHlo.after (ops (F := F)) (fun b => m (c, b)) = W at h ⊢
  exact h
theorem rd_main_v245 : RV m c main_v245 = (addf : (⟨S128x512, .f32⟩ : BufTy).Contents (Elt F) → (⟨S128x512, .f32⟩ : BufTy).Contents (Elt F) → (⟨S128x512, .f32⟩ : BufTy).Contents (Elt F)) (RV m c main_v242) (RV m c main_v244) := by
  have h := (ops_asc (F := F)).read_binary (fun b => m (c, b)) 337 rfl (by decide) (by decide)
  unfold RV
  generalize StableHlo.after (ops (F := F)) (fun b => m (c, b)) = W at h ⊢
  exact h
theorem rd_main_call13_cst : RV m c main_call13_cst = (constant S_ .f32 0x00000000#32 : (⟨S_, .f32⟩ : BufTy).Contents (Elt F)) := by
  have h := (ops_asc (F := F)).read_nullary (fun b => m (c, b)) 338 rfl
  unfold RV
  generalize StableHlo.after (ops (F := F)) (fun b => m (c, b)) = W at h ⊢
  exact h
theorem rd_main_call13_v0 : RV m c main_call13_v0 = (broadcastInDim S128x512 ![] bcast_S_S128x512 : (⟨S_, .f32⟩ : BufTy).Contents (Elt F) → (⟨S128x512, .f32⟩ : BufTy).Contents (Elt F)) (RV m c main_call13_cst) := by
  have h := (ops_asc (F := F)).read_unary (fun b => m (c, b)) 339 rfl (by decide)
  unfold RV
  generalize StableHlo.after (ops (F := F)) (fun b => m (c, b)) = W at h ⊢
  exact h
theorem rd_main_v246 : RV m c main_v246 = (maximumf : (⟨S128x512, .f32⟩ : BufTy).Contents (Elt F) → (⟨S128x512, .f32⟩ : BufTy).Contents (Elt F) → (⟨S128x512, .f32⟩ : BufTy).Contents (Elt F)) (RV m c main_v245) (RV m c main_call13_v0) := by
  have h := (ops_asc (F := F)).read_binary (fun b => m (c, b)) 340 rfl (by decide) (by decide)
  unfold RV
  generalize StableHlo.after (ops (F := F)) (fun b => m (c, b)) = W at h ⊢
  exact h
theorem rd_main_v247 : RV m c main_v247 = Host.dotGeneral dot_S128x512_S512x1_S128x1_1_0_0_1_n_n none (RV m c main_v246) (RV m c main_arg13) := by
  have h := (ops_asc (F := F)).read_binary (fun b => m (c, b)) 341 rfl (by decide) (by decide)
  unfold RV
  generalize StableHlo.after (ops (F := F)) (fun b => m (c, b)) = W at h ⊢
  exact h
theorem rd_main_v248 : RV m c main_v248 = (broadcastInDim S1x1 ![1] bcast_S1_S1x1_1 : (⟨S1, .f32⟩ : BufTy).Contents (Elt F) → (⟨S1x1, .f32⟩ : BufTy).Contents (Elt F)) (RV m c main_arg14) := by
  have h := (ops_asc (F := F)).read_unary (fun b => m (c, b)) 342 rfl (by decide)
  unfold RV
  generalize StableHlo.after (ops (F := F)) (fun b => m (c, b)) = W at h ⊢
  exact h
theorem rd_main_v249 : RV m c main_v249 = (broadcastInDim S128x1 ![0, 1] bcast_S1x1_S128x1_0_1 : (⟨S1x1, .f32⟩ : BufTy).Contents (Elt F) → (⟨S128x1, .f32⟩ : BufTy).Contents (Elt F)) (RV m c main_v248) := by
  have h := (ops_asc (F := F)).read_unary (fun b => m (c, b)) 343 rfl (by decide)
  unfold RV
  generalize StableHlo.after (ops (F := F)) (fun b => m (c, b)) = W at h ⊢
  exact h
theorem rd_main_v250 : RV m c main_v250 = (addf : (⟨S128x1, .f32⟩ : BufTy).Contents (Elt F) → (⟨S128x1, .f32⟩ : BufTy).Contents (Elt F) → (⟨S128x1, .f32⟩ : BufTy).Contents (Elt F)) (RV m c main_v247) (RV m c main_v249) := by
  have h := (ops_asc (F := F)).read_binary (fun b => m (c, b)) 344 rfl (by decide) (by decide)
  unfold RV
  generalize StableHlo.after (ops (F := F)) (fun b => m (c, b)) = W at h ⊢
  exact h
theorem rd_main_call14_cst : RV m c main_call14_cst = (constant S_ .f32 0x00000000#32 : (⟨S_, .f32⟩ : BufTy).Contents (Elt F)) := by
  have h := (ops_asc (F := F)).read_nullary (fun b => m (c, b)) 345 rfl
  unfold RV
  generalize StableHlo.after (ops (F := F)) (fun b => m (c, b)) = W at h ⊢
  exact h
theorem rd_main_call14_v0 : RV m c main_call14_v0 = (broadcastInDim S128x1 ![] bcast_S_S128x1 : (⟨S_, .f32⟩ : BufTy).Contents (Elt F) → (⟨S128x1, .f32⟩ : BufTy).Contents (Elt F)) (RV m c main_call14_cst) := by
  have h := (ops_asc (F := F)).read_unary (fun b => m (c, b)) 346 rfl (by decide)
  unfold RV
  generalize StableHlo.after (ops (F := F)) (fun b => m (c, b)) = W at h ⊢
  exact h
theorem rd_main_v251 : RV m c main_v251 = (maximumf : (⟨S128x1, .f32⟩ : BufTy).Contents (Elt F) → (⟨S128x1, .f32⟩ : BufTy).Contents (Elt F) → (⟨S128x1, .f32⟩ : BufTy).Contents (Elt F)) (RV m c main_v250) (RV m c main_call14_v0) := by
  have h := (ops_asc (F := F)).read_binary (fun b => m (c, b)) 347 rfl (by decide) (by decide)
  unfold RV
  generalize StableHlo.after (ops (F := F)) (fun b => m (c, b)) = W at h ⊢
  exact h
theorem rd_main_cst_44 : RV m c main_cst_44 = (constant S_ .f32 0xFF800000#32 : (⟨S_, .f32⟩ : BufTy).Contents (Elt F)) := by
  have h := (ops_asc (F := F)).read_nullary (fun b => m (c, b)) 348 rfl
  unfold RV
  generalize StableHlo.after (ops (F := F)) (fun b => m (c, b)) = W at h ⊢
  exact h
theorem rd_main_v252 : RV m c main_v252 = Host.reduce FloatOps.maximumf (RV m c main_v251) (RV m c main_cst_44) reducesTo_S128x1_S128_d1 h_S_ := by
  have h := (ops_asc (F := F)).read_binary (fun b => m (c, b)) 349 rfl (by decide) (by decide)
  unfold RV
  generalize StableHlo.after (ops (F := F)) (fun b => m (c, b)) = W at h ⊢
  exact h

end Cert.ReferenceIdeal.HandRun

end
-- ==== Proof.Ref.Reads5.lean ====
import proofs.«405323_j90718299226206_3_alg».proof.Proof.Ref.ReadsAsc

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

theorem rd_main_cst_45 : RV m c main_cst_45 = (constant S_ .f32 0xFF800000#32 : (⟨S_, .f32⟩ : BufTy).Contents (Elt F)) := by
  have h := (ops_asc (F := F)).read_nullary (fun b => m (c, b)) 350 rfl
  unfold RV
  generalize StableHlo.after (ops (F := F)) (fun b => m (c, b)) = W at h ⊢
  exact h
theorem rd_main_v253 : RV m c main_v253 = (broadcastInDim S128 ![] bcast_S_S128 : (⟨S_, .f32⟩ : BufTy).Contents (Elt F) → (⟨S128, .f32⟩ : BufTy).Contents (Elt F)) (RV m c main_cst_45) := by
  have h := (ops_asc (F := F)).read_unary (fun b => m (c, b)) 351 rfl (by decide)
  unfold RV
  generalize StableHlo.after (ops (F := F)) (fun b => m (c, b)) = W at h ⊢
  exact h
theorem rd_main_v254 : RV m c main_v254 = (maximumf : (⟨S128, .f32⟩ : BufTy).Contents (Elt F) → (⟨S128, .f32⟩ : BufTy).Contents (Elt F) → (⟨S128, .f32⟩ : BufTy).Contents (Elt F)) (RV m c main_v253) (RV m c main_v252) := by
  have h := (ops_asc (F := F)).read_binary (fun b => m (c, b)) 352 rfl (by decide) (by decide)
  unfold RV
  generalize StableHlo.after (ops (F := F)) (fun b => m (c, b)) = W at h ⊢
  exact h
theorem rd_main_v255 : RV m c main_v255 = (broadcastInDim S128x1 ![0] bcast_S128_S128x1_0 : (⟨S128, .f32⟩ : BufTy).Contents (Elt F) → (⟨S128x1, .f32⟩ : BufTy).Contents (Elt F)) (RV m c main_v254) := by
  have h := (ops_asc (F := F)).read_unary (fun b => m (c, b)) 353 rfl (by decide)
  unfold RV
  generalize StableHlo.after (ops (F := F)) (fun b => m (c, b)) = W at h ⊢
  exact h
theorem rd_main_v256 : RV m c main_v256 = (subf : (⟨S128x1, .f32⟩ : BufTy).Contents (Elt F) → (⟨S128x1, .f32⟩ : BufTy).Contents (Elt F) → (⟨S128x1, .f32⟩ : BufTy).Contents (Elt F)) (RV m c main_v251) (RV m c main_v255) := by
  have h := (ops_asc (F := F)).read_binary (fun b => m (c, b)) 354 rfl (by decide) (by decide)
  unfold RV
  generalize StableHlo.after (ops (F := F)) (fun b => m (c, b)) = W at h ⊢
  exact h
theorem rd_main_v257 : RV m c main_v257 = (Host.exp : (⟨S128x1, .f32⟩ : BufTy).Contents (Elt F) → (⟨S128x1, .f32⟩ : BufTy).Contents (Elt F)) (RV m c main_v256) := by
  have h := (ops_asc (F := F)).read_unary (fun b => m (c, b)) 355 rfl (by decide)
  unfold RV
  generalize StableHlo.after (ops (F := F)) (fun b => m (c, b)) = W at h ⊢
  exact h
theorem rd_main_cst_46 : RV m c main_cst_46 = (constant S_ .f32 0x00000000#32 : (⟨S_, .f32⟩ : BufTy).Contents (Elt F)) := by
  have h := (ops_asc (F := F)).read_nullary (fun b => m (c, b)) 356 rfl
  unfold RV
  generalize StableHlo.after (ops (F := F)) (fun b => m (c, b)) = W at h ⊢
  exact h
theorem rd_main_v258 : RV m c main_v258 = Host.reduceAdd (RV m c main_v257) (RV m c main_cst_46) reducesTo_S128x1_S128_d1 h_S_ := by
  have h := (ops_asc (F := F)).read_binary (fun b => m (c, b)) 357 rfl (by decide) (by decide)
  unfold RV
  generalize StableHlo.after (ops (F := F)) (fun b => m (c, b)) = W at h ⊢
  exact h
theorem rd_main_v259 : RV m c main_v259 = (broadcastInDim S128x1 ![0] bcast_S128_S128x1_0 : (⟨S128, .f32⟩ : BufTy).Contents (Elt F) → (⟨S128x1, .f32⟩ : BufTy).Contents (Elt F)) (RV m c main_v258) := by
  have h := (ops_asc (F := F)).read_unary (fun b => m (c, b)) 358 rfl (by decide)
  unfold RV
  generalize StableHlo.after (ops (F := F)) (fun b => m (c, b)) = W at h ⊢
  exact h
theorem rd_main_v260 : RV m c main_v260 = (Host.divf : (⟨S128x1, .f32⟩ : BufTy).Contents (Elt F) → (⟨S128x1, .f32⟩ : BufTy).Contents (Elt F) → (⟨S128x1, .f32⟩ : BufTy).Contents (Elt F)) (RV m c main_v257) (RV m c main_v259) := by
  have h := (ops_asc (F := F)).read_binary (fun b => m (c, b)) 359 rfl (by decide) (by decide)
  unfold RV
  generalize StableHlo.after (ops (F := F)) (fun b => m (c, b)) = W at h ⊢
  exact h
theorem rd_main_v261 : RV m c main_v261 = transpose S1x128 [1, 0] (RV m c main_v260) transposes_S128x1_S1x128_1_0 := by
  have h := (ops_asc (F := F)).read_unary (fun b => m (c, b)) 360 rfl (by decide)
  unfold RV
  generalize StableHlo.after (ops (F := F)) (fun b => m (c, b)) = W at h ⊢
  exact h
theorem rd_main_v262 : RV m c main_v262 = Host.dotGeneral dot_S1x128_S128x512_S1x512_1_0_0_1_n_n none (RV m c main_v261) (RV m c main_v246) := by
  have h := (ops_asc (F := F)).read_binary (fun b => m (c, b)) 361 rfl (by decide) (by decide)
  unfold RV
  generalize StableHlo.after (ops (F := F)) (fun b => m (c, b)) = W at h ⊢
  exact h
theorem rd_main_v263 : RV m c main_v263 = transpose S1x128 [1, 0] (RV m c main_v260) transposes_S128x1_S1x128_1_0 := by
  have h := (ops_asc (F := F)).read_unary (fun b => m (c, b)) 362 rfl (by decide)
  unfold RV
  generalize StableHlo.after (ops (F := F)) (fun b => m (c, b)) = W at h ⊢
  exact h
theorem rd_main_v264 : RV m c main_v264 = Host.dotGeneral dot_S128x128_S128x1_S128x1_1_0_0_1_n_n none (RV m c main_v222) (RV m c main_v260) := by
  have h := (ops_asc (F := F)).read_binary (fun b => m (c, b)) 363 rfl (by decide) (by decide)
  unfold RV
  generalize StableHlo.after (ops (F := F)) (fun b => m (c, b)) = W at h ⊢
  exact h
theorem rd_main_v265 : RV m c main_v265 = Host.dotGeneral dot_S1x128_S128x1_S1x1_1_0_0_1_n_n none (RV m c main_v263) (RV m c main_v264) := by
  have h := (ops_asc (F := F)).read_binary (fun b => m (c, b)) 364 rfl (by decide) (by decide)
  unfold RV
  generalize StableHlo.after (ops (F := F)) (fun b => m (c, b)) = W at h ⊢
  exact h
theorem rd_main_call15_v0 : RV m c main_call15_v0 = (iotaInDim S1x1 32 0 : (⟨S1x1, .i32⟩ : BufTy).Contents (Elt F)) := by
  have h := (ops_asc (F := F)).read_nullary (fun b => m (c, b)) 365 rfl
  unfold RV
  generalize StableHlo.after (ops (F := F)) (fun b => m (c, b)) = W at h ⊢
  exact h
theorem rd_main_call15_v1 : RV m c main_call15_v1 = (iotaInDim S1x1 32 1 : (⟨S1x1, .i32⟩ : BufTy).Contents (Elt F)) := by
  have h := (ops_asc (F := F)).read_nullary (fun b => m (c, b)) 366 rfl
  unfold RV
  generalize StableHlo.after (ops (F := F)) (fun b => m (c, b)) = W at h ⊢
  exact h
theorem rd_main_call15_c : RV m c main_call15_c = (constantI S_ 32 0#32 : (⟨S_, .i32⟩ : BufTy).Contents (Elt F)) := by
  have h := (ops_asc (F := F)).read_nullary (fun b => m (c, b)) 367 rfl
  unfold RV
  generalize StableHlo.after (ops (F := F)) (fun b => m (c, b)) = W at h ⊢
  exact h
theorem rd_main_call15_v2 : RV m c main_call15_v2 = (broadcastInDim S1x1 ![] bcast_S_S1x1 : (⟨S_, .i32⟩ : BufTy).Contents (Elt F) → (⟨S1x1, .i32⟩ : BufTy).Contents (Elt F)) (RV m c main_call15_c) := by
  have h := (ops_asc (F := F)).read_unary (fun b => m (c, b)) 368 rfl (by decide)
  unfold RV
  generalize StableHlo.after (ops (F := F)) (fun b => m (c, b)) = W at h ⊢
  exact h
theorem rd_main_call15_v3 : RV m c main_call15_v3 = (addi : (⟨S1x1, .i32⟩ : BufTy).Contents (Elt F) → (⟨S1x1, .i32⟩ : BufTy).Contents (Elt F) → (⟨S1x1, .i32⟩ : BufTy).Contents (Elt F)) (RV m c main_call15_v0) (RV m c main_call15_v2) := by
  have h := (ops_asc (F := F)).read_binary (fun b => m (c, b)) 369 rfl (by decide) (by decide)
  unfold RV
  generalize StableHlo.after (ops (F := F)) (fun b => m (c, b)) = W at h ⊢
  exact h
theorem rd_main_call15_v4 : RV m c main_call15_v4 = (cmpi .eq : (⟨S1x1, .i32⟩ : BufTy).Contents (Elt F) → (⟨S1x1, .i32⟩ : BufTy).Contents (Elt F) → (⟨S1x1, .i1⟩ : BufTy).Contents (Elt F)) (RV m c main_call15_v3) (RV m c main_call15_v1) := by
  have h := (ops_asc (F := F)).read_binary (fun b => m (c, b)) 370 rfl (by decide) (by decide)
  unfold RV
  generalize StableHlo.after (ops (F := F)) (fun b => m (c, b)) = W at h ⊢
  exact h
theorem rd_main_call15_cst : RV m c main_call15_cst = (constant S_ .f32 0x00000000#32 : (⟨S_, .f32⟩ : BufTy).Contents (Elt F)) := by
  have h := (ops_asc (F := F)).read_nullary (fun b => m (c, b)) 371 rfl
  unfold RV
  generalize StableHlo.after (ops (F := F)) (fun b => m (c, b)) = W at h ⊢
  exact h
theorem rd_main_call15_v5 : RV m c main_call15_v5 = (broadcastInDim S1x1 ![] bcast_S_S1x1 : (⟨S_, .f32⟩ : BufTy).Contents (Elt F) → (⟨S1x1, .f32⟩ : BufTy).Contents (Elt F)) (RV m c main_call15_cst) := by
  have h := (ops_asc (F := F)).read_unary (fun b => m (c, b)) 372 rfl (by decide)
  unfold RV
  generalize StableHlo.after (ops (F := F)) (fun b => m (c, b)) = W at h ⊢
  exact h
theorem rd_main_call15_v6 : RV m c main_call15_v6 = (select : (⟨S1x1, .i1⟩ : BufTy).Contents (Elt F) → (⟨S1x1, .f32⟩ : BufTy).Contents (Elt F) → (⟨S1x1, .f32⟩ : BufTy).Contents (Elt F) → (⟨S1x1, .f32⟩ : BufTy).Contents (Elt F)) (RV m c main_call15_v4) (RV m c main_v265) (RV m c main_call15_v5) := by
  have h := (ops_asc (F := F)).read_ternary (fun b => m (c, b)) 373 rfl (by decide) (by decide) (by decide)
  unfold RV
  generalize StableHlo.after (ops (F := F)) (fun b => m (c, b)) = W at h ⊢
  exact h
theorem rd_main_call15_cst_0 : RV m c main_call15_cst_0 = (constant S_ .f32 0x00000000#32 : (⟨S_, .f32⟩ : BufTy).Contents (Elt F)) := by
  have h := (ops_asc (F := F)).read_nullary (fun b => m (c, b)) 374 rfl
  unfold RV
  generalize StableHlo.after (ops (F := F)) (fun b => m (c, b)) = W at h ⊢
  exact h
theorem rd_main_v266 : RV m c main_v266 = Host.reduceAdd (RV m c main_call15_v6) (RV m c main_call15_cst_0) reducesTo_S1x1_S_d0_1 h_S_ := by
  have h := (ops_asc (F := F)).read_binary (fun b => m (c, b)) 375 rfl (by decide) (by decide)
  unfold RV
  generalize StableHlo.after (ops (F := F)) (fun b => m (c, b)) = W at h ⊢
  exact h
theorem rd_main_cst_47 : RV m c main_cst_47 = (constant S_ .f32 0x00000000#32 : (⟨S_, .f32⟩ : BufTy).Contents (Elt F)) := by
  have h := (ops_asc (F := F)).read_nullary (fun b => m (c, b)) 376 rfl
  unfold RV
  generalize StableHlo.after (ops (F := F)) (fun b => m (c, b)) = W at h ⊢
  exact h
theorem rd_main_v267 : RV m c main_v267 = Host.reduceAdd (RV m c main_v222) (RV m c main_cst_47) reducesTo_S128x128_S128_d1 h_S_ := by
  have h := (ops_asc (F := F)).read_binary (fun b => m (c, b)) 377 rfl (by decide) (by decide)
  unfold RV
  generalize StableHlo.after (ops (F := F)) (fun b => m (c, b)) = W at h ⊢
  exact h
theorem rd_main_v268 : RV m c main_v268 = (broadcastInDim S128x1 ![0] bcast_S128_S128x1_0 : (⟨S128, .f32⟩ : BufTy).Contents (Elt F) → (⟨S128x1, .f32⟩ : BufTy).Contents (Elt F)) (RV m c main_v267) := by
  have h := (ops_asc (F := F)).read_unary (fun b => m (c, b)) 378 rfl (by decide)
  unfold RV
  generalize StableHlo.after (ops (F := F)) (fun b => m (c, b)) = W at h ⊢
  exact h
theorem rd_main_v269 : RV m c main_v269 = (mulf : (⟨S128x1, .f32⟩ : BufTy).Contents (Elt F) → (⟨S128x1, .f32⟩ : BufTy).Contents (Elt F) → (⟨S128x1, .f32⟩ : BufTy).Contents (Elt F)) (RV m c main_v268) (RV m c main_v260) := by
  have h := (ops_asc (F := F)).read_binary (fun b => m (c, b)) 379 rfl (by decide) (by decide)
  unfold RV
  generalize StableHlo.after (ops (F := F)) (fun b => m (c, b)) = W at h ⊢
  exact h
theorem rd_main_v270 : RV m c main_v270 = (mulf : (⟨S128x1, .f32⟩ : BufTy).Contents (Elt F) → (⟨S128x1, .f32⟩ : BufTy).Contents (Elt F) → (⟨S128x1, .f32⟩ : BufTy).Contents (Elt F)) (RV m c main_v269) (RV m c main_v260) := by
  have h := (ops_asc (F := F)).read_binary (fun b => m (c, b)) 380 rfl (by decide) (by decide)
  unfold RV
  generalize StableHlo.after (ops (F := F)) (fun b => m (c, b)) = W at h ⊢
  exact h
theorem rd_main_cst_48 : RV m c main_cst_48 = (constant S_ .f32 0x00000000#32 : (⟨S_, .f32⟩ : BufTy).Contents (Elt F)) := by
  have h := (ops_asc (F := F)).read_nullary (fun b => m (c, b)) 381 rfl
  unfold RV
  generalize StableHlo.after (ops (F := F)) (fun b => m (c, b)) = W at h ⊢
  exact h
theorem rd_main_v271 : RV m c main_v271 = Host.reduceAdd (RV m c main_v270) (RV m c main_cst_48) reducesTo_S128x1_S_d0_1 h_S_ := by
  have h := (ops_asc (F := F)).read_binary (fun b => m (c, b)) 382 rfl (by decide) (by decide)
  unfold RV
  generalize StableHlo.after (ops (F := F)) (fun b => m (c, b)) = W at h ⊢
  exact h
theorem rd_main_v272 : RV m c main_v272 = (Host.divf : (⟨S_, .f32⟩ : BufTy).Contents (Elt F) → (⟨S_, .f32⟩ : BufTy).Contents (Elt F) → (⟨S_, .f32⟩ : BufTy).Contents (Elt F)) (RV m c main_v266) (RV m c main_v271) := by
  have h := (ops_asc (F := F)).read_binary (fun b => m (c, b)) 383 rfl (by decide) (by decide)
  unfold RV
  generalize StableHlo.after (ops (F := F)) (fun b => m (c, b)) = W at h ⊢
  exact h
theorem rd_main_v273 : RV m c main_v273 = (Host.negf : (⟨S_, .f32⟩ : BufTy).Contents (Elt F) → (⟨S_, .f32⟩ : BufTy).Contents (Elt F)) (RV m c main_v272) := by
  have h := (ops_asc (F := F)).read_unary (fun b => m (c, b)) 384 rfl (by decide)
  unfold RV
  generalize StableHlo.after (ops (F := F)) (fun b => m (c, b)) = W at h ⊢
  exact h
theorem rd_main_v274 : RV m c main_v274 = transpose S1x128 [1, 0] (RV m c main_v260) transposes_S128x1_S1x128_1_0 := by
  have h := (ops_asc (F := F)).read_unary (fun b => m (c, b)) 385 rfl (by decide)
  unfold RV
  generalize StableHlo.after (ops (F := F)) (fun b => m (c, b)) = W at h ⊢
  exact h
theorem rd_main_v275 : RV m c main_v275 = Host.dotGeneral dot_S1x128_S128x1_S1x1_1_0_0_1_n_n none (RV m c main_v274) (RV m c main_v260) := by
  have h := (ops_asc (F := F)).read_binary (fun b => m (c, b)) 386 rfl (by decide) (by decide)
  unfold RV
  generalize StableHlo.after (ops (F := F)) (fun b => m (c, b)) = W at h ⊢
  exact h
theorem rd_main_call16_v0 : RV m c main_call16_v0 = (mulf : (⟨S1x1, .f32⟩ : BufTy).Contents (Elt F) → (⟨S1x1, .f32⟩ : BufTy).Contents (Elt F) → (⟨S1x1, .f32⟩ : BufTy).Contents (Elt F)) (RV m c main_v275) (RV m c main_v275) := by
  have h := (ops_asc (F := F)).read_binary (fun b => m (c, b)) 387 rfl (by decide) (by decide)
  unfold RV
  generalize StableHlo.after (ops (F := F)) (fun b => m (c, b)) = W at h ⊢
  exact h
theorem rd_main_call16_cst : RV m c main_call16_cst = (constant S_ .f32 0x00000000#32 : (⟨S_, .f32⟩ : BufTy).Contents (Elt F)) := by
  have h := (ops_asc (F := F)).read_nullary (fun b => m (c, b)) 388 rfl
  unfold RV
  generalize StableHlo.after (ops (F := F)) (fun b => m (c, b)) = W at h ⊢
  exact h
theorem rd_main_call16_v1 : RV m c main_call16_v1 = Host.reduceAdd (RV m c main_call16_v0) (RV m c main_call16_cst) reducesTo_S1x1_S_d0_1 h_S_ := by
  have h := (ops_asc (F := F)).read_binary (fun b => m (c, b)) 389 rfl (by decide) (by decide)
  unfold RV
  generalize StableHlo.after (ops (F := F)) (fun b => m (c, b)) = W at h ⊢
  exact h
theorem rd_main_v276 : RV m c main_v276 = (Host.sqrt : (⟨S_, .f32⟩ : BufTy).Contents (Elt F) → (⟨S_, .f32⟩ : BufTy).Contents (Elt F)) (RV m c main_call16_v1) := by
  have h := (ops_asc (F := F)).read_unary (fun b => m (c, b)) 390 rfl (by decide)
  unfold RV
  generalize StableHlo.after (ops (F := F)) (fun b => m (c, b)) = W at h ⊢
  exact h
theorem rd_main_v277 : RV m c main_v277 = (broadcastInDim S1x1 ![] bcast_S_S1x1 : (⟨S_, .f32⟩ : BufTy).Contents (Elt F) → (⟨S1x1, .f32⟩ : BufTy).Contents (Elt F)) (RV m c main_v276) := by
  have h := (ops_asc (F := F)).read_unary (fun b => m (c, b)) 391 rfl (by decide)
  unfold RV
  generalize StableHlo.after (ops (F := F)) (fun b => m (c, b)) = W at h ⊢
  exact h
theorem rd_main_v278 : RV m c main_v278 = (Host.divf : (⟨S1x1, .f32⟩ : BufTy).Contents (Elt F) → (⟨S1x1, .f32⟩ : BufTy).Contents (Elt F) → (⟨S1x1, .f32⟩ : BufTy).Contents (Elt F)) (RV m c main_v275) (RV m c main_v277) := by
  have h := (ops_asc (F := F)).read_binary (fun b => m (c, b)) 392 rfl (by decide) (by decide)
  unfold RV
  generalize StableHlo.after (ops (F := F)) (fun b => m (c, b)) = W at h ⊢
  exact h
theorem rd_main_v279 : RV m c main_v279 = (iotaInDim S1x1 32 0 : (⟨S1x1, .i32⟩ : BufTy).Contents (Elt F)) := by
  have h := (ops_asc (F := F)).read_nullary (fun b => m (c, b)) 393 rfl
  unfold RV
  generalize StableHlo.after (ops (F := F)) (fun b => m (c, b)) = W at h ⊢
  exact h
theorem rd_main_v280 : RV m c main_v280 = (iotaInDim S1x1 32 1 : (⟨S1x1, .i32⟩ : BufTy).Contents (Elt F)) := by
  have h := (ops_asc (F := F)).read_nullary (fun b => m (c, b)) 394 rfl
  unfold RV
  generalize StableHlo.after (ops (F := F)) (fun b => m (c, b)) = W at h ⊢
  exact h
theorem rd_main_c_49 : RV m c main_c_49 = (constantI S_ 32 0#32 : (⟨S_, .i32⟩ : BufTy).Contents (Elt F)) := by
  have h := (ops_asc (F := F)).read_nullary (fun b => m (c, b)) 395 rfl
  unfold RV
  generalize StableHlo.after (ops (F := F)) (fun b => m (c, b)) = W at h ⊢
  exact h
theorem rd_main_v281 : RV m c main_v281 = (broadcastInDim S1x1 ![] bcast_S_S1x1 : (⟨S_, .i32⟩ : BufTy).Contents (Elt F) → (⟨S1x1, .i32⟩ : BufTy).Contents (Elt F)) (RV m c main_c_49) := by
  have h := (ops_asc (F := F)).read_unary (fun b => m (c, b)) 396 rfl (by decide)
  unfold RV
  generalize StableHlo.after (ops (F := F)) (fun b => m (c, b)) = W at h ⊢
  exact h
theorem rd_main_v282 : RV m c main_v282 = (addi : (⟨S1x1, .i32⟩ : BufTy).Contents (Elt F) → (⟨S1x1, .i32⟩ : BufTy).Contents (Elt F) → (⟨S1x1, .i32⟩ : BufTy).Contents (Elt F)) (RV m c main_v279) (RV m c main_v281) := by
  have h := (ops_asc (F := F)).read_binary (fun b => m (c, b)) 397 rfl (by decide) (by decide)
  unfold RV
  generalize StableHlo.after (ops (F := F)) (fun b => m (c, b)) = W at h ⊢
  exact h
theorem rd_main_v283 : RV m c main_v283 = (cmpi .eq : (⟨S1x1, .i32⟩ : BufTy).Contents (Elt F) → (⟨S1x1, .i32⟩ : BufTy).Contents (Elt F) → (⟨S1x1, .i1⟩ : BufTy).Contents (Elt F)) (RV m c main_v282) (RV m c main_v280) := by
  have h := (ops_asc (F := F)).read_binary (fun b => m (c, b)) 398 rfl (by decide) (by decide)
  unfold RV
  generalize StableHlo.after (ops (F := F)) (fun b => m (c, b)) = W at h ⊢
  exact h
theorem rd_main_v284 : RV m c main_v284 = (uitofp .f32 : (⟨S1x1, .i1⟩ : BufTy).Contents (Elt F) → (⟨S1x1, .f32⟩ : BufTy).Contents (Elt F)) (RV m c main_v283) := by
  have h := (ops_asc (F := F)).read_unary (fun b => m (c, b)) 399 rfl (by decide)
  unfold RV
  generalize StableHlo.after (ops (F := F)) (fun b => m (c, b)) = W at h ⊢
  exact h
theorem rd_main_cst_50 : RV m c main_cst_50 = (constant S_ .f32 0x3F800000#32 : (⟨S_, .f32⟩ : BufTy).Contents (Elt F)) := by
  have h := (ops_asc (F := F)).read_nullary (fun b => m (c, b)) 400 rfl
  unfold RV
  generalize StableHlo.after (ops (F := F)) (fun b => m (c, b)) = W at h ⊢
  exact h
theorem rd_main_v285 : RV m c main_v285 = (Host.sqrt : (⟨S_, .f32⟩ : BufTy).Contents (Elt F) → (⟨S_, .f32⟩ : BufTy).Contents (Elt F)) (RV m c main_cst_50) := by
  have h := (ops_asc (F := F)).read_unary (fun b => m (c, b)) 401 rfl (by decide)
  unfold RV
  generalize StableHlo.after (ops (F := F)) (fun b => m (c, b)) = W at h ⊢
  exact h
theorem rd_main_v286 : RV m c main_v286 = (broadcastInDim S1x1 ![] bcast_S_S1x1 : (⟨S_, .f32⟩ : BufTy).Contents (Elt F) → (⟨S1x1, .f32⟩ : BufTy).Contents (Elt F)) (RV m c main_v285) := by
  have h := (ops_asc (F := F)).read_unary (fun b => m (c, b)) 402 rfl (by decide)
  unfold RV
  generalize StableHlo.after (ops (F := F)) (fun b => m (c, b)) = W at h ⊢
  exact h
theorem rd_main_v287 : RV m c main_v287 = (Host.divf : (⟨S1x1, .f32⟩ : BufTy).Contents (Elt F) → (⟨S1x1, .f32⟩ : BufTy).Contents (Elt F) → (⟨S1x1, .f32⟩ : BufTy).Contents (Elt F)) (RV m c main_v284) (RV m c main_v286) := by
  have h := (ops_asc (F := F)).read_binary (fun b => m (c, b)) 403 rfl (by decide) (by decide)
  unfold RV
  generalize StableHlo.after (ops (F := F)) (fun b => m (c, b)) = W at h ⊢
  exact h
theorem rd_main_v288 : RV m c main_v288 = (subf : (⟨S1x1, .f32⟩ : BufTy).Contents (Elt F) → (⟨S1x1, .f32⟩ : BufTy).Contents (Elt F) → (⟨S1x1, .f32⟩ : BufTy).Contents (Elt F)) (RV m c main_v278) (RV m c main_v287) := by
  have h := (ops_asc (F := F)).read_binary (fun b => m (c, b)) 404 rfl (by decide) (by decide)
  unfold RV
  generalize StableHlo.after (ops (F := F)) (fun b => m (c, b)) = W at h ⊢
  exact h
theorem rd_main_call17_v0 : RV m c main_call17_v0 = (mulf : (⟨S1x1, .f32⟩ : BufTy).Contents (Elt F) → (⟨S1x1, .f32⟩ : BufTy).Contents (Elt F) → (⟨S1x1, .f32⟩ : BufTy).Contents (Elt F)) (RV m c main_v288) (RV m c main_v288) := by
  have h := (ops_asc (F := F)).read_binary (fun b => m (c, b)) 405 rfl (by decide) (by decide)
  unfold RV
  generalize StableHlo.after (ops (F := F)) (fun b => m (c, b)) = W at h ⊢
  exact h
theorem rd_main_call17_cst : RV m c main_call17_cst = (constant S_ .f32 0x00000000#32 : (⟨S_, .f32⟩ : BufTy).Contents (Elt F)) := by
  have h := (ops_asc (F := F)).read_nullary (fun b => m (c, b)) 406 rfl
  unfold RV
  generalize StableHlo.after (ops (F := F)) (fun b => m (c, b)) = W at h ⊢
  exact h
theorem rd_main_call17_v1 : RV m c main_call17_v1 = Host.reduceAdd (RV m c main_call17_v0) (RV m c main_call17_cst) reducesTo_S1x1_S_d0_1 h_S_ := by
  have h := (ops_asc (F := F)).read_binary (fun b => m (c, b)) 407 rfl (by decide) (by decide)
  unfold RV
  generalize StableHlo.after (ops (F := F)) (fun b => m (c, b)) = W at h ⊢
  exact h
theorem rd_main_v289 : RV m c main_v289 = (Host.sqrt : (⟨S_, .f32⟩ : BufTy).Contents (Elt F) → (⟨S_, .f32⟩ : BufTy).Contents (Elt F)) (RV m c main_call17_v1) := by
  have h := (ops_asc (F := F)).read_unary (fun b => m (c, b)) 408 rfl (by decide)
  unfold RV
  generalize StableHlo.after (ops (F := F)) (fun b => m (c, b)) = W at h ⊢
  exact h
theorem rd_main_v290 : RV m c main_v290 = (iotaInDim S1x1 32 0 : (⟨S1x1, .i32⟩ : BufTy).Contents (Elt F)) := by
  have h := (ops_asc (F := F)).read_nullary (fun b => m (c, b)) 409 rfl
  unfold RV
  generalize StableHlo.after (ops (F := F)) (fun b => m (c, b)) = W at h ⊢
  exact h
theorem rd_main_v291 : RV m c main_v291 = (iotaInDim S1x1 32 1 : (⟨S1x1, .i32⟩ : BufTy).Contents (Elt F)) := by
  have h := (ops_asc (F := F)).read_nullary (fun b => m (c, b)) 410 rfl
  unfold RV
  generalize StableHlo.after (ops (F := F)) (fun b => m (c, b)) = W at h ⊢
  exact h
theorem rd_main_c_51 : RV m c main_c_51 = (constantI S_ 32 0#32 : (⟨S_, .i32⟩ : BufTy).Contents (Elt F)) := by
  have h := (ops_asc (F := F)).read_nullary (fun b => m (c, b)) 411 rfl
  unfold RV
  generalize StableHlo.after (ops (F := F)) (fun b => m (c, b)) = W at h ⊢
  exact h
theorem rd_main_v292 : RV m c main_v292 = (broadcastInDim S1x1 ![] bcast_S_S1x1 : (⟨S_, .i32⟩ : BufTy).Contents (Elt F) → (⟨S1x1, .i32⟩ : BufTy).Contents (Elt F)) (RV m c main_c_51) := by
  have h := (ops_asc (F := F)).read_unary (fun b => m (c, b)) 412 rfl (by decide)
  unfold RV
  generalize StableHlo.after (ops (F := F)) (fun b => m (c, b)) = W at h ⊢
  exact h
theorem rd_main_v293 : RV m c main_v293 = (addi : (⟨S1x1, .i32⟩ : BufTy).Contents (Elt F) → (⟨S1x1, .i32⟩ : BufTy).Contents (Elt F) → (⟨S1x1, .i32⟩ : BufTy).Contents (Elt F)) (RV m c main_v290) (RV m c main_v292) := by
  have h := (ops_asc (F := F)).read_binary (fun b => m (c, b)) 413 rfl (by decide) (by decide)
  unfold RV
  generalize StableHlo.after (ops (F := F)) (fun b => m (c, b)) = W at h ⊢
  exact h
theorem rd_main_v294 : RV m c main_v294 = (cmpi .eq : (⟨S1x1, .i32⟩ : BufTy).Contents (Elt F) → (⟨S1x1, .i32⟩ : BufTy).Contents (Elt F) → (⟨S1x1, .i1⟩ : BufTy).Contents (Elt F)) (RV m c main_v293) (RV m c main_v291) := by
  have h := (ops_asc (F := F)).read_binary (fun b => m (c, b)) 414 rfl (by decide) (by decide)
  unfold RV
  generalize StableHlo.after (ops (F := F)) (fun b => m (c, b)) = W at h ⊢
  exact h
theorem rd_main_v295 : RV m c main_v295 = (uitofp .f32 : (⟨S1x1, .i1⟩ : BufTy).Contents (Elt F) → (⟨S1x1, .f32⟩ : BufTy).Contents (Elt F)) (RV m c main_v294) := by
  have h := (ops_asc (F := F)).read_unary (fun b => m (c, b)) 415 rfl (by decide)
  unfold RV
  generalize StableHlo.after (ops (F := F)) (fun b => m (c, b)) = W at h ⊢
  exact h
theorem rd_main_cst_52 : RV m c main_cst_52 = (constant S_ .f32 0x3F800000#32 : (⟨S_, .f32⟩ : BufTy).Contents (Elt F)) := by
  have h := (ops_asc (F := F)).read_nullary (fun b => m (c, b)) 416 rfl
  unfold RV
  generalize StableHlo.after (ops (F := F)) (fun b => m (c, b)) = W at h ⊢
  exact h
theorem rd_main_v296 : RV m c main_v296 = (broadcastInDim S1x1 ![] bcast_S_S1x1 : (⟨S_, .f32⟩ : BufTy).Contents (Elt F) → (⟨S1x1, .f32⟩ : BufTy).Contents (Elt F)) (RV m c main_cst_52) := by
  have h := (ops_asc (F := F)).read_unary (fun b => m (c, b)) 417 rfl (by decide)
  unfold RV
  generalize StableHlo.after (ops (F := F)) (fun b => m (c, b)) = W at h ⊢
  exact h
theorem rd_main_v297 : RV m c main_v297 = (subf : (⟨S1x1, .f32⟩ : BufTy).Contents (Elt F) → (⟨S1x1, .f32⟩ : BufTy).Contents (Elt F) → (⟨S1x1, .f32⟩ : BufTy).Contents (Elt F)) (RV m c main_v296) (RV m c main_v295) := by
  have h := (ops_asc (F := F)).read_binary (fun b => m (c, b)) 418 rfl (by decide) (by decide)
  unfold RV
  generalize StableHlo.after (ops (F := F)) (fun b => m (c, b)) = W at h ⊢
  exact h
theorem rd_main_v298 : RV m c main_v298 = (mulf : (⟨S1x1, .f32⟩ : BufTy).Contents (Elt F) → (⟨S1x1, .f32⟩ : BufTy).Contents (Elt F) → (⟨S1x1, .f32⟩ : BufTy).Contents (Elt F)) (RV m c main_v265) (RV m c main_v297) := by
  have h := (ops_asc (F := F)).read_binary (fun b => m (c, b)) 419 rfl (by decide) (by decide)
  unfold RV
  generalize StableHlo.after (ops (F := F)) (fun b => m (c, b)) = W at h ⊢
  exact h
theorem rd_main_cst_53 : RV m c main_cst_53 = (constant S_ .f32 0x00000000#32 : (⟨S_, .f32⟩ : BufTy).Contents (Elt F)) := by
  have h := (ops_asc (F := F)).read_nullary (fun b => m (c, b)) 420 rfl
  unfold RV
  generalize StableHlo.after (ops (F := F)) (fun b => m (c, b)) = W at h ⊢
  exact h
theorem rd_main_v299 : RV m c main_v299 = Host.reduceAdd (RV m c main_v298) (RV m c main_cst_53) reducesTo_S1x1_S1_d1 h_S_ := by
  have h := (ops_asc (F := F)).read_binary (fun b => m (c, b)) 421 rfl (by decide) (by decide)
  unfold RV
  generalize StableHlo.after (ops (F := F)) (fun b => m (c, b)) = W at h ⊢
  exact h
theorem rd_main_v300 : RV m c main_v300 = (Host.sqrt : (⟨S1, .f32⟩ : BufTy).Contents (Elt F) → (⟨S1, .f32⟩ : BufTy).Contents (Elt F)) (RV m c main_v299) := by
  have h := (ops_asc (F := F)).read_unary (fun b => m (c, b)) 422 rfl (by decide)
  unfold RV
  generalize StableHlo.after (ops (F := F)) (fun b => m (c, b)) = W at h ⊢
  exact h
theorem rd_main_v301 : RV m c main_v301 = (broadcastInDim S1x1 ![0] bcast_S1_S1x1_0 : (⟨S1, .f32⟩ : BufTy).Contents (Elt F) → (⟨S1x1, .f32⟩ : BufTy).Contents (Elt F)) (RV m c main_v300) := by
  have h := (ops_asc (F := F)).read_unary (fun b => m (c, b)) 423 rfl (by decide)
  unfold RV
  generalize StableHlo.after (ops (F := F)) (fun b => m (c, b)) = W at h ⊢
  exact h
theorem rd_main_cst_54 : RV m c main_cst_54 = (constant S_ .f32 0x26901D7D#32 : (⟨S_, .f32⟩ : BufTy).Contents (Elt F)) := by
  have h := (ops_asc (F := F)).read_nullary (fun b => m (c, b)) 424 rfl
  unfold RV
  generalize StableHlo.after (ops (F := F)) (fun b => m (c, b)) = W at h ⊢
  exact h
theorem rd_main_v302 : RV m c main_v302 = (broadcastInDim S1x1 ![] bcast_S_S1x1 : (⟨S_, .f32⟩ : BufTy).Contents (Elt F) → (⟨S1x1, .f32⟩ : BufTy).Contents (Elt F)) (RV m c main_cst_54) := by
  have h := (ops_asc (F := F)).read_unary (fun b => m (c, b)) 425 rfl (by decide)
  unfold RV
  generalize StableHlo.after (ops (F := F)) (fun b => m (c, b)) = W at h ⊢
  exact h

end Cert.ReferenceIdeal.HandRun

end
-- ==== Proof.Ref.Reads6.lean ====
import proofs.«405323_j90718299226206_3_alg».proof.Proof.Ref.ReadsAsc

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

theorem rd_main_v303 : RV m c main_v303 = (addf : (⟨S1x1, .f32⟩ : BufTy).Contents (Elt F) → (⟨S1x1, .f32⟩ : BufTy).Contents (Elt F) → (⟨S1x1, .f32⟩ : BufTy).Contents (Elt F)) (RV m c main_v301) (RV m c main_v302) := by
  have h := (ops_asc (F := F)).read_binary (fun b => m (c, b)) 426 rfl (by decide) (by decide)
  unfold RV
  generalize StableHlo.after (ops (F := F)) (fun b => m (c, b)) = W at h ⊢
  exact h
theorem rd_main_v304 : RV m c main_v304 = (Host.divf : (⟨S1x1, .f32⟩ : BufTy).Contents (Elt F) → (⟨S1x1, .f32⟩ : BufTy).Contents (Elt F) → (⟨S1x1, .f32⟩ : BufTy).Contents (Elt F)) (RV m c main_v298) (RV m c main_v303) := by
  have h := (ops_asc (F := F)).read_binary (fun b => m (c, b)) 427 rfl (by decide) (by decide)
  unfold RV
  generalize StableHlo.after (ops (F := F)) (fun b => m (c, b)) = W at h ⊢
  exact h
theorem rd_main_v305 : RV m c main_v305 = transpose S1x1 [1, 0] (RV m c main_v303) transposes_S1x1_S1x1_1_0 := by
  have h := (ops_asc (F := F)).read_unary (fun b => m (c, b)) 428 rfl (by decide)
  unfold RV
  generalize StableHlo.after (ops (F := F)) (fun b => m (c, b)) = W at h ⊢
  exact h
theorem rd_main_v306 : RV m c main_v306 = (Host.divf : (⟨S1x1, .f32⟩ : BufTy).Contents (Elt F) → (⟨S1x1, .f32⟩ : BufTy).Contents (Elt F) → (⟨S1x1, .f32⟩ : BufTy).Contents (Elt F)) (RV m c main_v304) (RV m c main_v305) := by
  have h := (ops_asc (F := F)).read_binary (fun b => m (c, b)) 429 rfl (by decide) (by decide)
  unfold RV
  generalize StableHlo.after (ops (F := F)) (fun b => m (c, b)) = W at h ⊢
  exact h

end Cert.ReferenceIdeal.HandRun

end
-- ==== Proof.Bridge.B0.lean ====
/- Kernel buffers and reference buffers that are the same function of equal operands hold equal contents at the end of the
   two runs: one step per host operation, phase 0 (what depends on the checkpoints of the first 0 pooling layers at most). -/
import proofs.«405323_j90718299226206_3_alg».proof.Proof.KI.Reads
import proofs.«405323_j90718299226206_3_alg».proof.Proof.Ref.Reads0
import proofs.«405323_j90718299226206_3_alg».proof.Proof.Ref.Reads1
import proofs.«405323_j90718299226206_3_alg».proof.Proof.Ref.Reads2
import proofs.«405323_j90718299226206_3_alg».proof.Proof.Ref.Reads3
import proofs.«405323_j90718299226206_3_alg».proof.Proof.Ref.Reads4
import proofs.«405323_j90718299226206_3_alg».proof.Proof.Ref.Reads5
import proofs.«405323_j90718299226206_3_alg».proof.Proof.Ref.Reads6
import proofs.«405323_j90718299226206_3_alg».proof.Defs

set_option maxRecDepth 16384

noncomputable section

namespace Cert.Bridge

open Idealize.ShloMosaic Idealize.ShloMosaic.TcCoe Idealize.SL.Sem

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- `KV m c r`: a KERNEL buffer's contents at the end of the kernel's run; `RV m' c r`: a REFERENCE buffer's at the end of the
    reference's (both written out in full, so that rewriting sees their heads). -/
macro "KV " m:term:max c:term:max r:term:max : term => `(Cert.KernelIdeal.Hand.W63 (F := Ideal) $m $c (Proc.devRef .tc $r))
macro "RV " m:term:max c:term:max r:term:max : term => `(Cert.ReferenceIdeal.HandRun.RV (F := Ideal) $m $c $r)
/-- The two launch memories agree on the fifteen arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

/-- What every step below may use: the two launch memories agree on the arguments, and the kernel's satisfies the precondition. -/
structure Hyp : Prop where
  agree : Agree m m' c
  pre : Cert.Pre_KernelIdeal m

theorem br_main_arg0 (h : Hyp m m' c) : KV m c Cert.KernelIdeal.main_arg0 = RV m' c Cert.ReferenceIdeal.main_arg0 :=
  ((Cert.KernelIdeal.Hand.frame0 m c Cert.KernelIdeal.main_arg0 (by decide)).trans rfl).trans ((h.agree.1).symm.trans (Cert.ReferenceIdeal.HandRun.RV_arg_0 m' c).symm)
theorem br_main_arg1 (h : Hyp m m' c) : KV m c Cert.KernelIdeal.main_arg1 = RV m' c Cert.ReferenceIdeal.main_arg1 :=
  ((Cert.KernelIdeal.Hand.frame0 m c Cert.KernelIdeal.main_arg1 (by decide)).trans rfl).trans ((h.agree.2.1).symm.trans (Cert.ReferenceIdeal.HandRun.RV_arg_1 m' c).symm)
theorem br_main_arg2 (h : Hyp m m' c) : KV m c Cert.KernelIdeal.main_arg2 = RV m' c Cert.ReferenceIdeal.main_arg2 :=
  ((Cert.KernelIdeal.Hand.frame0 m c Cert.KernelIdeal.main_arg2 (by decide)).trans rfl).trans ((h.agree.2.2.1).symm.trans (Cert.ReferenceIdeal.HandRun.RV_arg_2 m' c).symm)
theorem br_main_arg3 (h : Hyp m m' c) : KV m c Cert.KernelIdeal.main_arg3 = RV m' c Cert.ReferenceIdeal.main_arg3 :=
  ((Cert.KernelIdeal.Hand.frame0 m c Cert.KernelIdeal.main_arg3 (by decide)).trans rfl).trans ((h.agree.2.2.2.1).symm.trans (Cert.ReferenceIdeal.HandRun.RV_arg_3 m' c).symm)
theorem br_main_arg4 (h : Hyp m m' c) : KV m c Cert.KernelIdeal.main_arg4 = RV m' c Cert.ReferenceIdeal.main_arg4 :=
  ((Cert.KernelIdeal.Hand.frame0 m c Cert.KernelIdeal.main_arg4 (by decide)).trans rfl).trans ((h.agree.2.2.2.2.1).symm.trans (Cert.ReferenceIdeal.HandRun.RV_arg_4 m' c).symm)
theorem br_main_arg5 (h : Hyp m m' c) : KV m c Cert.KernelIdeal.main_arg5 = RV m' c Cert.ReferenceIdeal.main_arg5 :=
  ((Cert.KernelIdeal.Hand.frame0 m c Cert.KernelIdeal.main_arg5 (by decide)).trans rfl).trans ((h.agree.2.2.2.2.2.1).symm.trans (Cert.ReferenceIdeal.HandRun.RV_arg_5 m' c).symm)
theorem br_main_arg6 (h : Hyp m m' c) : KV m c Cert.KernelIdeal.main_arg6 = RV m' c Cert.ReferenceIdeal.main_arg6 :=
  ((Cert.KernelIdeal.Hand.frame0 m c Cert.KernelIdeal.main_arg6 (by decide)).trans rfl).trans ((h.agree.2.2.2.2.2.2.1).symm.trans (Cert.ReferenceIdeal.HandRun.RV_arg_6 m' c).symm)
theorem br_main_arg7 (h : Hyp m m' c) : KV m c Cert.KernelIdeal.main_arg7 = RV m' c Cert.ReferenceIdeal.main_arg7 :=
  ((Cert.KernelIdeal.Hand.frame0 m c Cert.KernelIdeal.main_arg7 (by decide)).trans rfl).trans ((h.agree.2.2.2.2.2.2.2.1).symm.trans (Cert.ReferenceIdeal.HandRun.RV_arg_7 m' c).symm)
theorem br_main_arg8 (h : Hyp m m' c) : KV m c Cert.KernelIdeal.main_arg8 = RV m' c Cert.ReferenceIdeal.main_arg8 :=
  ((Cert.KernelIdeal.Hand.frame0 m c Cert.KernelIdeal.main_arg8 (by decide)).trans rfl).trans ((h.agree.2.2.2.2.2.2.2.2.1).symm.trans (Cert.ReferenceIdeal.HandRun.RV_arg_8 m' c).symm)
theorem br_main_arg9 (h : Hyp m m' c) : KV m c Cert.KernelIdeal.main_arg9 = RV m' c Cert.ReferenceIdeal.main_arg9 :=
  ((Cert.KernelIdeal.Hand.frame0 m c Cert.KernelIdeal.main_arg9 (by decide)).trans rfl).trans ((h.agree.2.2.2.2.2.2.2.2.2.1).symm.trans (Cert.ReferenceIdeal.HandRun.RV_arg_9 m' c).symm)
theorem br_main_arg10 (h : Hyp m m' c) : KV m c Cert.KernelIdeal.main_arg10 = RV m' c Cert.ReferenceIdeal.main_arg10 :=
  ((Cert.KernelIdeal.Hand.frame0 m c Cert.KernelIdeal.main_arg10 (by decide)).trans rfl).trans ((h.agree.2.2.2.2.2.2.2.2.2.2.1).symm.trans (Cert.ReferenceIdeal.HandRun.RV_arg_10 m' c).symm)
theorem br_main_arg11 (h : Hyp m m' c) : KV m c Cert.KernelIdeal.main_arg11 = RV m' c Cert.ReferenceIdeal.main_arg11 :=
  ((Cert.KernelIdeal.Hand.frame0 m c Cert.KernelIdeal.main_arg11 (by decide)).trans rfl).trans ((h.agree.2.2.2.2.2.2.2.2.2.2.2.1).symm.trans (Cert.ReferenceIdeal.HandRun.RV_arg_11 m' c).symm)
theorem br_main_arg12 (h : Hyp m m' c) : KV m c Cert.KernelIdeal.main_arg12 = RV m' c Cert.ReferenceIdeal.main_arg12 :=
  ((Cert.KernelIdeal.Hand.frame0 m c Cert.KernelIdeal.main_arg12 (by decide)).trans rfl).trans ((h.agree.2.2.2.2.2.2.2.2.2.2.2.2.1).symm.trans (Cert.ReferenceIdeal.HandRun.RV_arg_12 m' c).symm)
theorem br_main_arg13 (h : Hyp m m' c) : KV m c Cert.KernelIdeal.main_arg13 = RV m' c Cert.ReferenceIdeal.main_arg13 :=
  ((Cert.KernelIdeal.Hand.frame0 m c Cert.KernelIdeal.main_arg13 (by decide)).trans rfl).trans ((h.agree.2.2.2.2.2.2.2.2.2.2.2.2.2.1).symm.trans (Cert.ReferenceIdeal.HandRun.RV_arg_13 m' c).symm)
theorem br_main_arg14 (h : Hyp m m' c) : KV m c Cert.KernelIdeal.main_arg14 = RV m' c Cert.ReferenceIdeal.main_arg14 :=
  ((Cert.KernelIdeal.Hand.frame0 m c Cert.KernelIdeal.main_arg14 (by decide)).trans rfl).trans ((h.agree.2.2.2.2.2.2.2.2.2.2.2.2.2.2).symm.trans (Cert.ReferenceIdeal.HandRun.RV_arg_14 m' c).symm)
theorem rr_main_c__main_call3_c : RV m' c Cert.ReferenceIdeal.main_c = RV m' c Cert.ReferenceIdeal.main_call3_c := by
  have e0 := Cert.ReferenceIdeal.HandRun.rd_main_c (F := Ideal) m' c
  have e1 := Cert.ReferenceIdeal.HandRun.rd_main_call3_c (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call3_cst : RV m' c Cert.ReferenceIdeal.main_cst = RV m' c Cert.ReferenceIdeal.main_call3_cst := by
  have e0 := Cert.ReferenceIdeal.HandRun.rd_main_cst (F := Ideal) m' c
  have e1 := Cert.ReferenceIdeal.HandRun.rd_main_call3_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call3_cst_0 : RV m' c Cert.ReferenceIdeal.main_cst = RV m' c Cert.ReferenceIdeal.main_call3_cst_0 := by
  have e0 := Cert.ReferenceIdeal.HandRun.rd_main_cst (F := Ideal) m' c
  have e1 := Cert.ReferenceIdeal.HandRun.rd_main_call3_cst_0 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_cst_18 : RV m' c Cert.ReferenceIdeal.main_cst = RV m' c Cert.ReferenceIdeal.main_cst_18 := by
  have e0 := Cert.ReferenceIdeal.HandRun.rd_main_cst (F := Ideal) m' c
  have e1 := Cert.ReferenceIdeal.HandRun.rd_main_cst_18 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call4_cst : RV m' c Cert.ReferenceIdeal.main_cst = RV m' c Cert.ReferenceIdeal.main_call4_cst := by
  have e0 := Cert.ReferenceIdeal.HandRun.rd_main_cst (F := Ideal) m' c
  have e1 := Cert.ReferenceIdeal.HandRun.rd_main_call4_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call3_v0__main_v104 : RV m' c Cert.ReferenceIdeal.main_call3_v0 = RV m' c Cert.ReferenceIdeal.main_v104 := by
  have e0 := Cert.ReferenceIdeal.HandRun.rd_main_call3_v0 (F := Ideal) m' c
  have e1 := Cert.ReferenceIdeal.HandRun.rd_main_v104 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call3_c__main_c_19 : RV m' c Cert.ReferenceIdeal.main_call3_c = RV m' c Cert.ReferenceIdeal.main_c_19 := by
  have e0 := Cert.ReferenceIdeal.HandRun.rd_main_call3_c (F := Ideal) m' c
  have e1 := Cert.ReferenceIdeal.HandRun.rd_main_c_19 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call3_v2__main_v106 : RV m' c Cert.ReferenceIdeal.main_call3_v2 = RV m' c Cert.ReferenceIdeal.main_v106 := by
  have e0 := Cert.ReferenceIdeal.HandRun.rd_main_call3_v2 (F := Ideal) m' c
  have e1 := Cert.ReferenceIdeal.HandRun.rd_main_v106 (F := Ideal) m' c
  have e2 := rr_main_call3_c__main_c_19 m' c
  dsimp only [Cert.ReferenceIdeal.HandRun.RV] at *
  generalize StableHlo.after (Cert.ReferenceIdeal.HandRun.ops (F := Ideal)) (fun b => m' (c, b)) = V' at *
  rw [e0, e1, e2]
theorem rr_main_call3_v1__main_v105 : RV m' c Cert.ReferenceIdeal.main_call3_v1 = RV m' c Cert.ReferenceIdeal.main_v105 := by
  have e0 := Cert.ReferenceIdeal.HandRun.rd_main_call3_v1 (F := Ideal) m' c
  have e1 := Cert.ReferenceIdeal.HandRun.rd_main_v105 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call5_cst : RV m' c Cert.ReferenceIdeal.main_cst = RV m' c Cert.ReferenceIdeal.main_call5_cst := by
  have e0 := Cert.ReferenceIdeal.HandRun.rd_main_cst (F := Ideal) m' c
  have e1 := Cert.ReferenceIdeal.HandRun.rd_main_call5_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst_3__main_cst_22 : RV m' c Cert.ReferenceIdeal.main_cst_3 = RV m' c Cert.ReferenceIdeal.main_cst_22 := by
  have e0 := Cert.ReferenceIdeal.HandRun.rd_main_cst_3 (F := Ideal) m' c
  have e1 := Cert.ReferenceIdeal.HandRun.rd_main_cst_22 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v104__main_v115 : RV m' c Cert.ReferenceIdeal.main_v104 = RV m' c Cert.ReferenceIdeal.main_v115 := by
  have e0 := Cert.ReferenceIdeal.HandRun.rd_main_v104 (F := Ideal) m' c
  have e1 := Cert.ReferenceIdeal.HandRun.rd_main_v115 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_c_19__main_c_21 : RV m' c Cert.ReferenceIdeal.main_c_19 = RV m' c Cert.ReferenceIdeal.main_c_21 := by
  have e0 := Cert.ReferenceIdeal.HandRun.rd_main_c_19 (F := Ideal) m' c
  have e1 := Cert.ReferenceIdeal.HandRun.rd_main_c_21 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v106__main_v117 : RV m' c Cert.ReferenceIdeal.main_v106 = RV m' c Cert.ReferenceIdeal.main_v117 := by
  have e0 := Cert.ReferenceIdeal.HandRun.rd_main_v106 (F := Ideal) m' c
  have e1 := Cert.ReferenceIdeal.HandRun.rd_main_v117 (F := Ideal) m' c
  have e2 := rr_main_c_19__main_c_21 m' c
  dsimp only [Cert.ReferenceIdeal.HandRun.RV] at *
  generalize StableHlo.after (Cert.ReferenceIdeal.HandRun.ops (F := Ideal)) (fun b => m' (c, b)) = V' at *
  rw [e0, e1, e2]
theorem rr_main_v107__main_v118 : RV m' c Cert.ReferenceIdeal.main_v107 = RV m' c Cert.ReferenceIdeal.main_v118 := by
  have e0 := Cert.ReferenceIdeal.HandRun.rd_main_v107 (F := Ideal) m' c
  have e1 := Cert.ReferenceIdeal.HandRun.rd_main_v118 (F := Ideal) m' c
  have e2 := rr_main_v104__main_v115 m' c
  have e3 := rr_main_v106__main_v117 m' c
  dsimp only [Cert.ReferenceIdeal.HandRun.RV] at *
  generalize StableHlo.after (Cert.ReferenceIdeal.HandRun.ops (F := Ideal)) (fun b => m' (c, b)) = V' at *
  rw [e0, e1, e2, e3]
theorem rr_main_v105__main_v116 : RV m' c Cert.ReferenceIdeal.main_v105 = RV m' c Cert.ReferenceIdeal.main_v116 := by
  have e0 := Cert.ReferenceIdeal.HandRun.rd_main_v105 (F := Ideal) m' c
  have e1 := Cert.ReferenceIdeal.HandRun.rd_main_v116 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v108__main_v119 : RV m' c Cert.ReferenceIdeal.main_v108 = RV m' c Cert.ReferenceIdeal.main_v119 := by
  have e0 := Cert.ReferenceIdeal.HandRun.rd_main_v108 (F := Ideal) m' c
  have e1 := Cert.ReferenceIdeal.HandRun.rd_main_v119 (F := Ideal) m' c
  have e2 := rr_main_v107__main_v118 m' c
  have e3 := rr_main_v105__main_v116 m' c
  dsimp only [Cert.ReferenceIdeal.HandRun.RV] at *
  generalize StableHlo.after (Cert.ReferenceIdeal.HandRun.ops (F := Ideal)) (fun b => m' (c, b)) = V' at *
  rw [e0, e1, e2, e3]
theorem rr_main_v109__main_v120 : RV m' c Cert.ReferenceIdeal.main_v109 = RV m' c Cert.ReferenceIdeal.main_v120 := by
  have e0 := Cert.ReferenceIdeal.HandRun.rd_main_v109 (F := Ideal) m' c
  have e1 := Cert.ReferenceIdeal.HandRun.rd_main_v120 (F := Ideal) m' c
  have e2 := rr_main_v108__main_v119 m' c
  dsimp only [Cert.ReferenceIdeal.HandRun.RV] at *
  generalize StableHlo.after (Cert.ReferenceIdeal.HandRun.ops (F := Ideal)) (fun b => m' (c, b)) = V' at *
  rw [e0, e1, e2]
theorem rr_main_cst__main_cst_23 : RV m' c Cert.ReferenceIdeal.main_cst = RV m' c Cert.ReferenceIdeal.main_cst_23 := by
  have e0 := Cert.ReferenceIdeal.HandRun.rd_main_cst (F := Ideal) m' c
  have e1 := Cert.ReferenceIdeal.HandRun.rd_main_cst_23 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v104__main_v134 : RV m' c Cert.ReferenceIdeal.main_v104 = RV m' c Cert.ReferenceIdeal.main_v134 := by
  have e0 := Cert.ReferenceIdeal.HandRun.rd_main_v104 (F := Ideal) m' c
  have e1 := Cert.ReferenceIdeal.HandRun.rd_main_v134 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_c_19__main_c_25 : RV m' c Cert.ReferenceIdeal.main_c_19 = RV m' c Cert.ReferenceIdeal.main_c_25 := by
  have e0 := Cert.ReferenceIdeal.HandRun.rd_main_c_19 (F := Ideal) m' c
  have e1 := Cert.ReferenceIdeal.HandRun.rd_main_c_25 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v106__main_v136 : RV m' c Cert.ReferenceIdeal.main_v106 = RV m' c Cert.ReferenceIdeal.main_v136 := by
  have e0 := Cert.ReferenceIdeal.HandRun.rd_main_v106 (F := Ideal) m' c
  have e1 := Cert.ReferenceIdeal.HandRun.rd_main_v136 (F := Ideal) m' c
  have e2 := rr_main_c_19__main_c_25 m' c
  dsimp only [Cert.ReferenceIdeal.HandRun.RV] at *
  generalize StableHlo.after (Cert.ReferenceIdeal.HandRun.ops (F := Ideal)) (fun b => m' (c, b)) = V' at *
  rw [e0, e1, e2]
theorem rr_main_v107__main_v137 : RV m' c Cert.ReferenceIdeal.main_v107 = RV m' c Cert.ReferenceIdeal.main_v137 := by
  have e0 := Cert.ReferenceIdeal.HandRun.rd_main_v107 (F := Ideal) m' c
  have e1 := Cert.ReferenceIdeal.HandRun.rd_main_v137 (F := Ideal) m' c
  have e2 := rr_main_v104__main_v134 m' c
  have e3 := rr_main_v106__main_v136 m' c
  dsimp only [Cert.ReferenceIdeal.HandRun.RV] at *
  generalize StableHlo.after (Cert.ReferenceIdeal.HandRun.ops (F := Ideal)) (fun b => m' (c, b)) = V' at *
  rw [e0, e1, e2, e3]
theorem rr_main_v105__main_v135 : RV m' c Cert.ReferenceIdeal.main_v105 = RV m' c Cert.ReferenceIdeal.main_v135 := by
  have e0 := Cert.ReferenceIdeal.HandRun.rd_main_v105 (F := Ideal) m' c
  have e1 := Cert.ReferenceIdeal.HandRun.rd_main_v135 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v108__main_v138 : RV m' c Cert.ReferenceIdeal.main_v108 = RV m' c Cert.ReferenceIdeal.main_v138 := by
  have e0 := Cert.ReferenceIdeal.HandRun.rd_main_v108 (F := Ideal) m' c
  have e1 := Cert.ReferenceIdeal.HandRun.rd_main_v138 (F := Ideal) m' c
  have e2 := rr_main_v107__main_v137 m' c
  have e3 := rr_main_v105__main_v135 m' c
  dsimp only [Cert.ReferenceIdeal.HandRun.RV] at *
  generalize StableHlo.after (Cert.ReferenceIdeal.HandRun.ops (F := Ideal)) (fun b => m' (c, b)) = V' at *
  rw [e0, e1, e2, e3]
theorem rr_main_v109__main_v139 : RV m' c Cert.ReferenceIdeal.main_v109 = RV m' c Cert.ReferenceIdeal.main_v139 := by
  have e0 := Cert.ReferenceIdeal.HandRun.rd_main_v109 (F := Ideal) m' c
  have e1 := Cert.ReferenceIdeal.HandRun.rd_main_v139 (F := Ideal) m' c
  have e2 := rr_main_v108__main_v138 m' c
  dsimp only [Cert.ReferenceIdeal.HandRun.RV] at *
  generalize StableHlo.after (Cert.ReferenceIdeal.HandRun.ops (F := Ideal)) (fun b => m' (c, b)) = V' at *
  rw [e0, e1, e2]
theorem rr_main_cst__main_cst_26 : RV m' c Cert.ReferenceIdeal.main_cst = RV m' c Cert.ReferenceIdeal.main_cst_26 := by
  have e0 := Cert.ReferenceIdeal.HandRun.rd_main_cst (F := Ideal) m' c
  have e1 := Cert.ReferenceIdeal.HandRun.rd_main_cst_26 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_cst_27 : RV m' c Cert.ReferenceIdeal.main_cst = RV m' c Cert.ReferenceIdeal.main_cst_27 := by
  have e0 := Cert.ReferenceIdeal.HandRun.rd_main_cst (F := Ideal) m' c
  have e1 := Cert.ReferenceIdeal.HandRun.rd_main_cst_27 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_cst_6 : RV m' c Cert.ReferenceIdeal.main_cst = RV m' c Cert.ReferenceIdeal.main_cst_6 := by
  have e0 := Cert.ReferenceIdeal.HandRun.rd_main_cst (F := Ideal) m' c
  have e1 := Cert.ReferenceIdeal.HandRun.rd_main_cst_6 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst_6__main_cst_28 : RV m' c Cert.ReferenceIdeal.main_cst_6 = RV m' c Cert.ReferenceIdeal.main_cst_28 := by
  have e0 := Cert.ReferenceIdeal.HandRun.rd_main_cst_6 (F := Ideal) m' c
  have e1 := Cert.ReferenceIdeal.HandRun.rd_main_cst_28 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call0_v0__main_call6_v0 : RV m' c Cert.ReferenceIdeal.main_call0_v0 = RV m' c Cert.ReferenceIdeal.main_call6_v0 := by
  have e0 := Cert.ReferenceIdeal.HandRun.rd_main_call0_v0 (F := Ideal) m' c
  have e1 := Cert.ReferenceIdeal.HandRun.rd_main_call6_v0 (F := Ideal) m' c
  have e2 := rr_main_cst_6__main_cst_28 m' c
  dsimp only [Cert.ReferenceIdeal.HandRun.RV] at *
  generalize StableHlo.after (Cert.ReferenceIdeal.HandRun.ops (F := Ideal)) (fun b => m' (c, b)) = V' at *
  rw [e0, e1, e2]
theorem rr_main_c__main_call9_c : RV m' c Cert.ReferenceIdeal.main_c = RV m' c Cert.ReferenceIdeal.main_call9_c := by
  have e0 := Cert.ReferenceIdeal.HandRun.rd_main_c (F := Ideal) m' c
  have e1 := Cert.ReferenceIdeal.HandRun.rd_main_call9_c (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call9_cst : RV m' c Cert.ReferenceIdeal.main_cst = RV m' c Cert.ReferenceIdeal.main_call9_cst := by
  have e0 := Cert.ReferenceIdeal.HandRun.rd_main_cst (F := Ideal) m' c
  have e1 := Cert.ReferenceIdeal.HandRun.rd_main_call9_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call9_cst_0 : RV m' c Cert.ReferenceIdeal.main_cst = RV m' c Cert.ReferenceIdeal.main_call9_cst_0 := by
  have e0 := Cert.ReferenceIdeal.HandRun.rd_main_cst (F := Ideal) m' c
  have e1 := Cert.ReferenceIdeal.HandRun.rd_main_call9_cst_0 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_cst_32 : RV m' c Cert.ReferenceIdeal.main_cst = RV m' c Cert.ReferenceIdeal.main_cst_32 := by
  have e0 := Cert.ReferenceIdeal.HandRun.rd_main_cst (F := Ideal) m' c
  have e1 := Cert.ReferenceIdeal.HandRun.rd_main_cst_32 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_cst_33 : RV m' c Cert.ReferenceIdeal.main_cst = RV m' c Cert.ReferenceIdeal.main_cst_33 := by
  have e0 := Cert.ReferenceIdeal.HandRun.rd_main_cst (F := Ideal) m' c
  have e1 := Cert.ReferenceIdeal.HandRun.rd_main_cst_33 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call10_cst : RV m' c Cert.ReferenceIdeal.main_cst = RV m' c Cert.ReferenceIdeal.main_call10_cst := by
  have e0 := Cert.ReferenceIdeal.HandRun.rd_main_cst (F := Ideal) m' c
  have e1 := Cert.ReferenceIdeal.HandRun.rd_main_call10_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call9_v0__main_v193 : RV m' c Cert.ReferenceIdeal.main_call9_v0 = RV m' c Cert.ReferenceIdeal.main_v193 := by
  have e0 := Cert.ReferenceIdeal.HandRun.rd_main_call9_v0 (F := Ideal) m' c
  have e1 := Cert.ReferenceIdeal.HandRun.rd_main_v193 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call9_c__main_c_34 : RV m' c Cert.ReferenceIdeal.main_call9_c = RV m' c Cert.ReferenceIdeal.main_c_34 := by
  have e0 := Cert.ReferenceIdeal.HandRun.rd_main_call9_c (F := Ideal) m' c
  have e1 := Cert.ReferenceIdeal.HandRun.rd_main_c_34 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call9_v2__main_v195 : RV m' c Cert.ReferenceIdeal.main_call9_v2 = RV m' c Cert.ReferenceIdeal.main_v195 := by
  have e0 := Cert.ReferenceIdeal.HandRun.rd_main_call9_v2 (F := Ideal) m' c
  have e1 := Cert.ReferenceIdeal.HandRun.rd_main_v195 (F := Ideal) m' c
  have e2 := rr_main_call9_c__main_c_34 m' c
  dsimp only [Cert.ReferenceIdeal.HandRun.RV] at *
  generalize StableHlo.after (Cert.ReferenceIdeal.HandRun.ops (F := Ideal)) (fun b => m' (c, b)) = V' at *
  rw [e0, e1, e2]
theorem rr_main_call9_v1__main_v194 : RV m' c Cert.ReferenceIdeal.main_call9_v1 = RV m' c Cert.ReferenceIdeal.main_v194 := by
  have e0 := Cert.ReferenceIdeal.HandRun.rd_main_call9_v1 (F := Ideal) m' c
  have e1 := Cert.ReferenceIdeal.HandRun.rd_main_v194 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call11_cst : RV m' c Cert.ReferenceIdeal.main_cst = RV m' c Cert.ReferenceIdeal.main_call11_cst := by
  have e0 := Cert.ReferenceIdeal.HandRun.rd_main_cst (F := Ideal) m' c
  have e1 := Cert.ReferenceIdeal.HandRun.rd_main_call11_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst_3__main_cst_37 : RV m' c Cert.ReferenceIdeal.main_cst_3 = RV m' c Cert.ReferenceIdeal.main_cst_37 := by
  have e0 := Cert.ReferenceIdeal.HandRun.rd_main_cst_3 (F := Ideal) m' c
  have e1 := Cert.ReferenceIdeal.HandRun.rd_main_cst_37 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v193__main_v204 : RV m' c Cert.ReferenceIdeal.main_v193 = RV m' c Cert.ReferenceIdeal.main_v204 := by
  have e0 := Cert.ReferenceIdeal.HandRun.rd_main_v193 (F := Ideal) m' c
  have e1 := Cert.ReferenceIdeal.HandRun.rd_main_v204 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_c_34__main_c_36 : RV m' c Cert.ReferenceIdeal.main_c_34 = RV m' c Cert.ReferenceIdeal.main_c_36 := by
  have e0 := Cert.ReferenceIdeal.HandRun.rd_main_c_34 (F := Ideal) m' c
  have e1 := Cert.ReferenceIdeal.HandRun.rd_main_c_36 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v195__main_v206 : RV m' c Cert.ReferenceIdeal.main_v195 = RV m' c Cert.ReferenceIdeal.main_v206 := by
  have e0 := Cert.ReferenceIdeal.HandRun.rd_main_v195 (F := Ideal) m' c
  have e1 := Cert.ReferenceIdeal.HandRun.rd_main_v206 (F := Ideal) m' c
  have e2 := rr_main_c_34__main_c_36 m' c
  dsimp only [Cert.ReferenceIdeal.HandRun.RV] at *
  generalize StableHlo.after (Cert.ReferenceIdeal.HandRun.ops (F := Ideal)) (fun b => m' (c, b)) = V' at *
  rw [e0, e1, e2]
theorem rr_main_v196__main_v207 : RV m' c Cert.ReferenceIdeal.main_v196 = RV m' c Cert.ReferenceIdeal.main_v207 := by
  have e0 := Cert.ReferenceIdeal.HandRun.rd_main_v196 (F := Ideal) m' c
  have e1 := Cert.ReferenceIdeal.HandRun.rd_main_v207 (F := Ideal) m' c
  have e2 := rr_main_v193__main_v204 m' c
  have e3 := rr_main_v195__main_v206 m' c
  dsimp only [Cert.ReferenceIdeal.HandRun.RV] at *
  generalize StableHlo.after (Cert.ReferenceIdeal.HandRun.ops (F := Ideal)) (fun b => m' (c, b)) = V' at *
  rw [e0, e1, e2, e3]
theorem rr_main_v194__main_v205 : RV m' c Cert.ReferenceIdeal.main_v194 = RV m' c Cert.ReferenceIdeal.main_v205 := by
  have e0 := Cert.ReferenceIdeal.HandRun.rd_main_v194 (F := Ideal) m' c
  have e1 := Cert.ReferenceIdeal.HandRun.rd_main_v205 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v197__main_v208 : RV m' c Cert.ReferenceIdeal.main_v197 = RV m' c Cert.ReferenceIdeal.main_v208 := by
  have e0 := Cert.ReferenceIdeal.HandRun.rd_main_v197 (F := Ideal) m' c
  have e1 := Cert.ReferenceIdeal.HandRun.rd_main_v208 (F := Ideal) m' c
  have e2 := rr_main_v196__main_v207 m' c
  have e3 := rr_main_v194__main_v205 m' c
  dsimp only [Cert.ReferenceIdeal.HandRun.RV] at *
  generalize StableHlo.after (Cert.ReferenceIdeal.HandRun.ops (F := Ideal)) (fun b => m' (c, b)) = V' at *
  rw [e0, e1, e2, e3]
theorem rr_main_v198__main_v209 : RV m' c Cert.ReferenceIdeal.main_v198 = RV m' c Cert.ReferenceIdeal.main_v209 := by
  have e0 := Cert.ReferenceIdeal.HandRun.rd_main_v198 (F := Ideal) m' c
  have e1 := Cert.ReferenceIdeal.HandRun.rd_main_v209 (F := Ideal) m' c
  have e2 := rr_main_v197__main_v208 m' c
  dsimp only [Cert.ReferenceIdeal.HandRun.RV] at *
  generalize StableHlo.after (Cert.ReferenceIdeal.HandRun.ops (F := Ideal)) (fun b => m' (c, b)) = V' at *
  rw [e0, e1, e2]
theorem rr_main_cst__main_cst_38 : RV m' c Cert.ReferenceIdeal.main_cst = RV m' c Cert.ReferenceIdeal.main_cst_38 := by
  have e0 := Cert.ReferenceIdeal.HandRun.rd_main_cst (F := Ideal) m' c
  have e1 := Cert.ReferenceIdeal.HandRun.rd_main_cst_38 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst_24__main_cst_39 : RV m' c Cert.ReferenceIdeal.main_cst_24 = RV m' c Cert.ReferenceIdeal.main_cst_39 := by
  have e0 := Cert.ReferenceIdeal.HandRun.rd_main_cst_24 (F := Ideal) m' c
  have e1 := Cert.ReferenceIdeal.HandRun.rd_main_cst_39 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v193__main_v223 : RV m' c Cert.ReferenceIdeal.main_v193 = RV m' c Cert.ReferenceIdeal.main_v223 := by
  have e0 := Cert.ReferenceIdeal.HandRun.rd_main_v193 (F := Ideal) m' c
  have e1 := Cert.ReferenceIdeal.HandRun.rd_main_v223 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_c_34__main_c_40 : RV m' c Cert.ReferenceIdeal.main_c_34 = RV m' c Cert.ReferenceIdeal.main_c_40 := by
  have e0 := Cert.ReferenceIdeal.HandRun.rd_main_c_34 (F := Ideal) m' c
  have e1 := Cert.ReferenceIdeal.HandRun.rd_main_c_40 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v195__main_v225 : RV m' c Cert.ReferenceIdeal.main_v195 = RV m' c Cert.ReferenceIdeal.main_v225 := by
  have e0 := Cert.ReferenceIdeal.HandRun.rd_main_v195 (F := Ideal) m' c
  have e1 := Cert.ReferenceIdeal.HandRun.rd_main_v225 (F := Ideal) m' c
  have e2 := rr_main_c_34__main_c_40 m' c
  dsimp only [Cert.ReferenceIdeal.HandRun.RV] at *
  generalize StableHlo.after (Cert.ReferenceIdeal.HandRun.ops (F := Ideal)) (fun b => m' (c, b)) = V' at *
  rw [e0, e1, e2]
theorem rr_main_v196__main_v226 : RV m' c Cert.ReferenceIdeal.main_v196 = RV m' c Cert.ReferenceIdeal.main_v226 := by
  have e0 := Cert.ReferenceIdeal.HandRun.rd_main_v196 (F := Ideal) m' c
  have e1 := Cert.ReferenceIdeal.HandRun.rd_main_v226 (F := Ideal) m' c
  have e2 := rr_main_v193__main_v223 m' c
  have e3 := rr_main_v195__main_v225 m' c
  dsimp only [Cert.ReferenceIdeal.HandRun.RV] at *
  generalize StableHlo.after (Cert.ReferenceIdeal.HandRun.ops (F := Ideal)) (fun b => m' (c, b)) = V' at *
  rw [e0, e1, e2, e3]
theorem rr_main_v194__main_v224 : RV m' c Cert.ReferenceIdeal.main_v194 = RV m' c Cert.ReferenceIdeal.main_v224 := by
  have e0 := Cert.ReferenceIdeal.HandRun.rd_main_v194 (F := Ideal) m' c
  have e1 := Cert.ReferenceIdeal.HandRun.rd_main_v224 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v197__main_v227 : RV m' c Cert.ReferenceIdeal.main_v197 = RV m' c Cert.ReferenceIdeal.main_v227 := by
  have e0 := Cert.ReferenceIdeal.HandRun.rd_main_v197 (F := Ideal) m' c
  have e1 := Cert.ReferenceIdeal.HandRun.rd_main_v227 (F := Ideal) m' c
  have e2 := rr_main_v196__main_v226 m' c
  have e3 := rr_main_v194__main_v224 m' c
  dsimp only [Cert.ReferenceIdeal.HandRun.RV] at *
  generalize StableHlo.after (Cert.ReferenceIdeal.HandRun.ops (F := Ideal)) (fun b => m' (c, b)) = V' at *
  rw [e0, e1, e2, e3]
theorem rr_main_v198__main_v228 : RV m' c Cert.ReferenceIdeal.main_v198 = RV m' c Cert.ReferenceIdeal.main_v228 := by
  have e0 := Cert.ReferenceIdeal.HandRun.rd_main_v198 (F := Ideal) m' c
  have e1 := Cert.ReferenceIdeal.HandRun.rd_main_v228 (F := Ideal) m' c
  have e2 := rr_main_v197__main_v227 m' c
  dsimp only [Cert.ReferenceIdeal.HandRun.RV] at *
  generalize StableHlo.after (Cert.ReferenceIdeal.HandRun.ops (F := Ideal)) (fun b => m' (c, b)) = V' at *
  rw [e0, e1, e2]
theorem rr_main_cst__main_cst_41 : RV m' c Cert.ReferenceIdeal.main_cst = RV m' c Cert.ReferenceIdeal.main_cst_41 := by
  have e0 := Cert.ReferenceIdeal.HandRun.rd_main_cst (F := Ideal) m' c
  have e1 := Cert.ReferenceIdeal.HandRun.rd_main_cst_41 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_cst_42 : RV m' c Cert.ReferenceIdeal.main_cst = RV m' c Cert.ReferenceIdeal.main_cst_42 := by
  have e0 := Cert.ReferenceIdeal.HandRun.rd_main_cst (F := Ideal) m' c
  have e1 := Cert.ReferenceIdeal.HandRun.rd_main_cst_42 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst_6__main_cst_43 : RV m' c Cert.ReferenceIdeal.main_cst_6 = RV m' c Cert.ReferenceIdeal.main_cst_43 := by
  have e0 := Cert.ReferenceIdeal.HandRun.rd_main_cst_6 (F := Ideal) m' c
  have e1 := Cert.ReferenceIdeal.HandRun.rd_main_cst_43 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call0_v0__main_call12_v0 : RV m' c Cert.ReferenceIdeal.main_call0_v0 = RV m' c Cert.ReferenceIdeal.main_call12_v0 := by
  have e0 := Cert.ReferenceIdeal.HandRun.rd_main_call0_v0 (F := Ideal) m' c
  have e1 := Cert.ReferenceIdeal.HandRun.rd_main_call12_v0 (F := Ideal) m' c
  have e2 := rr_main_cst_6__main_cst_43 m' c
  dsimp only [Cert.ReferenceIdeal.HandRun.RV] at *
  generalize StableHlo.after (Cert.ReferenceIdeal.HandRun.ops (F := Ideal)) (fun b => m' (c, b)) = V' at *
  rw [e0, e1, e2]
theorem rr_main_c__main_call15_c : RV m' c Cert.ReferenceIdeal.main_c = RV m' c Cert.ReferenceIdeal.main_call15_c := by
  have e0 := Cert.ReferenceIdeal.HandRun.rd_main_c (F := Ideal) m' c
  have e1 := Cert.ReferenceIdeal.HandRun.rd_main_call15_c (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call15_cst : RV m' c Cert.ReferenceIdeal.main_cst = RV m' c Cert.ReferenceIdeal.main_call15_cst := by
  have e0 := Cert.ReferenceIdeal.HandRun.rd_main_cst (F := Ideal) m' c
  have e1 := Cert.ReferenceIdeal.HandRun.rd_main_call15_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call15_cst_0 : RV m' c Cert.ReferenceIdeal.main_cst = RV m' c Cert.ReferenceIdeal.main_call15_cst_0 := by
  have e0 := Cert.ReferenceIdeal.HandRun.rd_main_cst (F := Ideal) m' c
  have e1 := Cert.ReferenceIdeal.HandRun.rd_main_call15_cst_0 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_cst_47 : RV m' c Cert.ReferenceIdeal.main_cst = RV m' c Cert.ReferenceIdeal.main_cst_47 := by
  have e0 := Cert.ReferenceIdeal.HandRun.rd_main_cst (F := Ideal) m' c
  have e1 := Cert.ReferenceIdeal.HandRun.rd_main_cst_47 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_cst_48 : RV m' c Cert.ReferenceIdeal.main_cst = RV m' c Cert.ReferenceIdeal.main_cst_48 := by
  have e0 := Cert.ReferenceIdeal.HandRun.rd_main_cst (F := Ideal) m' c
  have e1 := Cert.ReferenceIdeal.HandRun.rd_main_cst_48 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call16_cst : RV m' c Cert.ReferenceIdeal.main_cst = RV m' c Cert.ReferenceIdeal.main_call16_cst := by
  have e0 := Cert.ReferenceIdeal.HandRun.rd_main_cst (F := Ideal) m' c
  have e1 := Cert.ReferenceIdeal.HandRun.rd_main_call16_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call15_v0__main_v279 : RV m' c Cert.ReferenceIdeal.main_call15_v0 = RV m' c Cert.ReferenceIdeal.main_v279 := by
  have e0 := Cert.ReferenceIdeal.HandRun.rd_main_call15_v0 (F := Ideal) m' c
  have e1 := Cert.ReferenceIdeal.HandRun.rd_main_v279 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call15_c__main_c_49 : RV m' c Cert.ReferenceIdeal.main_call15_c = RV m' c Cert.ReferenceIdeal.main_c_49 := by
  have e0 := Cert.ReferenceIdeal.HandRun.rd_main_call15_c (F := Ideal) m' c
  have e1 := Cert.ReferenceIdeal.HandRun.rd_main_c_49 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_call15_v2__main_v281 : RV m' c Cert.ReferenceIdeal.main_call15_v2 = RV m' c Cert.ReferenceIdeal.main_v281 := by
  have e0 := Cert.ReferenceIdeal.HandRun.rd_main_call15_v2 (F := Ideal) m' c
  have e1 := Cert.ReferenceIdeal.HandRun.rd_main_v281 (F := Ideal) m' c
  have e2 := rr_main_call15_c__main_c_49 m' c
  dsimp only [Cert.ReferenceIdeal.HandRun.RV] at *
  generalize StableHlo.after (Cert.ReferenceIdeal.HandRun.ops (F := Ideal)) (fun b => m' (c, b)) = V' at *
  rw [e0, e1, e2]
theorem rr_main_call15_v1__main_v280 : RV m' c Cert.ReferenceIdeal.main_call15_v1 = RV m' c Cert.ReferenceIdeal.main_v280 := by
  have e0 := Cert.ReferenceIdeal.HandRun.rd_main_call15_v1 (F := Ideal) m' c
  have e1 := Cert.ReferenceIdeal.HandRun.rd_main_v280 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst_3__main_cst_50 : RV m' c Cert.ReferenceIdeal.main_cst_3 = RV m' c Cert.ReferenceIdeal.main_cst_50 := by
  have e0 := Cert.ReferenceIdeal.HandRun.rd_main_cst_3 (F := Ideal) m' c
  have e1 := Cert.ReferenceIdeal.HandRun.rd_main_cst_50 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst__main_call17_cst : RV m' c Cert.ReferenceIdeal.main_cst = RV m' c Cert.ReferenceIdeal.main_call17_cst := by
  have e0 := Cert.ReferenceIdeal.HandRun.rd_main_cst (F := Ideal) m' c
  have e1 := Cert.ReferenceIdeal.HandRun.rd_main_call17_cst (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst_3__main_cst_52 : RV m' c Cert.ReferenceIdeal.main_cst_3 = RV m' c Cert.ReferenceIdeal.main_cst_52 := by
  have e0 := Cert.ReferenceIdeal.HandRun.rd_main_cst_3 (F := Ideal) m' c
  have e1 := Cert.ReferenceIdeal.HandRun.rd_main_cst_52 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v279__main_v290 : RV m' c Cert.ReferenceIdeal.main_v279 = RV m' c Cert.ReferenceIdeal.main_v290 := by
  have e0 := Cert.ReferenceIdeal.HandRun.rd_main_v279 (F := Ideal) m' c
  have e1 := Cert.ReferenceIdeal.HandRun.rd_main_v290 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_c_49__main_c_51 : RV m' c Cert.ReferenceIdeal.main_c_49 = RV m' c Cert.ReferenceIdeal.main_c_51 := by
  have e0 := Cert.ReferenceIdeal.HandRun.rd_main_c_49 (F := Ideal) m' c
  have e1 := Cert.ReferenceIdeal.HandRun.rd_main_c_51 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v281__main_v292 : RV m' c Cert.ReferenceIdeal.main_v281 = RV m' c Cert.ReferenceIdeal.main_v292 := by
  have e0 := Cert.ReferenceIdeal.HandRun.rd_main_v281 (F := Ideal) m' c
  have e1 := Cert.ReferenceIdeal.HandRun.rd_main_v292 (F := Ideal) m' c
  have e2 := rr_main_c_49__main_c_51 m' c
  dsimp only [Cert.ReferenceIdeal.HandRun.RV] at *
  generalize StableHlo.after (Cert.ReferenceIdeal.HandRun.ops (F := Ideal)) (fun b => m' (c, b)) = V' at *
  rw [e0, e1, e2]
theorem rr_main_v282__main_v293 : RV m' c Cert.ReferenceIdeal.main_v282 = RV m' c Cert.ReferenceIdeal.main_v293 := by
  have e0 := Cert.ReferenceIdeal.HandRun.rd_main_v282 (F := Ideal) m' c
  have e1 := Cert.ReferenceIdeal.HandRun.rd_main_v293 (F := Ideal) m' c
  have e2 := rr_main_v279__main_v290 m' c
  have e3 := rr_main_v281__main_v292 m' c
  dsimp only [Cert.ReferenceIdeal.HandRun.RV] at *
  generalize StableHlo.after (Cert.ReferenceIdeal.HandRun.ops (F := Ideal)) (fun b => m' (c, b)) = V' at *
  rw [e0, e1, e2, e3]
theorem rr_main_v280__main_v291 : RV m' c Cert.ReferenceIdeal.main_v280 = RV m' c Cert.ReferenceIdeal.main_v291 := by
  have e0 := Cert.ReferenceIdeal.HandRun.rd_main_v280 (F := Ideal) m' c
  have e1 := Cert.ReferenceIdeal.HandRun.rd_main_v291 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_v283__main_v294 : RV m' c Cert.ReferenceIdeal.main_v283 = RV m' c Cert.ReferenceIdeal.main_v294 := by
  have e0 := Cert.ReferenceIdeal.HandRun.rd_main_v283 (F := Ideal) m' c
  have e1 := Cert.ReferenceIdeal.HandRun.rd_main_v294 (F := Ideal) m' c
  have e2 := rr_main_v282__main_v293 m' c
  have e3 := rr_main_v280__main_v291 m' c
  dsimp only [Cert.ReferenceIdeal.HandRun.RV] at *
  generalize StableHlo.after (Cert.ReferenceIdeal.HandRun.ops (F := Ideal)) (fun b => m' (c, b)) = V' at *
  rw [e0, e1, e2, e3]
theorem rr_main_v284__main_v295 : RV m' c Cert.ReferenceIdeal.main_v284 = RV m' c Cert.ReferenceIdeal.main_v295 := by
  have e0 := Cert.ReferenceIdeal.HandRun.rd_main_v284 (F := Ideal) m' c
  have e1 := Cert.ReferenceIdeal.HandRun.rd_main_v295 (F := Ideal) m' c
  have e2 := rr_main_v283__main_v294 m' c
  dsimp only [Cert.ReferenceIdeal.HandRun.RV] at *
  generalize StableHlo.after (Cert.ReferenceIdeal.HandRun.ops (F := Ideal)) (fun b => m' (c, b)) = V' at *
  rw [e0, e1, e2]
theorem rr_main_cst__main_cst_53 : RV m' c Cert.ReferenceIdeal.main_cst = RV m' c Cert.ReferenceIdeal.main_cst_53 := by
  have e0 := Cert.ReferenceIdeal.HandRun.rd_main_cst (F := Ideal) m' c
  have e1 := Cert.ReferenceIdeal.HandRun.rd_main_cst_53 (F := Ideal) m' c
  dsimp only [Cert.ReferenceIdeal.HandRun.RV] at *
  generalize StableHlo.after (Cert.ReferenceIdeal.HandRun.ops (F := Ideal)) (fun b => m' (c, b)) = V' at *
  rw [e0, e1]
theorem rr_main_cst_24__main_cst_54 : RV m' c Cert.ReferenceIdeal.main_cst_24 = RV m' c Cert.ReferenceIdeal.main_cst_54 := by
  have e0 := Cert.ReferenceIdeal.HandRun.rd_main_cst_24 (F := Ideal) m' c
  have e1 := Cert.ReferenceIdeal.HandRun.rd_main_cst_54 (F := Ideal) m' c
  dsimp only [Cert.ReferenceIdeal.HandRun.RV] at *
  generalize StableHlo.after (Cert.ReferenceIdeal.HandRun.ops (F := Ideal)) (fun b => m' (c, b)) = V' at *
  rw [e0, e1]
theorem br_main_call5_v0 (h : Hyp m m' c) : KV m c Cert.KernelIdeal.main_call5_v0 = RV m' c Cert.ReferenceIdeal.main_call3_v0 := by
  have e0 := Cert.KernelIdeal.Hand.kd_main_call5_v0 (F := Ideal) m c
  have e1 := Cert.ReferenceIdeal.HandRun.rd_main_call3_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call5_v1 (h : Hyp m m' c) : KV m c Cert.KernelIdeal.main_call5_v1 = RV m' c Cert.ReferenceIdeal.main_call3_v1 := by
  have e0 := Cert.KernelIdeal.Hand.kd_main_call5_v1 (F := Ideal) m c
  have e1 := Cert.ReferenceIdeal.HandRun.rd_main_call3_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call5_c (h : Hyp m m' c) : KV m c Cert.KernelIdeal.main_call5_c = RV m' c Cert.ReferenceIdeal.main_c := by
  have e0 := Cert.KernelIdeal.Hand.kd_main_call5_c (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call5_v2 (h : Hyp m m' c) : KV m c Cert.KernelIdeal.main_call5_v2 = RV m' c Cert.ReferenceIdeal.main_call3_v2 := by
  have e0 := Cert.KernelIdeal.Hand.kd_main_call5_v2 (F := Ideal) m c
  have e1 := Cert.ReferenceIdeal.HandRun.rd_main_call3_v2 (F := Ideal) m' c
  have e2 := (br_main_call5_c m m' c h).trans (rr_main_c__main_call3_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call5_v3 (h : Hyp m m' c) : KV m c Cert.KernelIdeal.main_call5_v3 = RV m' c Cert.ReferenceIdeal.main_call3_v3 := by
  have e0 := Cert.KernelIdeal.Hand.kd_main_call5_v3 (F := Ideal) m c
  have e1 := Cert.ReferenceIdeal.HandRun.rd_main_call3_v3 (F := Ideal) m' c
  have e2 := br_main_call5_v0 m m' c h
  have e3 := br_main_call5_v2 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call5_v4 (h : Hyp m m' c) : KV m c Cert.KernelIdeal.main_call5_v4 = RV m' c Cert.ReferenceIdeal.main_call3_v4 := by
  have e0 := Cert.KernelIdeal.Hand.kd_main_call5_v4 (F := Ideal) m c
  have e1 := Cert.ReferenceIdeal.HandRun.rd_main_call3_v4 (F := Ideal) m' c
  have e2 := br_main_call5_v3 m m' c h
  have e3 := br_main_call5_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call5_cst (h : Hyp m m' c) : KV m c Cert.KernelIdeal.main_call5_cst = RV m' c Cert.ReferenceIdeal.main_cst := by
  have e0 := Cert.KernelIdeal.Hand.kd_main_call5_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call5_v5 (h : Hyp m m' c) : KV m c Cert.KernelIdeal.main_call5_v5 = RV m' c Cert.ReferenceIdeal.main_call3_v5 := by
  have e0 := Cert.KernelIdeal.Hand.kd_main_call5_v5 (F := Ideal) m c
  have e1 := Cert.ReferenceIdeal.HandRun.rd_main_call3_v5 (F := Ideal) m' c
  have e2 := (br_main_call5_cst m m' c h).trans (rr_main_cst__main_call3_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call5_cst_0 (h : Hyp m m' c) : KV m c Cert.KernelIdeal.main_call5_cst_0 = RV m' c Cert.ReferenceIdeal.main_cst := by
  have e0 := Cert.KernelIdeal.Hand.kd_main_call5_cst_0 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_12 (h : Hyp m m' c) : KV m c Cert.KernelIdeal.main_cst_12 = RV m' c Cert.ReferenceIdeal.main_cst := by
  have e0 := Cert.KernelIdeal.Hand.kd_main_cst_12 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call6_cst (h : Hyp m m' c) : KV m c Cert.KernelIdeal.main_call6_cst = RV m' c Cert.ReferenceIdeal.main_cst := by
  have e0 := Cert.KernelIdeal.Hand.kd_main_call6_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v77 (h : Hyp m m' c) : KV m c Cert.KernelIdeal.main_v77 = RV m' c Cert.ReferenceIdeal.main_call3_v0 := by
  have e0 := Cert.KernelIdeal.Hand.kd_main_v77 (F := Ideal) m c
  have e1 := Cert.ReferenceIdeal.HandRun.rd_main_call3_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v78 (h : Hyp m m' c) : KV m c Cert.KernelIdeal.main_v78 = RV m' c Cert.ReferenceIdeal.main_call3_v1 := by
  have e0 := Cert.KernelIdeal.Hand.kd_main_v78 (F := Ideal) m c
  have e1 := Cert.ReferenceIdeal.HandRun.rd_main_call3_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_c_13 (h : Hyp m m' c) : KV m c Cert.KernelIdeal.main_c_13 = RV m' c Cert.ReferenceIdeal.main_c := by
  have e0 := Cert.KernelIdeal.Hand.kd_main_c_13 (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v79 (h : Hyp m m' c) : KV m c Cert.KernelIdeal.main_v79 = RV m' c Cert.ReferenceIdeal.main_call3_v2 := by
  have e0 := Cert.KernelIdeal.Hand.kd_main_v79 (F := Ideal) m c
  have e1 := Cert.ReferenceIdeal.HandRun.rd_main_call3_v2 (F := Ideal) m' c
  have e2 := (br_main_c_13 m m' c h).trans (rr_main_c__main_call3_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v80 (h : Hyp m m' c) : KV m c Cert.KernelIdeal.main_v80 = RV m' c Cert.ReferenceIdeal.main_v107 := by
  have e0 := Cert.KernelIdeal.Hand.kd_main_v80 (F := Ideal) m c
  have e1 := Cert.ReferenceIdeal.HandRun.rd_main_v107 (F := Ideal) m' c
  have e2 := (br_main_v77 m m' c h).trans (rr_main_call3_v0__main_v104 m' c)
  have e3 := (br_main_v79 m m' c h).trans (rr_main_call3_v2__main_v106 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v81 (h : Hyp m m' c) : KV m c Cert.KernelIdeal.main_v81 = RV m' c Cert.ReferenceIdeal.main_v108 := by
  have e0 := Cert.KernelIdeal.Hand.kd_main_v81 (F := Ideal) m c
  have e1 := Cert.ReferenceIdeal.HandRun.rd_main_v108 (F := Ideal) m' c
  have e2 := br_main_v80 m m' c h
  have e3 := (br_main_v78 m m' c h).trans (rr_main_call3_v1__main_v105 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v82 (h : Hyp m m' c) : KV m c Cert.KernelIdeal.main_v82 = RV m' c Cert.ReferenceIdeal.main_v109 := by
  have e0 := Cert.KernelIdeal.Hand.kd_main_v82 (F := Ideal) m c
  have e1 := Cert.ReferenceIdeal.HandRun.rd_main_v109 (F := Ideal) m' c
  have e2 := br_main_v81 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_14 (h : Hyp m m' c) : KV m c Cert.KernelIdeal.main_cst_14 = RV m' c Cert.ReferenceIdeal.main_cst_20 := by
  have e0 := Cert.KernelIdeal.Hand.kd_main_cst_14 (F := Ideal) m c
  have e1 := Cert.ReferenceIdeal.HandRun.rd_main_cst_20 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v83 (h : Hyp m m' c) : KV m c Cert.KernelIdeal.main_v83 = RV m' c Cert.ReferenceIdeal.main_v110 := by
  have e0 := Cert.KernelIdeal.Hand.kd_main_v83 (F := Ideal) m c
  have e1 := Cert.ReferenceIdeal.HandRun.rd_main_v110 (F := Ideal) m' c
  have e2 := br_main_cst_14 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v84 (h : Hyp m m' c) : KV m c Cert.KernelIdeal.main_v84 = RV m' c Cert.ReferenceIdeal.main_v111 := by
  have e0 := Cert.KernelIdeal.Hand.kd_main_v84 (F := Ideal) m c
  have e1 := Cert.ReferenceIdeal.HandRun.rd_main_v111 (F := Ideal) m' c
  have e2 := br_main_v83 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v85 (h : Hyp m m' c) : KV m c Cert.KernelIdeal.main_v85 = RV m' c Cert.ReferenceIdeal.main_v112 := by
  have e0 := Cert.KernelIdeal.Hand.kd_main_v85 (F := Ideal) m c
  have e1 := Cert.ReferenceIdeal.HandRun.rd_main_v112 (F := Ideal) m' c
  have e2 := br_main_v82 m m' c h
  have e3 := br_main_v84 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call7_cst (h : Hyp m m' c) : KV m c Cert.KernelIdeal.main_call7_cst = RV m' c Cert.ReferenceIdeal.main_cst := by
  have e0 := Cert.KernelIdeal.Hand.kd_main_call7_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v88 (h : Hyp m m' c) : KV m c Cert.KernelIdeal.main_v88 = RV m' c Cert.ReferenceIdeal.main_call3_v0 := by
  have e0 := Cert.KernelIdeal.Hand.kd_main_v88 (F := Ideal) m c
  have e1 := Cert.ReferenceIdeal.HandRun.rd_main_call3_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v89 (h : Hyp m m' c) : KV m c Cert.KernelIdeal.main_v89 = RV m' c Cert.ReferenceIdeal.main_call3_v1 := by
  have e0 := Cert.KernelIdeal.Hand.kd_main_v89 (F := Ideal) m c
  have e1 := Cert.ReferenceIdeal.HandRun.rd_main_call3_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_c_15 (h : Hyp m m' c) : KV m c Cert.KernelIdeal.main_c_15 = RV m' c Cert.ReferenceIdeal.main_c := by
  have e0 := Cert.KernelIdeal.Hand.kd_main_c_15 (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v90 (h : Hyp m m' c) : KV m c Cert.KernelIdeal.main_v90 = RV m' c Cert.ReferenceIdeal.main_call3_v2 := by
  have e0 := Cert.KernelIdeal.Hand.kd_main_v90 (F := Ideal) m c
  have e1 := Cert.ReferenceIdeal.HandRun.rd_main_call3_v2 (F := Ideal) m' c
  have e2 := (br_main_c_15 m m' c h).trans (rr_main_c__main_call3_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v91 (h : Hyp m m' c) : KV m c Cert.KernelIdeal.main_v91 = RV m' c Cert.ReferenceIdeal.main_v107 := by
  have e0 := Cert.KernelIdeal.Hand.kd_main_v91 (F := Ideal) m c
  have e1 := Cert.ReferenceIdeal.HandRun.rd_main_v107 (F := Ideal) m' c
  have e2 := (br_main_v88 m m' c h).trans (rr_main_call3_v0__main_v104 m' c)
  have e3 := (br_main_v90 m m' c h).trans (rr_main_call3_v2__main_v106 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v92 (h : Hyp m m' c) : KV m c Cert.KernelIdeal.main_v92 = RV m' c Cert.ReferenceIdeal.main_v108 := by
  have e0 := Cert.KernelIdeal.Hand.kd_main_v92 (F := Ideal) m c
  have e1 := Cert.ReferenceIdeal.HandRun.rd_main_v108 (F := Ideal) m' c
  have e2 := br_main_v91 m m' c h
  have e3 := (br_main_v89 m m' c h).trans (rr_main_call3_v1__main_v105 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v93 (h : Hyp m m' c) : KV m c Cert.KernelIdeal.main_v93 = RV m' c Cert.ReferenceIdeal.main_v109 := by
  have e0 := Cert.KernelIdeal.Hand.kd_main_v93 (F := Ideal) m c
  have e1 := Cert.ReferenceIdeal.HandRun.rd_main_v109 (F := Ideal) m' c
  have e2 := br_main_v92 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_16 (h : Hyp m m' c) : KV m c Cert.KernelIdeal.main_cst_16 = RV m' c Cert.ReferenceIdeal.main_cst_3 := by
  have e0 := Cert.KernelIdeal.Hand.kd_main_cst_16 (F := Ideal) m c
  have e1 := Cert.ReferenceIdeal.HandRun.rd_main_cst_3 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v94 (h : Hyp m m' c) : KV m c Cert.KernelIdeal.main_v94 = RV m' c Cert.ReferenceIdeal.main_v121 := by
  have e0 := Cert.KernelIdeal.Hand.kd_main_v94 (F := Ideal) m c
  have e1 := Cert.ReferenceIdeal.HandRun.rd_main_v121 (F := Ideal) m' c
  have e2 := (br_main_cst_16 m m' c h).trans (rr_main_cst_3__main_cst_22 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v95 (h : Hyp m m' c) : KV m c Cert.KernelIdeal.main_v95 = RV m' c Cert.ReferenceIdeal.main_v122 := by
  have e0 := Cert.KernelIdeal.Hand.kd_main_v95 (F := Ideal) m c
  have e1 := Cert.ReferenceIdeal.HandRun.rd_main_v122 (F := Ideal) m' c
  have e2 := br_main_v94 m m' c h
  have e3 := (br_main_v93 m m' c h).trans (rr_main_v109__main_v120 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_cst_17 (h : Hyp m m' c) : KV m c Cert.KernelIdeal.main_cst_17 = RV m' c Cert.ReferenceIdeal.main_cst := by
  have e0 := Cert.KernelIdeal.Hand.kd_main_cst_17 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_18 (h : Hyp m m' c) : KV m c Cert.KernelIdeal.main_cst_18 = RV m' c Cert.ReferenceIdeal.main_cst_24 := by
  have e0 := Cert.KernelIdeal.Hand.kd_main_cst_18 (F := Ideal) m c
  have e1 := Cert.ReferenceIdeal.HandRun.rd_main_cst_24 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v100 (h : Hyp m m' c) : KV m c Cert.KernelIdeal.main_v100 = RV m' c Cert.ReferenceIdeal.main_v127 := by
  have e0 := Cert.KernelIdeal.Hand.kd_main_v100 (F := Ideal) m c
  have e1 := Cert.ReferenceIdeal.HandRun.rd_main_v127 (F := Ideal) m' c
  have e2 := br_main_cst_18 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v107 (h : Hyp m m' c) : KV m c Cert.KernelIdeal.main_v107 = RV m' c Cert.ReferenceIdeal.main_call3_v0 := by
  have e0 := Cert.KernelIdeal.Hand.kd_main_v107 (F := Ideal) m c
  have e1 := Cert.ReferenceIdeal.HandRun.rd_main_call3_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v108 (h : Hyp m m' c) : KV m c Cert.KernelIdeal.main_v108 = RV m' c Cert.ReferenceIdeal.main_call3_v1 := by
  have e0 := Cert.KernelIdeal.Hand.kd_main_v108 (F := Ideal) m c
  have e1 := Cert.ReferenceIdeal.HandRun.rd_main_call3_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_c_19 (h : Hyp m m' c) : KV m c Cert.KernelIdeal.main_c_19 = RV m' c Cert.ReferenceIdeal.main_c := by
  have e0 := Cert.KernelIdeal.Hand.kd_main_c_19 (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v109 (h : Hyp m m' c) : KV m c Cert.KernelIdeal.main_v109 = RV m' c Cert.ReferenceIdeal.main_call3_v2 := by
  have e0 := Cert.KernelIdeal.Hand.kd_main_v109 (F := Ideal) m c
  have e1 := Cert.ReferenceIdeal.HandRun.rd_main_call3_v2 (F := Ideal) m' c
  have e2 := (br_main_c_19 m m' c h).trans (rr_main_c__main_call3_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v110 (h : Hyp m m' c) : KV m c Cert.KernelIdeal.main_v110 = RV m' c Cert.ReferenceIdeal.main_v107 := by
  have e0 := Cert.KernelIdeal.Hand.kd_main_v110 (F := Ideal) m c
  have e1 := Cert.ReferenceIdeal.HandRun.rd_main_v107 (F := Ideal) m' c
  have e2 := (br_main_v107 m m' c h).trans (rr_main_call3_v0__main_v104 m' c)
  have e3 := (br_main_v109 m m' c h).trans (rr_main_call3_v2__main_v106 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v111 (h : Hyp m m' c) : KV m c Cert.KernelIdeal.main_v111 = RV m' c Cert.ReferenceIdeal.main_v108 := by
  have e0 := Cert.KernelIdeal.Hand.kd_main_v111 (F := Ideal) m c
  have e1 := Cert.ReferenceIdeal.HandRun.rd_main_v108 (F := Ideal) m' c
  have e2 := br_main_v110 m m' c h
  have e3 := (br_main_v108 m m' c h).trans (rr_main_call3_v1__main_v105 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v112 (h : Hyp m m' c) : KV m c Cert.KernelIdeal.main_v112 = RV m' c Cert.ReferenceIdeal.main_v109 := by
  have e0 := Cert.KernelIdeal.Hand.kd_main_v112 (F := Ideal) m c
  have e1 := Cert.ReferenceIdeal.HandRun.rd_main_v109 (F := Ideal) m' c
  have e2 := br_main_v111 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_20 (h : Hyp m m' c) : KV m c Cert.KernelIdeal.main_cst_20 = RV m' c Cert.ReferenceIdeal.main_cst := by
  have e0 := Cert.KernelIdeal.Hand.kd_main_cst_20 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_21 (h : Hyp m m' c) : KV m c Cert.KernelIdeal.main_cst_21 = RV m' c Cert.ReferenceIdeal.main_cst := by
  have e0 := Cert.KernelIdeal.Hand.kd_main_cst_21 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v115 (h : Hyp m m' c) : KV m c Cert.KernelIdeal.main_v115 = RV m' c Cert.ReferenceIdeal.main_v142 := by
  have e0 := Cert.KernelIdeal.Hand.kd_main_v115 (F := Ideal) m c
  have e1 := Cert.ReferenceIdeal.HandRun.rd_main_v142 (F := Ideal) m' c
  have e2 := (br_main_cst_21 m m' c h).trans (rr_main_cst__main_cst_27 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_22 (h : Hyp m m' c) : KV m c Cert.KernelIdeal.main_cst_22 = RV m' c Cert.ReferenceIdeal.main_cst := by
  have e0 := Cert.KernelIdeal.Hand.kd_main_cst_22 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call8_v0 (h : Hyp m m' c) : KV m c Cert.KernelIdeal.main_call8_v0 = RV m' c Cert.ReferenceIdeal.main_call0_v0 := by
  have e0 := Cert.KernelIdeal.Hand.kd_main_call8_v0 (F := Ideal) m c
  have e1 := Cert.ReferenceIdeal.HandRun.rd_main_call0_v0 (F := Ideal) m' c
  have e2 := (br_main_cst_22 m m' c h).trans (rr_main_cst__main_cst_6 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call8_v1 (h : Hyp m m' c) : KV m c Cert.KernelIdeal.main_call8_v1 = RV m' c Cert.ReferenceIdeal.main_call6_v1 := by
  have e0 := Cert.KernelIdeal.Hand.kd_main_call8_v1 (F := Ideal) m c
  have e1 := Cert.ReferenceIdeal.HandRun.rd_main_call6_v1 (F := Ideal) m' c
  have e2 := (br_main_call8_v0 m m' c h).trans (rr_main_call0_v0__main_call6_v0 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call9_v0 (h : Hyp m m' c) : KV m c Cert.KernelIdeal.main_call9_v0 = RV m' c Cert.ReferenceIdeal.main_call9_v0 := by
  have e0 := Cert.KernelIdeal.Hand.kd_main_call9_v0 (F := Ideal) m c
  have e1 := Cert.ReferenceIdeal.HandRun.rd_main_call9_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call9_v1 (h : Hyp m m' c) : KV m c Cert.KernelIdeal.main_call9_v1 = RV m' c Cert.ReferenceIdeal.main_call9_v1 := by
  have e0 := Cert.KernelIdeal.Hand.kd_main_call9_v1 (F := Ideal) m c
  have e1 := Cert.ReferenceIdeal.HandRun.rd_main_call9_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call9_c (h : Hyp m m' c) : KV m c Cert.KernelIdeal.main_call9_c = RV m' c Cert.ReferenceIdeal.main_c := by
  have e0 := Cert.KernelIdeal.Hand.kd_main_call9_c (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call9_v2 (h : Hyp m m' c) : KV m c Cert.KernelIdeal.main_call9_v2 = RV m' c Cert.ReferenceIdeal.main_call9_v2 := by
  have e0 := Cert.KernelIdeal.Hand.kd_main_call9_v2 (F := Ideal) m c
  have e1 := Cert.ReferenceIdeal.HandRun.rd_main_call9_v2 (F := Ideal) m' c
  have e2 := (br_main_call9_c m m' c h).trans (rr_main_c__main_call9_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call9_v3 (h : Hyp m m' c) : KV m c Cert.KernelIdeal.main_call9_v3 = RV m' c Cert.ReferenceIdeal.main_call9_v3 := by
  have e0 := Cert.KernelIdeal.Hand.kd_main_call9_v3 (F := Ideal) m c
  have e1 := Cert.ReferenceIdeal.HandRun.rd_main_call9_v3 (F := Ideal) m' c
  have e2 := br_main_call9_v0 m m' c h
  have e3 := br_main_call9_v2 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call9_v4 (h : Hyp m m' c) : KV m c Cert.KernelIdeal.main_call9_v4 = RV m' c Cert.ReferenceIdeal.main_call9_v4 := by
  have e0 := Cert.KernelIdeal.Hand.kd_main_call9_v4 (F := Ideal) m c
  have e1 := Cert.ReferenceIdeal.HandRun.rd_main_call9_v4 (F := Ideal) m' c
  have e2 := br_main_call9_v3 m m' c h
  have e3 := br_main_call9_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call9_cst (h : Hyp m m' c) : KV m c Cert.KernelIdeal.main_call9_cst = RV m' c Cert.ReferenceIdeal.main_cst := by
  have e0 := Cert.KernelIdeal.Hand.kd_main_call9_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call9_v5 (h : Hyp m m' c) : KV m c Cert.KernelIdeal.main_call9_v5 = RV m' c Cert.ReferenceIdeal.main_call9_v5 := by
  have e0 := Cert.KernelIdeal.Hand.kd_main_call9_v5 (F := Ideal) m c
  have e1 := Cert.ReferenceIdeal.HandRun.rd_main_call9_v5 (F := Ideal) m' c
  have e2 := (br_main_call9_cst m m' c h).trans (rr_main_cst__main_call9_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call9_cst_0 (h : Hyp m m' c) : KV m c Cert.KernelIdeal.main_call9_cst_0 = RV m' c Cert.ReferenceIdeal.main_cst := by
  have e0 := Cert.KernelIdeal.Hand.kd_main_call9_cst_0 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_25 (h : Hyp m m' c) : KV m c Cert.KernelIdeal.main_cst_25 = RV m' c Cert.ReferenceIdeal.main_cst := by
  have e0 := Cert.KernelIdeal.Hand.kd_main_cst_25 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_26 (h : Hyp m m' c) : KV m c Cert.KernelIdeal.main_cst_26 = RV m' c Cert.ReferenceIdeal.main_cst := by
  have e0 := Cert.KernelIdeal.Hand.kd_main_cst_26 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call10_cst (h : Hyp m m' c) : KV m c Cert.KernelIdeal.main_call10_cst = RV m' c Cert.ReferenceIdeal.main_cst := by
  have e0 := Cert.KernelIdeal.Hand.kd_main_call10_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v150 (h : Hyp m m' c) : KV m c Cert.KernelIdeal.main_v150 = RV m' c Cert.ReferenceIdeal.main_call9_v0 := by
  have e0 := Cert.KernelIdeal.Hand.kd_main_v150 (F := Ideal) m c
  have e1 := Cert.ReferenceIdeal.HandRun.rd_main_call9_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v151 (h : Hyp m m' c) : KV m c Cert.KernelIdeal.main_v151 = RV m' c Cert.ReferenceIdeal.main_call9_v1 := by
  have e0 := Cert.KernelIdeal.Hand.kd_main_v151 (F := Ideal) m c
  have e1 := Cert.ReferenceIdeal.HandRun.rd_main_call9_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_c_27 (h : Hyp m m' c) : KV m c Cert.KernelIdeal.main_c_27 = RV m' c Cert.ReferenceIdeal.main_c := by
  have e0 := Cert.KernelIdeal.Hand.kd_main_c_27 (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v152 (h : Hyp m m' c) : KV m c Cert.KernelIdeal.main_v152 = RV m' c Cert.ReferenceIdeal.main_call9_v2 := by
  have e0 := Cert.KernelIdeal.Hand.kd_main_v152 (F := Ideal) m c
  have e1 := Cert.ReferenceIdeal.HandRun.rd_main_call9_v2 (F := Ideal) m' c
  have e2 := (br_main_c_27 m m' c h).trans (rr_main_c__main_call9_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v153 (h : Hyp m m' c) : KV m c Cert.KernelIdeal.main_v153 = RV m' c Cert.ReferenceIdeal.main_v196 := by
  have e0 := Cert.KernelIdeal.Hand.kd_main_v153 (F := Ideal) m c
  have e1 := Cert.ReferenceIdeal.HandRun.rd_main_v196 (F := Ideal) m' c
  have e2 := (br_main_v150 m m' c h).trans (rr_main_call9_v0__main_v193 m' c)
  have e3 := (br_main_v152 m m' c h).trans (rr_main_call9_v2__main_v195 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v154 (h : Hyp m m' c) : KV m c Cert.KernelIdeal.main_v154 = RV m' c Cert.ReferenceIdeal.main_v197 := by
  have e0 := Cert.KernelIdeal.Hand.kd_main_v154 (F := Ideal) m c
  have e1 := Cert.ReferenceIdeal.HandRun.rd_main_v197 (F := Ideal) m' c
  have e2 := br_main_v153 m m' c h
  have e3 := (br_main_v151 m m' c h).trans (rr_main_call9_v1__main_v194 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v155 (h : Hyp m m' c) : KV m c Cert.KernelIdeal.main_v155 = RV m' c Cert.ReferenceIdeal.main_v198 := by
  have e0 := Cert.KernelIdeal.Hand.kd_main_v155 (F := Ideal) m c
  have e1 := Cert.ReferenceIdeal.HandRun.rd_main_v198 (F := Ideal) m' c
  have e2 := br_main_v154 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_28 (h : Hyp m m' c) : KV m c Cert.KernelIdeal.main_cst_28 = RV m' c Cert.ReferenceIdeal.main_cst_35 := by
  have e0 := Cert.KernelIdeal.Hand.kd_main_cst_28 (F := Ideal) m c
  have e1 := Cert.ReferenceIdeal.HandRun.rd_main_cst_35 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v156 (h : Hyp m m' c) : KV m c Cert.KernelIdeal.main_v156 = RV m' c Cert.ReferenceIdeal.main_v199 := by
  have e0 := Cert.KernelIdeal.Hand.kd_main_v156 (F := Ideal) m c
  have e1 := Cert.ReferenceIdeal.HandRun.rd_main_v199 (F := Ideal) m' c
  have e2 := br_main_cst_28 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v157 (h : Hyp m m' c) : KV m c Cert.KernelIdeal.main_v157 = RV m' c Cert.ReferenceIdeal.main_v200 := by
  have e0 := Cert.KernelIdeal.Hand.kd_main_v157 (F := Ideal) m c
  have e1 := Cert.ReferenceIdeal.HandRun.rd_main_v200 (F := Ideal) m' c
  have e2 := br_main_v156 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v158 (h : Hyp m m' c) : KV m c Cert.KernelIdeal.main_v158 = RV m' c Cert.ReferenceIdeal.main_v201 := by
  have e0 := Cert.KernelIdeal.Hand.kd_main_v158 (F := Ideal) m c
  have e1 := Cert.ReferenceIdeal.HandRun.rd_main_v201 (F := Ideal) m' c
  have e2 := br_main_v155 m m' c h
  have e3 := br_main_v157 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call11_cst (h : Hyp m m' c) : KV m c Cert.KernelIdeal.main_call11_cst = RV m' c Cert.ReferenceIdeal.main_cst := by
  have e0 := Cert.KernelIdeal.Hand.kd_main_call11_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v161 (h : Hyp m m' c) : KV m c Cert.KernelIdeal.main_v161 = RV m' c Cert.ReferenceIdeal.main_call9_v0 := by
  have e0 := Cert.KernelIdeal.Hand.kd_main_v161 (F := Ideal) m c
  have e1 := Cert.ReferenceIdeal.HandRun.rd_main_call9_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v162 (h : Hyp m m' c) : KV m c Cert.KernelIdeal.main_v162 = RV m' c Cert.ReferenceIdeal.main_call9_v1 := by
  have e0 := Cert.KernelIdeal.Hand.kd_main_v162 (F := Ideal) m c
  have e1 := Cert.ReferenceIdeal.HandRun.rd_main_call9_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_c_29 (h : Hyp m m' c) : KV m c Cert.KernelIdeal.main_c_29 = RV m' c Cert.ReferenceIdeal.main_c := by
  have e0 := Cert.KernelIdeal.Hand.kd_main_c_29 (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v163 (h : Hyp m m' c) : KV m c Cert.KernelIdeal.main_v163 = RV m' c Cert.ReferenceIdeal.main_call9_v2 := by
  have e0 := Cert.KernelIdeal.Hand.kd_main_v163 (F := Ideal) m c
  have e1 := Cert.ReferenceIdeal.HandRun.rd_main_call9_v2 (F := Ideal) m' c
  have e2 := (br_main_c_29 m m' c h).trans (rr_main_c__main_call9_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v164 (h : Hyp m m' c) : KV m c Cert.KernelIdeal.main_v164 = RV m' c Cert.ReferenceIdeal.main_v196 := by
  have e0 := Cert.KernelIdeal.Hand.kd_main_v164 (F := Ideal) m c
  have e1 := Cert.ReferenceIdeal.HandRun.rd_main_v196 (F := Ideal) m' c
  have e2 := (br_main_v161 m m' c h).trans (rr_main_call9_v0__main_v193 m' c)
  have e3 := (br_main_v163 m m' c h).trans (rr_main_call9_v2__main_v195 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v165 (h : Hyp m m' c) : KV m c Cert.KernelIdeal.main_v165 = RV m' c Cert.ReferenceIdeal.main_v197 := by
  have e0 := Cert.KernelIdeal.Hand.kd_main_v165 (F := Ideal) m c
  have e1 := Cert.ReferenceIdeal.HandRun.rd_main_v197 (F := Ideal) m' c
  have e2 := br_main_v164 m m' c h
  have e3 := (br_main_v162 m m' c h).trans (rr_main_call9_v1__main_v194 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v166 (h : Hyp m m' c) : KV m c Cert.KernelIdeal.main_v166 = RV m' c Cert.ReferenceIdeal.main_v198 := by
  have e0 := Cert.KernelIdeal.Hand.kd_main_v166 (F := Ideal) m c
  have e1 := Cert.ReferenceIdeal.HandRun.rd_main_v198 (F := Ideal) m' c
  have e2 := br_main_v165 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_30 (h : Hyp m m' c) : KV m c Cert.KernelIdeal.main_cst_30 = RV m' c Cert.ReferenceIdeal.main_cst_3 := by
  have e0 := Cert.KernelIdeal.Hand.kd_main_cst_30 (F := Ideal) m c
  have e1 := Cert.ReferenceIdeal.HandRun.rd_main_cst_3 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v167 (h : Hyp m m' c) : KV m c Cert.KernelIdeal.main_v167 = RV m' c Cert.ReferenceIdeal.main_v210 := by
  have e0 := Cert.KernelIdeal.Hand.kd_main_v167 (F := Ideal) m c
  have e1 := Cert.ReferenceIdeal.HandRun.rd_main_v210 (F := Ideal) m' c
  have e2 := (br_main_cst_30 m m' c h).trans (rr_main_cst_3__main_cst_37 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v168 (h : Hyp m m' c) : KV m c Cert.KernelIdeal.main_v168 = RV m' c Cert.ReferenceIdeal.main_v211 := by
  have e0 := Cert.KernelIdeal.Hand.kd_main_v168 (F := Ideal) m c
  have e1 := Cert.ReferenceIdeal.HandRun.rd_main_v211 (F := Ideal) m' c
  have e2 := br_main_v167 m m' c h
  have e3 := (br_main_v166 m m' c h).trans (rr_main_v198__main_v209 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_cst_31 (h : Hyp m m' c) : KV m c Cert.KernelIdeal.main_cst_31 = RV m' c Cert.ReferenceIdeal.main_cst := by
  have e0 := Cert.KernelIdeal.Hand.kd_main_cst_31 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_32 (h : Hyp m m' c) : KV m c Cert.KernelIdeal.main_cst_32 = RV m' c Cert.ReferenceIdeal.main_cst_24 := by
  have e0 := Cert.KernelIdeal.Hand.kd_main_cst_32 (F := Ideal) m c
  have e1 := Cert.ReferenceIdeal.HandRun.rd_main_cst_24 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v173 (h : Hyp m m' c) : KV m c Cert.KernelIdeal.main_v173 = RV m' c Cert.ReferenceIdeal.main_v216 := by
  have e0 := Cert.KernelIdeal.Hand.kd_main_v173 (F := Ideal) m c
  have e1 := Cert.ReferenceIdeal.HandRun.rd_main_v216 (F := Ideal) m' c
  have e2 := (br_main_cst_32 m m' c h).trans (rr_main_cst_24__main_cst_39 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v180 (h : Hyp m m' c) : KV m c Cert.KernelIdeal.main_v180 = RV m' c Cert.ReferenceIdeal.main_call9_v0 := by
  have e0 := Cert.KernelIdeal.Hand.kd_main_v180 (F := Ideal) m c
  have e1 := Cert.ReferenceIdeal.HandRun.rd_main_call9_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v181 (h : Hyp m m' c) : KV m c Cert.KernelIdeal.main_v181 = RV m' c Cert.ReferenceIdeal.main_call9_v1 := by
  have e0 := Cert.KernelIdeal.Hand.kd_main_v181 (F := Ideal) m c
  have e1 := Cert.ReferenceIdeal.HandRun.rd_main_call9_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_c_33 (h : Hyp m m' c) : KV m c Cert.KernelIdeal.main_c_33 = RV m' c Cert.ReferenceIdeal.main_c := by
  have e0 := Cert.KernelIdeal.Hand.kd_main_c_33 (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v182 (h : Hyp m m' c) : KV m c Cert.KernelIdeal.main_v182 = RV m' c Cert.ReferenceIdeal.main_call9_v2 := by
  have e0 := Cert.KernelIdeal.Hand.kd_main_v182 (F := Ideal) m c
  have e1 := Cert.ReferenceIdeal.HandRun.rd_main_call9_v2 (F := Ideal) m' c
  have e2 := (br_main_c_33 m m' c h).trans (rr_main_c__main_call9_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v183 (h : Hyp m m' c) : KV m c Cert.KernelIdeal.main_v183 = RV m' c Cert.ReferenceIdeal.main_v196 := by
  have e0 := Cert.KernelIdeal.Hand.kd_main_v183 (F := Ideal) m c
  have e1 := Cert.ReferenceIdeal.HandRun.rd_main_v196 (F := Ideal) m' c
  have e2 := (br_main_v180 m m' c h).trans (rr_main_call9_v0__main_v193 m' c)
  have e3 := (br_main_v182 m m' c h).trans (rr_main_call9_v2__main_v195 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v184 (h : Hyp m m' c) : KV m c Cert.KernelIdeal.main_v184 = RV m' c Cert.ReferenceIdeal.main_v197 := by
  have e0 := Cert.KernelIdeal.Hand.kd_main_v184 (F := Ideal) m c
  have e1 := Cert.ReferenceIdeal.HandRun.rd_main_v197 (F := Ideal) m' c
  have e2 := br_main_v183 m m' c h
  have e3 := (br_main_v181 m m' c h).trans (rr_main_call9_v1__main_v194 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v185 (h : Hyp m m' c) : KV m c Cert.KernelIdeal.main_v185 = RV m' c Cert.ReferenceIdeal.main_v198 := by
  have e0 := Cert.KernelIdeal.Hand.kd_main_v185 (F := Ideal) m c
  have e1 := Cert.ReferenceIdeal.HandRun.rd_main_v198 (F := Ideal) m' c
  have e2 := br_main_v184 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_34 (h : Hyp m m' c) : KV m c Cert.KernelIdeal.main_cst_34 = RV m' c Cert.ReferenceIdeal.main_cst := by
  have e0 := Cert.KernelIdeal.Hand.kd_main_cst_34 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_35 (h : Hyp m m' c) : KV m c Cert.KernelIdeal.main_cst_35 = RV m' c Cert.ReferenceIdeal.main_cst := by
  have e0 := Cert.KernelIdeal.Hand.kd_main_cst_35 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v188 (h : Hyp m m' c) : KV m c Cert.KernelIdeal.main_v188 = RV m' c Cert.ReferenceIdeal.main_v231 := by
  have e0 := Cert.KernelIdeal.Hand.kd_main_v188 (F := Ideal) m c
  have e1 := Cert.ReferenceIdeal.HandRun.rd_main_v231 (F := Ideal) m' c
  have e2 := (br_main_cst_35 m m' c h).trans (rr_main_cst__main_cst_42 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_36 (h : Hyp m m' c) : KV m c Cert.KernelIdeal.main_cst_36 = RV m' c Cert.ReferenceIdeal.main_cst := by
  have e0 := Cert.KernelIdeal.Hand.kd_main_cst_36 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call12_v0 (h : Hyp m m' c) : KV m c Cert.KernelIdeal.main_call12_v0 = RV m' c Cert.ReferenceIdeal.main_call0_v0 := by
  have e0 := Cert.KernelIdeal.Hand.kd_main_call12_v0 (F := Ideal) m c
  have e1 := Cert.ReferenceIdeal.HandRun.rd_main_call0_v0 (F := Ideal) m' c
  have e2 := (br_main_cst_36 m m' c h).trans (rr_main_cst__main_cst_6 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call12_v1 (h : Hyp m m' c) : KV m c Cert.KernelIdeal.main_call12_v1 = RV m' c Cert.ReferenceIdeal.main_call12_v1 := by
  have e0 := Cert.KernelIdeal.Hand.kd_main_call12_v1 (F := Ideal) m c
  have e1 := Cert.ReferenceIdeal.HandRun.rd_main_call12_v1 (F := Ideal) m' c
  have e2 := (br_main_call12_v0 m m' c h).trans (rr_main_call0_v0__main_call12_v0 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call13_v0 (h : Hyp m m' c) : KV m c Cert.KernelIdeal.main_call13_v0 = RV m' c Cert.ReferenceIdeal.main_call15_v0 := by
  have e0 := Cert.KernelIdeal.Hand.kd_main_call13_v0 (F := Ideal) m c
  have e1 := Cert.ReferenceIdeal.HandRun.rd_main_call15_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call13_v1 (h : Hyp m m' c) : KV m c Cert.KernelIdeal.main_call13_v1 = RV m' c Cert.ReferenceIdeal.main_call15_v1 := by
  have e0 := Cert.KernelIdeal.Hand.kd_main_call13_v1 (F := Ideal) m c
  have e1 := Cert.ReferenceIdeal.HandRun.rd_main_call15_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call13_c (h : Hyp m m' c) : KV m c Cert.KernelIdeal.main_call13_c = RV m' c Cert.ReferenceIdeal.main_c := by
  have e0 := Cert.KernelIdeal.Hand.kd_main_call13_c (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call13_v2 (h : Hyp m m' c) : KV m c Cert.KernelIdeal.main_call13_v2 = RV m' c Cert.ReferenceIdeal.main_call15_v2 := by
  have e0 := Cert.KernelIdeal.Hand.kd_main_call13_v2 (F := Ideal) m c
  have e1 := Cert.ReferenceIdeal.HandRun.rd_main_call15_v2 (F := Ideal) m' c
  have e2 := (br_main_call13_c m m' c h).trans (rr_main_c__main_call15_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call13_v3 (h : Hyp m m' c) : KV m c Cert.KernelIdeal.main_call13_v3 = RV m' c Cert.ReferenceIdeal.main_call15_v3 := by
  have e0 := Cert.KernelIdeal.Hand.kd_main_call13_v3 (F := Ideal) m c
  have e1 := Cert.ReferenceIdeal.HandRun.rd_main_call15_v3 (F := Ideal) m' c
  have e2 := br_main_call13_v0 m m' c h
  have e3 := br_main_call13_v2 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call13_v4 (h : Hyp m m' c) : KV m c Cert.KernelIdeal.main_call13_v4 = RV m' c Cert.ReferenceIdeal.main_call15_v4 := by
  have e0 := Cert.KernelIdeal.Hand.kd_main_call13_v4 (F := Ideal) m c
  have e1 := Cert.ReferenceIdeal.HandRun.rd_main_call15_v4 (F := Ideal) m' c
  have e2 := br_main_call13_v3 m m' c h
  have e3 := br_main_call13_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call13_cst (h : Hyp m m' c) : KV m c Cert.KernelIdeal.main_call13_cst = RV m' c Cert.ReferenceIdeal.main_cst := by
  have e0 := Cert.KernelIdeal.Hand.kd_main_call13_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call13_v5 (h : Hyp m m' c) : KV m c Cert.KernelIdeal.main_call13_v5 = RV m' c Cert.ReferenceIdeal.main_call15_v5 := by
  have e0 := Cert.KernelIdeal.Hand.kd_main_call13_v5 (F := Ideal) m c
  have e1 := Cert.ReferenceIdeal.HandRun.rd_main_call15_v5 (F := Ideal) m' c
  have e2 := (br_main_call13_cst m m' c h).trans (rr_main_cst__main_call15_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call13_cst_0 (h : Hyp m m' c) : KV m c Cert.KernelIdeal.main_call13_cst_0 = RV m' c Cert.ReferenceIdeal.main_cst := by
  have e0 := Cert.KernelIdeal.Hand.kd_main_call13_cst_0 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_39 (h : Hyp m m' c) : KV m c Cert.KernelIdeal.main_cst_39 = RV m' c Cert.ReferenceIdeal.main_cst := by
  have e0 := Cert.KernelIdeal.Hand.kd_main_cst_39 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_40 (h : Hyp m m' c) : KV m c Cert.KernelIdeal.main_cst_40 = RV m' c Cert.ReferenceIdeal.main_cst := by
  have e0 := Cert.KernelIdeal.Hand.kd_main_cst_40 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_call14_cst (h : Hyp m m' c) : KV m c Cert.KernelIdeal.main_call14_cst = RV m' c Cert.ReferenceIdeal.main_cst := by
  have e0 := Cert.KernelIdeal.Hand.kd_main_call14_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v222 (h : Hyp m m' c) : KV m c Cert.KernelIdeal.main_v222 = RV m' c Cert.ReferenceIdeal.main_call15_v0 := by
  have e0 := Cert.KernelIdeal.Hand.kd_main_v222 (F := Ideal) m c
  have e1 := Cert.ReferenceIdeal.HandRun.rd_main_call15_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v223 (h : Hyp m m' c) : KV m c Cert.KernelIdeal.main_v223 = RV m' c Cert.ReferenceIdeal.main_call15_v1 := by
  have e0 := Cert.KernelIdeal.Hand.kd_main_v223 (F := Ideal) m c
  have e1 := Cert.ReferenceIdeal.HandRun.rd_main_call15_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_c_41 (h : Hyp m m' c) : KV m c Cert.KernelIdeal.main_c_41 = RV m' c Cert.ReferenceIdeal.main_c := by
  have e0 := Cert.KernelIdeal.Hand.kd_main_c_41 (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v224 (h : Hyp m m' c) : KV m c Cert.KernelIdeal.main_v224 = RV m' c Cert.ReferenceIdeal.main_call15_v2 := by
  have e0 := Cert.KernelIdeal.Hand.kd_main_v224 (F := Ideal) m c
  have e1 := Cert.ReferenceIdeal.HandRun.rd_main_call15_v2 (F := Ideal) m' c
  have e2 := (br_main_c_41 m m' c h).trans (rr_main_c__main_call15_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v225 (h : Hyp m m' c) : KV m c Cert.KernelIdeal.main_v225 = RV m' c Cert.ReferenceIdeal.main_v282 := by
  have e0 := Cert.KernelIdeal.Hand.kd_main_v225 (F := Ideal) m c
  have e1 := Cert.ReferenceIdeal.HandRun.rd_main_v282 (F := Ideal) m' c
  have e2 := (br_main_v222 m m' c h).trans (rr_main_call15_v0__main_v279 m' c)
  have e3 := (br_main_v224 m m' c h).trans (rr_main_call15_v2__main_v281 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v226 (h : Hyp m m' c) : KV m c Cert.KernelIdeal.main_v226 = RV m' c Cert.ReferenceIdeal.main_v283 := by
  have e0 := Cert.KernelIdeal.Hand.kd_main_v226 (F := Ideal) m c
  have e1 := Cert.ReferenceIdeal.HandRun.rd_main_v283 (F := Ideal) m' c
  have e2 := br_main_v225 m m' c h
  have e3 := (br_main_v223 m m' c h).trans (rr_main_call15_v1__main_v280 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v227 (h : Hyp m m' c) : KV m c Cert.KernelIdeal.main_v227 = RV m' c Cert.ReferenceIdeal.main_v284 := by
  have e0 := Cert.KernelIdeal.Hand.kd_main_v227 (F := Ideal) m c
  have e1 := Cert.ReferenceIdeal.HandRun.rd_main_v284 (F := Ideal) m' c
  have e2 := br_main_v226 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_42 (h : Hyp m m' c) : KV m c Cert.KernelIdeal.main_cst_42 = RV m' c Cert.ReferenceIdeal.main_cst_3 := by
  have e0 := Cert.KernelIdeal.Hand.kd_main_cst_42 (F := Ideal) m c
  have e1 := Cert.ReferenceIdeal.HandRun.rd_main_cst_3 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v228 (h : Hyp m m' c) : KV m c Cert.KernelIdeal.main_v228 = RV m' c Cert.ReferenceIdeal.main_v285 := by
  have e0 := Cert.KernelIdeal.Hand.kd_main_v228 (F := Ideal) m c
  have e1 := Cert.ReferenceIdeal.HandRun.rd_main_v285 (F := Ideal) m' c
  have e2 := (br_main_cst_42 m m' c h).trans (rr_main_cst_3__main_cst_50 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v229 (h : Hyp m m' c) : KV m c Cert.KernelIdeal.main_v229 = RV m' c Cert.ReferenceIdeal.main_v286 := by
  have e0 := Cert.KernelIdeal.Hand.kd_main_v229 (F := Ideal) m c
  have e1 := Cert.ReferenceIdeal.HandRun.rd_main_v286 (F := Ideal) m' c
  have e2 := br_main_v228 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v230 (h : Hyp m m' c) : KV m c Cert.KernelIdeal.main_v230 = RV m' c Cert.ReferenceIdeal.main_v287 := by
  have e0 := Cert.KernelIdeal.Hand.kd_main_v230 (F := Ideal) m c
  have e1 := Cert.ReferenceIdeal.HandRun.rd_main_v287 (F := Ideal) m' c
  have e2 := br_main_v227 m m' c h
  have e3 := br_main_v229 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call15_cst (h : Hyp m m' c) : KV m c Cert.KernelIdeal.main_call15_cst = RV m' c Cert.ReferenceIdeal.main_cst := by
  have e0 := Cert.KernelIdeal.Hand.kd_main_call15_cst (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v233 (h : Hyp m m' c) : KV m c Cert.KernelIdeal.main_v233 = RV m' c Cert.ReferenceIdeal.main_call15_v0 := by
  have e0 := Cert.KernelIdeal.Hand.kd_main_v233 (F := Ideal) m c
  have e1 := Cert.ReferenceIdeal.HandRun.rd_main_call15_v0 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v234 (h : Hyp m m' c) : KV m c Cert.KernelIdeal.main_v234 = RV m' c Cert.ReferenceIdeal.main_call15_v1 := by
  have e0 := Cert.KernelIdeal.Hand.kd_main_v234 (F := Ideal) m c
  have e1 := Cert.ReferenceIdeal.HandRun.rd_main_call15_v1 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_c_43 (h : Hyp m m' c) : KV m c Cert.KernelIdeal.main_c_43 = RV m' c Cert.ReferenceIdeal.main_c := by
  have e0 := Cert.KernelIdeal.Hand.kd_main_c_43 (F := Ideal) m c
  have e1 := Cert.ReferenceIdeal.HandRun.rd_main_c (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v235 (h : Hyp m m' c) : KV m c Cert.KernelIdeal.main_v235 = RV m' c Cert.ReferenceIdeal.main_call15_v2 := by
  have e0 := Cert.KernelIdeal.Hand.kd_main_v235 (F := Ideal) m c
  have e1 := Cert.ReferenceIdeal.HandRun.rd_main_call15_v2 (F := Ideal) m' c
  have e2 := (br_main_c_43 m m' c h).trans (rr_main_c__main_call15_c m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v236 (h : Hyp m m' c) : KV m c Cert.KernelIdeal.main_v236 = RV m' c Cert.ReferenceIdeal.main_v282 := by
  have e0 := Cert.KernelIdeal.Hand.kd_main_v236 (F := Ideal) m c
  have e1 := Cert.ReferenceIdeal.HandRun.rd_main_v282 (F := Ideal) m' c
  have e2 := (br_main_v233 m m' c h).trans (rr_main_call15_v0__main_v279 m' c)
  have e3 := (br_main_v235 m m' c h).trans (rr_main_call15_v2__main_v281 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v237 (h : Hyp m m' c) : KV m c Cert.KernelIdeal.main_v237 = RV m' c Cert.ReferenceIdeal.main_v283 := by
  have e0 := Cert.KernelIdeal.Hand.kd_main_v237 (F := Ideal) m c
  have e1 := Cert.ReferenceIdeal.HandRun.rd_main_v283 (F := Ideal) m' c
  have e2 := br_main_v236 m m' c h
  have e3 := (br_main_v234 m m' c h).trans (rr_main_call15_v1__main_v280 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v238 (h : Hyp m m' c) : KV m c Cert.KernelIdeal.main_v238 = RV m' c Cert.ReferenceIdeal.main_v284 := by
  have e0 := Cert.KernelIdeal.Hand.kd_main_v238 (F := Ideal) m c
  have e1 := Cert.ReferenceIdeal.HandRun.rd_main_v284 (F := Ideal) m' c
  have e2 := br_main_v237 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_cst_44 (h : Hyp m m' c) : KV m c Cert.KernelIdeal.main_cst_44 = RV m' c Cert.ReferenceIdeal.main_cst_3 := by
  have e0 := Cert.KernelIdeal.Hand.kd_main_cst_44 (F := Ideal) m c
  have e1 := Cert.ReferenceIdeal.HandRun.rd_main_cst_3 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v239 (h : Hyp m m' c) : KV m c Cert.KernelIdeal.main_v239 = RV m' c Cert.ReferenceIdeal.main_v296 := by
  have e0 := Cert.KernelIdeal.Hand.kd_main_v239 (F := Ideal) m c
  have e1 := Cert.ReferenceIdeal.HandRun.rd_main_v296 (F := Ideal) m' c
  have e2 := (br_main_cst_44 m m' c h).trans (rr_main_cst_3__main_cst_52 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v240 (h : Hyp m m' c) : KV m c Cert.KernelIdeal.main_v240 = RV m' c Cert.ReferenceIdeal.main_v297 := by
  have e0 := Cert.KernelIdeal.Hand.kd_main_v240 (F := Ideal) m c
  have e1 := Cert.ReferenceIdeal.HandRun.rd_main_v297 (F := Ideal) m' c
  have e2 := br_main_v239 m m' c h
  have e3 := (br_main_v238 m m' c h).trans (rr_main_v284__main_v295 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_cst_45 (h : Hyp m m' c) : KV m c Cert.KernelIdeal.main_cst_45 = RV m' c Cert.ReferenceIdeal.main_cst := by
  have e0 := Cert.KernelIdeal.Hand.kd_main_cst_45 (F := Ideal) m c
  have e1 := Cert.ReferenceIdeal.HandRun.rd_main_cst (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_cst_46 (h : Hyp m m' c) : KV m c Cert.KernelIdeal.main_cst_46 = RV m' c Cert.ReferenceIdeal.main_cst_24 := by
  have e0 := Cert.KernelIdeal.Hand.kd_main_cst_46 (F := Ideal) m c
  have e1 := Cert.ReferenceIdeal.HandRun.rd_main_cst_24 (F := Ideal) m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1]
  <;> rfl
theorem br_main_v245 (h : Hyp m m' c) : KV m c Cert.KernelIdeal.main_v245 = RV m' c Cert.ReferenceIdeal.main_v302 := by
  have e0 := Cert.KernelIdeal.Hand.kd_main_v245 (F := Ideal) m c
  have e1 := Cert.ReferenceIdeal.HandRun.rd_main_v302 (F := Ideal) m' c
  have e2 := (br_main_cst_46 m m' c h).trans (rr_main_cst_24__main_cst_54 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl

end Cert.Bridge

end
-- ==== Proof.KI.R0Val.lean ====
import proofs.«405323_j90718299226206_3_alg».proof.Proof.KI.R0
import Idealize.ShloMosaic.Lib.Pipeline.Value
import Idealize.ShloMosaic.Lib.ValueIdx
import Idealize.ShloMosaic.PureOps.Ideal.Laws
import Idealize.ShloMosaic.Lib.Tactic

/-! # Region 0 of @main at the ideal values: what its output array holds after the region

Entry (i, n) of the result is the sum over k of x(i, k) · w(k, n), plus b(0, n): at the extended reals the
roundings to bf16 on the way into the product are the identity, and the zero block the accumulator starts from
adds nothing. Row i is written by the grid point i / 1000, whose block holds rows 1000 t … 1000 t + 999. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

theorem hz0 : (![0, 0] : Fin 2 → Nat) = fun _ => 0 := funext fun a => by fin_cases a <;> rfl

/-! ## What the body leaves, as payloads of the input blocks -/

/-- A load of the whole buffer after several stores, the LAST of which wrote the whole buffer, reads that
    store's payload, whatever the earlier stores were. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl, View.ld_unit_zero rfl]

section Piece
variable {F : FTy → Type} [FloatOps F]

/-- The one store into the output buffer writes the last payload of what the accumulator then holds — the
    second payload of the two factor blocks over the zero block — and of the bias row. -/
theorem out0_3_eq (c : Dev nD) (i : grid0.Coords)
    (a2 : Memref sig .tc .vmem S1000x512 .f32) (h2 : a2.IsWhole) (a3 : Memref sig .tc .vmem S512x512 .f32) (h3 : a3.IsWhole)
    (a4 : Memref sig .tc .vmem S1x512 .f32) (h4 : a4.IsWhole) (a5 : Memref sig .tc .vmem S1000x512 .f32) (h5 : a5.IsWhole)
    (a6 : Memref sig .tc .vmem S1000x512 .f32) (h6 : a6.IsWhole) (hc0 : cond0_0 i) (hc1 : cond0_1 i)
    (x0 : Vec F S1000x512 .f32) (x1 : Vec F S512x512 .f32) (x2 : Vec F S1x512 .f32) :
    out0_3 c i a2 h2 a3 h3 a4 h4 a5 h5 a6 h6 hc0 hc1 x0 x1 x2 = k0_pay3 (k0_pay2 x0 x1 (k0_pay1 (F := F))) x2 := by
  unfold out0_3
  rw [View.read_writes_eq_canon _ _ _ (cover0_3 c i a2 h2 a3 h3 a4 h4 a5 h5 a6 h6 hc0 hc1 x0 x1 x2)]
  unfold kernelRun0
  dsimp only
  sl_unfold_words
  rw [View.canon_unit_zero hz0]
  simp only [View.readAt_eq_ld, h2.read_unread, h3.read_unread, h4.read_unread,
    View.ld_unit_zero (S := S1000x512) hz0, View.ld_unit_zero (S := S512x512) hz0, View.ld_unit_zero (S := S1x512) hz0,
    View.readCov_unit_zero (S := S1000x512) _ hz0, readCov_cons_unit_zero (S := S1000x512) _ hz0]

end Piece

/-! ## The payloads at an entry, at the ideal values -/

/-- The block product into the zero block, read at an entry: the sum over the contracted coordinate. -/
theorem matmul0_apply {φ₁ φ₂ : FTy} (prec : Option ContractPrecision) (A : FVec Ideal S1000x512 φ₁) (B : FVec Ideal S512x512 φ₂)
    (p : Fin 1000) (q : Fin 512) :
    matmul dot_S1000x512_S512x512_S1000x512_1_0_0_1_n_n prec A B (constant (F := Ideal) S1000x512 .f32 0x00000000#32) (ix2 p q)
      = ∑ k : Fin 512, A (ix2 p k) * B (ix2 k q) := by
  show FloatOps.matmul dot_S1000x512_S512x512_S1000x512_1_0_0_1_n_n prec A B (constant (F := Ideal) S1000x512 .f32 0x00000000#32) (ix2 p q) = _
  rw [Ideal.matmul_constant_zero_apply, ← Equiv.sum_comp (contrEquiv1 dot_S1000x512_S512x512_S1000x512_1_0_0_1_n_n 512 rfl rfl).symm]
  refine Finset.sum_congr rfl fun k _ => ?_
  have c2 := contrEquiv1_symm_val dot_S1000x512_S512x512_S1000x512_1_0_0_1_n_n 512 rfl rfl k
  have l2 : (dot_S1000x512_S512x512_S1000x512_1_0_0_1_n_n).lhsIdx (ix2 p q) ((contrEquiv1 _ 512 rfl rfl).symm k) = ix2 p k := by
    funext ax; apply Fin.ext
    match ax with
    | ⟨0, _⟩ => simp [DotDims.lhsIdx, dot_S1000x512_S512x512_S1000x512_1_0_0_1_n_n]; rfl
    | ⟨1, _⟩ => simp [DotDims.lhsIdx, dot_S1000x512_S512x512_S1000x512_1_0_0_1_n_n]; exact c2
  have r2 : (dot_S1000x512_S512x512_S1000x512_1_0_0_1_n_n).rhsIdx (ix2 p q) ((contrEquiv1 _ 512 rfl rfl).symm k) = ix2 k q := by
    funext ax; apply Fin.ext
    match ax with
    | ⟨0, _⟩ => simp [DotDims.rhsIdx, dot_S1000x512_S512x512_S1000x512_1_0_0_1_n_n]; exact c2
    | ⟨1, _⟩ => simp [DotDims.rhsIdx, dot_S1000x512_S512x512_S1000x512_1_0_0_1_n_n]; rfl
  rw [l2, r2]

/-- The body's three payloads composed, read at entry (p, q) of the block: the zero block adds nothing, the
    roundings are the identity, the bias row is read at column q. -/
theorem pay0_apply (x0 : Vec Ideal S1000x512 .f32) (x1 : Vec Ideal S512x512 .f32) (x2 : Vec Ideal S1x512 .f32)
    (p : Fin 1000) (q : Fin 512) :
    k0_pay3 (k0_pay2 x0 x1 (k0_pay1 (F := Ideal))) x2 (ix2 p q)
      = (∑ k : Fin 512, x0 (ix2 p k) * x1 (ix2 k q)) + x2 (ix2 (0 : Fin 1) q) := by
  unfold k0_pay3 k0_pay2 k0_pay1
  simp only [shapeCast_self]
  refine (addf_apply _ _ _).trans (congrArg₂ (· + ·) ?_ ?_)
  · refine (addf_apply _ _ _).trans ?_
    refine (congrArg₂ (· + ·) Ideal.ofBits_zero_f32 (matmul0_apply none _ _ p q)).trans ?_
    rw [zero_add]
    rfl
  · exact broadcastTo_apply x2 broadcasts_S1x512_S1000x512 (ix2 p q) (ix2 (0 : Fin 1) q) (fun a => by
      match a with
      | ⟨0, _⟩ => rfl
      | ⟨1, _⟩ => rfl)

/-! ## From blocks to the array -/

variable (V : (c : Dev nD) → (b : Ref sig .tc) → Buf (Elt Ideal) ((c : Thread nD τ).loc b))

/-- The region's result as ONE function of the three operand arrays. -/
def G0 (x : Vec Ideal S10000x512 .f32) (w : Vec Ideal S512x512 .f32) (b : Vec Ideal S1x512 .f32) : Vec Ideal S10000x512 .f32 :=
  fun j => (∑ k : Fin 512, x (ix2 (j 0 : Fin 10000) k) * w (ix2 k (j 1 : Fin 512))) + b (ix2 (0 : Fin 1) (j 1 : Fin 512))

/-- It at an index whose coordinates are named. -/
theorem G0_apply (x : Vec Ideal S10000x512 .f32) (w : Vec Ideal S512x512 .f32) (b : Vec Ideal S1x512 .f32)
    (j : S10000x512.Idx) (i : Fin 10000) (n : Fin 512) (h0 : (j 0).val = i.val) (h1 : (j 1).val = n.val) :
    G0 x w b j = (∑ k : Fin 512, x (ix2 i k) * w (ix2 k n)) + b (ix2 (0 : Fin 1) n) := by
  obtain rfl : (j 0 : Fin 10000) = i := Fin.ext h0
  obtain rfl : (j 1 : Fin 512) = n := Fin.ext h1
  rfl

/-- The three operand arrays as the region finds them, at their literal types. -/
abbrev xarr0 (c : Dev nD) : Vec Ideal S10000x512 .f32 := V c (Pipeline.arrRef spec0 0)
abbrev warr0 (c : Dev nD) : Vec Ideal S512x512 .f32 := V c (Pipeline.arrRef spec0 1)
abbrev barr0 (c : Dev nD) : Vec Ideal S1x512 .f32 := V c (Pipeline.arrRef spec0 2)

/-- The windows' index maps, decided over the grid: the left factor's and the output's block row is the point's
    number, every other block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the left factor's block at point t is entry (1000 t + p, k) of the array. -/
theorem iblk0_0_apply (c : Dev nD) (t : Fin cfg0.N) (p : Fin 1000) (k : Fin 512) (i : Fin 10000) (hi : i.val = 1000 * t.val + p.val) :
    (iblk0 V c 0 t : Vec Ideal S1000x512 .f32) (ix2 p k) = xarr0 V c (ix2 i k) := by
  obtain ⟨e00, e01, -⟩ := idx_facts0 t
  unfold iblk0
  rw [View.read_apply]
  refine congrArg (V c (Pipeline.arrRef spec0 0)) (funext fun a => Fin.ext ?_)
  match a with
  | ⟨0, _⟩ => show win0_0.index t (0 : Fin 2) * 1000 + 1 * p.val = i.val; rw [e00, hi]; omega
  | ⟨1, _⟩ => show win0_0.index t (1 : Fin 2) * 512 + 1 * k.val = k.val; rw [e01]; omega

/-- The right factor's block is the whole array at every point. -/
theorem iblk0_1_apply (c : Dev nD) (t : Fin cfg0.N) (k : Fin 512) (q : Fin 512) :
    (iblk0 V c 1 t : Vec Ideal S512x512 .f32) (ix2 k q) = warr0 V c (ix2 k q) := by
  obtain ⟨-, -, e10, e11, -⟩ := idx_facts0 t
  unfold iblk0
  rw [View.read_apply]
  refine congrArg (V c (Pipeline.arrRef spec0 1)) (funext fun a => Fin.ext ?_)
  match a with
  | ⟨0, _⟩ => show win0_1.index t (0 : Fin 2) * 512 + 1 * k.val = k.val; rw [e10]; omega
  | ⟨1, _⟩ => show win0_1.index t (1 : Fin 2) * 512 + 1 * q.val = q.val; rw [e11]; omega

/-- So is the bias row's. -/
theorem iblk0_2_apply (c : Dev nD) (t : Fin cfg0.N) (q : Fin 512) :
    (iblk0 V c 2 t : Vec Ideal S1x512 .f32) (ix2 (0 : Fin 1) q) = barr0 V c (ix2 (0 : Fin 1) q) := by
  obtain ⟨-, -, -, -, e20, e21, -⟩ := idx_facts0 t
  unfold iblk0
  rw [View.read_apply]
  refine congrArg (V c (Pipeline.arrRef spec0 2)) (funext fun a => Fin.ext ?_)
  match a with
  | ⟨0, _⟩ => show win0_2.index t (0 : Fin 2) * 1 + 1 * 0 = 0; rw [e20]
  | ⟨1, _⟩ => show win0_2.index t (1 : Fin 2) * 512 + 1 * q.val = q.val; rw [e21]; omega

/-- WHAT POINT t WRITES BACK is block t of the result function of the operand arrays. -/
theorem flushed0_3_eq (c : Dev nD) (t : Fin cfg0.N) :
    (dat0 V c).flushed 3 t = ((cfg0.win 3).blk t).view.read (Elt Ideal) (G0 (xarr0 V c) (warr0 V c) (barr0 V c)) := by
  show (cfg0.win 3).cut (grid0.coords t) ((dat0 V c).after 3 t) = _
  rw [after0_3, out0_3_eq]
  obtain ⟨-, -, -, -, -, -, e30, e31⟩ := idx_facts0 t
  have hN : cfg0.N = 10 := N_0
  funext j
  obtain ⟨p, q, rfl⟩ : ∃ (p : Fin 1000) (q : Fin 512), j = ix2 p q := ⟨j 0, j 1, eq_ix2 j⟩
  have hi : 1000 * t.val + p.val < 10000 := by have := t.isLt; have := p.isLt; omega
  refine (pay0_apply (iblk0 V c 0 t) (iblk0 V c 1 t) (iblk0 V c 2 t) p q).trans ?_
  rw [View.read_apply]
  rw [G0_apply (xarr0 V c) (warr0 V c) (barr0 V c) _ ⟨1000 * t.val + p.val, hi⟩ q
    (by show win0_3.index t (0 : Fin 2) * 1000 + 1 * p.val = 1000 * t.val + p.val; rw [e30]; omega)
    (by show win0_3.index t (1 : Fin 2) * 512 + 1 * q.val = q.val; rw [e31]; omega)]
  refine congrArg₂ (· + ·) (Finset.sum_congr rfl fun k _ => congrArg₂ (· * ·) ?_ ?_) ?_
  · exact iblk0_0_apply V c t p k _ rfl
  · exact iblk0_1_apply V c t k q
  · exact iblk0_2_apply V c t q

/-- An index of the array is in point t's block iff each coordinate is in the block's range on its axis. -/
theorem mem_blk0_3 (t : Fin cfg0.N) (i : S10000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v21).slice (win0_3.rect t)).set ↔ _
  rw [View.set_slice_whole, Rect.mem_set_unit]
  exact Iff.rfl

/-- Every row is in the block of the point numbered by its thousands. -/
theorem covered0_3 (i : S10000x512.Idx) : ∃ t : Fin cfg0.N, (cfg0.win 3).flush t = true ∧ i ∈ ((cfg0.win 3).blk t).view.set := by
  have hi0 : (i 0).val < 10000 := (i 0).isLt
  have hi1 : (i 1).val < 512 := (i 1).isLt
  have hN : cfg0.N = 10 := N_0
  have ht : (i 0).val / 1000 < cfg0.N := by omega
  obtain ⟨-, -, -, -, -, -, e30, e31⟩ := idx_facts0 ⟨(i 0).val / 1000, ht⟩
  refine ⟨⟨(i 0).val / 1000, ht⟩, flush0_3 _, ?_⟩
  rw [mem_blk0_3]
  intro a
  match a with
  | ⟨0, _⟩ =>
    show win0_3.index ⟨(i 0).val / 1000, ht⟩ (0 : Fin 2) * 1000 ≤ (i 0).val ∧ (i 0).val < win0_3.index ⟨(i 0).val / 1000, ht⟩ (0 : Fin 2) * 1000 + 1000
    rw [e30]; show (i 0).val / 1000 * 1000 ≤ (i 0).val ∧ (i 0).val < (i 0).val / 1000 * 1000 + 1000; omega
  | ⟨1, _⟩ =>
    show win0_3.index ⟨(i 0).val / 1000, ht⟩ (1 : Fin 2) * 512 ≤ (i 1).val ∧ (i 1).val < win0_3.index ⟨(i 0).val / 1000, ht⟩ (1 : Fin 2) * 512 + 512
    rw [e31]; omega

/-- THE ARRAY after the region: the result function of the three operand arrays as the region finds them. -/
theorem arrAt0_3 (c : Dev nD) :
    (dat0 (F := Ideal) V c).arrAt 3 cfg0.N = G0 (V c (Pipeline.arrRef spec0 0)) (V c (Pipeline.arrRef spec0 1)) (V c (Pipeline.arrRef spec0 2)) :=
  (dat0 V c).arrAt_eq_of_cover 3 (G0 (xarr0 V c) (warr0 V c) (barr0 V c)) (fun t _ => flushed0_3_eq V c t) (covered0_3)

end Cert.KernelIdeal.HandVal

end
-- ==== Proof.Ref.Dots.lean ====
/-
  THE REFERENCE'S MATRIX PRODUCTS AND TRANSPOSES AT AN INDEX. Every `dot_general` of the reference contracts the second axis
  of an M×K left operand with the first axis of a K×N right operand, with no batch axis: its dimension numbers are the
  plain ones. On the extended reals the product read at (i, j) is the sum over the contraction index of the
  operands' products; that index has one coordinate, so the sum is over k < K of l(i, k) · r(k, j). A transpose by
  [1, 0] read at (i, j) is the operand at (j, i).
-/
import proofs.«405323_j90718299226206_3_alg».proof.Proof.Gen.ReferenceIdeal
import Idealize.ShloMosaic.PureOps.Ideal.Laws
import Idealize.ShloMosaic.Lib.ValueIdx
import Idealize.ShloMosaic.Lib.Pipeline.Value

noncomputable section

namespace Cert.ReferenceIdeal.Dots

open Idealize.ShloMosaic Idealize.ShloMosaic.ValueIdx Cert.ReferenceIdeal

/-! ## The plain dimension numbers: the operand indices, axis by axis -/

section Plain
variable {M K N : Nat}

/-- The left operand's row is the result's row. -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single (cl := 1) rfl j k

/-- The right operand's row is the contraction coordinate. -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single (cr := 0) rfl j k

/-- The right operand's column is the result's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE PRODUCT AT AN INDEX: (l · r)(i, j) = Σ_{k < K} l(i, k) · r(k, j). -/
theorem plain_apply (l : FVec Ideal ⟨2, ![M, K]⟩ .f32) (r : FVec Ideal ⟨2, ![K, N]⟩ .f32) (i : Fin M) (j : Fin N) :
    Host.dotGeneral (F := Ideal) (DotDims.plain M K N) none l r (ix2 i j) = ∑ k : Fin K, l (ix2 i k) * r (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  congr 1
  · refine congrArg l (funext fun a => Fin.ext ?_)
    match a with
    | ⟨0, _⟩ => exact plain_lhs_0 _ _
    | ⟨1, _⟩ => exact (plain_lhs_1 _ _).trans hk
  · refine congrArg r (funext fun a => Fin.ext ?_)
    match a with
    | ⟨0, _⟩ => exact (plain_rhs_0 _ _).trans hk
    | ⟨1, _⟩ => exact plain_rhs_1 _ _

end Plain

/-- A rank-2 transpose by [1, 0] read at (i, j) is the operand at (j, i). -/
theorem transpose2_apply {α : Type} {A B : Nat} (x : (⟨2, ![A, B]⟩ : Shape).Idx → α)
    (h : (⟨2, ![A, B]⟩ : Shape).Transposes [1, 0] ⟨2, ![B, A]⟩) (i : Fin B) (j : Fin A) :
    transpose ⟨2, ![B, A]⟩ [1, 0] x h (ix2 i j) = x (ix2 j i) :=
  transpose_apply [1, 0] x h (ix2 i j) (ix2 j i) fun b => match b with | ⟨0, _⟩ => rfl | ⟨1, _⟩ => rfl

variable [Cert.ReferenceIdeal.Facts]
open Cert.ReferenceIdeal.Facts₀ Cert.ReferenceIdeal.Facts

/-! ## The reference's dot records -/

theorem dot_S10000x512_S512x512_apply (l : FVec Ideal S10000x512 .f32) (r : FVec Ideal S512x512 .f32) (i : Fin 10000) (j : Fin 512) :
    Host.dotGeneral dot_S10000x512_S512x512_S10000x512_1_0_0_1_n_n none l r (ix2 i j) = ∑ k : Fin 512, l (ix2 i k) * r (ix2 k j) :=
  plain_apply (M := 10000) (K := 512) (N := 512) l r i j

theorem dot_S10000x512_S512x1024_apply (l : FVec Ideal S10000x512 .f32) (r : FVec Ideal S512x1024 .f32) (i : Fin 10000) (j : Fin 1024) :
    Host.dotGeneral dot_S10000x512_S512x1024_S10000x1024_1_0_0_1_n_n none l r (ix2 i j) = ∑ k : Fin 512, l (ix2 i k) * r (ix2 k j) :=
  plain_apply (M := 10000) (K := 512) (N := 1024) l r i j

theorem dot_S1024x10000_S10000x512_apply (l : FVec Ideal S1024x10000 .f32) (r : FVec Ideal S10000x512 .f32) (i : Fin 1024) (j : Fin 512) :
    Host.dotGeneral dot_S1024x10000_S10000x512_S1024x512_1_0_0_1_n_n none l r (ix2 i j) = ∑ k : Fin 10000, l (ix2 i k) * r (ix2 k j) :=
  plain_apply (M := 1024) (K := 10000) (N := 512) l r i j

theorem dot_S10000x10000_S10000x1024_apply (l : FVec Ideal S10000x10000 .f32) (r : FVec Ideal S10000x1024 .f32) (i : Fin 10000) (j : Fin 1024) :
    Host.dotGeneral dot_S10000x10000_S10000x1024_S10000x1024_1_0_0_1_n_n none l r (ix2 i j) = ∑ k : Fin 10000, l (ix2 i k) * r (ix2 k j) :=
  plain_apply (M := 10000) (K := 10000) (N := 1024) l r i j

theorem dot_S1024x10000_S10000x1024_apply (l : FVec Ideal S1024x10000 .f32) (r : FVec Ideal S10000x1024 .f32) (i : Fin 1024) (j : Fin 1024) :
    Host.dotGeneral dot_S1024x10000_S10000x1024_S1024x1024_1_0_0_1_n_n none l r (ix2 i j) = ∑ k : Fin 10000, l (ix2 i k) * r (ix2 k j) :=
  plain_apply (M := 1024) (K := 10000) (N := 1024) l r i j

theorem dot_S1024x512_S512x512_apply (l : FVec Ideal S1024x512 .f32) (r : FVec Ideal S512x512 .f32) (i : Fin 1024) (j : Fin 512) :
    Host.dotGeneral dot_S1024x512_S512x512_S1024x512_1_0_0_1_n_n none l r (ix2 i j) = ∑ k : Fin 512, l (ix2 i k) * r (ix2 k j) :=
  plain_apply (M := 1024) (K := 512) (N := 512) l r i j

theorem dot_S1024x1024_S1024x512_apply (l : FVec Ideal S1024x1024 .f32) (r : FVec Ideal S1024x512 .f32) (i : Fin 1024) (j : Fin 512) :
    Host.dotGeneral dot_S1024x1024_S1024x512_S1024x512_1_0_0_1_n_n none l r (ix2 i j) = ∑ k : Fin 1024, l (ix2 i k) * r (ix2 k j) :=
  plain_apply (M := 1024) (K := 1024) (N := 512) l r i j

theorem dot_S1024x512_S512x128_apply (l : FVec Ideal S1024x512 .f32) (r : FVec Ideal S512x128 .f32) (i : Fin 1024) (j : Fin 128) :
    Host.dotGeneral dot_S1024x512_S512x128_S1024x128_1_0_0_1_n_n none l r (ix2 i j) = ∑ k : Fin 512, l (ix2 i k) * r (ix2 k j) :=
  plain_apply (M := 1024) (K := 512) (N := 128) l r i j

theorem dot_S128x1024_S1024x512_apply (l : FVec Ideal S128x1024 .f32) (r : FVec Ideal S1024x512 .f32) (i : Fin 128) (j : Fin 512) :
    Host.dotGeneral dot_S128x1024_S1024x512_S128x512_1_0_0_1_n_n none l r (ix2 i j) = ∑ k : Fin 1024, l (ix2 i k) * r (ix2 k j) :=
  plain_apply (M := 128) (K := 1024) (N := 512) l r i j

theorem dot_S1024x1024_S1024x128_apply (l : FVec Ideal S1024x1024 .f32) (r : FVec Ideal S1024x128 .f32) (i : Fin 1024) (j : Fin 128) :
    Host.dotGeneral dot_S1024x1024_S1024x128_S1024x128_1_0_0_1_n_n none l r (ix2 i j) = ∑ k : Fin 1024, l (ix2 i k) * r (ix2 k j) :=
  plain_apply (M := 1024) (K := 1024) (N := 128) l r i j

theorem dot_S128x1024_S1024x128_apply (l : FVec Ideal S128x1024 .f32) (r : FVec Ideal S1024x128 .f32) (i : Fin 128) (j : Fin 128) :
    Host.dotGeneral dot_S128x1024_S1024x128_S128x128_1_0_0_1_n_n none l r (ix2 i j) = ∑ k : Fin 1024, l (ix2 i k) * r (ix2 k j) :=
  plain_apply (M := 128) (K := 1024) (N := 128) l r i j

theorem dot_S128x512_S512x512_apply (l : FVec Ideal S128x512 .f32) (r : FVec Ideal S512x512 .f32) (i : Fin 128) (j : Fin 512) :
    Host.dotGeneral dot_S128x512_S512x512_S128x512_1_0_0_1_n_n none l r (ix2 i j) = ∑ k : Fin 512, l (ix2 i k) * r (ix2 k j) :=
  plain_apply (M := 128) (K := 512) (N := 512) l r i j

theorem dot_S128x128_S128x512_apply (l : FVec Ideal S128x128 .f32) (r : FVec Ideal S128x512 .f32) (i : Fin 128) (j : Fin 512) :
    Host.dotGeneral dot_S128x128_S128x512_S128x512_1_0_0_1_n_n none l r (ix2 i j) = ∑ k : Fin 128, l (ix2 i k) * r (ix2 k j) :=
  plain_apply (M := 128) (K := 128) (N := 512) l r i j

theorem dot_S128x512_S512x1_apply (l : FVec Ideal S128x512 .f32) (r : FVec Ideal S512x1 .f32) (i : Fin 128) (j : Fin 1) :
    Host.dotGeneral dot_S128x512_S512x1_S128x1_1_0_0_1_n_n none l r (ix2 i j) = ∑ k : Fin 512, l (ix2 i k) * r (ix2 k j) :=
  plain_apply (M := 128) (K := 512) (N := 1) l r i j

theorem dot_S1x128_S128x512_apply (l : FVec Ideal S1x128 .f32) (r : FVec Ideal S128x512 .f32) (i : Fin 1) (j : Fin 512) :
    Host.dotGeneral dot_S1x128_S128x512_S1x512_1_0_0_1_n_n none l r (ix2 i j) = ∑ k : Fin 128, l (ix2 i k) * r (ix2 k j) :=
  plain_apply (M := 1) (K := 128) (N := 512) l r i j

theorem dot_S128x128_S128x1_apply (l : FVec Ideal S128x128 .f32) (r : FVec Ideal S128x1 .f32) (i : Fin 128) (j : Fin 1) :
    Host.dotGeneral dot_S128x128_S128x1_S128x1_1_0_0_1_n_n none l r (ix2 i j) = ∑ k : Fin 128, l (ix2 i k) * r (ix2 k j) :=
  plain_apply (M := 128) (K := 128) (N := 1) l r i j

theorem dot_S1x128_S128x1_apply (l : FVec Ideal S1x128 .f32) (r : FVec Ideal S128x1 .f32) (i : Fin 1) (j : Fin 1) :
    Host.dotGeneral dot_S1x128_S128x1_S1x1_1_0_0_1_n_n none l r (ix2 i j) = ∑ k : Fin 128, l (ix2 i k) * r (ix2 k j) :=
  plain_apply (M := 1) (K := 128) (N := 1) l r i j

/-! ## The reference's transposes -/

theorem transpose_S10000x1024_S1024x10000_apply {α : Type} (x : S10000x1024.Idx → α) (i : Fin 1024) (j : Fin 10000) :
    transpose S1024x10000 [1, 0] x transposes_S10000x1024_S1024x10000_1_0 (ix2 i j) = x (ix2 j i) :=
  transpose2_apply x _ i j

theorem transpose_S1024x1_S1x1024_apply {α : Type} (x : S1024x1.Idx → α) (i : Fin 1) (j : Fin 1024) :
    transpose S1x1024 [1, 0] x transposes_S1024x1_S1x1024_1_0 (ix2 i j) = x (ix2 j i) :=
  transpose2_apply x _ i j

theorem transpose_S1024x128_S128x1024_apply {α : Type} (x : S1024x128.Idx → α) (i : Fin 128) (j : Fin 1024) :
    transpose S128x1024 [1, 0] x transposes_S1024x128_S128x1024_1_0 (ix2 i j) = x (ix2 j i) :=
  transpose2_apply x _ i j

theorem transpose_S128x1_S1x128_apply {α : Type} (x : S128x1.Idx → α) (i : Fin 1) (j : Fin 128) :
    transpose S1x128 [1, 0] x transposes_S128x1_S1x128_1_0 (ix2 i j) = x (ix2 j i) :=
  transpose2_apply x _ i j

theorem transpose_S1x1_S1x1_apply {α : Type} (x : S1x1.Idx → α) (i : Fin 1) (j : Fin 1) :
    transpose S1x1 [1, 0] x transposes_S1x1_S1x1_1_0 (ix2 i j) = x (ix2 j i) :=
  transpose2_apply x _ i j

end Cert.ReferenceIdeal.Dots

end
-- ==== Proof.Math.Layer1.lean ====
/-
  The mathematics of the first graph-convolution layer, with no program in sight.

  A float is an extended real and every operation is exact. The sparse form of the layer adds, for
  every entry e of the edge list (the self loops included) whose target is the node c, the product
  norm_e * h[row_e, j] into out[c, j]; the dense form multiplies the transposed weighted adjacency
  by the rows dis[r] * h[r, j], scales by dis[c] and adds the self-loop term. When all the numbers
  involved are real the two agree: it is distributivity and a regrouping of a finite sum by the
  source node. This file states that law over the reals and over the extended reals, reads the
  accumulating scatter at an index as a filtered sum (for the three index layouts that occur), and
  collects the closure facts that keep degrees, normalisers and products real.
-/
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Mathlib.Algebra.BigOperators.Fin
import Mathlib.Algebra.BigOperators.Ring.Finset
import Mathlib.Data.EReal.Operations
import Mathlib.Tactic.Ring
import Mathlib.Tactic.NormNum

noncomputable section

open scoped BigOperators

namespace Cert.Math

open Idealize.ShloMosaic Idealize.ShloMosaic.ValueIdx

/-! ## Real extended reals -/

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- An extended real whose absolute value is below +∞ is real. -/
theorem isReal_of_abs_lt_top {x : EReal} (h : max x (-x) < ⊤) : IsReal x := by
  rw [isReal_iff]
  refine ⟨?_, ?_⟩
  · rintro rfl; simp at h
  · rintro rfl; simp at h

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is real. -/
theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The normaliser of a real degree: the reciprocal square root where the degree is positive, zero
    elsewhere, is a real number. -/
theorem isReal_dis {x : EReal} (hx : IsReal x) : IsReal (if 0 < x then Ideal.rsqrt x else 0) := by
  obtain ⟨r, rfl⟩ := hx
  split_ifs with h
  · have hr : 0 < r := by exact_mod_cast h
    rw [Ideal.rsqrt_coe, if_neg (not_lt.mpr hr.le), if_neg hr.ne']
    exact isReal_coe _
  · exact isReal_zero

/-! ## The law of the layer -/

/-- Over the reals: the sparse aggregation at the target c (every edge into c contributes
    (dis(row e) * w e * dis c) * h(row e, j), the self loop of weight one contributes
    (dis c * 1 * dis c) * h(c, j)) is the dense one (the column c of the weighted adjacency,
    adj(r, c) the sum of the weights of the edges r → c, against dis r * h(r, j), scaled by
    dis c, plus the self-loop term). -/
theorem layer1_real {E N D : Type*} [Fintype E] [Fintype N] [DecidableEq N]
    (row col : E → N) (w : E → ℝ) (dis : N → ℝ) (h : N → D → ℝ) (c : N) (j : D) :
    ∑ e ∈ Finset.univ.filter (fun e => col e = c), (dis (row e) * w e * dis c) * h (row e) j
        + (dis c * 1 * dis c) * h c j
      = dis c * ∑ r, (∑ e ∈ Finset.univ.filter (fun e => row e = r ∧ col e = c), w e) * (dis r * h r j)
        + (dis c * dis c) * h c j := by
  have key : ∑ r, (∑ e ∈ Finset.univ.filter (fun e => row e = r ∧ col e = c), w e) * (dis r * h r j)
      = ∑ e ∈ Finset.univ.filter (fun e => col e = c), w e * (dis (row e) * h (row e) j) := by
    rw [← Finset.sum_fiberwise (Finset.univ.filter (fun e => col e = c)) row]
    refine Finset.sum_congr rfl fun r _ => ?_
    rw [Finset.sum_mul, Finset.filter_filter]
    refine Finset.sum_congr ?_ ?_
    · ext e; simp [and_comm]
    · intro e he
      have : row e = r := (Finset.mem_filter.1 he).2.2
      rw [this]
  rw [key, Finset.mul_sum]
  congr 1
  · exact Finset.sum_congr rfl fun e _ => by ring
  · ring

/-- The same law over the extended reals, for weights, normalisers and features that are real. -/
theorem layer1_ereal {E N D : Type*} [Fintype E] [Fintype N] [DecidableEq N]
    (row col : E → N) (W : E → EReal) (Dis : N → EReal) (H : N → D → EReal)
    (hW : ∀ e, IsReal (W e)) (hDis : ∀ n, IsReal (Dis n)) (hH : ∀ n j, IsReal (H n j)) (c : N) (j : D) :
    ∑ e ∈ Finset.univ.filter (fun e => col e = c), (Dis (row e) * W e * Dis c) * H (row e) j
        + (Dis c * 1 * Dis c) * H c j
      = Dis c * ∑ r, (∑ e ∈ Finset.univ.filter (fun e => row e = r ∧ col e = c), W e) * (Dis r * H r j)
        + (Dis c * Dis c) * H c j := by
  choose w hw using hW
  choose dis hdis using hDis
  choose h hh using hH
  simp only [hw, hdis, hh]
  have := congrArg ((↑) : ℝ → EReal) (layer1_real row col w dis h c j)
  simp only [EReal.coe_add, EReal.coe_mul, coe_sum, EReal.coe_one] at this
  exact this

/-! ## Sums over a padded range -/

/-- A sum over Fin m whose terms vanish from n on is the sum over Fin n. -/
theorem sum_fin_pad {M : Type*} [AddCommMonoid M] {n m : ℕ} (hnm : n ≤ m) (f : Fin m → M)
    (hf : ∀ i : Fin m, n ≤ i.val → f i = 0) : ∑ i : Fin m, f i = ∑ i : Fin n, f (Fin.castLE hnm i) := by
  obtain ⟨k, rfl⟩ := Nat.exists_eq_add_of_le hnm
  rw [Fin.sum_univ_add]
  have : ∑ i : Fin k, f (Fin.natAdd n i) = 0 :=
    Finset.sum_eq_zero fun i _ => hf _ (by simp [Fin.natAdd])
  rw [this, add_zero]
  rfl

/-- A filtered sum over a concatenation splits into the filtered sums over its two parts. -/
theorem sum_filter_concat {M : Type*} [AddCommMonoid M] {a b : ℕ} (p : Fin (a + b) → Prop) [DecidablePred p]
    (f : Fin (a + b) → M) :
    ∑ e ∈ Finset.univ.filter p, f e
      = ∑ e ∈ (Finset.univ : Finset (Fin a)).filter (fun e => p (Fin.castAdd b e)), f (Fin.castAdd b e)
        + ∑ n ∈ (Finset.univ : Finset (Fin b)).filter (fun n => p (Fin.natAdd a n)), f (Fin.natAdd a n) := by
  rw [Finset.sum_filter, Finset.sum_filter, Finset.sum_filter, Fin.sum_univ_add]

/-- The entries n of the identity list whose target is c: the one entry c. -/
theorem sum_filter_self {M : Type*} [AddCommMonoid M] {ι : Type*} [Fintype ι] [DecidableEq ι] (c : ι) (f : ι → M) :
    ∑ n ∈ Finset.univ.filter (fun n => n = c), f n = f c := by
  rw [Finset.filter_eq' Finset.univ c, if_pos (Finset.mem_univ c), Finset.sum_singleton]

/-! ## The accumulating scatter read at an index -/

/-- A rank-1 index set is its one coordinate … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An update lands on the element i exactly when start plus window coordinate is i's coordinate on
    every axis. -/
theorem resultIdx?_eq_some_iff {s si u : Shape} (d : ScatterDims s si u) {w : ℕ} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := h a
      simp only
      omega
    · intro hi
      funext a
      refine Fin.ext ?_
      have := hi a
      have := h a
      simp only
      omega
  · constructor
    · intro hh; cases hh
    · intro hi
      exfalso; apply h
      intro a
      have := hi a
      have := (i a).isLt
      omega

/-- The dimension numbers of a scatter of E scalars into a vector of N, one index each. -/
abbrev scatVec (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- The dimension numbers of a scatter of E rows of width D into an N × D array, one row index each. -/
abbrev scatRows (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ := ⟨[1], [0], [0], 1, wf⟩

/-- The dimension numbers of a scatter of E scalars into an N₁ × N₂ array, an index pair each. -/
abbrev scatPairs (N₁ N₂ E : ℕ) (wf : ScatterDims.WF ⟨2, ![N₁, N₂]⟩ ⟨2, ![E, 2]⟩ ⟨1, ![E]⟩ [] [0, 1] [0, 1] 1) :
    ScatterDims ⟨2, ![N₁, N₂]⟩ ⟨2, ![E, 2]⟩ ⟨1, ![E]⟩ := ⟨[], [0, 1], [0, 1], 1, wf⟩

section Vec
variable {N E w : ℕ} (wf : ScatterDims.WF ⟨1, ![N]⟩ ⟨2, ![E, 1]⟩ ⟨1, ![E]⟩ [] [0] [0] 1)

theorem scatVec_start (j : (⟨1, ![E]⟩ : Shape).Idx) (idx : IVec ⟨2, ![E, 1]⟩ w) (a : Fin 1) :
    (scatVec N E wf).start j idx a = (idx (ix2 (j 0) 0)).toInt := by
  obtain rfl : a = 0 := Subsingleton.elim _ _
  unfold ScatterDims.start
  rw [dif_pos (show (0 : Fin 1) ∈ (scatVec N E wf).scatterDimsToOperandDims from List.mem_singleton.mpr rfl)]
  have hsi : (scatVec N E wf).siIdx j ⟨List.idxOf (0 : Fin 1) (scatVec N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem scatVec_window (j : (⟨1, ![E]⟩ : Shape).Idx) (a : Fin 1) : (scatVec N E wf).window j a = 0 := by
  obtain rfl : a = 0 := Subsingleton.elim _ _
  have hk : (0 : Fin 1) ∉ (scatVec N E wf).sKept := by
    show (0 : Fin 1) ∉ (List.finRange 1).filter (· ∉ [(0 : Fin 1)])
    decide
  unfold ScatterDims.window
  rw [dif_neg hk]

theorem scatVec_lands (idx : IVec ⟨2, ![E, 1]⟩ w) (e : Fin E) (c : Fin N) :
    (scatVec N E wf).resultIdx? (ix1 e) idx = some (ix1 c) ↔ (idx (ix2 e 0)).toInt = (c.val : Int) := by
  rw [resultIdx?_eq_some_iff]
  constructor
  · intro h
    have := h 0
    rw [scatVec_start, scatVec_window] at this
    have h2 : (idx (ix2 e 0)).toInt + ((0 : ℕ) : Int) = (c.val : Int) := this
    simpa using h2
  · intro h a
    obtain rfl : a = 0 := Subsingleton.elim _ _
    rw [scatVec_start, scatVec_window]
    show (idx (ix2 e 0)).toInt + ((0 : ℕ) : Int) = (c.val : Int)
    simpa using h

/-- The scatter of E scalars into a vector, read at the element c: the operand there plus the updates
    whose index is c. -/
theorem scatterAdd_vec_apply {φ : FTy} (x : FVec Ideal ⟨1, ![N]⟩ φ) (idx : IVec ⟨2, ![E, 1]⟩ w)
    (upd : FVec Ideal ⟨1, ![E]⟩ φ) (c : Fin N) :
    Host.scatterAdd (scatVec N E wf) x idx upd (ix1 c)
      = x (ix1 c) + ∑ e ∈ Finset.univ.filter (fun e : Fin E => (idx (ix2 e 0)).toInt = (c.val : Int)), upd (ix1 e) := by
  show Ideal.hostScatterAdd (scatVec N E wf) x idx upd (ix1 c) = _
  unfold Ideal.hostScatterAdd
  congr 1
  rw [Finset.sum_filter, sum_idx1, Finset.sum_filter]
  exact Finset.sum_congr rfl fun e _ => if_congr (scatVec_lands wf idx e c) rfl rfl

/-- The same, the indices given as a function into Fin N. -/
theorem scatterAdd_vec_apply_of {φ : FTy} (x : FVec Ideal ⟨1, ![N]⟩ φ) (idx : IVec ⟨2, ![E, 1]⟩ w)
    (upd : FVec Ideal ⟨1, ![E]⟩ φ) (col : Fin E → Fin N)
    (hcol : ∀ e, (idx (ix2 e 0)).toInt = ((col e).val : Int)) (c : Fin N) :
    Host.scatterAdd (scatVec N E wf) x idx upd (ix1 c)
      = x (ix1 c) + ∑ e ∈ Finset.univ.filter (fun e => col e = c), upd (ix1 e) := by
  rw [scatterAdd_vec_apply]
  congr 2
  ext e
  simp only [Finset.mem_filter, Finset.mem_univ, true_and, hcol e]
  exact ⟨fun h => Fin.ext (by exact_mod_cast h), fun h => by rw [h]⟩

end Vec

section Rows
variable {N D E w : ℕ} (wf : ScatterDims.WF ⟨2, ![N, D]⟩ ⟨2, ![E, 1]⟩ ⟨2, ![E, D]⟩ [1] [0] [0] 1)

theorem scatRows_start0 (j : (⟨2, ![E, D]⟩ : Shape).Idx) (idx : IVec ⟨2, ![E, 1]⟩ w) :
    (scatRows N D E wf).start j idx 0 = (idx (ix2 (j 0) 0)).toInt := by
  have hm : (0 : Fin 2) ∈ (scatRows N D E wf).scatterDimsToOperandDims := List.mem_singleton.mpr rfl
  unfold ScatterDims.start
  rw [dif_pos hm]
  have hsi : (scatRows N D E wf).siIdx j ⟨List.idxOf (0 : Fin 2) (scatRows N D E wf).scatterDimsToOperandDims,
      List.idxOf_lt_length_iff.2 hm⟩ = ix2 (j 0) 0 := by
    funext b; refine Fin.ext ?_
    match b with
    | ⟨0, _⟩ => rfl
    | ⟨1, _⟩ => rfl
  rw [hsi]
  rfl

theorem scatRows_start1 (j : (⟨2, ![E, D]⟩ : Shape).Idx) (idx : IVec ⟨2, ![E, 1]⟩ w) :
    (scatRows N D E wf).start j idx 1 = 0 := by
  have hm : (1 : Fin 2) ∉ (scatRows N D E wf).scatterDimsToOperandDims := by
    show (1 : Fin 2) ∉ [(0 : Fin 2)]
    decide
  unfold ScatterDims.start
  rw [dif_neg hm]

theorem scatRows_window0 (j : (⟨2, ![E, D]⟩ : Shape).Idx) : (scatRows N D E wf).window j 0 = 0 := by
  have hk : (0 : Fin 2) ∉ (scatRows N D E wf).sKept := by
    show (0 : Fin 2) ∉ (List.finRange 2).filter (· ∉ [(0 : Fin 2)])
    decide
  unfold ScatterDims.window
  rw [dif_neg hk]

theorem scatRows_window1 (j : (⟨2, ![E, D]⟩ : Shape).Idx) : (scatRows N D E wf).window j 1 = (j 1).val := by
  have hk : (1 : Fin 2) ∈ (scatRows N D E wf).sKept := by
    show (1 : Fin 2) ∈ (List.finRange 2).filter (· ∉ [(0 : Fin 2)])
    decide
  unfold ScatterDims.window
  rw [dif_pos hk]
  rfl

theorem scatRows_lands (idx : IVec ⟨2, ![E, 1]⟩ w) (e : Fin E) (b : Fin D) (c : Fin N) (j : Fin D) :
    (scatRows N D E wf).resultIdx? (ix2 e b) idx = some (ix2 c j)
      ↔ (idx (ix2 e 0)).toInt = (c.val : Int) ∧ b = j := by
  rw [resultIdx?_eq_some_iff]
  constructor
  · intro h
    have h0 := h 0
    have h1 := h 1
    rw [scatRows_start0, scatRows_window0] at h0
    rw [scatRows_start1, scatRows_window1] at h1
    have h0' : (idx (ix2 e 0)).toInt + ((0 : ℕ) : Int) = (c.val : Int) := h0
    have h1' : (0 : Int) + ((b.val : ℕ) : Int) = (j.val : Int) := h1
    exact ⟨by simpa using h0', Fin.ext (by omega)⟩
  · rintro ⟨h, rfl⟩
    refine Fin.forall_fin_two.2 ⟨?_, ?_⟩
    · rw [scatRows_start0, scatRows_window0]
      show (idx (ix2 e 0)).toInt + ((0 : ℕ) : Int) = (c.val : Int)
      simpa using h
    · rw [scatRows_start1, scatRows_window1]
      show (0 : Int) + ((b.val : ℕ) : Int) = (b.val : Int)
      simp

/-- The scatter of E rows into an N × D array, read at (c, j): the operand there plus the entries j of
    the update rows whose index is c. -/
theorem scatterAdd_rows_apply {φ : FTy} (x : FVec Ideal ⟨2, ![N, D]⟩ φ) (idx : IVec ⟨2, ![E, 1]⟩ w)
    (upd : FVec Ideal ⟨2, ![E, D]⟩ φ) (c : Fin N) (j : Fin D) :
    Host.scatterAdd (scatRows N D E wf) x idx upd (ix2 c j)
      = x (ix2 c j) + ∑ e ∈ Finset.univ.filter (fun e : Fin E => (idx (ix2 e 0)).toInt = (c.val : Int)), upd (ix2 e j) := by
  show Ideal.hostScatterAdd (scatRows N D E wf) x idx upd (ix2 c j) = _
  unfold Ideal.hostScatterAdd
  congr 1
  rw [Finset.sum_filter, sum_idx2, Finset.sum_filter]
  refine Finset.sum_congr rfl fun e _ => ?_
  rw [Finset.sum_eq_single j]
  · exact if_congr ((scatRows_lands wf idx e j c j).trans (and_iff_left rfl)) rfl rfl
  · intro b _ hb
    rw [if_neg]
    rw [scatRows_lands]
    exact fun h => hb h.2
  · intro h
    exact absurd (Finset.mem_univ j) h

/-- The same, the indices given as a function into Fin N. -/
theorem scatterAdd_rows_apply_of {φ : FTy} (x : FVec Ideal ⟨2, ![N, D]⟩ φ) (idx : IVec ⟨2, ![E, 1]⟩ w)
    (upd : FVec Ideal ⟨2, ![E, D]⟩ φ) (col : Fin E → Fin N)
    (hcol : ∀ e, (idx (ix2 e 0)).toInt = ((col e).val : Int)) (c : Fin N) (j : Fin D) :
    Host.scatterAdd (scatRows N D E wf) x idx upd (ix2 c j)
      = x (ix2 c j) + ∑ e ∈ Finset.univ.filter (fun e => col e = c), upd (ix2 e j) := by
  rw [scatterAdd_rows_apply]
  congr 2
  ext e
  simp only [Finset.mem_filter, Finset.mem_univ, true_and, hcol e]
  exact ⟨fun h => Fin.ext (by exact_mod_cast h), fun h => by rw [h]⟩

end Rows

section Pairs
variable {N₁ N₂ E w : ℕ} (wf : ScatterDims.WF ⟨2, ![N₁, N₂]⟩ ⟨2, ![E, 2]⟩ ⟨1, ![E]⟩ [] [0, 1] [0, 1] 1)

theorem scatPairs_start0 (j : (⟨1, ![E]⟩ : Shape).Idx) (idx : IVec ⟨2, ![E, 2]⟩ w) :
    (scatPairs N₁ N₂ E wf).start j idx 0 = (idx (ix2 (j 0) 0)).toInt := by
  have hm : (0 : Fin 2) ∈ (scatPairs N₁ N₂ E wf).scatterDimsToOperandDims := by
    show (0 : Fin 2) ∈ [(0 : Fin 2), 1]
    decide
  unfold ScatterDims.start
  rw [dif_pos hm]
  have hsi : (scatPairs N₁ N₂ E wf).siIdx j ⟨List.idxOf (0 : Fin 2) (scatPairs N₁ N₂ E wf).scatterDimsToOperandDims,
      List.idxOf_lt_length_iff.2 hm⟩ = ix2 (j 0) 0 := by
    funext b; refine Fin.ext ?_
    match b with
    | ⟨0, _⟩ => rfl
    | ⟨1, _⟩ => rfl
  rw [hsi]
  rfl

theorem scatPairs_start1 (j : (⟨1, ![E]⟩ : Shape).Idx) (idx : IVec ⟨2, ![E, 2]⟩ w) :
    (scatPairs N₁ N₂ E wf).start j idx 1 = (idx (ix2 (j 0) 1)).toInt := by
  have hm : (1 : Fin 2) ∈ (scatPairs N₁ N₂ E wf).scatterDimsToOperandDims := by
    show (1 : Fin 2) ∈ [(0 : Fin 2), 1]
    decide
  unfold ScatterDims.start
  rw [dif_pos hm]
  have hsi : (scatPairs N₁ N₂ E wf).siIdx j ⟨List.idxOf (1 : Fin 2) (scatPairs N₁ N₂ E wf).scatterDimsToOperandDims,
      List.idxOf_lt_length_iff.2 hm⟩ = ix2 (j 0) 1 := by
    funext b; refine Fin.ext ?_
    match b with
    | ⟨0, _⟩ => rfl
    | ⟨1, _⟩ => rfl
  rw [hsi]
  rfl

theorem scatPairs_window (j : (⟨1, ![E]⟩ : Shape).Idx) (a : Fin 2) : (scatPairs N₁ N₂ E wf).window j a = 0 := by
  have hk : a ∉ (scatPairs N₁ N₂ E wf).sKept := by
    show a ∉ (List.finRange 2).filter (· ∉ [(0 : Fin 2), 1])
    revert a
    decide
  unfold ScatterDims.window
  rw [dif_neg hk]

theorem scatPairs_lands (idx : IVec ⟨2, ![E, 2]⟩ w) (e : Fin E) (r : Fin N₁) (c : Fin N₂) :
    (scatPairs N₁ N₂ E wf).resultIdx? (ix1 e) idx = some (ix2 r c)
      ↔ (idx (ix2 e 0)).toInt = (r.val : Int) ∧ (idx (ix2 e 1)).toInt = (c.val : Int) := by
  rw [resultIdx?_eq_some_iff]
  constructor
  · intro h
    have h0 := h 0
    have h1 := h 1
    rw [scatPairs_start0, scatPairs_window] at h0
    rw [scatPairs_start1, scatPairs_window] at h1
    have h0' : (idx (ix2 e 0)).toInt + ((0 : ℕ) : Int) = (r.val : Int) := h0
    have h1' : (idx (ix2 e 1)).toInt + ((0 : ℕ) : Int) = (c.val : Int) := h1
    exact ⟨by simpa using h0', by simpa using h1'⟩
  · rintro ⟨h0, h1⟩
    refine Fin.forall_fin_two.2 ⟨?_, ?_⟩
    · rw [scatPairs_start0, scatPairs_window]
      show (idx (ix2 e 0)).toInt + ((0 : ℕ) : Int) = (r.val : Int)
      simpa using h0
    · rw [scatPairs_start1, scatPairs_window]
      show (idx (ix2 e 1)).toInt + ((0 : ℕ) : Int) = (c.val : Int)
      simpa using h1

/-- The scatter of E scalars at index pairs into an N₁ × N₂ array, read at (r, c): the operand there plus
    the updates whose pair is (r, c). -/
theorem scatterAdd_pairs_apply {φ : FTy} (x : FVec Ideal ⟨2, ![N₁, N₂]⟩ φ) (idx : IVec ⟨2, ![E, 2]⟩ w)
    (upd : FVec Ideal ⟨1, ![E]⟩ φ) (r : Fin N₁) (c : Fin N₂) :
    Host.scatterAdd (scatPairs N₁ N₂ E wf) x idx upd (ix2 r c)
      = x (ix2 r c) + ∑ e ∈ Finset.univ.filter (fun e : Fin E =>
          (idx (ix2 e 0)).toInt = (r.val : Int) ∧ (idx (ix2 e 1)).toInt = (c.val : Int)), upd (ix1 e) := by
  show Ideal.hostScatterAdd (scatPairs N₁ N₂ E wf) x idx upd (ix2 r c) = _
  unfold Ideal.hostScatterAdd
  congr 1
  rw [Finset.sum_filter, sum_idx1, Finset.sum_filter]
  exact Finset.sum_congr rfl fun e _ => if_congr (scatPairs_lands wf idx e r c) rfl rfl

/-- The same, the index pairs given as two functions into Fin N₁ and Fin N₂. -/
theorem scatterAdd_pairs_apply_of {φ : FTy} (x : FVec Ideal ⟨2, ![N₁, N₂]⟩ φ) (idx : IVec ⟨2, ![E, 2]⟩ w)
    (upd : FVec Ideal ⟨1, ![E]⟩ φ) (row : Fin E → Fin N₁) (col : Fin E → Fin N₂)
    (hrow : ∀ e, (idx (ix2 e 0)).toInt = ((row e).val : Int))
    (hcol : ∀ e, (idx (ix2 e 1)).toInt = ((col e).val : Int)) (r : Fin N₁) (c : Fin N₂) :
    Host.scatterAdd (scatPairs N₁ N₂ E wf) x idx upd (ix2 r c)
      = x (ix2 r c) + ∑ e ∈ Finset.univ.filter (fun e => row e = r ∧ col e = c), upd (ix1 e) := by
  rw [scatterAdd_pairs_apply]
  congr 2
  ext e
  simp only [Finset.mem_filter, Finset.mem_univ, true_and, hrow e, hcol e]
  exact ⟨fun h => ⟨Fin.ext (by exact_mod_cast h.1), Fin.ext (by exact_mod_cast h.2)⟩,
    fun h => by rw [h.1, h.2]; exact ⟨rfl, rfl⟩⟩

/-- With every index pair inside an n₁ × n₂ corner, an element outside the corner keeps the operand's
    value: no update lands there. -/
theorem scatterAdd_pairs_outside {φ : FTy} (x : FVec Ideal ⟨2, ![N₁, N₂]⟩ φ) (idx : IVec ⟨2, ![E, 2]⟩ w)
    (upd : FVec Ideal ⟨1, ![E]⟩ φ) {n₁ n₂ : ℕ}
    (hrow : ∀ e : Fin E, (idx (ix2 e 0)).toInt < (n₁ : Int))
    (hcol : ∀ e : Fin E, (idx (ix2 e 1)).toInt < (n₂ : Int)) (r : Fin N₁) (c : Fin N₂)
    (hrc : n₁ ≤ r.val ∨ n₂ ≤ c.val) :
    Host.scatterAdd (scatPairs N₁ N₂ E wf) x idx upd (ix2 r c) = x (ix2 r c) := by
  rw [scatterAdd_pairs_apply, Finset.sum_eq_zero, add_zero]
  intro e he
  exfalso
  have h := (Finset.mem_filter.1 he).2
  have h0 := hrow e
  have h1 := hcol e
  omega

end Pairs

/-- The adjacency scattered into a padded array agrees, on the unpadded corner, with the adjacency
    scattered into the unpadded array (operands agreeing there): both are the operand plus the weights
    of the edges r → c. -/
theorem scatterAdd_pairs_corner {n₁ n₂ N₁ N₂ E w : ℕ} {φ : FTy}
    (wf : ScatterDims.WF ⟨2, ![n₁, n₂]⟩ ⟨2, ![E, 2]⟩ ⟨1, ![E]⟩ [] [0, 1] [0, 1] 1)
    (wf' : ScatterDims.WF ⟨2, ![N₁, N₂]⟩ ⟨2, ![E, 2]⟩ ⟨1, ![E]⟩ [] [0, 1] [0, 1] 1)
    (h₁ : n₁ ≤ N₁) (h₂ : n₂ ≤ N₂)
    (x : FVec Ideal ⟨2, ![n₁, n₂]⟩ φ) (x' : FVec Ideal ⟨2, ![N₁, N₂]⟩ φ) (idx : IVec ⟨2, ![E, 2]⟩ w)
    (upd : FVec Ideal ⟨1, ![E]⟩ φ) (r : Fin n₁) (c : Fin n₂)
    (hx : x' (ix2 (Fin.castLE h₁ r) (Fin.castLE h₂ c)) = x (ix2 r c)) :
    Host.scatterAdd (scatPairs N₁ N₂ E wf') x' idx upd (ix2 (Fin.castLE h₁ r) (Fin.castLE h₂ c))
      = Host.scatterAdd (scatPairs n₁ n₂ E wf) x idx upd (ix2 r c) := by
  rw [scatterAdd_pairs_apply, scatterAdd_pairs_apply, hx]
  rfl

/-! ## The gathers read at an index

Under the precondition every index is inside the operand, so the clamp of the start index is the
identity and the gather reads the operand at the index itself. -/

section Gather
variable {α : Type}

/-- The dimension numbers of a gather of E scalars out of a vector of N, one index each. -/
abbrev gathVec (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a gather of E rows of width D out of an N × D array, one row index each. -/
abbrev gathRows (N D E : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The gather out of a vector at in-range indices: entry e is the operand at the index of e. -/
theorem gather_vec_apply_of {N E w : ℕ}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w)
    (row : Fin E → Fin N) (hrow : ∀ e, (idx (ix2 e 0)).toInt = ((row e).val : Int)) (e : Fin E) :
    Host.gather (gathVec N E wf) x idx (ix1 e) = x (ix1 (row e)) := by
  unfold Host.gather
  congr 1
  funext a
  obtain rfl : a = 0 := Subsingleton.elim _ _
  refine Fin.ext ?_
  show (gathVec N E wf).start (ix1 e) idx 0 + (gathVec N E wf).batchCoord (ix1 e) 0
    + (gathVec N E wf).offCoord (ix1 e) 0 = (row e).val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  have hm : (0 : Fin 1) ∈ (gathVec N E wf).startIndexMap := List.mem_singleton.mpr rfl
  unfold GatherDims.start
  rw [dif_pos hm]
  have hsi : (gathVec N E wf).siIdx (ix1 e) ⟨List.idxOf (0 : Fin 1) (gathVec N E wf).startIndexMap,
      List.idxOf_lt_length_iff.2 hm⟩ = ix2 e 0 := by
    funext b; refine Fin.ext ?_
    match b with
    | ⟨0, _⟩ => rfl
    | ⟨1, _⟩ => rfl
  rw [hsi, hrow e]
  show min ((row e).val : Int).toNat (N - 1) = (row e).val
  have := (row e).isLt
  omega

/-- The gather of rows out of an N × D array at in-range indices: entry (e, j) is the operand at
    (index of e, j). -/
theorem gather_rows_apply_of {N D E w : ℕ}
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w)
    (row : Fin E → Fin N) (hrow : ∀ e, (idx (ix2 e 0)).toInt = ((row e).val : Int)) (e : Fin E) (j : Fin D) :
    Host.gather (gathRows N D E wf) x idx (ix2 e j) = x (ix2 (row e) j) := by
  unfold Host.gather
  congr 1
  funext a
  refine Fin.ext ?_
  have hm : (0 : Fin 2) ∈ (gathRows N D E wf).startIndexMap := List.mem_singleton.mpr rfl
  have hsi : (gathRows N D E wf).siIdx (ix2 e j) ⟨List.idxOf (0 : Fin 2) (gathRows N D E wf).startIndexMap,
      List.idxOf_lt_length_iff.2 hm⟩ = ix2 e 0 := by
    funext b; refine Fin.ext ?_
    match b with
    | ⟨0, _⟩ => rfl
    | ⟨1, _⟩ => rfl
  match a with
  | ⟨0, _⟩ =>
    show (gathRows N D E wf).start (ix2 e j) idx 0 + (gathRows N D E wf).batchCoord (ix2 e j) 0
      + (gathRows N D E wf).offCoord (ix2 e j) 0 = (row e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm, hsi, hrow e]
    show min ((row e).val : Int).toNat (N - 1) = (row e).val
    have := (row e).isLt
    omega
  | ⟨1, _⟩ =>
    show (gathRows N D E wf).start (ix2 e j) idx 1 + (gathRows N D E wf).batchCoord (ix2 e j) 1
      + (gathRows N D E wf).offCoord (ix2 e j) 1 = j.val
    have hn : (1 : Fin 2) ∉ (gathRows N D E wf).startIndexMap := by
      show (1 : Fin 2) ∉ [(0 : Fin 2)]
      decide
    have hk : (1 : Fin 2) ∈ (gathRows N D E wf).sKept := by
      show (1 : Fin 2) ∈ (List.finRange 2).filter (· ∉ [(0 : Fin 2)] ++ [])
      decide
    rw [GatherDims.batchCoord_eq_zero _ _ _ List.not_mem_nil]
    unfold GatherDims.start GatherDims.offCoord
    rw [dif_neg hn, dif_pos hk]
    simp only [Nat.add_zero, Nat.zero_add]
    rfl

end Gather

/-! ## The law over the concatenated edge list

The sparse form runs over one list of E + N entries: the E edges followed by the N self loops
(entry E + n is the loop n → n of weight one). -/

section Concat
variable {E N : ℕ} {D : Type*}

/-- The degree of c over the concatenated list: the weights of the edges into c, plus one. -/
theorem deg_concat (col : Fin E → Fin N) (W : Fin E → EReal)
    (col' : Fin (E + N) → Fin N) (W' : Fin (E + N) → EReal)
    (hc1 : ∀ e, col' (Fin.castAdd N e) = col e) (hc2 : ∀ n, col' (Fin.natAdd E n) = n)
    (hw1 : ∀ e, W' (Fin.castAdd N e) = W e) (hw2 : ∀ n, W' (Fin.natAdd E n) = 1) (c : Fin N) :
    ∑ e ∈ Finset.univ.filter (fun e => col' e = c), W' e
      = ∑ e ∈ Finset.univ.filter (fun e => col e = c), W e + 1 := by
  rw [sum_filter_concat]
  simp only [hc1, hc2, hw1, hw2]
  rw [sum_filter_self c (fun _ => (1 : EReal))]

/-- The law of the layer with the sparse side summed over the concatenated list. -/
theorem layer1_concat (row col : Fin E → Fin N) (W : Fin E → EReal) (Dis : Fin N → EReal) (H : Fin N → D → EReal)
    (hW : ∀ e, IsReal (W e)) (hDis : ∀ n, IsReal (Dis n)) (hH : ∀ n j, IsReal (H n j))
    (row' col' : Fin (E + N) → Fin N) (W' : Fin (E + N) → EReal)
    (hr1 : ∀ e, row' (Fin.castAdd N e) = row e) (hr2 : ∀ n, row' (Fin.natAdd E n) = n)
    (hc1 : ∀ e, col' (Fin.castAdd N e) = col e) (hc2 : ∀ n, col' (Fin.natAdd E n) = n)
    (hw1 : ∀ e, W' (Fin.castAdd N e) = W e) (hw2 : ∀ n, W' (Fin.natAdd E n) = 1) (c : Fin N) (j : D) :
    ∑ e ∈ Finset.univ.filter (fun e => col' e = c), (Dis (row' e) * W' e * Dis (col' e)) * H (row' e) j
      = Dis c * ∑ r, (∑ e ∈ Finset.univ.filter (fun e => row e = r ∧ col e = c), W e) * (Dis r * H r j)
        + (Dis c * Dis c) * H c j := by
  rw [sum_filter_concat]
  simp only [hr1, hr2, hc1, hc2, hw1, hw2]
  rw [sum_filter_self c (fun n => (Dis n * 1 * Dis n) * H n j), ← layer1_ereal row col W Dis H hW hDis hH c j]
  congr 1
  refine Finset.sum_congr rfl fun e he => ?_
  rw [(Finset.mem_filter.1 he).2]

end Concat

/-! ## The padded dense side -/

/-- A product sum over a padded range whose right factor vanishes on the padding is the sum over
    the unpadded range (zero times any extended real is zero). -/
theorem sum_mul_fin_pad {n m : ℕ} (hnm : n ≤ m) (A B : Fin m → EReal) (hB : ∀ i : Fin m, n ≤ i.val → B i = 0) :
    ∑ i : Fin m, A i * B i = ∑ i : Fin n, A (Fin.castLE hnm i) * B (Fin.castLE hnm i) :=
  sum_fin_pad hnm (fun i => A i * B i) fun i hi => by rw [hB i hi, mul_zero]

/-- The padded adjacency read inside the unpadded corner, the index pairs given as functions into the
    unpadded ranges: the operand there plus the weights of the edges r → c. -/
theorem scatterAdd_pairs_apply_corner_of {n₁ n₂ N₁ N₂ E w : ℕ} {φ : FTy}
    (wf : ScatterDims.WF ⟨2, ![N₁, N₂]⟩ ⟨2, ![E, 2]⟩ ⟨1, ![E]⟩ [] [0, 1] [0, 1] 1)
    (h₁ : n₁ ≤ N₁) (h₂ : n₂ ≤ N₂)
    (x : FVec Ideal ⟨2, ![N₁, N₂]⟩ φ) (idx : IVec ⟨2, ![E, 2]⟩ w) (upd : FVec Ideal ⟨1, ![E]⟩ φ)
    (row : Fin E → Fin n₁) (col : Fin E → Fin n₂)
    (hrow : ∀ e, (idx (ix2 e 0)).toInt = ((row e).val : Int))
    (hcol : ∀ e, (idx (ix2 e 1)).toInt = ((col e).val : Int)) (r : Fin n₁) (c : Fin n₂) :
    Host.scatterAdd (scatPairs N₁ N₂ E wf) x idx upd (ix2 (Fin.castLE h₁ r) (Fin.castLE h₂ c))
      = x (ix2 (Fin.castLE h₁ r) (Fin.castLE h₂ c))
        + ∑ e ∈ Finset.univ.filter (fun e => row e = r ∧ col e = c), upd (ix1 e) := by
  rw [scatterAdd_pairs_apply_of wf x idx upd (fun e => Fin.castLE h₁ (row e)) (fun e => Fin.castLE h₂ (col e))
    (fun e => by rw [hrow e]; rfl) (fun e => by rw [hcol e]; rfl)]
  congr 2
  ext e
  simp only [Finset.mem_filter, Finset.mem_univ, true_and, Fin.castLE_inj]

end Cert.Math

end
-- ==== Proof.Math.MM.lean ====
/-
  MATRIX PRODUCTS: THE KERNELS' SUMS AGAINST THE HOST'S OPERATIONS, at the extended reals, for any extents M, K, N.
  A product of an M×K by a K×N matrix with the plain dimension numbers, read at (i, j), is Σ_{k<K} l(i, k) · r(k, j).
  (1) A kernel that adds a bias row of zeros computes that product. (2) A kernel that adds the bias row v and takes the
  maximum with 0 computes what the host does by broadcasting v down the rows, adding, and taking the maximum with a
  broadcast 0. (3) A kernel that contracts the FIRST axes of a and b computes the product of a's transpose with b.
  (4) Rows of zeros appended to the contracted axis do not change the sum.
-/
import proofs.«405323_j90718299226206_3_alg».proof.Proof.Math.Layer1
import Idealize.ShloMosaic.PureOps.Ideal
import Idealize.ShloMosaic.PureOps.Ideal.Laws
import Idealize.ShloMosaic.PureOps.Contract
import Idealize.ShloMosaic.PureOps.ShapeOps
import Idealize.ShloMosaic.Lib.ValueIdx
import Idealize.ShloMosaic.Lib.KernelVsHost
import Idealize.ShloMosaic.Lib.Pipeline.Value

noncomputable section

open scoped BigOperators

namespace Cert.Math

open Idealize.ShloMosaic Idealize.ShloMosaic.ValueIdx

/-! ## The plain dimension numbers: the operand indices, axis by axis -/

section Plain
variable {M K N : ℕ}

/-- The left operand's row is the result's row. -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single (cl := 1) rfl j k

/-- The right operand's row is the contraction coordinate. -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single (cr := 0) rfl j k

/-- The right operand's column is the result's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE PRODUCT AT AN INDEX: (l · r)(i, j) = Σ_{k < K} l(i, k) · r(k, j). -/
theorem plain_apply (l : FVec Ideal ⟨2, ![M, K]⟩ .f32) (r : FVec Ideal ⟨2, ![K, N]⟩ .f32) (i : Fin M) (j : Fin N) :
    Host.dotGeneral (F := Ideal) (DotDims.plain M K N) none l r (ix2 i j) = ∑ k : Fin K, l (ix2 i k) * r (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  congr 1
  · refine congrArg l (funext fun a => Fin.ext ?_)
    match a with
    | ⟨0, _⟩ => exact plain_lhs_0 _ _
    | ⟨1, _⟩ => exact (plain_lhs_1 _ _).trans hk
  · refine congrArg r (funext fun a => Fin.ext ?_)
    match a with
    | ⟨0, _⟩ => exact (plain_rhs_0 _ _).trans hk
    | ⟨1, _⟩ => exact plain_rhs_1 _ _

end Plain

/-- A rank-2 transpose by [1, 0] read at (i, j) is the operand at (j, i). -/
theorem transpose2_apply {α : Type} {A B : ℕ} (x : (⟨2, ![A, B]⟩ : Shape).Idx → α)
    (h : (⟨2, ![A, B]⟩ : Shape).Transposes [1, 0] ⟨2, ![B, A]⟩) (i : Fin B) (j : Fin A) :
    transpose ⟨2, ![B, A]⟩ [1, 0] x h (ix2 i j) = x (ix2 j i) :=
  transpose_apply [1, 0] x h (ix2 i j) (ix2 j i) fun b => match b with | ⟨0, _⟩ => rfl | ⟨1, _⟩ => rfl

/-! ## The bias row -/

/-- A vector recast as a one-row matrix, at (0, q): the vector at q. -/
theorem shapeCast_row_apply {α : Type} {N : ℕ} (v : (⟨1, ![N]⟩ : Shape).Idx → α)
    (hc : (⟨1, ![N]⟩ : Shape).ShapeCasts ⟨2, ![1, N]⟩) (z : Fin 1) (q : Fin N) :
    shapeCast ⟨2, ![1, N]⟩ v hc (ix2 z q) = v (ix1 q) :=
  (shapeCast_addUnit_apply ![N] v hc (ix2 z q)).trans
    (congrArg v (funext fun a => by obtain rfl : a = 0 := Subsingleton.elim _ _; rfl))

/-- The bias row of a kernel with no bias — the constant 0.0 broadcast to a vector and recast as one row — is 0. -/
theorem zero_row_apply {N : ℕ} (hb : (⟨0, ![]⟩ : Shape).BroadcastsInDim ⟨1, ![N]⟩ ![])
    (hc : (⟨1, ![N]⟩ : Shape).ShapeCasts ⟨2, ![1, N]⟩) (j : (⟨2, ![1, N]⟩ : Shape).Idx) :
    shapeCast ⟨2, ![1, N]⟩ (broadcastInDim ⟨1, ![N]⟩ ![] hb (constant (F := Ideal) ⟨0, ![]⟩ .f32 0x00000000#32)) hc j = 0 :=
  Ideal.ofBits_zero_f32

/-- A vector broadcast to one row and then down M rows, at (i, j): the vector at j. -/
theorem bias_bcast_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (i : Fin M) (j : Fin N) :
    broadcastInDim ⟨2, ![M, N]⟩ ![0, 1] h2 (broadcastInDim ⟨2, ![1, N]⟩ ![1] h1 v) (ix2 i j) = v (ix1 j) := by
  refine (broadcastInDim_apply _ h2 _ (ix2 i j) (ix2 0 j) ?_).trans (broadcastInDim_apply _ h1 v (ix2 0 j) (ix1 j) ?_)
  · intro a
    match a with
    | ⟨0, _⟩ =>
      show (0 : ℕ) = if (1 : ℕ) = 1 then 0 else i.val
      rw [if_pos rfl]
    | ⟨1, _⟩ =>
      show j.val = if N = 1 then 0 else j.val
      have := j.isLt
      split_ifs <;> omega
  · intro a
    obtain rfl : a = 0 := Subsingleton.elim _ _
    show j.val = if N = 1 then 0 else j.val
    have := j.isLt
    split_ifs <;> omega

/-! ## (1) Zero bias -/

section
variable {M K N : ℕ}

/-- A product plus a bias row that is 0 everywhere is the product. -/
theorem mm_zero_bias_of (x : FVec Ideal ⟨2, ![M, K]⟩ .f32) (w : FVec Ideal ⟨2, ![K, N]⟩ .f32)
    (b0 : FVec Ideal ⟨2, ![1, N]⟩ .f32) (hb0 : ∀ q : Fin N, b0 (ix2 0 q) = 0) :
    (fun j : (⟨2, ![M, N]⟩ : Shape).Idx => (∑ k : Fin K, x (ix2 (j 0) k) * w (ix2 k (j 1))) + b0 (ix2 (0 : Fin 1) (j 1)))
      = Host.dotGeneral (F := Ideal) (DotDims.plain M K N) none x w := by
  funext j
  obtain ⟨p, q, rfl⟩ : ∃ (p : Fin M) (q : Fin N), j = ix2 p q := ⟨j 0, j 1, eq_ix2 j⟩
  show (∑ k : Fin K, x (ix2 p k) * w (ix2 k q)) + b0 (ix2 0 q) = _
  rw [hb0, add_zero, plain_apply]

/-- (1) with the bias row spelt as the kernel's window: the constant 0.0 broadcast to [N] and recast as [1, N]. -/
theorem mm_zero_bias (x : FVec Ideal ⟨2, ![M, K]⟩ .f32) (w : FVec Ideal ⟨2, ![K, N]⟩ .f32)
    (hb : (⟨0, ![]⟩ : Shape).BroadcastsInDim ⟨1, ![N]⟩ ![]) (hc : (⟨1, ![N]⟩ : Shape).ShapeCasts ⟨2, ![1, N]⟩) :
    (fun j : (⟨2, ![M, N]⟩ : Shape).Idx => (∑ k : Fin K, x (ix2 (j 0) k) * w (ix2 k (j 1)))
        + shapeCast ⟨2, ![1, N]⟩ (broadcastInDim ⟨1, ![N]⟩ ![] hb (constant (F := Ideal) ⟨0, ![]⟩ .f32 0x00000000#32)) hc (ix2 (0 : Fin 1) (j 1)))
      = Host.dotGeneral (F := Ideal) (DotDims.plain M K N) none x w :=
  mm_zero_bias_of x w _ fun q => zero_row_apply hb hc _

/-! ## (2) Bias and maximum with zero -/

/-- The host's product plus broadcast bias, at (i, j). -/
theorem mm_bias_apply (x : FVec Ideal ⟨2, ![M, K]⟩ .f32) (w : FVec Ideal ⟨2, ![K, N]⟩ .f32) (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (i : Fin M) (j : Fin N) :
    addf (Host.dotGeneral (F := Ideal) (DotDims.plain M K N) none x w)
        (broadcastInDim ⟨2, ![M, N]⟩ ![0, 1] h2 (broadcastInDim ⟨2, ![1, N]⟩ ![1] h1 v)) (ix2 i j)
      = (∑ k : Fin K, x (ix2 i k) * w (ix2 k j)) + v (ix1 j) := by
  rw [addf_apply, plain_apply, bias_bcast_apply]

/-- The host's relu of it, at (i, j). -/
theorem mm_bias_relu_apply (x : FVec Ideal ⟨2, ![M, K]⟩ .f32) (w : FVec Ideal ⟨2, ![K, N]⟩ .f32) (v : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (i : Fin M) (j : Fin N) :
    maximumf (addf (Host.dotGeneral (F := Ideal) (DotDims.plain M K N) none x w)
          (broadcastInDim ⟨2, ![M, N]⟩ ![0, 1] h2 (broadcastInDim ⟨2, ![1, N]⟩ ![1] h1 v)))
        (broadcastInDim ⟨2, ![M, N]⟩ ![] h0 (constant (F := Ideal) ⟨0, ![]⟩ .f32 0x00000000#32)) (ix2 i j)
      = max ((∑ k : Fin K, x (ix2 i k) * w (ix2 k j)) + v (ix1 j)) 0 := by
  rw [maximumf_apply, mm_bias_apply]
  exact congrArg (max _) Ideal.ofBits_zero_f32

/-- (2) The kernel's value — product, plus the bias vector recast as one row, then the final operation `g` against 0
    (the maximum, however the region's value spells it) — is the host's, `g` being what `maximumf` is at an element. -/
theorem mm_bias_relu_of (g : EReal → EReal → EReal) (hg : ∀ a b : EReal, g a b = max a b)
    (x : FVec Ideal ⟨2, ![M, K]⟩ .f32) (w : FVec Ideal ⟨2, ![K, N]⟩ .f32) (v : FVec Ideal ⟨1, ![N]⟩ .f32)
    (hc : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    (fun j : (⟨2, ![M, N]⟩ : Shape).Idx =>
        g ((∑ k : Fin K, x (ix2 (j 0) k) * w (ix2 k (j 1))) + shapeCast ⟨2, ![1, N]⟩ v hc (ix2 (0 : Fin 1) (j 1))) 0)
      = maximumf (addf (Host.dotGeneral (F := Ideal) (DotDims.plain M K N) none x w)
          (broadcastInDim ⟨2, ![M, N]⟩ ![0, 1] h2 (broadcastInDim ⟨2, ![1, N]⟩ ![1] h1 v)))
        (broadcastInDim ⟨2, ![M, N]⟩ ![] h0 (constant (F := Ideal) ⟨0, ![]⟩ .f32 0x00000000#32)) := by
  funext j
  obtain ⟨p, q, rfl⟩ : ∃ (p : Fin M) (q : Fin N), j = ix2 p q := ⟨j 0, j 1, eq_ix2 j⟩
  show g ((∑ k : Fin K, x (ix2 p k) * w (ix2 k q)) + shapeCast ⟨2, ![1, N]⟩ v hc (ix2 (0 : Fin 1) q)) 0 = _
  rw [hg, shapeCast_row_apply, mm_bias_relu_apply]

/-- (2) with the final operation spelt `max · 0`. -/
theorem mm_bias_relu (x : FVec Ideal ⟨2, ![M, K]⟩ .f32) (w : FVec Ideal ⟨2, ![K, N]⟩ .f32) (v : FVec Ideal ⟨1, ![N]⟩ .f32)
    (hc : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    (fun j : (⟨2, ![M, N]⟩ : Shape).Idx =>
        max ((∑ k : Fin K, x (ix2 (j 0) k) * w (ix2 k (j 1))) + shapeCast ⟨2, ![1, N]⟩ v hc (ix2 (0 : Fin 1) (j 1))) 0)
      = maximumf (addf (Host.dotGeneral (F := Ideal) (DotDims.plain M K N) none x w)
          (broadcastInDim ⟨2, ![M, N]⟩ ![0, 1] h2 (broadcastInDim ⟨2, ![1, N]⟩ ![1] h1 v)))
        (broadcastInDim ⟨2, ![M, N]⟩ ![] h0 (constant (F := Ideal) ⟨0, ![]⟩ .f32 0x00000000#32)) :=
  mm_bias_relu_of max (fun _ _ => rfl) x w v hc h1 h2 h0

end

/-! ## (3) The first axes contracted: the transpose's product -/

/-- Σ_k a(k, r) · b(k, q) is the product of a's transpose with b, at (r, q). -/
theorem mmT_apply {Kc M N : ℕ} (a : FVec Ideal ⟨2, ![Kc, M]⟩ .f32) (b : FVec Ideal ⟨2, ![Kc, N]⟩ .f32)
    (ht : (⟨2, ![Kc, M]⟩ : Shape).Transposes [1, 0] ⟨2, ![M, Kc]⟩) (r : Fin M) (q : Fin N) :
    Host.dotGeneral (F := Ideal) (DotDims.plain M Kc N) none (transpose ⟨2, ![M, Kc]⟩ [1, 0] a ht) b (ix2 r q)
      = ∑ k : Fin Kc, a (ix2 k r) * b (ix2 k q) := by
  rw [plain_apply]
  exact Finset.sum_congr rfl fun k _ => by rw [transpose2_apply]

/-- (3) as functions. -/
theorem mmT {Kc M N : ℕ} (a : FVec Ideal ⟨2, ![Kc, M]⟩ .f32) (b : FVec Ideal ⟨2, ![Kc, N]⟩ .f32)
    (ht : (⟨2, ![Kc, M]⟩ : Shape).Transposes [1, 0] ⟨2, ![M, Kc]⟩) :
    (fun y : (⟨2, ![M, N]⟩ : Shape).Idx => ∑ k : Fin Kc, a (ix2 k (y 0)) * b (ix2 k (y 1)))
      = Host.dotGeneral (F := Ideal) (DotDims.plain M Kc N) none (transpose ⟨2, ![M, Kc]⟩ [1, 0] a ht) b := by
  funext y
  obtain ⟨r, q, rfl⟩ : ∃ (r : Fin M) (q : Fin N), y = ix2 r q := ⟨y 0, y 1, eq_ix2 y⟩
  show (∑ k : Fin Kc, a (ix2 k r) * b (ix2 k q)) = _
  rw [mmT_apply]

/-! ## (4) Zero rows appended to the contracted axis -/

/-- If the right factor vanishes on the rows from Kc on, the sum over the Kc' rows is the sum over the first Kc. -/
theorem sum_rows_pad {Kc Kc' M N : ℕ} (h : Kc ≤ Kc') (a' : (⟨2, ![Kc', M]⟩ : Shape).Idx → EReal)
    (b' : (⟨2, ![Kc', N]⟩ : Shape).Idx → EReal) (r : Fin M) (q : Fin N)
    (hb : ∀ k : Fin Kc', Kc ≤ k.val → b' (ix2 k q) = 0) :
    ∑ k : Fin Kc', a' (ix2 k r) * b' (ix2 k q)
      = ∑ k : Fin Kc, a' (ix2 (Fin.castLE h k) r) * b' (ix2 (Fin.castLE h k) q) :=
  sum_mul_fin_pad h (fun k => a' (ix2 k r)) (fun k => b' (ix2 k q)) hb

/-- With both factors spelt as the host's `pad` by p rows below (the right one's padding value 0): the sum over the
    padded rows is the sum over the unpadded arrays' rows. -/
theorem sum_rows_padded {Kc p Kc' M N : ℕ} (hK : Kc ≤ Kc') (a : (⟨2, ![Kc, M]⟩ : Shape).Idx → EReal)
    (b : (⟨2, ![Kc, N]⟩ : Shape).Idx → EReal) {ua ub : Shape} (za : ua.Idx → EReal) (zb : ub.Idx → EReal)
    (hua : 0 < ua.numel) (hub : 0 < ub.numel) (hzb : zb (Shape.Idx.first hub) = 0)
    (ha : (⟨2, ![Kc, M]⟩ : Shape).Pads ![0, 0] ![p, 0] ![0, 0] ⟨2, ![Kc', M]⟩)
    (hb : (⟨2, ![Kc, N]⟩ : Shape).Pads ![0, 0] ![p, 0] ![0, 0] ⟨2, ![Kc', N]⟩) (r : Fin M) (q : Fin N) :
    ∑ k : Fin Kc', pad ⟨2, ![Kc', M]⟩ ![0, 0] ![p, 0] ![0, 0] a za ha hua (ix2 k r)
        * pad ⟨2, ![Kc', N]⟩ ![0, 0] ![p, 0] ![0, 0] b zb hb hub (ix2 k q)
      = ∑ k : Fin Kc, a (ix2 k r) * b (ix2 k q) := by
  rw [sum_rows_pad hK _ _ r q fun k hk => by
    refine (pad_apply_of_not_inside _ _ _ b zb hb hub (ix2 k q) 0 ?_).trans hzb
    show ¬((0 : ℕ) ≤ k.val ∧ (k.val - 0) % (0 + 1) = 0 ∧ (k.val - 0) / (0 + 1) < Kc)
    rw [Nat.sub_zero, Nat.zero_add, Nat.div_one]
    omega]
  refine Finset.sum_congr rfl fun k _ => ?_
  congr 1
  · refine pad_apply_of_inside _ _ _ a za ha hua (ix2 (Fin.castLE hK k) r) (ix2 k r) fun c => ?_
    match c with
    | ⟨0, _⟩ => show k.val = 0 + k.val * (0 + 1); omega
    | ⟨1, _⟩ => show r.val = 0 + r.val * (0 + 1); omega
  · refine pad_apply_of_inside _ _ _ b zb hb hub (ix2 (Fin.castLE hK k) q) (ix2 k q) fun c => ?_
    match c with
    | ⟨0, _⟩ => show k.val = 0 + k.val * (0 + 1); omega
    | ⟨1, _⟩ => show q.val = 0 + q.val * (0 + 1); omega

end Cert.Math

end
-- ==== Proof.Bridge.CP1a.lean ====
/-
  REGION 0 AGAINST THE REFERENCE'S FIRST PRODUCT. After region 0 its output array holds, entry by entry,
  Σ_k x(i, k) · w(k, n) plus the bias row at n. The two factors are arguments, which both programs hold unchanged to
  the end; the bias row is the constant 0.0 broadcast to a vector and recast as one row — a row of zeros. So the
  output is the plain product of the two arguments, which is what the reference's dot_general holds.
-/
import proofs.«405323_j90718299226206_3_alg».proof.Proof.Bridge.B0
import proofs.«405323_j90718299226206_3_alg».proof.Proof.KI.R0Val
import proofs.«405323_j90718299226206_3_alg».proof.Proof.Ref.Dots
import proofs.«405323_j90718299226206_3_alg».proof.Proof.Math.MM

set_option maxRecDepth 16384

noncomputable section

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 0's output is the reference's product of the first two matrix arguments. -/
theorem cp_main_v21 (h : Hyp m m' c) : KV m c Cert.KernelIdeal.main_v21 = RV m' c Cert.ReferenceIdeal.main_v51 := by
  show Cert.KernelIdeal.Hand.W63 (F := Ideal) m c (Proc.devRef .tc Cert.KernelIdeal.main_v21) = Cert.ReferenceIdeal.HandRun.RV (F := Ideal) m' c Cert.ReferenceIdeal.main_v51
  -- the two factors, as the region finds them, are the arguments, which the reference holds too
  have ex : (Cert.KernelIdeal.Hand.W1 (F := Ideal) m c (Proc.devRef .tc Cert.KernelIdeal.main_arg0) : Vec Ideal Cert.KernelIdeal.S10000x512 .f32)
      = Cert.ReferenceIdeal.HandRun.RV (F := Ideal) m' c Cert.ReferenceIdeal.main_arg0 :=
    (Cert.KernelIdeal.Hand.frame1 m c Cert.KernelIdeal.main_arg0 (by decide)).symm.trans (br_main_arg0 m m' c h)
  have ew : (Cert.KernelIdeal.Hand.W1 (F := Ideal) m c (Proc.devRef .tc Cert.KernelIdeal.main_arg3) : Vec Ideal Cert.KernelIdeal.S512x512 .f32)
      = Cert.ReferenceIdeal.HandRun.RV (F := Ideal) m' c Cert.ReferenceIdeal.main_arg3 :=
    (Cert.KernelIdeal.Hand.frame1 m c Cert.KernelIdeal.main_arg3 (by decide)).symm.trans (br_main_arg3 m m' c h)
  -- the bias row keeps its contents to the end,
  have eb : (Cert.KernelIdeal.Hand.W1 (F := Ideal) m c (Proc.devRef .tc Cert.KernelIdeal.main_v20) : Vec Ideal Cert.KernelIdeal.S1x512 .f32)
      = Cert.KernelIdeal.Hand.W63 (F := Ideal) m c (Proc.devRef .tc Cert.KernelIdeal.main_v20) :=
    (Cert.KernelIdeal.Hand.frame1 m c Cert.KernelIdeal.main_v20 (by decide)).symm
  -- and is a row of zeros: the constant 0.0, broadcast, recast
  have hz : ∀ q : Fin 512, (Cert.KernelIdeal.Hand.W63 (F := Ideal) m c (Proc.devRef .tc Cert.KernelIdeal.main_v20) : Vec Ideal Cert.KernelIdeal.S1x512 .f32)
      (ix2 (0 : Fin 1) q) = (0 : EReal) := by
    intro q
    rw [Cert.KernelIdeal.Hand.kd_main_v20 m c, Cert.KernelIdeal.Hand.kd_main_v19 m c, Cert.KernelIdeal.Hand.kd_main_cst_3 m c]
    exact Cert.Math.zero_row_apply _ _ _
  -- the region's output is its value function of the three operand arrays
  refine ((((Cert.KernelIdeal.Hand.frame2 m c Cert.KernelIdeal.main_v21 (by decide)).trans (Cert.KernelIdeal.Hand.W2_out3 m c)).trans
    (Cert.KernelIdeal.HandVal.arrAt0_3 (Cert.KernelIdeal.Hand.Vt1 m) c)).trans
    (congr (congr (congrArg Cert.KernelIdeal.HandVal.G0 ex) ew) eb)).trans ?_
  -- a product plus a row of zeros is the product
  exact (Cert.Math.mm_zero_bias_of (M := 10000) (K := 512) (N := 512)
      (Cert.ReferenceIdeal.HandRun.RV (F := Ideal) m' c Cert.ReferenceIdeal.main_arg0) (Cert.ReferenceIdeal.HandRun.RV (F := Ideal) m' c Cert.ReferenceIdeal.main_arg3)
      (Cert.KernelIdeal.Hand.W63 (F := Ideal) m c (Proc.devRef .tc Cert.KernelIdeal.main_v20)) hz).trans
    (Cert.ReferenceIdeal.HandRun.rd_main_v51 m' c).symm

end Cert.Bridge

end
-- ==== Proof.Math.Reads.lean ====
/-
  Host layout operations read at an index, at the literal shapes of this certificate: a row of a
  two-row index table flattened, jnp's index normalisation on an index that is not negative, a
  vector broadcast to a column, a column or a row broadcast across a matrix, two columns joined, two
  vectors joined end to end, zero rows appended to a matrix, the leading rows of a matrix.
-/
import Idealize.ShloMosaic.PureOps.Ideal
import Idealize.ShloMosaic.PureOps.Ideal.Laws
import Idealize.ShloMosaic.PureOps.ShapeOps
import Idealize.ShloMosaic.Lib.ValueIdx
import Idealize.ShloMosaic.Lib.IdealHost
import Idealize.ShloMosaic.Lib.KernelVsHost
import Idealize.ShloMosaic.Lib.Pipeline.Value

noncomputable section

open scoped BigOperators

namespace Cert.Math

open Idealize.ShloMosaic Idealize.ShloMosaic.ValueIdx

section Reads
variable {α : Type}

/-- Row r of a table of two rows, flattened to a vector, at entry e: the table at (r, e). -/
theorem rowslice_apply {n w : ℕ} (r : ℕ) (hr : r < 2) (a1 : IVec ⟨2, ![2, n]⟩ w)
    (hs : (⟨2, ![2, n]⟩ : Shape).Slices ![r, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![r, 0] a1 hs) hc (ix1 e) = a1 (ix2 ⟨r, hr⟩ e) := by
  refine (shapeCast_apply _ hc (ix1 e) (ix2 0 e) ?_).trans ?_
  · rw [Shape.rowMajor_val_two, Shape.rowMajor_val_one]
    show (0 : ℕ) * n + e.val = e.val
    omega
  · refine extractStridedSlice_apply _ a1 hs (ix2 0 e) (ix2 ⟨r, hr⟩ e) ?_
    intro a
    match a with
    | ⟨0, _⟩ => show r = r + 0; rfl
    | ⟨1, _⟩ => show e.val = 0 + e.val; omega

/-- An index that is not negative is left alone by the normalisation "add n if negative". -/
theorem wrap_apply {s : Shape} (v c0 cn : IVec s 32) (i : s.Idx) (h0 : c0 i = 0#32) (hv : 0 ≤ (v i).toInt) :
    select (cmpi .slt v c0) (addi v cn) v i = v i := by
  show Scalar.select (IntOp.cmpi .slt (v i) (c0 i)) (addi v cn i) (v i) = v i
  have : IntOp.cmpi .slt (v i) (c0 i) = 0#1 := by
    rw [h0]
    show BitVec.ofBool ((v i).slt 0#32) = 0#1
    have : (v i).slt 0#32 = false := by
      show decide ((v i).toInt < (0#32 : BitVec 32).toInt) = false
      simp
      exact hv
    rw [this]; rfl
  rw [this, select_zero]

/-- A vector broadcast to a column, at (e, 0): the vector at e. -/
theorem bcast_col_apply {n : ℕ} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) := by
  refine broadcastInDim_apply _ h v (ix2 e z) (ix1 e) ?_
  intro a
  obtain rfl : a = 0 := Subsingleton.elim _ _
  show e.val = if n = 1 then 0 else e.val
  have := e.isLt
  split_ifs <;> omega

/-- A column broadcast across a matrix, at (i, j): the column at (i, 0). -/
theorem bcast_rows_apply {n m : ℕ} (h : (⟨2, ![n, 1]⟩ : Shape).BroadcastsInDim ⟨2, ![n, m]⟩ ![0, 1])
    (x : (⟨2, ![n, 1]⟩ : Shape).Idx → α) (i : Fin n) (j : Fin m) :
    broadcastInDim ⟨2, ![n, m]⟩ ![0, 1] h x (ix2 i j) = x (ix2 i 0) := by
  refine broadcastInDim_apply _ h x (ix2 i j) (ix2 i 0) ?_
  intro a
  match a with
  | ⟨0, _⟩ =>
    show i.val = if n = 1 then 0 else i.val
    have := i.isLt
    split_ifs <;> omega
  | ⟨1, _⟩ =>
    show (0 : ℕ) = if (1 : ℕ) = 1 then 0 else j.val
    rw [if_pos rfl]

/-- A row broadcast down a matrix, at (i, j): the row at (0, j). -/
theorem bcast_cols_apply {n m : ℕ} (h : (⟨2, ![1, m]⟩ : Shape).BroadcastsInDim ⟨2, ![n, m]⟩ ![0, 1])
    (x : (⟨2, ![1, m]⟩ : Shape).Idx → α) (i : Fin n) (j : Fin m) :
    broadcastInDim ⟨2, ![n, m]⟩ ![0, 1] h x (ix2 i j) = x (ix2 0 j) := by
  refine broadcastInDim_apply _ h x (ix2 i j) (ix2 0 j) ?_
  intro a
  match a with
  | ⟨0, _⟩ =>
    show (0 : ℕ) = if (1 : ℕ) = 1 then 0 else i.val
    rw [if_pos rfl]
  | ⟨1, _⟩ =>
    show j.val = if m = 1 then 0 else j.val
    have := j.isLt
    split_ifs <;> omega

/-- A vector made a one-row matrix, at (0, j): the vector at j. -/
theorem bcast_lift_apply {m : ℕ} (h : (⟨1, ![m]⟩ : Shape).BroadcastsInDim ⟨2, ![1, m]⟩ ![1])
    (x : (⟨1, ![m]⟩ : Shape).Idx → α) (z : Fin 1) (j : Fin m) :
    broadcastInDim ⟨2, ![1, m]⟩ ![1] h x (ix2 z j) = x (ix1 j) := by
  refine broadcastInDim_apply _ h x (ix2 z j) (ix1 j) ?_
  intro a
  obtain rfl : a = 0 := Subsingleton.elim _ _
  show j.val = if m = 1 then 0 else j.val
  have := j.isLt
  split_ifs <;> omega

/-- Two columns joined side by side, read in the first column. -/
theorem concat_cols_apply0 {n : ℕ} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e 0) = x₁ (ix2 e 0) := by
  refine concatenate_pair_apply_left 1 x₁ x₂ h (ix2 e 0) rfl (ix2 e 0) ?_
  intro b
  match b with
  | ⟨0, _⟩ => rfl
  | ⟨1, _⟩ => rfl

/-- Two columns joined side by side, read in the second column. -/
theorem concat_cols_apply1 {n : ℕ} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e 1) = x₂ (ix2 e 0) := by
  refine concatenate_pair_apply_right 1 x₁ x₂ h (ix2 e 1) rfl rfl (ix2 e 0) ?_ ?_
  · intro b hb
    match b with
    | ⟨0, _⟩ => rfl
    | ⟨1, _⟩ => exact absurd rfl hb
  · rfl

/-- Two vectors joined end to end, read in the first. -/
theorem concat_vec_apply_left {n₁ n₂ n : ℕ} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (hj : j.val < n₁) :
    concatenate ⟨1, ![n]⟩ 0 [⟨⟨1, ![n₁]⟩, x₁⟩, ⟨⟨1, ![n₂]⟩, x₂⟩] h (ix1 j) = x₁ (ix1 ⟨j.val, hj⟩) := by
  refine concatenate_pair_apply_left 0 x₁ x₂ h (ix1 j) rfl (ix1 ⟨j.val, hj⟩) ?_
  intro b
  obtain rfl : b = 0 := Subsingleton.elim _ _
  rfl

/-- Two vectors joined end to end, read in the second. -/
theorem concat_vec_apply_right {n₁ n₂ n : ℕ} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (j : Fin n) (k : Fin n₂)
    (hk : k.val + n₁ = j.val) :
    concatenate ⟨1, ![n]⟩ 0 [⟨⟨1, ![n₁]⟩, x₁⟩, ⟨⟨1, ![n₂]⟩, x₂⟩] h (ix1 j) = x₂ (ix1 k) := by
  refine concatenate_pair_apply_right 0 x₁ x₂ h (ix1 j) rfl rfl (ix1 k) ?_ ?_
  · intro b hb
    obtain rfl : b = 0 := Subsingleton.elim _ _
    exact absurd rfl hb
  · exact hk

/-- Zero rows appended below a matrix, read at one of the matrix's own rows. -/
theorem pad_rows_apply_inside {n p m N : ℕ} (x : (⟨2, ![n, m]⟩ : Shape).Idx → α) {u : Shape} (v : u.Idx → α)
    (h : (⟨2, ![n, m]⟩ : Shape).Pads ![0, 0] ![p, 0] ![0, 0] ⟨2, ![N, m]⟩) (hu : 0 < u.numel)
    (r : Fin n) (r' : Fin N) (hr : r'.val = r.val) (q : Fin m) :
    pad ⟨2, ![N, m]⟩ ![0, 0] ![p, 0] ![0, 0] x v h hu (ix2 r' q) = x (ix2 r q) := by
  refine pad_apply_of_inside _ _ _ x v h hu (ix2 r' q) (ix2 r q) ?_
  intro a
  match a with
  | ⟨0, _⟩ => show r'.val = 0 + r.val * (0 + 1); omega
  | ⟨1, _⟩ => show q.val = 0 + q.val * (0 + 1); omega

/-- Zero rows appended below a matrix, read at one of the appended rows: the padding value. -/
theorem pad_rows_apply_outside {n p m N : ℕ} (x : (⟨2, ![n, m]⟩ : Shape).Idx → α) {u : Shape} (v : u.Idx → α)
    (h : (⟨2, ![n, m]⟩ : Shape).Pads ![0, 0] ![p, 0] ![0, 0] ⟨2, ![N, m]⟩) (hu : 0 < u.numel)
    (r' : Fin N) (hr : n ≤ r'.val) (q : Fin m) :
    pad ⟨2, ![N, m]⟩ ![0, 0] ![p, 0] ![0, 0] x v h hu (ix2 r' q) = v (Shape.Idx.first hu) := by
  refine pad_apply_of_not_inside _ _ _ x v h hu (ix2 r' q) 0 ?_
  show ¬((0 : ℕ) ≤ r'.val ∧ (r'.val - 0) % (0 + 1) = 0 ∧ (r'.val - 0) / (0 + 1) < n)
  rw [Nat.sub_zero, Nat.zero_add, Nat.div_one]
  omega

/-- The leading rows of a matrix. -/
theorem slice_rows_apply {n N m : ℕ} (x : (⟨2, ![N, m]⟩ : Shape).Idx → α)
    (h : (⟨2, ![N, m]⟩ : Shape).Slices ![0, 0] ⟨2, ![n, m]⟩) (i : Fin n) (i' : Fin N) (hi : i'.val = i.val) (j : Fin m) :
    extractStridedSlice ⟨2, ![n, m]⟩ ![0, 0] x h (ix2 i j) = x (ix2 i' j) := by
  refine extractStridedSlice_apply _ x h (ix2 i j) (ix2 i' j) ?_
  intro a
  match a with
  | ⟨0, _⟩ => show i'.val = 0 + i.val; omega
  | ⟨1, _⟩ => show j.val = 0 + j.val; omega

end Reads

/-- The normaliser read at a node: the reciprocal square root of a positive degree, zero otherwise. -/
theorem dis_apply {s : Shape} (deg z z' : FVec Ideal s .f32) (i : s.Idx) (hz : z i = 0) (hz' : z' i = 0) :
    select (cmpf .ogt deg z) (Host.rsqrt deg) z' i = if 0 < deg i then Ideal.rsqrt (deg i) else 0 := by
  show Scalar.select (Ideal.cmp .ogt (deg i) (z i)) (Ideal.rsqrt (deg i)) (z' i) = _
  rw [hz, hz']
  by_cases h : 0 < deg i
  · rw [if_pos h]
    have : Ideal.cmp .ogt (deg i) 0 = 1#1 := by
      show BitVec.ofBool (decide (0 < deg i)) = 1#1
      rw [decide_eq_true h]; rfl
    rw [this, select_one]
  · rw [if_neg h]
    have : Ideal.cmp .ogt (deg i) 0 = 0#1 := by
      show BitVec.ofBool (decide (0 < deg i)) = 0#1
      rw [decide_eq_false h]; rfl
    rw [this, select_zero]

/-- The word n, for n below 2³¹, read signed is n. -/
theorem toInt_ofNat_small (n : ℕ) (hn : n < 2147483648) : (BitVec.ofNat 32 n).toInt = (n : Int) := by
  rw [BitVec.toInt_eq_toNat_cond, BitVec.toNat_ofNat]
  have h2 : (2 : ℕ) ^ 32 = 4294967296 := by norm_num
  rw [h2, Nat.mod_eq_of_lt (by omega)]
  split_ifs <;> omega

end Cert.Math

end
-- ==== Proof.Math.X1.lean ====
/-
  The first checkpoint, x1 = relu(graph-convolution layer 1 + bias), as pure terms over the two
  programs' own host operations at the extended reals, and their equality.

  Each definition below is the composition, operation for operation and in the programs' argument
  order, of the host operations the two programs apply between their arguments (and, on the kernel
  side, the results h1 and agg of its first two kernel regions, which enter as variables) and the
  named value.
-/
import proofs.«405323_j90718299226206_3_alg».proof.KernelIdeal
import proofs.«405323_j90718299226206_3_alg».proof.ReferenceIdeal
import proofs.«405323_j90718299226206_3_alg».proof.Proof.Math.Layer1
import proofs.«405323_j90718299226206_3_alg».proof.Proof.Math.Reads
import Idealize.ShloMosaic.Lib.ValueIdx
import Idealize.ShloMosaic.Lib.IdealHost
import Idealize.ShloMosaic.Lib.KernelVsHost
import Idealize.ShloMosaic.Lib.Pipeline.Value

noncomputable section

open scoped BigOperators

namespace Cert.X1

open Idealize.ShloMosaic Idealize.ShloMosaic.ValueIdx

/-! ## The kernel side -/

section Kernel
open Cert.KernelIdeal Cert.KernelIdeal.Facts₀
variable [Cert.KernelIdeal.Facts₀]

/-- An index normalised as jnp does: a negative one counts from the end of the padded range. -/
def Kwrap (v : IVec S320000 32) : IVec S320000 32 :=
  select (cmpi .slt v (broadcastInDim S320000 ![] bcast_S_S320000 (constantI S_ 32 0#32)))
    (addi v (broadcastInDim S320000 ![] bcast_S_S320000 (constantI S_ 32 10240#32))) v

/-- The edge sources, row 0 of the index table (main_v2). -/
def Krow0 (a1 : IVec S2x320000 32) : IVec S320000 32 :=
  shapeCast S320000 (extractStridedSlice S1x320000 ![0, 0] a1 slices_S2x320000_S1x320000_0_0) shapeCasts_S1x320000_S320000

/-- The edge targets, row 1 of the index table (main_v4, main_v24). -/
def Kcol0 (a1 : IVec S2x320000 32) : IVec S320000 32 :=
  shapeCast S320000 (extractStridedSlice S1x320000 ![1, 0] a1 slices_S2x320000_S1x320000_1_0) shapeCasts_S1x320000_S320000

/-- The index pairs of the adjacency scatter (main_v17). -/
def Kpairs (a1 : IVec S2x320000 32) : IVec S320000x2 32 :=
  concatenate S320000x2 1
    [⟨S320000x1, broadcastInDim S320000x1 ![0] bcast_S320000_S320000x1_0 (Kwrap (Krow0 a1))⟩,
     ⟨S320000x1, broadcastInDim S320000x1 ![0] bcast_S320000_S320000x1_0 (Kwrap (Kcol0 a1))⟩]
    concatenates_S320000x1_S320000x1_S320000x2_d1

/-- The padded weighted adjacency (main_v18). -/
def Kadj0 (a1 : IVec S2x320000 32) (a2 : FVec Ideal S320000 .f32) : FVec Ideal S10240x10240 .f32 :=
  Host.scatterAdd scatter_S10240x10240_S320000x2_S320000_n_01_01_1
    (broadcastInDim S10240x10240 ![] bcast_S_S10240x10240 (constant (F := Ideal) S_ .f32 0x00000000#32))
    (Kpairs a1) a2

/-- The targets of the edges followed by the self loops, as scatter indices (main_v29). -/
def Kcol330 (a1 : IVec S2x320000 32) : IVec S330000x1 32 :=
  broadcastInDim S330000x1 ![0] bcast_S330000_S330000x1_0
    (concatenate S330000 0 [⟨S320000, Kcol0 a1⟩, ⟨S10000, iotaInDim S10000 32 0⟩] concatenates_S320000_S10000_S330000_d0)

/-- The weights of the edges followed by the self loops' ones (main_v27). -/
def Kw330 (a2 : FVec Ideal S320000 .f32) : FVec Ideal S330000 .f32 :=
  concatenate S330000 0
    [⟨S320000, a2⟩, ⟨S10000, broadcastInDim S10000 ![] bcast_S_S10000 (constant (F := Ideal) S_ .f32 0x3F800000#32)⟩]
    concatenates_S320000_S10000_S330000_d0

/-- The degrees (main_v30). -/
def Kdeg (a1 : IVec S2x320000 32) (a2 : FVec Ideal S320000 .f32) : FVec Ideal S10000 .f32 :=
  Host.scatterAdd scatter_S10000_S330000x1_S330000_n_0_0_1
    (broadcastInDim S10000 ![] bcast_S_S10000 (constant (F := Ideal) S_ .f32 0x00000000#32)) (Kcol330 a1) (Kw330 a2)

/-- The normalisers (main_v34). -/
def Kdis (a1 : IVec S2x320000 32) (a2 : FVec Ideal S320000 .f32) : FVec Ideal S10000 .f32 :=
  select (cmpf .ogt (Kdeg a1 a2) (broadcastInDim S10000 ![] bcast_S_S10000 (constant (F := Ideal) S_ .f32 0x00000000#32)))
    (Host.rsqrt (Kdeg a1 a2))
    (broadcastInDim S10000 ![] bcast_S_S10000 (id (constant (F := Ideal) S_ .f32 0x00000000#32)))

/-- The rows dis · h1, padded with zero rows (main_v38). -/
def Kdish1pad (a1 : IVec S2x320000 32) (a2 : FVec Ideal S320000 .f32) (h1 : FVec Ideal S10000x512 .f32) :
    FVec Ideal S10240x512 .f32 :=
  pad S10240x512 ![0, 0] ![240, 0] ![0, 0]
    (mulf (broadcastInDim S10000x512 ![0, 1] bcast_S10000x1_S10000x512_0_1
      (broadcastInDim S10000x1 ![0] bcast_S10000_S10000x1_0 (Kdis a1 a2))) h1)
    (sitofp .f32 (constantI S_ 32 0#32) : FVec Ideal S_ .f32) pads_S10000x512_S10240x512_02400_000 h_S_

/-- The checkpoint (main_v52). -/
def Kx1 (a1 : IVec S2x320000 32) (a2 : FVec Ideal S320000 .f32) (a4 : FVec Ideal S512 .f32)
    (h1 : FVec Ideal S10000x512 .f32) (agg : FVec Ideal S10240x512 .f32) : FVec Ideal S10000x512 .f32 :=
  maximumf
    (addf
      (addf
        (mulf (broadcastInDim S10000x512 ![0, 1] bcast_S10000x1_S10000x512_0_1
          (broadcastInDim S10000x1 ![0] bcast_S10000_S10000x1_0 (Kdis a1 a2)))
          (extractStridedSlice S10000x512 ![0, 0] agg slices_S10240x512_S10000x512_0_0))
        (mulf (broadcastInDim S10000x512 ![0, 1] bcast_S10000x1_S10000x512_0_1
          (broadcastInDim S10000x1 ![0] bcast_S10000_S10000x1_0 (mulf (Kdis a1 a2) (Kdis a1 a2)))) h1))
      (broadcastInDim S10000x512 ![0, 1] bcast_S1x512_S10000x512_0_1 (broadcastInDim S1x512 ![1] bcast_S512_S1x512_1 a4)))
    (broadcastInDim S10000x512 ![] bcast_S_S10000x512 (constant (F := Ideal) S_ .f32 0x00000000#32))

end Kernel

/-! ## The reference side -/

section Reference
open Cert.ReferenceIdeal Cert.ReferenceIdeal.Facts₀
variable [Cert.ReferenceIdeal.Facts₀]

/-- An index normalised as jnp does: a negative one counts from the end. -/
def Rwrap (v : IVec S320000 32) : IVec S320000 32 :=
  select (cmpi .slt v (broadcastInDim S320000 ![] bcast_S_S320000 (constantI S_ 32 0#32)))
    (addi v (broadcastInDim S320000 ![] bcast_S_S320000 (constantI S_ 32 10000#32))) v

/-- The same over the list with the self loops. -/
def Rwrap330 (v : IVec S330000 32) : IVec S330000 32 :=
  select (cmpi .slt v (broadcastInDim S330000 ![] bcast_S_S330000 (constantI S_ 32 0#32)))
    (addi v (broadcastInDim S330000 ![] bcast_S_S330000 (constantI S_ 32 10000#32))) v

/-- The edge sources (main_v2, main_v21). -/
def Rrow0 (a1 : IVec S2x320000 32) : IVec S320000 32 :=
  shapeCast S320000 (extractStridedSlice S1x320000 ![0, 0] a1 slices_S2x320000_S1x320000_0_0) shapeCasts_S1x320000_S320000

/-- The edge targets (main_v4, main_v24). -/
def Rcol0 (a1 : IVec S2x320000 32) : IVec S320000 32 :=
  shapeCast S320000 (extractStridedSlice S1x320000 ![1, 0] a1 slices_S2x320000_S1x320000_1_0) shapeCasts_S1x320000_S320000

/-- The index pairs of the adjacency scatter (main_v17). -/
def Rpairs (a1 : IVec S2x320000 32) : IVec S320000x2 32 :=
  concatenate S320000x2 1
    [⟨S320000x1, broadcastInDim S320000x1 ![0] bcast_S320000_S320000x1_0 (Rwrap (Rrow0 a1))⟩,
     ⟨S320000x1, broadcastInDim S320000x1 ![0] bcast_S320000_S320000x1_0 (Rwrap (Rcol0 a1))⟩]
    concatenates_S320000x1_S320000x1_S320000x2_d1

/-- The weighted adjacency (main_v18). -/
def Radj0 (a1 : IVec S2x320000 32) (a2 : FVec Ideal S320000 .f32) : FVec Ideal S10000x10000 .f32 :=
  Host.scatterAdd scatter_S10000x10000_S320000x2_S320000_n_01_01_1
    (broadcastInDim S10000x10000 ![] bcast_S_S10000x10000 (constant (F := Ideal) S_ .f32 0x00000000#32))
    (Rpairs a1) a2

/-- The sources of the edges followed by the self loops (main_v22). -/
def Rrow330 (a1 : IVec S2x320000 32) : IVec S330000 32 :=
  concatenate S330000 0 [⟨S320000, Rrow0 a1⟩, ⟨S10000, iotaInDim S10000 32 0⟩] concatenates_S320000_S10000_S330000_d0

/-- The targets of the edges followed by the self loops (main_v25). -/
def Rcol330 (a1 : IVec S2x320000 32) : IVec S330000 32 :=
  concatenate S330000 0 [⟨S320000, Rcol0 a1⟩, ⟨S10000, iotaInDim S10000 32 0⟩] concatenates_S320000_S10000_S330000_d0

/-- The weights of the edges followed by the self loops' ones (main_v27). -/
def Rw330 (a2 : FVec Ideal S320000 .f32) : FVec Ideal S330000 .f32 :=
  concatenate S330000 0
    [⟨S320000, a2⟩, ⟨S10000, broadcastInDim S10000 ![] bcast_S_S10000 (constant (F := Ideal) S_ .f32 0x3F800000#32)⟩]
    concatenates_S320000_S10000_S330000_d0

/-- The degrees (main_v30). -/
def Rdeg (a1 : IVec S2x320000 32) (a2 : FVec Ideal S320000 .f32) : FVec Ideal S10000 .f32 :=
  Host.scatterAdd scatter_S10000_S330000x1_S330000_n_0_0_1
    (broadcastInDim S10000 ![] bcast_S_S10000 (constant (F := Ideal) S_ .f32 0x00000000#32))
    (broadcastInDim S330000x1 ![0] bcast_S330000_S330000x1_0 (Rcol330 a1)) (Rw330 a2)

/-- The normalisers (main_v34). -/
def Rdis (a1 : IVec S2x320000 32) (a2 : FVec Ideal S320000 .f32) : FVec Ideal S10000 .f32 :=
  select (cmpf .ogt (Rdeg a1 a2) (broadcastInDim S10000 ![] bcast_S_S10000 (constant (F := Ideal) S_ .f32 0x00000000#32)))
    (Host.rsqrt (Rdeg a1 a2))
    (broadcastInDim S10000 ![] bcast_S_S10000 (id (constant (F := Ideal) S_ .f32 0x00000000#32)))

/-- The edge norms dis[row] · w · dis[col] (main_v50). -/
def Rnorm (a1 : IVec S2x320000 32) (a2 : FVec Ideal S320000 .f32) : FVec Ideal S330000 .f32 :=
  mulf
    (mulf
      (Host.gather gather_S10000_S330000x1_S330000_n_0_n_n_0_1_1 (Rdis a1 a2)
        (broadcastInDim S330000x1 ![0] bcast_S330000_S330000x1_0 (Rwrap330 (Rrow330 a1))))
      (Rw330 a2))
    (Host.gather gather_S10000_S330000x1_S330000_n_0_n_n_0_1_1 (Rdis a1 a2)
      (broadcastInDim S330000x1 ![0] bcast_S330000_S330000x1_0 (Rwrap330 (Rcol330 a1))))

/-- The features times the first weight matrix (main_v51). -/
def Rh (a0 : FVec Ideal S10000x512 .f32) (a3 : FVec Ideal S512x512 .f32) : FVec Ideal S10000x512 .f32 :=
  Host.dotGeneral dot_S10000x512_S512x512_S10000x512_1_0_0_1_n_n none a0 a3

/-- The scattered rows norm · h[row] (main_v61). -/
def Rupd (a0 : FVec Ideal S10000x512 .f32) (a1 : IVec S2x320000 32) (a2 : FVec Ideal S320000 .f32)
    (a3 : FVec Ideal S512x512 .f32) : FVec Ideal S330000x512 .f32 :=
  mulf
    (broadcastInDim S330000x512 ![0, 1] bcast_S330000x1_S330000x512_0_1
      (broadcastInDim S330000x1 ![0] bcast_S330000_S330000x1_0 (Rnorm a1 a2)))
    (Host.gather gather_S10000x512_S330000x1_S330000x512_1_0_n_n_0_1_1512 (Rh a0 a3)
      (broadcastInDim S330000x1 ![0] bcast_S330000_S330000x1_0 (Rwrap330 (Rrow330 a1))))

/-- The aggregation (main_v64). -/
def Rout (a0 : FVec Ideal S10000x512 .f32) (a1 : IVec S2x320000 32) (a2 : FVec Ideal S320000 .f32)
    (a3 : FVec Ideal S512x512 .f32) : FVec Ideal S10000x512 .f32 :=
  Host.scatterAdd scatter_S10000x512_S330000x1_S330000x512_1_0_0_1
    (broadcastInDim S10000x512 ![] bcast_S_S10000x512 (constant (F := Ideal) S_ .f32 0x00000000#32))
    (broadcastInDim S330000x1 ![0] bcast_S330000_S330000x1_0 (Rcol330 a1)) (Rupd a0 a1 a2 a3)

/-- The checkpoint (main_v68). -/
def Rx1 (a0 : FVec Ideal S10000x512 .f32) (a1 : IVec S2x320000 32) (a2 : FVec Ideal S320000 .f32)
    (a3 : FVec Ideal S512x512 .f32) (a4 : FVec Ideal S512 .f32) : FVec Ideal S10000x512 .f32 :=
  maximumf
    (addf (Rout a0 a1 a2 a3)
      (broadcastInDim S10000x512 ![0, 1] bcast_S1x512_S10000x512_0_1 (broadcastInDim S1x512 ![1] bcast_S512_S1x512_1 a4)))
    (broadcastInDim S10000x512 ![] bcast_S_S10000x512 (constant (F := Ideal) S_ .f32 0x00000000#32))

end Reference

/-! ## Reading the terms at an index -/

section Proofs
open Cert.Math
open Cert.ReferenceIdeal (S10000x512 S2x320000 S320000 S512x512 S512 S10000 S10000x10000)
variable [Cert.KernelIdeal.Facts₀] [Cert.ReferenceIdeal.Facts₀]

theorem bcast_constI_apply {T : Shape} {w : ℕ} (h : (⟨0, ![]⟩ : Shape).BroadcastsInDim T ![]) (b : BitVec w) (j : T.Idx) :
    broadcastInDim T ![] h (constantI ⟨0, ![]⟩ w b) j = b :=
  (broadcastInDim_scalar_apply h _ j).trans rfl

theorem bcast_const_apply {T : Shape} {φ : FTy} (h : (⟨0, ![]⟩ : Shape).BroadcastsInDim T ![]) (b : BitVec φ.bits)
    (j : T.Idx) : broadcastInDim T ![] h (constant (F := Ideal) ⟨0, ![]⟩ φ b) j = Ideal.ofBits φ b :=
  (broadcastInDim_scalar_apply h _ j).trans rfl

variable (a0 : FVec Ideal S10000x512 .f32) (a1 : IVec S2x320000 32) (a2 : FVec Ideal S320000 .f32)
  (a3 : FVec Ideal S512x512 .f32) (a4 : FVec Ideal S512 .f32)

/-- The kernel's degrees and normalisers are the reference's, operation for operation. -/
theorem Kdeg_eq : Kdeg a1 a2 = Rdeg a1 a2 := rfl
theorem Kdis_eq : Kdis a1 a2 = Rdis a1 a2 := rfl

variable (hidx : ∀ i : S2x320000.Idx, 0 ≤ (a1 i).toInt ∧ (a1 i).toInt < 10000)

/-- The source of edge e, as a node. -/
def rowF (e : Fin 320000) : Fin 10000 :=
  ⟨(a1 (ix2 0 e)).toInt.toNat, by have := hidx (ix2 0 e); omega⟩
/-- The target of edge e, as a node. -/
def colF (e : Fin 320000) : Fin 10000 :=
  ⟨(a1 (ix2 1 e)).toInt.toNat, by have := hidx (ix2 1 e); omega⟩

theorem rowF_val (e : Fin 320000) : (a1 (ix2 0 e)).toInt = ((rowF a1 hidx e).val : Int) := by
  have := hidx (ix2 0 e)
  show _ = (((a1 (ix2 0 e)).toInt.toNat : ℕ) : Int)
  omega
theorem colF_val (e : Fin 320000) : (a1 (ix2 1 e)).toInt = ((colF a1 hidx e).val : Int) := by
  have := hidx (ix2 1 e)
  show _ = (((a1 (ix2 1 e)).toInt.toNat : ℕ) : Int)
  omega

theorem Rrow0_apply (e : Fin 320000) : Rrow0 a1 (ix1 e) = a1 (ix2 0 e) :=
  rowslice_apply 0 (by decide) a1 _ _ e
theorem Rcol0_apply (e : Fin 320000) : Rcol0 a1 (ix1 e) = a1 (ix2 1 e) :=
  rowslice_apply 1 (by decide) a1 _ _ e
theorem Krow0_apply (e : Fin 320000) : Krow0 a1 (ix1 e) = a1 (ix2 0 e) :=
  rowslice_apply 0 (by decide) a1 _ _ e
theorem Kcol0_apply (e : Fin 320000) : Kcol0 a1 (ix1 e) = a1 (ix2 1 e) :=
  rowslice_apply 1 (by decide) a1 _ _ e

include hidx in
theorem Rpairs_apply0 (e : Fin 320000) : (Rpairs a1 (ix2 e 0)).toInt = ((rowF a1 hidx e).val : Int) := by
  unfold Rpairs
  rw [concat_cols_apply0, bcast_col_apply]
  unfold Rwrap
  rw [wrap_apply _ _ _ _ (bcast_constI_apply _ _ _) (by rw [Rrow0_apply]; exact (hidx _).1), Rrow0_apply]
  exact rowF_val a1 hidx e

include hidx in
theorem Rpairs_apply1 (e : Fin 320000) : (Rpairs a1 (ix2 e 1)).toInt = ((colF a1 hidx e).val : Int) := by
  unfold Rpairs
  rw [concat_cols_apply1, bcast_col_apply]
  unfold Rwrap
  rw [wrap_apply _ _ _ _ (bcast_constI_apply _ _ _) (by rw [Rcol0_apply]; exact (hidx _).1), Rcol0_apply]
  exact colF_val a1 hidx e

include hidx in
theorem Kpairs_apply0 (e : Fin 320000) : (Kpairs a1 (ix2 e 0)).toInt = ((rowF a1 hidx e).val : Int) := by
  unfold Kpairs
  rw [concat_cols_apply0, bcast_col_apply]
  unfold Kwrap
  rw [wrap_apply _ _ _ _ (bcast_constI_apply _ _ _) (by rw [Krow0_apply]; exact (hidx _).1), Krow0_apply]
  exact rowF_val a1 hidx e

include hidx in
theorem Kpairs_apply1 (e : Fin 320000) : (Kpairs a1 (ix2 e 1)).toInt = ((colF a1 hidx e).val : Int) := by
  unfold Kpairs
  rw [concat_cols_apply1, bcast_col_apply]
  unfold Kwrap
  rw [wrap_apply _ _ _ _ (bcast_constI_apply _ _ _) (by rw [Kcol0_apply]; exact (hidx _).1), Kcol0_apply]
  exact colF_val a1 hidx e

/-- The weighted adjacency: the sum of the weights of the edges r → c. -/
def adjF (r c : Fin 10000) : EReal :=
  ∑ e ∈ Finset.univ.filter (fun e => rowF a1 hidx e = r ∧ colF a1 hidx e = c), a2 (ix1 e)

theorem Radj0_apply (r c : Fin 10000) : Radj0 a1 a2 (ix2 r c) = adjF a1 a2 hidx r c := by
  unfold Radj0
  rw [show Cert.ReferenceIdeal.scatter_S10000x10000_S320000x2_S320000_n_01_01_1
      = scatPairs 10000 10000 320000 Cert.ReferenceIdeal.Facts₀.scatter_S10000x10000_S320000x2_S320000_n_01_01_1_wf from rfl]
  rw [scatterAdd_pairs_apply_of _ _ _ _ (rowF a1 hidx) (colF a1 hidx) (Rpairs_apply0 a1 hidx) (Rpairs_apply1 a1 hidx),
    bcast_const_apply, Ideal.ofBits_zero_f32, zero_add]
  rfl

theorem Kadj0_apply (r c : Fin 10000) :
    Kadj0 a1 a2 (ix2 (Fin.castLE (by decide) r) (Fin.castLE (by decide) c)) = adjF a1 a2 hidx r c := by
  unfold Kadj0
  rw [show Cert.KernelIdeal.scatter_S10240x10240_S320000x2_S320000_n_01_01_1
      = scatPairs 10240 10240 320000 Cert.KernelIdeal.Facts₀.scatter_S10240x10240_S320000x2_S320000_n_01_01_1_wf from rfl]
  rw [scatterAdd_pairs_apply_corner_of _ (by decide) (by decide) _ _ _ (rowF a1 hidx) (colF a1 hidx)
      (Kpairs_apply0 a1 hidx) (Kpairs_apply1 a1 hidx),
    bcast_const_apply, Ideal.ofBits_zero_f32, zero_add]
  rfl

include hidx in
/-- Inside the unpadded corner the kernel's adjacency is the reference's. -/
theorem adj_corner (r c : Fin 10000) :
    Kadj0 a1 a2 (ix2 (Fin.castLE (by decide) r) (Fin.castLE (by decide) c)) = Radj0 a1 a2 (ix2 r c) := by
  rw [Kadj0_apply a1 a2 hidx, Radj0_apply a1 a2 hidx]

include hidx in
/-- The padding rows and columns of the kernel's adjacency are zero. -/
theorem adj_outside (r c : Fin 10240) (hrc : 10000 ≤ r.val ∨ 10000 ≤ c.val) : Kadj0 a1 a2 (ix2 r c) = 0 := by
  unfold Kadj0
  rw [show Cert.KernelIdeal.scatter_S10240x10240_S320000x2_S320000_n_01_01_1
      = scatPairs 10240 10240 320000 Cert.KernelIdeal.Facts₀.scatter_S10240x10240_S320000x2_S320000_n_01_01_1_wf from rfl]
  rw [scatterAdd_pairs_outside _ _ _ _ (n₁ := 10000) (n₂ := 10000)
      (fun e => by rw [Kpairs_apply0 a1 hidx e]; exact_mod_cast (rowF a1 hidx e).isLt)
      (fun e => by rw [Kpairs_apply1 a1 hidx e]; exact_mod_cast (colF a1 hidx e).isLt) r c hrc,
    bcast_const_apply, Ideal.ofBits_zero_f32]

/-! ### The list with the self loops -/

/-- The source of entry e' of the list with the self loops. -/
def rowF' (e' : Fin (320000 + 10000)) : Fin 10000 :=
  Fin.addCases (motive := fun _ => Fin 10000) (rowF a1 hidx) id e'
/-- The target of entry e' of the list with the self loops. -/
def colF' (e' : Fin (320000 + 10000)) : Fin 10000 :=
  Fin.addCases (motive := fun _ => Fin 10000) (colF a1 hidx) id e'
/-- The weight of entry e' of the list with the self loops. -/
def wF' (e' : Fin (320000 + 10000)) : EReal :=
  Fin.addCases (motive := fun _ => EReal) (fun e => a2 (ix1 e)) (fun _ => 1) e'

theorem Rrow330_apply (e' : Fin (320000 + 10000)) :
    (Rrow330 a1 (ix1 e')).toInt = ((rowF' a1 hidx e').val : Int) := by
  induction e' using Fin.addCases with
  | left e =>
    have h : Rrow330 a1 (ix1 (Fin.castAdd 10000 e)) = a1 (ix2 0 e) :=
      (concat_vec_apply_left _ _ _ (Fin.castAdd 10000 e) e.isLt).trans (Rrow0_apply a1 e)
    rw [h, rowF_val a1 hidx e]
    unfold rowF'
    rw [Fin.addCases_left]
  | right n =>
    have h : Rrow330 a1 (ix1 (Fin.natAdd 320000 n)) = BitVec.ofNat 32 n.val :=
      (concat_vec_apply_right _ _ _ (Fin.natAdd 320000 n) n (by show n.val + 320000 = 320000 + n.val; omega)).trans rfl
    rw [h, toInt_ofNat_small _ (by have := n.isLt; omega)]
    unfold rowF'
    rw [Fin.addCases_right]
    rfl

theorem Rcol330_apply (e' : Fin (320000 + 10000)) :
    (Rcol330 a1 (ix1 e')).toInt = ((colF' a1 hidx e').val : Int) := by
  induction e' using Fin.addCases with
  | left e =>
    have h : Rcol330 a1 (ix1 (Fin.castAdd 10000 e)) = a1 (ix2 1 e) :=
      (concat_vec_apply_left _ _ _ (Fin.castAdd 10000 e) e.isLt).trans (Rcol0_apply a1 e)
    rw [h, colF_val a1 hidx e]
    unfold colF'
    rw [Fin.addCases_left]
  | right n =>
    have h : Rcol330 a1 (ix1 (Fin.natAdd 320000 n)) = BitVec.ofNat 32 n.val :=
      (concat_vec_apply_right _ _ _ (Fin.natAdd 320000 n) n (by show n.val + 320000 = 320000 + n.val; omega)).trans rfl
    rw [h, toInt_ofNat_small _ (by have := n.isLt; omega)]
    unfold colF'
    rw [Fin.addCases_right]
    rfl

theorem Rw330_apply (e' : Fin (320000 + 10000)) : Rw330 a2 (ix1 e') = wF' a2 e' := by
  induction e' using Fin.addCases with
  | left e =>
    unfold wF'
    rw [Fin.addCases_left]
    exact concat_vec_apply_left _ _ _ (Fin.castAdd 10000 e) e.isLt
  | right n =>
    unfold wF'
    rw [Fin.addCases_right]
    refine (concat_vec_apply_right _ _ _ (Fin.natAdd 320000 n) n (by show n.val + 320000 = 320000 + n.val; omega)).trans ?_
    exact (bcast_const_apply _ _ _).trans Ideal.ofBits_one_f32

/-- The degree of c: the weights of the entries into c. -/
def degF (c : Fin 10000) : EReal :=
  ∑ e' ∈ Finset.univ.filter (fun e' => colF' a1 hidx e' = c), wF' a2 e'

/-- The normaliser of c. -/
def disF (c : Fin 10000) : EReal :=
  if 0 < degF a1 a2 hidx c then Ideal.rsqrt (degF a1 a2 hidx c) else 0

theorem Rdeg_apply (c : Fin 10000) : Rdeg a1 a2 (ix1 c) = degF a1 a2 hidx c := by
  unfold Rdeg
  refine (scatterAdd_vec_apply_of (N := 10000) (E := 320000 + 10000)
    Cert.ReferenceIdeal.Facts₀.scatter_S10000_S330000x1_S330000_n_0_0_1_wf _ _ _ (colF' a1 hidx)
    (fun e' => (congrArg BitVec.toInt (bcast_col_apply _ _ e' 0)).trans (Rcol330_apply a1 hidx e')) c).trans ?_
  rw [bcast_const_apply, Ideal.ofBits_zero_f32, zero_add]
  exact Finset.sum_congr rfl fun e' _ => Rw330_apply a2 e'

theorem Rdis_apply (c : Fin 10000) : Rdis a1 a2 (ix1 c) = disF a1 a2 hidx c := by
  unfold Rdis
  refine (dis_apply _ _ _ (ix1 c) ((bcast_const_apply _ _ _).trans Ideal.ofBits_zero_f32)
    ((bcast_const_apply _ _ _).trans Ideal.ofBits_zero_f32)).trans ?_
  rw [Rdeg_apply a1 a2 hidx c]
  rfl

variable (hfin0 : ∀ i, IsReal (a0 i)) (hfin2 : ∀ i, IsReal (a2 i)) (hfin3 : ∀ i, IsReal (a3 i))

include hfin2 in
theorem wF'_real (e' : Fin (320000 + 10000)) : IsReal (wF' a2 e') := by
  induction e' using Fin.addCases with
  | left e => unfold wF'; rw [Fin.addCases_left]; exact hfin2 _
  | right n => unfold wF'; rw [Fin.addCases_right]; exact isReal_one

include hfin2 in
theorem disF_real (c : Fin 10000) : IsReal (disF a1 a2 hidx c) :=
  isReal_dis (IsReal.sum _ _ fun e' _ => wF'_real a2 hfin2 e')

theorem Rwrap330_apply (v : IVec Cert.ReferenceIdeal.S330000 32) (i : Cert.ReferenceIdeal.S330000.Idx)
    (hv : 0 ≤ (v i).toInt) : Rwrap330 v i = v i :=
  wrap_apply _ _ _ _ (bcast_constI_apply _ _ _) hv

/-- A gather of the normalisers at the normalised indices of a list of nodes. -/
theorem Rgather_dis (idx330 : IVec Cert.ReferenceIdeal.S330000 32) (f : Fin (320000 + 10000) → Fin 10000)
    (hf : ∀ e', (idx330 (ix1 e')).toInt = ((f e').val : Int)) (e' : Fin (320000 + 10000)) :
    Host.gather Cert.ReferenceIdeal.gather_S10000_S330000x1_S330000_n_0_n_n_0_1_1 (Rdis a1 a2)
      (broadcastInDim Cert.ReferenceIdeal.S330000x1 ![0] Cert.ReferenceIdeal.Facts₀.bcast_S330000_S330000x1_0 (Rwrap330 idx330))
      (ix1 e') = disF a1 a2 hidx (f e') :=
  (gather_vec_apply_of (N := 10000) (E := 320000 + 10000)
    Cert.ReferenceIdeal.Facts₀.gather_S10000_S330000x1_S330000_n_0_n_n_0_1_1_wf (Rdis a1 a2) _ f
    (fun e'' => (congrArg BitVec.toInt ((bcast_col_apply _ _ e'' 0).trans
      (Rwrap330_apply idx330 (ix1 e'') (by rw [hf e'']; exact Int.natCast_nonneg _)))).trans (hf e'')) e').trans
    (Rdis_apply a1 a2 hidx (f e'))

theorem Rnorm_apply (e' : Fin (320000 + 10000)) :
    Rnorm a1 a2 (ix1 e')
      = disF a1 a2 hidx (rowF' a1 hidx e') * wF' a2 e' * disF a1 a2 hidx (colF' a1 hidx e') := by
  unfold Rnorm
  rw [mulf_apply, mulf_apply, Rgather_dis a1 a2 hidx _ (rowF' a1 hidx) (Rrow330_apply a1 hidx) e',
    Rgather_dis a1 a2 hidx _ (colF' a1 hidx) (Rcol330_apply a1 hidx) e', Rw330_apply a2 e']

/-- The features times the first weight matrix, entry by entry. -/
def hF (r : Fin 10000) (q : Fin 512) : EReal := ∑ k : Fin 512, a0 (ix2 r k) * a3 (ix2 k q)

theorem Rh_apply (r : Fin 10000) (q : Fin 512) : Rh a0 a3 (ix2 r q) = hF a0 a3 r q := by
  unfold Rh Host.dotGeneral
  rw [Ideal.dotGeneral_apply]
  unfold hF
  rw [← Equiv.sum_comp (contrEquiv1 Cert.ReferenceIdeal.dot_S10000x512_S512x512_S10000x512_1_0_0_1_n_n 512 rfl rfl).symm]
  refine Finset.sum_congr rfl fun k _ => ?_
  have hk := contrEquiv1_symm_val Cert.ReferenceIdeal.dot_S10000x512_S512x512_S10000x512_1_0_0_1_n_n 512 rfl rfl k
  congr 1
  · refine congrArg a0 (funext fun a => Fin.ext ?_)
    match a with
    | ⟨0, _⟩ => rfl
    | ⟨1, _⟩ => exact hk
  · refine congrArg a3 (funext fun a => Fin.ext ?_)
    match a with
    | ⟨0, _⟩ => exact hk
    | ⟨1, _⟩ => rfl

include hfin0 hfin3 in
theorem hF_real (r : Fin 10000) (q : Fin 512) : IsReal (hF a0 a3 r q) :=
  IsReal.sum _ _ fun k _ => (hfin0 _).mul (hfin3 _)

theorem Rupd_apply (e' : Fin (320000 + 10000)) (q : Fin 512) :
    Rupd a0 a1 a2 a3 (ix2 e' q) = Rnorm a1 a2 (ix1 e') * Rh a0 a3 (ix2 (rowF' a1 hidx e') q) := by
  unfold Rupd
  rw [mulf_apply]
  refine congrArg₂ (· * ·) ?_ ?_
  · exact (bcast_rows_apply _ _ e' q).trans (bcast_col_apply _ _ e' 0)
  · exact gather_rows_apply_of (N := 10000) (D := 512) (E := 320000 + 10000)
      Cert.ReferenceIdeal.Facts₀.gather_S10000x512_S330000x1_S330000x512_1_0_n_n_0_1_1512_wf (Rh a0 a3) _ (rowF' a1 hidx)
      (fun e'' => (congrArg BitVec.toInt ((bcast_col_apply _ _ e'' 0).trans
        (Rwrap330_apply _ (ix1 e'') (by rw [Rrow330_apply a1 hidx e'']; exact Int.natCast_nonneg _)))).trans
        (Rrow330_apply a1 hidx e'')) e' q

theorem Rout_apply (c : Fin 10000) (q : Fin 512) :
    Rout a0 a1 a2 a3 (ix2 c q)
      = ∑ e' ∈ Finset.univ.filter (fun e' => colF' a1 hidx e' = c), Rupd a0 a1 a2 a3 (ix2 e' q) := by
  unfold Rout
  refine (scatterAdd_rows_apply_of (N := 10000) (D := 512) (E := 320000 + 10000)
    Cert.ReferenceIdeal.Facts₀.scatter_S10000x512_S330000x1_S330000x512_1_0_0_1_wf _ _ _ (colF' a1 hidx)
    (fun e' => (congrArg BitVec.toInt (bcast_col_apply _ _ e' 0)).trans (Rcol330_apply a1 hidx e')) c q).trans ?_
  rw [bcast_const_apply, Ideal.ofBits_zero_f32, zero_add]

include hfin0 hfin2 hfin3 in
/-- The reference's aggregation in the dense form. -/
theorem Rout_eq (c : Fin 10000) (q : Fin 512) :
    Rout a0 a1 a2 a3 (ix2 c q)
      = disF a1 a2 hidx c * ∑ r, adjF a1 a2 hidx r c * (disF a1 a2 hidx r * hF a0 a3 r q)
        + (disF a1 a2 hidx c * disF a1 a2 hidx c) * hF a0 a3 c q := by
  rw [Rout_apply a0 a1 a2 a3 hidx c q]
  rw [Finset.sum_congr rfl fun e' _ => (Rupd_apply a0 a1 a2 a3 hidx e' q).trans
    (by rw [Rnorm_apply a1 a2 hidx e', Rh_apply a0 a3])]
  exact layer1_concat (rowF a1 hidx) (colF a1 hidx) (fun e => a2 (ix1 e)) (disF a1 a2 hidx) (hF a0 a3)
    (fun e => hfin2 _) (disF_real a1 a2 hidx hfin2) (hF_real a0 a3 hfin0 hfin3)
    (rowF' a1 hidx) (colF' a1 hidx) (wF' a2)
    (fun e => Fin.addCases_left _) (fun n => Fin.addCases_right _)
    (fun e => Fin.addCases_left _) (fun n => Fin.addCases_right _)
    (fun e => Fin.addCases_left _) (fun n => Fin.addCases_right _) c q

/-! ### The kernel's side -/

theorem Kdis_apply (c : Fin 10000) : Kdis a1 a2 (ix1 c) = disF a1 a2 hidx c :=
  (congrFun (Kdis_eq a1 a2) (ix1 c)).trans (Rdis_apply a1 a2 hidx c)

theorem Kdish1pad_inside (h1 : FVec Ideal S10000x512 .f32) (r : Fin 10000) (q : Fin 512) :
    Kdish1pad a1 a2 h1 (ix2 (Fin.castLE (by decide) r) q) = disF a1 a2 hidx r * h1 (ix2 r q) := by
  unfold Kdish1pad
  refine (pad_rows_apply_inside _ _ _ _ r (Fin.castLE (by decide) r : Fin 10240) rfl q).trans ?_
  rw [mulf_apply]
  refine congrArg₂ (· * ·) ?_ rfl
  exact ((bcast_rows_apply _ _ r q).trans (bcast_col_apply _ _ r 0)).trans (Kdis_apply a1 a2 hidx r)

theorem Kdish1pad_outside (h1 : FVec Ideal S10000x512 .f32) (r' : Fin 10240) (hr : 10000 ≤ r'.val) (q : Fin 512) :
    Kdish1pad a1 a2 h1 (ix2 r' q) = 0 := by
  unfold Kdish1pad
  refine (pad_rows_apply_outside _ _ _ _ r' hr q).trans ?_
  show (((0#32 : BitVec 32).toInt : ℝ) : EReal) = 0
  simp

theorem Kx1_apply (h1 : FVec Ideal S10000x512 .f32) (agg : FVec Ideal Cert.KernelIdeal.S10240x512 .f32)
    (c : Fin 10000) (q : Fin 512) :
    Kx1 a1 a2 a4 h1 agg (ix2 c q)
      = max (disF a1 a2 hidx c * agg (ix2 (Fin.castLE (by decide) c) q)
          + (disF a1 a2 hidx c * disF a1 a2 hidx c) * h1 (ix2 c q) + a4 (ix1 q)) 0 := by
  unfold Kx1
  rw [maximumf_apply, addf_apply, addf_apply, mulf_apply, mulf_apply]
  refine congrArg₂ max (congrArg₂ (· + ·) (congrArg₂ (· + ·) (congrArg₂ (· * ·) ?_ ?_) (congrArg₂ (· * ·) ?_ rfl)) ?_) ?_
  · exact ((bcast_rows_apply _ _ c q).trans (bcast_col_apply _ _ c 0)).trans (Kdis_apply a1 a2 hidx c)
  · exact slice_rows_apply _ _ c (Fin.castLE (by decide) c : Fin 10240) rfl q
  · refine ((bcast_rows_apply _ _ c q).trans (bcast_col_apply _ _ c 0)).trans ?_
    show Kdis a1 a2 (ix1 c) * Kdis a1 a2 (ix1 c) = _
    rw [Kdis_apply a1 a2 hidx c]
  · exact (bcast_cols_apply _ _ c q).trans (bcast_lift_apply _ _ 0 q)
  · exact (bcast_const_apply _ _ _).trans Ideal.ofBits_zero_f32

theorem Rx1_apply (c : Fin 10000) (q : Fin 512) :
    Rx1 a0 a1 a2 a3 a4 (ix2 c q) = max (Rout a0 a1 a2 a3 (ix2 c q) + a4 (ix1 q)) 0 := by
  unfold Rx1
  rw [maximumf_apply, addf_apply]
  refine congrArg₂ max (congrArg₂ (· + ·) rfl ?_) ?_
  · exact (bcast_cols_apply _ _ c q).trans (bcast_lift_apply _ _ 0 q)
  · exact (bcast_const_apply _ _ _).trans Ideal.ofBits_zero_f32

include hidx hfin0 hfin2 hfin3 in
/-- THE CHECKPOINT: relu of the first graph-convolution layer, the kernel's dense form against the
    reference's sparse form, given what the kernel's first two regions compute. -/
theorem x1_eq (h1 : FVec Ideal S10000x512 .f32) (agg : FVec Ideal Cert.KernelIdeal.S10240x512 .f32)
    (hh1 : ∀ (i : Fin 10000) (q : Fin 512), h1 (ix2 i q) = ∑ k : Fin 512, a0 (ix2 i k) * a3 (ix2 k q))
    (hagg : ∀ (r : Fin 10240) (q : Fin 512),
      agg (ix2 r q) = ∑ k : Fin 10240, Kadj0 a1 a2 (ix2 k r) * Kdish1pad a1 a2 h1 (ix2 k q)) :
    Kx1 a1 a2 a4 h1 agg = Rx1 a0 a1 a2 a3 a4 := by
  funext y
  obtain ⟨c, q, rfl⟩ : ∃ (c : Fin 10000) (q : Fin 512), y = ix2 c q := ⟨y 0, y 1, eq_ix2 y⟩
  rw [Kx1_apply a1 a2 a4 hidx h1 agg c q, Rx1_apply a0 a1 a2 a3 a4 c q,
    Rout_eq a0 a1 a2 a3 hidx hfin0 hfin2 hfin3 c q]
  refine congrArg₂ max (congrArg₂ (· + ·) (congrArg₂ (· + ·) (congrArg₂ (· * ·) rfl ?_) (congrArg₂ (· * ·) rfl ?_)) rfl) rfl
  · rw [hagg, sum_mul_fin_pad (n := 10000) (by decide) _ _ (fun i hi => Kdish1pad_outside a1 a2 h1 i hi q)]
    refine Finset.sum_congr rfl fun r _ => ?_
    rw [Kadj0_apply a1 a2 hidx r c, Kdish1pad_inside a1 a2 hidx h1 r q, hh1 r q]
    rfl
  · exact hh1 c q

end Proofs

end Cert.X1

end
-- ==== Proof.KI.R1Val.lean ====
import proofs.«405323_j90718299226206_3_alg».proof.Proof.KI.R1
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz1 : (![0, 0] : Fin 2 → Nat) = fun _ => 0 := funext fun a => by fin_cases a <;> rfl

section Pieces
variable {F : FTy → Type} [FloatOps F]

/-! ## What each case's found pieces are, as values (any float instance) -/

/-- Case A leaves in the accumulator the zero block plus the product block. -/
theorem sout1_A_eq (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond1_0 i) (hc1 : ¬cond1_1 i)
    (x0 : Vec F S1024x1024 .f32) (x1 : Vec F S1024x256 .f32) :
    sout1_A_0 c i arg3 harg3 arg4 harg4 arg5 harg5 arg6 harg6 hc0 hc1 x0 x1 = k1_pay2 x0 x1 (k1_pay1 (F := F)) := by
  unfold sout1_A_0
  rw [View.read_writes_eq_canon _ _ _ (scover1_A_0 c i arg3 harg3 arg4 harg4 arg5 harg5 arg6 harg6 hc0 hc1 x0 x1)]
  unfold kernelRun1_A
  dsimp only
  sl_unfold_words
  rw [View.canon_cons_unit_zero (S := S1024x256) hz1, View.readCov_unit_zero (S := S1024x256) _ hz1]
  simp only [View.readAt_eq_ld, harg3.read_unread, harg4.read_unread, View.ld_unit_zero (S := S1024x1024) hz1,
    View.ld_unit_zero (S := S1024x256) hz1]

/-- Case B leaves in the accumulator what it held plus the product block. -/
theorem sout1_B_eq (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : ¬cond1_1 i)
    (x0 : Vec F S1024x1024 .f32) (x1 : Vec F S1024x256 .f32) (xs0 : Vec F S1024x256 .f32) :
    sout1_B_0 c i arg3 harg3 arg4 harg4 arg5 harg5 arg6 harg6 hc0 hc1 x0 x1 xs0 = k1_pay2 x0 x1 xs0 := by
  unfold sout1_B_0
  rw [View.read_writes_eq_canon _ _ _ (scover1_B_0 c i arg3 harg3 arg4 harg4 arg5 harg5 arg6 harg6 hc0 hc1 x0 x1 xs0)]
  unfold kernelRun1_B
  dsimp only
  sl_unfold_words
  rw [View.canon_unit_zero hz1]
  simp only [View.readAt_eq_ld, harg3.read_unread, harg4.read_unread, harg6.read_unread, View.ld_unit_zero (S := S1024x1024) hz1,
    View.ld_unit_zero (S := S1024x256) hz1]

/-- Case C leaves the same in the accumulator, -/
theorem sout1_C_eq (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) :
    sout1_C_0 c i arg3 harg3 arg4 harg4 arg5 harg5 arg6 harg6 hc0 hc1 x0 x1 xs0 = k1_pay2 x0 x1 xs0 := by
  unfold sout1_C_0
  rw [View.read_writes_eq_canon _ _ _ (scover1_C_0 c i arg3 harg3 arg4 harg4 arg5 harg5 arg6 harg6 hc0 hc1 x0 x1 xs0)]
  unfold kernelRun1_C
  dsimp only
  sl_unfold_words
  rw [View.canon_unit_zero hz1]
  simp only [View.readAt_eq_ld, harg3.read_unread, harg4.read_unread, harg6.read_unread, View.ld_unit_zero (S := S1024x1024) hz1,
    View.ld_unit_zero (S := S1024x256) hz1]

/-- and copies it to the output's buffer. -/
theorem out1_C_eq (c : Dev nD) (i : grid1.Coords) (arg3 : Memref sig .tc .vmem S1024x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond1_0 i) (hc1 : cond1_1 i)
    (x0 : Vec F S1024x1024 .f32) (x1 : Vec F S1024x256 .f32) (xs0 : Vec F S1024x256 .f32) :
    out1_C_2 c i arg3 harg3 arg4 harg4 arg5 harg5 arg6 harg6 hc0 hc1 x0 x1 xs0 = k1_pay2 x0 x1 xs0 := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  rw [View.canon_unit_zero hz1, View.readCov_unit_zero (S := S1024x256) _ hz1]
  simp only [View.readAt_eq_ld, harg3.read_unread, harg4.read_unread, harg6.read_unread, View.ld_unit_zero (S := S1024x1024) hz1,
    View.ld_unit_zero (S := S1024x256) hz1]

end Pieces

/-! ## The payloads at an index, at the ideal values -/

/-- The region's dimension numbers: axis 0 of both operands contracted. -/
abbrev D1 := dot_S1024x1024_S1024x256_S1024x256_0_0_1_1_n_n

theorem lhsD1_0 (j : S1024x256.Idx) (k : D1.contr.Idx) : (D1.lhsIdx j k 0 : ℕ) = k ⟨0, by decide⟩ := by
  simp [DotDims.lhsIdx, D1, dot_S1024x1024_S1024x256_S1024x256_0_0_1_1_n_n]; rfl
theorem lhsD1_1 (j : S1024x256.Idx) (k : D1.contr.Idx) : (D1.lhsIdx j k 1 : ℕ) = j 0 := by
  simp [DotDims.lhsIdx, D1, dot_S1024x1024_S1024x256_S1024x256_0_0_1_1_n_n]; rfl
theorem rhsD1_0 (j : S1024x256.Idx) (k : D1.contr.Idx) : (D1.rhsIdx j k 0 : ℕ) = k ⟨0, by decide⟩ := by
  simp [DotDims.rhsIdx, D1, dot_S1024x1024_S1024x256_S1024x256_0_0_1_1_n_n]; rfl
theorem rhsD1_1 (j : S1024x256.Idx) (k : D1.contr.Idx) : (D1.rhsIdx j k 1 : ℕ) = j 1 := by
  simp [DotDims.rhsIdx, D1, dot_S1024x1024_S1024x256_S1024x256_0_0_1_1_n_n]; rfl

/-- The zero block the reset stores. -/
theorem pay1_1_apply (y : S1024x256.Idx) : k1_pay1 (F := Ideal) y = 0 := by
  unfold k1_pay1
  simp only [shapeCast_self]
  exact Ideal.ofBits_zero_f32

/-- The accumulation step at an index: the accumulator there plus the sum over the block's contracted rows of the
    products (the roundings to bf16 are the identity at the ideal values). -/
theorem pay1_2_apply (x0 : Vec Ideal S1024x1024 .f32) (x1 : Vec Ideal S1024x256 .f32) (acc : Vec Ideal S1024x256 .f32) (r : Fin 1024) (q : Fin 256) :
    k1_pay2 x0 x1 acc (ix2 r q) = acc (ix2 r q) + ∑ kk : Fin 1024, x0 (ix2 kk r) * x1 (ix2 kk q) := by
  unfold k1_pay2
  simp only [shapeCast_self, addf_apply, matmul, Ideal.matmul_constant_zero_apply, truncf_apply]
  rw [← Equiv.sum_comp (contrEquiv1 D1 1024 rfl rfl).symm]
  refine congrArg (acc (ix2 r q) + ·) (Finset.sum_congr rfl fun kk _ => ?_)
  show x0 (D1.lhsIdx (ix2 r q) ((contrEquiv1 D1 1024 rfl rfl).symm kk)) * x1 (D1.rhsIdx (ix2 r q) ((contrEquiv1 D1 1024 rfl rfl).symm kk)) = _
  have e0 : D1.lhsIdx (ix2 r q) ((contrEquiv1 D1 1024 rfl rfl).symm kk) = ix2 kk r := by
    funext a; apply Fin.ext
    match a with
    | ⟨0, _⟩ => exact (lhsD1_0 _ _).trans (contrEquiv1_symm_val D1 1024 rfl rfl kk)
    | ⟨1, _⟩ => exact lhsD1_1 _ _
  have e1 : D1.rhsIdx (ix2 r q) ((contrEquiv1 D1 1024 rfl rfl).symm kk) = ix2 kk q := by
    funext a; apply Fin.ext
    match a with
    | ⟨0, _⟩ => exact (rhsD1_0 _ _).trans (contrEquiv1_symm_val D1 1024 rfl rfl kk)
    | ⟨1, _⟩ => exact rhsD1_1 _ _
  rw [e0, e1]

/-! ## Arrays read at natural-number coordinates -/

/-- A matrix read at natural-number coordinates (zero outside its extents): sums over blocks are then sums over
    plain arithmetic on the coordinates. -/
def cAt1 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt1_eq {n0 n1 : ℕ} (X : (⟨2, ![n0, n1]⟩ : Shape).Idx → EReal) (i : Fin n0) (j : Fin n1) :
    cAt1 X i.val j.val = X (ix2 i j) := dif_pos ⟨i.isLt, j.isLt⟩

theorem cAt1_idx {n0 n1 : ℕ} (X : (⟨2, ![n0, n1]⟩ : Shape).Idx → EReal) (e : (⟨2, ![n0, n1]⟩ : Shape).Idx) :
    X e = cAt1 X (e 0).val (e 1).val := by
  have h : (e 0).val < n0 ∧ (e 1).val < n1 := ⟨(e 0).isLt, (e 1).isLt⟩
  unfold cAt1; rw [dif_pos h]; exact congrArg X (eq_ix2 e)

/-- Block kb of the contraction (1024 rows of both operands) at output coordinates (R, Q). -/
def blockTerm1 (A B : ℕ → ℕ → EReal) (R Q kb : ℕ) : EReal :=
  ∑ kk : Fin 1024, A (kb * 1024 + kk.val) R * B (kb * 1024 + kk.val) Q

/-- The blocks 0 … k summed. -/
def partialSum1 (A B : ℕ → ℕ → EReal) (R Q k : ℕ) : EReal :=
  ∑ kb ∈ Finset.range (k + 1), blockTerm1 A B R Q kb

theorem partialSum1_zero (A B : ℕ → ℕ → EReal) (R Q : ℕ) : partialSum1 A B R Q 0 = blockTerm1 A B R Q 0 := by
  unfold partialSum1; exact Finset.sum_range_one _

theorem partialSum1_succ (A B : ℕ → ℕ → EReal) (R Q k : ℕ) :
    partialSum1 A B R Q (k + 1) = partialSum1 A B R Q k + blockTerm1 A B R Q (k + 1) := by
  unfold partialSum1; exact Finset.sum_range_succ _ _

/-- All ten blocks are the whole contraction. -/
theorem partialSum1_all (A B : ℕ → ℕ → EReal) (R Q : ℕ) :
    partialSum1 A B R Q 9 = ∑ k : Fin 10240, A k.val R * B k.val Q := by
  unfold partialSum1 blockTerm1
  rw [Finset.sum_range (fun kb => ∑ kk : Fin 1024, A (kb * 1024 + kk.val) R * B (kb * 1024 + kk.val) Q)]
  have h := Equiv.sum_comp (finProdFinEquiv (m := 10) (n := 1024)) (fun k : Fin (10 * 1024) => A k.val R * B k.val Q)
  rw [Fintype.sum_prod_type] at h
  refine Eq.trans ?_ h
  refine Finset.sum_congr rfl fun kb _ => Finset.sum_congr rfl fun kk _ => ?_
  have e : ((finProdFinEquiv (kb, kk) : Fin (10 * 1024)) : ℕ) = kb.val * 1024 + kk.val := by
    show kk.val + 1024 * kb.val = _; omega
  rw [e]

/-! ## The accumulation over the arrays the region finds -/

section Value
variable (V : (c : Dev nD) → (b : Ref sig .tc) → Buf (Elt Ideal) ((c : Thread nD τ).loc b))

/-- The two operand arrays as the region finds them, and the input blocks at a point. -/
abbrev arrA1 (c : Dev nD) : Vec Ideal S10240x10240 .f32 := V c (Pipeline.arrRef spec1 0)
abbrev arrB1 (c : Dev nD) : Vec Ideal S10240x512 .f32 := V c (Pipeline.arrRef spec1 1)
abbrev xblk1 (c : Dev nD) (t : Fin cfg1.N) : Vec Ideal S1024x1024 .f32 := iblk1 V c 0 t
abbrev yblk1 (c : Dev nD) (t : Fin cfg1.N) : Vec Ideal S1024x256 .f32 := iblk1 V c 1 t

/-- The printed index maps in closed form, decided over the grid: point t is (i, j, k) = (t / 20, t / 10 % 2, t % 10);
    the lhs block is (k, i), the rhs block (k, j), the output block (i, j). -/
theorem idx_facts1 : ∀ t : Fin cfg1.N, win1_0.index t (0 : Fin 2) = t.val % 10 ∧ win1_0.index t (1 : Fin 2) = t.val / 20
    ∧ win1_1.index t (0 : Fin 2) = t.val % 10 ∧ win1_1.index t (1 : Fin 2) = t.val / 10 % 2
    ∧ win1_2.index t (0 : Fin 2) = t.val / 20 ∧ win1_2.index t (1 : Fin 2) = t.val / 10 % 2 :=
  (by decide +kernel : ∀ t : Fin grid1.N, _)

/-- Where a block's entry sits in its array: block index × block extent + the coordinate inside the block. -/
theorem embA1_0 (t : Fin cfg1.N) (kk r : Fin 1024) :
    ((((cfg1.win 0).blk t).view.emb (ix2 kk r)) 0).val = t.val % 10 * 1024 + kk.val := by
  obtain ⟨e0, -⟩ := idx_facts1 t
  show win1_0.index t (0 : Fin 2) * 1024 + 1 * kk.val = _
  rw [e0]; omega
theorem embA1_1 (t : Fin cfg1.N) (kk r : Fin 1024) :
    ((((cfg1.win 0).blk t).view.emb (ix2 kk r)) 1).val = t.val / 20 * 1024 + r.val := by
  obtain ⟨-, e1, -⟩ := idx_facts1 t
  show win1_0.index t (1 : Fin 2) * 1024 + 1 * r.val = _
  rw [e1]; omega
theorem embB1_0 (t : Fin cfg1.N) (kk : Fin 1024) (q : Fin 256) :
    ((((cfg1.win 1).blk t).view.emb (ix2 kk q)) 0).val = t.val % 10 * 1024 + kk.val := by
  obtain ⟨-, -, e0, -⟩ := idx_facts1 t
  show win1_1.index t (0 : Fin 2) * 1024 + 1 * kk.val = _
  rw [e0]; omega
theorem embB1_1 (t : Fin cfg1.N) (kk : Fin 1024) (q : Fin 256) :
    ((((cfg1.win 1).blk t).view.emb (ix2 kk q)) 1).val = t.val / 10 % 2 * 256 + q.val := by
  obtain ⟨-, -, -, e1, -⟩ := idx_facts1 t
  show win1_1.index t (1 : Fin 2) * 256 + 1 * q.val = _
  rw [e1]; omega
theorem embO1_0 (t : Fin cfg1.N) (r : Fin 1024) (q : Fin 256) :
    ((((cfg1.win 2).blk t).view.emb (ix2 r q)) 0).val = t.val / 20 * 1024 + r.val := by
  obtain ⟨-, -, -, -, e0, -⟩ := idx_facts1 t
  show win1_2.index t (0 : Fin 2) * 1024 + 1 * r.val = _
  rw [e0]; omega
theorem embO1_1 (t : Fin cfg1.N) (r : Fin 1024) (q : Fin 256) :
    ((((cfg1.win 2).blk t).view.emb (ix2 r q)) 1).val = t.val / 10 % 2 * 256 + q.val := by
  obtain ⟨-, -, -, -, -, e1⟩ := idx_facts1 t
  show win1_2.index t (1 : Fin 2) * 256 + 1 * q.val = _
  rw [e1]; omega

/-- A block is its array read through the block's embedding. -/
theorem xblk1_read (c : Dev nD) (t : Fin cfg1.N) (y : S1024x1024.Idx) :
    xblk1 V c t y = arrA1 V c (((cfg1.win 0).blk t).view.emb y) := rfl
theorem yblk1_read (c : Dev nD) (t : Fin cfg1.N) (y : S1024x256.Idx) :
    yblk1 V c t y = arrB1 V c (((cfg1.win 1).blk t).view.emb y) := rfl
theorem arrA1_at (c : Dev nD) (e : S10240x10240.Idx) :
    arrA1 V c e = cAt1 (n0 := 10240) (n1 := 10240) (arrA1 V c) (e 0).val (e 1).val :=
  cAt1_idx (n0 := 10240) (n1 := 10240) (arrA1 V c) e
theorem arrB1_at (c : Dev nD) (e : S10240x512.Idx) :
    arrB1 V c e = cAt1 (n0 := 10240) (n1 := 512) (arrB1 V c) (e 0).val (e 1).val :=
  cAt1_idx (n0 := 10240) (n1 := 512) (arrB1 V c) e

/-- The lhs block at a point reads the lhs array at rows k·1024 …, columns i·1024 …. -/
theorem xblk1_apply (c : Dev nD) (t : Fin cfg1.N) (kk r : Fin 1024) :
    xblk1 V c t (ix2 kk r) = cAt1 (n0 := 10240) (n1 := 10240) (arrA1 V c) (t.val % 10 * 1024 + kk.val) (t.val / 20 * 1024 + r.val) :=
  (xblk1_read V c t (ix2 kk r)).trans ((arrA1_at V c _).trans (by rw [embA1_0, embA1_1]))

/-- The rhs block at a point reads the rhs array at rows k·1024 …, columns j·(block width) …. -/
theorem yblk1_apply (c : Dev nD) (t : Fin cfg1.N) (kk : Fin 1024) (q : Fin 256) :
    yblk1 V c t (ix2 kk q) = cAt1 (n0 := 10240) (n1 := 512) (arrB1 V c) (t.val % 10 * 1024 + kk.val) (t.val / 10 % 2 * 256 + q.val) :=
  (yblk1_read V c t (ix2 kk q)).trans ((arrB1_at V c _).trans (by rw [embB1_0, embB1_1]))

/-- The product block at a point is block k of the contraction at the output block's coordinates. -/
theorem blk1_eq (c : Dev nD) (t : Fin cfg1.N) (r : Fin 1024) (q : Fin 256) :
    (∑ kk : Fin 1024, xblk1 V c t (ix2 kk r) * yblk1 V c t (ix2 kk q))
      = blockTerm1 (cAt1 (n0 := 10240) (n1 := 10240) (arrA1 V c)) (cAt1 (n0 := 10240) (n1 := 512) (arrB1 V c)) (t.val / 20 * 1024 + r.val) (t.val / 10 % 2 * 256 + q.val) (t.val % 10) := by
  unfold blockTerm1
  exact Finset.sum_congr rfl fun kk _ => by rw [xblk1_apply, yblk1_apply]

/-- THE ACCUMULATOR after position n: blocks 0 … n % 10 of the contraction, at the output block's coordinates — by
    induction on the position. -/
theorem acc1_eq (c : Dev nD) (r : Fin 1024) (q : Fin 256) : ∀ (n : ℕ) (hn : n < cfg1.N),
    (outsAt1 V c n hn).2 (ix2 r q)
      = partialSum1 (cAt1 (n0 := 10240) (n1 := 10240) (arrA1 V c)) (cAt1 (n0 := 10240) (n1 := 512) (arrB1 V c)) (n / 20 * 1024 + r.val) (n / 10 % 2 * 256 + q.val) (n % 10)
  | 0, hn => by
    rw [outsAt1_A V c ⟨0, hn⟩ rfl (by show ¬0 % 10 = 9; decide)]
    dsimp only
    rw [sout1_A_eq, pay1_2_apply, pay1_1_apply, zero_add]
    exact (blk1_eq V c ⟨0, hn⟩ r q).trans (partialSum1_zero _ _ _ _).symm
  | n + 1, hn => by
    by_cases h0 : (n + 1) % 10 = 0
    · have h1 : ¬(n + 1) % 10 = 9 := by omega
      rw [outsAt1_A V c ⟨n + 1, hn⟩ h0 h1]
      dsimp only
      rw [sout1_A_eq, pay1_2_apply, pay1_1_apply, zero_add]
      refine (blk1_eq V c ⟨n + 1, hn⟩ r q).trans ?_
      show blockTerm1 _ _ ((n + 1) / 20 * 1024 + r.val) ((n + 1) / 10 % 2 * 256 + q.val) ((n + 1) % 10) = partialSum1 _ _ _ _ ((n + 1) % 10)
      rw [h0]; exact (partialSum1_zero _ _ _ _).symm
    · have ea : (n + 1) / 20 = n / 20 := by omega
      have eb : (n + 1) / 10 % 2 = n / 10 % 2 := by omega
      have ek : (n + 1) % 10 = n % 10 + 1 := by omega
      have ih := acc1_eq c r q n (Nat.lt_of_succ_lt hn)
      by_cases h1 : (n + 1) % 10 = 9
      · rw [outsAt1_C V c ⟨n + 1, hn⟩ h0 h1]
        dsimp only
        rw [sout1_C_eq, pay1_2_apply]
        show (outsAt1 V c n _).2 (ix2 r q) + _ = _
        rw [ih, blk1_eq V c ⟨n + 1, hn⟩ r q]
        show _ + blockTerm1 _ _ ((n + 1) / 20 * 1024 + r.val) ((n + 1) / 10 % 2 * 256 + q.val) ((n + 1) % 10) = _
        rw [ea, eb, ek, partialSum1_succ]
      · rw [outsAt1_B V c ⟨n + 1, hn⟩ h0 h1]
        dsimp only
        rw [sout1_B_eq, pay1_2_apply]
        show (outsAt1 V c n _).2 (ix2 r q) + _ = _
        rw [ih, blk1_eq V c ⟨n + 1, hn⟩ r q]
        show _ + blockTerm1 _ _ ((n + 1) / 20 * 1024 + r.val) ((n + 1) / 10 % 2 * 256 + q.val) ((n + 1) % 10) = _
        rw [ea, eb, ek, partialSum1_succ]

/-- At a point with k = 9 the output's buffer is left holding the accumulator. -/
theorem out1_eq_acc (c : Dev nD) (t : Fin cfg1.N) (h1 : t.val % 10 = 9) :
    (outsAt1 V c t.val t.isLt).1 = (outsAt1 V c t.val t.isLt).2 := by
  have h0 : ¬t.val % 10 = 0 := by omega
  rw [outsAt1_C V c t h0 h1]
  dsimp only
  rw [out1_C_eq, sout1_C_eq]

/-! ## The output array after the region -/

/-- The transposed-lhs product of the two arrays, index by index: the whole contracted axis 0 of both summed. -/
def G1 (a : Vec Ideal S10240x10240 .f32) (b : Vec Ideal S10240x512 .f32) : Vec Ideal S10240x512 .f32 :=
  fun y => ∑ k : Fin 10240, a (ix2 k (y 0)) * b (ix2 k (y 1))

theorem G1_apply (a : Vec Ideal S10240x10240 .f32) (b : Vec Ideal S10240x512 .f32) (r : Fin 10240) (q : Fin 512) :
    G1 a b (ix2 r q) = ∑ k : Fin 10240, a (ix2 k r) * b (ix2 k q) := rfl

/-- What a point with k = 9 writes back is its block of the product. -/
theorem flushed1_2 (c : Dev nD) (t : Fin cfg1.N) (hf : (cfg1.win 2).flush t = true) :
    (dat1 (F := Ideal) V c).flushed 2 t = ((cfg1.win 2).blk t).view.read (Elt Ideal) (G1 (arrA1 V c) (arrB1 V c)) := by
  have h1 : t.val % 10 = 9 := (flush1_2 t).mp hf
  show (cfg1.win 2).cut (grid1.coords t) ((dat1 V c).after 2 t) = _
  rw [after1_2, out1_eq_acc V c t h1]
  funext j
  obtain ⟨r, q, rfl⟩ : ∃ (r : Fin 1024) (q : Fin 256), j = ix2 r q := ⟨j 0, j 1, eq_ix2 j⟩
  show (outsAt1 V c t.val t.isLt).2 (ix2 r q) = G1 (arrA1 V c) (arrB1 V c) (((cfg1.win 2).blk t).view.emb (ix2 r q))
  rw [acc1_eq V c r q t.val t.isLt, h1, partialSum1_all]
  unfold G1
  refine Finset.sum_congr rfl fun k _ => ?_
  rw [← embO1_0 t r q, ← embO1_1 t r q]
  exact congrArg₂ (· * ·) (cAt1_eq (n0 := 10240) (n1 := 10240) (arrA1 V c) k _) (cAt1_eq (n0 := 10240) (n1 := 512) (arrB1 V c) k _)

/-- An index of the output array is in point t's block iff each coordinate is in the block's range on its axis. -/
theorem mem_blk1_2 (t : Fin cfg1.N) (i : S10240x512.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v39).slice (win1_2.rect t)).set ↔ _
  rw [View.set_slice_whole, Rect.mem_set_unit]
  exact Iff.rfl

/-- THE OUTPUT ARRAY after the region: the product of the two operand arrays as the region finds them (the
    output blocks, each written back at its last contraction point, cover the array). -/
theorem arrAt1_2 (c : Dev nD) :
    (dat1 (F := Ideal) V c).arrAt 2 cfg1.N = G1 (V c (Pipeline.arrRef spec1 0)) (V c (Pipeline.arrRef spec1 1)) :=
  (dat1 V c).arrAt_eq_of_cover 2 (G1 (arrA1 V c) (arrB1 V c)) (flushed1_2 V c) fun i => by
    have hi0 : (i 0).val < 10240 := (i 0).isLt
    have hi1 : (i 1).val < 512 := (i 1).isLt
    have ht : (i 0).val / 1024 * 20 + (i 1).val / 256 * 10 + 9 < cfg1.N := by rw [show cfg1.N = 200 from N_1]; omega
    obtain ⟨-, -, -, -, e0, e1⟩ := idx_facts1 ⟨_, ht⟩
    refine ⟨⟨_, ht⟩, (flush1_2 _).mpr (by show ((i 0).val / 1024 * 20 + (i 1).val / 256 * 10 + 9) % 10 = 9; omega), ?_⟩
    rw [mem_blk1_2]
    intro a
    match a with
    | ⟨0, _⟩ =>
      show win1_2.index _ (0 : Fin 2) * 1024 ≤ (i 0).val ∧ (i 0).val < win1_2.index _ (0 : Fin 2) * 1024 + 1024
      rw [e0]; dsimp only; omega
    | ⟨1, _⟩ =>
      show win1_2.index _ (1 : Fin 2) * 256 ≤ (i 1).val ∧ (i 1).val < win1_2.index _ (1 : Fin 2) * 256 + 256
      rw [e1]; dsimp only; omega

end Value

end Cert.KernelIdeal.HandVal

end
-- ==== Proof.PreFacts.lean ====
/-
  THE PRECONDITION READ BACK. The predicate is the conjunction, over the fourteen float arguments, of "every entry x has
  |x| < +∞" and, for the edge-index table, of "every word is ≥ 0" and "every word is < 10000" (signed). Each conjunct is an
  and-reduction of an elementwise comparison down to one bit. That the whole predicate is 1 therefore says, entry by entry:
  each float entry is a real number (on the extended reals |x| = max x (-x) is below ⊤ only at a real; both infinities,
  and the junk value ⊥, have |x| = ⊤), and each edge index, read as a signed word, lies in [0, 10000).
-/
import proofs.«405323_j90718299226206_3_alg».proof.Pre_finite_inputs
import proofs.«405323_j90718299226206_3_alg».proof.Proof.Gen.Pre_finite_inputs
import Idealize.ShloMosaic.Lib.StableHlo.Predicate
import Idealize.ShloMosaic.Lib.ReduceAll
import Idealize.ShloMosaic.Lib.ValueIdx
import Idealize.ShloMosaic.PureOps.Ideal

noncomputable section

namespace Cert.PreFacts

open Idealize.ShloMosaic Cert.Pre_finite_inputs

/-- The scalar shape has one index. -/
instance : Subsingleton S_.Idx := ⟨fun a b => funext fun d => d.elim0⟩

/-- The pattern 0x7F800000 denotes +∞. -/
theorem inf_bits : Ideal.ofBits .f32 0x7F800000#32 = (⊤ : EReal) := by simp [Ideal.ofBits, Ideal.ieee]

/-- On the extended reals, max x (-x) < ⊤ only at a real: at ⊤ the maximum is ⊤, and at ⊥ it is -⊥ = ⊤. -/
theorem real_of_abs_lt_top (x : EReal) (h : max x (-x) < ⊤) : ∃ r : ℝ, x = (r : EReal) := by
  induction x using EReal.rec with
  | bot => simp at h
  | top => simp at h
  | coe r => exact ⟨r, rfl⟩

/-- One entry's comparison |x| < +∞ holding says the entry is a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [inf_bits, StableHlo.Predicate.ofBool_eq_one_iff, decide_eq_true_eq] at h'
  exact real_of_abs_lt_top x h'

/-- A float argument's conjunct: the and-reduction of |x| < +∞ over the whole array is 1, so every entry is a real. -/
theorem finite_of_all {s : Shape} {axes : List (Fin s.rank)} (x : FVec Ideal s .f32)
    (hb : S_.BroadcastsInDim s (![] : Fin 0 → Fin s.rank)) (hr : s.ReducesTo axes S_) (h0 : 0 < S_.numel) (init : IVec S_ 1)
    (e : Host.reduce IntOp.andi (cmpf .olt (Host.absf x) (broadcastInDim s ![] hb (constant S_ .f32 0x7F800000#32))) init hr h0
      ValueIdx.ix0 = 1#1) :
    ∀ i, ∃ r : ℝ, x i = (r : EReal) :=
  fun i => real_of_cmp (x i) (Host.reduce_andi_all _ init hr h0 _ e i)

/-- The lower bound's conjunct: every word is ≥ 0 signed. -/
theorem ge_of_all {s : Shape} {axes : List (Fin s.rank)} (x : IVec s 32)
    (hb : S_.BroadcastsInDim s (![] : Fin 0 → Fin s.rank)) (hr : s.ReducesTo axes S_) (h0 : 0 < S_.numel) (init : IVec S_ 1)
    (e : Host.reduce IntOp.andi (cmpi .sge x (broadcastInDim s ![] hb (constantI S_ 32 0#32))) init hr h0 ValueIdx.ix0 = 1#1)
    (i : s.Idx) : 0 ≤ (x i).toInt := by
  have h1 : IntOp.cmpi .sge (x i) 0#32 = 1#1 := Host.reduce_andi_all _ init hr h0 _ e i
  have h2 := IntOp.cmpi_sge.1 h1
  have h3 : (0#32 : BitVec 32).toInt = 0 := by decide
  omega

/-- The upper bound's conjunct: every word is < 10000 signed. -/
theorem lt_of_all {s : Shape} {axes : List (Fin s.rank)} (x : IVec s 32)
    (hb : S_.BroadcastsInDim s (![] : Fin 0 → Fin s.rank)) (hr : s.ReducesTo axes S_) (h0 : 0 < S_.numel) (init : IVec S_ 1)
    (e : Host.reduce IntOp.andi (cmpi .slt x (broadcastInDim s ![] hb (constantI S_ 32 10000#32))) init hr h0 ValueIdx.ix0 = 1#1)
    (i : s.Idx) : (x i).toInt < 10000 := by
  have h1 : IntOp.cmpi .slt (x i) 10000#32 = 1#1 := Host.reduce_andi_all _ init hr h0 _ e i
  have h2 := IntOp.cmpi_slt.1 h1
  have h3 : (10000#32 : BitVec 32).toInt = 10000 := by decide
  omega

variable [Cert.Pre_finite_inputs.Facts]

/-- The whole predicate split into its sixteen conjuncts, each read back. -/
theorem decode (a0 : FVec Ideal S10000x512 .f32) (a1 : IVec S2x320000 32) (a2 : FVec Ideal S320000 .f32) (a3 : FVec Ideal S512x512 .f32) (a4 : FVec Ideal S512 .f32) (a5 : FVec Ideal S512x1024 .f32) (a6 : FVec Ideal S1024 .f32) (a7 : FVec Ideal S512x512 .f32) (a8 : FVec Ideal S512 .f32) (a9 : FVec Ideal S512x128 .f32) (a10 : FVec Ideal S128 .f32) (a11 : FVec Ideal S512x512 .f32) (a12 : FVec Ideal S512 .f32) (a13 : FVec Ideal S512x1 .f32) (a14 : FVec Ideal S1 .f32)
    (h : Cert.Pre_finite_inputs.fn (F := Ideal) a0 a1 a2 a3 a4 a5 a6 a7 a8 a9 a10 a11 a12 a13 a14 = fun _ => 1#1) :
    ((∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) ∧ (∀ i, ∃ r : ℝ, a12 i = (r : EReal)) ∧ (∀ i, ∃ r : ℝ, a13 i = (r : EReal)) ∧ (∀ i, ∃ r : ℝ, a14 i = (r : EReal)))
      ∧ ∀ i : S2x320000.Idx, 0 ≤ (a1 i).toInt ∧ (a1 i).toInt < 10000 := by
  have e := congrFun h ValueIdx.ix0
  simp only [fn, fn_part1, fn_part2, fn_part3, fn_part4, andi, IntOp.andi_eq_one] at e
  obtain ⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, hge⟩, hlt⟩ := e
  exact ⟨⟨finite_of_all a0 _ _ _ _ h0,
    finite_of_all a2 _ _ _ _ h2,
    finite_of_all a3 _ _ _ _ h3,
    finite_of_all a4 _ _ _ _ h4,
    finite_of_all a5 _ _ _ _ h5,
    finite_of_all a6 _ _ _ _ h6,
    finite_of_all a7 _ _ _ _ h7,
    finite_of_all a8 _ _ _ _ h8,
    finite_of_all a9 _ _ _ _ h9,
    finite_of_all a10 _ _ _ _ h10,
    finite_of_all a11 _ _ _ _ h11,
    finite_of_all a12 _ _ _ _ h12,
    finite_of_all a13 _ _ _ _ h13,
    finite_of_all a14 _ _ _ _ h14⟩,
    fun i => ⟨ge_of_all a1 _ _ _ _ hge i, lt_of_all a1 _ _ _ _ hlt i⟩⟩

/-- Every float argument is, entry by entry, a real number. -/
theorem finite_of_pre (a0 : FVec Ideal S10000x512 .f32) (a1 : IVec S2x320000 32) (a2 : FVec Ideal S320000 .f32) (a3 : FVec Ideal S512x512 .f32) (a4 : FVec Ideal S512 .f32) (a5 : FVec Ideal S512x1024 .f32) (a6 : FVec Ideal S1024 .f32) (a7 : FVec Ideal S512x512 .f32) (a8 : FVec Ideal S512 .f32) (a9 : FVec Ideal S512x128 .f32) (a10 : FVec Ideal S128 .f32) (a11 : FVec Ideal S512x512 .f32) (a12 : FVec Ideal S512 .f32) (a13 : FVec Ideal S512x1 .f32) (a14 : FVec Ideal S1 .f32)
    (h : Cert.Pre_finite_inputs.fn (F := Ideal) a0 a1 a2 a3 a4 a5 a6 a7 a8 a9 a10 a11 a12 a13 a14 = fun _ => 1#1) :
    (∀ i, ∃ r : ℝ, a0 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal)) ∧ (∀ i, ∃ r : ℝ, a10 i = (r : EReal)) ∧ (∀ i, ∃ r : ℝ, a11 i = (r : EReal)) ∧ (∀ i, ∃ r : ℝ, a12 i = (r : EReal)) ∧ (∀ i, ∃ r : ℝ, a13 i = (r : EReal)) ∧ (∀ i, ∃ r : ℝ, a14 i = (r : EReal)) :=
  (decode a0 a1 a2 a3 a4 a5 a6 a7 a8 a9 a10 a11 a12 a13 a14 h).1

/-- Every edge index, read as a signed word, lies in [0, 10000). -/
theorem index_range_of_pre (a0 : FVec Ideal S10000x512 .f32) (a1 : IVec S2x320000 32) (a2 : FVec Ideal S320000 .f32) (a3 : FVec Ideal S512x512 .f32) (a4 : FVec Ideal S512 .f32) (a5 : FVec Ideal S512x1024 .f32) (a6 : FVec Ideal S1024 .f32) (a7 : FVec Ideal S512x512 .f32) (a8 : FVec Ideal S512 .f32) (a9 : FVec Ideal S512x128 .f32) (a10 : FVec Ideal S128 .f32) (a11 : FVec Ideal S512x512 .f32) (a12 : FVec Ideal S512 .f32) (a13 : FVec Ideal S512x1 .f32) (a14 : FVec Ideal S1 .f32)
    (h : Cert.Pre_finite_inputs.fn (F := Ideal) a0 a1 a2 a3 a4 a5 a6 a7 a8 a9 a10 a11 a12 a13 a14 = fun _ => 1#1) :
    ∀ i : S2x320000.Idx, 0 ≤ (a1 i).toInt ∧ (a1 i).toInt < 10000 :=
  (decode a0 a1 a2 a3 a4 a5 a6 a7 a8 a9 a10 a11 a12 a13 a14 h).2

end Cert.PreFacts

end
-- ==== Proof.Bridge.CP1e.lean ====
/-
  The first checkpoint across the two runs: the kernel's x1 buffer against the reference's, and the
  kernel's padded adjacency against the reference's. Each side's buffer is first read as the pure term
  of the arguments (and, on the kernel side, of the two region outputs it is computed from) that the
  host operations compose; the region outputs are read through the regions' value theorems; the pure
  terms are then equal by the law of the layer.
-/
import proofs.«405323_j90718299226206_3_alg».proof.Proof.Bridge.B0
import proofs.«405323_j90718299226206_3_alg».proof.Proof.Math.X1
import proofs.«405323_j90718299226206_3_alg».proof.Proof.KI.R0Val
import proofs.«405323_j90718299226206_3_alg».proof.Proof.KI.R1Val
import proofs.«405323_j90718299226206_3_alg».proof.Proof.PreFacts

set_option maxRecDepth 16384

noncomputable section

open scoped BigOperators

namespace Cert.Bridge

open Idealize.ShloMosaic Idealize.ShloMosaic.TcCoe Idealize.SL.Sem Idealize.ShloMosaic.ValueIdx
open Cert.X1 Cert.Math

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The kernel's buffers as pure terms -/

theorem kv_pairs : KV m c Cert.KernelIdeal.main_v17 = Kpairs (KV m c Cert.KernelIdeal.main_arg1) := by
  have h_v17 := Cert.KernelIdeal.Hand.kd_main_v17 (F := Ideal) m c
  have h_v15 := Cert.KernelIdeal.Hand.kd_main_v15 (F := Ideal) m c
  have h_v16 := Cert.KernelIdeal.Hand.kd_main_v16 (F := Ideal) m c
  have h_v9 := Cert.KernelIdeal.Hand.kd_main_v9 (F := Ideal) m c
  have h_v14 := Cert.KernelIdeal.Hand.kd_main_v14 (F := Ideal) m c
  have h_v6 := Cert.KernelIdeal.Hand.kd_main_v6 (F := Ideal) m c
  have h_v8 := Cert.KernelIdeal.Hand.kd_main_v8 (F := Ideal) m c
  have h_v11 := Cert.KernelIdeal.Hand.kd_main_v11 (F := Ideal) m c
  have h_v13 := Cert.KernelIdeal.Hand.kd_main_v13 (F := Ideal) m c
  have h_v5 := Cert.KernelIdeal.Hand.kd_main_v5 (F := Ideal) m c
  have h_v7 := Cert.KernelIdeal.Hand.kd_main_v7 (F := Ideal) m c
  have h_v10 := Cert.KernelIdeal.Hand.kd_main_v10 (F := Ideal) m c
  have h_v12 := Cert.KernelIdeal.Hand.kd_main_v12 (F := Ideal) m c
  have h_c := Cert.KernelIdeal.Hand.kd_main_c (F := Ideal) m c
  have h_c_0 := Cert.KernelIdeal.Hand.kd_main_c_0 (F := Ideal) m c
  have h_c_1 := Cert.KernelIdeal.Hand.kd_main_c_1 (F := Ideal) m c
  have h_c_2 := Cert.KernelIdeal.Hand.kd_main_c_2 (F := Ideal) m c
  have h_v2 := Cert.KernelIdeal.Hand.kd_main_v2 (F := Ideal) m c
  have h_v4 := Cert.KernelIdeal.Hand.kd_main_v4 (F := Ideal) m c
  have h_v1 := Cert.KernelIdeal.Hand.kd_main_v1 (F := Ideal) m c
  have h_v3 := Cert.KernelIdeal.Hand.kd_main_v3 (F := Ideal) m c
  generalize Cert.KernelIdeal.Hand.W63 (F := Ideal) m c = V at *
  rw [h_v17, h_v15, h_v16, h_v9, h_v14, h_v6, h_v8, h_v11, h_v13, h_v5, h_v7, h_v10, h_v12, h_c, h_c_0, h_c_1, h_c_2, h_v2, h_v4, h_v1, h_v3]
  rfl

theorem kv_adj0 : KV m c Cert.KernelIdeal.main_v18 = Kadj0 (KV m c Cert.KernelIdeal.main_arg1) (KV m c Cert.KernelIdeal.main_arg2) := by
  have hp := kv_pairs m c
  have h_v18 := Cert.KernelIdeal.Hand.kd_main_v18 (F := Ideal) m c
  have h_v0 := Cert.KernelIdeal.Hand.kd_main_v0 (F := Ideal) m c
  have h_cst := Cert.KernelIdeal.Hand.kd_main_cst (F := Ideal) m c
  generalize Cert.KernelIdeal.Hand.W63 (F := Ideal) m c = V at *
  rw [h_v18, h_v0, h_cst, hp]
  rfl

theorem kv_dis : KV m c Cert.KernelIdeal.main_v34 = Kdis (KV m c Cert.KernelIdeal.main_arg1) (KV m c Cert.KernelIdeal.main_arg2) := by
  have h_v34 := Cert.KernelIdeal.Hand.kd_main_v34 (F := Ideal) m c
  have h_v32 := Cert.KernelIdeal.Hand.kd_main_v32 (F := Ideal) m c
  have h_v33 := Cert.KernelIdeal.Hand.kd_main_v33 (F := Ideal) m c
  have h_call0_v1 := Cert.KernelIdeal.Hand.kd_main_call0_v1 (F := Ideal) m c
  have h_call0_v0 := Cert.KernelIdeal.Hand.kd_main_call0_v0 (F := Ideal) m c
  have h_cst_7 := Cert.KernelIdeal.Hand.kd_main_cst_7 (F := Ideal) m c
  have h_v31 := Cert.KernelIdeal.Hand.kd_main_v31 (F := Ideal) m c
  have h_cst_6 := Cert.KernelIdeal.Hand.kd_main_cst_6 (F := Ideal) m c
  have h_v30 := Cert.KernelIdeal.Hand.kd_main_v30 (F := Ideal) m c
  have h_v28 := Cert.KernelIdeal.Hand.kd_main_v28 (F := Ideal) m c
  have h_cst_5 := Cert.KernelIdeal.Hand.kd_main_cst_5 (F := Ideal) m c
  have h_v29 := Cert.KernelIdeal.Hand.kd_main_v29 (F := Ideal) m c
  have h_v25 := Cert.KernelIdeal.Hand.kd_main_v25 (F := Ideal) m c
  have h_v24 := Cert.KernelIdeal.Hand.kd_main_v24 (F := Ideal) m c
  have h_v23 := Cert.KernelIdeal.Hand.kd_main_v23 (F := Ideal) m c
  have h_v22 := Cert.KernelIdeal.Hand.kd_main_v22 (F := Ideal) m c
  have h_v27 := Cert.KernelIdeal.Hand.kd_main_v27 (F := Ideal) m c
  have h_v26 := Cert.KernelIdeal.Hand.kd_main_v26 (F := Ideal) m c
  have h_cst_4 := Cert.KernelIdeal.Hand.kd_main_cst_4 (F := Ideal) m c
  generalize Cert.KernelIdeal.Hand.W63 (F := Ideal) m c = V at *
  rw [h_v34, h_v32, h_v33, h_call0_v1, h_call0_v0, h_cst_7, h_v31, h_cst_6, h_v30, h_v28, h_cst_5, h_v29, h_v25, h_v24, h_v23, h_v22, h_v27, h_v26, h_cst_4]
  rfl

theorem kv_dish1pad : KV m c Cert.KernelIdeal.main_v38
    = Kdish1pad (KV m c Cert.KernelIdeal.main_arg1) (KV m c Cert.KernelIdeal.main_arg2) (KV m c Cert.KernelIdeal.main_v21) := by
  have hd := kv_dis m c
  have h_v38 := Cert.KernelIdeal.Hand.kd_main_v38 (F := Ideal) m c
  have h_v37 := Cert.KernelIdeal.Hand.kd_main_v37 (F := Ideal) m c
  have h_v36 := Cert.KernelIdeal.Hand.kd_main_v36 (F := Ideal) m c
  have h_v35 := Cert.KernelIdeal.Hand.kd_main_v35 (F := Ideal) m c
  have h_call1_v0 := Cert.KernelIdeal.Hand.kd_main_call1_v0 (F := Ideal) m c
  have h_c_8 := Cert.KernelIdeal.Hand.kd_main_c_8 (F := Ideal) m c
  generalize Cert.KernelIdeal.Hand.W63 (F := Ideal) m c = V at *
  rw [h_v38, h_v37, h_v36, h_v35, h_call1_v0, h_c_8, hd]
  rfl

theorem kv_x1 : KV m c Cert.KernelIdeal.main_v52
    = Kx1 (KV m c Cert.KernelIdeal.main_arg1) (KV m c Cert.KernelIdeal.main_arg2) (KV m c Cert.KernelIdeal.main_arg4) (KV m c Cert.KernelIdeal.main_v21)
        (KV m c Cert.KernelIdeal.main_v39) := by
  have hd := kv_dis m c
  have h_v52 := Cert.KernelIdeal.Hand.kd_main_v52 (F := Ideal) m c
  have h_call2_v0 := Cert.KernelIdeal.Hand.kd_main_call2_v0 (F := Ideal) m c
  have h_call2_cst := Cert.KernelIdeal.Hand.kd_main_call2_cst (F := Ideal) m c
  have h_v51 := Cert.KernelIdeal.Hand.kd_main_v51 (F := Ideal) m c
  have h_v50 := Cert.KernelIdeal.Hand.kd_main_v50 (F := Ideal) m c
  have h_v49 := Cert.KernelIdeal.Hand.kd_main_v49 (F := Ideal) m c
  have h_v48 := Cert.KernelIdeal.Hand.kd_main_v48 (F := Ideal) m c
  have h_v43 := Cert.KernelIdeal.Hand.kd_main_v43 (F := Ideal) m c
  have h_v42 := Cert.KernelIdeal.Hand.kd_main_v42 (F := Ideal) m c
  have h_v40 := Cert.KernelIdeal.Hand.kd_main_v40 (F := Ideal) m c
  have h_v41 := Cert.KernelIdeal.Hand.kd_main_v41 (F := Ideal) m c
  have h_v47 := Cert.KernelIdeal.Hand.kd_main_v47 (F := Ideal) m c
  have h_v46 := Cert.KernelIdeal.Hand.kd_main_v46 (F := Ideal) m c
  have h_v45 := Cert.KernelIdeal.Hand.kd_main_v45 (F := Ideal) m c
  have h_v44 := Cert.KernelIdeal.Hand.kd_main_v44 (F := Ideal) m c
  generalize Cert.KernelIdeal.Hand.W63 (F := Ideal) m c = V at *
  rw [h_v52, h_call2_v0, h_call2_cst, h_v51, h_v50, h_v49, h_v48, h_v43, h_v42, h_v40, h_v41, h_v47, h_v46, h_v45, h_v44, hd]
  rfl

/-! ## The reference's buffers as pure terms -/

theorem rv_pairs : RV m' c Cert.ReferenceIdeal.main_v17 = Rpairs (RV m' c Cert.ReferenceIdeal.main_arg1) := by
  have h_v17 := Cert.ReferenceIdeal.HandRun.rd_main_v17 (F := Ideal) m' c
  have h_v15 := Cert.ReferenceIdeal.HandRun.rd_main_v15 (F := Ideal) m' c
  have h_v16 := Cert.ReferenceIdeal.HandRun.rd_main_v16 (F := Ideal) m' c
  have h_v9 := Cert.ReferenceIdeal.HandRun.rd_main_v9 (F := Ideal) m' c
  have h_v14 := Cert.ReferenceIdeal.HandRun.rd_main_v14 (F := Ideal) m' c
  have h_v6 := Cert.ReferenceIdeal.HandRun.rd_main_v6 (F := Ideal) m' c
  have h_v8 := Cert.ReferenceIdeal.HandRun.rd_main_v8 (F := Ideal) m' c
  have h_v11 := Cert.ReferenceIdeal.HandRun.rd_main_v11 (F := Ideal) m' c
  have h_v13 := Cert.ReferenceIdeal.HandRun.rd_main_v13 (F := Ideal) m' c
  have h_v5 := Cert.ReferenceIdeal.HandRun.rd_main_v5 (F := Ideal) m' c
  have h_v7 := Cert.ReferenceIdeal.HandRun.rd_main_v7 (F := Ideal) m' c
  have h_v10 := Cert.ReferenceIdeal.HandRun.rd_main_v10 (F := Ideal) m' c
  have h_v12 := Cert.ReferenceIdeal.HandRun.rd_main_v12 (F := Ideal) m' c
  have h_c := Cert.ReferenceIdeal.HandRun.rd_main_c (F := Ideal) m' c
  have h_c_0 := Cert.ReferenceIdeal.HandRun.rd_main_c_0 (F := Ideal) m' c
  have h_c_1 := Cert.ReferenceIdeal.HandRun.rd_main_c_1 (F := Ideal) m' c
  have h_c_2 := Cert.ReferenceIdeal.HandRun.rd_main_c_2 (F := Ideal) m' c
  have h_v2 := Cert.ReferenceIdeal.HandRun.rd_main_v2 (F := Ideal) m' c
  have h_v4 := Cert.ReferenceIdeal.HandRun.rd_main_v4 (F := Ideal) m' c
  have h_v1 := Cert.ReferenceIdeal.HandRun.rd_main_v1 (F := Ideal) m' c
  have h_v3 := Cert.ReferenceIdeal.HandRun.rd_main_v3 (F := Ideal) m' c
  dsimp only [Cert.ReferenceIdeal.HandRun.RV] at *
  generalize StableHlo.after (Cert.ReferenceIdeal.HandRun.ops (F := Ideal)) (fun b => m' (c, b)) = V' at *
  rw [h_v17, h_v15, h_v16, h_v9, h_v14, h_v6, h_v8, h_v11, h_v13, h_v5, h_v7, h_v10, h_v12, h_c, h_c_0, h_c_1, h_c_2, h_v2, h_v4, h_v1, h_v3]
  rfl

theorem rv_adj0 : RV m' c Cert.ReferenceIdeal.main_v18 = Radj0 (RV m' c Cert.ReferenceIdeal.main_arg1) (RV m' c Cert.ReferenceIdeal.main_arg2) := by
  have hp := rv_pairs m' c
  have h_v18 := Cert.ReferenceIdeal.HandRun.rd_main_v18 (F := Ideal) m' c
  have h_v0 := Cert.ReferenceIdeal.HandRun.rd_main_v0 (F := Ideal) m' c
  have h_cst := Cert.ReferenceIdeal.HandRun.rd_main_cst (F := Ideal) m' c
  dsimp only [Cert.ReferenceIdeal.HandRun.RV] at *
  generalize StableHlo.after (Cert.ReferenceIdeal.HandRun.ops (F := Ideal)) (fun b => m' (c, b)) = V' at *
  rw [h_v18, h_v0, h_cst, hp]
  rfl

theorem rv_row330 : RV m' c Cert.ReferenceIdeal.main_v22 = Rrow330 (RV m' c Cert.ReferenceIdeal.main_arg1) := by
  have h_v22 := Cert.ReferenceIdeal.HandRun.rd_main_v22 (F := Ideal) m' c
  have h_v21 := Cert.ReferenceIdeal.HandRun.rd_main_v21 (F := Ideal) m' c
  have h_v20 := Cert.ReferenceIdeal.HandRun.rd_main_v20 (F := Ideal) m' c
  have h_v19 := Cert.ReferenceIdeal.HandRun.rd_main_v19 (F := Ideal) m' c
  dsimp only [Cert.ReferenceIdeal.HandRun.RV] at *
  generalize StableHlo.after (Cert.ReferenceIdeal.HandRun.ops (F := Ideal)) (fun b => m' (c, b)) = V' at *
  rw [h_v22, h_v21, h_v20, h_v19]
  rfl

theorem rv_col330 : RV m' c Cert.ReferenceIdeal.main_v25 = Rcol330 (RV m' c Cert.ReferenceIdeal.main_arg1) := by
  have h_v25 := Cert.ReferenceIdeal.HandRun.rd_main_v25 (F := Ideal) m' c
  have h_v24 := Cert.ReferenceIdeal.HandRun.rd_main_v24 (F := Ideal) m' c
  have h_v23 := Cert.ReferenceIdeal.HandRun.rd_main_v23 (F := Ideal) m' c
  have h_v19 := Cert.ReferenceIdeal.HandRun.rd_main_v19 (F := Ideal) m' c
  dsimp only [Cert.ReferenceIdeal.HandRun.RV] at *
  generalize StableHlo.after (Cert.ReferenceIdeal.HandRun.ops (F := Ideal)) (fun b => m' (c, b)) = V' at *
  rw [h_v25, h_v24, h_v23, h_v19]
  rfl

theorem rv_w330 : RV m' c Cert.ReferenceIdeal.main_v27 = Rw330 (RV m' c Cert.ReferenceIdeal.main_arg2) := by
  have h_v27 := Cert.ReferenceIdeal.HandRun.rd_main_v27 (F := Ideal) m' c
  have h_v26 := Cert.ReferenceIdeal.HandRun.rd_main_v26 (F := Ideal) m' c
  have h_cst_3 := Cert.ReferenceIdeal.HandRun.rd_main_cst_3 (F := Ideal) m' c
  dsimp only [Cert.ReferenceIdeal.HandRun.RV] at *
  generalize StableHlo.after (Cert.ReferenceIdeal.HandRun.ops (F := Ideal)) (fun b => m' (c, b)) = V' at *
  rw [h_v27, h_v26, h_cst_3]
  rfl

theorem rv_dis : RV m' c Cert.ReferenceIdeal.main_v34 = Rdis (RV m' c Cert.ReferenceIdeal.main_arg1) (RV m' c Cert.ReferenceIdeal.main_arg2) := by
  have hc := rv_col330 m' c
  have hw := rv_w330 m' c
  have h_v34 := Cert.ReferenceIdeal.HandRun.rd_main_v34 (F := Ideal) m' c
  have h_v32 := Cert.ReferenceIdeal.HandRun.rd_main_v32 (F := Ideal) m' c
  have h_v33 := Cert.ReferenceIdeal.HandRun.rd_main_v33 (F := Ideal) m' c
  have h_call0_v1 := Cert.ReferenceIdeal.HandRun.rd_main_call0_v1 (F := Ideal) m' c
  have h_call0_v0 := Cert.ReferenceIdeal.HandRun.rd_main_call0_v0 (F := Ideal) m' c
  have h_cst_6 := Cert.ReferenceIdeal.HandRun.rd_main_cst_6 (F := Ideal) m' c
  have h_v31 := Cert.ReferenceIdeal.HandRun.rd_main_v31 (F := Ideal) m' c
  have h_cst_5 := Cert.ReferenceIdeal.HandRun.rd_main_cst_5 (F := Ideal) m' c
  have h_v30 := Cert.ReferenceIdeal.HandRun.rd_main_v30 (F := Ideal) m' c
  have h_v28 := Cert.ReferenceIdeal.HandRun.rd_main_v28 (F := Ideal) m' c
  have h_cst_4 := Cert.ReferenceIdeal.HandRun.rd_main_cst_4 (F := Ideal) m' c
  have h_v29 := Cert.ReferenceIdeal.HandRun.rd_main_v29 (F := Ideal) m' c
  dsimp only [Cert.ReferenceIdeal.HandRun.RV] at *
  generalize StableHlo.after (Cert.ReferenceIdeal.HandRun.ops (F := Ideal)) (fun b => m' (c, b)) = V' at *
  rw [h_v34, h_v32, h_v33, h_call0_v1, h_call0_v0, h_cst_6, h_v31, h_cst_5, h_v30, h_v28, h_cst_4, h_v29, hc, hw]
  rfl

theorem rv_norm : RV m' c Cert.ReferenceIdeal.main_v50 = Rnorm (RV m' c Cert.ReferenceIdeal.main_arg1) (RV m' c Cert.ReferenceIdeal.main_arg2) := by
  have hr := rv_row330 m' c
  have hc := rv_col330 m' c
  have hw := rv_w330 m' c
  have hd := rv_dis m' c
  have h_v50 := Cert.ReferenceIdeal.HandRun.rd_main_v50 (F := Ideal) m' c
  have h_v42 := Cert.ReferenceIdeal.HandRun.rd_main_v42 (F := Ideal) m' c
  have h_v41 := Cert.ReferenceIdeal.HandRun.rd_main_v41 (F := Ideal) m' c
  have h_v40 := Cert.ReferenceIdeal.HandRun.rd_main_v40 (F := Ideal) m' c
  have h_v39 := Cert.ReferenceIdeal.HandRun.rd_main_v39 (F := Ideal) m' c
  have h_v36 := Cert.ReferenceIdeal.HandRun.rd_main_v36 (F := Ideal) m' c
  have h_v35 := Cert.ReferenceIdeal.HandRun.rd_main_v35 (F := Ideal) m' c
  have h_c_7 := Cert.ReferenceIdeal.HandRun.rd_main_c_7 (F := Ideal) m' c
  have h_v38 := Cert.ReferenceIdeal.HandRun.rd_main_v38 (F := Ideal) m' c
  have h_v37 := Cert.ReferenceIdeal.HandRun.rd_main_v37 (F := Ideal) m' c
  have h_c_8 := Cert.ReferenceIdeal.HandRun.rd_main_c_8 (F := Ideal) m' c
  have h_v49 := Cert.ReferenceIdeal.HandRun.rd_main_v49 (F := Ideal) m' c
  have h_v48 := Cert.ReferenceIdeal.HandRun.rd_main_v48 (F := Ideal) m' c
  have h_v47 := Cert.ReferenceIdeal.HandRun.rd_main_v47 (F := Ideal) m' c
  have h_v44 := Cert.ReferenceIdeal.HandRun.rd_main_v44 (F := Ideal) m' c
  have h_v43 := Cert.ReferenceIdeal.HandRun.rd_main_v43 (F := Ideal) m' c
  have h_c_9 := Cert.ReferenceIdeal.HandRun.rd_main_c_9 (F := Ideal) m' c
  have h_v46 := Cert.ReferenceIdeal.HandRun.rd_main_v46 (F := Ideal) m' c
  have h_v45 := Cert.ReferenceIdeal.HandRun.rd_main_v45 (F := Ideal) m' c
  have h_c_10 := Cert.ReferenceIdeal.HandRun.rd_main_c_10 (F := Ideal) m' c
  dsimp only [Cert.ReferenceIdeal.HandRun.RV] at *
  generalize StableHlo.after (Cert.ReferenceIdeal.HandRun.ops (F := Ideal)) (fun b => m' (c, b)) = V' at *
  rw [h_v50, h_v42, h_v41, h_v40, h_v39, h_v36, h_v35, h_c_7, h_v38, h_v37, h_c_8, h_v49, h_v48, h_v47, h_v44, h_v43, h_c_9, h_v46, h_v45, h_c_10, hr, hc, hw, hd]
  rfl

theorem rv_upd : RV m' c Cert.ReferenceIdeal.main_v61
    = Rupd (RV m' c Cert.ReferenceIdeal.main_arg0) (RV m' c Cert.ReferenceIdeal.main_arg1) (RV m' c Cert.ReferenceIdeal.main_arg2) (RV m' c Cert.ReferenceIdeal.main_arg3) := by
  have hr := rv_row330 m' c
  have hn := rv_norm m' c
  have hh := Cert.ReferenceIdeal.HandRun.rd_main_v51 (F := Ideal) m' c
  have h_v61 := Cert.ReferenceIdeal.HandRun.rd_main_v61 (F := Ideal) m' c
  have h_v60 := Cert.ReferenceIdeal.HandRun.rd_main_v60 (F := Ideal) m' c
  have h_v52 := Cert.ReferenceIdeal.HandRun.rd_main_v52 (F := Ideal) m' c
  have h_v59 := Cert.ReferenceIdeal.HandRun.rd_main_v59 (F := Ideal) m' c
  have h_v58 := Cert.ReferenceIdeal.HandRun.rd_main_v58 (F := Ideal) m' c
  have h_v57 := Cert.ReferenceIdeal.HandRun.rd_main_v57 (F := Ideal) m' c
  have h_v54 := Cert.ReferenceIdeal.HandRun.rd_main_v54 (F := Ideal) m' c
  have h_v53 := Cert.ReferenceIdeal.HandRun.rd_main_v53 (F := Ideal) m' c
  have h_c_11 := Cert.ReferenceIdeal.HandRun.rd_main_c_11 (F := Ideal) m' c
  have h_v56 := Cert.ReferenceIdeal.HandRun.rd_main_v56 (F := Ideal) m' c
  have h_v55 := Cert.ReferenceIdeal.HandRun.rd_main_v55 (F := Ideal) m' c
  have h_c_12 := Cert.ReferenceIdeal.HandRun.rd_main_c_12 (F := Ideal) m' c
  dsimp only [Cert.ReferenceIdeal.HandRun.RV] at *
  generalize StableHlo.after (Cert.ReferenceIdeal.HandRun.ops (F := Ideal)) (fun b => m' (c, b)) = V' at *
  rw [h_v61, h_v60, h_v52, h_v59, h_v58, h_v57, h_v54, h_v53, h_c_11, h_v56, h_v55, h_c_12, hr, hn, hh]
  rfl

theorem rv_x1 : RV m' c Cert.ReferenceIdeal.main_v68
    = Rx1 (RV m' c Cert.ReferenceIdeal.main_arg0) (RV m' c Cert.ReferenceIdeal.main_arg1) (RV m' c Cert.ReferenceIdeal.main_arg2) (RV m' c Cert.ReferenceIdeal.main_arg3)
        (RV m' c Cert.ReferenceIdeal.main_arg4) := by
  have hc := rv_col330 m' c
  have hu := rv_upd m' c
  have h_v68 := Cert.ReferenceIdeal.HandRun.rd_main_v68 (F := Ideal) m' c
  have h_call1_v0 := Cert.ReferenceIdeal.HandRun.rd_main_call1_v0 (F := Ideal) m' c
  have h_call1_cst := Cert.ReferenceIdeal.HandRun.rd_main_call1_cst (F := Ideal) m' c
  have h_v67 := Cert.ReferenceIdeal.HandRun.rd_main_v67 (F := Ideal) m' c
  have h_v66 := Cert.ReferenceIdeal.HandRun.rd_main_v66 (F := Ideal) m' c
  have h_v65 := Cert.ReferenceIdeal.HandRun.rd_main_v65 (F := Ideal) m' c
  have h_v64 := Cert.ReferenceIdeal.HandRun.rd_main_v64 (F := Ideal) m' c
  have h_v62 := Cert.ReferenceIdeal.HandRun.rd_main_v62 (F := Ideal) m' c
  have h_cst_13 := Cert.ReferenceIdeal.HandRun.rd_main_cst_13 (F := Ideal) m' c
  have h_v63 := Cert.ReferenceIdeal.HandRun.rd_main_v63 (F := Ideal) m' c
  dsimp only [Cert.ReferenceIdeal.HandRun.RV] at *
  generalize StableHlo.after (Cert.ReferenceIdeal.HandRun.ops (F := Ideal)) (fun b => m' (c, b)) = V' at *
  rw [h_v68, h_call1_v0, h_call1_cst, h_v67, h_v66, h_v65, h_v64, h_v62, h_cst_13, h_v63, hc, hu]
  rfl

/-- A float array's contents read as a function into the extended reals (the identity: it only names the type). -/
abbrev asF {s : Shape} (x : FVec Ideal s .f32) : s.Idx → EReal := x

/-! ## The two region outputs -/

/-- The first region leaves the product of the features and the first weight matrix, plus its bias row. -/
theorem kv_v21 : KV m c Cert.KernelIdeal.main_v21
    = Cert.KernelIdeal.HandVal.G0 (KV m c Cert.KernelIdeal.main_arg0) (KV m c Cert.KernelIdeal.main_arg3) (KV m c Cert.KernelIdeal.main_v20) :=
  (Cert.KernelIdeal.Hand.frame2 m c Cert.KernelIdeal.main_v21 (by decide)).trans
    ((Cert.KernelIdeal.Hand.W2_out3 m c).trans
      ((Cert.KernelIdeal.HandVal.arrAt0_3 (Cert.KernelIdeal.Hand.Vt1 m) c).trans
        (congr (congr (congrArg Cert.KernelIdeal.HandVal.G0 (Cert.KernelIdeal.Hand.frame1 m c Cert.KernelIdeal.main_arg0 (by decide)).symm)
          (Cert.KernelIdeal.Hand.frame1 m c Cert.KernelIdeal.main_arg3 (by decide)).symm)
          (Cert.KernelIdeal.Hand.frame1 m c Cert.KernelIdeal.main_v20 (by decide)).symm)))

/-- The second region leaves the transposed product of the adjacency and the padded rows. -/
theorem kv_v39 : KV m c Cert.KernelIdeal.main_v39 = Cert.KernelIdeal.HandVal.G1 (KV m c Cert.KernelIdeal.main_v18) (KV m c Cert.KernelIdeal.main_v38) :=
  (Cert.KernelIdeal.Hand.frame7 m c Cert.KernelIdeal.main_v39 (by decide)).trans
    ((Cert.KernelIdeal.Hand.W7_out2 m c).trans
      ((Cert.KernelIdeal.HandVal.arrAt1_2 (Cert.KernelIdeal.Hand.Vt6 m) c).trans
        (congr (congrArg Cert.KernelIdeal.HandVal.G1 (Cert.KernelIdeal.Hand.frame6 m c Cert.KernelIdeal.main_v18 (by decide)).symm)
          (Cert.KernelIdeal.Hand.frame6 m c Cert.KernelIdeal.main_v38 (by decide)).symm)))

/-- The first region's bias row is zero. -/
theorem kv_v20_apply (z : Fin 1) (q : Fin 512) :
    (KV m c Cert.KernelIdeal.main_v20 : FVec Ideal Cert.KernelIdeal.S1x512 .f32) (ix2 z q) = (0 : EReal) := by
  have h20 := Cert.KernelIdeal.Hand.kd_main_v20 (F := Ideal) m c
  have h19 := Cert.KernelIdeal.Hand.kd_main_v19 (F := Ideal) m c
  have h3 := Cert.KernelIdeal.Hand.kd_main_cst_3 (F := Ideal) m c
  generalize Cert.KernelIdeal.Hand.W63 (F := Ideal) m c = V at *
  rw [h20, h19, h3]
  refine (shapeCast_apply _ _ (ix2 z q) (ix1 q) ?_).trans ?_
  · rw [Shape.rowMajor_val_one, Shape.rowMajor_val_two]
    show q.val = z.val * 512 + q.val
    have := z.isLt
    omega
  · exact (bcast_const_apply _ _ _).trans Ideal.ofBits_zero_f32

theorem kv_v21_apply (i : Fin 10000) (q : Fin 512) :
    asF (s := Cert.KernelIdeal.S10000x512) (KV m c Cert.KernelIdeal.main_v21) (ix2 i q)
      = ∑ k : Fin 512, asF (s := Cert.KernelIdeal.S10000x512) (KV m c Cert.KernelIdeal.main_arg0) (ix2 i k)
          * asF (s := Cert.KernelIdeal.S512x512) (KV m c Cert.KernelIdeal.main_arg3) (ix2 k q) := by
  have h21 := kv_v21 m c
  have h20 := kv_v20_apply m c 0 q
  generalize Cert.KernelIdeal.Hand.W63 (F := Ideal) m c = V at *
  dsimp only [asF]
  rw [h21, Cert.KernelIdeal.HandVal.G0_apply _ _ _ (ix2 i q) i q rfl rfl, h20, add_zero]

theorem kv_v39_apply (r : Fin 10240) (q : Fin 512) :
    (KV m c Cert.KernelIdeal.main_v39 : FVec Ideal Cert.KernelIdeal.S10240x512 .f32) (ix2 r q)
      = ∑ k : Fin 10240, Kadj0 (KV m c Cert.KernelIdeal.main_arg1) (KV m c Cert.KernelIdeal.main_arg2) (ix2 k r)
          * Kdish1pad (KV m c Cert.KernelIdeal.main_arg1) (KV m c Cert.KernelIdeal.main_arg2) (KV m c Cert.KernelIdeal.main_v21) (ix2 k q) := by
  have h39 := kv_v39 m c
  have h18 := kv_adj0 m c
  have h38 := kv_dish1pad m c
  generalize Cert.KernelIdeal.Hand.W63 (F := Ideal) m c = V at *
  rw [h39, Cert.KernelIdeal.HandVal.G1_apply, h18, h38]

/-! ## The arguments -/

theorem kv_arg0 : KV m c Cert.KernelIdeal.main_arg0 = m ((c.tc : Thread Cert.KernelIdeal.nD Cert.KernelIdeal.τ).loc Cert.KernelIdeal.main_arg0) :=
  (Cert.KernelIdeal.Hand.frame0 m c Cert.KernelIdeal.main_arg0 (by decide)).trans rfl
theorem kv_arg1 : KV m c Cert.KernelIdeal.main_arg1 = m ((c.tc : Thread Cert.KernelIdeal.nD Cert.KernelIdeal.τ).loc Cert.KernelIdeal.main_arg1) :=
  (Cert.KernelIdeal.Hand.frame0 m c Cert.KernelIdeal.main_arg1 (by decide)).trans rfl
theorem kv_arg2 : KV m c Cert.KernelIdeal.main_arg2 = m ((c.tc : Thread Cert.KernelIdeal.nD Cert.KernelIdeal.τ).loc Cert.KernelIdeal.main_arg2) :=
  (Cert.KernelIdeal.Hand.frame0 m c Cert.KernelIdeal.main_arg2 (by decide)).trans rfl
theorem kv_arg3 : KV m c Cert.KernelIdeal.main_arg3 = m ((c.tc : Thread Cert.KernelIdeal.nD Cert.KernelIdeal.τ).loc Cert.KernelIdeal.main_arg3) :=
  (Cert.KernelIdeal.Hand.frame0 m c Cert.KernelIdeal.main_arg3 (by decide)).trans rfl

/-- What the precondition says of the kernel's argument buffers at the end of its run: the features, the edge
    weights and the first weight matrix are real, and every edge index lies in [0, 10000). -/
theorem kv_pre (h : Hyp m m' c) :
    (∀ i, IsReal ((KV m c Cert.KernelIdeal.main_arg0 : FVec Ideal Cert.KernelIdeal.S10000x512 .f32) i))
      ∧ (∀ i, IsReal ((KV m c Cert.KernelIdeal.main_arg2 : FVec Ideal Cert.KernelIdeal.S320000 .f32) i))
      ∧ (∀ i, IsReal ((KV m c Cert.KernelIdeal.main_arg3 : FVec Ideal Cert.KernelIdeal.S512x512 .f32) i))
      ∧ (∀ i, 0 ≤ ((KV m c Cert.KernelIdeal.main_arg1 : IVec Cert.KernelIdeal.S2x320000 32) i).toInt
          ∧ ((KV m c Cert.KernelIdeal.main_arg1 : IVec Cert.KernelIdeal.S2x320000 32) i).toInt < 10000) := by
  have hf := Cert.PreFacts.finite_of_pre _ _ _ _ _ _ _ _ _ _ _ _ _ _ _ (h.pre c)
  have hi := Cert.PreFacts.index_range_of_pre _ _ _ _ _ _ _ _ _ _ _ _ _ _ _ (h.pre c)
  refine ⟨fun i => ?_, fun i => ?_, fun i => ?_, fun i => ?_⟩
  · rw [kv_arg0 m c]; exact hf.1 i
  · rw [kv_arg2 m c]; exact hf.2.1 i
  · rw [kv_arg3 m c]; exact hf.2.2.1 i
  · rw [kv_arg1 m c]; exact hi i

/-! ## The checkpoints -/

/-- The kernel's relu of the first layer is the reference's. -/
theorem cp_main_v52 (h : Hyp m m' c) : KV m c Cert.KernelIdeal.main_v52 = RV m' c Cert.ReferenceIdeal.main_v68 := by
  obtain ⟨hf0, hf2, hf3, hidx⟩ := kv_pre m m' c h
  have e0 := br_main_arg0 m m' c h
  have e1 := br_main_arg1 m m' c h
  have e2 := br_main_arg2 m m' c h
  have e3 := br_main_arg3 m m' c h
  have e4 := br_main_arg4 m m' c h
  have hk := kv_x1 m c
  have hr := rv_x1 m' c
  have hh1 := kv_v21_apply m c
  have hagg := kv_v39_apply m c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [hk, hr, ← e0, ← e1, ← e2, ← e3, ← e4]
  exact x1_eq _ _ _ _ _ hidx hf0 hf2 hf3 _ _ hh1 hagg

/-- Inside the unpadded corner the kernel's adjacency buffer is the reference's. -/
theorem adjKV_corner (h : Hyp m m' c) (r s : Fin 10000) :
    (KV m c Cert.KernelIdeal.main_v18 : FVec Ideal Cert.KernelIdeal.S10240x10240 .f32) (ix2 (Fin.castLE (by decide) r) (Fin.castLE (by decide) s))
      = (RV m' c Cert.ReferenceIdeal.main_v18 : FVec Ideal Cert.ReferenceIdeal.S10000x10000 .f32) (ix2 r s) := by
  obtain ⟨-, -, -, hidx⟩ := kv_pre m m' c h
  have e1 := br_main_arg1 m m' c h
  have e2 := br_main_arg2 m m' c h
  have hk := kv_adj0 m c
  have hr := rv_adj0 m' c
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [hk, hr, ← e1, ← e2]
  exact adj_corner _ _ hidx r s

/-- The padding rows and columns of the kernel's adjacency buffer are zero. -/
theorem adjKV_outside (h : Hyp m m' c) (r s : Fin 10240) (hrs : 10000 ≤ r.val ∨ 10000 ≤ s.val) :
    (KV m c Cert.KernelIdeal.main_v18 : FVec Ideal Cert.KernelIdeal.S10240x10240 .f32) (ix2 r s) = (0 : EReal) := by
  obtain ⟨-, -, -, hidx⟩ := kv_pre m m' c h
  have hk := kv_adj0 m c
  generalize Cert.KernelIdeal.Hand.W63 (F := Ideal) m c = V at *
  rw [hk]
  exact adj_outside _ _ hidx r s hrs

end Cert.Bridge

end
-- ==== Proof.KI.R2Val.lean ====
import proofs.«405323_j90718299226206_3_alg».proof.Proof.KI.R2
import Idealize.ShloMosaic.Lib.Pipeline.Value
import Idealize.ShloMosaic.Lib.ValueIdx
import Idealize.ShloMosaic.PureOps.Ideal.Laws
import Idealize.ShloMosaic.Lib.Tactic

/-! # Region 2, the value: what its two output arrays hold after the region, at the ideal values

The first output is the projection `relu (x W + b)`, the second its row softmax, each as ONE function of the three
input arrays, index by index. The road: the pieces the body's run found are its payloads of the input blocks (any
values); each payload read at an index over the extended reals; a block of the input windows is the array at the
block's rows; every point writes its row block back, and the ten row blocks cover the arrays. -/

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The specification -/

/-- The projection at row `i`, lane `l`: the bias added to the row of `x` times the column of `W`, clamped below at 0. -/
def projAt2 (x : S10000x512.Idx → EReal) (W : S512x1024.Idx → EReal) (b : S1x1024.Idx → EReal) (i : Fin 10000) (l : Fin 1024) : EReal :=
  max ((∑ k : Fin 512, x (ix2 i k) * W (ix2 k l)) + b (ix2 (0 : Fin 1) l)) 0

/-- The first output: the projection, index by index. -/
def proj2 (x : S10000x512.Idx → EReal) (W : S512x1024.Idx → EReal) (b : S1x1024.Idx → EReal) : S10000x1024.Idx → EReal :=
  fun j => projAt2 x W b (j 0) (j 1)

/-- A row's maximum, folded from the word of minus infinity. -/
def rowMax2 (s : S10000x1024.Idx → EReal) (i : Fin 10000) : EReal :=
  (Finset.univ : Finset (Fin 1024)).fold max (Ideal.ofBits .f32 0xFF800000#32) (fun l => s (ix2 i l))

/-- The second output: each row's softmax — the exponential of the entry less the row's maximum, over the row's sum of those. -/
def softmax2 (s : S10000x1024.Idx → EReal) : S10000x1024.Idx → EReal :=
  fun j => Ideal.div (Ideal.exp (s j - rowMax2 s (j 0))) (∑ l : Fin 1024, Ideal.exp (s (ix2 (j 0) l) - rowMax2 s (j 0)))

/-! ## The body's arithmetic at an index, at the ideal values -/

theorem hz2 : (![0, 0] : Fin 2 → Nat) = fun _ => 0 := funext fun a => by fin_cases a <;> rfl

/-- The matrix product's dimension numbers: rows of the left operand against columns of the right. -/
abbrev D2 : DotDims S1000x512 S512x1024 S1000x1024 := dot_S1000x512_S512x1024_S1000x1024_1_0_0_1_n_n

/-- The left operand's index: its row is the output's row, -/
theorem lhs_D2_0 (j : S1000x1024.Idx) (k : D2.contr.Idx) : (D2.lhsIdx j k 0).val = (j 0).val := by
  unfold DotDims.lhsIdx
  rw [dif_neg (show ¬(0 : Fin S1000x512.rank) ∈ D2.lhsBatch by decide), dif_pos (show (0 : Fin S1000x512.rank) ∈ D2.lhsNonContracting by decide)]
  rfl
/-- its column the contraction coordinate. -/
theorem lhs_D2_1 (j : S1000x1024.Idx) (k : D2.contr.Idx) : (D2.lhsIdx j k 1).val = (k ⟨0, by decide⟩).val :=
  D2.lhsIdx_val_of_single rfl j k
/-- The right operand's index: its row is the contraction coordinate, -/
theorem rhs_D2_0 (j : S1000x1024.Idx) (k : D2.contr.Idx) : (D2.rhsIdx j k 0).val = (k ⟨0, by decide⟩).val :=
  D2.rhsIdx_val_of_single rfl j k
/-- its column the output's column. -/
theorem rhs_D2_1 (j : S1000x1024.Idx) (k : D2.contr.Idx) : (D2.rhsIdx j k 1).val = (j 1).val := by
  unfold DotDims.rhsIdx
  rw [dif_neg (show ¬(1 : Fin S512x1024.rank) ∈ D2.rhsBatch by decide), dif_pos (show (1 : Fin S512x1024.rank) ∈ D2.rhsNonContracting by decide)]
  rfl

/-- The matrix product into the zero accumulator, at row `i` and column `l`: the sum over the 512 contracted
    coordinates of the products of the entries. -/
theorem matmul2_apply {φ₁ φ₂ : FTy} (prec : Option ContractPrecision) (A : FVec Ideal S1000x512 φ₁) (B : FVec Ideal S512x1024 φ₂)
    (i : Fin 1000) (l : Fin 1024) :
    FloatOps.matmul D2 prec A B (constant S1000x1024 .f32 0x00000000#32) (ix2 i l) = ∑ k : Fin 512, A (ix2 i k) * B (ix2 k l) := by
  rw [Ideal.matmul_constant_zero_apply, ← Equiv.sum_comp (contrEquiv1 D2 512 rfl rfl).symm]
  refine Finset.sum_congr rfl fun k _ => ?_
  have ck := contrEquiv1_symm_val D2 512 rfl rfl k
  have hl : D2.lhsIdx (ix2 i l) ((contrEquiv1 D2 512 rfl rfl).symm k) = ix2 i k := by
    funext ax; apply Fin.ext
    match ax with
    | ⟨0, _⟩ => exact lhs_D2_0 _ _
    | ⟨1, _⟩ => exact (lhs_D2_1 _ _).trans ck
  have hr : D2.rhsIdx (ix2 i l) ((contrEquiv1 D2 512 rfl rfl).symm k) = ix2 k l := by
    funext ax; apply Fin.ext
    match ax with
    | ⟨0, _⟩ => exact (rhs_D2_0 _ _).trans ck
    | ⟨1, _⟩ => exact rhs_D2_1 _ _
  rw [hl, hr]

/-- The reset's payload is zero everywhere. -/
theorem pay1_apply (j : S1000x1024.Idx) : k2_pay1 (F := Ideal) j = 0 := by
  unfold k2_pay1
  simp only [shapeCast_self]
  exact Ideal.ofBits_zero_f32

/-- The update's payload: the accumulator plus the product of the two blocks (the narrowing to bf16 is the identity on
    extended reals). -/
theorem pay2_apply (x0 : Vec Ideal S1000x512 .f32) (x1 : Vec Ideal S512x1024 .f32) (acc : Vec Ideal S1000x1024 .f32)
    (i : Fin 1000) (l : Fin 1024) :
    k2_pay2 (F := Ideal) x0 x1 acc (ix2 i l) = acc (ix2 i l) + ∑ k : Fin 512, x0 (ix2 i k) * x1 (ix2 k l) := by
  unfold k2_pay2
  simp only [shapeCast_self]
  refine (addf_apply _ _ _).trans ?_
  refine congrArg (acc (ix2 i l) + ·) ?_
  exact matmul2_apply none _ _ i l

/-- The bias row broadcast down the block reads the bias at the lane. -/
theorem biasBroadcast2_apply (b : Vec Ideal S1x1024 .f32) (i : Fin 1000) (l : Fin 1024) :
    broadcastTo S1000x1024 b broadcasts_S1x1024_S1000x1024 (ix2 i l) = b (ix2 (0 : Fin 1) l) :=
  broadcastTo_apply b broadcasts_S1x1024_S1000x1024 (ix2 i l) (ix2 (0 : Fin 1) l) (fun ax => by
    match ax with
    | ⟨0, _⟩ => rfl
    | ⟨1, _⟩ => rfl)

/-- The read-out's first payload: the accumulator plus the bias, clamped below at zero. -/
theorem pay3_apply (a : Vec Ideal S1000x1024 .f32) (b : Vec Ideal S1x1024 .f32) (i : Fin 1000) (l : Fin 1024) :
    k2_pay3 (F := Ideal) a b (ix2 i l) = max (a (ix2 i l) + b (ix2 (0 : Fin 1) l)) 0 := by
  unfold k2_pay3
  simp only [shapeCast_self]
  refine (maximumf_apply _ _ _).trans ?_
  refine congrArg₂ max ?_ Ideal.ofBits_zero_f32
  refine (addf_apply _ _ _).trans ?_
  exact congrArg (a (ix2 i l) + ·) (biasBroadcast2_apply b i l)

/-- A column of per-row values broadcast across the lanes reads the row's value. -/
theorem colBroadcast2_apply (v : Vec Ideal S1000 .f32) (i : Fin 1000) (l : Fin 1024) :
    broadcastTo S1000x1024 (shapeCast S1000x1 v shapeCasts_S1000_S1000x1) broadcasts_S1000x1_S1000x1024 (ix2 i l) = v (ix1 i) := by
  rw [broadcastTo_apply _ broadcasts_S1000x1_S1000x1024 (ix2 i l) (ix2 i (0 : Fin 1)) (fun ax => by
    match ax with
    | ⟨0, _⟩ => rfl
    | ⟨1, _⟩ => rfl)]
  exact shapeCast_apply v shapeCasts_S1000_S1000x1 (ix2 i (0 : Fin 1)) (ix1 i) (by
    rw [Shape.rowMajor_val_one, Shape.rowMajor_val_two]; show i.val = i.val * 1 + 0; omega)

/-- The source index over row `i` with lane `l` inserted is the pair. -/
theorem lift2 (i : Fin 1000) (l : Fin 1024) : reduces_S1000x1024_S1000.lift (ix1 i) l = ix2 i l := by
  funext ax; apply Fin.ext
  match ax with
  | ⟨0, _⟩ => rfl
  | ⟨1, _⟩ => rfl

/-- A row's maximum as the lane reduction computes it (whatever proofs the printed term carries). -/
theorem rowMaxRed2_apply (P : FVec Ideal S1000x1024 .f32) (i : Fin 1000) (hφ : FKind.Formats FTy.f32)
    (hm : (0xFF800000#32 : BitVec FTy.f32.bits) = FKind.maximumf.neutral FTy.f32 hφ) :
    multiReduction (F := Ideal) .maximumf [1] S1000 P 0xFF800000#32 reduces_S1000x1024_S1000 hφ hm (ix1 i)
      = (Finset.univ : Finset (Fin 1024)).fold max (Ideal.ofBits .f32 0xFF800000#32) (fun l => P (ix2 i l)) := by
  refine (Ideal.multiReduction_maximumf_single P 0xFF800000#32 reduces_S1000x1024_S1000 hφ hm (ix1 i)).trans ?_
  rw [Ideal.ofBits_def]
  exact Finset.fold_congr (fun l _ => congrArg P (lift2 i l))

/-- A row's sum as the lane reduction computes it. -/
theorem rowSumRed2_apply (E : FVec Ideal S1000x1024 .f32) (i : Fin 1000) (hφ : FKind.Formats FTy.f32)
    (ha : (0x00000000#32 : BitVec FTy.f32.bits) = FKind.add.neutral FTy.f32 hφ) :
    multiReduction (F := Ideal) .add [1] S1000 E 0x00000000#32 reduces_S1000x1024_S1000 hφ ha (ix1 i)
      = ∑ l : Fin 1024, E (ix2 i l) :=
  (Ideal.multiReduction_add_single E 0x00000000#32 reduces_S1000x1024_S1000 hφ ha (ix1 i)).trans
    (Finset.sum_congr rfl fun l _ => congrArg E (lift2 i l))

/-- The row softmax of a block `P` as the body computes it: the row maxima `M` broadcast back, the exponentials `E` of
    the differences, the quotient by the row sums broadcast back. -/
theorem softmaxPay2_apply (P : FVec Ideal S1000x1024 .f32) (hφ : FKind.Formats FTy.f32)
    (hm : (0xFF800000#32 : BitVec FTy.f32.bits) = FKind.maximumf.neutral FTy.f32 hφ)
    (ha : (0x00000000#32 : BitVec FTy.f32.bits) = FKind.add.neutral FTy.f32 hφ) (i : Fin 1000) (l : Fin 1024)
    (M : FVec Ideal S1000x1024 .f32)
    (hM : M = broadcastTo S1000x1024 (shapeCast S1000x1 (multiReduction (F := Ideal) .maximumf [1] S1000 P 0xFF800000#32 reduces_S1000x1024_S1000 hφ hm) shapeCasts_S1000_S1000x1) broadcasts_S1000x1_S1000x1024)
    (E : FVec Ideal S1000x1024 .f32) (hE : E = exp (F := Ideal) (subf (F := Ideal) P M)) :
    divf E (broadcastTo S1000x1024 (shapeCast S1000x1 (multiReduction (F := Ideal) .add [1] S1000 E 0x00000000#32 reduces_S1000x1024_S1000 hφ ha) shapeCasts_S1000_S1000x1) broadcasts_S1000x1_S1000x1024) (ix2 i l)
      = Ideal.div (Ideal.exp (P (ix2 i l)
            - (Finset.univ : Finset (Fin 1024)).fold max (Ideal.ofBits .f32 0xFF800000#32) (fun l' => P (ix2 i l'))))
          (∑ l' : Fin 1024, Ideal.exp (P (ix2 i l')
            - (Finset.univ : Finset (Fin 1024)).fold max (Ideal.ofBits .f32 0xFF800000#32) (fun l'' => P (ix2 i l'')))) := by
  have hMat : ∀ l' : Fin 1024, M (ix2 i l') = (Finset.univ : Finset (Fin 1024)).fold max (Ideal.ofBits .f32 0xFF800000#32) (fun l'' => P (ix2 i l'')) := fun l' => by
    rw [hM]
    exact (colBroadcast2_apply _ i l').trans (rowMaxRed2_apply P i hφ hm)
  have hEat : ∀ l' : Fin 1024, E (ix2 i l') = Ideal.exp (P (ix2 i l')
      - (Finset.univ : Finset (Fin 1024)).fold max (Ideal.ofBits .f32 0xFF800000#32) (fun l'' => P (ix2 i l''))) := fun l' => by
    rw [hE]
    show Ideal.exp (P (ix2 i l') - M (ix2 i l')) = _
    rw [hMat l']
  refine (divf_apply E _ (ix2 i l)).trans ?_
  refine congrArg₂ Ideal.div (hEat l) ?_
  refine (colBroadcast2_apply _ i l).trans ?_
  refine (rowSumRed2_apply E i hφ ha).trans ?_
  exact Finset.sum_congr rfl fun l' _ => hEat l'

/-- The read-out's second payload: the row softmax of the first (the narrowing to bf16 is the identity on extended reals). -/
theorem pay4_apply (a : Vec Ideal S1000x1024 .f32) (b : Vec Ideal S1x1024 .f32) (i : Fin 1000) (l : Fin 1024) :
    k2_pay4 (F := Ideal) a b (ix2 i l)
      = Ideal.div (Ideal.exp (k2_pay3 (F := Ideal) a b (ix2 i l)
            - (Finset.univ : Finset (Fin 1024)).fold max (Ideal.ofBits .f32 0xFF800000#32) (fun l' => k2_pay3 (F := Ideal) a b (ix2 i l'))))
          (∑ l' : Fin 1024, Ideal.exp (k2_pay3 (F := Ideal) a b (ix2 i l')
            - (Finset.univ : Finset (Fin 1024)).fold max (Ideal.ofBits .f32 0xFF800000#32) (fun l'' => k2_pay3 (F := Ideal) a b (ix2 i l'')))) := by
  unfold k2_pay4
  refine (truncf_apply (ψ := FTy.bf16) (φ := FTy.f32) _ bitsLt_bf16_f32 (ix2 i l)).trans ?_
  exact softmaxPay2_apply (k2_pay3 (F := Ideal) a b) _ _ _ i l _ rfl _ rfl

/-! ## The pieces the run found are the payloads of the input blocks (any values) -/

section Pieces
variable {F : FTy → Type} [FloatOps F]

/-- What the body leaves in output window 3's buffer: the read-out's first payload of the accumulator — the product
    added to the reset's zero — and the bias block. -/
theorem out2_3_eq (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) :
    out2_3 c i arg2 harg2 arg3 harg3 arg4 harg4 arg5 harg5 arg6 harg6 arg7 harg7 hc0 hc1 x0 x1 x2 = k2_pay3 (k2_pay2 x0 x1 (k2_pay1 (F := F))) x2 := by
  unfold out2_3
  rw [View.read_writes_junk_eq_canon]
  unfold kernelRun2
  dsimp only
  sl_unfold_words
  rw [View.canon_unit_zero (S := S1000x1024) hz2]
  simp only [View.readCov_cons_toLoadRect, View.readAt_eq_ld, harg2.read_unread, harg3.read_unread, harg4.read_unread,
    View.ld_unit_zero (S := S1000x512) hz2, View.ld_unit_zero (S := S512x1024) hz2, View.ld_unit_zero (S := S1x1024) hz2]

/-- What the body leaves in output window 4's buffer: the read-out's second payload of the same two. -/
theorem out2_4_eq (c : Dev nD) (i : grid2.Coords) (arg2 : Memref sig .tc .vmem S1000x512 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1000x1024 .f32) (harg5 : arg5.IsWhole) (arg6 : Memref sig .tc .vmem S1000x1024 .bf16) (harg6 : arg6.IsWhole) (arg7 : Memref sig .tc .vmem S1000x1024 .f32) (harg7 : arg7.IsWhole) (hc0 : cond2_0 i) (hc1 : cond2_1 i)
    (x0 : Vec F S1000x512 .f32) (x1 : Vec F S512x1024 .f32) (x2 : Vec F S1x1024 .f32) :
    out2_4 c i arg2 harg2 arg3 harg3 arg4 harg4 arg5 harg5 arg6 harg6 arg7 harg7 hc0 hc1 x0 x1 x2 = k2_pay4 (k2_pay2 x0 x1 (k2_pay1 (F := F))) x2 := by
  unfold out2_4
  rw [View.read_writes_junk_eq_canon]
  unfold kernelRun2
  dsimp only
  sl_unfold_words
  rw [View.canon_unit_zero (S := S1000x1024) hz2]
  simp only [View.readCov_cons_toLoadRect, View.readAt_eq_ld, harg2.read_unread, harg3.read_unread, harg4.read_unread,
    View.ld_unit_zero (S := S1000x512) hz2, View.ld_unit_zero (S := S512x1024) hz2, View.ld_unit_zero (S := S1x1024) hz2]

end Pieces

/-! ## One row block of the outputs, from blocks that are rows of the arrays -/

/-- Row block `r`'s entry of the first output: when the three blocks read the arrays at rows `1000 r …`, all of `W`
    and all of `b`, the payload at `j` is the projection at row `1000 r + j₀`, lane `j₁`. -/
theorem blockOut2_3 (X : S10000x512.Idx → EReal) (W : S512x1024.Idx → EReal) (B : S1x1024.Idx → EReal)
    (x0 : Vec Ideal S1000x512 .f32) (x1 : Vec Ideal S512x1024 .f32) (x2 : Vec Ideal S1x1024 .f32) (r : ℕ) (hr : r < 10)
    (h0 : ∀ (p : Fin 1000) (k : Fin 512), x0 (ix2 p k) = X (ix2 (⟨r * 1000 + p.val, by omega⟩ : Fin 10000) k))
    (h1 : ∀ (k : Fin 512) (q : Fin 1024), x1 (ix2 k q) = W (ix2 k q))
    (h2 : ∀ q : Fin 1024, x2 (ix2 (0 : Fin 1) q) = B (ix2 (0 : Fin 1) q))
    (p : Fin 1000) (q : Fin 1024) :
    k2_pay3 (F := Ideal) (k2_pay2 (F := Ideal) x0 x1 (k2_pay1 (F := Ideal))) x2 (ix2 p q)
      = projAt2 X W B (⟨r * 1000 + p.val, by omega⟩ : Fin 10000) q := by
  refine (pay3_apply _ _ p q).trans ?_
  unfold projAt2
  refine congrArg₂ (fun u v => max (u + v) 0) ?_ (h2 q)
  refine (pay2_apply x0 x1 _ p q).trans ?_
  rw [pay1_apply, zero_add]
  exact Finset.sum_congr rfl fun k _ => by rw [h0 p k, h1 k q]

/-- Row block `r`'s entry of the second output: the row softmax of the projection, at the same row and lane. -/
theorem blockOut2_4 (X : S10000x512.Idx → EReal) (W : S512x1024.Idx → EReal) (B : S1x1024.Idx → EReal)
    (x0 : Vec Ideal S1000x512 .f32) (x1 : Vec Ideal S512x1024 .f32) (x2 : Vec Ideal S1x1024 .f32) (r : ℕ) (hr : r < 10)
    (h0 : ∀ (p : Fin 1000) (k : Fin 512), x0 (ix2 p k) = X (ix2 (⟨r * 1000 + p.val, by omega⟩ : Fin 10000) k))
    (h1 : ∀ (k : Fin 512) (q : Fin 1024), x1 (ix2 k q) = W (ix2 k q))
    (h2 : ∀ q : Fin 1024, x2 (ix2 (0 : Fin 1) q) = B (ix2 (0 : Fin 1) q))
    (p : Fin 1000) (q : Fin 1024) :
    k2_pay4 (F := Ideal) (k2_pay2 (F := Ideal) x0 x1 (k2_pay1 (F := Ideal))) x2 (ix2 p q)
      = softmax2 (proj2 X W B) (ix2 (⟨r * 1000 + p.val, by omega⟩ : Fin 10000) q) := by
  have hP : ∀ l : Fin 1024, k2_pay3 (F := Ideal) (k2_pay2 (F := Ideal) x0 x1 (k2_pay1 (F := Ideal))) x2 (ix2 p l)
      = proj2 X W B (ix2 (⟨r * 1000 + p.val, by omega⟩ : Fin 10000) l) := fun l =>
    blockOut2_3 X W B x0 x1 x2 r hr h0 h1 h2 p l
  refine (pay4_apply _ _ p q).trans ?_
  simp only [hP]
  rfl

/-! ## The input windows' blocks are rows of the arrays -/

variable (V : (c : Dev nD) → (b : Ref sig .tc) → Buf (Elt Ideal) ((c : Thread nD τ).loc b))

/-- The three input arrays as the region finds them, at their literal types. -/
abbrev xArr2 (c : Dev nD) : S10000x512.Idx → EReal := V c (Pipeline.arrRef spec2 0)
abbrev wArr2 (c : Dev nD) : S512x1024.Idx → EReal := V c (Pipeline.arrRef spec2 1)
abbrev bArr2 (c : Dev nD) : S1x1024.Idx → EReal := V c (Pipeline.arrRef spec2 2)

/-- The printed index maps, decided over the grid: windows 0, 3 and 4 move down the rows with the point; windows 1 and 2 stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem lt_N2 (t : Fin cfg2.N) : t.val < 10 := lt_of_lt_of_eq t.isLt (show cfg2.N = 10 from N_2)

/-- Window 0's block at point `t` is rows `1000 t …` of `x`. -/
theorem xblk2_apply (c : Dev nD) (t : Fin cfg2.N) (p : Fin 1000) (k : Fin 512) :
    (iblk2 V c 0 t : Vec Ideal S1000x512 .f32) (ix2 p k) = xArr2 V c (ix2 (⟨t.val * 1000 + p.val, by have := lt_N2 t; omega⟩ : Fin 10000) k) := by
  obtain ⟨e00, e01, -⟩ := idx_facts2 t
  unfold iblk2 xArr2
  rw [View.read_apply]
  show V c main_v52 _ = V c main_v52 _
  congr 1
  funext a
  apply Fin.ext
  match a with
  | ⟨0, _⟩ => show win2_0.index t 0 * 1000 + 1 * p.val = t.val * 1000 + p.val; rw [e00]; omega
  | ⟨1, _⟩ => show win2_0.index t 1 * 512 + 1 * k.val = k.val; rw [e01]; omega

/-- Window 1's block is all of `W`. -/
theorem wblk2_apply (c : Dev nD) (t : Fin cfg2.N) (k : Fin 512) (q : Fin 1024) :
    (iblk2 V c 1 t : Vec Ideal S512x1024 .f32) (ix2 k q) = wArr2 V c (ix2 k q) := by
  obtain ⟨-, -, e10, e11, -⟩ := idx_facts2 t
  unfold iblk2 wArr2
  rw [View.read_apply]
  show V c main_arg5 _ = V c main_arg5 _
  congr 1
  funext a
  apply Fin.ext
  match a with
  | ⟨0, _⟩ => show win2_1.index t 0 * 512 + 1 * k.val = k.val; rw [e10]; omega
  | ⟨1, _⟩ => show win2_1.index t 1 * 1024 + 1 * q.val = q.val; rw [e11]; omega

/-- Window 2's block is all of `b`. -/
theorem bblk2_apply (c : Dev nD) (t : Fin cfg2.N) (q : Fin 1024) :
    (iblk2 V c 2 t : Vec Ideal S1x1024 .f32) (ix2 (0 : Fin 1) q) = bArr2 V c (ix2 (0 : Fin 1) q) := by
  obtain ⟨-, -, -, -, e20, e21, -⟩ := idx_facts2 t
  unfold iblk2 bArr2
  rw [View.read_apply]
  show V c main_v53 _ = V c main_v53 _
  congr 1
  funext a
  apply Fin.ext
  match a with
  | ⟨0, _⟩ => show win2_2.index t 0 * 1 + 1 * 0 = 0; rw [e20]
  | ⟨1, _⟩ => show win2_2.index t 1 * 1024 + 1 * q.val = q.val; rw [e21]; omega

/-! ## What each point writes back, and the arrays after the region -/

/-- What point `t` writes back of window 3 is block `t` of the projection of the arrays. -/
theorem flushed2_3_eq (c : Dev nD) (t : Fin cfg2.N) :
    (dat2 (F := Ideal) V c).flushed 3 t
      = ((cfg2.win 3).blk t).view.read (Elt Ideal) (proj2 (xArr2 V c) (wArr2 V c) (bArr2 V c)) := by
  obtain ⟨-, -, -, -, -, -, e30, e31, -⟩ := idx_facts2 t
  show (cfg2.win 3).cut (grid2.coords t) ((dat2 (F := Ideal) V c).after 3 t) = _
  rw [after2_3, out2_3_eq]
  funext j
  obtain ⟨p, q, rfl⟩ : ∃ (p : Fin 1000) (q : Fin 1024), j = ix2 p q := ⟨j 0, j 1, eq_ix2 j⟩
  refine (blockOut2_3 (xArr2 V c) (wArr2 V c) (bArr2 V c) (iblk2 V c 0 t) (iblk2 V c 1 t) (iblk2 V c 2 t) t.val (lt_N2 t)
    (fun p k => xblk2_apply V c t p k) (fun k q => wblk2_apply V c t k q) (fun q => bblk2_apply V c t q) p q).trans ?_
  rw [View.read_apply]
  show projAt2 _ _ _ _ _ = proj2 (xArr2 V c) (wArr2 V c) (bArr2 V c) (((cfg2.win 3).blk t).view.emb (ix2 p q))
  unfold proj2
  refine congrArg₂ (projAt2 _ _ _) (Fin.ext ?_) (Fin.ext ?_)
  · show t.val * 1000 + p.val = win2_3.index t 0 * 1000 + 1 * p.val; rw [e30]; omega
  · show q.val = win2_3.index t 1 * 1024 + 1 * q.val; rw [e31]; omega

/-- What point `t` writes back of window 4 is block `t` of the row softmax of that projection. -/
theorem flushed2_4_eq (c : Dev nD) (t : Fin cfg2.N) :
    (dat2 (F := Ideal) V c).flushed 4 t
      = ((cfg2.win 4).blk t).view.read (Elt Ideal) (softmax2 (proj2 (xArr2 V c) (wArr2 V c) (bArr2 V c))) := by
  obtain ⟨-, -, -, -, -, -, -, -, e40, e41⟩ := idx_facts2 t
  show (cfg2.win 4).cut (grid2.coords t) ((dat2 (F := Ideal) V c).after 4 t) = _
  rw [after2_4, out2_4_eq]
  funext j
  obtain ⟨p, q, rfl⟩ : ∃ (p : Fin 1000) (q : Fin 1024), j = ix2 p q := ⟨j 0, j 1, eq_ix2 j⟩
  refine (blockOut2_4 (xArr2 V c) (wArr2 V c) (bArr2 V c) (iblk2 V c 0 t) (iblk2 V c 1 t) (iblk2 V c 2 t) t.val (lt_N2 t)
    (fun p k => xblk2_apply V c t p k) (fun k q => wblk2_apply V c t k q) (fun q => bblk2_apply V c t q) p q).trans ?_
  rw [View.read_apply]
  show softmax2 _ _ = softmax2 (proj2 (xArr2 V c) (wArr2 V c) (bArr2 V c)) (((cfg2.win 4).blk t).view.emb (ix2 p q))
  refine congrArg (softmax2 _) (funext fun a => Fin.ext ?_)
  match a with
  | ⟨0, _⟩ => show t.val * 1000 + p.val = win2_4.index t 0 * 1000 + 1 * p.val; rw [e40]; omega
  | ⟨1, _⟩ => show q.val = win2_4.index t 1 * 1024 + 1 * q.val; rw [e41]; omega

/-- The point that writes back the block holding row `r`. -/
def pointOf2 (r : ℕ) (h : r < 10000) : Fin cfg2.N := ⟨r / 1000, by have : cfg2.N = 10 := N_2; omega⟩

/-- Every index of output window 3's array is in the block of the point its row block names. -/
theorem coverOut2_3 (c : Dev nD) (i : ((cfg2.win 3).arr.view.loc (c.tc : Thread nD τ)).2.ty.Idx) :
    ∃ t : Fin cfg2.N, (cfg2.win 3).flush t = true ∧ i ∈ ((cfg2.win 3).blk t).view.set := by
  have hi0 : (i 0 : Nat) < 10000 := (i 0).isLt
  have hi1 : (i 1 : Nat) < 1024 := (i 1).isLt
  obtain ⟨-, -, -, -, -, -, e0, e1, -⟩ := idx_facts2 (pointOf2 (i 0 : Nat) hi0)
  refine ⟨pointOf2 (i 0 : Nat) hi0, flush2_3 _, ?_⟩
  show i ∈ ((View.whole main_v54_0).slice (win2_3.rect (pointOf2 (i 0 : Nat) hi0))).set
  rw [View.set_slice_whole, Rect.mem_set_unit]
  intro a
  match a with
  | ⟨0, _⟩ =>
    show win2_3.index (pointOf2 (i 0 : Nat) hi0) 0 * 1000 ≤ (i 0 : Nat) ∧ (i 0 : Nat) < win2_3.index (pointOf2 (i 0 : Nat) hi0) 0 * 1000 + 1000
    rw [e0]; show (i 0 : Nat) / 1000 * 1000 ≤ (i 0 : Nat) ∧ (i 0 : Nat) < (i 0 : Nat) / 1000 * 1000 + 1000; omega
  | ⟨1, _⟩ =>
    show win2_3.index (pointOf2 (i 0 : Nat) hi0) 1 * 1024 ≤ (i 1 : Nat) ∧ (i 1 : Nat) < win2_3.index (pointOf2 (i 0 : Nat) hi0) 1 * 1024 + 1024
    rw [e1]; omega

/-- Every index of output window 4's array is in the block of the point its row block names. -/
theorem coverOut2_4 (c : Dev nD) (i : ((cfg2.win 4).arr.view.loc (c.tc : Thread nD τ)).2.ty.Idx) :
    ∃ t : Fin cfg2.N, (cfg2.win 4).flush t = true ∧ i ∈ ((cfg2.win 4).blk t).view.set := by
  have hi0 : (i 0 : Nat) < 10000 := (i 0).isLt
  have hi1 : (i 1 : Nat) < 1024 := (i 1).isLt
  obtain ⟨-, -, -, -, -, -, -, -, e0, e1⟩ := idx_facts2 (pointOf2 (i 0 : Nat) hi0)
  refine ⟨pointOf2 (i 0 : Nat) hi0, flush2_4 _, ?_⟩
  show i ∈ ((View.whole main_v54_1).slice (win2_4.rect (pointOf2 (i 0 : Nat) hi0))).set
  rw [View.set_slice_whole, Rect.mem_set_unit]
  intro a
  match a with
  | ⟨0, _⟩ =>
    show win2_4.index (pointOf2 (i 0 : Nat) hi0) 0 * 1000 ≤ (i 0 : Nat) ∧ (i 0 : Nat) < win2_4.index (pointOf2 (i 0 : Nat) hi0) 0 * 1000 + 1000
    rw [e0]; show (i 0 : Nat) / 1000 * 1000 ≤ (i 0 : Nat) ∧ (i 0 : Nat) < (i 0 : Nat) / 1000 * 1000 + 1000; omega
  | ⟨1, _⟩ =>
    show win2_4.index (pointOf2 (i 0 : Nat) hi0) 1 * 1024 ≤ (i 1 : Nat) ∧ (i 1 : Nat) < win2_4.index (pointOf2 (i 0 : Nat) hi0) 1 * 1024 + 1024
    rw [e1]; omega

/-- Output window 3's array after the region: the projection of the three input arrays as the region finds them. -/
theorem arrAt2_3 (c : Dev nD) :
    (dat2 (F := Ideal) V c).arrAt 3 cfg2.N
      = proj2 (V c (Pipeline.arrRef spec2 0)) (V c (Pipeline.arrRef spec2 1)) (V c (Pipeline.arrRef spec2 2)) :=
  (dat2 (F := Ideal) V c).arrAt_eq_of_cover 3 (proj2 (xArr2 V c) (wArr2 V c) (bArr2 V c))
    (fun t _ => flushed2_3_eq V c t) (coverOut2_3 c)

/-- Output window 4's array after the region: the row softmax of that projection. -/
theorem arrAt2_4 (c : Dev nD) :
    (dat2 (F := Ideal) V c).arrAt 4 cfg2.N
      = softmax2 (proj2 (V c (Pipeline.arrRef spec2 0)) (V c (Pipeline.arrRef spec2 1)) (V c (Pipeline.arrRef spec2 2))) :=
  (dat2 (F := Ideal) V c).arrAt_eq_of_cover 4 (softmax2 (proj2 (xArr2 V c) (wArr2 V c) (bArr2 V c)))
    (fun t _ => flushed2_4_eq V c t) (coverOut2_4 c)

end Cert.KernelIdeal.HandVal

end
-- ==== Proof.Bridge.CP1c.lean ====
/-
  REGION 2 AGAINST THE REFERENCE'S PROJECTION AND ITS ROW SOFTMAX. After region 2 its first output holds, entry by entry,
  the maximum with 0 of Σ_k x(i, k) · W(k, l) plus the bias at l, and its second output that array's row softmax. The
  activations are a buffer both programs hold equal, the weights and the bias are arguments; the reference broadcasts the
  bias down the rows where the kernel recasts it as one row, and computes the softmax by reductions and broadcasts.
-/
import proofs.«405323_j90718299226206_3_alg».proof.Proof.Bridge.CP1e
import proofs.«405323_j90718299226206_3_alg».proof.Proof.KI.R2Val
import proofs.«405323_j90718299226206_3_alg».proof.Proof.Ref.Dots
import proofs.«405323_j90718299226206_3_alg».proof.Proof.Math.MM
import Idealize.ShloMosaic.PureOps.Reduce

set_option maxRecDepth 16384

noncomputable section

open scoped BigOperators

namespace Cert.Bridge

open Idealize.ShloMosaic Idealize.ShloMosaic.TcCoe Idealize.SL.Sem Idealize.ShloMosaic.ValueIdx

/-! ## The row softmax: the region's value against the host's operations, at the extended reals, for any extents

The region's second output is, row by row, the exponential of each entry less the row's maximum over the row's sum
of those exponentials. The host computes the same: a max-reduce from minus infinity (then a maximum with a broadcast
minus infinity, which changes nothing), the maxima broadcast back, a subtraction, an exponential, a sum-reduce from
zero, the sums broadcast back, a quotient. -/

section Softmax
variable {M N : ℕ}

/-- A row's maximum, folded from the word of minus infinity. -/
def rowMax (s : (⟨2, ![M, N]⟩ : Shape).Idx → EReal) (i : Fin M) : EReal :=
  (Finset.univ : Finset (Fin N)).fold max (Ideal.ofBits .f32 0xFF800000#32) (fun l => s (ix2 i l))

/-- Each row's softmax. -/
def softmax (s : (⟨2, ![M, N]⟩ : Shape).Idx → EReal) : (⟨2, ![M, N]⟩ : Shape).Idx → EReal :=
  fun j => Ideal.div (Ideal.exp (s j - rowMax s (j 0))) (∑ l : Fin N, Ideal.exp (s (ix2 (j 0) l) - rowMax s (j 0)))

/-- The source index over row `i` with lane `l` inserted is the pair. -/
theorem lift_row (hr : (⟨2, ![M, N]⟩ : Shape).Reduces [1] ⟨1, ![M]⟩) (i : Fin M) (l : Fin N) :
    hr.lift (ix1 i) l = ix2 i l := by
  funext ax; apply Fin.ext
  match ax with
  | ⟨0, _⟩ => rfl
  | ⟨1, _⟩ => rfl

/-- A scalar broadcast to a vector reads the scalar. -/
theorem scalar_bcast_apply {α : Type} (h0 : (⟨0, ![]⟩ : Shape).BroadcastsInDim ⟨1, ![M]⟩ ![]) (x : (⟨0, ![]⟩ : Shape).Idx → α) (i : Fin M) :
    broadcastInDim ⟨1, ![M]⟩ ![] h0 x (ix1 i) = x ix0 :=
  broadcastInDim_apply _ h0 x (ix1 i) ix0 (fun a => a.elim0)

/-- A vector broadcast to a column and then across N lanes, at (i, l): the vector at i. -/
theorem col_bcast_apply {α : Type} (v : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (i : Fin M) (l : Fin N) :
    broadcastInDim ⟨2, ![M, N]⟩ ![0, 1] h2 (broadcastInDim ⟨2, ![M, 1]⟩ ![0] h1 v) (ix2 i l) = v (ix1 i) := by
  refine (broadcastInDim_apply _ h2 _ (ix2 i l) (ix2 i (0 : Fin 1)) ?_).trans (broadcastInDim_apply _ h1 v (ix2 i (0 : Fin 1)) (ix1 i) ?_)
  · intro a
    match a with
    | ⟨0, _⟩ =>
      show i.val = if M = 1 then 0 else i.val
      have := i.isLt
      split_ifs <;> omega
    | ⟨1, _⟩ =>
      show (0 : ℕ) = if (1 : ℕ) = 1 then 0 else l.val
      rw [if_pos rfl]
  · intro a
    obtain rfl : a = 0 := Subsingleton.elim _ _
    show i.val = if M = 1 then 0 else i.val
    have := i.isLt
    split_ifs <;> omega

/-- The host's row maximum — a max-reduce from minus infinity, then a maximum with a broadcast minus infinity — is the fold. -/
theorem host_rowMax_apply (s : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel) (h0 : (⟨0, ![]⟩ : Shape).BroadcastsInDim ⟨1, ![M]⟩ ![]) (i : Fin M) :
    maximumf (broadcastInDim ⟨1, ![M]⟩ ![] h0 (constant (F := Ideal) ⟨0, ![]⟩ .f32 0xFF800000#32))
        (Host.reduce FloatOps.maximumf s (constant (F := Ideal) ⟨0, ![]⟩ .f32 0xFF800000#32) hr' hu) (ix1 i)
      = rowMax s i := by
  refine (maximumf_apply _ _ _).trans ?_
  rw [scalar_bcast_apply, constant_apply, Host.reduce_eq_fold_single FloatOps.maximumf s _ hr' hr hu (ix1 i), constant_apply]
  refine (max_eq_right ((Finset.le_fold_max _).mpr (Or.inl le_rfl))).trans ?_
  unfold rowMax
  exact Finset.fold_congr (fun l _ => congrArg s (lift_row hr i l))

/-- A vector broadcast to a one-lane column, at (i, l): the vector at i. -/
theorem col_bcast1_apply {α : Type} (v : (⟨1, ![M]⟩ : Shape).Idx → α)
    (h1 : (⟨1, ![M]⟩ : Shape).BroadcastsInDim ⟨2, ![M, 1]⟩ ![0]) (i : Fin M) (l : Fin 1) :
    broadcastInDim ⟨2, ![M, 1]⟩ ![0] h1 v (ix2 i l) = v (ix1 i) :=
  broadcastInDim_apply _ h1 v (ix2 i l) (ix1 i) (fun a => by
    obtain rfl : a = 0 := Subsingleton.elim _ _
    show i.val = if M = 1 then 0 else i.val
    have := i.isLt
    split_ifs <;> omega)

/-- THE ROW SOFTMAX is what the host's operations compute: the row maxima `mx`, broadcast back across the lanes by `B`
    (however many broadcasts that takes: `hB` says what it reads), the exponentials `E` of the differences, the quotient
    by the row sums broadcast back. -/
theorem host_softmax (s : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel) (h0 : (⟨0, ![]⟩ : Shape).BroadcastsInDim ⟨1, ![M]⟩ ![])
    (B : FVec Ideal ⟨1, ![M]⟩ .f32 → FVec Ideal ⟨2, ![M, N]⟩ .f32)
    (hB : ∀ (v : FVec Ideal ⟨1, ![M]⟩ .f32) (i : Fin M) (l : Fin N), B v (ix2 i l) = v (ix1 i))
    (mx : FVec Ideal ⟨1, ![M]⟩ .f32)
    (hmx : mx = maximumf (broadcastInDim ⟨1, ![M]⟩ ![] h0 (constant (F := Ideal) ⟨0, ![]⟩ .f32 0xFF800000#32))
        (Host.reduce FloatOps.maximumf s (constant (F := Ideal) ⟨0, ![]⟩ .f32 0xFF800000#32) hr' hu))
    (E : FVec Ideal ⟨2, ![M, N]⟩ .f32)
    (hE : E = Host.exp (F := Ideal) (subf (F := Ideal) s (B mx))) :
    softmax s
      = Host.divf (F := Ideal) E (B (Host.reduceAdd (F := Ideal) E (constant (F := Ideal) ⟨0, ![]⟩ .f32 0x00000000#32) hr' hu)) := by
  funext j
  obtain ⟨i, l, rfl⟩ : ∃ (i : Fin M) (l : Fin N), j = ix2 i l := ⟨j 0, j 1, eq_ix2 j⟩
  have hEat : ∀ l' : Fin N, E (ix2 i l') = Ideal.exp (s (ix2 i l') - rowMax s i) := fun l' => by
    rw [hE]
    show Ideal.exp (s (ix2 i l') - B mx (ix2 i l')) = _
    rw [hB, hmx, host_rowMax_apply s hr' hr hu h0 i]
  have hS : Host.reduceAdd (F := Ideal) E (constant (F := Ideal) ⟨0, ![]⟩ .f32 0x00000000#32) hr' hu (ix1 i)
      = ∑ l' : Fin N, Ideal.exp (s (ix2 i l') - rowMax s i) := by
    show Ideal.hostReduceAdd hr' E (constant (F := Ideal) ⟨0, ![]⟩ .f32 0x00000000#32 (Shape.Idx.first hu)) (ix1 i) = _
    rw [Ideal.hostReduceAdd_single hr' hr, constant_apply, Ideal.ofBits_zero_f32, zero_add]
    exact Finset.sum_congr rfl fun l' _ => by rw [lift_row hr i l']; exact hEat l'
  show Ideal.div (Ideal.exp (s (ix2 i l) - rowMax s i)) (∑ l' : Fin N, Ideal.exp (s (ix2 i l') - rowMax s i))
    = Ideal.div (E (ix2 i l)) (B (Host.reduceAdd (F := Ideal) E (constant (F := Ideal) ⟨0, ![]⟩ .f32 0x00000000#32) hr' hu) (ix2 i l))
  rw [hEat l, hB, hS]

/-- The same with the host's term spelt out in full (nothing left to equate by unfolding when it is applied). -/
theorem host_softmax_term (s : FVec Ideal ⟨2, ![M, N]⟩ .f32)
    (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel) (h0 : (⟨0, ![]⟩ : Shape).BroadcastsInDim ⟨1, ![M]⟩ ![])
    (B : FVec Ideal ⟨1, ![M]⟩ .f32 → FVec Ideal ⟨2, ![M, N]⟩ .f32)
    (hB : ∀ (v : FVec Ideal ⟨1, ![M]⟩ .f32) (i : Fin M) (l : Fin N), B v (ix2 i l) = v (ix1 i)) :
    softmax s
      = Host.divf (F := Ideal)
          (Host.exp (F := Ideal) (subf (F := Ideal) s (B (maximumf (broadcastInDim ⟨1, ![M]⟩ ![] h0 (constant (F := Ideal) ⟨0, ![]⟩ .f32 0xFF800000#32))
            (Host.reduce FloatOps.maximumf s (constant (F := Ideal) ⟨0, ![]⟩ .f32 0xFF800000#32) hr' hu)))))
          (B (Host.reduceAdd (F := Ideal)
            (Host.exp (F := Ideal) (subf (F := Ideal) s (B (maximumf (broadcastInDim ⟨1, ![M]⟩ ![] h0 (constant (F := Ideal) ⟨0, ![]⟩ .f32 0xFF800000#32))
              (Host.reduce FloatOps.maximumf s (constant (F := Ideal) ⟨0, ![]⟩ .f32 0xFF800000#32) hr' hu)))))
            (constant (F := Ideal) ⟨0, ![]⟩ .f32 0x00000000#32) hr' hu)) :=
  host_softmax s hr' hr hu h0 B hB _ rfl _ rfl

end Softmax

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 2's projection of its three operand arrays, as the region finds them, is the reference's relu'd projection:
    the activations are a buffer both programs hold equal, the weights an argument, and the bias row the bias argument
    recast as one row, which the reference broadcasts down the rows instead. -/
theorem proj_region2 (h : Hyp m m' c) :
    Cert.KernelIdeal.HandVal.proj2 (Cert.KernelIdeal.Hand.Vt10 (F := Ideal) m c (Pipeline.arrRef Cert.KernelIdeal.spec2 0)) (Cert.KernelIdeal.Hand.Vt10 (F := Ideal) m c (Pipeline.arrRef Cert.KernelIdeal.spec2 1))
        (Cert.KernelIdeal.Hand.Vt10 (F := Ideal) m c (Pipeline.arrRef Cert.KernelIdeal.spec2 2))
      = Cert.ReferenceIdeal.HandRun.RV (F := Ideal) m' c Cert.ReferenceIdeal.main_v73 := by
  have ex : (Cert.KernelIdeal.Hand.W10 (F := Ideal) m c (Proc.devRef .tc Cert.KernelIdeal.main_v52) : Vec Ideal Cert.KernelIdeal.S10000x512 .f32) = Cert.ReferenceIdeal.HandRun.RV (F := Ideal) m' c Cert.ReferenceIdeal.main_v68 :=
    (Cert.KernelIdeal.Hand.frame10 m c Cert.KernelIdeal.main_v52 (by decide)).symm.trans (cp_main_v52 m m' c h)
  have ew : (Cert.KernelIdeal.Hand.W10 (F := Ideal) m c (Proc.devRef .tc Cert.KernelIdeal.main_arg5) : Vec Ideal Cert.KernelIdeal.S512x1024 .f32) = Cert.ReferenceIdeal.HandRun.RV (F := Ideal) m' c Cert.ReferenceIdeal.main_arg5 :=
    (Cert.KernelIdeal.Hand.frame10 m c Cert.KernelIdeal.main_arg5 (by decide)).symm.trans (br_main_arg5 m m' c h)
  have eb : (Cert.KernelIdeal.Hand.W10 (F := Ideal) m c (Proc.devRef .tc Cert.KernelIdeal.main_v53) : Vec Ideal Cert.KernelIdeal.S1x1024 .f32)
      = shapeCast Cert.KernelIdeal.S1x1024 (Cert.ReferenceIdeal.HandRun.RV (F := Ideal) m' c Cert.ReferenceIdeal.main_arg6) Cert.KernelIdeal.Facts₀.shapeCasts_S1024_S1x1024 :=
    ((Cert.KernelIdeal.Hand.frame10 m c Cert.KernelIdeal.main_v53 (by decide)).symm.trans (Cert.KernelIdeal.Hand.kd_main_v53 m c)).trans
      (congrArg (fun v => shapeCast Cert.KernelIdeal.S1x1024 v Cert.KernelIdeal.Facts₀.shapeCasts_S1024_S1x1024) (br_main_arg6 m m' c h))
  refine (congr (congr (congrArg Cert.KernelIdeal.HandVal.proj2 ex) ew) eb).trans ?_
  rw [Cert.ReferenceIdeal.HandRun.rd_main_v73 m' c, Cert.ReferenceIdeal.HandRun.rd_main_v72 m' c, Cert.ReferenceIdeal.HandRun.rd_main_v69 m' c, Cert.ReferenceIdeal.HandRun.rd_main_v71 m' c, Cert.ReferenceIdeal.HandRun.rd_main_v70 m' c, Cert.ReferenceIdeal.HandRun.rd_main_call2_v0 m' c, Cert.ReferenceIdeal.HandRun.rd_main_call2_cst m' c]
  unfold Cert.KernelIdeal.HandVal.proj2 Cert.KernelIdeal.HandVal.projAt2
  exact Cert.Math.mm_bias_relu (M := 10000) (K := 512) (N := 1024) (Cert.ReferenceIdeal.HandRun.RV (F := Ideal) m' c Cert.ReferenceIdeal.main_v68) (Cert.ReferenceIdeal.HandRun.RV (F := Ideal) m' c Cert.ReferenceIdeal.main_arg5) (Cert.ReferenceIdeal.HandRun.RV (F := Ideal) m' c Cert.ReferenceIdeal.main_arg6) _ _ _ _

/-- Region 2's first output is the reference's relu'd projection. -/
theorem cp_main_v54_0 (h : Hyp m m' c) : KV m c Cert.KernelIdeal.main_v54_0 = RV m' c Cert.ReferenceIdeal.main_v73 :=
  (((Cert.KernelIdeal.Hand.frame11 m c Cert.KernelIdeal.main_v54_0 (by decide)).trans (Cert.KernelIdeal.Hand.W11_out3 m c)).trans
    (Cert.KernelIdeal.HandVal.arrAt2_3 (Cert.KernelIdeal.Hand.Vt10 (F := Ideal) m) c)).trans (proj_region2 m m' c h)

/-- The lanes of a 10000×1024 block reduce to its 10000 rows. -/
theorem reduces_rows_10000x1024 : (⟨2, ![10000, 1024]⟩ : Shape).Reduces [1] ⟨1, ![10000]⟩ := by decide

/-- Region 2's second output is the reference's row softmax of that projection: a max-reduce from minus infinity (and a
    maximum with a broadcast minus infinity), the maxima broadcast back, subtract, exponential, a sum-reduce from zero, the
    sums broadcast back, divide. -/
theorem soft_region2 (h : Hyp m m' c) :
    (Cert.KernelIdeal.Hand.W63 (F := Ideal) m c (Proc.devRef .tc Cert.KernelIdeal.main_v54_1) : Cert.KernelIdeal.S10000x1024.Idx → EReal) = Cert.ReferenceIdeal.HandRun.RV (F := Ideal) m' c Cert.ReferenceIdeal.main_v84 := by
  refine (((Cert.KernelIdeal.Hand.frame11 m c Cert.KernelIdeal.main_v54_1 (by decide)).trans (Cert.KernelIdeal.Hand.W11_out4 m c)).trans
    (Cert.KernelIdeal.HandVal.arrAt2_4 (Cert.KernelIdeal.Hand.Vt10 (F := Ideal) m) c)).trans ?_
  refine (congrArg Cert.KernelIdeal.HandVal.softmax2 (proj_region2 m m' c h)).trans ?_
  rw [Cert.ReferenceIdeal.HandRun.rd_main_v84 m' c, Cert.ReferenceIdeal.HandRun.rd_main_v83 m' c, Cert.ReferenceIdeal.HandRun.rd_main_v82 m' c, Cert.ReferenceIdeal.HandRun.rd_main_v81 m' c, Cert.ReferenceIdeal.HandRun.rd_main_v80 m' c, Cert.ReferenceIdeal.HandRun.rd_main_v79 m' c, Cert.ReferenceIdeal.HandRun.rd_main_v78 m' c, Cert.ReferenceIdeal.HandRun.rd_main_v77 m' c, Cert.ReferenceIdeal.HandRun.rd_main_v76 m' c, Cert.ReferenceIdeal.HandRun.rd_main_v75 m' c, Cert.ReferenceIdeal.HandRun.rd_main_v74 m' c, Cert.ReferenceIdeal.HandRun.rd_main_cst_14 m' c, Cert.ReferenceIdeal.HandRun.rd_main_cst_15 m' c, Cert.ReferenceIdeal.HandRun.rd_main_cst_16 m' c]
  refine (rfl : Cert.KernelIdeal.HandVal.softmax2 (Cert.ReferenceIdeal.HandRun.RV (F := Ideal) m' c Cert.ReferenceIdeal.main_v73) = softmax (M := 10000) (N := 1024) (Cert.ReferenceIdeal.HandRun.RV (F := Ideal) m' c Cert.ReferenceIdeal.main_v73)).trans ?_
  have key := host_softmax_term (M := 10000) (N := 1024) (Cert.ReferenceIdeal.HandRun.RV (F := Ideal) m' c Cert.ReferenceIdeal.main_v73) Cert.ReferenceIdeal.Facts₀.reducesTo_S10000x1024_S10000_d1 reduces_rows_10000x1024
    Cert.ReferenceIdeal.Facts₀.h_S_ Cert.ReferenceIdeal.Facts₀.bcast_S_S10000
    (fun v => broadcastInDim Cert.ReferenceIdeal.S10000x1024 ![0, 1] Cert.ReferenceIdeal.Facts₀.bcast_S10000x1_S10000x1024_0_1 (broadcastInDim Cert.ReferenceIdeal.S10000x1 ![0] Cert.ReferenceIdeal.Facts₀.bcast_S10000_S10000x1_0 v)) (fun v i l => col_bcast_apply v Cert.ReferenceIdeal.Facts₀.bcast_S10000_S10000x1_0 Cert.ReferenceIdeal.Facts₀.bcast_S10000x1_S10000x1024_0_1 i l)
  exact key

/-- Widening from bf16 to f32 changes nothing at the extended reals (stated over a variable block, so that no buffer's
    contents are ever unfolded to see it). -/
theorem widen_id {s : Shape} (X : FVec Ideal s .bf16) (hb : FTy.bf16.bits < FTy.f32.bits) :
    (extf .f32 X hb : s.Idx → EReal) = X := rfl

/-- `main_v66` is that output widened from bf16 to f32, which changes nothing at the extended reals. -/
theorem cp_main_v66 (h : Hyp m m' c) : KV m c Cert.KernelIdeal.main_v66 = RV m' c Cert.ReferenceIdeal.main_v84 :=
  ((Cert.KernelIdeal.Hand.kd_main_v66 m c).trans (widen_id (s := Cert.KernelIdeal.S10000x1024) (Cert.KernelIdeal.Hand.W63 (F := Ideal) m c (Proc.devRef .tc Cert.KernelIdeal.main_v54_1)) _)).trans (soft_region2 m m' c h)

/-- `main_v69` is that output widened from bf16 to f32, which changes nothing at the extended reals. -/
theorem cp_main_v69 (h : Hyp m m' c) : KV m c Cert.KernelIdeal.main_v69 = RV m' c Cert.ReferenceIdeal.main_v84 :=
  ((Cert.KernelIdeal.Hand.kd_main_v69 m c).trans (widen_id (s := Cert.KernelIdeal.S10000x1024) (Cert.KernelIdeal.Hand.W63 (F := Ideal) m c (Proc.devRef .tc Cert.KernelIdeal.main_v54_1)) _)).trans (soft_region2 m m' c h)

end Cert.Bridge

end
-- ==== Proof.KI.R3Val.lean ====
import proofs.«405323_j90718299226206_3_alg».proof.Proof.KI.R3
import Idealize.ShloMosaic.Lib.Pipeline.Value
import Idealize.ShloMosaic.Lib.ValueIdx
import Idealize.ShloMosaic.Lib.ValueLayout
import Idealize.ShloMosaic.PureOps.Ideal.Laws

/-! What region 3 leaves in its two output arrays, at the ideal values: the product of the adjacency matrix (rounded
to the narrow format, the identity on ideal values) with the assignment matrix plus the bias row, and the row sums of
the adjacency matrix on every lane, each as ONE function of the input arrays, index by index. The ten column blocks
of a row block are accumulated in order from zero; over the extended reals that chain is the sum over the blocks. -/

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

/-! ## Layout operations the library does not read at an index: a column kept as a unit axis -/

/-- A vector of length a cast to the column shape [a, 1] reads, at (i, u), the operand at i. -/
theorem shapeCast_a_a1_apply3 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply3 {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payloads read at an index -/

theorem hz3 : (![0, 0] : Fin 2 → Nat) = fun _ => 0 := funext fun a => by fin_cases a <;> rfl

/-- The contraction's operand indices at output index (r, c) and contraction coordinate k: (r, k) and (k, c). -/
theorem lhs_dot3_0 (j : S1024x1024.Idx) (k : dot_S1024x1024_S1024x1024_S1024x1024_1_0_0_1_n_n.contr.Idx) :
    (dot_S1024x1024_S1024x1024_S1024x1024_1_0_0_1_n_n.lhsIdx j k 0).val = (j 0).val := rfl
theorem lhs_dot3_1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val := rfl
theorem rhs_dot3_0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val := rfl
theorem rhs_dot3_1 (j : S1024x1024.Idx) (k : dot_S1024x1024_S1024x1024_S1024x1024_1_0_0_1_n_n.contr.Idx) :
    (dot_S1024x1024_S1024x1024_S1024x1024_1_0_0_1_n_n.rhsIdx j k 1).val = (j 1).val := rfl

/-- The block product into the zero accumulator, at (i, j): the sum over the contracted coordinate. -/
theorem matmul3_apply (a : FVec Ideal S1024x1024 .bf16) (b : FVec Ideal S1024x1024 .bf16) (i j : Fin 1024) :
    matmul dot_S1024x1024_S1024x1024_S1024x1024_1_0_0_1_n_n none a b (constant (F := Ideal) S1024x1024 .f32 0x00000000#32) (ix2 i j)
      = ∑ k : Fin 1024, a (ix2 i k) * b (ix2 k j) := by
  refine (Ideal.matmul_constant_zero_apply dot_S1024x1024_S1024x1024_S1024x1024_1_0_0_1_n_n none a b (ix2 i j)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have hl : dot_S1024x1024_S1024x1024_S1024x1024_1_0_0_1_n_n.lhsIdx (ix2 i j) ((contrEquiv1 dot_S1024x1024_S1024x1024_S1024x1024_1_0_0_1_n_n 1024 rfl rfl).symm k) = ix2 i k := by
    funext ax; apply Fin.ext
    match ax with
    | ⟨0, _⟩ => exact lhs_dot3_0 _ _
    | ⟨1, _⟩ => exact (lhs_dot3_1 _ _).trans hk
  have hr : dot_S1024x1024_S1024x1024_S1024x1024_1_0_0_1_n_n.rhsIdx (ix2 i j) ((contrEquiv1 dot_S1024x1024_S1024x1024_S1024x1024_1_0_0_1_n_n 1024 rfl rfl).symm k) = ix2 k j := by
    funext ax; apply Fin.ext
    match ax with
    | ⟨0, _⟩ => exact (rhs_dot3_0 _ _).trans hk
    | ⟨1, _⟩ => exact rhs_dot3_1 _ _
  rw [hl, hr]

/-- The reset's payloads are zero everywhere. -/
theorem k3_pay1_apply (y : S1024x1024.Idx) : k3_pay1 (F := Ideal) y = 0 := by
  unfold k3_pay1
  simp only [shapeCast_self]
  exact Ideal.ofBits_zero_f32
theorem k3_pay2_apply (y : S1024x128.Idx) : k3_pay2 (F := Ideal) y = 0 := by
  unfold k3_pay2
  simp only [shapeCast_self]
  exact Ideal.ofBits_zero_f32

/-- The accumulation step of the product: the accumulator plus this block's product. -/
theorem k3_pay4_apply (x0 : Vec Ideal S1024x1024 .f32) (x1 : Vec Ideal S1024x1024 .bf16) (xs : Vec Ideal S1024x1024 .f32) (i j : Fin 1024) :
    k3_pay4 (F := Ideal) x0 x1 xs (ix2 i j) = xs (ix2 i j) + ∑ k : Fin 1024, x0 (ix2 i k) * x1 (ix2 k j) := by
  unfold k3_pay4 k3_pay3
  simp only [shapeCast_self]
  refine (addf_apply _ _ _).trans ?_
  exact congrArg (xs (ix2 i j) + ·) (matmul3_apply _ _ i j)

/-- The row sum's lift of a reduced index: the coordinate put back on axis 1. -/
theorem lift_rowsum3 (i k : Fin 1024) : reduces_S1024x1024_S1024.lift (ix1 i) k = ix2 i k := by
  funext ax; apply Fin.ext
  match ax with
  | ⟨0, _⟩ => rfl
  | ⟨1, _⟩ => rfl

/-- The accumulation step of the row sum: the accumulator plus this block's row sum, on every lane. -/
theorem k3_pay5_apply (x0 : Vec Ideal S1024x1024 .f32) (xs : Vec Ideal S1024x128 .f32) (i : Fin 1024) (l : Fin 128) :
    k3_pay5 (F := Ideal) x0 xs (ix2 i l) = xs (ix2 i l) + ∑ k : Fin 1024, x0 (ix2 i k) := by
  unfold k3_pay5 k3_pay3
  simp only [shapeCast_self]
  refine (addf_apply _ _ _).trans ?_
  refine congrArg (xs (ix2 i l) + ·) ?_
  refine (broadcastTo_a1_ab_apply3 _ _ i l).trans ?_
  refine (shapeCast_a_a1_apply3 _ _ i (0 : Fin 1)).trans ?_
  refine (Ideal.multiReduction_add_single (φ := .f32) x0 0x00000000#32 reduces_S1024x1024_S1024 (.inl rfl) rfl (ix1 i)).trans ?_
  exact Finset.sum_congr rfl fun k _ => congrArg x0 (lift_rowsum3 i k)

/-- The output's payload: the accumulator plus the bias row. -/
theorem k3_pay6_apply (acc : Vec Ideal S1024x1024 .f32) (b : Vec Ideal S1x1024 .f32) (i j : Fin 1024) :
    k3_pay6 (F := Ideal) acc b (ix2 i j) = acc (ix2 i j) + b (ix2 (0 : Fin 1) j) := by
  unfold k3_pay6
  simp only [shapeCast_self]
  refine (addf_apply _ _ _).trans ?_
  exact congrArg (acc (ix2 i j) + ·) (broadcastTo_1b_ab_apply _ _ i j)

variable (V : (c : Dev nD) → (b : Ref sig .tc) → Buf (Elt Ideal) ((c : Thread nD τ).loc b))

/-! ## What each case's found pieces are: the payloads of the point's input blocks and the accumulators -/

/-- The input blocks at a point, at their literal types. -/
abbrev xb3_0 (c : Dev nD) (t : Fin cfg3.N) : Vec Ideal S1024x1024 .f32 := iblk3 V c 0 t
abbrev xb3_1 (c : Dev nD) (t : Fin cfg3.N) : Vec Ideal S1024x1024 .bf16 := iblk3 V c 1 t
abbrev xb3_2 (c : Dev nD) (t : Fin cfg3.N) : Vec Ideal S1x1024 .f32 := iblk3 V c 2 t

/-- First column block: the reset is read back, then one accumulation step. -/
theorem sA3_0_eq (c : Dev nD) (t : Fin cfg3.N) (h0 : t.val % 10 = 0) :
    sA3_0 V c t h0 = k3_pay4 (xb3_0 V c t) (xb3_1 V c t) (k3_pay1 (F := Ideal)) := by
  unfold sA3_0
  rw [View.read_writes_eq_canon _ _ _ (scover3_A_0 V c t h0)]
  unfold runA3 kernelRun3_A
  dsimp only
  sl_unfold_words
  rw [View.canon_cons_unit_zero (S := S1024x1024) hz3, View.readCov_unit_zero (S := S1024x1024) _ hz3]
  simp only [View.readAt_eq_ld, Memref.IsWhole.read_unread, View.ld_unit_zero (S := S1024x1024) hz3, View.ld_unit_zero (S := S1024x128) hz3, View.ld_unit_zero (S := S1x1024) hz3]
theorem sA3_1_eq (c : Dev nD) (t : Fin cfg3.N) (h0 : t.val % 10 = 0) :
    sA3_1 V c t h0 = k3_pay5 (xb3_0 V c t) (k3_pay2 (F := Ideal)) := by
  unfold sA3_1
  rw [View.read_writes_eq_canon _ _ _ (scover3_A_1 V c t h0)]
  unfold runA3 kernelRun3_A
  dsimp only
  sl_unfold_words
  rw [View.canon_cons_unit_zero (S := S1024x128) hz3, View.readCov_unit_zero (S := S1024x128) _ hz3]
  simp only [View.readAt_eq_ld, Memref.IsWhole.read_unread, View.ld_unit_zero (S := S1024x1024) hz3, View.ld_unit_zero (S := S1024x128) hz3, View.ld_unit_zero (S := S1x1024) hz3]

/-- A middle column block: one accumulation step over what the point before left. -/
theorem sB3_0_eq (c : Dev nD) (t : Fin cfg3.N) (h0 : ¬t.val % 10 = 0) (h9 : ¬t.val % 10 = 9) (xs0 : Vec Ideal S1024x1024 .f32) (xs1 : Vec Ideal S1024x128 .f32) :
    sB3_0 V c t h0 h9 xs0 xs1 = k3_pay4 (xb3_0 V c t) (xb3_1 V c t) xs0 := by
  unfold sB3_0
  rw [View.read_writes_eq_canon _ _ _ (scover3_B_0 V c t h0 h9 xs0 xs1)]
  unfold runB3 kernelRun3_B
  dsimp only
  sl_unfold_words
  rw [View.canon_unit_zero (S := S1024x1024) hz3]
  simp only [View.readAt_eq_ld, Memref.IsWhole.read_unread, View.ld_unit_zero (S := S1024x1024) hz3, View.ld_unit_zero (S := S1024x128) hz3, View.ld_unit_zero (S := S1x1024) hz3]
  exact congrArg (k3_pay4 (xb3_0 V c t) (xb3_1 V c t)) (Memref.IsWhole.read_unread (Val := Elt Ideal) (Memref.isWhole_whole cc3_scratch0) xs0)
theorem sB3_1_eq (c : Dev nD) (t : Fin cfg3.N) (h0 : ¬t.val % 10 = 0) (h9 : ¬t.val % 10 = 9) (xs0 : Vec Ideal S1024x1024 .f32) (xs1 : Vec Ideal S1024x128 .f32) :
    sB3_1 V c t h0 h9 xs0 xs1 = k3_pay5 (xb3_0 V c t) xs1 := by
  unfold sB3_1
  rw [View.read_writes_eq_canon _ _ _ (scover3_B_1 V c t h0 h9 xs0 xs1)]
  unfold runB3 kernelRun3_B
  dsimp only
  sl_unfold_words
  rw [View.canon_unit_zero (S := S1024x128) hz3]
  simp only [View.readAt_eq_ld, Memref.IsWhole.read_unread, View.ld_unit_zero (S := S1024x1024) hz3, View.ld_unit_zero (S := S1024x128) hz3, View.ld_unit_zero (S := S1x1024) hz3]
  exact congrArg (k3_pay5 (xb3_0 V c t)) (Memref.IsWhole.read_unread (Val := Elt Ideal) (Memref.isWhole_whole cc3_scratch1) xs1)

/-- The last column block: the same step, -/
theorem sC3_0_eq (c : Dev nD) (t : Fin cfg3.N) (h9 : t.val % 10 = 9) (xs0 : Vec Ideal S1024x1024 .f32) (xs1 : Vec Ideal S1024x128 .f32) :
    sC3_0 V c t h9 xs0 xs1 = k3_pay4 (xb3_0 V c t) (xb3_1 V c t) xs0 := by
  unfold sC3_0
  rw [View.read_writes_eq_canon _ _ _ (scover3_C_0 V c t h9 xs0 xs1)]
  unfold runC3 kernelRun3_C
  dsimp only
  sl_unfold_words
  rw [View.canon_unit_zero (S := S1024x1024) hz3]
  simp only [View.readAt_eq_ld, Memref.IsWhole.read_unread, View.ld_unit_zero (S := S1024x1024) hz3, View.ld_unit_zero (S := S1024x128) hz3, View.ld_unit_zero (S := S1x1024) hz3]
  exact congrArg (k3_pay4 (xb3_0 V c t) (xb3_1 V c t)) (Memref.IsWhole.read_unread (Val := Elt Ideal) (Memref.isWhole_whole cc3_scratch0) xs0)
theorem sC3_1_eq (c : Dev nD) (t : Fin cfg3.N) (h9 : t.val % 10 = 9) (xs0 : Vec Ideal S1024x1024 .f32) (xs1 : Vec Ideal S1024x128 .f32) :
    sC3_1 V c t h9 xs0 xs1 = k3_pay5 (xb3_0 V c t) xs1 := by
  unfold sC3_1
  rw [View.read_writes_eq_canon _ _ _ (scover3_C_1 V c t h9 xs0 xs1)]
  unfold runC3 kernelRun3_C
  dsimp only
  sl_unfold_words
  rw [View.canon_unit_zero (S := S1024x128) hz3]
  simp only [View.readAt_eq_ld, Memref.IsWhole.read_unread, View.ld_unit_zero (S := S1024x1024) hz3, View.ld_unit_zero (S := S1024x128) hz3, View.ld_unit_zero (S := S1x1024) hz3]
  exact congrArg (k3_pay5 (xb3_0 V c t)) (Memref.IsWhole.read_unread (Val := Elt Ideal) (Memref.isWhole_whole cc3_scratch1) xs1)
/-- and the outputs: the product accumulator read back plus the bias row, and the row-sum accumulator read back. -/
theorem o3C_eq (c : Dev nD) (t : Fin cfg3.N) (h9 : t.val % 10 = 9) (xs0 : Vec Ideal S1024x1024 .f32) (xs1 : Vec Ideal S1024x128 .f32) :
    o3C V c t h9 xs0 xs1 = k3_pay6 (k3_pay4 (xb3_0 V c t) (xb3_1 V c t) xs0) (xb3_2 V c t) := by
  unfold o3C
  rw [View.read_writes_eq_canon _ _ _ (cover3_C_3 V c t h9 xs0 xs1)]
  unfold runC3 kernelRun3_C
  dsimp only
  sl_unfold_words
  rw [View.canon_unit_zero (S := S1024x1024) hz3, View.readCov_unit_zero (S := S1024x1024) _ hz3]
  simp only [View.readAt_eq_ld, Memref.IsWhole.read_unread, View.ld_unit_zero (S := S1024x1024) hz3, View.ld_unit_zero (S := S1024x128) hz3, View.ld_unit_zero (S := S1x1024) hz3]
  exact congrArg (fun z => k3_pay6 (k3_pay4 (xb3_0 V c t) (xb3_1 V c t) z) (xb3_2 V c t)) (Memref.IsWhole.read_unread (Val := Elt Ideal) (Memref.isWhole_whole cc3_scratch0) xs0)
theorem o4C_eq (c : Dev nD) (t : Fin cfg3.N) (h9 : t.val % 10 = 9) (xs0 : Vec Ideal S1024x1024 .f32) (xs1 : Vec Ideal S1024x128 .f32) :
    o4C V c t h9 xs0 xs1 = k3_pay5 (xb3_0 V c t) xs1 := by
  unfold o4C
  rw [View.read_writes_eq_canon _ _ _ (cover3_C_4 V c t h9 xs0 xs1)]
  unfold runC3 kernelRun3_C
  dsimp only
  sl_unfold_words
  rw [View.canon_unit_zero (S := S1024x128) hz3, View.readCov_unit_zero (S := S1024x128) _ hz3]
  simp only [View.readAt_eq_ld, Memref.IsWhole.read_unread, View.ld_unit_zero (S := S1024x1024) hz3, View.ld_unit_zero (S := S1024x128) hz3, View.ld_unit_zero (S := S1x1024) hz3]
  exact congrArg (k3_pay5 (xb3_0 V c t)) (Memref.IsWhole.read_unread (Val := Elt Ideal) (Memref.isWhole_whole cc3_scratch1) xs1)

/-! ## From the blocks to the arrays -/

/-- Column q * 1024 + k of the adjacency matrix: coordinate k of column block q. -/
abbrev col3 (q : Fin 10) (k : Fin 1024) : Fin 10240 := ⟨q.val * 1024 + k.val, by have := q.isLt; have := k.isLt; omega⟩

/-- The first output: the adjacency matrix times the assignment matrix, the ten column blocks summed, plus the bias row. -/
def As3 (adj : Vec Ideal S10240x10240 .f32) (s : Vec Ideal S10240x1024 .bf16) (b : Vec Ideal S1x1024 .f32) : Vec Ideal S10240x1024 .bf16 :=
  fun y => (∑ q : Fin 10, ∑ k : Fin 1024, adj (ix2 (y 0) (col3 q k)) * s (ix2 (col3 q k) (y 1))) + b (ix2 0 (y 1))

/-- The second output: the adjacency matrix's row sums, on every lane. -/
def Rs3 (adj : Vec Ideal S10240x10240 .f32) : Vec Ideal S10240x128 .f32 :=
  fun y => ∑ q : Fin 10, ∑ k : Fin 1024, adj (ix2 (y 0) (col3 q k))

/-! ## The input arrays, and the blocks read through the windows -/

/-- The three input arrays as the region finds them, at their literal types. -/
abbrev adjA3 (c : Dev nD) : Vec Ideal S10240x10240 .f32 := V c (Pipeline.arrRef spec3 0)
abbrev smA3 (c : Dev nD) : Vec Ideal S10240x1024 .bf16 := V c (Pipeline.arrRef spec3 1)
abbrev biasA3 (c : Dev nD) : Vec Ideal S1x1024 .f32 := V c (Pipeline.arrRef spec3 2)

/-- Coordinate i of block number r along an axis of extent 10240 cut in blocks of 1024 (reduced into range, so that
    it is defined for every natural r; for r below 10 the reduction changes nothing). -/
abbrev rowN3 (r : ℕ) (i : Fin 1024) : Fin 10240 := ⟨(r * 1024 + i.val) % 10240, Nat.mod_lt _ (by decide)⟩

theorem rowN3_col3 (q : Fin 10) (k : Fin 1024) : rowN3 q.val k = col3 q k :=
  Fin.ext (Nat.mod_eq_of_lt (by have := q.isLt; have := k.isLt; omega))

/-- The printed index maps, decided once over the grid: the row block is the position's quotient by ten, the column
    block its remainder. -/
theorem idx_facts3 : ∀ t : Fin cfg3.N,
    win3_0.index t (0 : Fin 2) = t.val / 10 ∧ win3_0.index t (1 : Fin 2) = t.val % 10
    ∧ win3_1.index t (0 : Fin 2) = t.val % 10 ∧ win3_1.index t (1 : Fin 2) = 0
    ∧ win3_2.index t (0 : Fin 2) = 0 ∧ win3_2.index t (1 : Fin 2) = 0
    ∧ win3_3.index t (0 : Fin 2) = t.val / 10 ∧ win3_3.index t (1 : Fin 2) = 0
    ∧ win3_4.index t (0 : Fin 2) = t.val / 10 ∧ win3_4.index t (1 : Fin 2) = 0 :=
  (by decide +kernel : ∀ t : Fin grid3.N, _)

theorem lt100_3 (t : Fin cfg3.N) : t.val < 100 := lt_of_lt_of_eq t.isLt (show cfg3.N = 100 from N_3)

/-- The adjacency block at a point, read at (i, k). -/
theorem xb3_0_apply (c : Dev nD) (t : Fin cfg3.N) (i k : Fin 1024) :
    xb3_0 V c t (ix2 i k) = adjA3 V c (ix2 (rowN3 (t.val / 10) i) (rowN3 (t.val % 10) k)) := by
  obtain ⟨e0, e1, -⟩ := idx_facts3 t
  have hN := lt100_3 t
  unfold xb3_0 iblk3
  rw [View.read_apply]
  show V c (Pipeline.arrRef spec3 0) _ = V c (Pipeline.arrRef spec3 0) _
  congr 1
  funext a
  apply Fin.ext
  match a with
  | ⟨0, _⟩ => show win3_0.index t 0 * 1024 + 1 * i.val = (t.val / 10 * 1024 + i.val) % 10240; rw [e0]; have := i.isLt; omega
  | ⟨1, _⟩ => show win3_0.index t 1 * 1024 + 1 * k.val = (t.val % 10 * 1024 + k.val) % 10240; rw [e1]; have := k.isLt; omega

/-- The assignment block at a point, read at (k, j). -/
theorem xb3_1_apply (c : Dev nD) (t : Fin cfg3.N) (k j : Fin 1024) :
    xb3_1 V c t (ix2 k j) = smA3 V c (ix2 (rowN3 (t.val % 10) k) j) := by
  obtain ⟨-, -, e0, e1, -⟩ := idx_facts3 t
  have hN := lt100_3 t
  unfold xb3_1 iblk3
  rw [View.read_apply]
  show V c (Pipeline.arrRef spec3 1) _ = V c (Pipeline.arrRef spec3 1) _
  congr 1
  funext a
  apply Fin.ext
  match a with
  | ⟨0, _⟩ => show win3_1.index t 0 * 1024 + 1 * k.val = (t.val % 10 * 1024 + k.val) % 10240; rw [e0]; have := k.isLt; omega
  | ⟨1, _⟩ => show win3_1.index t 1 * 1024 + 1 * j.val = j.val; rw [e1]; omega

/-- The bias row at a point, read at (0, j). -/
theorem xb3_2_apply (c : Dev nD) (t : Fin cfg3.N) (j : Fin 1024) :
    xb3_2 V c t (ix2 (0 : Fin 1) j) = biasA3 V c (ix2 (0 : Fin 1) j) := by
  obtain ⟨-, -, -, -, e0, e1, -⟩ := idx_facts3 t
  unfold xb3_2 iblk3
  rw [View.read_apply]
  show V c (Pipeline.arrRef spec3 2) _ = V c (Pipeline.arrRef spec3 2) _
  congr 1
  funext a
  apply Fin.ext
  match a with
  | ⟨0, _⟩ => show win3_2.index t 0 * 1 + 1 * 0 = 0; rw [e0]
  | ⟨1, _⟩ => show win3_2.index t 1 * 1024 + 1 * j.val = j.val; rw [e1]; omega

/-! ## One column block's contribution, and the accumulators after each point -/

/-- Column block q's term of the product at row block r, local row i, column j. -/
def blkP3 (c : Dev nD) (r q : ℕ) (i j : Fin 1024) : EReal :=
  ∑ k : Fin 1024, adjA3 V c (ix2 (rowN3 r i) (rowN3 q k)) * smA3 V c (ix2 (rowN3 q k) j)
/-- Column block q's term of the row sum at row block r, local row i. -/
def blkS3 (c : Dev nD) (r q : ℕ) (i : Fin 1024) : EReal :=
  ∑ k : Fin 1024, adjA3 V c (ix2 (rowN3 r i) (rowN3 q k))

/-- What one accumulation step adds, with the blocks read off the arrays. -/
theorem step3_0 (c : Dev nD) (t : Fin cfg3.N) (xs : Vec Ideal S1024x1024 .f32) (i j : Fin 1024) :
    k3_pay4 (F := Ideal) (xb3_0 V c t) (xb3_1 V c t) xs (ix2 i j) = xs (ix2 i j) + blkP3 V c (t.val / 10) (t.val % 10) i j := by
  refine (k3_pay4_apply (xb3_0 V c t) (xb3_1 V c t) xs i j).trans ?_
  refine congrArg (xs (ix2 i j) + ·) ?_
  unfold blkP3
  exact Finset.sum_congr rfl fun k _ => by rw [xb3_0_apply V c t i k, xb3_1_apply V c t k j]
theorem step3_1 (c : Dev nD) (t : Fin cfg3.N) (xs : Vec Ideal S1024x128 .f32) (i : Fin 1024) (l : Fin 128) :
    k3_pay5 (F := Ideal) (xb3_0 V c t) xs (ix2 i l) = xs (ix2 i l) + blkS3 V c (t.val / 10) (t.val % 10) i := by
  refine (k3_pay5_apply (xb3_0 V c t) xs i l).trans ?_
  refine congrArg (xs (ix2 i l) + ·) ?_
  unfold blkS3
  exact Finset.sum_congr rfl fun k _ => by rw [xb3_0_apply V c t i k]

/-- THE ACCUMULATORS after the body at position n: the sum of the column blocks' terms up to this position's column
    block, at this position's row block — by induction on the position. -/
theorem acc3_eq (c : Dev nD) (n : ℕ) : ∀ (h : n < cfg3.N),
    (∀ i j : Fin 1024, (scAt3 V c n h).1 (ix2 i j) = ∑ q ∈ Finset.range (n % 10 + 1), blkP3 V c (n / 10) q i j)
    ∧ (∀ (i : Fin 1024) (l : Fin 128), (scAt3 V c n h).2 (ix2 i l) = ∑ q ∈ Finset.range (n % 10 + 1), blkS3 V c (n / 10) q i) := by
  induction n using Nat.strong_induction_on with
  | _ n ih =>
    intro h
    by_cases h0 : n % 10 = 0
    · rw [scAt3_A V c ⟨n, h⟩ h0]
      dsimp only
      rw [sA3_0_eq V c ⟨n, h⟩ h0, sA3_1_eq V c ⟨n, h⟩ h0, h0]
      refine ⟨fun i j => ?_, fun i l => ?_⟩
      · refine (step3_0 V c ⟨n, h⟩ _ i j).trans ?_
        rw [k3_pay1_apply, zero_add, Finset.sum_range_one]
        show blkP3 V c (n / 10) (n % 10) i j = _
        rw [h0]
      · refine (step3_1 V c ⟨n, h⟩ _ i l).trans ?_
        rw [k3_pay2_apply, zero_add, Finset.sum_range_one]
        show blkS3 V c (n / 10) (n % 10) i = _
        rw [h0]
    · obtain ⟨ih1, ih2⟩ := ih (n - 1) (by omega) (Nat.lt_of_le_of_lt (Nat.sub_le _ _) h)
      have e1 : (n - 1) % 10 + 1 = n % 10 := by omega
      have e2 : (n - 1) / 10 = n / 10 := by omega
      rw [e1, e2] at ih1 ih2
      by_cases h9 : n % 10 = 9
      · rw [scAt3_C V c ⟨n, h⟩ h9]
        dsimp only
        rw [sC3_0_eq V c ⟨n, h⟩ h9, sC3_1_eq V c ⟨n, h⟩ h9]
        refine ⟨fun i j => ?_, fun i l => ?_⟩
        · refine (step3_0 V c ⟨n, h⟩ _ i j).trans ?_
          rw [Finset.sum_range_succ, ih1 i j]
        · refine (step3_1 V c ⟨n, h⟩ _ i l).trans ?_
          rw [Finset.sum_range_succ, ih2 i l]
      · rw [scAt3_B V c ⟨n, h⟩ h0 h9]
        dsimp only
        rw [sB3_0_eq V c ⟨n, h⟩ h0 h9, sB3_1_eq V c ⟨n, h⟩ h0 h9]
        refine ⟨fun i j => ?_, fun i l => ?_⟩
        · refine (step3_0 V c ⟨n, h⟩ _ i j).trans ?_
          rw [Finset.sum_range_succ, ih1 i j]
        · refine (step3_1 V c ⟨n, h⟩ _ i l).trans ?_
          rw [Finset.sum_range_succ, ih2 i l]

/-- The ten column blocks' terms, summed, are the double sum over the column blocks and their coordinates. -/
theorem sum_blocks_P3 (c : Dev nD) (r : ℕ) (i j : Fin 1024) :
    ∑ q ∈ Finset.range 10, blkP3 V c r q i j
      = ∑ q : Fin 10, ∑ k : Fin 1024, adjA3 V c (ix2 (rowN3 r i) (col3 q k)) * smA3 V c (ix2 (col3 q k) j) := by
  rw [Finset.sum_range]
  refine Finset.sum_congr rfl fun q _ => ?_
  unfold blkP3
  exact Finset.sum_congr rfl fun k _ => by rw [rowN3_col3]
theorem sum_blocks_S3 (c : Dev nD) (r : ℕ) (i : Fin 1024) :
    ∑ q ∈ Finset.range 10, blkS3 V c r q i = ∑ q : Fin 10, ∑ k : Fin 1024, adjA3 V c (ix2 (rowN3 r i) (col3 q k)) := by
  rw [Finset.sum_range]
  refine Finset.sum_congr rfl fun q _ => ?_
  unfold blkS3
  exact Finset.sum_congr rfl fun k _ => by rw [rowN3_col3]

/-- WHAT A LAST COLUMN BLOCK WRITES BACK into the first output is its block of the product. -/
theorem flushed3_3_eq (c : Dev nD) (t : Fin cfg3.N) (hf : (cfg3.win 3).flush t = true) :
    (dat3 V c).flushed 3 t = ((cfg3.win 3).blk t).view.read (Elt Ideal) (As3 (adjA3 V c) (smA3 V c) (biasA3 V c)) := by
  have h9 : t.val % 10 = 9 := (flush3_3 t).mp hf
  have hN := lt100_3 t
  obtain ⟨-, -, -, -, -, -, e0, e1, -⟩ := idx_facts3 t
  obtain ⟨ih1, -⟩ := acc3_eq V c (t.val - 1) (Nat.lt_of_le_of_lt (Nat.sub_le _ _) t.isLt)
  have e1' : (t.val - 1) % 10 + 1 = 9 := by omega
  have e2' : (t.val - 1) / 10 = t.val / 10 := by omega
  rw [e1', e2'] at ih1
  show (cfg3.win 3).cut (grid3.coords t) ((dat3 V c).after 3 t) = _
  rw [after3_3, o3At_C V c t h9, o3C_eq]
  funext y
  obtain ⟨i, j, rfl⟩ : ∃ (i : Fin 1024) (j : Fin 1024), y = ix2 i j := ⟨y 0, y 1, eq_ix2 y⟩
  have hemb : ((cfg3.win 3).blk t).view.emb (ix2 i j) = (ix2 (rowN3 (t.val / 10) i) j : S10240x1024.Idx) := by
    funext a; apply Fin.ext
    match a with
    | ⟨0, _⟩ => show win3_3.index t 0 * 1024 + 1 * i.val = (t.val / 10 * 1024 + i.val) % 10240; rw [e0]; have := i.isLt; omega
    | ⟨1, _⟩ => show win3_3.index t 1 * 1024 + 1 * j.val = j.val; rw [e1]; omega
  rw [View.read_apply, hemb]
  show k3_pay6 (k3_pay4 (xb3_0 V c t) (xb3_1 V c t) (scAt3 V c (t.val - 1) _).1) (xb3_2 V c t) (ix2 i j)
    = As3 (adjA3 V c) (smA3 V c) (biasA3 V c) (ix2 (rowN3 (t.val / 10) i) j)
  refine (k3_pay6_apply _ _ i j).trans ?_
  rw [step3_0 V c t _ i j, ih1 i j, xb3_2_apply V c t j, h9, ← Finset.sum_range_succ, sum_blocks_P3]
  rfl

/-- WHAT A LAST COLUMN BLOCK WRITES BACK into the second output is its block of the row sums. -/
theorem flushed3_4_eq (c : Dev nD) (t : Fin cfg3.N) (hf : (cfg3.win 4).flush t = true) :
    (dat3 V c).flushed 4 t = ((cfg3.win 4).blk t).view.read (Elt Ideal) (Rs3 (adjA3 V c)) := by
  have h9 : t.val % 10 = 9 := (flush3_4 t).mp hf
  have hN := lt100_3 t
  obtain ⟨-, -, -, -, -, -, -, -, e0, e1⟩ := idx_facts3 t
  obtain ⟨-, ih2⟩ := acc3_eq V c (t.val - 1) (Nat.lt_of_le_of_lt (Nat.sub_le _ _) t.isLt)
  have e1' : (t.val - 1) % 10 + 1 = 9 := by omega
  have e2' : (t.val - 1) / 10 = t.val / 10 := by omega
  rw [e1', e2'] at ih2
  show (cfg3.win 4).cut (grid3.coords t) ((dat3 V c).after 4 t) = _
  rw [after3_4, o4At_C V c t h9, o4C_eq]
  funext y
  obtain ⟨i, l, rfl⟩ : ∃ (i : Fin 1024) (l : Fin 128), y = ix2 i l := ⟨y 0, y 1, eq_ix2 y⟩
  have hemb : ((cfg3.win 4).blk t).view.emb (ix2 i l) = (ix2 (rowN3 (t.val / 10) i) l : S10240x128.Idx) := by
    funext a; apply Fin.ext
    match a with
    | ⟨0, _⟩ => show win3_4.index t 0 * 1024 + 1 * i.val = (t.val / 10 * 1024 + i.val) % 10240; rw [e0]; have := i.isLt; omega
    | ⟨1, _⟩ => show win3_4.index t 1 * 128 + 1 * l.val = l.val; rw [e1]; omega
  rw [View.read_apply, hemb]
  show k3_pay5 (xb3_0 V c t) (scAt3 V c (t.val - 1) _).2 (ix2 i l) = Rs3 (adjA3 V c) (ix2 (rowN3 (t.val / 10) i) l)
  rw [step3_1 V c t _ i l, ih2 i l, h9, ← Finset.sum_range_succ, sum_blocks_S3]
  rfl

/-- An index of an output array is in point t's block iff each coordinate is in the block's range on its axis. -/
theorem mem_blk3_3 (t : Fin cfg3.N) (i : S10240x1024.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v58_0).slice (win3_3.rect t)).set ↔ _
  rw [View.set_slice_whole, Rect.mem_set_unit]
  exact Iff.rfl
theorem mem_blk3_4 (t : Fin cfg3.N) (i : S10240x128.Idx) :
    i ∈ ((cfg3.win 4).blk t).view.set ↔ ∀ a : Fin 2, win3_4.index t a * S1024x128.size a ≤ (i a).val ∧ (i a).val < win3_4.index t a * S1024x128.size a + S1024x128.size a := by
  show i ∈ ((View.whole main_v58_1).slice (win3_4.rect t)).set ↔ _
  rw [View.set_slice_whole, Rect.mem_set_unit]
  exact Iff.rfl

/-- Every index of an output array is in the block of its row block's last point. -/
theorem cover3_3 (i : S10240x1024.Idx) : ∃ t : Fin cfg3.N, (cfg3.win 3).flush t = true ∧ i ∈ ((cfg3.win 3).blk t).view.set := by
  have hi0 : (i 0).val < 10240 := (i 0).isLt
  have hi1 : (i 1).val < 1024 := (i 1).isLt
  have hlt : (i 0).val / 1024 * 10 + 9 < cfg3.N := by rw [show cfg3.N = 100 from N_3]; omega
  obtain ⟨-, -, -, -, -, -, e0, e1, -⟩ := idx_facts3 ⟨(i 0).val / 1024 * 10 + 9, hlt⟩
  refine ⟨⟨(i 0).val / 1024 * 10 + 9, hlt⟩, (flush3_3 _).mpr (by show ((i 0).val / 1024 * 10 + 9) % 10 = 9; omega), ?_⟩
  rw [mem_blk3_3]
  intro a
  match a with
  | ⟨0, _⟩ =>
    show win3_3.index ⟨(i 0).val / 1024 * 10 + 9, hlt⟩ 0 * 1024 ≤ (i 0).val ∧ (i 0).val < win3_3.index ⟨(i 0).val / 1024 * 10 + 9, hlt⟩ 0 * 1024 + 1024
    rw [e0]; show ((i 0).val / 1024 * 10 + 9) / 10 * 1024 ≤ (i 0).val ∧ (i 0).val < ((i 0).val / 1024 * 10 + 9) / 10 * 1024 + 1024; omega
  | ⟨1, _⟩ =>
    show win3_3.index ⟨(i 0).val / 1024 * 10 + 9, hlt⟩ 1 * 1024 ≤ (i 1).val ∧ (i 1).val < win3_3.index ⟨(i 0).val / 1024 * 10 + 9, hlt⟩ 1 * 1024 + 1024
    rw [e1]; omega
theorem cover3_4 (i : S10240x128.Idx) : ∃ t : Fin cfg3.N, (cfg3.win 4).flush t = true ∧ i ∈ ((cfg3.win 4).blk t).view.set := by
  have hi0 : (i 0).val < 10240 := (i 0).isLt
  have hi1 : (i 1).val < 128 := (i 1).isLt
  have hlt : (i 0).val / 1024 * 10 + 9 < cfg3.N := by rw [show cfg3.N = 100 from N_3]; omega
  obtain ⟨-, -, -, -, -, -, -, -, e0, e1⟩ := idx_facts3 ⟨(i 0).val / 1024 * 10 + 9, hlt⟩
  refine ⟨⟨(i 0).val / 1024 * 10 + 9, hlt⟩, (flush3_4 _).mpr (by show ((i 0).val / 1024 * 10 + 9) % 10 = 9; omega), ?_⟩
  rw [mem_blk3_4]
  intro a
  match a with
  | ⟨0, _⟩ =>
    show win3_4.index ⟨(i 0).val / 1024 * 10 + 9, hlt⟩ 0 * 1024 ≤ (i 0).val ∧ (i 0).val < win3_4.index ⟨(i 0).val / 1024 * 10 + 9, hlt⟩ 0 * 1024 + 1024
    rw [e0]; show ((i 0).val / 1024 * 10 + 9) / 10 * 1024 ≤ (i 0).val ∧ (i 0).val < ((i 0).val / 1024 * 10 + 9) / 10 * 1024 + 1024; omega
  | ⟨1, _⟩ =>
    show win3_4.index ⟨(i 0).val / 1024 * 10 + 9, hlt⟩ 1 * 128 ≤ (i 1).val ∧ (i 1).val < win3_4.index ⟨(i 0).val / 1024 * 10 + 9, hlt⟩ 1 * 128 + 128
    rw [e1]; omega

/-- THE FIRST OUTPUT ARRAY after the region: the product plus the bias row, as one function of the input arrays. -/
theorem final3_3 (c : Dev nD) :
    (dat3 (F := Ideal) V c).arrAt 3 cfg3.N = As3 (V c (Pipeline.arrRef spec3 0)) (V c (Pipeline.arrRef spec3 1)) (V c (Pipeline.arrRef spec3 2)) :=
  (dat3 V c).arrAt_eq_of_cover 3 (As3 (adjA3 V c) (smA3 V c) (biasA3 V c)) (flushed3_3_eq V c) cover3_3

/-- THE SECOND OUTPUT ARRAY after the region: the adjacency matrix's row sums on every lane. -/
theorem final3_4 (c : Dev nD) :
    (dat3 (F := Ideal) V c).arrAt 4 cfg3.N = Rs3 (V c (Pipeline.arrRef spec3 0)) :=
  (dat3 V c).arrAt_eq_of_cover 4 (Rs3 (adjA3 V c)) (flushed3_4_eq V c) cover3_4

end Cert.KernelIdeal.HandVal

end
-- ==== Proof.Bridge.CP1g0.lean ====
/-
  REGION 3'S ROW SUMS AGAINST THE REFERENCE'S. After region 3 its second output holds, on every lane of row i, the sum of
  row i of the kernel's adjacency matrix, taken as ten blocks of 1024 columns. The kernel's matrix is the reference's
  10000 x 10000 matrix in the corner of a 10240 x 10240 one that vanishes outside that corner, so the ten blocks' sums
  are the sum over the first 10000 columns, entry by entry the reference's. The kernel then keeps lane 0 of the first
  10000 rows as a vector, and the reference reduces its matrix along the columns from the initial value 0: the same sums.
-/
import proofs.«405323_j90718299226206_3_alg».proof.Proof.Bridge.CP1e
import proofs.«405323_j90718299226206_3_alg».proof.Proof.KI.R3Val
import proofs.«405323_j90718299226206_3_alg».proof.Proof.Math.Layer1
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.Bridge

open Idealize.ShloMosaic Idealize.ShloMosaic.TcCoe Idealize.SL.Sem Idealize.ShloMosaic.ValueIdx

/-! ## Ten blocks of 1024 coordinates are the 10240 coordinates -/

/-- A sum over the ten column blocks and the 1024 coordinates of each is the sum over the 10240 columns: block q's
    coordinate k is column q * 1024 + k, and every column is exactly one of these. -/
theorem sum_col3 {M : Type*} [AddCommMonoid M] (f : Fin 10240 → M) :
    ∑ q : Fin 10, ∑ k : Fin 1024, f (Cert.KernelIdeal.HandVal.col3 q k) = ∑ i : Fin 10240, f i := by
  have e : ∑ i : Fin 10240, f i = ∑ p : Fin 10 × Fin 1024, f (finProdFinEquiv p) :=
    (Equiv.sum_comp (finProdFinEquiv (m := 10) (n := 1024)) f).symm
  rw [e, Fintype.sum_prod_type]
  refine Finset.sum_congr rfl fun q _ => Finset.sum_congr rfl fun k _ => congrArg f (Fin.ext ?_)
  show q.val * 1024 + k.val = k.val + 1024 * q.val
  omega

/-! ## Two layout operations read at an index -/

/-- A column [a, 1] cast to a vector of length a reads, at i, the column at (i, 0). -/
theorem shapeCast_a1_a_apply_g0 {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The leading corner of a matrix, cut from offset (0, 0), reads at (j, e) the matrix at the same coordinates. -/
theorem slice_corner_apply_g0 {α : Type} {n0 n1 m0 m1 : ℕ} (X : (⟨2, ![n0, n1]⟩ : Shape).Idx → α)
    (h : (⟨2, ![n0, n1]⟩ : Shape).Slices ![0, 0] ⟨2, ![m0, m1]⟩) (j : Fin m0) (e : Fin m1) (k : Fin n0) (l : Fin n1)
    (hk : k.val = j.val) (hl : l.val = e.val) :
    extractStridedSlice ⟨2, ![m0, m1]⟩ ![0, 0] X h (ix2 j e) = X (ix2 k l) :=
  extractStridedSlice_apply _ _ _ _ _ (fun ax => by
    match ax with
    | ⟨0, _⟩ => exact hk.trans (Nat.zero_add _).symm
    | ⟨1, _⟩ => exact hl.trans (Nat.zero_add _).symm)

/-- The row index put back under a reduction along the columns. -/
theorem lift_cols_g0 {n0 n1 : ℕ} (hR : (⟨2, ![n0, n1]⟩ : Shape).Reduces [1] ⟨1, ![n0]⟩) (r : Fin n0) (k : Fin n1) :
    hR.lift (ix1 r) k = ix2 r k := by
  funext ax; apply Fin.ext
  match ax with
  | ⟨0, _⟩ => rfl
  | ⟨1, _⟩ => rfl

/-! ## The row sums, on both sides, as pure functions of the two adjacency matrices -/

/-- Lane 0 of row r of the ten-block row sums of a 10240 x 10240 matrix that vanishes on the columns from 10000 on is the
    sum of that row over the first 10000 columns: the ten blocks are the 10240 columns, and the last 240 add nothing. -/
theorem rowsum_blocks_g0 (A : Vec Ideal Cert.KernelIdeal.S10240x10240 .f32)
    (hA0 : ∀ (r s : Fin 10240), (10000 ≤ r.val ∨ 10000 ≤ s.val) → A (ix2 r s) = 0) (r : Fin 10000) :
    Cert.KernelIdeal.HandVal.Rs3 A (ix2 (Fin.castLE (by decide) r) (0 : Fin 128))
      = ∑ s : Fin 10000, A (ix2 (Fin.castLE (by decide) r) (Fin.castLE (by decide) s)) := by
  show (∑ q : Fin 10, ∑ k : Fin 1024, A (ix2 (Fin.castLE (by decide) r) (Cert.KernelIdeal.HandVal.col3 q k))) = _
  rw [sum_col3 (fun i : Fin 10240 => A (ix2 (Fin.castLE (by decide) r) i))]
  exact Cert.Math.sum_fin_pad (by decide : 10000 ≤ 10240) _ (fun i hi => hA0 (Fin.castLE (by decide) r) i (Or.inr hi))

/-- The host's reduction of a 10000 x 10000 matrix along its columns from the initial value 0, at r: the sum of row r. -/
theorem reduce_cols_g0 (B : Vec Ideal Cert.ReferenceIdeal.S10000x10000 .f32) (z : Cert.ReferenceIdeal.S_.Idx → Ideal .f32)
    (hz : z = constant (F := Ideal) Cert.ReferenceIdeal.S_ .f32 0x00000000#32)
    (hT : Cert.ReferenceIdeal.S10000x10000.ReducesTo [1] Cert.ReferenceIdeal.S10000) (hu : 0 < Cert.ReferenceIdeal.S_.numel) (r : Fin 10000) :
    Host.reduceAdd (F := Ideal) B z hT hu (ix1 r) = ∑ s : Fin 10000, B (ix2 r s) := by
  have hR : Cert.ReferenceIdeal.S10000x10000.Reduces [1] Cert.ReferenceIdeal.S10000 := ⟨hT.1, Nat.one_pos, hT.2⟩
  subst hz
  refine (Ideal.hostReduceAdd_single hT hR B _ (ix1 r)).trans ?_
  show Ideal.ofBits .f32 0x00000000#32 + _ = _
  rw [Ideal.ofBits_zero_f32, zero_add]
  exact Finset.sum_congr rfl fun s _ => congrArg B (lift_cols_g0 hR r s)

/-- So when the big matrix is the small one in its leading corner and vanishes outside it, the kept lane of its
    ten-block row sums is the host's reduction of the small one. -/
theorem rowsums_agree_g0 (A : Vec Ideal Cert.KernelIdeal.S10240x10240 .f32) (B : Vec Ideal Cert.ReferenceIdeal.S10000x10000 .f32)
    (z : Cert.ReferenceIdeal.S_.Idx → Ideal .f32) (hz : z = constant (F := Ideal) Cert.ReferenceIdeal.S_ .f32 0x00000000#32)
    (hT : Cert.ReferenceIdeal.S10000x10000.ReducesTo [1] Cert.ReferenceIdeal.S10000) (hu : 0 < Cert.ReferenceIdeal.S_.numel)
    (hcorner : ∀ r s : Fin 10000, A (ix2 (Fin.castLE (by decide) r) (Fin.castLE (by decide) s)) = B (ix2 r s))
    (hA0 : ∀ (r s : Fin 10240), (10000 ≤ r.val ∨ 10000 ≤ s.val) → A (ix2 r s) = 0) (r : Fin 10000) :
    Cert.KernelIdeal.HandVal.Rs3 A (ix2 (Fin.castLE (by decide) r) (0 : Fin 128)) = Host.reduceAdd (F := Ideal) B z hT hu (ix1 r) :=
  ((rowsum_blocks_g0 A hA0 r).trans (Finset.sum_congr rfl fun s _ => hcorner r s)).trans (reduce_cols_g0 B z hz hT hu r).symm

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The kernel's side: the kept lane of region 3's second output -/

/-- Region 3's second output, at the end of the kernel's run, is its value function of the adjacency matrix as it is
    at the end (the matrix is written before the region and never after). -/
theorem kv_rowsums : KV m c Cert.KernelIdeal.main_v58_1 = Cert.KernelIdeal.HandVal.Rs3 (KV m c Cert.KernelIdeal.main_v18) := by
  have eadj : (Cert.KernelIdeal.Hand.W16 (F := Ideal) m c (Proc.devRef .tc Cert.KernelIdeal.main_v18) : Vec Ideal Cert.KernelIdeal.S10240x10240 .f32)
      = Cert.KernelIdeal.Hand.W63 (F := Ideal) m c (Proc.devRef .tc Cert.KernelIdeal.main_v18) :=
    (Cert.KernelIdeal.Hand.frame16 m c Cert.KernelIdeal.main_v18 (by decide)).symm
  exact (((Cert.KernelIdeal.Hand.frame17 m c Cert.KernelIdeal.main_v58_1 (by decide)).trans (Cert.KernelIdeal.Hand.W17_out4 m c)).trans
    (Cert.KernelIdeal.HandVal.final3_4 (Cert.KernelIdeal.Hand.Vt16 m) c)).trans (congrArg Cert.KernelIdeal.HandVal.Rs3 eadj)

/-- The kernel's vector of row sums at r: lane 0 of row r of region 3's second output (the cast of the leading
    10000 x 1 corner). -/
theorem kv_v60_apply (r : Fin 10000) :
    (KV m c Cert.KernelIdeal.main_v60 : Vec Ideal Cert.KernelIdeal.S10000 .f32) (ix1 r)
      = (KV m c Cert.KernelIdeal.main_v58_1 : Vec Ideal Cert.KernelIdeal.S10240x128 .f32) (ix2 (Fin.castLE (by decide) r) (0 : Fin 128)) := by
  have k60 := Cert.KernelIdeal.Hand.kd_main_v60 (F := Ideal) m c
  have k59 := Cert.KernelIdeal.Hand.kd_main_v59 (F := Ideal) m c
  generalize Cert.KernelIdeal.Hand.W63 (F := Ideal) m c = V at k60 k59 ⊢
  exact ((congrFun k60 (ix1 r)).trans (shapeCast_a1_a_apply_g0 _ _ r)).trans
    ((congrFun k59 (ix2 r (0 : Fin 1))).trans (slice_corner_apply_g0 _ _ r (0 : Fin 1) (Fin.castLE (by decide) r) (0 : Fin 128) rfl rfl))

/-! ## The checkpoint -/

/-- The kernel's vector of adjacency row sums is the reference's. -/
theorem cp_main_v60 (h : Hyp m m' c) : KV m c Cert.KernelIdeal.main_v60 = RV m' c Cert.ReferenceIdeal.main_v91 := by
  funext y
  obtain ⟨r, rfl⟩ : ∃ r : Fin 10000, y = ix1 r := ⟨y 0, eq_ix1 y⟩
  refine ((kv_v60_apply m c r).trans (congrFun (kv_rowsums m c) (ix2 (Fin.castLE (by decide) r) (0 : Fin 128)))).trans ?_
  refine Eq.trans ?_ (congrFun (Cert.ReferenceIdeal.HandRun.rd_main_v91 (F := Ideal) m' c) (ix1 r)).symm
  exact rowsums_agree_g0 _ _ _ (Cert.ReferenceIdeal.HandRun.rd_main_cst_17 (F := Ideal) m' c) _ _
    (fun r s => adjKV_corner m m' c h r s) (fun r s hrs => adjKV_outside m m' c h r s hrs) r

end Cert.Bridge

end
-- ==== Proof.Bridge.CP1g.lean ====
/-
  REGION 3 AGAINST THE REFERENCE'S PRODUCT OF ADJACENCY AND ASSIGNMENT. Region 3 multiplies the kernel's adjacency
  matrix (10240 × 10240: the reference's 10000 × 10000 in the corner, zeros around it) with the first pooling step's
  softmax padded below with 240 rows of zeros, ten column blocks of 1024 at a time, and adds a bias row that is the
  constant 0.0. At a row k < 10000 and a column j the ten block sums are one sum over 10240 columns; the last 240
  terms vanish with the padding rows; on the first 10000 the two factors are the reference's adjacency and softmax.
  That is the reference's dot_general of the two at (k, j).
-/
import proofs.«405323_j90718299226206_3_alg».proof.Proof.Bridge.CP1c
import proofs.«405323_j90718299226206_3_alg».proof.Proof.Bridge.CP1g0
import proofs.«405323_j90718299226206_3_alg».proof.Proof.KI.R3Val
import proofs.«405323_j90718299226206_3_alg».proof.Proof.Ref.Dots
import proofs.«405323_j90718299226206_3_alg».proof.Proof.Math.MM
import proofs.«405323_j90718299226206_3_alg».proof.Proof.Math.Reads

set_option maxRecDepth 16384

noncomputable section

namespace Cert.Bridge

open Idealize.ShloMosaic Idealize.ShloMosaic.TcCoe Idealize.SL.Sem Idealize.ShloMosaic.ValueIdx
open scoped BigOperators

/-- The scalar 0.0 broadcast to a row of a matrix: zero at every entry. -/
theorem zero_bcast_row_apply {N : ℕ} (hb : (⟨0, ![]⟩ : Shape).BroadcastsInDim ⟨2, ![1, N]⟩ ![]) (j : (⟨2, ![1, N]⟩ : Shape).Idx) :
    broadcastInDim ⟨2, ![1, N]⟩ ![] hb (constant (F := Ideal) ⟨0, ![]⟩ .f32 0x00000000#32) j = 0 :=
  Ideal.ofBits_zero_f32

/-- The integer 0 converted to a float is 0. -/
theorem sitofp_zero_apply (i : (⟨0, ![]⟩ : Shape).Idx) :
    (sitofp (F := Ideal) .bf16 (constantI ⟨0, ![]⟩ 32 0#32)) i = 0 := by
  show (((0#32 : BitVec 32).toInt : ℝ) : EReal) = 0
  simp

/-- A widening of the float format is the identity on extended reals. -/
theorem extf_ideal_eq {s : Shape} (x : FVec Ideal s .bf16) (h : FTy.bf16.bits < FTy.f32.bits) : extf .f32 x h = x := rfl

/-- Region 3's first output read at a row of the unpadded corner: when the bias row is zero, the assignment matrix
    vanishes on its padding rows, and adjacency and assignment agree with the unpadded R and T on the corner, the
    entry is the plain product of R and T there — the ten column blocks are all 10240 columns, of which the last 240
    contribute nothing. -/
theorem as3_rows_eq (A : Vec Ideal Cert.KernelIdeal.S10240x10240 .f32) (S : Vec Ideal Cert.KernelIdeal.S10240x1024 .bf16)
    (B : Vec Ideal Cert.KernelIdeal.S1x1024 .f32) (R : (⟨2, ![10000, 10000]⟩ : Shape).Idx → EReal)
    (T : (⟨2, ![10000, 1024]⟩ : Shape).Idx → EReal) (k : Fin 10000) (j : Fin 1024)
    (hB : B (ix2 (0 : Fin 1) j) = (0 : EReal))
    (hA : ∀ s : Fin 10000, A (ix2 (Fin.castLE (by decide) k) (Fin.castLE (by decide) s)) = R (ix2 k s))
    (hS : ∀ s : Fin 10000, S (ix2 (Fin.castLE (by decide) s) j) = T (ix2 s j))
    (hS0 : ∀ s : Fin 10240, 10000 ≤ s.val → S (ix2 s j) = (0 : EReal)) :
    Cert.KernelIdeal.HandVal.As3 A S B (ix2 (Fin.castLE (by decide) k) j) = ∑ s : Fin 10000, R (ix2 k s) * T (ix2 s j) := by
  show (∑ q : Fin 10, ∑ kk : Fin 1024, A (ix2 (Fin.castLE (by decide) k) (Cert.KernelIdeal.HandVal.col3 q kk)) * S (ix2 (Cert.KernelIdeal.HandVal.col3 q kk) j))
      + B (ix2 (0 : Fin 1) j) = _
  rw [hB, add_zero]
  refine (sum_col3 fun s => A (ix2 (Fin.castLE (by decide) k) s) * S (ix2 s j)).trans ?_
  refine (Cert.Math.sum_mul_fin_pad (by decide : 10000 ≤ 10240) (fun s => A (ix2 (Fin.castLE (by decide) k) s)) (fun s => S (ix2 s j)) hS0).trans ?_
  exact Finset.sum_congr rfl fun s _ => by rw [hA s, hS s]

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 3's first output at a row of the unpadded corner, against the reference's product of its adjacency with
    its softmax: GIVEN that the kernel's adjacency agrees with the reference's on that row's corner entries, and
    that the kernel's softmax (as f32) is the reference's. The region's value is the ten-block sum plus the bias
    row; its second operand is the kernel's softmax padded below with the converted integer 0, its third the
    broadcast constant 0.0. -/
theorem asp_rows_core (k : Fin 10000) (j : Fin 1024)
    (hadj : ∀ s : Fin 10000, (Cert.KernelIdeal.Hand.W63 (F := Ideal) m c (Proc.devRef .tc Cert.KernelIdeal.main_v18)) (ix2 (Fin.castLE (by decide) k) (Fin.castLE (by decide) s))
      = (Cert.ReferenceIdeal.HandRun.RV (F := Ideal) m' c Cert.ReferenceIdeal.main_v18) (ix2 k s))
    (hsm : Cert.KernelIdeal.Hand.W63 (F := Ideal) m c (Proc.devRef .tc Cert.KernelIdeal.main_v66) = Cert.ReferenceIdeal.HandRun.RV (F := Ideal) m' c Cert.ReferenceIdeal.main_v84) :
    (Cert.KernelIdeal.Hand.W63 (F := Ideal) m c (Proc.devRef .tc Cert.KernelIdeal.main_v58_0)) (ix2 (Fin.castLE (by decide) k) j) = (Cert.ReferenceIdeal.HandRun.RV (F := Ideal) m' c Cert.ReferenceIdeal.main_v88) (ix2 k j) := by
  -- what the region finds in its three input arrays is what they hold at the end
  have e18 : (Cert.KernelIdeal.Hand.W16 (F := Ideal) m c (Proc.devRef .tc Cert.KernelIdeal.main_v18) : Vec Ideal Cert.KernelIdeal.S10240x10240 .f32) = Cert.KernelIdeal.Hand.W63 (F := Ideal) m c (Proc.devRef .tc Cert.KernelIdeal.main_v18) :=
    (Cert.KernelIdeal.Hand.frame16 m c Cert.KernelIdeal.main_v18 (by decide)).symm
  have e55 : (Cert.KernelIdeal.Hand.W16 (F := Ideal) m c (Proc.devRef .tc Cert.KernelIdeal.main_v55) : Vec Ideal Cert.KernelIdeal.S10240x1024 .bf16) = Cert.KernelIdeal.Hand.W63 (F := Ideal) m c (Proc.devRef .tc Cert.KernelIdeal.main_v55) :=
    (Cert.KernelIdeal.Hand.frame16 m c Cert.KernelIdeal.main_v55 (by decide)).symm
  have e57 : (Cert.KernelIdeal.Hand.W16 (F := Ideal) m c (Proc.devRef .tc Cert.KernelIdeal.main_v57) : Vec Ideal Cert.KernelIdeal.S1x1024 .f32) = Cert.KernelIdeal.Hand.W63 (F := Ideal) m c (Proc.devRef .tc Cert.KernelIdeal.main_v57) :=
    (Cert.KernelIdeal.Hand.frame16 m c Cert.KernelIdeal.main_v57 (by decide)).symm
  -- the region's first output is its value function of them
  have eo : (Cert.KernelIdeal.Hand.W63 (F := Ideal) m c (Proc.devRef .tc Cert.KernelIdeal.main_v58_0) : Vec Ideal Cert.KernelIdeal.S10240x1024 .bf16)
      = Cert.KernelIdeal.HandVal.As3 (Cert.KernelIdeal.Hand.W63 (F := Ideal) m c (Proc.devRef .tc Cert.KernelIdeal.main_v18)) (Cert.KernelIdeal.Hand.W63 (F := Ideal) m c (Proc.devRef .tc Cert.KernelIdeal.main_v55)) (Cert.KernelIdeal.Hand.W63 (F := Ideal) m c (Proc.devRef .tc Cert.KernelIdeal.main_v57)) :=
    (((Cert.KernelIdeal.Hand.frame17 m c Cert.KernelIdeal.main_v58_0 (by decide)).trans (Cert.KernelIdeal.Hand.W17_out3 m c)).trans
      (Cert.KernelIdeal.HandVal.final3_3 (Cert.KernelIdeal.Hand.Vt16 m) c)).trans
      (congr (congr (congrArg Cert.KernelIdeal.HandVal.As3 e18) e55) e57)
  have k55 := Cert.KernelIdeal.Hand.kd_main_v55 (F := Ideal) m c
  have kc3 := Cert.KernelIdeal.Hand.kd_main_call3_v0 (F := Ideal) m c
  have kc9 := Cert.KernelIdeal.Hand.kd_main_c_9 (F := Ideal) m c
  have k57 := Cert.KernelIdeal.Hand.kd_main_v57 (F := Ideal) m c
  have kc11 := Cert.KernelIdeal.Hand.kd_main_cst_11 (F := Ideal) m c
  have k66 := Cert.KernelIdeal.Hand.kd_main_v66 (F := Ideal) m c
  have r88 := Cert.ReferenceIdeal.HandRun.rd_main_v88 (F := Ideal) m' c
  clear e18 e55 e57
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  -- the kernel's softmax is the reference's: the widening to f32 is the identity on extended reals
  have h84 : (V (Proc.devRef .tc Cert.KernelIdeal.main_v54_1) : Vec Ideal Cert.KernelIdeal.S10000x1024 .bf16) = V' (Proc.devRef .tc Cert.ReferenceIdeal.main_v84) :=
    ((k66.trans (extf_ideal_eq _ _)).symm).trans hsm
  rw [eo, r88, Cert.ReferenceIdeal.Dots.dot_S10000x10000_S10000x1024_apply]
  refine as3_rows_eq (V (Proc.devRef .tc Cert.KernelIdeal.main_v18)) (V (Proc.devRef .tc Cert.KernelIdeal.main_v55)) (V (Proc.devRef .tc Cert.KernelIdeal.main_v57))
    (V' (Proc.devRef .tc Cert.ReferenceIdeal.main_v18)) (V' (Proc.devRef .tc Cert.ReferenceIdeal.main_v84)) k j ?_ hadj ?_ ?_
  · -- the bias row: the constant 0.0, broadcast
    rw [k57, kc11]
    exact zero_bcast_row_apply _ _
  · -- a row of the corner: the padded array there is the softmax
    intro s
    rw [k55]
    exact (Cert.Math.pad_rows_apply_inside (n := 10000) (p := 240) (m := 1024) (N := 10240) _ _ _ _ s (Fin.castLE (by decide) s) rfl j).trans
      (congrFun h84 (ix2 s j))
  · -- a padding row: the padding value, the integer 0 converted
    intro s hs
    rw [k55]
    refine (Cert.Math.pad_rows_apply_outside (n := 10000) (p := 240) (m := 1024) (N := 10240) _ _ _ _ s hs j).trans ?_
    rw [kc3, kc9]
    exact sitofp_zero_apply _

/-- Region 3's first output, at a row of the unpadded corner, is the reference's product of its adjacency with its
    softmax: the adjacency agrees on the corner and the softmax is the reference's. -/
theorem asp_rows (h : Hyp m m' c) (k : Fin 10000) (j : Fin 1024) :
    (KV m c Cert.KernelIdeal.main_v58_0) (ix2 (Fin.castLE (by decide) k) j) = (RV m' c Cert.ReferenceIdeal.main_v88) (ix2 k j) :=
  asp_rows_core m m' c k j (fun s => adjKV_corner m m' c h k s) (cp_main_v66 m m' c h)

end Cert.Bridge

end
-- ==== Proof.KI.R4Val.lean ====
import proofs.«405323_j90718299226206_3_alg».proof.Proof.KI.R4
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz4 : (![0, 0] : Fin 2 → Nat) = fun _ => 0 := funext fun a => by fin_cases a <;> rfl

section Pieces
variable {F : FTy → Type} [FloatOps F]

/-! ## What each case's found pieces are, as values (any float instance) -/

/-- Case A leaves in the accumulator the zero block plus the product block. -/
theorem sout4_A_eq (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : cond4_0 i) (hc1 : ¬cond4_1 i)
    (x0 : Vec F S1024x1024 .bf16) (x1 : Vec F S1024x256 .f32) :
    sout4_A_0 c i arg3 harg3 arg4 harg4 arg5 harg5 arg6 harg6 hc0 hc1 x0 x1 = k4_pay2 x0 x1 (k4_pay1 (F := F)) := by
  unfold sout4_A_0
  rw [View.read_writes_eq_canon _ _ _ (scover4_A_0 c i arg3 harg3 arg4 harg4 arg5 harg5 arg6 harg6 hc0 hc1 x0 x1)]
  unfold kernelRun4_A
  dsimp only
  sl_unfold_words
  rw [View.canon_cons_unit_zero (S := S1024x256) hz4, View.readCov_unit_zero (S := S1024x256) _ hz4]
  simp only [View.readAt_eq_ld, harg3.read_unread, harg4.read_unread, View.ld_unit_zero (S := S1024x1024) hz4,
    View.ld_unit_zero (S := S1024x256) hz4]

/-- Case B leaves in the accumulator what it held plus the product block. -/
theorem sout4_B_eq (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : ¬cond4_1 i)
    (x0 : Vec F S1024x1024 .bf16) (x1 : Vec F S1024x256 .f32) (xs0 : Vec F S1024x256 .f32) :
    sout4_B_0 c i arg3 harg3 arg4 harg4 arg5 harg5 arg6 harg6 hc0 hc1 x0 x1 xs0 = k4_pay2 x0 x1 xs0 := by
  unfold sout4_B_0
  rw [View.read_writes_eq_canon _ _ _ (scover4_B_0 c i arg3 harg3 arg4 harg4 arg5 harg5 arg6 harg6 hc0 hc1 x0 x1 xs0)]
  unfold kernelRun4_B
  dsimp only
  sl_unfold_words
  rw [View.canon_unit_zero hz4]
  simp only [View.readAt_eq_ld, harg3.read_unread, harg4.read_unread, harg6.read_unread, View.ld_unit_zero (S := S1024x1024) hz4,
    View.ld_unit_zero (S := S1024x256) hz4]

/-- Case C leaves the same in the accumulator, -/
theorem sout4_C_eq (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) :
    sout4_C_0 c i arg3 harg3 arg4 harg4 arg5 harg5 arg6 harg6 hc0 hc1 x0 x1 xs0 = k4_pay2 x0 x1 xs0 := by
  unfold sout4_C_0
  rw [View.read_writes_eq_canon _ _ _ (scover4_C_0 c i arg3 harg3 arg4 harg4 arg5 harg5 arg6 harg6 hc0 hc1 x0 x1 xs0)]
  unfold kernelRun4_C
  dsimp only
  sl_unfold_words
  rw [View.canon_unit_zero hz4]
  simp only [View.readAt_eq_ld, harg3.read_unread, harg4.read_unread, harg6.read_unread, View.ld_unit_zero (S := S1024x1024) hz4,
    View.ld_unit_zero (S := S1024x256) hz4]

/-- and copies it to the output's buffer. -/
theorem out4_C_eq (c : Dev nD) (i : grid4.Coords) (arg3 : Memref sig .tc .vmem S1024x1024 .bf16) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (hc0 : ¬cond4_0 i) (hc1 : cond4_1 i)
    (x0 : Vec F S1024x1024 .bf16) (x1 : Vec F S1024x256 .f32) (xs0 : Vec F S1024x256 .f32) :
    out4_C_2 c i arg3 harg3 arg4 harg4 arg5 harg5 arg6 harg6 hc0 hc1 x0 x1 xs0 = k4_pay2 x0 x1 xs0 := by
  unfold out4_C_2
  rw [View.read_writes_eq_canon _ _ _ (cover4_C_2 c i arg3 harg3 arg4 harg4 arg5 harg5 arg6 harg6 hc0 hc1 x0 x1 xs0)]
  unfold kernelRun4_C
  dsimp only
  sl_unfold_words
  rw [View.canon_unit_zero hz4, View.readCov_unit_zero (S := S1024x256) _ hz4]
  simp only [View.readAt_eq_ld, harg3.read_unread, harg4.read_unread, harg6.read_unread, View.ld_unit_zero (S := S1024x1024) hz4,
    View.ld_unit_zero (S := S1024x256) hz4]

end Pieces

/-! ## The payloads at an index, at the ideal values -/

/-- The region's dimension numbers: axis 0 of both operands contracted. -/
abbrev D4 := dot_S1024x1024_S1024x256_S1024x256_0_0_1_1_n_n

theorem lhsD4_0 (j : S1024x256.Idx) (k : D4.contr.Idx) : (D4.lhsIdx j k 0 : ℕ) = k ⟨0, by decide⟩ := by
  simp [DotDims.lhsIdx, D4, dot_S1024x1024_S1024x256_S1024x256_0_0_1_1_n_n]; rfl
theorem lhsD4_1 (j : S1024x256.Idx) (k : D4.contr.Idx) : (D4.lhsIdx j k 1 : ℕ) = j 0 := by
  simp [DotDims.lhsIdx, D4, dot_S1024x1024_S1024x256_S1024x256_0_0_1_1_n_n]; rfl
theorem rhsD4_0 (j : S1024x256.Idx) (k : D4.contr.Idx) : (D4.rhsIdx j k 0 : ℕ) = k ⟨0, by decide⟩ := by
  simp [DotDims.rhsIdx, D4, dot_S1024x1024_S1024x256_S1024x256_0_0_1_1_n_n]; rfl
theorem rhsD4_1 (j : S1024x256.Idx) (k : D4.contr.Idx) : (D4.rhsIdx j k 1 : ℕ) = j 1 := by
  simp [DotDims.rhsIdx, D4, dot_S1024x1024_S1024x256_S1024x256_0_0_1_1_n_n]; rfl

/-- The zero block the reset stores. -/
theorem pay4_1_apply (y : S1024x256.Idx) : k4_pay1 (F := Ideal) y = 0 := by
  unfold k4_pay1
  simp only [shapeCast_self]
  exact Ideal.ofBits_zero_f32

/-- The accumulation step at an index: the accumulator there plus the sum over the block's contracted rows of the
    products (the roundings to bf16 are the identity at the ideal values). -/
theorem pay4_2_apply (x0 : Vec Ideal S1024x1024 .bf16) (x1 : Vec Ideal S1024x256 .f32) (acc : Vec Ideal S1024x256 .f32) (r : Fin 1024) (q : Fin 256) :
    k4_pay2 x0 x1 acc (ix2 r q) = acc (ix2 r q) + ∑ kk : Fin 1024, x0 (ix2 kk r) * x1 (ix2 kk q) := by
  unfold k4_pay2
  simp only [shapeCast_self, addf_apply, matmul, Ideal.matmul_constant_zero_apply, truncf_apply]
  rw [← Equiv.sum_comp (contrEquiv1 D4 1024 rfl rfl).symm]
  refine congrArg (acc (ix2 r q) + ·) (Finset.sum_congr rfl fun kk _ => ?_)
  show x0 (D4.lhsIdx (ix2 r q) ((contrEquiv1 D4 1024 rfl rfl).symm kk)) * x1 (D4.rhsIdx (ix2 r q) ((contrEquiv1 D4 1024 rfl rfl).symm kk)) = _
  have e0 : D4.lhsIdx (ix2 r q) ((contrEquiv1 D4 1024 rfl rfl).symm kk) = ix2 kk r := by
    funext a; apply Fin.ext
    match a with
    | ⟨0, _⟩ => exact (lhsD4_0 _ _).trans (contrEquiv1_symm_val D4 1024 rfl rfl kk)
    | ⟨1, _⟩ => exact lhsD4_1 _ _
  have e1 : D4.rhsIdx (ix2 r q) ((contrEquiv1 D4 1024 rfl rfl).symm kk) = ix2 kk q := by
    funext a; apply Fin.ext
    match a with
    | ⟨0, _⟩ => exact (rhsD4_0 _ _).trans (contrEquiv1_symm_val D4 1024 rfl rfl kk)
    | ⟨1, _⟩ => exact rhsD4_1 _ _
  rw [e0, e1]

/-! ## Arrays read at natural-number coordinates -/

/-- A matrix read at natural-number coordinates (zero outside its extents): sums over blocks are then sums over
    plain arithmetic on the coordinates. -/
def cAt4 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt4_eq {n0 n1 : ℕ} (X : (⟨2, ![n0, n1]⟩ : Shape).Idx → EReal) (i : Fin n0) (j : Fin n1) :
    cAt4 X i.val j.val = X (ix2 i j) := dif_pos ⟨i.isLt, j.isLt⟩

theorem cAt4_idx {n0 n1 : ℕ} (X : (⟨2, ![n0, n1]⟩ : Shape).Idx → EReal) (e : (⟨2, ![n0, n1]⟩ : Shape).Idx) :
    X e = cAt4 X (e 0).val (e 1).val := by
  have h : (e 0).val < n0 ∧ (e 1).val < n1 := ⟨(e 0).isLt, (e 1).isLt⟩
  unfold cAt4; rw [dif_pos h]; exact congrArg X (eq_ix2 e)

/-- Block kb of the contraction (1024 rows of both operands) at output coordinates (R, Q). -/
def blockTerm4 (A B : ℕ → ℕ → EReal) (R Q kb : ℕ) : EReal :=
  ∑ kk : Fin 1024, A (kb * 1024 + kk.val) R * B (kb * 1024 + kk.val) Q

/-- The blocks 0 … k summed. -/
def partialSum4 (A B : ℕ → ℕ → EReal) (R Q k : ℕ) : EReal :=
  ∑ kb ∈ Finset.range (k + 1), blockTerm4 A B R Q kb

theorem partialSum4_zero (A B : ℕ → ℕ → EReal) (R Q : ℕ) : partialSum4 A B R Q 0 = blockTerm4 A B R Q 0 := by
  unfold partialSum4; exact Finset.sum_range_one _

theorem partialSum4_succ (A B : ℕ → ℕ → EReal) (R Q k : ℕ) :
    partialSum4 A B R Q (k + 1) = partialSum4 A B R Q k + blockTerm4 A B R Q (k + 1) := by
  unfold partialSum4; exact Finset.sum_range_succ _ _

/-- All ten blocks are the whole contraction. -/
theorem partialSum4_all (A B : ℕ → ℕ → EReal) (R Q : ℕ) :
    partialSum4 A B R Q 9 = ∑ k : Fin 10240, A k.val R * B k.val Q := by
  unfold partialSum4 blockTerm4
  rw [Finset.sum_range (fun kb => ∑ kk : Fin 1024, A (kb * 1024 + kk.val) R * B (kb * 1024 + kk.val) Q)]
  have h := Equiv.sum_comp (finProdFinEquiv (m := 10) (n := 1024)) (fun k : Fin (10 * 1024) => A k.val R * B k.val Q)
  rw [Fintype.sum_prod_type] at h
  refine Eq.trans ?_ h
  refine Finset.sum_congr rfl fun kb _ => Finset.sum_congr rfl fun kk _ => ?_
  have e : ((finProdFinEquiv (kb, kk) : Fin (10 * 1024)) : ℕ) = kb.val * 1024 + kk.val := by
    show kk.val + 1024 * kb.val = _; omega
  rw [e]

/-! ## The accumulation over the arrays the region finds -/

section Value
variable (V : (c : Dev nD) → (b : Ref sig .tc) → Buf (Elt Ideal) ((c : Thread nD τ).loc b))

/-- The two operand arrays as the region finds them, and the input blocks at a point. -/
abbrev arrA4 (c : Dev nD) : Vec Ideal S10240x1024 .bf16 := V c (Pipeline.arrRef spec4 0)
abbrev arrB4 (c : Dev nD) : Vec Ideal S10240x512 .f32 := V c (Pipeline.arrRef spec4 1)
abbrev xblk4 (c : Dev nD) (t : Fin cfg4.N) : Vec Ideal S1024x1024 .bf16 := iblk4 V c 0 t
abbrev yblk4 (c : Dev nD) (t : Fin cfg4.N) : Vec Ideal S1024x256 .f32 := iblk4 V c 1 t

/-- The printed index maps in closed form, decided over the grid: point t is (i, j, k) = (t / 20, t / 10 % 2, t % 10);
    the lhs block is (k, i), the rhs block (k, j), the output block (i, j). -/
theorem idx_facts4 : ∀ t : Fin cfg4.N, win4_0.index t (0 : Fin 2) = t.val % 10 ∧ win4_0.index t (1 : Fin 2) = t.val / 20
    ∧ win4_1.index t (0 : Fin 2) = t.val % 10 ∧ win4_1.index t (1 : Fin 2) = t.val / 10 % 2
    ∧ win4_2.index t (0 : Fin 2) = t.val / 20 ∧ win4_2.index t (1 : Fin 2) = t.val / 10 % 2 :=
  (by decide +kernel : ∀ t : Fin grid4.N, _)

/-- Where a block's entry sits in its array: block index × block extent + the coordinate inside the block. -/
theorem embA4_0 (t : Fin cfg4.N) (kk r : Fin 1024) :
    ((((cfg4.win 0).blk t).view.emb (ix2 kk r)) 0).val = t.val % 10 * 1024 + kk.val := by
  obtain ⟨e0, -⟩ := idx_facts4 t
  show win4_0.index t (0 : Fin 2) * 1024 + 1 * kk.val = _
  rw [e0]; omega
theorem embA4_1 (t : Fin cfg4.N) (kk r : Fin 1024) :
    ((((cfg4.win 0).blk t).view.emb (ix2 kk r)) 1).val = t.val / 20 * 1024 + r.val := by
  obtain ⟨-, e1, -⟩ := idx_facts4 t
  show win4_0.index t (1 : Fin 2) * 1024 + 1 * r.val = _
  rw [e1]; omega
theorem embB4_0 (t : Fin cfg4.N) (kk : Fin 1024) (q : Fin 256) :
    ((((cfg4.win 1).blk t).view.emb (ix2 kk q)) 0).val = t.val % 10 * 1024 + kk.val := by
  obtain ⟨-, -, e0, -⟩ := idx_facts4 t
  show win4_1.index t (0 : Fin 2) * 1024 + 1 * kk.val = _
  rw [e0]; omega
theorem embB4_1 (t : Fin cfg4.N) (kk : Fin 1024) (q : Fin 256) :
    ((((cfg4.win 1).blk t).view.emb (ix2 kk q)) 1).val = t.val / 10 % 2 * 256 + q.val := by
  obtain ⟨-, -, -, e1, -⟩ := idx_facts4 t
  show win4_1.index t (1 : Fin 2) * 256 + 1 * q.val = _
  rw [e1]; omega
theorem embO4_0 (t : Fin cfg4.N) (r : Fin 1024) (q : Fin 256) :
    ((((cfg4.win 2).blk t).view.emb (ix2 r q)) 0).val = t.val / 20 * 1024 + r.val := by
  obtain ⟨-, -, -, -, e0, -⟩ := idx_facts4 t
  show win4_2.index t (0 : Fin 2) * 1024 + 1 * r.val = _
  rw [e0]; omega
theorem embO4_1 (t : Fin cfg4.N) (r : Fin 1024) (q : Fin 256) :
    ((((cfg4.win 2).blk t).view.emb (ix2 r q)) 1).val = t.val / 10 % 2 * 256 + q.val := by
  obtain ⟨-, -, -, -, -, e1⟩ := idx_facts4 t
  show win4_2.index t (1 : Fin 2) * 256 + 1 * q.val = _
  rw [e1]; omega

/-- A block is its array read through the block's embedding. -/
theorem xblk4_read (c : Dev nD) (t : Fin cfg4.N) (y : S1024x1024.Idx) :
    xblk4 V c t y = arrA4 V c (((cfg4.win 0).blk t).view.emb y) := rfl
theorem yblk4_read (c : Dev nD) (t : Fin cfg4.N) (y : S1024x256.Idx) :
    yblk4 V c t y = arrB4 V c (((cfg4.win 1).blk t).view.emb y) := rfl
theorem arrA4_at (c : Dev nD) (e : S10240x1024.Idx) :
    arrA4 V c e = cAt4 (n0 := 10240) (n1 := 1024) (arrA4 V c) (e 0).val (e 1).val :=
  cAt4_idx (n0 := 10240) (n1 := 1024) (arrA4 V c) e
theorem arrB4_at (c : Dev nD) (e : S10240x512.Idx) :
    arrB4 V c e = cAt4 (n0 := 10240) (n1 := 512) (arrB4 V c) (e 0).val (e 1).val :=
  cAt4_idx (n0 := 10240) (n1 := 512) (arrB4 V c) e

/-- The lhs block at a point reads the lhs array at rows k·1024 …, columns i·1024 …. -/
theorem xblk4_apply (c : Dev nD) (t : Fin cfg4.N) (kk r : Fin 1024) :
    xblk4 V c t (ix2 kk r) = cAt4 (n0 := 10240) (n1 := 1024) (arrA4 V c) (t.val % 10 * 1024 + kk.val) (t.val / 20 * 1024 + r.val) :=
  (xblk4_read V c t (ix2 kk r)).trans ((arrA4_at V c _).trans (by rw [embA4_0, embA4_1]))

/-- The rhs block at a point reads the rhs array at rows k·1024 …, columns j·(block width) …. -/
theorem yblk4_apply (c : Dev nD) (t : Fin cfg4.N) (kk : Fin 1024) (q : Fin 256) :
    yblk4 V c t (ix2 kk q) = cAt4 (n0 := 10240) (n1 := 512) (arrB4 V c) (t.val % 10 * 1024 + kk.val) (t.val / 10 % 2 * 256 + q.val) :=
  (yblk4_read V c t (ix2 kk q)).trans ((arrB4_at V c _).trans (by rw [embB4_0, embB4_1]))

/-- The product block at a point is block k of the contraction at the output block's coordinates. -/
theorem blk4_eq (c : Dev nD) (t : Fin cfg4.N) (r : Fin 1024) (q : Fin 256) :
    (∑ kk : Fin 1024, xblk4 V c t (ix2 kk r) * yblk4 V c t (ix2 kk q))
      = blockTerm4 (cAt4 (n0 := 10240) (n1 := 1024) (arrA4 V c)) (cAt4 (n0 := 10240) (n1 := 512) (arrB4 V c)) (t.val / 20 * 1024 + r.val) (t.val / 10 % 2 * 256 + q.val) (t.val % 10) := by
  unfold blockTerm4
  exact Finset.sum_congr rfl fun kk _ => by rw [xblk4_apply, yblk4_apply]

/-- THE ACCUMULATOR after position n: blocks 0 … n % 10 of the contraction, at the output block's coordinates — by
    induction on the position. -/
theorem acc4_eq (c : Dev nD) (r : Fin 1024) (q : Fin 256) : ∀ (n : ℕ) (hn : n < cfg4.N),
    (outsAt4 V c n hn).2 (ix2 r q)
      = partialSum4 (cAt4 (n0 := 10240) (n1 := 1024) (arrA4 V c)) (cAt4 (n0 := 10240) (n1 := 512) (arrB4 V c)) (n / 20 * 1024 + r.val) (n / 10 % 2 * 256 + q.val) (n % 10)
  | 0, hn => by
    rw [outsAt4_A V c ⟨0, hn⟩ rfl (by show ¬0 % 10 = 9; decide)]
    dsimp only
    rw [sout4_A_eq, pay4_2_apply, pay4_1_apply, zero_add]
    exact (blk4_eq V c ⟨0, hn⟩ r q).trans (partialSum4_zero _ _ _ _).symm
  | n + 1, hn => by
    by_cases h0 : (n + 1) % 10 = 0
    · have h1 : ¬(n + 1) % 10 = 9 := by omega
      rw [outsAt4_A V c ⟨n + 1, hn⟩ h0 h1]
      dsimp only
      rw [sout4_A_eq, pay4_2_apply, pay4_1_apply, zero_add]
      refine (blk4_eq V c ⟨n + 1, hn⟩ r q).trans ?_
      show blockTerm4 _ _ ((n + 1) / 20 * 1024 + r.val) ((n + 1) / 10 % 2 * 256 + q.val) ((n + 1) % 10) = partialSum4 _ _ _ _ ((n + 1) % 10)
      rw [h0]; exact (partialSum4_zero _ _ _ _).symm
    · have ea : (n + 1) / 20 = n / 20 := by omega
      have eb : (n + 1) / 10 % 2 = n / 10 % 2 := by omega
      have ek : (n + 1) % 10 = n % 10 + 1 := by omega
      have ih := acc4_eq c r q n (Nat.lt_of_succ_lt hn)
      by_cases h1 : (n + 1) % 10 = 9
      · rw [outsAt4_C V c ⟨n + 1, hn⟩ h0 h1]
        dsimp only
        rw [sout4_C_eq, pay4_2_apply]
        show (outsAt4 V c n _).2 (ix2 r q) + _ = _
        rw [ih, blk4_eq V c ⟨n + 1, hn⟩ r q]
        show _ + blockTerm4 _ _ ((n + 1) / 20 * 1024 + r.val) ((n + 1) / 10 % 2 * 256 + q.val) ((n + 1) % 10) = _
        rw [ea, eb, ek, partialSum4_succ]
      · rw [outsAt4_B V c ⟨n + 1, hn⟩ h0 h1]
        dsimp only
        rw [sout4_B_eq, pay4_2_apply]
        show (outsAt4 V c n _).2 (ix2 r q) + _ = _
        rw [ih, blk4_eq V c ⟨n + 1, hn⟩ r q]
        show _ + blockTerm4 _ _ ((n + 1) / 20 * 1024 + r.val) ((n + 1) / 10 % 2 * 256 + q.val) ((n + 1) % 10) = _
        rw [ea, eb, ek, partialSum4_succ]

/-- At a point with k = 9 the output's buffer is left holding the accumulator. -/
theorem out4_eq_acc (c : Dev nD) (t : Fin cfg4.N) (h1 : t.val % 10 = 9) :
    (outsAt4 V c t.val t.isLt).1 = (outsAt4 V c t.val t.isLt).2 := by
  have h0 : ¬t.val % 10 = 0 := by omega
  rw [outsAt4_C V c t h0 h1]
  dsimp only
  rw [out4_C_eq, sout4_C_eq]

/-! ## The output array after the region -/

/-- The transposed-lhs product of the two arrays, index by index: the whole contracted axis 0 of both summed. -/
def G4 (a : Vec Ideal S10240x1024 .bf16) (b : Vec Ideal S10240x512 .f32) : Vec Ideal S1024x512 .f32 :=
  fun y => ∑ k : Fin 10240, a (ix2 k (y 0)) * b (ix2 k (y 1))

theorem G4_apply (a : Vec Ideal S10240x1024 .bf16) (b : Vec Ideal S10240x512 .f32) (r : Fin 1024) (q : Fin 512) :
    G4 a b (ix2 r q) = ∑ k : Fin 10240, a (ix2 k r) * b (ix2 k q) := rfl

/-- What a point with k = 9 writes back is its block of the product. -/
theorem flushed4_2 (c : Dev nD) (t : Fin cfg4.N) (hf : (cfg4.win 2).flush t = true) :
    (dat4 (F := Ideal) V c).flushed 2 t = ((cfg4.win 2).blk t).view.read (Elt Ideal) (G4 (arrA4 V c) (arrB4 V c)) := by
  have h1 : t.val % 10 = 9 := (flush4_2 t).mp hf
  show (cfg4.win 2).cut (grid4.coords t) ((dat4 V c).after 2 t) = _
  rw [after4_2, out4_eq_acc V c t h1]
  funext j
  obtain ⟨r, q, rfl⟩ : ∃ (r : Fin 1024) (q : Fin 256), j = ix2 r q := ⟨j 0, j 1, eq_ix2 j⟩
  show (outsAt4 V c t.val t.isLt).2 (ix2 r q) = G4 (arrA4 V c) (arrB4 V c) (((cfg4.win 2).blk t).view.emb (ix2 r q))
  rw [acc4_eq V c r q t.val t.isLt, h1, partialSum4_all]
  unfold G4
  refine Finset.sum_congr rfl fun k _ => ?_
  rw [← embO4_0 t r q, ← embO4_1 t r q]
  exact congrArg₂ (· * ·) (cAt4_eq (n0 := 10240) (n1 := 1024) (arrA4 V c) k _) (cAt4_eq (n0 := 10240) (n1 := 512) (arrB4 V c) k _)

/-- An index of the output array is in point t's block iff each coordinate is in the block's range on its axis. -/
theorem mem_blk4_2 (t : Fin cfg4.N) (i : S1024x512.Idx) :
    i ∈ ((cfg4.win 2).blk t).view.set ↔ ∀ a : Fin 2, win4_2.index t a * S1024x256.size a ≤ (i a).val ∧ (i a).val < win4_2.index t a * S1024x256.size a + S1024x256.size a := by
  show i ∈ ((View.whole main_v61).slice (win4_2.rect t)).set ↔ _
  rw [View.set_slice_whole, Rect.mem_set_unit]
  exact Iff.rfl

/-- THE OUTPUT ARRAY after the region: the product of the two operand arrays as the region finds them (the
    output blocks, each written back at its last contraction point, cover the array). -/
theorem arrAt4_2 (c : Dev nD) :
    (dat4 (F := Ideal) V c).arrAt 2 cfg4.N = G4 (V c (Pipeline.arrRef spec4 0)) (V c (Pipeline.arrRef spec4 1)) :=
  (dat4 V c).arrAt_eq_of_cover 2 (G4 (arrA4 V c) (arrB4 V c)) (flushed4_2 V c) fun i => by
    have hi0 : (i 0).val < 1024 := (i 0).isLt
    have hi1 : (i 1).val < 512 := (i 1).isLt
    have ht : (i 0).val / 1024 * 20 + (i 1).val / 256 * 10 + 9 < cfg4.N := by rw [show cfg4.N = 20 from N_4]; omega
    obtain ⟨-, -, -, -, e0, e1⟩ := idx_facts4 ⟨_, ht⟩
    refine ⟨⟨_, ht⟩, (flush4_2 _).mpr (by show ((i 0).val / 1024 * 20 + (i 1).val / 256 * 10 + 9) % 10 = 9; omega), ?_⟩
    rw [mem_blk4_2]
    intro a
    match a with
    | ⟨0, _⟩ =>
      show win4_2.index _ (0 : Fin 2) * 1024 ≤ (i 0).val ∧ (i 0).val < win4_2.index _ (0 : Fin 2) * 1024 + 1024
      rw [e0]; dsimp only; omega
    | ⟨1, _⟩ =>
      show win4_2.index _ (1 : Fin 2) * 256 ≤ (i 1).val ∧ (i 1).val < win4_2.index _ (1 : Fin 2) * 256 + 256
      rw [e1]; dsimp only; omega

end Value

end Cert.KernelIdeal.HandVal

end
-- ==== Proof.KI.R5Val.lean ====
import proofs.«405323_j90718299226206_3_alg».proof.Proof.KI.R5
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz5 : (![0, 0] : Fin 2 → Nat) = fun _ => 0 := funext fun a => by fin_cases a <;> rfl

section Pieces
variable {F : FTy → Type} [FloatOps F]

/-! ## What each case's found pieces are, as values (any float instance) -/

/-- Case A leaves in the accumulator the zero block plus the product block. -/
theorem sout5_A_eq (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond5_0 i) (hc1 : ¬cond5_1 i)
    (x0 : Vec F S1024x1024 .bf16) (x1 : Vec F S1024x512 .bf16) :
    sout5_A_0 c i arg3 harg3 arg4 harg4 arg5 harg5 arg6 harg6 hc0 hc1 x0 x1 = k5_pay2 x0 x1 (k5_pay1 (F := F)) := by
  unfold sout5_A_0
  rw [View.read_writes_eq_canon _ _ _ (scover5_A_0 c i arg3 harg3 arg4 harg4 arg5 harg5 arg6 harg6 hc0 hc1 x0 x1)]
  unfold kernelRun5_A
  dsimp only
  sl_unfold_words
  rw [View.canon_cons_unit_zero (S := S1024x512) hz5, View.readCov_unit_zero (S := S1024x512) _ hz5]
  simp only [View.readAt_eq_ld, harg3.read_unread, harg4.read_unread, View.ld_unit_zero (S := S1024x1024) hz5,
    View.ld_unit_zero (S := S1024x512) hz5]

/-- Case B leaves in the accumulator what it held plus the product block. -/
theorem sout5_B_eq (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : ¬cond5_1 i)
    (x0 : Vec F S1024x1024 .bf16) (x1 : Vec F S1024x512 .bf16) (xs0 : Vec F S1024x512 .f32) :
    sout5_B_0 c i arg3 harg3 arg4 harg4 arg5 harg5 arg6 harg6 hc0 hc1 x0 x1 xs0 = k5_pay2 x0 x1 xs0 := by
  unfold sout5_B_0
  rw [View.read_writes_eq_canon _ _ _ (scover5_B_0 c i arg3 harg3 arg4 harg4 arg5 harg5 arg6 harg6 hc0 hc1 x0 x1 xs0)]
  unfold kernelRun5_B
  dsimp only
  sl_unfold_words
  rw [View.canon_unit_zero hz5]
  simp only [View.readAt_eq_ld, harg3.read_unread, harg4.read_unread, harg6.read_unread, View.ld_unit_zero (S := S1024x1024) hz5,
    View.ld_unit_zero (S := S1024x512) hz5]

/-- Case C leaves the same in the accumulator, -/
theorem sout5_C_eq (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) :
    sout5_C_0 c i arg3 harg3 arg4 harg4 arg5 harg5 arg6 harg6 hc0 hc1 x0 x1 xs0 = k5_pay2 x0 x1 xs0 := by
  unfold sout5_C_0
  rw [View.read_writes_eq_canon _ _ _ (scover5_C_0 c i arg3 harg3 arg4 harg4 arg5 harg5 arg6 harg6 hc0 hc1 x0 x1 xs0)]
  unfold kernelRun5_C
  dsimp only
  sl_unfold_words
  rw [View.canon_unit_zero hz5]
  simp only [View.readAt_eq_ld, harg3.read_unread, harg4.read_unread, harg6.read_unread, View.ld_unit_zero (S := S1024x1024) hz5,
    View.ld_unit_zero (S := S1024x512) hz5]

/-- and copies it to the output's buffer. -/
theorem out5_C_eq (c : Dev nD) (i : grid5.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond5_0 i) (hc1 : cond5_1 i)
    (x0 : Vec F S1024x1024 .bf16) (x1 : Vec F S1024x512 .bf16) (xs0 : Vec F S1024x512 .f32) :
    out5_C_2 c i arg3 harg3 arg4 harg4 arg5 harg5 arg6 harg6 hc0 hc1 x0 x1 xs0 = k5_pay2 x0 x1 xs0 := by
  unfold out5_C_2
  rw [View.read_writes_eq_canon _ _ _ (cover5_C_2 c i arg3 harg3 arg4 harg4 arg5 harg5 arg6 harg6 hc0 hc1 x0 x1 xs0)]
  unfold kernelRun5_C
  dsimp only
  sl_unfold_words
  rw [View.canon_unit_zero hz5, View.readCov_unit_zero (S := S1024x512) _ hz5]
  simp only [View.readAt_eq_ld, harg3.read_unread, harg4.read_unread, harg6.read_unread, View.ld_unit_zero (S := S1024x1024) hz5,
    View.ld_unit_zero (S := S1024x512) hz5]

end Pieces

/-! ## The payloads at an index, at the ideal values -/

/-- The region's dimension numbers: axis 0 of both operands contracted. -/
abbrev D5 := dot_S1024x1024_S1024x512_S1024x512_0_0_1_1_n_n

theorem lhsD5_0 (j : S1024x512.Idx) (k : D5.contr.Idx) : (D5.lhsIdx j k 0 : ℕ) = k ⟨0, by decide⟩ := by
  simp [DotDims.lhsIdx, D5, dot_S1024x1024_S1024x512_S1024x512_0_0_1_1_n_n]; rfl
theorem lhsD5_1 (j : S1024x512.Idx) (k : D5.contr.Idx) : (D5.lhsIdx j k 1 : ℕ) = j 0 := by
  simp [DotDims.lhsIdx, D5, dot_S1024x1024_S1024x512_S1024x512_0_0_1_1_n_n]; rfl
theorem rhsD5_0 (j : S1024x512.Idx) (k : D5.contr.Idx) : (D5.rhsIdx j k 0 : ℕ) = k ⟨0, by decide⟩ := by
  simp [DotDims.rhsIdx, D5, dot_S1024x1024_S1024x512_S1024x512_0_0_1_1_n_n]; rfl
theorem rhsD5_1 (j : S1024x512.Idx) (k : D5.contr.Idx) : (D5.rhsIdx j k 1 : ℕ) = j 1 := by
  simp [DotDims.rhsIdx, D5, dot_S1024x1024_S1024x512_S1024x512_0_0_1_1_n_n]; rfl

/-- The zero block the reset stores. -/
theorem pay5_1_apply (y : S1024x512.Idx) : k5_pay1 (F := Ideal) y = 0 := by
  unfold k5_pay1
  simp only [shapeCast_self]
  exact Ideal.ofBits_zero_f32

/-- The accumulation step at an index: the accumulator there plus the sum over the block's contracted rows of the
    products (the roundings to bf16 are the identity at the ideal values). -/
theorem pay5_2_apply (x0 : Vec Ideal S1024x1024 .bf16) (x1 : Vec Ideal S1024x512 .bf16) (acc : Vec Ideal S1024x512 .f32) (r : Fin 1024) (q : Fin 512) :
    k5_pay2 x0 x1 acc (ix2 r q) = acc (ix2 r q) + ∑ kk : Fin 1024, x0 (ix2 kk r) * x1 (ix2 kk q) := by
  unfold k5_pay2
  simp only [shapeCast_self, addf_apply, matmul, Ideal.matmul_constant_zero_apply, truncf_apply]
  rw [← Equiv.sum_comp (contrEquiv1 D5 1024 rfl rfl).symm]
  refine congrArg (acc (ix2 r q) + ·) (Finset.sum_congr rfl fun kk _ => ?_)
  show x0 (D5.lhsIdx (ix2 r q) ((contrEquiv1 D5 1024 rfl rfl).symm kk)) * x1 (D5.rhsIdx (ix2 r q) ((contrEquiv1 D5 1024 rfl rfl).symm kk)) = _
  have e0 : D5.lhsIdx (ix2 r q) ((contrEquiv1 D5 1024 rfl rfl).symm kk) = ix2 kk r := by
    funext a; apply Fin.ext
    match a with
    | ⟨0, _⟩ => exact (lhsD5_0 _ _).trans (contrEquiv1_symm_val D5 1024 rfl rfl kk)
    | ⟨1, _⟩ => exact lhsD5_1 _ _
  have e1 : D5.rhsIdx (ix2 r q) ((contrEquiv1 D5 1024 rfl rfl).symm kk) = ix2 kk q := by
    funext a; apply Fin.ext
    match a with
    | ⟨0, _⟩ => exact (rhsD5_0 _ _).trans (contrEquiv1_symm_val D5 1024 rfl rfl kk)
    | ⟨1, _⟩ => exact rhsD5_1 _ _
  rw [e0, e1]

/-! ## Arrays read at natural-number coordinates -/

/-- A matrix read at natural-number coordinates (zero outside its extents): sums over blocks are then sums over
    plain arithmetic on the coordinates. -/
def cAt5 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt5_eq {n0 n1 : ℕ} (X : (⟨2, ![n0, n1]⟩ : Shape).Idx → EReal) (i : Fin n0) (j : Fin n1) :
    cAt5 X i.val j.val = X (ix2 i j) := dif_pos ⟨i.isLt, j.isLt⟩

theorem cAt5_idx {n0 n1 : ℕ} (X : (⟨2, ![n0, n1]⟩ : Shape).Idx → EReal) (e : (⟨2, ![n0, n1]⟩ : Shape).Idx) :
    X e = cAt5 X (e 0).val (e 1).val := by
  have h : (e 0).val < n0 ∧ (e 1).val < n1 := ⟨(e 0).isLt, (e 1).isLt⟩
  unfold cAt5; rw [dif_pos h]; exact congrArg X (eq_ix2 e)

/-- Block kb of the contraction (1024 rows of both operands) at output coordinates (R, Q). -/
def blockTerm5 (A B : ℕ → ℕ → EReal) (R Q kb : ℕ) : EReal :=
  ∑ kk : Fin 1024, A (kb * 1024 + kk.val) R * B (kb * 1024 + kk.val) Q

/-- The blocks 0 … k summed. -/
def partialSum5 (A B : ℕ → ℕ → EReal) (R Q k : ℕ) : EReal :=
  ∑ kb ∈ Finset.range (k + 1), blockTerm5 A B R Q kb

theorem partialSum5_zero (A B : ℕ → ℕ → EReal) (R Q : ℕ) : partialSum5 A B R Q 0 = blockTerm5 A B R Q 0 := by
  unfold partialSum5; exact Finset.sum_range_one _

theorem partialSum5_succ (A B : ℕ → ℕ → EReal) (R Q k : ℕ) :
    partialSum5 A B R Q (k + 1) = partialSum5 A B R Q k + blockTerm5 A B R Q (k + 1) := by
  unfold partialSum5; exact Finset.sum_range_succ _ _

/-- All ten blocks are the whole contraction. -/
theorem partialSum5_all (A B : ℕ → ℕ → EReal) (R Q : ℕ) :
    partialSum5 A B R Q 9 = ∑ k : Fin 10240, A k.val R * B k.val Q := by
  unfold partialSum5 blockTerm5
  rw [Finset.sum_range (fun kb => ∑ kk : Fin 1024, A (kb * 1024 + kk.val) R * B (kb * 1024 + kk.val) Q)]
  have h := Equiv.sum_comp (finProdFinEquiv (m := 10) (n := 1024)) (fun k : Fin (10 * 1024) => A k.val R * B k.val Q)
  rw [Fintype.sum_prod_type] at h
  refine Eq.trans ?_ h
  refine Finset.sum_congr rfl fun kb _ => Finset.sum_congr rfl fun kk _ => ?_
  have e : ((finProdFinEquiv (kb, kk) : Fin (10 * 1024)) : ℕ) = kb.val * 1024 + kk.val := by
    show kk.val + 1024 * kb.val = _; omega
  rw [e]

/-! ## The accumulation over the arrays the region finds -/

section Value
variable (V : (c : Dev nD) → (b : Ref sig .tc) → Buf (Elt Ideal) ((c : Thread nD τ).loc b))

/-- The two operand arrays as the region finds them, and the input blocks at a point. -/
abbrev arrA5 (c : Dev nD) : Vec Ideal S10240x1024 .bf16 := V c (Pipeline.arrRef spec5 0)
abbrev arrB5 (c : Dev nD) : Vec Ideal S10240x1024 .bf16 := V c (Pipeline.arrRef spec5 1)
abbrev xblk5 (c : Dev nD) (t : Fin cfg5.N) : Vec Ideal S1024x1024 .bf16 := iblk5 V c 0 t
abbrev yblk5 (c : Dev nD) (t : Fin cfg5.N) : Vec Ideal S1024x512 .bf16 := iblk5 V c 1 t

/-- The printed index maps in closed form, decided over the grid: point t is (i, j, k) = (t / 20, t / 10 % 2, t % 10);
    the lhs block is (k, i), the rhs block (k, j), the output block (i, j). -/
theorem idx_facts5 : ∀ t : Fin cfg5.N, win5_0.index t (0 : Fin 2) = t.val % 10 ∧ win5_0.index t (1 : Fin 2) = t.val / 20
    ∧ win5_1.index t (0 : Fin 2) = t.val % 10 ∧ win5_1.index t (1 : Fin 2) = t.val / 10 % 2
    ∧ win5_2.index t (0 : Fin 2) = t.val / 20 ∧ win5_2.index t (1 : Fin 2) = t.val / 10 % 2 :=
  (by decide +kernel : ∀ t : Fin grid5.N, _)

/-- Where a block's entry sits in its array: block index × block extent + the coordinate inside the block. -/
theorem embA5_0 (t : Fin cfg5.N) (kk r : Fin 1024) :
    ((((cfg5.win 0).blk t).view.emb (ix2 kk r)) 0).val = t.val % 10 * 1024 + kk.val := by
  obtain ⟨e0, -⟩ := idx_facts5 t
  show win5_0.index t (0 : Fin 2) * 1024 + 1 * kk.val = _
  rw [e0]; omega
theorem embA5_1 (t : Fin cfg5.N) (kk r : Fin 1024) :
    ((((cfg5.win 0).blk t).view.emb (ix2 kk r)) 1).val = t.val / 20 * 1024 + r.val := by
  obtain ⟨-, e1, -⟩ := idx_facts5 t
  show win5_0.index t (1 : Fin 2) * 1024 + 1 * r.val = _
  rw [e1]; omega
theorem embB5_0 (t : Fin cfg5.N) (kk : Fin 1024) (q : Fin 512) :
    ((((cfg5.win 1).blk t).view.emb (ix2 kk q)) 0).val = t.val % 10 * 1024 + kk.val := by
  obtain ⟨-, -, e0, -⟩ := idx_facts5 t
  show win5_1.index t (0 : Fin 2) * 1024 + 1 * kk.val = _
  rw [e0]; omega
theorem embB5_1 (t : Fin cfg5.N) (kk : Fin 1024) (q : Fin 512) :
    ((((cfg5.win 1).blk t).view.emb (ix2 kk q)) 1).val = t.val / 10 % 2 * 512 + q.val := by
  obtain ⟨-, -, -, e1, -⟩ := idx_facts5 t
  show win5_1.index t (1 : Fin 2) * 512 + 1 * q.val = _
  rw [e1]; omega
theorem embO5_0 (t : Fin cfg5.N) (r : Fin 1024) (q : Fin 512) :
    ((((cfg5.win 2).blk t).view.emb (ix2 r q)) 0).val = t.val / 20 * 1024 + r.val := by
  obtain ⟨-, -, -, -, e0, -⟩ := idx_facts5 t
  show win5_2.index t (0 : Fin 2) * 1024 + 1 * r.val = _
  rw [e0]; omega
theorem embO5_1 (t : Fin cfg5.N) (r : Fin 1024) (q : Fin 512) :
    ((((cfg5.win 2).blk t).view.emb (ix2 r q)) 1).val = t.val / 10 % 2 * 512 + q.val := by
  obtain ⟨-, -, -, -, -, e1⟩ := idx_facts5 t
  show win5_2.index t (1 : Fin 2) * 512 + 1 * q.val = _
  rw [e1]; omega

/-- A block is its array read through the block's embedding. -/
theorem xblk5_read (c : Dev nD) (t : Fin cfg5.N) (y : S1024x1024.Idx) :
    xblk5 V c t y = arrA5 V c (((cfg5.win 0).blk t).view.emb y) := rfl
theorem yblk5_read (c : Dev nD) (t : Fin cfg5.N) (y : S1024x512.Idx) :
    yblk5 V c t y = arrB5 V c (((cfg5.win 1).blk t).view.emb y) := rfl
theorem arrA5_at (c : Dev nD) (e : S10240x1024.Idx) :
    arrA5 V c e = cAt5 (n0 := 10240) (n1 := 1024) (arrA5 V c) (e 0).val (e 1).val :=
  cAt5_idx (n0 := 10240) (n1 := 1024) (arrA5 V c) e
theorem arrB5_at (c : Dev nD) (e : S10240x1024.Idx) :
    arrB5 V c e = cAt5 (n0 := 10240) (n1 := 1024) (arrB5 V c) (e 0).val (e 1).val :=
  cAt5_idx (n0 := 10240) (n1 := 1024) (arrB5 V c) e

/-- The lhs block at a point reads the lhs array at rows k·1024 …, columns i·1024 …. -/
theorem xblk5_apply (c : Dev nD) (t : Fin cfg5.N) (kk r : Fin 1024) :
    xblk5 V c t (ix2 kk r) = cAt5 (n0 := 10240) (n1 := 1024) (arrA5 V c) (t.val % 10 * 1024 + kk.val) (t.val / 20 * 1024 + r.val) :=
  (xblk5_read V c t (ix2 kk r)).trans ((arrA5_at V c _).trans (by rw [embA5_0, embA5_1]))

/-- The rhs block at a point reads the rhs array at rows k·1024 …, columns j·(block width) …. -/
theorem yblk5_apply (c : Dev nD) (t : Fin cfg5.N) (kk : Fin 1024) (q : Fin 512) :
    yblk5 V c t (ix2 kk q) = cAt5 (n0 := 10240) (n1 := 1024) (arrB5 V c) (t.val % 10 * 1024 + kk.val) (t.val / 10 % 2 * 512 + q.val) :=
  (yblk5_read V c t (ix2 kk q)).trans ((arrB5_at V c _).trans (by rw [embB5_0, embB5_1]))

/-- The product block at a point is block k of the contraction at the output block's coordinates. -/
theorem blk5_eq (c : Dev nD) (t : Fin cfg5.N) (r : Fin 1024) (q : Fin 512) :
    (∑ kk : Fin 1024, xblk5 V c t (ix2 kk r) * yblk5 V c t (ix2 kk q))
      = blockTerm5 (cAt5 (n0 := 10240) (n1 := 1024) (arrA5 V c)) (cAt5 (n0 := 10240) (n1 := 1024) (arrB5 V c)) (t.val / 20 * 1024 + r.val) (t.val / 10 % 2 * 512 + q.val) (t.val % 10) := by
  unfold blockTerm5
  exact Finset.sum_congr rfl fun kk _ => by rw [xblk5_apply, yblk5_apply]

/-- THE ACCUMULATOR after position n: blocks 0 … n % 10 of the contraction, at the output block's coordinates — by
    induction on the position. -/
theorem acc5_eq (c : Dev nD) (r : Fin 1024) (q : Fin 512) : ∀ (n : ℕ) (hn : n < cfg5.N),
    (outsAt5 V c n hn).2 (ix2 r q)
      = partialSum5 (cAt5 (n0 := 10240) (n1 := 1024) (arrA5 V c)) (cAt5 (n0 := 10240) (n1 := 1024) (arrB5 V c)) (n / 20 * 1024 + r.val) (n / 10 % 2 * 512 + q.val) (n % 10)
  | 0, hn => by
    rw [outsAt5_A V c ⟨0, hn⟩ rfl (by show ¬0 % 10 = 9; decide)]
    dsimp only
    rw [sout5_A_eq, pay5_2_apply, pay5_1_apply, zero_add]
    exact (blk5_eq V c ⟨0, hn⟩ r q).trans (partialSum5_zero _ _ _ _).symm
  | n + 1, hn => by
    by_cases h0 : (n + 1) % 10 = 0
    · have h1 : ¬(n + 1) % 10 = 9 := by omega
      rw [outsAt5_A V c ⟨n + 1, hn⟩ h0 h1]
      dsimp only
      rw [sout5_A_eq, pay5_2_apply, pay5_1_apply, zero_add]
      refine (blk5_eq V c ⟨n + 1, hn⟩ r q).trans ?_
      show blockTerm5 _ _ ((n + 1) / 20 * 1024 + r.val) ((n + 1) / 10 % 2 * 512 + q.val) ((n + 1) % 10) = partialSum5 _ _ _ _ ((n + 1) % 10)
      rw [h0]; exact (partialSum5_zero _ _ _ _).symm
    · have ea : (n + 1) / 20 = n / 20 := by omega
      have eb : (n + 1) / 10 % 2 = n / 10 % 2 := by omega
      have ek : (n + 1) % 10 = n % 10 + 1 := by omega
      have ih := acc5_eq c r q n (Nat.lt_of_succ_lt hn)
      by_cases h1 : (n + 1) % 10 = 9
      · rw [outsAt5_C V c ⟨n + 1, hn⟩ h0 h1]
        dsimp only
        rw [sout5_C_eq, pay5_2_apply]
        show (outsAt5 V c n _).2 (ix2 r q) + _ = _
        rw [ih, blk5_eq V c ⟨n + 1, hn⟩ r q]
        show _ + blockTerm5 _ _ ((n + 1) / 20 * 1024 + r.val) ((n + 1) / 10 % 2 * 512 + q.val) ((n + 1) % 10) = _
        rw [ea, eb, ek, partialSum5_succ]
      · rw [outsAt5_B V c ⟨n + 1, hn⟩ h0 h1]
        dsimp only
        rw [sout5_B_eq, pay5_2_apply]
        show (outsAt5 V c n _).2 (ix2 r q) + _ = _
        rw [ih, blk5_eq V c ⟨n + 1, hn⟩ r q]
        show _ + blockTerm5 _ _ ((n + 1) / 20 * 1024 + r.val) ((n + 1) / 10 % 2 * 512 + q.val) ((n + 1) % 10) = _
        rw [ea, eb, ek, partialSum5_succ]

/-- At a point with k = 9 the output's buffer is left holding the accumulator. -/
theorem out5_eq_acc (c : Dev nD) (t : Fin cfg5.N) (h1 : t.val % 10 = 9) :
    (outsAt5 V c t.val t.isLt).1 = (outsAt5 V c t.val t.isLt).2 := by
  have h0 : ¬t.val % 10 = 0 := by omega
  rw [outsAt5_C V c t h0 h1]
  dsimp only
  rw [out5_C_eq, sout5_C_eq]

/-! ## The output array after the region -/

/-- The transposed-lhs product of the two arrays, index by index: the whole contracted axis 0 of both summed. -/
def G5 (a : Vec Ideal S10240x1024 .bf16) (b : Vec Ideal S10240x1024 .bf16) : Vec Ideal S1024x1024 .f32 :=
  fun y => ∑ k : Fin 10240, a (ix2 k (y 0)) * b (ix2 k (y 1))

theorem G5_apply (a : Vec Ideal S10240x1024 .bf16) (b : Vec Ideal S10240x1024 .bf16) (r : Fin 1024) (q : Fin 1024) :
    G5 a b (ix2 r q) = ∑ k : Fin 10240, a (ix2 k r) * b (ix2 k q) := rfl

/-- What a point with k = 9 writes back is its block of the product. -/
theorem flushed5_2 (c : Dev nD) (t : Fin cfg5.N) (hf : (cfg5.win 2).flush t = true) :
    (dat5 (F := Ideal) V c).flushed 2 t = ((cfg5.win 2).blk t).view.read (Elt Ideal) (G5 (arrA5 V c) (arrB5 V c)) := by
  have h1 : t.val % 10 = 9 := (flush5_2 t).mp hf
  show (cfg5.win 2).cut (grid5.coords t) ((dat5 V c).after 2 t) = _
  rw [after5_2, out5_eq_acc V c t h1]
  funext j
  obtain ⟨r, q, rfl⟩ : ∃ (r : Fin 1024) (q : Fin 512), j = ix2 r q := ⟨j 0, j 1, eq_ix2 j⟩
  show (outsAt5 V c t.val t.isLt).2 (ix2 r q) = G5 (arrA5 V c) (arrB5 V c) (((cfg5.win 2).blk t).view.emb (ix2 r q))
  rw [acc5_eq V c r q t.val t.isLt, h1, partialSum5_all]
  unfold G5
  refine Finset.sum_congr rfl fun k _ => ?_
  rw [← embO5_0 t r q, ← embO5_1 t r q]
  exact congrArg₂ (· * ·) (cAt5_eq (n0 := 10240) (n1 := 1024) (arrA5 V c) k _) (cAt5_eq (n0 := 10240) (n1 := 1024) (arrB5 V c) k _)

/-- An index of the output array is in point t's block iff each coordinate is in the block's range on its axis. -/
theorem mem_blk5_2 (t : Fin cfg5.N) (i : S1024x1024.Idx) :
    i ∈ ((cfg5.win 2).blk t).view.set ↔ ∀ a : Fin 2, win5_2.index t a * S1024x512.size a ≤ (i a).val ∧ (i a).val < win5_2.index t a * S1024x512.size a + S1024x512.size a := by
  show i ∈ ((View.whole main_v62).slice (win5_2.rect t)).set ↔ _
  rw [View.set_slice_whole, Rect.mem_set_unit]
  exact Iff.rfl

/-- THE OUTPUT ARRAY after the region: the product of the two operand arrays as the region finds them (the
    output blocks, each written back at its last contraction point, cover the array). -/
theorem arrAt5_2 (c : Dev nD) :
    (dat5 (F := Ideal) V c).arrAt 2 cfg5.N = G5 (V c (Pipeline.arrRef spec5 0)) (V c (Pipeline.arrRef spec5 1)) :=
  (dat5 V c).arrAt_eq_of_cover 2 (G5 (arrA5 V c) (arrB5 V c)) (flushed5_2 V c) fun i => by
    have hi0 : (i 0).val < 1024 := (i 0).isLt
    have hi1 : (i 1).val < 1024 := (i 1).isLt
    have ht : (i 0).val / 1024 * 20 + (i 1).val / 512 * 10 + 9 < cfg5.N := by rw [show cfg5.N = 20 from N_5]; omega
    obtain ⟨-, -, -, -, e0, e1⟩ := idx_facts5 ⟨_, ht⟩
    refine ⟨⟨_, ht⟩, (flush5_2 _).mpr (by show ((i 0).val / 1024 * 20 + (i 1).val / 512 * 10 + 9) % 10 = 9; omega), ?_⟩
    rw [mem_blk5_2]
    intro a
    match a with
    | ⟨0, _⟩ =>
      show win5_2.index _ (0 : Fin 2) * 1024 ≤ (i 0).val ∧ (i 0).val < win5_2.index _ (0 : Fin 2) * 1024 + 1024
      rw [e0]; dsimp only; omega
    | ⟨1, _⟩ =>
      show win5_2.index _ (1 : Fin 2) * 512 ≤ (i 1).val ∧ (i 1).val < win5_2.index _ (1 : Fin 2) * 512 + 512
      rw [e1]; dsimp only; omega

end Value

end Cert.KernelIdeal.HandVal

end
-- ==== Proof.KI.R6Val.lean ====
import proofs.«405323_j90718299226206_3_alg».proof.Proof.KI.R6
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz6 : (![0, 0] : Fin 2 → Nat) = fun _ => 0 := funext fun a => by fin_cases a <;> rfl

section Pieces
variable {F : FTy → Type} [FloatOps F]

/-! ## What each case's found pieces are, as values (any float instance) -/

/-- Case A leaves in the accumulator the zero block plus the product block. -/
theorem sout6_A_eq (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : cond6_0 i) (hc1 : ¬cond6_1 i)
    (x0 : Vec F S1024x1024 .bf16) (x1 : Vec F S1024x512 .bf16) :
    sout6_A_0 c i arg3 harg3 arg4 harg4 arg5 harg5 arg6 harg6 hc0 hc1 x0 x1 = k6_pay2 x0 x1 (k6_pay1 (F := F)) := by
  unfold sout6_A_0
  rw [View.read_writes_eq_canon _ _ _ (scover6_A_0 c i arg3 harg3 arg4 harg4 arg5 harg5 arg6 harg6 hc0 hc1 x0 x1)]
  unfold kernelRun6_A
  dsimp only
  sl_unfold_words
  rw [View.canon_cons_unit_zero (S := S1024x512) hz6, View.readCov_unit_zero (S := S1024x512) _ hz6]
  simp only [View.readAt_eq_ld, harg3.read_unread, harg4.read_unread, View.ld_unit_zero (S := S1024x1024) hz6,
    View.ld_unit_zero (S := S1024x512) hz6]

/-- Case B leaves in the accumulator what it held plus the product block. -/
theorem sout6_B_eq (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : ¬cond6_1 i)
    (x0 : Vec F S1024x1024 .bf16) (x1 : Vec F S1024x512 .bf16) (xs0 : Vec F S1024x512 .f32) :
    sout6_B_0 c i arg3 harg3 arg4 harg4 arg5 harg5 arg6 harg6 hc0 hc1 x0 x1 xs0 = k6_pay2 x0 x1 xs0 := by
  unfold sout6_B_0
  rw [View.read_writes_eq_canon _ _ _ (scover6_B_0 c i arg3 harg3 arg4 harg4 arg5 harg5 arg6 harg6 hc0 hc1 x0 x1 xs0)]
  unfold kernelRun6_B
  dsimp only
  sl_unfold_words
  rw [View.canon_unit_zero hz6]
  simp only [View.readAt_eq_ld, harg3.read_unread, harg4.read_unread, harg6.read_unread, View.ld_unit_zero (S := S1024x1024) hz6,
    View.ld_unit_zero (S := S1024x512) hz6]

/-- Case C leaves the same in the accumulator, -/
theorem sout6_C_eq (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) :
    sout6_C_0 c i arg3 harg3 arg4 harg4 arg5 harg5 arg6 harg6 hc0 hc1 x0 x1 xs0 = k6_pay2 x0 x1 xs0 := by
  unfold sout6_C_0
  rw [View.read_writes_eq_canon _ _ _ (scover6_C_0 c i arg3 harg3 arg4 harg4 arg5 harg5 arg6 harg6 hc0 hc1 x0 x1 xs0)]
  unfold kernelRun6_C
  dsimp only
  sl_unfold_words
  rw [View.canon_unit_zero hz6]
  simp only [View.readAt_eq_ld, harg3.read_unread, harg4.read_unread, harg6.read_unread, View.ld_unit_zero (S := S1024x1024) hz6,
    View.ld_unit_zero (S := S1024x512) hz6]

/-- and copies it to the output's buffer. -/
theorem out6_C_eq (c : Dev nD) (i : grid6.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole) (hc0 : ¬cond6_0 i) (hc1 : cond6_1 i)
    (x0 : Vec F S1024x1024 .bf16) (x1 : Vec F S1024x512 .bf16) (xs0 : Vec F S1024x512 .f32) :
    out6_C_2 c i arg3 harg3 arg4 harg4 arg5 harg5 arg6 harg6 hc0 hc1 x0 x1 xs0 = k6_pay2 x0 x1 xs0 := by
  unfold out6_C_2
  rw [View.read_writes_eq_canon _ _ _ (cover6_C_2 c i arg3 harg3 arg4 harg4 arg5 harg5 arg6 harg6 hc0 hc1 x0 x1 xs0)]
  unfold kernelRun6_C
  dsimp only
  sl_unfold_words
  rw [View.canon_unit_zero hz6, View.readCov_unit_zero (S := S1024x512) _ hz6]
  simp only [View.readAt_eq_ld, harg3.read_unread, harg4.read_unread, harg6.read_unread, View.ld_unit_zero (S := S1024x1024) hz6,
    View.ld_unit_zero (S := S1024x512) hz6]

end Pieces

/-! ## The payloads at an index, at the ideal values -/

/-- The region's dimension numbers: axis 0 of both operands contracted. -/
abbrev D6 := dot_S1024x1024_S1024x512_S1024x512_0_0_1_1_n_n

theorem lhsD6_0 (j : S1024x512.Idx) (k : D6.contr.Idx) : (D6.lhsIdx j k 0 : ℕ) = k ⟨0, by decide⟩ := by
  simp [DotDims.lhsIdx, D6, dot_S1024x1024_S1024x512_S1024x512_0_0_1_1_n_n]; rfl
theorem lhsD6_1 (j : S1024x512.Idx) (k : D6.contr.Idx) : (D6.lhsIdx j k 1 : ℕ) = j 0 := by
  simp [DotDims.lhsIdx, D6, dot_S1024x1024_S1024x512_S1024x512_0_0_1_1_n_n]; rfl
theorem rhsD6_0 (j : S1024x512.Idx) (k : D6.contr.Idx) : (D6.rhsIdx j k 0 : ℕ) = k ⟨0, by decide⟩ := by
  simp [DotDims.rhsIdx, D6, dot_S1024x1024_S1024x512_S1024x512_0_0_1_1_n_n]; rfl
theorem rhsD6_1 (j : S1024x512.Idx) (k : D6.contr.Idx) : (D6.rhsIdx j k 1 : ℕ) = j 1 := by
  simp [DotDims.rhsIdx, D6, dot_S1024x1024_S1024x512_S1024x512_0_0_1_1_n_n]; rfl

/-- The zero block the reset stores. -/
theorem pay6_1_apply (y : S1024x512.Idx) : k6_pay1 (F := Ideal) y = 0 := by
  unfold k6_pay1
  simp only [shapeCast_self]
  exact Ideal.ofBits_zero_f32

/-- The accumulation step at an index: the accumulator there plus the sum over the block's contracted rows of the
    products (the roundings to bf16 are the identity at the ideal values). -/
theorem pay6_2_apply (x0 : Vec Ideal S1024x1024 .bf16) (x1 : Vec Ideal S1024x512 .bf16) (acc : Vec Ideal S1024x512 .f32) (r : Fin 1024) (q : Fin 512) :
    k6_pay2 x0 x1 acc (ix2 r q) = acc (ix2 r q) + ∑ kk : Fin 1024, x0 (ix2 kk r) * x1 (ix2 kk q) := by
  unfold k6_pay2
  simp only [shapeCast_self, addf_apply, matmul, Ideal.matmul_constant_zero_apply, truncf_apply]
  rw [← Equiv.sum_comp (contrEquiv1 D6 1024 rfl rfl).symm]
  refine congrArg (acc (ix2 r q) + ·) (Finset.sum_congr rfl fun kk _ => ?_)
  show x0 (D6.lhsIdx (ix2 r q) ((contrEquiv1 D6 1024 rfl rfl).symm kk)) * x1 (D6.rhsIdx (ix2 r q) ((contrEquiv1 D6 1024 rfl rfl).symm kk)) = _
  have e0 : D6.lhsIdx (ix2 r q) ((contrEquiv1 D6 1024 rfl rfl).symm kk) = ix2 kk r := by
    funext a; apply Fin.ext
    match a with
    | ⟨0, _⟩ => exact (lhsD6_0 _ _).trans (contrEquiv1_symm_val D6 1024 rfl rfl kk)
    | ⟨1, _⟩ => exact lhsD6_1 _ _
  have e1 : D6.rhsIdx (ix2 r q) ((contrEquiv1 D6 1024 rfl rfl).symm kk) = ix2 kk q := by
    funext a; apply Fin.ext
    match a with
    | ⟨0, _⟩ => exact (rhsD6_0 _ _).trans (contrEquiv1_symm_val D6 1024 rfl rfl kk)
    | ⟨1, _⟩ => exact rhsD6_1 _ _
  rw [e0, e1]

/-! ## Arrays read at natural-number coordinates -/

/-- A matrix read at natural-number coordinates (zero outside its extents): sums over blocks are then sums over
    plain arithmetic on the coordinates. -/
def cAt6 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt6_eq {n0 n1 : ℕ} (X : (⟨2, ![n0, n1]⟩ : Shape).Idx → EReal) (i : Fin n0) (j : Fin n1) :
    cAt6 X i.val j.val = X (ix2 i j) := dif_pos ⟨i.isLt, j.isLt⟩

theorem cAt6_idx {n0 n1 : ℕ} (X : (⟨2, ![n0, n1]⟩ : Shape).Idx → EReal) (e : (⟨2, ![n0, n1]⟩ : Shape).Idx) :
    X e = cAt6 X (e 0).val (e 1).val := by
  have h : (e 0).val < n0 ∧ (e 1).val < n1 := ⟨(e 0).isLt, (e 1).isLt⟩
  unfold cAt6; rw [dif_pos h]; exact congrArg X (eq_ix2 e)

/-- Block kb of the contraction (1024 rows of both operands) at output coordinates (R, Q). -/
def blockTerm6 (A B : ℕ → ℕ → EReal) (R Q kb : ℕ) : EReal :=
  ∑ kk : Fin 1024, A (kb * 1024 + kk.val) R * B (kb * 1024 + kk.val) Q

/-- The blocks 0 … k summed. -/
def partialSum6 (A B : ℕ → ℕ → EReal) (R Q k : ℕ) : EReal :=
  ∑ kb ∈ Finset.range (k + 1), blockTerm6 A B R Q kb

theorem partialSum6_zero (A B : ℕ → ℕ → EReal) (R Q : ℕ) : partialSum6 A B R Q 0 = blockTerm6 A B R Q 0 := by
  unfold partialSum6; exact Finset.sum_range_one _

theorem partialSum6_succ (A B : ℕ → ℕ → EReal) (R Q k : ℕ) :
    partialSum6 A B R Q (k + 1) = partialSum6 A B R Q k + blockTerm6 A B R Q (k + 1) := by
  unfold partialSum6; exact Finset.sum_range_succ _ _

/-- All ten blocks are the whole contraction. -/
theorem partialSum6_all (A B : ℕ → ℕ → EReal) (R Q : ℕ) :
    partialSum6 A B R Q 9 = ∑ k : Fin 10240, A k.val R * B k.val Q := by
  unfold partialSum6 blockTerm6
  rw [Finset.sum_range (fun kb => ∑ kk : Fin 1024, A (kb * 1024 + kk.val) R * B (kb * 1024 + kk.val) Q)]
  have h := Equiv.sum_comp (finProdFinEquiv (m := 10) (n := 1024)) (fun k : Fin (10 * 1024) => A k.val R * B k.val Q)
  rw [Fintype.sum_prod_type] at h
  refine Eq.trans ?_ h
  refine Finset.sum_congr rfl fun kb _ => Finset.sum_congr rfl fun kk _ => ?_
  have e : ((finProdFinEquiv (kb, kk) : Fin (10 * 1024)) : ℕ) = kb.val * 1024 + kk.val := by
    show kk.val + 1024 * kb.val = _; omega
  rw [e]

/-! ## The accumulation over the arrays the region finds -/

section Value
variable (V : (c : Dev nD) → (b : Ref sig .tc) → Buf (Elt Ideal) ((c : Thread nD τ).loc b))

/-- The two operand arrays as the region finds them, and the input blocks at a point. -/
abbrev arrA6 (c : Dev nD) : Vec Ideal S10240x1024 .bf16 := V c (Pipeline.arrRef spec6 0)
abbrev arrB6 (c : Dev nD) : Vec Ideal S10240x1024 .bf16 := V c (Pipeline.arrRef spec6 1)
abbrev xblk6 (c : Dev nD) (t : Fin cfg6.N) : Vec Ideal S1024x1024 .bf16 := iblk6 V c 0 t
abbrev yblk6 (c : Dev nD) (t : Fin cfg6.N) : Vec Ideal S1024x512 .bf16 := iblk6 V c 1 t

/-- The printed index maps in closed form, decided over the grid: point t is (i, j, k) = (t / 20, t / 10 % 2, t % 10);
    the lhs block is (k, i), the rhs block (k, j), the output block (i, j). -/
theorem idx_facts6 : ∀ t : Fin cfg6.N, win6_0.index t (0 : Fin 2) = t.val % 10 ∧ win6_0.index t (1 : Fin 2) = t.val / 20
    ∧ win6_1.index t (0 : Fin 2) = t.val % 10 ∧ win6_1.index t (1 : Fin 2) = t.val / 10 % 2
    ∧ win6_2.index t (0 : Fin 2) = t.val / 20 ∧ win6_2.index t (1 : Fin 2) = t.val / 10 % 2 :=
  (by decide +kernel : ∀ t : Fin grid6.N, _)

/-- Where a block's entry sits in its array: block index × block extent + the coordinate inside the block. -/
theorem embA6_0 (t : Fin cfg6.N) (kk r : Fin 1024) :
    ((((cfg6.win 0).blk t).view.emb (ix2 kk r)) 0).val = t.val % 10 * 1024 + kk.val := by
  obtain ⟨e0, -⟩ := idx_facts6 t
  show win6_0.index t (0 : Fin 2) * 1024 + 1 * kk.val = _
  rw [e0]; omega
theorem embA6_1 (t : Fin cfg6.N) (kk r : Fin 1024) :
    ((((cfg6.win 0).blk t).view.emb (ix2 kk r)) 1).val = t.val / 20 * 1024 + r.val := by
  obtain ⟨-, e1, -⟩ := idx_facts6 t
  show win6_0.index t (1 : Fin 2) * 1024 + 1 * r.val = _
  rw [e1]; omega
theorem embB6_0 (t : Fin cfg6.N) (kk : Fin 1024) (q : Fin 512) :
    ((((cfg6.win 1).blk t).view.emb (ix2 kk q)) 0).val = t.val % 10 * 1024 + kk.val := by
  obtain ⟨-, -, e0, -⟩ := idx_facts6 t
  show win6_1.index t (0 : Fin 2) * 1024 + 1 * kk.val = _
  rw [e0]; omega
theorem embB6_1 (t : Fin cfg6.N) (kk : Fin 1024) (q : Fin 512) :
    ((((cfg6.win 1).blk t).view.emb (ix2 kk q)) 1).val = t.val / 10 % 2 * 512 + q.val := by
  obtain ⟨-, -, -, e1, -⟩ := idx_facts6 t
  show win6_1.index t (1 : Fin 2) * 512 + 1 * q.val = _
  rw [e1]; omega
theorem embO6_0 (t : Fin cfg6.N) (r : Fin 1024) (q : Fin 512) :
    ((((cfg6.win 2).blk t).view.emb (ix2 r q)) 0).val = t.val / 20 * 1024 + r.val := by
  obtain ⟨-, -, -, -, e0, -⟩ := idx_facts6 t
  show win6_2.index t (0 : Fin 2) * 1024 + 1 * r.val = _
  rw [e0]; omega
theorem embO6_1 (t : Fin cfg6.N) (r : Fin 1024) (q : Fin 512) :
    ((((cfg6.win 2).blk t).view.emb (ix2 r q)) 1).val = t.val / 10 % 2 * 512 + q.val := by
  obtain ⟨-, -, -, -, -, e1⟩ := idx_facts6 t
  show win6_2.index t (1 : Fin 2) * 512 + 1 * q.val = _
  rw [e1]; omega

/-- A block is its array read through the block's embedding. -/
theorem xblk6_read (c : Dev nD) (t : Fin cfg6.N) (y : S1024x1024.Idx) :
    xblk6 V c t y = arrA6 V c (((cfg6.win 0).blk t).view.emb y) := rfl
theorem yblk6_read (c : Dev nD) (t : Fin cfg6.N) (y : S1024x512.Idx) :
    yblk6 V c t y = arrB6 V c (((cfg6.win 1).blk t).view.emb y) := rfl
theorem arrA6_at (c : Dev nD) (e : S10240x1024.Idx) :
    arrA6 V c e = cAt6 (n0 := 10240) (n1 := 1024) (arrA6 V c) (e 0).val (e 1).val :=
  cAt6_idx (n0 := 10240) (n1 := 1024) (arrA6 V c) e
theorem arrB6_at (c : Dev nD) (e : S10240x1024.Idx) :
    arrB6 V c e = cAt6 (n0 := 10240) (n1 := 1024) (arrB6 V c) (e 0).val (e 1).val :=
  cAt6_idx (n0 := 10240) (n1 := 1024) (arrB6 V c) e

/-- The lhs block at a point reads the lhs array at rows k·1024 …, columns i·1024 …. -/
theorem xblk6_apply (c : Dev nD) (t : Fin cfg6.N) (kk r : Fin 1024) :
    xblk6 V c t (ix2 kk r) = cAt6 (n0 := 10240) (n1 := 1024) (arrA6 V c) (t.val % 10 * 1024 + kk.val) (t.val / 20 * 1024 + r.val) :=
  (xblk6_read V c t (ix2 kk r)).trans ((arrA6_at V c _).trans (by rw [embA6_0, embA6_1]))

/-- The rhs block at a point reads the rhs array at rows k·1024 …, columns j·(block width) …. -/
theorem yblk6_apply (c : Dev nD) (t : Fin cfg6.N) (kk : Fin 1024) (q : Fin 512) :
    yblk6 V c t (ix2 kk q) = cAt6 (n0 := 10240) (n1 := 1024) (arrB6 V c) (t.val % 10 * 1024 + kk.val) (t.val / 10 % 2 * 512 + q.val) :=
  (yblk6_read V c t (ix2 kk q)).trans ((arrB6_at V c _).trans (by rw [embB6_0, embB6_1]))

/-- The product block at a point is block k of the contraction at the output block's coordinates. -/
theorem blk6_eq (c : Dev nD) (t : Fin cfg6.N) (r : Fin 1024) (q : Fin 512) :
    (∑ kk : Fin 1024, xblk6 V c t (ix2 kk r) * yblk6 V c t (ix2 kk q))
      = blockTerm6 (cAt6 (n0 := 10240) (n1 := 1024) (arrA6 V c)) (cAt6 (n0 := 10240) (n1 := 1024) (arrB6 V c)) (t.val / 20 * 1024 + r.val) (t.val / 10 % 2 * 512 + q.val) (t.val % 10) := by
  unfold blockTerm6
  exact Finset.sum_congr rfl fun kk _ => by rw [xblk6_apply, yblk6_apply]

/-- THE ACCUMULATOR after position n: blocks 0 … n % 10 of the contraction, at the output block's coordinates — by
    induction on the position. -/
theorem acc6_eq (c : Dev nD) (r : Fin 1024) (q : Fin 512) : ∀ (n : ℕ) (hn : n < cfg6.N),
    (outsAt6 V c n hn).2 (ix2 r q)
      = partialSum6 (cAt6 (n0 := 10240) (n1 := 1024) (arrA6 V c)) (cAt6 (n0 := 10240) (n1 := 1024) (arrB6 V c)) (n / 20 * 1024 + r.val) (n / 10 % 2 * 512 + q.val) (n % 10)
  | 0, hn => by
    rw [outsAt6_A V c ⟨0, hn⟩ rfl (by show ¬0 % 10 = 9; decide)]
    dsimp only
    rw [sout6_A_eq, pay6_2_apply, pay6_1_apply, zero_add]
    exact (blk6_eq V c ⟨0, hn⟩ r q).trans (partialSum6_zero _ _ _ _).symm
  | n + 1, hn => by
    by_cases h0 : (n + 1) % 10 = 0
    · have h1 : ¬(n + 1) % 10 = 9 := by omega
      rw [outsAt6_A V c ⟨n + 1, hn⟩ h0 h1]
      dsimp only
      rw [sout6_A_eq, pay6_2_apply, pay6_1_apply, zero_add]
      refine (blk6_eq V c ⟨n + 1, hn⟩ r q).trans ?_
      show blockTerm6 _ _ ((n + 1) / 20 * 1024 + r.val) ((n + 1) / 10 % 2 * 512 + q.val) ((n + 1) % 10) = partialSum6 _ _ _ _ ((n + 1) % 10)
      rw [h0]; exact (partialSum6_zero _ _ _ _).symm
    · have ea : (n + 1) / 20 = n / 20 := by omega
      have eb : (n + 1) / 10 % 2 = n / 10 % 2 := by omega
      have ek : (n + 1) % 10 = n % 10 + 1 := by omega
      have ih := acc6_eq c r q n (Nat.lt_of_succ_lt hn)
      by_cases h1 : (n + 1) % 10 = 9
      · rw [outsAt6_C V c ⟨n + 1, hn⟩ h0 h1]
        dsimp only
        rw [sout6_C_eq, pay6_2_apply]
        show (outsAt6 V c n _).2 (ix2 r q) + _ = _
        rw [ih, blk6_eq V c ⟨n + 1, hn⟩ r q]
        show _ + blockTerm6 _ _ ((n + 1) / 20 * 1024 + r.val) ((n + 1) / 10 % 2 * 512 + q.val) ((n + 1) % 10) = _
        rw [ea, eb, ek, partialSum6_succ]
      · rw [outsAt6_B V c ⟨n + 1, hn⟩ h0 h1]
        dsimp only
        rw [sout6_B_eq, pay6_2_apply]
        show (outsAt6 V c n _).2 (ix2 r q) + _ = _
        rw [ih, blk6_eq V c ⟨n + 1, hn⟩ r q]
        show _ + blockTerm6 _ _ ((n + 1) / 20 * 1024 + r.val) ((n + 1) / 10 % 2 * 512 + q.val) ((n + 1) % 10) = _
        rw [ea, eb, ek, partialSum6_succ]

/-- At a point with k = 9 the output's buffer is left holding the accumulator. -/
theorem out6_eq_acc (c : Dev nD) (t : Fin cfg6.N) (h1 : t.val % 10 = 9) :
    (outsAt6 V c t.val t.isLt).1 = (outsAt6 V c t.val t.isLt).2 := by
  have h0 : ¬t.val % 10 = 0 := by omega
  rw [outsAt6_C V c t h0 h1]
  dsimp only
  rw [out6_C_eq, sout6_C_eq]

/-! ## The output array after the region -/

/-- The transposed-lhs product of the two arrays, index by index: the whole contracted axis 0 of both summed. -/
def G6 (a : Vec Ideal S10240x1024 .bf16) (b : Vec Ideal S10240x1024 .bf16) : Vec Ideal S1024x1024 .f32 :=
  fun y => ∑ k : Fin 10240, a (ix2 k (y 0)) * b (ix2 k (y 1))

theorem G6_apply (a : Vec Ideal S10240x1024 .bf16) (b : Vec Ideal S10240x1024 .bf16) (r : Fin 1024) (q : Fin 1024) :
    G6 a b (ix2 r q) = ∑ k : Fin 10240, a (ix2 k r) * b (ix2 k q) := rfl

/-- What a point with k = 9 writes back is its block of the product. -/
theorem flushed6_2 (c : Dev nD) (t : Fin cfg6.N) (hf : (cfg6.win 2).flush t = true) :
    (dat6 (F := Ideal) V c).flushed 2 t = ((cfg6.win 2).blk t).view.read (Elt Ideal) (G6 (arrA6 V c) (arrB6 V c)) := by
  have h1 : t.val % 10 = 9 := (flush6_2 t).mp hf
  show (cfg6.win 2).cut (grid6.coords t) ((dat6 V c).after 2 t) = _
  rw [after6_2, out6_eq_acc V c t h1]
  funext j
  obtain ⟨r, q, rfl⟩ : ∃ (r : Fin 1024) (q : Fin 512), j = ix2 r q := ⟨j 0, j 1, eq_ix2 j⟩
  show (outsAt6 V c t.val t.isLt).2 (ix2 r q) = G6 (arrA6 V c) (arrB6 V c) (((cfg6.win 2).blk t).view.emb (ix2 r q))
  rw [acc6_eq V c r q t.val t.isLt, h1, partialSum6_all]
  unfold G6
  refine Finset.sum_congr rfl fun k _ => ?_
  rw [← embO6_0 t r q, ← embO6_1 t r q]
  exact congrArg₂ (· * ·) (cAt6_eq (n0 := 10240) (n1 := 1024) (arrA6 V c) k _) (cAt6_eq (n0 := 10240) (n1 := 1024) (arrB6 V c) k _)

/-- An index of the output array is in point t's block iff each coordinate is in the block's range on its axis. -/
theorem mem_blk6_2 (t : Fin cfg6.N) (i : S1024x1024.Idx) :
    i ∈ ((cfg6.win 2).blk t).view.set ↔ ∀ a : Fin 2, win6_2.index t a * S1024x512.size a ≤ (i a).val ∧ (i a).val < win6_2.index t a * S1024x512.size a + S1024x512.size a := by
  show i ∈ ((View.whole main_v63).slice (win6_2.rect t)).set ↔ _
  rw [View.set_slice_whole, Rect.mem_set_unit]
  exact Iff.rfl

/-- THE OUTPUT ARRAY after the region: the product of the two operand arrays as the region finds them (the
    output blocks, each written back at its last contraction point, cover the array). -/
theorem arrAt6_2 (c : Dev nD) :
    (dat6 (F := Ideal) V c).arrAt 2 cfg6.N = G6 (V c (Pipeline.arrRef spec6 0)) (V c (Pipeline.arrRef spec6 1)) :=
  (dat6 V c).arrAt_eq_of_cover 2 (G6 (arrA6 V c) (arrB6 V c)) (flushed6_2 V c) fun i => by
    have hi0 : (i 0).val < 1024 := (i 0).isLt
    have hi1 : (i 1).val < 1024 := (i 1).isLt
    have ht : (i 0).val / 1024 * 20 + (i 1).val / 512 * 10 + 9 < cfg6.N := by rw [show cfg6.N = 20 from N_6]; omega
    obtain ⟨-, -, -, -, e0, e1⟩ := idx_facts6 ⟨_, ht⟩
    refine ⟨⟨_, ht⟩, (flush6_2 _).mpr (by show ((i 0).val / 1024 * 20 + (i 1).val / 512 * 10 + 9) % 10 = 9; omega), ?_⟩
    rw [mem_blk6_2]
    intro a
    match a with
    | ⟨0, _⟩ =>
      show win6_2.index _ (0 : Fin 2) * 1024 ≤ (i 0).val ∧ (i 0).val < win6_2.index _ (0 : Fin 2) * 1024 + 1024
      rw [e0]; dsimp only; omega
    | ⟨1, _⟩ =>
      show win6_2.index _ (1 : Fin 2) * 512 ≤ (i 1).val ∧ (i 1).val < win6_2.index _ (1 : Fin 2) * 512 + 512
      rw [e1]; dsimp only; omega

end Value

end Cert.KernelIdeal.HandVal

end
-- ==== Proof.Bridge.CP1b.lean ====
/- The first pooling layer's three transposed-lhs products (regions 4, 5, 6) against the reference's transposes and products. The kernel contracts 10240 rows, the last 240 of them rows of zeros appended to the assignment matrix; the reference contracts the 10000 rows there are: the sums agree because a product with a zero factor is zero. -/
import proofs.«405323_j90718299226206_3_alg».proof.Proof.Bridge.CP1g
import proofs.«405323_j90718299226206_3_alg».proof.Proof.Bridge.CP1a
import proofs.«405323_j90718299226206_3_alg».proof.Proof.KI.R4Val
import proofs.«405323_j90718299226206_3_alg».proof.Proof.KI.R5Val
import proofs.«405323_j90718299226206_3_alg».proof.Proof.KI.R6Val
import proofs.«405323_j90718299226206_3_alg».proof.Proof.Ref.Dots
import proofs.«405323_j90718299226206_3_alg».proof.Proof.Math.MM
import proofs.«405323_j90718299226206_3_alg».proof.Proof.Math.Reads
import Idealize.ShloMosaic.Lib.ValueIdx

set_option maxRecDepth 16384

noncomputable section

open scoped BigOperators

namespace Cert.Bridge

open Idealize.ShloMosaic Idealize.ShloMosaic.TcCoe Idealize.SL.Sem Idealize.ShloMosaic.ValueIdx

variable [Cert.Pre_finite_inputs.Facts]
variable {N : ℕ}
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-! ## The buffers involved, each at its literal type -/

/-- The padded assignment matrix (bf16), the padded feature matrix, the propagated assignment matrix, at the end of the kernel's run; -/
def K55 : Vec Ideal Cert.KernelIdeal.S10240x1024 .bf16 := Cert.KernelIdeal.Hand.W63 (F := Ideal) m c (Proc.devRef .tc Cert.KernelIdeal.main_v55)
def K56 : Vec Ideal Cert.KernelIdeal.S10240x512 .f32 := Cert.KernelIdeal.Hand.W63 (F := Ideal) m c (Proc.devRef .tc Cert.KernelIdeal.main_v56)
def K58 : Vec Ideal Cert.KernelIdeal.S10240x1024 .bf16 := Cert.KernelIdeal.Hand.W63 (F := Ideal) m c (Proc.devRef .tc Cert.KernelIdeal.main_v58_0)
/-- the assignment matrix and the feature matrix before padding, and the two padding values; -/
def K541 : Vec Ideal Cert.KernelIdeal.S10000x1024 .bf16 := Cert.KernelIdeal.Hand.W63 (F := Ideal) m c (Proc.devRef .tc Cert.KernelIdeal.main_v54_1)
def K52 : Vec Ideal Cert.KernelIdeal.S10000x512 .f32 := Cert.KernelIdeal.Hand.W63 (F := Ideal) m c (Proc.devRef .tc Cert.KernelIdeal.main_v52)
def Kz3 : Vec Ideal Cert.KernelIdeal.S_ .bf16 := Cert.KernelIdeal.Hand.W63 (F := Ideal) m c (Proc.devRef .tc Cert.KernelIdeal.main_call3_v0)
def Kz4 : Vec Ideal Cert.KernelIdeal.S_ .f32 := Cert.KernelIdeal.Hand.W63 (F := Ideal) m c (Proc.devRef .tc Cert.KernelIdeal.main_call4_v0)
/-- the assignment matrix widened to f32; -/
def K66 : Vec Ideal Cert.KernelIdeal.S10000x1024 .f32 := Cert.KernelIdeal.Hand.W63 (F := Ideal) m c (Proc.devRef .tc Cert.KernelIdeal.main_v66)
/-- the reference's assignment matrix, feature matrix and propagated assignment matrix. -/
def R84 : Vec Ideal Cert.ReferenceIdeal.S10000x1024 .f32 := Cert.ReferenceIdeal.HandRun.RV (F := Ideal) m' c Cert.ReferenceIdeal.main_v84
def R68 : Vec Ideal Cert.ReferenceIdeal.S10000x512 .f32 := Cert.ReferenceIdeal.HandRun.RV (F := Ideal) m' c Cert.ReferenceIdeal.main_v68
def R88 : Vec Ideal Cert.ReferenceIdeal.S10000x1024 .f32 := Cert.ReferenceIdeal.HandRun.RV (F := Ideal) m' c Cert.ReferenceIdeal.main_v88

/-- The padded assignment matrix is the assignment matrix with 240 rows of the padding value below. -/
theorem K55_eq : K55 m c = pad Cert.KernelIdeal.S10240x1024 ![0, 0] ![240, 0] ![0, 0] (K541 m c) (Kz3 m c) Cert.KernelIdeal.Facts₀.pads_S10000x1024_S10240x1024_02400_000 Cert.KernelIdeal.Facts₀.h_S_ :=
  Cert.KernelIdeal.Hand.kd_main_v55 m c
theorem K56_eq : K56 m c = pad Cert.KernelIdeal.S10240x512 ![0, 0] ![240, 0] ![0, 0] (K52 m c) (Kz4 m c) Cert.KernelIdeal.Facts₀.pads_S10000x512_S10240x512_02400_000 Cert.KernelIdeal.Facts₀.h_S_ :=
  Cert.KernelIdeal.Hand.kd_main_v56 m c

/-- The value the assignment matrix is padded with is the integer 0 read as a number. -/
theorem Kz3_zero : Kz3 m c (Shape.Idx.first Cert.KernelIdeal.Facts₀.h_S_) = 0 := by
  have e : Kz3 m c = sitofp (F := Ideal) .bf16 (constantI Cert.KernelIdeal.S_ 32 0#32) :=
    (Cert.KernelIdeal.Hand.kd_main_call3_v0 m c).trans (congrArg (sitofp (F := Ideal) .bf16) (Cert.KernelIdeal.Hand.kd_main_c_9 m c))
  rw [e]
  show (((0#32 : BitVec 32).toInt : ℝ) : EReal) = 0
  simp

/-- The assignment matrix is the reference's (as f32: the widening is the identity on the ideal values). -/
theorem K541_eq (h : Hyp m m' c) (k : Fin 10000) (r : Fin 1024) : K541 m c (ix2 k r) = R84 m' c (ix2 k r) := by
  have e66 : K66 m c = R84 m' c := cp_main_v66 m m' c h
  have ek : K66 m c = extf (F := Ideal) .f32 (K541 m c) Cert.KernelIdeal.Facts₀.bitsLt_bf16_f32 := Cert.KernelIdeal.Hand.kd_main_v66 m c
  rw [← e66, ek]
  exact (extf_apply (K541 m c) Cert.KernelIdeal.Facts₀.bitsLt_bf16_f32 (ix2 k r)).symm

/-- The feature matrix is the reference's. -/
theorem K52_eq (h : Hyp m m' c) : K52 m c = R68 m' c := cp_main_v52 m m' c h

/-- The propagated assignment matrix, at the 10000 rows there are, is the reference's. -/
theorem K58_rows (h : Hyp m m' c) (k : Fin 10000) (q : Fin 1024) :
    K58 m c (ix2 (Fin.castLE (by decide) k) q) = R88 m' c (ix2 k q) := asp_rows m m' c h k q

/-! ## The appended rows of the assignment matrix are zero -/

/-- The padded assignment matrix at one of the matrix's own rows is the reference's matrix there. -/
theorem K55_inside (h : Hyp m m' c) (k : Fin 10000) (k' : Fin 10240) (hk : k'.val = k.val) (r : Fin 1024) :
    K55 m c (ix2 k' r) = R84 m' c (ix2 k r) := by
  rw [K55_eq m c]
  exact (Cert.Math.pad_rows_apply_inside (n := 10000) (p := 240) (m := 1024) (N := 10240) (K541 m c) (Kz3 m c)
    Cert.KernelIdeal.Facts₀.pads_S10000x1024_S10240x1024_02400_000 Cert.KernelIdeal.Facts₀.h_S_ k k' hk r).trans (K541_eq m m' c h k r)

/-- The padded assignment matrix at an appended row is zero. -/
theorem K55_outside (k' : Fin 10240) (hk : 10000 ≤ k'.val) (r : Fin 1024) : K55 m c (ix2 k' r) = 0 := by
  rw [K55_eq m c]
  exact (Cert.Math.pad_rows_apply_outside (n := 10000) (p := 240) (m := 1024) (N := 10240) (K541 m c) (Kz3 m c)
    Cert.KernelIdeal.Facts₀.pads_S10000x1024_S10240x1024_02400_000 Cert.KernelIdeal.Facts₀.h_S_ k' hk r).trans (Kz3_zero m c)

/-- The padded feature matrix at one of the matrix's own rows is the reference's matrix there. -/
theorem K56_inside (h : Hyp m m' c) (k : Fin 10000) (k' : Fin 10240) (hk : k'.val = k.val) (q : Fin 512) :
    K56 m c (ix2 k' q) = R68 m' c (ix2 k q) := by
  rw [K56_eq m c]
  exact (Cert.Math.pad_rows_apply_inside (n := 10000) (p := 240) (m := 512) (N := 10240) (K52 m c) (Kz4 m c)
    Cert.KernelIdeal.Facts₀.pads_S10000x512_S10240x512_02400_000 Cert.KernelIdeal.Facts₀.h_S_ k k' hk q).trans (by rw [K52_eq m m' c h])

/-- A sum over the 10240 rows whose left factor is the padded assignment matrix is the sum over the first 10000 rows. -/
theorem sum_K55_left (b' : (⟨2, ![10240, N]⟩ : Shape).Idx → EReal) (r : Fin 1024) (q : Fin N) :
    (∑ k : Fin 10240, K55 m c (ix2 k r) * b' (ix2 k q))
      = ∑ k : Fin 10000, K55 m c (ix2 (Fin.castLE (by decide) k) r) * b' (ix2 (Fin.castLE (by decide) k) q) := by
  have e := Cert.Math.sum_rows_pad (Kc := 10000) (Kc' := 10240) (M := N) (N := 1024) (by decide) b' (K55 m c) q r
    (fun k hk => K55_outside m c k hk r)
  exact (Finset.sum_congr rfl fun k _ => mul_comm _ _).trans (e.trans (Finset.sum_congr rfl fun k _ => mul_comm _ _))

/-! ## The three checkpoints -/

/-- Region 4's output, the assignment matrix's transpose times the features. -/
theorem cp_main_v61 (h : Hyp m m' c) : KV m c Cert.KernelIdeal.main_v61 = RV m' c Cert.ReferenceIdeal.main_v86 := by
  have hA : (Cert.KernelIdeal.Hand.W18 (F := Ideal) m c (Proc.devRef .tc Cert.KernelIdeal.main_v55) : Vec Ideal Cert.KernelIdeal.S10240x1024 .bf16) = K55 m c :=
    (Cert.KernelIdeal.Hand.frame18 m c Cert.KernelIdeal.main_v55 (by decide)).symm
  have hB : (Cert.KernelIdeal.Hand.W18 (F := Ideal) m c (Proc.devRef .tc Cert.KernelIdeal.main_v56) : Vec Ideal Cert.KernelIdeal.S10240x512 .f32) = K56 m c :=
    (Cert.KernelIdeal.Hand.frame18 m c Cert.KernelIdeal.main_v56 (by decide)).symm
  refine ((((Cert.KernelIdeal.Hand.frame19 m c Cert.KernelIdeal.main_v61 (by decide)).trans (Cert.KernelIdeal.Hand.W19_out2 m c)).trans
    (Cert.KernelIdeal.HandVal.arrAt4_2 (Cert.KernelIdeal.Hand.Vt18 m) c)).trans (congr (congrArg Cert.KernelIdeal.HandVal.G4 hA) hB)).trans ?_
  refine Eq.trans ?_ (Cert.ReferenceIdeal.HandRun.rd_main_v86 m' c).symm
  rw [Cert.ReferenceIdeal.HandRun.rd_main_v85 m' c]
  funext y
  obtain ⟨r, q, rfl⟩ : ∃ (r : Fin 1024) (q : Fin 512), y = ix2 r q := ⟨y 0, y 1, eq_ix2 y⟩
  rw [Cert.KernelIdeal.HandVal.G4_apply, Cert.ReferenceIdeal.Dots.dot_S1024x10000_S10000x512_apply]
  refine (sum_K55_left (N := 512) m c (K56 m c) r q).trans (Finset.sum_congr rfl fun k _ => ?_)
  rw [Cert.ReferenceIdeal.Dots.transpose_S10000x1024_S1024x10000_apply, K55_inside m m' c h k (Fin.castLE (by decide) k) rfl r,
    K56_inside m m' c h k (Fin.castLE (by decide) k) rfl q]
  rfl

/-- Region 5's output, the assignment matrix's transpose times the propagated assignment matrix. -/
theorem cp_main_v62 (h : Hyp m m' c) : KV m c Cert.KernelIdeal.main_v62 = RV m' c Cert.ReferenceIdeal.main_v89 := by
  have hA : (Cert.KernelIdeal.Hand.W19 (F := Ideal) m c (Proc.devRef .tc Cert.KernelIdeal.main_v55) : Vec Ideal Cert.KernelIdeal.S10240x1024 .bf16) = K55 m c :=
    (Cert.KernelIdeal.Hand.frame19 m c Cert.KernelIdeal.main_v55 (by decide)).symm
  have hB : (Cert.KernelIdeal.Hand.W19 (F := Ideal) m c (Proc.devRef .tc Cert.KernelIdeal.main_v58_0) : Vec Ideal Cert.KernelIdeal.S10240x1024 .bf16) = K58 m c :=
    (Cert.KernelIdeal.Hand.frame19 m c Cert.KernelIdeal.main_v58_0 (by decide)).symm
  refine ((((Cert.KernelIdeal.Hand.frame20 m c Cert.KernelIdeal.main_v62 (by decide)).trans (Cert.KernelIdeal.Hand.W20_out2 m c)).trans
    (Cert.KernelIdeal.HandVal.arrAt5_2 (Cert.KernelIdeal.Hand.Vt19 m) c)).trans (congr (congrArg Cert.KernelIdeal.HandVal.G5 hA) hB)).trans ?_
  refine Eq.trans ?_ (Cert.ReferenceIdeal.HandRun.rd_main_v89 m' c).symm
  rw [Cert.ReferenceIdeal.HandRun.rd_main_v87 m' c]
  funext y
  obtain ⟨r, q, rfl⟩ : ∃ (r : Fin 1024) (q : Fin 1024), y = ix2 r q := ⟨y 0, y 1, eq_ix2 y⟩
  rw [Cert.KernelIdeal.HandVal.G5_apply, Cert.ReferenceIdeal.Dots.dot_S1024x10000_S10000x1024_apply]
  refine (sum_K55_left (N := 1024) m c (K58 m c) r q).trans (Finset.sum_congr rfl fun k _ => ?_)
  rw [Cert.ReferenceIdeal.Dots.transpose_S10000x1024_S1024x10000_apply, K55_inside m m' c h k (Fin.castLE (by decide) k) rfl r,
    K58_rows m m' c h k q]
  rfl

/-- Region 6's output, the assignment matrix's transpose times itself. -/
theorem cp_main_v63 (h : Hyp m m' c) : KV m c Cert.KernelIdeal.main_v63 = RV m' c Cert.ReferenceIdeal.main_v100 := by
  have hA : (Cert.KernelIdeal.Hand.W20 (F := Ideal) m c (Proc.devRef .tc Cert.KernelIdeal.main_v55) : Vec Ideal Cert.KernelIdeal.S10240x1024 .bf16) = K55 m c :=
    (Cert.KernelIdeal.Hand.frame20 m c Cert.KernelIdeal.main_v55 (by decide)).symm
  refine ((((Cert.KernelIdeal.Hand.frame21 m c Cert.KernelIdeal.main_v63 (by decide)).trans (Cert.KernelIdeal.Hand.W21_out2 m c)).trans
    (Cert.KernelIdeal.HandVal.arrAt6_2 (Cert.KernelIdeal.Hand.Vt20 m) c)).trans (congr (congrArg Cert.KernelIdeal.HandVal.G6 hA) hA)).trans ?_
  refine Eq.trans ?_ (Cert.ReferenceIdeal.HandRun.rd_main_v100 m' c).symm
  rw [Cert.ReferenceIdeal.HandRun.rd_main_v99 m' c]
  funext y
  obtain ⟨r, q, rfl⟩ : ∃ (r : Fin 1024) (q : Fin 1024), y = ix2 r q := ⟨y 0, y 1, eq_ix2 y⟩
  rw [Cert.KernelIdeal.HandVal.G6_apply, Cert.ReferenceIdeal.Dots.dot_S1024x10000_S10000x1024_apply]
  refine (sum_K55_left (N := 1024) m c (K55 m c) r q).trans (Finset.sum_congr rfl fun k _ => ?_)
  rw [Cert.ReferenceIdeal.Dots.transpose_S10000x1024_S1024x10000_apply, K55_inside m m' c h k (Fin.castLE (by decide) k) rfl r,
    K55_inside m m' c h k (Fin.castLE (by decide) k) rfl q]
  rfl

end Cert.Bridge

end
-- ==== Proof.Bridge.B1.lean ====
/- Kernel buffers and reference buffers that are the same function of equal operands hold equal contents at the end of the
   two runs: one step per host operation, phase 1 (what depends on the checkpoints of the first 1 pooling layer at most). -/
import proofs.«405323_j90718299226206_3_alg».proof.Proof.Bridge.CP1a
import proofs.«405323_j90718299226206_3_alg».proof.Proof.Bridge.CP1e
import proofs.«405323_j90718299226206_3_alg».proof.Proof.Bridge.CP1c
import proofs.«405323_j90718299226206_3_alg».proof.Proof.Bridge.CP1g
import proofs.«405323_j90718299226206_3_alg».proof.Proof.Bridge.CP1b

set_option maxRecDepth 16384

noncomputable section

namespace Cert.Bridge

open Idealize.ShloMosaic Idealize.ShloMosaic.TcCoe Idealize.SL.Sem

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem br_main_call5_v6 (h : Hyp m m' c) : KV m c Cert.KernelIdeal.main_call5_v6 = RV m' c Cert.ReferenceIdeal.main_call3_v6 := by
  have e0 := Cert.KernelIdeal.Hand.kd_main_call5_v6 (F := Ideal) m c
  have e1 := Cert.ReferenceIdeal.HandRun.rd_main_call3_v6 (F := Ideal) m' c
  have e2 := br_main_call5_v4 m m' c h
  have e3 := cp_main_v62 m m' c h
  have e4 := br_main_call5_v5 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3, e4]
  <;> rfl
theorem br_main_v64 (h : Hyp m m' c) : KV m c Cert.KernelIdeal.main_v64 = RV m' c Cert.ReferenceIdeal.main_v90 := by
  have e0 := Cert.KernelIdeal.Hand.kd_main_v64 (F := Ideal) m c
  have e1 := Cert.ReferenceIdeal.HandRun.rd_main_v90 (F := Ideal) m' c
  have e2 := br_main_call5_v6 m m' c h
  have e3 := (br_main_call5_cst_0 m m' c h).trans (rr_main_cst__main_call3_cst_0 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v65 (h : Hyp m m' c) : KV m c Cert.KernelIdeal.main_v65 = RV m' c Cert.ReferenceIdeal.main_v92 := by
  have e0 := Cert.KernelIdeal.Hand.kd_main_v65 (F := Ideal) m c
  have e1 := Cert.ReferenceIdeal.HandRun.rd_main_v92 (F := Ideal) m' c
  have e2 := cp_main_v60 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v67 (h : Hyp m m' c) : KV m c Cert.KernelIdeal.main_v67 = RV m' c Cert.ReferenceIdeal.main_v93 := by
  have e0 := Cert.KernelIdeal.Hand.kd_main_v67 (F := Ideal) m c
  have e1 := Cert.ReferenceIdeal.HandRun.rd_main_v93 (F := Ideal) m' c
  have e2 := br_main_v65 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v68 (h : Hyp m m' c) : KV m c Cert.KernelIdeal.main_v68 = RV m' c Cert.ReferenceIdeal.main_v94 := by
  have e0 := Cert.KernelIdeal.Hand.kd_main_v68 (F := Ideal) m c
  have e1 := Cert.ReferenceIdeal.HandRun.rd_main_v94 (F := Ideal) m' c
  have e2 := br_main_v67 m m' c h
  have e3 := cp_main_v66 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v70 (h : Hyp m m' c) : KV m c Cert.KernelIdeal.main_v70 = RV m' c Cert.ReferenceIdeal.main_v95 := by
  have e0 := Cert.KernelIdeal.Hand.kd_main_v70 (F := Ideal) m c
  have e1 := Cert.ReferenceIdeal.HandRun.rd_main_v95 (F := Ideal) m' c
  have e2 := br_main_v68 m m' c h
  have e3 := cp_main_v69 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v71 (h : Hyp m m' c) : KV m c Cert.KernelIdeal.main_v71 = RV m' c Cert.ReferenceIdeal.main_v96 := by
  have e0 := Cert.KernelIdeal.Hand.kd_main_v71 (F := Ideal) m c
  have e1 := Cert.ReferenceIdeal.HandRun.rd_main_v96 (F := Ideal) m' c
  have e2 := br_main_v70 m m' c h
  have e3 := (br_main_cst_12 m m' c h).trans (rr_main_cst__main_cst_18 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v72 (h : Hyp m m' c) : KV m c Cert.KernelIdeal.main_v72 = RV m' c Cert.ReferenceIdeal.main_v97 := by
  have e0 := Cert.KernelIdeal.Hand.kd_main_v72 (F := Ideal) m c
  have e1 := Cert.ReferenceIdeal.HandRun.rd_main_v97 (F := Ideal) m' c
  have e2 := br_main_v64 m m' c h
  have e3 := br_main_v71 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v73 (h : Hyp m m' c) : KV m c Cert.KernelIdeal.main_v73 = RV m' c Cert.ReferenceIdeal.main_v98 := by
  have e0 := Cert.KernelIdeal.Hand.kd_main_v73 (F := Ideal) m c
  have e1 := Cert.ReferenceIdeal.HandRun.rd_main_v98 (F := Ideal) m' c
  have e2 := br_main_v72 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call6_v0 (h : Hyp m m' c) : KV m c Cert.KernelIdeal.main_call6_v0 = RV m' c Cert.ReferenceIdeal.main_call4_v0 := by
  have e0 := Cert.KernelIdeal.Hand.kd_main_call6_v0 (F := Ideal) m c
  have e1 := Cert.ReferenceIdeal.HandRun.rd_main_call4_v0 (F := Ideal) m' c
  have e2 := cp_main_v63 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call6_v1 (h : Hyp m m' c) : KV m c Cert.KernelIdeal.main_call6_v1 = RV m' c Cert.ReferenceIdeal.main_call4_v1 := by
  have e0 := Cert.KernelIdeal.Hand.kd_main_call6_v1 (F := Ideal) m c
  have e1 := Cert.ReferenceIdeal.HandRun.rd_main_call4_v1 (F := Ideal) m' c
  have e2 := br_main_call6_v0 m m' c h
  have e3 := (br_main_call6_cst m m' c h).trans (rr_main_cst__main_call4_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v74 (h : Hyp m m' c) : KV m c Cert.KernelIdeal.main_v74 = RV m' c Cert.ReferenceIdeal.main_v101 := by
  have e0 := Cert.KernelIdeal.Hand.kd_main_v74 (F := Ideal) m c
  have e1 := Cert.ReferenceIdeal.HandRun.rd_main_v101 (F := Ideal) m' c
  have e2 := br_main_call6_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v75 (h : Hyp m m' c) : KV m c Cert.KernelIdeal.main_v75 = RV m' c Cert.ReferenceIdeal.main_v102 := by
  have e0 := Cert.KernelIdeal.Hand.kd_main_v75 (F := Ideal) m c
  have e1 := Cert.ReferenceIdeal.HandRun.rd_main_v102 (F := Ideal) m' c
  have e2 := br_main_v74 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v76 (h : Hyp m m' c) : KV m c Cert.KernelIdeal.main_v76 = RV m' c Cert.ReferenceIdeal.main_v103 := by
  have e0 := Cert.KernelIdeal.Hand.kd_main_v76 (F := Ideal) m c
  have e1 := Cert.ReferenceIdeal.HandRun.rd_main_v103 (F := Ideal) m' c
  have e2 := cp_main_v63 m m' c h
  have e3 := br_main_v75 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v86 (h : Hyp m m' c) : KV m c Cert.KernelIdeal.main_v86 = RV m' c Cert.ReferenceIdeal.main_v113 := by
  have e0 := Cert.KernelIdeal.Hand.kd_main_v86 (F := Ideal) m c
  have e1 := Cert.ReferenceIdeal.HandRun.rd_main_v113 (F := Ideal) m' c
  have e2 := br_main_v76 m m' c h
  have e3 := br_main_v85 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call7_v0 (h : Hyp m m' c) : KV m c Cert.KernelIdeal.main_call7_v0 = RV m' c Cert.ReferenceIdeal.main_call5_v0 := by
  have e0 := Cert.KernelIdeal.Hand.kd_main_call7_v0 (F := Ideal) m c
  have e1 := Cert.ReferenceIdeal.HandRun.rd_main_call5_v0 (F := Ideal) m' c
  have e2 := br_main_v86 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call7_v1 (h : Hyp m m' c) : KV m c Cert.KernelIdeal.main_call7_v1 = RV m' c Cert.ReferenceIdeal.main_call5_v1 := by
  have e0 := Cert.KernelIdeal.Hand.kd_main_call7_v1 (F := Ideal) m c
  have e1 := Cert.ReferenceIdeal.HandRun.rd_main_call5_v1 (F := Ideal) m' c
  have e2 := br_main_call7_v0 m m' c h
  have e3 := (br_main_call7_cst m m' c h).trans (rr_main_cst__main_call5_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v87 (h : Hyp m m' c) : KV m c Cert.KernelIdeal.main_v87 = RV m' c Cert.ReferenceIdeal.main_v114 := by
  have e0 := Cert.KernelIdeal.Hand.kd_main_v87 (F := Ideal) m c
  have e1 := Cert.ReferenceIdeal.HandRun.rd_main_v114 (F := Ideal) m' c
  have e2 := br_main_call7_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v96 (h : Hyp m m' c) : KV m c Cert.KernelIdeal.main_v96 = RV m' c Cert.ReferenceIdeal.main_v123 := by
  have e0 := Cert.KernelIdeal.Hand.kd_main_v96 (F := Ideal) m c
  have e1 := Cert.ReferenceIdeal.HandRun.rd_main_v123 (F := Ideal) m' c
  have e2 := cp_main_v62 m m' c h
  have e3 := br_main_v95 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v97 (h : Hyp m m' c) : KV m c Cert.KernelIdeal.main_v97 = RV m' c Cert.ReferenceIdeal.main_v124 := by
  have e0 := Cert.KernelIdeal.Hand.kd_main_v97 (F := Ideal) m c
  have e1 := Cert.ReferenceIdeal.HandRun.rd_main_v124 (F := Ideal) m' c
  have e2 := br_main_v96 m m' c h
  have e3 := (br_main_cst_17 m m' c h).trans (rr_main_cst__main_cst_23 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v98 (h : Hyp m m' c) : KV m c Cert.KernelIdeal.main_v98 = RV m' c Cert.ReferenceIdeal.main_v125 := by
  have e0 := Cert.KernelIdeal.Hand.kd_main_v98 (F := Ideal) m c
  have e1 := Cert.ReferenceIdeal.HandRun.rd_main_v125 (F := Ideal) m' c
  have e2 := br_main_v97 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v99 (h : Hyp m m' c) : KV m c Cert.KernelIdeal.main_v99 = RV m' c Cert.ReferenceIdeal.main_v126 := by
  have e0 := Cert.KernelIdeal.Hand.kd_main_v99 (F := Ideal) m c
  have e1 := Cert.ReferenceIdeal.HandRun.rd_main_v126 (F := Ideal) m' c
  have e2 := br_main_v98 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v101 (h : Hyp m m' c) : KV m c Cert.KernelIdeal.main_v101 = RV m' c Cert.ReferenceIdeal.main_v128 := by
  have e0 := Cert.KernelIdeal.Hand.kd_main_v101 (F := Ideal) m c
  have e1 := Cert.ReferenceIdeal.HandRun.rd_main_v128 (F := Ideal) m' c
  have e2 := br_main_v99 m m' c h
  have e3 := br_main_v100 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v102 (h : Hyp m m' c) : KV m c Cert.KernelIdeal.main_v102 = RV m' c Cert.ReferenceIdeal.main_v129 := by
  have e0 := Cert.KernelIdeal.Hand.kd_main_v102 (F := Ideal) m c
  have e1 := Cert.ReferenceIdeal.HandRun.rd_main_v129 (F := Ideal) m' c
  have e2 := br_main_v101 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v103 (h : Hyp m m' c) : KV m c Cert.KernelIdeal.main_v103 = RV m' c Cert.ReferenceIdeal.main_v130 := by
  have e0 := Cert.KernelIdeal.Hand.kd_main_v103 (F := Ideal) m c
  have e1 := Cert.ReferenceIdeal.HandRun.rd_main_v130 (F := Ideal) m' c
  have e2 := br_main_v96 m m' c h
  have e3 := br_main_v102 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v104 (h : Hyp m m' c) : KV m c Cert.KernelIdeal.main_v104 = RV m' c Cert.ReferenceIdeal.main_v131 := by
  have e0 := Cert.KernelIdeal.Hand.kd_main_v104 (F := Ideal) m c
  have e1 := Cert.ReferenceIdeal.HandRun.rd_main_v131 (F := Ideal) m' c
  have e2 := br_main_v101 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v105 (h : Hyp m m' c) : KV m c Cert.KernelIdeal.main_v105 = RV m' c Cert.ReferenceIdeal.main_v132 := by
  have e0 := Cert.KernelIdeal.Hand.kd_main_v105 (F := Ideal) m c
  have e1 := Cert.ReferenceIdeal.HandRun.rd_main_v132 (F := Ideal) m' c
  have e2 := br_main_v104 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v106 (h : Hyp m m' c) : KV m c Cert.KernelIdeal.main_v106 = RV m' c Cert.ReferenceIdeal.main_v133 := by
  have e0 := Cert.KernelIdeal.Hand.kd_main_v106 (F := Ideal) m c
  have e1 := Cert.ReferenceIdeal.HandRun.rd_main_v133 (F := Ideal) m' c
  have e2 := br_main_v103 m m' c h
  have e3 := br_main_v105 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v113 (h : Hyp m m' c) : KV m c Cert.KernelIdeal.main_v113 = RV m' c Cert.ReferenceIdeal.main_v140 := by
  have e0 := Cert.KernelIdeal.Hand.kd_main_v113 (F := Ideal) m c
  have e1 := Cert.ReferenceIdeal.HandRun.rd_main_v140 (F := Ideal) m' c
  have e2 := br_main_v106 m m' c h
  have e3 := (br_main_v112 m m' c h).trans (rr_main_v109__main_v139 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v114 (h : Hyp m m' c) : KV m c Cert.KernelIdeal.main_v114 = RV m' c Cert.ReferenceIdeal.main_v141 := by
  have e0 := Cert.KernelIdeal.Hand.kd_main_v114 (F := Ideal) m c
  have e1 := Cert.ReferenceIdeal.HandRun.rd_main_v141 (F := Ideal) m' c
  have e2 := br_main_v113 m m' c h
  have e3 := (br_main_cst_20 m m' c h).trans (rr_main_cst__main_cst_26 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v116 (h : Hyp m m' c) : KV m c Cert.KernelIdeal.main_v116 = RV m' c Cert.ReferenceIdeal.main_v143 := by
  have e0 := Cert.KernelIdeal.Hand.kd_main_v116 (F := Ideal) m c
  have e1 := Cert.ReferenceIdeal.HandRun.rd_main_v143 (F := Ideal) m' c
  have e2 := br_main_v114 m m' c h
  have e3 := br_main_v115 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v117 (h : Hyp m m' c) : KV m c Cert.KernelIdeal.main_v117 = RV m' c Cert.ReferenceIdeal.main_v144 := by
  have e0 := Cert.KernelIdeal.Hand.kd_main_v117 (F := Ideal) m c
  have e1 := Cert.ReferenceIdeal.HandRun.rd_main_v144 (F := Ideal) m' c
  have e2 := br_main_v114 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v118 (h : Hyp m m' c) : KV m c Cert.KernelIdeal.main_v118 = RV m' c Cert.ReferenceIdeal.main_v145 := by
  have e0 := Cert.KernelIdeal.Hand.kd_main_v118 (F := Ideal) m c
  have e1 := Cert.ReferenceIdeal.HandRun.rd_main_v145 (F := Ideal) m' c
  have e2 := br_main_v116 m m' c h
  have e3 := br_main_v117 m m' c h
  have e4 := br_main_call8_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3, e4]
  <;> rfl
theorem br_main_v119 (h : Hyp m m' c) : KV m c Cert.KernelIdeal.main_v119 = RV m' c Cert.ReferenceIdeal.main_v146 := by
  have e0 := Cert.KernelIdeal.Hand.kd_main_v119 (F := Ideal) m c
  have e1 := Cert.ReferenceIdeal.HandRun.rd_main_v146 (F := Ideal) m' c
  have e2 := br_main_v118 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v120 (h : Hyp m m' c) : KV m c Cert.KernelIdeal.main_v120 = RV m' c Cert.ReferenceIdeal.main_v147 := by
  have e0 := Cert.KernelIdeal.Hand.kd_main_v120 (F := Ideal) m c
  have e1 := Cert.ReferenceIdeal.HandRun.rd_main_v147 (F := Ideal) m' c
  have e2 := br_main_v119 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v121 (h : Hyp m m' c) : KV m c Cert.KernelIdeal.main_v121 = RV m' c Cert.ReferenceIdeal.main_v148 := by
  have e0 := Cert.KernelIdeal.Hand.kd_main_v121 (F := Ideal) m c
  have e1 := Cert.ReferenceIdeal.HandRun.rd_main_v148 (F := Ideal) m' c
  have e2 := br_main_v120 m m' c h
  have e3 := br_main_v113 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v122 (h : Hyp m m' c) : KV m c Cert.KernelIdeal.main_v122 = RV m' c Cert.ReferenceIdeal.main_v149 := by
  have e0 := Cert.KernelIdeal.Hand.kd_main_v122 (F := Ideal) m c
  have e1 := Cert.ReferenceIdeal.HandRun.rd_main_v149 (F := Ideal) m' c
  have e2 := br_main_v118 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v123 (h : Hyp m m' c) : KV m c Cert.KernelIdeal.main_v123 = RV m' c Cert.ReferenceIdeal.main_v150 := by
  have e0 := Cert.KernelIdeal.Hand.kd_main_v123 (F := Ideal) m c
  have e1 := Cert.ReferenceIdeal.HandRun.rd_main_v150 (F := Ideal) m' c
  have e2 := br_main_v122 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v124 (h : Hyp m m' c) : KV m c Cert.KernelIdeal.main_v124 = RV m' c Cert.ReferenceIdeal.main_v151 := by
  have e0 := Cert.KernelIdeal.Hand.kd_main_v124 (F := Ideal) m c
  have e1 := Cert.ReferenceIdeal.HandRun.rd_main_v151 (F := Ideal) m' c
  have e2 := br_main_v121 m m' c h
  have e3 := br_main_v123 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v139 (h : Hyp m m' c) : KV m c Cert.KernelIdeal.main_v139 = RV m' c Cert.ReferenceIdeal.main_v180 := by
  have e0 := Cert.KernelIdeal.Hand.kd_main_v139 (F := Ideal) m c
  have e1 := Cert.ReferenceIdeal.HandRun.rd_main_v180 (F := Ideal) m' c
  have e2 := br_main_v106 m m' c h
  have e3 := (br_main_cst_25 m m' c h).trans (rr_main_cst__main_cst_32 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v140 (h : Hyp m m' c) : KV m c Cert.KernelIdeal.main_v140 = RV m' c Cert.ReferenceIdeal.main_v181 := by
  have e0 := Cert.KernelIdeal.Hand.kd_main_v140 (F := Ideal) m c
  have e1 := Cert.ReferenceIdeal.HandRun.rd_main_v181 (F := Ideal) m' c
  have e2 := br_main_v139 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v141 (h : Hyp m m' c) : KV m c Cert.KernelIdeal.main_v141 = RV m' c Cert.ReferenceIdeal.main_v182 := by
  have e0 := Cert.KernelIdeal.Hand.kd_main_v141 (F := Ideal) m c
  have e1 := Cert.ReferenceIdeal.HandRun.rd_main_v182 (F := Ideal) m' c
  have e2 := br_main_v140 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl

end Cert.Bridge

end
-- ==== Proof.KI.R7Val.lean ====
import proofs.«405323_j90718299226206_3_alg».proof.Proof.KI.R7
import proofs.«405323_j90718299226206_3_alg».proof.Proof.KI.R0Val
import Idealize.ShloMosaic.Lib.Pipeline.Value
import Idealize.ShloMosaic.Lib.ValueIdx
import Idealize.ShloMosaic.PureOps.Ideal.Laws
import Idealize.ShloMosaic.Lib.Tactic

/-! # Region 7 of @main at the ideal values: what its output array holds after the region

Entry (i, n) of the result is the sum over k of x(i, k) · w(k, n), plus b(0, n).
The region has one grid point, whose blocks are the whole arrays; the zero block the accumulator starts from
adds nothing. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## What the body leaves, as payloads of the input blocks -/

section Piece
variable {F : FTy → Type} [FloatOps F]

/-- The one store into the output buffer writes the last payload of what the accumulator then holds — the
    second payload of the two factor blocks over the zero block — and of the bias row. -/
theorem out7_3_eq (c : Dev nD) (i : grid7.Coords)
    (a2 : Memref sig .tc .vmem S1024x512 .f32) (h2 : a2.IsWhole) (a3 : Memref sig .tc .vmem S512x512 .f32) (h3 : a3.IsWhole)
    (a4 : Memref sig .tc .vmem S1x512 .f32) (h4 : a4.IsWhole) (a5 : Memref sig .tc .vmem S1024x512 .f32) (h5 : a5.IsWhole)
    (a6 : Memref sig .tc .vmem S1024x512 .f32) (h6 : a6.IsWhole) (hc0 : cond7_0 i) (hc1 : cond7_1 i)
    (x0 : Vec F S1024x512 .f32) (x1 : Vec F S512x512 .f32) (x2 : Vec F S1x512 .f32) :
    out7_3 c i a2 h2 a3 h3 a4 h4 a5 h5 a6 h6 hc0 hc1 x0 x1 x2 = k7_pay3 (k7_pay2 x0 x1 (k7_pay1 (F := F))) x2 := by
  unfold out7_3
  rw [View.read_writes_eq_canon _ _ _ (cover7_3 c i a2 h2 a3 h3 a4 h4 a5 h5 a6 h6 hc0 hc1 x0 x1 x2)]
  unfold kernelRun7
  dsimp only
  sl_unfold_words
  rw [View.canon_unit_zero hz0]
  simp only [View.readAt_eq_ld, h2.read_unread, h3.read_unread, h4.read_unread,
    View.ld_unit_zero (S := S1024x512) hz0, View.ld_unit_zero (S := S512x512) hz0, View.ld_unit_zero (S := S1x512) hz0, View.ld_unit_zero (S := S1024x512) hz0,
    View.readCov_unit_zero (S := S1024x512) _ hz0, readCov_cons_unit_zero (S := S1024x512) _ hz0]

end Piece

/-! ## The payloads at an entry, at the ideal values -/

/-- The block product into the zero block, read at an entry: the sum over the contracted coordinate. -/
theorem matmul7_apply {φ₁ φ₂ : FTy} (prec : Option ContractPrecision) (A : FVec Ideal S1024x512 φ₁) (B : FVec Ideal S512x512 φ₂)
    (p : Fin 1024) (q : Fin 512) :
    matmul dot_S1024x512_S512x512_S1024x512_1_0_0_1_n_n prec A B (constant (F := Ideal) S1024x512 .f32 0x00000000#32) (ix2 p q)
      = ∑ k : Fin 512, A (ix2 p k) * B (ix2 k q) := by
  show FloatOps.matmul dot_S1024x512_S512x512_S1024x512_1_0_0_1_n_n prec A B (constant (F := Ideal) S1024x512 .f32 0x00000000#32) (ix2 p q) = _
  rw [Ideal.matmul_constant_zero_apply, ← Equiv.sum_comp (contrEquiv1 dot_S1024x512_S512x512_S1024x512_1_0_0_1_n_n 512 rfl rfl).symm]
  refine Finset.sum_congr rfl fun k _ => ?_
  have c2 := contrEquiv1_symm_val dot_S1024x512_S512x512_S1024x512_1_0_0_1_n_n 512 rfl rfl k
  have l2 : (dot_S1024x512_S512x512_S1024x512_1_0_0_1_n_n).lhsIdx (ix2 p q) ((contrEquiv1 _ 512 rfl rfl).symm k) = ix2 p k := by
    funext ax; apply Fin.ext
    match ax with
    | ⟨0, _⟩ => simp [DotDims.lhsIdx, dot_S1024x512_S512x512_S1024x512_1_0_0_1_n_n] <;> rfl
    | ⟨1, _⟩ => simp [DotDims.lhsIdx, dot_S1024x512_S512x512_S1024x512_1_0_0_1_n_n] <;> exact c2
  have r2 : (dot_S1024x512_S512x512_S1024x512_1_0_0_1_n_n).rhsIdx (ix2 p q) ((contrEquiv1 _ 512 rfl rfl).symm k) = ix2 k q := by
    funext ax; apply Fin.ext
    match ax with
    | ⟨0, _⟩ => simp [DotDims.rhsIdx, dot_S1024x512_S512x512_S1024x512_1_0_0_1_n_n] <;> exact c2
    | ⟨1, _⟩ => simp [DotDims.rhsIdx, dot_S1024x512_S512x512_S1024x512_1_0_0_1_n_n] <;> rfl
  rw [l2, r2]

/-- The body's three payloads composed, read at entry (p, q): the zero block adds nothing, the bias row is read
    at column q. -/
theorem pay7_apply (x0 : Vec Ideal S1024x512 .f32) (x1 : Vec Ideal S512x512 .f32) (x2 : Vec Ideal S1x512 .f32)
    (p : Fin 1024) (q : Fin 512) :
    k7_pay3 (k7_pay2 x0 x1 (k7_pay1 (F := Ideal))) x2 (ix2 p q)
      = (∑ k : Fin 512, x0 (ix2 p k) * x1 (ix2 k q)) + x2 (ix2 (0 : Fin 1) q) := by
  unfold k7_pay3 k7_pay2 k7_pay1
  simp only [shapeCast_self]
  refine (addf_apply _ _ _).trans (congrArg₂ (· + ·) ?_ ?_)
  · refine (addf_apply _ _ _).trans ?_
    exact (congrArg₂ (· + ·) Ideal.ofBits_zero_f32 (matmul7_apply (some .fp32) x0 x1 p q)).trans (zero_add _)
  · exact broadcastTo_apply x2 broadcasts_S1x512_S1024x512 (ix2 p q) (ix2 (0 : Fin 1) q) (fun a => by
      match a with
      | ⟨0, _⟩ => rfl
      | ⟨1, _⟩ =>
        by_cases h : (512 : ℕ) = 1
        · refine Eq.trans ?_ (if_pos h).symm
          have hq : q.val < 512 := q.isLt
          show q.val = 0
          omega
        · exact (if_neg h).symm)

/-! ## From the block to the array -/

variable (V : (c : Dev nD) → (b : Ref sig .tc) → Buf (Elt Ideal) ((c : Thread nD τ).loc b))

/-- The region's result as ONE function of the three operand arrays. -/
def G7 (x : Vec Ideal S1024x512 .f32) (w : Vec Ideal S512x512 .f32) (b : Vec Ideal S1x512 .f32) : Vec Ideal S1024x512 .f32 :=
  fun j => (∑ k : Fin 512, x (ix2 (j 0 : Fin 1024) k) * w (ix2 k (j 1 : Fin 512))) + b (ix2 (0 : Fin 1) (j 1 : Fin 512))

/-- It at an index whose coordinates are named. -/
theorem G7_apply (x : Vec Ideal S1024x512 .f32) (w : Vec Ideal S512x512 .f32) (b : Vec Ideal S1x512 .f32)
    (j : S1024x512.Idx) (i : Fin 1024) (n : Fin 512) (h0 : (j 0).val = i.val) (h1 : (j 1).val = n.val) :
    G7 x w b j = (∑ k : Fin 512, x (ix2 i k) * w (ix2 k n)) + b (ix2 (0 : Fin 1) n) := by
  obtain rfl : (j 0 : Fin 1024) = i := Fin.ext h0
  obtain rfl : (j 1 : Fin 512) = n := Fin.ext h1
  rfl

/-- The three operand arrays as the region finds them, at their literal types. -/
abbrev xarr7 (c : Dev nD) : Vec Ideal S1024x512 .f32 := V c (Pipeline.arrRef spec7 0)
abbrev warr7 (c : Dev nD) : Vec Ideal S512x512 .f32 := V c (Pipeline.arrRef spec7 1)
abbrev barr7 (c : Dev nD) : Vec Ideal S1x512 .f32 := V c (Pipeline.arrRef spec7 2)

/-- The windows' index maps, decided over the grid: every block index is zero. -/
theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- The left factor's block is the whole array. -/
theorem iblk7_0_apply (c : Dev nD) (t : Fin cfg7.N) (p : Fin 1024) (k : Fin 512) :
    (iblk7 V c 0 t : Vec Ideal S1024x512 .f32) (ix2 p k) = xarr7 V c (ix2 p k) := by
  obtain ⟨e00, e01, -⟩ := idx_facts7 t
  unfold iblk7
  rw [View.read_apply]
  refine congrArg (V c (Pipeline.arrRef spec7 0)) (funext fun a => Fin.ext ?_)
  match a with
  | ⟨0, _⟩ => show win7_0.index t (0 : Fin 2) * 1024 + 1 * p.val = p.val; rw [e00]; omega
  | ⟨1, _⟩ => show win7_0.index t (1 : Fin 2) * 512 + 1 * k.val = k.val; rw [e01]; omega

/-- So is the right factor's. -/
theorem iblk7_1_apply (c : Dev nD) (t : Fin cfg7.N) (k : Fin 512) (q : Fin 512) :
    (iblk7 V c 1 t : Vec Ideal S512x512 .f32) (ix2 k q) = warr7 V c (ix2 k q) := by
  obtain ⟨-, -, e10, e11, -⟩ := idx_facts7 t
  unfold iblk7
  rw [View.read_apply]
  refine congrArg (V c (Pipeline.arrRef spec7 1)) (funext fun a => Fin.ext ?_)
  match a with
  | ⟨0, _⟩ => show win7_1.index t (0 : Fin 2) * 512 + 1 * k.val = k.val; rw [e10]; omega
  | ⟨1, _⟩ => show win7_1.index t (1 : Fin 2) * 512 + 1 * q.val = q.val; rw [e11]; omega

/-- So is the bias row's. -/
theorem iblk7_2_apply (c : Dev nD) (t : Fin cfg7.N) (q : Fin 512) :
    (iblk7 V c 2 t : Vec Ideal S1x512 .f32) (ix2 (0 : Fin 1) q) = barr7 V c (ix2 (0 : Fin 1) q) := by
  obtain ⟨-, -, -, -, e20, e21, -⟩ := idx_facts7 t
  unfold iblk7
  rw [View.read_apply]
  refine congrArg (V c (Pipeline.arrRef spec7 2)) (funext fun a => Fin.ext ?_)
  match a with
  | ⟨0, _⟩ => show win7_2.index t (0 : Fin 2) * 1 + 1 * 0 = 0; rw [e20]
  | ⟨1, _⟩ => show win7_2.index t (1 : Fin 2) * 512 + 1 * q.val = q.val; rw [e21]; omega

/-- WHAT THE POINT WRITES BACK is the result function of the operand arrays, read through the block. -/
theorem flushed7_3_eq (c : Dev nD) (t : Fin cfg7.N) :
    (dat7 V c).flushed 3 t = ((cfg7.win 3).blk t).view.read (Elt Ideal) (G7 (xarr7 V c) (warr7 V c) (barr7 V c)) := by
  show (cfg7.win 3).cut (grid7.coords t) ((dat7 V c).after 3 t) = _
  rw [after7_3, out7_3_eq]
  obtain ⟨-, -, -, -, -, -, e30, e31⟩ := idx_facts7 t
  funext j
  obtain ⟨p, q, rfl⟩ : ∃ (p : Fin 1024) (q : Fin 512), j = ix2 p q := ⟨j 0, j 1, eq_ix2 j⟩
  refine (pay7_apply (iblk7 V c 0 t) (iblk7 V c 1 t) (iblk7 V c 2 t) p q).trans ?_
  rw [View.read_apply]
  rw [G7_apply (xarr7 V c) (warr7 V c) (barr7 V c) _ p q
    (by show win7_3.index t (0 : Fin 2) * 1024 + 1 * p.val = p.val; rw [e30]; omega)
    (by show win7_3.index t (1 : Fin 2) * 512 + 1 * q.val = q.val; rw [e31]; omega)]
  refine congrArg₂ (· + ·) (Finset.sum_congr rfl fun k _ => congrArg₂ (· * ·) ?_ ?_) ?_
  · exact iblk7_0_apply V c t p k
  · exact iblk7_1_apply V c t k q
  · exact iblk7_2_apply V c t q

/-- An index of the array is in the point's block iff each coordinate is in the block's range on its axis. -/
theorem mem_blk7_3 (t : Fin cfg7.N) (i : S1024x512.Idx) :
    i ∈ ((cfg7.win 3).blk t).view.set ↔ ∀ a : Fin 2, win7_3.index t a * S1024x512.size a ≤ (i a).val ∧ (i a).val < win7_3.index t a * S1024x512.size a + S1024x512.size a := by
  show i ∈ ((View.whole main_v127).slice (win7_3.rect t)).set ↔ _
  rw [View.set_slice_whole, Rect.mem_set_unit]
  exact Iff.rfl

/-- Every index is in the one point's block. -/
theorem covered7_3 (i : S1024x512.Idx) : ∃ t : Fin cfg7.N, (cfg7.win 3).flush t = true ∧ i ∈ ((cfg7.win 3).blk t).view.set := by
  have hi0 : (i 0).val < 1024 := (i 0).isLt
  have hi1 : (i 1).val < 512 := (i 1).isLt
  have hN : cfg7.N = 1 := N_7
  have ht : 0 < cfg7.N := by omega
  obtain ⟨-, -, -, -, -, -, e30, e31⟩ := idx_facts7 ⟨0, ht⟩
  refine ⟨⟨0, ht⟩, flush7_3 _, ?_⟩
  rw [mem_blk7_3]
  intro a
  match a with
  | ⟨0, _⟩ =>
    show win7_3.index ⟨0, ht⟩ (0 : Fin 2) * 1024 ≤ (i 0).val ∧ (i 0).val < win7_3.index ⟨0, ht⟩ (0 : Fin 2) * 1024 + 1024
    rw [e30]; omega
  | ⟨1, _⟩ =>
    show win7_3.index ⟨0, ht⟩ (1 : Fin 2) * 512 ≤ (i 1).val ∧ (i 1).val < win7_3.index ⟨0, ht⟩ (1 : Fin 2) * 512 + 512
    rw [e31]; omega

/-- THE ARRAY after the region: the result function of the three operand arrays as the region finds them. -/
theorem arrAt7_3 (c : Dev nD) :
    (dat7 (F := Ideal) V c).arrAt 3 cfg7.N = G7 (V c (Pipeline.arrRef spec7 0)) (V c (Pipeline.arrRef spec7 1)) (V c (Pipeline.arrRef spec7 2)) :=
  (dat7 V c).arrAt_eq_of_cover 3 (G7 (xarr7 V c) (warr7 V c) (barr7 V c)) (fun t _ => flushed7_3_eq V c t) (covered7_3)

end Cert.KernelIdeal.HandVal

end
-- ==== Proof.KI.R8Val.lean ====
import proofs.«405323_j90718299226206_3_alg».proof.Proof.KI.R8
import proofs.«405323_j90718299226206_3_alg».proof.Proof.KI.R0Val
import Idealize.ShloMosaic.Lib.Pipeline.Value
import Idealize.ShloMosaic.Lib.ValueIdx
import Idealize.ShloMosaic.PureOps.Ideal.Laws
import Idealize.ShloMosaic.Lib.Tactic

/-! # Region 8 of @main at the ideal values: what its output array holds after the region

Entry (i, n) of the result is the sum over k of x(i, k) · w(k, n) plus b(0, n), clamped below at zero.
The region has one grid point, whose blocks are the whole arrays; the zero block the accumulator starts from
adds nothing. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## What the body leaves, as payloads of the input blocks -/

section Piece
variable {F : FTy → Type} [FloatOps F]

/-- The one store into the output buffer writes the last payload of what the accumulator then holds — the
    second payload of the two factor blocks over the zero block — and of the bias row. -/
theorem out8_3_eq (c : Dev nD) (i : grid8.Coords)
    (a2 : Memref sig .tc .vmem S1024x1024 .f32) (h2 : a2.IsWhole) (a3 : Memref sig .tc .vmem S1024x512 .f32) (h3 : a3.IsWhole)
    (a4 : Memref sig .tc .vmem S1x512 .f32) (h4 : a4.IsWhole) (a5 : Memref sig .tc .vmem S1024x512 .f32) (h5 : a5.IsWhole)
    (a6 : Memref sig .tc .vmem S1024x512 .f32) (h6 : a6.IsWhole) (hc0 : cond8_0 i) (hc1 : cond8_1 i)
    (x0 : Vec F S1024x1024 .f32) (x1 : Vec F S1024x512 .f32) (x2 : Vec F S1x512 .f32) :
    out8_3 c i a2 h2 a3 h3 a4 h4 a5 h5 a6 h6 hc0 hc1 x0 x1 x2 = k8_pay3 (k8_pay2 x0 x1 (k8_pay1 (F := F))) x2 := by
  unfold out8_3
  rw [View.read_writes_eq_canon _ _ _ (cover8_3 c i a2 h2 a3 h3 a4 h4 a5 h5 a6 h6 hc0 hc1 x0 x1 x2)]
  unfold kernelRun8
  dsimp only
  sl_unfold_words
  rw [View.canon_unit_zero hz0]
  simp only [View.readAt_eq_ld, h2.read_unread, h3.read_unread, h4.read_unread,
    View.ld_unit_zero (S := S1024x1024) hz0, View.ld_unit_zero (S := S1024x512) hz0, View.ld_unit_zero (S := S1x512) hz0, View.ld_unit_zero (S := S1024x512) hz0,
    View.readCov_unit_zero (S := S1024x512) _ hz0, readCov_cons_unit_zero (S := S1024x512) _ hz0]

end Piece

/-! ## The payloads at an entry, at the ideal values -/

/-- The block product into the zero block, read at an entry: the sum over the contracted coordinate. -/
theorem matmul8_apply {φ₁ φ₂ : FTy} (prec : Option ContractPrecision) (A : FVec Ideal S1024x1024 φ₁) (B : FVec Ideal S1024x512 φ₂)
    (p : Fin 1024) (q : Fin 512) :
    matmul dot_S1024x1024_S1024x512_S1024x512_1_0_0_1_n_n prec A B (constant (F := Ideal) S1024x512 .f32 0x00000000#32) (ix2 p q)
      = ∑ k : Fin 1024, A (ix2 p k) * B (ix2 k q) := by
  show FloatOps.matmul dot_S1024x1024_S1024x512_S1024x512_1_0_0_1_n_n prec A B (constant (F := Ideal) S1024x512 .f32 0x00000000#32) (ix2 p q) = _
  rw [Ideal.matmul_constant_zero_apply, ← Equiv.sum_comp (contrEquiv1 dot_S1024x1024_S1024x512_S1024x512_1_0_0_1_n_n 1024 rfl rfl).symm]
  refine Finset.sum_congr rfl fun k _ => ?_
  have c2 := contrEquiv1_symm_val dot_S1024x1024_S1024x512_S1024x512_1_0_0_1_n_n 1024 rfl rfl k
  have l2 : (dot_S1024x1024_S1024x512_S1024x512_1_0_0_1_n_n).lhsIdx (ix2 p q) ((contrEquiv1 _ 1024 rfl rfl).symm k) = ix2 p k := by
    funext ax; apply Fin.ext
    match ax with
    | ⟨0, _⟩ => simp [DotDims.lhsIdx, dot_S1024x1024_S1024x512_S1024x512_1_0_0_1_n_n] <;> rfl
    | ⟨1, _⟩ => simp [DotDims.lhsIdx, dot_S1024x1024_S1024x512_S1024x512_1_0_0_1_n_n] <;> exact c2
  have r2 : (dot_S1024x1024_S1024x512_S1024x512_1_0_0_1_n_n).rhsIdx (ix2 p q) ((contrEquiv1 _ 1024 rfl rfl).symm k) = ix2 k q := by
    funext ax; apply Fin.ext
    match ax with
    | ⟨0, _⟩ => simp [DotDims.rhsIdx, dot_S1024x1024_S1024x512_S1024x512_1_0_0_1_n_n] <;> exact c2
    | ⟨1, _⟩ => simp [DotDims.rhsIdx, dot_S1024x1024_S1024x512_S1024x512_1_0_0_1_n_n] <;> rfl
  rw [l2, r2]

/-- The body's three payloads composed, read at entry (p, q): the zero block adds nothing, the bias row is read
    at column q, and the sum is clamped below at zero. -/
theorem pay8_apply (x0 : Vec Ideal S1024x1024 .f32) (x1 : Vec Ideal S1024x512 .f32) (x2 : Vec Ideal S1x512 .f32)
    (p : Fin 1024) (q : Fin 512) :
    k8_pay3 (k8_pay2 x0 x1 (k8_pay1 (F := Ideal))) x2 (ix2 p q)
      = max ((∑ k : Fin 1024, x0 (ix2 p k) * x1 (ix2 k q)) + x2 (ix2 (0 : Fin 1) q)) 0 := by
  unfold k8_pay3 k8_pay2 k8_pay1
  simp only [shapeCast_self]
  refine (maximumf_apply _ _ _).trans (congrArg₂ max ?_ Ideal.ofBits_zero_f32)
  refine (addf_apply _ _ _).trans (congrArg₂ (· + ·) ?_ ?_)
  · refine (addf_apply _ _ _).trans ?_
    exact (congrArg₂ (· + ·) Ideal.ofBits_zero_f32 (matmul8_apply (some .fp32) x0 x1 p q)).trans (zero_add _)
  · exact broadcastTo_apply x2 broadcasts_S1x512_S1024x512 (ix2 p q) (ix2 (0 : Fin 1) q) (fun a => by
      match a with
      | ⟨0, _⟩ => rfl
      | ⟨1, _⟩ =>
        by_cases h : (512 : ℕ) = 1
        · refine Eq.trans ?_ (if_pos h).symm
          have hq : q.val < 512 := q.isLt
          show q.val = 0
          omega
        · exact (if_neg h).symm)

/-! ## From the block to the array -/

variable (V : (c : Dev nD) → (b : Ref sig .tc) → Buf (Elt Ideal) ((c : Thread nD τ).loc b))

/-- The region's result as ONE function of the three operand arrays. -/
def G8 (x : Vec Ideal S1024x1024 .f32) (w : Vec Ideal S1024x512 .f32) (b : Vec Ideal S1x512 .f32) : Vec Ideal S1024x512 .f32 :=
  fun j => max ((∑ k : Fin 1024, x (ix2 (j 0 : Fin 1024) k) * w (ix2 k (j 1 : Fin 512))) + b (ix2 (0 : Fin 1) (j 1 : Fin 512))) 0

/-- It at an index whose coordinates are named. -/
theorem G8_apply (x : Vec Ideal S1024x1024 .f32) (w : Vec Ideal S1024x512 .f32) (b : Vec Ideal S1x512 .f32)
    (j : S1024x512.Idx) (i : Fin 1024) (n : Fin 512) (h0 : (j 0).val = i.val) (h1 : (j 1).val = n.val) :
    G8 x w b j = max ((∑ k : Fin 1024, x (ix2 i k) * w (ix2 k n)) + b (ix2 (0 : Fin 1) n)) 0 := by
  obtain rfl : (j 0 : Fin 1024) = i := Fin.ext h0
  obtain rfl : (j 1 : Fin 512) = n := Fin.ext h1
  rfl

/-- The three operand arrays as the region finds them, at their literal types. -/
abbrev xarr8 (c : Dev nD) : Vec Ideal S1024x1024 .f32 := V c (Pipeline.arrRef spec8 0)
abbrev warr8 (c : Dev nD) : Vec Ideal S1024x512 .f32 := V c (Pipeline.arrRef spec8 1)
abbrev barr8 (c : Dev nD) : Vec Ideal S1x512 .f32 := V c (Pipeline.arrRef spec8 2)

/-- The windows' index maps, decided over the grid: every block index is zero. -/
theorem idx_facts8 : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

/-- The left factor's block is the whole array. -/
theorem iblk8_0_apply (c : Dev nD) (t : Fin cfg8.N) (p : Fin 1024) (k : Fin 1024) :
    (iblk8 V c 0 t : Vec Ideal S1024x1024 .f32) (ix2 p k) = xarr8 V c (ix2 p k) := by
  obtain ⟨e00, e01, -⟩ := idx_facts8 t
  unfold iblk8
  rw [View.read_apply]
  refine congrArg (V c (Pipeline.arrRef spec8 0)) (funext fun a => Fin.ext ?_)
  match a with
  | ⟨0, _⟩ => show win8_0.index t (0 : Fin 2) * 1024 + 1 * p.val = p.val; rw [e00]; omega
  | ⟨1, _⟩ => show win8_0.index t (1 : Fin 2) * 1024 + 1 * k.val = k.val; rw [e01]; omega

/-- So is the right factor's. -/
theorem iblk8_1_apply (c : Dev nD) (t : Fin cfg8.N) (k : Fin 1024) (q : Fin 512) :
    (iblk8 V c 1 t : Vec Ideal S1024x512 .f32) (ix2 k q) = warr8 V c (ix2 k q) := by
  obtain ⟨-, -, e10, e11, -⟩ := idx_facts8 t
  unfold iblk8
  rw [View.read_apply]
  refine congrArg (V c (Pipeline.arrRef spec8 1)) (funext fun a => Fin.ext ?_)
  match a with
  | ⟨0, _⟩ => show win8_1.index t (0 : Fin 2) * 1024 + 1 * k.val = k.val; rw [e10]; omega
  | ⟨1, _⟩ => show win8_1.index t (1 : Fin 2) * 512 + 1 * q.val = q.val; rw [e11]; omega

/-- So is the bias row's. -/
theorem iblk8_2_apply (c : Dev nD) (t : Fin cfg8.N) (q : Fin 512) :
    (iblk8 V c 2 t : Vec Ideal S1x512 .f32) (ix2 (0 : Fin 1) q) = barr8 V c (ix2 (0 : Fin 1) q) := by
  obtain ⟨-, -, -, -, e20, e21, -⟩ := idx_facts8 t
  unfold iblk8
  rw [View.read_apply]
  refine congrArg (V c (Pipeline.arrRef spec8 2)) (funext fun a => Fin.ext ?_)
  match a with
  | ⟨0, _⟩ => show win8_2.index t (0 : Fin 2) * 1 + 1 * 0 = 0; rw [e20]
  | ⟨1, _⟩ => show win8_2.index t (1 : Fin 2) * 512 + 1 * q.val = q.val; rw [e21]; omega

/-- WHAT THE POINT WRITES BACK is the result function of the operand arrays, read through the block. -/
theorem flushed8_3_eq (c : Dev nD) (t : Fin cfg8.N) :
    (dat8 V c).flushed 3 t = ((cfg8.win 3).blk t).view.read (Elt Ideal) (G8 (xarr8 V c) (warr8 V c) (barr8 V c)) := by
  show (cfg8.win 3).cut (grid8.coords t) ((dat8 V c).after 3 t) = _
  rw [after8_3, out8_3_eq]
  obtain ⟨-, -, -, -, -, -, e30, e31⟩ := idx_facts8 t
  funext j
  obtain ⟨p, q, rfl⟩ : ∃ (p : Fin 1024) (q : Fin 512), j = ix2 p q := ⟨j 0, j 1, eq_ix2 j⟩
  refine (pay8_apply (iblk8 V c 0 t) (iblk8 V c 1 t) (iblk8 V c 2 t) p q).trans ?_
  rw [View.read_apply]
  rw [G8_apply (xarr8 V c) (warr8 V c) (barr8 V c) _ p q
    (by show win8_3.index t (0 : Fin 2) * 1024 + 1 * p.val = p.val; rw [e30]; omega)
    (by show win8_3.index t (1 : Fin 2) * 512 + 1 * q.val = q.val; rw [e31]; omega)]
  refine congrArg₂ max (congrArg₂ (· + ·) (Finset.sum_congr rfl fun k _ => congrArg₂ (· * ·) ?_ ?_) ?_) rfl
  · exact iblk8_0_apply V c t p k
  · exact iblk8_1_apply V c t k q
  · exact iblk8_2_apply V c t q

/-- An index of the array is in the point's block iff each coordinate is in the block's range on its axis. -/
theorem mem_blk8_3 (t : Fin cfg8.N) (i : S1024x512.Idx) :
    i ∈ ((cfg8.win 3).blk t).view.set ↔ ∀ a : Fin 2, win8_3.index t a * S1024x512.size a ≤ (i a).val ∧ (i a).val < win8_3.index t a * S1024x512.size a + S1024x512.size a := by
  show i ∈ ((View.whole main_v129).slice (win8_3.rect t)).set ↔ _
  rw [View.set_slice_whole, Rect.mem_set_unit]
  exact Iff.rfl

/-- Every index is in the one point's block. -/
theorem covered8_3 (i : S1024x512.Idx) : ∃ t : Fin cfg8.N, (cfg8.win 3).flush t = true ∧ i ∈ ((cfg8.win 3).blk t).view.set := by
  have hi0 : (i 0).val < 1024 := (i 0).isLt
  have hi1 : (i 1).val < 512 := (i 1).isLt
  have hN : cfg8.N = 1 := N_8
  have ht : 0 < cfg8.N := by omega
  obtain ⟨-, -, -, -, -, -, e30, e31⟩ := idx_facts8 ⟨0, ht⟩
  refine ⟨⟨0, ht⟩, flush8_3 _, ?_⟩
  rw [mem_blk8_3]
  intro a
  match a with
  | ⟨0, _⟩ =>
    show win8_3.index ⟨0, ht⟩ (0 : Fin 2) * 1024 ≤ (i 0).val ∧ (i 0).val < win8_3.index ⟨0, ht⟩ (0 : Fin 2) * 1024 + 1024
    rw [e30]; omega
  | ⟨1, _⟩ =>
    show win8_3.index ⟨0, ht⟩ (1 : Fin 2) * 512 ≤ (i 1).val ∧ (i 1).val < win8_3.index ⟨0, ht⟩ (1 : Fin 2) * 512 + 512
    rw [e31]; omega

/-- THE ARRAY after the region: the result function of the three operand arrays as the region finds them. -/
theorem arrAt8_3 (c : Dev nD) :
    (dat8 (F := Ideal) V c).arrAt 3 cfg8.N = G8 (V c (Pipeline.arrRef spec8 0)) (V c (Pipeline.arrRef spec8 1)) (V c (Pipeline.arrRef spec8 2)) :=
  (dat8 V c).arrAt_eq_of_cover 3 (G8 (xarr8 V c) (warr8 V c) (barr8 V c)) (fun t _ => flushed8_3_eq V c t) (covered8_3)

end Cert.KernelIdeal.HandVal

end
-- ==== Proof.Bridge.CP2a1.lean ====
/-
  PRODUCT REGIONS AGAINST THE REFERENCE. A zero-bias region's output holds Σ_k x(i, k) · w(k, n) plus a row of zeros (the
  constant 0.0 broadcast and recast), the plain product the reference's dot_general holds. A bias-and-relu region's output
  holds max(Σ_k x(i, k) · w(k, n) + v(n), 0), v the bias argument recast as one row; the reference broadcasts v down the
  rows, adds it to its product, and takes the maximum with a broadcast 0.0. In both the two factors hold what the
  reference's factors hold.
-/
import proofs.«405323_j90718299226206_3_alg».proof.Proof.Bridge.B1
import proofs.«405323_j90718299226206_3_alg».proof.Proof.KI.R7Val
import proofs.«405323_j90718299226206_3_alg».proof.Proof.KI.R8Val
import proofs.«405323_j90718299226206_3_alg».proof.Proof.Ref.Dots
import proofs.«405323_j90718299226206_3_alg».proof.Proof.Math.MM

set_option maxRecDepth 16384

noncomputable section

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 7's output (the pooled features times the second layer's weights, plus a row of zeros) is the reference's product. -/
theorem cp_main_v127 (h : Hyp m m' c) : KV m c Cert.KernelIdeal.main_v127 = RV m' c Cert.ReferenceIdeal.main_v152 := by
  show Cert.KernelIdeal.Hand.W63 (F := Ideal) m c (Proc.devRef .tc Cert.KernelIdeal.main_v127) = Cert.ReferenceIdeal.HandRun.RV (F := Ideal) m' c Cert.ReferenceIdeal.main_v152
  -- the two factors, as the region finds them, against the reference's
  have ex : (Cert.KernelIdeal.Hand.W29 (F := Ideal) m c (Proc.devRef .tc Cert.KernelIdeal.main_v61) : Vec Ideal Cert.KernelIdeal.S1024x512 .f32)
      = Cert.ReferenceIdeal.HandRun.RV (F := Ideal) m' c Cert.ReferenceIdeal.main_v86 :=
    (Cert.KernelIdeal.Hand.frame29 m c Cert.KernelIdeal.main_v61 (by decide)).symm.trans (cp_main_v61 m m' c h)
  have ew : (Cert.KernelIdeal.Hand.W29 (F := Ideal) m c (Proc.devRef .tc Cert.KernelIdeal.main_arg7) : Vec Ideal Cert.KernelIdeal.S512x512 .f32)
      = Cert.ReferenceIdeal.HandRun.RV (F := Ideal) m' c Cert.ReferenceIdeal.main_arg7 :=
    (Cert.KernelIdeal.Hand.frame29 m c Cert.KernelIdeal.main_arg7 (by decide)).symm.trans (br_main_arg7 m m' c h)
  -- the bias row keeps its contents to the end,
  have eb : (Cert.KernelIdeal.Hand.W29 (F := Ideal) m c (Proc.devRef .tc Cert.KernelIdeal.main_v126) : Vec Ideal Cert.KernelIdeal.S1x512 .f32)
      = Cert.KernelIdeal.Hand.W63 (F := Ideal) m c (Proc.devRef .tc Cert.KernelIdeal.main_v126) :=
    (Cert.KernelIdeal.Hand.frame29 m c Cert.KernelIdeal.main_v126 (by decide)).symm
  -- and is a row of zeros: the constant 0.0, broadcast, recast
  have hz : ∀ q : Fin 512, (Cert.KernelIdeal.Hand.W63 (F := Ideal) m c (Proc.devRef .tc Cert.KernelIdeal.main_v126) : Vec Ideal Cert.KernelIdeal.S1x512 .f32)
      (ix2 (0 : Fin 1) q) = (0 : EReal) := by
    intro q
    rw [Cert.KernelIdeal.Hand.kd_main_v126 m c, Cert.KernelIdeal.Hand.kd_main_v125 m c, Cert.KernelIdeal.Hand.kd_main_cst_23 m c]
    exact Cert.Math.zero_row_apply _ _ _
  -- the region's output is its value function of the three operand arrays
  refine ((((Cert.KernelIdeal.Hand.frame30 m c Cert.KernelIdeal.main_v127 (by decide)).trans (Cert.KernelIdeal.Hand.W30_out3 m c)).trans
    (Cert.KernelIdeal.HandVal.arrAt7_3 (Cert.KernelIdeal.Hand.Vt29 m) c)).trans
    (congr (congr (congrArg Cert.KernelIdeal.HandVal.G7 ex) ew) eb)).trans ?_
  -- a product plus a row of zeros is the product
  exact (Cert.Math.mm_zero_bias_of (M := 1024) (K := 512) (N := 512)
      (Cert.ReferenceIdeal.HandRun.RV (F := Ideal) m' c Cert.ReferenceIdeal.main_v86) (Cert.ReferenceIdeal.HandRun.RV (F := Ideal) m' c Cert.ReferenceIdeal.main_arg7)
      (Cert.KernelIdeal.Hand.W63 (F := Ideal) m c (Proc.devRef .tc Cert.KernelIdeal.main_v126)) hz).trans
    (Cert.ReferenceIdeal.HandRun.rd_main_v152 m' c).symm

/-- Region 8's output (normalised adjacency times the projected features, plus the bias, maximum with 0) is the reference's. -/
theorem cp_main_v129 (h : Hyp m m' c) : KV m c Cert.KernelIdeal.main_v129 = RV m' c Cert.ReferenceIdeal.main_v157 := by
  show Cert.KernelIdeal.Hand.W63 (F := Ideal) m c (Proc.devRef .tc Cert.KernelIdeal.main_v129) = Cert.ReferenceIdeal.HandRun.RV (F := Ideal) m' c Cert.ReferenceIdeal.main_v157
  -- the two factors, as the region finds them, against the reference's
  have ex : (Cert.KernelIdeal.Hand.W31 (F := Ideal) m c (Proc.devRef .tc Cert.KernelIdeal.main_v124) : Vec Ideal Cert.KernelIdeal.S1024x1024 .f32)
      = Cert.ReferenceIdeal.HandRun.RV (F := Ideal) m' c Cert.ReferenceIdeal.main_v151 :=
    (Cert.KernelIdeal.Hand.frame31 m c Cert.KernelIdeal.main_v124 (by decide)).symm.trans (br_main_v124 m m' c h)
  have ew : (Cert.KernelIdeal.Hand.W31 (F := Ideal) m c (Proc.devRef .tc Cert.KernelIdeal.main_v127) : Vec Ideal Cert.KernelIdeal.S1024x512 .f32)
      = Cert.ReferenceIdeal.HandRun.RV (F := Ideal) m' c Cert.ReferenceIdeal.main_v152 :=
    (Cert.KernelIdeal.Hand.frame31 m c Cert.KernelIdeal.main_v127 (by decide)).symm.trans (cp_main_v127 m m' c h)
  -- the bias row is the bias argument recast as one row
  have eb : (Cert.KernelIdeal.Hand.W31 (F := Ideal) m c (Proc.devRef .tc Cert.KernelIdeal.main_v128) : Vec Ideal Cert.KernelIdeal.S1x512 .f32)
      = shapeCast Cert.KernelIdeal.S1x512 (Cert.ReferenceIdeal.HandRun.RV (F := Ideal) m' c Cert.ReferenceIdeal.main_arg8) Cert.KernelIdeal.Gen.shapeCasts_S512_S1x512 :=
    (Cert.KernelIdeal.Hand.frame31 m c Cert.KernelIdeal.main_v128 (by decide)).symm.trans
      ((Cert.KernelIdeal.Hand.kd_main_v128 m c).trans
        (congrArg (fun v : Vec Ideal Cert.KernelIdeal.S512 .f32 => (shapeCast Cert.KernelIdeal.S1x512 v _ : Vec Ideal Cert.KernelIdeal.S1x512 .f32))
          (br_main_arg8 m m' c h)))
  -- the reference's side, operation by operation: the product, the bias broadcast down the rows, their sum, the maximum with 0
  have hbias := (Cert.ReferenceIdeal.HandRun.rd_main_v155 m' c).trans (congrArg _ (Cert.ReferenceIdeal.HandRun.rd_main_v154 m' c))
  have hsum := (Cert.ReferenceIdeal.HandRun.rd_main_v156 m' c).trans (congr (congrArg _ (Cert.ReferenceIdeal.HandRun.rd_main_v153 m' c)) hbias)
  have hzero := (Cert.ReferenceIdeal.HandRun.rd_main_call7_v0 m' c).trans (congrArg _ (Cert.ReferenceIdeal.HandRun.rd_main_call7_cst m' c))
  have hR := (Cert.ReferenceIdeal.HandRun.rd_main_v157 m' c).trans (congr (congrArg _ hsum) hzero)
  -- the region's output is its value function of the three operand arrays
  refine ((((Cert.KernelIdeal.Hand.frame32 m c Cert.KernelIdeal.main_v129 (by decide)).trans (Cert.KernelIdeal.Hand.W32_out3 m c)).trans
    (Cert.KernelIdeal.HandVal.arrAt8_3 (Cert.KernelIdeal.Hand.Vt31 m) c)).trans
    (congr (congr (congrArg Cert.KernelIdeal.HandVal.G8 ex) ew) eb)).trans ?_
  -- product, plus the bias row, maximum with 0: the host's broadcast, sum and maximum
  exact (Cert.Math.mm_bias_relu (M := 1024) (K := 1024) (N := 512)
      (Cert.ReferenceIdeal.HandRun.RV (F := Ideal) m' c Cert.ReferenceIdeal.main_v151) (Cert.ReferenceIdeal.HandRun.RV (F := Ideal) m' c Cert.ReferenceIdeal.main_v152)
      (Cert.ReferenceIdeal.HandRun.RV (F := Ideal) m' c Cert.ReferenceIdeal.main_arg8) _ _ _ _).trans hR.symm

end Cert.Bridge

end
-- ==== Proof.KI.R9Val.lean ====
import proofs.«405323_j90718299226206_3_alg».proof.Proof.KI.R9
import Idealize.ShloMosaic.Lib.Pipeline.Value
import Idealize.ShloMosaic.Lib.ValueIdx
import Idealize.ShloMosaic.PureOps.Ideal.Laws
import Idealize.ShloMosaic.Lib.Tactic

/-! # Region 9, the value: what its two output arrays hold after the region, at the ideal values

The first output is the projection `relu (x W + b)`, the second its row softmax, each as ONE function of the three
input arrays, index by index. The road: the pieces the body's run found are its payloads of the input blocks (any
values); each payload read at an index over the extended reals; a block of the input windows is the array at the
block's rows; the one point writes its block, the whole array, back. -/

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The specification -/

/-- The projection at row `i`, lane `l`: the bias added to the row of `x` times the column of `W`, clamped below at 0. -/
def projAt9 (x : S1024x512.Idx → EReal) (W : S512x128.Idx → EReal) (b : S1x128.Idx → EReal) (i : Fin 1024) (l : Fin 128) : EReal :=
  max ((∑ k : Fin 512, x (ix2 i k) * W (ix2 k l)) + b (ix2 (0 : Fin 1) l)) 0

/-- The first output: the projection, index by index. -/
def proj9 (x : S1024x512.Idx → EReal) (W : S512x128.Idx → EReal) (b : S1x128.Idx → EReal) : S1024x128.Idx → EReal :=
  fun j => projAt9 x W b (j 0) (j 1)

/-- A row's maximum, folded from the word of minus infinity. -/
def rowMax9 (s : S1024x128.Idx → EReal) (i : Fin 1024) : EReal :=
  (Finset.univ : Finset (Fin 128)).fold max (Ideal.ofBits .f32 0xFF800000#32) (fun l => s (ix2 i l))

/-- The second output: each row's softmax — the exponential of the entry less the row's maximum, over the row's sum of those. -/
def softmax9 (s : S1024x128.Idx → EReal) : S1024x128.Idx → EReal :=
  fun j => Ideal.div (Ideal.exp (s j - rowMax9 s (j 0))) (∑ l : Fin 128, Ideal.exp (s (ix2 (j 0) l) - rowMax9 s (j 0)))

/-! ## The body's arithmetic at an index, at the ideal values -/

theorem hz9 : (![0, 0] : Fin 2 → Nat) = fun _ => 0 := funext fun a => by fin_cases a <;> rfl

/-- The matrix product's dimension numbers: rows of the left operand against columns of the right. -/
abbrev D9 : DotDims S1024x512 S512x128 S1024x128 := dot_S1024x512_S512x128_S1024x128_1_0_0_1_n_n

/-- The left operand's index: its row is the output's row, -/
theorem lhs_D9_0 (j : S1024x128.Idx) (k : D9.contr.Idx) : (D9.lhsIdx j k 0).val = (j 0).val := by
  unfold DotDims.lhsIdx
  rw [dif_neg (show ¬(0 : Fin S1024x512.rank) ∈ D9.lhsBatch by decide), dif_pos (show (0 : Fin S1024x512.rank) ∈ D9.lhsNonContracting by decide)]
  rfl
/-- its column the contraction coordinate. -/
theorem lhs_D9_1 (j : S1024x128.Idx) (k : D9.contr.Idx) : (D9.lhsIdx j k 1).val = (k ⟨0, by decide⟩).val :=
  D9.lhsIdx_val_of_single rfl j k
/-- The right operand's index: its row is the contraction coordinate, -/
theorem rhs_D9_0 (j : S1024x128.Idx) (k : D9.contr.Idx) : (D9.rhsIdx j k 0).val = (k ⟨0, by decide⟩).val :=
  D9.rhsIdx_val_of_single rfl j k
/-- its column the output's column. -/
theorem rhs_D9_1 (j : S1024x128.Idx) (k : D9.contr.Idx) : (D9.rhsIdx j k 1).val = (j 1).val := by
  unfold DotDims.rhsIdx
  rw [dif_neg (show ¬(1 : Fin S512x128.rank) ∈ D9.rhsBatch by decide), dif_pos (show (1 : Fin S512x128.rank) ∈ D9.rhsNonContracting by decide)]
  rfl

/-- The matrix product into the zero accumulator, at row `i` and column `l`: the sum over the 512 contracted
    coordinates of the products of the entries. -/
theorem matmul9_apply {φ₁ φ₂ : FTy} (prec : Option ContractPrecision) (A : FVec Ideal S1024x512 φ₁) (B : FVec Ideal S512x128 φ₂)
    (i : Fin 1024) (l : Fin 128) :
    FloatOps.matmul D9 prec A B (constant S1024x128 .f32 0x00000000#32) (ix2 i l) = ∑ k : Fin 512, A (ix2 i k) * B (ix2 k l) := by
  rw [Ideal.matmul_constant_zero_apply, ← Equiv.sum_comp (contrEquiv1 D9 512 rfl rfl).symm]
  refine Finset.sum_congr rfl fun k _ => ?_
  have ck := contrEquiv1_symm_val D9 512 rfl rfl k
  have hl : D9.lhsIdx (ix2 i l) ((contrEquiv1 D9 512 rfl rfl).symm k) = ix2 i k := by
    funext ax; apply Fin.ext
    match ax with
    | ⟨0, _⟩ => exact lhs_D9_0 _ _
    | ⟨1, _⟩ => exact (lhs_D9_1 _ _).trans ck
  have hr : D9.rhsIdx (ix2 i l) ((contrEquiv1 D9 512 rfl rfl).symm k) = ix2 k l := by
    funext ax; apply Fin.ext
    match ax with
    | ⟨0, _⟩ => exact (rhs_D9_0 _ _).trans ck
    | ⟨1, _⟩ => exact rhs_D9_1 _ _
  rw [hl, hr]

/-- The reset's payload is zero everywhere. -/
theorem payA9_apply (j : S1024x128.Idx) : k9_pay1 (F := Ideal) j = 0 := by
  unfold k9_pay1
  simp only [shapeCast_self]
  exact Ideal.ofBits_zero_f32

/-- The update's payload: the accumulator plus the product of the two blocks (the operands enter the product as they are: it is this sum on the
    extended reals). -/
theorem payB9_apply (x0 : Vec Ideal S1024x512 .f32) (x1 : Vec Ideal S512x128 .f32) (acc : Vec Ideal S1024x128 .f32)
    (i : Fin 1024) (l : Fin 128) :
    k9_pay2 (F := Ideal) x0 x1 acc (ix2 i l) = acc (ix2 i l) + ∑ k : Fin 512, x0 (ix2 i k) * x1 (ix2 k l) := by
  unfold k9_pay2
  simp only [shapeCast_self]
  refine (addf_apply _ _ _).trans ?_
  refine congrArg (acc (ix2 i l) + ·) ?_
  exact matmul9_apply _ _ _ i l

/-- The bias row broadcast down the block reads the bias at the lane. -/
theorem biasBroadcast9_apply (b : Vec Ideal S1x128 .f32) (i : Fin 1024) (l : Fin 128) :
    broadcastTo S1024x128 b broadcasts_S1x128_S1024x128 (ix2 i l) = b (ix2 (0 : Fin 1) l) :=
  broadcastTo_apply b broadcasts_S1x128_S1024x128 (ix2 i l) (ix2 (0 : Fin 1) l) (fun ax => by
    match ax with
    | ⟨0, _⟩ => rfl
    | ⟨1, _⟩ => rfl)

/-- The read-out's first payload: the accumulator plus the bias, clamped below at zero. -/
theorem payC9_apply (a : Vec Ideal S1024x128 .f32) (b : Vec Ideal S1x128 .f32) (i : Fin 1024) (l : Fin 128) :
    k9_pay3 (F := Ideal) a b (ix2 i l) = max (a (ix2 i l) + b (ix2 (0 : Fin 1) l)) 0 := by
  unfold k9_pay3
  simp only [shapeCast_self]
  refine (maximumf_apply _ _ _).trans ?_
  refine congrArg₂ max ?_ Ideal.ofBits_zero_f32
  refine (addf_apply _ _ _).trans ?_
  exact congrArg (a (ix2 i l) + ·) (biasBroadcast9_apply b i l)

/-- A column of per-row values broadcast across the lanes reads the row's value. -/
theorem colBroadcast9_apply (v : Vec Ideal S1024 .f32) (i : Fin 1024) (l : Fin 128) :
    broadcastTo S1024x128 (shapeCast S1024x1 v shapeCasts_S1024_S1024x1) broadcasts_S1024x1_S1024x128 (ix2 i l) = v (ix1 i) := by
  rw [broadcastTo_apply _ broadcasts_S1024x1_S1024x128 (ix2 i l) (ix2 i (0 : Fin 1)) (fun ax => by
    match ax with
    | ⟨0, _⟩ => rfl
    | ⟨1, _⟩ => rfl)]
  exact shapeCast_apply v shapeCasts_S1024_S1024x1 (ix2 i (0 : Fin 1)) (ix1 i) (by
    rw [Shape.rowMajor_val_one, Shape.rowMajor_val_two]; show i.val = i.val * 1 + 0; omega)

/-- The source index over row `i` with lane `l` inserted is the pair. -/
theorem lift9 (i : Fin 1024) (l : Fin 128) : reduces_S1024x128_S1024.lift (ix1 i) l = ix2 i l := by
  funext ax; apply Fin.ext
  match ax with
  | ⟨0, _⟩ => rfl
  | ⟨1, _⟩ => rfl

/-- A row's maximum as the lane reduction computes it (whatever proofs the printed term carries). -/
theorem rowMaxRed9_apply (P : FVec Ideal S1024x128 .f32) (i : Fin 1024) (hφ : FKind.Formats FTy.f32)
    (hm : (0xFF800000#32 : BitVec FTy.f32.bits) = FKind.maximumf.neutral FTy.f32 hφ) :
    multiReduction (F := Ideal) .maximumf [1] S1024 P 0xFF800000#32 reduces_S1024x128_S1024 hφ hm (ix1 i)
      = (Finset.univ : Finset (Fin 128)).fold max (Ideal.ofBits .f32 0xFF800000#32) (fun l => P (ix2 i l)) := by
  refine (Ideal.multiReduction_maximumf_single P 0xFF800000#32 reduces_S1024x128_S1024 hφ hm (ix1 i)).trans ?_
  rw [Ideal.ofBits_def]
  exact Finset.fold_congr (fun l _ => congrArg P (lift9 i l))

/-- A row's sum as the lane reduction computes it. -/
theorem rowSumRed9_apply (E : FVec Ideal S1024x128 .f32) (i : Fin 1024) (hφ : FKind.Formats FTy.f32)
    (ha : (0x00000000#32 : BitVec FTy.f32.bits) = FKind.add.neutral FTy.f32 hφ) :
    multiReduction (F := Ideal) .add [1] S1024 E 0x00000000#32 reduces_S1024x128_S1024 hφ ha (ix1 i)
      = ∑ l : Fin 128, E (ix2 i l) :=
  (Ideal.multiReduction_add_single E 0x00000000#32 reduces_S1024x128_S1024 hφ ha (ix1 i)).trans
    (Finset.sum_congr rfl fun l _ => congrArg E (lift9 i l))

/-- The row softmax of a block `P` as the body computes it: the row maxima `M` broadcast back, the exponentials `E` of
    the differences, the quotient by the row sums broadcast back. -/
theorem softmaxPay9_apply (P : FVec Ideal S1024x128 .f32) (hφ : FKind.Formats FTy.f32)
    (hm : (0xFF800000#32 : BitVec FTy.f32.bits) = FKind.maximumf.neutral FTy.f32 hφ)
    (ha : (0x00000000#32 : BitVec FTy.f32.bits) = FKind.add.neutral FTy.f32 hφ) (i : Fin 1024) (l : Fin 128)
    (M : FVec Ideal S1024x128 .f32)
    (hM : M = broadcastTo S1024x128 (shapeCast S1024x1 (multiReduction (F := Ideal) .maximumf [1] S1024 P 0xFF800000#32 reduces_S1024x128_S1024 hφ hm) shapeCasts_S1024_S1024x1) broadcasts_S1024x1_S1024x128)
    (E : FVec Ideal S1024x128 .f32) (hE : E = exp (F := Ideal) (subf (F := Ideal) P M)) :
    divf E (broadcastTo S1024x128 (shapeCast S1024x1 (multiReduction (F := Ideal) .add [1] S1024 E 0x00000000#32 reduces_S1024x128_S1024 hφ ha) shapeCasts_S1024_S1024x1) broadcasts_S1024x1_S1024x128) (ix2 i l)
      = Ideal.div (Ideal.exp (P (ix2 i l)
            - (Finset.univ : Finset (Fin 128)).fold max (Ideal.ofBits .f32 0xFF800000#32) (fun l' => P (ix2 i l'))))
          (∑ l' : Fin 128, Ideal.exp (P (ix2 i l')
            - (Finset.univ : Finset (Fin 128)).fold max (Ideal.ofBits .f32 0xFF800000#32) (fun l'' => P (ix2 i l'')))) := by
  have hMat : ∀ l' : Fin 128, M (ix2 i l') = (Finset.univ : Finset (Fin 128)).fold max (Ideal.ofBits .f32 0xFF800000#32) (fun l'' => P (ix2 i l'')) := fun l' => by
    rw [hM]
    exact (colBroadcast9_apply _ i l').trans (rowMaxRed9_apply P i hφ hm)
  have hEat : ∀ l' : Fin 128, E (ix2 i l') = Ideal.exp (P (ix2 i l')
      - (Finset.univ : Finset (Fin 128)).fold max (Ideal.ofBits .f32 0xFF800000#32) (fun l'' => P (ix2 i l''))) := fun l' => by
    rw [hE]
    show Ideal.exp (P (ix2 i l') - M (ix2 i l')) = _
    rw [hMat l']
  refine (divf_apply E _ (ix2 i l)).trans ?_
  refine congrArg₂ Ideal.div (hEat l) ?_
  refine (colBroadcast9_apply _ i l).trans ?_
  refine (rowSumRed9_apply E i hφ ha).trans ?_
  exact Finset.sum_congr rfl fun l' _ => hEat l'

/-- The read-out's second payload: the row softmax of the first. -/
theorem payD9_apply (a : Vec Ideal S1024x128 .f32) (b : Vec Ideal S1x128 .f32) (i : Fin 1024) (l : Fin 128) :
    k9_pay4 (F := Ideal) a b (ix2 i l)
      = Ideal.div (Ideal.exp (k9_pay3 (F := Ideal) a b (ix2 i l)
            - (Finset.univ : Finset (Fin 128)).fold max (Ideal.ofBits .f32 0xFF800000#32) (fun l' => k9_pay3 (F := Ideal) a b (ix2 i l'))))
          (∑ l' : Fin 128, Ideal.exp (k9_pay3 (F := Ideal) a b (ix2 i l')
            - (Finset.univ : Finset (Fin 128)).fold max (Ideal.ofBits .f32 0xFF800000#32) (fun l'' => k9_pay3 (F := Ideal) a b (ix2 i l'')))) := by
  unfold k9_pay4
  skip
  exact softmaxPay9_apply (k9_pay3 (F := Ideal) a b) _ _ _ i l _ rfl _ rfl

/-! ## The pieces the run found are the payloads of the input blocks (any values) -/

section Pieces
variable {F : FTy → Type} [FloatOps F]

/-- What the body leaves in output window 3's buffer: the read-out's first payload of the accumulator — the product
    added to the reset's zero — and the bias block. -/
theorem out9_3_eq (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) :
    out9_3 c i arg2 harg2 arg3 harg3 arg4 harg4 arg5 harg5 arg6 harg6 arg7 harg7 hc0 hc1 x0 x1 x2 = k9_pay3 (k9_pay2 x0 x1 (k9_pay1 (F := F))) x2 := by
  unfold out9_3
  rw [View.read_writes_junk_eq_canon]
  unfold kernelRun9
  dsimp only
  sl_unfold_words
  rw [View.canon_unit_zero (S := S1024x128) hz9]
  simp only [View.readCov_cons_toLoadRect, View.readAt_eq_ld, harg2.read_unread, harg3.read_unread, harg4.read_unread,
    View.ld_unit_zero (S := S1024x512) hz9, View.ld_unit_zero (S := S512x128) hz9, View.ld_unit_zero (S := S1x128) hz9]

/-- What the body leaves in output window 4's buffer: the read-out's second payload of the same two. -/
theorem out9_4_eq (c : Dev nD) (i : grid9.Coords) (arg2 : Memref sig .tc .vmem S1024x512 .f32) (harg2 : arg2.IsWhole) (arg3 : Memref sig .tc .vmem S512x128 .f32) (harg3 : arg3.IsWhole) (arg4 : Memref sig .tc .vmem S1x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (hc0 : cond9_0 i) (hc1 : cond9_1 i)
    (x0 : Vec F S1024x512 .f32) (x1 : Vec F S512x128 .f32) (x2 : Vec F S1x128 .f32) :
    out9_4 c i arg2 harg2 arg3 harg3 arg4 harg4 arg5 harg5 arg6 harg6 arg7 harg7 hc0 hc1 x0 x1 x2 = k9_pay4 (k9_pay2 x0 x1 (k9_pay1 (F := F))) x2 := by
  unfold out9_4
  rw [View.read_writes_junk_eq_canon]
  unfold kernelRun9
  dsimp only
  sl_unfold_words
  rw [View.canon_unit_zero (S := S1024x128) hz9]
  simp only [View.readCov_cons_toLoadRect, View.readAt_eq_ld, harg2.read_unread, harg3.read_unread, harg4.read_unread,
    View.ld_unit_zero (S := S1024x512) hz9, View.ld_unit_zero (S := S512x128) hz9, View.ld_unit_zero (S := S1x128) hz9]

end Pieces

/-! ## One row block of the outputs, from blocks that are rows of the arrays -/

/-- Row block `r`'s entry of the first output: when the three blocks read the arrays at rows `1024 r …`, all of `W`
    and all of `b`, the payload at `j` is the projection at row `1024 r + j₀`, lane `j₁`. -/
theorem blockOut9_3 (X : S1024x512.Idx → EReal) (W : S512x128.Idx → EReal) (B : S1x128.Idx → EReal)
    (x0 : Vec Ideal S1024x512 .f32) (x1 : Vec Ideal S512x128 .f32) (x2 : Vec Ideal S1x128 .f32) (r : ℕ) (hr : r < 1)
    (h0 : ∀ (p : Fin 1024) (k : Fin 512), x0 (ix2 p k) = X (ix2 (⟨r * 1024 + p.val, by omega⟩ : Fin 1024) k))
    (h1 : ∀ (k : Fin 512) (q : Fin 128), x1 (ix2 k q) = W (ix2 k q))
    (h2 : ∀ q : Fin 128, x2 (ix2 (0 : Fin 1) q) = B (ix2 (0 : Fin 1) q))
    (p : Fin 1024) (q : Fin 128) :
    k9_pay3 (F := Ideal) (k9_pay2 (F := Ideal) x0 x1 (k9_pay1 (F := Ideal))) x2 (ix2 p q)
      = projAt9 X W B (⟨r * 1024 + p.val, by omega⟩ : Fin 1024) q := by
  refine (payC9_apply _ _ p q).trans ?_
  unfold projAt9
  refine congrArg₂ (fun u v => max (u + v) 0) ?_ (h2 q)
  refine (payB9_apply x0 x1 _ p q).trans ?_
  rw [payA9_apply, zero_add]
  exact Finset.sum_congr rfl fun k _ => by rw [h0 p k, h1 k q]

/-- Row block `r`'s entry of the second output: the row softmax of the projection, at the same row and lane. -/
theorem blockOut9_4 (X : S1024x512.Idx → EReal) (W : S512x128.Idx → EReal) (B : S1x128.Idx → EReal)
    (x0 : Vec Ideal S1024x512 .f32) (x1 : Vec Ideal S512x128 .f32) (x2 : Vec Ideal S1x128 .f32) (r : ℕ) (hr : r < 1)
    (h0 : ∀ (p : Fin 1024) (k : Fin 512), x0 (ix2 p k) = X (ix2 (⟨r * 1024 + p.val, by omega⟩ : Fin 1024) k))
    (h1 : ∀ (k : Fin 512) (q : Fin 128), x1 (ix2 k q) = W (ix2 k q))
    (h2 : ∀ q : Fin 128, x2 (ix2 (0 : Fin 1) q) = B (ix2 (0 : Fin 1) q))
    (p : Fin 1024) (q : Fin 128) :
    k9_pay4 (F := Ideal) (k9_pay2 (F := Ideal) x0 x1 (k9_pay1 (F := Ideal))) x2 (ix2 p q)
      = softmax9 (proj9 X W B) (ix2 (⟨r * 1024 + p.val, by omega⟩ : Fin 1024) q) := by
  have hP : ∀ l : Fin 128, k9_pay3 (F := Ideal) (k9_pay2 (F := Ideal) x0 x1 (k9_pay1 (F := Ideal))) x2 (ix2 p l)
      = proj9 X W B (ix2 (⟨r * 1024 + p.val, by omega⟩ : Fin 1024) l) := fun l =>
    blockOut9_3 X W B x0 x1 x2 r hr h0 h1 h2 p l
  refine (payD9_apply _ _ p q).trans ?_
  simp only [hP]
  rfl

/-! ## The input windows' blocks are rows of the arrays -/

variable (V : (c : Dev nD) → (b : Ref sig .tc) → Buf (Elt Ideal) ((c : Thread nD τ).loc b))

/-- The three input arrays as the region finds them, at their literal types. -/
abbrev xArr9 (c : Dev nD) : S1024x512.Idx → EReal := V c (Pipeline.arrRef spec9 0)
abbrev wArr9 (c : Dev nD) : S512x128.Idx → EReal := V c (Pipeline.arrRef spec9 1)
abbrev bArr9 (c : Dev nD) : S1x128.Idx → EReal := V c (Pipeline.arrRef spec9 2)

/-- The printed index maps, decided over the grid: windows 0, 3 and 4 move down the rows with the point; windows 1 and 2 stay. -/
theorem idx_facts9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

theorem lt_N9 (t : Fin cfg9.N) : t.val < 1 := lt_of_lt_of_eq t.isLt (show cfg9.N = 1 from N_9)

/-- Window 0's block at point `t` is rows `1024 t …` of `x`. -/
theorem xblk9_apply (c : Dev nD) (t : Fin cfg9.N) (p : Fin 1024) (k : Fin 512) :
    (iblk9 V c 0 t : Vec Ideal S1024x512 .f32) (ix2 p k) = xArr9 V c (ix2 (⟨t.val * 1024 + p.val, by have := lt_N9 t; omega⟩ : Fin 1024) k) := by
  obtain ⟨e00, e01, -⟩ := idx_facts9 t
  unfold iblk9 xArr9
  rw [View.read_apply]
  show V c main_v129 _ = V c main_v129 _
  congr 1
  funext a
  apply Fin.ext
  match a with
  | ⟨0, _⟩ => show win9_0.index t 0 * 1024 + 1 * p.val = t.val * 1024 + p.val; rw [e00]; omega
  | ⟨1, _⟩ => show win9_0.index t 1 * 512 + 1 * k.val = k.val; rw [e01]; omega

/-- Window 1's block is all of `W`. -/
theorem wblk9_apply (c : Dev nD) (t : Fin cfg9.N) (k : Fin 512) (q : Fin 128) :
    (iblk9 V c 1 t : Vec Ideal S512x128 .f32) (ix2 k q) = wArr9 V c (ix2 k q) := by
  obtain ⟨-, -, e10, e11, -⟩ := idx_facts9 t
  unfold iblk9 wArr9
  rw [View.read_apply]
  show V c main_arg9 _ = V c main_arg9 _
  congr 1
  funext a
  apply Fin.ext
  match a with
  | ⟨0, _⟩ => show win9_1.index t 0 * 512 + 1 * k.val = k.val; rw [e10]; omega
  | ⟨1, _⟩ => show win9_1.index t 1 * 128 + 1 * q.val = q.val; rw [e11]; omega

/-- Window 2's block is all of `b`. -/
theorem bblk9_apply (c : Dev nD) (t : Fin cfg9.N) (q : Fin 128) :
    (iblk9 V c 2 t : Vec Ideal S1x128 .f32) (ix2 (0 : Fin 1) q) = bArr9 V c (ix2 (0 : Fin 1) q) := by
  obtain ⟨-, -, -, -, e20, e21, -⟩ := idx_facts9 t
  unfold iblk9 bArr9
  rw [View.read_apply]
  show V c main_v130 _ = V c main_v130 _
  congr 1
  funext a
  apply Fin.ext
  match a with
  | ⟨0, _⟩ => show win9_2.index t 0 * 1 + 1 * 0 = 0; rw [e20]
  | ⟨1, _⟩ => show win9_2.index t 1 * 128 + 1 * q.val = q.val; rw [e21]; omega

/-! ## What each point writes back, and the arrays after the region -/

/-- What point `t` writes back of window 3 is block `t` of the projection of the arrays. -/
theorem flushed9_3_eq (c : Dev nD) (t : Fin cfg9.N) :
    (dat9 (F := Ideal) V c).flushed 3 t
      = ((cfg9.win 3).blk t).view.read (Elt Ideal) (proj9 (xArr9 V c) (wArr9 V c) (bArr9 V c)) := by
  obtain ⟨-, -, -, -, -, -, e30, e31, -⟩ := idx_facts9 t
  show (cfg9.win 3).cut (grid9.coords t) ((dat9 (F := Ideal) V c).after 3 t) = _
  rw [after9_3, out9_3_eq]
  funext j
  obtain ⟨p, q, rfl⟩ : ∃ (p : Fin 1024) (q : Fin 128), j = ix2 p q := ⟨j 0, j 1, eq_ix2 j⟩
  refine (blockOut9_3 (xArr9 V c) (wArr9 V c) (bArr9 V c) (iblk9 V c 0 t) (iblk9 V c 1 t) (iblk9 V c 2 t) t.val (lt_N9 t)
    (fun p k => xblk9_apply V c t p k) (fun k q => wblk9_apply V c t k q) (fun q => bblk9_apply V c t q) p q).trans ?_
  rw [View.read_apply]
  show projAt9 _ _ _ _ _ = proj9 (xArr9 V c) (wArr9 V c) (bArr9 V c) (((cfg9.win 3).blk t).view.emb (ix2 p q))
  unfold proj9
  refine congrArg₂ (projAt9 _ _ _) (Fin.ext ?_) (Fin.ext ?_)
  · show t.val * 1024 + p.val = win9_3.index t 0 * 1024 + 1 * p.val; rw [e30]; omega
  · show q.val = win9_3.index t 1 * 128 + 1 * q.val; rw [e31]; omega

/-- What point `t` writes back of window 4 is block `t` of the row softmax of that projection. -/
theorem flushed9_4_eq (c : Dev nD) (t : Fin cfg9.N) :
    (dat9 (F := Ideal) V c).flushed 4 t
      = ((cfg9.win 4).blk t).view.read (Elt Ideal) (softmax9 (proj9 (xArr9 V c) (wArr9 V c) (bArr9 V c))) := by
  obtain ⟨-, -, -, -, -, -, -, -, e40, e41⟩ := idx_facts9 t
  show (cfg9.win 4).cut (grid9.coords t) ((dat9 (F := Ideal) V c).after 4 t) = _
  rw [after9_4, out9_4_eq]
  funext j
  obtain ⟨p, q, rfl⟩ : ∃ (p : Fin 1024) (q : Fin 128), j = ix2 p q := ⟨j 0, j 1, eq_ix2 j⟩
  refine (blockOut9_4 (xArr9 V c) (wArr9 V c) (bArr9 V c) (iblk9 V c 0 t) (iblk9 V c 1 t) (iblk9 V c 2 t) t.val (lt_N9 t)
    (fun p k => xblk9_apply V c t p k) (fun k q => wblk9_apply V c t k q) (fun q => bblk9_apply V c t q) p q).trans ?_
  rw [View.read_apply]
  show softmax9 _ _ = softmax9 (proj9 (xArr9 V c) (wArr9 V c) (bArr9 V c)) (((cfg9.win 4).blk t).view.emb (ix2 p q))
  refine congrArg (softmax9 _) (funext fun a => Fin.ext ?_)
  match a with
  | ⟨0, _⟩ => show t.val * 1024 + p.val = win9_4.index t 0 * 1024 + 1 * p.val; rw [e40]; omega
  | ⟨1, _⟩ => show q.val = win9_4.index t 1 * 128 + 1 * q.val; rw [e41]; omega

/-- The point that writes back the block holding row `r`. -/
def pointOf9 (r : ℕ) (h : r < 1024) : Fin cfg9.N := ⟨r / 1024, by have : cfg9.N = 1 := N_9; omega⟩

/-- Every index of output window 3's array is in the block of the point its row block names. -/
theorem coverOut9_3 (c : Dev nD) (i : ((cfg9.win 3).arr.view.loc (c.tc : Thread nD τ)).2.ty.Idx) :
    ∃ t : Fin cfg9.N, (cfg9.win 3).flush t = true ∧ i ∈ ((cfg9.win 3).blk t).view.set := by
  have hi0 : (i 0 : Nat) < 1024 := (i 0).isLt
  have hi1 : (i 1 : Nat) < 128 := (i 1).isLt
  obtain ⟨-, -, -, -, -, -, e0, e1, -⟩ := idx_facts9 (pointOf9 (i 0 : Nat) hi0)
  refine ⟨pointOf9 (i 0 : Nat) hi0, flush9_3 _, ?_⟩
  show i ∈ ((View.whole main_v131_0).slice (win9_3.rect (pointOf9 (i 0 : Nat) hi0))).set
  rw [View.set_slice_whole, Rect.mem_set_unit]
  intro a
  match a with
  | ⟨0, _⟩ =>
    show win9_3.index (pointOf9 (i 0 : Nat) hi0) 0 * 1024 ≤ (i 0 : Nat) ∧ (i 0 : Nat) < win9_3.index (pointOf9 (i 0 : Nat) hi0) 0 * 1024 + 1024
    rw [e0]; show (i 0 : Nat) / 1024 * 1024 ≤ (i 0 : Nat) ∧ (i 0 : Nat) < (i 0 : Nat) / 1024 * 1024 + 1024; omega
  | ⟨1, _⟩ =>
    show win9_3.index (pointOf9 (i 0 : Nat) hi0) 1 * 128 ≤ (i 1 : Nat) ∧ (i 1 : Nat) < win9_3.index (pointOf9 (i 0 : Nat) hi0) 1 * 128 + 128
    rw [e1]; omega

/-- Every index of output window 4's array is in the block of the point its row block names. -/
theorem coverOut9_4 (c : Dev nD) (i : ((cfg9.win 4).arr.view.loc (c.tc : Thread nD τ)).2.ty.Idx) :
    ∃ t : Fin cfg9.N, (cfg9.win 4).flush t = true ∧ i ∈ ((cfg9.win 4).blk t).view.set := by
  have hi0 : (i 0 : Nat) < 1024 := (i 0).isLt
  have hi1 : (i 1 : Nat) < 128 := (i 1).isLt
  obtain ⟨-, -, -, -, -, -, -, -, e0, e1⟩ := idx_facts9 (pointOf9 (i 0 : Nat) hi0)
  refine ⟨pointOf9 (i 0 : Nat) hi0, flush9_4 _, ?_⟩
  show i ∈ ((View.whole main_v131_1).slice (win9_4.rect (pointOf9 (i 0 : Nat) hi0))).set
  rw [View.set_slice_whole, Rect.mem_set_unit]
  intro a
  match a with
  | ⟨0, _⟩ =>
    show win9_4.index (pointOf9 (i 0 : Nat) hi0) 0 * 1024 ≤ (i 0 : Nat) ∧ (i 0 : Nat) < win9_4.index (pointOf9 (i 0 : Nat) hi0) 0 * 1024 + 1024
    rw [e0]; show (i 0 : Nat) / 1024 * 1024 ≤ (i 0 : Nat) ∧ (i 0 : Nat) < (i 0 : Nat) / 1024 * 1024 + 1024; omega
  | ⟨1, _⟩ =>
    show win9_4.index (pointOf9 (i 0 : Nat) hi0) 1 * 128 ≤ (i 1 : Nat) ∧ (i 1 : Nat) < win9_4.index (pointOf9 (i 0 : Nat) hi0) 1 * 128 + 128
    rw [e1]; omega

/-- Output window 3's array after the region: the projection of the three input arrays as the region finds them. -/
theorem arrAt9_3 (c : Dev nD) :
    (dat9 (F := Ideal) V c).arrAt 3 cfg9.N
      = proj9 (V c (Pipeline.arrRef spec9 0)) (V c (Pipeline.arrRef spec9 1)) (V c (Pipeline.arrRef spec9 2)) :=
  (dat9 (F := Ideal) V c).arrAt_eq_of_cover 3 (proj9 (xArr9 V c) (wArr9 V c) (bArr9 V c))
    (fun t _ => flushed9_3_eq V c t) (coverOut9_3 c)

/-- Output window 4's array after the region: the row softmax of that projection. -/
theorem arrAt9_4 (c : Dev nD) :
    (dat9 (F := Ideal) V c).arrAt 4 cfg9.N
      = softmax9 (proj9 (V c (Pipeline.arrRef spec9 0)) (V c (Pipeline.arrRef spec9 1)) (V c (Pipeline.arrRef spec9 2))) :=
  (dat9 (F := Ideal) V c).arrAt_eq_of_cover 4 (softmax9 (proj9 (xArr9 V c) (wArr9 V c) (bArr9 V c)))
    (fun t _ => flushed9_4_eq V c t) (coverOut9_4 c)

end Cert.KernelIdeal.HandVal

end
-- ==== Proof.Bridge.CP2c.lean ====
/-
  REGION 9 AGAINST THE REFERENCE'S SECOND PROJECTION AND ITS ROW SOFTMAX: the same mathematics as region 2 at 1024 rows and
  128 lanes, on the second layer's activations, weights and bias.
-/
import proofs.«405323_j90718299226206_3_alg».proof.Proof.Bridge.CP2a1
import proofs.«405323_j90718299226206_3_alg».proof.Proof.Bridge.CP1c
import proofs.«405323_j90718299226206_3_alg».proof.Proof.KI.R9Val
import proofs.«405323_j90718299226206_3_alg».proof.Proof.Ref.Dots
import proofs.«405323_j90718299226206_3_alg».proof.Proof.Math.MM
import Idealize.ShloMosaic.PureOps.Reduce

set_option maxRecDepth 16384

noncomputable section

open scoped BigOperators

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 9's projection of its three operand arrays, as the region finds them, is the reference's relu'd projection:
    the activations are a buffer both programs hold equal, the weights an argument, and the bias row the bias argument
    recast as one row, which the reference broadcasts down the rows instead. -/
theorem proj_region9 (h : Hyp m m' c) :
    Cert.KernelIdeal.HandVal.proj9 (Cert.KernelIdeal.Hand.Vt33 (F := Ideal) m c (Pipeline.arrRef Cert.KernelIdeal.spec9 0)) (Cert.KernelIdeal.Hand.Vt33 (F := Ideal) m c (Pipeline.arrRef Cert.KernelIdeal.spec9 1))
        (Cert.KernelIdeal.Hand.Vt33 (F := Ideal) m c (Pipeline.arrRef Cert.KernelIdeal.spec9 2))
      = Cert.ReferenceIdeal.HandRun.RV (F := Ideal) m' c Cert.ReferenceIdeal.main_v162 := by
  have ex : (Cert.KernelIdeal.Hand.W33 (F := Ideal) m c (Proc.devRef .tc Cert.KernelIdeal.main_v129) : Vec Ideal Cert.KernelIdeal.S1024x512 .f32) = Cert.ReferenceIdeal.HandRun.RV (F := Ideal) m' c Cert.ReferenceIdeal.main_v157 :=
    (Cert.KernelIdeal.Hand.frame33 m c Cert.KernelIdeal.main_v129 (by decide)).symm.trans (cp_main_v129 m m' c h)
  have ew : (Cert.KernelIdeal.Hand.W33 (F := Ideal) m c (Proc.devRef .tc Cert.KernelIdeal.main_arg9) : Vec Ideal Cert.KernelIdeal.S512x128 .f32) = Cert.ReferenceIdeal.HandRun.RV (F := Ideal) m' c Cert.ReferenceIdeal.main_arg9 :=
    (Cert.KernelIdeal.Hand.frame33 m c Cert.KernelIdeal.main_arg9 (by decide)).symm.trans (br_main_arg9 m m' c h)
  have eb : (Cert.KernelIdeal.Hand.W33 (F := Ideal) m c (Proc.devRef .tc Cert.KernelIdeal.main_v130) : Vec Ideal Cert.KernelIdeal.S1x128 .f32)
      = shapeCast Cert.KernelIdeal.S1x128 (Cert.ReferenceIdeal.HandRun.RV (F := Ideal) m' c Cert.ReferenceIdeal.main_arg10) Cert.KernelIdeal.Facts₀.shapeCasts_S128_S1x128 :=
    ((Cert.KernelIdeal.Hand.frame33 m c Cert.KernelIdeal.main_v130 (by decide)).symm.trans (Cert.KernelIdeal.Hand.kd_main_v130 m c)).trans
      (congrArg (fun v => shapeCast Cert.KernelIdeal.S1x128 v Cert.KernelIdeal.Facts₀.shapeCasts_S128_S1x128) (br_main_arg10 m m' c h))
  refine (congr (congr (congrArg Cert.KernelIdeal.HandVal.proj9 ex) ew) eb).trans ?_
  rw [Cert.ReferenceIdeal.HandRun.rd_main_v162 m' c, Cert.ReferenceIdeal.HandRun.rd_main_v161 m' c, Cert.ReferenceIdeal.HandRun.rd_main_v158 m' c, Cert.ReferenceIdeal.HandRun.rd_main_v160 m' c, Cert.ReferenceIdeal.HandRun.rd_main_v159 m' c, Cert.ReferenceIdeal.HandRun.rd_main_call8_v0 m' c, Cert.ReferenceIdeal.HandRun.rd_main_call8_cst m' c]
  unfold Cert.KernelIdeal.HandVal.proj9 Cert.KernelIdeal.HandVal.projAt9
  exact Cert.Math.mm_bias_relu (M := 1024) (K := 512) (N := 128) (Cert.ReferenceIdeal.HandRun.RV (F := Ideal) m' c Cert.ReferenceIdeal.main_v157) (Cert.ReferenceIdeal.HandRun.RV (F := Ideal) m' c Cert.ReferenceIdeal.main_arg9) (Cert.ReferenceIdeal.HandRun.RV (F := Ideal) m' c Cert.ReferenceIdeal.main_arg10) _ _ _ _

/-- Region 9's first output is the reference's relu'd projection. -/
theorem cp_main_v131_0 (h : Hyp m m' c) : KV m c Cert.KernelIdeal.main_v131_0 = RV m' c Cert.ReferenceIdeal.main_v162 :=
  (((Cert.KernelIdeal.Hand.frame34 m c Cert.KernelIdeal.main_v131_0 (by decide)).trans (Cert.KernelIdeal.Hand.W34_out3 m c)).trans
    (Cert.KernelIdeal.HandVal.arrAt9_3 (Cert.KernelIdeal.Hand.Vt33 (F := Ideal) m) c)).trans (proj_region9 m m' c h)

/-- The lanes of a 1024×128 block reduce to its 1024 rows. -/
theorem reduces_rows_1024x128 : (⟨2, ![1024, 128]⟩ : Shape).Reduces [1] ⟨1, ![1024]⟩ := by decide

/-- Region 9's second output is the reference's row softmax of that projection: a max-reduce from minus infinity (and a
    maximum with a broadcast minus infinity), the maxima broadcast back, subtract, exponential, a sum-reduce from zero, the
    sums broadcast back, divide. -/
theorem soft_region9 (h : Hyp m m' c) :
    (Cert.KernelIdeal.Hand.W63 (F := Ideal) m c (Proc.devRef .tc Cert.KernelIdeal.main_v131_1) : Cert.KernelIdeal.S1024x128.Idx → EReal) = Cert.ReferenceIdeal.HandRun.RV (F := Ideal) m' c Cert.ReferenceIdeal.main_v173 := by
  refine (((Cert.KernelIdeal.Hand.frame34 m c Cert.KernelIdeal.main_v131_1 (by decide)).trans (Cert.KernelIdeal.Hand.W34_out4 m c)).trans
    (Cert.KernelIdeal.HandVal.arrAt9_4 (Cert.KernelIdeal.Hand.Vt33 (F := Ideal) m) c)).trans ?_
  refine (congrArg Cert.KernelIdeal.HandVal.softmax9 (proj_region9 m m' c h)).trans ?_
  rw [Cert.ReferenceIdeal.HandRun.rd_main_v173 m' c, Cert.ReferenceIdeal.HandRun.rd_main_v172 m' c, Cert.ReferenceIdeal.HandRun.rd_main_v171 m' c, Cert.ReferenceIdeal.HandRun.rd_main_v170 m' c, Cert.ReferenceIdeal.HandRun.rd_main_v169 m' c, Cert.ReferenceIdeal.HandRun.rd_main_v168 m' c, Cert.ReferenceIdeal.HandRun.rd_main_v167 m' c, Cert.ReferenceIdeal.HandRun.rd_main_v166 m' c, Cert.ReferenceIdeal.HandRun.rd_main_v165 m' c, Cert.ReferenceIdeal.HandRun.rd_main_v164 m' c, Cert.ReferenceIdeal.HandRun.rd_main_v163 m' c, Cert.ReferenceIdeal.HandRun.rd_main_cst_29 m' c, Cert.ReferenceIdeal.HandRun.rd_main_cst_30 m' c, Cert.ReferenceIdeal.HandRun.rd_main_cst_31 m' c]
  refine (rfl : Cert.KernelIdeal.HandVal.softmax9 (Cert.ReferenceIdeal.HandRun.RV (F := Ideal) m' c Cert.ReferenceIdeal.main_v162) = softmax (M := 1024) (N := 128) (Cert.ReferenceIdeal.HandRun.RV (F := Ideal) m' c Cert.ReferenceIdeal.main_v162)).trans ?_
  have key := host_softmax_term (M := 1024) (N := 128) (Cert.ReferenceIdeal.HandRun.RV (F := Ideal) m' c Cert.ReferenceIdeal.main_v162) Cert.ReferenceIdeal.Facts₀.reducesTo_S1024x128_S1024_d1 reduces_rows_1024x128
    Cert.ReferenceIdeal.Facts₀.h_S_ Cert.ReferenceIdeal.Facts₀.bcast_S_S1024
    (fun v => broadcastInDim Cert.ReferenceIdeal.S1024x128 ![0, 1] Cert.ReferenceIdeal.Facts₀.bcast_S1024x1_S1024x128_0_1 (broadcastInDim Cert.ReferenceIdeal.S1024x1 ![0] Cert.ReferenceIdeal.Facts₀.bcast_S1024_S1024x1_0 v)) (fun v i l => col_bcast_apply v Cert.ReferenceIdeal.Facts₀.bcast_S1024_S1024x1_0 Cert.ReferenceIdeal.Facts₀.bcast_S1024x1_S1024x128_0_1 i l)
  exact key

/-- Region 9's second output is the reference's row softmax of its projection. -/
theorem cp_main_v131_1 (h : Hyp m m' c) : KV m c Cert.KernelIdeal.main_v131_1 = RV m' c Cert.ReferenceIdeal.main_v173 :=
  soft_region9 m m' c h

end Cert.Bridge

end
-- ==== Proof.KI.R10Val.lean ====
import proofs.«405323_j90718299226206_3_alg».proof.Proof.KI.R10
import proofs.«405323_j90718299226206_3_alg».proof.Proof.KI.R0Val
import Idealize.ShloMosaic.Lib.Pipeline.Value
import Idealize.ShloMosaic.Lib.ValueIdx
import Idealize.ShloMosaic.PureOps.Ideal.Laws
import Idealize.ShloMosaic.Lib.Tactic

/-! # Region 10 of @main at the ideal values: what its output array holds after the region

Entry (i, n) of the result is the sum over k of x(i, k) · w(k, n), plus b(0, n).
The region has one grid point, whose blocks are the whole arrays; the zero block the accumulator starts from
adds nothing. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## What the body leaves, as payloads of the input blocks -/

section Piece
variable {F : FTy → Type} [FloatOps F]

/-- The one store into the output buffer writes the last payload of what the accumulator then holds — the
    second payload of the two factor blocks over the zero block — and of the bias row. -/
theorem out10_3_eq (c : Dev nD) (i : grid10.Coords)
    (a2 : Memref sig .tc .vmem S1024x1024 .f32) (h2 : a2.IsWhole) (a3 : Memref sig .tc .vmem S1024x128 .f32) (h3 : a3.IsWhole)
    (a4 : Memref sig .tc .vmem S1x128 .f32) (h4 : a4.IsWhole) (a5 : Memref sig .tc .vmem S1024x128 .f32) (h5 : a5.IsWhole)
    (a6 : Memref sig .tc .vmem S1024x128 .f32) (h6 : a6.IsWhole) (hc0 : cond10_0 i) (hc1 : cond10_1 i)
    (x0 : Vec F S1024x1024 .f32) (x1 : Vec F S1024x128 .f32) (x2 : Vec F S1x128 .f32) :
    out10_3 c i a2 h2 a3 h3 a4 h4 a5 h5 a6 h6 hc0 hc1 x0 x1 x2 = k10_pay3 (k10_pay2 x0 x1 (k10_pay1 (F := F))) x2 := by
  unfold out10_3
  rw [View.read_writes_eq_canon _ _ _ (cover10_3 c i a2 h2 a3 h3 a4 h4 a5 h5 a6 h6 hc0 hc1 x0 x1 x2)]
  unfold kernelRun10
  dsimp only
  sl_unfold_words
  rw [View.canon_unit_zero hz0]
  simp only [View.readAt_eq_ld, h2.read_unread, h3.read_unread, h4.read_unread,
    View.ld_unit_zero (S := S1024x1024) hz0, View.ld_unit_zero (S := S1024x128) hz0, View.ld_unit_zero (S := S1x128) hz0, View.ld_unit_zero (S := S1024x128) hz0,
    View.readCov_unit_zero (S := S1024x128) _ hz0, readCov_cons_unit_zero (S := S1024x128) _ hz0]

end Piece

/-! ## The payloads at an entry, at the ideal values -/

/-- The block product into the zero block, read at an entry: the sum over the contracted coordinate. -/
theorem matmul10_apply {φ₁ φ₂ : FTy} (prec : Option ContractPrecision) (A : FVec Ideal S1024x1024 φ₁) (B : FVec Ideal S1024x128 φ₂)
    (p : Fin 1024) (q : Fin 128) :
    matmul dot_S1024x1024_S1024x128_S1024x128_1_0_0_1_n_n prec A B (constant (F := Ideal) S1024x128 .f32 0x00000000#32) (ix2 p q)
      = ∑ k : Fin 1024, A (ix2 p k) * B (ix2 k q) := by
  show FloatOps.matmul dot_S1024x1024_S1024x128_S1024x128_1_0_0_1_n_n prec A B (constant (F := Ideal) S1024x128 .f32 0x00000000#32) (ix2 p q) = _
  rw [Ideal.matmul_constant_zero_apply, ← Equiv.sum_comp (contrEquiv1 dot_S1024x1024_S1024x128_S1024x128_1_0_0_1_n_n 1024 rfl rfl).symm]
  refine Finset.sum_congr rfl fun k _ => ?_
  have c2 := contrEquiv1_symm_val dot_S1024x1024_S1024x128_S1024x128_1_0_0_1_n_n 1024 rfl rfl k
  have l2 : (dot_S1024x1024_S1024x128_S1024x128_1_0_0_1_n_n).lhsIdx (ix2 p q) ((contrEquiv1 _ 1024 rfl rfl).symm k) = ix2 p k := by
    funext ax; apply Fin.ext
    match ax with
    | ⟨0, _⟩ => simp [DotDims.lhsIdx, dot_S1024x1024_S1024x128_S1024x128_1_0_0_1_n_n] <;> rfl
    | ⟨1, _⟩ => simp [DotDims.lhsIdx, dot_S1024x1024_S1024x128_S1024x128_1_0_0_1_n_n] <;> exact c2
  have r2 : (dot_S1024x1024_S1024x128_S1024x128_1_0_0_1_n_n).rhsIdx (ix2 p q) ((contrEquiv1 _ 1024 rfl rfl).symm k) = ix2 k q := by
    funext ax; apply Fin.ext
    match ax with
    | ⟨0, _⟩ => simp [DotDims.rhsIdx, dot_S1024x1024_S1024x128_S1024x128_1_0_0_1_n_n] <;> exact c2
    | ⟨1, _⟩ => simp [DotDims.rhsIdx, dot_S1024x1024_S1024x128_S1024x128_1_0_0_1_n_n] <;> rfl
  rw [l2, r2]

/-- The body's three payloads composed, read at entry (p, q): the zero block adds nothing, the bias row is read
    at column q. -/
theorem pay10_apply (x0 : Vec Ideal S1024x1024 .f32) (x1 : Vec Ideal S1024x128 .f32) (x2 : Vec Ideal S1x128 .f32)
    (p : Fin 1024) (q : Fin 128) :
    k10_pay3 (k10_pay2 x0 x1 (k10_pay1 (F := Ideal))) x2 (ix2 p q)
      = (∑ k : Fin 1024, x0 (ix2 p k) * x1 (ix2 k q)) + x2 (ix2 (0 : Fin 1) q) := by
  unfold k10_pay3 k10_pay2 k10_pay1
  simp only [shapeCast_self]
  refine (addf_apply _ _ _).trans (congrArg₂ (· + ·) ?_ ?_)
  · refine (addf_apply _ _ _).trans ?_
    exact (congrArg₂ (· + ·) Ideal.ofBits_zero_f32 (matmul10_apply (some .fp32) x0 x1 p q)).trans (zero_add _)
  · exact broadcastTo_apply x2 broadcasts_S1x128_S1024x128 (ix2 p q) (ix2 (0 : Fin 1) q) (fun a => by
      match a with
      | ⟨0, _⟩ => rfl
      | ⟨1, _⟩ =>
        by_cases h : (128 : ℕ) = 1
        · refine Eq.trans ?_ (if_pos h).symm
          have hq : q.val < 128 := q.isLt
          show q.val = 0
          omega
        · exact (if_neg h).symm)

/-! ## From the block to the array -/

variable (V : (c : Dev nD) → (b : Ref sig .tc) → Buf (Elt Ideal) ((c : Thread nD τ).loc b))

/-- The region's result as ONE function of the three operand arrays. -/
def G10 (x : Vec Ideal S1024x1024 .f32) (w : Vec Ideal S1024x128 .f32) (b : Vec Ideal S1x128 .f32) : Vec Ideal S1024x128 .f32 :=
  fun j => (∑ k : Fin 1024, x (ix2 (j 0 : Fin 1024) k) * w (ix2 k (j 1 : Fin 128))) + b (ix2 (0 : Fin 1) (j 1 : Fin 128))

/-- It at an index whose coordinates are named. -/
theorem G10_apply (x : Vec Ideal S1024x1024 .f32) (w : Vec Ideal S1024x128 .f32) (b : Vec Ideal S1x128 .f32)
    (j : S1024x128.Idx) (i : Fin 1024) (n : Fin 128) (h0 : (j 0).val = i.val) (h1 : (j 1).val = n.val) :
    G10 x w b j = (∑ k : Fin 1024, x (ix2 i k) * w (ix2 k n)) + b (ix2 (0 : Fin 1) n) := by
  obtain rfl : (j 0 : Fin 1024) = i := Fin.ext h0
  obtain rfl : (j 1 : Fin 128) = n := Fin.ext h1
  rfl

/-- The three operand arrays as the region finds them, at their literal types. -/
abbrev xarr10 (c : Dev nD) : Vec Ideal S1024x1024 .f32 := V c (Pipeline.arrRef spec10 0)
abbrev warr10 (c : Dev nD) : Vec Ideal S1024x128 .f32 := V c (Pipeline.arrRef spec10 1)
abbrev barr10 (c : Dev nD) : Vec Ideal S1x128 .f32 := V c (Pipeline.arrRef spec10 2)

/-- The windows' index maps, decided over the grid: every block index is zero. -/
theorem idx_facts10 : ∀ t : Fin cfg10.N,
    win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0 :=
  (by decide +kernel : ∀ t : Fin grid10.N, _)

/-- The left factor's block is the whole array. -/
theorem iblk10_0_apply (c : Dev nD) (t : Fin cfg10.N) (p : Fin 1024) (k : Fin 1024) :
    (iblk10 V c 0 t : Vec Ideal S1024x1024 .f32) (ix2 p k) = xarr10 V c (ix2 p k) := by
  obtain ⟨e00, e01, -⟩ := idx_facts10 t
  unfold iblk10
  rw [View.read_apply]
  refine congrArg (V c (Pipeline.arrRef spec10 0)) (funext fun a => Fin.ext ?_)
  match a with
  | ⟨0, _⟩ => show win10_0.index t (0 : Fin 2) * 1024 + 1 * p.val = p.val; rw [e00]; omega
  | ⟨1, _⟩ => show win10_0.index t (1 : Fin 2) * 1024 + 1 * k.val = k.val; rw [e01]; omega

/-- So is the right factor's. -/
theorem iblk10_1_apply (c : Dev nD) (t : Fin cfg10.N) (k : Fin 1024) (q : Fin 128) :
    (iblk10 V c 1 t : Vec Ideal S1024x128 .f32) (ix2 k q) = warr10 V c (ix2 k q) := by
  obtain ⟨-, -, e10, e11, -⟩ := idx_facts10 t
  unfold iblk10
  rw [View.read_apply]
  refine congrArg (V c (Pipeline.arrRef spec10 1)) (funext fun a => Fin.ext ?_)
  match a with
  | ⟨0, _⟩ => show win10_1.index t (0 : Fin 2) * 1024 + 1 * k.val = k.val; rw [e10]; omega
  | ⟨1, _⟩ => show win10_1.index t (1 : Fin 2) * 128 + 1 * q.val = q.val; rw [e11]; omega

/-- So is the bias row's. -/
theorem iblk10_2_apply (c : Dev nD) (t : Fin cfg10.N) (q : Fin 128) :
    (iblk10 V c 2 t : Vec Ideal S1x128 .f32) (ix2 (0 : Fin 1) q) = barr10 V c (ix2 (0 : Fin 1) q) := by
  obtain ⟨-, -, -, -, e20, e21, -⟩ := idx_facts10 t
  unfold iblk10
  rw [View.read_apply]
  refine congrArg (V c (Pipeline.arrRef spec10 2)) (funext fun a => Fin.ext ?_)
  match a with
  | ⟨0, _⟩ => show win10_2.index t (0 : Fin 2) * 1 + 1 * 0 = 0; rw [e20]
  | ⟨1, _⟩ => show win10_2.index t (1 : Fin 2) * 128 + 1 * q.val = q.val; rw [e21]; omega

/-- WHAT THE POINT WRITES BACK is the result function of the operand arrays, read through the block. -/
theorem flushed10_3_eq (c : Dev nD) (t : Fin cfg10.N) :
    (dat10 V c).flushed 3 t = ((cfg10.win 3).blk t).view.read (Elt Ideal) (G10 (xarr10 V c) (warr10 V c) (barr10 V c)) := by
  show (cfg10.win 3).cut (grid10.coords t) ((dat10 V c).after 3 t) = _
  rw [after10_3, out10_3_eq]
  obtain ⟨-, -, -, -, -, -, e30, e31⟩ := idx_facts10 t
  funext j
  obtain ⟨p, q, rfl⟩ : ∃ (p : Fin 1024) (q : Fin 128), j = ix2 p q := ⟨j 0, j 1, eq_ix2 j⟩
  refine (pay10_apply (iblk10 V c 0 t) (iblk10 V c 1 t) (iblk10 V c 2 t) p q).trans ?_
  rw [View.read_apply]
  rw [G10_apply (xarr10 V c) (warr10 V c) (barr10 V c) _ p q
    (by show win10_3.index t (0 : Fin 2) * 1024 + 1 * p.val = p.val; rw [e30]; omega)
    (by show win10_3.index t (1 : Fin 2) * 128 + 1 * q.val = q.val; rw [e31]; omega)]
  refine congrArg₂ (· + ·) (Finset.sum_congr rfl fun k _ => congrArg₂ (· * ·) ?_ ?_) ?_
  · exact iblk10_0_apply V c t p k
  · exact iblk10_1_apply V c t k q
  · exact iblk10_2_apply V c t q

/-- An index of the array is in the point's block iff each coordinate is in the block's range on its axis. -/
theorem mem_blk10_3 (t : Fin cfg10.N) (i : S1024x128.Idx) :
    i ∈ ((cfg10.win 3).blk t).view.set ↔ ∀ a : Fin 2, win10_3.index t a * S1024x128.size a ≤ (i a).val ∧ (i a).val < win10_3.index t a * S1024x128.size a + S1024x128.size a := by
  show i ∈ ((View.whole main_v134).slice (win10_3.rect t)).set ↔ _
  rw [View.set_slice_whole, Rect.mem_set_unit]
  exact Iff.rfl

/-- Every index is in the one point's block. -/
theorem covered10_3 (i : S1024x128.Idx) : ∃ t : Fin cfg10.N, (cfg10.win 3).flush t = true ∧ i ∈ ((cfg10.win 3).blk t).view.set := by
  have hi0 : (i 0).val < 1024 := (i 0).isLt
  have hi1 : (i 1).val < 128 := (i 1).isLt
  have hN : cfg10.N = 1 := N_10
  have ht : 0 < cfg10.N := by omega
  obtain ⟨-, -, -, -, -, -, e30, e31⟩ := idx_facts10 ⟨0, ht⟩
  refine ⟨⟨0, ht⟩, flush10_3 _, ?_⟩
  rw [mem_blk10_3]
  intro a
  match a with
  | ⟨0, _⟩ =>
    show win10_3.index ⟨0, ht⟩ (0 : Fin 2) * 1024 ≤ (i 0).val ∧ (i 0).val < win10_3.index ⟨0, ht⟩ (0 : Fin 2) * 1024 + 1024
    rw [e30]; omega
  | ⟨1, _⟩ =>
    show win10_3.index ⟨0, ht⟩ (1 : Fin 2) * 128 ≤ (i 1).val ∧ (i 1).val < win10_3.index ⟨0, ht⟩ (1 : Fin 2) * 128 + 128
    rw [e31]; omega

/-- THE ARRAY after the region: the result function of the three operand arrays as the region finds them. -/
theorem arrAt10_3 (c : Dev nD) :
    (dat10 (F := Ideal) V c).arrAt 3 cfg10.N = G10 (V c (Pipeline.arrRef spec10 0)) (V c (Pipeline.arrRef spec10 1)) (V c (Pipeline.arrRef spec10 2)) :=
  (dat10 V c).arrAt_eq_of_cover 3 (G10 (xarr10 V c) (warr10 V c) (barr10 V c)) (fun t _ => flushed10_3_eq V c t) (covered10_3)

end Cert.KernelIdeal.HandVal

end
-- ==== Proof.Bridge.CP2a2.lean ====
/-
  ZERO-BIAS PRODUCT REGIONS AGAINST THE REFERENCE. Each region's output holds Σ_k x(i, k) · w(k, n) plus a bias row that is the
  constant 0.0 broadcast and recast — a row of zeros; its two factors hold what the reference's factors hold. So the
  output is the plain product the reference's dot_general holds.
-/
import proofs.«405323_j90718299226206_3_alg».proof.Proof.Bridge.CP2c
import proofs.«405323_j90718299226206_3_alg».proof.Proof.KI.R10Val
import proofs.«405323_j90718299226206_3_alg».proof.Proof.Ref.Dots
import proofs.«405323_j90718299226206_3_alg».proof.Proof.Math.MM

set_option maxRecDepth 16384

noncomputable section

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 10's output (the pooled adjacency times the assignment matrix, plus a row of zeros) is the reference's product. -/
theorem cp_main_v134 (h : Hyp m m' c) : KV m c Cert.KernelIdeal.main_v134 = RV m' c Cert.ReferenceIdeal.main_v177 := by
  show Cert.KernelIdeal.Hand.W63 (F := Ideal) m c (Proc.devRef .tc Cert.KernelIdeal.main_v134) = Cert.ReferenceIdeal.HandRun.RV (F := Ideal) m' c Cert.ReferenceIdeal.main_v177
  -- the two factors, as the region finds them, against the reference's
  have ex : (Cert.KernelIdeal.Hand.W35 (F := Ideal) m c (Proc.devRef .tc Cert.KernelIdeal.main_v106) : Vec Ideal Cert.KernelIdeal.S1024x1024 .f32)
      = Cert.ReferenceIdeal.HandRun.RV (F := Ideal) m' c Cert.ReferenceIdeal.main_v133 :=
    (Cert.KernelIdeal.Hand.frame35 m c Cert.KernelIdeal.main_v106 (by decide)).symm.trans (br_main_v106 m m' c h)
  have ew : (Cert.KernelIdeal.Hand.W35 (F := Ideal) m c (Proc.devRef .tc Cert.KernelIdeal.main_v131_1) : Vec Ideal Cert.KernelIdeal.S1024x128 .f32)
      = Cert.ReferenceIdeal.HandRun.RV (F := Ideal) m' c Cert.ReferenceIdeal.main_v173 :=
    (Cert.KernelIdeal.Hand.frame35 m c Cert.KernelIdeal.main_v131_1 (by decide)).symm.trans (cp_main_v131_1 m m' c h)
  -- the bias row keeps its contents to the end,
  have eb : (Cert.KernelIdeal.Hand.W35 (F := Ideal) m c (Proc.devRef .tc Cert.KernelIdeal.main_v133) : Vec Ideal Cert.KernelIdeal.S1x128 .f32)
      = Cert.KernelIdeal.Hand.W63 (F := Ideal) m c (Proc.devRef .tc Cert.KernelIdeal.main_v133) :=
    (Cert.KernelIdeal.Hand.frame35 m c Cert.KernelIdeal.main_v133 (by decide)).symm
  -- and is a row of zeros: the constant 0.0, broadcast, recast
  have hz : ∀ q : Fin 128, (Cert.KernelIdeal.Hand.W63 (F := Ideal) m c (Proc.devRef .tc Cert.KernelIdeal.main_v133) : Vec Ideal Cert.KernelIdeal.S1x128 .f32)
      (ix2 (0 : Fin 1) q) = (0 : EReal) := by
    intro q
    rw [Cert.KernelIdeal.Hand.kd_main_v133 m c, Cert.KernelIdeal.Hand.kd_main_v132 m c, Cert.KernelIdeal.Hand.kd_main_cst_24 m c]
    exact Cert.Math.zero_row_apply _ _ _
  -- the region's output is its value function of the three operand arrays
  refine ((((Cert.KernelIdeal.Hand.frame36 m c Cert.KernelIdeal.main_v134 (by decide)).trans (Cert.KernelIdeal.Hand.W36_out3 m c)).trans
    (Cert.KernelIdeal.HandVal.arrAt10_3 (Cert.KernelIdeal.Hand.Vt35 m) c)).trans
    (congr (congr (congrArg Cert.KernelIdeal.HandVal.G10 ex) ew) eb)).trans ?_
  -- a product plus a row of zeros is the product
  exact (Cert.Math.mm_zero_bias_of (M := 1024) (K := 1024) (N := 128)
      (Cert.ReferenceIdeal.HandRun.RV (F := Ideal) m' c Cert.ReferenceIdeal.main_v133) (Cert.ReferenceIdeal.HandRun.RV (F := Ideal) m' c Cert.ReferenceIdeal.main_v173)
      (Cert.KernelIdeal.Hand.W63 (F := Ideal) m c (Proc.devRef .tc Cert.KernelIdeal.main_v133)) hz).trans
    (Cert.ReferenceIdeal.HandRun.rd_main_v177 m' c).symm

end Cert.Bridge

end
-- ==== Proof.KI.R11Val.lean ====
import proofs.«405323_j90718299226206_3_alg».proof.Proof.KI.R11
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz11 : (![0, 0] : Fin 2 → Nat) = fun _ => 0 := funext fun a => by fin_cases a <;> rfl

section Pieces
variable {F : FTy → Type} [FloatOps F]

/-- A load through the whole buffer after a LAST store through the whole buffer reads that store's payload,
    whatever the earlier stores were. -/
theorem readCov_last11 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h]

/-! ## What the one case's found pieces are, as values (any float instance) -/

/-- The body leaves in the output's buffer the zero block plus the product block. -/
theorem out11_eq (c : Dev nD) (i : grid11.Coords) (arg3 : Memref sig .tc .vmem S1024x128 .f32) (harg3 : arg3.IsWhole) (arg4 : Memref sig .tc .vmem S1024x256 .f32) (harg4 : arg4.IsWhole) (arg5 : Memref sig .tc .vmem S128x256 .f32) (harg5 : arg5.IsWhole) (arg6 : Memref sig .tc .vmem S128x256 .f32) (harg6 : arg6.IsWhole) (hc0 : cond11_0 i) (hc1 : cond11_1 i)
    (x0 : Vec F S1024x128 .f32) (x1 : Vec F S1024x256 .f32) :
    out11_2 c i arg3 harg3 arg4 harg4 arg5 harg5 arg6 harg6 hc0 hc1 x0 x1 = k11_pay2 x0 x1 (k11_pay1 (F := F)) := by
  unfold out11_2
  rw [View.read_writes_eq_canon _ _ _ (cover11_2 c i arg3 harg3 arg4 harg4 arg5 harg5 arg6 harg6 hc0 hc1 x0 x1)]
  unfold kernelRun11
  dsimp only
  sl_unfold_words
  rw [View.canon_unit_zero hz11, readCov_last11 _ hz11, View.readCov_unit_zero (S := S128x256) _ hz11]
  simp only [View.readAt_eq_ld, harg3.read_unread, harg4.read_unread, View.ld_unit_zero (S := S1024x128) hz11,
    View.ld_unit_zero (S := S1024x256) hz11]

end Pieces

/-! ## The payloads at an index, at the ideal values -/

/-- The region's dimension numbers: axis 0 of both operands contracted. -/
abbrev D11 := dot_S1024x128_S1024x256_S128x256_0_0_1_1_n_n

theorem lhsD11_0 (j : S128x256.Idx) (k : D11.contr.Idx) : (D11.lhsIdx j k 0 : ℕ) = k ⟨0, by decide⟩ := by
  simp [DotDims.lhsIdx, D11, dot_S1024x128_S1024x256_S128x256_0_0_1_1_n_n] <;> first | rfl | (have h0 := idx2_lt0 j; have h1 := idx2_lt1 j; omega)
theorem lhsD11_1 (j : S128x256.Idx) (k : D11.contr.Idx) : (D11.lhsIdx j k 1 : ℕ) = j 0 := by
  simp [DotDims.lhsIdx, D11, dot_S1024x128_S1024x256_S128x256_0_0_1_1_n_n] <;> first | rfl | (have h0 := idx2_lt0 j; have h1 := idx2_lt1 j; omega)
theorem rhsD11_0 (j : S128x256.Idx) (k : D11.contr.Idx) : (D11.rhsIdx j k 0 : ℕ) = k ⟨0, by decide⟩ := by
  simp [DotDims.rhsIdx, D11, dot_S1024x128_S1024x256_S128x256_0_0_1_1_n_n] <;> first | rfl | (have h0 := idx2_lt0 j; have h1 := idx2_lt1 j; omega)
theorem rhsD11_1 (j : S128x256.Idx) (k : D11.contr.Idx) : (D11.rhsIdx j k 1 : ℕ) = j 1 := by
  simp [DotDims.rhsIdx, D11, dot_S1024x128_S1024x256_S128x256_0_0_1_1_n_n] <;> first | rfl | (have h0 := idx2_lt0 j; have h1 := idx2_lt1 j; omega)

/-- The zero block the reset stores. -/
theorem pay11_1_apply (y : S128x256.Idx) : k11_pay1 (F := Ideal) y = 0 := by
  unfold k11_pay1
  simp only [shapeCast_self]
  exact Ideal.ofBits_zero_f32

/-- The accumulation step at an index: the accumulator there plus the sum over the contracted rows of the products. -/
theorem pay11_2_apply (x0 : Vec Ideal S1024x128 .f32) (x1 : Vec Ideal S1024x256 .f32) (acc : Vec Ideal S128x256 .f32) (r : Fin 128) (q : Fin 256) :
    k11_pay2 x0 x1 acc (ix2 r q) = acc (ix2 r q) + ∑ kk : Fin 1024, x0 (ix2 kk r) * x1 (ix2 kk q) := by
  unfold k11_pay2
  simp only [shapeCast_self, addf_apply, matmul, Ideal.matmul_constant_zero_apply, truncf_apply]
  rw [← Equiv.sum_comp (contrEquiv1 D11 1024 rfl rfl).symm]
  refine congrArg (acc (ix2 r q) + ·) (Finset.sum_congr rfl fun kk _ => ?_)
  show x0 (D11.lhsIdx (ix2 r q) ((contrEquiv1 D11 1024 rfl rfl).symm kk)) * x1 (D11.rhsIdx (ix2 r q) ((contrEquiv1 D11 1024 rfl rfl).symm kk)) = _
  have e0 : D11.lhsIdx (ix2 r q) ((contrEquiv1 D11 1024 rfl rfl).symm kk) = ix2 kk r := by
    funext a; apply Fin.ext
    match a with
    | ⟨0, _⟩ => exact (lhsD11_0 _ _).trans (contrEquiv1_symm_val D11 1024 rfl rfl kk)
    | ⟨1, _⟩ => exact lhsD11_1 _ _
  have e1 : D11.rhsIdx (ix2 r q) ((contrEquiv1 D11 1024 rfl rfl).symm kk) = ix2 kk q := by
    funext a; apply Fin.ext
    match a with
    | ⟨0, _⟩ => exact (rhsD11_0 _ _).trans (contrEquiv1_symm_val D11 1024 rfl rfl kk)
    | ⟨1, _⟩ => exact rhsD11_1 _ _
  rw [e0, e1]

/-! ## Arrays read at natural-number coordinates -/

/-- A matrix read at natural-number coordinates (zero outside its extents). -/
def cAt11 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt11_eq {n0 n1 : ℕ} (X : (⟨2, ![n0, n1]⟩ : Shape).Idx → EReal) (i : Fin n0) (j : Fin n1) :
    cAt11 X i.val j.val = X (ix2 i j) := dif_pos ⟨i.isLt, j.isLt⟩

theorem cAt11_idx {n0 n1 : ℕ} (X : (⟨2, ![n0, n1]⟩ : Shape).Idx → EReal) (e : (⟨2, ![n0, n1]⟩ : Shape).Idx) :
    X e = cAt11 X (e 0).val (e 1).val := by
  have h : (e 0).val < n0 ∧ (e 1).val < n1 := ⟨(e 0).isLt, (e 1).isLt⟩
  unfold cAt11; rw [dif_pos h]; exact congrArg X (eq_ix2 e)

/-! ## The product over the arrays the region finds -/

section Value
variable (V : (c : Dev nD) → (b : Ref sig .tc) → Buf (Elt Ideal) ((c : Thread nD τ).loc b))

/-- The two operand arrays as the region finds them, and the input blocks at a point. -/
abbrev arrA11 (c : Dev nD) : Vec Ideal S1024x128 .f32 := V c (Pipeline.arrRef spec11 0)
abbrev arrB11 (c : Dev nD) : Vec Ideal S1024x512 .f32 := V c (Pipeline.arrRef spec11 1)
abbrev xblk11 (c : Dev nD) (t : Fin cfg11.N) : Vec Ideal S1024x128 .f32 := iblk11 V c 0 t
abbrev yblk11 (c : Dev nD) (t : Fin cfg11.N) : Vec Ideal S1024x256 .f32 := iblk11 V c 1 t

/-- The printed index maps in closed form, decided over the grid: the lhs block is always block (0, 0); the rhs and
    the output blocks are block (0, t). -/
theorem idx_facts11 : ∀ t : Fin cfg11.N, win11_0.index t (0 : Fin 2) = 0 ∧ win11_0.index t (1 : Fin 2) = 0
    ∧ win11_1.index t (0 : Fin 2) = 0 ∧ win11_1.index t (1 : Fin 2) = t.val
    ∧ win11_2.index t (0 : Fin 2) = 0 ∧ win11_2.index t (1 : Fin 2) = t.val :=
  (by decide +kernel : ∀ t : Fin grid11.N, _)

/-- Where a block's entry sits in its array: block index × block extent + the coordinate inside the block. -/
theorem embA11_0 (t : Fin cfg11.N) (kk : Fin 1024) (r : Fin 128) :
    ((((cfg11.win 0).blk t).view.emb (ix2 kk r)) 0).val = kk.val := by
  obtain ⟨e0, -⟩ := idx_facts11 t
  show win11_0.index t (0 : Fin 2) * 1024 + 1 * kk.val = _
  rw [e0]; omega
theorem embA11_1 (t : Fin cfg11.N) (kk : Fin 1024) (r : Fin 128) :
    ((((cfg11.win 0).blk t).view.emb (ix2 kk r)) 1).val = r.val := by
  obtain ⟨-, e1, -⟩ := idx_facts11 t
  show win11_0.index t (1 : Fin 2) * 128 + 1 * r.val = _
  rw [e1]; omega
theorem embB11_0 (t : Fin cfg11.N) (kk : Fin 1024) (q : Fin 256) :
    ((((cfg11.win 1).blk t).view.emb (ix2 kk q)) 0).val = kk.val := by
  obtain ⟨-, -, e0, -⟩ := idx_facts11 t
  show win11_1.index t (0 : Fin 2) * 1024 + 1 * kk.val = _
  rw [e0]; omega
theorem embB11_1 (t : Fin cfg11.N) (kk : Fin 1024) (q : Fin 256) :
    ((((cfg11.win 1).blk t).view.emb (ix2 kk q)) 1).val = t.val * 256 + q.val := by
  obtain ⟨-, -, -, e1, -⟩ := idx_facts11 t
  show win11_1.index t (1 : Fin 2) * 256 + 1 * q.val = _
  rw [e1]; omega
theorem embO11_0 (t : Fin cfg11.N) (r : Fin 128) (q : Fin 256) :
    ((((cfg11.win 2).blk t).view.emb (ix2 r q)) 0).val = r.val := by
  obtain ⟨-, -, -, -, e0, -⟩ := idx_facts11 t
  show win11_2.index t (0 : Fin 2) * 128 + 1 * r.val = _
  rw [e0]; omega
theorem embO11_1 (t : Fin cfg11.N) (r : Fin 128) (q : Fin 256) :
    ((((cfg11.win 2).blk t).view.emb (ix2 r q)) 1).val = t.val * 256 + q.val := by
  obtain ⟨-, -, -, -, -, e1⟩ := idx_facts11 t
  show win11_2.index t (1 : Fin 2) * 256 + 1 * q.val = _
  rw [e1]; omega

/-- A block is its array read through the block's embedding. -/
theorem xblk11_read (c : Dev nD) (t : Fin cfg11.N) (y : S1024x128.Idx) :
    xblk11 V c t y = arrA11 V c (((cfg11.win 0).blk t).view.emb y) := rfl
theorem yblk11_read (c : Dev nD) (t : Fin cfg11.N) (y : S1024x256.Idx) :
    yblk11 V c t y = arrB11 V c (((cfg11.win 1).blk t).view.emb y) := rfl
theorem arrA11_at (c : Dev nD) (e : S1024x128.Idx) :
    arrA11 V c e = cAt11 (n0 := 1024) (n1 := 128) (arrA11 V c) (e 0).val (e 1).val :=
  cAt11_idx (n0 := 1024) (n1 := 128) (arrA11 V c) e
theorem arrB11_at (c : Dev nD) (e : S1024x512.Idx) :
    arrB11 V c e = cAt11 (n0 := 1024) (n1 := 512) (arrB11 V c) (e 0).val (e 1).val :=
  cAt11_idx (n0 := 1024) (n1 := 512) (arrB11 V c) e

/-- The lhs block at a point is the lhs array. -/
theorem xblk11_apply (c : Dev nD) (t : Fin cfg11.N) (kk : Fin 1024) (r : Fin 128) :
    xblk11 V c t (ix2 kk r) = cAt11 (n0 := 1024) (n1 := 128) (arrA11 V c) kk.val r.val :=
  (xblk11_read V c t (ix2 kk r)).trans ((arrA11_at V c _).trans (by rw [embA11_0, embA11_1]))

/-- The rhs block at a point reads the rhs array at columns t·(block width) …. -/
theorem yblk11_apply (c : Dev nD) (t : Fin cfg11.N) (kk : Fin 1024) (q : Fin 256) :
    yblk11 V c t (ix2 kk q) = cAt11 (n0 := 1024) (n1 := 512) (arrB11 V c) kk.val (t.val * 256 + q.val) :=
  (yblk11_read V c t (ix2 kk q)).trans ((arrB11_at V c _).trans (by rw [embB11_0, embB11_1]))

/-! ## The output array after the region -/

/-- The transposed-lhs product of the two arrays, index by index: the whole contracted axis 0 of both summed. -/
def G11 (a : Vec Ideal S1024x128 .f32) (b : Vec Ideal S1024x512 .f32) : Vec Ideal S128x512 .f32 :=
  fun y => ∑ k : Fin 1024, a (ix2 k (y 0)) * b (ix2 k (y 1))

theorem G11_apply (a : Vec Ideal S1024x128 .f32) (b : Vec Ideal S1024x512 .f32) (r : Fin 128) (q : Fin 512) :
    G11 a b (ix2 r q) = ∑ k : Fin 1024, a (ix2 k r) * b (ix2 k q) := rfl

/-- What a point writes back is its block of the product. -/
theorem flushed11_2 (c : Dev nD) (t : Fin cfg11.N) (hf : (cfg11.win 2).flush t = true) :
    (dat11 (F := Ideal) V c).flushed 2 t = ((cfg11.win 2).blk t).view.read (Elt Ideal) (G11 (arrA11 V c) (arrB11 V c)) := by
  show (cfg11.win 2).cut (grid11.coords t) ((dat11 V c).after 2 t) = _
  rw [after11_2]
  unfold outAt11
  rw [out11_eq]
  funext j
  obtain ⟨r, q, rfl⟩ : ∃ (r : Fin 128) (q : Fin 256), j = ix2 r q := ⟨j 0, j 1, eq_ix2 j⟩
  show k11_pay2 (xblk11 V c t) (yblk11 V c t) (k11_pay1 (F := Ideal)) (ix2 r q) = G11 (arrA11 V c) (arrB11 V c) (((cfg11.win 2).blk t).view.emb (ix2 r q))
  rw [pay11_2_apply, pay11_1_apply, zero_add]
  unfold G11
  refine Finset.sum_congr rfl fun k _ => ?_
  have e0 := embO11_0 t r q
  have e1 := embO11_1 t r q
  exact congrArg₂ (· * ·)
    ((xblk11_apply V c t k r).trans (by rw [← e0]; exact cAt11_eq (n0 := 1024) (n1 := 128) (arrA11 V c) k _))
    ((yblk11_apply V c t k q).trans (by rw [← e1]; exact cAt11_eq (n0 := 1024) (n1 := 512) (arrB11 V c) k _))

/-- An index of the output array is in point t's block iff each coordinate is in the block's range on its axis. -/
theorem mem_blk11_2 (t : Fin cfg11.N) (i : S128x512.Idx) :
    i ∈ ((cfg11.win 2).blk t).view.set ↔ ∀ a : Fin 2, win11_2.index t a * S128x256.size a ≤ (i a).val ∧ (i a).val < win11_2.index t a * S128x256.size a + S128x256.size a := by
  show i ∈ ((View.whole main_v135).slice (win11_2.rect t)).set ↔ _
  rw [View.set_slice_whole, Rect.mem_set_unit]
  exact Iff.rfl

/-- THE OUTPUT ARRAY after the region: the product of the two operand arrays as the region finds them (the output
    blocks, one per point, cover the array). -/
theorem arrAt11_2 (c : Dev nD) :
    (dat11 (F := Ideal) V c).arrAt 2 cfg11.N = G11 (V c (Pipeline.arrRef spec11 0)) (V c (Pipeline.arrRef spec11 1)) :=
  (dat11 V c).arrAt_eq_of_cover 2 (G11 (arrA11 V c) (arrB11 V c)) (flushed11_2 V c) fun i => by
    have hi0 : (i 0).val < 128 := (i 0).isLt
    have hi1 : (i 1).val < 512 := (i 1).isLt
    have ht : (i 1).val / 256 < cfg11.N := by rw [show cfg11.N = 2 from N_11]; omega
    obtain ⟨-, -, -, -, e0, e1⟩ := idx_facts11 ⟨_, ht⟩
    refine ⟨⟨_, ht⟩, flush11_2 _, ?_⟩
    rw [mem_blk11_2]
    intro a
    match a with
    | ⟨0, _⟩ =>
      show win11_2.index _ (0 : Fin 2) * 128 ≤ (i 0).val ∧ (i 0).val < win11_2.index _ (0 : Fin 2) * 128 + 128
      rw [e0]; omega
    | ⟨1, _⟩ =>
      show win11_2.index _ (1 : Fin 2) * 256 ≤ (i 1).val ∧ (i 1).val < win11_2.index _ (1 : Fin 2) * 256 + 256
      rw [e1]; dsimp only; omega

end Value

end Cert.KernelIdeal.HandVal

end
-- ==== Proof.KI.R12Val.lean ====
import proofs.«405323_j90718299226206_3_alg».proof.Proof.KI.R12
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz12 : (![0, 0] : Fin 2 → Nat) = fun _ => 0 := funext fun a => by fin_cases a <;> rfl

section Pieces
variable {F : FTy → Type} [FloatOps F]

/-- A load through the whole buffer after a LAST store through the whole buffer reads that store's payload,
    whatever the earlier stores were. -/
theorem readCov_last12 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h]

/-! ## What the one case's found pieces are, as values (any float instance) -/

/-- The body leaves in the output's buffer the zero block plus the product block. -/
theorem out12_eq (c : Dev nD) (i : grid12.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond12_0 i) (hc1 : cond12_1 i)
    (x0 : Vec F S1024x128 .f32) (x1 : Vec F S1024x128 .f32) :
    out12_2 c i arg3 harg3 arg4 harg4 arg5 harg5 arg6 harg6 hc0 hc1 x0 x1 = k12_pay2 x0 x1 (k12_pay1 (F := F)) := by
  unfold out12_2
  rw [View.read_writes_eq_canon _ _ _ (cover12_2 c i arg3 harg3 arg4 harg4 arg5 harg5 arg6 harg6 hc0 hc1 x0 x1)]
  unfold kernelRun12
  dsimp only
  sl_unfold_words
  rw [View.canon_unit_zero hz12, readCov_last12 _ hz12, View.readCov_unit_zero (S := S128x128) _ hz12]
  simp only [View.readAt_eq_ld, harg3.read_unread, harg4.read_unread, View.ld_unit_zero (S := S1024x128) hz12,
    View.ld_unit_zero (S := S1024x128) hz12]

end Pieces

/-! ## The payloads at an index, at the ideal values -/

/-- The region's dimension numbers: axis 0 of both operands contracted. -/
abbrev D12 := dot_S1024x128_S1024x128_S128x128_0_0_1_1_n_n

theorem lhsD12_0 (j : S128x128.Idx) (k : D12.contr.Idx) : (D12.lhsIdx j k 0 : ℕ) = k ⟨0, by decide⟩ := by
  simp [DotDims.lhsIdx, D12, dot_S1024x128_S1024x128_S128x128_0_0_1_1_n_n] <;> first | rfl | (have h0 := idx2_lt0 j; have h1 := idx2_lt1 j; omega)
theorem lhsD12_1 (j : S128x128.Idx) (k : D12.contr.Idx) : (D12.lhsIdx j k 1 : ℕ) = j 0 := by
  simp [DotDims.lhsIdx, D12, dot_S1024x128_S1024x128_S128x128_0_0_1_1_n_n] <;> first | rfl | (have h0 := idx2_lt0 j; have h1 := idx2_lt1 j; omega)
theorem rhsD12_0 (j : S128x128.Idx) (k : D12.contr.Idx) : (D12.rhsIdx j k 0 : ℕ) = k ⟨0, by decide⟩ := by
  simp [DotDims.rhsIdx, D12, dot_S1024x128_S1024x128_S128x128_0_0_1_1_n_n] <;> first | rfl | (have h0 := idx2_lt0 j; have h1 := idx2_lt1 j; omega)
theorem rhsD12_1 (j : S128x128.Idx) (k : D12.contr.Idx) : (D12.rhsIdx j k 1 : ℕ) = j 1 := by
  simp [DotDims.rhsIdx, D12, dot_S1024x128_S1024x128_S128x128_0_0_1_1_n_n] <;> first | rfl | (have h0 := idx2_lt0 j; have h1 := idx2_lt1 j; omega)

/-- The zero block the reset stores. -/
theorem pay12_1_apply (y : S128x128.Idx) : k12_pay1 (F := Ideal) y = 0 := by
  unfold k12_pay1
  simp only [shapeCast_self]
  exact Ideal.ofBits_zero_f32

/-- The accumulation step at an index: the accumulator there plus the sum over the contracted rows of the products. -/
theorem pay12_2_apply (x0 : Vec Ideal S1024x128 .f32) (x1 : Vec Ideal S1024x128 .f32) (acc : Vec Ideal S128x128 .f32) (r : Fin 128) (q : Fin 128) :
    k12_pay2 x0 x1 acc (ix2 r q) = acc (ix2 r q) + ∑ kk : Fin 1024, x0 (ix2 kk r) * x1 (ix2 kk q) := by
  unfold k12_pay2
  simp only [shapeCast_self, addf_apply, matmul, Ideal.matmul_constant_zero_apply, truncf_apply]
  rw [← Equiv.sum_comp (contrEquiv1 D12 1024 rfl rfl).symm]
  refine congrArg (acc (ix2 r q) + ·) (Finset.sum_congr rfl fun kk _ => ?_)
  show x0 (D12.lhsIdx (ix2 r q) ((contrEquiv1 D12 1024 rfl rfl).symm kk)) * x1 (D12.rhsIdx (ix2 r q) ((contrEquiv1 D12 1024 rfl rfl).symm kk)) = _
  have e0 : D12.lhsIdx (ix2 r q) ((contrEquiv1 D12 1024 rfl rfl).symm kk) = ix2 kk r := by
    funext a; apply Fin.ext
    match a with
    | ⟨0, _⟩ => exact (lhsD12_0 _ _).trans (contrEquiv1_symm_val D12 1024 rfl rfl kk)
    | ⟨1, _⟩ => exact lhsD12_1 _ _
  have e1 : D12.rhsIdx (ix2 r q) ((contrEquiv1 D12 1024 rfl rfl).symm kk) = ix2 kk q := by
    funext a; apply Fin.ext
    match a with
    | ⟨0, _⟩ => exact (rhsD12_0 _ _).trans (contrEquiv1_symm_val D12 1024 rfl rfl kk)
    | ⟨1, _⟩ => exact rhsD12_1 _ _
  rw [e0, e1]

/-! ## Arrays read at natural-number coordinates -/

/-- A matrix read at natural-number coordinates (zero outside its extents). -/
def cAt12 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt12_eq {n0 n1 : ℕ} (X : (⟨2, ![n0, n1]⟩ : Shape).Idx → EReal) (i : Fin n0) (j : Fin n1) :
    cAt12 X i.val j.val = X (ix2 i j) := dif_pos ⟨i.isLt, j.isLt⟩

theorem cAt12_idx {n0 n1 : ℕ} (X : (⟨2, ![n0, n1]⟩ : Shape).Idx → EReal) (e : (⟨2, ![n0, n1]⟩ : Shape).Idx) :
    X e = cAt12 X (e 0).val (e 1).val := by
  have h : (e 0).val < n0 ∧ (e 1).val < n1 := ⟨(e 0).isLt, (e 1).isLt⟩
  unfold cAt12; rw [dif_pos h]; exact congrArg X (eq_ix2 e)

/-! ## The product over the arrays the region finds -/

section Value
variable (V : (c : Dev nD) → (b : Ref sig .tc) → Buf (Elt Ideal) ((c : Thread nD τ).loc b))

/-- The two operand arrays as the region finds them, and the input blocks at a point. -/
abbrev arrA12 (c : Dev nD) : Vec Ideal S1024x128 .f32 := V c (Pipeline.arrRef spec12 0)
abbrev arrB12 (c : Dev nD) : Vec Ideal S1024x128 .f32 := V c (Pipeline.arrRef spec12 1)
abbrev xblk12 (c : Dev nD) (t : Fin cfg12.N) : Vec Ideal S1024x128 .f32 := iblk12 V c 0 t
abbrev yblk12 (c : Dev nD) (t : Fin cfg12.N) : Vec Ideal S1024x128 .f32 := iblk12 V c 1 t

/-- The printed index maps in closed form, decided over the grid: the lhs block is always block (0, 0); the rhs and
    the output blocks are block (0, t). -/
theorem idx_facts12 : ∀ t : Fin cfg12.N, win12_0.index t (0 : Fin 2) = 0 ∧ win12_0.index t (1 : Fin 2) = 0
    ∧ win12_1.index t (0 : Fin 2) = 0 ∧ win12_1.index t (1 : Fin 2) = t.val
    ∧ win12_2.index t (0 : Fin 2) = 0 ∧ win12_2.index t (1 : Fin 2) = t.val :=
  (by decide +kernel : ∀ t : Fin grid12.N, _)

/-- Where a block's entry sits in its array: block index × block extent + the coordinate inside the block. -/
theorem embA12_0 (t : Fin cfg12.N) (kk : Fin 1024) (r : Fin 128) :
    ((((cfg12.win 0).blk t).view.emb (ix2 kk r)) 0).val = kk.val := by
  obtain ⟨e0, -⟩ := idx_facts12 t
  show win12_0.index t (0 : Fin 2) * 1024 + 1 * kk.val = _
  rw [e0]; omega
theorem embA12_1 (t : Fin cfg12.N) (kk : Fin 1024) (r : Fin 128) :
    ((((cfg12.win 0).blk t).view.emb (ix2 kk r)) 1).val = r.val := by
  obtain ⟨-, e1, -⟩ := idx_facts12 t
  show win12_0.index t (1 : Fin 2) * 128 + 1 * r.val = _
  rw [e1]; omega
theorem embB12_0 (t : Fin cfg12.N) (kk : Fin 1024) (q : Fin 128) :
    ((((cfg12.win 1).blk t).view.emb (ix2 kk q)) 0).val = kk.val := by
  obtain ⟨-, -, e0, -⟩ := idx_facts12 t
  show win12_1.index t (0 : Fin 2) * 1024 + 1 * kk.val = _
  rw [e0]; omega
theorem embB12_1 (t : Fin cfg12.N) (kk : Fin 1024) (q : Fin 128) :
    ((((cfg12.win 1).blk t).view.emb (ix2 kk q)) 1).val = t.val * 128 + q.val := by
  obtain ⟨-, -, -, e1, -⟩ := idx_facts12 t
  show win12_1.index t (1 : Fin 2) * 128 + 1 * q.val = _
  rw [e1]; omega
theorem embO12_0 (t : Fin cfg12.N) (r : Fin 128) (q : Fin 128) :
    ((((cfg12.win 2).blk t).view.emb (ix2 r q)) 0).val = r.val := by
  obtain ⟨-, -, -, -, e0, -⟩ := idx_facts12 t
  show win12_2.index t (0 : Fin 2) * 128 + 1 * r.val = _
  rw [e0]; omega
theorem embO12_1 (t : Fin cfg12.N) (r : Fin 128) (q : Fin 128) :
    ((((cfg12.win 2).blk t).view.emb (ix2 r q)) 1).val = t.val * 128 + q.val := by
  obtain ⟨-, -, -, -, -, e1⟩ := idx_facts12 t
  show win12_2.index t (1 : Fin 2) * 128 + 1 * q.val = _
  rw [e1]; omega

/-- A block is its array read through the block's embedding. -/
theorem xblk12_read (c : Dev nD) (t : Fin cfg12.N) (y : S1024x128.Idx) :
    xblk12 V c t y = arrA12 V c (((cfg12.win 0).blk t).view.emb y) := rfl
theorem yblk12_read (c : Dev nD) (t : Fin cfg12.N) (y : S1024x128.Idx) :
    yblk12 V c t y = arrB12 V c (((cfg12.win 1).blk t).view.emb y) := rfl
theorem arrA12_at (c : Dev nD) (e : S1024x128.Idx) :
    arrA12 V c e = cAt12 (n0 := 1024) (n1 := 128) (arrA12 V c) (e 0).val (e 1).val :=
  cAt12_idx (n0 := 1024) (n1 := 128) (arrA12 V c) e
theorem arrB12_at (c : Dev nD) (e : S1024x128.Idx) :
    arrB12 V c e = cAt12 (n0 := 1024) (n1 := 128) (arrB12 V c) (e 0).val (e 1).val :=
  cAt12_idx (n0 := 1024) (n1 := 128) (arrB12 V c) e

/-- The lhs block at a point is the lhs array. -/
theorem xblk12_apply (c : Dev nD) (t : Fin cfg12.N) (kk : Fin 1024) (r : Fin 128) :
    xblk12 V c t (ix2 kk r) = cAt12 (n0 := 1024) (n1 := 128) (arrA12 V c) kk.val r.val :=
  (xblk12_read V c t (ix2 kk r)).trans ((arrA12_at V c _).trans (by rw [embA12_0, embA12_1]))

/-- The rhs block at a point reads the rhs array at columns t·(block width) …. -/
theorem yblk12_apply (c : Dev nD) (t : Fin cfg12.N) (kk : Fin 1024) (q : Fin 128) :
    yblk12 V c t (ix2 kk q) = cAt12 (n0 := 1024) (n1 := 128) (arrB12 V c) kk.val (t.val * 128 + q.val) :=
  (yblk12_read V c t (ix2 kk q)).trans ((arrB12_at V c _).trans (by rw [embB12_0, embB12_1]))

/-! ## The output array after the region -/

/-- The transposed-lhs product of the two arrays, index by index: the whole contracted axis 0 of both summed. -/
def G12 (a : Vec Ideal S1024x128 .f32) (b : Vec Ideal S1024x128 .f32) : Vec Ideal S128x128 .f32 :=
  fun y => ∑ k : Fin 1024, a (ix2 k (y 0)) * b (ix2 k (y 1))

theorem G12_apply (a : Vec Ideal S1024x128 .f32) (b : Vec Ideal S1024x128 .f32) (r : Fin 128) (q : Fin 128) :
    G12 a b (ix2 r q) = ∑ k : Fin 1024, a (ix2 k r) * b (ix2 k q) := rfl

/-- What a point writes back is its block of the product. -/
theorem flushed12_2 (c : Dev nD) (t : Fin cfg12.N) (hf : (cfg12.win 2).flush t = true) :
    (dat12 (F := Ideal) V c).flushed 2 t = ((cfg12.win 2).blk t).view.read (Elt Ideal) (G12 (arrA12 V c) (arrB12 V c)) := by
  show (cfg12.win 2).cut (grid12.coords t) ((dat12 V c).after 2 t) = _
  rw [after12_2]
  unfold outAt12
  rw [out12_eq]
  funext j
  obtain ⟨r, q, rfl⟩ : ∃ (r : Fin 128) (q : Fin 128), j = ix2 r q := ⟨j 0, j 1, eq_ix2 j⟩
  show k12_pay2 (xblk12 V c t) (yblk12 V c t) (k12_pay1 (F := Ideal)) (ix2 r q) = G12 (arrA12 V c) (arrB12 V c) (((cfg12.win 2).blk t).view.emb (ix2 r q))
  rw [pay12_2_apply, pay12_1_apply, zero_add]
  unfold G12
  refine Finset.sum_congr rfl fun k _ => ?_
  have e0 := embO12_0 t r q
  have e1 := embO12_1 t r q
  exact congrArg₂ (· * ·)
    ((xblk12_apply V c t k r).trans (by rw [← e0]; exact cAt12_eq (n0 := 1024) (n1 := 128) (arrA12 V c) k _))
    ((yblk12_apply V c t k q).trans (by rw [← e1]; exact cAt12_eq (n0 := 1024) (n1 := 128) (arrB12 V c) k _))

/-- An index of the output array is in point t's block iff each coordinate is in the block's range on its axis. -/
theorem mem_blk12_2 (t : Fin cfg12.N) (i : S128x128.Idx) :
    i ∈ ((cfg12.win 2).blk t).view.set ↔ ∀ a : Fin 2, win12_2.index t a * S128x128.size a ≤ (i a).val ∧ (i a).val < win12_2.index t a * S128x128.size a + S128x128.size a := by
  show i ∈ ((View.whole main_v136).slice (win12_2.rect t)).set ↔ _
  rw [View.set_slice_whole, Rect.mem_set_unit]
  exact Iff.rfl

/-- THE OUTPUT ARRAY after the region: the product of the two operand arrays as the region finds them (the output
    blocks, one per point, cover the array). -/
theorem arrAt12_2 (c : Dev nD) :
    (dat12 (F := Ideal) V c).arrAt 2 cfg12.N = G12 (V c (Pipeline.arrRef spec12 0)) (V c (Pipeline.arrRef spec12 1)) :=
  (dat12 V c).arrAt_eq_of_cover 2 (G12 (arrA12 V c) (arrB12 V c)) (flushed12_2 V c) fun i => by
    have hi0 : (i 0).val < 128 := (i 0).isLt
    have hi1 : (i 1).val < 128 := (i 1).isLt
    have ht : (i 1).val / 128 < cfg12.N := by rw [show cfg12.N = 1 from N_12]; omega
    obtain ⟨-, -, -, -, e0, e1⟩ := idx_facts12 ⟨_, ht⟩
    refine ⟨⟨_, ht⟩, flush12_2 _, ?_⟩
    rw [mem_blk12_2]
    intro a
    match a with
    | ⟨0, _⟩ =>
      show win12_2.index _ (0 : Fin 2) * 128 ≤ (i 0).val ∧ (i 0).val < win12_2.index _ (0 : Fin 2) * 128 + 128
      rw [e0]; omega
    | ⟨1, _⟩ =>
      show win12_2.index _ (1 : Fin 2) * 128 ≤ (i 1).val ∧ (i 1).val < win12_2.index _ (1 : Fin 2) * 128 + 128
      rw [e1]; dsimp only; omega

end Value

end Cert.KernelIdeal.HandVal

end
-- ==== Proof.KI.R13Val.lean ====
import proofs.«405323_j90718299226206_3_alg».proof.Proof.KI.R13
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz13 : (![0, 0] : Fin 2 → Nat) = fun _ => 0 := funext fun a => by fin_cases a <;> rfl

section Pieces
variable {F : FTy → Type} [FloatOps F]

/-- A load through the whole buffer after a LAST store through the whole buffer reads that store's payload,
    whatever the earlier stores were. -/
theorem readCov_last13 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h]

/-! ## What the one case's found pieces are, as values (any float instance) -/

/-- The body leaves in the output's buffer the zero block plus the product block. -/
theorem out13_eq (c : Dev nD) (i : grid13.Coords) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (hc0 : cond13_0 i) (hc1 : cond13_1 i)
    (x0 : Vec F S1024x128 .f32) (x1 : Vec F S1024x128 .f32) :
    out13_2 c i arg3 harg3 arg4 harg4 arg5 harg5 arg6 harg6 hc0 hc1 x0 x1 = k13_pay2 x0 x1 (k13_pay1 (F := F)) := by
  unfold out13_2
  rw [View.read_writes_eq_canon _ _ _ (cover13_2 c i arg3 harg3 arg4 harg4 arg5 harg5 arg6 harg6 hc0 hc1 x0 x1)]
  unfold kernelRun13
  dsimp only
  sl_unfold_words
  rw [View.canon_unit_zero hz13, readCov_last13 _ hz13, View.readCov_unit_zero (S := S128x128) _ hz13]
  simp only [View.readAt_eq_ld, harg3.read_unread, harg4.read_unread, View.ld_unit_zero (S := S1024x128) hz13,
    View.ld_unit_zero (S := S1024x128) hz13]

end Pieces

/-! ## The payloads at an index, at the ideal values -/

/-- The region's dimension numbers: axis 0 of both operands contracted. -/
abbrev D13 := dot_S1024x128_S1024x128_S128x128_0_0_1_1_n_n

theorem lhsD13_0 (j : S128x128.Idx) (k : D13.contr.Idx) : (D13.lhsIdx j k 0 : ℕ) = k ⟨0, by decide⟩ := by
  simp [DotDims.lhsIdx, D13, dot_S1024x128_S1024x128_S128x128_0_0_1_1_n_n] <;> first | rfl | (have h0 := idx2_lt0 j; have h1 := idx2_lt1 j; omega)
theorem lhsD13_1 (j : S128x128.Idx) (k : D13.contr.Idx) : (D13.lhsIdx j k 1 : ℕ) = j 0 := by
  simp [DotDims.lhsIdx, D13, dot_S1024x128_S1024x128_S128x128_0_0_1_1_n_n] <;> first | rfl | (have h0 := idx2_lt0 j; have h1 := idx2_lt1 j; omega)
theorem rhsD13_0 (j : S128x128.Idx) (k : D13.contr.Idx) : (D13.rhsIdx j k 0 : ℕ) = k ⟨0, by decide⟩ := by
  simp [DotDims.rhsIdx, D13, dot_S1024x128_S1024x128_S128x128_0_0_1_1_n_n] <;> first | rfl | (have h0 := idx2_lt0 j; have h1 := idx2_lt1 j; omega)
theorem rhsD13_1 (j : S128x128.Idx) (k : D13.contr.Idx) : (D13.rhsIdx j k 1 : ℕ) = j 1 := by
  simp [DotDims.rhsIdx, D13, dot_S1024x128_S1024x128_S128x128_0_0_1_1_n_n] <;> first | rfl | (have h0 := idx2_lt0 j; have h1 := idx2_lt1 j; omega)

/-- The zero block the reset stores. -/
theorem pay13_1_apply (y : S128x128.Idx) : k13_pay1 (F := Ideal) y = 0 := by
  unfold k13_pay1
  simp only [shapeCast_self]
  exact Ideal.ofBits_zero_f32

/-- The accumulation step at an index: the accumulator there plus the sum over the contracted rows of the products. -/
theorem pay13_2_apply (x0 : Vec Ideal S1024x128 .f32) (x1 : Vec Ideal S1024x128 .f32) (acc : Vec Ideal S128x128 .f32) (r : Fin 128) (q : Fin 128) :
    k13_pay2 x0 x1 acc (ix2 r q) = acc (ix2 r q) + ∑ kk : Fin 1024, x0 (ix2 kk r) * x1 (ix2 kk q) := by
  unfold k13_pay2
  simp only [shapeCast_self, addf_apply, matmul, Ideal.matmul_constant_zero_apply, truncf_apply]
  rw [← Equiv.sum_comp (contrEquiv1 D13 1024 rfl rfl).symm]
  refine congrArg (acc (ix2 r q) + ·) (Finset.sum_congr rfl fun kk _ => ?_)
  show x0 (D13.lhsIdx (ix2 r q) ((contrEquiv1 D13 1024 rfl rfl).symm kk)) * x1 (D13.rhsIdx (ix2 r q) ((contrEquiv1 D13 1024 rfl rfl).symm kk)) = _
  have e0 : D13.lhsIdx (ix2 r q) ((contrEquiv1 D13 1024 rfl rfl).symm kk) = ix2 kk r := by
    funext a; apply Fin.ext
    match a with
    | ⟨0, _⟩ => exact (lhsD13_0 _ _).trans (contrEquiv1_symm_val D13 1024 rfl rfl kk)
    | ⟨1, _⟩ => exact lhsD13_1 _ _
  have e1 : D13.rhsIdx (ix2 r q) ((contrEquiv1 D13 1024 rfl rfl).symm kk) = ix2 kk q := by
    funext a; apply Fin.ext
    match a with
    | ⟨0, _⟩ => exact (rhsD13_0 _ _).trans (contrEquiv1_symm_val D13 1024 rfl rfl kk)
    | ⟨1, _⟩ => exact rhsD13_1 _ _
  rw [e0, e1]

/-! ## Arrays read at natural-number coordinates -/

/-- A matrix read at natural-number coordinates (zero outside its extents). -/
def cAt13 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt13_eq {n0 n1 : ℕ} (X : (⟨2, ![n0, n1]⟩ : Shape).Idx → EReal) (i : Fin n0) (j : Fin n1) :
    cAt13 X i.val j.val = X (ix2 i j) := dif_pos ⟨i.isLt, j.isLt⟩

theorem cAt13_idx {n0 n1 : ℕ} (X : (⟨2, ![n0, n1]⟩ : Shape).Idx → EReal) (e : (⟨2, ![n0, n1]⟩ : Shape).Idx) :
    X e = cAt13 X (e 0).val (e 1).val := by
  have h : (e 0).val < n0 ∧ (e 1).val < n1 := ⟨(e 0).isLt, (e 1).isLt⟩
  unfold cAt13; rw [dif_pos h]; exact congrArg X (eq_ix2 e)

/-! ## The product over the arrays the region finds -/

section Value
variable (V : (c : Dev nD) → (b : Ref sig .tc) → Buf (Elt Ideal) ((c : Thread nD τ).loc b))

/-- The two operand arrays as the region finds them, and the input blocks at a point. -/
abbrev arrA13 (c : Dev nD) : Vec Ideal S1024x128 .f32 := V c (Pipeline.arrRef spec13 0)
abbrev arrB13 (c : Dev nD) : Vec Ideal S1024x128 .f32 := V c (Pipeline.arrRef spec13 1)
abbrev xblk13 (c : Dev nD) (t : Fin cfg13.N) : Vec Ideal S1024x128 .f32 := iblk13 V c 0 t
abbrev yblk13 (c : Dev nD) (t : Fin cfg13.N) : Vec Ideal S1024x128 .f32 := iblk13 V c 1 t

/-- The printed index maps in closed form, decided over the grid: the lhs block is always block (0, 0); the rhs and
    the output blocks are block (0, t). -/
theorem idx_facts13 : ∀ t : Fin cfg13.N, win13_0.index t (0 : Fin 2) = 0 ∧ win13_0.index t (1 : Fin 2) = 0
    ∧ win13_1.index t (0 : Fin 2) = 0 ∧ win13_1.index t (1 : Fin 2) = t.val
    ∧ win13_2.index t (0 : Fin 2) = 0 ∧ win13_2.index t (1 : Fin 2) = t.val :=
  (by decide +kernel : ∀ t : Fin grid13.N, _)

/-- Where a block's entry sits in its array: block index × block extent + the coordinate inside the block. -/
theorem embA13_0 (t : Fin cfg13.N) (kk : Fin 1024) (r : Fin 128) :
    ((((cfg13.win 0).blk t).view.emb (ix2 kk r)) 0).val = kk.val := by
  obtain ⟨e0, -⟩ := idx_facts13 t
  show win13_0.index t (0 : Fin 2) * 1024 + 1 * kk.val = _
  rw [e0]; omega
theorem embA13_1 (t : Fin cfg13.N) (kk : Fin 1024) (r : Fin 128) :
    ((((cfg13.win 0).blk t).view.emb (ix2 kk r)) 1).val = r.val := by
  obtain ⟨-, e1, -⟩ := idx_facts13 t
  show win13_0.index t (1 : Fin 2) * 128 + 1 * r.val = _
  rw [e1]; omega
theorem embB13_0 (t : Fin cfg13.N) (kk : Fin 1024) (q : Fin 128) :
    ((((cfg13.win 1).blk t).view.emb (ix2 kk q)) 0).val = kk.val := by
  obtain ⟨-, -, e0, -⟩ := idx_facts13 t
  show win13_1.index t (0 : Fin 2) * 1024 + 1 * kk.val = _
  rw [e0]; omega
theorem embB13_1 (t : Fin cfg13.N) (kk : Fin 1024) (q : Fin 128) :
    ((((cfg13.win 1).blk t).view.emb (ix2 kk q)) 1).val = t.val * 128 + q.val := by
  obtain ⟨-, -, -, e1, -⟩ := idx_facts13 t
  show win13_1.index t (1 : Fin 2) * 128 + 1 * q.val = _
  rw [e1]; omega
theorem embO13_0 (t : Fin cfg13.N) (r : Fin 128) (q : Fin 128) :
    ((((cfg13.win 2).blk t).view.emb (ix2 r q)) 0).val = r.val := by
  obtain ⟨-, -, -, -, e0, -⟩ := idx_facts13 t
  show win13_2.index t (0 : Fin 2) * 128 + 1 * r.val = _
  rw [e0]; omega
theorem embO13_1 (t : Fin cfg13.N) (r : Fin 128) (q : Fin 128) :
    ((((cfg13.win 2).blk t).view.emb (ix2 r q)) 1).val = t.val * 128 + q.val := by
  obtain ⟨-, -, -, -, -, e1⟩ := idx_facts13 t
  show win13_2.index t (1 : Fin 2) * 128 + 1 * q.val = _
  rw [e1]; omega

/-- A block is its array read through the block's embedding. -/
theorem xblk13_read (c : Dev nD) (t : Fin cfg13.N) (y : S1024x128.Idx) :
    xblk13 V c t y = arrA13 V c (((cfg13.win 0).blk t).view.emb y) := rfl
theorem yblk13_read (c : Dev nD) (t : Fin cfg13.N) (y : S1024x128.Idx) :
    yblk13 V c t y = arrB13 V c (((cfg13.win 1).blk t).view.emb y) := rfl
theorem arrA13_at (c : Dev nD) (e : S1024x128.Idx) :
    arrA13 V c e = cAt13 (n0 := 1024) (n1 := 128) (arrA13 V c) (e 0).val (e 1).val :=
  cAt13_idx (n0 := 1024) (n1 := 128) (arrA13 V c) e
theorem arrB13_at (c : Dev nD) (e : S1024x128.Idx) :
    arrB13 V c e = cAt13 (n0 := 1024) (n1 := 128) (arrB13 V c) (e 0).val (e 1).val :=
  cAt13_idx (n0 := 1024) (n1 := 128) (arrB13 V c) e

/-- The lhs block at a point is the lhs array. -/
theorem xblk13_apply (c : Dev nD) (t : Fin cfg13.N) (kk : Fin 1024) (r : Fin 128) :
    xblk13 V c t (ix2 kk r) = cAt13 (n0 := 1024) (n1 := 128) (arrA13 V c) kk.val r.val :=
  (xblk13_read V c t (ix2 kk r)).trans ((arrA13_at V c _).trans (by rw [embA13_0, embA13_1]))

/-- The rhs block at a point reads the rhs array at columns t·(block width) …. -/
theorem yblk13_apply (c : Dev nD) (t : Fin cfg13.N) (kk : Fin 1024) (q : Fin 128) :
    yblk13 V c t (ix2 kk q) = cAt13 (n0 := 1024) (n1 := 128) (arrB13 V c) kk.val (t.val * 128 + q.val) :=
  (yblk13_read V c t (ix2 kk q)).trans ((arrB13_at V c _).trans (by rw [embB13_0, embB13_1]))

/-! ## The output array after the region -/

/-- The transposed-lhs product of the two arrays, index by index: the whole contracted axis 0 of both summed. -/
def G13 (a : Vec Ideal S1024x128 .f32) (b : Vec Ideal S1024x128 .f32) : Vec Ideal S128x128 .f32 :=
  fun y => ∑ k : Fin 1024, a (ix2 k (y 0)) * b (ix2 k (y 1))

theorem G13_apply (a : Vec Ideal S1024x128 .f32) (b : Vec Ideal S1024x128 .f32) (r : Fin 128) (q : Fin 128) :
    G13 a b (ix2 r q) = ∑ k : Fin 1024, a (ix2 k r) * b (ix2 k q) := rfl

/-- What a point writes back is its block of the product. -/
theorem flushed13_2 (c : Dev nD) (t : Fin cfg13.N) (hf : (cfg13.win 2).flush t = true) :
    (dat13 (F := Ideal) V c).flushed 2 t = ((cfg13.win 2).blk t).view.read (Elt Ideal) (G13 (arrA13 V c) (arrB13 V c)) := by
  show (cfg13.win 2).cut (grid13.coords t) ((dat13 V c).after 2 t) = _
  rw [after13_2]
  unfold outAt13
  rw [out13_eq]
  funext j
  obtain ⟨r, q, rfl⟩ : ∃ (r : Fin 128) (q : Fin 128), j = ix2 r q := ⟨j 0, j 1, eq_ix2 j⟩
  show k13_pay2 (xblk13 V c t) (yblk13 V c t) (k13_pay1 (F := Ideal)) (ix2 r q) = G13 (arrA13 V c) (arrB13 V c) (((cfg13.win 2).blk t).view.emb (ix2 r q))
  rw [pay13_2_apply, pay13_1_apply, zero_add]
  unfold G13
  refine Finset.sum_congr rfl fun k _ => ?_
  have e0 := embO13_0 t r q
  have e1 := embO13_1 t r q
  exact congrArg₂ (· * ·)
    ((xblk13_apply V c t k r).trans (by rw [← e0]; exact cAt13_eq (n0 := 1024) (n1 := 128) (arrA13 V c) k _))
    ((yblk13_apply V c t k q).trans (by rw [← e1]; exact cAt13_eq (n0 := 1024) (n1 := 128) (arrB13 V c) k _))

/-- An index of the output array is in point t's block iff each coordinate is in the block's range on its axis. -/
theorem mem_blk13_2 (t : Fin cfg13.N) (i : S128x128.Idx) :
    i ∈ ((cfg13.win 2).blk t).view.set ↔ ∀ a : Fin 2, win13_2.index t a * S128x128.size a ≤ (i a).val ∧ (i a).val < win13_2.index t a * S128x128.size a + S128x128.size a := by
  show i ∈ ((View.whole main_v137).slice (win13_2.rect t)).set ↔ _
  rw [View.set_slice_whole, Rect.mem_set_unit]
  exact Iff.rfl

/-- THE OUTPUT ARRAY after the region: the product of the two operand arrays as the region finds them (the output
    blocks, one per point, cover the array). -/
theorem arrAt13_2 (c : Dev nD) :
    (dat13 (F := Ideal) V c).arrAt 2 cfg13.N = G13 (V c (Pipeline.arrRef spec13 0)) (V c (Pipeline.arrRef spec13 1)) :=
  (dat13 V c).arrAt_eq_of_cover 2 (G13 (arrA13 V c) (arrB13 V c)) (flushed13_2 V c) fun i => by
    have hi0 : (i 0).val < 128 := (i 0).isLt
    have hi1 : (i 1).val < 128 := (i 1).isLt
    have ht : (i 1).val / 128 < cfg13.N := by rw [show cfg13.N = 1 from N_13]; omega
    obtain ⟨-, -, -, -, e0, e1⟩ := idx_facts13 ⟨_, ht⟩
    refine ⟨⟨_, ht⟩, flush13_2 _, ?_⟩
    rw [mem_blk13_2]
    intro a
    match a with
    | ⟨0, _⟩ =>
      show win13_2.index _ (0 : Fin 2) * 128 ≤ (i 0).val ∧ (i 0).val < win13_2.index _ (0 : Fin 2) * 128 + 128
      rw [e0]; omega
    | ⟨1, _⟩ =>
      show win13_2.index _ (1 : Fin 2) * 128 ≤ (i 1).val ∧ (i 1).val < win13_2.index _ (1 : Fin 2) * 128 + 128
      rw [e1]; dsimp only; omega

end Value

end Cert.KernelIdeal.HandVal

end
-- ==== Proof.Bridge.CP2b.lean ====
/- The second pooling layer's three transposed-lhs products (regions 11, 12, 13) against the reference's transposes and products: each region's output array is the product of its two operand arrays, which are the reference's buffers by the earlier checkpoints. -/
import proofs.«405323_j90718299226206_3_alg».proof.Proof.Bridge.CP2a2
import proofs.«405323_j90718299226206_3_alg».proof.Proof.KI.R11Val
import proofs.«405323_j90718299226206_3_alg».proof.Proof.KI.R12Val
import proofs.«405323_j90718299226206_3_alg».proof.Proof.KI.R13Val
import proofs.«405323_j90718299226206_3_alg».proof.Proof.Ref.Dots
import Idealize.ShloMosaic.Lib.ValueIdx

set_option maxRecDepth 16384

noncomputable section

open scoped BigOperators

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 11's output, the transposed-lhs product of its two operand arrays, against the reference's transpose and product. -/
theorem cp_main_v135 (h : Hyp m m' c) : KV m c Cert.KernelIdeal.main_v135 = RV m' c Cert.ReferenceIdeal.main_v175 := by
  have hA : (Cert.KernelIdeal.Hand.W36 (F := Ideal) m c (Proc.devRef .tc Cert.KernelIdeal.main_v131_1) : Vec Ideal Cert.KernelIdeal.S1024x128 .f32) = Cert.ReferenceIdeal.HandRun.RV (F := Ideal) m' c Cert.ReferenceIdeal.main_v173 :=
    (Cert.KernelIdeal.Hand.frame36 m c Cert.KernelIdeal.main_v131_1 (by decide)).symm.trans (cp_main_v131_1 m m' c h)
  have hB : (Cert.KernelIdeal.Hand.W36 (F := Ideal) m c (Proc.devRef .tc Cert.KernelIdeal.main_v129) : Vec Ideal Cert.KernelIdeal.S1024x512 .f32) = Cert.ReferenceIdeal.HandRun.RV (F := Ideal) m' c Cert.ReferenceIdeal.main_v157 :=
    (Cert.KernelIdeal.Hand.frame36 m c Cert.KernelIdeal.main_v129 (by decide)).symm.trans (cp_main_v129 m m' c h)
  refine ((((Cert.KernelIdeal.Hand.frame37 m c Cert.KernelIdeal.main_v135 (by decide)).trans (Cert.KernelIdeal.Hand.W37_out2 m c)).trans
    (Cert.KernelIdeal.HandVal.arrAt11_2 (Cert.KernelIdeal.Hand.Vt36 m) c)).trans (congr (congrArg Cert.KernelIdeal.HandVal.G11 hA) hB)).trans ?_
  refine Eq.trans ?_ (Cert.ReferenceIdeal.HandRun.rd_main_v175 m' c).symm
  rw [Cert.ReferenceIdeal.HandRun.rd_main_v174 m' c]
  funext y
  obtain ⟨r, q, rfl⟩ : ∃ (r : Fin 128) (q : Fin 512), y = ix2 r q := ⟨y 0, y 1, eq_ix2 y⟩
  rw [Cert.KernelIdeal.HandVal.G11_apply, Cert.ReferenceIdeal.Dots.dot_S128x1024_S1024x512_apply]
  exact Finset.sum_congr rfl fun k _ => by rw [Cert.ReferenceIdeal.Dots.transpose_S1024x128_S128x1024_apply]

/-- Region 12's output, the transposed-lhs product of its two operand arrays, against the reference's transpose and product. -/
theorem cp_main_v136 (h : Hyp m m' c) : KV m c Cert.KernelIdeal.main_v136 = RV m' c Cert.ReferenceIdeal.main_v178 := by
  have hA : (Cert.KernelIdeal.Hand.W37 (F := Ideal) m c (Proc.devRef .tc Cert.KernelIdeal.main_v131_1) : Vec Ideal Cert.KernelIdeal.S1024x128 .f32) = Cert.ReferenceIdeal.HandRun.RV (F := Ideal) m' c Cert.ReferenceIdeal.main_v173 :=
    (Cert.KernelIdeal.Hand.frame37 m c Cert.KernelIdeal.main_v131_1 (by decide)).symm.trans (cp_main_v131_1 m m' c h)
  have hB : (Cert.KernelIdeal.Hand.W37 (F := Ideal) m c (Proc.devRef .tc Cert.KernelIdeal.main_v134) : Vec Ideal Cert.KernelIdeal.S1024x128 .f32) = Cert.ReferenceIdeal.HandRun.RV (F := Ideal) m' c Cert.ReferenceIdeal.main_v177 :=
    (Cert.KernelIdeal.Hand.frame37 m c Cert.KernelIdeal.main_v134 (by decide)).symm.trans (cp_main_v134 m m' c h)
  refine ((((Cert.KernelIdeal.Hand.frame38 m c Cert.KernelIdeal.main_v136 (by decide)).trans (Cert.KernelIdeal.Hand.W38_out2 m c)).trans
    (Cert.KernelIdeal.HandVal.arrAt12_2 (Cert.KernelIdeal.Hand.Vt37 m) c)).trans (congr (congrArg Cert.KernelIdeal.HandVal.G12 hA) hB)).trans ?_
  refine Eq.trans ?_ (Cert.ReferenceIdeal.HandRun.rd_main_v178 m' c).symm
  rw [Cert.ReferenceIdeal.HandRun.rd_main_v176 m' c]
  funext y
  obtain ⟨r, q, rfl⟩ : ∃ (r : Fin 128) (q : Fin 128), y = ix2 r q := ⟨y 0, y 1, eq_ix2 y⟩
  rw [Cert.KernelIdeal.HandVal.G12_apply, Cert.ReferenceIdeal.Dots.dot_S128x1024_S1024x128_apply]
  exact Finset.sum_congr rfl fun k _ => by rw [Cert.ReferenceIdeal.Dots.transpose_S1024x128_S128x1024_apply]

/-- Region 13's output, the transposed-lhs product of its two operand arrays, against the reference's transpose and product. -/
theorem cp_main_v137 (h : Hyp m m' c) : KV m c Cert.KernelIdeal.main_v137 = RV m' c Cert.ReferenceIdeal.main_v189 := by
  have hA : (Cert.KernelIdeal.Hand.W38 (F := Ideal) m c (Proc.devRef .tc Cert.KernelIdeal.main_v131_1) : Vec Ideal Cert.KernelIdeal.S1024x128 .f32) = Cert.ReferenceIdeal.HandRun.RV (F := Ideal) m' c Cert.ReferenceIdeal.main_v173 :=
    (Cert.KernelIdeal.Hand.frame38 m c Cert.KernelIdeal.main_v131_1 (by decide)).symm.trans (cp_main_v131_1 m m' c h)
  refine ((((Cert.KernelIdeal.Hand.frame39 m c Cert.KernelIdeal.main_v137 (by decide)).trans (Cert.KernelIdeal.Hand.W39_out2 m c)).trans
    (Cert.KernelIdeal.HandVal.arrAt13_2 (Cert.KernelIdeal.Hand.Vt38 m) c)).trans (congr (congrArg Cert.KernelIdeal.HandVal.G13 hA) hA)).trans ?_
  refine Eq.trans ?_ (Cert.ReferenceIdeal.HandRun.rd_main_v189 m' c).symm
  rw [Cert.ReferenceIdeal.HandRun.rd_main_v188 m' c]
  funext y
  obtain ⟨r, q, rfl⟩ : ∃ (r : Fin 128) (q : Fin 128), y = ix2 r q := ⟨y 0, y 1, eq_ix2 y⟩
  rw [Cert.KernelIdeal.HandVal.G13_apply, Cert.ReferenceIdeal.Dots.dot_S128x1024_S1024x128_apply]
  exact Finset.sum_congr rfl fun k _ => by rw [Cert.ReferenceIdeal.Dots.transpose_S1024x128_S128x1024_apply]

end Cert.Bridge

end
-- ==== Proof.Bridge.B2.lean ====
/- Kernel buffers and reference buffers that are the same function of equal operands hold equal contents at the end of the
   two runs: one step per host operation, phase 2 (what depends on the checkpoints of the first 2 pooling layers at most). -/
import proofs.«405323_j90718299226206_3_alg».proof.Proof.Bridge.CP2b

set_option maxRecDepth 16384

noncomputable section

namespace Cert.Bridge

open Idealize.ShloMosaic Idealize.ShloMosaic.TcCoe Idealize.SL.Sem

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem br_main_call9_v6 (h : Hyp m m' c) : KV m c Cert.KernelIdeal.main_call9_v6 = RV m' c Cert.ReferenceIdeal.main_call9_v6 := by
  have e0 := Cert.KernelIdeal.Hand.kd_main_call9_v6 (F := Ideal) m c
  have e1 := Cert.ReferenceIdeal.HandRun.rd_main_call9_v6 (F := Ideal) m' c
  have e2 := br_main_call9_v4 m m' c h
  have e3 := cp_main_v136 m m' c h
  have e4 := br_main_call9_v5 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3, e4]
  <;> rfl
theorem br_main_v138 (h : Hyp m m' c) : KV m c Cert.KernelIdeal.main_v138 = RV m' c Cert.ReferenceIdeal.main_v179 := by
  have e0 := Cert.KernelIdeal.Hand.kd_main_v138 (F := Ideal) m c
  have e1 := Cert.ReferenceIdeal.HandRun.rd_main_v179 (F := Ideal) m' c
  have e2 := br_main_call9_v6 m m' c h
  have e3 := (br_main_call9_cst_0 m m' c h).trans (rr_main_cst__main_call9_cst_0 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v142 (h : Hyp m m' c) : KV m c Cert.KernelIdeal.main_v142 = RV m' c Cert.ReferenceIdeal.main_v183 := by
  have e0 := Cert.KernelIdeal.Hand.kd_main_v142 (F := Ideal) m c
  have e1 := Cert.ReferenceIdeal.HandRun.rd_main_v183 (F := Ideal) m' c
  have e2 := br_main_v141 m m' c h
  have e3 := cp_main_v131_1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v143 (h : Hyp m m' c) : KV m c Cert.KernelIdeal.main_v143 = RV m' c Cert.ReferenceIdeal.main_v184 := by
  have e0 := Cert.KernelIdeal.Hand.kd_main_v143 (F := Ideal) m c
  have e1 := Cert.ReferenceIdeal.HandRun.rd_main_v184 (F := Ideal) m' c
  have e2 := br_main_v142 m m' c h
  have e3 := cp_main_v131_1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v144 (h : Hyp m m' c) : KV m c Cert.KernelIdeal.main_v144 = RV m' c Cert.ReferenceIdeal.main_v185 := by
  have e0 := Cert.KernelIdeal.Hand.kd_main_v144 (F := Ideal) m c
  have e1 := Cert.ReferenceIdeal.HandRun.rd_main_v185 (F := Ideal) m' c
  have e2 := br_main_v143 m m' c h
  have e3 := (br_main_cst_26 m m' c h).trans (rr_main_cst__main_cst_33 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v145 (h : Hyp m m' c) : KV m c Cert.KernelIdeal.main_v145 = RV m' c Cert.ReferenceIdeal.main_v186 := by
  have e0 := Cert.KernelIdeal.Hand.kd_main_v145 (F := Ideal) m c
  have e1 := Cert.ReferenceIdeal.HandRun.rd_main_v186 (F := Ideal) m' c
  have e2 := br_main_v138 m m' c h
  have e3 := br_main_v144 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v146 (h : Hyp m m' c) : KV m c Cert.KernelIdeal.main_v146 = RV m' c Cert.ReferenceIdeal.main_v187 := by
  have e0 := Cert.KernelIdeal.Hand.kd_main_v146 (F := Ideal) m c
  have e1 := Cert.ReferenceIdeal.HandRun.rd_main_v187 (F := Ideal) m' c
  have e2 := br_main_v145 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call10_v0 (h : Hyp m m' c) : KV m c Cert.KernelIdeal.main_call10_v0 = RV m' c Cert.ReferenceIdeal.main_call10_v0 := by
  have e0 := Cert.KernelIdeal.Hand.kd_main_call10_v0 (F := Ideal) m c
  have e1 := Cert.ReferenceIdeal.HandRun.rd_main_call10_v0 (F := Ideal) m' c
  have e2 := cp_main_v137 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call10_v1 (h : Hyp m m' c) : KV m c Cert.KernelIdeal.main_call10_v1 = RV m' c Cert.ReferenceIdeal.main_call10_v1 := by
  have e0 := Cert.KernelIdeal.Hand.kd_main_call10_v1 (F := Ideal) m c
  have e1 := Cert.ReferenceIdeal.HandRun.rd_main_call10_v1 (F := Ideal) m' c
  have e2 := br_main_call10_v0 m m' c h
  have e3 := (br_main_call10_cst m m' c h).trans (rr_main_cst__main_call10_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v147 (h : Hyp m m' c) : KV m c Cert.KernelIdeal.main_v147 = RV m' c Cert.ReferenceIdeal.main_v190 := by
  have e0 := Cert.KernelIdeal.Hand.kd_main_v147 (F := Ideal) m c
  have e1 := Cert.ReferenceIdeal.HandRun.rd_main_v190 (F := Ideal) m' c
  have e2 := br_main_call10_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v148 (h : Hyp m m' c) : KV m c Cert.KernelIdeal.main_v148 = RV m' c Cert.ReferenceIdeal.main_v191 := by
  have e0 := Cert.KernelIdeal.Hand.kd_main_v148 (F := Ideal) m c
  have e1 := Cert.ReferenceIdeal.HandRun.rd_main_v191 (F := Ideal) m' c
  have e2 := br_main_v147 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v149 (h : Hyp m m' c) : KV m c Cert.KernelIdeal.main_v149 = RV m' c Cert.ReferenceIdeal.main_v192 := by
  have e0 := Cert.KernelIdeal.Hand.kd_main_v149 (F := Ideal) m c
  have e1 := Cert.ReferenceIdeal.HandRun.rd_main_v192 (F := Ideal) m' c
  have e2 := cp_main_v137 m m' c h
  have e3 := br_main_v148 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v159 (h : Hyp m m' c) : KV m c Cert.KernelIdeal.main_v159 = RV m' c Cert.ReferenceIdeal.main_v202 := by
  have e0 := Cert.KernelIdeal.Hand.kd_main_v159 (F := Ideal) m c
  have e1 := Cert.ReferenceIdeal.HandRun.rd_main_v202 (F := Ideal) m' c
  have e2 := br_main_v149 m m' c h
  have e3 := br_main_v158 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call11_v0 (h : Hyp m m' c) : KV m c Cert.KernelIdeal.main_call11_v0 = RV m' c Cert.ReferenceIdeal.main_call11_v0 := by
  have e0 := Cert.KernelIdeal.Hand.kd_main_call11_v0 (F := Ideal) m c
  have e1 := Cert.ReferenceIdeal.HandRun.rd_main_call11_v0 (F := Ideal) m' c
  have e2 := br_main_v159 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call11_v1 (h : Hyp m m' c) : KV m c Cert.KernelIdeal.main_call11_v1 = RV m' c Cert.ReferenceIdeal.main_call11_v1 := by
  have e0 := Cert.KernelIdeal.Hand.kd_main_call11_v1 (F := Ideal) m c
  have e1 := Cert.ReferenceIdeal.HandRun.rd_main_call11_v1 (F := Ideal) m' c
  have e2 := br_main_call11_v0 m m' c h
  have e3 := (br_main_call11_cst m m' c h).trans (rr_main_cst__main_call11_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v160 (h : Hyp m m' c) : KV m c Cert.KernelIdeal.main_v160 = RV m' c Cert.ReferenceIdeal.main_v203 := by
  have e0 := Cert.KernelIdeal.Hand.kd_main_v160 (F := Ideal) m c
  have e1 := Cert.ReferenceIdeal.HandRun.rd_main_v203 (F := Ideal) m' c
  have e2 := br_main_call11_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v169 (h : Hyp m m' c) : KV m c Cert.KernelIdeal.main_v169 = RV m' c Cert.ReferenceIdeal.main_v212 := by
  have e0 := Cert.KernelIdeal.Hand.kd_main_v169 (F := Ideal) m c
  have e1 := Cert.ReferenceIdeal.HandRun.rd_main_v212 (F := Ideal) m' c
  have e2 := cp_main_v136 m m' c h
  have e3 := br_main_v168 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v170 (h : Hyp m m' c) : KV m c Cert.KernelIdeal.main_v170 = RV m' c Cert.ReferenceIdeal.main_v213 := by
  have e0 := Cert.KernelIdeal.Hand.kd_main_v170 (F := Ideal) m c
  have e1 := Cert.ReferenceIdeal.HandRun.rd_main_v213 (F := Ideal) m' c
  have e2 := br_main_v169 m m' c h
  have e3 := (br_main_cst_31 m m' c h).trans (rr_main_cst__main_cst_38 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v171 (h : Hyp m m' c) : KV m c Cert.KernelIdeal.main_v171 = RV m' c Cert.ReferenceIdeal.main_v214 := by
  have e0 := Cert.KernelIdeal.Hand.kd_main_v171 (F := Ideal) m c
  have e1 := Cert.ReferenceIdeal.HandRun.rd_main_v214 (F := Ideal) m' c
  have e2 := br_main_v170 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v172 (h : Hyp m m' c) : KV m c Cert.KernelIdeal.main_v172 = RV m' c Cert.ReferenceIdeal.main_v215 := by
  have e0 := Cert.KernelIdeal.Hand.kd_main_v172 (F := Ideal) m c
  have e1 := Cert.ReferenceIdeal.HandRun.rd_main_v215 (F := Ideal) m' c
  have e2 := br_main_v171 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v174 (h : Hyp m m' c) : KV m c Cert.KernelIdeal.main_v174 = RV m' c Cert.ReferenceIdeal.main_v217 := by
  have e0 := Cert.KernelIdeal.Hand.kd_main_v174 (F := Ideal) m c
  have e1 := Cert.ReferenceIdeal.HandRun.rd_main_v217 (F := Ideal) m' c
  have e2 := br_main_v172 m m' c h
  have e3 := br_main_v173 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v175 (h : Hyp m m' c) : KV m c Cert.KernelIdeal.main_v175 = RV m' c Cert.ReferenceIdeal.main_v218 := by
  have e0 := Cert.KernelIdeal.Hand.kd_main_v175 (F := Ideal) m c
  have e1 := Cert.ReferenceIdeal.HandRun.rd_main_v218 (F := Ideal) m' c
  have e2 := br_main_v174 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v176 (h : Hyp m m' c) : KV m c Cert.KernelIdeal.main_v176 = RV m' c Cert.ReferenceIdeal.main_v219 := by
  have e0 := Cert.KernelIdeal.Hand.kd_main_v176 (F := Ideal) m c
  have e1 := Cert.ReferenceIdeal.HandRun.rd_main_v219 (F := Ideal) m' c
  have e2 := br_main_v169 m m' c h
  have e3 := br_main_v175 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v177 (h : Hyp m m' c) : KV m c Cert.KernelIdeal.main_v177 = RV m' c Cert.ReferenceIdeal.main_v220 := by
  have e0 := Cert.KernelIdeal.Hand.kd_main_v177 (F := Ideal) m c
  have e1 := Cert.ReferenceIdeal.HandRun.rd_main_v220 (F := Ideal) m' c
  have e2 := br_main_v174 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v178 (h : Hyp m m' c) : KV m c Cert.KernelIdeal.main_v178 = RV m' c Cert.ReferenceIdeal.main_v221 := by
  have e0 := Cert.KernelIdeal.Hand.kd_main_v178 (F := Ideal) m c
  have e1 := Cert.ReferenceIdeal.HandRun.rd_main_v221 (F := Ideal) m' c
  have e2 := br_main_v177 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v179 (h : Hyp m m' c) : KV m c Cert.KernelIdeal.main_v179 = RV m' c Cert.ReferenceIdeal.main_v222 := by
  have e0 := Cert.KernelIdeal.Hand.kd_main_v179 (F := Ideal) m c
  have e1 := Cert.ReferenceIdeal.HandRun.rd_main_v222 (F := Ideal) m' c
  have e2 := br_main_v176 m m' c h
  have e3 := br_main_v178 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v186 (h : Hyp m m' c) : KV m c Cert.KernelIdeal.main_v186 = RV m' c Cert.ReferenceIdeal.main_v229 := by
  have e0 := Cert.KernelIdeal.Hand.kd_main_v186 (F := Ideal) m c
  have e1 := Cert.ReferenceIdeal.HandRun.rd_main_v229 (F := Ideal) m' c
  have e2 := br_main_v179 m m' c h
  have e3 := (br_main_v185 m m' c h).trans (rr_main_v198__main_v228 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v187 (h : Hyp m m' c) : KV m c Cert.KernelIdeal.main_v187 = RV m' c Cert.ReferenceIdeal.main_v230 := by
  have e0 := Cert.KernelIdeal.Hand.kd_main_v187 (F := Ideal) m c
  have e1 := Cert.ReferenceIdeal.HandRun.rd_main_v230 (F := Ideal) m' c
  have e2 := br_main_v186 m m' c h
  have e3 := (br_main_cst_34 m m' c h).trans (rr_main_cst__main_cst_41 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v189 (h : Hyp m m' c) : KV m c Cert.KernelIdeal.main_v189 = RV m' c Cert.ReferenceIdeal.main_v232 := by
  have e0 := Cert.KernelIdeal.Hand.kd_main_v189 (F := Ideal) m c
  have e1 := Cert.ReferenceIdeal.HandRun.rd_main_v232 (F := Ideal) m' c
  have e2 := br_main_v187 m m' c h
  have e3 := br_main_v188 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v190 (h : Hyp m m' c) : KV m c Cert.KernelIdeal.main_v190 = RV m' c Cert.ReferenceIdeal.main_v233 := by
  have e0 := Cert.KernelIdeal.Hand.kd_main_v190 (F := Ideal) m c
  have e1 := Cert.ReferenceIdeal.HandRun.rd_main_v233 (F := Ideal) m' c
  have e2 := br_main_v187 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v191 (h : Hyp m m' c) : KV m c Cert.KernelIdeal.main_v191 = RV m' c Cert.ReferenceIdeal.main_v234 := by
  have e0 := Cert.KernelIdeal.Hand.kd_main_v191 (F := Ideal) m c
  have e1 := Cert.ReferenceIdeal.HandRun.rd_main_v234 (F := Ideal) m' c
  have e2 := br_main_v189 m m' c h
  have e3 := br_main_v190 m m' c h
  have e4 := br_main_call12_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3, e4]
  <;> rfl
theorem br_main_v192 (h : Hyp m m' c) : KV m c Cert.KernelIdeal.main_v192 = RV m' c Cert.ReferenceIdeal.main_v235 := by
  have e0 := Cert.KernelIdeal.Hand.kd_main_v192 (F := Ideal) m c
  have e1 := Cert.ReferenceIdeal.HandRun.rd_main_v235 (F := Ideal) m' c
  have e2 := br_main_v191 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v193 (h : Hyp m m' c) : KV m c Cert.KernelIdeal.main_v193 = RV m' c Cert.ReferenceIdeal.main_v236 := by
  have e0 := Cert.KernelIdeal.Hand.kd_main_v193 (F := Ideal) m c
  have e1 := Cert.ReferenceIdeal.HandRun.rd_main_v236 (F := Ideal) m' c
  have e2 := br_main_v192 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v194 (h : Hyp m m' c) : KV m c Cert.KernelIdeal.main_v194 = RV m' c Cert.ReferenceIdeal.main_v237 := by
  have e0 := Cert.KernelIdeal.Hand.kd_main_v194 (F := Ideal) m c
  have e1 := Cert.ReferenceIdeal.HandRun.rd_main_v237 (F := Ideal) m' c
  have e2 := br_main_v193 m m' c h
  have e3 := br_main_v186 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v195 (h : Hyp m m' c) : KV m c Cert.KernelIdeal.main_v195 = RV m' c Cert.ReferenceIdeal.main_v238 := by
  have e0 := Cert.KernelIdeal.Hand.kd_main_v195 (F := Ideal) m c
  have e1 := Cert.ReferenceIdeal.HandRun.rd_main_v238 (F := Ideal) m' c
  have e2 := br_main_v191 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v196 (h : Hyp m m' c) : KV m c Cert.KernelIdeal.main_v196 = RV m' c Cert.ReferenceIdeal.main_v239 := by
  have e0 := Cert.KernelIdeal.Hand.kd_main_v196 (F := Ideal) m c
  have e1 := Cert.ReferenceIdeal.HandRun.rd_main_v239 (F := Ideal) m' c
  have e2 := br_main_v195 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v197 (h : Hyp m m' c) : KV m c Cert.KernelIdeal.main_v197 = RV m' c Cert.ReferenceIdeal.main_v240 := by
  have e0 := Cert.KernelIdeal.Hand.kd_main_v197 (F := Ideal) m c
  have e1 := Cert.ReferenceIdeal.HandRun.rd_main_v240 (F := Ideal) m' c
  have e2 := br_main_v194 m m' c h
  have e3 := br_main_v196 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v212 (h : Hyp m m' c) : KV m c Cert.KernelIdeal.main_v212 = RV m' c Cert.ReferenceIdeal.main_v267 := by
  have e0 := Cert.KernelIdeal.Hand.kd_main_v212 (F := Ideal) m c
  have e1 := Cert.ReferenceIdeal.HandRun.rd_main_v267 (F := Ideal) m' c
  have e2 := br_main_v179 m m' c h
  have e3 := (br_main_cst_39 m m' c h).trans (rr_main_cst__main_cst_47 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v213 (h : Hyp m m' c) : KV m c Cert.KernelIdeal.main_v213 = RV m' c Cert.ReferenceIdeal.main_v268 := by
  have e0 := Cert.KernelIdeal.Hand.kd_main_v213 (F := Ideal) m c
  have e1 := Cert.ReferenceIdeal.HandRun.rd_main_v268 (F := Ideal) m' c
  have e2 := br_main_v212 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl

end Cert.Bridge

end
-- ==== Proof.KI.R14Val.lean ====
import proofs.«405323_j90718299226206_3_alg».proof.Proof.KI.R14
import proofs.«405323_j90718299226206_3_alg».proof.Proof.KI.R0Val
import Idealize.ShloMosaic.Lib.Pipeline.Value
import Idealize.ShloMosaic.Lib.ValueIdx
import Idealize.ShloMosaic.PureOps.Ideal.Laws
import Idealize.ShloMosaic.Lib.Tactic

/-! # Region 14 of @main at the ideal values: what its output array holds after the region

Entry (i, n) of the result is the sum over k of x(i, k) · w(k, n), plus b(0, n).
The region has one grid point, whose blocks are the whole arrays; the zero block the accumulator starts from
adds nothing. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## What the body leaves, as payloads of the input blocks -/

section Piece
variable {F : FTy → Type} [FloatOps F]

/-- The one store into the output buffer writes the last payload of what the accumulator then holds — the
    second payload of the two factor blocks over the zero block — and of the bias row. -/
theorem out14_3_eq (c : Dev nD) (i : grid14.Coords)
    (a2 : Memref sig .tc .vmem S128x512 .f32) (h2 : a2.IsWhole) (a3 : Memref sig .tc .vmem S512x512 .f32) (h3 : a3.IsWhole)
    (a4 : Memref sig .tc .vmem S1x512 .f32) (h4 : a4.IsWhole) (a5 : Memref sig .tc .vmem S128x512 .f32) (h5 : a5.IsWhole)
    (a6 : Memref sig .tc .vmem S128x512 .f32) (h6 : a6.IsWhole) (hc0 : cond14_0 i) (hc1 : cond14_1 i)
    (x0 : Vec F S128x512 .f32) (x1 : Vec F S512x512 .f32) (x2 : Vec F S1x512 .f32) :
    out14_3 c i a2 h2 a3 h3 a4 h4 a5 h5 a6 h6 hc0 hc1 x0 x1 x2 = k14_pay3 (k14_pay2 x0 x1 (k14_pay1 (F := F))) x2 := by
  unfold out14_3
  rw [View.read_writes_eq_canon _ _ _ (cover14_3 c i a2 h2 a3 h3 a4 h4 a5 h5 a6 h6 hc0 hc1 x0 x1 x2)]
  unfold kernelRun14
  dsimp only
  sl_unfold_words
  rw [View.canon_unit_zero hz0]
  simp only [View.readAt_eq_ld, h2.read_unread, h3.read_unread, h4.read_unread,
    View.ld_unit_zero (S := S128x512) hz0, View.ld_unit_zero (S := S512x512) hz0, View.ld_unit_zero (S := S1x512) hz0, View.ld_unit_zero (S := S128x512) hz0,
    View.readCov_unit_zero (S := S128x512) _ hz0, readCov_cons_unit_zero (S := S128x512) _ hz0]

end Piece

/-! ## The payloads at an entry, at the ideal values -/

/-- The block product into the zero block, read at an entry: the sum over the contracted coordinate. -/
theorem matmul14_apply {φ₁ φ₂ : FTy} (prec : Option ContractPrecision) (A : FVec Ideal S128x512 φ₁) (B : FVec Ideal S512x512 φ₂)
    (p : Fin 128) (q : Fin 512) :
    matmul dot_S128x512_S512x512_S128x512_1_0_0_1_n_n prec A B (constant (F := Ideal) S128x512 .f32 0x00000000#32) (ix2 p q)
      = ∑ k : Fin 512, A (ix2 p k) * B (ix2 k q) := by
  show FloatOps.matmul dot_S128x512_S512x512_S128x512_1_0_0_1_n_n prec A B (constant (F := Ideal) S128x512 .f32 0x00000000#32) (ix2 p q) = _
  rw [Ideal.matmul_constant_zero_apply, ← Equiv.sum_comp (contrEquiv1 dot_S128x512_S512x512_S128x512_1_0_0_1_n_n 512 rfl rfl).symm]
  refine Finset.sum_congr rfl fun k _ => ?_
  have c2 := contrEquiv1_symm_val dot_S128x512_S512x512_S128x512_1_0_0_1_n_n 512 rfl rfl k
  have l2 : (dot_S128x512_S512x512_S128x512_1_0_0_1_n_n).lhsIdx (ix2 p q) ((contrEquiv1 _ 512 rfl rfl).symm k) = ix2 p k := by
    funext ax; apply Fin.ext
    match ax with
    | ⟨0, _⟩ => simp [DotDims.lhsIdx, dot_S128x512_S512x512_S128x512_1_0_0_1_n_n] <;> rfl
    | ⟨1, _⟩ => simp [DotDims.lhsIdx, dot_S128x512_S512x512_S128x512_1_0_0_1_n_n] <;> exact c2
  have r2 : (dot_S128x512_S512x512_S128x512_1_0_0_1_n_n).rhsIdx (ix2 p q) ((contrEquiv1 _ 512 rfl rfl).symm k) = ix2 k q := by
    funext ax; apply Fin.ext
    match ax with
    | ⟨0, _⟩ => simp [DotDims.rhsIdx, dot_S128x512_S512x512_S128x512_1_0_0_1_n_n] <;> exact c2
    | ⟨1, _⟩ => simp [DotDims.rhsIdx, dot_S128x512_S512x512_S128x512_1_0_0_1_n_n] <;> rfl
  rw [l2, r2]

/-- The body's three payloads composed, read at entry (p, q): the zero block adds nothing, the bias row is read
    at column q. -/
theorem pay14_apply (x0 : Vec Ideal S128x512 .f32) (x1 : Vec Ideal S512x512 .f32) (x2 : Vec Ideal S1x512 .f32)
    (p : Fin 128) (q : Fin 512) :
    k14_pay3 (k14_pay2 x0 x1 (k14_pay1 (F := Ideal))) x2 (ix2 p q)
      = (∑ k : Fin 512, x0 (ix2 p k) * x1 (ix2 k q)) + x2 (ix2 (0 : Fin 1) q) := by
  unfold k14_pay3 k14_pay2 k14_pay1
  simp only [shapeCast_self]
  refine (addf_apply _ _ _).trans (congrArg₂ (· + ·) ?_ ?_)
  · refine (addf_apply _ _ _).trans ?_
    exact (congrArg₂ (· + ·) Ideal.ofBits_zero_f32 (matmul14_apply (some .fp32) x0 x1 p q)).trans (zero_add _)
  · exact broadcastTo_apply x2 broadcasts_S1x512_S128x512 (ix2 p q) (ix2 (0 : Fin 1) q) (fun a => by
      match a with
      | ⟨0, _⟩ => rfl
      | ⟨1, _⟩ =>
        by_cases h : (512 : ℕ) = 1
        · refine Eq.trans ?_ (if_pos h).symm
          have hq : q.val < 512 := q.isLt
          show q.val = 0
          omega
        · exact (if_neg h).symm)

/-! ## From the block to the array -/

variable (V : (c : Dev nD) → (b : Ref sig .tc) → Buf (Elt Ideal) ((c : Thread nD τ).loc b))

/-- The region's result as ONE function of the three operand arrays. -/
def G14 (x : Vec Ideal S128x512 .f32) (w : Vec Ideal S512x512 .f32) (b : Vec Ideal S1x512 .f32) : Vec Ideal S128x512 .f32 :=
  fun j => (∑ k : Fin 512, x (ix2 (j 0 : Fin 128) k) * w (ix2 k (j 1 : Fin 512))) + b (ix2 (0 : Fin 1) (j 1 : Fin 512))

/-- It at an index whose coordinates are named. -/
theorem G14_apply (x : Vec Ideal S128x512 .f32) (w : Vec Ideal S512x512 .f32) (b : Vec Ideal S1x512 .f32)
    (j : S128x512.Idx) (i : Fin 128) (n : Fin 512) (h0 : (j 0).val = i.val) (h1 : (j 1).val = n.val) :
    G14 x w b j = (∑ k : Fin 512, x (ix2 i k) * w (ix2 k n)) + b (ix2 (0 : Fin 1) n) := by
  obtain rfl : (j 0 : Fin 128) = i := Fin.ext h0
  obtain rfl : (j 1 : Fin 512) = n := Fin.ext h1
  rfl

/-- The three operand arrays as the region finds them, at their literal types. -/
abbrev xarr14 (c : Dev nD) : Vec Ideal S128x512 .f32 := V c (Pipeline.arrRef spec14 0)
abbrev warr14 (c : Dev nD) : Vec Ideal S512x512 .f32 := V c (Pipeline.arrRef spec14 1)
abbrev barr14 (c : Dev nD) : Vec Ideal S1x512 .f32 := V c (Pipeline.arrRef spec14 2)

/-- The windows' index maps, decided over the grid: every block index is zero. -/
theorem idx_facts14 : ∀ t : Fin cfg14.N,
    win14_0.index t (0 : Fin 2) = 0 ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0 :=
  (by decide +kernel : ∀ t : Fin grid14.N, _)

/-- The left factor's block is the whole array. -/
theorem iblk14_0_apply (c : Dev nD) (t : Fin cfg14.N) (p : Fin 128) (k : Fin 512) :
    (iblk14 V c 0 t : Vec Ideal S128x512 .f32) (ix2 p k) = xarr14 V c (ix2 p k) := by
  obtain ⟨e00, e01, -⟩ := idx_facts14 t
  unfold iblk14
  rw [View.read_apply]
  refine congrArg (V c (Pipeline.arrRef spec14 0)) (funext fun a => Fin.ext ?_)
  match a with
  | ⟨0, _⟩ => show win14_0.index t (0 : Fin 2) * 128 + 1 * p.val = p.val; rw [e00]; omega
  | ⟨1, _⟩ => show win14_0.index t (1 : Fin 2) * 512 + 1 * k.val = k.val; rw [e01]; omega

/-- So is the right factor's. -/
theorem iblk14_1_apply (c : Dev nD) (t : Fin cfg14.N) (k : Fin 512) (q : Fin 512) :
    (iblk14 V c 1 t : Vec Ideal S512x512 .f32) (ix2 k q) = warr14 V c (ix2 k q) := by
  obtain ⟨-, -, e10, e11, -⟩ := idx_facts14 t
  unfold iblk14
  rw [View.read_apply]
  refine congrArg (V c (Pipeline.arrRef spec14 1)) (funext fun a => Fin.ext ?_)
  match a with
  | ⟨0, _⟩ => show win14_1.index t (0 : Fin 2) * 512 + 1 * k.val = k.val; rw [e10]; omega
  | ⟨1, _⟩ => show win14_1.index t (1 : Fin 2) * 512 + 1 * q.val = q.val; rw [e11]; omega

/-- So is the bias row's. -/
theorem iblk14_2_apply (c : Dev nD) (t : Fin cfg14.N) (q : Fin 512) :
    (iblk14 V c 2 t : Vec Ideal S1x512 .f32) (ix2 (0 : Fin 1) q) = barr14 V c (ix2 (0 : Fin 1) q) := by
  obtain ⟨-, -, -, -, e20, e21, -⟩ := idx_facts14 t
  unfold iblk14
  rw [View.read_apply]
  refine congrArg (V c (Pipeline.arrRef spec14 2)) (funext fun a => Fin.ext ?_)
  match a with
  | ⟨0, _⟩ => show win14_2.index t (0 : Fin 2) * 1 + 1 * 0 = 0; rw [e20]
  | ⟨1, _⟩ => show win14_2.index t (1 : Fin 2) * 512 + 1 * q.val = q.val; rw [e21]; omega

/-- WHAT THE POINT WRITES BACK is the result function of the operand arrays, read through the block. -/
theorem flushed14_3_eq (c : Dev nD) (t : Fin cfg14.N) :
    (dat14 V c).flushed 3 t = ((cfg14.win 3).blk t).view.read (Elt Ideal) (G14 (xarr14 V c) (warr14 V c) (barr14 V c)) := by
  show (cfg14.win 3).cut (grid14.coords t) ((dat14 V c).after 3 t) = _
  rw [after14_3, out14_3_eq]
  obtain ⟨-, -, -, -, -, -, e30, e31⟩ := idx_facts14 t
  funext j
  obtain ⟨p, q, rfl⟩ : ∃ (p : Fin 128) (q : Fin 512), j = ix2 p q := ⟨j 0, j 1, eq_ix2 j⟩
  refine (pay14_apply (iblk14 V c 0 t) (iblk14 V c 1 t) (iblk14 V c 2 t) p q).trans ?_
  rw [View.read_apply]
  rw [G14_apply (xarr14 V c) (warr14 V c) (barr14 V c) _ p q
    (by show win14_3.index t (0 : Fin 2) * 128 + 1 * p.val = p.val; rw [e30]; omega)
    (by show win14_3.index t (1 : Fin 2) * 512 + 1 * q.val = q.val; rw [e31]; omega)]
  refine congrArg₂ (· + ·) (Finset.sum_congr rfl fun k _ => congrArg₂ (· * ·) ?_ ?_) ?_
  · exact iblk14_0_apply V c t p k
  · exact iblk14_1_apply V c t k q
  · exact iblk14_2_apply V c t q

/-- An index of the array is in the point's block iff each coordinate is in the block's range on its axis. -/
theorem mem_blk14_3 (t : Fin cfg14.N) (i : S128x512.Idx) :
    i ∈ ((cfg14.win 3).blk t).view.set ↔ ∀ a : Fin 2, win14_3.index t a * S128x512.size a ≤ (i a).val ∧ (i a).val < win14_3.index t a * S128x512.size a + S128x512.size a := by
  show i ∈ ((View.whole main_v200).slice (win14_3.rect t)).set ↔ _
  rw [View.set_slice_whole, Rect.mem_set_unit]
  exact Iff.rfl

/-- Every index is in the one point's block. -/
theorem covered14_3 (i : S128x512.Idx) : ∃ t : Fin cfg14.N, (cfg14.win 3).flush t = true ∧ i ∈ ((cfg14.win 3).blk t).view.set := by
  have hi0 : (i 0).val < 128 := (i 0).isLt
  have hi1 : (i 1).val < 512 := (i 1).isLt
  have hN : cfg14.N = 1 := N_14
  have ht : 0 < cfg14.N := by omega
  obtain ⟨-, -, -, -, -, -, e30, e31⟩ := idx_facts14 ⟨0, ht⟩
  refine ⟨⟨0, ht⟩, flush14_3 _, ?_⟩
  rw [mem_blk14_3]
  intro a
  match a with
  | ⟨0, _⟩ =>
    show win14_3.index ⟨0, ht⟩ (0 : Fin 2) * 128 ≤ (i 0).val ∧ (i 0).val < win14_3.index ⟨0, ht⟩ (0 : Fin 2) * 128 + 128
    rw [e30]; omega
  | ⟨1, _⟩ =>
    show win14_3.index ⟨0, ht⟩ (1 : Fin 2) * 512 ≤ (i 1).val ∧ (i 1).val < win14_3.index ⟨0, ht⟩ (1 : Fin 2) * 512 + 512
    rw [e31]; omega

/-- THE ARRAY after the region: the result function of the three operand arrays as the region finds them. -/
theorem arrAt14_3 (c : Dev nD) :
    (dat14 (F := Ideal) V c).arrAt 3 cfg14.N = G14 (V c (Pipeline.arrRef spec14 0)) (V c (Pipeline.arrRef spec14 1)) (V c (Pipeline.arrRef spec14 2)) :=
  (dat14 V c).arrAt_eq_of_cover 3 (G14 (xarr14 V c) (warr14 V c) (barr14 V c)) (fun t _ => flushed14_3_eq V c t) (covered14_3)

end Cert.KernelIdeal.HandVal

end
-- ==== Proof.KI.R15Val.lean ====
import proofs.«405323_j90718299226206_3_alg».proof.Proof.KI.R15
import proofs.«405323_j90718299226206_3_alg».proof.Proof.KI.R0Val
import Idealize.ShloMosaic.Lib.Pipeline.Value
import Idealize.ShloMosaic.Lib.ValueIdx
import Idealize.ShloMosaic.PureOps.Ideal.Laws
import Idealize.ShloMosaic.Lib.Tactic

/-! # Region 15 of @main at the ideal values: what its output array holds after the region

Entry (i, n) of the result is the sum over k of x(i, k) · w(k, n) plus b(0, n), clamped below at zero.
The region has one grid point, whose blocks are the whole arrays; the zero block the accumulator starts from
adds nothing. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## What the body leaves, as payloads of the input blocks -/

section Piece
variable {F : FTy → Type} [FloatOps F]

/-- The one store into the output buffer writes the last payload of what the accumulator then holds — the
    second payload of the two factor blocks over the zero block — and of the bias row. -/
theorem out15_3_eq (c : Dev nD) (i : grid15.Coords)
    (a2 : Memref sig .tc .vmem S128x128 .f32) (h2 : a2.IsWhole) (a3 : Memref sig .tc .vmem S128x512 .f32) (h3 : a3.IsWhole)
    (a4 : Memref sig .tc .vmem S1x512 .f32) (h4 : a4.IsWhole) (a5 : Memref sig .tc .vmem S128x512 .f32) (h5 : a5.IsWhole)
    (a6 : Memref sig .tc .vmem S128x512 .f32) (h6 : a6.IsWhole) (hc0 : cond15_0 i) (hc1 : cond15_1 i)
    (x0 : Vec F S128x128 .f32) (x1 : Vec F S128x512 .f32) (x2 : Vec F S1x512 .f32) :
    out15_3 c i a2 h2 a3 h3 a4 h4 a5 h5 a6 h6 hc0 hc1 x0 x1 x2 = k15_pay3 (k15_pay2 x0 x1 (k15_pay1 (F := F))) x2 := by
  unfold out15_3
  rw [View.read_writes_eq_canon _ _ _ (cover15_3 c i a2 h2 a3 h3 a4 h4 a5 h5 a6 h6 hc0 hc1 x0 x1 x2)]
  unfold kernelRun15
  dsimp only
  sl_unfold_words
  rw [View.canon_unit_zero hz0]
  simp only [View.readAt_eq_ld, h2.read_unread, h3.read_unread, h4.read_unread,
    View.ld_unit_zero (S := S128x128) hz0, View.ld_unit_zero (S := S128x512) hz0, View.ld_unit_zero (S := S1x512) hz0, View.ld_unit_zero (S := S128x512) hz0,
    View.readCov_unit_zero (S := S128x512) _ hz0, readCov_cons_unit_zero (S := S128x512) _ hz0]

end Piece

/-! ## The payloads at an entry, at the ideal values -/

/-- The block product into the zero block, read at an entry: the sum over the contracted coordinate. -/
theorem matmul15_apply {φ₁ φ₂ : FTy} (prec : Option ContractPrecision) (A : FVec Ideal S128x128 φ₁) (B : FVec Ideal S128x512 φ₂)
    (p : Fin 128) (q : Fin 512) :
    matmul dot_S128x128_S128x512_S128x512_1_0_0_1_n_n prec A B (constant (F := Ideal) S128x512 .f32 0x00000000#32) (ix2 p q)
      = ∑ k : Fin 128, A (ix2 p k) * B (ix2 k q) := by
  show FloatOps.matmul dot_S128x128_S128x512_S128x512_1_0_0_1_n_n prec A B (constant (F := Ideal) S128x512 .f32 0x00000000#32) (ix2 p q) = _
  rw [Ideal.matmul_constant_zero_apply, ← Equiv.sum_comp (contrEquiv1 dot_S128x128_S128x512_S128x512_1_0_0_1_n_n 128 rfl rfl).symm]
  refine Finset.sum_congr rfl fun k _ => ?_
  have c2 := contrEquiv1_symm_val dot_S128x128_S128x512_S128x512_1_0_0_1_n_n 128 rfl rfl k
  have l2 : (dot_S128x128_S128x512_S128x512_1_0_0_1_n_n).lhsIdx (ix2 p q) ((contrEquiv1 _ 128 rfl rfl).symm k) = ix2 p k := by
    funext ax; apply Fin.ext
    match ax with
    | ⟨0, _⟩ => simp [DotDims.lhsIdx, dot_S128x128_S128x512_S128x512_1_0_0_1_n_n] <;> rfl
    | ⟨1, _⟩ => simp [DotDims.lhsIdx, dot_S128x128_S128x512_S128x512_1_0_0_1_n_n] <;> exact c2
  have r2 : (dot_S128x128_S128x512_S128x512_1_0_0_1_n_n).rhsIdx (ix2 p q) ((contrEquiv1 _ 128 rfl rfl).symm k) = ix2 k q := by
    funext ax; apply Fin.ext
    match ax with
    | ⟨0, _⟩ => simp [DotDims.rhsIdx, dot_S128x128_S128x512_S128x512_1_0_0_1_n_n] <;> exact c2
    | ⟨1, _⟩ => simp [DotDims.rhsIdx, dot_S128x128_S128x512_S128x512_1_0_0_1_n_n] <;> rfl
  rw [l2, r2]

/-- The body's three payloads composed, read at entry (p, q): the zero block adds nothing, the bias row is read
    at column q, and the sum is clamped below at zero. -/
theorem pay15_apply (x0 : Vec Ideal S128x128 .f32) (x1 : Vec Ideal S128x512 .f32) (x2 : Vec Ideal S1x512 .f32)
    (p : Fin 128) (q : Fin 512) :
    k15_pay3 (k15_pay2 x0 x1 (k15_pay1 (F := Ideal))) x2 (ix2 p q)
      = max ((∑ k : Fin 128, x0 (ix2 p k) * x1 (ix2 k q)) + x2 (ix2 (0 : Fin 1) q)) 0 := by
  unfold k15_pay3 k15_pay2 k15_pay1
  simp only [shapeCast_self]
  refine (maximumf_apply _ _ _).trans (congrArg₂ max ?_ Ideal.ofBits_zero_f32)
  refine (addf_apply _ _ _).trans (congrArg₂ (· + ·) ?_ ?_)
  · refine (addf_apply _ _ _).trans ?_
    exact (congrArg₂ (· + ·) Ideal.ofBits_zero_f32 (matmul15_apply (some .fp32) x0 x1 p q)).trans (zero_add _)
  · exact broadcastTo_apply x2 broadcasts_S1x512_S128x512 (ix2 p q) (ix2 (0 : Fin 1) q) (fun a => by
      match a with
      | ⟨0, _⟩ => rfl
      | ⟨1, _⟩ =>
        by_cases h : (512 : ℕ) = 1
        · refine Eq.trans ?_ (if_pos h).symm
          have hq : q.val < 512 := q.isLt
          show q.val = 0
          omega
        · exact (if_neg h).symm)

/-! ## From the block to the array -/

variable (V : (c : Dev nD) → (b : Ref sig .tc) → Buf (Elt Ideal) ((c : Thread nD τ).loc b))

/-- The region's result as ONE function of the three operand arrays. -/
def G15 (x : Vec Ideal S128x128 .f32) (w : Vec Ideal S128x512 .f32) (b : Vec Ideal S1x512 .f32) : Vec Ideal S128x512 .f32 :=
  fun j => max ((∑ k : Fin 128, x (ix2 (j 0 : Fin 128) k) * w (ix2 k (j 1 : Fin 512))) + b (ix2 (0 : Fin 1) (j 1 : Fin 512))) 0

/-- It at an index whose coordinates are named. -/
theorem G15_apply (x : Vec Ideal S128x128 .f32) (w : Vec Ideal S128x512 .f32) (b : Vec Ideal S1x512 .f32)
    (j : S128x512.Idx) (i : Fin 128) (n : Fin 512) (h0 : (j 0).val = i.val) (h1 : (j 1).val = n.val) :
    G15 x w b j = max ((∑ k : Fin 128, x (ix2 i k) * w (ix2 k n)) + b (ix2 (0 : Fin 1) n)) 0 := by
  obtain rfl : (j 0 : Fin 128) = i := Fin.ext h0
  obtain rfl : (j 1 : Fin 512) = n := Fin.ext h1
  rfl

/-- The three operand arrays as the region finds them, at their literal types. -/
abbrev xarr15 (c : Dev nD) : Vec Ideal S128x128 .f32 := V c (Pipeline.arrRef spec15 0)
abbrev warr15 (c : Dev nD) : Vec Ideal S128x512 .f32 := V c (Pipeline.arrRef spec15 1)
abbrev barr15 (c : Dev nD) : Vec Ideal S1x512 .f32 := V c (Pipeline.arrRef spec15 2)

/-- The windows' index maps, decided over the grid: every block index is zero. -/
theorem idx_facts15 : ∀ t : Fin cfg15.N,
    win15_0.index t (0 : Fin 2) = 0 ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0 :=
  (by decide +kernel : ∀ t : Fin grid15.N, _)

/-- The left factor's block is the whole array. -/
theorem iblk15_0_apply (c : Dev nD) (t : Fin cfg15.N) (p : Fin 128) (k : Fin 128) :
    (iblk15 V c 0 t : Vec Ideal S128x128 .f32) (ix2 p k) = xarr15 V c (ix2 p k) := by
  obtain ⟨e00, e01, -⟩ := idx_facts15 t
  unfold iblk15
  rw [View.read_apply]
  refine congrArg (V c (Pipeline.arrRef spec15 0)) (funext fun a => Fin.ext ?_)
  match a with
  | ⟨0, _⟩ => show win15_0.index t (0 : Fin 2) * 128 + 1 * p.val = p.val; rw [e00]; omega
  | ⟨1, _⟩ => show win15_0.index t (1 : Fin 2) * 128 + 1 * k.val = k.val; rw [e01]; omega

/-- So is the right factor's. -/
theorem iblk15_1_apply (c : Dev nD) (t : Fin cfg15.N) (k : Fin 128) (q : Fin 512) :
    (iblk15 V c 1 t : Vec Ideal S128x512 .f32) (ix2 k q) = warr15 V c (ix2 k q) := by
  obtain ⟨-, -, e10, e11, -⟩ := idx_facts15 t
  unfold iblk15
  rw [View.read_apply]
  refine congrArg (V c (Pipeline.arrRef spec15 1)) (funext fun a => Fin.ext ?_)
  match a with
  | ⟨0, _⟩ => show win15_1.index t (0 : Fin 2) * 128 + 1 * k.val = k.val; rw [e10]; omega
  | ⟨1, _⟩ => show win15_1.index t (1 : Fin 2) * 512 + 1 * q.val = q.val; rw [e11]; omega

/-- So is the bias row's. -/
theorem iblk15_2_apply (c : Dev nD) (t : Fin cfg15.N) (q : Fin 512) :
    (iblk15 V c 2 t : Vec Ideal S1x512 .f32) (ix2 (0 : Fin 1) q) = barr15 V c (ix2 (0 : Fin 1) q) := by
  obtain ⟨-, -, -, -, e20, e21, -⟩ := idx_facts15 t
  unfold iblk15
  rw [View.read_apply]
  refine congrArg (V c (Pipeline.arrRef spec15 2)) (funext fun a => Fin.ext ?_)
  match a with
  | ⟨0, _⟩ => show win15_2.index t (0 : Fin 2) * 1 + 1 * 0 = 0; rw [e20]
  | ⟨1, _⟩ => show win15_2.index t (1 : Fin 2) * 512 + 1 * q.val = q.val; rw [e21]; omega

/-- WHAT THE POINT WRITES BACK is the result function of the operand arrays, read through the block. -/
theorem flushed15_3_eq (c : Dev nD) (t : Fin cfg15.N) :
    (dat15 V c).flushed 3 t = ((cfg15.win 3).blk t).view.read (Elt Ideal) (G15 (xarr15 V c) (warr15 V c) (barr15 V c)) := by
  show (cfg15.win 3).cut (grid15.coords t) ((dat15 V c).after 3 t) = _
  rw [after15_3, out15_3_eq]
  obtain ⟨-, -, -, -, -, -, e30, e31⟩ := idx_facts15 t
  funext j
  obtain ⟨p, q, rfl⟩ : ∃ (p : Fin 128) (q : Fin 512), j = ix2 p q := ⟨j 0, j 1, eq_ix2 j⟩
  refine (pay15_apply (iblk15 V c 0 t) (iblk15 V c 1 t) (iblk15 V c 2 t) p q).trans ?_
  rw [View.read_apply]
  rw [G15_apply (xarr15 V c) (warr15 V c) (barr15 V c) _ p q
    (by show win15_3.index t (0 : Fin 2) * 128 + 1 * p.val = p.val; rw [e30]; omega)
    (by show win15_3.index t (1 : Fin 2) * 512 + 1 * q.val = q.val; rw [e31]; omega)]
  refine congrArg₂ max (congrArg₂ (· + ·) (Finset.sum_congr rfl fun k _ => congrArg₂ (· * ·) ?_ ?_) ?_) rfl
  · exact iblk15_0_apply V c t p k
  · exact iblk15_1_apply V c t k q
  · exact iblk15_2_apply V c t q

/-- An index of the array is in the point's block iff each coordinate is in the block's range on its axis. -/
theorem mem_blk15_3 (t : Fin cfg15.N) (i : S128x512.Idx) :
    i ∈ ((cfg15.win 3).blk t).view.set ↔ ∀ a : Fin 2, win15_3.index t a * S128x512.size a ≤ (i a).val ∧ (i a).val < win15_3.index t a * S128x512.size a + S128x512.size a := by
  show i ∈ ((View.whole main_v202).slice (win15_3.rect t)).set ↔ _
  rw [View.set_slice_whole, Rect.mem_set_unit]
  exact Iff.rfl

/-- Every index is in the one point's block. -/
theorem covered15_3 (i : S128x512.Idx) : ∃ t : Fin cfg15.N, (cfg15.win 3).flush t = true ∧ i ∈ ((cfg15.win 3).blk t).view.set := by
  have hi0 : (i 0).val < 128 := (i 0).isLt
  have hi1 : (i 1).val < 512 := (i 1).isLt
  have hN : cfg15.N = 1 := N_15
  have ht : 0 < cfg15.N := by omega
  obtain ⟨-, -, -, -, -, -, e30, e31⟩ := idx_facts15 ⟨0, ht⟩
  refine ⟨⟨0, ht⟩, flush15_3 _, ?_⟩
  rw [mem_blk15_3]
  intro a
  match a with
  | ⟨0, _⟩ =>
    show win15_3.index ⟨0, ht⟩ (0 : Fin 2) * 128 ≤ (i 0).val ∧ (i 0).val < win15_3.index ⟨0, ht⟩ (0 : Fin 2) * 128 + 128
    rw [e30]; omega
  | ⟨1, _⟩ =>
    show win15_3.index ⟨0, ht⟩ (1 : Fin 2) * 512 ≤ (i 1).val ∧ (i 1).val < win15_3.index ⟨0, ht⟩ (1 : Fin 2) * 512 + 512
    rw [e31]; omega

/-- THE ARRAY after the region: the result function of the three operand arrays as the region finds them. -/
theorem arrAt15_3 (c : Dev nD) :
    (dat15 (F := Ideal) V c).arrAt 3 cfg15.N = G15 (V c (Pipeline.arrRef spec15 0)) (V c (Pipeline.arrRef spec15 1)) (V c (Pipeline.arrRef spec15 2)) :=
  (dat15 V c).arrAt_eq_of_cover 3 (G15 (xarr15 V c) (warr15 V c) (barr15 V c)) (fun t _ => flushed15_3_eq V c t) (covered15_3)

end Cert.KernelIdeal.HandVal

end
-- ==== Proof.Bridge.CP3a1.lean ====
/-
  PRODUCT REGIONS AGAINST THE REFERENCE. A zero-bias region's output holds Σ_k x(i, k) · w(k, n) plus a row of zeros (the
  constant 0.0 broadcast and recast), the plain product the reference's dot_general holds. A bias-and-relu region's output
  holds max(Σ_k x(i, k) · w(k, n) + v(n), 0), v the bias argument recast as one row; the reference broadcasts v down the
  rows, adds it to its product, and takes the maximum with a broadcast 0.0. In both the two factors hold what the
  reference's factors hold.
-/
import proofs.«405323_j90718299226206_3_alg».proof.Proof.Bridge.B2
import proofs.«405323_j90718299226206_3_alg».proof.Proof.KI.R14Val
import proofs.«405323_j90718299226206_3_alg».proof.Proof.KI.R15Val
import proofs.«405323_j90718299226206_3_alg».proof.Proof.Ref.Dots
import proofs.«405323_j90718299226206_3_alg».proof.Proof.Math.MM

set_option maxRecDepth 16384

noncomputable section

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 14's output (the pooled features times the third layer's weights, plus a row of zeros) is the reference's product. -/
theorem cp_main_v200 (h : Hyp m m' c) : KV m c Cert.KernelIdeal.main_v200 = RV m' c Cert.ReferenceIdeal.main_v241 := by
  show Cert.KernelIdeal.Hand.W63 (F := Ideal) m c (Proc.devRef .tc Cert.KernelIdeal.main_v200) = Cert.ReferenceIdeal.HandRun.RV (F := Ideal) m' c Cert.ReferenceIdeal.main_v241
  -- the two factors, as the region finds them, against the reference's
  have ex : (Cert.KernelIdeal.Hand.W47 (F := Ideal) m c (Proc.devRef .tc Cert.KernelIdeal.main_v135) : Vec Ideal Cert.KernelIdeal.S128x512 .f32)
      = Cert.ReferenceIdeal.HandRun.RV (F := Ideal) m' c Cert.ReferenceIdeal.main_v175 :=
    (Cert.KernelIdeal.Hand.frame47 m c Cert.KernelIdeal.main_v135 (by decide)).symm.trans (cp_main_v135 m m' c h)
  have ew : (Cert.KernelIdeal.Hand.W47 (F := Ideal) m c (Proc.devRef .tc Cert.KernelIdeal.main_arg11) : Vec Ideal Cert.KernelIdeal.S512x512 .f32)
      = Cert.ReferenceIdeal.HandRun.RV (F := Ideal) m' c Cert.ReferenceIdeal.main_arg11 :=
    (Cert.KernelIdeal.Hand.frame47 m c Cert.KernelIdeal.main_arg11 (by decide)).symm.trans (br_main_arg11 m m' c h)
  -- the bias row keeps its contents to the end,
  have eb : (Cert.KernelIdeal.Hand.W47 (F := Ideal) m c (Proc.devRef .tc Cert.KernelIdeal.main_v199) : Vec Ideal Cert.KernelIdeal.S1x512 .f32)
      = Cert.KernelIdeal.Hand.W63 (F := Ideal) m c (Proc.devRef .tc Cert.KernelIdeal.main_v199) :=
    (Cert.KernelIdeal.Hand.frame47 m c Cert.KernelIdeal.main_v199 (by decide)).symm
  -- and is a row of zeros: the constant 0.0, broadcast, recast
  have hz : ∀ q : Fin 512, (Cert.KernelIdeal.Hand.W63 (F := Ideal) m c (Proc.devRef .tc Cert.KernelIdeal.main_v199) : Vec Ideal Cert.KernelIdeal.S1x512 .f32)
      (ix2 (0 : Fin 1) q) = (0 : EReal) := by
    intro q
    rw [Cert.KernelIdeal.Hand.kd_main_v199 m c, Cert.KernelIdeal.Hand.kd_main_v198 m c, Cert.KernelIdeal.Hand.kd_main_cst_37 m c]
    exact Cert.Math.zero_row_apply _ _ _
  -- the region's output is its value function of the three operand arrays
  refine ((((Cert.KernelIdeal.Hand.frame48 m c Cert.KernelIdeal.main_v200 (by decide)).trans (Cert.KernelIdeal.Hand.W48_out3 m c)).trans
    (Cert.KernelIdeal.HandVal.arrAt14_3 (Cert.KernelIdeal.Hand.Vt47 m) c)).trans
    (congr (congr (congrArg Cert.KernelIdeal.HandVal.G14 ex) ew) eb)).trans ?_
  -- a product plus a row of zeros is the product
  exact (Cert.Math.mm_zero_bias_of (M := 128) (K := 512) (N := 512)
      (Cert.ReferenceIdeal.HandRun.RV (F := Ideal) m' c Cert.ReferenceIdeal.main_v175) (Cert.ReferenceIdeal.HandRun.RV (F := Ideal) m' c Cert.ReferenceIdeal.main_arg11)
      (Cert.KernelIdeal.Hand.W63 (F := Ideal) m c (Proc.devRef .tc Cert.KernelIdeal.main_v199)) hz).trans
    (Cert.ReferenceIdeal.HandRun.rd_main_v241 m' c).symm

/-- Region 15's output (normalised adjacency times the projected features, plus the bias, maximum with 0) is the reference's. -/
theorem cp_main_v202 (h : Hyp m m' c) : KV m c Cert.KernelIdeal.main_v202 = RV m' c Cert.ReferenceIdeal.main_v246 := by
  show Cert.KernelIdeal.Hand.W63 (F := Ideal) m c (Proc.devRef .tc Cert.KernelIdeal.main_v202) = Cert.ReferenceIdeal.HandRun.RV (F := Ideal) m' c Cert.ReferenceIdeal.main_v246
  -- the two factors, as the region finds them, against the reference's
  have ex : (Cert.KernelIdeal.Hand.W49 (F := Ideal) m c (Proc.devRef .tc Cert.KernelIdeal.main_v197) : Vec Ideal Cert.KernelIdeal.S128x128 .f32)
      = Cert.ReferenceIdeal.HandRun.RV (F := Ideal) m' c Cert.ReferenceIdeal.main_v240 :=
    (Cert.KernelIdeal.Hand.frame49 m c Cert.KernelIdeal.main_v197 (by decide)).symm.trans (br_main_v197 m m' c h)
  have ew : (Cert.KernelIdeal.Hand.W49 (F := Ideal) m c (Proc.devRef .tc Cert.KernelIdeal.main_v200) : Vec Ideal Cert.KernelIdeal.S128x512 .f32)
      = Cert.ReferenceIdeal.HandRun.RV (F := Ideal) m' c Cert.ReferenceIdeal.main_v241 :=
    (Cert.KernelIdeal.Hand.frame49 m c Cert.KernelIdeal.main_v200 (by decide)).symm.trans (cp_main_v200 m m' c h)
  -- the bias row is the bias argument recast as one row
  have eb : (Cert.KernelIdeal.Hand.W49 (F := Ideal) m c (Proc.devRef .tc Cert.KernelIdeal.main_v201) : Vec Ideal Cert.KernelIdeal.S1x512 .f32)
      = shapeCast Cert.KernelIdeal.S1x512 (Cert.ReferenceIdeal.HandRun.RV (F := Ideal) m' c Cert.ReferenceIdeal.main_arg12) Cert.KernelIdeal.Gen.shapeCasts_S512_S1x512 :=
    (Cert.KernelIdeal.Hand.frame49 m c Cert.KernelIdeal.main_v201 (by decide)).symm.trans
      ((Cert.KernelIdeal.Hand.kd_main_v201 m c).trans
        (congrArg (fun v : Vec Ideal Cert.KernelIdeal.S512 .f32 => (shapeCast Cert.KernelIdeal.S1x512 v _ : Vec Ideal Cert.KernelIdeal.S1x512 .f32))
          (br_main_arg12 m m' c h)))
  -- the reference's side, operation by operation: the product, the bias broadcast down the rows, their sum, the maximum with 0
  have hbias := (Cert.ReferenceIdeal.HandRun.rd_main_v244 m' c).trans (congrArg _ (Cert.ReferenceIdeal.HandRun.rd_main_v243 m' c))
  have hsum := (Cert.ReferenceIdeal.HandRun.rd_main_v245 m' c).trans (congr (congrArg _ (Cert.ReferenceIdeal.HandRun.rd_main_v242 m' c)) hbias)
  have hzero := (Cert.ReferenceIdeal.HandRun.rd_main_call13_v0 m' c).trans (congrArg _ (Cert.ReferenceIdeal.HandRun.rd_main_call13_cst m' c))
  have hR := (Cert.ReferenceIdeal.HandRun.rd_main_v246 m' c).trans (congr (congrArg _ hsum) hzero)
  -- the region's output is its value function of the three operand arrays
  refine ((((Cert.KernelIdeal.Hand.frame50 m c Cert.KernelIdeal.main_v202 (by decide)).trans (Cert.KernelIdeal.Hand.W50_out3 m c)).trans
    (Cert.KernelIdeal.HandVal.arrAt15_3 (Cert.KernelIdeal.Hand.Vt49 m) c)).trans
    (congr (congr (congrArg Cert.KernelIdeal.HandVal.G15 ex) ew) eb)).trans ?_
  -- product, plus the bias row, maximum with 0: the host's broadcast, sum and maximum
  exact (Cert.Math.mm_bias_relu (M := 128) (K := 128) (N := 512)
      (Cert.ReferenceIdeal.HandRun.RV (F := Ideal) m' c Cert.ReferenceIdeal.main_v240) (Cert.ReferenceIdeal.HandRun.RV (F := Ideal) m' c Cert.ReferenceIdeal.main_v241)
      (Cert.ReferenceIdeal.HandRun.RV (F := Ideal) m' c Cert.ReferenceIdeal.main_arg12) _ _ _ _).trans hR.symm

end Cert.Bridge

end
-- ==== Proof.KI.R16Val.lean ====
import proofs.«405323_j90718299226206_3_alg».proof.Proof.KI.R16
import Idealize.ShloMosaic.Lib.Pipeline.Value
import Idealize.ShloMosaic.Lib.ValueIdx
import Idealize.ShloMosaic.PureOps.Ideal.Laws
import Idealize.ShloMosaic.Lib.Tactic

/-! # Region 16, the value: what its two output arrays hold after the region, at the ideal values

The first output is the projection `relu (x W + b)`, the second its row softmax, each as ONE function of the three
input arrays, index by index. The road: the pieces the body's run found are its payloads of the input blocks (any
values); each payload read at an index over the extended reals; a block of the input windows is the array at the
block's rows; the one point writes its block, the whole array, back. -/

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The specification -/

/-- The projection at row `i`, lane `l`: the bias added to the row of `x` times the column of `W`, clamped below at 0. -/
def projAt16 (x : S128x512.Idx → EReal) (W : S512x1.Idx → EReal) (b : S1x1.Idx → EReal) (i : Fin 128) (l : Fin 1) : EReal :=
  max ((∑ k : Fin 512, x (ix2 i k) * W (ix2 k l)) + b (ix2 (0 : Fin 1) l)) 0

/-- The first output: the projection, index by index. -/
def proj16 (x : S128x512.Idx → EReal) (W : S512x1.Idx → EReal) (b : S1x1.Idx → EReal) : S128x1.Idx → EReal :=
  fun j => projAt16 x W b (j 0) (j 1)

/-- A row's maximum, folded from the word of minus infinity. -/
def rowMax16 (s : S128x1.Idx → EReal) (i : Fin 128) : EReal :=
  (Finset.univ : Finset (Fin 1)).fold max (Ideal.ofBits .f32 0xFF800000#32) (fun l => s (ix2 i l))

/-- The second output: each row's softmax — the exponential of the entry less the row's maximum, over the row's sum of those. -/
def softmax16 (s : S128x1.Idx → EReal) : S128x1.Idx → EReal :=
  fun j => Ideal.div (Ideal.exp (s j - rowMax16 s (j 0))) (∑ l : Fin 1, Ideal.exp (s (ix2 (j 0) l) - rowMax16 s (j 0)))

/-! ## The body's arithmetic at an index, at the ideal values -/

theorem hz16 : (![0, 0] : Fin 2 → Nat) = fun _ => 0 := funext fun a => by fin_cases a <;> rfl

/-- The matrix product's dimension numbers: rows of the left operand against columns of the right. -/
abbrev D16 : DotDims S128x512 S512x1 S128x1 := dot_S128x512_S512x1_S128x1_1_0_0_1_n_n

/-- The left operand's index: its row is the output's row, -/
theorem lhs_D16_0 (j : S128x1.Idx) (k : D16.contr.Idx) : (D16.lhsIdx j k 0).val = (j 0).val := by
  unfold DotDims.lhsIdx
  rw [dif_neg (show ¬(0 : Fin S128x512.rank) ∈ D16.lhsBatch by decide), dif_pos (show (0 : Fin S128x512.rank) ∈ D16.lhsNonContracting by decide)]
  rfl
/-- its column the contraction coordinate. -/
theorem lhs_D16_1 (j : S128x1.Idx) (k : D16.contr.Idx) : (D16.lhsIdx j k 1).val = (k ⟨0, by decide⟩).val :=
  D16.lhsIdx_val_of_single rfl j k
/-- The right operand's index: its row is the contraction coordinate, -/
theorem rhs_D16_0 (j : S128x1.Idx) (k : D16.contr.Idx) : (D16.rhsIdx j k 0).val = (k ⟨0, by decide⟩).val :=
  D16.rhsIdx_val_of_single rfl j k
/-- its column the output's column. -/
theorem rhs_D16_1 (j : S128x1.Idx) (k : D16.contr.Idx) : (D16.rhsIdx j k 1).val = (j 1).val := by
  unfold DotDims.rhsIdx
  rw [dif_neg (show ¬(1 : Fin S512x1.rank) ∈ D16.rhsBatch by decide), dif_pos (show (1 : Fin S512x1.rank) ∈ D16.rhsNonContracting by decide)]
  rfl

/-- The matrix product into the zero accumulator, at row `i` and column `l`: the sum over the 512 contracted
    coordinates of the products of the entries. -/
theorem matmul16_apply {φ₁ φ₂ : FTy} (prec : Option ContractPrecision) (A : FVec Ideal S128x512 φ₁) (B : FVec Ideal S512x1 φ₂)
    (i : Fin 128) (l : Fin 1) :
    FloatOps.matmul D16 prec A B (constant S128x1 .f32 0x00000000#32) (ix2 i l) = ∑ k : Fin 512, A (ix2 i k) * B (ix2 k l) := by
  rw [Ideal.matmul_constant_zero_apply, ← Equiv.sum_comp (contrEquiv1 D16 512 rfl rfl).symm]
  refine Finset.sum_congr rfl fun k _ => ?_
  have ck := contrEquiv1_symm_val D16 512 rfl rfl k
  have hl : D16.lhsIdx (ix2 i l) ((contrEquiv1 D16 512 rfl rfl).symm k) = ix2 i k := by
    funext ax; apply Fin.ext
    match ax with
    | ⟨0, _⟩ => exact lhs_D16_0 _ _
    | ⟨1, _⟩ => exact (lhs_D16_1 _ _).trans ck
  have hr : D16.rhsIdx (ix2 i l) ((contrEquiv1 D16 512 rfl rfl).symm k) = ix2 k l := by
    funext ax; apply Fin.ext
    match ax with
    | ⟨0, _⟩ => exact (rhs_D16_0 _ _).trans ck
    | ⟨1, _⟩ => exact rhs_D16_1 _ _
  rw [hl, hr]

/-- The reset's payload is zero everywhere. -/
theorem payA16_apply (j : S128x1.Idx) : k16_pay1 (F := Ideal) j = 0 := by
  unfold k16_pay1
  simp only [shapeCast_self]
  exact Ideal.ofBits_zero_f32

/-- The update's payload: the accumulator plus the product of the two blocks (the operands enter the product as they are: it is this sum on the
    extended reals). -/
theorem payB16_apply (x0 : Vec Ideal S128x512 .f32) (x1 : Vec Ideal S512x1 .f32) (acc : Vec Ideal S128x1 .f32)
    (i : Fin 128) (l : Fin 1) :
    k16_pay2 (F := Ideal) x0 x1 acc (ix2 i l) = acc (ix2 i l) + ∑ k : Fin 512, x0 (ix2 i k) * x1 (ix2 k l) := by
  unfold k16_pay2
  simp only [shapeCast_self]
  refine (addf_apply _ _ _).trans ?_
  refine congrArg (acc (ix2 i l) + ·) ?_
  exact matmul16_apply _ _ _ i l

/-- The bias row broadcast down the block reads the bias at the lane. -/
theorem biasBroadcast16_apply (b : Vec Ideal S1x1 .f32) (i : Fin 128) (l : Fin 1) :
    broadcastTo S128x1 b broadcasts_S1x1_S128x1 (ix2 i l) = b (ix2 (0 : Fin 1) l) :=
  broadcastTo_apply b broadcasts_S1x1_S128x1 (ix2 i l) (ix2 (0 : Fin 1) l) (fun ax => by
    match ax with
    | ⟨0, _⟩ => rfl
    | ⟨1, _⟩ =>
      show l.val = if (1 : ℕ) = 1 then 0 else l.val
      rw [if_pos rfl]; omega)

/-- The read-out's first payload: the accumulator plus the bias, clamped below at zero. -/
theorem payC16_apply (a : Vec Ideal S128x1 .f32) (b : Vec Ideal S1x1 .f32) (i : Fin 128) (l : Fin 1) :
    k16_pay3 (F := Ideal) a b (ix2 i l) = max (a (ix2 i l) + b (ix2 (0 : Fin 1) l)) 0 := by
  unfold k16_pay3
  simp only [shapeCast_self]
  refine (maximumf_apply _ _ _).trans ?_
  refine congrArg₂ max ?_ Ideal.ofBits_zero_f32
  refine (addf_apply _ _ _).trans ?_
  exact congrArg (a (ix2 i l) + ·) (biasBroadcast16_apply b i l)

/-- A vector of per-row values recast as a column (the block has one lane) reads the row's value. -/
theorem colBroadcast16_apply (v : Vec Ideal S128 .f32) (i : Fin 128) (l : Fin 1) :
    shapeCast S128x1 v shapeCasts_S128_S128x1 (ix2 i l) = v (ix1 i) :=
  shapeCast_apply v shapeCasts_S128_S128x1 (ix2 i l) (ix1 i) (by
    rw [Shape.rowMajor_val_one, Shape.rowMajor_val_two]; show i.val = i.val * 1 + l.val; omega)

/-- The source index over row `i` with lane `l` inserted is the pair. -/
theorem lift16 (i : Fin 128) (l : Fin 1) : reduces_S128x1_S128.lift (ix1 i) l = ix2 i l := by
  funext ax; apply Fin.ext
  match ax with
  | ⟨0, _⟩ => rfl
  | ⟨1, _⟩ => rfl

/-- A row's maximum as the lane reduction computes it (whatever proofs the printed term carries). -/
theorem rowMaxRed16_apply (P : FVec Ideal S128x1 .f32) (i : Fin 128) (hφ : FKind.Formats FTy.f32)
    (hm : (0xFF800000#32 : BitVec FTy.f32.bits) = FKind.maximumf.neutral FTy.f32 hφ) :
    multiReduction (F := Ideal) .maximumf [1] S128 P 0xFF800000#32 reduces_S128x1_S128 hφ hm (ix1 i)
      = (Finset.univ : Finset (Fin 1)).fold max (Ideal.ofBits .f32 0xFF800000#32) (fun l => P (ix2 i l)) := by
  refine (Ideal.multiReduction_maximumf_single P 0xFF800000#32 reduces_S128x1_S128 hφ hm (ix1 i)).trans ?_
  rw [Ideal.ofBits_def]
  exact Finset.fold_congr (fun l _ => congrArg P (lift16 i l))

/-- A row's sum as the lane reduction computes it. -/
theorem rowSumRed16_apply (E : FVec Ideal S128x1 .f32) (i : Fin 128) (hφ : FKind.Formats FTy.f32)
    (ha : (0x00000000#32 : BitVec FTy.f32.bits) = FKind.add.neutral FTy.f32 hφ) :
    multiReduction (F := Ideal) .add [1] S128 E 0x00000000#32 reduces_S128x1_S128 hφ ha (ix1 i)
      = ∑ l : Fin 1, E (ix2 i l) :=
  (Ideal.multiReduction_add_single E 0x00000000#32 reduces_S128x1_S128 hφ ha (ix1 i)).trans
    (Finset.sum_congr rfl fun l _ => congrArg E (lift16 i l))

/-- The row softmax of a block `P` as the body computes it: the row maxima `M` recast as a column, the exponentials `E` of
    the differences, the quotient by the row sums recast as a column. -/
theorem softmaxPay16_apply (P : FVec Ideal S128x1 .f32) (hφ : FKind.Formats FTy.f32)
    (hm : (0xFF800000#32 : BitVec FTy.f32.bits) = FKind.maximumf.neutral FTy.f32 hφ)
    (ha : (0x00000000#32 : BitVec FTy.f32.bits) = FKind.add.neutral FTy.f32 hφ) (i : Fin 128) (l : Fin 1)
    (M : FVec Ideal S128x1 .f32)
    (hM : M = shapeCast S128x1 (multiReduction (F := Ideal) .maximumf [1] S128 P 0xFF800000#32 reduces_S128x1_S128 hφ hm) shapeCasts_S128_S128x1)
    (E : FVec Ideal S128x1 .f32) (hE : E = exp (F := Ideal) (subf (F := Ideal) P M)) :
    divf E (shapeCast S128x1 (multiReduction (F := Ideal) .add [1] S128 E 0x00000000#32 reduces_S128x1_S128 hφ ha) shapeCasts_S128_S128x1) (ix2 i l)
      = Ideal.div (Ideal.exp (P (ix2 i l)
            - (Finset.univ : Finset (Fin 1)).fold max (Ideal.ofBits .f32 0xFF800000#32) (fun l' => P (ix2 i l'))))
          (∑ l' : Fin 1, Ideal.exp (P (ix2 i l')
            - (Finset.univ : Finset (Fin 1)).fold max (Ideal.ofBits .f32 0xFF800000#32) (fun l'' => P (ix2 i l'')))) := by
  have hMat : ∀ l' : Fin 1, M (ix2 i l') = (Finset.univ : Finset (Fin 1)).fold max (Ideal.ofBits .f32 0xFF800000#32) (fun l'' => P (ix2 i l'')) := fun l' => by
    rw [hM]
    exact (colBroadcast16_apply _ i l').trans (rowMaxRed16_apply P i hφ hm)
  have hEat : ∀ l' : Fin 1, E (ix2 i l') = Ideal.exp (P (ix2 i l')
      - (Finset.univ : Finset (Fin 1)).fold max (Ideal.ofBits .f32 0xFF800000#32) (fun l'' => P (ix2 i l''))) := fun l' => by
    rw [hE]
    show Ideal.exp (P (ix2 i l') - M (ix2 i l')) = _
    rw [hMat l']
  refine (divf_apply E _ (ix2 i l)).trans ?_
  refine congrArg₂ Ideal.div (hEat l) ?_
  refine (colBroadcast16_apply _ i l).trans ?_
  refine (rowSumRed16_apply E i hφ ha).trans ?_
  exact Finset.sum_congr rfl fun l' _ => hEat l'

/-- The read-out's second payload: the row softmax of the first. -/
theorem payD16_apply (a : Vec Ideal S128x1 .f32) (b : Vec Ideal S1x1 .f32) (i : Fin 128) (l : Fin 1) :
    k16_pay4 (F := Ideal) a b (ix2 i l)
      = Ideal.div (Ideal.exp (k16_pay3 (F := Ideal) a b (ix2 i l)
            - (Finset.univ : Finset (Fin 1)).fold max (Ideal.ofBits .f32 0xFF800000#32) (fun l' => k16_pay3 (F := Ideal) a b (ix2 i l'))))
          (∑ l' : Fin 1, Ideal.exp (k16_pay3 (F := Ideal) a b (ix2 i l')
            - (Finset.univ : Finset (Fin 1)).fold max (Ideal.ofBits .f32 0xFF800000#32) (fun l'' => k16_pay3 (F := Ideal) a b (ix2 i l'')))) := by
  unfold k16_pay4
  skip
  exact softmaxPay16_apply (k16_pay3 (F := Ideal) a b) _ _ _ i l _ rfl _ rfl

/-! ## The pieces the run found are the payloads of the input blocks (any values) -/

section Pieces
variable {F : FTy → Type} [FloatOps F]

/-- What the body leaves in output window 3's buffer: the read-out's first payload of the accumulator — the product
    added to the reset's zero — and the bias block. -/
theorem out16_3_eq (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) :
    out16_3 c i arg2 harg2 arg3 harg3 arg4 harg4 arg5 harg5 arg6 harg6 arg7 harg7 hc0 hc1 x0 x1 x2 = k16_pay3 (k16_pay2 x0 x1 (k16_pay1 (F := F))) x2 := by
  unfold out16_3
  rw [View.read_writes_junk_eq_canon]
  unfold kernelRun16
  dsimp only
  sl_unfold_words
  rw [View.canon_unit_zero (S := S128x1) hz16]
  simp only [View.readCov_cons_toLoadRect, View.readAt_eq_ld, harg2.read_unread, harg3.read_unread, harg4.read_unread,
    View.ld_unit_zero (S := S128x512) hz16, View.ld_unit_zero (S := S512x1) hz16, View.ld_unit_zero (S := S1x1) hz16]

/-- What the body leaves in output window 4's buffer: the read-out's second payload of the same two. -/
theorem out16_4_eq (c : Dev nD) (i : grid16.Coords) (arg2 : Memref sig .tc .vmem S128x512 .f32) (harg2 : arg2.IsWhole) (arg3 : Memref sig .tc .vmem S512x1 .f32) (harg3 : arg3.IsWhole) (arg4 : Memref sig .tc .vmem S1x1 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S128x1 .f32) (harg7 : arg7.IsWhole) (hc0 : cond16_0 i) (hc1 : cond16_1 i)
    (x0 : Vec F S128x512 .f32) (x1 : Vec F S512x1 .f32) (x2 : Vec F S1x1 .f32) :
    out16_4 c i arg2 harg2 arg3 harg3 arg4 harg4 arg5 harg5 arg6 harg6 arg7 harg7 hc0 hc1 x0 x1 x2 = k16_pay4 (k16_pay2 x0 x1 (k16_pay1 (F := F))) x2 := by
  unfold out16_4
  rw [View.read_writes_junk_eq_canon]
  unfold kernelRun16
  dsimp only
  sl_unfold_words
  rw [View.canon_unit_zero (S := S128x1) hz16]
  simp only [View.readCov_cons_toLoadRect, View.readAt_eq_ld, harg2.read_unread, harg3.read_unread, harg4.read_unread,
    View.ld_unit_zero (S := S128x512) hz16, View.ld_unit_zero (S := S512x1) hz16, View.ld_unit_zero (S := S1x1) hz16]

end Pieces

/-! ## One row block of the outputs, from blocks that are rows of the arrays -/

/-- Row block `r`'s entry of the first output: when the three blocks read the arrays at rows `128 r …`, all of `W`
    and all of `b`, the payload at `j` is the projection at row `128 r + j₀`, lane `j₁`. -/
theorem blockOut16_3 (X : S128x512.Idx → EReal) (W : S512x1.Idx → EReal) (B : S1x1.Idx → EReal)
    (x0 : Vec Ideal S128x512 .f32) (x1 : Vec Ideal S512x1 .f32) (x2 : Vec Ideal S1x1 .f32) (r : ℕ) (hr : r < 1)
    (h0 : ∀ (p : Fin 128) (k : Fin 512), x0 (ix2 p k) = X (ix2 (⟨r * 128 + p.val, by omega⟩ : Fin 128) k))
    (h1 : ∀ (k : Fin 512) (q : Fin 1), x1 (ix2 k q) = W (ix2 k q))
    (h2 : ∀ q : Fin 1, x2 (ix2 (0 : Fin 1) q) = B (ix2 (0 : Fin 1) q))
    (p : Fin 128) (q : Fin 1) :
    k16_pay3 (F := Ideal) (k16_pay2 (F := Ideal) x0 x1 (k16_pay1 (F := Ideal))) x2 (ix2 p q)
      = projAt16 X W B (⟨r * 128 + p.val, by omega⟩ : Fin 128) q := by
  refine (payC16_apply _ _ p q).trans ?_
  unfold projAt16
  refine congrArg₂ (fun u v => max (u + v) 0) ?_ (h2 q)
  refine (payB16_apply x0 x1 _ p q).trans ?_
  rw [payA16_apply, zero_add]
  exact Finset.sum_congr rfl fun k _ => by rw [h0 p k, h1 k q]

/-- Row block `r`'s entry of the second output: the row softmax of the projection, at the same row and lane. -/
theorem blockOut16_4 (X : S128x512.Idx → EReal) (W : S512x1.Idx → EReal) (B : S1x1.Idx → EReal)
    (x0 : Vec Ideal S128x512 .f32) (x1 : Vec Ideal S512x1 .f32) (x2 : Vec Ideal S1x1 .f32) (r : ℕ) (hr : r < 1)
    (h0 : ∀ (p : Fin 128) (k : Fin 512), x0 (ix2 p k) = X (ix2 (⟨r * 128 + p.val, by omega⟩ : Fin 128) k))
    (h1 : ∀ (k : Fin 512) (q : Fin 1), x1 (ix2 k q) = W (ix2 k q))
    (h2 : ∀ q : Fin 1, x2 (ix2 (0 : Fin 1) q) = B (ix2 (0 : Fin 1) q))
    (p : Fin 128) (q : Fin 1) :
    k16_pay4 (F := Ideal) (k16_pay2 (F := Ideal) x0 x1 (k16_pay1 (F := Ideal))) x2 (ix2 p q)
      = softmax16 (proj16 X W B) (ix2 (⟨r * 128 + p.val, by omega⟩ : Fin 128) q) := by
  have hP : ∀ l : Fin 1, k16_pay3 (F := Ideal) (k16_pay2 (F := Ideal) x0 x1 (k16_pay1 (F := Ideal))) x2 (ix2 p l)
      = proj16 X W B (ix2 (⟨r * 128 + p.val, by omega⟩ : Fin 128) l) := fun l =>
    blockOut16_3 X W B x0 x1 x2 r hr h0 h1 h2 p l
  refine (payD16_apply _ _ p q).trans ?_
  simp only [hP]
  rfl

/-! ## The input windows' blocks are rows of the arrays -/

variable (V : (c : Dev nD) → (b : Ref sig .tc) → Buf (Elt Ideal) ((c : Thread nD τ).loc b))

/-- The three input arrays as the region finds them, at their literal types. -/
abbrev xArr16 (c : Dev nD) : S128x512.Idx → EReal := V c (Pipeline.arrRef spec16 0)
abbrev wArr16 (c : Dev nD) : S512x1.Idx → EReal := V c (Pipeline.arrRef spec16 1)
abbrev bArr16 (c : Dev nD) : S1x1.Idx → EReal := V c (Pipeline.arrRef spec16 2)

/-- The printed index maps, decided over the grid: windows 0, 3 and 4 move down the rows with the point; windows 1 and 2 stay. -/
theorem idx_facts16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0 :=
  (by decide +kernel : ∀ t : Fin grid16.N, _)

theorem lt_N16 (t : Fin cfg16.N) : t.val < 1 := lt_of_lt_of_eq t.isLt (show cfg16.N = 1 from N_16)

/-- Window 0's block at point `t` is rows `128 t …` of `x`. -/
theorem xblk16_apply (c : Dev nD) (t : Fin cfg16.N) (p : Fin 128) (k : Fin 512) :
    (iblk16 V c 0 t : Vec Ideal S128x512 .f32) (ix2 p k) = xArr16 V c (ix2 (⟨t.val * 128 + p.val, by have := lt_N16 t; omega⟩ : Fin 128) k) := by
  obtain ⟨e00, e01, -⟩ := idx_facts16 t
  unfold iblk16 xArr16
  rw [View.read_apply]
  show V c main_v202 _ = V c main_v202 _
  congr 1
  funext a
  apply Fin.ext
  match a with
  | ⟨0, _⟩ => show win16_0.index t 0 * 128 + 1 * p.val = t.val * 128 + p.val; rw [e00]; omega
  | ⟨1, _⟩ => show win16_0.index t 1 * 512 + 1 * k.val = k.val; rw [e01]; omega

/-- Window 1's block is all of `W`. -/
theorem wblk16_apply (c : Dev nD) (t : Fin cfg16.N) (k : Fin 512) (q : Fin 1) :
    (iblk16 V c 1 t : Vec Ideal S512x1 .f32) (ix2 k q) = wArr16 V c (ix2 k q) := by
  obtain ⟨-, -, e10, e11, -⟩ := idx_facts16 t
  unfold iblk16 wArr16
  rw [View.read_apply]
  show V c main_arg13 _ = V c main_arg13 _
  congr 1
  funext a
  apply Fin.ext
  match a with
  | ⟨0, _⟩ => show win16_1.index t 0 * 512 + 1 * k.val = k.val; rw [e10]; omega
  | ⟨1, _⟩ => show win16_1.index t 1 * 1 + 1 * q.val = q.val; rw [e11]; omega

/-- Window 2's block is all of `b`. -/
theorem bblk16_apply (c : Dev nD) (t : Fin cfg16.N) (q : Fin 1) :
    (iblk16 V c 2 t : Vec Ideal S1x1 .f32) (ix2 (0 : Fin 1) q) = bArr16 V c (ix2 (0 : Fin 1) q) := by
  obtain ⟨-, -, -, -, e20, e21, -⟩ := idx_facts16 t
  unfold iblk16 bArr16
  rw [View.read_apply]
  show V c main_v203 _ = V c main_v203 _
  congr 1
  funext a
  apply Fin.ext
  match a with
  | ⟨0, _⟩ => show win16_2.index t 0 * 1 + 1 * 0 = 0; rw [e20]
  | ⟨1, _⟩ => show win16_2.index t 1 * 1 + 1 * q.val = q.val; rw [e21]; omega

/-! ## What each point writes back, and the arrays after the region -/

/-- What point `t` writes back of window 3 is block `t` of the projection of the arrays. -/
theorem flushed16_3_eq (c : Dev nD) (t : Fin cfg16.N) :
    (dat16 (F := Ideal) V c).flushed 3 t
      = ((cfg16.win 3).blk t).view.read (Elt Ideal) (proj16 (xArr16 V c) (wArr16 V c) (bArr16 V c)) := by
  obtain ⟨-, -, -, -, -, -, e30, e31, -⟩ := idx_facts16 t
  show (cfg16.win 3).cut (grid16.coords t) ((dat16 (F := Ideal) V c).after 3 t) = _
  rw [after16_3, out16_3_eq]
  funext j
  obtain ⟨p, q, rfl⟩ : ∃ (p : Fin 128) (q : Fin 1), j = ix2 p q := ⟨j 0, j 1, eq_ix2 j⟩
  refine (blockOut16_3 (xArr16 V c) (wArr16 V c) (bArr16 V c) (iblk16 V c 0 t) (iblk16 V c 1 t) (iblk16 V c 2 t) t.val (lt_N16 t)
    (fun p k => xblk16_apply V c t p k) (fun k q => wblk16_apply V c t k q) (fun q => bblk16_apply V c t q) p q).trans ?_
  rw [View.read_apply]
  show projAt16 _ _ _ _ _ = proj16 (xArr16 V c) (wArr16 V c) (bArr16 V c) (((cfg16.win 3).blk t).view.emb (ix2 p q))
  unfold proj16
  refine congrArg₂ (projAt16 _ _ _) (Fin.ext ?_) (Fin.ext ?_)
  · show t.val * 128 + p.val = win16_3.index t 0 * 128 + 1 * p.val; rw [e30]; omega
  · show q.val = win16_3.index t 1 * 1 + 1 * q.val; rw [e31]; omega

/-- What point `t` writes back of window 4 is block `t` of the row softmax of that projection. -/
theorem flushed16_4_eq (c : Dev nD) (t : Fin cfg16.N) :
    (dat16 (F := Ideal) V c).flushed 4 t
      = ((cfg16.win 4).blk t).view.read (Elt Ideal) (softmax16 (proj16 (xArr16 V c) (wArr16 V c) (bArr16 V c))) := by
  obtain ⟨-, -, -, -, -, -, -, -, e40, e41⟩ := idx_facts16 t
  show (cfg16.win 4).cut (grid16.coords t) ((dat16 (F := Ideal) V c).after 4 t) = _
  rw [after16_4, out16_4_eq]
  funext j
  obtain ⟨p, q, rfl⟩ : ∃ (p : Fin 128) (q : Fin 1), j = ix2 p q := ⟨j 0, j 1, eq_ix2 j⟩
  refine (blockOut16_4 (xArr16 V c) (wArr16 V c) (bArr16 V c) (iblk16 V c 0 t) (iblk16 V c 1 t) (iblk16 V c 2 t) t.val (lt_N16 t)
    (fun p k => xblk16_apply V c t p k) (fun k q => wblk16_apply V c t k q) (fun q => bblk16_apply V c t q) p q).trans ?_
  rw [View.read_apply]
  show softmax16 _ _ = softmax16 (proj16 (xArr16 V c) (wArr16 V c) (bArr16 V c)) (((cfg16.win 4).blk t).view.emb (ix2 p q))
  refine congrArg (softmax16 _) (funext fun a => Fin.ext ?_)
  match a with
  | ⟨0, _⟩ => show t.val * 128 + p.val = win16_4.index t 0 * 128 + 1 * p.val; rw [e40]; omega
  | ⟨1, _⟩ => show q.val = win16_4.index t 1 * 1 + 1 * q.val; rw [e41]; omega

/-- The point that writes back the block holding row `r`. -/
def pointOf16 (r : ℕ) (h : r < 128) : Fin cfg16.N := ⟨r / 128, by have : cfg16.N = 1 := N_16; omega⟩

/-- Every index of output window 3's array is in the block of the point its row block names. -/
theorem coverOut16_3 (c : Dev nD) (i : ((cfg16.win 3).arr.view.loc (c.tc : Thread nD τ)).2.ty.Idx) :
    ∃ t : Fin cfg16.N, (cfg16.win 3).flush t = true ∧ i ∈ ((cfg16.win 3).blk t).view.set := by
  have hi0 : (i 0 : Nat) < 128 := (i 0).isLt
  have hi1 : (i 1 : Nat) < 1 := (i 1).isLt
  obtain ⟨-, -, -, -, -, -, e0, e1, -⟩ := idx_facts16 (pointOf16 (i 0 : Nat) hi0)
  refine ⟨pointOf16 (i 0 : Nat) hi0, flush16_3 _, ?_⟩
  show i ∈ ((View.whole main_v204_0).slice (win16_3.rect (pointOf16 (i 0 : Nat) hi0))).set
  rw [View.set_slice_whole, Rect.mem_set_unit]
  intro a
  match a with
  | ⟨0, _⟩ =>
    show win16_3.index (pointOf16 (i 0 : Nat) hi0) 0 * 128 ≤ (i 0 : Nat) ∧ (i 0 : Nat) < win16_3.index (pointOf16 (i 0 : Nat) hi0) 0 * 128 + 128
    rw [e0]; show (i 0 : Nat) / 128 * 128 ≤ (i 0 : Nat) ∧ (i 0 : Nat) < (i 0 : Nat) / 128 * 128 + 128; omega
  | ⟨1, _⟩ =>
    show win16_3.index (pointOf16 (i 0 : Nat) hi0) 1 * 1 ≤ (i 1 : Nat) ∧ (i 1 : Nat) < win16_3.index (pointOf16 (i 0 : Nat) hi0) 1 * 1 + 1
    rw [e1]; omega

/-- Every index of output window 4's array is in the block of the point its row block names. -/
theorem coverOut16_4 (c : Dev nD) (i : ((cfg16.win 4).arr.view.loc (c.tc : Thread nD τ)).2.ty.Idx) :
    ∃ t : Fin cfg16.N, (cfg16.win 4).flush t = true ∧ i ∈ ((cfg16.win 4).blk t).view.set := by
  have hi0 : (i 0 : Nat) < 128 := (i 0).isLt
  have hi1 : (i 1 : Nat) < 1 := (i 1).isLt
  obtain ⟨-, -, -, -, -, -, -, -, e0, e1⟩ := idx_facts16 (pointOf16 (i 0 : Nat) hi0)
  refine ⟨pointOf16 (i 0 : Nat) hi0, flush16_4 _, ?_⟩
  show i ∈ ((View.whole main_v204_1).slice (win16_4.rect (pointOf16 (i 0 : Nat) hi0))).set
  rw [View.set_slice_whole, Rect.mem_set_unit]
  intro a
  match a with
  | ⟨0, _⟩ =>
    show win16_4.index (pointOf16 (i 0 : Nat) hi0) 0 * 128 ≤ (i 0 : Nat) ∧ (i 0 : Nat) < win16_4.index (pointOf16 (i 0 : Nat) hi0) 0 * 128 + 128
    rw [e0]; show (i 0 : Nat) / 128 * 128 ≤ (i 0 : Nat) ∧ (i 0 : Nat) < (i 0 : Nat) / 128 * 128 + 128; omega
  | ⟨1, _⟩ =>
    show win16_4.index (pointOf16 (i 0 : Nat) hi0) 1 * 1 ≤ (i 1 : Nat) ∧ (i 1 : Nat) < win16_4.index (pointOf16 (i 0 : Nat) hi0) 1 * 1 + 1
    rw [e1]; omega

/-- Output window 3's array after the region: the projection of the three input arrays as the region finds them. -/
theorem arrAt16_3 (c : Dev nD) :
    (dat16 (F := Ideal) V c).arrAt 3 cfg16.N
      = proj16 (V c (Pipeline.arrRef spec16 0)) (V c (Pipeline.arrRef spec16 1)) (V c (Pipeline.arrRef spec16 2)) :=
  (dat16 (F := Ideal) V c).arrAt_eq_of_cover 3 (proj16 (xArr16 V c) (wArr16 V c) (bArr16 V c))
    (fun t _ => flushed16_3_eq V c t) (coverOut16_3 c)

/-- Output window 4's array after the region: the row softmax of that projection. -/
theorem arrAt16_4 (c : Dev nD) :
    (dat16 (F := Ideal) V c).arrAt 4 cfg16.N
      = softmax16 (proj16 (V c (Pipeline.arrRef spec16 0)) (V c (Pipeline.arrRef spec16 1)) (V c (Pipeline.arrRef spec16 2))) :=
  (dat16 (F := Ideal) V c).arrAt_eq_of_cover 4 (softmax16 (proj16 (xArr16 V c) (wArr16 V c) (bArr16 V c)))
    (fun t _ => flushed16_4_eq V c t) (coverOut16_4 c)

end Cert.KernelIdeal.HandVal

end
-- ==== Proof.Bridge.CP3c.lean ====
/-
  REGION 16 AGAINST THE REFERENCE'S THIRD PROJECTION AND ITS ROW SOFTMAX: the same mathematics at 128 rows and one lane, on
  the third layer's activations, weights and bias (with one lane the row sums are broadcast back by one operation).
-/
import proofs.«405323_j90718299226206_3_alg».proof.Proof.Bridge.CP3a1
import proofs.«405323_j90718299226206_3_alg».proof.Proof.Bridge.CP1c
import proofs.«405323_j90718299226206_3_alg».proof.Proof.KI.R16Val
import proofs.«405323_j90718299226206_3_alg».proof.Proof.Ref.Dots
import proofs.«405323_j90718299226206_3_alg».proof.Proof.Math.MM
import Idealize.ShloMosaic.PureOps.Reduce

set_option maxRecDepth 16384

noncomputable section

open scoped BigOperators

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 16's projection of its three operand arrays, as the region finds them, is the reference's relu'd projection:
    the activations are a buffer both programs hold equal, the weights an argument, and the bias row the bias argument
    recast as one row, which the reference broadcasts down the rows instead. -/
theorem proj_region16 (h : Hyp m m' c) :
    Cert.KernelIdeal.HandVal.proj16 (Cert.KernelIdeal.Hand.Vt51 (F := Ideal) m c (Pipeline.arrRef Cert.KernelIdeal.spec16 0)) (Cert.KernelIdeal.Hand.Vt51 (F := Ideal) m c (Pipeline.arrRef Cert.KernelIdeal.spec16 1))
        (Cert.KernelIdeal.Hand.Vt51 (F := Ideal) m c (Pipeline.arrRef Cert.KernelIdeal.spec16 2))
      = Cert.ReferenceIdeal.HandRun.RV (F := Ideal) m' c Cert.ReferenceIdeal.main_v251 := by
  have ex : (Cert.KernelIdeal.Hand.W51 (F := Ideal) m c (Proc.devRef .tc Cert.KernelIdeal.main_v202) : Vec Ideal Cert.KernelIdeal.S128x512 .f32) = Cert.ReferenceIdeal.HandRun.RV (F := Ideal) m' c Cert.ReferenceIdeal.main_v246 :=
    (Cert.KernelIdeal.Hand.frame51 m c Cert.KernelIdeal.main_v202 (by decide)).symm.trans (cp_main_v202 m m' c h)
  have ew : (Cert.KernelIdeal.Hand.W51 (F := Ideal) m c (Proc.devRef .tc Cert.KernelIdeal.main_arg13) : Vec Ideal Cert.KernelIdeal.S512x1 .f32) = Cert.ReferenceIdeal.HandRun.RV (F := Ideal) m' c Cert.ReferenceIdeal.main_arg13 :=
    (Cert.KernelIdeal.Hand.frame51 m c Cert.KernelIdeal.main_arg13 (by decide)).symm.trans (br_main_arg13 m m' c h)
  have eb : (Cert.KernelIdeal.Hand.W51 (F := Ideal) m c (Proc.devRef .tc Cert.KernelIdeal.main_v203) : Vec Ideal Cert.KernelIdeal.S1x1 .f32)
      = shapeCast Cert.KernelIdeal.S1x1 (Cert.ReferenceIdeal.HandRun.RV (F := Ideal) m' c Cert.ReferenceIdeal.main_arg14) Cert.KernelIdeal.Facts₀.shapeCasts_S1_S1x1 :=
    ((Cert.KernelIdeal.Hand.frame51 m c Cert.KernelIdeal.main_v203 (by decide)).symm.trans (Cert.KernelIdeal.Hand.kd_main_v203 m c)).trans
      (congrArg (fun v => shapeCast Cert.KernelIdeal.S1x1 v Cert.KernelIdeal.Facts₀.shapeCasts_S1_S1x1) (br_main_arg14 m m' c h))
  refine (congr (congr (congrArg Cert.KernelIdeal.HandVal.proj16 ex) ew) eb).trans ?_
  rw [Cert.ReferenceIdeal.HandRun.rd_main_v251 m' c, Cert.ReferenceIdeal.HandRun.rd_main_v250 m' c, Cert.ReferenceIdeal.HandRun.rd_main_v247 m' c, Cert.ReferenceIdeal.HandRun.rd_main_v249 m' c, Cert.ReferenceIdeal.HandRun.rd_main_v248 m' c, Cert.ReferenceIdeal.HandRun.rd_main_call14_v0 m' c, Cert.ReferenceIdeal.HandRun.rd_main_call14_cst m' c]
  unfold Cert.KernelIdeal.HandVal.proj16 Cert.KernelIdeal.HandVal.projAt16
  exact Cert.Math.mm_bias_relu (M := 128) (K := 512) (N := 1) (Cert.ReferenceIdeal.HandRun.RV (F := Ideal) m' c Cert.ReferenceIdeal.main_v246) (Cert.ReferenceIdeal.HandRun.RV (F := Ideal) m' c Cert.ReferenceIdeal.main_arg13) (Cert.ReferenceIdeal.HandRun.RV (F := Ideal) m' c Cert.ReferenceIdeal.main_arg14) _ _ _ _

/-- Region 16's first output is the reference's relu'd projection. -/
theorem cp_main_v204_0 (h : Hyp m m' c) : KV m c Cert.KernelIdeal.main_v204_0 = RV m' c Cert.ReferenceIdeal.main_v251 :=
  (((Cert.KernelIdeal.Hand.frame52 m c Cert.KernelIdeal.main_v204_0 (by decide)).trans (Cert.KernelIdeal.Hand.W52_out3 m c)).trans
    (Cert.KernelIdeal.HandVal.arrAt16_3 (Cert.KernelIdeal.Hand.Vt51 (F := Ideal) m) c)).trans (proj_region16 m m' c h)

/-- The lanes of a 128×1 block reduce to its 128 rows. -/
theorem reduces_rows_128x1 : (⟨2, ![128, 1]⟩ : Shape).Reduces [1] ⟨1, ![128]⟩ := by decide

/-- Region 16's second output is the reference's row softmax of that projection: a max-reduce from minus infinity (and a
    maximum with a broadcast minus infinity), the maxima broadcast back, subtract, exponential, a sum-reduce from zero, the
    sums broadcast back, divide. -/
theorem soft_region16 (h : Hyp m m' c) :
    (Cert.KernelIdeal.Hand.W63 (F := Ideal) m c (Proc.devRef .tc Cert.KernelIdeal.main_v204_1) : Cert.KernelIdeal.S128x1.Idx → EReal) = Cert.ReferenceIdeal.HandRun.RV (F := Ideal) m' c Cert.ReferenceIdeal.main_v260 := by
  refine (((Cert.KernelIdeal.Hand.frame52 m c Cert.KernelIdeal.main_v204_1 (by decide)).trans (Cert.KernelIdeal.Hand.W52_out4 m c)).trans
    (Cert.KernelIdeal.HandVal.arrAt16_4 (Cert.KernelIdeal.Hand.Vt51 (F := Ideal) m) c)).trans ?_
  refine (congrArg Cert.KernelIdeal.HandVal.softmax16 (proj_region16 m m' c h)).trans ?_
  rw [Cert.ReferenceIdeal.HandRun.rd_main_v260 m' c, Cert.ReferenceIdeal.HandRun.rd_main_v259 m' c, Cert.ReferenceIdeal.HandRun.rd_main_v258 m' c, Cert.ReferenceIdeal.HandRun.rd_main_v257 m' c, Cert.ReferenceIdeal.HandRun.rd_main_v256 m' c, Cert.ReferenceIdeal.HandRun.rd_main_v255 m' c, Cert.ReferenceIdeal.HandRun.rd_main_v254 m' c, Cert.ReferenceIdeal.HandRun.rd_main_v253 m' c, Cert.ReferenceIdeal.HandRun.rd_main_v252 m' c, Cert.ReferenceIdeal.HandRun.rd_main_cst_44 m' c, Cert.ReferenceIdeal.HandRun.rd_main_cst_45 m' c, Cert.ReferenceIdeal.HandRun.rd_main_cst_46 m' c]
  refine (rfl : Cert.KernelIdeal.HandVal.softmax16 (Cert.ReferenceIdeal.HandRun.RV (F := Ideal) m' c Cert.ReferenceIdeal.main_v251) = softmax (M := 128) (N := 1) (Cert.ReferenceIdeal.HandRun.RV (F := Ideal) m' c Cert.ReferenceIdeal.main_v251)).trans ?_
  have key := host_softmax_term (M := 128) (N := 1) (Cert.ReferenceIdeal.HandRun.RV (F := Ideal) m' c Cert.ReferenceIdeal.main_v251) Cert.ReferenceIdeal.Facts₀.reducesTo_S128x1_S128_d1 reduces_rows_128x1
    Cert.ReferenceIdeal.Facts₀.h_S_ Cert.ReferenceIdeal.Facts₀.bcast_S_S128
    (fun v => broadcastInDim Cert.ReferenceIdeal.S128x1 ![0] Cert.ReferenceIdeal.Facts₀.bcast_S128_S128x1_0 v) (fun v i l => col_bcast1_apply v Cert.ReferenceIdeal.Facts₀.bcast_S128_S128x1_0 i l)
  exact key

/-- Region 16's second output is the reference's row softmax of its projection. -/
theorem cp_main_v204_1 (h : Hyp m m' c) : KV m c Cert.KernelIdeal.main_v204_1 = RV m' c Cert.ReferenceIdeal.main_v260 :=
  soft_region16 m m' c h

end Cert.Bridge

end
-- ==== Proof.KI.R17Val.lean ====
import proofs.«405323_j90718299226206_3_alg».proof.Proof.KI.R17
import proofs.«405323_j90718299226206_3_alg».proof.Proof.KI.R0Val
import Idealize.ShloMosaic.Lib.Pipeline.Value
import Idealize.ShloMosaic.Lib.ValueIdx
import Idealize.ShloMosaic.PureOps.Ideal.Laws
import Idealize.ShloMosaic.Lib.Tactic

/-! # Region 17 of @main at the ideal values: what its output array holds after the region

Entry (i, n) of the result is the sum over k of x(i, k) · w(k, n), plus b(0, n).
The region has one grid point, whose blocks are the whole arrays; the zero block the accumulator starts from
adds nothing. -/

set_option maxRecDepth 16384

noncomputable section

namespace Cert.KernelIdeal.HandVal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

/-! ## What the body leaves, as payloads of the input blocks -/

section Piece
variable {F : FTy → Type} [FloatOps F]

/-- The one store into the output buffer writes the last payload of what the accumulator then holds — the
    second payload of the two factor blocks over the zero block — and of the bias row. -/
theorem out17_3_eq (c : Dev nD) (i : grid17.Coords)
    (a2 : Memref sig .tc .vmem S128x128 .f32) (h2 : a2.IsWhole) (a3 : Memref sig .tc .vmem S128x1 .f32) (h3 : a3.IsWhole)
    (a4 : Memref sig .tc .vmem S1x1 .f32) (h4 : a4.IsWhole) (a5 : Memref sig .tc .vmem S128x1 .f32) (h5 : a5.IsWhole)
    (a6 : Memref sig .tc .vmem S128x1 .f32) (h6 : a6.IsWhole) (hc0 : cond17_0 i) (hc1 : cond17_1 i)
    (x0 : Vec F S128x128 .f32) (x1 : Vec F S128x1 .f32) (x2 : Vec F S1x1 .f32) :
    out17_3 c i a2 h2 a3 h3 a4 h4 a5 h5 a6 h6 hc0 hc1 x0 x1 x2 = k17_pay3 (k17_pay2 x0 x1 (k17_pay1 (F := F))) x2 := by
  unfold out17_3
  rw [View.read_writes_eq_canon _ _ _ (cover17_3 c i a2 h2 a3 h3 a4 h4 a5 h5 a6 h6 hc0 hc1 x0 x1 x2)]
  unfold kernelRun17
  dsimp only
  sl_unfold_words
  rw [View.canon_unit_zero hz0]
  simp only [View.readAt_eq_ld, h2.read_unread, h3.read_unread, h4.read_unread,
    View.ld_unit_zero (S := S128x128) hz0, View.ld_unit_zero (S := S128x1) hz0, View.ld_unit_zero (S := S1x1) hz0, View.ld_unit_zero (S := S128x1) hz0,
    View.readCov_unit_zero (S := S128x1) _ hz0, readCov_cons_unit_zero (S := S128x1) _ hz0]

end Piece

/-! ## The payloads at an entry, at the ideal values -/

/-- The block product into the zero block, read at an entry: the sum over the contracted coordinate. -/
theorem matmul17_apply {φ₁ φ₂ : FTy} (prec : Option ContractPrecision) (A : FVec Ideal S128x128 φ₁) (B : FVec Ideal S128x1 φ₂)
    (p : Fin 128) (q : Fin 1) :
    matmul dot_S128x128_S128x1_S128x1_1_0_0_1_n_n prec A B (constant (F := Ideal) S128x1 .f32 0x00000000#32) (ix2 p q)
      = ∑ k : Fin 128, A (ix2 p k) * B (ix2 k q) := by
  show FloatOps.matmul dot_S128x128_S128x1_S128x1_1_0_0_1_n_n prec A B (constant (F := Ideal) S128x1 .f32 0x00000000#32) (ix2 p q) = _
  rw [Ideal.matmul_constant_zero_apply, ← Equiv.sum_comp (contrEquiv1 dot_S128x128_S128x1_S128x1_1_0_0_1_n_n 128 rfl rfl).symm]
  refine Finset.sum_congr rfl fun k _ => ?_
  have c2 := contrEquiv1_symm_val dot_S128x128_S128x1_S128x1_1_0_0_1_n_n 128 rfl rfl k
  have l2 : (dot_S128x128_S128x1_S128x1_1_0_0_1_n_n).lhsIdx (ix2 p q) ((contrEquiv1 _ 128 rfl rfl).symm k) = ix2 p k := by
    funext ax; apply Fin.ext
    match ax with
    | ⟨0, _⟩ => simp [DotDims.lhsIdx, dot_S128x128_S128x1_S128x1_1_0_0_1_n_n] <;> rfl
    | ⟨1, _⟩ => simp [DotDims.lhsIdx, dot_S128x128_S128x1_S128x1_1_0_0_1_n_n] <;> exact c2
  have r2 : (dot_S128x128_S128x1_S128x1_1_0_0_1_n_n).rhsIdx (ix2 p q) ((contrEquiv1 _ 128 rfl rfl).symm k) = ix2 k q := by
    funext ax; apply Fin.ext
    match ax with
    | ⟨0, _⟩ => simp [DotDims.rhsIdx, dot_S128x128_S128x1_S128x1_1_0_0_1_n_n] <;> exact c2
    | ⟨1, _⟩ => simp [DotDims.rhsIdx, dot_S128x128_S128x1_S128x1_1_0_0_1_n_n] <;> rfl
  rw [l2, r2]

/-- The body's three payloads composed, read at entry (p, q): the zero block adds nothing, the bias row is read
    at column q. -/
theorem pay17_apply (x0 : Vec Ideal S128x128 .f32) (x1 : Vec Ideal S128x1 .f32) (x2 : Vec Ideal S1x1 .f32)
    (p : Fin 128) (q : Fin 1) :
    k17_pay3 (k17_pay2 x0 x1 (k17_pay1 (F := Ideal))) x2 (ix2 p q)
      = (∑ k : Fin 128, x0 (ix2 p k) * x1 (ix2 k q)) + x2 (ix2 (0 : Fin 1) q) := by
  unfold k17_pay3 k17_pay2 k17_pay1
  simp only [shapeCast_self]
  refine (addf_apply _ _ _).trans (congrArg₂ (· + ·) ?_ ?_)
  · refine (addf_apply _ _ _).trans ?_
    exact (congrArg₂ (· + ·) Ideal.ofBits_zero_f32 (matmul17_apply (some .fp32) x0 x1 p q)).trans (zero_add _)
  · exact broadcastTo_apply x2 broadcasts_S1x1_S128x1 (ix2 p q) (ix2 (0 : Fin 1) q) (fun a => by
      match a with
      | ⟨0, _⟩ => rfl
      | ⟨1, _⟩ =>
        by_cases h : (1 : ℕ) = 1
        · refine Eq.trans ?_ (if_pos h).symm
          have hq : q.val < 1 := q.isLt
          show q.val = 0
          omega
        · exact (if_neg h).symm)

/-! ## From the block to the array -/

variable (V : (c : Dev nD) → (b : Ref sig .tc) → Buf (Elt Ideal) ((c : Thread nD τ).loc b))

/-- The region's result as ONE function of the three operand arrays. -/
def G17 (x : Vec Ideal S128x128 .f32) (w : Vec Ideal S128x1 .f32) (b : Vec Ideal S1x1 .f32) : Vec Ideal S128x1 .f32 :=
  fun j => (∑ k : Fin 128, x (ix2 (j 0 : Fin 128) k) * w (ix2 k (j 1 : Fin 1))) + b (ix2 (0 : Fin 1) (j 1 : Fin 1))

/-- It at an index whose coordinates are named. -/
theorem G17_apply (x : Vec Ideal S128x128 .f32) (w : Vec Ideal S128x1 .f32) (b : Vec Ideal S1x1 .f32)
    (j : S128x1.Idx) (i : Fin 128) (n : Fin 1) (h0 : (j 0).val = i.val) (h1 : (j 1).val = n.val) :
    G17 x w b j = (∑ k : Fin 128, x (ix2 i k) * w (ix2 k n)) + b (ix2 (0 : Fin 1) n) := by
  obtain rfl : (j 0 : Fin 128) = i := Fin.ext h0
  obtain rfl : (j 1 : Fin 1) = n := Fin.ext h1
  rfl

/-- The three operand arrays as the region finds them, at their literal types. -/
abbrev xarr17 (c : Dev nD) : Vec Ideal S128x128 .f32 := V c (Pipeline.arrRef spec17 0)
abbrev warr17 (c : Dev nD) : Vec Ideal S128x1 .f32 := V c (Pipeline.arrRef spec17 1)
abbrev barr17 (c : Dev nD) : Vec Ideal S1x1 .f32 := V c (Pipeline.arrRef spec17 2)

/-- The windows' index maps, decided over the grid: every block index is zero. -/
theorem idx_facts17 : ∀ t : Fin cfg17.N,
    win17_0.index t (0 : Fin 2) = 0 ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0 :=
  (by decide +kernel : ∀ t : Fin grid17.N, _)

/-- The left factor's block is the whole array. -/
theorem iblk17_0_apply (c : Dev nD) (t : Fin cfg17.N) (p : Fin 128) (k : Fin 128) :
    (iblk17 V c 0 t : Vec Ideal S128x128 .f32) (ix2 p k) = xarr17 V c (ix2 p k) := by
  obtain ⟨e00, e01, -⟩ := idx_facts17 t
  unfold iblk17
  rw [View.read_apply]
  refine congrArg (V c (Pipeline.arrRef spec17 0)) (funext fun a => Fin.ext ?_)
  match a with
  | ⟨0, _⟩ => show win17_0.index t (0 : Fin 2) * 128 + 1 * p.val = p.val; rw [e00]; omega
  | ⟨1, _⟩ => show win17_0.index t (1 : Fin 2) * 128 + 1 * k.val = k.val; rw [e01]; omega

/-- So is the right factor's. -/
theorem iblk17_1_apply (c : Dev nD) (t : Fin cfg17.N) (k : Fin 128) (q : Fin 1) :
    (iblk17 V c 1 t : Vec Ideal S128x1 .f32) (ix2 k q) = warr17 V c (ix2 k q) := by
  obtain ⟨-, -, e10, e11, -⟩ := idx_facts17 t
  unfold iblk17
  rw [View.read_apply]
  refine congrArg (V c (Pipeline.arrRef spec17 1)) (funext fun a => Fin.ext ?_)
  match a with
  | ⟨0, _⟩ => show win17_1.index t (0 : Fin 2) * 128 + 1 * k.val = k.val; rw [e10]; omega
  | ⟨1, _⟩ => show win17_1.index t (1 : Fin 2) * 1 + 1 * q.val = q.val; rw [e11]; omega

/-- So is the bias row's. -/
theorem iblk17_2_apply (c : Dev nD) (t : Fin cfg17.N) (q : Fin 1) :
    (iblk17 V c 2 t : Vec Ideal S1x1 .f32) (ix2 (0 : Fin 1) q) = barr17 V c (ix2 (0 : Fin 1) q) := by
  obtain ⟨-, -, -, -, e20, e21, -⟩ := idx_facts17 t
  unfold iblk17
  rw [View.read_apply]
  refine congrArg (V c (Pipeline.arrRef spec17 2)) (funext fun a => Fin.ext ?_)
  match a with
  | ⟨0, _⟩ => show win17_2.index t (0 : Fin 2) * 1 + 1 * 0 = 0; rw [e20]
  | ⟨1, _⟩ => show win17_2.index t (1 : Fin 2) * 1 + 1 * q.val = q.val; rw [e21]; omega

/-- WHAT THE POINT WRITES BACK is the result function of the operand arrays, read through the block. -/
theorem flushed17_3_eq (c : Dev nD) (t : Fin cfg17.N) :
    (dat17 V c).flushed 3 t = ((cfg17.win 3).blk t).view.read (Elt Ideal) (G17 (xarr17 V c) (warr17 V c) (barr17 V c)) := by
  show (cfg17.win 3).cut (grid17.coords t) ((dat17 V c).after 3 t) = _
  rw [after17_3, out17_3_eq]
  obtain ⟨-, -, -, -, -, -, e30, e31⟩ := idx_facts17 t
  funext j
  obtain ⟨p, q, rfl⟩ : ∃ (p : Fin 128) (q : Fin 1), j = ix2 p q := ⟨j 0, j 1, eq_ix2 j⟩
  refine (pay17_apply (iblk17 V c 0 t) (iblk17 V c 1 t) (iblk17 V c 2 t) p q).trans ?_
  rw [View.read_apply]
  rw [G17_apply (xarr17 V c) (warr17 V c) (barr17 V c) _ p q
    (by show win17_3.index t (0 : Fin 2) * 128 + 1 * p.val = p.val; rw [e30]; omega)
    (by show win17_3.index t (1 : Fin 2) * 1 + 1 * q.val = q.val; rw [e31]; omega)]
  refine congrArg₂ (· + ·) (Finset.sum_congr rfl fun k _ => congrArg₂ (· * ·) ?_ ?_) ?_
  · exact iblk17_0_apply V c t p k
  · exact iblk17_1_apply V c t k q
  · exact iblk17_2_apply V c t q

/-- An index of the array is in the point's block iff each coordinate is in the block's range on its axis. -/
theorem mem_blk17_3 (t : Fin cfg17.N) (i : S128x1.Idx) :
    i ∈ ((cfg17.win 3).blk t).view.set ↔ ∀ a : Fin 2, win17_3.index t a * S128x1.size a ≤ (i a).val ∧ (i a).val < win17_3.index t a * S128x1.size a + S128x1.size a := by
  show i ∈ ((View.whole main_v207).slice (win17_3.rect t)).set ↔ _
  rw [View.set_slice_whole, Rect.mem_set_unit]
  exact Iff.rfl

/-- Every index is in the one point's block. -/
theorem covered17_3 (i : S128x1.Idx) : ∃ t : Fin cfg17.N, (cfg17.win 3).flush t = true ∧ i ∈ ((cfg17.win 3).blk t).view.set := by
  have hi0 : (i 0).val < 128 := (i 0).isLt
  have hi1 : (i 1).val < 1 := (i 1).isLt
  have hN : cfg17.N = 1 := N_17
  have ht : 0 < cfg17.N := by omega
  obtain ⟨-, -, -, -, -, -, e30, e31⟩ := idx_facts17 ⟨0, ht⟩
  refine ⟨⟨0, ht⟩, flush17_3 _, ?_⟩
  rw [mem_blk17_3]
  intro a
  match a with
  | ⟨0, _⟩ =>
    show win17_3.index ⟨0, ht⟩ (0 : Fin 2) * 128 ≤ (i 0).val ∧ (i 0).val < win17_3.index ⟨0, ht⟩ (0 : Fin 2) * 128 + 128
    rw [e30]; omega
  | ⟨1, _⟩ =>
    show win17_3.index ⟨0, ht⟩ (1 : Fin 2) * 1 ≤ (i 1).val ∧ (i 1).val < win17_3.index ⟨0, ht⟩ (1 : Fin 2) * 1 + 1
    rw [e31]; omega

/-- THE ARRAY after the region: the result function of the three operand arrays as the region finds them. -/
theorem arrAt17_3 (c : Dev nD) :
    (dat17 (F := Ideal) V c).arrAt 3 cfg17.N = G17 (V c (Pipeline.arrRef spec17 0)) (V c (Pipeline.arrRef spec17 1)) (V c (Pipeline.arrRef spec17 2)) :=
  (dat17 V c).arrAt_eq_of_cover 3 (G17 (xarr17 V c) (warr17 V c) (barr17 V c)) (fun t _ => flushed17_3_eq V c t) (covered17_3)

end Cert.KernelIdeal.HandVal

end
-- ==== Proof.Bridge.CP3a2.lean ====
/-
  ZERO-BIAS PRODUCT REGIONS AGAINST THE REFERENCE. Each region's output holds Σ_k x(i, k) · w(k, n) plus a bias row that is the
  constant 0.0 broadcast and recast — a row of zeros; its two factors hold what the reference's factors hold. So the
  output is the plain product the reference's dot_general holds.
-/
import proofs.«405323_j90718299226206_3_alg».proof.Proof.Bridge.CP3c
import proofs.«405323_j90718299226206_3_alg».proof.Proof.KI.R17Val
import proofs.«405323_j90718299226206_3_alg».proof.Proof.Ref.Dots
import proofs.«405323_j90718299226206_3_alg».proof.Proof.Math.MM

set_option maxRecDepth 16384

noncomputable section

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 17's output (the pooled adjacency times the assignment column, plus a row of zeros) is the reference's product. -/
theorem cp_main_v207 (h : Hyp m m' c) : KV m c Cert.KernelIdeal.main_v207 = RV m' c Cert.ReferenceIdeal.main_v264 := by
  show Cert.KernelIdeal.Hand.W63 (F := Ideal) m c (Proc.devRef .tc Cert.KernelIdeal.main_v207) = Cert.ReferenceIdeal.HandRun.RV (F := Ideal) m' c Cert.ReferenceIdeal.main_v264
  -- the two factors, as the region finds them, against the reference's
  have ex : (Cert.KernelIdeal.Hand.W53 (F := Ideal) m c (Proc.devRef .tc Cert.KernelIdeal.main_v179) : Vec Ideal Cert.KernelIdeal.S128x128 .f32)
      = Cert.ReferenceIdeal.HandRun.RV (F := Ideal) m' c Cert.ReferenceIdeal.main_v222 :=
    (Cert.KernelIdeal.Hand.frame53 m c Cert.KernelIdeal.main_v179 (by decide)).symm.trans (br_main_v179 m m' c h)
  have ew : (Cert.KernelIdeal.Hand.W53 (F := Ideal) m c (Proc.devRef .tc Cert.KernelIdeal.main_v204_1) : Vec Ideal Cert.KernelIdeal.S128x1 .f32)
      = Cert.ReferenceIdeal.HandRun.RV (F := Ideal) m' c Cert.ReferenceIdeal.main_v260 :=
    (Cert.KernelIdeal.Hand.frame53 m c Cert.KernelIdeal.main_v204_1 (by decide)).symm.trans (cp_main_v204_1 m m' c h)
  -- the bias row keeps its contents to the end,
  have eb : (Cert.KernelIdeal.Hand.W53 (F := Ideal) m c (Proc.devRef .tc Cert.KernelIdeal.main_v206) : Vec Ideal Cert.KernelIdeal.S1x1 .f32)
      = Cert.KernelIdeal.Hand.W63 (F := Ideal) m c (Proc.devRef .tc Cert.KernelIdeal.main_v206) :=
    (Cert.KernelIdeal.Hand.frame53 m c Cert.KernelIdeal.main_v206 (by decide)).symm
  -- and is a row of zeros: the constant 0.0, broadcast, recast
  have hz : ∀ q : Fin 1, (Cert.KernelIdeal.Hand.W63 (F := Ideal) m c (Proc.devRef .tc Cert.KernelIdeal.main_v206) : Vec Ideal Cert.KernelIdeal.S1x1 .f32)
      (ix2 (0 : Fin 1) q) = (0 : EReal) := by
    intro q
    rw [Cert.KernelIdeal.Hand.kd_main_v206 m c, Cert.KernelIdeal.Hand.kd_main_v205 m c, Cert.KernelIdeal.Hand.kd_main_cst_38 m c]
    exact Cert.Math.zero_row_apply _ _ _
  -- the region's output is its value function of the three operand arrays
  refine ((((Cert.KernelIdeal.Hand.frame54 m c Cert.KernelIdeal.main_v207 (by decide)).trans (Cert.KernelIdeal.Hand.W54_out3 m c)).trans
    (Cert.KernelIdeal.HandVal.arrAt17_3 (Cert.KernelIdeal.Hand.Vt53 m) c)).trans
    (congr (congr (congrArg Cert.KernelIdeal.HandVal.G17 ex) ew) eb)).trans ?_
  -- a product plus a row of zeros is the product
  exact (Cert.Math.mm_zero_bias_of (M := 128) (K := 128) (N := 1)
      (Cert.ReferenceIdeal.HandRun.RV (F := Ideal) m' c Cert.ReferenceIdeal.main_v222) (Cert.ReferenceIdeal.HandRun.RV (F := Ideal) m' c Cert.ReferenceIdeal.main_v260)
      (Cert.KernelIdeal.Hand.W63 (F := Ideal) m c (Proc.devRef .tc Cert.KernelIdeal.main_v206)) hz).trans
    (Cert.ReferenceIdeal.HandRun.rd_main_v264 m' c).symm

end Cert.Bridge

end
-- ==== Proof.KI.R18Val.lean ====
import proofs.«405323_j90718299226206_3_alg».proof.Proof.KI.R18
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz18 : (![0, 0] : Fin 2 → Nat) = fun _ => 0 := funext fun a => by fin_cases a <;> rfl

section Pieces
variable {F : FTy → Type} [FloatOps F]

/-- A load through the whole buffer after a LAST store through the whole buffer reads that store's payload,
    whatever the earlier stores were. -/
theorem readCov_last18 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h]

/-! ## What the one case's found pieces are, as values (any float instance) -/

/-- The body leaves in the output's buffer the zero block plus the product block. -/
theorem out18_eq (c : Dev nD) (i : grid18.Coords) (arg3 : Memref sig .tc .vmem S128x1 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S1x256 .f32) (harg6 : arg6.IsWhole) (hc0 : cond18_0 i) (hc1 : cond18_1 i)
    (x0 : Vec F S128x1 .f32) (x1 : Vec F S128x256 .f32) :
    out18_2 c i arg3 harg3 arg4 harg4 arg5 harg5 arg6 harg6 hc0 hc1 x0 x1 = k18_pay2 x0 x1 (k18_pay1 (F := F)) := by
  unfold out18_2
  rw [View.read_writes_eq_canon _ _ _ (cover18_2 c i arg3 harg3 arg4 harg4 arg5 harg5 arg6 harg6 hc0 hc1 x0 x1)]
  unfold kernelRun18
  dsimp only
  sl_unfold_words
  rw [View.canon_unit_zero hz18, readCov_last18 _ hz18, View.readCov_unit_zero (S := S1x256) _ hz18]
  simp only [View.readAt_eq_ld, harg3.read_unread, harg4.read_unread, View.ld_unit_zero (S := S128x1) hz18,
    View.ld_unit_zero (S := S128x256) hz18]

end Pieces

/-! ## The payloads at an index, at the ideal values -/

/-- The region's dimension numbers: axis 0 of both operands contracted. -/
abbrev D18 := dot_S128x1_S128x256_S1x256_0_0_1_1_n_n

theorem lhsD18_0 (j : S1x256.Idx) (k : D18.contr.Idx) : (D18.lhsIdx j k 0 : ℕ) = k ⟨0, by decide⟩ := by
  simp [DotDims.lhsIdx, D18, dot_S128x1_S128x256_S1x256_0_0_1_1_n_n] <;> first | rfl | (have h0 := idx2_lt0 j; have h1 := idx2_lt1 j; omega)
theorem lhsD18_1 (j : S1x256.Idx) (k : D18.contr.Idx) : (D18.lhsIdx j k 1 : ℕ) = j 0 := by
  simp [DotDims.lhsIdx, D18, dot_S128x1_S128x256_S1x256_0_0_1_1_n_n] <;> first | rfl | (have h0 := idx2_lt0 j; have h1 := idx2_lt1 j; omega)
theorem rhsD18_0 (j : S1x256.Idx) (k : D18.contr.Idx) : (D18.rhsIdx j k 0 : ℕ) = k ⟨0, by decide⟩ := by
  simp [DotDims.rhsIdx, D18, dot_S128x1_S128x256_S1x256_0_0_1_1_n_n] <;> first | rfl | (have h0 := idx2_lt0 j; have h1 := idx2_lt1 j; omega)
theorem rhsD18_1 (j : S1x256.Idx) (k : D18.contr.Idx) : (D18.rhsIdx j k 1 : ℕ) = j 1 := by
  simp [DotDims.rhsIdx, D18, dot_S128x1_S128x256_S1x256_0_0_1_1_n_n] <;> first | rfl | (have h0 := idx2_lt0 j; have h1 := idx2_lt1 j; omega)

/-- The zero block the reset stores. -/
theorem pay18_1_apply (y : S1x256.Idx) : k18_pay1 (F := Ideal) y = 0 := by
  unfold k18_pay1
  simp only [shapeCast_self]
  exact Ideal.ofBits_zero_f32

/-- The accumulation step at an index: the accumulator there plus the sum over the contracted rows of the products. -/
theorem pay18_2_apply (x0 : Vec Ideal S128x1 .f32) (x1 : Vec Ideal S128x256 .f32) (acc : Vec Ideal S1x256 .f32) (r : Fin 1) (q : Fin 256) :
    k18_pay2 x0 x1 acc (ix2 r q) = acc (ix2 r q) + ∑ kk : Fin 128, x0 (ix2 kk r) * x1 (ix2 kk q) := by
  unfold k18_pay2
  simp only [shapeCast_self, addf_apply, matmul, Ideal.matmul_constant_zero_apply, truncf_apply]
  rw [← Equiv.sum_comp (contrEquiv1 D18 128 rfl rfl).symm]
  refine congrArg (acc (ix2 r q) + ·) (Finset.sum_congr rfl fun kk _ => ?_)
  show x0 (D18.lhsIdx (ix2 r q) ((contrEquiv1 D18 128 rfl rfl).symm kk)) * x1 (D18.rhsIdx (ix2 r q) ((contrEquiv1 D18 128 rfl rfl).symm kk)) = _
  have e0 : D18.lhsIdx (ix2 r q) ((contrEquiv1 D18 128 rfl rfl).symm kk) = ix2 kk r := by
    funext a; apply Fin.ext
    match a with
    | ⟨0, _⟩ => exact (lhsD18_0 _ _).trans (contrEquiv1_symm_val D18 128 rfl rfl kk)
    | ⟨1, _⟩ => exact lhsD18_1 _ _
  have e1 : D18.rhsIdx (ix2 r q) ((contrEquiv1 D18 128 rfl rfl).symm kk) = ix2 kk q := by
    funext a; apply Fin.ext
    match a with
    | ⟨0, _⟩ => exact (rhsD18_0 _ _).trans (contrEquiv1_symm_val D18 128 rfl rfl kk)
    | ⟨1, _⟩ => exact rhsD18_1 _ _
  rw [e0, e1]

/-! ## Arrays read at natural-number coordinates -/

/-- A matrix read at natural-number coordinates (zero outside its extents). -/
def cAt18 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt18_eq {n0 n1 : ℕ} (X : (⟨2, ![n0, n1]⟩ : Shape).Idx → EReal) (i : Fin n0) (j : Fin n1) :
    cAt18 X i.val j.val = X (ix2 i j) := dif_pos ⟨i.isLt, j.isLt⟩

theorem cAt18_idx {n0 n1 : ℕ} (X : (⟨2, ![n0, n1]⟩ : Shape).Idx → EReal) (e : (⟨2, ![n0, n1]⟩ : Shape).Idx) :
    X e = cAt18 X (e 0).val (e 1).val := by
  have h : (e 0).val < n0 ∧ (e 1).val < n1 := ⟨(e 0).isLt, (e 1).isLt⟩
  unfold cAt18; rw [dif_pos h]; exact congrArg X (eq_ix2 e)

/-! ## The product over the arrays the region finds -/

section Value
variable (V : (c : Dev nD) → (b : Ref sig .tc) → Buf (Elt Ideal) ((c : Thread nD τ).loc b))

/-- The two operand arrays as the region finds them, and the input blocks at a point. -/
abbrev arrA18 (c : Dev nD) : Vec Ideal S128x1 .f32 := V c (Pipeline.arrRef spec18 0)
abbrev arrB18 (c : Dev nD) : Vec Ideal S128x512 .f32 := V c (Pipeline.arrRef spec18 1)
abbrev xblk18 (c : Dev nD) (t : Fin cfg18.N) : Vec Ideal S128x1 .f32 := iblk18 V c 0 t
abbrev yblk18 (c : Dev nD) (t : Fin cfg18.N) : Vec Ideal S128x256 .f32 := iblk18 V c 1 t

/-- The printed index maps in closed form, decided over the grid: the lhs block is always block (0, 0); the rhs and
    the output blocks are block (0, t). -/
theorem idx_facts18 : ∀ t : Fin cfg18.N, win18_0.index t (0 : Fin 2) = 0 ∧ win18_0.index t (1 : Fin 2) = 0
    ∧ win18_1.index t (0 : Fin 2) = 0 ∧ win18_1.index t (1 : Fin 2) = t.val
    ∧ win18_2.index t (0 : Fin 2) = 0 ∧ win18_2.index t (1 : Fin 2) = t.val :=
  (by decide +kernel : ∀ t : Fin grid18.N, _)

/-- Where a block's entry sits in its array: block index × block extent + the coordinate inside the block. -/
theorem embA18_0 (t : Fin cfg18.N) (kk : Fin 128) (r : Fin 1) :
    ((((cfg18.win 0).blk t).view.emb (ix2 kk r)) 0).val = kk.val := by
  obtain ⟨e0, -⟩ := idx_facts18 t
  show win18_0.index t (0 : Fin 2) * 128 + 1 * kk.val = _
  rw [e0]; omega
theorem embA18_1 (t : Fin cfg18.N) (kk : Fin 128) (r : Fin 1) :
    ((((cfg18.win 0).blk t).view.emb (ix2 kk r)) 1).val = r.val := by
  obtain ⟨-, e1, -⟩ := idx_facts18 t
  show win18_0.index t (1 : Fin 2) * 1 + 1 * r.val = _
  rw [e1]; omega
theorem embB18_0 (t : Fin cfg18.N) (kk : Fin 128) (q : Fin 256) :
    ((((cfg18.win 1).blk t).view.emb (ix2 kk q)) 0).val = kk.val := by
  obtain ⟨-, -, e0, -⟩ := idx_facts18 t
  show win18_1.index t (0 : Fin 2) * 128 + 1 * kk.val = _
  rw [e0]; omega
theorem embB18_1 (t : Fin cfg18.N) (kk : Fin 128) (q : Fin 256) :
    ((((cfg18.win 1).blk t).view.emb (ix2 kk q)) 1).val = t.val * 256 + q.val := by
  obtain ⟨-, -, -, e1, -⟩ := idx_facts18 t
  show win18_1.index t (1 : Fin 2) * 256 + 1 * q.val = _
  rw [e1]; omega
theorem embO18_0 (t : Fin cfg18.N) (r : Fin 1) (q : Fin 256) :
    ((((cfg18.win 2).blk t).view.emb (ix2 r q)) 0).val = r.val := by
  obtain ⟨-, -, -, -, e0, -⟩ := idx_facts18 t
  show win18_2.index t (0 : Fin 2) * 1 + 1 * r.val = _
  rw [e0]; omega
theorem embO18_1 (t : Fin cfg18.N) (r : Fin 1) (q : Fin 256) :
    ((((cfg18.win 2).blk t).view.emb (ix2 r q)) 1).val = t.val * 256 + q.val := by
  obtain ⟨-, -, -, -, -, e1⟩ := idx_facts18 t
  show win18_2.index t (1 : Fin 2) * 256 + 1 * q.val = _
  rw [e1]; omega

/-- A block is its array read through the block's embedding. -/
theorem xblk18_read (c : Dev nD) (t : Fin cfg18.N) (y : S128x1.Idx) :
    xblk18 V c t y = arrA18 V c (((cfg18.win 0).blk t).view.emb y) := rfl
theorem yblk18_read (c : Dev nD) (t : Fin cfg18.N) (y : S128x256.Idx) :
    yblk18 V c t y = arrB18 V c (((cfg18.win 1).blk t).view.emb y) := rfl
theorem arrA18_at (c : Dev nD) (e : S128x1.Idx) :
    arrA18 V c e = cAt18 (n0 := 128) (n1 := 1) (arrA18 V c) (e 0).val (e 1).val :=
  cAt18_idx (n0 := 128) (n1 := 1) (arrA18 V c) e
theorem arrB18_at (c : Dev nD) (e : S128x512.Idx) :
    arrB18 V c e = cAt18 (n0 := 128) (n1 := 512) (arrB18 V c) (e 0).val (e 1).val :=
  cAt18_idx (n0 := 128) (n1 := 512) (arrB18 V c) e

/-- The lhs block at a point is the lhs array. -/
theorem xblk18_apply (c : Dev nD) (t : Fin cfg18.N) (kk : Fin 128) (r : Fin 1) :
    xblk18 V c t (ix2 kk r) = cAt18 (n0 := 128) (n1 := 1) (arrA18 V c) kk.val r.val :=
  (xblk18_read V c t (ix2 kk r)).trans ((arrA18_at V c _).trans (by rw [embA18_0, embA18_1]))

/-- The rhs block at a point reads the rhs array at columns t·(block width) …. -/
theorem yblk18_apply (c : Dev nD) (t : Fin cfg18.N) (kk : Fin 128) (q : Fin 256) :
    yblk18 V c t (ix2 kk q) = cAt18 (n0 := 128) (n1 := 512) (arrB18 V c) kk.val (t.val * 256 + q.val) :=
  (yblk18_read V c t (ix2 kk q)).trans ((arrB18_at V c _).trans (by rw [embB18_0, embB18_1]))

/-! ## The output array after the region -/

/-- The transposed-lhs product of the two arrays, index by index: the whole contracted axis 0 of both summed. -/
def G18 (a : Vec Ideal S128x1 .f32) (b : Vec Ideal S128x512 .f32) : Vec Ideal S1x512 .f32 :=
  fun y => ∑ k : Fin 128, a (ix2 k (y 0)) * b (ix2 k (y 1))

theorem G18_apply (a : Vec Ideal S128x1 .f32) (b : Vec Ideal S128x512 .f32) (r : Fin 1) (q : Fin 512) :
    G18 a b (ix2 r q) = ∑ k : Fin 128, a (ix2 k r) * b (ix2 k q) := rfl

/-- What a point writes back is its block of the product. -/
theorem flushed18_2 (c : Dev nD) (t : Fin cfg18.N) (hf : (cfg18.win 2).flush t = true) :
    (dat18 (F := Ideal) V c).flushed 2 t = ((cfg18.win 2).blk t).view.read (Elt Ideal) (G18 (arrA18 V c) (arrB18 V c)) := by
  show (cfg18.win 2).cut (grid18.coords t) ((dat18 V c).after 2 t) = _
  rw [after18_2]
  unfold outAt18
  rw [out18_eq]
  funext j
  obtain ⟨r, q, rfl⟩ : ∃ (r : Fin 1) (q : Fin 256), j = ix2 r q := ⟨j 0, j 1, eq_ix2 j⟩
  show k18_pay2 (xblk18 V c t) (yblk18 V c t) (k18_pay1 (F := Ideal)) (ix2 r q) = G18 (arrA18 V c) (arrB18 V c) (((cfg18.win 2).blk t).view.emb (ix2 r q))
  rw [pay18_2_apply, pay18_1_apply, zero_add]
  unfold G18
  refine Finset.sum_congr rfl fun k _ => ?_
  have e0 := embO18_0 t r q
  have e1 := embO18_1 t r q
  exact congrArg₂ (· * ·)
    ((xblk18_apply V c t k r).trans (by rw [← e0]; exact cAt18_eq (n0 := 128) (n1 := 1) (arrA18 V c) k _))
    ((yblk18_apply V c t k q).trans (by rw [← e1]; exact cAt18_eq (n0 := 128) (n1 := 512) (arrB18 V c) k _))

/-- An index of the output array is in point t's block iff each coordinate is in the block's range on its axis. -/
theorem mem_blk18_2 (t : Fin cfg18.N) (i : S1x512.Idx) :
    i ∈ ((cfg18.win 2).blk t).view.set ↔ ∀ a : Fin 2, win18_2.index t a * S1x256.size a ≤ (i a).val ∧ (i a).val < win18_2.index t a * S1x256.size a + S1x256.size a := by
  show i ∈ ((View.whole main_v208).slice (win18_2.rect t)).set ↔ _
  rw [View.set_slice_whole, Rect.mem_set_unit]
  exact Iff.rfl

/-- THE OUTPUT ARRAY after the region: the product of the two operand arrays as the region finds them (the output
    blocks, one per point, cover the array). -/
theorem arrAt18_2 (c : Dev nD) :
    (dat18 (F := Ideal) V c).arrAt 2 cfg18.N = G18 (V c (Pipeline.arrRef spec18 0)) (V c (Pipeline.arrRef spec18 1)) :=
  (dat18 V c).arrAt_eq_of_cover 2 (G18 (arrA18 V c) (arrB18 V c)) (flushed18_2 V c) fun i => by
    have hi0 : (i 0).val < 1 := (i 0).isLt
    have hi1 : (i 1).val < 512 := (i 1).isLt
    have ht : (i 1).val / 256 < cfg18.N := by rw [show cfg18.N = 2 from N_18]; omega
    obtain ⟨-, -, -, -, e0, e1⟩ := idx_facts18 ⟨_, ht⟩
    refine ⟨⟨_, ht⟩, flush18_2 _, ?_⟩
    rw [mem_blk18_2]
    intro a
    match a with
    | ⟨0, _⟩ =>
      show win18_2.index _ (0 : Fin 2) * 1 ≤ (i 0).val ∧ (i 0).val < win18_2.index _ (0 : Fin 2) * 1 + 1
      rw [e0]; omega
    | ⟨1, _⟩ =>
      show win18_2.index _ (1 : Fin 2) * 256 ≤ (i 1).val ∧ (i 1).val < win18_2.index _ (1 : Fin 2) * 256 + 256
      rw [e1]; dsimp only; omega

end Value

end Cert.KernelIdeal.HandVal

end
-- ==== Proof.KI.R19Val.lean ====
import proofs.«405323_j90718299226206_3_alg».proof.Proof.KI.R19
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz19 : (![0, 0] : Fin 2 → Nat) = fun _ => 0 := funext fun a => by fin_cases a <;> rfl

section Pieces
variable {F : FTy → Type} [FloatOps F]

/-- A load through the whole buffer after a LAST store through the whole buffer reads that store's payload,
    whatever the earlier stores were. -/
theorem readCov_last19 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h]

/-! ## What the one case's found pieces are, as values (any float instance) -/

/-- The body leaves in the output's buffer the zero block plus the product block. -/
theorem out19_eq (c : Dev nD) (i : grid19.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond19_0 i) (hc1 : cond19_1 i)
    (x0 : Vec F S128x1 .f32) (x1 : Vec F S128x1 .f32) :
    out19_2 c i arg3 harg3 arg4 harg4 arg5 harg5 arg6 harg6 hc0 hc1 x0 x1 = k19_pay2 x0 x1 (k19_pay1 (F := F)) := by
  unfold out19_2
  rw [View.read_writes_eq_canon _ _ _ (cover19_2 c i arg3 harg3 arg4 harg4 arg5 harg5 arg6 harg6 hc0 hc1 x0 x1)]
  unfold kernelRun19
  dsimp only
  sl_unfold_words
  rw [View.canon_unit_zero hz19, readCov_last19 _ hz19, View.readCov_unit_zero (S := S1x1) _ hz19]
  simp only [View.readAt_eq_ld, harg3.read_unread, harg4.read_unread, View.ld_unit_zero (S := S128x1) hz19,
    View.ld_unit_zero (S := S128x1) hz19]

end Pieces

/-! ## The payloads at an index, at the ideal values -/

/-- The region's dimension numbers: axis 0 of both operands contracted. -/
abbrev D19 := dot_S128x1_S128x1_S1x1_0_0_1_1_n_n

theorem lhsD19_0 (j : S1x1.Idx) (k : D19.contr.Idx) : (D19.lhsIdx j k 0 : ℕ) = k ⟨0, by decide⟩ := by
  simp [DotDims.lhsIdx, D19, dot_S128x1_S128x1_S1x1_0_0_1_1_n_n] <;> first | rfl | (have h0 := idx2_lt0 j; have h1 := idx2_lt1 j; omega)
theorem lhsD19_1 (j : S1x1.Idx) (k : D19.contr.Idx) : (D19.lhsIdx j k 1 : ℕ) = j 0 := by
  simp [DotDims.lhsIdx, D19, dot_S128x1_S128x1_S1x1_0_0_1_1_n_n] <;> first | rfl | (have h0 := idx2_lt0 j; have h1 := idx2_lt1 j; omega)
theorem rhsD19_0 (j : S1x1.Idx) (k : D19.contr.Idx) : (D19.rhsIdx j k 0 : ℕ) = k ⟨0, by decide⟩ := by
  simp [DotDims.rhsIdx, D19, dot_S128x1_S128x1_S1x1_0_0_1_1_n_n] <;> first | rfl | (have h0 := idx2_lt0 j; have h1 := idx2_lt1 j; omega)
theorem rhsD19_1 (j : S1x1.Idx) (k : D19.contr.Idx) : (D19.rhsIdx j k 1 : ℕ) = j 1 := by
  simp [DotDims.rhsIdx, D19, dot_S128x1_S128x1_S1x1_0_0_1_1_n_n] <;> first | rfl | (have h0 := idx2_lt0 j; have h1 := idx2_lt1 j; omega)

/-- The zero block the reset stores. -/
theorem pay19_1_apply (y : S1x1.Idx) : k19_pay1 (F := Ideal) y = 0 := by
  unfold k19_pay1
  simp only [shapeCast_self]
  exact Ideal.ofBits_zero_f32

/-- The accumulation step at an index: the accumulator there plus the sum over the contracted rows of the products. -/
theorem pay19_2_apply (x0 : Vec Ideal S128x1 .f32) (x1 : Vec Ideal S128x1 .f32) (acc : Vec Ideal S1x1 .f32) (r : Fin 1) (q : Fin 1) :
    k19_pay2 x0 x1 acc (ix2 r q) = acc (ix2 r q) + ∑ kk : Fin 128, x0 (ix2 kk r) * x1 (ix2 kk q) := by
  unfold k19_pay2
  simp only [shapeCast_self, addf_apply, matmul, Ideal.matmul_constant_zero_apply, truncf_apply]
  rw [← Equiv.sum_comp (contrEquiv1 D19 128 rfl rfl).symm]
  refine congrArg (acc (ix2 r q) + ·) (Finset.sum_congr rfl fun kk _ => ?_)
  show x0 (D19.lhsIdx (ix2 r q) ((contrEquiv1 D19 128 rfl rfl).symm kk)) * x1 (D19.rhsIdx (ix2 r q) ((contrEquiv1 D19 128 rfl rfl).symm kk)) = _
  have e0 : D19.lhsIdx (ix2 r q) ((contrEquiv1 D19 128 rfl rfl).symm kk) = ix2 kk r := by
    funext a; apply Fin.ext
    match a with
    | ⟨0, _⟩ => exact (lhsD19_0 _ _).trans (contrEquiv1_symm_val D19 128 rfl rfl kk)
    | ⟨1, _⟩ => exact lhsD19_1 _ _
  have e1 : D19.rhsIdx (ix2 r q) ((contrEquiv1 D19 128 rfl rfl).symm kk) = ix2 kk q := by
    funext a; apply Fin.ext
    match a with
    | ⟨0, _⟩ => exact (rhsD19_0 _ _).trans (contrEquiv1_symm_val D19 128 rfl rfl kk)
    | ⟨1, _⟩ => exact rhsD19_1 _ _
  rw [e0, e1]

/-! ## Arrays read at natural-number coordinates -/

/-- A matrix read at natural-number coordinates (zero outside its extents). -/
def cAt19 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt19_eq {n0 n1 : ℕ} (X : (⟨2, ![n0, n1]⟩ : Shape).Idx → EReal) (i : Fin n0) (j : Fin n1) :
    cAt19 X i.val j.val = X (ix2 i j) := dif_pos ⟨i.isLt, j.isLt⟩

theorem cAt19_idx {n0 n1 : ℕ} (X : (⟨2, ![n0, n1]⟩ : Shape).Idx → EReal) (e : (⟨2, ![n0, n1]⟩ : Shape).Idx) :
    X e = cAt19 X (e 0).val (e 1).val := by
  have h : (e 0).val < n0 ∧ (e 1).val < n1 := ⟨(e 0).isLt, (e 1).isLt⟩
  unfold cAt19; rw [dif_pos h]; exact congrArg X (eq_ix2 e)

/-! ## The product over the arrays the region finds -/

section Value
variable (V : (c : Dev nD) → (b : Ref sig .tc) → Buf (Elt Ideal) ((c : Thread nD τ).loc b))

/-- The two operand arrays as the region finds them, and the input blocks at a point. -/
abbrev arrA19 (c : Dev nD) : Vec Ideal S128x1 .f32 := V c (Pipeline.arrRef spec19 0)
abbrev arrB19 (c : Dev nD) : Vec Ideal S128x1 .f32 := V c (Pipeline.arrRef spec19 1)
abbrev xblk19 (c : Dev nD) (t : Fin cfg19.N) : Vec Ideal S128x1 .f32 := iblk19 V c 0 t
abbrev yblk19 (c : Dev nD) (t : Fin cfg19.N) : Vec Ideal S128x1 .f32 := iblk19 V c 1 t

/-- The printed index maps in closed form, decided over the grid: the lhs block is always block (0, 0); the rhs and
    the output blocks are block (0, t). -/
theorem idx_facts19 : ∀ t : Fin cfg19.N, win19_0.index t (0 : Fin 2) = 0 ∧ win19_0.index t (1 : Fin 2) = 0
    ∧ win19_1.index t (0 : Fin 2) = 0 ∧ win19_1.index t (1 : Fin 2) = t.val
    ∧ win19_2.index t (0 : Fin 2) = 0 ∧ win19_2.index t (1 : Fin 2) = t.val :=
  (by decide +kernel : ∀ t : Fin grid19.N, _)

/-- Where a block's entry sits in its array: block index × block extent + the coordinate inside the block. -/
theorem embA19_0 (t : Fin cfg19.N) (kk : Fin 128) (r : Fin 1) :
    ((((cfg19.win 0).blk t).view.emb (ix2 kk r)) 0).val = kk.val := by
  obtain ⟨e0, -⟩ := idx_facts19 t
  show win19_0.index t (0 : Fin 2) * 128 + 1 * kk.val = _
  rw [e0]; omega
theorem embA19_1 (t : Fin cfg19.N) (kk : Fin 128) (r : Fin 1) :
    ((((cfg19.win 0).blk t).view.emb (ix2 kk r)) 1).val = r.val := by
  obtain ⟨-, e1, -⟩ := idx_facts19 t
  show win19_0.index t (1 : Fin 2) * 1 + 1 * r.val = _
  rw [e1]; omega
theorem embB19_0 (t : Fin cfg19.N) (kk : Fin 128) (q : Fin 1) :
    ((((cfg19.win 1).blk t).view.emb (ix2 kk q)) 0).val = kk.val := by
  obtain ⟨-, -, e0, -⟩ := idx_facts19 t
  show win19_1.index t (0 : Fin 2) * 128 + 1 * kk.val = _
  rw [e0]; omega
theorem embB19_1 (t : Fin cfg19.N) (kk : Fin 128) (q : Fin 1) :
    ((((cfg19.win 1).blk t).view.emb (ix2 kk q)) 1).val = t.val * 1 + q.val := by
  obtain ⟨-, -, -, e1, -⟩ := idx_facts19 t
  show win19_1.index t (1 : Fin 2) * 1 + 1 * q.val = _
  rw [e1]; omega
theorem embO19_0 (t : Fin cfg19.N) (r : Fin 1) (q : Fin 1) :
    ((((cfg19.win 2).blk t).view.emb (ix2 r q)) 0).val = r.val := by
  obtain ⟨-, -, -, -, e0, -⟩ := idx_facts19 t
  show win19_2.index t (0 : Fin 2) * 1 + 1 * r.val = _
  rw [e0]; omega
theorem embO19_1 (t : Fin cfg19.N) (r : Fin 1) (q : Fin 1) :
    ((((cfg19.win 2).blk t).view.emb (ix2 r q)) 1).val = t.val * 1 + q.val := by
  obtain ⟨-, -, -, -, -, e1⟩ := idx_facts19 t
  show win19_2.index t (1 : Fin 2) * 1 + 1 * q.val = _
  rw [e1]; omega

/-- A block is its array read through the block's embedding. -/
theorem xblk19_read (c : Dev nD) (t : Fin cfg19.N) (y : S128x1.Idx) :
    xblk19 V c t y = arrA19 V c (((cfg19.win 0).blk t).view.emb y) := rfl
theorem yblk19_read (c : Dev nD) (t : Fin cfg19.N) (y : S128x1.Idx) :
    yblk19 V c t y = arrB19 V c (((cfg19.win 1).blk t).view.emb y) := rfl
theorem arrA19_at (c : Dev nD) (e : S128x1.Idx) :
    arrA19 V c e = cAt19 (n0 := 128) (n1 := 1) (arrA19 V c) (e 0).val (e 1).val :=
  cAt19_idx (n0 := 128) (n1 := 1) (arrA19 V c) e
theorem arrB19_at (c : Dev nD) (e : S128x1.Idx) :
    arrB19 V c e = cAt19 (n0 := 128) (n1 := 1) (arrB19 V c) (e 0).val (e 1).val :=
  cAt19_idx (n0 := 128) (n1 := 1) (arrB19 V c) e

/-- The lhs block at a point is the lhs array. -/
theorem xblk19_apply (c : Dev nD) (t : Fin cfg19.N) (kk : Fin 128) (r : Fin 1) :
    xblk19 V c t (ix2 kk r) = cAt19 (n0 := 128) (n1 := 1) (arrA19 V c) kk.val r.val :=
  (xblk19_read V c t (ix2 kk r)).trans ((arrA19_at V c _).trans (by rw [embA19_0, embA19_1]))

/-- The rhs block at a point reads the rhs array at columns t·(block width) …. -/
theorem yblk19_apply (c : Dev nD) (t : Fin cfg19.N) (kk : Fin 128) (q : Fin 1) :
    yblk19 V c t (ix2 kk q) = cAt19 (n0 := 128) (n1 := 1) (arrB19 V c) kk.val (t.val * 1 + q.val) :=
  (yblk19_read V c t (ix2 kk q)).trans ((arrB19_at V c _).trans (by rw [embB19_0, embB19_1]))

/-! ## The output array after the region -/

/-- The transposed-lhs product of the two arrays, index by index: the whole contracted axis 0 of both summed. -/
def G19 (a : Vec Ideal S128x1 .f32) (b : Vec Ideal S128x1 .f32) : Vec Ideal S1x1 .f32 :=
  fun y => ∑ k : Fin 128, a (ix2 k (y 0)) * b (ix2 k (y 1))

theorem G19_apply (a : Vec Ideal S128x1 .f32) (b : Vec Ideal S128x1 .f32) (r : Fin 1) (q : Fin 1) :
    G19 a b (ix2 r q) = ∑ k : Fin 128, a (ix2 k r) * b (ix2 k q) := rfl

/-- What a point writes back is its block of the product. -/
theorem flushed19_2 (c : Dev nD) (t : Fin cfg19.N) (hf : (cfg19.win 2).flush t = true) :
    (dat19 (F := Ideal) V c).flushed 2 t = ((cfg19.win 2).blk t).view.read (Elt Ideal) (G19 (arrA19 V c) (arrB19 V c)) := by
  show (cfg19.win 2).cut (grid19.coords t) ((dat19 V c).after 2 t) = _
  rw [after19_2]
  unfold outAt19
  rw [out19_eq]
  funext j
  obtain ⟨r, q, rfl⟩ : ∃ (r : Fin 1) (q : Fin 1), j = ix2 r q := ⟨j 0, j 1, eq_ix2 j⟩
  show k19_pay2 (xblk19 V c t) (yblk19 V c t) (k19_pay1 (F := Ideal)) (ix2 r q) = G19 (arrA19 V c) (arrB19 V c) (((cfg19.win 2).blk t).view.emb (ix2 r q))
  rw [pay19_2_apply, pay19_1_apply, zero_add]
  unfold G19
  refine Finset.sum_congr rfl fun k _ => ?_
  have e0 := embO19_0 t r q
  have e1 := embO19_1 t r q
  exact congrArg₂ (· * ·)
    ((xblk19_apply V c t k r).trans (by rw [← e0]; exact cAt19_eq (n0 := 128) (n1 := 1) (arrA19 V c) k _))
    ((yblk19_apply V c t k q).trans (by rw [← e1]; exact cAt19_eq (n0 := 128) (n1 := 1) (arrB19 V c) k _))

/-- An index of the output array is in point t's block iff each coordinate is in the block's range on its axis. -/
theorem mem_blk19_2 (t : Fin cfg19.N) (i : S1x1.Idx) :
    i ∈ ((cfg19.win 2).blk t).view.set ↔ ∀ a : Fin 2, win19_2.index t a * S1x1.size a ≤ (i a).val ∧ (i a).val < win19_2.index t a * S1x1.size a + S1x1.size a := by
  show i ∈ ((View.whole main_v209).slice (win19_2.rect t)).set ↔ _
  rw [View.set_slice_whole, Rect.mem_set_unit]
  exact Iff.rfl

/-- THE OUTPUT ARRAY after the region: the product of the two operand arrays as the region finds them (the output
    blocks, one per point, cover the array). -/
theorem arrAt19_2 (c : Dev nD) :
    (dat19 (F := Ideal) V c).arrAt 2 cfg19.N = G19 (V c (Pipeline.arrRef spec19 0)) (V c (Pipeline.arrRef spec19 1)) :=
  (dat19 V c).arrAt_eq_of_cover 2 (G19 (arrA19 V c) (arrB19 V c)) (flushed19_2 V c) fun i => by
    have hi0 : (i 0).val < 1 := (i 0).isLt
    have hi1 : (i 1).val < 1 := (i 1).isLt
    have ht : (i 1).val / 1 < cfg19.N := by rw [show cfg19.N = 1 from N_19]; omega
    obtain ⟨-, -, -, -, e0, e1⟩ := idx_facts19 ⟨_, ht⟩
    refine ⟨⟨_, ht⟩, flush19_2 _, ?_⟩
    rw [mem_blk19_2]
    intro a
    match a with
    | ⟨0, _⟩ =>
      show win19_2.index _ (0 : Fin 2) * 1 ≤ (i 0).val ∧ (i 0).val < win19_2.index _ (0 : Fin 2) * 1 + 1
      rw [e0]; omega
    | ⟨1, _⟩ =>
      show win19_2.index _ (1 : Fin 2) * 1 ≤ (i 1).val ∧ (i 1).val < win19_2.index _ (1 : Fin 2) * 1 + 1
      rw [e1]; dsimp only; omega

end Value

end Cert.KernelIdeal.HandVal

end
-- ==== Proof.KI.R20Val.lean ====
import proofs.«405323_j90718299226206_3_alg».proof.Proof.KI.R20
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.HandVal

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

theorem hz20 : (![0, 0] : Fin 2 → Nat) = fun _ => 0 := funext fun a => by fin_cases a <;> rfl

section Pieces
variable {F : FTy → Type} [FloatOps F]

/-- A load through the whole buffer after a LAST store through the whole buffer reads that store's payload,
    whatever the earlier stores were. -/
theorem readCov_last20 {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb, View.ld_unit_zero h]

/-! ## What the one case's found pieces are, as values (any float instance) -/

/-- The body leaves in the output's buffer the zero block plus the product block. -/
theorem out20_eq (c : Dev nD) (i : grid20.Coords) (arg3 : Memref sig .tc .vmem S128x1 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S1x1 .f32) (harg6 : arg6.IsWhole) (hc0 : cond20_0 i) (hc1 : cond20_1 i)
    (x0 : Vec F S128x1 .f32) (x1 : Vec F S128x1 .f32) :
    out20_2 c i arg3 harg3 arg4 harg4 arg5 harg5 arg6 harg6 hc0 hc1 x0 x1 = k20_pay2 x0 x1 (k20_pay1 (F := F)) := by
  unfold out20_2
  rw [View.read_writes_eq_canon _ _ _ (cover20_2 c i arg3 harg3 arg4 harg4 arg5 harg5 arg6 harg6 hc0 hc1 x0 x1)]
  unfold kernelRun20
  dsimp only
  sl_unfold_words
  rw [View.canon_unit_zero hz20, readCov_last20 _ hz20, View.readCov_unit_zero (S := S1x1) _ hz20]
  simp only [View.readAt_eq_ld, harg3.read_unread, harg4.read_unread, View.ld_unit_zero (S := S128x1) hz20,
    View.ld_unit_zero (S := S128x1) hz20]

end Pieces

/-! ## The payloads at an index, at the ideal values -/

/-- The region's dimension numbers: axis 0 of both operands contracted. -/
abbrev D20 := dot_S128x1_S128x1_S1x1_0_0_1_1_n_n

theorem lhsD20_0 (j : S1x1.Idx) (k : D20.contr.Idx) : (D20.lhsIdx j k 0 : ℕ) = k ⟨0, by decide⟩ := by
  simp [DotDims.lhsIdx, D20, dot_S128x1_S128x1_S1x1_0_0_1_1_n_n] <;> first | rfl | (have h0 := idx2_lt0 j; have h1 := idx2_lt1 j; omega)
theorem lhsD20_1 (j : S1x1.Idx) (k : D20.contr.Idx) : (D20.lhsIdx j k 1 : ℕ) = j 0 := by
  simp [DotDims.lhsIdx, D20, dot_S128x1_S128x1_S1x1_0_0_1_1_n_n] <;> first | rfl | (have h0 := idx2_lt0 j; have h1 := idx2_lt1 j; omega)
theorem rhsD20_0 (j : S1x1.Idx) (k : D20.contr.Idx) : (D20.rhsIdx j k 0 : ℕ) = k ⟨0, by decide⟩ := by
  simp [DotDims.rhsIdx, D20, dot_S128x1_S128x1_S1x1_0_0_1_1_n_n] <;> first | rfl | (have h0 := idx2_lt0 j; have h1 := idx2_lt1 j; omega)
theorem rhsD20_1 (j : S1x1.Idx) (k : D20.contr.Idx) : (D20.rhsIdx j k 1 : ℕ) = j 1 := by
  simp [DotDims.rhsIdx, D20, dot_S128x1_S128x1_S1x1_0_0_1_1_n_n] <;> first | rfl | (have h0 := idx2_lt0 j; have h1 := idx2_lt1 j; omega)

/-- The zero block the reset stores. -/
theorem pay20_1_apply (y : S1x1.Idx) : k20_pay1 (F := Ideal) y = 0 := by
  unfold k20_pay1
  simp only [shapeCast_self]
  exact Ideal.ofBits_zero_f32

/-- The accumulation step at an index: the accumulator there plus the sum over the contracted rows of the products. -/
theorem pay20_2_apply (x0 : Vec Ideal S128x1 .f32) (x1 : Vec Ideal S128x1 .f32) (acc : Vec Ideal S1x1 .f32) (r : Fin 1) (q : Fin 1) :
    k20_pay2 x0 x1 acc (ix2 r q) = acc (ix2 r q) + ∑ kk : Fin 128, x0 (ix2 kk r) * x1 (ix2 kk q) := by
  unfold k20_pay2
  simp only [shapeCast_self, addf_apply, matmul, Ideal.matmul_constant_zero_apply, truncf_apply]
  rw [← Equiv.sum_comp (contrEquiv1 D20 128 rfl rfl).symm]
  refine congrArg (acc (ix2 r q) + ·) (Finset.sum_congr rfl fun kk _ => ?_)
  show x0 (D20.lhsIdx (ix2 r q) ((contrEquiv1 D20 128 rfl rfl).symm kk)) * x1 (D20.rhsIdx (ix2 r q) ((contrEquiv1 D20 128 rfl rfl).symm kk)) = _
  have e0 : D20.lhsIdx (ix2 r q) ((contrEquiv1 D20 128 rfl rfl).symm kk) = ix2 kk r := by
    funext a; apply Fin.ext
    match a with
    | ⟨0, _⟩ => exact (lhsD20_0 _ _).trans (contrEquiv1_symm_val D20 128 rfl rfl kk)
    | ⟨1, _⟩ => exact lhsD20_1 _ _
  have e1 : D20.rhsIdx (ix2 r q) ((contrEquiv1 D20 128 rfl rfl).symm kk) = ix2 kk q := by
    funext a; apply Fin.ext
    match a with
    | ⟨0, _⟩ => exact (rhsD20_0 _ _).trans (contrEquiv1_symm_val D20 128 rfl rfl kk)
    | ⟨1, _⟩ => exact rhsD20_1 _ _
  rw [e0, e1]

/-! ## Arrays read at natural-number coordinates -/

/-- A matrix read at natural-number coordinates (zero outside its extents). -/
def cAt20 {n0 n1 : ℕ} (X : (⟨2, ![n0, n1]⟩ : Shape).Idx → EReal) (i j : ℕ) : EReal :=
  if h : i < n0 ∧ j < n1 then X (ix2 ⟨i, h.1⟩ ⟨j, h.2⟩) else 0

theorem cAt20_eq {n0 n1 : ℕ} (X : (⟨2, ![n0, n1]⟩ : Shape).Idx → EReal) (i : Fin n0) (j : Fin n1) :
    cAt20 X i.val j.val = X (ix2 i j) := dif_pos ⟨i.isLt, j.isLt⟩

theorem cAt20_idx {n0 n1 : ℕ} (X : (⟨2, ![n0, n1]⟩ : Shape).Idx → EReal) (e : (⟨2, ![n0, n1]⟩ : Shape).Idx) :
    X e = cAt20 X (e 0).val (e 1).val := by
  have h : (e 0).val < n0 ∧ (e 1).val < n1 := ⟨(e 0).isLt, (e 1).isLt⟩
  unfold cAt20; rw [dif_pos h]; exact congrArg X (eq_ix2 e)

/-! ## The product over the arrays the region finds -/

section Value
variable (V : (c : Dev nD) → (b : Ref sig .tc) → Buf (Elt Ideal) ((c : Thread nD τ).loc b))

/-- The two operand arrays as the region finds them, and the input blocks at a point. -/
abbrev arrA20 (c : Dev nD) : Vec Ideal S128x1 .f32 := V c (Pipeline.arrRef spec20 0)
abbrev arrB20 (c : Dev nD) : Vec Ideal S128x1 .f32 := V c (Pipeline.arrRef spec20 1)
abbrev xblk20 (c : Dev nD) (t : Fin cfg20.N) : Vec Ideal S128x1 .f32 := iblk20 V c 0 t
abbrev yblk20 (c : Dev nD) (t : Fin cfg20.N) : Vec Ideal S128x1 .f32 := iblk20 V c 1 t

/-- The printed index maps in closed form, decided over the grid: the lhs block is always block (0, 0); the rhs and
    the output blocks are block (0, t). -/
theorem idx_facts20 : ∀ t : Fin cfg20.N, win20_0.index t (0 : Fin 2) = 0 ∧ win20_0.index t (1 : Fin 2) = 0
    ∧ win20_1.index t (0 : Fin 2) = 0 ∧ win20_1.index t (1 : Fin 2) = t.val
    ∧ win20_2.index t (0 : Fin 2) = 0 ∧ win20_2.index t (1 : Fin 2) = t.val :=
  (by decide +kernel : ∀ t : Fin grid20.N, _)

/-- Where a block's entry sits in its array: block index × block extent + the coordinate inside the block. -/
theorem embA20_0 (t : Fin cfg20.N) (kk : Fin 128) (r : Fin 1) :
    ((((cfg20.win 0).blk t).view.emb (ix2 kk r)) 0).val = kk.val := by
  obtain ⟨e0, -⟩ := idx_facts20 t
  show win20_0.index t (0 : Fin 2) * 128 + 1 * kk.val = _
  rw [e0]; omega
theorem embA20_1 (t : Fin cfg20.N) (kk : Fin 128) (r : Fin 1) :
    ((((cfg20.win 0).blk t).view.emb (ix2 kk r)) 1).val = r.val := by
  obtain ⟨-, e1, -⟩ := idx_facts20 t
  show win20_0.index t (1 : Fin 2) * 1 + 1 * r.val = _
  rw [e1]; omega
theorem embB20_0 (t : Fin cfg20.N) (kk : Fin 128) (q : Fin 1) :
    ((((cfg20.win 1).blk t).view.emb (ix2 kk q)) 0).val = kk.val := by
  obtain ⟨-, -, e0, -⟩ := idx_facts20 t
  show win20_1.index t (0 : Fin 2) * 128 + 1 * kk.val = _
  rw [e0]; omega
theorem embB20_1 (t : Fin cfg20.N) (kk : Fin 128) (q : Fin 1) :
    ((((cfg20.win 1).blk t).view.emb (ix2 kk q)) 1).val = t.val * 1 + q.val := by
  obtain ⟨-, -, -, e1, -⟩ := idx_facts20 t
  show win20_1.index t (1 : Fin 2) * 1 + 1 * q.val = _
  rw [e1]; omega
theorem embO20_0 (t : Fin cfg20.N) (r : Fin 1) (q : Fin 1) :
    ((((cfg20.win 2).blk t).view.emb (ix2 r q)) 0).val = r.val := by
  obtain ⟨-, -, -, -, e0, -⟩ := idx_facts20 t
  show win20_2.index t (0 : Fin 2) * 1 + 1 * r.val = _
  rw [e0]; omega
theorem embO20_1 (t : Fin cfg20.N) (r : Fin 1) (q : Fin 1) :
    ((((cfg20.win 2).blk t).view.emb (ix2 r q)) 1).val = t.val * 1 + q.val := by
  obtain ⟨-, -, -, -, -, e1⟩ := idx_facts20 t
  show win20_2.index t (1 : Fin 2) * 1 + 1 * q.val = _
  rw [e1]; omega

/-- A block is its array read through the block's embedding. -/
theorem xblk20_read (c : Dev nD) (t : Fin cfg20.N) (y : S128x1.Idx) :
    xblk20 V c t y = arrA20 V c (((cfg20.win 0).blk t).view.emb y) := rfl
theorem yblk20_read (c : Dev nD) (t : Fin cfg20.N) (y : S128x1.Idx) :
    yblk20 V c t y = arrB20 V c (((cfg20.win 1).blk t).view.emb y) := rfl
theorem arrA20_at (c : Dev nD) (e : S128x1.Idx) :
    arrA20 V c e = cAt20 (n0 := 128) (n1 := 1) (arrA20 V c) (e 0).val (e 1).val :=
  cAt20_idx (n0 := 128) (n1 := 1) (arrA20 V c) e
theorem arrB20_at (c : Dev nD) (e : S128x1.Idx) :
    arrB20 V c e = cAt20 (n0 := 128) (n1 := 1) (arrB20 V c) (e 0).val (e 1).val :=
  cAt20_idx (n0 := 128) (n1 := 1) (arrB20 V c) e

/-- The lhs block at a point is the lhs array. -/
theorem xblk20_apply (c : Dev nD) (t : Fin cfg20.N) (kk : Fin 128) (r : Fin 1) :
    xblk20 V c t (ix2 kk r) = cAt20 (n0 := 128) (n1 := 1) (arrA20 V c) kk.val r.val :=
  (xblk20_read V c t (ix2 kk r)).trans ((arrA20_at V c _).trans (by rw [embA20_0, embA20_1]))

/-- The rhs block at a point reads the rhs array at columns t·(block width) …. -/
theorem yblk20_apply (c : Dev nD) (t : Fin cfg20.N) (kk : Fin 128) (q : Fin 1) :
    yblk20 V c t (ix2 kk q) = cAt20 (n0 := 128) (n1 := 1) (arrB20 V c) kk.val (t.val * 1 + q.val) :=
  (yblk20_read V c t (ix2 kk q)).trans ((arrB20_at V c _).trans (by rw [embB20_0, embB20_1]))

/-! ## The output array after the region -/

/-- The transposed-lhs product of the two arrays, index by index: the whole contracted axis 0 of both summed. -/
def G20 (a : Vec Ideal S128x1 .f32) (b : Vec Ideal S128x1 .f32) : Vec Ideal S1x1 .f32 :=
  fun y => ∑ k : Fin 128, a (ix2 k (y 0)) * b (ix2 k (y 1))

theorem G20_apply (a : Vec Ideal S128x1 .f32) (b : Vec Ideal S128x1 .f32) (r : Fin 1) (q : Fin 1) :
    G20 a b (ix2 r q) = ∑ k : Fin 128, a (ix2 k r) * b (ix2 k q) := rfl

/-- What a point writes back is its block of the product. -/
theorem flushed20_2 (c : Dev nD) (t : Fin cfg20.N) (hf : (cfg20.win 2).flush t = true) :
    (dat20 (F := Ideal) V c).flushed 2 t = ((cfg20.win 2).blk t).view.read (Elt Ideal) (G20 (arrA20 V c) (arrB20 V c)) := by
  show (cfg20.win 2).cut (grid20.coords t) ((dat20 V c).after 2 t) = _
  rw [after20_2]
  unfold outAt20
  rw [out20_eq]
  funext j
  obtain ⟨r, q, rfl⟩ : ∃ (r : Fin 1) (q : Fin 1), j = ix2 r q := ⟨j 0, j 1, eq_ix2 j⟩
  show k20_pay2 (xblk20 V c t) (yblk20 V c t) (k20_pay1 (F := Ideal)) (ix2 r q) = G20 (arrA20 V c) (arrB20 V c) (((cfg20.win 2).blk t).view.emb (ix2 r q))
  rw [pay20_2_apply, pay20_1_apply, zero_add]
  unfold G20
  refine Finset.sum_congr rfl fun k _ => ?_
  have e0 := embO20_0 t r q
  have e1 := embO20_1 t r q
  exact congrArg₂ (· * ·)
    ((xblk20_apply V c t k r).trans (by rw [← e0]; exact cAt20_eq (n0 := 128) (n1 := 1) (arrA20 V c) k _))
    ((yblk20_apply V c t k q).trans (by rw [← e1]; exact cAt20_eq (n0 := 128) (n1 := 1) (arrB20 V c) k _))

/-- An index of the output array is in point t's block iff each coordinate is in the block's range on its axis. -/
theorem mem_blk20_2 (t : Fin cfg20.N) (i : S1x1.Idx) :
    i ∈ ((cfg20.win 2).blk t).view.set ↔ ∀ a : Fin 2, win20_2.index t a * S1x1.size a ≤ (i a).val ∧ (i a).val < win20_2.index t a * S1x1.size a + S1x1.size a := by
  show i ∈ ((View.whole main_v210).slice (win20_2.rect t)).set ↔ _
  rw [View.set_slice_whole, Rect.mem_set_unit]
  exact Iff.rfl

/-- THE OUTPUT ARRAY after the region: the product of the two operand arrays as the region finds them (the output
    blocks, one per point, cover the array). -/
theorem arrAt20_2 (c : Dev nD) :
    (dat20 (F := Ideal) V c).arrAt 2 cfg20.N = G20 (V c (Pipeline.arrRef spec20 0)) (V c (Pipeline.arrRef spec20 1)) :=
  (dat20 V c).arrAt_eq_of_cover 2 (G20 (arrA20 V c) (arrB20 V c)) (flushed20_2 V c) fun i => by
    have hi0 : (i 0).val < 1 := (i 0).isLt
    have hi1 : (i 1).val < 1 := (i 1).isLt
    have ht : (i 1).val / 1 < cfg20.N := by rw [show cfg20.N = 1 from N_20]; omega
    obtain ⟨-, -, -, -, e0, e1⟩ := idx_facts20 ⟨_, ht⟩
    refine ⟨⟨_, ht⟩, flush20_2 _, ?_⟩
    rw [mem_blk20_2]
    intro a
    match a with
    | ⟨0, _⟩ =>
      show win20_2.index _ (0 : Fin 2) * 1 ≤ (i 0).val ∧ (i 0).val < win20_2.index _ (0 : Fin 2) * 1 + 1
      rw [e0]; omega
    | ⟨1, _⟩ =>
      show win20_2.index _ (1 : Fin 2) * 1 ≤ (i 1).val ∧ (i 1).val < win20_2.index _ (1 : Fin 2) * 1 + 1
      rw [e1]; dsimp only; omega

end Value

end Cert.KernelIdeal.HandVal

end
-- ==== Proof.Bridge.CP3b.lean ====
/- The third pooling layer's three transposed-lhs products (regions 18, 19, 20) against the reference's transposes and products: each region's output array is the product of its two operand arrays, which are the reference's buffers by the earlier checkpoints. -/
import proofs.«405323_j90718299226206_3_alg».proof.Proof.Bridge.CP3a2
import proofs.«405323_j90718299226206_3_alg».proof.Proof.KI.R18Val
import proofs.«405323_j90718299226206_3_alg».proof.Proof.KI.R19Val
import proofs.«405323_j90718299226206_3_alg».proof.Proof.KI.R20Val
import proofs.«405323_j90718299226206_3_alg».proof.Proof.Ref.Dots
import Idealize.ShloMosaic.Lib.ValueIdx

set_option maxRecDepth 16384

noncomputable section

open scoped BigOperators

namespace Cert.Bridge

open Idealize.ShloMosaic Idealize.ShloMosaic.TcCoe Idealize.SL.Sem Idealize.ShloMosaic.ValueIdx

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Region 18's output, the transposed-lhs product of its two operand arrays, against the reference's transpose and product. -/
theorem cp_main_v208 (h : Hyp m m' c) : KV m c Cert.KernelIdeal.main_v208 = RV m' c Cert.ReferenceIdeal.main_v262 := by
  have hA : (Cert.KernelIdeal.Hand.W54 (F := Ideal) m c (Proc.devRef .tc Cert.KernelIdeal.main_v204_1) : Vec Ideal Cert.KernelIdeal.S128x1 .f32) = Cert.ReferenceIdeal.HandRun.RV (F := Ideal) m' c Cert.ReferenceIdeal.main_v260 :=
    (Cert.KernelIdeal.Hand.frame54 m c Cert.KernelIdeal.main_v204_1 (by decide)).symm.trans (cp_main_v204_1 m m' c h)
  have hB : (Cert.KernelIdeal.Hand.W54 (F := Ideal) m c (Proc.devRef .tc Cert.KernelIdeal.main_v202) : Vec Ideal Cert.KernelIdeal.S128x512 .f32) = Cert.ReferenceIdeal.HandRun.RV (F := Ideal) m' c Cert.ReferenceIdeal.main_v246 :=
    (Cert.KernelIdeal.Hand.frame54 m c Cert.KernelIdeal.main_v202 (by decide)).symm.trans (cp_main_v202 m m' c h)
  refine ((((Cert.KernelIdeal.Hand.frame55 m c Cert.KernelIdeal.main_v208 (by decide)).trans (Cert.KernelIdeal.Hand.W55_out2 m c)).trans
    (Cert.KernelIdeal.HandVal.arrAt18_2 (Cert.KernelIdeal.Hand.Vt54 m) c)).trans (congr (congrArg Cert.KernelIdeal.HandVal.G18 hA) hB)).trans ?_
  refine Eq.trans ?_ (Cert.ReferenceIdeal.HandRun.rd_main_v262 m' c).symm
  rw [Cert.ReferenceIdeal.HandRun.rd_main_v261 m' c]
  funext y
  obtain ⟨r, q, rfl⟩ : ∃ (r : Fin 1) (q : Fin 512), y = ix2 r q := ⟨y 0, y 1, eq_ix2 y⟩
  rw [Cert.KernelIdeal.HandVal.G18_apply, Cert.ReferenceIdeal.Dots.dot_S1x128_S128x512_apply]
  exact Finset.sum_congr rfl fun k _ => by rw [Cert.ReferenceIdeal.Dots.transpose_S128x1_S1x128_apply]

/-- Region 19's output, the transposed-lhs product of its two operand arrays, against the reference's transpose and product. -/
theorem cp_main_v209 (h : Hyp m m' c) : KV m c Cert.KernelIdeal.main_v209 = RV m' c Cert.ReferenceIdeal.main_v265 := by
  have hA : (Cert.KernelIdeal.Hand.W55 (F := Ideal) m c (Proc.devRef .tc Cert.KernelIdeal.main_v204_1) : Vec Ideal Cert.KernelIdeal.S128x1 .f32) = Cert.ReferenceIdeal.HandRun.RV (F := Ideal) m' c Cert.ReferenceIdeal.main_v260 :=
    (Cert.KernelIdeal.Hand.frame55 m c Cert.KernelIdeal.main_v204_1 (by decide)).symm.trans (cp_main_v204_1 m m' c h)
  have hB : (Cert.KernelIdeal.Hand.W55 (F := Ideal) m c (Proc.devRef .tc Cert.KernelIdeal.main_v207) : Vec Ideal Cert.KernelIdeal.S128x1 .f32) = Cert.ReferenceIdeal.HandRun.RV (F := Ideal) m' c Cert.ReferenceIdeal.main_v264 :=
    (Cert.KernelIdeal.Hand.frame55 m c Cert.KernelIdeal.main_v207 (by decide)).symm.trans (cp_main_v207 m m' c h)
  refine ((((Cert.KernelIdeal.Hand.frame56 m c Cert.KernelIdeal.main_v209 (by decide)).trans (Cert.KernelIdeal.Hand.W56_out2 m c)).trans
    (Cert.KernelIdeal.HandVal.arrAt19_2 (Cert.KernelIdeal.Hand.Vt55 m) c)).trans (congr (congrArg Cert.KernelIdeal.HandVal.G19 hA) hB)).trans ?_
  refine Eq.trans ?_ (Cert.ReferenceIdeal.HandRun.rd_main_v265 m' c).symm
  rw [Cert.ReferenceIdeal.HandRun.rd_main_v263 m' c]
  funext y
  obtain ⟨r, q, rfl⟩ : ∃ (r : Fin 1) (q : Fin 1), y = ix2 r q := ⟨y 0, y 1, eq_ix2 y⟩
  rw [Cert.KernelIdeal.HandVal.G19_apply, Cert.ReferenceIdeal.Dots.dot_S1x128_S128x1_apply]
  exact Finset.sum_congr rfl fun k _ => by rw [Cert.ReferenceIdeal.Dots.transpose_S128x1_S1x128_apply]

/-- Region 20's output, the transposed-lhs product of its two operand arrays, against the reference's transpose and product. -/
theorem cp_main_v210 (h : Hyp m m' c) : KV m c Cert.KernelIdeal.main_v210 = RV m' c Cert.ReferenceIdeal.main_v275 := by
  have hA : (Cert.KernelIdeal.Hand.W56 (F := Ideal) m c (Proc.devRef .tc Cert.KernelIdeal.main_v204_1) : Vec Ideal Cert.KernelIdeal.S128x1 .f32) = Cert.ReferenceIdeal.HandRun.RV (F := Ideal) m' c Cert.ReferenceIdeal.main_v260 :=
    (Cert.KernelIdeal.Hand.frame56 m c Cert.KernelIdeal.main_v204_1 (by decide)).symm.trans (cp_main_v204_1 m m' c h)
  refine ((((Cert.KernelIdeal.Hand.frame57 m c Cert.KernelIdeal.main_v210 (by decide)).trans (Cert.KernelIdeal.Hand.W57_out2 m c)).trans
    (Cert.KernelIdeal.HandVal.arrAt20_2 (Cert.KernelIdeal.Hand.Vt56 m) c)).trans (congr (congrArg Cert.KernelIdeal.HandVal.G20 hA) hA)).trans ?_
  refine Eq.trans ?_ (Cert.ReferenceIdeal.HandRun.rd_main_v275 m' c).symm
  rw [Cert.ReferenceIdeal.HandRun.rd_main_v274 m' c]
  funext y
  obtain ⟨r, q, rfl⟩ : ∃ (r : Fin 1) (q : Fin 1), y = ix2 r q := ⟨y 0, y 1, eq_ix2 y⟩
  rw [Cert.KernelIdeal.HandVal.G20_apply, Cert.ReferenceIdeal.Dots.dot_S1x128_S128x1_apply]
  exact Finset.sum_congr rfl fun k _ => by rw [Cert.ReferenceIdeal.Dots.transpose_S128x1_S1x128_apply]

end Cert.Bridge

end
-- ==== Proof.Bridge.B3.lean ====
/- Kernel buffers and reference buffers that are the same function of equal operands hold equal contents at the end of the
   two runs: one step per host operation, phase 3 (what depends on the checkpoints of the first 3 pooling layers at most). -/
import proofs.«405323_j90718299226206_3_alg».proof.Proof.Bridge.CP3b

set_option maxRecDepth 16384

noncomputable section

namespace Cert.Bridge

open Idealize.ShloMosaic Idealize.ShloMosaic.TcCoe Idealize.SL.Sem

variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem br_main_call13_v6 (h : Hyp m m' c) : KV m c Cert.KernelIdeal.main_call13_v6 = RV m' c Cert.ReferenceIdeal.main_call15_v6 := by
  have e0 := Cert.KernelIdeal.Hand.kd_main_call13_v6 (F := Ideal) m c
  have e1 := Cert.ReferenceIdeal.HandRun.rd_main_call15_v6 (F := Ideal) m' c
  have e2 := br_main_call13_v4 m m' c h
  have e3 := cp_main_v209 m m' c h
  have e4 := br_main_call13_v5 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3, e4]
  <;> rfl
theorem br_main_v211 (h : Hyp m m' c) : KV m c Cert.KernelIdeal.main_v211 = RV m' c Cert.ReferenceIdeal.main_v266 := by
  have e0 := Cert.KernelIdeal.Hand.kd_main_v211 (F := Ideal) m c
  have e1 := Cert.ReferenceIdeal.HandRun.rd_main_v266 (F := Ideal) m' c
  have e2 := br_main_call13_v6 m m' c h
  have e3 := (br_main_call13_cst_0 m m' c h).trans (rr_main_cst__main_call15_cst_0 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v214 (h : Hyp m m' c) : KV m c Cert.KernelIdeal.main_v214 = RV m' c Cert.ReferenceIdeal.main_v269 := by
  have e0 := Cert.KernelIdeal.Hand.kd_main_v214 (F := Ideal) m c
  have e1 := Cert.ReferenceIdeal.HandRun.rd_main_v269 (F := Ideal) m' c
  have e2 := br_main_v213 m m' c h
  have e3 := cp_main_v204_1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v215 (h : Hyp m m' c) : KV m c Cert.KernelIdeal.main_v215 = RV m' c Cert.ReferenceIdeal.main_v270 := by
  have e0 := Cert.KernelIdeal.Hand.kd_main_v215 (F := Ideal) m c
  have e1 := Cert.ReferenceIdeal.HandRun.rd_main_v270 (F := Ideal) m' c
  have e2 := br_main_v214 m m' c h
  have e3 := cp_main_v204_1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v216 (h : Hyp m m' c) : KV m c Cert.KernelIdeal.main_v216 = RV m' c Cert.ReferenceIdeal.main_v271 := by
  have e0 := Cert.KernelIdeal.Hand.kd_main_v216 (F := Ideal) m c
  have e1 := Cert.ReferenceIdeal.HandRun.rd_main_v271 (F := Ideal) m' c
  have e2 := br_main_v215 m m' c h
  have e3 := (br_main_cst_40 m m' c h).trans (rr_main_cst__main_cst_48 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v217 (h : Hyp m m' c) : KV m c Cert.KernelIdeal.main_v217 = RV m' c Cert.ReferenceIdeal.main_v272 := by
  have e0 := Cert.KernelIdeal.Hand.kd_main_v217 (F := Ideal) m c
  have e1 := Cert.ReferenceIdeal.HandRun.rd_main_v272 (F := Ideal) m' c
  have e2 := br_main_v211 m m' c h
  have e3 := br_main_v216 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v218 (h : Hyp m m' c) : KV m c Cert.KernelIdeal.main_v218 = RV m' c Cert.ReferenceIdeal.main_v273 := by
  have e0 := Cert.KernelIdeal.Hand.kd_main_v218 (F := Ideal) m c
  have e1 := Cert.ReferenceIdeal.HandRun.rd_main_v273 (F := Ideal) m' c
  have e2 := br_main_v217 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call14_v0 (h : Hyp m m' c) : KV m c Cert.KernelIdeal.main_call14_v0 = RV m' c Cert.ReferenceIdeal.main_call16_v0 := by
  have e0 := Cert.KernelIdeal.Hand.kd_main_call14_v0 (F := Ideal) m c
  have e1 := Cert.ReferenceIdeal.HandRun.rd_main_call16_v0 (F := Ideal) m' c
  have e2 := cp_main_v210 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call14_v1 (h : Hyp m m' c) : KV m c Cert.KernelIdeal.main_call14_v1 = RV m' c Cert.ReferenceIdeal.main_call16_v1 := by
  have e0 := Cert.KernelIdeal.Hand.kd_main_call14_v1 (F := Ideal) m c
  have e1 := Cert.ReferenceIdeal.HandRun.rd_main_call16_v1 (F := Ideal) m' c
  have e2 := br_main_call14_v0 m m' c h
  have e3 := (br_main_call14_cst m m' c h).trans (rr_main_cst__main_call16_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v219 (h : Hyp m m' c) : KV m c Cert.KernelIdeal.main_v219 = RV m' c Cert.ReferenceIdeal.main_v276 := by
  have e0 := Cert.KernelIdeal.Hand.kd_main_v219 (F := Ideal) m c
  have e1 := Cert.ReferenceIdeal.HandRun.rd_main_v276 (F := Ideal) m' c
  have e2 := br_main_call14_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v220 (h : Hyp m m' c) : KV m c Cert.KernelIdeal.main_v220 = RV m' c Cert.ReferenceIdeal.main_v277 := by
  have e0 := Cert.KernelIdeal.Hand.kd_main_v220 (F := Ideal) m c
  have e1 := Cert.ReferenceIdeal.HandRun.rd_main_v277 (F := Ideal) m' c
  have e2 := br_main_v219 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v221 (h : Hyp m m' c) : KV m c Cert.KernelIdeal.main_v221 = RV m' c Cert.ReferenceIdeal.main_v278 := by
  have e0 := Cert.KernelIdeal.Hand.kd_main_v221 (F := Ideal) m c
  have e1 := Cert.ReferenceIdeal.HandRun.rd_main_v278 (F := Ideal) m' c
  have e2 := cp_main_v210 m m' c h
  have e3 := br_main_v220 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v231 (h : Hyp m m' c) : KV m c Cert.KernelIdeal.main_v231 = RV m' c Cert.ReferenceIdeal.main_v288 := by
  have e0 := Cert.KernelIdeal.Hand.kd_main_v231 (F := Ideal) m c
  have e1 := Cert.ReferenceIdeal.HandRun.rd_main_v288 (F := Ideal) m' c
  have e2 := br_main_v221 m m' c h
  have e3 := br_main_v230 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_call15_v0 (h : Hyp m m' c) : KV m c Cert.KernelIdeal.main_call15_v0 = RV m' c Cert.ReferenceIdeal.main_call17_v0 := by
  have e0 := Cert.KernelIdeal.Hand.kd_main_call15_v0 (F := Ideal) m c
  have e1 := Cert.ReferenceIdeal.HandRun.rd_main_call17_v0 (F := Ideal) m' c
  have e2 := br_main_v231 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_call15_v1 (h : Hyp m m' c) : KV m c Cert.KernelIdeal.main_call15_v1 = RV m' c Cert.ReferenceIdeal.main_call17_v1 := by
  have e0 := Cert.KernelIdeal.Hand.kd_main_call15_v1 (F := Ideal) m c
  have e1 := Cert.ReferenceIdeal.HandRun.rd_main_call17_v1 (F := Ideal) m' c
  have e2 := br_main_call15_v0 m m' c h
  have e3 := (br_main_call15_cst m m' c h).trans (rr_main_cst__main_call17_cst m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v232 (h : Hyp m m' c) : KV m c Cert.KernelIdeal.main_v232 = RV m' c Cert.ReferenceIdeal.main_v289 := by
  have e0 := Cert.KernelIdeal.Hand.kd_main_v232 (F := Ideal) m c
  have e1 := Cert.ReferenceIdeal.HandRun.rd_main_v289 (F := Ideal) m' c
  have e2 := br_main_call15_v1 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v241 (h : Hyp m m' c) : KV m c Cert.KernelIdeal.main_v241 = RV m' c Cert.ReferenceIdeal.main_v298 := by
  have e0 := Cert.KernelIdeal.Hand.kd_main_v241 (F := Ideal) m c
  have e1 := Cert.ReferenceIdeal.HandRun.rd_main_v298 (F := Ideal) m' c
  have e2 := cp_main_v209 m m' c h
  have e3 := br_main_v240 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v242 (h : Hyp m m' c) : KV m c Cert.KernelIdeal.main_v242 = RV m' c Cert.ReferenceIdeal.main_v299 := by
  have e0 := Cert.KernelIdeal.Hand.kd_main_v242 (F := Ideal) m c
  have e1 := Cert.ReferenceIdeal.HandRun.rd_main_v299 (F := Ideal) m' c
  have e2 := br_main_v241 m m' c h
  have e3 := (br_main_cst_45 m m' c h).trans (rr_main_cst__main_cst_53 m' c)
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v243 (h : Hyp m m' c) : KV m c Cert.KernelIdeal.main_v243 = RV m' c Cert.ReferenceIdeal.main_v300 := by
  have e0 := Cert.KernelIdeal.Hand.kd_main_v243 (F := Ideal) m c
  have e1 := Cert.ReferenceIdeal.HandRun.rd_main_v300 (F := Ideal) m' c
  have e2 := br_main_v242 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v244 (h : Hyp m m' c) : KV m c Cert.KernelIdeal.main_v244 = RV m' c Cert.ReferenceIdeal.main_v301 := by
  have e0 := Cert.KernelIdeal.Hand.kd_main_v244 (F := Ideal) m c
  have e1 := Cert.ReferenceIdeal.HandRun.rd_main_v301 (F := Ideal) m' c
  have e2 := br_main_v243 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v246 (h : Hyp m m' c) : KV m c Cert.KernelIdeal.main_v246 = RV m' c Cert.ReferenceIdeal.main_v303 := by
  have e0 := Cert.KernelIdeal.Hand.kd_main_v246 (F := Ideal) m c
  have e1 := Cert.ReferenceIdeal.HandRun.rd_main_v303 (F := Ideal) m' c
  have e2 := br_main_v244 m m' c h
  have e3 := br_main_v245 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v247 (h : Hyp m m' c) : KV m c Cert.KernelIdeal.main_v247 = RV m' c Cert.ReferenceIdeal.main_v304 := by
  have e0 := Cert.KernelIdeal.Hand.kd_main_v247 (F := Ideal) m c
  have e1 := Cert.ReferenceIdeal.HandRun.rd_main_v304 (F := Ideal) m' c
  have e2 := br_main_v241 m m' c h
  have e3 := br_main_v246 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl
theorem br_main_v248 (h : Hyp m m' c) : KV m c Cert.KernelIdeal.main_v248 = RV m' c Cert.ReferenceIdeal.main_v305 := by
  have e0 := Cert.KernelIdeal.Hand.kd_main_v248 (F := Ideal) m c
  have e1 := Cert.ReferenceIdeal.HandRun.rd_main_v305 (F := Ideal) m' c
  have e2 := br_main_v246 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2]
  <;> rfl
theorem br_main_v249 (h : Hyp m m' c) : KV m c Cert.KernelIdeal.main_v249 = RV m' c Cert.ReferenceIdeal.main_v306 := by
  have e0 := Cert.KernelIdeal.Hand.kd_main_v249 (F := Ideal) m c
  have e1 := Cert.ReferenceIdeal.HandRun.rd_main_v306 (F := Ideal) m' c
  have e2 := br_main_v247 m m' c h
  have e3 := br_main_v248 m m' c h
  generalize Cert.KernelIdeal.Hand.W63 (F := Ideal) m c = V at *
  dsimp only [Cert.ReferenceIdeal.HandRun.RV] at *
  generalize StableHlo.after (Cert.ReferenceIdeal.HandRun.ops (F := Ideal)) (fun b => m' (c, b)) = V' at *
  rw [e0, e1, e2, e3]
  <;> rfl

end Cert.Bridge

end
-- ==== Proof.Final.lean ====
/-
  The five claims, assembled.

  The kernel (twenty-one pipelined regions between stretches of host operations) runs, at either float instance, from
  any memory with zero counters: every weakly fair execution terminates and every unscoped buffer ends at the last
  boundary's contents. No region and no host operation writes an argument array, so the fifteen arguments end as
  launched: the two kernel frames. The reference is a straight line of 430 host operations; it runs, and an operation
  writes only its own result buffer, never an argument: the reference's frame. The idealization rewrote no operation.
  At the ideal instance, from memories that agree on the arguments, each of the eleven result arrays of the kernel
  holds at the end what the paired array of the reference holds: the kernel's final contents are the witnesses, the
  kernel's run ends at them by definition, and the reference's run ends at them by the eleven value equations.
-/
import proofs.«405323_j90718299226206_3_alg».proof.Defs
import proofs.«405323_j90718299226206_3_alg».proof.Proof.Gen.Pre_finite_inputs
import proofs.«405323_j90718299226206_3_alg».proof.Proof.KI.Run
import proofs.«405323_j90718299226206_3_alg».proof.Proof.KI.Frames
import proofs.«405323_j90718299226206_3_alg».proof.Proof.K.Run
import proofs.«405323_j90718299226206_3_alg».proof.Proof.K.Frames
import proofs.«405323_j90718299226206_3_alg».proof.Proof.Ref.ReadsAsc
import proofs.«405323_j90718299226206_3_alg».proof.Proof.Bridge.B3

noncomputable section

namespace Cert.Proof.Final

open Idealize.ShloMosaic Idealize.ShloMosaic.TcCoe Idealize.SL.Sem

/-- The kernel runs on bit-pattern floats and its fifteen argument arrays end unchanged: each is an unscoped buffer,
    so it ends at the last boundary's contents, and nothing after the launch writes it. -/
theorem frame_k : Cert.frame_Kernel (hKernel := Cert.Kernel.Gen.facts) (hPre_finite_inputs := Cert.Pre_finite_inputs.Gen.facts) :=
  fun m g _ => (θ_run (Cert.Kernel.defs (F := Bits)) _ _).mono
    (fun r h c =>
      have A : ∀ (b : Ref Cert.Kernel.sig .tc) (_ : ¬ (Proc.devRef .tc b : DevRef Cert.Kernel.τ Cert.Kernel.sig).isScoped)
          (_ : b ∉ Cert.Kernel.Hand.later0),
          r.2.mem ((c.tc : Thread Cert.Kernel.nD Cert.Kernel.τ).loc b) = m ((c.tc : Thread Cert.Kernel.nD Cert.Kernel.τ).loc b) :=
        fun b hs hl => (h c _ (Cert.Kernel.Hand.mem_uc b hs)).trans (Cert.Kernel.Hand.frame0 m c b hl)
      ⟨A Cert.Kernel.main_arg0 (by decide) (by decide),
        A Cert.Kernel.main_arg1 (by decide) (by decide),
        A Cert.Kernel.main_arg2 (by decide) (by decide),
        A Cert.Kernel.main_arg3 (by decide) (by decide),
        A Cert.Kernel.main_arg4 (by decide) (by decide),
        A Cert.Kernel.main_arg5 (by decide) (by decide),
        A Cert.Kernel.main_arg6 (by decide) (by decide),
        A Cert.Kernel.main_arg7 (by decide) (by decide),
        A Cert.Kernel.main_arg8 (by decide) (by decide),
        A Cert.Kernel.main_arg9 (by decide) (by decide),
        A Cert.Kernel.main_arg10 (by decide) (by decide),
        A Cert.Kernel.main_arg11 (by decide) (by decide),
        A Cert.Kernel.main_arg12 (by decide) (by decide),
        A Cert.Kernel.main_arg13 (by decide) (by decide),
        A Cert.Kernel.main_arg14 (by decide) (by decide)⟩)
    (Cert.Kernel.Hand.run_all (F := Bits) m g)

/-- The same of the kernel read on extended reals. -/
theorem frame_ki : Cert.frame_KernelIdeal (hKernelIdeal := Cert.KernelIdeal.Gen.facts) (hPre_finite_inputs := Cert.Pre_finite_inputs.Gen.facts) :=
  fun m g _ => (θ_run (Cert.KernelIdeal.defs (F := Ideal)) _ _).mono
    (fun r h c =>
      have A : ∀ (b : Ref Cert.KernelIdeal.sig .tc) (_ : ¬ (Proc.devRef .tc b : DevRef Cert.KernelIdeal.τ Cert.KernelIdeal.sig).isScoped)
          (_ : b ∉ Cert.KernelIdeal.Hand.later0),
          r.2.mem ((c.tc : Thread Cert.KernelIdeal.nD Cert.KernelIdeal.τ).loc b) = m ((c.tc : Thread Cert.KernelIdeal.nD Cert.KernelIdeal.τ).loc b) :=
        fun b hs hl => (h c _ (Cert.KernelIdeal.Hand.mem_uc b hs)).trans (Cert.KernelIdeal.Hand.frame0 m c b hl)
      ⟨A Cert.KernelIdeal.main_arg0 (by decide) (by decide),
        A Cert.KernelIdeal.main_arg1 (by decide) (by decide),
        A Cert.KernelIdeal.main_arg2 (by decide) (by decide),
        A Cert.KernelIdeal.main_arg3 (by decide) (by decide),
        A Cert.KernelIdeal.main_arg4 (by decide) (by decide),
        A Cert.KernelIdeal.main_arg5 (by decide) (by decide),
        A Cert.KernelIdeal.main_arg6 (by decide) (by decide),
        A Cert.KernelIdeal.main_arg7 (by decide) (by decide),
        A Cert.KernelIdeal.main_arg8 (by decide) (by decide),
        A Cert.KernelIdeal.main_arg9 (by decide) (by decide),
        A Cert.KernelIdeal.main_arg10 (by decide) (by decide),
        A Cert.KernelIdeal.main_arg11 (by decide) (by decide),
        A Cert.KernelIdeal.main_arg12 (by decide) (by decide),
        A Cert.KernelIdeal.main_arg13 (by decide) (by decide),
        A Cert.KernelIdeal.main_arg14 (by decide) (by decide)⟩)
    (Cert.KernelIdeal.Hand.run_all (F := Ideal) m g)

/-- The reference runs and its fifteen argument arrays end unchanged: every buffer ends at the fold of the 430
    operations over the launch contents, and no operation's result buffer is an argument. -/
theorem frame_ri : Cert.frame_ReferenceIdeal (hReferenceIdeal := Cert.ReferenceIdeal.Gen.facts) (hPre_finite_inputs := Cert.Pre_finite_inputs.Gen.facts) :=
  fun m g _ => (θ_run (Cert.ReferenceIdeal.defs (F := Ideal)) _ _).mono
    (fun r h c =>
      ⟨(h c Cert.ReferenceIdeal.main_arg0).trans (Cert.ReferenceIdeal.HandRun.RV_arg_0 m c),
        (h c Cert.ReferenceIdeal.main_arg1).trans (Cert.ReferenceIdeal.HandRun.RV_arg_1 m c),
        (h c Cert.ReferenceIdeal.main_arg2).trans (Cert.ReferenceIdeal.HandRun.RV_arg_2 m c),
        (h c Cert.ReferenceIdeal.main_arg3).trans (Cert.ReferenceIdeal.HandRun.RV_arg_3 m c),
        (h c Cert.ReferenceIdeal.main_arg4).trans (Cert.ReferenceIdeal.HandRun.RV_arg_4 m c),
        (h c Cert.ReferenceIdeal.main_arg5).trans (Cert.ReferenceIdeal.HandRun.RV_arg_5 m c),
        (h c Cert.ReferenceIdeal.main_arg6).trans (Cert.ReferenceIdeal.HandRun.RV_arg_6 m c),
        (h c Cert.ReferenceIdeal.main_arg7).trans (Cert.ReferenceIdeal.HandRun.RV_arg_7 m c),
        (h c Cert.ReferenceIdeal.main_arg8).trans (Cert.ReferenceIdeal.HandRun.RV_arg_8 m c),
        (h c Cert.ReferenceIdeal.main_arg9).trans (Cert.ReferenceIdeal.HandRun.RV_arg_9 m c),
        (h c Cert.ReferenceIdeal.main_arg10).trans (Cert.ReferenceIdeal.HandRun.RV_arg_10 m c),
        (h c Cert.ReferenceIdeal.main_arg11).trans (Cert.ReferenceIdeal.HandRun.RV_arg_11 m c),
        (h c Cert.ReferenceIdeal.main_arg12).trans (Cert.ReferenceIdeal.HandRun.RV_arg_12 m c),
        (h c Cert.ReferenceIdeal.main_arg13).trans (Cert.ReferenceIdeal.HandRun.RV_arg_13 m c),
        (h c Cert.ReferenceIdeal.main_arg14).trans (Cert.ReferenceIdeal.HandRun.RV_arg_14 m c)⟩)
    (Cert.ReferenceIdeal.HandRun.run (F := Ideal) m g)

/-- The idealization rewrote no operation: there is nothing to preserve. -/
theorem preserves : Cert.preserves_Kernel_KernelIdeal := trivial

/-- At the ideal instance, from memories agreeing on the arguments, the kernel and the reference both run and end
    with equal results and unchanged arguments. The witnesses are the kernel's final contents of its eleven result
    arrays; the reference's result arrays hold the same by the value equations, array by array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W63 (F := Ideal) m c (Proc.devRef .tc Cert.KernelIdeal.main_v208),
    fun c => Cert.KernelIdeal.Hand.W63 (F := Ideal) m c (Proc.devRef .tc Cert.KernelIdeal.main_v249),
    fun c => Cert.KernelIdeal.Hand.W63 (F := Ideal) m c (Proc.devRef .tc Cert.KernelIdeal.main_v54_0),
    fun c => Cert.KernelIdeal.Hand.W63 (F := Ideal) m c (Proc.devRef .tc Cert.KernelIdeal.main_v131_0),
    fun c => Cert.KernelIdeal.Hand.W63 (F := Ideal) m c (Proc.devRef .tc Cert.KernelIdeal.main_v204_0),
    fun c => Cert.KernelIdeal.Hand.W63 (F := Ideal) m c (Proc.devRef .tc Cert.KernelIdeal.main_v73),
    fun c => Cert.KernelIdeal.Hand.W63 (F := Ideal) m c (Proc.devRef .tc Cert.KernelIdeal.main_v146),
    fun c => Cert.KernelIdeal.Hand.W63 (F := Ideal) m c (Proc.devRef .tc Cert.KernelIdeal.main_v218),
    fun c => Cert.KernelIdeal.Hand.W63 (F := Ideal) m c (Proc.devRef .tc Cert.KernelIdeal.main_v87),
    fun c => Cert.KernelIdeal.Hand.W63 (F := Ideal) m c (Proc.devRef .tc Cert.KernelIdeal.main_v160),
    fun c => Cert.KernelIdeal.Hand.W63 (F := Ideal) m c (Proc.devRef .tc Cert.KernelIdeal.main_v232), ?_, ?_⟩
  · refine (θ_run (Cert.KernelIdeal.defs (F := Ideal)) _ _).mono (fun r h c => ?_) (Cert.KernelIdeal.Hand.run_all (F := Ideal) m g)
    have R : ∀ (b : Ref Cert.KernelIdeal.sig .tc) (_ : ¬ (Proc.devRef .tc b : DevRef Cert.KernelIdeal.τ Cert.KernelIdeal.sig).isScoped),
        r.2.mem ((c.tc : Thread Cert.KernelIdeal.nD Cert.KernelIdeal.τ).loc b) = Cert.KernelIdeal.Hand.W63 (F := Ideal) m c (Proc.devRef .tc b) :=
      fun b hs => h c _ (Cert.KernelIdeal.Hand.mem_uc b hs)
    have A : ∀ (b : Ref Cert.KernelIdeal.sig .tc) (_ : ¬ (Proc.devRef .tc b : DevRef Cert.KernelIdeal.τ Cert.KernelIdeal.sig).isScoped)
        (_ : b ∉ Cert.KernelIdeal.Hand.later0),
        r.2.mem ((c.tc : Thread Cert.KernelIdeal.nD Cert.KernelIdeal.τ).loc b) = m ((c.tc : Thread Cert.KernelIdeal.nD Cert.KernelIdeal.τ).loc b) :=
      fun b hs hl => (R b hs).trans (Cert.KernelIdeal.Hand.frame0 m c b hl)
    exact ⟨R Cert.KernelIdeal.main_v208 (by decide),
      R Cert.KernelIdeal.main_v249 (by decide),
      R Cert.KernelIdeal.main_v54_0 (by decide),
      R Cert.KernelIdeal.main_v131_0 (by decide),
      R Cert.KernelIdeal.main_v204_0 (by decide),
      R Cert.KernelIdeal.main_v73 (by decide),
      R Cert.KernelIdeal.main_v146 (by decide),
      R Cert.KernelIdeal.main_v218 (by decide),
      R Cert.KernelIdeal.main_v87 (by decide),
      R Cert.KernelIdeal.main_v160 (by decide),
      R Cert.KernelIdeal.main_v232 (by decide),
      A Cert.KernelIdeal.main_arg0 (by decide) (by decide),
      A Cert.KernelIdeal.main_arg1 (by decide) (by decide),
      A Cert.KernelIdeal.main_arg2 (by decide) (by decide),
      A Cert.KernelIdeal.main_arg3 (by decide) (by decide),
      A Cert.KernelIdeal.main_arg4 (by decide) (by decide),
      A Cert.KernelIdeal.main_arg5 (by decide) (by decide),
      A Cert.KernelIdeal.main_arg6 (by decide) (by decide),
      A Cert.KernelIdeal.main_arg7 (by decide) (by decide),
      A Cert.KernelIdeal.main_arg8 (by decide) (by decide),
      A Cert.KernelIdeal.main_arg9 (by decide) (by decide),
      A Cert.KernelIdeal.main_arg10 (by decide) (by decide),
      A Cert.KernelIdeal.main_arg11 (by decide) (by decide),
      A Cert.KernelIdeal.main_arg12 (by decide) (by decide),
      A Cert.KernelIdeal.main_arg13 (by decide) (by decide),
      A Cert.KernelIdeal.main_arg14 (by decide) (by decide)⟩
  · refine (θ_run (Cert.ReferenceIdeal.defs (F := Ideal)) _ _).mono (fun r h c => ?_) (Cert.ReferenceIdeal.HandRun.run (F := Ideal) m' g')
    have H : Cert.Bridge.Hyp m m' c := ⟨hagree c, hpre⟩
    exact ⟨(h c Cert.ReferenceIdeal.main_v262).trans (Cert.Bridge.cp_main_v208 (m := m) (m' := m') (c := c) H).symm,
      (h c Cert.ReferenceIdeal.main_v306).trans (Cert.Bridge.br_main_v249 (m := m) (m' := m') (c := c) H).symm,
      (h c Cert.ReferenceIdeal.main_v73).trans (Cert.Bridge.cp_main_v54_0 (m := m) (m' := m') (c := c) H).symm,
      (h c Cert.ReferenceIdeal.main_v162).trans (Cert.Bridge.cp_main_v131_0 (m := m) (m' := m') (c := c) H).symm,
      (h c Cert.ReferenceIdeal.main_v251).trans (Cert.Bridge.cp_main_v204_0 (m := m) (m' := m') (c := c) H).symm,
      (h c Cert.ReferenceIdeal.main_v98).trans (Cert.Bridge.br_main_v73 (m := m) (m' := m') (c := c) H).symm,
      (h c Cert.ReferenceIdeal.main_v187).trans (Cert.Bridge.br_main_v146 (m := m) (m' := m') (c := c) H).symm,
      (h c Cert.ReferenceIdeal.main_v273).trans (Cert.Bridge.br_main_v218 (m := m) (m' := m') (c := c) H).symm,
      (h c Cert.ReferenceIdeal.main_v114).trans (Cert.Bridge.br_main_v87 (m := m) (m' := m') (c := c) H).symm,
      (h c Cert.ReferenceIdeal.main_v203).trans (Cert.Bridge.br_main_v160 (m := m) (m' := m') (c := c) H).symm,
      (h c Cert.ReferenceIdeal.main_v289).trans (Cert.Bridge.br_main_v232 (m := m) (m' := m') (c := c) H).symm,
      (h c Cert.ReferenceIdeal.main_arg0).trans (Cert.ReferenceIdeal.HandRun.RV_arg_0 m' c),
      (h c Cert.ReferenceIdeal.main_arg1).trans (Cert.ReferenceIdeal.HandRun.RV_arg_1 m' c),
      (h c Cert.ReferenceIdeal.main_arg2).trans (Cert.ReferenceIdeal.HandRun.RV_arg_2 m' c),
      (h c Cert.ReferenceIdeal.main_arg3).trans (Cert.ReferenceIdeal.HandRun.RV_arg_3 m' c),
      (h c Cert.ReferenceIdeal.main_arg4).trans (Cert.ReferenceIdeal.HandRun.RV_arg_4 m' c),
      (h c Cert.ReferenceIdeal.main_arg5).trans (Cert.ReferenceIdeal.HandRun.RV_arg_5 m' c),
      (h c Cert.ReferenceIdeal.main_arg6).trans (Cert.ReferenceIdeal.HandRun.RV_arg_6 m' c),
      (h c Cert.ReferenceIdeal.main_arg7).trans (Cert.ReferenceIdeal.HandRun.RV_arg_7 m' c),
      (h c Cert.ReferenceIdeal.main_arg8).trans (Cert.ReferenceIdeal.HandRun.RV_arg_8 m' c),
      (h c Cert.ReferenceIdeal.main_arg9).trans (Cert.ReferenceIdeal.HandRun.RV_arg_9 m' c),
      (h c Cert.ReferenceIdeal.main_arg10).trans (Cert.ReferenceIdeal.HandRun.RV_arg_10 m' c),
      (h c Cert.ReferenceIdeal.main_arg11).trans (Cert.ReferenceIdeal.HandRun.RV_arg_11 m' c),
      (h c Cert.ReferenceIdeal.main_arg12).trans (Cert.ReferenceIdeal.HandRun.RV_arg_12 m' c),
      (h c Cert.ReferenceIdeal.main_arg13).trans (Cert.ReferenceIdeal.HandRun.RV_arg_13 m' c),
      (h c Cert.ReferenceIdeal.main_arg14).trans (Cert.ReferenceIdeal.HandRun.RV_arg_14 m' c)⟩

end Cert.Proof.Final

end
-- ==== Proof.lean ====
/-
  The claim of this certificate, proved.

  The program is three graph-convolution layers, each followed by a MinCut pooling step: a layer multiplies the
  node features by a weight matrix and aggregates them along the symmetrically normalized adjacency with self
  loops, adds a bias and clamps at zero; a pooling step projects the features to cluster scores clamped at zero, takes
  their softmax row by row, pools features and adjacency through the assignment matrix, and records the cut loss and the
  orthogonality loss of the assignment. The kernel does the matrix products in pipelined regions on the
  TensorCore (a plain product, a product with the left factor transposed, a projection fused with the row
  softmax, a product fused with row sums), twenty-one regions between stretches of host operations; the reference
  is one straight line of 430 host operations with gathers and scatter-adds for the sparse aggregation.

  Claimed and proved (Proof/Final.lean): both readings of the kernel and the reference run from any memory and
  leave their fifteen argument arrays unchanged; the idealization rewrote nothing; and on extended reals, from
  memories that agree on the arguments and satisfy the precondition (finite floats, edge indices inside the node
  range), the kernel's eleven result arrays end equal, element by element, to the reference's.
-/
import proofs.«405323_j90718299226206_3_alg».proof.Defs
import proofs.«405323_j90718299226206_3_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Final.frame_k, Final.frame_ki, Final.frame_ri, Final.preserves, Final.algebraic⟩

end Cert.Proof

end
